-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) →
    ∃ (v0 : (c : Dev Cert.KernelIdeal.nD) → Buf (Elt Ideal) ((c.tc : Thread Cert.KernelIdeal.nD Cert.KernelIdeal.τ).loc Cert.KernelIdeal.main_v62)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v62) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v105) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S4096x4096 : Shape := ⟨2, ![4096, 4096]⟩
abbrev S1024x512 : Shape := ⟨2, ![1024, 512]⟩
abbrev S_ : Shape := ⟨0, ![]⟩
abbrev S512x512 : Shape := ⟨2, ![512, 512]⟩
abbrev S512 : Shape := ⟨1, ![512]⟩
abbrev S512x16 : Shape := ⟨2, ![512, 16]⟩
abbrev S16 : Shape := ⟨1, ![16]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S1024x512 : S_.BroadcastsInDim S1024x512 (![] : Fin 0 → Fin S1024x512.rank)
  reducesTo_S1024x512_S_d0_1 : S1024x512.ReducesTo [0, 1] S_
  reducesTo_S_S_d : S_.ReducesTo [] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_
  bcast_S_S512x16 : S_.BroadcastsInDim S512x16 (![] : Fin 0 → Fin S512x16.rank)
  reducesTo_S512x16_S_d0_1 : S512x16.ReducesTo [0, 1] S_
  bcast_S_S16 : S_.BroadcastsInDim S16 (![] : Fin 0 → Fin S16.rank)
  reducesTo_S16_S_d0 : S16.ReducesTo [0] S_

variable [Facts]

def fn_part5 {F : FTy → Type} [FloatOps F] (main_arg18 : FVec F S512 .f32) (main_arg19 : FVec F S512x16 .f32) (main_arg20 : FVec F S16 .f32) (main_v81 : IVec S_ 1) (main_v84 : IVec S512 1) : IVec S_ 1 :=
  let main_c_33 : IVec S_ 1 := constantI S_ 1 1#1
  let main_v85 : IVec S_ 1 := (fun x v => Host.reduce IntOp.andi x v reducesTo_S512_S_d0 h_S_) main_v84 main_c_33
  let main_v86 : IVec S_ 1 := andi main_v81 main_v85
  let main_v87 : FVec F S512 .f32 := Host.absf main_arg18
  let main_cst_34 : FVec F S_ .f32 := constant S_ .f32 0x7F800000#32
  let main_v88 : FVec F S512 .f32 := broadcastInDim S512 ![] bcast_S_S512 main_cst_34
  let main_v89 : IVec S512 1 := cmpf .olt main_v87 main_v88
  let main_c_35 : IVec S_ 1 := constantI S_ 1 1#1
  let main_v90 : IVec S_ 1 := (fun x v => Host.reduce IntOp.andi x v reducesTo_S512_S_d0 h_S_) main_v89 main_c_35
  let main_v91 : IVec S_ 1 := andi main_v86 main_v90
  let main_v92 : FVec F S512x16 .f32 := Host.absf main_arg19
  let main_cst_36 : FVec F S_ .f32 := constant S_ .f32 0x7F800000#32
  let main_v93 : FVec F S512x16 .f32 := broadcastInDim S512x16 ![] bcast_S_S512x16 main_cst_36
  let main_v94 : IVec S512x16 1 := cmpf .olt main_v92 main_v93
  let main_c_37 : IVec S_ 1 := constantI S_ 1 1#1
  let main_v95 : IVec S_ 1 := (fun x v => Host.reduce IntOp.andi x v reducesTo_S512x16_S_d0_1 h_S_) main_v94 main_c_37
  let main_v96 : IVec S_ 1 := andi main_v91 main_v95
  let main_v97 : FVec F S16 .f32 := Host.absf main_arg20
  let main_cst_38 : FVec F S_ .f32 := constant S_ .f32 0x7F800000#32
  let main_v98 : FVec F S16 .f32 := broadcastInDim S16 ![] bcast_S_S16 main_cst_38
  let main_v99 : IVec S16 1 := cmpf .olt main_v97 main_v98
  let main_c_39 : IVec S_ 1 := constantI S_ 1 1#1
  let main_v100 : IVec S_ 1 := (fun x v => Host.reduce IntOp.andi x v reducesTo_S16_S_d0 h_S_) main_v99 main_c_39
  let main_v101 : IVec S_ 1 := andi main_v96 main_v100
  main_v101

def fn_part4 {F : FTy → Type} [FloatOps F] (main_arg15 : FVec F S512x512 .f32) (main_arg16 : FVec F S512 .f32) (main_arg17 : FVec F S512 .f32) (main_arg18 : FVec F S512 .f32) (main_arg19 : FVec F S512x16 .f32) (main_arg20 : FVec F S16 .f32) (main_v66 : IVec S_ 1) (main_v67 : FVec F S512 .f32) : IVec S_ 1 :=
  let main_cst_26 : FVec F S_ .f32 := constant S_ .f32 0x7F800000#32
  let main_v68 : FVec F S512 .f32 := broadcastInDim S512 ![] bcast_S_S512 main_cst_26
  let main_v69 : IVec S512 1 := cmpf .olt main_v67 main_v68
  let main_c_27 : IVec S_ 1 := constantI S_ 1 1#1
  let main_v70 : IVec S_ 1 := (fun x v => Host.reduce IntOp.andi x v reducesTo_S512_S_d0 h_S_) main_v69 main_c_27
  let main_v71 : IVec S_ 1 := andi main_v66 main_v70
  let main_v72 : FVec F S512x512 .f32 := Host.absf main_arg15
  let main_cst_28 : FVec F S_ .f32 := constant S_ .f32 0x7F800000#32
  let main_v73 : FVec F S512x512 .f32 := broadcastInDim S512x512 ![] bcast_S_S512x512 main_cst_28
  let main_v74 : IVec S512x512 1 := cmpf .olt main_v72 main_v73
  let main_c_29 : IVec S_ 1 := constantI S_ 1 1#1
  let main_v75 : IVec S_ 1 := (fun x v => Host.reduce IntOp.andi x v reducesTo_S512x512_S_d0_1 h_S_) main_v74 main_c_29
  let main_v76 : IVec S_ 1 := andi main_v71 main_v75
  let main_v77 : FVec F S512 .f32 := Host.absf main_arg16
  let main_cst_30 : FVec F S_ .f32 := constant S_ .f32 0x7F800000#32
  let main_v78 : FVec F S512 .f32 := broadcastInDim S512 ![] bcast_S_S512 main_cst_30
  let main_v79 : IVec S512 1 := cmpf .olt main_v77 main_v78
  let main_c_31 : IVec S_ 1 := constantI S_ 1 1#1
  let main_v80 : IVec S_ 1 := (fun x v => Host.reduce IntOp.andi x v reducesTo_S512_S_d0 h_S_) main_v79 main_c_31
  let main_v81 : IVec S_ 1 := andi main_v76 main_v80
  let main_v82 : FVec F S512 .f32 := Host.absf main_arg17
  let main_cst_32 : FVec F S_ .f32 := constant S_ .f32 0x7F800000#32
  let main_v83 : FVec F S512 .f32 := broadcastInDim S512 ![] bcast_S_S512 main_cst_32
  let main_v84 : IVec S512 1 := cmpf .olt main_v82 main_v83
  fn_part5 (F := F) main_arg18 main_arg19 main_arg20 main_v81 main_v84

def fn_part3 {F : FTy → Type} [FloatOps F] (main_arg11 : FVec F S1024x512 .f32) (main_arg12 : FVec F S512 .f32) (main_arg13 : FVec F S1024x512 .f32) (main_arg14 : FVec F S512 .f32) (main_arg15 : FVec F S512x512 .f32) (main_arg16 : FVec F S512 .f32) (main_arg17 : FVec F S512 .f32) (main_arg18 : FVec F S512 .f32) (main_arg19 : FVec F S512x16 .f32) (main_arg20 : FVec F S16 .f32) (main_v47 : IVec S_ 1) (main_v49 : IVec S_ 1) (main_c_19 : IVec S_ 1) : IVec S_ 1 :=
  let main_v50 : IVec S_ 1 := (fun x v => Host.reduce IntOp.andi x v reducesTo_S_S_d h_S_) main_v49 main_c_19
  let main_v51 : IVec S_ 1 := andi main_v47 main_v50
  let main_v52 : FVec F S1024x512 .f32 := Host.absf main_arg11
  let main_cst_20 : FVec F S_ .f32 := constant S_ .f32 0x7F800000#32
  let main_v53 : FVec F S1024x512 .f32 := broadcastInDim S1024x512 ![] bcast_S_S1024x512 main_cst_20
  let main_v54 : IVec S1024x512 1 := cmpf .olt main_v52 main_v53
  let main_c_21 : IVec S_ 1 := constantI S_ 1 1#1
  let main_v55 : IVec S_ 1 := (fun x v => Host.reduce IntOp.andi x v reducesTo_S1024x512_S_d0_1 h_S_) main_v54 main_c_21
  let main_v56 : IVec S_ 1 := andi main_v51 main_v55
  let main_v57 : FVec F S512 .f32 := Host.absf main_arg12
  let main_cst_22 : FVec F S_ .f32 := constant S_ .f32 0x7F800000#32
  let main_v58 : FVec F S512 .f32 := broadcastInDim S512 ![] bcast_S_S512 main_cst_22
  let main_v59 : IVec S512 1 := cmpf .olt main_v57 main_v58
  let main_c_23 : IVec S_ 1 := constantI S_ 1 1#1
  let main_v60 : IVec S_ 1 := (fun x v => Host.reduce IntOp.andi x v reducesTo_S512_S_d0 h_S_) main_v59 main_c_23
  let main_v61 : IVec S_ 1 := andi main_v56 main_v60
  let main_v62 : FVec F S1024x512 .f32 := Host.absf main_arg13
  let main_cst_24 : FVec F S_ .f32 := constant S_ .f32 0x7F800000#32
  let main_v63 : FVec F S1024x512 .f32 := broadcastInDim S1024x512 ![] bcast_S_S1024x512 main_cst_24
  let main_v64 : IVec S1024x512 1 := cmpf .olt main_v62 main_v63
  let main_c_25 : IVec S_ 1 := constantI S_ 1 1#1
  let main_v65 : IVec S_ 1 := (fun x v => Host.reduce IntOp.andi x v reducesTo_S1024x512_S_d0_1 h_S_) main_v64 main_c_25
  let main_v66 : IVec S_ 1 := andi main_v61 main_v65
  let main_v67 : FVec F S512 .f32 := Host.absf main_arg14
  fn_part4 (F := F) main_arg15 main_arg16 main_arg17 main_arg18 main_arg19 main_arg20 main_v66 main_v67

def fn_part2 {F : FTy → Type} [FloatOps F] (main_arg7 : FVec F S_ .f32) (main_arg8 : FVec F S512x512 .f32) (main_arg9 : FVec F S512x512 .f32) (main_arg10 : FVec F S_ .f32) (main_arg11 : FVec F S1024x512 .f32) (main_arg12 : FVec F S512 .f32) (main_arg13 : FVec F S1024x512 .f32) (main_arg14 : FVec F S512 .f32) (main_arg15 : FVec F S512x512 .f32) (main_arg16 : FVec F S512 .f32) (main_arg17 : FVec F S512 .f32) (main_arg18 : FVec F S512 .f32) (main_arg19 : FVec F S512x16 .f32) (main_arg20 : FVec F S16 .f32) (main_v33 : IVec S_ 1) : IVec S_ 1 :=
  let main_v34 : FVec F S_ .f32 := Host.absf main_arg7
  let main_cst_12 : FVec F S_ .f32 := constant S_ .f32 0x7F800000#32
  let main_v35 : IVec S_ 1 := cmpf .olt main_v34 main_cst_12
  let main_c_13 : IVec S_ 1 := constantI S_ 1 1#1
  let main_v36 : IVec S_ 1 := (fun x v => Host.reduce IntOp.andi x v reducesTo_S_S_d h_S_) main_v35 main_c_13
  let main_v37 : IVec S_ 1 := andi main_v33 main_v36
  let main_v38 : FVec F S512x512 .f32 := Host.absf main_arg8
  let main_cst_14 : FVec F S_ .f32 := constant S_ .f32 0x7F800000#32
  let main_v39 : FVec F S512x512 .f32 := broadcastInDim S512x512 ![] bcast_S_S512x512 main_cst_14
  let main_v40 : IVec S512x512 1 := cmpf .olt main_v38 main_v39
  let main_c_15 : IVec S_ 1 := constantI S_ 1 1#1
  let main_v41 : IVec S_ 1 := (fun x v => Host.reduce IntOp.andi x v reducesTo_S512x512_S_d0_1 h_S_) main_v40 main_c_15
  let main_v42 : IVec S_ 1 := andi main_v37 main_v41
  let main_v43 : FVec F S512x512 .f32 := Host.absf main_arg9
  let main_cst_16 : FVec F S_ .f32 := constant S_ .f32 0x7F800000#32
  let main_v44 : FVec F S512x512 .f32 := broadcastInDim S512x512 ![] bcast_S_S512x512 main_cst_16
  let main_v45 : IVec S512x512 1 := cmpf .olt main_v43 main_v44
  let main_c_17 : IVec S_ 1 := constantI S_ 1 1#1
  let main_v46 : IVec S_ 1 := (fun x v => Host.reduce IntOp.andi x v reducesTo_S512x512_S_d0_1 h_S_) main_v45 main_c_17
  let main_v47 : IVec S_ 1 := andi main_v42 main_v46
  let main_v48 : FVec F S_ .f32 := Host.absf main_arg10
  let main_cst_18 : FVec F S_ .f32 := constant S_ .f32 0x7F800000#32
  let main_v49 : IVec S_ 1 := cmpf .olt main_v48 main_cst_18
  let main_c_19 : IVec S_ 1 := constantI S_ 1 1#1
  fn_part3 (F := F) main_arg11 main_arg12 main_arg13 main_arg14 main_arg15 main_arg16 main_arg17 main_arg18 main_arg19 main_arg20 main_v47 main_v49 main_c_19

def fn_part1 {F : FTy → Type} [FloatOps F] (main_arg4 : FVec F S4096x1024 .f32) (main_arg5 : FVec F S1024x512 .f32) (main_arg6 : FVec F S1024x512 .f32) (main_arg7 : FVec F S_ .f32) (main_arg8 : FVec F S512x512 .f32) (main_arg9 : FVec F S512x512 .f32) (main_arg10 : FVec F S_ .f32) (main_arg11 : FVec F S1024x512 .f32) (main_arg12 : FVec F S512 .f32) (main_arg13 : FVec F S1024x512 .f32) (main_arg14 : FVec F S512 .f32) (main_arg15 : FVec F S512x512 .f32) (main_arg16 : FVec F S512 .f32) (main_arg17 : FVec F S512 .f32) (main_arg18 : FVec F S512 .f32) (main_arg19 : FVec F S512x16 .f32) (main_arg20 : FVec F S16 .f32) (main_v13 : IVec S_ 1) (main_v16 : IVec S4096x4096 1) : IVec S_ 1 :=
  let main_c_5 : IVec S_ 1 := constantI S_ 1 1#1
  let main_v17 : IVec S_ 1 := (fun x v => Host.reduce IntOp.andi x v reducesTo_S4096x4096_S_d0_1 h_S_) main_v16 main_c_5
  let main_v18 : IVec S_ 1 := andi main_v13 main_v17
  let main_v19 : FVec F S4096x1024 .f32 := Host.absf main_arg4
  let main_cst_6 : FVec F S_ .f32 := constant S_ .f32 0x7F800000#32
  let main_v20 : FVec F S4096x1024 .f32 := broadcastInDim S4096x1024 ![] bcast_S_S4096x1024 main_cst_6
  let main_v21 : IVec S4096x1024 1 := cmpf .olt main_v19 main_v20
  let main_c_7 : IVec S_ 1 := constantI S_ 1 1#1
  let main_v22 : IVec S_ 1 := (fun x v => Host.reduce IntOp.andi x v reducesTo_S4096x1024_S_d0_1 h_S_) main_v21 main_c_7
  let main_v23 : IVec S_ 1 := andi main_v18 main_v22
  let main_v24 : FVec F S1024x512 .f32 := Host.absf main_arg5
  let main_cst_8 : FVec F S_ .f32 := constant S_ .f32 0x7F800000#32
  let main_v25 : FVec F S1024x512 .f32 := broadcastInDim S1024x512 ![] bcast_S_S1024x512 main_cst_8
  let main_v26 : IVec S1024x512 1 := cmpf .olt main_v24 main_v25
  let main_c_9 : IVec S_ 1 := constantI S_ 1 1#1
  let main_v27 : IVec S_ 1 := (fun x v => Host.reduce IntOp.andi x v reducesTo_S1024x512_S_d0_1 h_S_) main_v26 main_c_9
  let main_v28 : IVec S_ 1 := andi main_v23 main_v27
  let main_v29 : FVec F S1024x512 .f32 := Host.absf main_arg6
  let main_cst_10 : FVec F S_ .f32 := constant S_ .f32 0x7F800000#32
  let main_v30 : FVec F S1024x512 .f32 := broadcastInDim S1024x512 ![] bcast_S_S1024x512 main_cst_10
  let main_v31 : IVec S1024x512 1 := cmpf .olt main_v29 main_v30
  let main_c_11 : IVec S_ 1 := constantI S_ 1 1#1
  let main_v32 : IVec S_ 1 := (fun x v => Host.reduce IntOp.andi x v reducesTo_S1024x512_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_v33

def fn {F : FTy → Type} [FloatOps F] (main_arg0 : FVec F S4096x1024 .f32) (main_arg1 : FVec F S4096x4096 .f32) (main_arg2 : FVec F S4096x4096 .f32) (main_arg3 : FVec F S4096x4096 .f32) (main_arg4 : FVec F S4096x1024 .f32) (main_arg5 : FVec F S1024x512 .f32) (main_arg6 : FVec F S1024x512 .f32) (main_arg7 : FVec F S_ .f32) (main_arg8 : FVec F S512x512 .f32) (main_arg9 : FVec F S512x512 .f32) (main_arg10 : FVec F S_ .f32) (main_arg11 : FVec F S1024x512 .f32) (main_arg12 : FVec F S512 .f32) (main_arg13 : FVec F S1024x512 .f32) (main_arg14 : FVec F S512 .f32) (main_arg15 : FVec F S512x512 .f32) (main_arg16 : FVec F S512 .f32) (main_arg17 : FVec F S512 .f32) (main_arg18 : FVec F S512 .f32) (main_arg19 : FVec F S512x16 .f32) (main_arg20 : FVec F S16 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096x4096 .f32 := Host.absf main_arg2
  let main_cst_2 : FVec F S_ .f32 := constant S_ .f32 0x7F800000#32
  let main_v10 : FVec F S4096x4096 .f32 := broadcastInDim S4096x4096 ![] bcast_S_S4096x4096 main_cst_2
  let main_v11 : IVec S4096x4096 1 := cmpf .olt main_v9 main_v10
  let main_c_3 : IVec S_ 1 := constantI S_ 1 1#1
  let main_v12 : IVec S_ 1 := (fun x v => Host.reduce IntOp.andi x v reducesTo_S4096x4096_S_d0_1 h_S_) main_v11 main_c_3
  let main_v13 : IVec S_ 1 := andi main_v8 main_v12
  let main_v14 : FVec F S4096x4096 .f32 := Host.absf main_arg3
  let main_cst_4 : FVec F S_ .f32 := constant S_ .f32 0x7F800000#32
  let main_v15 : FVec F S4096x4096 .f32 := broadcastInDim S4096x4096 ![] bcast_S_S4096x4096 main_cst_4
  let main_v16 : IVec S4096x4096 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_v13 main_v16
-- ==== Kernel.lean ====
abbrev S4096x1024 : Shape := ⟨2, ![4096, 1024]⟩
abbrev S4096x4096 : Shape := ⟨2, ![4096, 4096]⟩
abbrev S1024x512 : Shape := ⟨2, ![1024, 512]⟩
abbrev S_ : Shape := ⟨0, ![]⟩
abbrev S512x512 : Shape := ⟨2, ![512, 512]⟩
abbrev S512 : Shape := ⟨1, ![512]⟩
abbrev S512x16 : Shape := ⟨2, ![512, 16]⟩
abbrev S16 : Shape := ⟨1, ![16]⟩
abbrev S4096x512 : Shape := ⟨2, ![4096, 512]⟩
abbrev S512x1024 : Shape := ⟨2, ![512, 1024]⟩
abbrev S1024x1024 : Shape := ⟨2, ![1024, 1024]⟩
abbrev S1x512 : Shape := ⟨2, ![1, 512]⟩
abbrev S4096x1 : Shape := ⟨2, ![4096, 1]⟩
abbrev S1024x1 : Shape := ⟨2, ![1024, 1]⟩
abbrev S1024 : Shape := ⟨1, ![1024]⟩
abbrev S4096x3 : Shape := ⟨2, ![4096, 3]⟩
abbrev S4096 : Shape := ⟨1, ![4096]⟩
abbrev S1x16 : Shape := ⟨2, ![1, 16]⟩
abbrev S4096x16 : Shape := ⟨2, ![4096, 16]⟩
abbrev S1024x3 : Shape := ⟨2, ![1024, 3]⟩
abbrev S1024x16 : Shape := ⟨2, ![1024, 16]⟩

abbrev nBuf : Space → Nat
  | .hbm => 93
  | .vmem => 107
  | .smem => 0
  | _ => 0

abbrev bufTy : (tb : Table) → Fin (tcTables nBuf tb) → BufTy
  | .hbm, ⟨0, _⟩ => ⟨S4096x1024, .f32⟩
  | .hbm, ⟨1, _⟩ => ⟨S4096x4096, .f32⟩
  | .hbm, ⟨2, _⟩ => ⟨S4096x4096, .f32⟩
  | .hbm, ⟨3, _⟩ => ⟨S4096x4096, .f32⟩
  | .hbm, ⟨4, _⟩ => ⟨S4096x1024, .f32⟩
  | .hbm, ⟨5, _⟩ => ⟨S1024x512, .f32⟩
  | .hbm, ⟨6, _⟩ => ⟨S1024x512, .f32⟩
  | .hbm, ⟨7, _⟩ => ⟨S_, .f32⟩
  | .hbm, ⟨8, _⟩ => ⟨S512x512, .f32⟩
  | .hbm, ⟨9, _⟩ => ⟨S512x512, .f32⟩
  | .hbm, ⟨10, _⟩ => ⟨S_, .f32⟩
  | .hbm, ⟨11, _⟩ => ⟨S1024x512, .f32⟩
  | .hbm, ⟨12, _⟩ => ⟨S512, .f32⟩
  | .hbm, ⟨13, _⟩ => ⟨S1024x512, .f32⟩
  | .hbm, ⟨14, _⟩ => ⟨S512, .f32⟩
  | .hbm, ⟨15, _⟩ => ⟨S512x512, .f32⟩
  | .hbm, ⟨16, _⟩ => ⟨S512, .f32⟩
  | .hbm, ⟨17, _⟩ => ⟨S512, .f32⟩
  | .hbm, ⟨18, _⟩ => ⟨S512, .f32⟩
  | .hbm, ⟨19, _⟩ => ⟨S512x16, .f32⟩
  | .hbm, ⟨20, _⟩ => ⟨S16, .f32⟩
  | .hbm, ⟨21, _⟩ => ⟨S4096x1024, .bf16⟩
  | .hbm, ⟨22, _⟩ => ⟨S4096x4096, .bf16⟩
  | .hbm, ⟨23, _⟩ => ⟨S4096x4096, .bf16⟩
  | .hbm, ⟨24, _⟩ => ⟨S4096x4096, .bf16⟩
  | .hbm, ⟨25, _⟩ => ⟨S4096x1024, .bf16⟩
  | .hbm, ⟨26, _⟩ => ⟨S1024x512, .bf16⟩
  | .hbm, ⟨27, _⟩ => ⟨S1024x512, .bf16⟩
  | .hbm, ⟨28, _⟩ => ⟨S512x512, .bf16⟩
  | .hbm, ⟨29, _⟩ => ⟨S512x16, .bf16⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S1024x512, .f32⟩
  | .hbm, ⟨43, _⟩ => ⟨S1024x512, .f32⟩
  | .hbm, ⟨44, _⟩ => ⟨S1024x512, .bf16⟩
  | .hbm, ⟨45, _⟩ => ⟨S_, .f32⟩
  | .hbm, ⟨46, _⟩ => ⟨S_, .f32⟩
  | .hbm, ⟨47, _⟩ => ⟨S1024x512, .f32⟩
  | .hbm, ⟨48, _⟩ => ⟨S1024x512, .f32⟩
  | .hbm, ⟨49, _⟩ => ⟨S1024x512, .bf16⟩
  | .hbm, ⟨50, _⟩ => ⟨S512x512, .f32⟩
  | .hbm, ⟨51, _⟩ => ⟨S512x512, .f32⟩
  | .hbm, ⟨52, _⟩ => ⟨S512x512, .bf16⟩
  | .hbm, ⟨53, _⟩ => ⟨S_, .f32⟩
  | .hbm, ⟨54, _⟩ => ⟨S_, .f32⟩
  | .hbm, ⟨55, _⟩ => ⟨S512x512, .f32⟩
  | .hbm, ⟨56, _⟩ => ⟨S512x512, .f32⟩
  | .hbm, ⟨57, _⟩ => ⟨S512x512, .bf16⟩
  | .hbm, ⟨58, _⟩ => ⟨S4096x512, .bf16⟩
  | .hbm, ⟨59, _⟩ => ⟨S4096x1024, .bf16⟩
  | .hbm, ⟨60, _⟩ => ⟨S4096x512, .bf16⟩
  | .hbm, ⟨61, _⟩ => ⟨S4096x512, .bf16⟩
  | .hbm, ⟨62, _⟩ => ⟨S4096x512, .bf16⟩
  | .hbm, ⟨63, _⟩ => ⟨S4096x512, .bf16⟩
  | .hbm, ⟨64, _⟩ => ⟨S4096x512, .bf16⟩
  | .hbm, ⟨65, _⟩ => ⟨S1x512, .f32⟩
  | .hbm, ⟨66, _⟩ => ⟨S4096x512, .bf16⟩
  | .hbm, ⟨67, _⟩ => ⟨S1x512, .f32⟩
  | .hbm, ⟨68, _⟩ => ⟨S4096x512, .bf16⟩
  | .hbm, ⟨69, _⟩ => ⟨S4096x512, .bf16⟩
  | .hbm, ⟨70, _⟩ => ⟨S512, .f32⟩
  | .hbm, ⟨71, _⟩ => ⟨S1x512, .f32⟩
  | .hbm, ⟨72, _⟩ => ⟨S1x512, .f32⟩
  | .hbm, ⟨73, _⟩ => ⟨S4096x1, .f32⟩
  | .hbm, ⟨74, _⟩ => ⟨S4096x1, .f32⟩
  | .hbm, ⟨75, _⟩ => ⟨S4096x1, .f32⟩
  | .hbm, ⟨76, _⟩ => ⟨S4096x3, .f32⟩
  | .hbm, ⟨77, _⟩ => ⟨S_, .f32⟩
  | .hbm, ⟨78, _⟩ => ⟨S4096, .f32⟩
  | .hbm, ⟨79, _⟩ => ⟨S_, .f32⟩
  | .hbm, ⟨80, _⟩ => ⟨S4096, .f32⟩
  | .hbm, ⟨81, _⟩ => ⟨S4096, .f32⟩
  | .hbm, ⟨82, _⟩ => ⟨S4096x1, .f32⟩
  | .hbm, ⟨83, _⟩ => ⟨S4096x3, .f32⟩
  | .hbm, ⟨84, _⟩ => ⟨S4096x3, .f32⟩
  | .hbm, ⟨85, _⟩ => ⟨S4096x3, .f32⟩
  | .hbm, ⟨86, _⟩ => ⟨S_, .f32⟩
  | .hbm, ⟨87, _⟩ => ⟨S4096, .f32⟩
  | .hbm, ⟨88, _⟩ => ⟨S4096x1, .f32⟩
  | .hbm, ⟨89, _⟩ => ⟨S4096x3, .f32⟩
  | .hbm, ⟨90, _⟩ => ⟨S4096x3, .f32⟩
  | .hbm, ⟨91, _⟩ => ⟨S1x16, .f32⟩
  | .hbm, ⟨92, _⟩ => ⟨S4096x16, .f32⟩
  | .local _ .vmem, ⟨0, _⟩ => ⟨S1024x512, .bf16⟩
  | .local _ .vmem, ⟨1, _⟩ => ⟨S1024x512, .bf16⟩
  | .local _ .vmem, ⟨2, _⟩ => ⟨S512x512, .bf16⟩
  | .local _ .vmem, ⟨3, _⟩ => ⟨S512x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .f32⟩
  | .local _ .vmem, ⟨7, _⟩ => ⟨S1024x512, .bf16⟩
  | .local _ .vmem, ⟨8, _⟩ => ⟨S1024x512, .bf16⟩
  | .local _ .vmem, ⟨9, _⟩ => ⟨S512x1024, .bf16⟩
  | .local _ .vmem, ⟨10, _⟩ => ⟨S512x1024, .bf16⟩
  | .local _ .vmem, ⟨11, _⟩ => ⟨S1024x1024, .bf16⟩
  | .local _ .vmem, ⟨12, _⟩ => ⟨S1024x1024, .bf16⟩
  | .local _ .vmem, ⟨13, _⟩ => ⟨S1024x1024, .f32⟩
  | .local _ .vmem, ⟨14, _⟩ => ⟨S1024x512, .bf16⟩
  | .local _ .vmem, ⟨15, _⟩ => ⟨S1024x512, .bf16⟩
  | .local _ .vmem, ⟨16, _⟩ => ⟨S512x512, .bf16⟩
  | .local _ .vmem, ⟨17, _⟩ => ⟨S512x512, .bf16⟩
  | .local _ .vmem, ⟨18, _⟩ => ⟨S1024x512, .bf16⟩
  | .local _ .vmem, ⟨19, _⟩ => ⟨S1024x512, .bf16⟩
  | .local _ .vmem, ⟨20, _⟩ => ⟨S1024x512, .bf16⟩
  | .local _ .vmem, ⟨21, _⟩ => ⟨S1024x512, .bf16⟩
  | .local _ .vmem, ⟨22, _⟩ => ⟨S1024x512, .f32⟩
  | .local _ .vmem, ⟨23, _⟩ => ⟨S1024x512, .bf16⟩
  | .local _ .vmem, ⟨24, _⟩ => ⟨S1024x512, .bf16⟩
  | .local _ .vmem, ⟨25, _⟩ => ⟨S512x512, .bf16⟩
  | .local _ .vmem, ⟨26, _⟩ => ⟨S1024x512, .bf16⟩
  | .local _ .vmem, ⟨27, _⟩ => ⟨S1024x512, .bf16⟩
  | .local _ .vmem, ⟨28, _⟩ => ⟨S1024x512, .f32⟩
  | .local _ .vmem, ⟨29, _⟩ => ⟨S1024x512, .bf16⟩
  | .local _ .vmem, ⟨30, _⟩ => ⟨S1024x512, .bf16⟩
  | .local _ .vmem, ⟨31, _⟩ => ⟨S512x512, .bf16⟩
  | .local _ .vmem, ⟨32, _⟩ => ⟨S512x512, .bf16⟩
  | .local _ .vmem, ⟨33, _⟩ => ⟨S1024x512, .bf16⟩
  | .local _ .vmem, ⟨34, _⟩ => ⟨S1024x512, .bf16⟩
  | .local _ .vmem, ⟨35, _⟩ => ⟨S1024x512, .f32⟩
  | .local _ .vmem, ⟨36, _⟩ => ⟨S1024x512, .bf16⟩
  | .local _ .vmem, ⟨37, _⟩ => ⟨S1024x512, .bf16⟩
  | .local _ .vmem, ⟨38, _⟩ => ⟨S512x512, .bf16⟩
  | .local _ .vmem, ⟨39, _⟩ => ⟨S1024x512, .bf16⟩
  | .local _ .vmem, ⟨40, _⟩ => ⟨S1024x512, .bf16⟩
  | .local _ .vmem, ⟨41, _⟩ => ⟨S1024x512, .bf16⟩
  | .local _ .vmem, ⟨42, _⟩ => ⟨S1024x512, .bf16⟩
  | .local _ .vmem, ⟨43, _⟩ => ⟨S1024x512, .f32⟩
  | .local _ .vmem, ⟨44, _⟩ => ⟨S1024x512, .bf16⟩
  | .local _ .vmem, ⟨45, _⟩ => ⟨S1024x512, .bf16⟩
  | .local _ .vmem, ⟨46, _⟩ => ⟨S512x512, .bf16⟩
  | .local _ .vmem, ⟨47, _⟩ => ⟨S512x512, .bf16⟩
  | .local _ .vmem, ⟨48, _⟩ => ⟨S1024x512, .bf16⟩
  | .local _ .vmem, ⟨49, _⟩ => ⟨S1024x512, .bf16⟩
  | .local _ .vmem, ⟨50, _⟩ => ⟨S1024x512, .f32⟩
  | .local _ .vmem, ⟨51, _⟩ => ⟨S1024x512, .bf16⟩
  | .local _ .vmem, ⟨52, _⟩ => ⟨S1024x512, .bf16⟩
  | .local _ .vmem, ⟨53, _⟩ => ⟨S512x512, .bf16⟩
  | .local _ .vmem, ⟨54, _⟩ => ⟨S512x512, .bf16⟩
  | .local _ .vmem, ⟨55, _⟩ => ⟨S1x512, .f32⟩
  | .local _ .vmem, ⟨56, _⟩ => ⟨S1024x512, .bf16⟩
  | .local _ .vmem, ⟨57, _⟩ => ⟨S1024x512, .bf16⟩
  | .local _ .vmem, ⟨58, _⟩ => ⟨S1024x512, .f32⟩
  | .local _ .vmem, ⟨59, _⟩ => ⟨S1024x512, .bf16⟩
  | .local _ .vmem, ⟨60, _⟩ => ⟨S1024x512, .bf16⟩
  | .local _ .vmem, ⟨61, _⟩ => ⟨S512x512, .bf16⟩
  | .local _ .vmem, ⟨62, _⟩ => ⟨S512x512, .bf16⟩
  | .local _ .vmem, ⟨63, _⟩ => ⟨S1x512, .f32⟩
  | .local _ .vmem, ⟨64, _⟩ => ⟨S1024x512, .bf16⟩
  | .local _ .vmem, ⟨65, _⟩ => ⟨S1024x512, .bf16⟩
  | .local _ .vmem, ⟨66, _⟩ => ⟨S1024x512, .f32⟩
  | .local _ .vmem, ⟨67, _⟩ => ⟨S1024x512, .bf16⟩
  | .local _ .vmem, ⟨68, _⟩ => ⟨S1024x512, .bf16⟩
  | .local _ .vmem, ⟨69, _⟩ => ⟨S512x512, .bf16⟩
  | .local _ .vmem, ⟨70, _⟩ => ⟨S512x512, .bf16⟩
  | .local _ .vmem, ⟨71, _⟩ => ⟨S1024x512, .bf16⟩
  | .local _ .vmem, ⟨72, _⟩ => ⟨S1024x512, .bf16⟩
  | .local _ .vmem, ⟨73, _⟩ => ⟨S1024x512, .f32⟩
  | .local _ .vmem, ⟨74, _⟩ => ⟨S1024x512, .bf16⟩
  | .local _ .vmem, ⟨75, _⟩ => ⟨S1024x512, .bf16⟩
  | .local _ .vmem, ⟨76, _⟩ => ⟨S512x512, .bf16⟩
  | .local _ .vmem, ⟨77, _⟩ => ⟨S1x512, .f32⟩
  | .local _ .vmem, ⟨78, _⟩ => ⟨S1x512, .f32⟩
  | .local _ .vmem, ⟨79, _⟩ => ⟨S1024x1, .f32⟩
  | .local _ .vmem, ⟨80, _⟩ => ⟨S1024x1, .f32⟩
  | .local _ .vmem, ⟨81, _⟩ => ⟨S1024x512, .bf16⟩
  | .local _ .vmem, ⟨82, _⟩ => ⟨S1024x512, .bf16⟩
  | .local _ .vmem, ⟨83, _⟩ => ⟨S512x512, .bf16⟩
  | .local _ .vmem, ⟨84, _⟩ => ⟨S1x512, .f32⟩
  | .local _ .vmem, ⟨85, _⟩ => ⟨S1x512, .f32⟩
  | .local _ .vmem, ⟨86, _⟩ => ⟨S1024x1, .f32⟩
  | .local _ .vmem, ⟨87, _⟩ => ⟨S1024x1, .f32⟩
  | .local _ .vmem, ⟨88, _⟩ => ⟨S1024x512, .bf16⟩
  | .local _ .vmem, ⟨89, _⟩ => ⟨S1024x512, .bf16⟩
  | .local _ .vmem, ⟨90, _⟩ => ⟨S512x512, .bf16⟩
  | .local _ .vmem, ⟨91, _⟩ => ⟨S1x512, .f32⟩
  | .local _ .vmem, ⟨92, _⟩ => ⟨S1x512, .f32⟩
  | .local _ .vmem, ⟨93, _⟩ => ⟨S1024x1, .f32⟩
  | .local _ .vmem, ⟨94, _⟩ => ⟨S1024x1, .f32⟩
  | .local _ .vmem, ⟨95, _⟩ => ⟨S1024x512, .bf16⟩
  | .local _ .vmem, ⟨96, _⟩ => ⟨S1024x512, .bf16⟩
  | .local _ .vmem, ⟨97, _⟩ => ⟨S1024x512, .bf16⟩
  | .local _ .vmem, ⟨98, _⟩ => ⟨S1024x512, .bf16⟩
  | .local _ .vmem, ⟨99, _⟩ => ⟨S1024x512, .bf16⟩
  | .local _ .vmem, ⟨100, _⟩ => ⟨S1024x512, .bf16⟩
  | .local _ .vmem, ⟨101, _⟩ => ⟨S1024x3, .f32⟩
  | .local _ .vmem, ⟨102, _⟩ => ⟨S1024x3, .f32⟩
  | .local _ .vmem, ⟨103, _⟩ => ⟨S512x16, .bf16⟩
  | .local _ .vmem, ⟨104, _⟩ => ⟨S1x16, .f32⟩
  | .local _ .vmem, ⟨105, _⟩ => ⟨S1024x16, .f32⟩
  | .local _ .vmem, ⟨106, _⟩ => ⟨S1024x16, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | .vmem, ⟨96, _⟩ => true
  | .vmem, ⟨97, _⟩ => true
  | .vmem, ⟨98, _⟩ => true
  | .vmem, ⟨99, _⟩ => true
  | .vmem, ⟨100, _⟩ => true
  | .vmem, ⟨101, _⟩ => true
  | .vmem, ⟨102, _⟩ => true
  | .vmem, ⟨103, _⟩ => true
  | .vmem, ⟨104, _⟩ => true
  | .vmem, ⟨105, _⟩ => true
  | .vmem, ⟨106, _⟩ => true
  | _, _ => false

abbrev semScoped : Fin 0 → Bool
  | ⟨_, h⟩ => absurd h (Nat.not_lt_zero _)

abbrev dmaSemScoped : Fin 97 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | _ => false

abbrev sig : RefSig :=
  ofTc nBuf bufTy 0 97 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_cst : Ref sig .tc := ⟨.hbm, 32, rfl⟩
abbrev main_v11 : Ref sig .tc := ⟨.hbm, 33, rfl⟩
abbrev main_cst_0 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_cst_1 : Ref sig .tc := ⟨.hbm, 38, rfl⟩
abbrev main_v15 : Ref sig .tc := ⟨.hbm, 39, rfl⟩
abbrev main_cst_2 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_cst_3 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_cst_4 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_cst_5 : Ref sig .tc := ⟨.hbm, 77, rfl⟩
abbrev main_v50 : Ref sig .tc := ⟨.hbm, 78, rfl⟩
abbrev main_cst_6 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_cst_7 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_scratch0 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg2_1 : Ref sig .tc := ⟨.vmem, 19, rfl⟩
abbrev cc2_stg3_0 : Ref sig .tc := ⟨.vmem, 20, rfl⟩
abbrev cc2_stg3_1 : Ref sig .tc := ⟨.vmem, 21, rfl⟩
abbrev cc2_scratch0 : Ref sig .tc := ⟨.vmem, 22, rfl⟩
abbrev cc3_stg0_0 : Ref sig .tc := ⟨.vmem, 23, rfl⟩
abbrev cc3_stg0_1 : Ref sig .tc := ⟨.vmem, 24, rfl⟩
abbrev cc3_stg1_0 : Ref sig .tc := ⟨.vmem, 25, rfl⟩
abbrev cc3_stg2_0 : Ref sig .tc := ⟨.vmem, 26, rfl⟩
abbrev cc3_stg2_1 : Ref sig .tc := ⟨.vmem, 27, rfl⟩
abbrev cc3_scratch0 : Ref sig .tc := ⟨.vmem, 28, rfl⟩
abbrev cc4_stg0_0 : Ref sig .tc := ⟨.vmem, 29, rfl⟩
abbrev cc4_stg0_1 : Ref sig .tc := ⟨.vmem, 30, rfl⟩
abbrev cc4_stg1_0 : Ref sig .tc := ⟨.vmem, 31, rfl⟩
abbrev cc4_stg1_1 : Ref sig .tc := ⟨.vmem, 32, rfl⟩
abbrev cc4_stg2_0 : Ref sig .tc := ⟨.vmem, 33, rfl⟩
abbrev cc4_stg2_1 : Ref sig .tc := ⟨.vmem, 34, rfl⟩
abbrev cc4_scratch0 : Ref sig .tc := ⟨.vmem, 35, rfl⟩
abbrev cc5_stg0_0 : Ref sig .tc := ⟨.vmem, 36, rfl⟩
abbrev cc5_stg0_1 : Ref sig .tc := ⟨.vmem, 37, rfl⟩
abbrev cc5_stg1_0 : Ref sig .tc := ⟨.vmem, 38, rfl⟩
abbrev cc5_stg2_0 : Ref sig .tc := ⟨.vmem, 39, rfl⟩
abbrev cc5_stg2_1 : Ref sig .tc := ⟨.vmem, 40, rfl⟩
abbrev cc5_stg3_0 : Ref sig .tc := ⟨.vmem, 41, rfl⟩
abbrev cc5_stg3_1 : Ref sig .tc := ⟨.vmem, 42, rfl⟩
abbrev cc5_scratch0 : Ref sig .tc := ⟨.vmem, 43, rfl⟩
abbrev cc6_stg0_0 : Ref sig .tc := ⟨.vmem, 44, rfl⟩
abbrev cc6_stg0_1 : Ref sig .tc := ⟨.vmem, 45, rfl⟩
abbrev cc6_stg1_0 : Ref sig .tc := ⟨.vmem, 46, rfl⟩
abbrev cc6_stg1_1 : Ref sig .tc := ⟨.vmem, 47, rfl⟩
abbrev cc6_stg2_0 : Ref sig .tc := ⟨.vmem, 48, rfl⟩
abbrev cc6_stg2_1 : Ref sig .tc := ⟨.vmem, 49, rfl⟩
abbrev cc6_scratch0 : Ref sig .tc := ⟨.vmem, 50, rfl⟩
abbrev cc7_stg0_0 : Ref sig .tc := ⟨.vmem, 51, rfl⟩
abbrev cc7_stg0_1 : Ref sig .tc := ⟨.vmem, 52, rfl⟩
abbrev cc7_stg1_0 : Ref sig .tc := ⟨.vmem, 53, rfl⟩
abbrev cc7_stg1_1 : Ref sig .tc := ⟨.vmem, 54, rfl⟩
abbrev cc7_stg2_0 : Ref sig .tc := ⟨.vmem, 55, rfl⟩
abbrev cc7_stg3_0 : Ref sig .tc := ⟨.vmem, 56, rfl⟩
abbrev cc7_stg3_1 : Ref sig .tc := ⟨.vmem, 57, rfl⟩
abbrev cc7_scratch0 : Ref sig .tc := ⟨.vmem, 58, rfl⟩
abbrev cc8_stg0_0 : Ref sig .tc := ⟨.vmem, 59, rfl⟩
abbrev cc8_stg0_1 : Ref sig .tc := ⟨.vmem, 60, rfl⟩
abbrev cc8_stg1_0 : Ref sig .tc := ⟨.vmem, 61, rfl⟩
abbrev cc8_stg1_1 : Ref sig .tc := ⟨.vmem, 62, rfl⟩
abbrev cc8_stg2_0 : Ref sig .tc := ⟨.vmem, 63, rfl⟩
abbrev cc8_stg3_0 : Ref sig .tc := ⟨.vmem, 64, rfl⟩
abbrev cc8_stg3_1 : Ref sig .tc := ⟨.vmem, 65, rfl⟩
abbrev cc8_scratch0 : Ref sig .tc := ⟨.vmem, 66, rfl⟩
abbrev cc9_stg0_0 : Ref sig .tc := ⟨.vmem, 67, rfl⟩
abbrev cc9_stg0_1 : Ref sig .tc := ⟨.vmem, 68, rfl⟩
abbrev cc9_stg1_0 : Ref sig .tc := ⟨.vmem, 69, rfl⟩
abbrev cc9_stg1_1 : Ref sig .tc := ⟨.vmem, 70, rfl⟩
abbrev cc9_stg2_0 : Ref sig .tc := ⟨.vmem, 71, rfl⟩
abbrev cc9_stg2_1 : Ref sig .tc := ⟨.vmem, 72, rfl⟩
abbrev cc9_scratch0 : Ref sig .tc := ⟨.vmem, 73, rfl⟩
abbrev cc10_stg0_0 : Ref sig .tc := ⟨.vmem, 74, rfl⟩
abbrev cc10_stg0_1 : Ref sig .tc := ⟨.vmem, 75, rfl⟩
abbrev cc10_stg1_0 : Ref sig .tc := ⟨.vmem, 76, rfl⟩
abbrev cc10_stg2_0 : Ref sig .tc := ⟨.vmem, 77, rfl⟩
abbrev cc10_stg3_0 : Ref sig .tc := ⟨.vmem, 78, rfl⟩
abbrev cc10_stg4_0 : Ref sig .tc := ⟨.vmem, 79, rfl⟩
abbrev cc10_stg4_1 : Ref sig .tc := ⟨.vmem, 80, rfl⟩
abbrev cc11_stg0_0 : Ref sig .tc := ⟨.vmem, 81, rfl⟩
abbrev cc11_stg0_1 : Ref sig .tc := ⟨.vmem, 82, rfl⟩
abbrev cc11_stg1_0 : Ref sig .tc := ⟨.vmem, 83, rfl⟩
abbrev cc11_stg2_0 : Ref sig .tc := ⟨.vmem, 84, rfl⟩
abbrev cc11_stg3_0 : Ref sig .tc := ⟨.vmem, 85, rfl⟩
abbrev cc11_stg4_0 : Ref sig .tc := ⟨.vmem, 86, rfl⟩
abbrev cc11_stg4_1 : Ref sig .tc := ⟨.vmem, 87, rfl⟩
abbrev cc12_stg0_0 : Ref sig .tc := ⟨.vmem, 88, rfl⟩
abbrev cc12_stg0_1 : Ref sig .tc := ⟨.vmem, 89, rfl⟩
abbrev cc12_stg1_0 : Ref sig .tc := ⟨.vmem, 90, rfl⟩
abbrev cc12_stg2_0 : Ref sig .tc := ⟨.vmem, 91, rfl⟩
abbrev cc12_stg3_0 : Ref sig .tc := ⟨.vmem, 92, rfl⟩
abbrev cc12_stg4_0 : Ref sig .tc := ⟨.vmem, 93, rfl⟩
abbrev cc12_stg4_1 : Ref sig .tc := ⟨.vmem, 94, rfl⟩
abbrev cc13_stg0_0 : Ref sig .tc := ⟨.vmem, 95, rfl⟩
abbrev cc13_stg0_1 : Ref sig .tc := ⟨.vmem, 96, rfl⟩
abbrev cc13_stg1_0 : Ref sig .tc := ⟨.vmem, 97, rfl⟩
abbrev cc13_stg1_1 : Ref sig .tc := ⟨.vmem, 98, rfl⟩
abbrev cc13_stg2_0 : Ref sig .tc := ⟨.vmem, 99, rfl⟩
abbrev cc13_stg2_1 : Ref sig .tc := ⟨.vmem, 100, rfl⟩
abbrev cc13_stg3_0 : Ref sig .tc := ⟨.vmem, 101, rfl⟩
abbrev cc13_stg3_1 : Ref sig .tc := ⟨.vmem, 102, rfl⟩
abbrev cc13_stg4_0 : Ref sig .tc := ⟨.vmem, 103, rfl⟩
abbrev cc13_stg5_0 : Ref sig .tc := ⟨.vmem, 104, rfl⟩
abbrev cc13_stg6_0 : Ref sig .tc := ⟨.vmem, 105, rfl⟩
abbrev cc13_stg6_1 : Ref sig .tc := ⟨.vmem, 106, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc2_sem3_0 : DmaSem sig := 18
abbrev cc2_sem3_1 : DmaSem sig := 19
abbrev cc3_sem0_0 : DmaSem sig := 20
abbrev cc3_sem0_1 : DmaSem sig := 21
abbrev cc3_sem1_0 : DmaSem sig := 22
abbrev cc3_sem2_0 : DmaSem sig := 23
abbrev cc3_sem2_1 : DmaSem sig := 24
abbrev cc4_sem0_0 : DmaSem sig := 25
abbrev cc4_sem0_1 : DmaSem sig := 26
abbrev cc4_sem1_0 : DmaSem sig := 27
abbrev cc4_sem1_1 : DmaSem sig := 28
abbrev cc4_sem2_0 : DmaSem sig := 29
abbrev cc4_sem2_1 : DmaSem sig := 30
abbrev cc5_sem0_0 : DmaSem sig := 31
abbrev cc5_sem0_1 : DmaSem sig := 32
abbrev cc5_sem1_0 : DmaSem sig := 33
abbrev cc5_sem2_0 : DmaSem sig := 34
abbrev cc5_sem2_1 : DmaSem sig := 35
abbrev cc5_sem3_0 : DmaSem sig := 36
abbrev cc5_sem3_1 : DmaSem sig := 37
abbrev cc6_sem0_0 : DmaSem sig := 38
abbrev cc6_sem0_1 : DmaSem sig := 39
abbrev cc6_sem1_0 : DmaSem sig := 40
abbrev cc6_sem1_1 : DmaSem sig := 41
abbrev cc6_sem2_0 : DmaSem sig := 42
abbrev cc6_sem2_1 : DmaSem sig := 43
abbrev cc7_sem0_0 : DmaSem sig := 44
abbrev cc7_sem0_1 : DmaSem sig := 45
abbrev cc7_sem1_0 : DmaSem sig := 46
abbrev cc7_sem1_1 : DmaSem sig := 47
abbrev cc7_sem2_0 : DmaSem sig := 48
abbrev cc7_sem3_0 : DmaSem sig := 49
abbrev cc7_sem3_1 : DmaSem sig := 50
abbrev cc8_sem0_0 : DmaSem sig := 51
abbrev cc8_sem0_1 : DmaSem sig := 52
abbrev cc8_sem1_0 : DmaSem sig := 53
abbrev cc8_sem1_1 : DmaSem sig := 54
abbrev cc8_sem2_0 : DmaSem sig := 55
abbrev cc8_sem3_0 : DmaSem sig := 56
abbrev cc8_sem3_1 : DmaSem sig := 57
abbrev cc9_sem0_0 : DmaSem sig := 58
abbrev cc9_sem0_1 : DmaSem sig := 59
abbrev cc9_sem1_0 : DmaSem sig := 60
abbrev cc9_sem1_1 : DmaSem sig := 61
abbrev cc9_sem2_0 : DmaSem sig := 62
abbrev cc9_sem2_1 : DmaSem sig := 63
abbrev cc10_sem0_0 : DmaSem sig := 64
abbrev cc10_sem0_1 : DmaSem sig := 65
abbrev cc10_sem1_0 : DmaSem sig := 66
abbrev cc10_sem2_0 : DmaSem sig := 67
abbrev cc10_sem3_0 : DmaSem sig := 68
abbrev cc10_sem4_0 : DmaSem sig := 69
abbrev cc10_sem4_1 : DmaSem sig := 70
abbrev cc11_sem0_0 : DmaSem sig := 71
abbrev cc11_sem0_1 : DmaSem sig := 72
abbrev cc11_sem1_0 : DmaSem sig := 73
abbrev cc11_sem2_0 : DmaSem sig := 74
abbrev cc11_sem3_0 : DmaSem sig := 75
abbrev cc11_sem4_0 : DmaSem sig := 76
abbrev cc11_sem4_1 : DmaSem sig := 77
abbrev cc12_sem0_0 : DmaSem sig := 78
abbrev cc12_sem0_1 : DmaSem sig := 79
abbrev cc12_sem1_0 : DmaSem sig := 80
abbrev cc12_sem2_0 : DmaSem sig := 81
abbrev cc12_sem3_0 : DmaSem sig := 82
abbrev cc12_sem4_0 : DmaSem sig := 83
abbrev cc12_sem4_1 : DmaSem sig := 84
abbrev cc13_sem0_0 : DmaSem sig := 85
abbrev cc13_sem0_1 : DmaSem sig := 86
abbrev cc13_sem1_0 : DmaSem sig := 87
abbrev cc13_sem1_1 : DmaSem sig := 88
abbrev cc13_sem2_0 : DmaSem sig := 89
abbrev cc13_sem2_1 : DmaSem sig := 90
abbrev cc13_sem3_0 : DmaSem sig := 91
abbrev cc13_sem3_1 : DmaSem sig := 92
abbrev cc13_sem4_0 : DmaSem sig := 93
abbrev cc13_sem5_0 : DmaSem sig := 94
abbrev cc13_sem6_0 : DmaSem sig := 95
abbrev cc13_sem6_1 : DmaSem sig := 96

abbrev nD : Nat := 1
abbrev τ : Topo := Topo.v7x

variable {F : FTy → Type} [FloatOps F]

abbrev grid0 : Pipeline.Grid := ⟨3, ![4, 1, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨3, ![4, 1, 8], ![false, false, false]⟩

def k1_cond2 (i : grid1.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x512 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S512x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1024x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev grid2 : Pipeline.Grid := ⟨3, ![4, 1, 2], ![false, false, false]⟩

def k2_cond2 (i : grid2.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc2_transform_3 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S1024x512 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S512x512 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S1024x512 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

abbrev stage2_3 : Fin 2 → Memref sig .tc .vmem S1024x512 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true, false]

abbrev grid3 : Pipeline.Grid := ⟨3, ![4, 1, 1], ![false, false, false]⟩

def k3_cond2 (i : grid3.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 2 → Memref sig .tc .vmem S1024x512 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, true]

abbrev stage3_1 : Fin 1 → Memref sig .tc .vmem S512x512 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false, true, true]

abbrev stage3_2 : Fin 2 → Memref sig .tc .vmem S1024x512 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]

abbrev grid4 : Pipeline.Grid := ⟨3, ![4, 1, 8], ![false, false, false]⟩

def k4_cond2 (i : grid4.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc4_transform_0 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc4_transform_1 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc4_transform_2 (i : grid4.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage4_0 : Fin 2 → Memref sig .tc .vmem S1024x512 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false, true]

abbrev stage4_1 : Fin 2 → Memref sig .tc .vmem S512x512 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true, true]

abbrev stage4_2 : Fin 2 → Memref sig .tc .vmem S1024x512 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true, false]

abbrev grid5 : Pipeline.Grid := ⟨3, ![4, 1, 1], ![false, false, false]⟩

def k5_cond2 (i : grid5.Coords) : BitVec 1 :=
  let arg2 : BitVec 32 := BitVec.ofNat 32 (i 2).val
  let c0_i32_8 : BitVec 32 := 0#32
  let v13 : BitVec 1 := Scalar.cmpi .eq arg2 c0_i32_8
  let v14 : BitVec 32 := Scalar.extui v13
  let c0_i32_9 : BitVec 32 := 0#32
  let v15 : BitVec 1 := Scalar.cmpi .ne v14 c0_i32_9
  v15

def cc5_transform_0 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc5_transform_1 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc5_transform_2 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc5_transform_3 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage5_0 : Fin 2 → Memref sig .tc .vmem S1024x512 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, false, true]

abbrev stage5_1 : Fin 1 → Memref sig .tc .vmem S512x512 .bf16 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false, true, true]

abbrev stage5_2 : Fin 2 → Memref sig .tc .vmem S1024x512 .bf16 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true, false]

abbrev stage5_3 : Fin 2 → Memref sig .tc .vmem S1024x512 .bf16 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true, true, false]

abbrev grid6 : Pipeline.Grid := ⟨3, ![4, 1, 2], ![false, false, false]⟩

def k6_cond2 (i : grid6.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc6_transform_0 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc6_transform_1 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc6_transform_2 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage6_0 : Fin 2 → Memref sig .tc .vmem S1024x512 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true, false, true]

abbrev stage6_1 : Fin 2 → Memref sig .tc .vmem S512x512 .bf16 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![false, true, true]

abbrev stage6_2 : Fin 2 → Memref sig .tc .vmem S1024x512 .bf16 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true, true, false]

abbrev grid7 : Pipeline.Grid := ⟨3, ![4, 1, 8], ![false, false, false]⟩

def k7_cond2 (i : grid7.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc7_transform_0 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc7_transform_1 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc7_transform_2 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc7_transform_3 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage7_0 : Fin 2 → Memref sig .tc .vmem S1024x512 .bf16 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true, false, true]

abbrev stage7_1 : Fin 2 → Memref sig .tc .vmem S512x512 .bf16 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![false, true, true]

abbrev stage7_2 : Fin 1 → Memref sig .tc .vmem S1x512 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false, true, false]

abbrev stage7_3 : Fin 2 → Memref sig .tc .vmem S1024x512 .bf16 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true, true, false]

abbrev grid8 : Pipeline.Grid := ⟨3, ![4, 1, 2], ![false, false, false]⟩

def k8_cond2 (i : grid8.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc8_transform_0 (i : grid8.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc8_transform_1 (i : grid8.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc8_transform_2 (i : grid8.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc8_transform_3 (i : grid8.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage8_0 : Fin 2 → Memref sig .tc .vmem S1024x512 .bf16 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true, false, true]

abbrev stage8_1 : Fin 2 → Memref sig .tc .vmem S512x512 .bf16 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![false, true, true]

abbrev stage8_2 : Fin 1 → Memref sig .tc .vmem S1x512 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false, true, false]

abbrev stage8_3 : Fin 2 → Memref sig .tc .vmem S1024x512 .bf16 := fun | 0 => Memref.whole cc8_stg3_0 | 1 => Memref.whole cc8_stg3_1 | ⟨_ + 2, h⟩ => absurd h (Nat.not_lt.2 (Nat.le_add_left _ _))
abbrev sem8_3 : Fin 2 → DmaSem sig := fun | 0 => cc8_sem3_0 | 1 => cc8_sem3_1 | ⟨_ + 2, h⟩ => absurd h (Nat.not_lt.2 (Nat.le_add_left _ _))
abbrev reads8_3 : Fin grid8.rank → Bool := ![true, true, false]

abbrev grid9 : Pipeline.Grid := ⟨3, ![4, 1, 8], ![false, false, false]⟩

def k9_cond2 (i : grid9.Coords) : BitVec 1 :=
  let arg2 : BitVec 32 := BitVec.ofNat 32 (i 2).val
  let c7_i32 : BitVec 32 := 7#32
  let v13 : BitVec 1 := Scalar.cmpi .eq arg2 c7_i32
  let v14 : BitVec 32 := Scalar.extui v13
  let c0_i32_8 : BitVec 32 := 0#32
  let v15 : BitVec 1 := Scalar.cmpi .ne v14 c0_i32_8
  v15

def cc9_transform_0 (i : grid9.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc9_transform_1 (i : grid9.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc9_transform_2 (i : grid9.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage9_0 : Fin 2 → Memref sig .tc .vmem S1024x512 .bf16 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true, false, true]

abbrev stage9_1 : Fin 2 → Memref sig .tc .vmem S512x512 .bf16 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![false, true, true]

abbrev stage9_2 : Fin 2 → Memref sig .tc .vmem S1024x512 .bf16 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true, true, false]

abbrev grid10 : Pipeline.Grid := ⟨1, ![4], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_2 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_3 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_4 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 2 → Memref sig .tc .vmem S1024x512 .bf16 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 1 → Memref sig .tc .vmem S512x512 .bf16 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false]

abbrev stage10_2 : Fin 1 → Memref sig .tc .vmem S1x512 .f32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![false]

abbrev stage10_3 : Fin 1 → Memref sig .tc .vmem S1x512 .f32 := fun | 0 => Memref.whole cc10_stg3_0 | ⟨_ + 1, h⟩ => absurd h (Nat.not_lt.2 (Nat.le_add_left _ _))
abbrev sem10_3 : Fin 1 → DmaSem sig := fun | 0 => cc10_sem3_0 | ⟨_ + 1, h⟩ => absurd h (Nat.not_lt.2 (Nat.le_add_left _ _))
abbrev reads10_3 : Fin grid10.rank → Bool := ![false]

abbrev stage10_4 : Fin 2 → Memref sig .tc .vmem S1024x1 .f32 := fun | 0 => Memref.whole cc10_stg4_0 | 1 => Memref.whole cc10_stg4_1 | ⟨_ + 2, h⟩ => absurd h (Nat.not_lt.2 (Nat.le_add_left _ _))
abbrev sem10_4 : Fin 2 → DmaSem sig := fun | 0 => cc10_sem4_0 | 1 => cc10_sem4_1 | ⟨_ + 2, h⟩ => absurd h (Nat.not_lt.2 (Nat.le_add_left _ _))
abbrev reads10_4 : Fin grid10.rank → Bool := ![true]

abbrev grid11 : Pipeline.Grid := ⟨1, ![4], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_2 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_3 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_4 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 2 → Memref sig .tc .vmem S1024x512 .bf16 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 1 → Memref sig .tc .vmem S512x512 .bf16 := fun | 0 => Memref.whole cc11_stg1_0 | ⟨_ + 1, h⟩ => absurd h (Nat.not_lt.2 (Nat.le_add_left _ _))
abbrev sem11_1 : Fin 1 → DmaSem sig := fun | 0 => cc11_sem1_0 | ⟨_ + 1, h⟩ => absurd h (Nat.not_lt.2 (Nat.le_add_left _ _))
abbrev reads11_1 : Fin grid11.rank → Bool := ![false]

abbrev stage11_2 : Fin 1 → Memref sig .tc .vmem S1x512 .f32 := fun | 0 => Memref.whole cc11_stg2_0 | ⟨_ + 1, h⟩ => absurd h (Nat.not_lt.2 (Nat.le_add_left _ _))
abbrev sem11_2 : Fin 1 → DmaSem sig := fun | 0 => cc11_sem2_0 | ⟨_ + 1, h⟩ => absurd h (Nat.not_lt.2 (Nat.le_add_left _ _))
abbrev reads11_2 : Fin grid11.rank → Bool := ![false]

abbrev stage11_3 : Fin 1 → Memref sig .tc .vmem S1x512 .f32 := fun | 0 => Memref.whole cc11_stg3_0 | ⟨_ + 1, h⟩ => absurd h (Nat.not_lt.2 (Nat.le_add_left _ _))
abbrev sem11_3 : Fin 1 → DmaSem sig := fun | 0 => cc11_sem3_0 | ⟨_ + 1, h⟩ => absurd h (Nat.not_lt.2 (Nat.le_add_left _ _))
abbrev reads11_3 : Fin grid11.rank → Bool := ![false]

abbrev stage11_4 : Fin 2 → Memref sig .tc .vmem S1024x1 .f32 := fun | 0 => Memref.whole cc11_stg4_0 | 1 => Memref.whole cc11_stg4_1 | ⟨_ + 2, h⟩ => absurd h (Nat.not_lt.2 (Nat.le_add_left _ _))
abbrev sem11_4 : Fin 2 → DmaSem sig := fun | 0 => cc11_sem4_0 | 1 => cc11_sem4_1 | ⟨_ + 2, h⟩ => absurd h (Nat.not_lt.2 (Nat.le_add_left _ _))
abbrev reads11_4 : Fin grid11.rank → Bool := ![true]

abbrev grid12 : Pipeline.Grid := ⟨1, ![4], ![false]⟩

def cc12_transform_0 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_1 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_2 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_3 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_4 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage12_0 : Fin 2 → Memref sig .tc .vmem S1024x512 .bf16 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true]

abbrev stage12_1 : Fin 1 → Memref sig .tc .vmem S512x512 .bf16 := fun | 0 => Memref.whole cc12_stg1_0 | ⟨_ + 1, h⟩ => absurd h (Nat.not_lt.2 (Nat.le_add_left _ _))
abbrev sem12_1 : Fin 1 → DmaSem sig := fun | 0 => cc12_sem1_0 | ⟨_ + 1, h⟩ => absurd h (Nat.not_lt.2 (Nat.le_add_left _ _))
abbrev reads12_1 : Fin grid12.rank → Bool := ![false]

abbrev stage12_2 : Fin 1 → Memref sig .tc .vmem S1x512 .f32 := fun | 0 => Memref.whole cc12_stg2_0 | ⟨_ + 1, h⟩ => absurd h (Nat.not_lt.2 (Nat.le_add_left _ _))
abbrev sem12_2 : Fin 1 → DmaSem sig := fun | 0 => cc12_sem2_0 | ⟨_ + 1, h⟩ => absurd h (Nat.not_lt.2 (Nat.le_add_left _ _))
abbrev reads12_2 : Fin grid12.rank → Bool := ![false]

abbrev stage12_3 : Fin 1 → Memref sig .tc .vmem S1x512 .f32 := fun | 0 => Memref.whole cc12_stg3_0 | ⟨_ + 1, h⟩ => absurd h (Nat.not_lt.2 (Nat.le_add_left _ _))
abbrev sem12_3 : Fin 1 → DmaSem sig := fun | 0 => cc12_sem3_0 | ⟨_ + 1, h⟩ => absurd h (Nat.not_lt.2 (Nat.le_add_left _ _))
abbrev reads12_3 : Fin grid12.rank → Bool := ![false]

abbrev stage12_4 : Fin 2 → Memref sig .tc .vmem S1024x1 .f32 := fun | 0 => Memref.whole cc12_stg4_0 | 1 => Memref.whole cc12_stg4_1 | ⟨_ + 2, h⟩ => absurd h (Nat.not_lt.2 (Nat.le_add_left _ _))
abbrev sem12_4 : Fin 2 → DmaSem sig := fun | 0 => cc12_sem4_0 | 1 => cc12_sem4_1 | ⟨_ + 2, h⟩ => absurd h (Nat.not_lt.2 (Nat.le_add_left _ _))
abbrev reads12_4 : Fin grid12.rank → Bool := ![true]

abbrev grid13 : Pipeline.Grid := ⟨1, ![4], ![false]⟩

def cc13_transform_0 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_1 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_2 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_3 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_4 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_5 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_6 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage13_0 : Fin 2 → Memref sig .tc .vmem S1024x512 .bf16 := fun | 0 => Memref.whole cc13_stg0_0 | 1 => Memref.whole cc13_stg0_1 | ⟨_ + 2, h⟩ => absurd h (Nat.not_lt.2 (Nat.le_add_left _ _))
abbrev sem13_0 : Fin 2 → DmaSem sig := fun | 0 => cc13_sem0_0 | 1 => cc13_sem0_1 | ⟨_ + 2, h⟩ => absurd h (Nat.not_lt.2 (Nat.le_add_left _ _))
abbrev reads13_0 : Fin grid13.rank → Bool := ![true]

abbrev stage13_1 : Fin 2 → Memref sig .tc .vmem S1024x512 .bf16 := fun | 0 => Memref.whole cc13_stg1_0 | 1 => Memref.whole cc13_stg1_1 | ⟨_ + 2, h⟩ => absurd h (Nat.not_lt.2 (Nat.le_add_left _ _))
abbrev sem13_1 : Fin 2 → DmaSem sig := fun | 0 => cc13_sem1_0 | 1 => cc13_sem1_1 | ⟨_ + 2, h⟩ => absurd h (Nat.not_lt.2 (Nat.le_add_left _ _))
abbrev reads13_1 : Fin grid13.rank → Bool := ![true]

abbrev stage13_2 : Fin 2 → Memref sig .tc .vmem S1024x512 .bf16 := fun | 0 => Memref.whole cc13_stg2_0 | 1 => Memref.whole cc13_stg2_1 | ⟨_ + 2, h⟩ => absurd h (Nat.not_lt.2 (Nat.le_add_left _ _))
abbrev sem13_2 : Fin 2 → DmaSem sig := fun | 0 => cc13_sem2_0 | 1 => cc13_sem2_1 | ⟨_ + 2, h⟩ => absurd h (Nat.not_lt.2 (Nat.le_add_left _ _))
abbrev reads13_2 : Fin grid13.rank → Bool := ![true]

abbrev stage13_3 : Fin 2 → Memref sig .tc .vmem S1024x3 .f32 := fun | 0 => Memref.whole cc13_stg3_0 | 1 => Memref.whole cc13_stg3_1 | ⟨_ + 2, h⟩ => absurd h (Nat.not_lt.2 (Nat.le_add_left _ _))
abbrev sem13_3 : Fin 2 → DmaSem sig := fun | 0 => cc13_sem3_0 | 1 => cc13_sem3_1 | ⟨_ + 2, h⟩ => absurd h (Nat.not_lt.2 (Nat.le_add_left _ _))
abbrev reads13_3 : Fin grid13.rank → Bool := ![true]

abbrev stage13_4 : Fin 1 → Memref sig .tc .vmem S512x16 .bf16 := fun | 0 => Memref.whole cc13_stg4_0 | ⟨_ + 1, h⟩ => absurd h (Nat.not_lt.2 (Nat.le_add_left _ _))
abbrev sem13_4 : Fin 1 → DmaSem sig := fun | 0 => cc13_sem4_0 | ⟨_ + 1, h⟩ => absurd h (Nat.not_lt.2 (Nat.le_add_left _ _))
abbrev reads13_4 : Fin grid13.rank → Bool := ![false]

abbrev stage13_5 : Fin 1 → Memref sig .tc .vmem S1x16 .f32 := fun | 0 => Memref.whole cc13_stg5_0 | ⟨_ + 1, h⟩ => absurd h (Nat.not_lt.2 (Nat.le_add_left _ _))
abbrev sem13_5 : Fin 1 → DmaSem sig := fun | 0 => cc13_sem5_0 | ⟨_ + 1, h⟩ => absurd h (Nat.not_lt.2 (Nat.le_add_left _ _))
abbrev reads13_5 : Fin grid13.rank → Bool := ![false]

abbrev stage13_6 : Fin 2 → Memref sig .tc .vmem S1024x16 .f32 := fun | 0 => Memref.whole cc13_stg6_0 | 1 => Memref.whole cc13_stg6_1 | ⟨_ + 2, h⟩ => absurd h (Nat.not_lt.2 (Nat.le_add_left _ _))
abbrev sem13_6 : Fin 2 → DmaSem sig := fun | 0 => cc13_sem6_0 | 1 => cc13_sem6_1 | ⟨_ + 2, h⟩ => absurd h (Nat.not_lt.2 (Nat.le_add_left _ _))
abbrev reads13_6 : Fin grid13.rank → Bool := ![true]

class Facts₀ : Prop where
  bitsLt_bf16_f32 : FTy.bits .bf16 < FTy.bits .f32
  bcast_S_S1024x512 : S_.BroadcastsInDim S1024x512 (![] : Fin 0 → Fin S1024x512.rank)
  bcast_S_S512x512 : S_.BroadcastsInDim S512x512 (![] : Fin 0 → Fin S512x512.rank)
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  packedbf16_S1024x512_S1024x512_0_0 : (Rect.unit (s := S1024x512) ![0, 0] S1024x512.size inb_S1024x512_S1024x512_0_0).PackedRows (EltTy.packing .bf16)
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  packedbf16_S1024x1024_S1024x1024_0_0 : (Rect.unit (s := S1024x1024) ![0, 0] S1024x1024.size inb_S1024x1024_S1024x1024_0_0).PackedRows (EltTy.packing .bf16)
  shapeCasts_S512_S1x512 : S512.ShapeCasts S1x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  reduces_S1024x512_S1024 : S1024x512.Reduces [1] S1024
  shapeCasts_S1024_S1024x1 : S1024.ShapeCasts S1024x1
  inb_S1024x1_S1024x1_0_0 : ∀ a, (![0, 0] : Fin 2 → Nat) a + S1024x1.size a ≤ S1024x1.size a
  h_S1024x1 : 0 < S1024x1.numel
  concatenates_S4096x1_S4096x1_S4096x1_S4096x3_d1 : Shape.Concatenates [S4096x1, S4096x1, S4096x1] S4096x3 1
  reducesTo_S4096x3_S4096_d1 : S4096x3.ReducesTo [1] S4096
  h_S_ : 0 < S_.numel
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x3_0_1 : S4096x1.BroadcastsInDim S4096x3 (![0, 1] : Fin 2 → Fin S4096x3.rank)
  shapeCasts_S16_S1x16 : S16.ShapeCasts S1x16
  inb_S1024x3_S1024x1_0_0 : ∀ a, (![0, 0] : Fin 2 → Nat) a + S1024x1.size a ≤ S1024x3.size a
  shapeCasts_S1024x1_S1024x1 : S1024x1.ShapeCasts S1024x1
  inb_S1024x3_S1024x1_0_1 : ∀ a, (![0, 1] : Fin 2 → Nat) a + S1024x1.size a ≤ S1024x3.size a
  inb_S1024x3_S1024x1_0_2 : ∀ a, (![0, 2] : Fin 2 → Nat) a + S1024x1.size a ≤ S1024x3.size a
  broadcasts_S1024x1_S1024x512 : S1024x1.Broadcasts S1024x512
  inb_S512x16_S512x16_0_0 : ∀ a, (![0, 0] : Fin 2 → Nat) a + S512x16.size a ≤ S512x16.size a
  h_S512x16 : 0 < S512x16.numel
  shapeCasts_S512x16_S512x16 : S512x16.ShapeCasts S512x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S1024x16 : S1x16.Broadcasts S1024x16
  reduces_S1024x16_S1024 : S1024x16.Reduces [1] S1024
  broadcasts_S1024x1_S1024x16 : S1024x1.Broadcasts S1024x16
  inb_S1024x16_S1024x16_0_0 : ∀ a, (![0, 0] : Fin 2 → Nat) a + S1024x16.size a ≤ S1024x16.size a
  h_S1024x16 : 0 < S1024x16.numel
  dot_S1024x512_S512x512_S1024x512_1_0_0_1_n_n_wf : DotDims.WF S1024x512 S512x512 S1024x512 [1] [0] [0] [1] [] []
  dot_S1024x512_S512x1024_S1024x1024_1_0_0_1_n_n_wf : DotDims.WF S1024x512 S512x1024 S1024x1024 [1] [0] [0] [1] [] []
  dot_S1024x512_S512x16_S1024x16_1_0_0_1_n_n_wf : DotDims.WF S1024x512 S512x16 S1024x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S4096x1024.size a
  hwx0_0 : ∀ i : grid0.Coords, EltTy.bits .bf16 = 32 ∨ (Rect.block (s := S4096x1024) S1024x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S1024x512.size a
  hwx0_1 : ∀ i : grid0.Coords, EltTy.bits .bf16 = 32 ∨ (Rect.block (s := S1024x512) S512x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x512.size a ≤ S4096x512.size a
  hwx0_2 : ∀ i : grid0.Coords, EltTy.bits .bf16 = 32 ∨ (Rect.block (s := S4096x512) S1024x512.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x512.size a ≤ S4096x4096.size a
  hwx1_0 : ∀ i : grid1.Coords, EltTy.bits .bf16 = 32 ∨ (Rect.block (s := S4096x4096) S1024x512.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x1024.size a ≤ S4096x1024.size a
  hwx1_1 : ∀ i : grid1.Coords, EltTy.bits .bf16 = 32 ∨ (Rect.block (s := S4096x1024) S512x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x1024.size a ≤ S4096x1024.size a
  hwx1_2 : ∀ i : grid1.Coords, EltTy.bits .bf16 = 32 ∨ (Rect.block (s := S4096x1024) S1024x1024.size (cc1_transform_2 i) (hinb1_2 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x512.size a ≤ S4096x1024.size a
  hwx2_0 : ∀ i : grid2.Coords, EltTy.bits .bf16 = 32 ∨ (Rect.block (s := S4096x1024) S1024x512.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S512x512.size a ≤ S1024x512.size a
  hwx2_1 : ∀ i : grid2.Coords, EltTy.bits .bf16 = 32 ∨ (Rect.block (s := S1024x512) S512x512.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x512.size a ≤ S4096x512.size a
  hwx2_2 : ∀ i : grid2.Coords, EltTy.bits .bf16 = 32 ∨ (Rect.block (s := S4096x512) S1024x512.size (cc2_transform_2 i) (hinb2_2 i)).WholeWords (EltTy.packing .bf16)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1024x512.size a ≤ S4096x512.size a
  hwx2_3 : ∀ i : grid2.Coords, EltTy.bits .bf16 = 32 ∨ (Rect.block (s := S4096x512) S1024x512.size (cc2_transform_3 i) (hinb2_3 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1024x512.size a ≤ S4096x512.size a
  hwx3_0 : ∀ i : grid3.Coords, EltTy.bits .bf16 = 32 ∨ (Rect.block (s := S4096x512) S1024x512.size (cc3_transform_0 i) (hinb3_0 i)).WholeWords (EltTy.packing .bf16)
  hstage3_1 : ∀ j, (stage3_1 j).IsWhole
  nbuf3_1 : grid3.bufCount reads3_1 false = 1
  hreads3_1 : ∀ i i' : grid3.Coords, (∀ a, reads3_1 a = true → i a = i' a) → cc3_transform_1 i = cc3_transform_1 i'
  hinb3_1 : ∀ (i : grid3.Coords) a, (cc3_transform_1 i a + 1) * S512x512.size a ≤ S512x512.size a
  hwx3_1 : ∀ i : grid3.Coords, EltTy.bits .bf16 = 32 ∨ (Rect.block (s := S512x512) S512x512.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1024x512.size a ≤ S4096x512.size a
  hwx3_2 : ∀ i : grid3.Coords, EltTy.bits .bf16 = 32 ∨ (Rect.block (s := S4096x512) S1024x512.size (cc3_transform_2 i) (hinb3_2 i)).WholeWords (EltTy.packing .bf16)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1024x512.size a ≤ S4096x4096.size a
  hwx4_0 : ∀ i : grid4.Coords, EltTy.bits .bf16 = 32 ∨ (Rect.block (s := S4096x4096) S1024x512.size (cc4_transform_0 i) (hinb4_0 i)).WholeWords (EltTy.packing .bf16)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S512x512.size a ≤ S4096x512.size a
  hwx4_1 : ∀ i : grid4.Coords, EltTy.bits .bf16 = 32 ∨ (Rect.block (s := S4096x512) S512x512.size (cc4_transform_1 i) (hinb4_1 i)).WholeWords (EltTy.packing .bf16)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S1024x512.size a ≤ S4096x512.size a
  hwx4_2 : ∀ i : grid4.Coords, EltTy.bits .bf16 = 32 ∨ (Rect.block (s := S4096x512) S1024x512.size (cc4_transform_2 i) (hinb4_2 i)).WholeWords (EltTy.packing .bf16)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S1024x512.size a ≤ S4096x512.size a
  hwx5_0 : ∀ i : grid5.Coords, EltTy.bits .bf16 = 32 ∨ (Rect.block (s := S4096x512) S1024x512.size (cc5_transform_0 i) (hinb5_0 i)).WholeWords (EltTy.packing .bf16)
  hstage5_1 : ∀ j, (stage5_1 j).IsWhole
  nbuf5_1 : grid5.bufCount reads5_1 false = 1
  hreads5_1 : ∀ i i' : grid5.Coords, (∀ a, reads5_1 a = true → i a = i' a) → cc5_transform_1 i = cc5_transform_1 i'
  hinb5_1 : ∀ (i : grid5.Coords) a, (cc5_transform_1 i a + 1) * S512x512.size a ≤ S512x512.size a
  hwx5_1 : ∀ i : grid5.Coords, EltTy.bits .bf16 = 32 ∨ (Rect.block (s := S512x512) S512x512.size (cc5_transform_1 i) (hinb5_1 i)).WholeWords (EltTy.packing .bf16)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S1024x512.size a ≤ S4096x512.size a
  hwx5_2 : ∀ i : grid5.Coords, EltTy.bits .bf16 = 32 ∨ (Rect.block (s := S4096x512) S1024x512.size (cc5_transform_2 i) (hinb5_2 i)).WholeWords (EltTy.packing .bf16)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S1024x512.size a ≤ S4096x512.size a
  hwx5_3 : ∀ i : grid5.Coords, EltTy.bits .bf16 = 32 ∨ (Rect.block (s := S4096x512) S1024x512.size (cc5_transform_3 i) (hinb5_3 i)).WholeWords (EltTy.packing .bf16)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S1024x512.size a ≤ S4096x1024.size a
  hwx6_0 : ∀ i : grid6.Coords, EltTy.bits .bf16 = 32 ∨ (Rect.block (s := S4096x1024) S1024x512.size (cc6_transform_0 i) (hinb6_0 i)).WholeWords (EltTy.packing .bf16)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S512x512.size a ≤ S1024x512.size a
  hwx6_1 : ∀ i : grid6.Coords, EltTy.bits .bf16 = 32 ∨ (Rect.block (s := S1024x512) S512x512.size (cc6_transform_1 i) (hinb6_1 i)).WholeWords (EltTy.packing .bf16)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S1024x512.size a ≤ S4096x512.size a
  hwx6_2 : ∀ i : grid6.Coords, EltTy.bits .bf16 = 32 ∨ (Rect.block (s := S4096x512) S1024x512.size (cc6_transform_2 i) (hinb6_2 i)).WholeWords (EltTy.packing .bf16)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S1024x512.size a ≤ S4096x4096.size a
  hwx7_0 : ∀ i : grid7.Coords, EltTy.bits .bf16 = 32 ∨ (Rect.block (s := S4096x4096) S1024x512.size (cc7_transform_0 i) (hinb7_0 i)).WholeWords (EltTy.packing .bf16)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S512x512.size a ≤ S4096x512.size a
  hwx7_1 : ∀ i : grid7.Coords, EltTy.bits .bf16 = 32 ∨ (Rect.block (s := S4096x512) S512x512.size (cc7_transform_1 i) (hinb7_1 i)).WholeWords (EltTy.packing .bf16)
  hstage7_2 : ∀ j, (stage7_2 j).IsWhole
  nbuf7_2 : grid7.bufCount reads7_2 false = 1
  hreads7_2 : ∀ i i' : grid7.Coords, (∀ a, reads7_2 a = true → i a = i' a) → cc7_transform_2 i = cc7_transform_2 i'
  hinb7_2 : ∀ (i : grid7.Coords) a, (cc7_transform_2 i a + 1) * S1x512.size a ≤ S1x512.size a
  hwx7_2 : ∀ i : grid7.Coords, EltTy.bits .f32 = 32 ∨ (Rect.block (s := S1x512) S1x512.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S1024x512.size a ≤ S4096x512.size a
  hwx7_3 : ∀ i : grid7.Coords, EltTy.bits .bf16 = 32 ∨ (Rect.block (s := S4096x512) S1024x512.size (cc7_transform_3 i) (hinb7_3 i)).WholeWords (EltTy.packing .bf16)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S1024x512.size a ≤ S4096x1024.size a
  hwx8_0 : ∀ i : grid8.Coords, EltTy.bits .bf16 = 32 ∨ (Rect.block (s := S4096x1024) S1024x512.size (cc8_transform_0 i) (hinb8_0 i)).WholeWords (EltTy.packing .bf16)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S512x512.size a ≤ S1024x512.size a
  hwx8_1 : ∀ i : grid8.Coords, EltTy.bits .bf16 = 32 ∨ (Rect.block (s := S1024x512) S512x512.size (cc8_transform_1 i) (hinb8_1 i)).WholeWords (EltTy.packing .bf16)
  hstage8_2 : ∀ j, (stage8_2 j).IsWhole
  nbuf8_2 : grid8.bufCount reads8_2 false = 1
  hreads8_2 : ∀ i i' : grid8.Coords, (∀ a, reads8_2 a = true → i a = i' a) → cc8_transform_2 i = cc8_transform_2 i'
  hinb8_2 : ∀ (i : grid8.Coords) a, (cc8_transform_2 i a + 1) * S1x512.size a ≤ S1x512.size a
  hwx8_2 : ∀ i : grid8.Coords, EltTy.bits .f32 = 32 ∨ (Rect.block (s := S1x512) S1x512.size (cc8_transform_2 i) (hinb8_2 i)).WholeWords (EltTy.packing .f32)
  hstage8_3 : ∀ j, (stage8_3 j).IsWhole
  nbuf8_3 : grid8.bufCount reads8_3 false = 2
  hreads8_3 : ∀ i i' : grid8.Coords, (∀ a, reads8_3 a = true → i a = i' a) → cc8_transform_3 i = cc8_transform_3 i'
  hinb8_3 : ∀ (i : grid8.Coords) a, (cc8_transform_3 i a + 1) * S1024x512.size a ≤ S4096x512.size a
  hwx8_3 : ∀ i : grid8.Coords, EltTy.bits .bf16 = 32 ∨ (Rect.block (s := S4096x512) S1024x512.size (cc8_transform_3 i) (hinb8_3 i)).WholeWords (EltTy.packing .bf16)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S1024x512.size a ≤ S4096x4096.size a
  hwx9_0 : ∀ i : grid9.Coords, EltTy.bits .bf16 = 32 ∨ (Rect.block (s := S4096x4096) S1024x512.size (cc9_transform_0 i) (hinb9_0 i)).WholeWords (EltTy.packing .bf16)
  hstage9_1 : ∀ j, (stage9_1 j).IsWhole
  nbuf9_1 : grid9.bufCount reads9_1 false = 2
  hreads9_1 : ∀ i i' : grid9.Coords, (∀ a, reads9_1 a = true → i a = i' a) → cc9_transform_1 i = cc9_transform_1 i'
  hinb9_1 : ∀ (i : grid9.Coords) a, (cc9_transform_1 i a + 1) * S512x512.size a ≤ S4096x512.size a
  hwx9_1 : ∀ i : grid9.Coords, EltTy.bits .bf16 = 32 ∨ (Rect.block (s := S4096x512) S512x512.size (cc9_transform_1 i) (hinb9_1 i)).WholeWords (EltTy.packing .bf16)
  hstage9_2 : ∀ j, (stage9_2 j).IsWhole
  nbuf9_2 : grid9.bufCount reads9_2 false = 2
  hreads9_2 : ∀ i i' : grid9.Coords, (∀ a, reads9_2 a = true → i a = i' a) → cc9_transform_2 i = cc9_transform_2 i'
  hinb9_2 : ∀ (i : grid9.Coords) a, (cc9_transform_2 i a + 1) * S1024x512.size a ≤ S4096x512.size a
  hwx9_2 : ∀ i : grid9.Coords, EltTy.bits .bf16 = 32 ∨ (Rect.block (s := S4096x512) S1024x512.size (cc9_transform_2 i) (hinb9_2 i)).WholeWords (EltTy.packing .bf16)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S1024x512.size a ≤ S4096x512.size a
  hwx10_0 : ∀ i : grid10.Coords, EltTy.bits .bf16 = 32 ∨ (Rect.block (s := S4096x512) S1024x512.size (cc10_transform_0 i) (hinb10_0 i)).WholeWords (EltTy.packing .bf16)
  hstage10_1 : ∀ j, (stage10_1 j).IsWhole
  nbuf10_1 : grid10.bufCount reads10_1 true = 1
  hreads10_1 : ∀ i i' : grid10.Coords, (∀ a, reads10_1 a = true → i a = i' a) → cc10_transform_1 i = cc10_transform_1 i'
  hinb10_1 : ∀ (i : grid10.Coords) a, (cc10_transform_1 i a + 1) * S512x512.size a ≤ S512x512.size a
  hwx10_1 : ∀ i : grid10.Coords, EltTy.bits .bf16 = 32 ∨ (Rect.block (s := S512x512) S512x512.size (cc10_transform_1 i) (hinb10_1 i)).WholeWords (EltTy.packing .bf16)
  hstage10_2 : ∀ j, (stage10_2 j).IsWhole
  nbuf10_2 : grid10.bufCount reads10_2 true = 1
  hreads10_2 : ∀ i i' : grid10.Coords, (∀ a, reads10_2 a = true → i a = i' a) → cc10_transform_2 i = cc10_transform_2 i'
  hinb10_2 : ∀ (i : grid10.Coords) a, (cc10_transform_2 i a + 1) * S1x512.size a ≤ S1x512.size a
  hwx10_2 : ∀ i : grid10.Coords, EltTy.bits .f32 = 32 ∨ (Rect.block (s := S1x512) S1x512.size (cc10_transform_2 i) (hinb10_2 i)).WholeWords (EltTy.packing .f32)
  hstage10_3 : ∀ j, (stage10_3 j).IsWhole
  nbuf10_3 : grid10.bufCount reads10_3 true = 1
  hreads10_3 : ∀ i i' : grid10.Coords, (∀ a, reads10_3 a = true → i a = i' a) → cc10_transform_3 i = cc10_transform_3 i'
  hinb10_3 : ∀ (i : grid10.Coords) a, (cc10_transform_3 i a + 1) * S1x512.size a ≤ S1x512.size a
  hwx10_3 : ∀ i : grid10.Coords, EltTy.bits .f32 = 32 ∨ (Rect.block (s := S1x512) S1x512.size (cc10_transform_3 i) (hinb10_3 i)).WholeWords (EltTy.packing .f32)
  hstage10_4 : ∀ j, (stage10_4 j).IsWhole
  nbuf10_4 : grid10.bufCount reads10_4 false = 2
  hreads10_4 : ∀ i i' : grid10.Coords, (∀ a, reads10_4 a = true → i a = i' a) → cc10_transform_4 i = cc10_transform_4 i'
  hinb10_4 : ∀ (i : grid10.Coords) a, (cc10_transform_4 i a + 1) * S1024x1.size a ≤ S4096x1.size a
  hwx10_4 : ∀ i : grid10.Coords, EltTy.bits .f32 = 32 ∨ (Rect.block (s := S4096x1) S1024x1.size (cc10_transform_4 i) (hinb10_4 i)).WholeWords (EltTy.packing .f32)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S1024x512.size a ≤ S4096x512.size a
  hwx11_0 : ∀ i : grid11.Coords, EltTy.bits .bf16 = 32 ∨ (Rect.block (s := S4096x512) S1024x512.size (cc11_transform_0 i) (hinb11_0 i)).WholeWords (EltTy.packing .bf16)
  hstage11_1 : ∀ j, (stage11_1 j).IsWhole
  nbuf11_1 : grid11.bufCount reads11_1 true = 1
  hreads11_1 : ∀ i i' : grid11.Coords, (∀ a, reads11_1 a = true → i a = i' a) → cc11_transform_1 i = cc11_transform_1 i'
  hinb11_1 : ∀ (i : grid11.Coords) a, (cc11_transform_1 i a + 1) * S512x512.size a ≤ S512x512.size a
  hwx11_1 : ∀ i : grid11.Coords, EltTy.bits .bf16 = 32 ∨ (Rect.block (s := S512x512) S512x512.size (cc11_transform_1 i) (hinb11_1 i)).WholeWords (EltTy.packing .bf16)
  hstage11_2 : ∀ j, (stage11_2 j).IsWhole
  nbuf11_2 : grid11.bufCount reads11_2 true = 1
  hreads11_2 : ∀ i i' : grid11.Coords, (∀ a, reads11_2 a = true → i a = i' a) → cc11_transform_2 i = cc11_transform_2 i'
  hinb11_2 : ∀ (i : grid11.Coords) a, (cc11_transform_2 i a + 1) * S1x512.size a ≤ S1x512.size a
  hwx11_2 : ∀ i : grid11.Coords, EltTy.bits .f32 = 32 ∨ (Rect.block (s := S1x512) S1x512.size (cc11_transform_2 i) (hinb11_2 i)).WholeWords (EltTy.packing .f32)
  hstage11_3 : ∀ j, (stage11_3 j).IsWhole
  nbuf11_3 : grid11.bufCount reads11_3 true = 1
  hreads11_3 : ∀ i i' : grid11.Coords, (∀ a, reads11_3 a = true → i a = i' a) → cc11_transform_3 i = cc11_transform_3 i'
  hinb11_3 : ∀ (i : grid11.Coords) a, (cc11_transform_3 i a + 1) * S1x512.size a ≤ S1x512.size a
  hwx11_3 : ∀ i : grid11.Coords, EltTy.bits .f32 = 32 ∨ (Rect.block (s := S1x512) S1x512.size (cc11_transform_3 i) (hinb11_3 i)).WholeWords (EltTy.packing .f32)
  hstage11_4 : ∀ j, (stage11_4 j).IsWhole
  nbuf11_4 : grid11.bufCount reads11_4 false = 2
  hreads11_4 : ∀ i i' : grid11.Coords, (∀ a, reads11_4 a = true → i a = i' a) → cc11_transform_4 i = cc11_transform_4 i'
  hinb11_4 : ∀ (i : grid11.Coords) a, (cc11_transform_4 i a + 1) * S1024x1.size a ≤ S4096x1.size a
  hwx11_4 : ∀ i : grid11.Coords, EltTy.bits .f32 = 32 ∨ (Rect.block (s := S4096x1) S1024x1.size (cc11_transform_4 i) (hinb11_4 i)).WholeWords (EltTy.packing .f32)
  hrank12 : 0 < grid12.rank
  hstage12_0 : ∀ j, (stage12_0 j).IsWhole
  nbuf12_0 : grid12.bufCount reads12_0 false = 2
  hreads12_0 : ∀ i i' : grid12.Coords, (∀ a, reads12_0 a = true → i a = i' a) → cc12_transform_0 i = cc12_transform_0 i'
  hinb12_0 : ∀ (i : grid12.Coords) a, (cc12_transform_0 i a + 1) * S1024x512.size a ≤ S4096x512.size a
  hwx12_0 : ∀ i : grid12.Coords, EltTy.bits .bf16 = 32 ∨ (Rect.block (s := S4096x512) S1024x512.size (cc12_transform_0 i) (hinb12_0 i)).WholeWords (EltTy.packing .bf16)
  hstage12_1 : ∀ j, (stage12_1 j).IsWhole
  nbuf12_1 : grid12.bufCount reads12_1 true = 1
  hreads12_1 : ∀ i i' : grid12.Coords, (∀ a, reads12_1 a = true → i a = i' a) → cc12_transform_1 i = cc12_transform_1 i'
  hinb12_1 : ∀ (i : grid12.Coords) a, (cc12_transform_1 i a + 1) * S512x512.size a ≤ S512x512.size a
  hwx12_1 : ∀ i : grid12.Coords, EltTy.bits .bf16 = 32 ∨ (Rect.block (s := S512x512) S512x512.size (cc12_transform_1 i) (hinb12_1 i)).WholeWords (EltTy.packing .bf16)
  hstage12_2 : ∀ j, (stage12_2 j).IsWhole
  nbuf12_2 : grid12.bufCount reads12_2 true = 1
  hreads12_2 : ∀ i i' : grid12.Coords, (∀ a, reads12_2 a = true → i a = i' a) → cc12_transform_2 i = cc12_transform_2 i'
  hinb12_2 : ∀ (i : grid12.Coords) a, (cc12_transform_2 i a + 1) * S1x512.size a ≤ S1x512.size a
  hwx12_2 : ∀ i : grid12.Coords, EltTy.bits .f32 = 32 ∨ (Rect.block (s := S1x512) S1x512.size (cc12_transform_2 i) (hinb12_2 i)).WholeWords (EltTy.packing .f32)
  hstage12_3 : ∀ j, (stage12_3 j).IsWhole
  nbuf12_3 : grid12.bufCount reads12_3 true = 1
  hreads12_3 : ∀ i i' : grid12.Coords, (∀ a, reads12_3 a = true → i a = i' a) → cc12_transform_3 i = cc12_transform_3 i'
  hinb12_3 : ∀ (i : grid12.Coords) a, (cc12_transform_3 i a + 1) * S1x512.size a ≤ S1x512.size a
  hwx12_3 : ∀ i : grid12.Coords, EltTy.bits .f32 = 32 ∨ (Rect.block (s := S1x512) S1x512.size (cc12_transform_3 i) (hinb12_3 i)).WholeWords (EltTy.packing .f32)
  hstage12_4 : ∀ j, (stage12_4 j).IsWhole
  nbuf12_4 : grid12.bufCount reads12_4 false = 2
  hreads12_4 : ∀ i i' : grid12.Coords, (∀ a, reads12_4 a = true → i a = i' a) → cc12_transform_4 i = cc12_transform_4 i'
  hinb12_4 : ∀ (i : grid12.Coords) a, (cc12_transform_4 i a + 1) * S1024x1.size a ≤ S4096x1.size a
  hwx12_4 : ∀ i : grid12.Coords, EltTy.bits .f32 = 32 ∨ (Rect.block (s := S4096x1) S1024x1.size (cc12_transform_4 i) (hinb12_4 i)).WholeWords (EltTy.packing .f32)
  hrank13 : 0 < grid13.rank
  hstage13_0 : ∀ j, (stage13_0 j).IsWhole
  nbuf13_0 : grid13.bufCount reads13_0 false = 2
  hreads13_0 : ∀ i i' : grid13.Coords, (∀ a, reads13_0 a = true → i a = i' a) → cc13_transform_0 i = cc13_transform_0 i'
  hinb13_0 : ∀ (i : grid13.Coords) a, (cc13_transform_0 i a + 1) * S1024x512.size a ≤ S4096x512.size a
  hwx13_0 : ∀ i : grid13.Coords, EltTy.bits .bf16 = 32 ∨ (Rect.block (s := S4096x512) S1024x512.size (cc13_transform_0 i) (hinb13_0 i)).WholeWords (EltTy.packing .bf16)
  hstage13_1 : ∀ j, (stage13_1 j).IsWhole
  nbuf13_1 : grid13.bufCount reads13_1 false = 2
  hreads13_1 : ∀ i i' : grid13.Coords, (∀ a, reads13_1 a = true → i a = i' a) → cc13_transform_1 i = cc13_transform_1 i'
  hinb13_1 : ∀ (i : grid13.Coords) a, (cc13_transform_1 i a + 1) * S1024x512.size a ≤ S4096x512.size a
  hwx13_1 : ∀ i : grid13.Coords, EltTy.bits .bf16 = 32 ∨ (Rect.block (s := S4096x512) S1024x512.size (cc13_transform_1 i) (hinb13_1 i)).WholeWords (EltTy.packing .bf16)
  hstage13_2 : ∀ j, (stage13_2 j).IsWhole
  nbuf13_2 : grid13.bufCount reads13_2 false = 2
  hreads13_2 : ∀ i i' : grid13.Coords, (∀ a, reads13_2 a = true → i a = i' a) → cc13_transform_2 i = cc13_transform_2 i'
  hinb13_2 : ∀ (i : grid13.Coords) a, (cc13_transform_2 i a + 1) * S1024x512.size a ≤ S4096x512.size a
  hwx13_2 : ∀ i : grid13.Coords, EltTy.bits .bf16 = 32 ∨ (Rect.block (s := S4096x512) S1024x512.size (cc13_transform_2 i) (hinb13_2 i)).WholeWords (EltTy.packing .bf16)
  hstage13_3 : ∀ j, (stage13_3 j).IsWhole
  nbuf13_3 : grid13.bufCount reads13_3 false = 2
  hreads13_3 : ∀ i i' : grid13.Coords, (∀ a, reads13_3 a = true → i a = i' a) → cc13_transform_3 i = cc13_transform_3 i'
  hinb13_3 : ∀ (i : grid13.Coords) a, (cc13_transform_3 i a + 1) * S1024x3.size a ≤ S4096x3.size a
  hwx13_3 : ∀ i : grid13.Coords, EltTy.bits .f32 = 32 ∨ (Rect.block (s := S4096x3) S1024x3.size (cc13_transform_3 i) (hinb13_3 i)).WholeWords (EltTy.packing .f32)
  hstage13_4 : ∀ j, (stage13_4 j).IsWhole
  nbuf13_4 : grid13.bufCount reads13_4 true = 1
  hreads13_4 : ∀ i i' : grid13.Coords, (∀ a, reads13_4 a = true → i a = i' a) → cc13_transform_4 i = cc13_transform_4 i'
  hinb13_4 : ∀ (i : grid13.Coords) a, (cc13_transform_4 i a + 1) * S512x16.size a ≤ S512x16.size a
  hwx13_4 : ∀ i : grid13.Coords, EltTy.bits .bf16 = 32 ∨ (Rect.block (s := S512x16) S512x16.size (cc13_transform_4 i) (hinb13_4 i)).WholeWords (EltTy.packing .bf16)
  hstage13_5 : ∀ j, (stage13_5 j).IsWhole
  nbuf13_5 : grid13.bufCount reads13_5 true = 1
  hreads13_5 : ∀ i i' : grid13.Coords, (∀ a, reads13_5 a = true → i a = i' a) → cc13_transform_5 i = cc13_transform_5 i'
  hinb13_5 : ∀ (i : grid13.Coords) a, (cc13_transform_5 i a + 1) * S1x16.size a ≤ S1x16.size a
  hwx13_5 : ∀ i : grid13.Coords, EltTy.bits .f32 = 32 ∨ (Rect.block (s := S1x16) S1x16.size (cc13_transform_5 i) (hinb13_5 i)).WholeWords (EltTy.packing .f32)
  hstage13_6 : ∀ j, (stage13_6 j).IsWhole
  nbuf13_6 : grid13.bufCount reads13_6 false = 2
  hreads13_6 : ∀ i i' : grid13.Coords, (∀ a, reads13_6 a = true → i a = i' a) → cc13_transform_6 i = cc13_transform_6 i'
  hinb13_6 : ∀ (i : grid13.Coords) a, (cc13_transform_6 i a + 1) * S1024x16.size a ≤ S4096x16.size a
  hwx13_6 : ∀ i : grid13.Coords, EltTy.bits .f32 = 32 ∨ (Rect.block (s := S4096x16) S1024x16.size (cc13_transform_6 i) (hinb13_6 i)).WholeWords (EltTy.packing .f32)

variable [Facts₀]

def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf
def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf
def dot_S1024x512_S512x16_S1024x16_1_0_0_1_n_n : DotDims S1024x512 S512x16 S1024x16 where
  lhsContracting := [1]
  rhsContracting := [0]
  lhsNonContracting := [0]
  rhsNonContracting := [1]
  lhsBatch := []
  rhsBatch := []
  wf := dot_S1024x512_S512x16_S1024x16_1_0_0_1_n_n_wf

abbrev win0_0 : Pipeline.Window sig grid0 :=
  Pipeline.Window.ofSpec (Memref.whole main_v0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v19) S512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v31) S1024x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_v1) S1024x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S512x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v32) S1024x1024.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

abbrev win2_0 : Pipeline.Window sig grid2 :=
  Pipeline.Window.ofSpec (Memref.whole main_v32) S1024x512.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v23) S512x512.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v31) S1024x512.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v33) S1024x512.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev idle2 : Fin 4 → grid2.Coords → Bool := fun | 0 => fun _ => false | 1 => fun _ => false | 2 => fun _ => false | 3 => fun i => !(k2_cond2 i == 1#1) | ⟨_ + 4, h⟩ => absurd h (Nat.not_lt.2 (Nat.le_add_left _ _))

abbrev win3_0 : Pipeline.Window sig grid3 :=
  Pipeline.Window.ofSpec (Memref.whole main_v33) S1024x512.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v26) S512x512.size cc3_transform_1 reads3_1 false false 1 stage3_1 sem3_1
    hrank3 hreads3_1 hinb3_1 nbuf3_1 (Memref.isWhole_whole _) hwx3_1 hstage3_1

abbrev win3_2 : Pipeline.Window sig grid3 :=
  Pipeline.Window.ofSpec (Memref.whole main_v34) S1024x512.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev idle3 : Fin 3 → grid3.Coords → Bool := fun | 0 => fun _ => false | 1 => fun _ => false | 2 => fun i => !(k3_cond2 i == 1#1) | ⟨_ + 3, h⟩ => absurd h (Nat.not_lt.2 (Nat.le_add_left _ _))

abbrev win4_0 : Pipeline.Window sig grid4 :=
  Pipeline.Window.ofSpec (Memref.whole main_v1) S1024x512.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v33) S512x512.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v35) S1024x512.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev idle4 : Fin 3 → grid4.Coords → Bool := fun | 0 => fun _ => false | 1 => fun _ => false | 2 => fun i => !(k4_cond2 i == 1#1) | ⟨_ + 3, h⟩ => absurd h (Nat.not_lt.2 (Nat.le_add_left _ _))

abbrev win5_0 : Pipeline.Window sig grid5 :=
  Pipeline.Window.ofSpec (Memref.whole main_v35) S1024x512.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v30) S512x512.size cc5_transform_1 reads5_1 false false 1 stage5_1 sem5_1
    hrank5 hreads5_1 hinb5_1 nbuf5_1 (Memref.isWhole_whole _) hwx5_1 hstage5_1

abbrev win5_2 : Pipeline.Window sig grid5 :=
  Pipeline.Window.ofSpec (Memref.whole main_v34) S1024x512.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v36) S1024x512.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev idle5 : Fin 4 → grid5.Coords → Bool := fun | 0 => fun _ => false | 1 => fun _ => false | 2 => fun _ => false | 3 => fun i => !(k5_cond2 i == 1#1) | ⟨_ + 4, h⟩ => absurd h (Nat.not_lt.2 (Nat.le_add_left _ _))

abbrev win6_0 : Pipeline.Window sig grid6 :=
  Pipeline.Window.ofSpec (Memref.whole main_v4) S1024x512.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v5) S512x512.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v37) S1024x512.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev idle6 : Fin 3 → grid6.Coords → Bool := fun | 0 => fun _ => false | 1 => fun _ => false | 2 => fun i => !(k6_cond2 i == 1#1) | ⟨_ + 3, h⟩ => absurd h (Nat.not_lt.2 (Nat.le_add_left _ _))

abbrev win7_0 : Pipeline.Window sig grid7 :=
  Pipeline.Window.ofSpec (Memref.whole main_v2) S1024x512.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v37) S512x512.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v38) S1x512.size cc7_transform_2 reads7_2 false false 1 stage7_2 sem7_2
    hrank7 hreads7_2 hinb7_2 nbuf7_2 (Memref.isWhole_whole _) hwx7_2 hstage7_2

abbrev win7_3 : Pipeline.Window sig grid7 :=
  Pipeline.Window.ofSpec (Memref.whole main_v39) S1024x512.size cc7_transform_3 reads7_3 true false 2 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

abbrev idle7 : Fin 4 → grid7.Coords → Bool := fun | 0 => fun _ => false | 1 => fun _ => false | 2 => fun _ => false | 3 => fun i => !(k7_cond2 i == 1#1) | ⟨_ + 4, h⟩ => absurd h (Nat.not_lt.2 (Nat.le_add_left _ _))

abbrev win8_0 : Pipeline.Window sig grid8 :=
  Pipeline.Window.ofSpec (Memref.whole main_v0) S1024x512.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v6) S512x512.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_v40) S1x512.size cc8_transform_2 reads8_2 false false 1 stage8_2 sem8_2
    hrank8 hreads8_2 hinb8_2 nbuf8_2 (Memref.isWhole_whole _) hwx8_2 hstage8_2

abbrev win8_3 : Pipeline.Window sig grid8 :=
  Pipeline.Window.ofSpec (Memref.whole main_v41) S1024x512.size cc8_transform_3 reads8_3 true false 2 stage8_3 sem8_3
    hrank8 hreads8_3 hinb8_3 nbuf8_3 (Memref.isWhole_whole _) hwx8_3 hstage8_3

abbrev win8 : Fin 4 → Pipeline.Window sig grid8 := fun | 0 => win8_0 | 1 => win8_1 | 2 => win8_2 | 3 => win8_3 | ⟨_ + 4, h⟩ => absurd h (Nat.not_lt.2 (Nat.le_add_left _ _))
abbrev spec8 : Fin 4 → Pipeline.WinSpec sig grid8.rank := fun w => (win8 w).toWinSpec

abbrev idle8 : Fin 4 → grid8.Coords → Bool := fun | 0 => fun _ => false | 1 => fun _ => false | 2 => fun _ => false | 3 => fun i => !(k8_cond2 i == 1#1) | ⟨_ + 4, h⟩ => absurd h (Nat.not_lt.2 (Nat.le_add_left _ _))

abbrev win9_0 : Pipeline.Window sig grid9 :=
  Pipeline.Window.ofSpec (Memref.whole main_v3) S1024x512.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v41) S512x512.size cc9_transform_1 reads9_1 false false 2 stage9_1 sem9_1
    hrank9 hreads9_1 hinb9_1 nbuf9_1 (Memref.isWhole_whole _) hwx9_1 hstage9_1

abbrev win9_2 : Pipeline.Window sig grid9 :=
  Pipeline.Window.ofSpec (Memref.whole main_v42) S1024x512.size cc9_transform_2 reads9_2 true false 2 stage9_2 sem9_2
    hrank9 hreads9_2 hinb9_2 nbuf9_2 (Memref.isWhole_whole _) hwx9_2 hstage9_2

abbrev win9 : Fin 3 → Pipeline.Window sig grid9 := fun | 0 => win9_0 | 1 => win9_1 | 2 => win9_2 | ⟨_ + 3, h⟩ => absurd h (Nat.not_lt.2 (Nat.le_add_left _ _))
abbrev spec9 : Fin 3 → Pipeline.WinSpec sig grid9.rank := fun w => (win9 w).toWinSpec

abbrev idle9 : Fin 3 → grid9.Coords → Bool := fun | 0 => fun _ => false | 1 => fun _ => false | 2 => fun i => !(k9_cond2 i == 1#1) | ⟨_ + 3, h⟩ => absurd h (Nat.not_lt.2 (Nat.le_add_left _ _))

abbrev win10_0 : Pipeline.Window sig grid10 :=
  Pipeline.Window.ofSpec (Memref.whole main_v36) S1024x512.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v7) S512x512.size cc10_transform_1 reads10_1 false true 1 stage10_1 sem10_1
    hrank10 hreads10_1 hinb10_1 nbuf10_1 (Memref.isWhole_whole _) hwx10_1 hstage10_1

abbrev win10_2 : Pipeline.Window sig grid10 :=
  Pipeline.Window.ofSpec (Memref.whole main_v44) S1x512.size cc10_transform_2 reads10_2 false true 1 stage10_2 sem10_2
    hrank10 hreads10_2 hinb10_2 nbuf10_2 (Memref.isWhole_whole _) hwx10_2 hstage10_2

abbrev win10_3 : Pipeline.Window sig grid10 :=
  Pipeline.Window.ofSpec (Memref.whole main_v45) S1x512.size cc10_transform_3 reads10_3 false true 1 stage10_3 sem10_3
    hrank10 hreads10_3 hinb10_3 nbuf10_3 (Memref.isWhole_whole _) hwx10_3 hstage10_3

abbrev win10_4 : Pipeline.Window sig grid10 :=
  Pipeline.Window.ofSpec (Memref.whole main_v46) S1024x1.size cc10_transform_4 reads10_4 true false 2 stage10_4 sem10_4
    hrank10 hreads10_4 hinb10_4 nbuf10_4 (Memref.isWhole_whole _) hwx10_4 hstage10_4

abbrev win10 : Fin 5 → Pipeline.Window sig grid10 := fun | 0 => win10_0 | 1 => win10_1 | 2 => win10_2 | 3 => win10_3 | 4 => win10_4 | ⟨_ + 5, h⟩ => absurd h (Nat.not_lt.2 (Nat.le_add_left _ _))
abbrev spec10 : Fin 5 → Pipeline.WinSpec sig grid10.rank := fun w => (win10 w).toWinSpec

abbrev win11_0 : Pipeline.Window sig grid11 :=
  Pipeline.Window.ofSpec (Memref.whole main_v39) S1024x512.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_v7) S512x512.size cc11_transform_1 reads11_1 false true 1 stage11_1 sem11_1
    hrank11 hreads11_1 hinb11_1 nbuf11_1 (Memref.isWhole_whole _) hwx11_1 hstage11_1

abbrev win11_2 : Pipeline.Window sig grid11 :=
  Pipeline.Window.ofSpec (Memref.whole main_v44) S1x512.size cc11_transform_2 reads11_2 false true 1 stage11_2 sem11_2
    hrank11 hreads11_2 hinb11_2 nbuf11_2 (Memref.isWhole_whole _) hwx11_2 hstage11_2

abbrev win11_3 : Pipeline.Window sig grid11 :=
  Pipeline.Window.ofSpec (Memref.whole main_v45) S1x512.size cc11_transform_3 reads11_3 false true 1 stage11_3 sem11_3
    hrank11 hreads11_3 hinb11_3 nbuf11_3 (Memref.isWhole_whole _) hwx11_3 hstage11_3

abbrev win11_4 : Pipeline.Window sig grid11 :=
  Pipeline.Window.ofSpec (Memref.whole main_v47) S1024x1.size cc11_transform_4 reads11_4 true false 2 stage11_4 sem11_4
    hrank11 hreads11_4 hinb11_4 nbuf11_4 (Memref.isWhole_whole _) hwx11_4 hstage11_4

abbrev win11 : Fin 5 → Pipeline.Window sig grid11 := fun | 0 => win11_0 | 1 => win11_1 | 2 => win11_2 | 3 => win11_3 | 4 => win11_4 | ⟨_ + 5, h⟩ => absurd h (Nat.not_lt.2 (Nat.le_add_left _ _))
abbrev spec11 : Fin 5 → Pipeline.WinSpec sig grid11.rank := fun w => (win11 w).toWinSpec

abbrev win12_0 : Pipeline.Window sig grid12 :=
  Pipeline.Window.ofSpec (Memref.whole main_v42) S1024x512.size cc12_transform_0 reads12_0 false false 2 stage12_0 sem12_0
    hrank12 hreads12_0 hinb12_0 nbuf12_0 (Memref.isWhole_whole _) hwx12_0 hstage12_0

abbrev win12_1 : Pipeline.Window sig grid12 :=
  Pipeline.Window.ofSpec (Memref.whole main_v7) S512x512.size cc12_transform_1 reads12_1 false true 1 stage12_1 sem12_1
    hrank12 hreads12_1 hinb12_1 nbuf12_1 (Memref.isWhole_whole _) hwx12_1 hstage12_1

abbrev win12_2 : Pipeline.Window sig grid12 :=
  Pipeline.Window.ofSpec (Memref.whole main_v44) S1x512.size cc12_transform_2 reads12_2 false true 1 stage12_2 sem12_2
    hrank12 hreads12_2 hinb12_2 nbuf12_2 (Memref.isWhole_whole _) hwx12_2 hstage12_2

abbrev win12_3 : Pipeline.Window sig grid12 :=
  Pipeline.Window.ofSpec (Memref.whole main_v45) S1x512.size cc12_transform_3 reads12_3 false true 1 stage12_3 sem12_3
    hrank12 hreads12_3 hinb12_3 nbuf12_3 (Memref.isWhole_whole _) hwx12_3 hstage12_3

abbrev win12_4 : Pipeline.Window sig grid12 :=
  Pipeline.Window.ofSpec (Memref.whole main_v48) S1024x1.size cc12_transform_4 reads12_4 true false 2 stage12_4 sem12_4
    hrank12 hreads12_4 hinb12_4 nbuf12_4 (Memref.isWhole_whole _) hwx12_4 hstage12_4

abbrev win12 : Fin 5 → Pipeline.Window sig grid12 := fun | 0 => win12_0 | 1 => win12_1 | 2 => win12_2 | 3 => win12_3 | 4 => win12_4 | ⟨_ + 5, h⟩ => absurd h (Nat.not_lt.2 (Nat.le_add_left _ _))
abbrev spec12 : Fin 5 → Pipeline.WinSpec sig grid12.rank := fun w => (win12 w).toWinSpec

abbrev win13_0 : Pipeline.Window sig grid13 :=
  Pipeline.Window.ofSpec (Memref.whole main_v36) S1024x512.size cc13_transform_0 reads13_0 false false 2 stage13_0 sem13_0
    hrank13 hreads13_0 hinb13_0 nbuf13_0 (Memref.isWhole_whole _) hwx13_0 hstage13_0

abbrev win13_1 : Pipeline.Window sig grid13 :=
  Pipeline.Window.ofSpec (Memref.whole main_v39) S1024x512.size cc13_transform_1 reads13_1 false false 2 stage13_1 sem13_1
    hrank13 hreads13_1 hinb13_1 nbuf13_1 (Memref.isWhole_whole _) hwx13_1 hstage13_1

abbrev win13_2 : Pipeline.Window sig grid13 :=
  Pipeline.Window.ofSpec (Memref.whole main_v42) S1024x512.size cc13_transform_2 reads13_2 false false 2 stage13_2 sem13_2
    hrank13 hreads13_2 hinb13_2 nbuf13_2 (Memref.isWhole_whole _) hwx13_2 hstage13_2

abbrev win13_3 : Pipeline.Window sig grid13 :=
  Pipeline.Window.ofSpec (Memref.whole main_v60) S1024x3.size cc13_transform_3 reads13_3 false false 2 stage13_3 sem13_3
    hrank13 hreads13_3 hinb13_3 nbuf13_3 (Memref.isWhole_whole _) hwx13_3 hstage13_3

abbrev win13_4 : Pipeline.Window sig grid13 :=
  Pipeline.Window.ofSpec (Memref.whole main_v8) S512x16.size cc13_transform_4 reads13_4 false true 1 stage13_4 sem13_4
    hrank13 hreads13_4 hinb13_4 nbuf13_4 (Memref.isWhole_whole _) hwx13_4 hstage13_4

abbrev win13_5 : Pipeline.Window sig grid13 :=
  Pipeline.Window.ofSpec (Memref.whole main_v61) S1x16.size cc13_transform_5 reads13_5 false true 1 stage13_5 sem13_5
    hrank13 hreads13_5 hinb13_5 nbuf13_5 (Memref.isWhole_whole _) hwx13_5 hstage13_5

abbrev win13_6 : Pipeline.Window sig grid13 :=
  Pipeline.Window.ofSpec (Memref.whole main_v62) S1024x16.size cc13_transform_6 reads13_6 true false 2 stage13_6 sem13_6
    hrank13 hreads13_6 hinb13_6 nbuf13_6 (Memref.isWhole_whole _) hwx13_6 hstage13_6

abbrev win13 : Fin 7 → Pipeline.Window sig grid13 := fun | 0 => win13_0 | 1 => win13_1 | 2 => win13_2 | 3 => win13_3 | 4 => win13_4 | 5 => win13_5 | 6 => win13_6 | ⟨_ + 7, h⟩ => absurd h (Nat.not_lt.2 (Nat.le_add_left _ _))
abbrev spec13 : Fin 7 → Pipeline.WinSpec sig grid13.rank := fun w => (win13 w).toWinSpec

class Facts : Prop extends Facts₀ where

variable [Facts]
-- ==== ReferenceIdeal.lean ====
abbrev S4096x1024 : Shape := ⟨2, ![4096, 1024]⟩
abbrev S4096x4096 : Shape := ⟨2, ![4096, 4096]⟩
abbrev S1024x512 : Shape := ⟨2, ![1024, 512]⟩
abbrev S_ : Shape := ⟨0, ![]⟩
abbrev S512x512 : Shape := ⟨2, ![512, 512]⟩
abbrev S512 : Shape := ⟨1, ![512]⟩
abbrev S512x16 : Shape := ⟨2, ![512, 16]⟩
abbrev S16 : Shape := ⟨1, ![16]⟩
abbrev S4096x512 : Shape := ⟨2, ![4096, 512]⟩
abbrev S1x512 : Shape := ⟨2, ![1, 512]⟩
abbrev S4096 : Shape := ⟨1, ![4096]⟩
abbrev S4096x1 : Shape := ⟨2, ![4096, 1]⟩
abbrev S4096x3 : Shape := ⟨2, ![4096, 3]⟩
abbrev S4096x16 : Shape := ⟨2, ![4096, 16]⟩
abbrev S1x16 : Shape := ⟨2, ![1, 16]⟩

abbrev nBuf : Space → Nat
  | .hbm => 159
  | .vmem => 0
  | .smem => 0
  | _ => 0

abbrev hbmTy0_0 (i : Nat) : BufTy := match i % 128 with
  | 0 => ⟨S4096x1024, .f32⟩
  | 1 => ⟨S4096x4096, .f32⟩
  | 2 => ⟨S4096x4096, .f32⟩
  | 3 => ⟨S4096x4096, .f32⟩
  | 4 => ⟨S4096x1024, .f32⟩
  | 5 => ⟨S1024x512, .f32⟩
  | 6 => ⟨S1024x512, .f32⟩
  | 7 => ⟨S_, .f32⟩
  | 8 => ⟨S512x512, .f32⟩
  | 9 => ⟨S512x512, .f32⟩
  | 10 => ⟨S_, .f32⟩
  | 11 => ⟨S1024x512, .f32⟩
  | 12 => ⟨S512, .f32⟩
  | 13 => ⟨S1024x512, .f32⟩
  | 14 => ⟨S512, .f32⟩
  | 15 => ⟨S512x512, .f32⟩
  | 16 => ⟨S512, .f32⟩
  | 17 => ⟨S512, .f32⟩
  | 18 => ⟨S512, .f32⟩
  | 19 => ⟨S512x16, .f32⟩
  | 20 => ⟨S16, .f32⟩
  | 21 => ⟨S_, .f32⟩
  | 22 => ⟨S_, .f32⟩
  | 23 => ⟨S_, .f32⟩
  | 24 => ⟨S_, .f32⟩
  | 25 => ⟨S_, .f32⟩
  | 26 => ⟨S_, .f32⟩
  | 27 => ⟨S4096x512, .f32⟩
  | 28 => ⟨S4096x512, .f32⟩
  | 29 => ⟨S4096x512, .f32⟩
  | 30 => ⟨S_, .f32⟩
  | 31 => ⟨S_, .f32⟩
  | 32 => ⟨S4096x1024, .f32⟩
  | 33 => ⟨S4096x512, .f32⟩
  | 34 => ⟨S4096x512, .f32⟩
  | 35 => ⟨S4096x512, .f32⟩
  | 36 => ⟨S4096x512, .f32⟩
  | 37 => ⟨S_, .f32⟩
  | 38 => ⟨S4096x512, .f32⟩
  | 39 => ⟨S4096x512, .f32⟩
  | 40 => ⟨S_, .f32⟩
  | 41 => ⟨S_, .f32⟩
  | 42 => ⟨S_, .f32⟩
  | 43 => ⟨S_, .f32⟩
  | 44 => ⟨S_, .f32⟩
  | 45 => ⟨S_, .f32⟩
  | 46 => ⟨S4096x512, .f32⟩
  | 47 => ⟨S4096x512, .f32⟩
  | 48 => ⟨S4096x512, .f32⟩
  | 49 => ⟨S_, .f32⟩
  | 50 => ⟨S_, .f32⟩
  | 51 => ⟨S4096x512, .f32⟩
  | 52 => ⟨S4096x512, .f32⟩
  | 53 => ⟨S4096x512, .f32⟩
  | 54 => ⟨S4096x512, .f32⟩
  | 55 => ⟨S4096x512, .f32⟩
  | 56 => ⟨S_, .f32⟩
  | 57 => ⟨S4096x512, .f32⟩
  | 58 => ⟨S4096x512, .f32⟩
  | 59 => ⟨S4096x512, .f32⟩
  | 60 => ⟨S4096x512, .f32⟩
  | 61 => ⟨S1x512, .f32⟩
  | 62 => ⟨S4096x512, .f32⟩
  | 63 => ⟨S4096x512, .f32⟩
  | 64 => ⟨S_, .f32⟩
  | 65 => ⟨S4096x512, .f32⟩
  | 66 => ⟨S4096x512, .f32⟩
  | 67 => ⟨S4096x512, .f32⟩
  | 68 => ⟨S1x512, .f32⟩
  | 69 => ⟨S4096x512, .f32⟩
  | 70 => ⟨S4096x512, .f32⟩
  | 71 => ⟨S4096x512, .f32⟩
  | 72 => ⟨S4096x512, .f32⟩
  | 73 => ⟨S1x512, .f32⟩
  | 74 => ⟨S4096x512, .f32⟩
  | 75 => ⟨S4096x512, .f32⟩
  | 76 => ⟨S1x512, .f32⟩
  | 77 => ⟨S4096x512, .f32⟩
  | 78 => ⟨S4096x512, .f32⟩
  | 79 => ⟨S4096x512, .f32⟩
  | 80 => ⟨S1x512, .f32⟩
  | 81 => ⟨S4096x512, .f32⟩
  | 82 => ⟨S4096x512, .f32⟩
  | 83 => ⟨S_, .f32⟩
  | 84 => ⟨S4096, .f32⟩
  | 85 => ⟨S4096x512, .f32⟩
  | 86 => ⟨S1x512, .f32⟩
  | 87 => ⟨S4096x512, .f32⟩
  | 88 => ⟨S4096x512, .f32⟩
  | 89 => ⟨S1x512, .f32⟩
  | 90 => ⟨S4096x512, .f32⟩
  | 91 => ⟨S4096x512, .f32⟩
  | 92 => ⟨S4096x512, .f32⟩
  | 93 => ⟨S1x512, .f32⟩
  | 94 => ⟨S4096x512, .f32⟩
  | 95 => ⟨S4096x512, .f32⟩
  | 96 => ⟨S_, .f32⟩
  | 97 => ⟨S4096, .f32⟩
  | 98 => ⟨S4096x512, .f32⟩
  | 99 => ⟨S1x512, .f32⟩
  | 100 => ⟨S4096x512, .f32⟩
  | 101 => ⟨S4096x512, .f32⟩
  | 102 => ⟨S1x512, .f32⟩
  | 103 => ⟨S4096x512, .f32⟩
  | 104 => ⟨S4096x512, .f32⟩
  | 105 => ⟨S4096x512, .f32⟩
  | 106 => ⟨S1x512, .f32⟩
  | 107 => ⟨S4096x512, .f32⟩
  | 108 => ⟨S4096x512, .f32⟩
  | 109 => ⟨S_, .f32⟩
  | 110 => ⟨S4096, .f32⟩
  | 111 => ⟨S4096x1, .f32⟩
  | 112 => ⟨S4096x1, .f32⟩
  | 113 => ⟨S4096x1, .f32⟩
  | 114 => ⟨S4096x3, .f32⟩
  | 115 => ⟨S_, .f32⟩
  | 116 => ⟨S4096, .f32⟩
  | 117 => ⟨S_, .f32⟩
  | 118 => ⟨S4096, .f32⟩
  | 119 => ⟨S4096, .f32⟩
  | 120 => ⟨S4096x1, .f32⟩
  | 121 => ⟨S4096x3, .f32⟩
  | 122 => ⟨S4096x3, .f32⟩
  | 123 => ⟨S4096x3, .f32⟩
  | 124 => ⟨S_, .f32⟩
  | 125 => ⟨S4096, .f32⟩
  | 126 => ⟨S4096x1, .f32⟩
  | 127 => ⟨S4096x3, .f32⟩
  | _ => ⟨S4096x1024, .f32⟩

abbrev hbmTy0_1 (i : Nat) : BufTy := match i % 128 with
  | 0 => ⟨S4096x3, .f32⟩
  | 1 => ⟨S4096x1, .f32⟩
  | 2 => ⟨S4096x512, .f32⟩
  | 3 => ⟨S4096x512, .f32⟩
  | 4 => ⟨S4096x1, .f32⟩
  | 5 => ⟨S4096x512, .f32⟩
  | 6 => ⟨S4096x512, .f32⟩
  | 7 => ⟨S4096x512, .f32⟩
  | 8 => ⟨S4096x1, .f32⟩
  | 9 => ⟨S4096x512, .f32⟩
  | 10 => ⟨S4096x512, .f32⟩
  | 11 => ⟨S4096x512, .f32⟩
  | 12 => ⟨S4096x16, .f32⟩
  | 13 => ⟨S1x16, .f32⟩
  | 14 => ⟨S4096x16, .f32⟩
  | 15 => ⟨S4096x16, .f32⟩
  | 16 => ⟨S_, .f32⟩
  | 17 => ⟨S4096, .f32⟩
  | 18 => ⟨S_, .f32⟩
  | 19 => ⟨S4096, .f32⟩
  | 20 => ⟨S4096, .f32⟩
  | 21 => ⟨S4096x1, .f32⟩
  | 22 => ⟨S4096x16, .f32⟩
  | 23 => ⟨S4096x16, .f32⟩
  | 24 => ⟨S4096x16, .f32⟩
  | 25 => ⟨S_, .f32⟩
  | 26 => ⟨S4096, .f32⟩
  | 27 => ⟨S4096x1, .f32⟩
  | 28 => ⟨S4096x1, .f32⟩
  | 29 => ⟨S4096x16, .f32⟩
  | 30 => ⟨S4096x16, .f32⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_cst : Ref sig .tc := ⟨.hbm, 23, rfl⟩
abbrev main_v2 : Ref sig .tc := ⟨.hbm, 24, rfl⟩
abbrev main_cst_0 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_cst_1 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_call0_cst : Ref sig .tc := ⟨.hbm, 37, rfl⟩
abbrev main_call0_v0 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_cst_2 : Ref sig .tc := ⟨.hbm, 42, rfl⟩
abbrev main_v16 : Ref sig .tc := ⟨.hbm, 43, rfl⟩
abbrev main_cst_3 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_cst_4 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_call1_cst : Ref sig .tc := ⟨.hbm, 56, rfl⟩
abbrev main_call1_v0 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_call2_cst : Ref sig .tc := ⟨.hbm, 64, rfl⟩
abbrev main_call2_v0 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_cst_5 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_cst_6 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_cst_7 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_cst_8 : Ref sig .tc := ⟨.hbm, 115, rfl⟩
abbrev main_v79 : Ref sig .tc := ⟨.hbm, 116, rfl⟩
abbrev main_cst_9 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_cst_10 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_call3_cst : Ref sig .tc := ⟨.hbm, 144, rfl⟩
abbrev main_call3_v0 : Ref sig .tc := ⟨.hbm, 145, rfl⟩
abbrev main_call3_cst_0 : Ref sig .tc := ⟨.hbm, 146, rfl⟩
abbrev main_call3_v1 : Ref sig .tc := ⟨.hbm, 147, rfl⟩
abbrev main_call3_v2 : Ref sig .tc := ⟨.hbm, 148, rfl⟩
abbrev main_call3_v3 : Ref sig .tc := ⟨.hbm, 149, rfl⟩
abbrev main_call3_v4 : Ref sig .tc := ⟨.hbm, 150, rfl⟩
abbrev main_call3_v5 : Ref sig .tc := ⟨.hbm, 151, rfl⟩
abbrev main_call3_v6 : Ref sig .tc := ⟨.hbm, 152, rfl⟩
abbrev main_call3_cst_1 : Ref sig .tc := ⟨.hbm, 153, rfl⟩
abbrev main_call3_v7 : Ref sig .tc := ⟨.hbm, 154, rfl⟩
abbrev main_call3_v8 : Ref sig .tc := ⟨.hbm, 155, rfl⟩
abbrev main_call3_v9 : Ref sig .tc := ⟨.hbm, 156, rfl⟩
abbrev main_call3_v10 : Ref sig .tc := ⟨.hbm, 157, rfl⟩
abbrev main_v105 : Ref sig .tc := ⟨.hbm, 158, rfl⟩

abbrev nD : Nat := 1
abbrev τ : Topo := Topo.v7x

variable {F : FTy → Type} [FloatOps F]

class Facts₀ : Prop where
  bcast_S_S4096x512 : S_.BroadcastsInDim S4096x512 (![] : Fin 0 → Fin S4096x512.rank)
  bcast_S512_S1x512_1 : S512.BroadcastsInDim S1x512 (![1] : Fin 1 → Fin S1x512.rank)
  bcast_S1x512_S4096x512_0_1 : S1x512.BroadcastsInDim S4096x512 (![0, 1] : Fin 2 → Fin S4096x512.rank)
  reducesTo_S4096x512_S4096_d1 : S4096x512.ReducesTo [1] S4096
  h_S_ : 0 < S_.numel
  bcast_S4096_S4096x1_0 : S4096.BroadcastsInDim S4096x1 (![0] : Fin 1 → Fin S4096x1.rank)
  concatenates_S4096x1_S4096x1_S4096x1_S4096x3_d1 : Shape.Concatenates [S4096x1, S4096x1, S4096x1] S4096x3 1
  reducesTo_S4096x3_S4096_d1 : S4096x3.ReducesTo [1] S4096
  bcast_S_S4096 : S_.BroadcastsInDim S4096 (![] : Fin 0 → Fin S4096.rank)
  bcast_S4096x1_S4096x3_0_1 : S4096x1.BroadcastsInDim S4096x3 (![0, 1] : Fin 2 → Fin S4096x3.rank)
  slices_S4096x3_S4096x1_0_0 : S4096x3.Slices ![0, 0] S4096x1
  bcast_S4096x1_S4096x512_0_1 : S4096x1.BroadcastsInDim S4096x512 (![0, 1] : Fin 2 → Fin S4096x512.rank)
  slices_S4096x3_S4096x1_0_1 : S4096x3.Slices ![0, 1] S4096x1
  slices_S4096x3_S4096x1_0_2 : S4096x3.Slices ![0, 2] S4096x1
  bcast_S16_S1x16_1 : S16.BroadcastsInDim S1x16 (![1] : Fin 1 → Fin S1x16.rank)
  bcast_S1x16_S4096x16_0_1 : S1x16.BroadcastsInDim S4096x16 (![0, 1] : Fin 2 → Fin S4096x16.rank)
  reducesTo_S4096x16_S4096_d1 : S4096x16.ReducesTo [1] S4096
  bcast_S4096x1_S4096x16_0_1 : S4096x1.BroadcastsInDim S4096x16 (![0, 1] : Fin 2 → Fin S4096x16.rank)
  dot_S4096x1024_S1024x512_S4096x512_1_0_0_1_n_n_wf : DotDims.WF S4096x1024 S1024x512 S4096x512 [1] [0] [0] [1] [] []
  dot_S4096x4096_S4096x1024_S4096x1024_1_0_0_1_n_n_wf : DotDims.WF S4096x4096 S4096x1024 S4096x1024 [1] [0] [0] [1] [] []
  dot_S4096x512_S512x512_S4096x512_1_0_0_1_n_n_wf : DotDims.WF S4096x512 S512x512 S4096x512 [1] [0] [0] [1] [] []
  dot_S4096x4096_S4096x512_S4096x512_1_0_0_1_n_n_wf : DotDims.WF S4096x4096 S4096x512 S4096x512 [1] [0] [0] [1] [] []
  dot_S4096x512_S512x16_S4096x16_1_0_0_1_n_n_wf : DotDims.WF S4096x512 S512x16 S4096x16 [1] [0] [0] [1] [] []

variable [Facts₀]

def dot_S4096x1024_S1024x512_S4096x512_1_0_0_1_n_n : DotDims S4096x1024 S1024x512 S4096x512 where
  lhsContracting := [1]
  rhsContracting := [0]
  lhsNonContracting := [0]
  rhsNonContracting := [1]
  lhsBatch := []
  rhsBatch := []
  wf := dot_S4096x1024_S1024x512_S4096x512_1_0_0_1_n_n_wf
def dot_S4096x4096_S4096x1024_S4096x1024_1_0_0_1_n_n : DotDims S4096x4096 S4096x1024 S4096x1024 where
  lhsContracting := [1]
  rhsContracting := [0]
  lhsNonContracting := [0]
  rhsNonContracting := [1]
  lhsBatch := []
  rhsBatch := []
  wf := dot_S4096x4096_S4096x1024_S4096x1024_1_0_0_1_n_n_wf
def dot_S4096x512_S512x512_S4096x512_1_0_0_1_n_n : DotDims S4096x512 S512x512 S4096x512 where
  lhsContracting := [1]
  rhsContracting := [0]
  lhsNonContracting := [0]
  rhsNonContracting := [1]
  lhsBatch := []
  rhsBatch := []
  wf := dot_S4096x512_S512x512_S4096x512_1_0_0_1_n_n_wf
def dot_S4096x4096_S4096x512_S4096x512_1_0_0_1_n_n : DotDims S4096x4096 S4096x512 S4096x512 where
  lhsContracting := [1]
  rhsContracting := [0]
  lhsNonContracting := [0]
  rhsNonContracting := [1]
  lhsBatch := []
  rhsBatch := []
  wf := dot_S4096x4096_S4096x512_S4096x512_1_0_0_1_n_n_wf
def dot_S4096x512_S512x16_S4096x16_1_0_0_1_n_n : DotDims S4096x512 S512x16 S4096x16 where
  lhsContracting := [1]
  rhsContracting := [0]
  lhsNonContracting := [0]
  rhsNonContracting := [1]
  lhsBatch := []
  rhsBatch := []
  wf := dot_S4096x512_S512x16_S4096x16_1_0_0_1_n_n_wf

class Facts : Prop extends Facts₀ where

variable [Facts]
-- ==== Proof.KernelH.RunCond.lean ====
import proofs.«157173_j56882546868342_2_alg».proof.Proof.KernelH.Regions
set_option maxRecDepth 16384
noncomputable section
namespace Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
variable {F : FTy → Type} [FloatOps F]
variable (m : (ℓ : Loc nD τ sig) → Buf (Elt F) ℓ)

/-! # The run's result, given the regions' records

The conditional frame says that every argument array ends as launched. The same run says more: at the end each core
holds every unscoped buffer at the last valuation, and there the program's result buffer `main_v62` holds what the
last region leaves, since that valuation is the one before it rewritten at `main_v62` with exactly that. So from the
same fourteen records, chained through the same thread states, every final memory has `main_v62` at
`outs 19 main_v62` on every core, and the arguments as launched. -/

/-- The last valuation holds at the result buffer what the last region leaves there. -/
theorem V19_main_v62 (outs : Outs (F := F)) (c : Dev nD) : V19 m outs c main_v62 = outs 19 main_v62 c := by
  show Function.update (V18 m outs c) main_v62 (outs 19 main_v62 c) main_v62 = outs 19 main_v62 c
  rw [Function.update_self]

-- the launch theorem's implicit arguments are found by unifying its conclusion with this one, which takes unfolding
-- plain definitions in a metavariable's type
set_option backward.isDefEq.respectTransparency.types false in
/-- THE RUN WITH ITS RESULT. For any rest states `E` the launch makes on every core at once and that end owing nothing,
    any contents `outs` and proof data: given per region a segment record entered from the thread state before it and
    left at the one after it, every weakly fair execution of @main from memory `m` with zero counters terminates, and
    every final memory holds `main_v62` at `outs 19 main_v62` and each argument as launched. -/
theorem run_value_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 14) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 15 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE14 : ∀ c : Dev nD, E 14 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V1 m c) ∗ E 0 c) ⊢ R0.pre c)
    (hpost0 : ∀ c : Dev nD, R0.post c ⊢ iprop(StableHlo.held (c : Thread nD τ) (Pipeline.ucRefs τ sig) (V2 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V2 m outs c) ∗ E 1 c) ⊢ R1.pre c)
    (hpost1 : ∀ c : Dev nD, R1.post c ⊢ iprop(StableHlo.held (c : Thread nD τ) (Pipeline.ucRefs τ sig) (V3 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V3 m outs c) ∗ E 2 c) ⊢ R2.pre c)
    (hpost2 : ∀ c : Dev nD, R2.post c ⊢ iprop(StableHlo.held (c : Thread nD τ) (Pipeline.ucRefs τ sig) (V4 m outs c) ∗ E 3 c))
    (R3 : RegionSeg (pcfgs (F := F)) adm pdats ι defs₀ 𝒱₀ L lv 3)
    (hpre3 : ∀ c : Dev nD, iprop(StableHlo.held (c : Thread nD τ) (Pipeline.ucRefs τ sig) (V4 m outs c) ∗ E 3 c) ⊢ R3.pre c)
    (hpost3 : ∀ c : Dev nD, R3.post c ⊢ iprop(StableHlo.held (c : Thread nD τ) (Pipeline.ucRefs τ sig) (V5 m outs c) ∗ E 4 c))
    (R4 : RegionSeg (pcfgs (F := F)) adm pdats ι defs₀ 𝒱₀ L lv 4)
    (hpre4 : ∀ c : Dev nD, iprop(StableHlo.held (c : Thread nD τ) (Pipeline.ucRefs τ sig) (V5 m outs c) ∗ E 4 c) ⊢ R4.pre c)
    (hpost4 : ∀ c : Dev nD, R4.post c ⊢ iprop(StableHlo.held (c : Thread nD τ) (Pipeline.ucRefs τ sig) (V6 m outs c) ∗ E 5 c))
    (R5 : RegionSeg (pcfgs (F := F)) adm pdats ι defs₀ 𝒱₀ L lv 5)
    (hpre5 : ∀ c : Dev nD, iprop(StableHlo.held (c : Thread nD τ) (Pipeline.ucRefs τ sig) (V6 m outs c) ∗ E 5 c) ⊢ R5.pre c)
    (hpost5 : ∀ c : Dev nD, R5.post c ⊢ iprop(StableHlo.held (c : Thread nD τ) (Pipeline.ucRefs τ sig) (V7 m outs c) ∗ E 6 c))
    (R6 : RegionSeg (pcfgs (F := F)) adm pdats ι defs₀ 𝒱₀ L lv 6)
    (hpre6 : ∀ c : Dev nD, iprop(StableHlo.held (c : Thread nD τ) (Pipeline.ucRefs τ sig) (V7 m outs c) ∗ E 6 c) ⊢ R6.pre c)
    (hpost6 : ∀ c : Dev nD, R6.post c ⊢ iprop(StableHlo.held (c : Thread nD τ) (Pipeline.ucRefs τ sig) (V8 m outs c) ∗ E 7 c))
    (R7 : RegionSeg (pcfgs (F := F)) adm pdats ι defs₀ 𝒱₀ L lv 7)
    (hpre7 : ∀ c : Dev nD, iprop(StableHlo.held (c : Thread nD τ) (Pipeline.ucRefs τ sig) (V9 m outs c) ∗ E 7 c) ⊢ R7.pre c)
    (hpost7 : ∀ c : Dev nD, R7.post c ⊢ iprop(StableHlo.held (c : Thread nD τ) (Pipeline.ucRefs τ sig) (V10 m outs c) ∗ E 8 c))
    (R8 : RegionSeg (pcfgs (F := F)) adm pdats ι defs₀ 𝒱₀ L lv 8)
    (hpre8 : ∀ c : Dev nD, iprop(StableHlo.held (c : Thread nD τ) (Pipeline.ucRefs τ sig) (V11 m outs c) ∗ E 8 c) ⊢ R8.pre c)
    (hpost8 : ∀ c : Dev nD, R8.post c ⊢ iprop(StableHlo.held (c : Thread nD τ) (Pipeline.ucRefs τ sig) (V12 m outs c) ∗ E 9 c))
    (R9 : RegionSeg (pcfgs (F := F)) adm pdats ι defs₀ 𝒱₀ L lv 9)
    (hpre9 : ∀ c : Dev nD, iprop(StableHlo.held (c : Thread nD τ) (Pipeline.ucRefs τ sig) (V12 m outs c) ∗ E 9 c) ⊢ R9.pre c)
    (hpost9 : ∀ c : Dev nD, R9.post c ⊢ iprop(StableHlo.held (c : Thread nD τ) (Pipeline.ucRefs τ sig) (V13 m outs c) ∗ E 10 c))
    (R10 : RegionSeg (pcfgs (F := F)) adm pdats ι defs₀ 𝒱₀ L lv 10)
    (hpre10 : ∀ c : Dev nD, iprop(StableHlo.held (c : Thread nD τ) (Pipeline.ucRefs τ sig) (V14 m outs c) ∗ E 10 c) ⊢ R10.pre c)
    (hpost10 : ∀ c : Dev nD, R10.post c ⊢ iprop(StableHlo.held (c : Thread nD τ) (Pipeline.ucRefs τ sig) (V15 m outs c) ∗ E 11 c))
    (R11 : RegionSeg (pcfgs (F := F)) adm pdats ι defs₀ 𝒱₀ L lv 11)
    (hpre11 : ∀ c : Dev nD, iprop(StableHlo.held (c : Thread nD τ) (Pipeline.ucRefs τ sig) (V15 m outs c) ∗ E 11 c) ⊢ R11.pre c)
    (hpost11 : ∀ c : Dev nD, R11.post c ⊢ iprop(StableHlo.held (c : Thread nD τ) (Pipeline.ucRefs τ sig) (V16 m outs c) ∗ E 12 c))
    (R12 : RegionSeg (pcfgs (F := F)) adm pdats ι defs₀ 𝒱₀ L lv 12)
    (hpre12 : ∀ c : Dev nD, iprop(StableHlo.held (c : Thread nD τ) (Pipeline.ucRefs τ sig) (V16 m outs c) ∗ E 12 c) ⊢ R12.pre c)
    (hpost12 : ∀ c : Dev nD, R12.post c ⊢ iprop(StableHlo.held (c : Thread nD τ) (Pipeline.ucRefs τ sig) (V17 m outs c) ∗ E 13 c))
    (R13 : RegionSeg (pcfgs (F := F)) adm pdats ι defs₀ 𝒱₀ L lv 13)
    (hpre13 : ∀ c : Dev nD, iprop(StableHlo.held (c : Thread nD τ) (Pipeline.ucRefs τ sig) (V18 m outs c) ∗ E 13 c) ⊢ R13.pre c)
    (hpost13 : ∀ c : Dev nD, R13.post c ⊢ iprop(StableHlo.held (c : Thread nD τ) (Pipeline.ucRefs τ sig) (V19 m outs c) ∗ E 14 c)) :
    θ_run defs (onTc (τ := τ) (main (F := F))) ⟨m, fun _ => 0, ρ⟩ (fun r => ∀ c : Dev nD,
      r.2.mem ((c.tc : Thread nD τ).loc main_v62) = outs 19 main_v62 c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) := by
  refine Pipeline.θ_run_regions_kit_dev (pcfgs (F := F)) adm pdats ι cellOf_inj EP defs₀ 𝒱₀ L lv m ρ main
    (segs m outs 𝒱₀ L lv E ι pdats R0 R1 R2 R3 R4 R5 R6 R7 R8 R9 R10 R11 R12 R13)
    (fun c Q => by
      rewrite [main_chain c, Seg.run_eq_chain,
        show (segs m outs 𝒱₀ L lv E ι pdats R0 R1 R2 R3 R4 R5 R6 R7 R8 R9 R10 R11 R12 R13 c).map Seg.prog = [
          StableHlo.seq hostOps0,
          Prog.lift (.customCall (Pipeline.entry 0) ()), Prog.lift (.customCall (Pipeline.entry 1) ()),
          Prog.lift (.customCall (Pipeline.entry 2) ()), Prog.lift (.customCall (Pipeline.entry 3) ()),
          Prog.lift (.customCall (Pipeline.entry 4) ()), Prog.lift (.customCall (Pipeline.entry 5) ()),
          Prog.lift (.customCall (Pipeline.entry 6) ()),
          StableHlo.seq hostOps7,
          Prog.lift (.customCall (Pipeline.entry 7) ()),
          StableHlo.seq hostOps8,
          Prog.lift (.customCall (Pipeline.entry 8) ()), Prog.lift (.customCall (Pipeline.entry 9) ()),
          StableHlo.seq hostOps10,
          Prog.lift (.customCall (Pipeline.entry 10) ()), Prog.lift (.customCall (Pipeline.entry 11) ()),
          Prog.lift (.customCall (Pipeline.entry 12) ()),
          StableHlo.seq hostOps13,
          Prog.lift (.customCall (Pipeline.entry 13) ()) ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V19 m outs c))
    (hch := fun c => ⟨.rfl, hpre0 c, (hpost0 c).trans (hpre1 c), (hpost1 c).trans (hpre2 c), (hpost2 c).trans (hpre3 c),
      (hpost3 c).trans (hpre4 c), (hpost4 c).trans (hpre5 c), (hpost5 c).trans (hpre6 c), hpost6 c, hpre7 c, hpost7 c, hpre8 c,
      (hpost8 c).trans (hpre9 c), hpost9 c, hpre10 c, (hpost10 c).trans (hpre11 c), (hpost11 c).trans (hpre12 c), hpost12 c,
      hpre13 c, (hpost13 c).trans (sep_mono .rfl (hE14 c))⟩)
    (hinit := ?_)
    (QY := fun c s => s.mem ((c.tc : Thread nD τ).loc main_v62) = outs 19 main_v62 c
      ∧ s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4)
      ∧ s.mem ((c.tc : Thread nD τ).loc main_arg5) = m ((c.tc : Thread nD τ).loc main_arg5)
      ∧ s.mem ((c.tc : Thread nD τ).loc main_arg6) = m ((c.tc : Thread nD τ).loc main_arg6)
      ∧ s.mem ((c.tc : Thread nD τ).loc main_arg7) = m ((c.tc : Thread nD τ).loc main_arg7)
      ∧ s.mem ((c.tc : Thread nD τ).loc main_arg8) = m ((c.tc : Thread nD τ).loc main_arg8)
      ∧ s.mem ((c.tc : Thread nD τ).loc main_arg9) = m ((c.tc : Thread nD τ).loc main_arg9)
      ∧ s.mem ((c.tc : Thread nD τ).loc main_arg10) = m ((c.tc : Thread nD τ).loc main_arg10)
      ∧ s.mem ((c.tc : Thread nD τ).loc main_arg11) = m ((c.tc : Thread nD τ).loc main_arg11)
      ∧ s.mem ((c.tc : Thread nD τ).loc main_arg12) = m ((c.tc : Thread nD τ).loc main_arg12)
      ∧ s.mem ((c.tc : Thread nD τ).loc main_arg13) = m ((c.tc : Thread nD τ).loc main_arg13)
      ∧ s.mem ((c.tc : Thread nD τ).loc main_arg14) = m ((c.tc : Thread nD τ).loc main_arg14)
      ∧ s.mem ((c.tc : Thread nD τ).loc main_arg15) = m ((c.tc : Thread nD τ).loc main_arg15)
      ∧ s.mem ((c.tc : Thread nD τ).loc main_arg16) = m ((c.tc : Thread nD τ).loc main_arg16)
      ∧ s.mem ((c.tc : Thread nD τ).loc main_arg17) = m ((c.tc : Thread nD τ).loc main_arg17)
      ∧ s.mem ((c.tc : Thread nD τ).loc main_arg18) = m ((c.tc : Thread nD τ).loc main_arg18)
      ∧ s.mem ((c.tc : Thread nD τ).loc main_arg19) = m ((c.tc : Thread nD τ).loc main_arg19)
      ∧ s.mem ((c.tc : Thread nD τ).loc main_arg20) = m ((c.tc : Thread nD τ).loc main_arg20))
    (hfin := fun c s' => ?_) (hQ := fun _ h => h)
  · -- the launch: the unscoped buffers are held at the launch valuation; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: the last thread state, held beside the final state's interpretation, says what that state's memory
    -- holds at every unscoped buffer; the result and the arguments are then read off the last valuation
    unfold StableHlo.held
    iintro ⟨Hh, HSI⟩
    ihave Hr := (pointsTo_read_all (Pipeline.ucRefs τ sig) (fun b => ((c : Thread nD τ).1, b)) (V19 m outs c) s') $$ [Hh HSI]
    · isplitl [Hh] <;> iassumption
    icases Hr with ⟨%h, HSI⟩
    imodintro
    isplitr
    · ipureintro
      have at_ := fun (r : Ref sig .tc) (hr : ¬ (Proc.devRef .tc r : DevRef τ sig).isScoped) =>
        h (Proc.devRef .tc r) (Finset.mem_filter.mpr ⟨StableHlo.devRef_mem_tcRefs r, hr⟩)
      exact ⟨(at_ main_v62 (by decide)).trans (V19_main_v62 m outs c),
        (at_ main_arg0 (by decide)).trans (V19_main_arg0 m outs c), (at_ main_arg1 (by decide)).trans (V19_main_arg1 m outs c),
        (at_ main_arg2 (by decide)).trans (V19_main_arg2 m outs c), (at_ main_arg3 (by decide)).trans (V19_main_arg3 m outs c),
        (at_ main_arg4 (by decide)).trans (V19_main_arg4 m outs c), (at_ main_arg5 (by decide)).trans (V19_main_arg5 m outs c),
        (at_ main_arg6 (by decide)).trans (V19_main_arg6 m outs c), (at_ main_arg7 (by decide)).trans (V19_main_arg7 m outs c),
        (at_ main_arg8 (by decide)).trans (V19_main_arg8 m outs c), (at_ main_arg9 (by decide)).trans (V19_main_arg9 m outs c),
        (at_ main_arg10 (by decide)).trans (V19_main_arg10 m outs c), (at_ main_arg11 (by decide)).trans (V19_main_arg11 m outs c),
        (at_ main_arg12 (by decide)).trans (V19_main_arg12 m outs c), (at_ main_arg13 (by decide)).trans (V19_main_arg13 m outs c),
        (at_ main_arg14 (by decide)).trans (V19_main_arg14 m outs c), (at_ main_arg15 (by decide)).trans (V19_main_arg15 m outs c),
        (at_ main_arg16 (by decide)).trans (V19_main_arg16 m outs c), (at_ main_arg17 (by decide)).trans (V19_main_arg17 m outs c),
        (at_ main_arg18 (by decide)).trans (V19_main_arg18 m outs c), (at_ main_arg19 (by decide)).trans (V19_main_arg19 m outs c),
        (at_ main_arg20 (by decide)).trans (V19_main_arg20 m outs c)⟩
    · iexact HSI

end Cert.Kernel.Gen

end
-- ==== Proof.KernelH.Reg0.lean ====
import proofs.«157173_j56882546868342_2_alg».proof.Proof.KernelH.Launch
import proofs.«157173_j56882546868342_2_alg».proof.Proof.Gen.Kernel.Skeleton
import proofs.«157173_j56882546868342_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384
noncomputable section
namespace Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

/-! # Region 0: the blocked matrix product main_v31 = main_v0 · main_v19, grid (4, 1, 2)

The grid point (i, j, k) reads the block (i, k) of the left operand and the block (k, j) of the right one and adds
their product into an accumulator the kernel keeps between points: zeroed where k = 0, written out (rounded to the
output's element type) where k = 1. Everything here is generic in the float model. -/

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, for any proof data whose array is the
    region-entry contents and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's two conditions, decided over the grid -/

/-- The first condition (k = 0), from the grid coordinates. -/
abbrev cond0_0 (i : grid0.Coords) : Prop := (Scalar.cmpi .ne (Scalar.extui (Scalar.cmpi .eq (BitVec.ofNat 32 (i 2).val) 0#32)) 0#32) = 1#1
/-- It holds at the even points. -/
theorem hcond0_0 : ∀ t : Fin cfg0.N, cond0_0 (grid0.coords t) ↔ t.val % 2 = 0 :=
  (by decide +kernel : ∀ t : Fin grid0.N, cond0_0 (grid0.coords t) ↔ t.val % 2 = 0)

/-- The second condition (k = 1, the last block of the contraction). -/
abbrev cond0_1 (i : grid0.Coords) : Prop := k0_cond2 i = 1#1
/-- It holds at the odd points. -/
theorem hcond0_1 : ∀ t : Fin cfg0.N, cond0_1 (grid0.coords t) ↔ t.val % 2 = 1 :=
  (by decide +kernel : ∀ t : Fin grid0.N, cond0_1 (grid0.coords t) ↔ t.val % 2 = 1)

/-- An even point is in case A: first block, not the last. -/
theorem hA0 (t : Fin cfg0.N) (h0 : t.val % 2 = 0) : cond0_0 (grid0.coords t) ∧ ¬cond0_1 (grid0.coords t) :=
  ⟨(hcond0_0 t).mpr h0, fun h => by have := (hcond0_1 t).mp h; omega⟩
/-- An odd point is in case C: last block, not the first. (With two blocks no point is in the middle case.) -/
theorem hC0 (t : Fin cfg0.N) (h0 : ¬t.val % 2 = 0) : ¬cond0_0 (grid0.coords t) ∧ cond0_1 (grid0.coords t) :=
  ⟨fun h => h0 ((hcond0_0 t).mp h), (hcond0_1 t).mpr (by omega)⟩

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
/-- In case A the output is idle: nothing is stored into it, -/
theorem idleAt0_2_A : ∀ t : Fin cfg0.N, cond0_0 (grid0.coords t) → ¬cond0_1 (grid0.coords t) → cfg0.idle 2 (grid0.coords t) = true := by decide +kernel
/-- and its block is not written back there. -/
theorem noFlush0_2_A : ∀ t : Fin cfg0.N, cond0_0 (grid0.coords t) → ¬cond0_1 (grid0.coords t) → (cfg0.win 2).flush t = false := by decide +kernel
/-- In case C the output is live. -/
theorem liveAt0_2_C : ∀ t : Fin cfg0.N, ¬cond0_0 (grid0.coords t) → cond0_1 (grid0.coords t) → cfg0.idle 2 (grid0.coords t) = false := by decide +kernel

/-! ## The memrefs the body is called with -/

/-- One staging buffer of the output window, through which its contents are stated. -/
abbrev VO0_2 : View sig .tc .vmem S1024x512 .bf16 := (Memref.whole cc0_stg2_0 : Memref sig .tc .vmem S1024x512 .bf16).view
abbrev ms0_0 (t : Fin cfg0.N) : Memref sig .tc .vmem S1024x512 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x512 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x512 .bf16 := win0_2.stage (cfg0.slots t 2)
abbrev hs0_2 (t : Fin cfg0.N) : (ms0_2 t).IsWhole := hstage0_2 ((cfg0.slots t 2).cast nbuf0_2)
/-- The accumulator: a whole scoped buffer of the kernel's own. -/
abbrev scM0_0 : Memref sig .tc .vmem S1024x512 .f32 := Memref.whole cc0_scratch0
abbrev VS0_0 : View sig .tc .vmem S1024x512 .f32 := scM0_0.view
/-- Every other scoped buffer of the core that is no staging buffer of this region: carried unopened. -/
abbrev rest0 (c : Dev nD) : sProp 𝕄 :=
  Pipeline.scopedRestBut (Ix := Unit) (Name := ℕ) (U := UR sig nD τ) (Lvl := ℕ) (Val := Elt F) spec0 c [cc0_scratch0]

/-- The class's invariant with the accumulator as a memref owned at some contents. -/
theorem PhiA0_eq (c : Dev nD) :
    (Pipeline.ΦA spec0 c : sProp 𝕄)
      = iprop(iprop((∃ d, owns (c : Thread nD τ) scM0_0 fullShare d) ∗ rest0 c) ∗ (∃ r, prngReg c r)) := by
  unfold Pipeline.ΦA; rw [scopedRest0_split]; simp only [scM0_0, owns_whole]; try rfl

/-! ## The body's run, case by case -/

set_option maxHeartbeats 1000000 in
/-- CASE A (k = 0): the accumulator, found at anything, is zeroed and then holds the first block product; the output's
    buffer is handed back untouched. The pieces written are what the run finds. -/
noncomputable def kernelRun0_A (c : Dev nD) (i : grid0.Coords) (arg3 : Memref sig .tc .vmem S1024x512 .bf16) (harg3 : arg3.IsWhole) (arg4 : Memref sig .tc .vmem S512x512 .bf16) (harg4 : arg4.IsWhole) (arg5 : Memref sig .tc .vmem S1024x512 .bf16) (harg5 : arg5.IsWhole) (arg6 : Memref sig .tc .vmem S1024x512 .f32) (harg6 : arg6.IsWhole) (hc0 : cond0_0 i) (hc1 : ¬cond0_1 i)
    (x0 : Vec F S1024x512 .bf16) (x1 : Vec F S512x512 .bf16) :
    Σ' (L2 : List (View.Piece (Elt F) S1024x512 .bf16)), { LS0 : List (View.Piece (Elt F) S1024x512 .f32) //
      ∀ (xi2 : Vec F S1024x512 .bf16) (E : Set ℕ) (K : PUnit → sProp 𝕄),
        iprop(owns (c : Thread nD τ) arg3 fullShare x0 ∗ owns (c : Thread nD τ) arg4 fullShare x1 ∗ owns (c : Thread nD τ) arg5 fullShare xi2 ∗ (∃ d, owns (c : Thread nD τ) arg6 fullShare d)
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc0__mm_kernel_nobias i arg3 harg3 arg4 harg4 arg5 harg5 arg6 harg6) K } := by
  refine ⟨[], ?_, fun xi2 E K => ?run⟩
  case run =>
    simp only [cc0__mm_kernel_nobias_eq_skeleton]; unfold cc0__mm_kernel_nobias_skel
    unfold owns
    iintro ⟨⟨%f0, %hf0, H0⟩, ⟨%f1, %hf1, H1⟩, ⟨%f2, %hf2, H2⟩, ⟨%ds0, %fs0, -, HS0⟩, Hk⟩
    obtain rfl := harg3.eq_unread hf0; obtain rfl := harg4.eq_unread hf1; obtain rfl := harg5.eq_unread hf2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

set_option maxHeartbeats 1000000 in
/-- CASE C (k = 1): the accumulator, found at what the point before left, gets the last block product added, and the
    output's buffer, found at anything, is stored whole with the accumulator rounded. -/
noncomputable def kernelRun0_C (c : Dev nD) (i : grid0.Coords) (arg3 : Memref sig .tc .vmem S1024x512 .bf16) (harg3 : arg3.IsWhole) (arg4 : Memref sig .tc .vmem S512x512 .bf16) (harg4 : arg4.IsWhole) (arg5 : Memref sig .tc .vmem S1024x512 .bf16) (harg5 : arg5.IsWhole) (arg6 : Memref sig .tc .vmem S1024x512 .f32) (harg6 : arg6.IsWhole) (hc0 : ¬cond0_0 i) (hc1 : cond0_1 i)
    (x0 : Vec F S1024x512 .bf16) (x1 : Vec F S512x512 .bf16) (xs0 : Vec F S1024x512 .f32) :
    Σ' (L2 : List (View.Piece (Elt F) S1024x512 .bf16)), { LS0 : List (View.Piece (Elt F) S1024x512 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xs0
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f LS0)) -∗ K ⟨⟩))
          ⊢ wp frame (wpE (defs₀ (F := F)) Variants.none c none) E (cc0__mm_kernel_nobias i arg3 harg3 arg4 harg4 arg5 harg5 arg6 harg6) K } := by
  refine ⟨?_, ?_, fun E K => ?run⟩
  case run =>
    simp only [cc0__mm_kernel_nobias_eq_skeleton]; unfold cc0__mm_kernel_nobias_skel
    unfold owns
    iintro ⟨⟨%f0, %hf0, H0⟩, ⟨%f1, %hf1, H1⟩, ⟨%d2, %f2, -, H2⟩, ⟨%fs0, %hfs0, HS0⟩, Hk⟩
    obtain rfl := harg3.eq_unread hf0; obtain rfl := harg4.eq_unread hf1; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexists _; iexact HS0

/-! ## What each case leaves: the pieces the runs found, and that they cover -/

/-- Case A stores nothing into the output: a placeholder nothing consults (the window is idle there). -/
def out0_A_2 (c : Dev nD) (i : grid0.Coords) (arg3 : Memref sig .tc .vmem S1024x512 .bf16) (harg3 : arg3.IsWhole) (arg4 : Memref sig .tc .vmem S512x512 .bf16) (harg4 : arg4.IsWhole) (arg5 : Memref sig .tc .vmem S1024x512 .bf16) (harg5 : arg5.IsWhole) (arg6 : Memref sig .tc .vmem S1024x512 .f32) (harg6 : arg6.IsWhole) (hc0 : cond0_0 i) (hc1 : ¬cond0_1 i)
    (x0 : Vec F S1024x512 .bf16) (x1 : Vec F S512x512 .bf16) : Vec F S1024x512 .bf16 :=
  VO0_2.read (Elt F) (VO0_2.writes (Elt F) VO0_2.junk (kernelRun0_A c i arg3 harg3 arg4 harg4 arg5 harg5 arg6 harg6 hc0 hc1 x0 x1).1)

/-- Case A's pieces for the accumulator cover it (two whole stores). -/
theorem scover0_A_0 (c : Dev nD) (i : grid0.Coords) (arg3 : Memref sig .tc .vmem S1024x512 .bf16) (harg3 : arg3.IsWhole) (arg4 : Memref sig .tc .vmem S512x512 .bf16) (harg4 : arg4.IsWhole) (arg5 : Memref sig .tc .vmem S1024x512 .bf16) (harg5 : arg5.IsWhole) (arg6 : Memref sig .tc .vmem S1024x512 .f32) (harg6 : arg6.IsWhole) (hc0 : cond0_0 i) (hc1 : ¬cond0_1 i)
    (x0 : Vec F S1024x512 .bf16) (x1 : Vec F S512x512 .bf16) (y : S1024x512.Idx) :
    ∃ pc ∈ (kernelRun0_A c i arg3 harg3 arg4 harg4 arg5 harg5 arg6 harg6 hc0 hc1 x0 x1).2.1, y ∈ pc.1.set :=
  View.cover_of_tiledL (kernelRun0_A c i arg3 harg3 arg4 harg4 arg5 harg5 arg6 harg6 hc0 hc1 x0 x1).2.1 S1024x512.size (by sl_kernel_rfl) y

/-- What case A leaves in the accumulator. -/
def sout0_A_0 (c : Dev nD) (i : grid0.Coords) (arg3 : Memref sig .tc .vmem S1024x512 .bf16) (harg3 : arg3.IsWhole) (arg4 : Memref sig .tc .vmem S512x512 .bf16) (harg4 : arg4.IsWhole) (arg5 : Memref sig .tc .vmem S1024x512 .bf16) (harg5 : arg5.IsWhole) (arg6 : Memref sig .tc .vmem S1024x512 .f32) (harg6 : arg6.IsWhole) (hc0 : cond0_0 i) (hc1 : ¬cond0_1 i)
    (x0 : Vec F S1024x512 .bf16) (x1 : Vec F S512x512 .bf16) : Vec F S1024x512 .f32 :=
  VS0_0.read (Elt F) (VS0_0.writes (Elt F) VS0_0.junk (kernelRun0_A c i arg3 harg3 arg4 harg4 arg5 harg5 arg6 harg6 hc0 hc1 x0 x1).2.1)

/-- Case C's piece for the output covers its block (one whole store). -/
theorem cover0_C_2 (c : Dev nD) (i : grid0.Coords) (arg3 : Memref sig .tc .vmem S1024x512 .bf16) (harg3 : arg3.IsWhole) (arg4 : Memref sig .tc .vmem S512x512 .bf16) (harg4 : arg4.IsWhole) (arg5 : Memref sig .tc .vmem S1024x512 .bf16) (harg5 : arg5.IsWhole) (arg6 : Memref sig .tc .vmem S1024x512 .f32) (harg6 : arg6.IsWhole) (hc0 : ¬cond0_0 i) (hc1 : cond0_1 i)
    (x0 : Vec F S1024x512 .bf16) (x1 : Vec F S512x512 .bf16) (xs0 : Vec F S1024x512 .f32) (y : S1024x512.Idx) :
    ∃ pc ∈ (kernelRun0_C c i arg3 harg3 arg4 harg4 arg5 harg5 arg6 harg6 hc0 hc1 x0 x1 xs0).1, y ∈ pc.1.set :=
  View.cover_of_tiledL (kernelRun0_C c i arg3 harg3 arg4 harg4 arg5 harg5 arg6 harg6 hc0 hc1 x0 x1 xs0).1 S1024x512.size (by sl_kernel_rfl) y

/-- What case C leaves in the output's staging buffer. -/
def out0_C_2 (c : Dev nD) (i : grid0.Coords) (arg3 : Memref sig .tc .vmem S1024x512 .bf16) (harg3 : arg3.IsWhole) (arg4 : Memref sig .tc .vmem S512x512 .bf16) (harg4 : arg4.IsWhole) (arg5 : Memref sig .tc .vmem S1024x512 .bf16) (harg5 : arg5.IsWhole) (arg6 : Memref sig .tc .vmem S1024x512 .f32) (harg6 : arg6.IsWhole) (hc0 : ¬cond0_0 i) (hc1 : cond0_1 i)
    (x0 : Vec F S1024x512 .bf16) (x1 : Vec F S512x512 .bf16) (xs0 : Vec F S1024x512 .f32) : Vec F S1024x512 .bf16 :=
  VO0_2.read (Elt F) (VO0_2.writes (Elt F) VO0_2.junk (kernelRun0_C c i arg3 harg3 arg4 harg4 arg5 harg5 arg6 harg6 hc0 hc1 x0 x1 xs0).1)

/-- Case C's piece for the accumulator covers it (one whole store). -/
theorem scover0_C_0 (c : Dev nD) (i : grid0.Coords) (arg3 : Memref sig .tc .vmem S1024x512 .bf16) (harg3 : arg3.IsWhole) (arg4 : Memref sig .tc .vmem S512x512 .bf16) (harg4 : arg4.IsWhole) (arg5 : Memref sig .tc .vmem S1024x512 .bf16) (harg5 : arg5.IsWhole) (arg6 : Memref sig .tc .vmem S1024x512 .f32) (harg6 : arg6.IsWhole) (hc0 : ¬cond0_0 i) (hc1 : cond0_1 i)
    (x0 : Vec F S1024x512 .bf16) (x1 : Vec F S512x512 .bf16) (xs0 : Vec F S1024x512 .f32) (y : S1024x512.Idx) :
    ∃ pc ∈ (kernelRun0_C c i arg3 harg3 arg4 harg4 arg5 harg5 arg6 harg6 hc0 hc1 x0 x1 xs0).2.1, y ∈ pc.1.set :=
  View.cover_of_tiledL (kernelRun0_C c i arg3 harg3 arg4 harg4 arg5 harg5 arg6 harg6 hc0 hc1 x0 x1 xs0).2.1 S1024x512.size (by sl_kernel_rfl) y

/-- What case C leaves in the accumulator. -/
def sout0_C_0 (c : Dev nD) (i : grid0.Coords) (arg3 : Memref sig .tc .vmem S1024x512 .bf16) (harg3 : arg3.IsWhole) (arg4 : Memref sig .tc .vmem S512x512 .bf16) (harg4 : arg4.IsWhole) (arg5 : Memref sig .tc .vmem S1024x512 .bf16) (harg5 : arg5.IsWhole) (arg6 : Memref sig .tc .vmem S1024x512 .f32) (harg6 : arg6.IsWhole) (hc0 : ¬cond0_0 i) (hc1 : cond0_1 i)
    (x0 : Vec F S1024x512 .bf16) (x1 : Vec F S512x512 .bf16) (xs0 : Vec F S1024x512 .f32) : Vec F S1024x512 .f32 :=
  VS0_0.read (Elt F) (VS0_0.writes (Elt F) VS0_0.junk (kernelRun0_C c i arg3 harg3 arg4 harg4 arg5 harg5 arg6 harg6 hc0 hc1 x0 x1 xs0).2.1)

/-! ## What the output's buffer and the accumulator hold after each point -/

/-- THE ACCUMULATION: after the body at position n, the output's staging buffer and the accumulator. An even point
    restarts the accumulator from the point's own blocks; an odd point continues from what the point before left. -/
def outsAt0 (c : Dev nD) : (n : ℕ) → n < cfg0.N → Vec F S1024x512 .bf16 × Vec F S1024x512 .f32
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) (hA0 ⟨0, hn⟩ (Nat.zero_mod _)).1 (hA0 ⟨0, hn⟩ (Nat.zero_mod _)).2 (iblk0 V c 0 ⟨0, hn⟩) (iblk0 V c 1 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) (hA0 ⟨0, hn⟩ (Nat.zero_mod _)).1 (hA0 ⟨0, hn⟩ (Nat.zero_mod _)).2 (iblk0 V c 0 ⟨0, hn⟩) (iblk0 V c 1 ⟨0, hn⟩))
  | n + 1, hn =>
    if h0 : (n + 1) % 2 = 0 then
      (out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (hA0 ⟨n + 1, hn⟩ h0).1 (hA0 ⟨n + 1, hn⟩ h0).2 (iblk0 V c 0 ⟨n + 1, hn⟩) (iblk0 V c 1 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (hA0 ⟨n + 1, hn⟩ h0).1 (hA0 ⟨n + 1, hn⟩ h0).2 (iblk0 V c 0 ⟨n + 1, hn⟩) (iblk0 V c 1 ⟨n + 1, hn⟩))
    else
      (out0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (hC0 ⟨n + 1, hn⟩ h0).1 (hC0 ⟨n + 1, hn⟩ h0).2 (iblk0 V c 0 ⟨n + 1, hn⟩) (iblk0 V c 1 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (hC0 ⟨n + 1, hn⟩ h0).1 (hC0 ⟨n + 1, hn⟩ h0).2 (iblk0 V c 0 ⟨n + 1, hn⟩) (iblk0 V c 1 ⟨n + 1, hn⟩) (outsAt0 c n (Nat.lt_of_succ_lt hn)).2)

/-- outsAt0 at an even point: case A's contents. -/
theorem outsAt0_A (c : Dev nD) (t : Fin cfg0.N) (h0 : t.val % 2 = 0) :
    outsAt0 V c t.val t.isLt = (out0_A_2 c (grid0.coords t) (ms0_0 t) (hs0_0 t) (ms0_1 t) (hs0_1 t) (ms0_2 t) (hs0_2 t) scM0_0 (Memref.isWhole_whole _) (hA0 t h0).1 (hA0 t h0).2 (iblk0 V c 0 t) (iblk0 V c 1 t), sout0_A_0 c (grid0.coords t) (ms0_0 t) (hs0_0 t) (ms0_1 t) (hs0_1 t) (ms0_2 t) (hs0_2 t) scM0_0 (Memref.isWhole_whole _) (hA0 t h0).1 (hA0 t h0).2 (iblk0 V c 0 t) (iblk0 V c 1 t)) := by
  obtain ⟨n, hn⟩ := t
  cases n with
  | zero => exact rfl
  | succ n => exact (dif_pos h0).trans rfl

/-- outsAt0 at an odd point: case C's contents, over what the point before left in the accumulator. -/
theorem outsAt0_C (c : Dev nD) (t : Fin cfg0.N) (h0 : ¬t.val % 2 = 0) :
    outsAt0 V c t.val t.isLt = (out0_C_2 c (grid0.coords t) (ms0_0 t) (hs0_0 t) (ms0_1 t) (hs0_1 t) (ms0_2 t) (hs0_2 t) scM0_0 (Memref.isWhole_whole _) (hC0 t h0).1 (hC0 t h0).2 (iblk0 V c 0 t) (iblk0 V c 1 t) (outsAt0 V c (t.val - 1) (Nat.lt_of_le_of_lt (Nat.sub_le _ _) t.isLt)).2, sout0_C_0 c (grid0.coords t) (ms0_0 t) (hs0_0 t) (ms0_1 t) (hs0_1 t) (ms0_2 t) (hs0_2 t) scM0_0 (Memref.isWhole_whole _) (hC0 t h0).1 (hC0 t h0).2 (iblk0 V c 0 t) (iblk0 V c 1 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-- The region invariant before position n: before the first point the class's; afterwards the accumulator at what the
    point before left in it, the other scoped buffers unopened, the generator register at some state. -/
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ rest0 c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0_0 fullShare ((outsAt0 V c n hn).2) ∗ rest0 c) ∗ (∃ r, prngReg c r)) := rfl

theorem PhiS0_pos (c : Dev nD) (n : ℕ) (h : n ≤ cfg0.N) (hz : n ≠ 0) :
    PhiS0 V c n h = iprop(iprop(owns (c : Thread nD τ) scM0_0 fullShare ((outsAt0 V c (n - 1) (by omega)).2) ∗ rest0 c) ∗ (∃ r, prngReg c r)) := by
  cases n with
  | zero => exact absurd rfl hz
  | succ n => rfl

/-! ## The pipeline's proof data -/

/-- The proof data of region 0 on core c: the arrays as the region finds them; after the body at point t each input's
    buffer at its block and the output's at outsAt0's first component; the invariant PhiS0; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point: the inputs' buffers hold their blocks; the parity of the point says which case it is in; the
    invariant hands the run the accumulator (at anything at the first point, else at what the point before left) and
    takes it back at this point's contents; the rest of the scoped buffers, the register and the debt pass through. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  have hN : t.val < 8 := lt_of_lt_of_eq t.isLt (show cfg0.N = 8 from N_0)
  by_cases h0 : t.val % 2 = 0
  · rw [Dat.leavesExact_idle (dat0 V c) 2 t (idleAt0_2_A t (hA0 t h0).1 (hA0 t h0).2) (noFlush0_2_A t (hA0 t h0).1 (hA0 t h0).2)]
    rw [outsAt0_A V c t h0]
    unfold sout0_A_0; (try dsimp only)
    by_cases hz : t.val = 0
    · rw [PhiS0_castSucc V c t, PhiS0_zero V c _ _ hz, PhiA0_eq]
      iintro ⟨⟨⟨HS0, Hr⟩, Hg⟩, Ho, ⟨%d0, H0⟩, ⟨%d1, H1⟩, ⟨%d2, H2⟩⟩
      iapply ((kernelRun0_A c (grid0.coords t) _ _ _ _ _ _ _ _ (hA0 t h0).1 (hA0 t h0).2 (iblk0 V c 0 t) (iblk0 V c 1 t)).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover0_A_0 c _ _ _ _ _ _ _ _ _ _ _ _ _)
          iexact Hr
        iexact Hg
      isplitl [Ho]; · iexact Ho
      isplitl [H0]; · iexact H0
      isplitl [H1]; · iexact H1
      iexists _; iexact H2
    · rw [PhiS0_castSucc V c t, PhiS0_pos V c _ _ hz]
      iintro ⟨⟨⟨HS0, Hr⟩, Hg⟩, Ho, ⟨%d0, H0⟩, ⟨%d1, H1⟩, ⟨%d2, H2⟩⟩
      iapply ((kernelRun0_A c (grid0.coords t) _ _ _ _ _ _ _ _ (hA0 t h0).1 (hA0 t h0).2 (iblk0 V c 0 t) (iblk0 V c 1 t)).2.2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover0_A_0 c _ _ _ _ _ _ _ _ _ _ _ _ _)
          iexact Hr
        iexact Hg
      isplitl [Ho]; · iexact Ho
      isplitl [H0]; · iexact H0
      isplitl [H1]; · iexact H1
      iexists _; iexact H2
  · rw [show (dat0 V c).leavesExact 2 t = owns (c : Thread nD τ) (ms0_2 t) fullShare ((dat0 V c).after 2 t) from by
      unfold Dat.leavesExact; rw [liveAt0_2_C t (hC0 t h0).1 (hC0 t h0).2], after0_2]
    rw [outsAt0_C V c t h0]
    unfold out0_C_2 sout0_C_0; (try dsimp only)
    have hz : t.val ≠ 0 := fun hz => h0 (by rw [hz])
    rw [PhiS0_castSucc V c t, PhiS0_pos V c _ _ hz]
    iintro ⟨⟨⟨HS0, Hr⟩, Hg⟩, Ho, ⟨%d0, H0⟩, ⟨%d1, H1⟩, ⟨%d2, H2⟩⟩
    iapply ((kernelRun0_C c (grid0.coords t) _ _ _ _ _ _ _ _ (hC0 t h0).1 (hC0 t h0).2 (iblk0 V c 0 t) (iblk0 V c 1 t) _).2.2 Set.univ _)
    isplitl [H0]; · iexact H0
    isplitl [H1]; · iexact H1
    isplitl [H2]; · iexists _; iexact H2
    isplitl [HS0]; · iexact HS0
    iintro ⟨H0, H1, ⟨%e2, H2⟩, ⟨%es0, HS0⟩⟩
    isplitl [HS0 Hr Hg]
    · isplitl [HS0 Hr]
      · isplitl [HS0]
        · unfold owns; iexists _; isplitr
          swap; · iexact HS0
          ipureintro; exact View.read_writes_of_cover _ _ _ _ _ (scover0_C_0 c _ _ _ _ _ _ _ _ _ _ _ _ _ _)
        iexact Hr
      iexact Hg
    isplitl [Ho]; · iexact Ho
    isplitl [H0]; · iexact H0
    isplitl [H1]; · iexact H1
    unfold owns; iexists _; isplitr
    swap; · iexact H2
    ipureintro; exact View.read_writes_of_cover _ _ _ _ _ (cover0_C_2 c _ _ _ _ _ _ _ _ _ _ _ _ _ _)

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point but the first the invariant gives the class's back: the accumulator's contents are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS0, Hr⟩, Hg⟩
  isplitl [HS0 Hr]
  · isplitl [HS0]
    · iexists _; iexact HS0
    iexact Hr
  iexact Hg

/-- The same after the last point. -/
theorem hout0 (c : Dev nD) : (dat0 V c).Φ (Fin.last cfg0.N) ⊢ Pipeline.ΦA spec0 c :=
  Phi_out0 V c _ (by rw [Fin.val_last]; have : cfg0.N = 8 := N_0; omega)

end Cert.Kernel.Gen

end
-- ==== Proof.KernelH.Reg1.lean ====
import proofs.«157173_j56882546868342_2_alg».proof.Proof.KernelH.Launch
import proofs.«157173_j56882546868342_2_alg».proof.Proof.Gen.Kernel.Skeleton
import proofs.«157173_j56882546868342_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384
noncomputable section
namespace Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

-- The three block shapes of this matrix product: the left operand's block, the right operand's block, and the
-- block of the result (the accumulator has the result block's shape).
local notation "BlkA" => S1024x512
local notation "BlkB" => S512x1024
local notation "BlkO" => S1024x1024

/-! # The matrix product with a carried accumulator, region 1, at the entry contents `V` -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The left operand's current staging buffer holds its block at every point, fetched there or not, for any proof
    data whose array is `V`'s and whose body leaves the block in place: the window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The same for the right operand's window. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's two branch conditions, decided over the grid -/

/-- The first condition: the reduction coordinate is 0 (the accumulator is zeroed). -/
abbrev cond1_0 (i : grid1.Coords) : Prop := (Scalar.cmpi .ne (Scalar.extui (Scalar.cmpi .eq (BitVec.ofNat 32 (i 2).val) 0#32)) 0#32) = 1#1
/-- It holds at the points ≡ 0 (mod 8). -/
theorem hcond1_0 : ∀ t : Fin cfg1.N, cond1_0 (grid1.coords t) ↔ t.val % 8 = 0 :=
  (by decide +kernel : ∀ t : Fin grid1.N, cond1_0 (grid1.coords t) ↔ t.val % 8 = 0)

/-- The second condition: the reduction coordinate is the last, 7 (the result block is written). -/
abbrev cond1_1 (i : grid1.Coords) : Prop := k1_cond2 i = 1#1
/-- It holds at the points ≡ 7 (mod 8). -/
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

/-- The operands' windows are never idle. -/
theorem liveAt1_0 : ∀ t : Fin cfg1.N, cfg1.idle 0 (grid1.coords t) = false := by decide +kernel
theorem liveAt1_1 : ∀ t : Fin cfg1.N, cfg1.idle 1 (grid1.coords t) = false := by decide +kernel
/-- At the first reduction step the result window is idle and is not written back. -/
theorem idleAt1_2_A : ∀ t : Fin cfg1.N, cond1_0 (grid1.coords t) → ¬cond1_1 (grid1.coords t) → cfg1.idle 2 (grid1.coords t) = true := by decide +kernel
theorem noFlush1_2_A : ∀ t : Fin cfg1.N, cond1_0 (grid1.coords t) → ¬cond1_1 (grid1.coords t) → (cfg1.win 2).flush t = false := by decide +kernel
/-- At a middle reduction step likewise. -/
theorem idleAt1_2_B : ∀ t : Fin cfg1.N, ¬cond1_0 (grid1.coords t) → ¬cond1_1 (grid1.coords t) → cfg1.idle 2 (grid1.coords t) = true := by decide +kernel
theorem noFlush1_2_B : ∀ t : Fin cfg1.N, ¬cond1_0 (grid1.coords t) → ¬cond1_1 (grid1.coords t) → (cfg1.win 2).flush t = false := by decide +kernel
/-- At the last reduction step the result window is live: the body stores into it. -/
theorem liveAt1_2_C : ∀ t : Fin cfg1.N, ¬cond1_0 (grid1.coords t) → cond1_1 (grid1.coords t) → cfg1.idle 2 (grid1.coords t) = false := by decide +kernel

/-! ## The memrefs the body is called with -/

/-- One staging buffer of the result window, through which its contents are stated. -/
abbrev VO1_2 : View sig .tc .vmem BlkO .bf16 := (Memref.whole cc1_stg2_0 : Memref sig .tc .vmem BlkO .bf16).view
/-- Each window's current staging memref at point `t`, and its wholeness. -/
abbrev ms1_0 (t : Fin cfg1.N) : Memref sig .tc .vmem BlkA .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem BlkB .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem BlkO .bf16 := win1_2.stage (cfg1.slots t 2)
abbrev hs1_2 (t : Fin cfg1.N) : (ms1_2 t).IsWhole := hstage1_2 ((cfg1.slots t 2).cast nbuf1_2)
/-- The accumulator: a whole scoped buffer of the kernel's own, passed beside the windows. -/
abbrev scM1_0 : Memref sig .tc .vmem BlkO .f32 := Memref.whole cc1_scratch0
/-- The accumulator as a view: what it holds is stated through it. -/
abbrev VS1_0 : View sig .tc .vmem BlkO .f32 := scM1_0.view

/-- Every scoped buffer of the program but this region's accumulator, unopened. -/
abbrev rest1 (c : Dev nD) : sProp 𝕄 :=
  Pipeline.scopedRestBut (Ix := Unit) (Name := ℕ) (U := UR sig nD τ) (Lvl := ℕ) (Val := Elt F) spec1 c [cc1_scratch0]

/-- The region's entry invariant with the accumulator as a memref owned at some contents, the other scoped buffers
    unopened, and the generator register at some state. -/
theorem PhiA1_eq (c : Dev nD) :
    (Pipeline.ΦA spec1 c : sProp 𝕄)
      = iprop(iprop(iprop((∃ d, owns (c : Thread nD τ) scM1_0 fullShare d)) ∗ rest1 (F := F) c) ∗ (∃ r, prngReg c r)) := by
  unfold Pipeline.ΦA; rw [scopedRest1_split]; simp only [scM1_0, owns_whole]; try rfl

/-! ## The body's run, case by case -/

set_option maxHeartbeats 1000000 in
/-- FIRST reduction step (the first condition holds, the second does not). On whole memrefs — the operands' at
    their contents, the result's at contents handed back untouched, the accumulator at anything — the body runs to the
    continuation holding the operands' as they were and the accumulator with its stores written: the pieces are the
    witness the run finds. -/
noncomputable def kernelRun1_A (c : Dev nD) (i : grid1.Coords) (arg3 : Memref sig .tc .vmem BlkA .bf16) (harg3 : arg3.IsWhole) (arg1 : Memref sig .tc .vmem BlkB .bf16) (harg1 : arg1.IsWhole) (arg5 : Memref sig .tc .vmem BlkO .bf16) (harg5 : arg5.IsWhole) (arg6 : Memref sig .tc .vmem BlkO .f32) (harg6 : arg6.IsWhole) (hc0 : cond1_0 i) (hc1 : ¬cond1_1 i)
    (x0 : Vec F BlkA .bf16) (x1 : Vec F BlkB .bf16) :
    Σ' (L2 : List (View.Piece (Elt F) BlkO .bf16)), { LS0 : List (View.Piece (Elt F) BlkO .f32) //
      ∀ (xi2 : Vec F BlkO .bf16) (E : Set ℕ) (K : PUnit → sProp 𝕄),
        iprop(owns (c : Thread nD τ) arg3 fullShare x0 ∗ owns (c : Thread nD τ) arg1 fullShare x1 ∗ owns (c : Thread nD τ) arg5 fullShare xi2 ∗ (∃ d, owns (c : Thread nD τ) arg6 fullShare d)
            ∗ (iprop(owns (c : Thread nD τ) arg3 fullShare x0 ∗ owns (c : Thread nD τ) arg1 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc1__mm_kernel_nobias i arg3 harg3 arg1 harg1 arg5 harg5 arg6 harg6) K } := by
  refine ⟨[], ?_, fun xi2 E K => ?run⟩
  case run =>
    simp only [cc1__mm_kernel_nobias_eq_skeleton]; unfold cc1__mm_kernel_nobias_skel
    unfold owns
    iintro ⟨⟨%f0, %hf0, H0⟩, ⟨%f1, %hf1, H1⟩, ⟨%f2, %hf2, H2⟩, ⟨%ds0, %fs0, -, HS0⟩, Hk⟩
    obtain rfl := harg3.eq_unread hf0; obtain rfl := harg1.eq_unread hf1; obtain rfl := harg5.eq_unread hf2
    sl_exec (disch := first | exact hc0 | exact hc1)
    sl_step
    iapply Hk
    isplitl [H0]
    · iexists _; isplitr; · ipureintro; exact harg3.read_unread _
      iexact H0
    isplitl [H1]
    · iexists _; isplitr; · ipureintro; exact harg1.read_unread _
      iexact H1
    isplitl [H2]
    · iexists _; isplitr; · ipureintro; exact harg5.read_unread _
      iexact H2
    iexists _; iexact HS0

set_option maxHeartbeats 1000000 in
/-- MIDDLE reduction step (neither condition holds): as the first, with the accumulator at what the point before left. -/
noncomputable def kernelRun1_B (c : Dev nD) (i : grid1.Coords) (arg3 : Memref sig .tc .vmem BlkA .bf16) (harg3 : arg3.IsWhole) (arg1 : Memref sig .tc .vmem BlkB .bf16) (harg1 : arg1.IsWhole) (arg5 : Memref sig .tc .vmem BlkO .bf16) (harg5 : arg5.IsWhole) (arg6 : Memref sig .tc .vmem BlkO .f32) (harg6 : arg6.IsWhole) (hc0 : ¬cond1_0 i) (hc1 : ¬cond1_1 i)
    (x0 : Vec F BlkA .bf16) (x1 : Vec F BlkB .bf16) (xs0 : Vec F BlkO .f32) :
    Σ' (L2 : List (View.Piece (Elt F) BlkO .bf16)), { LS0 : List (View.Piece (Elt F) BlkO .f32) //
      ∀ (xi2 : Vec F BlkO .bf16) (E : Set ℕ) (K : PUnit → sProp 𝕄),
        iprop(owns (c : Thread nD τ) arg3 fullShare x0 ∗ owns (c : Thread nD τ) arg1 fullShare x1 ∗ owns (c : Thread nD τ) arg5 fullShare xi2 ∗ owns (c : Thread nD τ) arg6 fullShare xs0
            ∗ (iprop(owns (c : Thread nD τ) arg3 fullShare x0 ∗ owns (c : Thread nD τ) arg1 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc1__mm_kernel_nobias i arg3 harg3 arg1 harg1 arg5 harg5 arg6 harg6) K } := by
  refine ⟨[], ?_, fun xi2 E K => ?run⟩
  case run =>
    simp only [cc1__mm_kernel_nobias_eq_skeleton]; unfold cc1__mm_kernel_nobias_skel
    unfold owns
    iintro ⟨⟨%f0, %hf0, H0⟩, ⟨%f1, %hf1, H1⟩, ⟨%f2, %hf2, H2⟩, ⟨%fs0, %hfs0, HS0⟩, Hk⟩
    obtain rfl := harg3.eq_unread hf0; obtain rfl := harg1.eq_unread hf1; obtain rfl := harg5.eq_unread hf2; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg1.read_unread _
      iexact H1
    isplitl [H2]
    · iexists _; isplitr; · ipureintro; exact harg5.read_unread _
      iexact H2
    iexists _; iexact HS0

set_option maxHeartbeats 1000000 in
/-- LAST reduction step (the second condition holds, the first does not): the result's memref at anything, left with
    the body's store written. -/
noncomputable def kernelRun1_C (c : Dev nD) (i : grid1.Coords) (arg3 : Memref sig .tc .vmem BlkA .bf16) (harg3 : arg3.IsWhole) (arg1 : Memref sig .tc .vmem BlkB .bf16) (harg1 : arg1.IsWhole) (arg5 : Memref sig .tc .vmem BlkO .bf16) (harg5 : arg5.IsWhole) (arg6 : Memref sig .tc .vmem BlkO .f32) (harg6 : arg6.IsWhole) (hc0 : ¬cond1_0 i) (hc1 : cond1_1 i)
    (x0 : Vec F BlkA .bf16) (x1 : Vec F BlkB .bf16) (xs0 : Vec F BlkO .f32) :
    Σ' (L2 : List (View.Piece (Elt F) BlkO .bf16)), { LS0 : List (View.Piece (Elt F) BlkO .f32) //
      ∀ (E : Set ℕ) (K : PUnit → sProp 𝕄),
        iprop(owns (c : Thread nD τ) arg3 fullShare x0 ∗ owns (c : Thread nD τ) arg1 fullShare x1 ∗ (∃ d, owns (c : Thread nD τ) arg5 fullShare d) ∗ owns (c : Thread nD τ) arg6 fullShare xs0
            ∗ (iprop(owns (c : Thread nD τ) arg3 fullShare x0 ∗ owns (c : Thread nD τ) arg1 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f LS0)) -∗ K ⟨⟩))
          ⊢ wp frame (wpE (defs₀ (F := F)) Variants.none c none) E (cc1__mm_kernel_nobias i arg3 harg3 arg1 harg1 arg5 harg5 arg6 harg6) K } := by
  refine ⟨?_, ?_, fun E K => ?run⟩
  case run =>
    simp only [cc1__mm_kernel_nobias_eq_skeleton]; unfold cc1__mm_kernel_nobias_skel
    unfold owns
    iintro ⟨⟨%f0, %hf0, H0⟩, ⟨%f1, %hf1, H1⟩, ⟨%d2, %f2, -, H2⟩, ⟨%fs0, %hfs0, HS0⟩, Hk⟩
    obtain rfl := harg3.eq_unread hf0; obtain rfl := harg1.eq_unread hf1; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg1.read_unread _
      iexact H1
    isplitl [H2]; · iexists _; iexact H2
    iexists _; iexact HS0

/-! ## What each case leaves: the found pieces and their covers -/

/-- The first step stores nothing into the result's buffer: a placeholder nothing consults (the window is idle there). -/
def out1_A_2 (c : Dev nD) (i : grid1.Coords) (arg3 : Memref sig .tc .vmem BlkA .bf16) (harg3 : arg3.IsWhole) (arg1 : Memref sig .tc .vmem BlkB .bf16) (harg1 : arg1.IsWhole) (arg5 : Memref sig .tc .vmem BlkO .bf16) (harg5 : arg5.IsWhole) (arg6 : Memref sig .tc .vmem BlkO .f32) (harg6 : arg6.IsWhole) (hc0 : cond1_0 i) (hc1 : ¬cond1_1 i)
    (x0 : Vec F BlkA .bf16) (x1 : Vec F BlkB .bf16) : Vec F BlkO .bf16 :=
  VO1_2.read (Elt F) (VO1_2.writes (Elt F) VO1_2.junk (kernelRun1_A c i arg3 harg3 arg1 harg1 arg5 harg5 arg6 harg6 hc0 hc1 x0 x1).1)

/-- The first step's stores into the accumulator cover it. -/
theorem scover1_A_0 (c : Dev nD) (i : grid1.Coords) (arg3 : Memref sig .tc .vmem BlkA .bf16) (harg3 : arg3.IsWhole) (arg1 : Memref sig .tc .vmem BlkB .bf16) (harg1 : arg1.IsWhole) (arg5 : Memref sig .tc .vmem BlkO .bf16) (harg5 : arg5.IsWhole) (arg6 : Memref sig .tc .vmem BlkO .f32) (harg6 : arg6.IsWhole) (hc0 : cond1_0 i) (hc1 : ¬cond1_1 i)
    (x0 : Vec F BlkA .bf16) (x1 : Vec F BlkB .bf16) (y : (BlkO).Idx) :
    ∃ pc ∈ (kernelRun1_A c i arg3 harg3 arg1 harg1 arg5 harg5 arg6 harg6 hc0 hc1 x0 x1).2.1, y ∈ pc.1.set :=
  View.cover_of_tiledL (kernelRun1_A c i arg3 harg3 arg1 harg1 arg5 harg5 arg6 harg6 hc0 hc1 x0 x1).2.1 (BlkO).size (by sl_kernel_rfl) y

/-- What the first step leaves in the accumulator: its pieces read back. -/
def sout1_A_0 (c : Dev nD) (i : grid1.Coords) (arg3 : Memref sig .tc .vmem BlkA .bf16) (harg3 : arg3.IsWhole) (arg1 : Memref sig .tc .vmem BlkB .bf16) (harg1 : arg1.IsWhole) (arg5 : Memref sig .tc .vmem BlkO .bf16) (harg5 : arg5.IsWhole) (arg6 : Memref sig .tc .vmem BlkO .f32) (harg6 : arg6.IsWhole) (hc0 : cond1_0 i) (hc1 : ¬cond1_1 i)
    (x0 : Vec F BlkA .bf16) (x1 : Vec F BlkB .bf16) : Vec F BlkO .f32 :=
  VS1_0.read (Elt F) (VS1_0.writes (Elt F) VS1_0.junk (kernelRun1_A c i arg3 harg3 arg1 harg1 arg5 harg5 arg6 harg6 hc0 hc1 x0 x1).2.1)

/-- A middle step stores nothing into the result's buffer either. -/
def out1_B_2 (c : Dev nD) (i : grid1.Coords) (arg3 : Memref sig .tc .vmem BlkA .bf16) (harg3 : arg3.IsWhole) (arg1 : Memref sig .tc .vmem BlkB .bf16) (harg1 : arg1.IsWhole) (arg5 : Memref sig .tc .vmem BlkO .bf16) (harg5 : arg5.IsWhole) (arg6 : Memref sig .tc .vmem BlkO .f32) (harg6 : arg6.IsWhole) (hc0 : ¬cond1_0 i) (hc1 : ¬cond1_1 i)
    (x0 : Vec F BlkA .bf16) (x1 : Vec F BlkB .bf16) (xs0 : Vec F BlkO .f32) : Vec F BlkO .bf16 :=
  VO1_2.read (Elt F) (VO1_2.writes (Elt F) VO1_2.junk (kernelRun1_B c i arg3 harg3 arg1 harg1 arg5 harg5 arg6 harg6 hc0 hc1 x0 x1 xs0).1)

/-- A middle step's store into the accumulator covers it. -/
theorem scover1_B_0 (c : Dev nD) (i : grid1.Coords) (arg3 : Memref sig .tc .vmem BlkA .bf16) (harg3 : arg3.IsWhole) (arg1 : Memref sig .tc .vmem BlkB .bf16) (harg1 : arg1.IsWhole) (arg5 : Memref sig .tc .vmem BlkO .bf16) (harg5 : arg5.IsWhole) (arg6 : Memref sig .tc .vmem BlkO .f32) (harg6 : arg6.IsWhole) (hc0 : ¬cond1_0 i) (hc1 : ¬cond1_1 i)
    (x0 : Vec F BlkA .bf16) (x1 : Vec F BlkB .bf16) (xs0 : Vec F BlkO .f32) (y : (BlkO).Idx) :
    ∃ pc ∈ (kernelRun1_B c i arg3 harg3 arg1 harg1 arg5 harg5 arg6 harg6 hc0 hc1 x0 x1 xs0).2.1, y ∈ pc.1.set :=
  View.cover_of_tiledL (kernelRun1_B c i arg3 harg3 arg1 harg1 arg5 harg5 arg6 harg6 hc0 hc1 x0 x1 xs0).2.1 (BlkO).size (by sl_kernel_rfl) y

/-- What a middle step leaves in the accumulator. -/
def sout1_B_0 (c : Dev nD) (i : grid1.Coords) (arg3 : Memref sig .tc .vmem BlkA .bf16) (harg3 : arg3.IsWhole) (arg1 : Memref sig .tc .vmem BlkB .bf16) (harg1 : arg1.IsWhole) (arg5 : Memref sig .tc .vmem BlkO .bf16) (harg5 : arg5.IsWhole) (arg6 : Memref sig .tc .vmem BlkO .f32) (harg6 : arg6.IsWhole) (hc0 : ¬cond1_0 i) (hc1 : ¬cond1_1 i)
    (x0 : Vec F BlkA .bf16) (x1 : Vec F BlkB .bf16) (xs0 : Vec F BlkO .f32) : Vec F BlkO .f32 :=
  VS1_0.read (Elt F) (VS1_0.writes (Elt F) VS1_0.junk (kernelRun1_B c i arg3 harg3 arg1 harg1 arg5 harg5 arg6 harg6 hc0 hc1 x0 x1 xs0).2.1)

/-- The last step's store into the result's buffer covers it. -/
theorem cover1_C_2 (c : Dev nD) (i : grid1.Coords) (arg3 : Memref sig .tc .vmem BlkA .bf16) (harg3 : arg3.IsWhole) (arg1 : Memref sig .tc .vmem BlkB .bf16) (harg1 : arg1.IsWhole) (arg5 : Memref sig .tc .vmem BlkO .bf16) (harg5 : arg5.IsWhole) (arg6 : Memref sig .tc .vmem BlkO .f32) (harg6 : arg6.IsWhole) (hc0 : ¬cond1_0 i) (hc1 : cond1_1 i)
    (x0 : Vec F BlkA .bf16) (x1 : Vec F BlkB .bf16) (xs0 : Vec F BlkO .f32) (y : (BlkO).Idx) :
    ∃ pc ∈ (kernelRun1_C c i arg3 harg3 arg1 harg1 arg5 harg5 arg6 harg6 hc0 hc1 x0 x1 xs0).1, y ∈ pc.1.set :=
  View.cover_of_tiledL (kernelRun1_C c i arg3 harg3 arg1 harg1 arg5 harg5 arg6 harg6 hc0 hc1 x0 x1 xs0).1 (BlkO).size (by sl_kernel_rfl) y

/-- What the last step leaves in the result's buffer. -/
def out1_C_2 (c : Dev nD) (i : grid1.Coords) (arg3 : Memref sig .tc .vmem BlkA .bf16) (harg3 : arg3.IsWhole) (arg1 : Memref sig .tc .vmem BlkB .bf16) (harg1 : arg1.IsWhole) (arg5 : Memref sig .tc .vmem BlkO .bf16) (harg5 : arg5.IsWhole) (arg6 : Memref sig .tc .vmem BlkO .f32) (harg6 : arg6.IsWhole) (hc0 : ¬cond1_0 i) (hc1 : cond1_1 i)
    (x0 : Vec F BlkA .bf16) (x1 : Vec F BlkB .bf16) (xs0 : Vec F BlkO .f32) : Vec F BlkO .bf16 :=
  VO1_2.read (Elt F) (VO1_2.writes (Elt F) VO1_2.junk (kernelRun1_C c i arg3 harg3 arg1 harg1 arg5 harg5 arg6 harg6 hc0 hc1 x0 x1 xs0).1)

/-- The last step's store into the accumulator covers it. -/
theorem scover1_C_0 (c : Dev nD) (i : grid1.Coords) (arg3 : Memref sig .tc .vmem BlkA .bf16) (harg3 : arg3.IsWhole) (arg1 : Memref sig .tc .vmem BlkB .bf16) (harg1 : arg1.IsWhole) (arg5 : Memref sig .tc .vmem BlkO .bf16) (harg5 : arg5.IsWhole) (arg6 : Memref sig .tc .vmem BlkO .f32) (harg6 : arg6.IsWhole) (hc0 : ¬cond1_0 i) (hc1 : cond1_1 i)
    (x0 : Vec F BlkA .bf16) (x1 : Vec F BlkB .bf16) (xs0 : Vec F BlkO .f32) (y : (BlkO).Idx) :
    ∃ pc ∈ (kernelRun1_C c i arg3 harg3 arg1 harg1 arg5 harg5 arg6 harg6 hc0 hc1 x0 x1 xs0).2.1, y ∈ pc.1.set :=
  View.cover_of_tiledL (kernelRun1_C c i arg3 harg3 arg1 harg1 arg5 harg5 arg6 harg6 hc0 hc1 x0 x1 xs0).2.1 (BlkO).size (by sl_kernel_rfl) y

/-- What the last step leaves in the accumulator. -/
def sout1_C_0 (c : Dev nD) (i : grid1.Coords) (arg3 : Memref sig .tc .vmem BlkA .bf16) (harg3 : arg3.IsWhole) (arg1 : Memref sig .tc .vmem BlkB .bf16) (harg1 : arg1.IsWhole) (arg5 : Memref sig .tc .vmem BlkO .bf16) (harg5 : arg5.IsWhole) (arg6 : Memref sig .tc .vmem BlkO .f32) (harg6 : arg6.IsWhole) (hc0 : ¬cond1_0 i) (hc1 : cond1_1 i)
    (x0 : Vec F BlkA .bf16) (x1 : Vec F BlkB .bf16) (xs0 : Vec F BlkO .f32) : Vec F BlkO .f32 :=
  VS1_0.read (Elt F) (VS1_0.writes (Elt F) VS1_0.junk (kernelRun1_C c i arg3 harg3 arg1 harg1 arg5 harg5 arg6 harg6 hc0 hc1 x0 x1 xs0).2.1)

/-! ## What the result's buffer and the accumulator hold after each point -/

/-- THE ACCUMULATION. What the result's staging buffer and the accumulator hold after the body at position `n`:
    the case the closed forms select at `n`, run at the point's memrefs and operand blocks, the accumulator entering
    at what position `n - 1` left. Both conditions at once is met by no point. -/
def outsAt1 (c : Dev nD) : (n : ℕ) → n < cfg1.N → Vec F BlkO .bf16 × Vec F BlkO .f32
  | 0, hn => (out1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩))
  | n + 1, hn =>
    if h0 : (n + 1) % 8 = 0 then
      if h1 : (n + 1) % 8 = 7 then
        False.elim (by omega)
      else
        (out1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩))
    else
      if h1 : (n + 1) % 8 = 7 then
        (out1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2)
      else
        (out1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2)

/-- `outsAt1` at a first reduction step. -/
theorem outsAt1_A (c : Dev nD) (t : Fin cfg1.N) (h0 : t.val % 8 = 0) (h1 : ¬t.val % 8 = 7) :
    outsAt1 V c t.val t.isLt = (out1_A_2 c (grid1.coords t) (ms1_0 t) (hs1_0 t) (ms1_1 t) (hs1_1 t) (ms1_2 t) (hs1_2 t) scM1_0 (Memref.isWhole_whole _) ((hcond1_0 t).mpr h0) (fun h => h1 ((hcond1_1 t).mp h)) (iblk1 V c 0 t) (iblk1 V c 1 t), sout1_A_0 c (grid1.coords t) (ms1_0 t) (hs1_0 t) (ms1_1 t) (hs1_1 t) (ms1_2 t) (hs1_2 t) scM1_0 (Memref.isWhole_whole _) ((hcond1_0 t).mpr h0) (fun h => h1 ((hcond1_1 t).mp h)) (iblk1 V c 0 t) (iblk1 V c 1 t)) := by
  obtain ⟨n, hn⟩ := t
  cases n with
  | zero => exact rfl
  | succ n => exact (dif_pos h0).trans ((dif_neg h1).trans rfl)

/-- `outsAt1` at a middle reduction step: over what the point before left. -/
theorem outsAt1_B (c : Dev nD) (t : Fin cfg1.N) (h0 : ¬t.val % 8 = 0) (h1 : ¬t.val % 8 = 7) :
    outsAt1 V c t.val t.isLt = (out1_B_2 c (grid1.coords t) (ms1_0 t) (hs1_0 t) (ms1_1 t) (hs1_1 t) (ms1_2 t) (hs1_2 t) scM1_0 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) scM1_0 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt1` at a last reduction step: over what the point before left. -/
theorem outsAt1_C (c : Dev nD) (t : Fin cfg1.N) (h0 : ¬t.val % 8 = 0) (h1 : t.val % 8 = 7) :
    outsAt1 V c t.val t.isLt = (out1_C_2 c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region invariant, carrying the accumulator -/

/-- Before the first point the entry invariant; after point `n` the accumulator at what that point left, the other
    scoped buffers unopened, the generator register at some state. -/
def PhiS1 (c : Dev nD) : (n : ℕ) → n ≤ cfg1.N → sProp 𝕄
  | 0, _ => Pipeline.ΦA spec1 c
  | n + 1, hn => iprop(iprop(iprop(owns (c : Thread nD τ) scM1_0 fullShare ((outsAt1 V c n hn).2)) ∗ rest1 (F := F) c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(iprop(owns (c : Thread nD τ) scM1_0 fullShare ((outsAt1 V c n hn).2)) ∗ rest1 (F := F) c) ∗ (∃ r, prngReg c r)) := rfl

theorem PhiS1_pos (c : Dev nD) (n : ℕ) (h : n ≤ cfg1.N) (hz : n ≠ 0) :
    PhiS1 V c n h = iprop(iprop(iprop(owns (c : Thread nD τ) scM1_0 fullShare ((outsAt1 V c (n - 1) (by omega)).2)) ∗ rest1 (F := F) c) ∗ (∃ r, prngReg c r)) := by
  cases n with
  | zero => exact absurd rfl hz
  | succ n => rfl

/-! ## The pipeline's proof data -/

/-- The proof data of this region on core `c`: the arrays as the region finds them; after the body at point `t`
    each operand's buffer at its block and the result's at `outsAt1`; the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point: the operands' memrefs hold their blocks; the closed forms say which case the point is in;
    the invariant hands the body the accumulator at what the point before left (at anything at the first point) and
    takes it back at this point's contents; the other scoped buffers, the generator register and the core's debts
    pass through. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  have hN : t.val < 32 := lt_of_lt_of_eq t.isLt (show cfg1.N = 32 from N_1)
  by_cases h0 : t.val % 8 = 0
  · by_cases h1 : t.val % 8 = 7
    · exfalso; omega
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [Dat.leavesExact_idle (dat1 V c) 2 t (idleAt1_2_A t ((hcond1_0 t).mpr h0) (fun h => h1 ((hcond1_1 t).mp h))) (noFlush1_2_A t ((hcond1_0 t).mpr h0) (fun h => h1 ((hcond1_1 t).mp h)))]
      rw [outsAt1_A V c t h0 h1]
      unfold sout1_A_0; (try dsimp only)
      by_cases hz : t.val = 0
      · rw [PhiS1_castSucc V c t, PhiS1_zero V c _ _ hz, PhiA1_eq]
        iintro ⟨⟨⟨HS0, Hr⟩, Hg⟩, Ho, ⟨%d0, H0⟩, ⟨%d1, H1⟩, ⟨%d2, H2⟩⟩
        iapply ((kernelRun1_A c (grid1.coords t) _ _ _ _ _ _ _ _ ((hcond1_0 t).mpr h0) (fun h => h1 ((hcond1_1 t).mp h)) (iblk1 V c 0 t) (iblk1 V c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover1_A_0 c _ _ _ _ _ _ _ _ _ _ _ _ _)
            iexact Hr
          iexact Hg
        isplitl [Ho]; · iexact Ho
        isplitl [H0]; · iexact H0
        isplitl [H1]; · iexact H1
        iexists _; iexact H2
      · rw [PhiS1_castSucc V c t, PhiS1_pos V c _ _ hz]
        iintro ⟨⟨⟨HS0, Hr⟩, Hg⟩, Ho, ⟨%d0, H0⟩, ⟨%d1, H1⟩, ⟨%d2, H2⟩⟩
        iapply ((kernelRun1_A c (grid1.coords t) _ _ _ _ _ _ _ _ ((hcond1_0 t).mpr h0) (fun h => h1 ((hcond1_1 t).mp h)) (iblk1 V c 0 t) (iblk1 V c 1 t)).2.2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover1_A_0 c _ _ _ _ _ _ _ _ _ _ _ _ _)
            iexact Hr
          iexact Hg
        isplitl [Ho]; · iexact Ho
        isplitl [H0]; · iexact H0
        isplitl [H1]; · iexact H1
        iexists _; iexact H2
  · by_cases h1 : t.val % 8 = 7
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2_C t (fun h => h0 ((hcond1_0 t).mp h)) ((hcond1_1 t).mpr h1)], after1_2]
      rw [outsAt1_C V c t h0 h1]
      unfold out1_C_2 sout1_C_0; (try dsimp only)
      by_cases hz : t.val = 0
      · exfalso; omega
      · rw [PhiS1_castSucc V c t, PhiS1_pos V c _ _ hz]
        iintro ⟨⟨⟨HS0, Hr⟩, Hg⟩, Ho, ⟨%d0, H0⟩, ⟨%d1, H1⟩, ⟨%d2, H2⟩⟩
        iapply ((kernelRun1_C c (grid1.coords t) _ _ _ _ _ _ _ _ (fun h => h0 ((hcond1_0 t).mp h)) ((hcond1_1 t).mpr h1) (iblk1 V c 0 t) (iblk1 V c 1 t) _).2.2 Set.univ _)
        isplitl [H0]; · iexact H0
        isplitl [H1]; · iexact H1
        isplitl [H2]; · iexists _; iexact H2
        isplitl [HS0]; · iexact HS0
        iintro ⟨H0, H1, ⟨%e2, H2⟩, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover1_C_0 c _ _ _ _ _ _ _ _ _ _ _ _ _ _)
            iexact Hr
          iexact Hg
        isplitl [Ho]; · iexact Ho
        isplitl [H0]; · iexact H0
        isplitl [H1]; · iexact H1
        unfold owns; iexists _; isplitr
        swap; · iexact H2
        ipureintro; exact View.read_writes_of_cover _ _ _ _ _ (cover1_C_2 c _ _ _ _ _ _ _ _ _ _ _ _ _ _)
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [Dat.leavesExact_idle (dat1 V c) 2 t (idleAt1_2_B t (fun h => h0 ((hcond1_0 t).mp h)) (fun h => h1 ((hcond1_1 t).mp h))) (noFlush1_2_B t (fun h => h0 ((hcond1_0 t).mp h)) (fun h => h1 ((hcond1_1 t).mp h)))]
      rw [outsAt1_B V c t h0 h1]
      unfold sout1_B_0; (try dsimp only)
      by_cases hz : t.val = 0
      · exfalso; omega
      · rw [PhiS1_castSucc V c t, PhiS1_pos V c _ _ hz]
        iintro ⟨⟨⟨HS0, Hr⟩, Hg⟩, Ho, ⟨%d0, H0⟩, ⟨%d1, H1⟩, ⟨%d2, H2⟩⟩
        iapply ((kernelRun1_B c (grid1.coords t) _ _ _ _ _ _ _ _ (fun h => h0 ((hcond1_0 t).mp h)) (fun h => h1 ((hcond1_1 t).mp h)) (iblk1 V c 0 t) (iblk1 V c 1 t) _).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover1_B_0 c _ _ _ _ _ _ _ _ _ _ _ _ _ _)
            iexact Hr
          iexact Hg
        isplitl [Ho]; · iexact Ho
        isplitl [H0]; · iexact H0
        isplitl [H1]; · iexact H1
        iexists _; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the entry invariant back: the accumulator's contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HS0, Hr⟩, Hg⟩
  isplitl [HS0 Hr]
  · isplitl [HS0]
    · iexists _; iexact HS0
    iexact Hr
  iexact Hg

/-- The same after the last point. -/
theorem hout1 (c : Dev nD) : (dat1 V c).Φ (Fin.last cfg1.N) ⊢ Pipeline.ΦA spec1 c :=
  Phi_out1 V c _ (by rw [Fin.val_last]; have : cfg1.N = 32 := N_1; omega)

end Cert.Kernel.Gen
end
-- ==== Proof.KernelH.Reg2.lean ====
import proofs.«157173_j56882546868342_2_alg».proof.Proof.KernelH.Launch
import proofs.«157173_j56882546868342_2_alg».proof.Proof.Gen.Kernel.Skeleton
import proofs.«157173_j56882546868342_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384
noncomputable section
namespace Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

/-! # REGION 2 of @main: `cc2__mm_add_relu_kernel` (pipeline 2), at the entry contents `V`

Grid (4,1,2), 8 points, the k axis fastest: the point t has k = t mod 2. Window 0 is the a block, window 1 the b block,
window 2 the added operand (fetched only when its block index moves), window 3 the output; a scratch accumulator is
carried along k: zeroed at k = 0, increased by the block product at every point, and at k = 1 the output block is written
as max (accumulator + added operand, 0). -/

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, for any proof data whose array is `V`'s and
    whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- The same for input window 1. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- The same for input window 2, fetched or not: where it is not fetched its block index has not moved. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's branch conditions -/

/-- The condition of the body's first conditional (k = 0), from the grid coordinates. -/
abbrev cond2_0 (i : grid2.Coords) : Prop := (Scalar.cmpi .ne (Scalar.extui (Scalar.cmpi .eq (BitVec.ofNat 32 (i 2).val) 0#32)) 0#32) = 1#1
/-- It holds at the even points. -/
theorem hcond2_0 : ∀ t : Fin cfg2.N, cond2_0 (grid2.coords t) ↔ t.val % 2 = 0 :=
  (by decide +kernel : ∀ t : Fin grid2.N, cond2_0 (grid2.coords t) ↔ t.val % 2 = 0)
/-- The condition of the body's second conditional (k = 1, the last block). -/
abbrev cond2_1 (i : grid2.Coords) : Prop := k2_cond2 i = 1#1
/-- It holds at the odd points. -/
theorem hcond2_1 : ∀ t : Fin cfg2.N, cond2_1 (grid2.coords t) ↔ t.val % 2 = 1 :=
  (by decide +kernel : ∀ t : Fin grid2.N, cond2_1 (grid2.coords t) ↔ t.val % 2 = 1)

/-! ## Where the windows are idle -/

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
/-- At the points with k = 0 the output is idle: nothing is stored into it, -/
theorem idleAt2_3_A : ∀ t : Fin cfg2.N, cond2_0 (grid2.coords t) → ¬cond2_1 (grid2.coords t) → cfg2.idle 3 (grid2.coords t) = true := by decide +kernel
/-- and its block is not written back there. -/
theorem noFlush2_3_A : ∀ t : Fin cfg2.N, cond2_0 (grid2.coords t) → ¬cond2_1 (grid2.coords t) → (cfg2.win 3).flush t = false := by decide +kernel
/-- At the points with k = 1 the output is live. -/
theorem liveAt2_3_C : ∀ t : Fin cfg2.N, ¬cond2_0 (grid2.coords t) → cond2_1 (grid2.coords t) → cfg2.idle 3 (grid2.coords t) = false := by decide +kernel

/-! ## The staging and scratch memrefs -/

/-- One staging buffer of the output window, through which its contents are stated. -/
abbrev VO2_3 : View sig .tc .vmem S1024x512 .bf16 := (Memref.whole cc2_stg3_0 : Memref sig .tc .vmem S1024x512 .bf16).view
abbrev ms2_0 (t : Fin cfg2.N) : Memref sig .tc .vmem S1024x512 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S512x512 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1024x512 .bf16 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1024x512 .bf16 := win2_3.stage (cfg2.slots t 3)
abbrev hs2_3 (t : Fin cfg2.N) : (ms2_3 t).IsWhole := hstage2_3 ((cfg2.slots t 3).cast nbuf2_3)
/-- The accumulator: a whole scoped buffer of the kernel's own. -/
abbrev scM2_0 : Memref sig .tc .vmem S1024x512 .f32 := Memref.whole cc2_scratch0
abbrev VS2_0 : View sig .tc .vmem S1024x512 .f32 := scM2_0.view

/-- Every other scoped buffer of the core (the other calls' staging buffers and scratch), unopened. -/
abbrev rest2 (c : Dev nD) : sProp 𝕄 :=
  Pipeline.scopedRestBut (Ix := Unit) (Name := ℕ) (U := UR sig nD τ) (Lvl := ℕ) (Val := Elt F) spec2 c [cc2_scratch0]

/-- The class's invariant with the accumulator as a memref owned at some contents. -/
theorem PhiA2_eq (c : Dev nD) :
    (Pipeline.ΦA spec2 c : sProp 𝕄)
      = iprop(iprop(iprop((∃ d, owns (c : Thread nD τ) scM2_0 fullShare d)) ∗ rest2 (F := F) c) ∗ (∃ r, prngReg c r)) := by
  unfold Pipeline.ΦA; rw [scopedRest2_split]; simp only [scM2_0, owns_whole]; try rfl

/-! ## The body's run, case by case -/

-- (the run's proof term is large)
set_option maxHeartbeats 4000000 in
/-- THE FIRST k BLOCK (the first conditional taken, the second not). The pieces the body's stores leave in the output's
    staging memref (none: the output is idle here and handed back untouched) and in the accumulator, with the triple: on
    whole staging memrefs, the three inputs' at their contents, the output's at contents `xi3`, the accumulator at anything,
    the body runs to the continuation holding the inputs and the output as they were and the accumulator with its pieces
    written. -/
noncomputable def kernelRun2_A (c : Dev nD) (i : grid2.Coords) (arg3 : Memref sig .tc .vmem S1024x512 .bf16) (harg3 : arg3.IsWhole) (arg4 : Memref sig .tc .vmem S512x512 .bf16) (harg4 : arg4.IsWhole) (arg5 : Memref sig .tc .vmem S1024x512 .bf16) (harg5 : arg5.IsWhole) (arg6 : Memref sig .tc .vmem S1024x512 .bf16) (harg6 : arg6.IsWhole) (arg7 : Memref sig .tc .vmem S1024x512 .f32) (harg7 : arg7.IsWhole) (hc0 : cond2_0 i) (hc1 : ¬cond2_1 i)
    (x0 : Vec F S1024x512 .bf16) (x1 : Vec F S512x512 .bf16) (x2 : Vec F S1024x512 .bf16) :
    Σ' (L3 : List (View.Piece (Elt F) S1024x512 .bf16)), { LS0 : List (View.Piece (Elt F) S1024x512 .f32) //
      ∀ (xi3 : Vec F S1024x512 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc2__mm_add_relu_kernel i arg3 harg3 arg4 harg4 arg5 harg5 arg6 harg6 arg7 harg7) K } := by
  refine ⟨[], ?_, fun xi3 E K => ?run⟩
  case run =>
    simp only [cc2__mm_add_relu_kernel_eq_skeleton]; unfold cc2__mm_add_relu_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

-- (the run's proof term is large)
set_option maxHeartbeats 4000000 in
/-- THE LAST k BLOCK (the first conditional not taken, the second taken). The pieces the body's stores leave in the output's
    staging memref and in the accumulator, with the triple: on whole staging memrefs, the three inputs' at their contents,
    the output's at anything, the accumulator at the contents `xs0` the point before left, the body runs to the continuation
    holding the inputs as they were, the output and the accumulator with their pieces written. -/
noncomputable def kernelRun2_C (c : Dev nD) (i : grid2.Coords) (arg3 : Memref sig .tc .vmem S1024x512 .bf16) (harg3 : arg3.IsWhole) (arg4 : Memref sig .tc .vmem S512x512 .bf16) (harg4 : arg4.IsWhole) (arg5 : Memref sig .tc .vmem S1024x512 .bf16) (harg5 : arg5.IsWhole) (arg6 : Memref sig .tc .vmem S1024x512 .bf16) (harg6 : arg6.IsWhole) (arg7 : Memref sig .tc .vmem S1024x512 .f32) (harg7 : arg7.IsWhole) (hc0 : ¬cond2_0 i) (hc1 : cond2_1 i)
    (x0 : Vec F S1024x512 .bf16) (x1 : Vec F S512x512 .bf16) (x2 : Vec F S1024x512 .bf16) (xs0 : Vec F S1024x512 .f32) :
    Σ' (L3 : List (View.Piece (Elt F) S1024x512 .bf16)), { LS0 : List (View.Piece (Elt F) S1024x512 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0)) -∗ K ⟨⟩))
          ⊢ wp frame (wpE (defs₀ (F := F)) Variants.none c none) E (cc2__mm_add_relu_kernel i arg3 harg3 arg4 harg4 arg5 harg5 arg6 harg6 arg7 harg7) K } := by
  refine ⟨?_, ?_, fun E K => ?run⟩
  case run =>
    simp only [cc2__mm_add_relu_kernel_eq_skeleton]; unfold cc2__mm_add_relu_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg3.eq_unread hf0; obtain rfl := harg4.eq_unread hf1; obtain rfl := harg5.eq_unread hf2; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS0

/-! ## What each case leaves -/

/-- At k = 0 nothing is stored into the output: no pieces — a placeholder nothing consults (the window is neither written
    back there nor read at the next point). -/
def out2_A_3 (c : Dev nD) (i : grid2.Coords) (arg3 : Memref sig .tc .vmem S1024x512 .bf16) (harg3 : arg3.IsWhole) (arg4 : Memref sig .tc .vmem S512x512 .bf16) (harg4 : arg4.IsWhole) (arg5 : Memref sig .tc .vmem S1024x512 .bf16) (harg5 : arg5.IsWhole) (arg6 : Memref sig .tc .vmem S1024x512 .bf16) (harg6 : arg6.IsWhole) (arg7 : Memref sig .tc .vmem S1024x512 .f32) (harg7 : arg7.IsWhole) (hc0 : cond2_0 i) (hc1 : ¬cond2_1 i)
    (x0 : Vec F S1024x512 .bf16) (x1 : Vec F S512x512 .bf16) (x2 : Vec F S1024x512 .bf16) : Vec F S1024x512 .bf16 :=
  VO2_3.read (Elt F) (VO2_3.writes (Elt F) VO2_3.junk (kernelRun2_A c i arg3 harg3 arg4 harg4 arg5 harg5 arg6 harg6 arg7 harg7 hc0 hc1 x0 x1 x2).1)

/-- At k = 0 the pieces stored into the accumulator cover it. -/
theorem scover2_A_0 (c : Dev nD) (i : grid2.Coords) (arg3 : Memref sig .tc .vmem S1024x512 .bf16) (harg3 : arg3.IsWhole) (arg4 : Memref sig .tc .vmem S512x512 .bf16) (harg4 : arg4.IsWhole) (arg5 : Memref sig .tc .vmem S1024x512 .bf16) (harg5 : arg5.IsWhole) (arg6 : Memref sig .tc .vmem S1024x512 .bf16) (harg6 : arg6.IsWhole) (arg7 : Memref sig .tc .vmem S1024x512 .f32) (harg7 : arg7.IsWhole) (hc0 : cond2_0 i) (hc1 : ¬cond2_1 i)
    (x0 : Vec F S1024x512 .bf16) (x1 : Vec F S512x512 .bf16) (x2 : Vec F S1024x512 .bf16) (y : S1024x512.Idx) :
    ∃ pc ∈ (kernelRun2_A c i arg3 harg3 arg4 harg4 arg5 harg5 arg6 harg6 arg7 harg7 hc0 hc1 x0 x1 x2).2.1, y ∈ pc.1.set :=
  View.cover_of_tiledL (kernelRun2_A c i arg3 harg3 arg4 harg4 arg5 harg5 arg6 harg6 arg7 harg7 hc0 hc1 x0 x1 x2).2.1 S1024x512.size (by sl_kernel_rfl) y

/-- What the point with k = 0 leaves in the accumulator: its pieces read back. -/
def sout2_A_0 (c : Dev nD) (i : grid2.Coords) (arg3 : Memref sig .tc .vmem S1024x512 .bf16) (harg3 : arg3.IsWhole) (arg4 : Memref sig .tc .vmem S512x512 .bf16) (harg4 : arg4.IsWhole) (arg5 : Memref sig .tc .vmem S1024x512 .bf16) (harg5 : arg5.IsWhole) (arg6 : Memref sig .tc .vmem S1024x512 .bf16) (harg6 : arg6.IsWhole) (arg7 : Memref sig .tc .vmem S1024x512 .f32) (harg7 : arg7.IsWhole) (hc0 : cond2_0 i) (hc1 : ¬cond2_1 i)
    (x0 : Vec F S1024x512 .bf16) (x1 : Vec F S512x512 .bf16) (x2 : Vec F S1024x512 .bf16) : Vec F S1024x512 .f32 :=
  VS2_0.read (Elt F) (VS2_0.writes (Elt F) VS2_0.junk (kernelRun2_A c i arg3 harg3 arg4 harg4 arg5 harg5 arg6 harg6 arg7 harg7 hc0 hc1 x0 x1 x2).2.1)

/-- At k = 1 the one store into the output covers its block. -/
theorem cover2_C_3 (c : Dev nD) (i : grid2.Coords) (arg3 : Memref sig .tc .vmem S1024x512 .bf16) (harg3 : arg3.IsWhole) (arg4 : Memref sig .tc .vmem S512x512 .bf16) (harg4 : arg4.IsWhole) (arg5 : Memref sig .tc .vmem S1024x512 .bf16) (harg5 : arg5.IsWhole) (arg6 : Memref sig .tc .vmem S1024x512 .bf16) (harg6 : arg6.IsWhole) (arg7 : Memref sig .tc .vmem S1024x512 .f32) (harg7 : arg7.IsWhole) (hc0 : ¬cond2_0 i) (hc1 : cond2_1 i)
    (x0 : Vec F S1024x512 .bf16) (x1 : Vec F S512x512 .bf16) (x2 : Vec F S1024x512 .bf16) (xs0 : Vec F S1024x512 .f32) (y : S1024x512.Idx) :
    ∃ pc ∈ (kernelRun2_C c i arg3 harg3 arg4 harg4 arg5 harg5 arg6 harg6 arg7 harg7 hc0 hc1 x0 x1 x2 xs0).1, y ∈ pc.1.set :=
  View.cover_of_tiledL (kernelRun2_C c i arg3 harg3 arg4 harg4 arg5 harg5 arg6 harg6 arg7 harg7 hc0 hc1 x0 x1 x2 xs0).1 S1024x512.size (by sl_kernel_rfl) y

/-- What the point with k = 1 leaves in the output's staging buffer: its pieces read back. -/
def out2_C_3 (c : Dev nD) (i : grid2.Coords) (arg3 : Memref sig .tc .vmem S1024x512 .bf16) (harg3 : arg3.IsWhole) (arg4 : Memref sig .tc .vmem S512x512 .bf16) (harg4 : arg4.IsWhole) (arg5 : Memref sig .tc .vmem S1024x512 .bf16) (harg5 : arg5.IsWhole) (arg6 : Memref sig .tc .vmem S1024x512 .bf16) (harg6 : arg6.IsWhole) (arg7 : Memref sig .tc .vmem S1024x512 .f32) (harg7 : arg7.IsWhole) (hc0 : ¬cond2_0 i) (hc1 : cond2_1 i)
    (x0 : Vec F S1024x512 .bf16) (x1 : Vec F S512x512 .bf16) (x2 : Vec F S1024x512 .bf16) (xs0 : Vec F S1024x512 .f32) : Vec F S1024x512 .bf16 :=
  VO2_3.read (Elt F) (VO2_3.writes (Elt F) VO2_3.junk (kernelRun2_C c i arg3 harg3 arg4 harg4 arg5 harg5 arg6 harg6 arg7 harg7 hc0 hc1 x0 x1 x2 xs0).1)

/-- At k = 1 the pieces stored into the accumulator cover it. -/
theorem scover2_C_0 (c : Dev nD) (i : grid2.Coords) (arg3 : Memref sig .tc .vmem S1024x512 .bf16) (harg3 : arg3.IsWhole) (arg4 : Memref sig .tc .vmem S512x512 .bf16) (harg4 : arg4.IsWhole) (arg5 : Memref sig .tc .vmem S1024x512 .bf16) (harg5 : arg5.IsWhole) (arg6 : Memref sig .tc .vmem S1024x512 .bf16) (harg6 : arg6.IsWhole) (arg7 : Memref sig .tc .vmem S1024x512 .f32) (harg7 : arg7.IsWhole) (hc0 : ¬cond2_0 i) (hc1 : cond2_1 i)
    (x0 : Vec F S1024x512 .bf16) (x1 : Vec F S512x512 .bf16) (x2 : Vec F S1024x512 .bf16) (xs0 : Vec F S1024x512 .f32) (y : S1024x512.Idx) :
    ∃ pc ∈ (kernelRun2_C c i arg3 harg3 arg4 harg4 arg5 harg5 arg6 harg6 arg7 harg7 hc0 hc1 x0 x1 x2 xs0).2.1, y ∈ pc.1.set :=
  View.cover_of_tiledL (kernelRun2_C c i arg3 harg3 arg4 harg4 arg5 harg5 arg6 harg6 arg7 harg7 hc0 hc1 x0 x1 x2 xs0).2.1 S1024x512.size (by sl_kernel_rfl) y

/-- What the point with k = 1 leaves in the accumulator: its pieces read back. -/
def sout2_C_0 (c : Dev nD) (i : grid2.Coords) (arg3 : Memref sig .tc .vmem S1024x512 .bf16) (harg3 : arg3.IsWhole) (arg4 : Memref sig .tc .vmem S512x512 .bf16) (harg4 : arg4.IsWhole) (arg5 : Memref sig .tc .vmem S1024x512 .bf16) (harg5 : arg5.IsWhole) (arg6 : Memref sig .tc .vmem S1024x512 .bf16) (harg6 : arg6.IsWhole) (arg7 : Memref sig .tc .vmem S1024x512 .f32) (harg7 : arg7.IsWhole) (hc0 : ¬cond2_0 i) (hc1 : cond2_1 i)
    (x0 : Vec F S1024x512 .bf16) (x1 : Vec F S512x512 .bf16) (x2 : Vec F S1024x512 .bf16) (xs0 : Vec F S1024x512 .f32) : Vec F S1024x512 .f32 :=
  VS2_0.read (Elt F) (VS2_0.writes (Elt F) VS2_0.junk (kernelRun2_C c i arg3 harg3 arg4 harg4 arg5 harg5 arg6 harg6 arg7 harg7 hc0 hc1 x0 x1 x2 xs0).2.1)

/-! ## What the output and the accumulator hold after each point -/

/-- THE ACCUMULATION. What the output's staging buffer and the accumulator hold after the body at position `n`: the case
    the closed forms select at `n`, run at the point's memrefs and input blocks; at k = 1 over what the accumulator held after
    the point before. -/
def outsAt2 (c : Dev nD) : (n : ℕ) → n < cfg2.N → Vec F S1024x512 .bf16 × Vec F S1024x512 .f32
  | 0, hn => (out2_A_3 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩), sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩))
  | n + 1, hn =>
    if h0 : (n + 1) % 2 = 0 then
      if h1 : (n + 1) % 2 = 1 then
        False.elim (by omega)
      else
        (out2_A_3 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩), sout2_A_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩))
    else
      if h1 : (n + 1) % 2 = 1 then
        (out2_C_3 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (outsAt2 c n (Nat.lt_of_succ_lt hn)).2, sout2_C_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (outsAt2 c n (Nat.lt_of_succ_lt hn)).2)
      else
        False.elim (by omega)

/-- `outsAt2` at a point with k = 0. -/
theorem outsAt2_A (c : Dev nD) (t : Fin cfg2.N) (h0 : t.val % 2 = 0) (h1 : ¬t.val % 2 = 1) :
    outsAt2 V c t.val t.isLt = (out2_A_3 c (grid2.coords t) (ms2_0 t) (hs2_0 t) (ms2_1 t) (hs2_1 t) (ms2_2 t) (hs2_2 t) (ms2_3 t) (hs2_3 t) scM2_0 (Memref.isWhole_whole _) ((hcond2_0 t).mpr h0) (fun h => h1 ((hcond2_1 t).mp h)) (iblk2 V c 0 t) (iblk2 V c 1 t) (iblk2 V c 2 t), sout2_A_0 c (grid2.coords t) (ms2_0 t) (hs2_0 t) (ms2_1 t) (hs2_1 t) (ms2_2 t) (hs2_2 t) (ms2_3 t) (hs2_3 t) scM2_0 (Memref.isWhole_whole _) ((hcond2_0 t).mpr h0) (fun h => h1 ((hcond2_1 t).mp h)) (iblk2 V c 0 t) (iblk2 V c 1 t) (iblk2 V c 2 t)) := by
  obtain ⟨n, hn⟩ := t
  cases n with
  | zero => exact rfl
  | succ n => exact (dif_pos h0).trans ((dif_neg h1).trans rfl)

/-- `outsAt2` at a point with k = 1: over what the point before left in the accumulator. -/
theorem outsAt2_C (c : Dev nD) (t : Fin cfg2.N) (h0 : ¬t.val % 2 = 0) (h1 : t.val % 2 = 1) :
    outsAt2 V c t.val t.isLt = (out2_C_3 c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) ((hcond2_1 t).mpr h1) (iblk2 V c 0 t) (iblk2 V c 1 t) (iblk2 V c 2 t) (outsAt2 V c (t.val - 1) (Nat.lt_of_le_of_lt (Nat.sub_le _ _) t.isLt)).2, sout2_C_0 c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) ((hcond2_1 t).mpr h1) (iblk2 V c 0 t) (iblk2 V c 1 t) (iblk2 V c 2 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the class's; afterwards the accumulator at what the
    point before left in it, the other scoped buffers unopened, the generator register at some state. -/
def PhiS2 (c : Dev nD) : (n : ℕ) → n ≤ cfg2.N → sProp 𝕄
  | 0, _ => Pipeline.ΦA spec2 c
  | n + 1, hn => iprop(iprop(owns (c : Thread nD τ) scM2_0 fullShare ((outsAt2 V c n hn).2) ∗ rest2 (F := F) c) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(owns (c : Thread nD τ) scM2_0 fullShare ((outsAt2 V c n hn).2) ∗ rest2 (F := F) c) ∗ (∃ r, prngReg c r)) := rfl

theorem PhiS2_pos (c : Dev nD) (n : ℕ) (h : n ≤ cfg2.N) (hz : n ≠ 0) :
    PhiS2 V c n h = iprop(iprop(owns (c : Thread nD τ) scM2_0 fullShare ((outsAt2 V c (n - 1) (by omega)).2) ∗ rest2 (F := F) c) ∗ (∃ r, prngReg c r)) := by
  cases n with
  | zero => exact absurd rfl hz
  | succ n => rfl

/-! ## The pipeline's proof data -/

/-- The proof data of pipeline 2 on core `c`: the arrays as the region finds them; after the body at point `t` each input's
    buffer at its block and the output's at `outsAt2`; the invariant `PhiS2`; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = (outsAt2 V c t.val t.isLt).1 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t)

set_option maxHeartbeats 4800000 in
/-- The body at any point: the inputs' memrefs hold their blocks; the closed forms say which case the point is in; the
    invariant hands the body the accumulator at what the point before left (at anything at the first point) and takes it
    back at this point's contents; the other scoped buffers, the generator register and what the core owes pass through. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl]
  rw [show (dat2 V c).Φ t.succ = PhiS2 V c (t.val + 1) t.isLt from rfl, PhiS2_succ]
  have hN : t.val < 8 := lt_of_lt_of_eq t.isLt (show cfg2.N = 8 from N_2)
  by_cases h0 : t.val % 2 = 0
  · by_cases h1 : t.val % 2 = 1
    · exfalso; omega
    · rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [Dat.leavesExact_idle (dat2 V c) 3 t (idleAt2_3_A t ((hcond2_0 t).mpr h0) (fun h => h1 ((hcond2_1 t).mp h))) (noFlush2_3_A t ((hcond2_0 t).mpr h0) (fun h => h1 ((hcond2_1 t).mp h)))]
      rw [outsAt2_A V c t h0 h1]
      unfold sout2_A_0; (try dsimp only)
      by_cases hz : t.val = 0
      · rw [PhiS2_castSucc V c t, PhiS2_zero V c _ _ hz, PhiA2_eq]
        iintro ⟨⟨⟨HS0, HR⟩, Hg⟩, Ho, ⟨%d0, H0⟩, ⟨%d1, H1⟩, ⟨%d2, H2⟩, ⟨%d3, H3⟩⟩
        iapply ((kernelRun2_A c (grid2.coords t) _ _ _ _ _ _ _ _ _ _ ((hcond2_0 t).mpr h0) (fun h => h1 ((hcond2_1 t).mp h)) (iblk2 V c 0 t) (iblk2 V c 1 t) (iblk2 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover2_A_0 c _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3
      · rw [PhiS2_castSucc V c t, PhiS2_pos V c _ _ hz]
        iintro ⟨⟨⟨HS0, HR⟩, Hg⟩, Ho, ⟨%d0, H0⟩, ⟨%d1, H1⟩, ⟨%d2, H2⟩, ⟨%d3, H3⟩⟩
        iapply ((kernelRun2_A c (grid2.coords t) _ _ _ _ _ _ _ _ _ _ ((hcond2_0 t).mpr h0) (fun h => h1 ((hcond2_1 t).mp h)) (iblk2 V c 0 t) (iblk2 V c 1 t) (iblk2 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover2_A_0 c _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3
  · by_cases h1 : t.val % 2 = 1
    · rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [show (dat2 V c).leavesExact 3 t = owns (c : Thread nD τ) (ms2_3 t) fullShare ((dat2 V c).after 3 t) from by
        unfold Dat.leavesExact; rw [liveAt2_3_C t (fun h => h0 ((hcond2_0 t).mp h)) ((hcond2_1 t).mpr h1)], after2_3]
      rw [outsAt2_C V c t h0 h1]
      unfold out2_C_3 sout2_C_0; (try dsimp only)
      by_cases hz : t.val = 0
      · exfalso; omega
      · rw [PhiS2_castSucc V c t, PhiS2_pos V c _ _ hz]
        iintro ⟨⟨⟨HS0, HR⟩, Hg⟩, Ho, ⟨%d0, H0⟩, ⟨%d1, H1⟩, ⟨%d2, H2⟩, ⟨%d3, H3⟩⟩
        iapply ((kernelRun2_C c (grid2.coords t) _ _ _ _ _ _ _ _ _ _ (fun h => h0 ((hcond2_0 t).mp h)) ((hcond2_1 t).mpr h1) (iblk2 V c 0 t) (iblk2 V c 1 t) (iblk2 V c 2 t) _).2.2 Set.univ _)
        isplitl [H0]; · iexact H0
        isplitl [H1]; · iexact H1
        isplitl [H2]; · iexact H2
        isplitl [H3]; · iexists _; iexact H3
        isplitl [HS0]; · iexact HS0
        iintro ⟨H0, H1, H2, ⟨%e3, H3⟩, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover2_C_0 c _ _ _ _ _ _ _ _ _ _ _ _ _ _ _ _ _)
            iexact HR
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover2_C_3 c _ _ _ _ _ _ _ _ _ _ _ _ _ _ _ _ _)
    · exfalso; omega

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After any point but the first the invariant gives the class's back: the accumulator's named contents are forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨⟨HS0, HR⟩, Hg⟩
  isplitl [HS0 HR]
  · isplitl [HS0]
    · iexists _; iexact HS0
    iexact HR
  iexact Hg

/-- The same after the last point. -/
theorem hout2 (c : Dev nD) : (dat2 V c).Φ (Fin.last cfg2.N) ⊢ Pipeline.ΦA spec2 c :=
  Phi_out2 V c _ (by rw [Fin.val_last]; have : cfg2.N = 8 := N_2; omega)

end Cert.Kernel.Gen
end
-- ==== Proof.KernelH.Reg3.lean ====
import proofs.«157173_j56882546868342_2_alg».proof.Proof.KernelH.Launch
import proofs.«157173_j56882546868342_2_alg».proof.Proof.Gen.Kernel.Skeleton
import proofs.«157173_j56882546868342_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 3: the product of `main_v33` and `main_v26` into `main_v34`, one block of the contraction axis per point -/

/-! ## The windows' blocks -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, for any proof data whose array is the
    entry contents and whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1 is fetched at the first point only: its block index does not move, so the buffer keeps the block. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-! ## The body's branch conditions: the contraction axis has one block, so both hold at every point -/

/-- The first conditional: the point is the first along the contraction axis. -/
abbrev cond3_0 (i : grid3.Coords) : Prop := (Scalar.cmpi .ne (Scalar.extui (Scalar.cmpi .eq (BitVec.ofNat 32 (i 2).val) 0#32)) 0#32) = 1#1
theorem hcond3_0 : ∀ t : Fin cfg3.N, cond3_0 (grid3.coords t) :=
  (by decide +kernel : ∀ t : Fin grid3.N, cond3_0 (grid3.coords t))

/-- The second conditional: the point is the last along the contraction axis. -/
abbrev cond3_1 (i : grid3.Coords) : Prop := k3_cond2 i = 1#1
theorem hcond3_1 : ∀ t : Fin cfg3.N, cond3_1 (grid3.coords t) :=
  (by decide +kernel : ∀ t : Fin grid3.N, cond3_1 (grid3.coords t))

/-! ## No window is idle at any point -/

theorem liveAt3_0 : ∀ t : Fin cfg3.N, cfg3.idle 0 (grid3.coords t) = false := by decide +kernel
theorem liveAt3_1 : ∀ t : Fin cfg3.N, cfg3.idle 1 (grid3.coords t) = false := by decide +kernel
theorem liveAt3_2 : ∀ t : Fin cfg3.N, cfg3.idle 2 (grid3.coords t) = false := by decide +kernel

/-! ## The staging and scratch memrefs -/

/-- One staging buffer of the output window, through which its contents are stated. -/
abbrev VO3_2 : View sig .tc .vmem S1024x512 .bf16 := (Memref.whole cc3_stg2_0 : Memref sig .tc .vmem S1024x512 .bf16).view
abbrev ms3_0 (t : Fin cfg3.N) : Memref sig .tc .vmem S1024x512 .bf16 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S512x512 .bf16 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S1024x512 .bf16 := win3_2.stage (cfg3.slots t 2)
abbrev hs3_2 (t : Fin cfg3.N) : (ms3_2 t).IsWhole := hstage3_2 ((cfg3.slots t 2).cast nbuf3_2)
/-- The accumulator: a whole scoped buffer of the kernel's own. -/
abbrev scM3_0 : Memref sig .tc .vmem S1024x512 .f32 := Memref.whole cc3_scratch0
abbrev VS3_0 : View sig .tc .vmem S1024x512 .f32 := scM3_0.view

/-- The region's invariant with the accumulator as a memref owned at some contents, the other scoped buffers unopened. -/
theorem PhiA3_eq (c : Dev nD) :
    (Pipeline.ΦA spec3 c : sProp 𝕄)
      = iprop(iprop(iprop((∃ d, owns (c : Thread nD τ) scM3_0 fullShare d))
          ∗ Pipeline.scopedRestBut (Ix := Unit) (Name := ℕ) (U := UR sig nD τ) (Lvl := ℕ) (Val := Elt F) spec3 c [cc3_scratch0]) ∗ (∃ r, prngReg c r)) := by
  unfold Pipeline.ΦA; rw [scopedRest3_split]; simp only [scM3_0, owns_whole]; try rfl

/-! ## The body's run -/

set_option maxHeartbeats 1000000 in
/-- What the body's store leaves in the output's staging memref, as pieces, with the proof that on whole memrefs —
    the inputs' at their contents, the output's and the accumulator's at anything — the body runs to the
    continuation holding the inputs' as they were, the output's with its pieces written, the accumulator at some
    contents: it is zeroed, the block product is added, and the sum is rounded into the output. -/
noncomputable def kernelRun3_A (c : Dev nD) (i : grid3.Coords) (arg3 : Memref sig .tc .vmem S1024x512 .bf16) (harg3 : arg3.IsWhole) (arg4 : Memref sig .tc .vmem S512x512 .bf16) (harg4 : arg4.IsWhole) (arg5 : Memref sig .tc .vmem S1024x512 .bf16) (harg5 : arg5.IsWhole) (arg6 : Memref sig .tc .vmem S1024x512 .f32) (harg6 : arg6.IsWhole) (hc0 : cond3_0 i) (hc1 : cond3_1 i)
    (x0 : Vec F S1024x512 .bf16) (x1 : Vec F S512x512 .bf16) :
    { L2 : List (View.Piece (Elt F) S1024x512 .bf16) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ (∃ d, owns (c : Thread nD τ) arg6 fullShare d)
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (∃ d, owns (c : Thread nD τ) arg6 fullShare d)) -∗ K ⟨⟩))
          ⊢ wp frame (wpE (defs₀ (F := F)) Variants.none c none) E (cc3__mm_kernel_nobias i arg3 harg3 arg4 harg4 arg5 harg5 arg6 harg6) K } := by
  refine ⟨?_, fun E K => ?run⟩
  case run =>
    simp only [cc3__mm_kernel_nobias_eq_skeleton]; unfold cc3__mm_kernel_nobias_skel
    unfold owns
    iintro ⟨⟨%f0, %hf0, H0⟩, ⟨%f1, %hf1, H1⟩, ⟨%d2, %f2, -, H2⟩, ⟨%ds0, %fs0, -, HS0⟩, Hk⟩
    obtain rfl := harg3.eq_unread hf0; obtain rfl := harg4.eq_unread hf1
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexists _; iexists _; isplitr
    swap; · iexact HS0
    ipureintro; rfl

/-! ## What the body leaves in the output's buffer -/

/-- The output's pieces tile its block (one store of the whole block), so they cover it. -/
theorem cover3_A_2 (c : Dev nD) (i : grid3.Coords) (arg3 : Memref sig .tc .vmem S1024x512 .bf16) (harg3 : arg3.IsWhole) (arg4 : Memref sig .tc .vmem S512x512 .bf16) (harg4 : arg4.IsWhole) (arg5 : Memref sig .tc .vmem S1024x512 .bf16) (harg5 : arg5.IsWhole) (arg6 : Memref sig .tc .vmem S1024x512 .f32) (harg6 : arg6.IsWhole) (hc0 : cond3_0 i) (hc1 : cond3_1 i)
    (x0 : Vec F S1024x512 .bf16) (x1 : Vec F S512x512 .bf16) (y : S1024x512.Idx) :
    ∃ pc ∈ (kernelRun3_A c i arg3 harg3 arg4 harg4 arg5 harg5 arg6 harg6 hc0 hc1 x0 x1).1, y ∈ pc.1.set :=
  View.cover_of_tiledL (kernelRun3_A c i arg3 harg3 arg4 harg4 arg5 harg5 arg6 harg6 hc0 hc1 x0 x1).1 S1024x512.size (by sl_kernel_rfl) y

/-- What the body leaves in the output's staging buffer: its pieces read back over junk. -/
def out3_A_2 (c : Dev nD) (i : grid3.Coords) (arg3 : Memref sig .tc .vmem S1024x512 .bf16) (harg3 : arg3.IsWhole) (arg4 : Memref sig .tc .vmem S512x512 .bf16) (harg4 : arg4.IsWhole) (arg5 : Memref sig .tc .vmem S1024x512 .bf16) (harg5 : arg5.IsWhole) (arg6 : Memref sig .tc .vmem S1024x512 .f32) (harg6 : arg6.IsWhole) (hc0 : cond3_0 i) (hc1 : cond3_1 i)
    (x0 : Vec F S1024x512 .bf16) (x1 : Vec F S512x512 .bf16) : Vec F S1024x512 .bf16 :=
  VO3_2.read (Elt F) (VO3_2.writes (Elt F) VO3_2.junk (kernelRun3_A c i arg3 harg3 arg4 harg4 arg5 harg5 arg6 harg6 hc0 hc1 x0 x1).1)

/-- What the output's staging buffer holds after the body at position `n`: the one case, run at the point's memrefs
    and input blocks (the accumulator is zeroed at every point, so nothing of the point before enters). -/
def outsAt3 (c : Dev nD) (n : ℕ) (hn : n < cfg3.N) : Vec F S1024x512 .bf16 :=
  out3_A_2 c (grid3.coords ⟨n, hn⟩) (ms3_0 ⟨n, hn⟩) (hs3_0 ⟨n, hn⟩) (ms3_1 ⟨n, hn⟩) (hs3_1 ⟨n, hn⟩) (ms3_2 ⟨n, hn⟩) (hs3_2 ⟨n, hn⟩) scM3_0 (Memref.isWhole_whole _) (hcond3_0 ⟨n, hn⟩) (hcond3_1 ⟨n, hn⟩) (iblk3 V c 0 ⟨n, hn⟩) (iblk3 V c 1 ⟨n, hn⟩)

/-- `outsAt3` at a point: the case's contents. -/
theorem outsAt3_A (c : Dev nD) (t : Fin cfg3.N) :
    outsAt3 V c t.val t.isLt = out3_A_2 c (grid3.coords t) (ms3_0 t) (hs3_0 t) (ms3_1 t) (hs3_1 t) (ms3_2 t) (hs3_2 t) scM3_0 (Memref.isWhole_whole _) (hcond3_0 t) (hcond3_1 t) (iblk3 V c 0 t) (iblk3 V c 1 t) := rfl

/-! ## The pipeline's proof data -/

/-- The proof data of the pipeline on core `c`: the arrays as the region finds them; after the body at point `t` each
    input's buffer at its block and the output's at `outsAt3`; the invariant the scoped rest and the generator
    register (the accumulator at anything: every point zeroes it first); nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => outsAt3 V c t.val t.isLt
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = outsAt3 V c t.val t.isLt := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-! ## The body obligation, at a generic point -/

def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d)))

def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t)

set_option maxHeartbeats 4800000 in
/-- The body at any point: the inputs' memrefs hold their blocks, both conditions hold, so the run applies; the
    invariant hands the body the accumulator at anything and takes it back at anything; the core owes nothing. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).owesAt () t.succ = (dat3 V c).owesAt () t.castSucc from rfl]
  rw [show (dat3 V c).Φ t.succ = Pipeline.ΦA spec3 c from rfl, show (dat3 V c).Φ t.castSucc = Pipeline.ΦA spec3 c from rfl, PhiA3_eq]
  rw [show (dat3 V c).leavesExact 0 t = owns (c : Thread nD τ) (ms3_0 t) fullShare ((dat3 V c).after 0 t) from by
    unfold Dat.leavesExact; rw [liveAt3_0 t], after3_0]
  rw [show (dat3 V c).leavesExact 1 t = owns (c : Thread nD τ) (ms3_1 t) fullShare ((dat3 V c).after 1 t) from by
    unfold Dat.leavesExact; rw [liveAt3_1 t], after3_1]
  rw [show (dat3 V c).leavesExact 2 t = owns (c : Thread nD τ) (ms3_2 t) fullShare ((dat3 V c).after 2 t) from by
    unfold Dat.leavesExact; rw [liveAt3_2 t], after3_2]
  rw [outsAt3_A V c t]
  unfold out3_A_2; (try dsimp only)
  iintro ⟨⟨⟨HS0, Hr⟩, Hg⟩, Ho, ⟨%d0, H0⟩, ⟨%d1, H1⟩, ⟨%d2, H2⟩⟩
  iapply ((kernelRun3_A c (grid3.coords t) _ _ _ _ _ _ _ _ (hcond3_0 t) (hcond3_1 t) (iblk3 V c 0 t) (iblk3 V c 1 t)).2 Set.univ _)
  isplitl [H0]; · iexact H0
  isplitl [H1]; · iexact H1
  isplitl [H2]; · iexists _; iexact H2
  isplitl [HS0]; · iexact HS0
  iintro ⟨H0, H1, ⟨%e2, H2⟩, HS0⟩
  isplitl [HS0 Hr Hg]
  · isplitl [HS0 Hr]
    · isplitl [HS0]; · iexact HS0
      iexact Hr
    iexact Hg
  isplitl [Ho]; · iexact Ho
  isplitl [H0]; · iexact H0
  isplitl [H1]; · iexact H1
  unfold owns; iexists _; isplitr
  swap; · iexact H2
  ipureintro; exact View.read_writes_of_cover _ _ _ _ _ (cover3_A_2 c _ _ _ _ _ _ _ _ _ _ _ _ _)

/-- The library's body obligation, at every point. -/
theorem body_obligation3 (c : Dev nD) : BodyObligation (dat3 (F := F) V c) (defs₀ (F := F)) Variants.none () Set.univ := fun t => by
  rw [bigSep_W3, bigSep_W3]
  exact sound_body3 V c t

/-- What the launch hands the region is the invariant before the first point. -/
theorem hin3 (c : Dev nD) : Pipeline.ΦA spec3 c ⊢ (dat3 V c).Φ 0 := Idealize.SL.BI.Entails.refl _

/-- After the last point the invariant is what the launch takes back. -/
theorem hout3 (c : Dev nD) : (dat3 V c).Φ (Fin.last cfg3.N) ⊢ Pipeline.ΦA spec3 c := Idealize.SL.BI.Entails.refl _

end Cert.Kernel.Gen

end
-- ==== Proof.KernelH.Reg4.lean ====
import proofs.«157173_j56882546868342_2_alg».proof.Proof.KernelH.Launch
import proofs.«157173_j56882546868342_2_alg».proof.Proof.Gen.Kernel.Skeleton
import proofs.«157173_j56882546868342_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384
noncomputable section
namespace Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

-- The three block shapes of this matrix product: the left operand's block, the right operand's block, and the
-- block of the result (the accumulator has the result block's shape).
local notation "BlkA" => S1024x512
local notation "BlkB" => S512x512
local notation "BlkO" => S1024x512

/-! # The matrix product with a carried accumulator, region 4, at the entry contents `V` -/

/-! ## The windows' blocks -/

/-- Window `w`'s block at point `t`, read off its array as the region finds it (`V`). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The left operand's current staging buffer holds its block at every point, fetched there or not, for any proof
    data whose array is `V`'s and whose body leaves the block in place: the window is uncut and never idle. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- The same for the right operand's window. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-! ## The body's two branch conditions, decided over the grid -/

/-- The first condition: the reduction coordinate is 0 (the accumulator is zeroed). -/
abbrev cond4_0 (i : grid4.Coords) : Prop := (Scalar.cmpi .ne (Scalar.extui (Scalar.cmpi .eq (BitVec.ofNat 32 (i 2).val) 0#32)) 0#32) = 1#1
/-- It holds at the points ≡ 0 (mod 8). -/
theorem hcond4_0 : ∀ t : Fin cfg4.N, cond4_0 (grid4.coords t) ↔ t.val % 8 = 0 :=
  (by decide +kernel : ∀ t : Fin grid4.N, cond4_0 (grid4.coords t) ↔ t.val % 8 = 0)

/-- The second condition: the reduction coordinate is the last, 7 (the result block is written). -/
abbrev cond4_1 (i : grid4.Coords) : Prop := k4_cond2 i = 1#1
/-- It holds at the points ≡ 7 (mod 8). -/
theorem hcond4_1 : ∀ t : Fin cfg4.N, cond4_1 (grid4.coords t) ↔ t.val % 8 = 7 :=
  (by decide +kernel : ∀ t : Fin grid4.N, cond4_1 (grid4.coords t) ↔ t.val % 8 = 7)

/-! ## Where the windows are idle -/

/-- The operands' windows are never idle. -/
theorem liveAt4_0 : ∀ t : Fin cfg4.N, cfg4.idle 0 (grid4.coords t) = false := by decide +kernel
theorem liveAt4_1 : ∀ t : Fin cfg4.N, cfg4.idle 1 (grid4.coords t) = false := by decide +kernel
/-- At the first reduction step the result window is idle and is not written back. -/
theorem idleAt4_2_A : ∀ t : Fin cfg4.N, cond4_0 (grid4.coords t) → ¬cond4_1 (grid4.coords t) → cfg4.idle 2 (grid4.coords t) = true := by decide +kernel
theorem noFlush4_2_A : ∀ t : Fin cfg4.N, cond4_0 (grid4.coords t) → ¬cond4_1 (grid4.coords t) → (cfg4.win 2).flush t = false := by decide +kernel
/-- At a middle reduction step likewise. -/
theorem idleAt4_2_B : ∀ t : Fin cfg4.N, ¬cond4_0 (grid4.coords t) → ¬cond4_1 (grid4.coords t) → cfg4.idle 2 (grid4.coords t) = true := by decide +kernel
theorem noFlush4_2_B : ∀ t : Fin cfg4.N, ¬cond4_0 (grid4.coords t) → ¬cond4_1 (grid4.coords t) → (cfg4.win 2).flush t = false := by decide +kernel
/-- At the last reduction step the result window is live: the body stores into it. -/
theorem liveAt4_2_C : ∀ t : Fin cfg4.N, ¬cond4_0 (grid4.coords t) → cond4_1 (grid4.coords t) → cfg4.idle 2 (grid4.coords t) = false := by decide +kernel

/-! ## The memrefs the body is called with -/

/-- One staging buffer of the result window, through which its contents are stated. -/
abbrev VO4_2 : View sig .tc .vmem BlkO .bf16 := (Memref.whole cc4_stg2_0 : Memref sig .tc .vmem BlkO .bf16).view
/-- Each window's current staging memref at point `t`, and its wholeness. -/
abbrev ms4_0 (t : Fin cfg4.N) : Memref sig .tc .vmem BlkA .bf16 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem BlkB .bf16 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem BlkO .bf16 := win4_2.stage (cfg4.slots t 2)
abbrev hs4_2 (t : Fin cfg4.N) : (ms4_2 t).IsWhole := hstage4_2 ((cfg4.slots t 2).cast nbuf4_2)
/-- The accumulator: a whole scoped buffer of the kernel's own, passed beside the windows. -/
abbrev scM4_0 : Memref sig .tc .vmem BlkO .f32 := Memref.whole cc4_scratch0
/-- The accumulator as a view: what it holds is stated through it. -/
abbrev VS4_0 : View sig .tc .vmem BlkO .f32 := scM4_0.view

/-- Every scoped buffer of the program but this region's accumulator, unopened. -/
abbrev rest4 (c : Dev nD) : sProp 𝕄 :=
  Pipeline.scopedRestBut (Ix := Unit) (Name := ℕ) (U := UR sig nD τ) (Lvl := ℕ) (Val := Elt F) spec4 c [cc4_scratch0]

/-- The region's entry invariant with the accumulator as a memref owned at some contents, the other scoped buffers
    unopened, and the generator register at some state. -/
theorem PhiA4_eq (c : Dev nD) :
    (Pipeline.ΦA spec4 c : sProp 𝕄)
      = iprop(iprop(iprop((∃ d, owns (c : Thread nD τ) scM4_0 fullShare d)) ∗ rest4 (F := F) c) ∗ (∃ r, prngReg c r)) := by
  unfold Pipeline.ΦA; rw [scopedRest4_split]; simp only [scM4_0, owns_whole]; try rfl

/-! ## The body's run, case by case -/

set_option maxHeartbeats 1000000 in
/-- FIRST reduction step (the first condition holds, the second does not). On whole memrefs — the operands' at
    their contents, the result's at contents handed back untouched, the accumulator at anything — the body runs to the
    continuation holding the operands' as they were and the accumulator with its stores written: the pieces are the
    witness the run finds. -/
noncomputable def kernelRun4_A (c : Dev nD) (i : grid4.Coords) (arg3 : Memref sig .tc .vmem BlkA .bf16) (harg3 : arg3.IsWhole) (arg4 : Memref sig .tc .vmem BlkB .bf16) (harg4 : arg4.IsWhole) (arg5 : Memref sig .tc .vmem BlkO .bf16) (harg5 : arg5.IsWhole) (arg6 : Memref sig .tc .vmem BlkO .f32) (harg6 : arg6.IsWhole) (hc0 : cond4_0 i) (hc1 : ¬cond4_1 i)
    (x0 : Vec F BlkA .bf16) (x1 : Vec F BlkB .bf16) :
    Σ' (L2 : List (View.Piece (Elt F) BlkO .bf16)), { LS0 : List (View.Piece (Elt F) BlkO .f32) //
      ∀ (xi2 : Vec F BlkO .bf16) (E : Set ℕ) (K : PUnit → sProp 𝕄),
        iprop(owns (c : Thread nD τ) arg3 fullShare x0 ∗ owns (c : Thread nD τ) arg4 fullShare x1 ∗ owns (c : Thread nD τ) arg5 fullShare xi2 ∗ (∃ d, owns (c : Thread nD τ) arg6 fullShare d)
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc4__mm_kernel_nobias i arg3 harg3 arg4 harg4 arg5 harg5 arg6 harg6) K } := by
  refine ⟨[], ?_, fun xi2 E K => ?run⟩
  case run =>
    simp only [cc4__mm_kernel_nobias_eq_skeleton]; unfold cc4__mm_kernel_nobias_skel
    unfold owns
    iintro ⟨⟨%f0, %hf0, H0⟩, ⟨%f1, %hf1, H1⟩, ⟨%f2, %hf2, H2⟩, ⟨%ds0, %fs0, -, HS0⟩, Hk⟩
    obtain rfl := harg3.eq_unread hf0; obtain rfl := harg4.eq_unread hf1; obtain rfl := harg5.eq_unread hf2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

set_option maxHeartbeats 1000000 in
/-- MIDDLE reduction step (neither condition holds): as the first, with the accumulator at what the point before left. -/
noncomputable def kernelRun4_B (c : Dev nD) (i : grid4.Coords) (arg3 : Memref sig .tc .vmem BlkA .bf16) (harg3 : arg3.IsWhole) (arg4 : Memref sig .tc .vmem BlkB .bf16) (harg4 : arg4.IsWhole) (arg5 : Memref sig .tc .vmem BlkO .bf16) (harg5 : arg5.IsWhole) (arg6 : Memref sig .tc .vmem BlkO .f32) (harg6 : arg6.IsWhole) (hc0 : ¬cond4_0 i) (hc1 : ¬cond4_1 i)
    (x0 : Vec F BlkA .bf16) (x1 : Vec F BlkB .bf16) (xs0 : Vec F BlkO .f32) :
    Σ' (L2 : List (View.Piece (Elt F) BlkO .bf16)), { LS0 : List (View.Piece (Elt F) BlkO .f32) //
      ∀ (xi2 : Vec F BlkO .bf16) (E : Set ℕ) (K : PUnit → sProp 𝕄),
        iprop(owns (c : Thread nD τ) arg3 fullShare x0 ∗ owns (c : Thread nD τ) arg4 fullShare x1 ∗ owns (c : Thread nD τ) arg5 fullShare xi2 ∗ owns (c : Thread nD τ) arg6 fullShare xs0
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc4__mm_kernel_nobias i arg3 harg3 arg4 harg4 arg5 harg5 arg6 harg6) K } := by
  refine ⟨[], ?_, fun xi2 E K => ?run⟩
  case run =>
    simp only [cc4__mm_kernel_nobias_eq_skeleton]; unfold cc4__mm_kernel_nobias_skel
    unfold owns
    iintro ⟨⟨%f0, %hf0, H0⟩, ⟨%f1, %hf1, H1⟩, ⟨%f2, %hf2, H2⟩, ⟨%fs0, %hfs0, HS0⟩, Hk⟩
    obtain rfl := harg3.eq_unread hf0; obtain rfl := harg4.eq_unread hf1; obtain rfl := harg5.eq_unread hf2; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

set_option maxHeartbeats 1000000 in
/-- LAST reduction step (the second condition holds, the first does not): the result's memref at anything, left with
    the body's store written. -/
noncomputable def kernelRun4_C (c : Dev nD) (i : grid4.Coords) (arg3 : Memref sig .tc .vmem BlkA .bf16) (harg3 : arg3.IsWhole) (arg4 : Memref sig .tc .vmem BlkB .bf16) (harg4 : arg4.IsWhole) (arg5 : Memref sig .tc .vmem BlkO .bf16) (harg5 : arg5.IsWhole) (arg6 : Memref sig .tc .vmem BlkO .f32) (harg6 : arg6.IsWhole) (hc0 : ¬cond4_0 i) (hc1 : cond4_1 i)
    (x0 : Vec F BlkA .bf16) (x1 : Vec F BlkB .bf16) (xs0 : Vec F BlkO .f32) :
    Σ' (L2 : List (View.Piece (Elt F) BlkO .bf16)), { LS0 : List (View.Piece (Elt F) BlkO .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xs0
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f LS0)) -∗ K ⟨⟩))
          ⊢ wp frame (wpE (defs₀ (F := F)) Variants.none c none) E (cc4__mm_kernel_nobias i arg3 harg3 arg4 harg4 arg5 harg5 arg6 harg6) K } := by
  refine ⟨?_, ?_, fun E K => ?run⟩
  case run =>
    simp only [cc4__mm_kernel_nobias_eq_skeleton]; unfold cc4__mm_kernel_nobias_skel
    unfold owns
    iintro ⟨⟨%f0, %hf0, H0⟩, ⟨%f1, %hf1, H1⟩, ⟨%d2, %f2, -, H2⟩, ⟨%fs0, %hfs0, HS0⟩, Hk⟩
    obtain rfl := harg3.eq_unread hf0; obtain rfl := harg4.eq_unread hf1; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexists _; iexact HS0

/-! ## What each case leaves: the found pieces and their covers -/

/-- The first step stores nothing into the result's buffer: a placeholder nothing consults (the window is idle there). -/
def out4_A_2 (c : Dev nD) (i : grid4.Coords) (arg3 : Memref sig .tc .vmem BlkA .bf16) (harg3 : arg3.IsWhole) (arg4 : Memref sig .tc .vmem BlkB .bf16) (harg4 : arg4.IsWhole) (arg5 : Memref sig .tc .vmem BlkO .bf16) (harg5 : arg5.IsWhole) (arg6 : Memref sig .tc .vmem BlkO .f32) (harg6 : arg6.IsWhole) (hc0 : cond4_0 i) (hc1 : ¬cond4_1 i)
    (x0 : Vec F BlkA .bf16) (x1 : Vec F BlkB .bf16) : Vec F BlkO .bf16 :=
  VO4_2.read (Elt F) (VO4_2.writes (Elt F) VO4_2.junk (kernelRun4_A c i arg3 harg3 arg4 harg4 arg5 harg5 arg6 harg6 hc0 hc1 x0 x1).1)

/-- The first step's stores into the accumulator cover it. -/
theorem scover4_A_0 (c : Dev nD) (i : grid4.Coords) (arg3 : Memref sig .tc .vmem BlkA .bf16) (harg3 : arg3.IsWhole) (arg4 : Memref sig .tc .vmem BlkB .bf16) (harg4 : arg4.IsWhole) (arg5 : Memref sig .tc .vmem BlkO .bf16) (harg5 : arg5.IsWhole) (arg6 : Memref sig .tc .vmem BlkO .f32) (harg6 : arg6.IsWhole) (hc0 : cond4_0 i) (hc1 : ¬cond4_1 i)
    (x0 : Vec F BlkA .bf16) (x1 : Vec F BlkB .bf16) (y : (BlkO).Idx) :
    ∃ pc ∈ (kernelRun4_A c i arg3 harg3 arg4 harg4 arg5 harg5 arg6 harg6 hc0 hc1 x0 x1).2.1, y ∈ pc.1.set :=
  View.cover_of_tiledL (kernelRun4_A c i arg3 harg3 arg4 harg4 arg5 harg5 arg6 harg6 hc0 hc1 x0 x1).2.1 (BlkO).size (by sl_kernel_rfl) y

/-- What the first step leaves in the accumulator: its pieces read back. -/
def sout4_A_0 (c : Dev nD) (i : grid4.Coords) (arg3 : Memref sig .tc .vmem BlkA .bf16) (harg3 : arg3.IsWhole) (arg4 : Memref sig .tc .vmem BlkB .bf16) (harg4 : arg4.IsWhole) (arg5 : Memref sig .tc .vmem BlkO .bf16) (harg5 : arg5.IsWhole) (arg6 : Memref sig .tc .vmem BlkO .f32) (harg6 : arg6.IsWhole) (hc0 : cond4_0 i) (hc1 : ¬cond4_1 i)
    (x0 : Vec F BlkA .bf16) (x1 : Vec F BlkB .bf16) : Vec F BlkO .f32 :=
  VS4_0.read (Elt F) (VS4_0.writes (Elt F) VS4_0.junk (kernelRun4_A c i arg3 harg3 arg4 harg4 arg5 harg5 arg6 harg6 hc0 hc1 x0 x1).2.1)

/-- A middle step stores nothing into the result's buffer either. -/
def out4_B_2 (c : Dev nD) (i : grid4.Coords) (arg3 : Memref sig .tc .vmem BlkA .bf16) (harg3 : arg3.IsWhole) (arg4 : Memref sig .tc .vmem BlkB .bf16) (harg4 : arg4.IsWhole) (arg5 : Memref sig .tc .vmem BlkO .bf16) (harg5 : arg5.IsWhole) (arg6 : Memref sig .tc .vmem BlkO .f32) (harg6 : arg6.IsWhole) (hc0 : ¬cond4_0 i) (hc1 : ¬cond4_1 i)
    (x0 : Vec F BlkA .bf16) (x1 : Vec F BlkB .bf16) (xs0 : Vec F BlkO .f32) : Vec F BlkO .bf16 :=
  VO4_2.read (Elt F) (VO4_2.writes (Elt F) VO4_2.junk (kernelRun4_B c i arg3 harg3 arg4 harg4 arg5 harg5 arg6 harg6 hc0 hc1 x0 x1 xs0).1)

/-- A middle step's store into the accumulator covers it. -/
theorem scover4_B_0 (c : Dev nD) (i : grid4.Coords) (arg3 : Memref sig .tc .vmem BlkA .bf16) (harg3 : arg3.IsWhole) (arg4 : Memref sig .tc .vmem BlkB .bf16) (harg4 : arg4.IsWhole) (arg5 : Memref sig .tc .vmem BlkO .bf16) (harg5 : arg5.IsWhole) (arg6 : Memref sig .tc .vmem BlkO .f32) (harg6 : arg6.IsWhole) (hc0 : ¬cond4_0 i) (hc1 : ¬cond4_1 i)
    (x0 : Vec F BlkA .bf16) (x1 : Vec F BlkB .bf16) (xs0 : Vec F BlkO .f32) (y : (BlkO).Idx) :
    ∃ pc ∈ (kernelRun4_B c i arg3 harg3 arg4 harg4 arg5 harg5 arg6 harg6 hc0 hc1 x0 x1 xs0).2.1, y ∈ pc.1.set :=
  View.cover_of_tiledL (kernelRun4_B c i arg3 harg3 arg4 harg4 arg5 harg5 arg6 harg6 hc0 hc1 x0 x1 xs0).2.1 (BlkO).size (by sl_kernel_rfl) y

/-- What a middle step leaves in the accumulator. -/
def sout4_B_0 (c : Dev nD) (i : grid4.Coords) (arg3 : Memref sig .tc .vmem BlkA .bf16) (harg3 : arg3.IsWhole) (arg4 : Memref sig .tc .vmem BlkB .bf16) (harg4 : arg4.IsWhole) (arg5 : Memref sig .tc .vmem BlkO .bf16) (harg5 : arg5.IsWhole) (arg6 : Memref sig .tc .vmem BlkO .f32) (harg6 : arg6.IsWhole) (hc0 : ¬cond4_0 i) (hc1 : ¬cond4_1 i)
    (x0 : Vec F BlkA .bf16) (x1 : Vec F BlkB .bf16) (xs0 : Vec F BlkO .f32) : Vec F BlkO .f32 :=
  VS4_0.read (Elt F) (VS4_0.writes (Elt F) VS4_0.junk (kernelRun4_B c i arg3 harg3 arg4 harg4 arg5 harg5 arg6 harg6 hc0 hc1 x0 x1 xs0).2.1)

/-- The last step's store into the result's buffer covers it. -/
theorem cover4_C_2 (c : Dev nD) (i : grid4.Coords) (arg3 : Memref sig .tc .vmem BlkA .bf16) (harg3 : arg3.IsWhole) (arg4 : Memref sig .tc .vmem BlkB .bf16) (harg4 : arg4.IsWhole) (arg5 : Memref sig .tc .vmem BlkO .bf16) (harg5 : arg5.IsWhole) (arg6 : Memref sig .tc .vmem BlkO .f32) (harg6 : arg6.IsWhole) (hc0 : ¬cond4_0 i) (hc1 : cond4_1 i)
    (x0 : Vec F BlkA .bf16) (x1 : Vec F BlkB .bf16) (xs0 : Vec F BlkO .f32) (y : (BlkO).Idx) :
    ∃ pc ∈ (kernelRun4_C c i arg3 harg3 arg4 harg4 arg5 harg5 arg6 harg6 hc0 hc1 x0 x1 xs0).1, y ∈ pc.1.set :=
  View.cover_of_tiledL (kernelRun4_C c i arg3 harg3 arg4 harg4 arg5 harg5 arg6 harg6 hc0 hc1 x0 x1 xs0).1 (BlkO).size (by sl_kernel_rfl) y

/-- What the last step leaves in the result's buffer. -/
def out4_C_2 (c : Dev nD) (i : grid4.Coords) (arg3 : Memref sig .tc .vmem BlkA .bf16) (harg3 : arg3.IsWhole) (arg4 : Memref sig .tc .vmem BlkB .bf16) (harg4 : arg4.IsWhole) (arg5 : Memref sig .tc .vmem BlkO .bf16) (harg5 : arg5.IsWhole) (arg6 : Memref sig .tc .vmem BlkO .f32) (harg6 : arg6.IsWhole) (hc0 : ¬cond4_0 i) (hc1 : cond4_1 i)
    (x0 : Vec F BlkA .bf16) (x1 : Vec F BlkB .bf16) (xs0 : Vec F BlkO .f32) : Vec F BlkO .bf16 :=
  VO4_2.read (Elt F) (VO4_2.writes (Elt F) VO4_2.junk (kernelRun4_C c i arg3 harg3 arg4 harg4 arg5 harg5 arg6 harg6 hc0 hc1 x0 x1 xs0).1)

/-- The last step's store into the accumulator covers it. -/
theorem scover4_C_0 (c : Dev nD) (i : grid4.Coords) (arg3 : Memref sig .tc .vmem BlkA .bf16) (harg3 : arg3.IsWhole) (arg4 : Memref sig .tc .vmem BlkB .bf16) (harg4 : arg4.IsWhole) (arg5 : Memref sig .tc .vmem BlkO .bf16) (harg5 : arg5.IsWhole) (arg6 : Memref sig .tc .vmem BlkO .f32) (harg6 : arg6.IsWhole) (hc0 : ¬cond4_0 i) (hc1 : cond4_1 i)
    (x0 : Vec F BlkA .bf16) (x1 : Vec F BlkB .bf16) (xs0 : Vec F BlkO .f32) (y : (BlkO).Idx) :
    ∃ pc ∈ (kernelRun4_C c i arg3 harg3 arg4 harg4 arg5 harg5 arg6 harg6 hc0 hc1 x0 x1 xs0).2.1, y ∈ pc.1.set :=
  View.cover_of_tiledL (kernelRun4_C c i arg3 harg3 arg4 harg4 arg5 harg5 arg6 harg6 hc0 hc1 x0 x1 xs0).2.1 (BlkO).size (by sl_kernel_rfl) y

/-- What the last step leaves in the accumulator. -/
def sout4_C_0 (c : Dev nD) (i : grid4.Coords) (arg3 : Memref sig .tc .vmem BlkA .bf16) (harg3 : arg3.IsWhole) (arg4 : Memref sig .tc .vmem BlkB .bf16) (harg4 : arg4.IsWhole) (arg5 : Memref sig .tc .vmem BlkO .bf16) (harg5 : arg5.IsWhole) (arg6 : Memref sig .tc .vmem BlkO .f32) (harg6 : arg6.IsWhole) (hc0 : ¬cond4_0 i) (hc1 : cond4_1 i)
    (x0 : Vec F BlkA .bf16) (x1 : Vec F BlkB .bf16) (xs0 : Vec F BlkO .f32) : Vec F BlkO .f32 :=
  VS4_0.read (Elt F) (VS4_0.writes (Elt F) VS4_0.junk (kernelRun4_C c i arg3 harg3 arg4 harg4 arg5 harg5 arg6 harg6 hc0 hc1 x0 x1 xs0).2.1)

/-! ## What the result's buffer and the accumulator hold after each point -/

/-- THE ACCUMULATION. What the result's staging buffer and the accumulator hold after the body at position `n`:
    the case the closed forms select at `n`, run at the point's memrefs and operand blocks, the accumulator entering
    at what position `n - 1` left. Both conditions at once is met by no point. -/
def outsAt4 (c : Dev nD) : (n : ℕ) → n < cfg4.N → Vec F BlkO .bf16 × Vec F BlkO .f32
  | 0, hn => (out4_A_2 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) scM4_0 (Memref.isWhole_whole _) ((hcond4_0 ⟨0, hn⟩).mpr (Nat.zero_mod _)) (fun h => (fun h => by (try dsimp only at h); omega) ((hcond4_1 ⟨0, hn⟩).mp h)) (iblk4 V c 0 ⟨0, hn⟩) (iblk4 V c 1 ⟨0, hn⟩), sout4_A_0 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) scM4_0 (Memref.isWhole_whole _) ((hcond4_0 ⟨0, hn⟩).mpr (Nat.zero_mod _)) (fun h => (fun h => by (try dsimp only at h); omega) ((hcond4_1 ⟨0, hn⟩).mp h)) (iblk4 V c 0 ⟨0, hn⟩) (iblk4 V c 1 ⟨0, hn⟩))
  | n + 1, hn =>
    if h0 : (n + 1) % 8 = 0 then
      if h1 : (n + 1) % 8 = 7 then
        False.elim (by omega)
      else
        (out4_A_2 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) scM4_0 (Memref.isWhole_whole _) ((hcond4_0 ⟨n + 1, hn⟩).mpr h0) (fun h => h1 ((hcond4_1 ⟨n + 1, hn⟩).mp h)) (iblk4 V c 0 ⟨n + 1, hn⟩) (iblk4 V c 1 ⟨n + 1, hn⟩), sout4_A_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) scM4_0 (Memref.isWhole_whole _) ((hcond4_0 ⟨n + 1, hn⟩).mpr h0) (fun h => h1 ((hcond4_1 ⟨n + 1, hn⟩).mp h)) (iblk4 V c 0 ⟨n + 1, hn⟩) (iblk4 V c 1 ⟨n + 1, hn⟩))
    else
      if h1 : (n + 1) % 8 = 7 then
        (out4_C_2 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) scM4_0 (Memref.isWhole_whole _) (fun h => h0 ((hcond4_0 ⟨n + 1, hn⟩).mp h)) ((hcond4_1 ⟨n + 1, hn⟩).mpr h1) (iblk4 V c 0 ⟨n + 1, hn⟩) (iblk4 V c 1 ⟨n + 1, hn⟩) (outsAt4 c n (Nat.lt_of_succ_lt hn)).2, sout4_C_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) scM4_0 (Memref.isWhole_whole _) (fun h => h0 ((hcond4_0 ⟨n + 1, hn⟩).mp h)) ((hcond4_1 ⟨n + 1, hn⟩).mpr h1) (iblk4 V c 0 ⟨n + 1, hn⟩) (iblk4 V c 1 ⟨n + 1, hn⟩) (outsAt4 c n (Nat.lt_of_succ_lt hn)).2)
      else
        (out4_B_2 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) scM4_0 (Memref.isWhole_whole _) (fun h => h0 ((hcond4_0 ⟨n + 1, hn⟩).mp h)) (fun h => h1 ((hcond4_1 ⟨n + 1, hn⟩).mp h)) (iblk4 V c 0 ⟨n + 1, hn⟩) (iblk4 V c 1 ⟨n + 1, hn⟩) (outsAt4 c n (Nat.lt_of_succ_lt hn)).2, sout4_B_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) scM4_0 (Memref.isWhole_whole _) (fun h => h0 ((hcond4_0 ⟨n + 1, hn⟩).mp h)) (fun h => h1 ((hcond4_1 ⟨n + 1, hn⟩).mp h)) (iblk4 V c 0 ⟨n + 1, hn⟩) (iblk4 V c 1 ⟨n + 1, hn⟩) (outsAt4 c n (Nat.lt_of_succ_lt hn)).2)

/-- `outsAt4` at a first reduction step. -/
theorem outsAt4_A (c : Dev nD) (t : Fin cfg4.N) (h0 : t.val % 8 = 0) (h1 : ¬t.val % 8 = 7) :
    outsAt4 V c t.val t.isLt = (out4_A_2 c (grid4.coords t) (ms4_0 t) (hs4_0 t) (ms4_1 t) (hs4_1 t) (ms4_2 t) (hs4_2 t) scM4_0 (Memref.isWhole_whole _) ((hcond4_0 t).mpr h0) (fun h => h1 ((hcond4_1 t).mp h)) (iblk4 V c 0 t) (iblk4 V c 1 t), sout4_A_0 c (grid4.coords t) (ms4_0 t) (hs4_0 t) (ms4_1 t) (hs4_1 t) (ms4_2 t) (hs4_2 t) scM4_0 (Memref.isWhole_whole _) ((hcond4_0 t).mpr h0) (fun h => h1 ((hcond4_1 t).mp h)) (iblk4 V c 0 t) (iblk4 V c 1 t)) := by
  obtain ⟨n, hn⟩ := t
  cases n with
  | zero => exact rfl
  | succ n => exact (dif_pos h0).trans ((dif_neg h1).trans rfl)

/-- `outsAt4` at a middle reduction step: over what the point before left. -/
theorem outsAt4_B (c : Dev nD) (t : Fin cfg4.N) (h0 : ¬t.val % 8 = 0) (h1 : ¬t.val % 8 = 7) :
    outsAt4 V c t.val t.isLt = (out4_B_2 c (grid4.coords t) (ms4_0 t) (hs4_0 t) (ms4_1 t) (hs4_1 t) (ms4_2 t) (hs4_2 t) scM4_0 (Memref.isWhole_whole _) (fun h => h0 ((hcond4_0 t).mp h)) (fun h => h1 ((hcond4_1 t).mp h)) (iblk4 V c 0 t) (iblk4 V c 1 t) (outsAt4 V c (t.val - 1) (Nat.lt_of_le_of_lt (Nat.sub_le _ _) t.isLt)).2, sout4_B_0 c (grid4.coords t) (ms4_0 t) (hs4_0 t) (ms4_1 t) (hs4_1 t) (ms4_2 t) (hs4_2 t) scM4_0 (Memref.isWhole_whole _) (fun h => h0 ((hcond4_0 t).mp h)) (fun h => h1 ((hcond4_1 t).mp h)) (iblk4 V c 0 t) (iblk4 V c 1 t) (outsAt4 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt4` at a last reduction step: over what the point before left. -/
theorem outsAt4_C (c : Dev nD) (t : Fin cfg4.N) (h0 : ¬t.val % 8 = 0) (h1 : t.val % 8 = 7) :
    outsAt4 V c t.val t.isLt = (out4_C_2 c (grid4.coords t) (ms4_0 t) (hs4_0 t) (ms4_1 t) (hs4_1 t) (ms4_2 t) (hs4_2 t) scM4_0 (Memref.isWhole_whole _) (fun h => h0 ((hcond4_0 t).mp h)) ((hcond4_1 t).mpr h1) (iblk4 V c 0 t) (iblk4 V c 1 t) (outsAt4 V c (t.val - 1) (Nat.lt_of_le_of_lt (Nat.sub_le _ _) t.isLt)).2, sout4_C_0 c (grid4.coords t) (ms4_0 t) (hs4_0 t) (ms4_1 t) (hs4_1 t) (ms4_2 t) (hs4_2 t) scM4_0 (Memref.isWhole_whole _) (fun h => h0 ((hcond4_0 t).mp h)) ((hcond4_1 t).mpr h1) (iblk4 V c 0 t) (iblk4 V c 1 t) (outsAt4 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region invariant, carrying the accumulator -/

/-- Before the first point the entry invariant; after point `n` the accumulator at what that point left, the other
    scoped buffers unopened, the generator register at some state. -/
def PhiS4 (c : Dev nD) : (n : ℕ) → n ≤ cfg4.N → sProp 𝕄
  | 0, _ => Pipeline.ΦA spec4 c
  | n + 1, hn => iprop(iprop(iprop(owns (c : Thread nD τ) scM4_0 fullShare ((outsAt4 V c n hn).2)) ∗ rest4 (F := F) c) ∗ (∃ r, prngReg c r))

theorem PhiS4_zero (c : Dev nD) (n : ℕ) (h : n ≤ cfg4.N) (hz : n = 0) : PhiS4 V c n h = Pipeline.ΦA spec4 c := by
  subst hz; rfl

theorem PhiS4_succ (c : Dev nD) (n : ℕ) (hn : n < cfg4.N) :
    PhiS4 V c (n + 1) hn = iprop(iprop(iprop(owns (c : Thread nD τ) scM4_0 fullShare ((outsAt4 V c n hn).2)) ∗ rest4 (F := F) c) ∗ (∃ r, prngReg c r)) := rfl

theorem PhiS4_pos (c : Dev nD) (n : ℕ) (h : n ≤ cfg4.N) (hz : n ≠ 0) :
    PhiS4 V c n h = iprop(iprop(iprop(owns (c : Thread nD τ) scM4_0 fullShare ((outsAt4 V c (n - 1) (by omega)).2)) ∗ rest4 (F := F) c) ∗ (∃ r, prngReg c r)) := by
  cases n with
  | zero => exact absurd rfl hz
  | succ n => rfl

/-! ## The pipeline's proof data -/

/-- The proof data of this region on core `c`: the arrays as the region finds them; after the body at point `t`
    each operand's buffer at its block and the result's at `outsAt4`; the invariant `PhiS4`; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => (outsAt4 V c t.val t.isLt).1
  Φ t := PhiS4 V c t.val (Nat.le_of_lt_succ t.isLt)
  q _ := fullShare
  owed _ := 0

theorem A_eq4 (c : Dev nD) (w : Fin cfg4.W) : (dat4 V c).A w = V c (Pipeline.arrRef spec4 w) := by
  dsimp only [dat4]

theorem PhiS4_castSucc (c : Dev nD) (t : Fin cfg4.N) :
    (dat4 V c).Φ t.castSucc = PhiS4 V c t.val (Nat.le_of_lt t.isLt) := by
  dsimp only [dat4]; simp only [Fin.coe_castSucc]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = (outsAt4 V c t.val t.isLt).1 := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d

/-! ## The body obligation, at a generic point -/

def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d)))

def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t)

set_option maxHeartbeats 4800000 in
/-- The body at any point: the operands' memrefs hold their blocks; the closed forms say which case the point is in;
    the invariant hands the body the accumulator at what the point before left (at anything at the first point) and
    takes it back at this point's contents; the other scoped buffers, the generator register and the core's debts
    pass through. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).owesAt () t.succ = (dat4 V c).owesAt () t.castSucc from rfl]
  rw [show (dat4 V c).Φ t.succ = PhiS4 V c (t.val + 1) t.isLt from rfl, PhiS4_succ]
  have hN : t.val < 32 := lt_of_lt_of_eq t.isLt (show cfg4.N = 32 from N_4)
  by_cases h0 : t.val % 8 = 0
  · by_cases h1 : t.val % 8 = 7
    · exfalso; omega
    ·
      rw [show (dat4 V c).leavesExact 0 t = owns (c : Thread nD τ) (ms4_0 t) fullShare ((dat4 V c).after 0 t) from by
        unfold Dat.leavesExact; rw [liveAt4_0 t], after4_0]
      rw [show (dat4 V c).leavesExact 1 t = owns (c : Thread nD τ) (ms4_1 t) fullShare ((dat4 V c).after 1 t) from by
        unfold Dat.leavesExact; rw [liveAt4_1 t], after4_1]
      rw [Dat.leavesExact_idle (dat4 V c) 2 t (idleAt4_2_A t ((hcond4_0 t).mpr h0) (fun h => h1 ((hcond4_1 t).mp h))) (noFlush4_2_A t ((hcond4_0 t).mpr h0) (fun h => h1 ((hcond4_1 t).mp h)))]
      rw [outsAt4_A V c t h0 h1]
      unfold sout4_A_0; (try dsimp only)
      by_cases hz : t.val = 0
      · rw [PhiS4_castSucc V c t, PhiS4_zero V c _ _ hz, PhiA4_eq]
        iintro ⟨⟨⟨HS0, Hr⟩, Hg⟩, Ho, ⟨%d0, H0⟩, ⟨%d1, H1⟩, ⟨%d2, H2⟩⟩
        iapply ((kernelRun4_A c (grid4.coords t) _ _ _ _ _ _ _ _ ((hcond4_0 t).mpr h0) (fun h => h1 ((hcond4_1 t).mp h)) (iblk4 V c 0 t) (iblk4 V c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover4_A_0 c _ _ _ _ _ _ _ _ _ _ _ _ _)
            iexact Hr
          iexact Hg
        isplitl [Ho]; · iexact Ho
        isplitl [H0]; · iexact H0
        isplitl [H1]; · iexact H1
        iexists _; iexact H2
      · rw [PhiS4_castSucc V c t, PhiS4_pos V c _ _ hz]
        iintro ⟨⟨⟨HS0, Hr⟩, Hg⟩, Ho, ⟨%d0, H0⟩, ⟨%d1, H1⟩, ⟨%d2, H2⟩⟩
        iapply ((kernelRun4_A c (grid4.coords t) _ _ _ _ _ _ _ _ ((hcond4_0 t).mpr h0) (fun h => h1 ((hcond4_1 t).mp h)) (iblk4 V c 0 t) (iblk4 V c 1 t)).2.2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover4_A_0 c _ _ _ _ _ _ _ _ _ _ _ _ _)
            iexact Hr
          iexact Hg
        isplitl [Ho]; · iexact Ho
        isplitl [H0]; · iexact H0
        isplitl [H1]; · iexact H1
        iexists _; iexact H2
  · by_cases h1 : t.val % 8 = 7
    ·
      rw [show (dat4 V c).leavesExact 0 t = owns (c : Thread nD τ) (ms4_0 t) fullShare ((dat4 V c).after 0 t) from by
        unfold Dat.leavesExact; rw [liveAt4_0 t], after4_0]
      rw [show (dat4 V c).leavesExact 1 t = owns (c : Thread nD τ) (ms4_1 t) fullShare ((dat4 V c).after 1 t) from by
        unfold Dat.leavesExact; rw [liveAt4_1 t], after4_1]
      rw [show (dat4 V c).leavesExact 2 t = owns (c : Thread nD τ) (ms4_2 t) fullShare ((dat4 V c).after 2 t) from by
        unfold Dat.leavesExact; rw [liveAt4_2_C t (fun h => h0 ((hcond4_0 t).mp h)) ((hcond4_1 t).mpr h1)], after4_2]
      rw [outsAt4_C V c t h0 h1]
      unfold out4_C_2 sout4_C_0; (try dsimp only)
      by_cases hz : t.val = 0
      · exfalso; omega
      · rw [PhiS4_castSucc V c t, PhiS4_pos V c _ _ hz]
        iintro ⟨⟨⟨HS0, Hr⟩, Hg⟩, Ho, ⟨%d0, H0⟩, ⟨%d1, H1⟩, ⟨%d2, H2⟩⟩
        iapply ((kernelRun4_C c (grid4.coords t) _ _ _ _ _ _ _ _ (fun h => h0 ((hcond4_0 t).mp h)) ((hcond4_1 t).mpr h1) (iblk4 V c 0 t) (iblk4 V c 1 t) _).2.2 Set.univ _)
        isplitl [H0]; · iexact H0
        isplitl [H1]; · iexact H1
        isplitl [H2]; · iexists _; iexact H2
        isplitl [HS0]; · iexact HS0
        iintro ⟨H0, H1, ⟨%e2, H2⟩, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover4_C_0 c _ _ _ _ _ _ _ _ _ _ _ _ _ _)
            iexact Hr
          iexact Hg
        isplitl [Ho]; · iexact Ho
        isplitl [H0]; · iexact H0
        isplitl [H1]; · iexact H1
        unfold owns; iexists _; isplitr
        swap; · iexact H2
        ipureintro; exact View.read_writes_of_cover _ _ _ _ _ (cover4_C_2 c _ _ _ _ _ _ _ _ _ _ _ _ _ _)
    ·
      rw [show (dat4 V c).leavesExact 0 t = owns (c : Thread nD τ) (ms4_0 t) fullShare ((dat4 V c).after 0 t) from by
        unfold Dat.leavesExact; rw [liveAt4_0 t], after4_0]
      rw [show (dat4 V c).leavesExact 1 t = owns (c : Thread nD τ) (ms4_1 t) fullShare ((dat4 V c).after 1 t) from by
        unfold Dat.leavesExact; rw [liveAt4_1 t], after4_1]
      rw [Dat.leavesExact_idle (dat4 V c) 2 t (idleAt4_2_B t (fun h => h0 ((hcond4_0 t).mp h)) (fun h => h1 ((hcond4_1 t).mp h))) (noFlush4_2_B t (fun h => h0 ((hcond4_0 t).mp h)) (fun h => h1 ((hcond4_1 t).mp h)))]
      rw [outsAt4_B V c t h0 h1]
      unfold sout4_B_0; (try dsimp only)
      by_cases hz : t.val = 0
      · exfalso; omega
      · rw [PhiS4_castSucc V c t, PhiS4_pos V c _ _ hz]
        iintro ⟨⟨⟨HS0, Hr⟩, Hg⟩, Ho, ⟨%d0, H0⟩, ⟨%d1, H1⟩, ⟨%d2, H2⟩⟩
        iapply ((kernelRun4_B c (grid4.coords t) _ _ _ _ _ _ _ _ (fun h => h0 ((hcond4_0 t).mp h)) (fun h => h1 ((hcond4_1 t).mp h)) (iblk4 V c 0 t) (iblk4 V c 1 t) _).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover4_B_0 c _ _ _ _ _ _ _ _ _ _ _ _ _ _)
            iexact Hr
          iexact Hg
        isplitl [Ho]; · iexact Ho
        isplitl [H0]; · iexact H0
        isplitl [H1]; · iexact H1
        iexists _; iexact H2

/-- The library's body obligation, at every point. -/
theorem body_obligation4 (c : Dev nD) : BodyObligation (dat4 (F := F) V c) (defs₀ (F := F)) Variants.none () Set.univ := fun t => by
  rw [bigSep_W4, bigSep_W4]
  exact sound_body4 V c t

/-- What the launch hands the region is the invariant before the first point. -/
theorem hin4 (c : Dev nD) : Pipeline.ΦA spec4 c ⊢ (dat4 V c).Φ 0 := by
  rw [show (dat4 V c).Φ 0 = PhiS4 V c 0 (Nat.zero_le _) from rfl, PhiS4_zero V c 0 _ rfl]
  try exact Idealize.SL.BI.Entails.refl _

/-- After any point but the first the invariant gives the entry invariant back: the accumulator's contents are forgotten. -/
theorem Phi_out4 (c : Dev nD) (t : Fin (cfg4.N + 1)) (ht : t.val ≠ 0) : (dat4 V c).Φ t ⊢ Pipeline.ΦA spec4 c := by
  rw [show (dat4 V c).Φ t = PhiS4 V c t.val (Nat.le_of_lt_succ t.isLt) from rfl, PhiS4_pos V c _ _ ht, PhiA4_eq]
  iintro ⟨⟨HS0, Hr⟩, Hg⟩
  isplitl [HS0 Hr]
  · isplitl [HS0]
    · iexists _; iexact HS0
    iexact Hr
  iexact Hg

/-- The same after the last point. -/
theorem hout4 (c : Dev nD) : (dat4 V c).Φ (Fin.last cfg4.N) ⊢ Pipeline.ΦA spec4 c :=
  Phi_out4 V c _ (by rw [Fin.val_last]; have : cfg4.N = 32 := N_4; omega)

end Cert.Kernel.Gen
end
-- ==== Proof.KernelH.Reg5.lean ====
import proofs.«157173_j56882546868342_2_alg».proof.Proof.KernelH.Launch
import proofs.«157173_j56882546868342_2_alg».proof.Proof.Gen.Kernel.Skeleton
import proofs.«157173_j56882546868342_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 5: the product of `main_v35` and `main_v30`, plus `main_v34`, rectified, into `main_v36`; one block of the contraction axis per point -/

/-! ## The windows' blocks -/

/-- Window `w`'s block at point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's current staging buffer holds its block at every point, for any proof data whose array is the
    entry contents and whose body leaves the block in place. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1 is fetched at the first point only: its block index does not move, so the buffer keeps the block. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- Input window 2 (the added operand) likewise. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-! ## The body's branch conditions: the contraction axis has one block, so both hold at every point -/

/-- The first conditional: the point is the first along the contraction axis. -/
abbrev cond5_0 (i : grid5.Coords) : Prop := (Scalar.cmpi .ne (Scalar.extui (Scalar.cmpi .eq (BitVec.ofNat 32 (i 2).val) 0#32)) 0#32) = 1#1
theorem hcond5_0 : ∀ t : Fin cfg5.N, cond5_0 (grid5.coords t) :=
  (by decide +kernel : ∀ t : Fin grid5.N, cond5_0 (grid5.coords t))

/-- The second conditional: the point is the last along the contraction axis. -/
abbrev cond5_1 (i : grid5.Coords) : Prop := k5_cond2 i = 1#1
theorem hcond5_1 : ∀ t : Fin cfg5.N, cond5_1 (grid5.coords t) :=
  (by decide +kernel : ∀ t : Fin grid5.N, cond5_1 (grid5.coords t))

/-! ## No window is idle at any point -/

theorem liveAt5_0 : ∀ t : Fin cfg5.N, cfg5.idle 0 (grid5.coords t) = false := by decide +kernel
theorem liveAt5_1 : ∀ t : Fin cfg5.N, cfg5.idle 1 (grid5.coords t) = false := by decide +kernel
theorem liveAt5_2 : ∀ t : Fin cfg5.N, cfg5.idle 2 (grid5.coords t) = false := by decide +kernel
theorem liveAt5_3 : ∀ t : Fin cfg5.N, cfg5.idle 3 (grid5.coords t) = false := by decide +kernel

/-! ## The staging and scratch memrefs -/

/-- One staging buffer of the output window, through which its contents are stated. -/
abbrev VO5_3 : View sig .tc .vmem S1024x512 .bf16 := (Memref.whole cc5_stg3_0 : Memref sig .tc .vmem S1024x512 .bf16).view
abbrev ms5_0 (t : Fin cfg5.N) : Memref sig .tc .vmem S1024x512 .bf16 := win5_0.stage (cfg5.slots t 0)
abbrev hs5_0 (t : Fin cfg5.N) : (ms5_0 t).IsWhole := hstage5_0 ((cfg5.slots t 0).cast nbuf5_0)
abbrev ms5_1 (t : Fin cfg5.N) : Memref sig .tc .vmem S512x512 .bf16 := win5_1.stage (cfg5.slots t 1)
abbrev hs5_1 (t : Fin cfg5.N) : (ms5_1 t).IsWhole := hstage5_1 ((cfg5.slots t 1).cast nbuf5_1)
abbrev ms5_2 (t : Fin cfg5.N) : Memref sig .tc .vmem S1024x512 .bf16 := win5_2.stage (cfg5.slots t 2)
abbrev hs5_2 (t : Fin cfg5.N) : (ms5_2 t).IsWhole := hstage5_2 ((cfg5.slots t 2).cast nbuf5_2)
abbrev ms5_3 (t : Fin cfg5.N) : Memref sig .tc .vmem S1024x512 .bf16 := win5_3.stage (cfg5.slots t 3)
abbrev hs5_3 (t : Fin cfg5.N) : (ms5_3 t).IsWhole := hstage5_3 ((cfg5.slots t 3).cast nbuf5_3)
/-- The accumulator: a whole scoped buffer of the kernel's own. -/
abbrev scM5_0 : Memref sig .tc .vmem S1024x512 .f32 := Memref.whole cc5_scratch0
abbrev VS5_0 : View sig .tc .vmem S1024x512 .f32 := scM5_0.view

/-- The region's invariant with the accumulator as a memref owned at some contents, the other scoped buffers unopened. -/
theorem PhiA5_eq (c : Dev nD) :
    (Pipeline.ΦA spec5 c : sProp 𝕄)
      = iprop(iprop(iprop((∃ d, owns (c : Thread nD τ) scM5_0 fullShare d))
          ∗ Pipeline.scopedRestBut (Ix := Unit) (Name := ℕ) (U := UR sig nD τ) (Lvl := ℕ) (Val := Elt F) spec5 c [cc5_scratch0]) ∗ (∃ r, prngReg c r)) := by
  unfold Pipeline.ΦA; rw [scopedRest5_split]; simp only [scM5_0, owns_whole]; try rfl

/-! ## The body's run -/

set_option maxHeartbeats 1000000 in
/-- What the body's store leaves in the output's staging memref, as pieces, with the proof that on whole memrefs —
    the inputs' at their contents, the output's and the accumulator's at anything — the body runs to the
    continuation holding the inputs' as they were, the output's with its pieces written, the accumulator at some
    contents: it is zeroed, the block product is added, and the sum plus the added operand, rectified, is rounded
    into the output. -/
noncomputable def kernelRun5_A (c : Dev nD) (i : grid5.Coords) (arg3 : Memref sig .tc .vmem S1024x512 .bf16) (harg3 : arg3.IsWhole) (arg4 : Memref sig .tc .vmem S512x512 .bf16) (harg4 : arg4.IsWhole) (arg5 : Memref sig .tc .vmem S1024x512 .bf16) (harg5 : arg5.IsWhole) (arg6 : Memref sig .tc .vmem S1024x512 .bf16) (harg6 : arg6.IsWhole) (arg7 : Memref sig .tc .vmem S1024x512 .f32) (harg7 : arg7.IsWhole) (hc0 : cond5_0 i) (hc1 : cond5_1 i)
    (x0 : Vec F S1024x512 .bf16) (x1 : Vec F S512x512 .bf16) (x2 : Vec F S1024x512 .bf16) :
    { L3 : List (View.Piece (Elt F) S1024x512 .bf16) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ d, owns (c : Thread nD τ) arg7 fullShare d)) -∗ K ⟨⟩))
          ⊢ wp frame (wpE (defs₀ (F := F)) Variants.none c none) E (cc5__mm_add_relu_kernel i arg3 harg3 arg4 harg4 arg5 harg5 arg6 harg6 arg7 harg7) K } := by
  refine ⟨?_, fun E K => ?run⟩
  case run =>
    simp only [cc5__mm_add_relu_kernel_eq_skeleton]; unfold cc5__mm_add_relu_kernel_skel
    unfold owns
    iintro ⟨⟨%f0, %hf0, H0⟩, ⟨%f1, %hf1, H1⟩, ⟨%f2, %hf2, H2⟩, ⟨%d3, %f3, -, H3⟩, ⟨%ds0, %fs0, -, HS0⟩, Hk⟩
    obtain rfl := harg3.eq_unread hf0; obtain rfl := harg4.eq_unread hf1; obtain rfl := harg5.eq_unread hf2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexists _; isplitr
    swap; · iexact HS0
    ipureintro; rfl

/-! ## What the body leaves in the output's buffer -/

/-- The output's pieces tile its block (one store of the whole block), so they cover it. -/
theorem cover5_A_3 (c : Dev nD) (i : grid5.Coords) (arg3 : Memref sig .tc .vmem S1024x512 .bf16) (harg3 : arg3.IsWhole) (arg4 : Memref sig .tc .vmem S512x512 .bf16) (harg4 : arg4.IsWhole) (arg5 : Memref sig .tc .vmem S1024x512 .bf16) (harg5 : arg5.IsWhole) (arg6 : Memref sig .tc .vmem S1024x512 .bf16) (harg6 : arg6.IsWhole) (arg7 : Memref sig .tc .vmem S1024x512 .f32) (harg7 : arg7.IsWhole) (hc0 : cond5_0 i) (hc1 : cond5_1 i)
    (x0 : Vec F S1024x512 .bf16) (x1 : Vec F S512x512 .bf16) (x2 : Vec F S1024x512 .bf16) (y : S1024x512.Idx) :
    ∃ pc ∈ (kernelRun5_A c i arg3 harg3 arg4 harg4 arg5 harg5 arg6 harg6 arg7 harg7 hc0 hc1 x0 x1 x2).1, y ∈ pc.1.set :=
  View.cover_of_tiledL (kernelRun5_A c i arg3 harg3 arg4 harg4 arg5 harg5 arg6 harg6 arg7 harg7 hc0 hc1 x0 x1 x2).1 S1024x512.size (by sl_kernel_rfl) y

/-- What the body leaves in the output's staging buffer: its pieces read back over junk. -/
def out5_A_3 (c : Dev nD) (i : grid5.Coords) (arg3 : Memref sig .tc .vmem S1024x512 .bf16) (harg3 : arg3.IsWhole) (arg4 : Memref sig .tc .vmem S512x512 .bf16) (harg4 : arg4.IsWhole) (arg5 : Memref sig .tc .vmem S1024x512 .bf16) (harg5 : arg5.IsWhole) (arg6 : Memref sig .tc .vmem S1024x512 .bf16) (harg6 : arg6.IsWhole) (arg7 : Memref sig .tc .vmem S1024x512 .f32) (harg7 : arg7.IsWhole) (hc0 : cond5_0 i) (hc1 : cond5_1 i)
    (x0 : Vec F S1024x512 .bf16) (x1 : Vec F S512x512 .bf16) (x2 : Vec F S1024x512 .bf16) : Vec F S1024x512 .bf16 :=
  VO5_3.read (Elt F) (VO5_3.writes (Elt F) VO5_3.junk (kernelRun5_A c i arg3 harg3 arg4 harg4 arg5 harg5 arg6 harg6 arg7 harg7 hc0 hc1 x0 x1 x2).1)

/-- What the output's staging buffer holds after the body at position `n`: the one case, run at the point's memrefs
    and input blocks (the accumulator is zeroed at every point, so nothing of the point before enters). -/
def outsAt5 (c : Dev nD) (n : ℕ) (hn : n < cfg5.N) : Vec F S1024x512 .bf16 :=
  out5_A_3 c (grid5.coords ⟨n, hn⟩) (ms5_0 ⟨n, hn⟩) (hs5_0 ⟨n, hn⟩) (ms5_1 ⟨n, hn⟩) (hs5_1 ⟨n, hn⟩) (ms5_2 ⟨n, hn⟩) (hs5_2 ⟨n, hn⟩) (ms5_3 ⟨n, hn⟩) (hs5_3 ⟨n, hn⟩) scM5_0 (Memref.isWhole_whole _) (hcond5_0 ⟨n, hn⟩) (hcond5_1 ⟨n, hn⟩) (iblk5 V c 0 ⟨n, hn⟩) (iblk5 V c 1 ⟨n, hn⟩) (iblk5 V c 2 ⟨n, hn⟩)

/-- `outsAt5` at a point: the case's contents. -/
theorem outsAt5_A (c : Dev nD) (t : Fin cfg5.N) :
    outsAt5 V c t.val t.isLt = out5_A_3 c (grid5.coords t) (ms5_0 t) (hs5_0 t) (ms5_1 t) (hs5_1 t) (ms5_2 t) (hs5_2 t) (ms5_3 t) (hs5_3 t) scM5_0 (Memref.isWhole_whole _) (hcond5_0 t) (hcond5_1 t) (iblk5 V c 0 t) (iblk5 V c 1 t) (iblk5 V c 2 t) := rfl

/-! ## The pipeline's proof data -/

/-- The proof data of the pipeline on core `c`: the arrays as the region finds them; after the body at point `t` each
    input's buffer at its block and the output's at `outsAt5`; the invariant the scoped rest and the generator
    register (the accumulator at anything: every point zeroes it first); nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => outsAt5 V c t.val t.isLt
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = outsAt5 V c t.val t.isLt := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d

/-! ## The body obligation, at a generic point -/

def bodyPre5 (c : Dev nD) (t : Fin cfg5.N) : sProp 𝕄 :=
  iprop((dat5 V c).Φ t.castSucc ∗ (dat5 V c).owesAt () t.castSucc
    ∗ (∃ d, owns (c : Thread nD τ) (ms5_0 t) fullShare ((dat5 V c).before 0 t d))
    ∗ (∃ d, owns (c : Thread nD τ) (ms5_1 t) fullShare ((dat5 V c).before 1 t d))
    ∗ (∃ d, owns (c : Thread nD τ) (ms5_2 t) fullShare ((dat5 V c).before 2 t d))
    ∗ (∃ d, owns (c : Thread nD τ) (ms5_3 t) fullShare ((dat5 V c).before 3 t d)))

def bodyPost5 (c : Dev nD) (t : Fin cfg5.N) : sProp 𝕄 :=
  iprop((dat5 V c).Φ t.succ ∗ (dat5 V c).owesAt () t.succ
    ∗ (dat5 V c).leavesExact 0 t
    ∗ (dat5 V c).leavesExact 1 t
    ∗ (dat5 V c).leavesExact 2 t
    ∗ (dat5 V c).leavesExact 3 t)

set_option maxHeartbeats 4800000 in
/-- The body at any point: the inputs' memrefs hold their blocks, both conditions hold, so the run applies; the
    invariant hands the body the accumulator at anything and takes it back at anything; the core owes nothing. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2]
  rw [show (dat5 V c).owesAt () t.succ = (dat5 V c).owesAt () t.castSucc from rfl]
  rw [show (dat5 V c).Φ t.succ = Pipeline.ΦA spec5 c from rfl, show (dat5 V c).Φ t.castSucc = Pipeline.ΦA spec5 c from rfl, PhiA5_eq]
  rw [show (dat5 V c).leavesExact 0 t = owns (c : Thread nD τ) (ms5_0 t) fullShare ((dat5 V c).after 0 t) from by
    unfold Dat.leavesExact; rw [liveAt5_0 t], after5_0]
  rw [show (dat5 V c).leavesExact 1 t = owns (c : Thread nD τ) (ms5_1 t) fullShare ((dat5 V c).after 1 t) from by
    unfold Dat.leavesExact; rw [liveAt5_1 t], after5_1]
  rw [show (dat5 V c).leavesExact 2 t = owns (c : Thread nD τ) (ms5_2 t) fullShare ((dat5 V c).after 2 t) from by
    unfold Dat.leavesExact; rw [liveAt5_2 t], after5_2]
  rw [show (dat5 V c).leavesExact 3 t = owns (c : Thread nD τ) (ms5_3 t) fullShare ((dat5 V c).after 3 t) from by
    unfold Dat.leavesExact; rw [liveAt5_3 t], after5_3]
  rw [outsAt5_A V c t]
  unfold out5_A_3; (try dsimp only)
  iintro ⟨⟨⟨HS0, Hr⟩, Hg⟩, Ho, ⟨%d0, H0⟩, ⟨%d1, H1⟩, ⟨%d2, H2⟩, ⟨%d3, H3⟩⟩
  iapply ((kernelRun5_A c (grid5.coords t) _ _ _ _ _ _ _ _ _ _ (hcond5_0 t) (hcond5_1 t) (iblk5 V c 0 t) (iblk5 V c 1 t) (iblk5 V c 2 t)).2 Set.univ _)
  isplitl [H0]; · iexact H0
  isplitl [H1]; · iexact H1
  isplitl [H2]; · iexact H2
  isplitl [H3]; · iexists _; iexact H3
  isplitl [HS0]; · iexact HS0
  iintro ⟨H0, H1, H2, ⟨%e3, H3⟩, HS0⟩
  isplitl [HS0 Hr Hg]
  · isplitl [HS0 Hr]
    · isplitl [HS0]; · iexact HS0
      iexact Hr
    iexact Hg
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (cover5_A_3 c _ _ _ _ _ _ _ _ _ _ _ _ _ _ _ _)

/-- The library's body obligation, at every point. -/
theorem body_obligation5 (c : Dev nD) : BodyObligation (dat5 (F := F) V c) (defs₀ (F := F)) Variants.none () Set.univ := fun t => by
  rw [bigSep_W5, bigSep_W5]
  exact sound_body5 V c t

/-- What the launch hands the region is the invariant before the first point. -/
theorem hin5 (c : Dev nD) : Pipeline.ΦA spec5 c ⊢ (dat5 V c).Φ 0 := Idealize.SL.BI.Entails.refl _

/-- After the last point the invariant is what the launch takes back. -/
theorem hout5 (c : Dev nD) : (dat5 V c).Φ (Fin.last cfg5.N) ⊢ Pipeline.ΦA spec5 c := Idealize.SL.BI.Entails.refl _

end Cert.Kernel.Gen

end
-- ==== Proof.KernelH.Reg6.lean ====
import proofs.«157173_j56882546868342_2_alg».proof.Proof.KernelH.Launch
import proofs.«157173_j56882546868342_2_alg».proof.Proof.Gen.Kernel.Skeleton
import proofs.«157173_j56882546868342_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384
noncomputable section
namespace Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

/-! # Region 6: the blocked matrix product main_v37 = main_v4 · main_v5, grid (4, 1, 2)

The grid point (i, j, k) reads the block (i, k) of the left operand and the block (k, j) of the right one and adds
their product into an accumulator the kernel keeps between points: zeroed where k = 0, written out (rounded to the
output's element type) where k = 1. Everything here is generic in the float model. -/

/-! ## The windows' blocks -/

/-- Window w's block at point t, read off its array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- An input window's current staging buffer holds its block at every point, for any proof data whose array is the
    region-entry contents and whose body leaves the block in place. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-! ## The body's two conditions, decided over the grid -/

/-- The first condition (k = 0), from the grid coordinates. -/
abbrev cond6_0 (i : grid6.Coords) : Prop := (Scalar.cmpi .ne (Scalar.extui (Scalar.cmpi .eq (BitVec.ofNat 32 (i 2).val) 0#32)) 0#32) = 1#1
/-- It holds at the even points. -/
theorem hcond6_0 : ∀ t : Fin cfg6.N, cond6_0 (grid6.coords t) ↔ t.val % 2 = 0 :=
  (by decide +kernel : ∀ t : Fin grid6.N, cond6_0 (grid6.coords t) ↔ t.val % 2 = 0)

/-- The second condition (k = 1, the last block of the contraction). -/
abbrev cond6_1 (i : grid6.Coords) : Prop := k6_cond2 i = 1#1
/-- It holds at the odd points. -/
theorem hcond6_1 : ∀ t : Fin cfg6.N, cond6_1 (grid6.coords t) ↔ t.val % 2 = 1 :=
  (by decide +kernel : ∀ t : Fin grid6.N, cond6_1 (grid6.coords t) ↔ t.val % 2 = 1)

/-- An even point is in case A: first block, not the last. -/
theorem hA6 (t : Fin cfg6.N) (h0 : t.val % 2 = 0) : cond6_0 (grid6.coords t) ∧ ¬cond6_1 (grid6.coords t) :=
  ⟨(hcond6_0 t).mpr h0, fun h => by have := (hcond6_1 t).mp h; omega⟩
/-- An odd point is in case C: last block, not the first. (With two blocks no point is in the middle case.) -/
theorem hC6 (t : Fin cfg6.N) (h0 : ¬t.val % 2 = 0) : ¬cond6_0 (grid6.coords t) ∧ cond6_1 (grid6.coords t) :=
  ⟨fun h => h0 ((hcond6_0 t).mp h), (hcond6_1 t).mpr (by omega)⟩

/-! ## Where the windows are idle -/

theorem liveAt6_0 : ∀ t : Fin cfg6.N, cfg6.idle 0 (grid6.coords t) = false := by decide +kernel
theorem liveAt6_1 : ∀ t : Fin cfg6.N, cfg6.idle 1 (grid6.coords t) = false := by decide +kernel
/-- In case A the output is idle: nothing is stored into it, -/
theorem idleAt6_2_A : ∀ t : Fin cfg6.N, cond6_0 (grid6.coords t) → ¬cond6_1 (grid6.coords t) → cfg6.idle 2 (grid6.coords t) = true := by decide +kernel
/-- and its block is not written back there. -/
theorem noFlush6_2_A : ∀ t : Fin cfg6.N, cond6_0 (grid6.coords t) → ¬cond6_1 (grid6.coords t) → (cfg6.win 2).flush t = false := by decide +kernel
/-- In case C the output is live. -/
theorem liveAt6_2_C : ∀ t : Fin cfg6.N, ¬cond6_0 (grid6.coords t) → cond6_1 (grid6.coords t) → cfg6.idle 2 (grid6.coords t) = false := by decide +kernel

/-! ## The memrefs the body is called with -/

/-- One staging buffer of the output window, through which its contents are stated. -/
abbrev VO6_2 : View sig .tc .vmem S1024x512 .bf16 := (Memref.whole cc6_stg2_0 : Memref sig .tc .vmem S1024x512 .bf16).view
abbrev ms6_0 (t : Fin cfg6.N) : Memref sig .tc .vmem S1024x512 .bf16 := win6_0.stage (cfg6.slots t 0)
abbrev hs6_0 (t : Fin cfg6.N) : (ms6_0 t).IsWhole := hstage6_0 ((cfg6.slots t 0).cast nbuf6_0)
abbrev ms6_1 (t : Fin cfg6.N) : Memref sig .tc .vmem S512x512 .bf16 := win6_1.stage (cfg6.slots t 1)
abbrev hs6_1 (t : Fin cfg6.N) : (ms6_1 t).IsWhole := hstage6_1 ((cfg6.slots t 1).cast nbuf6_1)
abbrev ms6_2 (t : Fin cfg6.N) : Memref sig .tc .vmem S1024x512 .bf16 := win6_2.stage (cfg6.slots t 2)
abbrev hs6_2 (t : Fin cfg6.N) : (ms6_2 t).IsWhole := hstage6_2 ((cfg6.slots t 2).cast nbuf6_2)
/-- The accumulator: a whole scoped buffer of the kernel's own. -/
abbrev scM6_0 : Memref sig .tc .vmem S1024x512 .f32 := Memref.whole cc6_scratch0
abbrev VS6_0 : View sig .tc .vmem S1024x512 .f32 := scM6_0.view
/-- Every other scoped buffer of the core that is no staging buffer of this region: carried unopened. -/
abbrev rest6 (c : Dev nD) : sProp 𝕄 :=
  Pipeline.scopedRestBut (Ix := Unit) (Name := ℕ) (U := UR sig nD τ) (Lvl := ℕ) (Val := Elt F) spec6 c [cc6_scratch0]

/-- The class's invariant with the accumulator as a memref owned at some contents. -/
theorem PhiA6_eq (c : Dev nD) :
    (Pipeline.ΦA spec6 c : sProp 𝕄)
      = iprop(iprop((∃ d, owns (c : Thread nD τ) scM6_0 fullShare d) ∗ rest6 c) ∗ (∃ r, prngReg c r)) := by
  unfold Pipeline.ΦA; rw [scopedRest6_split]; simp only [scM6_0, owns_whole]; try rfl

/-! ## The body's run, case by case -/

set_option maxHeartbeats 1000000 in
/-- CASE A (k = 0): the accumulator, found at anything, is zeroed and then holds the first block product; the output's
    buffer is handed back untouched. The pieces written are what the run finds. -/
noncomputable def kernelRun6_A (c : Dev nD) (i : grid6.Coords) (arg3 : Memref sig .tc .vmem S1024x512 .bf16) (harg3 : arg3.IsWhole) (arg4 : Memref sig .tc .vmem S512x512 .bf16) (harg4 : arg4.IsWhole) (arg5 : Memref sig .tc .vmem S1024x512 .bf16) (harg5 : arg5.IsWhole) (arg6 : Memref sig .tc .vmem S1024x512 .f32) (harg6 : arg6.IsWhole) (hc0 : cond6_0 i) (hc1 : ¬cond6_1 i)
    (x0 : Vec F S1024x512 .bf16) (x1 : Vec F S512x512 .bf16) :
    Σ' (L2 : List (View.Piece (Elt F) S1024x512 .bf16)), { LS0 : List (View.Piece (Elt F) S1024x512 .f32) //
      ∀ (xi2 : Vec F S1024x512 .bf16) (E : Set ℕ) (K : PUnit → sProp 𝕄),
        iprop(owns (c : Thread nD τ) arg3 fullShare x0 ∗ owns (c : Thread nD τ) arg4 fullShare x1 ∗ owns (c : Thread nD τ) arg5 fullShare xi2 ∗ (∃ d, owns (c : Thread nD τ) arg6 fullShare d)
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc6__mm_kernel_nobias i arg3 harg3 arg4 harg4 arg5 harg5 arg6 harg6) K } := by
  refine ⟨[], ?_, fun xi2 E K => ?run⟩
  case run =>
    simp only [cc6__mm_kernel_nobias_eq_skeleton]; unfold cc6__mm_kernel_nobias_skel
    unfold owns
    iintro ⟨⟨%f0, %hf0, H0⟩, ⟨%f1, %hf1, H1⟩, ⟨%f2, %hf2, H2⟩, ⟨%ds0, %fs0, -, HS0⟩, Hk⟩
    obtain rfl := harg3.eq_unread hf0; obtain rfl := harg4.eq_unread hf1; obtain rfl := harg5.eq_unread hf2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

set_option maxHeartbeats 1000000 in
/-- CASE C (k = 1): the accumulator, found at what the point before left, gets the last block product added, and the
    output's buffer, found at anything, is stored whole with the accumulator rounded. -/
noncomputable def kernelRun6_C (c : Dev nD) (i : grid6.Coords) (arg3 : Memref sig .tc .vmem S1024x512 .bf16) (harg3 : arg3.IsWhole) (arg4 : Memref sig .tc .vmem S512x512 .bf16) (harg4 : arg4.IsWhole) (arg5 : Memref sig .tc .vmem S1024x512 .bf16) (harg5 : arg5.IsWhole) (arg6 : Memref sig .tc .vmem S1024x512 .f32) (harg6 : arg6.IsWhole) (hc0 : ¬cond6_0 i) (hc1 : cond6_1 i)
    (x0 : Vec F S1024x512 .bf16) (x1 : Vec F S512x512 .bf16) (xs0 : Vec F S1024x512 .f32) :
    Σ' (L2 : List (View.Piece (Elt F) S1024x512 .bf16)), { LS0 : List (View.Piece (Elt F) S1024x512 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xs0
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f LS0)) -∗ K ⟨⟩))
          ⊢ wp frame (wpE (defs₀ (F := F)) Variants.none c none) E (cc6__mm_kernel_nobias i arg3 harg3 arg4 harg4 arg5 harg5 arg6 harg6) K } := by
  refine ⟨?_, ?_, fun E K => ?run⟩
  case run =>
    simp only [cc6__mm_kernel_nobias_eq_skeleton]; unfold cc6__mm_kernel_nobias_skel
    unfold owns
    iintro ⟨⟨%f0, %hf0, H0⟩, ⟨%f1, %hf1, H1⟩, ⟨%d2, %f2, -, H2⟩, ⟨%fs0, %hfs0, HS0⟩, Hk⟩
    obtain rfl := harg3.eq_unread hf0; obtain rfl := harg4.eq_unread hf1; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexists _; iexact HS0

/-! ## What each case leaves: the pieces the runs found, and that they cover -/

/-- Case A stores nothing into the output: a placeholder nothing consults (the window is idle there). -/
def out6_A_2 (c : Dev nD) (i : grid6.Coords) (arg3 : Memref sig .tc .vmem S1024x512 .bf16) (harg3 : arg3.IsWhole) (arg4 : Memref sig .tc .vmem S512x512 .bf16) (harg4 : arg4.IsWhole) (arg5 : Memref sig .tc .vmem S1024x512 .bf16) (harg5 : arg5.IsWhole) (arg6 : Memref sig .tc .vmem S1024x512 .f32) (harg6 : arg6.IsWhole) (hc0 : cond6_0 i) (hc1 : ¬cond6_1 i)
    (x0 : Vec F S1024x512 .bf16) (x1 : Vec F S512x512 .bf16) : Vec F S1024x512 .bf16 :=
  VO6_2.read (Elt F) (VO6_2.writes (Elt F) VO6_2.junk (kernelRun6_A c i arg3 harg3 arg4 harg4 arg5 harg5 arg6 harg6 hc0 hc1 x0 x1).1)

/-- Case A's pieces for the accumulator cover it (two whole stores). -/
theorem scover6_A_0 (c : Dev nD) (i : grid6.Coords) (arg3 : Memref sig .tc .vmem S1024x512 .bf16) (harg3 : arg3.IsWhole) (arg4 : Memref sig .tc .vmem S512x512 .bf16) (harg4 : arg4.IsWhole) (arg5 : Memref sig .tc .vmem S1024x512 .bf16) (harg5 : arg5.IsWhole) (arg6 : Memref sig .tc .vmem S1024x512 .f32) (harg6 : arg6.IsWhole) (hc0 : cond6_0 i) (hc1 : ¬cond6_1 i)
    (x0 : Vec F S1024x512 .bf16) (x1 : Vec F S512x512 .bf16) (y : S1024x512.Idx) :
    ∃ pc ∈ (kernelRun6_A c i arg3 harg3 arg4 harg4 arg5 harg5 arg6 harg6 hc0 hc1 x0 x1).2.1, y ∈ pc.1.set :=
  View.cover_of_tiledL (kernelRun6_A c i arg3 harg3 arg4 harg4 arg5 harg5 arg6 harg6 hc0 hc1 x0 x1).2.1 S1024x512.size (by sl_kernel_rfl) y

/-- What case A leaves in the accumulator. -/
def sout6_A_0 (c : Dev nD) (i : grid6.Coords) (arg3 : Memref sig .tc .vmem S1024x512 .bf16) (harg3 : arg3.IsWhole) (arg4 : Memref sig .tc .vmem S512x512 .bf16) (harg4 : arg4.IsWhole) (arg5 : Memref sig .tc .vmem S1024x512 .bf16) (harg5 : arg5.IsWhole) (arg6 : Memref sig .tc .vmem S1024x512 .f32) (harg6 : arg6.IsWhole) (hc0 : cond6_0 i) (hc1 : ¬cond6_1 i)
    (x0 : Vec F S1024x512 .bf16) (x1 : Vec F S512x512 .bf16) : Vec F S1024x512 .f32 :=
  VS6_0.read (Elt F) (VS6_0.writes (Elt F) VS6_0.junk (kernelRun6_A c i arg3 harg3 arg4 harg4 arg5 harg5 arg6 harg6 hc0 hc1 x0 x1).2.1)

/-- Case C's piece for the output covers its block (one whole store). -/
theorem cover6_C_2 (c : Dev nD) (i : grid6.Coords) (arg3 : Memref sig .tc .vmem S1024x512 .bf16) (harg3 : arg3.IsWhole) (arg4 : Memref sig .tc .vmem S512x512 .bf16) (harg4 : arg4.IsWhole) (arg5 : Memref sig .tc .vmem S1024x512 .bf16) (harg5 : arg5.IsWhole) (arg6 : Memref sig .tc .vmem S1024x512 .f32) (harg6 : arg6.IsWhole) (hc0 : ¬cond6_0 i) (hc1 : cond6_1 i)
    (x0 : Vec F S1024x512 .bf16) (x1 : Vec F S512x512 .bf16) (xs0 : Vec F S1024x512 .f32) (y : S1024x512.Idx) :
    ∃ pc ∈ (kernelRun6_C c i arg3 harg3 arg4 harg4 arg5 harg5 arg6 harg6 hc0 hc1 x0 x1 xs0).1, y ∈ pc.1.set :=
  View.cover_of_tiledL (kernelRun6_C c i arg3 harg3 arg4 harg4 arg5 harg5 arg6 harg6 hc0 hc1 x0 x1 xs0).1 S1024x512.size (by sl_kernel_rfl) y

/-- What case C leaves in the output's staging buffer. -/
def out6_C_2 (c : Dev nD) (i : grid6.Coords) (arg3 : Memref sig .tc .vmem S1024x512 .bf16) (harg3 : arg3.IsWhole) (arg4 : Memref sig .tc .vmem S512x512 .bf16) (harg4 : arg4.IsWhole) (arg5 : Memref sig .tc .vmem S1024x512 .bf16) (harg5 : arg5.IsWhole) (arg6 : Memref sig .tc .vmem S1024x512 .f32) (harg6 : arg6.IsWhole) (hc0 : ¬cond6_0 i) (hc1 : cond6_1 i)
    (x0 : Vec F S1024x512 .bf16) (x1 : Vec F S512x512 .bf16) (xs0 : Vec F S1024x512 .f32) : Vec F S1024x512 .bf16 :=
  VO6_2.read (Elt F) (VO6_2.writes (Elt F) VO6_2.junk (kernelRun6_C c i arg3 harg3 arg4 harg4 arg5 harg5 arg6 harg6 hc0 hc1 x0 x1 xs0).1)

/-- Case C's piece for the accumulator covers it (one whole store). -/
theorem scover6_C_0 (c : Dev nD) (i : grid6.Coords) (arg3 : Memref sig .tc .vmem S1024x512 .bf16) (harg3 : arg3.IsWhole) (arg4 : Memref sig .tc .vmem S512x512 .bf16) (harg4 : arg4.IsWhole) (arg5 : Memref sig .tc .vmem S1024x512 .bf16) (harg5 : arg5.IsWhole) (arg6 : Memref sig .tc .vmem S1024x512 .f32) (harg6 : arg6.IsWhole) (hc0 : ¬cond6_0 i) (hc1 : cond6_1 i)
    (x0 : Vec F S1024x512 .bf16) (x1 : Vec F S512x512 .bf16) (xs0 : Vec F S1024x512 .f32) (y : S1024x512.Idx) :
    ∃ pc ∈ (kernelRun6_C c i arg3 harg3 arg4 harg4 arg5 harg5 arg6 harg6 hc0 hc1 x0 x1 xs0).2.1, y ∈ pc.1.set :=
  View.cover_of_tiledL (kernelRun6_C c i arg3 harg3 arg4 harg4 arg5 harg5 arg6 harg6 hc0 hc1 x0 x1 xs0).2.1 S1024x512.size (by sl_kernel_rfl) y

/-- What case C leaves in the accumulator. -/
def sout6_C_0 (c : Dev nD) (i : grid6.Coords) (arg3 : Memref sig .tc .vmem S1024x512 .bf16) (harg3 : arg3.IsWhole) (arg4 : Memref sig .tc .vmem S512x512 .bf16) (harg4 : arg4.IsWhole) (arg5 : Memref sig .tc .vmem S1024x512 .bf16) (harg5 : arg5.IsWhole) (arg6 : Memref sig .tc .vmem S1024x512 .f32) (harg6 : arg6.IsWhole) (hc0 : ¬cond6_0 i) (hc1 : cond6_1 i)
    (x0 : Vec F S1024x512 .bf16) (x1 : Vec F S512x512 .bf16) (xs0 : Vec F S1024x512 .f32) : Vec F S1024x512 .f32 :=
  VS6_0.read (Elt F) (VS6_0.writes (Elt F) VS6_0.junk (kernelRun6_C c i arg3 harg3 arg4 harg4 arg5 harg5 arg6 harg6 hc0 hc1 x0 x1 xs0).2.1)

/-! ## What the output's buffer and the accumulator hold after each point -/

/-- THE ACCUMULATION: after the body at position n, the output's staging buffer and the accumulator. An even point
    restarts the accumulator from the point's own blocks; an odd point continues from what the point before left. -/
def outsAt6 (c : Dev nD) : (n : ℕ) → n < cfg6.N → Vec F S1024x512 .bf16 × Vec F S1024x512 .f32
  | 0, hn => (out6_A_2 c (grid6.coords ⟨0, hn⟩) (ms6_0 ⟨0, hn⟩) (hs6_0 ⟨0, hn⟩) (ms6_1 ⟨0, hn⟩) (hs6_1 ⟨0, hn⟩) (ms6_2 ⟨0, hn⟩) (hs6_2 ⟨0, hn⟩) scM6_0 (Memref.isWhole_whole _) (hA6 ⟨0, hn⟩ (Nat.zero_mod _)).1 (hA6 ⟨0, hn⟩ (Nat.zero_mod _)).2 (iblk6 V c 0 ⟨0, hn⟩) (iblk6 V c 1 ⟨0, hn⟩), sout6_A_0 c (grid6.coords ⟨0, hn⟩) (ms6_0 ⟨0, hn⟩) (hs6_0 ⟨0, hn⟩) (ms6_1 ⟨0, hn⟩) (hs6_1 ⟨0, hn⟩) (ms6_2 ⟨0, hn⟩) (hs6_2 ⟨0, hn⟩) scM6_0 (Memref.isWhole_whole _) (hA6 ⟨0, hn⟩ (Nat.zero_mod _)).1 (hA6 ⟨0, hn⟩ (Nat.zero_mod _)).2 (iblk6 V c 0 ⟨0, hn⟩) (iblk6 V c 1 ⟨0, hn⟩))
  | n + 1, hn =>
    if h0 : (n + 1) % 2 = 0 then
      (out6_A_2 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) scM6_0 (Memref.isWhole_whole _) (hA6 ⟨n + 1, hn⟩ h0).1 (hA6 ⟨n + 1, hn⟩ h0).2 (iblk6 V c 0 ⟨n + 1, hn⟩) (iblk6 V c 1 ⟨n + 1, hn⟩), sout6_A_0 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) scM6_0 (Memref.isWhole_whole _) (hA6 ⟨n + 1, hn⟩ h0).1 (hA6 ⟨n + 1, hn⟩ h0).2 (iblk6 V c 0 ⟨n + 1, hn⟩) (iblk6 V c 1 ⟨n + 1, hn⟩))
    else
      (out6_C_2 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) scM6_0 (Memref.isWhole_whole _) (hC6 ⟨n + 1, hn⟩ h0).1 (hC6 ⟨n + 1, hn⟩ h0).2 (iblk6 V c 0 ⟨n + 1, hn⟩) (iblk6 V c 1 ⟨n + 1, hn⟩) (outsAt6 c n (Nat.lt_of_succ_lt hn)).2, sout6_C_0 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) scM6_0 (Memref.isWhole_whole _) (hC6 ⟨n + 1, hn⟩ h0).1 (hC6 ⟨n + 1, hn⟩ h0).2 (iblk6 V c 0 ⟨n + 1, hn⟩) (iblk6 V c 1 ⟨n + 1, hn⟩) (outsAt6 c n (Nat.lt_of_succ_lt hn)).2)

/-- outsAt6 at an even point: case A's contents. -/
theorem outsAt6_A (c : Dev nD) (t : Fin cfg6.N) (h0 : t.val % 2 = 0) :
    outsAt6 V c t.val t.isLt = (out6_A_2 c (grid6.coords t) (ms6_0 t) (hs6_0 t) (ms6_1 t) (hs6_1 t) (ms6_2 t) (hs6_2 t) scM6_0 (Memref.isWhole_whole _) (hA6 t h0).1 (hA6 t h0).2 (iblk6 V c 0 t) (iblk6 V c 1 t), sout6_A_0 c (grid6.coords t) (ms6_0 t) (hs6_0 t) (ms6_1 t) (hs6_1 t) (ms6_2 t) (hs6_2 t) scM6_0 (Memref.isWhole_whole _) (hA6 t h0).1 (hA6 t h0).2 (iblk6 V c 0 t) (iblk6 V c 1 t)) := by
  obtain ⟨n, hn⟩ := t
  cases n with
  | zero => exact rfl
  | succ n => exact (dif_pos h0).trans rfl

/-- outsAt6 at an odd point: case C's contents, over what the point before left in the accumulator. -/
theorem outsAt6_C (c : Dev nD) (t : Fin cfg6.N) (h0 : ¬t.val % 2 = 0) :
    outsAt6 V c t.val t.isLt = (out6_C_2 c (grid6.coords t) (ms6_0 t) (hs6_0 t) (ms6_1 t) (hs6_1 t) (ms6_2 t) (hs6_2 t) scM6_0 (Memref.isWhole_whole _) (hC6 t h0).1 (hC6 t h0).2 (iblk6 V c 0 t) (iblk6 V c 1 t) (outsAt6 V c (t.val - 1) (Nat.lt_of_le_of_lt (Nat.sub_le _ _) t.isLt)).2, sout6_C_0 c (grid6.coords t) (ms6_0 t) (hs6_0 t) (ms6_1 t) (hs6_1 t) (ms6_2 t) (hs6_2 t) scM6_0 (Memref.isWhole_whole _) (hC6 t h0).1 (hC6 t h0).2 (iblk6 V c 0 t) (iblk6 V c 1 t) (outsAt6 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-- The region invariant before position n: before the first point the class's; afterwards the accumulator at what the
    point before left in it, the other scoped buffers unopened, the generator register at some state. -/
def PhiS6 (c : Dev nD) : (n : ℕ) → n ≤ cfg6.N → sProp 𝕄
  | 0, _ => Pipeline.ΦA spec6 c
  | n + 1, hn => iprop(iprop(owns (c : Thread nD τ) scM6_0 fullShare ((outsAt6 V c n hn).2) ∗ rest6 c) ∗ (∃ r, prngReg c r))

theorem PhiS6_zero (c : Dev nD) (n : ℕ) (h : n ≤ cfg6.N) (hz : n = 0) : PhiS6 V c n h = Pipeline.ΦA spec6 c := by
  subst hz; rfl

theorem PhiS6_succ (c : Dev nD) (n : ℕ) (hn : n < cfg6.N) :
    PhiS6 V c (n + 1) hn = iprop(iprop(owns (c : Thread nD τ) scM6_0 fullShare ((outsAt6 V c n hn).2) ∗ rest6 c) ∗ (∃ r, prngReg c r)) := rfl

theorem PhiS6_pos (c : Dev nD) (n : ℕ) (h : n ≤ cfg6.N) (hz : n ≠ 0) :
    PhiS6 V c n h = iprop(iprop(owns (c : Thread nD τ) scM6_0 fullShare ((outsAt6 V c (n - 1) (by omega)).2) ∗ rest6 c) ∗ (∃ r, prngReg c r)) := by
  cases n with
  | zero => exact absurd rfl hz
  | succ n => rfl

/-! ## The pipeline's proof data -/

/-- The proof data of region 6 on core c: the arrays as the region finds them; after the body at point t each input's
    buffer at its block and the output's at outsAt6's first component; the invariant PhiS6; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => (outsAt6 V c t.val t.isLt).1
  Φ t := PhiS6 V c t.val (Nat.le_of_lt_succ t.isLt)
  q _ := fullShare
  owed _ := 0

theorem A_eq6 (c : Dev nD) (w : Fin cfg6.W) : (dat6 V c).A w = V c (Pipeline.arrRef spec6 w) := by
  dsimp only [dat6]

theorem PhiS6_castSucc (c : Dev nD) (t : Fin cfg6.N) :
    (dat6 V c).Φ t.castSucc = PhiS6 V c t.val (Nat.le_of_lt t.isLt) := by
  dsimp only [dat6]; simp only [Fin.coe_castSucc]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = (outsAt6 V c t.val t.isLt).1 := by dsimp only [dat6]

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d

/-! ## The body obligation, at a generic point -/

def bodyPre6 (c : Dev nD) (t : Fin cfg6.N) : sProp 𝕄 :=
  iprop((dat6 V c).Φ t.castSucc ∗ (dat6 V c).owesAt () t.castSucc
    ∗ (∃ d, owns (c : Thread nD τ) (ms6_0 t) fullShare ((dat6 V c).before 0 t d))
    ∗ (∃ d, owns (c : Thread nD τ) (ms6_1 t) fullShare ((dat6 V c).before 1 t d))
    ∗ (∃ d, owns (c : Thread nD τ) (ms6_2 t) fullShare ((dat6 V c).before 2 t d)))

def bodyPost6 (c : Dev nD) (t : Fin cfg6.N) : sProp 𝕄 :=
  iprop((dat6 V c).Φ t.succ ∗ (dat6 V c).owesAt () t.succ
    ∗ (dat6 V c).leavesExact 0 t
    ∗ (dat6 V c).leavesExact 1 t
    ∗ (dat6 V c).leavesExact 2 t)

set_option maxHeartbeats 4800000 in
/-- The body at any point: the inputs' buffers hold their blocks; the parity of the point says which case it is in; the
    invariant hands the run the accumulator (at anything at the first point, else at what the point before left) and
    takes it back at this point's contents; the rest of the scoped buffers, the register and the debt pass through. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1]
  rw [show (dat6 V c).owesAt () t.succ = (dat6 V c).owesAt () t.castSucc from rfl]
  rw [show (dat6 V c).Φ t.succ = PhiS6 V c (t.val + 1) t.isLt from rfl, PhiS6_succ]
  rw [show (dat6 V c).leavesExact 0 t = owns (c : Thread nD τ) (ms6_0 t) fullShare ((dat6 V c).after 0 t) from by
    unfold Dat.leavesExact; rw [liveAt6_0 t], after6_0]
  rw [show (dat6 V c).leavesExact 1 t = owns (c : Thread nD τ) (ms6_1 t) fullShare ((dat6 V c).after 1 t) from by
    unfold Dat.leavesExact; rw [liveAt6_1 t], after6_1]
  have hN : t.val < 8 := lt_of_lt_of_eq t.isLt (show cfg6.N = 8 from N_6)
  by_cases h0 : t.val % 2 = 0
  · rw [Dat.leavesExact_idle (dat6 V c) 2 t (idleAt6_2_A t (hA6 t h0).1 (hA6 t h0).2) (noFlush6_2_A t (hA6 t h0).1 (hA6 t h0).2)]
    rw [outsAt6_A V c t h0]
    unfold sout6_A_0; (try dsimp only)
    by_cases hz : t.val = 0
    · rw [PhiS6_castSucc V c t, PhiS6_zero V c _ _ hz, PhiA6_eq]
      iintro ⟨⟨⟨HS0, Hr⟩, Hg⟩, Ho, ⟨%d0, H0⟩, ⟨%d1, H1⟩, ⟨%d2, H2⟩⟩
      iapply ((kernelRun6_A c (grid6.coords t) _ _ _ _ _ _ _ _ (hA6 t h0).1 (hA6 t h0).2 (iblk6 V c 0 t) (iblk6 V c 1 t)).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover6_A_0 c _ _ _ _ _ _ _ _ _ _ _ _ _)
          iexact Hr
        iexact Hg
      isplitl [Ho]; · iexact Ho
      isplitl [H0]; · iexact H0
      isplitl [H1]; · iexact H1
      iexists _; iexact H2
    · rw [PhiS6_castSucc V c t, PhiS6_pos V c _ _ hz]
      iintro ⟨⟨⟨HS0, Hr⟩, Hg⟩, Ho, ⟨%d0, H0⟩, ⟨%d1, H1⟩, ⟨%d2, H2⟩⟩
      iapply ((kernelRun6_A c (grid6.coords t) _ _ _ _ _ _ _ _ (hA6 t h0).1 (hA6 t h0).2 (iblk6 V c 0 t) (iblk6 V c 1 t)).2.2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover6_A_0 c _ _ _ _ _ _ _ _ _ _ _ _ _)
          iexact Hr
        iexact Hg
      isplitl [Ho]; · iexact Ho
      isplitl [H0]; · iexact H0
      isplitl [H1]; · iexact H1
      iexists _; iexact H2
  · rw [show (dat6 V c).leavesExact 2 t = owns (c : Thread nD τ) (ms6_2 t) fullShare ((dat6 V c).after 2 t) from by
      unfold Dat.leavesExact; rw [liveAt6_2_C t (hC6 t h0).1 (hC6 t h0).2], after6_2]
    rw [outsAt6_C V c t h0]
    unfold out6_C_2 sout6_C_0; (try dsimp only)
    have hz : t.val ≠ 0 := fun hz => h0 (by rw [hz])
    rw [PhiS6_castSucc V c t, PhiS6_pos V c _ _ hz]
    iintro ⟨⟨⟨HS0, Hr⟩, Hg⟩, Ho, ⟨%d0, H0⟩, ⟨%d1, H1⟩, ⟨%d2, H2⟩⟩
    iapply ((kernelRun6_C c (grid6.coords t) _ _ _ _ _ _ _ _ (hC6 t h0).1 (hC6 t h0).2 (iblk6 V c 0 t) (iblk6 V c 1 t) _).2.2 Set.univ _)
    isplitl [H0]; · iexact H0
    isplitl [H1]; · iexact H1
    isplitl [H2]; · iexists _; iexact H2
    isplitl [HS0]; · iexact HS0
    iintro ⟨H0, H1, ⟨%e2, H2⟩, ⟨%es0, HS0⟩⟩
    isplitl [HS0 Hr Hg]
    · isplitl [HS0 Hr]
      · isplitl [HS0]
        · unfold owns; iexists _; isplitr
          swap; · iexact HS0
          ipureintro; exact View.read_writes_of_cover _ _ _ _ _ (scover6_C_0 c _ _ _ _ _ _ _ _ _ _ _ _ _ _)
        iexact Hr
      iexact Hg
    isplitl [Ho]; · iexact Ho
    isplitl [H0]; · iexact H0
    isplitl [H1]; · iexact H1
    unfold owns; iexists _; isplitr
    swap; · iexact H2
    ipureintro; exact View.read_writes_of_cover _ _ _ _ _ (cover6_C_2 c _ _ _ _ _ _ _ _ _ _ _ _ _ _)

/-- The library's body obligation, at every point. -/
theorem body_obligation6 (c : Dev nD) : BodyObligation (dat6 (F := F) V c) (defs₀ (F := F)) Variants.none () Set.univ := fun t => by
  rw [bigSep_W6, bigSep_W6]
  exact sound_body6 V c t

/-- What the launch hands the region is the invariant before the first point. -/
theorem hin6 (c : Dev nD) : Pipeline.ΦA spec6 c ⊢ (dat6 V c).Φ 0 := by
  rw [show (dat6 V c).Φ 0 = PhiS6 V c 0 (Nat.zero_le _) from rfl, PhiS6_zero V c 0 _ rfl]
  try exact Idealize.SL.BI.Entails.refl _

/-- After any point but the first the invariant gives the class's back: the accumulator's contents are forgotten. -/
theorem Phi_out6 (c : Dev nD) (t : Fin (cfg6.N + 1)) (ht : t.val ≠ 0) : (dat6 V c).Φ t ⊢ Pipeline.ΦA spec6 c := by
  rw [show (dat6 V c).Φ t = PhiS6 V c t.val (Nat.le_of_lt_succ t.isLt) from rfl, PhiS6_pos V c _ _ ht, PhiA6_eq]
  iintro ⟨⟨HS0, Hr⟩, Hg⟩
  isplitl [HS0 Hr]
  · isplitl [HS0]
    · iexists _; iexact HS0
    iexact Hr
  iexact Hg

/-- The same after the last point. -/
theorem hout6 (c : Dev nD) : (dat6 V c).Φ (Fin.last cfg6.N) ⊢ Pipeline.ΦA spec6 c :=
  Phi_out6 V c _ (by rw [Fin.val_last]; have : cfg6.N = 8 := N_6; omega)

end Cert.Kernel.Gen

end
-- ==== Proof.KernelH.Reg7.lean ====
import proofs.«157173_j56882546868342_2_alg».proof.Proof.KernelH.Launch
import proofs.«157173_j56882546868342_2_alg».proof.Proof.Gen.Kernel.Skeleton
import proofs.«157173_j56882546868342_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384
noncomputable section
namespace Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

/-! # Region 7: a blocked matrix product with a bias row and a rectifier

The grid is (4, 1, 8): point t has row-block t / 8 and reduction step t % 8. A scratch accumulator is zeroed at
step 0, receives one block product per step, and at step 7 the bias row is added, the result is clamped below at
zero and stored into the output block. -/

/-! ## The windows' blocks -/

/-- Window w's block at point t, read off its array as the region finds it. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- An input window's current staging buffer holds its block at every point, fetched there or not: when it is not
    fetched the block index has not moved, so the block of the point before is this point's. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)
/-- The bias row is fetched at the first point only; its block index never moves, so the same holds of it. -/
theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)

/-! ## The body's two conditions, in closed form over the grid -/

/-- The first condition: the reduction step is 0. -/
abbrev cond7_0 (i : grid7.Coords) : Prop := (Scalar.cmpi .ne (Scalar.extui (Scalar.cmpi .eq (BitVec.ofNat 32 (i 2).val) 0#32)) 0#32) = 1#1
theorem hcond7_0 : ∀ t : Fin cfg7.N, cond7_0 (grid7.coords t) ↔ t.val % 8 = 0 :=
  (by decide +kernel : ∀ t : Fin grid7.N, cond7_0 (grid7.coords t) ↔ t.val % 8 = 0)
/-- The second condition: the reduction step is the last, 7. -/
abbrev cond7_1 (i : grid7.Coords) : Prop := k7_cond2 i = 1#1
theorem hcond7_1 : ∀ t : Fin cfg7.N, cond7_1 (grid7.coords t) ↔ t.val % 8 = 7 :=
  (by decide +kernel : ∀ t : Fin grid7.N, cond7_1 (grid7.coords t) ↔ t.val % 8 = 7)

/-! ## Where the windows are idle -/

theorem liveAt7_0 : ∀ t : Fin cfg7.N, cfg7.idle 0 (grid7.coords t) = false := by decide +kernel
theorem liveAt7_1 : ∀ t : Fin cfg7.N, cfg7.idle 1 (grid7.coords t) = false := by decide +kernel
theorem liveAt7_2 : ∀ t : Fin cfg7.N, cfg7.idle 2 (grid7.coords t) = false := by decide +kernel
/-- At the first and the middle steps nothing is stored into the output block and it is not written back. -/
theorem idleAt7_3_A : ∀ t : Fin cfg7.N, cond7_0 (grid7.coords t) → ¬cond7_1 (grid7.coords t) → cfg7.idle 3 (grid7.coords t) = true := by decide +kernel
theorem noFlush7_3_A : ∀ t : Fin cfg7.N, cond7_0 (grid7.coords t) → ¬cond7_1 (grid7.coords t) → (cfg7.win 3).flush t = false := by decide +kernel
theorem idleAt7_3_B : ∀ t : Fin cfg7.N, ¬cond7_0 (grid7.coords t) → ¬cond7_1 (grid7.coords t) → cfg7.idle 3 (grid7.coords t) = true := by decide +kernel
theorem noFlush7_3_B : ∀ t : Fin cfg7.N, ¬cond7_0 (grid7.coords t) → ¬cond7_1 (grid7.coords t) → (cfg7.win 3).flush t = false := by decide +kernel
/-- At the last step the output block is stored. -/
theorem liveAt7_3_C : ∀ t : Fin cfg7.N, ¬cond7_0 (grid7.coords t) → cond7_1 (grid7.coords t) → cfg7.idle 3 (grid7.coords t) = false := by decide +kernel

/-! ## The staging and scratch memrefs -/

/-- One staging buffer of the output window, through which its contents are stated. -/
abbrev VO7_3 : View sig .tc .vmem S1024x512 .bf16 := (Memref.whole cc7_stg3_0 : Memref sig .tc .vmem S1024x512 .bf16).view
/-- Each window's current staging memref at point t, and its wholeness. -/
abbrev ms7_0 (t : Fin cfg7.N) : Memref sig .tc .vmem S1024x512 .bf16 := win7_0.stage (cfg7.slots t 0)
abbrev hs7_0 (t : Fin cfg7.N) : (ms7_0 t).IsWhole := hstage7_0 ((cfg7.slots t 0).cast nbuf7_0)
abbrev ms7_1 (t : Fin cfg7.N) : Memref sig .tc .vmem S512x512 .bf16 := win7_1.stage (cfg7.slots t 1)
abbrev hs7_1 (t : Fin cfg7.N) : (ms7_1 t).IsWhole := hstage7_1 ((cfg7.slots t 1).cast nbuf7_1)
abbrev ms7_2 (t : Fin cfg7.N) : Memref sig .tc .vmem S1x512 .f32 := win7_2.stage (cfg7.slots t 2)
abbrev hs7_2 (t : Fin cfg7.N) : (ms7_2 t).IsWhole := hstage7_2 ((cfg7.slots t 2).cast nbuf7_2)
abbrev ms7_3 (t : Fin cfg7.N) : Memref sig .tc .vmem S1024x512 .bf16 := win7_3.stage (cfg7.slots t 3)
abbrev hs7_3 (t : Fin cfg7.N) : (ms7_3 t).IsWhole := hstage7_3 ((cfg7.slots t 3).cast nbuf7_3)
/-- The accumulator: a whole scoped buffer of the kernel's own, passed beside the windows. -/
abbrev scM7_0 : Memref sig .tc .vmem S1024x512 .f32 := Memref.whole cc7_scratch0
abbrev VS7_0 : View sig .tc .vmem S1024x512 .f32 := scM7_0.view

/-- The region invariant with the accumulator named as a memref owned at some contents; every other scoped buffer
    stays unopened. -/
theorem PhiA7_eq (c : Dev nD) :
    (Pipeline.ΦA spec7 c : sProp 𝕄)
      = iprop(iprop(iprop((∃ d, owns (c : Thread nD τ) scM7_0 fullShare d)) ∗ Pipeline.scopedRestBut spec7 c [cc7_scratch0]) ∗ (∃ r, prngReg c r)) := by
  unfold Pipeline.ΦA; rw [scopedRest7_split]; simp only [scM7_0, owns_whole]; try rfl

/-! ## The body's run, case by case

The kernel body on whole staging memrefs: the inputs' at their contents, the accumulator at what the step before left
(at anything in the first case, which overwrites it before reading), the output's at anything where it is stored and
handed back untouched where it is not. The pieces each buffer ends with are the witness the run finds. -/

set_option maxHeartbeats 1000000 in
/-- Case A, the first step: the accumulator is zeroed and receives the first block product; the output is not touched. -/
noncomputable def kernelRun7_A (c : Dev nD) (i : grid7.Coords) (arg3 : Memref sig .tc .vmem S1024x512 .bf16) (harg3 : arg3.IsWhole) (arg4 : Memref sig .tc .vmem S512x512 .bf16) (harg4 : arg4.IsWhole) (arg5 : Memref sig .tc .vmem S1x512 .f32) (harg5 : arg5.IsWhole) (arg6 : Memref sig .tc .vmem S1024x512 .bf16) (harg6 : arg6.IsWhole) (arg7 : Memref sig .tc .vmem S1024x512 .f32) (harg7 : arg7.IsWhole) (hc0 : cond7_0 i) (hc1 : ¬cond7_1 i)
    (x0 : Vec F S1024x512 .bf16) (x1 : Vec F S512x512 .bf16) (x2 : Vec F S1x512 .f32) :
    Σ' (L3 : List (View.Piece (Elt F) S1024x512 .bf16)), { LS0 : List (View.Piece (Elt F) S1024x512 .f32) //
      ∀ (xi3 : Vec F S1024x512 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc7__mm_kernel_bias i arg3 harg3 arg4 harg4 arg5 harg5 arg6 harg6 arg7 harg7) K } := by
  refine ⟨[], ?_, fun xi3 E K => ?run⟩
  case run =>
    simp only [cc7__mm_kernel_bias_eq_skeleton]; unfold cc7__mm_kernel_bias_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

set_option maxHeartbeats 1000000 in
/-- Case B, a middle step: the accumulator receives one more block product; the output is not touched. -/
noncomputable def kernelRun7_B (c : Dev nD) (i : grid7.Coords) (arg3 : Memref sig .tc .vmem S1024x512 .bf16) (harg3 : arg3.IsWhole) (arg4 : Memref sig .tc .vmem S512x512 .bf16) (harg4 : arg4.IsWhole) (arg5 : Memref sig .tc .vmem S1x512 .f32) (harg5 : arg5.IsWhole) (arg6 : Memref sig .tc .vmem S1024x512 .bf16) (harg6 : arg6.IsWhole) (arg7 : Memref sig .tc .vmem S1024x512 .f32) (harg7 : arg7.IsWhole) (hc0 : ¬cond7_0 i) (hc1 : ¬cond7_1 i)
    (x0 : Vec F S1024x512 .bf16) (x1 : Vec F S512x512 .bf16) (x2 : Vec F S1x512 .f32) (xs0 : Vec F S1024x512 .f32) :
    Σ' (L3 : List (View.Piece (Elt F) S1024x512 .bf16)), { LS0 : List (View.Piece (Elt F) S1024x512 .f32) //
      ∀ (xi3 : Vec F S1024x512 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc7__mm_kernel_bias i arg3 harg3 arg4 harg4 arg5 harg5 arg6 harg6 arg7 harg7) K } := by
  refine ⟨[], ?_, fun xi3 E K => ?run⟩
  case run =>
    simp only [cc7__mm_kernel_bias_eq_skeleton]; unfold cc7__mm_kernel_bias_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

set_option maxHeartbeats 1000000 in
/-- Case C, the last step: the accumulator receives the last block product, and the output block is stored from it. -/
noncomputable def kernelRun7_C (c : Dev nD) (i : grid7.Coords) (arg3 : Memref sig .tc .vmem S1024x512 .bf16) (harg3 : arg3.IsWhole) (arg4 : Memref sig .tc .vmem S512x512 .bf16) (harg4 : arg4.IsWhole) (arg5 : Memref sig .tc .vmem S1x512 .f32) (harg5 : arg5.IsWhole) (arg6 : Memref sig .tc .vmem S1024x512 .bf16) (harg6 : arg6.IsWhole) (arg7 : Memref sig .tc .vmem S1024x512 .f32) (harg7 : arg7.IsWhole) (hc0 : ¬cond7_0 i) (hc1 : cond7_1 i)
    (x0 : Vec F S1024x512 .bf16) (x1 : Vec F S512x512 .bf16) (x2 : Vec F S1x512 .f32) (xs0 : Vec F S1024x512 .f32) :
    Σ' (L3 : List (View.Piece (Elt F) S1024x512 .bf16)), { LS0 : List (View.Piece (Elt F) S1024x512 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0)) -∗ K ⟨⟩))
          ⊢ wp frame (wpE (defs₀ (F := F)) Variants.none c none) E (cc7__mm_kernel_bias i arg3 harg3 arg4 harg4 arg5 harg5 arg6 harg6 arg7 harg7) K } := by
  refine ⟨?_, ?_, fun E K => ?run⟩
  case run =>
    simp only [cc7__mm_kernel_bias_eq_skeleton]; unfold cc7__mm_kernel_bias_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg3.eq_unread hf0; obtain rfl := harg4.eq_unread hf1; obtain rfl := harg5.eq_unread hf2; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS0

/-! ## What each case leaves: pieces read back, and their covers -/

section Pieces7
variable (c : Dev nD) (i : grid7.Coords) (arg3 : Memref sig .tc .vmem S1024x512 .bf16) (harg3 : arg3.IsWhole) (arg4 : Memref sig .tc .vmem S512x512 .bf16) (harg4 : arg4.IsWhole) (arg5 : Memref sig .tc .vmem S1x512 .f32) (harg5 : arg5.IsWhole) (arg6 : Memref sig .tc .vmem S1024x512 .bf16) (harg6 : arg6.IsWhole) (arg7 : Memref sig .tc .vmem S1024x512 .f32) (harg7 : arg7.IsWhole)

/-- Case A stores nothing into the output: a placeholder nothing consults (the window is idle there). -/
def out7_A_3 (hc0 : cond7_0 i) (hc1 : ¬cond7_1 i) (x0 : Vec F S1024x512 .bf16) (x1 : Vec F S512x512 .bf16) (x2 : Vec F S1x512 .f32) : Vec F S1024x512 .bf16 :=
  VO7_3.read (Elt F) (VO7_3.writes (Elt F) VO7_3.junk (kernelRun7_A c i arg3 harg3 arg4 harg4 arg5 harg5 arg6 harg6 arg7 harg7 hc0 hc1 x0 x1 x2).1)
/-- Case A's pieces for the accumulator cover it (two whole-buffer stores). -/
theorem scover7_A_0 (hc0 : cond7_0 i) (hc1 : ¬cond7_1 i) (x0 : Vec F S1024x512 .bf16) (x1 : Vec F S512x512 .bf16) (x2 : Vec F S1x512 .f32) (y : S1024x512.Idx) :
    ∃ pc ∈ (kernelRun7_A c i arg3 harg3 arg4 harg4 arg5 harg5 arg6 harg6 arg7 harg7 hc0 hc1 x0 x1 x2).2.1, y ∈ pc.1.set :=
  View.cover_of_tiledL (kernelRun7_A c i arg3 harg3 arg4 harg4 arg5 harg5 arg6 harg6 arg7 harg7 hc0 hc1 x0 x1 x2).2.1 S1024x512.size (by sl_kernel_rfl) y
/-- What case A leaves in the accumulator. -/
def sout7_A_0 (hc0 : cond7_0 i) (hc1 : ¬cond7_1 i) (x0 : Vec F S1024x512 .bf16) (x1 : Vec F S512x512 .bf16) (x2 : Vec F S1x512 .f32) : Vec F S1024x512 .f32 :=
  VS7_0.read (Elt F) (VS7_0.writes (Elt F) VS7_0.junk (kernelRun7_A c i arg3 harg3 arg4 harg4 arg5 harg5 arg6 harg6 arg7 harg7 hc0 hc1 x0 x1 x2).2.1)

/-- Case B stores nothing into the output: a placeholder nothing consults. -/
def out7_B_3 (hc0 : ¬cond7_0 i) (hc1 : ¬cond7_1 i) (x0 : Vec F S1024x512 .bf16) (x1 : Vec F S512x512 .bf16) (x2 : Vec F S1x512 .f32) (xs0 : Vec F S1024x512 .f32) : Vec F S1024x512 .bf16 :=
  VO7_3.read (Elt F) (VO7_3.writes (Elt F) VO7_3.junk (kernelRun7_B c i arg3 harg3 arg4 harg4 arg5 harg5 arg6 harg6 arg7 harg7 hc0 hc1 x0 x1 x2 xs0).1)
/-- Case B's piece for the accumulator covers it (one whole-buffer store). -/
theorem scover7_B_0 (hc0 : ¬cond7_0 i) (hc1 : ¬cond7_1 i) (x0 : Vec F S1024x512 .bf16) (x1 : Vec F S512x512 .bf16) (x2 : Vec F S1x512 .f32) (xs0 : Vec F S1024x512 .f32) (y : S1024x512.Idx) :
    ∃ pc ∈ (kernelRun7_B c i arg3 harg3 arg4 harg4 arg5 harg5 arg6 harg6 arg7 harg7 hc0 hc1 x0 x1 x2 xs0).2.1, y ∈ pc.1.set :=
  View.cover_of_tiledL (kernelRun7_B c i arg3 harg3 arg4 harg4 arg5 harg5 arg6 harg6 arg7 harg7 hc0 hc1 x0 x1 x2 xs0).2.1 S1024x512.size (by sl_kernel_rfl) y
/-- What case B leaves in the accumulator. -/
def sout7_B_0 (hc0 : ¬cond7_0 i) (hc1 : ¬cond7_1 i) (x0 : Vec F S1024x512 .bf16) (x1 : Vec F S512x512 .bf16) (x2 : Vec F S1x512 .f32) (xs0 : Vec F S1024x512 .f32) : Vec F S1024x512 .f32 :=
  VS7_0.read (Elt F) (VS7_0.writes (Elt F) VS7_0.junk (kernelRun7_B c i arg3 harg3 arg4 harg4 arg5 harg5 arg6 harg6 arg7 harg7 hc0 hc1 x0 x1 x2 xs0).2.1)

/-- Case C's piece for the output covers its block (one whole-buffer store). -/
theorem cover7_C_3 (hc0 : ¬cond7_0 i) (hc1 : cond7_1 i) (x0 : Vec F S1024x512 .bf16) (x1 : Vec F S512x512 .bf16) (x2 : Vec F S1x512 .f32) (xs0 : Vec F S1024x512 .f32) (y : S1024x512.Idx) :
    ∃ pc ∈ (kernelRun7_C c i arg3 harg3 arg4 harg4 arg5 harg5 arg6 harg6 arg7 harg7 hc0 hc1 x0 x1 x2 xs0).1, y ∈ pc.1.set :=
  View.cover_of_tiledL (kernelRun7_C c i arg3 harg3 arg4 harg4 arg5 harg5 arg6 harg6 arg7 harg7 hc0 hc1 x0 x1 x2 xs0).1 S1024x512.size (by sl_kernel_rfl) y
/-- What case C leaves in the output's staging buffer. -/
def out7_C_3 (hc0 : ¬cond7_0 i) (hc1 : cond7_1 i) (x0 : Vec F S1024x512 .bf16) (x1 : Vec F S512x512 .bf16) (x2 : Vec F S1x512 .f32) (xs0 : Vec F S1024x512 .f32) : Vec F S1024x512 .bf16 :=
  VO7_3.read (Elt F) (VO7_3.writes (Elt F) VO7_3.junk (kernelRun7_C c i arg3 harg3 arg4 harg4 arg5 harg5 arg6 harg6 arg7 harg7 hc0 hc1 x0 x1 x2 xs0).1)
/-- Case C's piece for the accumulator covers it. -/
theorem scover7_C_0 (hc0 : ¬cond7_0 i) (hc1 : cond7_1 i) (x0 : Vec F S1024x512 .bf16) (x1 : Vec F S512x512 .bf16) (x2 : Vec F S1x512 .f32) (xs0 : Vec F S1024x512 .f32) (y : S1024x512.Idx) :
    ∃ pc ∈ (kernelRun7_C c i arg3 harg3 arg4 harg4 arg5 harg5 arg6 harg6 arg7 harg7 hc0 hc1 x0 x1 x2 xs0).2.1, y ∈ pc.1.set :=
  View.cover_of_tiledL (kernelRun7_C c i arg3 harg3 arg4 harg4 arg5 harg5 arg6 harg6 arg7 harg7 hc0 hc1 x0 x1 x2 xs0).2.1 S1024x512.size (by sl_kernel_rfl) y
/-- What case C leaves in the accumulator. -/
def sout7_C_0 (hc0 : ¬cond7_0 i) (hc1 : cond7_1 i) (x0 : Vec F S1024x512 .bf16) (x1 : Vec F S512x512 .bf16) (x2 : Vec F S1x512 .f32) (xs0 : Vec F S1024x512 .f32) : Vec F S1024x512 .f32 :=
  VS7_0.read (Elt F) (VS7_0.writes (Elt F) VS7_0.junk (kernelRun7_C c i arg3 harg3 arg4 harg4 arg5 harg5 arg6 harg6 arg7 harg7 hc0 hc1 x0 x1 x2 xs0).2.1)

end Pieces7

/-! ## What the output's staging buffer and the accumulator hold after each point -/

/-- The accumulation: after the body at position n, the pair (output staging buffer, accumulator). The closed forms
    select the case; a middle or last step runs over what the step before left in the accumulator. -/
def outsAt7 (c : Dev nD) : (n : ℕ) → n < cfg7.N → Vec F S1024x512 .bf16 × Vec F S1024x512 .f32
  | 0, hn => (out7_A_3 c (grid7.coords ⟨0, hn⟩) (ms7_0 ⟨0, hn⟩) (hs7_0 ⟨0, hn⟩) (ms7_1 ⟨0, hn⟩) (hs7_1 ⟨0, hn⟩) (ms7_2 ⟨0, hn⟩) (hs7_2 ⟨0, hn⟩) (ms7_3 ⟨0, hn⟩) (hs7_3 ⟨0, hn⟩) scM7_0 (Memref.isWhole_whole _) ((hcond7_0 ⟨0, hn⟩).mpr (Nat.zero_mod _)) (fun h => (fun h => by (try dsimp only at h); omega) ((hcond7_1 ⟨0, hn⟩).mp h)) (iblk7 V c 0 ⟨0, hn⟩) (iblk7 V c 1 ⟨0, hn⟩) (iblk7 V c 2 ⟨0, hn⟩),
      sout7_A_0 c (grid7.coords ⟨0, hn⟩) (ms7_0 ⟨0, hn⟩) (hs7_0 ⟨0, hn⟩) (ms7_1 ⟨0, hn⟩) (hs7_1 ⟨0, hn⟩) (ms7_2 ⟨0, hn⟩) (hs7_2 ⟨0, hn⟩) (ms7_3 ⟨0, hn⟩) (hs7_3 ⟨0, hn⟩) scM7_0 (Memref.isWhole_whole _) ((hcond7_0 ⟨0, hn⟩).mpr (Nat.zero_mod _)) (fun h => (fun h => by (try dsimp only at h); omega) ((hcond7_1 ⟨0, hn⟩).mp h)) (iblk7 V c 0 ⟨0, hn⟩) (iblk7 V c 1 ⟨0, hn⟩) (iblk7 V c 2 ⟨0, hn⟩))
  | n + 1, hn =>
    if h0 : (n + 1) % 8 = 0 then
      if h1 : (n + 1) % 8 = 7 then
        False.elim (by omega)
      else
        (out7_A_3 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) scM7_0 (Memref.isWhole_whole _) ((hcond7_0 ⟨n + 1, hn⟩).mpr h0) (fun h => h1 ((hcond7_1 ⟨n + 1, hn⟩).mp h)) (iblk7 V c 0 ⟨n + 1, hn⟩) (iblk7 V c 1 ⟨n + 1, hn⟩) (iblk7 V c 2 ⟨n + 1, hn⟩),
          sout7_A_0 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) scM7_0 (Memref.isWhole_whole _) ((hcond7_0 ⟨n + 1, hn⟩).mpr h0) (fun h => h1 ((hcond7_1 ⟨n + 1, hn⟩).mp h)) (iblk7 V c 0 ⟨n + 1, hn⟩) (iblk7 V c 1 ⟨n + 1, hn⟩) (iblk7 V c 2 ⟨n + 1, hn⟩))
    else
      if h1 : (n + 1) % 8 = 7 then
        (out7_C_3 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) scM7_0 (Memref.isWhole_whole _) (fun h => h0 ((hcond7_0 ⟨n + 1, hn⟩).mp h)) ((hcond7_1 ⟨n + 1, hn⟩).mpr h1) (iblk7 V c 0 ⟨n + 1, hn⟩) (iblk7 V c 1 ⟨n + 1, hn⟩) (iblk7 V c 2 ⟨n + 1, hn⟩) (outsAt7 c n (Nat.lt_of_succ_lt hn)).2,
          sout7_C_0 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) scM7_0 (Memref.isWhole_whole _) (fun h => h0 ((hcond7_0 ⟨n + 1, hn⟩).mp h)) ((hcond7_1 ⟨n + 1, hn⟩).mpr h1) (iblk7 V c 0 ⟨n + 1, hn⟩) (iblk7 V c 1 ⟨n + 1, hn⟩) (iblk7 V c 2 ⟨n + 1, hn⟩) (outsAt7 c n (Nat.lt_of_succ_lt hn)).2)
      else
        (out7_B_3 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) scM7_0 (Memref.isWhole_whole _) (fun h => h0 ((hcond7_0 ⟨n + 1, hn⟩).mp h)) (fun h => h1 ((hcond7_1 ⟨n + 1, hn⟩).mp h)) (iblk7 V c 0 ⟨n + 1, hn⟩) (iblk7 V c 1 ⟨n + 1, hn⟩) (iblk7 V c 2 ⟨n + 1, hn⟩) (outsAt7 c n (Nat.lt_of_succ_lt hn)).2,
          sout7_B_0 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) scM7_0 (Memref.isWhole_whole _) (fun h => h0 ((hcond7_0 ⟨n + 1, hn⟩).mp h)) (fun h => h1 ((hcond7_1 ⟨n + 1, hn⟩).mp h)) (iblk7 V c 0 ⟨n + 1, hn⟩) (iblk7 V c 1 ⟨n + 1, hn⟩) (iblk7 V c 2 ⟨n + 1, hn⟩) (outsAt7 c n (Nat.lt_of_succ_lt hn)).2)

/-- At a point of case A: that case's contents. -/
theorem outsAt7_A (c : Dev nD) (t : Fin cfg7.N) (h0 : t.val % 8 = 0) (h1 : ¬t.val % 8 = 7) :
    outsAt7 V c t.val t.isLt = (out7_A_3 c (grid7.coords t) (ms7_0 t) (hs7_0 t) (ms7_1 t) (hs7_1 t) (ms7_2 t) (hs7_2 t) (ms7_3 t) (hs7_3 t) scM7_0 (Memref.isWhole_whole _) ((hcond7_0 t).mpr h0) (fun h => h1 ((hcond7_1 t).mp h)) (iblk7 V c 0 t) (iblk7 V c 1 t) (iblk7 V c 2 t),
      sout7_A_0 c (grid7.coords t) (ms7_0 t) (hs7_0 t) (ms7_1 t) (hs7_1 t) (ms7_2 t) (hs7_2 t) (ms7_3 t) (hs7_3 t) scM7_0 (Memref.isWhole_whole _) ((hcond7_0 t).mpr h0) (fun h => h1 ((hcond7_1 t).mp h)) (iblk7 V c 0 t) (iblk7 V c 1 t) (iblk7 V c 2 t)) := by
  obtain ⟨n, hn⟩ := t
  cases n with
  | zero => exact rfl
  | succ n => exact (dif_pos h0).trans ((dif_neg h1).trans rfl)

/-- At a point of case B: that case's contents, over what the point before left in the accumulator. -/
theorem outsAt7_B (c : Dev nD) (t : Fin cfg7.N) (h0 : ¬t.val % 8 = 0) (h1 : ¬t.val % 8 = 7) :
    outsAt7 V c t.val t.isLt = (out7_B_3 c (grid7.coords t) (ms7_0 t) (hs7_0 t) (ms7_1 t) (hs7_1 t) (ms7_2 t) (hs7_2 t) (ms7_3 t) (hs7_3 t) scM7_0 (Memref.isWhole_whole _) (fun h => h0 ((hcond7_0 t).mp h)) (fun h => h1 ((hcond7_1 t).mp h)) (iblk7 V c 0 t) (iblk7 V c 1 t) (iblk7 V c 2 t) (outsAt7 V c (t.val - 1) (Nat.lt_of_le_of_lt (Nat.sub_le _ _) t.isLt)).2,
      sout7_B_0 c (grid7.coords t) (ms7_0 t) (hs7_0 t) (ms7_1 t) (hs7_1 t) (ms7_2 t) (hs7_2 t) (ms7_3 t) (hs7_3 t) scM7_0 (Memref.isWhole_whole _) (fun h => h0 ((hcond7_0 t).mp h)) (fun h => h1 ((hcond7_1 t).mp h)) (iblk7 V c 0 t) (iblk7 V c 1 t) (iblk7 V c 2 t) (outsAt7 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At a point of case C: that case's contents, over what the point before left in the accumulator. -/
theorem outsAt7_C (c : Dev nD) (t : Fin cfg7.N) (h0 : ¬t.val % 8 = 0) (h1 : t.val % 8 = 7) :
    outsAt7 V c t.val t.isLt = (out7_C_3 c (grid7.coords t) (ms7_0 t) (hs7_0 t) (ms7_1 t) (hs7_1 t) (ms7_2 t) (hs7_2 t) (ms7_3 t) (hs7_3 t) scM7_0 (Memref.isWhole_whole _) (fun h => h0 ((hcond7_0 t).mp h)) ((hcond7_1 t).mpr h1) (iblk7 V c 0 t) (iblk7 V c 1 t) (iblk7 V c 2 t) (outsAt7 V c (t.val - 1) (Nat.lt_of_le_of_lt (Nat.sub_le _ _) t.isLt)).2,
      sout7_C_0 c (grid7.coords t) (ms7_0 t) (hs7_0 t) (ms7_1 t) (hs7_1 t) (ms7_2 t) (hs7_2 t) (ms7_3 t) (hs7_3 t) scM7_0 (Memref.isWhole_whole _) (fun h => h0 ((hcond7_0 t).mp h)) ((hcond7_1 t).mpr h1) (iblk7 V c 0 t) (iblk7 V c 1 t) (iblk7 V c 2 t) (outsAt7 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region invariant, with the accumulator's contents named -/

/-- Before the first point the class's invariant (the accumulator at anything); before point n + 1 the accumulator at
    what point n left, every other scoped buffer unopened, the generator register at some state. -/
def PhiS7 (c : Dev nD) : (n : ℕ) → n ≤ cfg7.N → sProp 𝕄
  | 0, _ => Pipeline.ΦA spec7 c
  | n + 1, hn => iprop(iprop(owns (c : Thread nD τ) scM7_0 fullShare ((outsAt7 V c n hn).2) ∗ Pipeline.scopedRestBut spec7 c [cc7_scratch0]) ∗ (∃ r, prngReg c r))

theorem PhiS7_zero (c : Dev nD) (n : ℕ) (h : n ≤ cfg7.N) (hz : n = 0) : PhiS7 V c n h = Pipeline.ΦA spec7 c := by
  subst hz; rfl

theorem PhiS7_succ (c : Dev nD) (n : ℕ) (hn : n < cfg7.N) :
    PhiS7 V c (n + 1) hn = iprop(iprop(owns (c : Thread nD τ) scM7_0 fullShare ((outsAt7 V c n hn).2) ∗ Pipeline.scopedRestBut spec7 c [cc7_scratch0]) ∗ (∃ r, prngReg c r)) := rfl

theorem PhiS7_pos (c : Dev nD) (n : ℕ) (h : n ≤ cfg7.N) (hz : n ≠ 0) :
    PhiS7 V c n h = iprop(iprop(owns (c : Thread nD τ) scM7_0 fullShare ((outsAt7 V c (n - 1) (by omega)).2) ∗ Pipeline.scopedRestBut spec7 c [cc7_scratch0]) ∗ (∃ r, prngReg c r)) := by
  cases n with
  | zero => exact absurd rfl hz
  | succ n => rfl

/-! ## The pipeline's proof data -/

/-- The arrays as the region finds them; after the body at point t each input's buffer at its block and the output's
    at what the accumulation says; the invariant above; nothing owed; full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => (outsAt7 V c t.val t.isLt).1
  Φ t := PhiS7 V c t.val (Nat.le_of_lt_succ t.isLt)
  q _ := fullShare
  owed _ := 0

theorem A_eq7 (c : Dev nD) (w : Fin cfg7.W) : (dat7 V c).A w = V c (Pipeline.arrRef spec7 w) := by
  dsimp only [dat7]

theorem PhiS7_castSucc (c : Dev nD) (t : Fin cfg7.N) :
    (dat7 V c).Φ t.castSucc = PhiS7 V c t.val (Nat.le_of_lt t.isLt) := by
  dsimp only [dat7]; simp only [Fin.coe_castSucc]

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = (outsAt7 V c t.val t.isLt).1 := by dsimp only [dat7]

theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d

/-! ## The body obligation, at a generic point -/

/-- What the body is called with at point t, the windows one by one, -/
def bodyPre7 (c : Dev nD) (t : Fin cfg7.N) : sProp 𝕄 :=
  iprop((dat7 V c).Φ t.castSucc ∗ (dat7 V c).owesAt () t.castSucc
    ∗ (∃ d, owns (c : Thread nD τ) (ms7_0 t) fullShare ((dat7 V c).before 0 t d))
    ∗ (∃ d, owns (c : Thread nD τ) (ms7_1 t) fullShare ((dat7 V c).before 1 t d))
    ∗ (∃ d, owns (c : Thread nD τ) (ms7_2 t) fullShare ((dat7 V c).before 2 t d))
    ∗ (∃ d, owns (c : Thread nD τ) (ms7_3 t) fullShare ((dat7 V c).before 3 t d)))

/-- and what it returns. -/
def bodyPost7 (c : Dev nD) (t : Fin cfg7.N) : sProp 𝕄 :=
  iprop((dat7 V c).Φ t.succ ∗ (dat7 V c).owesAt () t.succ
    ∗ (dat7 V c).leavesExact 0 t
    ∗ (dat7 V c).leavesExact 1 t
    ∗ (dat7 V c).leavesExact 2 t
    ∗ (dat7 V c).leavesExact 3 t)

set_option maxHeartbeats 4800000 in
/-- The body at any point. The inputs' memrefs hold their blocks; the closed forms say which case the point is in; the
    invariant hands the body the accumulator at what the point before left (at anything at the first point) and takes it
    back at this point's contents, by the case's cover; the output's buffer is handed back untouched where the case stores
    nothing into it and at the case's contents where it does; the core owes nothing throughout. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2]
  rw [show (dat7 V c).owesAt () t.succ = (dat7 V c).owesAt () t.castSucc from rfl]
  rw [show (dat7 V c).Φ t.succ = PhiS7 V c (t.val + 1) t.isLt from rfl, PhiS7_succ]
  have hN : t.val < 32 := lt_of_lt_of_eq t.isLt (show cfg7.N = 32 from N_7)
  rw [show (dat7 V c).leavesExact 0 t = owns (c : Thread nD τ) (ms7_0 t) fullShare ((dat7 V c).after 0 t) from by
    unfold Dat.leavesExact; rw [liveAt7_0 t], after7_0]
  rw [show (dat7 V c).leavesExact 1 t = owns (c : Thread nD τ) (ms7_1 t) fullShare ((dat7 V c).after 1 t) from by
    unfold Dat.leavesExact; rw [liveAt7_1 t], after7_1]
  rw [show (dat7 V c).leavesExact 2 t = owns (c : Thread nD τ) (ms7_2 t) fullShare ((dat7 V c).after 2 t) from by
    unfold Dat.leavesExact; rw [liveAt7_2 t], after7_2]
  by_cases h0 : t.val % 8 = 0
  · by_cases h1 : t.val % 8 = 7
    · exfalso; omega
    · rw [Dat.leavesExact_idle (dat7 V c) 3 t (idleAt7_3_A t ((hcond7_0 t).mpr h0) (fun h => h1 ((hcond7_1 t).mp h))) (noFlush7_3_A t ((hcond7_0 t).mpr h0) (fun h => h1 ((hcond7_1 t).mp h)))]
      rw [outsAt7_A V c t h0 h1]
      unfold sout7_A_0; (try dsimp only)
      by_cases hz : t.val = 0
      · rw [PhiS7_castSucc V c t, PhiS7_zero V c _ _ hz, PhiA7_eq]
        iintro ⟨⟨⟨HS0, Hr⟩, Hg⟩, Ho, ⟨%d0, H0⟩, ⟨%d1, H1⟩, ⟨%d2, H2⟩, ⟨%d3, H3⟩⟩
        iapply ((kernelRun7_A c (grid7.coords t) _ _ _ _ _ _ _ _ _ _ ((hcond7_0 t).mpr h0) (fun h => h1 ((hcond7_1 t).mp h)) (iblk7 V c 0 t) (iblk7 V c 1 t) (iblk7 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover7_A_0 c _ _ _ _ _ _ _ _ _ _ _ _ _ _ _ _)
            iexact Hr
          iexact Hg
        isplitl [Ho]; · iexact Ho
        isplitl [H0]; · iexact H0
        isplitl [H1]; · iexact H1
        isplitl [H2]; · iexact H2
        iexists _; iexact H3
      · rw [PhiS7_castSucc V c t, PhiS7_pos V c _ _ hz]
        iintro ⟨⟨⟨HS0, Hr⟩, Hg⟩, Ho, ⟨%d0, H0⟩, ⟨%d1, H1⟩, ⟨%d2, H2⟩, ⟨%d3, H3⟩⟩
        iapply ((kernelRun7_A c (grid7.coords t) _ _ _ _ _ _ _ _ _ _ ((hcond7_0 t).mpr h0) (fun h => h1 ((hcond7_1 t).mp h)) (iblk7 V c 0 t) (iblk7 V c 1 t) (iblk7 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover7_A_0 c _ _ _ _ _ _ _ _ _ _ _ _ _ _ _ _)
            iexact Hr
          iexact Hg
        isplitl [Ho]; · iexact Ho
        isplitl [H0]; · iexact H0
        isplitl [H1]; · iexact H1
        isplitl [H2]; · iexact H2
        iexists _; iexact H3
  · by_cases h1 : t.val % 8 = 7
    · rw [show (dat7 V c).leavesExact 3 t = owns (c : Thread nD τ) (ms7_3 t) fullShare ((dat7 V c).after 3 t) from by
        unfold Dat.leavesExact; rw [liveAt7_3_C t (fun h => h0 ((hcond7_0 t).mp h)) ((hcond7_1 t).mpr h1)], after7_3]
      rw [outsAt7_C V c t h0 h1]
      unfold out7_C_3 sout7_C_0; (try dsimp only)
      by_cases hz : t.val = 0
      · exfalso; omega
      · rw [PhiS7_castSucc V c t, PhiS7_pos V c _ _ hz]
        iintro ⟨⟨⟨HS0, Hr⟩, Hg⟩, Ho, ⟨%d0, H0⟩, ⟨%d1, H1⟩, ⟨%d2, H2⟩, ⟨%d3, H3⟩⟩
        iapply ((kernelRun7_C c (grid7.coords t) _ _ _ _ _ _ _ _ _ _ (fun h => h0 ((hcond7_0 t).mp h)) ((hcond7_1 t).mpr h1) (iblk7 V c 0 t) (iblk7 V c 1 t) (iblk7 V c 2 t) _).2.2 Set.univ _)
        isplitl [H0]; · iexact H0
        isplitl [H1]; · iexact H1
        isplitl [H2]; · iexact H2
        isplitl [H3]; · iexists _; iexact H3
        isplitl [HS0]; · iexact HS0
        iintro ⟨H0, H1, H2, ⟨%e3, H3⟩, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover7_C_0 c _ _ _ _ _ _ _ _ _ _ _ _ _ _ _ _ _)
            iexact Hr
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover7_C_3 c _ _ _ _ _ _ _ _ _ _ _ _ _ _ _ _ _)
    · rw [Dat.leavesExact_idle (dat7 V c) 3 t (idleAt7_3_B t (fun h => h0 ((hcond7_0 t).mp h)) (fun h => h1 ((hcond7_1 t).mp h))) (noFlush7_3_B t (fun h => h0 ((hcond7_0 t).mp h)) (fun h => h1 ((hcond7_1 t).mp h)))]
      rw [outsAt7_B V c t h0 h1]
      unfold sout7_B_0; (try dsimp only)
      by_cases hz : t.val = 0
      · exfalso; omega
      · rw [PhiS7_castSucc V c t, PhiS7_pos V c _ _ hz]
        iintro ⟨⟨⟨HS0, Hr⟩, Hg⟩, Ho, ⟨%d0, H0⟩, ⟨%d1, H1⟩, ⟨%d2, H2⟩, ⟨%d3, H3⟩⟩
        iapply ((kernelRun7_B c (grid7.coords t) _ _ _ _ _ _ _ _ _ _ (fun h => h0 ((hcond7_0 t).mp h)) (fun h => h1 ((hcond7_1 t).mp h)) (iblk7 V c 0 t) (iblk7 V c 1 t) (iblk7 V c 2 t) _).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover7_B_0 c _ _ _ _ _ _ _ _ _ _ _ _ _ _ _ _ _)
            iexact Hr
          iexact Hg
        isplitl [Ho]; · iexact Ho
        isplitl [H0]; · iexact H0
        isplitl [H1]; · iexact H1
        isplitl [H2]; · iexact H2
        iexists _; iexact H3

/-- The library's body obligation, at every point. -/
theorem body_obligation7 (c : Dev nD) : BodyObligation (dat7 (F := F) V c) (defs₀ (F := F)) Variants.none () Set.univ := fun t => by
  rw [bigSep_W7, bigSep_W7]
  exact sound_body7 V c t

/-- What the launch hands the region is the invariant before the first point. -/
theorem hin7 (c : Dev nD) : Pipeline.ΦA spec7 c ⊢ (dat7 V c).Φ 0 := by
  rw [show (dat7 V c).Φ 0 = PhiS7 V c 0 (Nat.zero_le _) from rfl, PhiS7_zero V c 0 _ rfl]
  try exact Idealize.SL.BI.Entails.refl _

/-- After any point but the first the invariant gives the class's back: the accumulator's contents are forgotten. -/
theorem Phi_out7 (c : Dev nD) (t : Fin (cfg7.N + 1)) (ht : t.val ≠ 0) : (dat7 V c).Φ t ⊢ Pipeline.ΦA spec7 c := by
  rw [show (dat7 V c).Φ t = PhiS7 V c t.val (Nat.le_of_lt_succ t.isLt) from rfl, PhiS7_pos V c _ _ ht, PhiA7_eq]
  iintro ⟨⟨HS0, Hr⟩, Hg⟩
  isplitl [HS0 Hr]
  · isplitl [HS0]
    · iexists _; iexact HS0
    iexact Hr
  iexact Hg

/-- The same after the last point. -/
theorem hout7 (c : Dev nD) : (dat7 V c).Φ (Fin.last cfg7.N) ⊢ Pipeline.ΦA spec7 c :=
  Phi_out7 V c _ (by rw [Fin.val_last]; have : cfg7.N = 32 := N_7; omega)

end Cert.Kernel.Gen
end
-- ==== Proof.KernelH.Reg8.lean ====
import proofs.«157173_j56882546868342_2_alg».proof.Proof.KernelH.Launch
import proofs.«157173_j56882546868342_2_alg».proof.Proof.Gen.Kernel.Skeleton
import proofs.«157173_j56882546868342_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384
noncomputable section
namespace Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

/-! # Region 8: a blocked matrix product with a bias row

The grid is (4, 1, 2): point t has row-block t / 2 and reduction step t % 2. A scratch accumulator is zeroed at
step 0, receives one block product per step, and at step 1, the last, the bias row is added and the result is stored
into the output block. There is no middle step. -/

/-! ## The windows' blocks -/

/-- Window w's block at point t, read off its array as the region finds it. -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- An input window's current staging buffer holds its block at every point, fetched there or not: when it is not
    fetched the block index has not moved, so the block of the point before is this point's. -/
theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)
theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)
/-- The bias row is fetched at the first point only; its block index never moves, so the same holds of it. -/
theorem before8_2_of {c : Dev nD} (dat : Dat τ (Elt F) Unit ℕ (UR sig nD τ) ℕ cfg8 c) (hA : dat.A 2 = V c (Pipeline.arrRef spec8 2))
    (hafter : ∀ t, dat.after 2 t = iblk8 V c 2 t) (t : Fin cfg8.N) (d) : dat.before 2 t d = iblk8 V c 2 t :=
  (dat.before_in_eq_fetched 2 rfl (fun _ => rfl) (fun _ _ _ => rfl) (fun t => by rw [hafter]; unfold Dat.blockOf iblk8; rw [hA]; try rfl) t d).trans
    (by unfold Dat.fetched Dat.blockOf iblk8; rw [hA]; try rfl)

/-! ## The body's two conditions, in closed form over the grid -/

/-- The first condition: the reduction step is 0. -/
abbrev cond8_0 (i : grid8.Coords) : Prop := (Scalar.cmpi .ne (Scalar.extui (Scalar.cmpi .eq (BitVec.ofNat 32 (i 2).val) 0#32)) 0#32) = 1#1
theorem hcond8_0 : ∀ t : Fin cfg8.N, cond8_0 (grid8.coords t) ↔ t.val % 2 = 0 :=
  (by decide +kernel : ∀ t : Fin grid8.N, cond8_0 (grid8.coords t) ↔ t.val % 2 = 0)
/-- The second condition: the reduction step is the last, 1. -/
abbrev cond8_1 (i : grid8.Coords) : Prop := k8_cond2 i = 1#1
theorem hcond8_1 : ∀ t : Fin cfg8.N, cond8_1 (grid8.coords t) ↔ t.val % 2 = 1 :=
  (by decide +kernel : ∀ t : Fin grid8.N, cond8_1 (grid8.coords t) ↔ t.val % 2 = 1)

/-! ## Where the windows are idle -/

theorem liveAt8_0 : ∀ t : Fin cfg8.N, cfg8.idle 0 (grid8.coords t) = false := by decide +kernel
theorem liveAt8_1 : ∀ t : Fin cfg8.N, cfg8.idle 1 (grid8.coords t) = false := by decide +kernel
theorem liveAt8_2 : ∀ t : Fin cfg8.N, cfg8.idle 2 (grid8.coords t) = false := by decide +kernel
/-- At the first step nothing is stored into the output block and it is not written back. -/
theorem idleAt8_3_A : ∀ t : Fin cfg8.N, cond8_0 (grid8.coords t) → ¬cond8_1 (grid8.coords t) → cfg8.idle 3 (grid8.coords t) = true := by decide +kernel
theorem noFlush8_3_A : ∀ t : Fin cfg8.N, cond8_0 (grid8.coords t) → ¬cond8_1 (grid8.coords t) → (cfg8.win 3).flush t = false := by decide +kernel
/-- At the last step the output block is stored. -/
theorem liveAt8_3_C : ∀ t : Fin cfg8.N, ¬cond8_0 (grid8.coords t) → cond8_1 (grid8.coords t) → cfg8.idle 3 (grid8.coords t) = false := by decide +kernel

/-! ## The staging and scratch memrefs -/

/-- One staging buffer of the output window, through which its contents are stated. -/
abbrev VO8_3 : View sig .tc .vmem S1024x512 .bf16 := (Memref.whole cc8_stg3_0 : Memref sig .tc .vmem S1024x512 .bf16).view
/-- Each window's current staging memref at point t, and its wholeness. -/
abbrev ms8_0 (t : Fin cfg8.N) : Memref sig .tc .vmem S1024x512 .bf16 := win8_0.stage (cfg8.slots t 0)
abbrev hs8_0 (t : Fin cfg8.N) : (ms8_0 t).IsWhole := hstage8_0 ((cfg8.slots t 0).cast nbuf8_0)
abbrev ms8_1 (t : Fin cfg8.N) : Memref sig .tc .vmem S512x512 .bf16 := win8_1.stage (cfg8.slots t 1)
abbrev hs8_1 (t : Fin cfg8.N) : (ms8_1 t).IsWhole := hstage8_1 ((cfg8.slots t 1).cast nbuf8_1)
abbrev ms8_2 (t : Fin cfg8.N) : Memref sig .tc .vmem S1x512 .f32 := win8_2.stage (cfg8.slots t 2)
abbrev hs8_2 (t : Fin cfg8.N) : (ms8_2 t).IsWhole := hstage8_2 ((cfg8.slots t 2).cast nbuf8_2)
abbrev ms8_3 (t : Fin cfg8.N) : Memref sig .tc .vmem S1024x512 .bf16 := win8_3.stage (cfg8.slots t 3)
abbrev hs8_3 (t : Fin cfg8.N) : (ms8_3 t).IsWhole := hstage8_3 ((cfg8.slots t 3).cast nbuf8_3)
/-- The accumulator: a whole scoped buffer of the kernel's own, passed beside the windows. -/
abbrev scM8_0 : Memref sig .tc .vmem S1024x512 .f32 := Memref.whole cc8_scratch0
abbrev VS8_0 : View sig .tc .vmem S1024x512 .f32 := scM8_0.view

/-- The region invariant with the accumulator named as a memref owned at some contents; every other scoped buffer
    stays unopened. -/
theorem PhiA8_eq (c : Dev nD) :
    (Pipeline.ΦA spec8 c : sProp 𝕄)
      = iprop(iprop(iprop((∃ d, owns (c : Thread nD τ) scM8_0 fullShare d)) ∗ Pipeline.scopedRestBut spec8 c [cc8_scratch0]) ∗ (∃ r, prngReg c r)) := by
  unfold Pipeline.ΦA; rw [scopedRest8_split]; simp only [scM8_0, owns_whole]; try rfl

/-! ## The body's run, case by case

The kernel body on whole staging memrefs: the inputs' at their contents, the accumulator at what the step before left
(at anything in the first case, which overwrites it before reading), the output's at anything where it is stored and
handed back untouched where it is not. The pieces each buffer ends with are the witness the run finds. -/

set_option maxHeartbeats 1000000 in
/-- Case A, the first step: the accumulator is zeroed and receives the first block product; the output is not touched. -/
noncomputable def kernelRun8_A (c : Dev nD) (i : grid8.Coords) (arg3 : Memref sig .tc .vmem S1024x512 .bf16) (harg3 : arg3.IsWhole) (arg4 : Memref sig .tc .vmem S512x512 .bf16) (harg4 : arg4.IsWhole) (arg5 : Memref sig .tc .vmem S1x512 .f32) (harg5 : arg5.IsWhole) (arg6 : Memref sig .tc .vmem S1024x512 .bf16) (harg6 : arg6.IsWhole) (arg7 : Memref sig .tc .vmem S1024x512 .f32) (harg7 : arg7.IsWhole) (hc0 : cond8_0 i) (hc1 : ¬cond8_1 i)
    (x0 : Vec F S1024x512 .bf16) (x1 : Vec F S512x512 .bf16) (x2 : Vec F S1x512 .f32) :
    Σ' (L3 : List (View.Piece (Elt F) S1024x512 .bf16)), { LS0 : List (View.Piece (Elt F) S1024x512 .f32) //
      ∀ (xi3 : Vec F S1024x512 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc8__mm_kernel_bias i arg3 harg3 arg4 harg4 arg5 harg5 arg6 harg6 arg7 harg7) K } := by
  refine ⟨[], ?_, fun xi3 E K => ?run⟩
  case run =>
    simp only [cc8__mm_kernel_bias_eq_skeleton]; unfold cc8__mm_kernel_bias_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

set_option maxHeartbeats 1000000 in
/-- Case C, the last step: the accumulator receives the last block product, and the output block is stored from it. -/
noncomputable def kernelRun8_C (c : Dev nD) (i : grid8.Coords) (arg3 : Memref sig .tc .vmem S1024x512 .bf16) (harg3 : arg3.IsWhole) (arg4 : Memref sig .tc .vmem S512x512 .bf16) (harg4 : arg4.IsWhole) (arg5 : Memref sig .tc .vmem S1x512 .f32) (harg5 : arg5.IsWhole) (arg6 : Memref sig .tc .vmem S1024x512 .bf16) (harg6 : arg6.IsWhole) (arg7 : Memref sig .tc .vmem S1024x512 .f32) (harg7 : arg7.IsWhole) (hc0 : ¬cond8_0 i) (hc1 : cond8_1 i)
    (x0 : Vec F S1024x512 .bf16) (x1 : Vec F S512x512 .bf16) (x2 : Vec F S1x512 .f32) (xs0 : Vec F S1024x512 .f32) :
    Σ' (L3 : List (View.Piece (Elt F) S1024x512 .bf16)), { LS0 : List (View.Piece (Elt F) S1024x512 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0)) -∗ K ⟨⟩))
          ⊢ wp frame (wpE (defs₀ (F := F)) Variants.none c none) E (cc8__mm_kernel_bias i arg3 harg3 arg4 harg4 arg5 harg5 arg6 harg6 arg7 harg7) K } := by
  refine ⟨?_, ?_, fun E K => ?run⟩
  case run =>
    simp only [cc8__mm_kernel_bias_eq_skeleton]; unfold cc8__mm_kernel_bias_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg3.eq_unread hf0; obtain rfl := harg4.eq_unread hf1; obtain rfl := harg5.eq_unread hf2; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS0

/-! ## What each case leaves: pieces read back, and their covers -/

section Pieces8
variable (c : Dev nD) (i : grid8.Coords) (arg3 : Memref sig .tc .vmem S1024x512 .bf16) (harg3 : arg3.IsWhole) (arg4 : Memref sig .tc .vmem S512x512 .bf16) (harg4 : arg4.IsWhole) (arg5 : Memref sig .tc .vmem S1x512 .f32) (harg5 : arg5.IsWhole) (arg6 : Memref sig .tc .vmem S1024x512 .bf16) (harg6 : arg6.IsWhole) (arg7 : Memref sig .tc .vmem S1024x512 .f32) (harg7 : arg7.IsWhole)

/-- Case A stores nothing into the output: a placeholder nothing consults (the window is idle there). -/
def out8_A_3 (hc0 : cond8_0 i) (hc1 : ¬cond8_1 i) (x0 : Vec F S1024x512 .bf16) (x1 : Vec F S512x512 .bf16) (x2 : Vec F S1x512 .f32) : Vec F S1024x512 .bf16 :=
  VO8_3.read (Elt F) (VO8_3.writes (Elt F) VO8_3.junk (kernelRun8_A c i arg3 harg3 arg4 harg4 arg5 harg5 arg6 harg6 arg7 harg7 hc0 hc1 x0 x1 x2).1)
/-- Case A's pieces for the accumulator cover it (two whole-buffer stores). -/
theorem scover8_A_0 (hc0 : cond8_0 i) (hc1 : ¬cond8_1 i) (x0 : Vec F S1024x512 .bf16) (x1 : Vec F S512x512 .bf16) (x2 : Vec F S1x512 .f32) (y : S1024x512.Idx) :
    ∃ pc ∈ (kernelRun8_A c i arg3 harg3 arg4 harg4 arg5 harg5 arg6 harg6 arg7 harg7 hc0 hc1 x0 x1 x2).2.1, y ∈ pc.1.set :=
  View.cover_of_tiledL (kernelRun8_A c i arg3 harg3 arg4 harg4 arg5 harg5 arg6 harg6 arg7 harg7 hc0 hc1 x0 x1 x2).2.1 S1024x512.size (by sl_kernel_rfl) y
/-- What case A leaves in the accumulator. -/
def sout8_A_0 (hc0 : cond8_0 i) (hc1 : ¬cond8_1 i) (x0 : Vec F S1024x512 .bf16) (x1 : Vec F S512x512 .bf16) (x2 : Vec F S1x512 .f32) : Vec F S1024x512 .f32 :=
  VS8_0.read (Elt F) (VS8_0.writes (Elt F) VS8_0.junk (kernelRun8_A c i arg3 harg3 arg4 harg4 arg5 harg5 arg6 harg6 arg7 harg7 hc0 hc1 x0 x1 x2).2.1)

/-- Case C's piece for the output covers its block (one whole-buffer store). -/
theorem cover8_C_3 (hc0 : ¬cond8_0 i) (hc1 : cond8_1 i) (x0 : Vec F S1024x512 .bf16) (x1 : Vec F S512x512 .bf16) (x2 : Vec F S1x512 .f32) (xs0 : Vec F S1024x512 .f32) (y : S1024x512.Idx) :
    ∃ pc ∈ (kernelRun8_C c i arg3 harg3 arg4 harg4 arg5 harg5 arg6 harg6 arg7 harg7 hc0 hc1 x0 x1 x2 xs0).1, y ∈ pc.1.set :=
  View.cover_of_tiledL (kernelRun8_C c i arg3 harg3 arg4 harg4 arg5 harg5 arg6 harg6 arg7 harg7 hc0 hc1 x0 x1 x2 xs0).1 S1024x512.size (by sl_kernel_rfl) y
/-- What case C leaves in the output's staging buffer. -/
def out8_C_3 (hc0 : ¬cond8_0 i) (hc1 : cond8_1 i) (x0 : Vec F S1024x512 .bf16) (x1 : Vec F S512x512 .bf16) (x2 : Vec F S1x512 .f32) (xs0 : Vec F S1024x512 .f32) : Vec F S1024x512 .bf16 :=
  VO8_3.read (Elt F) (VO8_3.writes (Elt F) VO8_3.junk (kernelRun8_C c i arg3 harg3 arg4 harg4 arg5 harg5 arg6 harg6 arg7 harg7 hc0 hc1 x0 x1 x2 xs0).1)
/-- Case C's piece for the accumulator covers it. -/
theorem scover8_C_0 (hc0 : ¬cond8_0 i) (hc1 : cond8_1 i) (x0 : Vec F S1024x512 .bf16) (x1 : Vec F S512x512 .bf16) (x2 : Vec F S1x512 .f32) (xs0 : Vec F S1024x512 .f32) (y : S1024x512.Idx) :
    ∃ pc ∈ (kernelRun8_C c i arg3 harg3 arg4 harg4 arg5 harg5 arg6 harg6 arg7 harg7 hc0 hc1 x0 x1 x2 xs0).2.1, y ∈ pc.1.set :=
  View.cover_of_tiledL (kernelRun8_C c i arg3 harg3 arg4 harg4 arg5 harg5 arg6 harg6 arg7 harg7 hc0 hc1 x0 x1 x2 xs0).2.1 S1024x512.size (by sl_kernel_rfl) y
/-- What case C leaves in the accumulator. -/
def sout8_C_0 (hc0 : ¬cond8_0 i) (hc1 : cond8_1 i) (x0 : Vec F S1024x512 .bf16) (x1 : Vec F S512x512 .bf16) (x2 : Vec F S1x512 .f32) (xs0 : Vec F S1024x512 .f32) : Vec F S1024x512 .f32 :=
  VS8_0.read (Elt F) (VS8_0.writes (Elt F) VS8_0.junk (kernelRun8_C c i arg3 harg3 arg4 harg4 arg5 harg5 arg6 harg6 arg7 harg7 hc0 hc1 x0 x1 x2 xs0).2.1)

end Pieces8

/-! ## What the output's staging buffer and the accumulator hold after each point -/

/-- The accumulation: after the body at position n, the pair (output staging buffer, accumulator). An even point is a
    first step; an odd point is a last step and runs over what the point before left in the accumulator. -/
def outsAt8 (c : Dev nD) : (n : ℕ) → n < cfg8.N → Vec F S1024x512 .bf16 × Vec F S1024x512 .f32
  | 0, hn => (out8_A_3 c (grid8.coords ⟨0, hn⟩) (ms8_0 ⟨0, hn⟩) (hs8_0 ⟨0, hn⟩) (ms8_1 ⟨0, hn⟩) (hs8_1 ⟨0, hn⟩) (ms8_2 ⟨0, hn⟩) (hs8_2 ⟨0, hn⟩) (ms8_3 ⟨0, hn⟩) (hs8_3 ⟨0, hn⟩) scM8_0 (Memref.isWhole_whole _) ((hcond8_0 ⟨0, hn⟩).mpr (Nat.zero_mod _)) (fun h => (fun h => by (try dsimp only at h); omega) ((hcond8_1 ⟨0, hn⟩).mp h)) (iblk8 V c 0 ⟨0, hn⟩) (iblk8 V c 1 ⟨0, hn⟩) (iblk8 V c 2 ⟨0, hn⟩),
      sout8_A_0 c (grid8.coords ⟨0, hn⟩) (ms8_0 ⟨0, hn⟩) (hs8_0 ⟨0, hn⟩) (ms8_1 ⟨0, hn⟩) (hs8_1 ⟨0, hn⟩) (ms8_2 ⟨0, hn⟩) (hs8_2 ⟨0, hn⟩) (ms8_3 ⟨0, hn⟩) (hs8_3 ⟨0, hn⟩) scM8_0 (Memref.isWhole_whole _) ((hcond8_0 ⟨0, hn⟩).mpr (Nat.zero_mod _)) (fun h => (fun h => by (try dsimp only at h); omega) ((hcond8_1 ⟨0, hn⟩).mp h)) (iblk8 V c 0 ⟨0, hn⟩) (iblk8 V c 1 ⟨0, hn⟩) (iblk8 V c 2 ⟨0, hn⟩))
  | n + 1, hn =>
    if h0 : (n + 1) % 2 = 0 then
      if h1 : (n + 1) % 2 = 1 then
        False.elim (by omega)
      else
        (out8_A_3 c (grid8.coords ⟨n + 1, hn⟩) (ms8_0 ⟨n + 1, hn⟩) (hs8_0 ⟨n + 1, hn⟩) (ms8_1 ⟨n + 1, hn⟩) (hs8_1 ⟨n + 1, hn⟩) (ms8_2 ⟨n + 1, hn⟩) (hs8_2 ⟨n + 1, hn⟩) (ms8_3 ⟨n + 1, hn⟩) (hs8_3 ⟨n + 1, hn⟩) scM8_0 (Memref.isWhole_whole _) ((hcond8_0 ⟨n + 1, hn⟩).mpr h0) (fun h => h1 ((hcond8_1 ⟨n + 1, hn⟩).mp h)) (iblk8 V c 0 ⟨n + 1, hn⟩) (iblk8 V c 1 ⟨n + 1, hn⟩) (iblk8 V c 2 ⟨n + 1, hn⟩),
          sout8_A_0 c (grid8.coords ⟨n + 1, hn⟩) (ms8_0 ⟨n + 1, hn⟩) (hs8_0 ⟨n + 1, hn⟩) (ms8_1 ⟨n + 1, hn⟩) (hs8_1 ⟨n + 1, hn⟩) (ms8_2 ⟨n + 1, hn⟩) (hs8_2 ⟨n + 1, hn⟩) (ms8_3 ⟨n + 1, hn⟩) (hs8_3 ⟨n + 1, hn⟩) scM8_0 (Memref.isWhole_whole _) ((hcond8_0 ⟨n + 1, hn⟩).mpr h0) (fun h => h1 ((hcond8_1 ⟨n + 1, hn⟩).mp h)) (iblk8 V c 0 ⟨n + 1, hn⟩) (iblk8 V c 1 ⟨n + 1, hn⟩) (iblk8 V c 2 ⟨n + 1, hn⟩))
    else
      if h1 : (n + 1) % 2 = 1 then
        (out8_C_3 c (grid8.coords ⟨n + 1, hn⟩) (ms8_0 ⟨n + 1, hn⟩) (hs8_0 ⟨n + 1, hn⟩) (ms8_1 ⟨n + 1, hn⟩) (hs8_1 ⟨n + 1, hn⟩) (ms8_2 ⟨n + 1, hn⟩) (hs8_2 ⟨n + 1, hn⟩) (ms8_3 ⟨n + 1, hn⟩) (hs8_3 ⟨n + 1, hn⟩) scM8_0 (Memref.isWhole_whole _) (fun h => h0 ((hcond8_0 ⟨n + 1, hn⟩).mp h)) ((hcond8_1 ⟨n + 1, hn⟩).mpr h1) (iblk8 V c 0 ⟨n + 1, hn⟩) (iblk8 V c 1 ⟨n + 1, hn⟩) (iblk8 V c 2 ⟨n + 1, hn⟩) (outsAt8 c n (Nat.lt_of_succ_lt hn)).2,
          sout8_C_0 c (grid8.coords ⟨n + 1, hn⟩) (ms8_0 ⟨n + 1, hn⟩) (hs8_0 ⟨n + 1, hn⟩) (ms8_1 ⟨n + 1, hn⟩) (hs8_1 ⟨n + 1, hn⟩) (ms8_2 ⟨n + 1, hn⟩) (hs8_2 ⟨n + 1, hn⟩) (ms8_3 ⟨n + 1, hn⟩) (hs8_3 ⟨n + 1, hn⟩) scM8_0 (Memref.isWhole_whole _) (fun h => h0 ((hcond8_0 ⟨n + 1, hn⟩).mp h)) ((hcond8_1 ⟨n + 1, hn⟩).mpr h1) (iblk8 V c 0 ⟨n + 1, hn⟩) (iblk8 V c 1 ⟨n + 1, hn⟩) (iblk8 V c 2 ⟨n + 1, hn⟩) (outsAt8 c n (Nat.lt_of_succ_lt hn)).2)
      else
        False.elim (by omega)

/-- At a point of case A: that case's contents. -/
theorem outsAt8_A (c : Dev nD) (t : Fin cfg8.N) (h0 : t.val % 2 = 0) (h1 : ¬t.val % 2 = 1) :
    outsAt8 V c t.val t.isLt = (out8_A_3 c (grid8.coords t) (ms8_0 t) (hs8_0 t) (ms8_1 t) (hs8_1 t) (ms8_2 t) (hs8_2 t) (ms8_3 t) (hs8_3 t) scM8_0 (Memref.isWhole_whole _) ((hcond8_0 t).mpr h0) (fun h => h1 ((hcond8_1 t).mp h)) (iblk8 V c 0 t) (iblk8 V c 1 t) (iblk8 V c 2 t),
      sout8_A_0 c (grid8.coords t) (ms8_0 t) (hs8_0 t) (ms8_1 t) (hs8_1 t) (ms8_2 t) (hs8_2 t) (ms8_3 t) (hs8_3 t) scM8_0 (Memref.isWhole_whole _) ((hcond8_0 t).mpr h0) (fun h => h1 ((hcond8_1 t).mp h)) (iblk8 V c 0 t) (iblk8 V c 1 t) (iblk8 V c 2 t)) := by
  obtain ⟨n, hn⟩ := t
  cases n with
  | zero => exact rfl
  | succ n => exact (dif_pos h0).trans ((dif_neg h1).trans rfl)

/-- At a point of case C: that case's contents, over what the point before left in the accumulator. -/
theorem outsAt8_C (c : Dev nD) (t : Fin cfg8.N) (h0 : ¬t.val % 2 = 0) (h1 : t.val % 2 = 1) :
    outsAt8 V c t.val t.isLt = (out8_C_3 c (grid8.coords t) (ms8_0 t) (hs8_0 t) (ms8_1 t) (hs8_1 t) (ms8_2 t) (hs8_2 t) (ms8_3 t) (hs8_3 t) scM8_0 (Memref.isWhole_whole _) (fun h => h0 ((hcond8_0 t).mp h)) ((hcond8_1 t).mpr h1) (iblk8 V c 0 t) (iblk8 V c 1 t) (iblk8 V c 2 t) (outsAt8 V c (t.val - 1) (Nat.lt_of_le_of_lt (Nat.sub_le _ _) t.isLt)).2,
      sout8_C_0 c (grid8.coords t) (ms8_0 t) (hs8_0 t) (ms8_1 t) (hs8_1 t) (ms8_2 t) (hs8_2 t) (ms8_3 t) (hs8_3 t) scM8_0 (Memref.isWhole_whole _) (fun h => h0 ((hcond8_0 t).mp h)) ((hcond8_1 t).mpr h1) (iblk8 V c 0 t) (iblk8 V c 1 t) (iblk8 V c 2 t) (outsAt8 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region invariant, with the accumulator's contents named -/

/-- Before the first point the class's invariant (the accumulator at anything); before point n + 1 the accumulator at
    what point n left, every other scoped buffer unopened, the generator register at some state. -/
def PhiS8 (c : Dev nD) : (n : ℕ) → n ≤ cfg8.N → sProp 𝕄
  | 0, _ => Pipeline.ΦA spec8 c
  | n + 1, hn => iprop(iprop(owns (c : Thread nD τ) scM8_0 fullShare ((outsAt8 V c n hn).2) ∗ Pipeline.scopedRestBut spec8 c [cc8_scratch0]) ∗ (∃ r, prngReg c r))

theorem PhiS8_zero (c : Dev nD) (n : ℕ) (h : n ≤ cfg8.N) (hz : n = 0) : PhiS8 V c n h = Pipeline.ΦA spec8 c := by
  subst hz; rfl

theorem PhiS8_succ (c : Dev nD) (n : ℕ) (hn : n < cfg8.N) :
    PhiS8 V c (n + 1) hn = iprop(iprop(owns (c : Thread nD τ) scM8_0 fullShare ((outsAt8 V c n hn).2) ∗ Pipeline.scopedRestBut spec8 c [cc8_scratch0]) ∗ (∃ r, prngReg c r)) := rfl

theorem PhiS8_pos (c : Dev nD) (n : ℕ) (h : n ≤ cfg8.N) (hz : n ≠ 0) :
    PhiS8 V c n h = iprop(iprop(owns (c : Thread nD τ) scM8_0 fullShare ((outsAt8 V c (n - 1) (by omega)).2) ∗ Pipeline.scopedRestBut spec8 c [cc8_scratch0]) ∗ (∃ r, prngReg c r)) := by
  cases n with
  | zero => exact absurd rfl hz
  | succ n => rfl

/-! ## The pipeline's proof data -/

/-- The arrays as the region finds them; after the body at point t each input's buffer at its block and the output's
    at what the accumulation says; the invariant above; nothing owed; full shares. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => (outsAt8 V c t.val t.isLt).1
  Φ t := PhiS8 V c t.val (Nat.le_of_lt_succ t.isLt)
  q _ := fullShare
  owed _ := 0

theorem A_eq8 (c : Dev nD) (w : Fin cfg8.W) : (dat8 V c).A w = V c (Pipeline.arrRef spec8 w) := by
  dsimp only [dat8]

theorem PhiS8_castSucc (c : Dev nD) (t : Fin cfg8.N) :
    (dat8 V c).Φ t.castSucc = PhiS8 V c t.val (Nat.le_of_lt t.isLt) := by
  dsimp only [dat8]; simp only [Fin.coe_castSucc]

theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t = (outsAt8 V c t.val t.isLt).1 := by dsimp only [dat8]

theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d
theorem before8_2 (c : Dev nD) (t : Fin cfg8.N) (d) : (dat8 V c).before 2 t d = iblk8 V c 2 t :=
  before8_2_of V (dat8 V c) (A_eq8 V c 2) (after8_2 V c) t d

/-! ## The body obligation, at a generic point -/

/-- What the body is called with at point t, the windows one by one, -/
def bodyPre8 (c : Dev nD) (t : Fin cfg8.N) : sProp 𝕄 :=
  iprop((dat8 V c).Φ t.castSucc ∗ (dat8 V c).owesAt () t.castSucc
    ∗ (∃ d, owns (c : Thread nD τ) (ms8_0 t) fullShare ((dat8 V c).before 0 t d))
    ∗ (∃ d, owns (c : Thread nD τ) (ms8_1 t) fullShare ((dat8 V c).before 1 t d))
    ∗ (∃ d, owns (c : Thread nD τ) (ms8_2 t) fullShare ((dat8 V c).before 2 t d))
    ∗ (∃ d, owns (c : Thread nD τ) (ms8_3 t) fullShare ((dat8 V c).before 3 t d)))

/-- and what it returns. -/
def bodyPost8 (c : Dev nD) (t : Fin cfg8.N) : sProp 𝕄 :=
  iprop((dat8 V c).Φ t.succ ∗ (dat8 V c).owesAt () t.succ
    ∗ (dat8 V c).leavesExact 0 t
    ∗ (dat8 V c).leavesExact 1 t
    ∗ (dat8 V c).leavesExact 2 t
    ∗ (dat8 V c).leavesExact 3 t)

set_option maxHeartbeats 4800000 in
/-- The body at any point. The inputs' memrefs hold their blocks; the parity of the point says which case it is in; the
    invariant hands the body the accumulator at what the point before left (at anything at the first point) and takes it
    back at this point's contents, by the case's cover; the output's buffer is handed back untouched at a first step and
    at the case's contents at a last step; the core owes nothing throughout. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2]
  rw [show (dat8 V c).owesAt () t.succ = (dat8 V c).owesAt () t.castSucc from rfl]
  rw [show (dat8 V c).Φ t.succ = PhiS8 V c (t.val + 1) t.isLt from rfl, PhiS8_succ]
  have hN : t.val < 8 := lt_of_lt_of_eq t.isLt (show cfg8.N = 8 from N_8)
  rw [show (dat8 V c).leavesExact 0 t = owns (c : Thread nD τ) (ms8_0 t) fullShare ((dat8 V c).after 0 t) from by
    unfold Dat.leavesExact; rw [liveAt8_0 t], after8_0]
  rw [show (dat8 V c).leavesExact 1 t = owns (c : Thread nD τ) (ms8_1 t) fullShare ((dat8 V c).after 1 t) from by
    unfold Dat.leavesExact; rw [liveAt8_1 t], after8_1]
  rw [show (dat8 V c).leavesExact 2 t = owns (c : Thread nD τ) (ms8_2 t) fullShare ((dat8 V c).after 2 t) from by
    unfold Dat.leavesExact; rw [liveAt8_2 t], after8_2]
  by_cases h0 : t.val % 2 = 0
  · by_cases h1 : t.val % 2 = 1
    · exfalso; omega
    · rw [Dat.leavesExact_idle (dat8 V c) 3 t (idleAt8_3_A t ((hcond8_0 t).mpr h0) (fun h => h1 ((hcond8_1 t).mp h))) (noFlush8_3_A t ((hcond8_0 t).mpr h0) (fun h => h1 ((hcond8_1 t).mp h)))]
      rw [outsAt8_A V c t h0 h1]
      unfold sout8_A_0; (try dsimp only)
      by_cases hz : t.val = 0
      · rw [PhiS8_castSucc V c t, PhiS8_zero V c _ _ hz, PhiA8_eq]
        iintro ⟨⟨⟨HS0, Hr⟩, Hg⟩, Ho, ⟨%d0, H0⟩, ⟨%d1, H1⟩, ⟨%d2, H2⟩, ⟨%d3, H3⟩⟩
        iapply ((kernelRun8_A c (grid8.coords t) _ _ _ _ _ _ _ _ _ _ ((hcond8_0 t).mpr h0) (fun h => h1 ((hcond8_1 t).mp h)) (iblk8 V c 0 t) (iblk8 V c 1 t) (iblk8 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover8_A_0 c _ _ _ _ _ _ _ _ _ _ _ _ _ _ _ _)
            iexact Hr
          iexact Hg
        isplitl [Ho]; · iexact Ho
        isplitl [H0]; · iexact H0
        isplitl [H1]; · iexact H1
        isplitl [H2]; · iexact H2
        iexists _; iexact H3
      · rw [PhiS8_castSucc V c t, PhiS8_pos V c _ _ hz]
        iintro ⟨⟨⟨HS0, Hr⟩, Hg⟩, Ho, ⟨%d0, H0⟩, ⟨%d1, H1⟩, ⟨%d2, H2⟩, ⟨%d3, H3⟩⟩
        iapply ((kernelRun8_A c (grid8.coords t) _ _ _ _ _ _ _ _ _ _ ((hcond8_0 t).mpr h0) (fun h => h1 ((hcond8_1 t).mp h)) (iblk8 V c 0 t) (iblk8 V c 1 t) (iblk8 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover8_A_0 c _ _ _ _ _ _ _ _ _ _ _ _ _ _ _ _)
            iexact Hr
          iexact Hg
        isplitl [Ho]; · iexact Ho
        isplitl [H0]; · iexact H0
        isplitl [H1]; · iexact H1
        isplitl [H2]; · iexact H2
        iexists _; iexact H3
  · by_cases h1 : t.val % 2 = 1
    · rw [show (dat8 V c).leavesExact 3 t = owns (c : Thread nD τ) (ms8_3 t) fullShare ((dat8 V c).after 3 t) from by
        unfold Dat.leavesExact; rw [liveAt8_3_C t (fun h => h0 ((hcond8_0 t).mp h)) ((hcond8_1 t).mpr h1)], after8_3]
      rw [outsAt8_C V c t h0 h1]
      unfold out8_C_3 sout8_C_0; (try dsimp only)
      by_cases hz : t.val = 0
      · exfalso; omega
      · rw [PhiS8_castSucc V c t, PhiS8_pos V c _ _ hz]
        iintro ⟨⟨⟨HS0, Hr⟩, Hg⟩, Ho, ⟨%d0, H0⟩, ⟨%d1, H1⟩, ⟨%d2, H2⟩, ⟨%d3, H3⟩⟩
        iapply ((kernelRun8_C c (grid8.coords t) _ _ _ _ _ _ _ _ _ _ (fun h => h0 ((hcond8_0 t).mp h)) ((hcond8_1 t).mpr h1) (iblk8 V c 0 t) (iblk8 V c 1 t) (iblk8 V c 2 t) _).2.2 Set.univ _)
        isplitl [H0]; · iexact H0
        isplitl [H1]; · iexact H1
        isplitl [H2]; · iexact H2
        isplitl [H3]; · iexists _; iexact H3
        isplitl [HS0]; · iexact HS0
        iintro ⟨H0, H1, H2, ⟨%e3, H3⟩, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover8_C_0 c _ _ _ _ _ _ _ _ _ _ _ _ _ _ _ _ _)
            iexact Hr
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover8_C_3 c _ _ _ _ _ _ _ _ _ _ _ _ _ _ _ _ _)
    · exfalso; omega

/-- The library's body obligation, at every point. -/
theorem body_obligation8 (c : Dev nD) : BodyObligation (dat8 (F := F) V c) (defs₀ (F := F)) Variants.none () Set.univ := fun t => by
  rw [bigSep_W8, bigSep_W8]
  exact sound_body8 V c t

/-- What the launch hands the region is the invariant before the first point. -/
theorem hin8 (c : Dev nD) : Pipeline.ΦA spec8 c ⊢ (dat8 V c).Φ 0 := by
  rw [show (dat8 V c).Φ 0 = PhiS8 V c 0 (Nat.zero_le _) from rfl, PhiS8_zero V c 0 _ rfl]
  try exact Idealize.SL.BI.Entails.refl _

/-- After any point but the first the invariant gives the class's back: the accumulator's contents are forgotten. -/
theorem Phi_out8 (c : Dev nD) (t : Fin (cfg8.N + 1)) (ht : t.val ≠ 0) : (dat8 V c).Φ t ⊢ Pipeline.ΦA spec8 c := by
  rw [show (dat8 V c).Φ t = PhiS8 V c t.val (Nat.le_of_lt_succ t.isLt) from rfl, PhiS8_pos V c _ _ ht, PhiA8_eq]
  iintro ⟨⟨HS0, Hr⟩, Hg⟩
  isplitl [HS0 Hr]
  · isplitl [HS0]
    · iexists _; iexact HS0
    iexact Hr
  iexact Hg

/-- The same after the last point. -/
theorem hout8 (c : Dev nD) : (dat8 V c).Φ (Fin.last cfg8.N) ⊢ Pipeline.ΦA spec8 c :=
  Phi_out8 V c _ (by rw [Fin.val_last]; have : cfg8.N = 8 := N_8; omega)

end Cert.Kernel.Gen
end
-- ==== Proof.KernelH.Reg9.lean ====
import proofs.«157173_j56882546868342_2_alg».proof.Proof.KernelH.Launch
import proofs.«157173_j56882546868342_2_alg».proof.Proof.Gen.Kernel.Skeleton
import proofs.«157173_j56882546868342_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384
noncomputable section
namespace Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

-- The three block shapes of this matrix product: the left operand's block, the right operand's block, and the
-- block of the result (the accumulator has the result block's shape).
local notation "BlkA" => S1024x512
local notation "BlkB" => S512x512
local notation "BlkO" => S1024x512

/-! # The matrix product with a carried accumulator, region 9, at the entry contents `V` -/

/-! ## The windows' blocks -/

/-- Window `w`'s block at point `t`, read off its array as the region finds it (`V`). -/
def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-- The left operand's current staging buffer holds its block at every point, fetched there or not, for any proof
    data whose array is `V`'s and whose body leaves the block in place: the window is uncut and never idle. -/
theorem before9_0_of {c : Dev nD} (dat : Dat τ (Elt F) Unit ℕ (UR sig nD τ) ℕ cfg9 c) (hA : dat.A 0 = V c (Pipeline.arrRef spec9 0))
    (hafter : ∀ t, dat.after 0 t = iblk9 V c 0 t) (t : Fin cfg9.N) (d) : dat.before 0 t d = iblk9 V c 0 t :=
  (dat.before_in_eq_fetched 0 rfl (fun _ => rfl) (fun _ _ _ => rfl) (fun t => by rw [hafter]; unfold Dat.blockOf iblk9; rw [hA]; try rfl) t d).trans
    (by unfold Dat.fetched Dat.blockOf iblk9; rw [hA]; try rfl)

/-- The same for the right operand's window. -/
theorem before9_1_of {c : Dev nD} (dat : Dat τ (Elt F) Unit ℕ (UR sig nD τ) ℕ cfg9 c) (hA : dat.A 1 = V c (Pipeline.arrRef spec9 1))
    (hafter : ∀ t, dat.after 1 t = iblk9 V c 1 t) (t : Fin cfg9.N) (d) : dat.before 1 t d = iblk9 V c 1 t :=
  (dat.before_in_eq_fetched 1 rfl (fun _ => rfl) (fun _ _ _ => rfl) (fun t => by rw [hafter]; unfold Dat.blockOf iblk9; rw [hA]; try rfl) t d).trans
    (by unfold Dat.fetched Dat.blockOf iblk9; rw [hA]; try rfl)

/-! ## The body's two branch conditions, decided over the grid -/

/-- The first condition: the reduction coordinate is 0 (the accumulator is zeroed). -/
abbrev cond9_0 (i : grid9.Coords) : Prop := (Scalar.cmpi .ne (Scalar.extui (Scalar.cmpi .eq (BitVec.ofNat 32 (i 2).val) 0#32)) 0#32) = 1#1
/-- It holds at the points ≡ 0 (mod 8). -/
theorem hcond9_0 : ∀ t : Fin cfg9.N, cond9_0 (grid9.coords t) ↔ t.val % 8 = 0 :=
  (by decide +kernel : ∀ t : Fin grid9.N, cond9_0 (grid9.coords t) ↔ t.val % 8 = 0)

/-- The second condition: the reduction coordinate is the last, 7 (the result block is written). -/
abbrev cond9_1 (i : grid9.Coords) : Prop := k9_cond2 i = 1#1
/-- It holds at the points ≡ 7 (mod 8). -/
theorem hcond9_1 : ∀ t : Fin cfg9.N, cond9_1 (grid9.coords t) ↔ t.val % 8 = 7 :=
  (by decide +kernel : ∀ t : Fin grid9.N, cond9_1 (grid9.coords t) ↔ t.val % 8 = 7)

/-! ## Where the windows are idle -/

/-- The operands' windows are never idle. -/
theorem liveAt9_0 : ∀ t : Fin cfg9.N, cfg9.idle 0 (grid9.coords t) = false := by decide +kernel
theorem liveAt9_1 : ∀ t : Fin cfg9.N, cfg9.idle 1 (grid9.coords t) = false := by decide +kernel
/-- At the first reduction step the result window is idle and is not written back. -/
theorem idleAt9_2_A : ∀ t : Fin cfg9.N, cond9_0 (grid9.coords t) → ¬cond9_1 (grid9.coords t) → cfg9.idle 2 (grid9.coords t) = true := by decide +kernel
theorem noFlush9_2_A : ∀ t : Fin cfg9.N, cond9_0 (grid9.coords t) → ¬cond9_1 (grid9.coords t) → (cfg9.win 2).flush t = false := by decide +kernel
/-- At a middle reduction step likewise. -/
theorem idleAt9_2_B : ∀ t : Fin cfg9.N, ¬cond9_0 (grid9.coords t) → ¬cond9_1 (grid9.coords t) → cfg9.idle 2 (grid9.coords t) = true := by decide +kernel
theorem noFlush9_2_B : ∀ t : Fin cfg9.N, ¬cond9_0 (grid9.coords t) → ¬cond9_1 (grid9.coords t) → (cfg9.win 2).flush t = false := by decide +kernel
/-- At the last reduction step the result window is live: the body stores into it. -/
theorem liveAt9_2_C : ∀ t : Fin cfg9.N, ¬cond9_0 (grid9.coords t) → cond9_1 (grid9.coords t) → cfg9.idle 2 (grid9.coords t) = false := by decide +kernel

/-! ## The memrefs the body is called with -/

/-- One staging buffer of the result window, through which its contents are stated. -/
abbrev VO9_2 : View sig .tc .vmem BlkO .bf16 := (Memref.whole cc9_stg2_0 : Memref sig .tc .vmem BlkO .bf16).view
/-- Each window's current staging memref at point `t`, and its wholeness. -/
abbrev ms9_0 (t : Fin cfg9.N) : Memref sig .tc .vmem BlkA .bf16 := win9_0.stage (cfg9.slots t 0)
abbrev hs9_0 (t : Fin cfg9.N) : (ms9_0 t).IsWhole := hstage9_0 ((cfg9.slots t 0).cast nbuf9_0)
abbrev ms9_1 (t : Fin cfg9.N) : Memref sig .tc .vmem BlkB .bf16 := win9_1.stage (cfg9.slots t 1)
abbrev hs9_1 (t : Fin cfg9.N) : (ms9_1 t).IsWhole := hstage9_1 ((cfg9.slots t 1).cast nbuf9_1)
abbrev ms9_2 (t : Fin cfg9.N) : Memref sig .tc .vmem BlkO .bf16 := win9_2.stage (cfg9.slots t 2)
abbrev hs9_2 (t : Fin cfg9.N) : (ms9_2 t).IsWhole := hstage9_2 ((cfg9.slots t 2).cast nbuf9_2)
/-- The accumulator: a whole scoped buffer of the kernel's own, passed beside the windows. -/
abbrev scM9_0 : Memref sig .tc .vmem BlkO .f32 := Memref.whole cc9_scratch0
/-- The accumulator as a view: what it holds is stated through it. -/
abbrev VS9_0 : View sig .tc .vmem BlkO .f32 := scM9_0.view

/-- Every scoped buffer of the program but this region's accumulator, unopened. -/
abbrev rest9 (c : Dev nD) : sProp 𝕄 :=
  Pipeline.scopedRestBut (Ix := Unit) (Name := ℕ) (U := UR sig nD τ) (Lvl := ℕ) (Val := Elt F) spec9 c [cc9_scratch0]

/-- The region's entry invariant with the accumulator as a memref owned at some contents, the other scoped buffers
    unopened, and the generator register at some state. -/
theorem PhiA9_eq (c : Dev nD) :
    (Pipeline.ΦA spec9 c : sProp 𝕄)
      = iprop(iprop(iprop((∃ d, owns (c : Thread nD τ) scM9_0 fullShare d)) ∗ rest9 (F := F) c) ∗ (∃ r, prngReg c r)) := by
  unfold Pipeline.ΦA; rw [scopedRest9_split]; simp only [scM9_0, owns_whole]; try rfl

/-! ## The body's run, case by case -/

set_option maxHeartbeats 1000000 in
/-- FIRST reduction step (the first condition holds, the second does not). On whole memrefs — the operands' at
    their contents, the result's at contents handed back untouched, the accumulator at anything — the body runs to the
    continuation holding the operands' as they were and the accumulator with its stores written: the pieces are the
    witness the run finds. -/
noncomputable def kernelRun9_A (c : Dev nD) (i : grid9.Coords) (arg3 : Memref sig .tc .vmem BlkA .bf16) (harg3 : arg3.IsWhole) (arg9 : Memref sig .tc .vmem BlkB .bf16) (harg9 : arg9.IsWhole) (arg5 : Memref sig .tc .vmem BlkO .bf16) (harg5 : arg5.IsWhole) (arg6 : Memref sig .tc .vmem BlkO .f32) (harg6 : arg6.IsWhole) (hc0 : cond9_0 i) (hc1 : ¬cond9_1 i)
    (x0 : Vec F BlkA .bf16) (x1 : Vec F BlkB .bf16) :
    Σ' (L2 : List (View.Piece (Elt F) BlkO .bf16)), { LS0 : List (View.Piece (Elt F) BlkO .f32) //
      ∀ (xi2 : Vec F BlkO .bf16) (E : Set ℕ) (K : PUnit → sProp 𝕄),
        iprop(owns (c : Thread nD τ) arg3 fullShare x0 ∗ owns (c : Thread nD τ) arg9 fullShare x1 ∗ owns (c : Thread nD τ) arg5 fullShare xi2 ∗ (∃ d, owns (c : Thread nD τ) arg6 fullShare d)
            ∗ (iprop(owns (c : Thread nD τ) arg3 fullShare x0 ∗ owns (c : Thread nD τ) arg9 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc9__mm_kernel_nobias i arg3 harg3 arg9 harg9 arg5 harg5 arg6 harg6) K } := by
  refine ⟨[], ?_, fun xi2 E K => ?run⟩
  case run =>
    simp only [cc9__mm_kernel_nobias_eq_skeleton]; unfold cc9__mm_kernel_nobias_skel
    unfold owns
    iintro ⟨⟨%f0, %hf0, H0⟩, ⟨%f1, %hf1, H1⟩, ⟨%f2, %hf2, H2⟩, ⟨%ds0, %fs0, -, HS0⟩, Hk⟩
    obtain rfl := harg3.eq_unread hf0; obtain rfl := harg9.eq_unread hf1; obtain rfl := harg5.eq_unread hf2
    sl_exec (disch := first | exact hc0 | exact hc1)
    sl_step
    iapply Hk
    isplitl [H0]
    · iexists _; isplitr; · ipureintro; exact harg3.read_unread _
      iexact H0
    isplitl [H1]
    · iexists _; isplitr; · ipureintro; exact harg9.read_unread _
      iexact H1
    isplitl [H2]
    · iexists _; isplitr; · ipureintro; exact harg5.read_unread _
      iexact H2
    iexists _; iexact HS0

set_option maxHeartbeats 1000000 in
/-- MIDDLE reduction step (neither condition holds): as the first, with the accumulator at what the point before left. -/
noncomputable def kernelRun9_B (c : Dev nD) (i : grid9.Coords) (arg3 : Memref sig .tc .vmem BlkA .bf16) (harg3 : arg3.IsWhole) (arg9 : Memref sig .tc .vmem BlkB .bf16) (harg9 : arg9.IsWhole) (arg5 : Memref sig .tc .vmem BlkO .bf16) (harg5 : arg5.IsWhole) (arg6 : Memref sig .tc .vmem BlkO .f32) (harg6 : arg6.IsWhole) (hc0 : ¬cond9_0 i) (hc1 : ¬cond9_1 i)
    (x0 : Vec F BlkA .bf16) (x1 : Vec F BlkB .bf16) (xs0 : Vec F BlkO .f32) :
    Σ' (L2 : List (View.Piece (Elt F) BlkO .bf16)), { LS0 : List (View.Piece (Elt F) BlkO .f32) //
      ∀ (xi2 : Vec F BlkO .bf16) (E : Set ℕ) (K : PUnit → sProp 𝕄),
        iprop(owns (c : Thread nD τ) arg3 fullShare x0 ∗ owns (c : Thread nD τ) arg9 fullShare x1 ∗ owns (c : Thread nD τ) arg5 fullShare xi2 ∗ owns (c : Thread nD τ) arg6 fullShare xs0
            ∗ (iprop(owns (c : Thread nD τ) arg3 fullShare x0 ∗ owns (c : Thread nD τ) arg9 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc9__mm_kernel_nobias i arg3 harg3 arg9 harg9 arg5 harg5 arg6 harg6) K } := by
  refine ⟨[], ?_, fun xi2 E K => ?run⟩
  case run =>
    simp only [cc9__mm_kernel_nobias_eq_skeleton]; unfold cc9__mm_kernel_nobias_skel
    unfold owns
    iintro ⟨⟨%f0, %hf0, H0⟩, ⟨%f1, %hf1, H1⟩, ⟨%f2, %hf2, H2⟩, ⟨%fs0, %hfs0, HS0⟩, Hk⟩
    obtain rfl := harg3.eq_unread hf0; obtain rfl := harg9.eq_unread hf1; obtain rfl := harg5.eq_unread hf2; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg9.read_unread _
      iexact H1
    isplitl [H2]
    · iexists _; isplitr; · ipureintro; exact harg5.read_unread _
      iexact H2
    iexists _; iexact HS0

set_option maxHeartbeats 1000000 in
/-- LAST reduction step (the second condition holds, the first does not): the result's memref at anything, left with
    the body's store written. -/
noncomputable def kernelRun9_C (c : Dev nD) (i : grid9.Coords) (arg3 : Memref sig .tc .vmem BlkA .bf16) (harg3 : arg3.IsWhole) (arg9 : Memref sig .tc .vmem BlkB .bf16) (harg9 : arg9.IsWhole) (arg5 : Memref sig .tc .vmem BlkO .bf16) (harg5 : arg5.IsWhole) (arg6 : Memref sig .tc .vmem BlkO .f32) (harg6 : arg6.IsWhole) (hc0 : ¬cond9_0 i) (hc1 : cond9_1 i)
    (x0 : Vec F BlkA .bf16) (x1 : Vec F BlkB .bf16) (xs0 : Vec F BlkO .f32) :
    Σ' (L2 : List (View.Piece (Elt F) BlkO .bf16)), { LS0 : List (View.Piece (Elt F) BlkO .f32) //
      ∀ (E : Set ℕ) (K : PUnit → sProp 𝕄),
        iprop(owns (c : Thread nD τ) arg3 fullShare x0 ∗ owns (c : Thread nD τ) arg9 fullShare x1 ∗ (∃ d, owns (c : Thread nD τ) arg5 fullShare d) ∗ owns (c : Thread nD τ) arg6 fullShare xs0
            ∗ (iprop(owns (c : Thread nD τ) arg3 fullShare x0 ∗ owns (c : Thread nD τ) arg9 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f LS0)) -∗ K ⟨⟩))
          ⊢ wp frame (wpE (defs₀ (F := F)) Variants.none c none) E (cc9__mm_kernel_nobias i arg3 harg3 arg9 harg9 arg5 harg5 arg6 harg6) K } := by
  refine ⟨?_, ?_, fun E K => ?run⟩
  case run =>
    simp only [cc9__mm_kernel_nobias_eq_skeleton]; unfold cc9__mm_kernel_nobias_skel
    unfold owns
    iintro ⟨⟨%f0, %hf0, H0⟩, ⟨%f1, %hf1, H1⟩, ⟨%d2, %f2, -, H2⟩, ⟨%fs0, %hfs0, HS0⟩, Hk⟩
    obtain rfl := harg3.eq_unread hf0; obtain rfl := harg9.eq_unread hf1; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg9.read_unread _
      iexact H1
    isplitl [H2]; · iexists _; iexact H2
    iexists _; iexact HS0

/-! ## What each case leaves: the found pieces and their covers -/

/-- The first step stores nothing into the result's buffer: a placeholder nothing consults (the window is idle there). -/
def out9_A_2 (c : Dev nD) (i : grid9.Coords) (arg3 : Memref sig .tc .vmem BlkA .bf16) (harg3 : arg3.IsWhole) (arg9 : Memref sig .tc .vmem BlkB .bf16) (harg9 : arg9.IsWhole) (arg5 : Memref sig .tc .vmem BlkO .bf16) (harg5 : arg5.IsWhole) (arg6 : Memref sig .tc .vmem BlkO .f32) (harg6 : arg6.IsWhole) (hc0 : cond9_0 i) (hc1 : ¬cond9_1 i)
    (x0 : Vec F BlkA .bf16) (x1 : Vec F BlkB .bf16) : Vec F BlkO .bf16 :=
  VO9_2.read (Elt F) (VO9_2.writes (Elt F) VO9_2.junk (kernelRun9_A c i arg3 harg3 arg9 harg9 arg5 harg5 arg6 harg6 hc0 hc1 x0 x1).1)

/-- The first step's stores into the accumulator cover it. -/
theorem scover9_A_0 (c : Dev nD) (i : grid9.Coords) (arg3 : Memref sig .tc .vmem BlkA .bf16) (harg3 : arg3.IsWhole) (arg9 : Memref sig .tc .vmem BlkB .bf16) (harg9 : arg9.IsWhole) (arg5 : Memref sig .tc .vmem BlkO .bf16) (harg5 : arg5.IsWhole) (arg6 : Memref sig .tc .vmem BlkO .f32) (harg6 : arg6.IsWhole) (hc0 : cond9_0 i) (hc1 : ¬cond9_1 i)
    (x0 : Vec F BlkA .bf16) (x1 : Vec F BlkB .bf16) (y : (BlkO).Idx) :
    ∃ pc ∈ (kernelRun9_A c i arg3 harg3 arg9 harg9 arg5 harg5 arg6 harg6 hc0 hc1 x0 x1).2.1, y ∈ pc.1.set :=
  View.cover_of_tiledL (kernelRun9_A c i arg3 harg3 arg9 harg9 arg5 harg5 arg6 harg6 hc0 hc1 x0 x1).2.1 (BlkO).size (by sl_kernel_rfl) y

/-- What the first step leaves in the accumulator: its pieces read back. -/
def sout9_A_0 (c : Dev nD) (i : grid9.Coords) (arg3 : Memref sig .tc .vmem BlkA .bf16) (harg3 : arg3.IsWhole) (arg9 : Memref sig .tc .vmem BlkB .bf16) (harg9 : arg9.IsWhole) (arg5 : Memref sig .tc .vmem BlkO .bf16) (harg5 : arg5.IsWhole) (arg6 : Memref sig .tc .vmem BlkO .f32) (harg6 : arg6.IsWhole) (hc0 : cond9_0 i) (hc1 : ¬cond9_1 i)
    (x0 : Vec F BlkA .bf16) (x1 : Vec F BlkB .bf16) : Vec F BlkO .f32 :=
  VS9_0.read (Elt F) (VS9_0.writes (Elt F) VS9_0.junk (kernelRun9_A c i arg3 harg3 arg9 harg9 arg5 harg5 arg6 harg6 hc0 hc1 x0 x1).2.1)

/-- A middle step stores nothing into the result's buffer either. -/
def out9_B_2 (c : Dev nD) (i : grid9.Coords) (arg3 : Memref sig .tc .vmem BlkA .bf16) (harg3 : arg3.IsWhole) (arg9 : Memref sig .tc .vmem BlkB .bf16) (harg9 : arg9.IsWhole) (arg5 : Memref sig .tc .vmem BlkO .bf16) (harg5 : arg5.IsWhole) (arg6 : Memref sig .tc .vmem BlkO .f32) (harg6 : arg6.IsWhole) (hc0 : ¬cond9_0 i) (hc1 : ¬cond9_1 i)
    (x0 : Vec F BlkA .bf16) (x1 : Vec F BlkB .bf16) (xs0 : Vec F BlkO .f32) : Vec F BlkO .bf16 :=
  VO9_2.read (Elt F) (VO9_2.writes (Elt F) VO9_2.junk (kernelRun9_B c i arg3 harg3 arg9 harg9 arg5 harg5 arg6 harg6 hc0 hc1 x0 x1 xs0).1)

/-- A middle step's store into the accumulator covers it. -/
theorem scover9_B_0 (c : Dev nD) (i : grid9.Coords) (arg3 : Memref sig .tc .vmem BlkA .bf16) (harg3 : arg3.IsWhole) (arg9 : Memref sig .tc .vmem BlkB .bf16) (harg9 : arg9.IsWhole) (arg5 : Memref sig .tc .vmem BlkO .bf16) (harg5 : arg5.IsWhole) (arg6 : Memref sig .tc .vmem BlkO .f32) (harg6 : arg6.IsWhole) (hc0 : ¬cond9_0 i) (hc1 : ¬cond9_1 i)
    (x0 : Vec F BlkA .bf16) (x1 : Vec F BlkB .bf16) (xs0 : Vec F BlkO .f32) (y : (BlkO).Idx) :
    ∃ pc ∈ (kernelRun9_B c i arg3 harg3 arg9 harg9 arg5 harg5 arg6 harg6 hc0 hc1 x0 x1 xs0).2.1, y ∈ pc.1.set :=
  View.cover_of_tiledL (kernelRun9_B c i arg3 harg3 arg9 harg9 arg5 harg5 arg6 harg6 hc0 hc1 x0 x1 xs0).2.1 (BlkO).size (by sl_kernel_rfl) y

/-- What a middle step leaves in the accumulator. -/
def sout9_B_0 (c : Dev nD) (i : grid9.Coords) (arg3 : Memref sig .tc .vmem BlkA .bf16) (harg3 : arg3.IsWhole) (arg9 : Memref sig .tc .vmem BlkB .bf16) (harg9 : arg9.IsWhole) (arg5 : Memref sig .tc .vmem BlkO .bf16) (harg5 : arg5.IsWhole) (arg6 : Memref sig .tc .vmem BlkO .f32) (harg6 : arg6.IsWhole) (hc0 : ¬cond9_0 i) (hc1 : ¬cond9_1 i)
    (x0 : Vec F BlkA .bf16) (x1 : Vec F BlkB .bf16) (xs0 : Vec F BlkO .f32) : Vec F BlkO .f32 :=
  VS9_0.read (Elt F) (VS9_0.writes (Elt F) VS9_0.junk (kernelRun9_B c i arg3 harg3 arg9 harg9 arg5 harg5 arg6 harg6 hc0 hc1 x0 x1 xs0).2.1)

/-- The last step's store into the result's buffer covers it. -/
theorem cover9_C_2 (c : Dev nD) (i : grid9.Coords) (arg3 : Memref sig .tc .vmem BlkA .bf16) (harg3 : arg3.IsWhole) (arg9 : Memref sig .tc .vmem BlkB .bf16) (harg9 : arg9.IsWhole) (arg5 : Memref sig .tc .vmem BlkO .bf16) (harg5 : arg5.IsWhole) (arg6 : Memref sig .tc .vmem BlkO .f32) (harg6 : arg6.IsWhole) (hc0 : ¬cond9_0 i) (hc1 : cond9_1 i)
    (x0 : Vec F BlkA .bf16) (x1 : Vec F BlkB .bf16) (xs0 : Vec F BlkO .f32) (y : (BlkO).Idx) :
    ∃ pc ∈ (kernelRun9_C c i arg3 harg3 arg9 harg9 arg5 harg5 arg6 harg6 hc0 hc1 x0 x1 xs0).1, y ∈ pc.1.set :=
  View.cover_of_tiledL (kernelRun9_C c i arg3 harg3 arg9 harg9 arg5 harg5 arg6 harg6 hc0 hc1 x0 x1 xs0).1 (BlkO).size (by sl_kernel_rfl) y

/-- What the last step leaves in the result's buffer. -/
def out9_C_2 (c : Dev nD) (i : grid9.Coords) (arg3 : Memref sig .tc .vmem BlkA .bf16) (harg3 : arg3.IsWhole) (arg9 : Memref sig .tc .vmem BlkB .bf16) (harg9 : arg9.IsWhole) (arg5 : Memref sig .tc .vmem BlkO .bf16) (harg5 : arg5.IsWhole) (arg6 : Memref sig .tc .vmem BlkO .f32) (harg6 : arg6.IsWhole) (hc0 : ¬cond9_0 i) (hc1 : cond9_1 i)
    (x0 : Vec F BlkA .bf16) (x1 : Vec F BlkB .bf16) (xs0 : Vec F BlkO .f32) : Vec F BlkO .bf16 :=
  VO9_2.read (Elt F) (VO9_2.writes (Elt F) VO9_2.junk (kernelRun9_C c i arg3 harg3 arg9 harg9 arg5 harg5 arg6 harg6 hc0 hc1 x0 x1 xs0).1)

/-- The last step's store into the accumulator covers it. -/
theorem scover9_C_0 (c : Dev nD) (i : grid9.Coords) (arg3 : Memref sig .tc .vmem BlkA .bf16) (harg3 : arg3.IsWhole) (arg9 : Memref sig .tc .vmem BlkB .bf16) (harg9 : arg9.IsWhole) (arg5 : Memref sig .tc .vmem BlkO .bf16) (harg5 : arg5.IsWhole) (arg6 : Memref sig .tc .vmem BlkO .f32) (harg6 : arg6.IsWhole) (hc0 : ¬cond9_0 i) (hc1 : cond9_1 i)
    (x0 : Vec F BlkA .bf16) (x1 : Vec F BlkB .bf16) (xs0 : Vec F BlkO .f32) (y : (BlkO).Idx) :
    ∃ pc ∈ (kernelRun9_C c i arg3 harg3 arg9 harg9 arg5 harg5 arg6 harg6 hc0 hc1 x0 x1 xs0).2.1, y ∈ pc.1.set :=
  View.cover_of_tiledL (kernelRun9_C c i arg3 harg3 arg9 harg9 arg5 harg5 arg6 harg6 hc0 hc1 x0 x1 xs0).2.1 (BlkO).size (by sl_kernel_rfl) y

/-- What the last step leaves in the accumulator. -/
def sout9_C_0 (c : Dev nD) (i : grid9.Coords) (arg3 : Memref sig .tc .vmem BlkA .bf16) (harg3 : arg3.IsWhole) (arg9 : Memref sig .tc .vmem BlkB .bf16) (harg9 : arg9.IsWhole) (arg5 : Memref sig .tc .vmem BlkO .bf16) (harg5 : arg5.IsWhole) (arg6 : Memref sig .tc .vmem BlkO .f32) (harg6 : arg6.IsWhole) (hc0 : ¬cond9_0 i) (hc1 : cond9_1 i)
    (x0 : Vec F BlkA .bf16) (x1 : Vec F BlkB .bf16) (xs0 : Vec F BlkO .f32) : Vec F BlkO .f32 :=
  VS9_0.read (Elt F) (VS9_0.writes (Elt F) VS9_0.junk (kernelRun9_C c i arg3 harg3 arg9 harg9 arg5 harg5 arg6 harg6 hc0 hc1 x0 x1 xs0).2.1)

/-! ## What the result's buffer and the accumulator hold after each point -/

/-- THE ACCUMULATION. What the result's staging buffer and the accumulator hold after the body at position `n`:
    the case the closed forms select at `n`, run at the point's memrefs and operand blocks, the accumulator entering
    at what position `n - 1` left. Both conditions at once is met by no point. -/
def outsAt9 (c : Dev nD) : (n : ℕ) → n < cfg9.N → Vec F BlkO .bf16 × Vec F BlkO .f32
  | 0, hn => (out9_A_2 c (grid9.coords ⟨0, hn⟩) (ms9_0 ⟨0, hn⟩) (hs9_0 ⟨0, hn⟩) (ms9_1 ⟨0, hn⟩) (hs9_1 ⟨0, hn⟩) (ms9_2 ⟨0, hn⟩) (hs9_2 ⟨0, hn⟩) scM9_0 (Memref.isWhole_whole _) ((hcond9_0 ⟨0, hn⟩).mpr (Nat.zero_mod _)) (fun h => (fun h => by (try dsimp only at h); omega) ((hcond9_1 ⟨0, hn⟩).mp h)) (iblk9 V c 0 ⟨0, hn⟩) (iblk9 V c 1 ⟨0, hn⟩), sout9_A_0 c (grid9.coords ⟨0, hn⟩) (ms9_0 ⟨0, hn⟩) (hs9_0 ⟨0, hn⟩) (ms9_1 ⟨0, hn⟩) (hs9_1 ⟨0, hn⟩) (ms9_2 ⟨0, hn⟩) (hs9_2 ⟨0, hn⟩) scM9_0 (Memref.isWhole_whole _) ((hcond9_0 ⟨0, hn⟩).mpr (Nat.zero_mod _)) (fun h => (fun h => by (try dsimp only at h); omega) ((hcond9_1 ⟨0, hn⟩).mp h)) (iblk9 V c 0 ⟨0, hn⟩) (iblk9 V c 1 ⟨0, hn⟩))
  | n + 1, hn =>
    if h0 : (n + 1) % 8 = 0 then
      if h1 : (n + 1) % 8 = 7 then
        False.elim (by omega)
      else
        (out9_A_2 c (grid9.coords ⟨n + 1, hn⟩) (ms9_0 ⟨n + 1, hn⟩) (hs9_0 ⟨n + 1, hn⟩) (ms9_1 ⟨n + 1, hn⟩) (hs9_1 ⟨n + 1, hn⟩) (ms9_2 ⟨n + 1, hn⟩) (hs9_2 ⟨n + 1, hn⟩) scM9_0 (Memref.isWhole_whole _) ((hcond9_0 ⟨n + 1, hn⟩).mpr h0) (fun h => h1 ((hcond9_1 ⟨n + 1, hn⟩).mp h)) (iblk9 V c 0 ⟨n + 1, hn⟩) (iblk9 V c 1 ⟨n + 1, hn⟩), sout9_A_0 c (grid9.coords ⟨n + 1, hn⟩) (ms9_0 ⟨n + 1, hn⟩) (hs9_0 ⟨n + 1, hn⟩) (ms9_1 ⟨n + 1, hn⟩) (hs9_1 ⟨n + 1, hn⟩) (ms9_2 ⟨n + 1, hn⟩) (hs9_2 ⟨n + 1, hn⟩) scM9_0 (Memref.isWhole_whole _) ((hcond9_0 ⟨n + 1, hn⟩).mpr h0) (fun h => h1 ((hcond9_1 ⟨n + 1, hn⟩).mp h)) (iblk9 V c 0 ⟨n + 1, hn⟩) (iblk9 V c 1 ⟨n + 1, hn⟩))
    else
      if h1 : (n + 1) % 8 = 7 then
        (out9_C_2 c (grid9.coords ⟨n + 1, hn⟩) (ms9_0 ⟨n + 1, hn⟩) (hs9_0 ⟨n + 1, hn⟩) (ms9_1 ⟨n + 1, hn⟩) (hs9_1 ⟨n + 1, hn⟩) (ms9_2 ⟨n + 1, hn⟩) (hs9_2 ⟨n + 1, hn⟩) scM9_0 (Memref.isWhole_whole _) (fun h => h0 ((hcond9_0 ⟨n + 1, hn⟩).mp h)) ((hcond9_1 ⟨n + 1, hn⟩).mpr h1) (iblk9 V c 0 ⟨n + 1, hn⟩) (iblk9 V c 1 ⟨n + 1, hn⟩) (outsAt9 c n (Nat.lt_of_succ_lt hn)).2, sout9_C_0 c (grid9.coords ⟨n + 1, hn⟩) (ms9_0 ⟨n + 1, hn⟩) (hs9_0 ⟨n + 1, hn⟩) (ms9_1 ⟨n + 1, hn⟩) (hs9_1 ⟨n + 1, hn⟩) (ms9_2 ⟨n + 1, hn⟩) (hs9_2 ⟨n + 1, hn⟩) scM9_0 (Memref.isWhole_whole _) (fun h => h0 ((hcond9_0 ⟨n + 1, hn⟩).mp h)) ((hcond9_1 ⟨n + 1, hn⟩).mpr h1) (iblk9 V c 0 ⟨n + 1, hn⟩) (iblk9 V c 1 ⟨n + 1, hn⟩) (outsAt9 c n (Nat.lt_of_succ_lt hn)).2)
      else
        (out9_B_2 c (grid9.coords ⟨n + 1, hn⟩) (ms9_0 ⟨n + 1, hn⟩) (hs9_0 ⟨n + 1, hn⟩) (ms9_1 ⟨n + 1, hn⟩) (hs9_1 ⟨n + 1, hn⟩) (ms9_2 ⟨n + 1, hn⟩) (hs9_2 ⟨n + 1, hn⟩) scM9_0 (Memref.isWhole_whole _) (fun h => h0 ((hcond9_0 ⟨n + 1, hn⟩).mp h)) (fun h => h1 ((hcond9_1 ⟨n + 1, hn⟩).mp h)) (iblk9 V c 0 ⟨n + 1, hn⟩) (iblk9 V c 1 ⟨n + 1, hn⟩) (outsAt9 c n (Nat.lt_of_succ_lt hn)).2, sout9_B_0 c (grid9.coords ⟨n + 1, hn⟩) (ms9_0 ⟨n + 1, hn⟩) (hs9_0 ⟨n + 1, hn⟩) (ms9_1 ⟨n + 1, hn⟩) (hs9_1 ⟨n + 1, hn⟩) (ms9_2 ⟨n + 1, hn⟩) (hs9_2 ⟨n + 1, hn⟩) scM9_0 (Memref.isWhole_whole _) (fun h => h0 ((hcond9_0 ⟨n + 1, hn⟩).mp h)) (fun h => h1 ((hcond9_1 ⟨n + 1, hn⟩).mp h)) (iblk9 V c 0 ⟨n + 1, hn⟩) (iblk9 V c 1 ⟨n + 1, hn⟩) (outsAt9 c n (Nat.lt_of_succ_lt hn)).2)

/-- `outsAt9` at a first reduction step. -/
theorem outsAt9_A (c : Dev nD) (t : Fin cfg9.N) (h0 : t.val % 8 = 0) (h1 : ¬t.val % 8 = 7) :
    outsAt9 V c t.val t.isLt = (out9_A_2 c (grid9.coords t) (ms9_0 t) (hs9_0 t) (ms9_1 t) (hs9_1 t) (ms9_2 t) (hs9_2 t) scM9_0 (Memref.isWhole_whole _) ((hcond9_0 t).mpr h0) (fun h => h1 ((hcond9_1 t).mp h)) (iblk9 V c 0 t) (iblk9 V c 1 t), sout9_A_0 c (grid9.coords t) (ms9_0 t) (hs9_0 t) (ms9_1 t) (hs9_1 t) (ms9_2 t) (hs9_2 t) scM9_0 (Memref.isWhole_whole _) ((hcond9_0 t).mpr h0) (fun h => h1 ((hcond9_1 t).mp h)) (iblk9 V c 0 t) (iblk9 V c 1 t)) := by
  obtain ⟨n, hn⟩ := t
  cases n with
  | zero => exact rfl
  | succ n => exact (dif_pos h0).trans ((dif_neg h1).trans rfl)

/-- `outsAt9` at a middle reduction step: over what the point before left. -/
theorem outsAt9_B (c : Dev nD) (t : Fin cfg9.N) (h0 : ¬t.val % 8 = 0) (h1 : ¬t.val % 8 = 7) :
    outsAt9 V c t.val t.isLt = (out9_B_2 c (grid9.coords t) (ms9_0 t) (hs9_0 t) (ms9_1 t) (hs9_1 t) (ms9_2 t) (hs9_2 t) scM9_0 (Memref.isWhole_whole _) (fun h => h0 ((hcond9_0 t).mp h)) (fun h => h1 ((hcond9_1 t).mp h)) (iblk9 V c 0 t) (iblk9 V c 1 t) (outsAt9 V c (t.val - 1) (Nat.lt_of_le_of_lt (Nat.sub_le _ _) t.isLt)).2, sout9_B_0 c (grid9.coords t) (ms9_0 t) (hs9_0 t) (ms9_1 t) (hs9_1 t) (ms9_2 t) (hs9_2 t) scM9_0 (Memref.isWhole_whole _) (fun h => h0 ((hcond9_0 t).mp h)) (fun h => h1 ((hcond9_1 t).mp h)) (iblk9 V c 0 t) (iblk9 V c 1 t) (outsAt9 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt9` at a last reduction step: over what the point before left. -/
theorem outsAt9_C (c : Dev nD) (t : Fin cfg9.N) (h0 : ¬t.val % 8 = 0) (h1 : t.val % 8 = 7) :
    outsAt9 V c t.val t.isLt = (out9_C_2 c (grid9.coords t) (ms9_0 t) (hs9_0 t) (ms9_1 t) (hs9_1 t) (ms9_2 t) (hs9_2 t) scM9_0 (Memref.isWhole_whole _) (fun h => h0 ((hcond9_0 t).mp h)) ((hcond9_1 t).mpr h1) (iblk9 V c 0 t) (iblk9 V c 1 t) (outsAt9 V c (t.val - 1) (Nat.lt_of_le_of_lt (Nat.sub_le _ _) t.isLt)).2, sout9_C_0 c (grid9.coords t) (ms9_0 t) (hs9_0 t) (ms9_1 t) (hs9_1 t) (ms9_2 t) (hs9_2 t) scM9_0 (Memref.isWhole_whole _) (fun h => h0 ((hcond9_0 t).mp h)) ((hcond9_1 t).mpr h1) (iblk9 V c 0 t) (iblk9 V c 1 t) (outsAt9 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region invariant, carrying the accumulator -/

/-- Before the first point the entry invariant; after point `n` the accumulator at what that point left, the other
    scoped buffers unopened, the generator register at some state. -/
def PhiS9 (c : Dev nD) : (n : ℕ) → n ≤ cfg9.N → sProp 𝕄
  | 0, _ => Pipeline.ΦA spec9 c
  | n + 1, hn => iprop(iprop(iprop(owns (c : Thread nD τ) scM9_0 fullShare ((outsAt9 V c n hn).2)) ∗ rest9 (F := F) c) ∗ (∃ r, prngReg c r))

theorem PhiS9_zero (c : Dev nD) (n : ℕ) (h : n ≤ cfg9.N) (hz : n = 0) : PhiS9 V c n h = Pipeline.ΦA spec9 c := by
  subst hz; rfl

theorem PhiS9_succ (c : Dev nD) (n : ℕ) (hn : n < cfg9.N) :
    PhiS9 V c (n + 1) hn = iprop(iprop(iprop(owns (c : Thread nD τ) scM9_0 fullShare ((outsAt9 V c n hn).2)) ∗ rest9 (F := F) c) ∗ (∃ r, prngReg c r)) := rfl

theorem PhiS9_pos (c : Dev nD) (n : ℕ) (h : n ≤ cfg9.N) (hz : n ≠ 0) :
    PhiS9 V c n h = iprop(iprop(iprop(owns (c : Thread nD τ) scM9_0 fullShare ((outsAt9 V c (n - 1) (by omega)).2)) ∗ rest9 (F := F) c) ∗ (∃ r, prngReg c r)) := by
  cases n with
  | zero => exact absurd rfl hz
  | succ n => rfl

/-! ## The pipeline's proof data -/

/-- The proof data of this region on core `c`: the arrays as the region finds them; after the body at point `t`
    each operand's buffer at its block and the result's at `outsAt9`; the invariant `PhiS9`; nothing owed; full shares. -/
def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => (outsAt9 V c t.val t.isLt).1
  Φ t := PhiS9 V c t.val (Nat.le_of_lt_succ t.isLt)
  q _ := fullShare
  owed _ := 0

theorem A_eq9 (c : Dev nD) (w : Fin cfg9.W) : (dat9 V c).A w = V c (Pipeline.arrRef spec9 w) := by
  dsimp only [dat9]

theorem PhiS9_castSucc (c : Dev nD) (t : Fin cfg9.N) :
    (dat9 V c).Φ t.castSucc = PhiS9 V c t.val (Nat.le_of_lt t.isLt) := by
  dsimp only [dat9]; simp only [Fin.coe_castSucc]

theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = (outsAt9 V c t.val t.isLt).1 := by dsimp only [dat9]

theorem before9_0 (c : Dev nD) (t : Fin cfg9.N) (d) : (dat9 V c).before 0 t d = iblk9 V c 0 t :=
  before9_0_of V (dat9 V c) (A_eq9 V c 0) (after9_0 V c) t d
theorem before9_1 (c : Dev nD) (t : Fin cfg9.N) (d) : (dat9 V c).before 1 t d = iblk9 V c 1 t :=
  before9_1_of V (dat9 V c) (A_eq9 V c 1) (after9_1 V c) t d

/-! ## The body obligation, at a generic point -/

def bodyPre9 (c : Dev nD) (t : Fin cfg9.N) : sProp 𝕄 :=
  iprop((dat9 V c).Φ t.castSucc ∗ (dat9 V c).owesAt () t.castSucc
    ∗ (∃ d, owns (c : Thread nD τ) (ms9_0 t) fullShare ((dat9 V c).before 0 t d))
    ∗ (∃ d, owns (c : Thread nD τ) (ms9_1 t) fullShare ((dat9 V c).before 1 t d))
    ∗ (∃ d, owns (c : Thread nD τ) (ms9_2 t) fullShare ((dat9 V c).before 2 t d)))

def bodyPost9 (c : Dev nD) (t : Fin cfg9.N) : sProp 𝕄 :=
  iprop((dat9 V c).Φ t.succ ∗ (dat9 V c).owesAt () t.succ
    ∗ (dat9 V c).leavesExact 0 t
    ∗ (dat9 V c).leavesExact 1 t
    ∗ (dat9 V c).leavesExact 2 t)

set_option maxHeartbeats 4800000 in
/-- The body at any point: the operands' memrefs hold their blocks; the closed forms say which case the point is in;
    the invariant hands the body the accumulator at what the point before left (at anything at the first point) and
    takes it back at this point's contents; the other scoped buffers, the generator register and the core's debts
    pass through. -/
theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0, before9_1]
  rw [show (dat9 V c).owesAt () t.succ = (dat9 V c).owesAt () t.castSucc from rfl]
  rw [show (dat9 V c).Φ t.succ = PhiS9 V c (t.val + 1) t.isLt from rfl, PhiS9_succ]
  have hN : t.val < 32 := lt_of_lt_of_eq t.isLt (show cfg9.N = 32 from N_9)
  by_cases h0 : t.val % 8 = 0
  · by_cases h1 : t.val % 8 = 7
    · exfalso; omega
    ·
      rw [show (dat9 V c).leavesExact 0 t = owns (c : Thread nD τ) (ms9_0 t) fullShare ((dat9 V c).after 0 t) from by
        unfold Dat.leavesExact; rw [liveAt9_0 t], after9_0]
      rw [show (dat9 V c).leavesExact 1 t = owns (c : Thread nD τ) (ms9_1 t) fullShare ((dat9 V c).after 1 t) from by
        unfold Dat.leavesExact; rw [liveAt9_1 t], after9_1]
      rw [Dat.leavesExact_idle (dat9 V c) 2 t (idleAt9_2_A t ((hcond9_0 t).mpr h0) (fun h => h1 ((hcond9_1 t).mp h))) (noFlush9_2_A t ((hcond9_0 t).mpr h0) (fun h => h1 ((hcond9_1 t).mp h)))]
      rw [outsAt9_A V c t h0 h1]
      unfold sout9_A_0; (try dsimp only)
      by_cases hz : t.val = 0
      · rw [PhiS9_castSucc V c t, PhiS9_zero V c _ _ hz, PhiA9_eq]
        iintro ⟨⟨⟨HS0, Hr⟩, Hg⟩, Ho, ⟨%d0, H0⟩, ⟨%d1, H1⟩, ⟨%d2, H2⟩⟩
        iapply ((kernelRun9_A c (grid9.coords t) _ _ _ _ _ _ _ _ ((hcond9_0 t).mpr h0) (fun h => h1 ((hcond9_1 t).mp h)) (iblk9 V c 0 t) (iblk9 V c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover9_A_0 c _ _ _ _ _ _ _ _ _ _ _ _ _)
            iexact Hr
          iexact Hg
        isplitl [Ho]; · iexact Ho
        isplitl [H0]; · iexact H0
        isplitl [H1]; · iexact H1
        iexists _; iexact H2
      · rw [PhiS9_castSucc V c t, PhiS9_pos V c _ _ hz]
        iintro ⟨⟨⟨HS0, Hr⟩, Hg⟩, Ho, ⟨%d0, H0⟩, ⟨%d1, H1⟩, ⟨%d2, H2⟩⟩
        iapply ((kernelRun9_A c (grid9.coords t) _ _ _ _ _ _ _ _ ((hcond9_0 t).mpr h0) (fun h => h1 ((hcond9_1 t).mp h)) (iblk9 V c 0 t) (iblk9 V c 1 t)).2.2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover9_A_0 c _ _ _ _ _ _ _ _ _ _ _ _ _)
            iexact Hr
          iexact Hg
        isplitl [Ho]; · iexact Ho
        isplitl [H0]; · iexact H0
        isplitl [H1]; · iexact H1
        iexists _; iexact H2
  · by_cases h1 : t.val % 8 = 7
    ·
      rw [show (dat9 V c).leavesExact 0 t = owns (c : Thread nD τ) (ms9_0 t) fullShare ((dat9 V c).after 0 t) from by
        unfold Dat.leavesExact; rw [liveAt9_0 t], after9_0]
      rw [show (dat9 V c).leavesExact 1 t = owns (c : Thread nD τ) (ms9_1 t) fullShare ((dat9 V c).after 1 t) from by
        unfold Dat.leavesExact; rw [liveAt9_1 t], after9_1]
      rw [show (dat9 V c).leavesExact 2 t = owns (c : Thread nD τ) (ms9_2 t) fullShare ((dat9 V c).after 2 t) from by
        unfold Dat.leavesExact; rw [liveAt9_2_C t (fun h => h0 ((hcond9_0 t).mp h)) ((hcond9_1 t).mpr h1)], after9_2]
      rw [outsAt9_C V c t h0 h1]
      unfold out9_C_2 sout9_C_0; (try dsimp only)
      by_cases hz : t.val = 0
      · exfalso; omega
      · rw [PhiS9_castSucc V c t, PhiS9_pos V c _ _ hz]
        iintro ⟨⟨⟨HS0, Hr⟩, Hg⟩, Ho, ⟨%d0, H0⟩, ⟨%d1, H1⟩, ⟨%d2, H2⟩⟩
        iapply ((kernelRun9_C c (grid9.coords t) _ _ _ _ _ _ _ _ (fun h => h0 ((hcond9_0 t).mp h)) ((hcond9_1 t).mpr h1) (iblk9 V c 0 t) (iblk9 V c 1 t) _).2.2 Set.univ _)
        isplitl [H0]; · iexact H0
        isplitl [H1]; · iexact H1
        isplitl [H2]; · iexists _; iexact H2
        isplitl [HS0]; · iexact HS0
        iintro ⟨H0, H1, ⟨%e2, H2⟩, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover9_C_0 c _ _ _ _ _ _ _ _ _ _ _ _ _ _)
            iexact Hr
          iexact Hg
        isplitl [Ho]; · iexact Ho
        isplitl [H0]; · iexact H0
        isplitl [H1]; · iexact H1
        unfold owns; iexists _; isplitr
        swap; · iexact H2
        ipureintro; exact View.read_writes_of_cover _ _ _ _ _ (cover9_C_2 c _ _ _ _ _ _ _ _ _ _ _ _ _ _)
    ·
      rw [show (dat9 V c).leavesExact 0 t = owns (c : Thread nD τ) (ms9_0 t) fullShare ((dat9 V c).after 0 t) from by
        unfold Dat.leavesExact; rw [liveAt9_0 t], after9_0]
      rw [show (dat9 V c).leavesExact 1 t = owns (c : Thread nD τ) (ms9_1 t) fullShare ((dat9 V c).after 1 t) from by
        unfold Dat.leavesExact; rw [liveAt9_1 t], after9_1]
      rw [Dat.leavesExact_idle (dat9 V c) 2 t (idleAt9_2_B t (fun h => h0 ((hcond9_0 t).mp h)) (fun h => h1 ((hcond9_1 t).mp h))) (noFlush9_2_B t (fun h => h0 ((hcond9_0 t).mp h)) (fun h => h1 ((hcond9_1 t).mp h)))]
      rw [outsAt9_B V c t h0 h1]
      unfold sout9_B_0; (try dsimp only)
      by_cases hz : t.val = 0
      · exfalso; omega
      · rw [PhiS9_castSucc V c t, PhiS9_pos V c _ _ hz]
        iintro ⟨⟨⟨HS0, Hr⟩, Hg⟩, Ho, ⟨%d0, H0⟩, ⟨%d1, H1⟩, ⟨%d2, H2⟩⟩
        iapply ((kernelRun9_B c (grid9.coords t) _ _ _ _ _ _ _ _ (fun h => h0 ((hcond9_0 t).mp h)) (fun h => h1 ((hcond9_1 t).mp h)) (iblk9 V c 0 t) (iblk9 V c 1 t) _).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover9_B_0 c _ _ _ _ _ _ _ _ _ _ _ _ _ _)
            iexact Hr
          iexact Hg
        isplitl [Ho]; · iexact Ho
        isplitl [H0]; · iexact H0
        isplitl [H1]; · iexact H1
        iexists _; iexact H2

/-- The library's body obligation, at every point. -/
theorem body_obligation9 (c : Dev nD) : BodyObligation (dat9 (F := F) V c) (defs₀ (F := F)) Variants.none () Set.univ := fun t => by
  rw [bigSep_W9, bigSep_W9]
  exact sound_body9 V c t

/-- What the launch hands the region is the invariant before the first point. -/
theorem hin9 (c : Dev nD) : Pipeline.ΦA spec9 c ⊢ (dat9 V c).Φ 0 := by
  rw [show (dat9 V c).Φ 0 = PhiS9 V c 0 (Nat.zero_le _) from rfl, PhiS9_zero V c 0 _ rfl]
  try exact Idealize.SL.BI.Entails.refl _

/-- After any point but the first the invariant gives the entry invariant back: the accumulator's contents are forgotten. -/
theorem Phi_out9 (c : Dev nD) (t : Fin (cfg9.N + 1)) (ht : t.val ≠ 0) : (dat9 V c).Φ t ⊢ Pipeline.ΦA spec9 c := by
  rw [show (dat9 V c).Φ t = PhiS9 V c t.val (Nat.le_of_lt_succ t.isLt) from rfl, PhiS9_pos V c _ _ ht, PhiA9_eq]
  iintro ⟨⟨HS0, Hr⟩, Hg⟩
  isplitl [HS0 Hr]
  · isplitl [HS0]
    · iexists _; iexact HS0
    iexact Hr
  iexact Hg

/-- The same after the last point. -/
theorem hout9 (c : Dev nD) : (dat9 V c).Φ (Fin.last cfg9.N) ⊢ Pipeline.ΦA spec9 c :=
  Phi_out9 V c _ (by rw [Fin.val_last]; have : cfg9.N = 32 := N_9; omega)

end Cert.Kernel.Gen
end
-- ==== Proof.KernelH.Reg10.lean ====
import proofs.«157173_j56882546868342_2_alg».proof.Proof.KernelH.Launch
import proofs.«157173_j56882546868342_2_alg».proof.Proof.Gen.Kernel.Skeleton
import proofs.«157173_j56882546868342_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 10 of @main: `cc10__attn_kernel` on the grid (4), at the entry contents `V`

One control case: at every point the body loads the four input windows whole, and stores one payload over the whole
output window. The invariant is the class's own at every point. -/

/-! ## The windows' blocks -/

/-- Window `w`'s block at point `t`, read off its array as the region finds it (`V`). -/
def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

/-- Input window 0's current staging buffer holds its block at every point, fetched there or not, for any proof
    data whose array is `V`'s and whose body leaves the block in place: where the window is not fetched its block
    index has not moved, so the block held from the point before is this point's. -/
theorem before10_0_of {c : Dev nD} (dat : Dat τ (Elt F) Unit ℕ (UR sig nD τ) ℕ cfg10 c) (hA : dat.A 0 = V c (Pipeline.arrRef spec10 0))
    (hafter : ∀ t, dat.after 0 t = iblk10 V c 0 t) (t : Fin cfg10.N) (d) : dat.before 0 t d = iblk10 V c 0 t :=
  (dat.before_in_eq_fetched 0 rfl (fun _ => rfl) (fun _ _ _ => rfl) (fun t => by rw [hafter]; unfold Dat.blockOf iblk10; rw [hA]; try rfl) t d).trans
    (by unfold Dat.fetched Dat.blockOf iblk10; rw [hA]; try rfl)

/-- Input window 1's current staging buffer holds its block at every point, fetched there or not, for any proof
    data whose array is `V`'s and whose body leaves the block in place: where the window is not fetched its block
    index has not moved, so the block held from the point before is this point's. -/
theorem before10_1_of {c : Dev nD} (dat : Dat τ (Elt F) Unit ℕ (UR sig nD τ) ℕ cfg10 c) (hA : dat.A 1 = V c (Pipeline.arrRef spec10 1))
    (hafter : ∀ t, dat.after 1 t = iblk10 V c 1 t) (t : Fin cfg10.N) (d) : dat.before 1 t d = iblk10 V c 1 t :=
  (dat.before_in_eq_fetched 1 rfl (fun _ => rfl) (fun _ _ _ => rfl) (fun t => by rw [hafter]; unfold Dat.blockOf iblk10; rw [hA]; try rfl) t d).trans
    (by unfold Dat.fetched Dat.blockOf iblk10; rw [hA]; try rfl)

/-- Input window 2's current staging buffer holds its block at every point, fetched there or not, for any proof
    data whose array is `V`'s and whose body leaves the block in place: where the window is not fetched its block
    index has not moved, so the block held from the point before is this point's. -/
theorem before10_2_of {c : Dev nD} (dat : Dat τ (Elt F) Unit ℕ (UR sig nD τ) ℕ cfg10 c) (hA : dat.A 2 = V c (Pipeline.arrRef spec10 2))
    (hafter : ∀ t, dat.after 2 t = iblk10 V c 2 t) (t : Fin cfg10.N) (d) : dat.before 2 t d = iblk10 V c 2 t :=
  (dat.before_in_eq_fetched 2 rfl (fun _ => rfl) (fun _ _ _ => rfl) (fun t => by rw [hafter]; unfold Dat.blockOf iblk10; rw [hA]; try rfl) t d).trans
    (by unfold Dat.fetched Dat.blockOf iblk10; rw [hA]; try rfl)

/-- Input window 3's current staging buffer holds its block at every point, fetched there or not, for any proof
    data whose array is `V`'s and whose body leaves the block in place: where the window is not fetched its block
    index has not moved, so the block held from the point before is this point's. -/
theorem before10_3_of {c : Dev nD} (dat : Dat τ (Elt F) Unit ℕ (UR sig nD τ) ℕ cfg10 c) (hA : dat.A 3 = V c (Pipeline.arrRef spec10 3))
    (hafter : ∀ t, dat.after 3 t = iblk10 V c 3 t) (t : Fin cfg10.N) (d) : dat.before 3 t d = iblk10 V c 3 t :=
  (dat.before_in_eq_fetched 3 rfl (fun _ => rfl) (fun _ _ _ => rfl) (fun t => by rw [hafter]; unfold Dat.blockOf iblk10; rw [hA]; try rfl) t d).trans
    (by unfold Dat.fetched Dat.blockOf iblk10; rw [hA]; try rfl)

/-! ## The body's accesses: each window's buffer, whole -/

abbrev r10_0 : Rect S1024x512 := Rect.unit (s := S1024x512) ![0, 0] S1024x512.size inb_S1024x512_S1024x512_0_0
abbrev r10_1 : Rect S512x512 := Rect.unit (s := S512x512) ![0, 0] S512x512.size inb_S512x512_S512x512_0_0
abbrev r10_2 : Rect S1x512 := Rect.unit (s := S1x512) ![0, 0] S1x512.size inb_S1x512_S1x512_0_0
abbrev r10_4 : Rect S1024x1 := Rect.unit (s := S1024x1) ![0, 0] S1024x1.size inb_S1024x1_S1024x1_0_0

/-! ## What the body leaves in the output window's buffer -/

/-- Window 4's staging buffer after the body, from the input windows' blocks: its one store, of the payload computed
    from the four loads, over the whole buffer. -/
def out10_4 (x0 : Vec F S1024x512 .bf16) (x1 : Vec F S512x512 .bf16) (x2 x3 : Vec F S1x512 .f32) : Vec F S1024x1 .f32 :=
  View.canon [⟨r10_4, k10_pay1 (View.ld x0 r10_0) (View.ld x1 r10_1) (View.ld x2 r10_2) (View.ld x3 r10_2)⟩]

/-- The store is over the whole buffer, so it covers it. -/
theorem cover10_4 (p0 : Vec F S1024x1 .f32) (y : S1024x1.Idx) :
    ∃ pc ∈ ([⟨r10_4, p0⟩] : List (View.Piece (Elt F) S1024x1 .f32)), y ∈ pc.1.set :=
  View.cover_of_tiled [⟨r10_4, p0⟩] S1024x1.size (by rfl) y

/-! ## The body's triple -/

set_option maxHeartbeats 1000000 in
/-- The kernel body on whole staging memrefs, the inputs' at read contents `xW` and the output's at anything, runs to
    the continuation holding the inputs' as they were and the output's at `out10_4` of the inputs'. The load of the
    output's prior contents is of a value no store uses. -/
theorem sound_kernel10 (c : Dev nD) (E : Set ℕ) (i : grid10.Coords)
    (arg1 : Memref sig .tc .vmem S1024x512 .bf16) (harg1 : arg1.IsWhole) (arg2 : Memref sig .tc .vmem S512x512 .bf16) (harg2 : arg2.IsWhole)
    (arg3 : Memref sig .tc .vmem S1x512 .f32) (harg3 : arg3.IsWhole) (arg4 : Memref sig .tc .vmem S1x512 .f32) (harg4 : arg4.IsWhole)
    (arg5 : Memref sig .tc .vmem S1024x1 .f32) (harg5 : arg5.IsWhole)
    (x0 : Vec F S1024x512 .bf16) (x1 : Vec F S512x512 .bf16) (x2 x3 : Vec F S1x512 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out10_4 x0 x1 x2 x3)) -∗ K ⟨⟩))
      ⊢ wp frame (wpE (defs₀ (F := F)) Variants.none c none) E (cc10__attn_kernel i arg1 harg1 arg2 harg2 arg3 harg3 arg4 harg4 arg5 harg5) K := by
  simp only [cc10__attn_kernel_eq_skeleton]; unfold cc10__attn_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover10_4 _)

/-! ## The pipeline's proof data -/

/-- The proof data of pipeline 10 on core `c`: the arrays as the region finds them (`V`); after the body at point
    `t` each input's buffer at its block and the output's at `out10_4` of the input blocks; the invariant the class's
    own at every point; nothing owed; full shares. -/
def dat10 (c : Dev nD) : Dat τ (Elt F) Unit ℕ (UR sig nD τ) ℕ cfg10 c where
  A w := V c (Pipeline.arrRef spec10 w)
  after w t := match w with
    | ⟨0, _⟩ => iblk10 V c 0 t
    | ⟨1, _⟩ => iblk10 V c 1 t
    | ⟨2, _⟩ => iblk10 V c 2 t
    | ⟨3, _⟩ => iblk10 V c 3 t
    | ⟨4, _⟩ => out10_4 (iblk10 V c 0 t) (iblk10 V c 1 t) (iblk10 V c 2 t) (iblk10 V c 3 t)
  Φ _ := Pipeline.ΦA spec10 c
  q _ := fullShare
  owed _ := 0

/-- The proof data's arrays are the region-entry contents. -/
theorem A_eq10 (c : Dev nD) (w : Fin cfg10.W) : (dat10 V c).A w = V c (Pipeline.arrRef spec10 w) := by
  dsimp only [dat10]

/-- What the body leaves, window by window. -/
theorem after10_0 (c : Dev nD) (t : Fin cfg10.N) : (dat10 V c).after 0 t = iblk10 V c 0 t := by dsimp only [dat10]
theorem after10_1 (c : Dev nD) (t : Fin cfg10.N) : (dat10 V c).after 1 t = iblk10 V c 1 t := by dsimp only [dat10]
theorem after10_2 (c : Dev nD) (t : Fin cfg10.N) : (dat10 V c).after 2 t = iblk10 V c 2 t := by dsimp only [dat10]
theorem after10_3 (c : Dev nD) (t : Fin cfg10.N) : (dat10 V c).after 3 t = iblk10 V c 3 t := by dsimp only [dat10]
theorem after10_4 (c : Dev nD) (t : Fin cfg10.N) :
    (dat10 V c).after 4 t = out10_4 (iblk10 V c 0 t) (iblk10 V c 1 t) (iblk10 V c 2 t) (iblk10 V c 3 t) := by dsimp only [dat10]

/-- Each input's current staging buffer holds its block at every point, fetched there or not. -/
theorem before10_0 (c : Dev nD) (t : Fin cfg10.N) (d) : (dat10 V c).before 0 t d = iblk10 V c 0 t :=
  before10_0_of V (dat10 V c) (A_eq10 V c 0) (after10_0 V c) t d
theorem before10_1 (c : Dev nD) (t : Fin cfg10.N) (d) : (dat10 V c).before 1 t d = iblk10 V c 1 t :=
  before10_1_of V (dat10 V c) (A_eq10 V c 1) (after10_1 V c) t d
theorem before10_2 (c : Dev nD) (t : Fin cfg10.N) (d) : (dat10 V c).before 2 t d = iblk10 V c 2 t :=
  before10_2_of V (dat10 V c) (A_eq10 V c 2) (after10_2 V c) t d
theorem before10_3 (c : Dev nD) (t : Fin cfg10.N) (d) : (dat10 V c).before 3 t d = iblk10 V c 3 t :=
  before10_3_of V (dat10 V c) (A_eq10 V c 3) (after10_3 V c) t d

/-! ## The body obligation, at a generic point -/

/-- What the body is called with at point `t`, the windows one by one, -/
def bodyPre10 (c : Dev nD) (t : Fin cfg10.N) : sProp 𝕄 :=
  iprop((dat10 V c).Φ t.castSucc ∗ (dat10 V c).owesAt () t.castSucc
    ∗ (∃ d, owns (c : Thread nD τ) (st10_0 t) fullShare ((dat10 V c).before 0 t d))
    ∗ (∃ d, owns (c : Thread nD τ) (st10_1 t) fullShare ((dat10 V c).before 1 t d))
    ∗ (∃ d, owns (c : Thread nD τ) (st10_2 t) fullShare ((dat10 V c).before 2 t d))
    ∗ (∃ d, owns (c : Thread nD τ) (st10_3 t) fullShare ((dat10 V c).before 3 t d))
    ∗ (∃ d, owns (c : Thread nD τ) (st10_4 t) fullShare ((dat10 V c).before 4 t d)))

/-- and what it returns. -/
def bodyPost10 (c : Dev nD) (t : Fin cfg10.N) : sProp 𝕄 :=
  iprop((dat10 V c).Φ t.succ ∗ (dat10 V c).owesAt () t.succ
    ∗ owns (c : Thread nD τ) (st10_0 t) fullShare ((dat10 V c).after 0 t)
    ∗ owns (c : Thread nD τ) (st10_1 t) fullShare ((dat10 V c).after 1 t)
    ∗ owns (c : Thread nD τ) (st10_2 t) fullShare ((dat10 V c).after 2 t)
    ∗ owns (c : Thread nD τ) (st10_3 t) fullShare ((dat10 V c).after 3 t)
    ∗ owns (c : Thread nD τ) (st10_4 t) fullShare ((dat10 V c).after 4 t))

/-- The body at any point: the inputs' memrefs hold their blocks, so `sound_kernel10` applies; the invariant and the
    core's debts pass through unread. -/
theorem sound_body10 (c : Dev nD) (t : Fin cfg10.N) :
    bodyPre10 V c t ⊢ wp frame (wpE (defs₀ (F := F)) Variants.none c none) Set.univ (bodyAt10 t) (fun _ => bodyPost10 V c t) := by
  unfold bodyPre10 bodyPost10 bodyAt10
  simp only [before10_0, before10_1, before10_2, before10_3]
  rw [show (dat10 V c).Φ t.succ = (dat10 V c).Φ t.castSucc from rfl,
    show (dat10 V c).owesAt () t.succ = (dat10 V c).owesAt () t.castSucc from rfl,
    after10_0, after10_1, after10_2, after10_3, after10_4]
  iintro ⟨HΦ, Ho, ⟨%d0, H0⟩, ⟨%d1, H1⟩, ⟨%d2, H2⟩, ⟨%d3, H3⟩, ⟨%d4, H4⟩⟩
  iapply (sound_kernel10 c Set.univ _ _ _ _ _ _ _ _ _ _ _ (iblk10 V c 0 t) (iblk10 V c 1 t) (iblk10 V c 2 t) (iblk10 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation10 (c : Dev nD) : BodyObligation (dat10 (F := F) V c) (defs₀ (F := F)) Variants.none () Set.univ := fun t => by
  rw [bigSep_W10, bigSep_W10]
  exact sound_body10 V c t

/-! ## The invariant at the region's ends -/

/-- The class's invariant is the proof data's before the first point -/
theorem hin10 (c : Dev nD) : Pipeline.ΦA spec10 c ⊢ (dat10 V c).Φ 0 :=
  Idealize.SL.BI.Entails.refl _

/-- and after the last. -/
theorem hout10 (c : Dev nD) : (dat10 V c).Φ (Fin.last cfg10.N) ⊢ Pipeline.ΦA spec10 c :=
  Idealize.SL.BI.Entails.refl _

end Cert.Kernel.Gen
-- ==== Proof.KernelH.Reg11.lean ====
import proofs.«157173_j56882546868342_2_alg».proof.Proof.KernelH.Launch
import proofs.«157173_j56882546868342_2_alg».proof.Proof.Gen.Kernel.Skeleton
import proofs.«157173_j56882546868342_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 11 of @main: `cc11__attn_kernel` on the grid (4), at the entry contents `V`

One control case: at every point the body loads the four input windows whole, and stores one payload over the whole
output window. The invariant is the class's own at every point. -/

/-! ## The windows' blocks -/

/-- Window `w`'s block at point `t`, read off its array as the region finds it (`V`). -/
def iblk11 (c : Dev nD) (w : Fin cfg11.W) (t : Fin cfg11.N) : ((cfg11.win w).xblock (cfg11.grid.coords t)).Idx → Elt F (cfg11.win w).elt :=
  ((cfg11.win w).blk t).view.read (Elt F) (V c (Pipeline.arrRef spec11 w))

/-- Input window 0's current staging buffer holds its block at every point, fetched there or not, for any proof
    data whose array is `V`'s and whose body leaves the block in place: where the window is not fetched its block
    index has not moved, so the block held from the point before is this point's. -/
theorem before11_0_of {c : Dev nD} (dat : Dat τ (Elt F) Unit ℕ (UR sig nD τ) ℕ cfg11 c) (hA : dat.A 0 = V c (Pipeline.arrRef spec11 0))
    (hafter : ∀ t, dat.after 0 t = iblk11 V c 0 t) (t : Fin cfg11.N) (d) : dat.before 0 t d = iblk11 V c 0 t :=
  (dat.before_in_eq_fetched 0 rfl (fun _ => rfl) (fun _ _ _ => rfl) (fun t => by rw [hafter]; unfold Dat.blockOf iblk11; rw [hA]; try rfl) t d).trans
    (by unfold Dat.fetched Dat.blockOf iblk11; rw [hA]; try rfl)

/-- Input window 1's current staging buffer holds its block at every point, fetched there or not, for any proof
    data whose array is `V`'s and whose body leaves the block in place: where the window is not fetched its block
    index has not moved, so the block held from the point before is this point's. -/
theorem before11_1_of {c : Dev nD} (dat : Dat τ (Elt F) Unit ℕ (UR sig nD τ) ℕ cfg11 c) (hA : dat.A 1 = V c (Pipeline.arrRef spec11 1))
    (hafter : ∀ t, dat.after 1 t = iblk11 V c 1 t) (t : Fin cfg11.N) (d) : dat.before 1 t d = iblk11 V c 1 t :=
  (dat.before_in_eq_fetched 1 rfl (fun _ => rfl) (fun _ _ _ => rfl) (fun t => by rw [hafter]; unfold Dat.blockOf iblk11; rw [hA]; try rfl) t d).trans
    (by unfold Dat.fetched Dat.blockOf iblk11; rw [hA]; try rfl)

/-- Input window 2's current staging buffer holds its block at every point, fetched there or not, for any proof
    data whose array is `V`'s and whose body leaves the block in place: where the window is not fetched its block
    index has not moved, so the block held from the point before is this point's. -/
theorem before11_2_of {c : Dev nD} (dat : Dat τ (Elt F) Unit ℕ (UR sig nD τ) ℕ cfg11 c) (hA : dat.A 2 = V c (Pipeline.arrRef spec11 2))
    (hafter : ∀ t, dat.after 2 t = iblk11 V c 2 t) (t : Fin cfg11.N) (d) : dat.before 2 t d = iblk11 V c 2 t :=
  (dat.before_in_eq_fetched 2 rfl (fun _ => rfl) (fun _ _ _ => rfl) (fun t => by rw [hafter]; unfold Dat.blockOf iblk11; rw [hA]; try rfl) t d).trans
    (by unfold Dat.fetched Dat.blockOf iblk11; rw [hA]; try rfl)

/-- Input window 3's current staging buffer holds its block at every point, fetched there or not, for any proof
    data whose array is `V`'s and whose body leaves the block in place: where the window is not fetched its block
    index has not moved, so the block held from the point before is this point's. -/
theorem before11_3_of {c : Dev nD} (dat : Dat τ (Elt F) Unit ℕ (UR sig nD τ) ℕ cfg11 c) (hA : dat.A 3 = V c (Pipeline.arrRef spec11 3))
    (hafter : ∀ t, dat.after 3 t = iblk11 V c 3 t) (t : Fin cfg11.N) (d) : dat.before 3 t d = iblk11 V c 3 t :=
  (dat.before_in_eq_fetched 3 rfl (fun _ => rfl) (fun _ _ _ => rfl) (fun t => by rw [hafter]; unfold Dat.blockOf iblk11; rw [hA]; try rfl) t d).trans
    (by unfold Dat.fetched Dat.blockOf iblk11; rw [hA]; try rfl)

/-! ## The body's accesses: each window's buffer, whole -/

abbrev r11_0 : Rect S1024x512 := Rect.unit (s := S1024x512) ![0, 0] S1024x512.size inb_S1024x512_S1024x512_0_0
abbrev r11_1 : Rect S512x512 := Rect.unit (s := S512x512) ![0, 0] S512x512.size inb_S512x512_S512x512_0_0
abbrev r11_2 : Rect S1x512 := Rect.unit (s := S1x512) ![0, 0] S1x512.size inb_S1x512_S1x512_0_0
abbrev r11_4 : Rect S1024x1 := Rect.unit (s := S1024x1) ![0, 0] S1024x1.size inb_S1024x1_S1024x1_0_0

/-! ## What the body leaves in the output window's buffer -/

/-- Window 4's staging buffer after the body, from the input windows' blocks: its one store, of the payload computed
    from the four loads, over the whole buffer. -/
def out11_4 (x0 : Vec F S1024x512 .bf16) (x1 : Vec F S512x512 .bf16) (x2 x3 : Vec F S1x512 .f32) : Vec F S1024x1 .f32 :=
  View.canon [⟨r11_4, k11_pay1 (View.ld x0 r11_0) (View.ld x1 r11_1) (View.ld x2 r11_2) (View.ld x3 r11_2)⟩]

/-- The store is over the whole buffer, so it covers it. -/
theorem cover11_4 (p0 : Vec F S1024x1 .f32) (y : S1024x1.Idx) :
    ∃ pc ∈ ([⟨r11_4, p0⟩] : List (View.Piece (Elt F) S1024x1 .f32)), y ∈ pc.1.set :=
  View.cover_of_tiled [⟨r11_4, p0⟩] S1024x1.size (by rfl) y

/-! ## The body's triple -/

set_option maxHeartbeats 1000000 in
/-- The kernel body on whole staging memrefs, the inputs' at read contents `xW` and the output's at anything, runs to
    the continuation holding the inputs' as they were and the output's at `out11_4` of the inputs'. The load of the
    output's prior contents is of a value no store uses. -/
theorem sound_kernel11 (c : Dev nD) (E : Set ℕ) (i : grid11.Coords)
    (arg1 : Memref sig .tc .vmem S1024x512 .bf16) (harg1 : arg1.IsWhole) (arg2 : Memref sig .tc .vmem S512x512 .bf16) (harg2 : arg2.IsWhole)
    (arg3 : Memref sig .tc .vmem S1x512 .f32) (harg3 : arg3.IsWhole) (arg4 : Memref sig .tc .vmem S1x512 .f32) (harg4 : arg4.IsWhole)
    (arg5 : Memref sig .tc .vmem S1024x1 .f32) (harg5 : arg5.IsWhole)
    (x0 : Vec F S1024x512 .bf16) (x1 : Vec F S512x512 .bf16) (x2 x3 : Vec F S1x512 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out11_4 x0 x1 x2 x3)) -∗ K ⟨⟩))
      ⊢ wp frame (wpE (defs₀ (F := F)) Variants.none c none) E (cc11__attn_kernel i arg1 harg1 arg2 harg2 arg3 harg3 arg4 harg4 arg5 harg5) K := by
  simp only [cc11__attn_kernel_eq_skeleton]; unfold cc11__attn_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover11_4 _)

/-! ## The pipeline's proof data -/

/-- The proof data of pipeline 11 on core `c`: the arrays as the region finds them (`V`); after the body at point
    `t` each input's buffer at its block and the output's at `out11_4` of the input blocks; the invariant the class's
    own at every point; nothing owed; full shares. -/
def dat11 (c : Dev nD) : Dat τ (Elt F) Unit ℕ (UR sig nD τ) ℕ cfg11 c where
  A w := V c (Pipeline.arrRef spec11 w)
  after w t := match w with
    | ⟨0, _⟩ => iblk11 V c 0 t
    | ⟨1, _⟩ => iblk11 V c 1 t
    | ⟨2, _⟩ => iblk11 V c 2 t
    | ⟨3, _⟩ => iblk11 V c 3 t
    | ⟨4, _⟩ => out11_4 (iblk11 V c 0 t) (iblk11 V c 1 t) (iblk11 V c 2 t) (iblk11 V c 3 t)
  Φ _ := Pipeline.ΦA spec11 c
  q _ := fullShare
  owed _ := 0

/-- The proof data's arrays are the region-entry contents. -/
theorem A_eq11 (c : Dev nD) (w : Fin cfg11.W) : (dat11 V c).A w = V c (Pipeline.arrRef spec11 w) := by
  dsimp only [dat11]

/-- What the body leaves, window by window. -/
theorem after11_0 (c : Dev nD) (t : Fin cfg11.N) : (dat11 V c).after 0 t = iblk11 V c 0 t := by dsimp only [dat11]
theorem after11_1 (c : Dev nD) (t : Fin cfg11.N) : (dat11 V c).after 1 t = iblk11 V c 1 t := by dsimp only [dat11]
theorem after11_2 (c : Dev nD) (t : Fin cfg11.N) : (dat11 V c).after 2 t = iblk11 V c 2 t := by dsimp only [dat11]
theorem after11_3 (c : Dev nD) (t : Fin cfg11.N) : (dat11 V c).after 3 t = iblk11 V c 3 t := by dsimp only [dat11]
theorem after11_4 (c : Dev nD) (t : Fin cfg11.N) :
    (dat11 V c).after 4 t = out11_4 (iblk11 V c 0 t) (iblk11 V c 1 t) (iblk11 V c 2 t) (iblk11 V c 3 t) := by dsimp only [dat11]

/-- Each input's current staging buffer holds its block at every point, fetched there or not. -/
theorem before11_0 (c : Dev nD) (t : Fin cfg11.N) (d) : (dat11 V c).before 0 t d = iblk11 V c 0 t :=
  before11_0_of V (dat11 V c) (A_eq11 V c 0) (after11_0 V c) t d
theorem before11_1 (c : Dev nD) (t : Fin cfg11.N) (d) : (dat11 V c).before 1 t d = iblk11 V c 1 t :=
  before11_1_of V (dat11 V c) (A_eq11 V c 1) (after11_1 V c) t d
theorem before11_2 (c : Dev nD) (t : Fin cfg11.N) (d) : (dat11 V c).before 2 t d = iblk11 V c 2 t :=
  before11_2_of V (dat11 V c) (A_eq11 V c 2) (after11_2 V c) t d
theorem before11_3 (c : Dev nD) (t : Fin cfg11.N) (d) : (dat11 V c).before 3 t d = iblk11 V c 3 t :=
  before11_3_of V (dat11 V c) (A_eq11 V c 3) (after11_3 V c) t d

/-! ## The body obligation, at a generic point -/

/-- What the body is called with at point `t`, the windows one by one, -/
def bodyPre11 (c : Dev nD) (t : Fin cfg11.N) : sProp 𝕄 :=
  iprop((dat11 V c).Φ t.castSucc ∗ (dat11 V c).owesAt () t.castSucc
    ∗ (∃ d, owns (c : Thread nD τ) (st11_0 t) fullShare ((dat11 V c).before 0 t d))
    ∗ (∃ d, owns (c : Thread nD τ) (st11_1 t) fullShare ((dat11 V c).before 1 t d))
    ∗ (∃ d, owns (c : Thread nD τ) (st11_2 t) fullShare ((dat11 V c).before 2 t d))
    ∗ (∃ d, owns (c : Thread nD τ) (st11_3 t) fullShare ((dat11 V c).before 3 t d))
    ∗ (∃ d, owns (c : Thread nD τ) (st11_4 t) fullShare ((dat11 V c).before 4 t d)))

/-- and what it returns. -/
def bodyPost11 (c : Dev nD) (t : Fin cfg11.N) : sProp 𝕄 :=
  iprop((dat11 V c).Φ t.succ ∗ (dat11 V c).owesAt () t.succ
    ∗ owns (c : Thread nD τ) (st11_0 t) fullShare ((dat11 V c).after 0 t)
    ∗ owns (c : Thread nD τ) (st11_1 t) fullShare ((dat11 V c).after 1 t)
    ∗ owns (c : Thread nD τ) (st11_2 t) fullShare ((dat11 V c).after 2 t)
    ∗ owns (c : Thread nD τ) (st11_3 t) fullShare ((dat11 V c).after 3 t)
    ∗ owns (c : Thread nD τ) (st11_4 t) fullShare ((dat11 V c).after 4 t))

/-- The body at any point: the inputs' memrefs hold their blocks, so `sound_kernel11` applies; the invariant and the
    core's debts pass through unread. -/
theorem sound_body11 (c : Dev nD) (t : Fin cfg11.N) :
    bodyPre11 V c t ⊢ wp frame (wpE (defs₀ (F := F)) Variants.none c none) Set.univ (bodyAt11 t) (fun _ => bodyPost11 V c t) := by
  unfold bodyPre11 bodyPost11 bodyAt11
  simp only [before11_0, before11_1, before11_2, before11_3]
  rw [show (dat11 V c).Φ t.succ = (dat11 V c).Φ t.castSucc from rfl,
    show (dat11 V c).owesAt () t.succ = (dat11 V c).owesAt () t.castSucc from rfl,
    after11_0, after11_1, after11_2, after11_3, after11_4]
  iintro ⟨HΦ, Ho, ⟨%d0, H0⟩, ⟨%d1, H1⟩, ⟨%d2, H2⟩, ⟨%d3, H3⟩, ⟨%d4, H4⟩⟩
  iapply (sound_kernel11 c Set.univ _ _ _ _ _ _ _ _ _ _ _ (iblk11 V c 0 t) (iblk11 V c 1 t) (iblk11 V c 2 t) (iblk11 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation11 (c : Dev nD) : BodyObligation (dat11 (F := F) V c) (defs₀ (F := F)) Variants.none () Set.univ := fun t => by
  rw [bigSep_W11, bigSep_W11]
  exact sound_body11 V c t

/-! ## The invariant at the region's ends -/

/-- The class's invariant is the proof data's before the first point -/
theorem hin11 (c : Dev nD) : Pipeline.ΦA spec11 c ⊢ (dat11 V c).Φ 0 :=
  Idealize.SL.BI.Entails.refl _

/-- and after the last. -/
theorem hout11 (c : Dev nD) : (dat11 V c).Φ (Fin.last cfg11.N) ⊢ Pipeline.ΦA spec11 c :=
  Idealize.SL.BI.Entails.refl _

end Cert.Kernel.Gen
-- ==== Proof.KernelH.Reg12.lean ====
import proofs.«157173_j56882546868342_2_alg».proof.Proof.KernelH.Launch
import proofs.«157173_j56882546868342_2_alg».proof.Proof.Gen.Kernel.Skeleton
import proofs.«157173_j56882546868342_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 12 of @main: `cc12__attn_kernel` on the grid (4), at the entry contents `V`

One control case: at every point the body loads the four input windows whole, and stores one payload over the whole
output window. The invariant is the class's own at every point. -/

/-! ## The windows' blocks -/

/-- Window `w`'s block at point `t`, read off its array as the region finds it (`V`). -/
def iblk12 (c : Dev nD) (w : Fin cfg12.W) (t : Fin cfg12.N) : ((cfg12.win w).xblock (cfg12.grid.coords t)).Idx → Elt F (cfg12.win w).elt :=
  ((cfg12.win w).blk t).view.read (Elt F) (V c (Pipeline.arrRef spec12 w))

/-- Input window 0's current staging buffer holds its block at every point, fetched there or not, for any proof
    data whose array is `V`'s and whose body leaves the block in place: where the window is not fetched its block
    index has not moved, so the block held from the point before is this point's. -/
theorem before12_0_of {c : Dev nD} (dat : Dat τ (Elt F) Unit ℕ (UR sig nD τ) ℕ cfg12 c) (hA : dat.A 0 = V c (Pipeline.arrRef spec12 0))
    (hafter : ∀ t, dat.after 0 t = iblk12 V c 0 t) (t : Fin cfg12.N) (d) : dat.before 0 t d = iblk12 V c 0 t :=
  (dat.before_in_eq_fetched 0 rfl (fun _ => rfl) (fun _ _ _ => rfl) (fun t => by rw [hafter]; unfold Dat.blockOf iblk12; rw [hA]; try rfl) t d).trans
    (by unfold Dat.fetched Dat.blockOf iblk12; rw [hA]; try rfl)

/-- Input window 1's current staging buffer holds its block at every point, fetched there or not, for any proof
    data whose array is `V`'s and whose body leaves the block in place: where the window is not fetched its block
    index has not moved, so the block held from the point before is this point's. -/
theorem before12_1_of {c : Dev nD} (dat : Dat τ (Elt F) Unit ℕ (UR sig nD τ) ℕ cfg12 c) (hA : dat.A 1 = V c (Pipeline.arrRef spec12 1))
    (hafter : ∀ t, dat.after 1 t = iblk12 V c 1 t) (t : Fin cfg12.N) (d) : dat.before 1 t d = iblk12 V c 1 t :=
  (dat.before_in_eq_fetched 1 rfl (fun _ => rfl) (fun _ _ _ => rfl) (fun t => by rw [hafter]; unfold Dat.blockOf iblk12; rw [hA]; try rfl) t d).trans
    (by unfold Dat.fetched Dat.blockOf iblk12; rw [hA]; try rfl)

/-- Input window 2's current staging buffer holds its block at every point, fetched there or not, for any proof
    data whose array is `V`'s and whose body leaves the block in place: where the window is not fetched its block
    index has not moved, so the block held from the point before is this point's. -/
theorem before12_2_of {c : Dev nD} (dat : Dat τ (Elt F) Unit ℕ (UR sig nD τ) ℕ cfg12 c) (hA : dat.A 2 = V c (Pipeline.arrRef spec12 2))
    (hafter : ∀ t, dat.after 2 t = iblk12 V c 2 t) (t : Fin cfg12.N) (d) : dat.before 2 t d = iblk12 V c 2 t :=
  (dat.before_in_eq_fetched 2 rfl (fun _ => rfl) (fun _ _ _ => rfl) (fun t => by rw [hafter]; unfold Dat.blockOf iblk12; rw [hA]; try rfl) t d).trans
    (by unfold Dat.fetched Dat.blockOf iblk12; rw [hA]; try rfl)

/-- Input window 3's current staging buffer holds its block at every point, fetched there or not, for any proof
    data whose array is `V`'s and whose body leaves the block in place: where the window is not fetched its block
    index has not moved, so the block held from the point before is this point's. -/
theorem before12_3_of {c : Dev nD} (dat : Dat τ (Elt F) Unit ℕ (UR sig nD τ) ℕ cfg12 c) (hA : dat.A 3 = V c (Pipeline.arrRef spec12 3))
    (hafter : ∀ t, dat.after 3 t = iblk12 V c 3 t) (t : Fin cfg12.N) (d) : dat.before 3 t d = iblk12 V c 3 t :=
  (dat.before_in_eq_fetched 3 rfl (fun _ => rfl) (fun _ _ _ => rfl) (fun t => by rw [hafter]; unfold Dat.blockOf iblk12; rw [hA]; try rfl) t d).trans
    (by unfold Dat.fetched Dat.blockOf iblk12; rw [hA]; try rfl)

/-! ## The body's accesses: each window's buffer, whole -/

abbrev r12_0 : Rect S1024x512 := Rect.unit (s := S1024x512) ![0, 0] S1024x512.size inb_S1024x512_S1024x512_0_0
abbrev r12_1 : Rect S512x512 := Rect.unit (s := S512x512) ![0, 0] S512x512.size inb_S512x512_S512x512_0_0
abbrev r12_2 : Rect S1x512 := Rect.unit (s := S1x512) ![0, 0] S1x512.size inb_S1x512_S1x512_0_0
abbrev r12_4 : Rect S1024x1 := Rect.unit (s := S1024x1) ![0, 0] S1024x1.size inb_S1024x1_S1024x1_0_0

/-! ## What the body leaves in the output window's buffer -/

/-- Window 4's staging buffer after the body, from the input windows' blocks: its one store, of the payload computed
    from the four loads, over the whole buffer. -/
def out12_4 (x0 : Vec F S1024x512 .bf16) (x1 : Vec F S512x512 .bf16) (x2 x3 : Vec F S1x512 .f32) : Vec F S1024x1 .f32 :=
  View.canon [⟨r12_4, k12_pay1 (View.ld x0 r12_0) (View.ld x1 r12_1) (View.ld x2 r12_2) (View.ld x3 r12_2)⟩]

/-- The store is over the whole buffer, so it covers it. -/
theorem cover12_4 (p0 : Vec F S1024x1 .f32) (y : S1024x1.Idx) :
    ∃ pc ∈ ([⟨r12_4, p0⟩] : List (View.Piece (Elt F) S1024x1 .f32)), y ∈ pc.1.set :=
  View.cover_of_tiled [⟨r12_4, p0⟩] S1024x1.size (by rfl) y

/-! ## The body's triple -/

set_option maxHeartbeats 1000000 in
/-- The kernel body on whole staging memrefs, the inputs' at read contents `xW` and the output's at anything, runs to
    the continuation holding the inputs' as they were and the output's at `out12_4` of the inputs'. The load of the
    output's prior contents is of a value no store uses. -/
theorem sound_kernel12 (c : Dev nD) (E : Set ℕ) (i : grid12.Coords)
    (arg1 : Memref sig .tc .vmem S1024x512 .bf16) (harg1 : arg1.IsWhole) (arg2 : Memref sig .tc .vmem S512x512 .bf16) (harg2 : arg2.IsWhole)
    (arg3 : Memref sig .tc .vmem S1x512 .f32) (harg3 : arg3.IsWhole) (arg4 : Memref sig .tc .vmem S1x512 .f32) (harg4 : arg4.IsWhole)
    (arg5 : Memref sig .tc .vmem S1024x1 .f32) (harg5 : arg5.IsWhole)
    (x0 : Vec F S1024x512 .bf16) (x1 : Vec F S512x512 .bf16) (x2 x3 : Vec F S1x512 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out12_4 x0 x1 x2 x3)) -∗ K ⟨⟩))
      ⊢ wp frame (wpE (defs₀ (F := F)) Variants.none c none) E (cc12__attn_kernel i arg1 harg1 arg2 harg2 arg3 harg3 arg4 harg4 arg5 harg5) K := by
  simp only [cc12__attn_kernel_eq_skeleton]; unfold cc12__attn_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover12_4 _)

/-! ## The pipeline's proof data -/

/-- The proof data of pipeline 12 on core `c`: the arrays as the region finds them (`V`); after the body at point
    `t` each input's buffer at its block and the output's at `out12_4` of the input blocks; the invariant the class's
    own at every point; nothing owed; full shares. -/
def dat12 (c : Dev nD) : Dat τ (Elt F) Unit ℕ (UR sig nD τ) ℕ cfg12 c where
  A w := V c (Pipeline.arrRef spec12 w)
  after w t := match w with
    | ⟨0, _⟩ => iblk12 V c 0 t
    | ⟨1, _⟩ => iblk12 V c 1 t
    | ⟨2, _⟩ => iblk12 V c 2 t
    | ⟨3, _⟩ => iblk12 V c 3 t
    | ⟨4, _⟩ => out12_4 (iblk12 V c 0 t) (iblk12 V c 1 t) (iblk12 V c 2 t) (iblk12 V c 3 t)
  Φ _ := Pipeline.ΦA spec12 c
  q _ := fullShare
  owed _ := 0

/-- The proof data's arrays are the region-entry contents. -/
theorem A_eq12 (c : Dev nD) (w : Fin cfg12.W) : (dat12 V c).A w = V c (Pipeline.arrRef spec12 w) := by
  dsimp only [dat12]

/-- What the body leaves, window by window. -/
theorem after12_0 (c : Dev nD) (t : Fin cfg12.N) : (dat12 V c).after 0 t = iblk12 V c 0 t := by dsimp only [dat12]
theorem after12_1 (c : Dev nD) (t : Fin cfg12.N) : (dat12 V c).after 1 t = iblk12 V c 1 t := by dsimp only [dat12]
theorem after12_2 (c : Dev nD) (t : Fin cfg12.N) : (dat12 V c).after 2 t = iblk12 V c 2 t := by dsimp only [dat12]
theorem after12_3 (c : Dev nD) (t : Fin cfg12.N) : (dat12 V c).after 3 t = iblk12 V c 3 t := by dsimp only [dat12]
theorem after12_4 (c : Dev nD) (t : Fin cfg12.N) :
    (dat12 V c).after 4 t = out12_4 (iblk12 V c 0 t) (iblk12 V c 1 t) (iblk12 V c 2 t) (iblk12 V c 3 t) := by dsimp only [dat12]

/-- Each input's current staging buffer holds its block at every point, fetched there or not. -/
theorem before12_0 (c : Dev nD) (t : Fin cfg12.N) (d) : (dat12 V c).before 0 t d = iblk12 V c 0 t :=
  before12_0_of V (dat12 V c) (A_eq12 V c 0) (after12_0 V c) t d
theorem before12_1 (c : Dev nD) (t : Fin cfg12.N) (d) : (dat12 V c).before 1 t d = iblk12 V c 1 t :=
  before12_1_of V (dat12 V c) (A_eq12 V c 1) (after12_1 V c) t d
theorem before12_2 (c : Dev nD) (t : Fin cfg12.N) (d) : (dat12 V c).before 2 t d = iblk12 V c 2 t :=
  before12_2_of V (dat12 V c) (A_eq12 V c 2) (after12_2 V c) t d
theorem before12_3 (c : Dev nD) (t : Fin cfg12.N) (d) : (dat12 V c).before 3 t d = iblk12 V c 3 t :=
  before12_3_of V (dat12 V c) (A_eq12 V c 3) (after12_3 V c) t d

/-! ## The body obligation, at a generic point -/

/-- What the body is called with at point `t`, the windows one by one, -/
def bodyPre12 (c : Dev nD) (t : Fin cfg12.N) : sProp 𝕄 :=
  iprop((dat12 V c).Φ t.castSucc ∗ (dat12 V c).owesAt () t.castSucc
    ∗ (∃ d, owns (c : Thread nD τ) (st12_0 t) fullShare ((dat12 V c).before 0 t d))
    ∗ (∃ d, owns (c : Thread nD τ) (st12_1 t) fullShare ((dat12 V c).before 1 t d))
    ∗ (∃ d, owns (c : Thread nD τ) (st12_2 t) fullShare ((dat12 V c).before 2 t d))
    ∗ (∃ d, owns (c : Thread nD τ) (st12_3 t) fullShare ((dat12 V c).before 3 t d))
    ∗ (∃ d, owns (c : Thread nD τ) (st12_4 t) fullShare ((dat12 V c).before 4 t d)))

/-- and what it returns. -/
def bodyPost12 (c : Dev nD) (t : Fin cfg12.N) : sProp 𝕄 :=
  iprop((dat12 V c).Φ t.succ ∗ (dat12 V c).owesAt () t.succ
    ∗ owns (c : Thread nD τ) (st12_0 t) fullShare ((dat12 V c).after 0 t)
    ∗ owns (c : Thread nD τ) (st12_1 t) fullShare ((dat12 V c).after 1 t)
    ∗ owns (c : Thread nD τ) (st12_2 t) fullShare ((dat12 V c).after 2 t)
    ∗ owns (c : Thread nD τ) (st12_3 t) fullShare ((dat12 V c).after 3 t)
    ∗ owns (c : Thread nD τ) (st12_4 t) fullShare ((dat12 V c).after 4 t))

/-- The body at any point: the inputs' memrefs hold their blocks, so `sound_kernel12` applies; the invariant and the
    core's debts pass through unread. -/
theorem sound_body12 (c : Dev nD) (t : Fin cfg12.N) :
    bodyPre12 V c t ⊢ wp frame (wpE (defs₀ (F := F)) Variants.none c none) Set.univ (bodyAt12 t) (fun _ => bodyPost12 V c t) := by
  unfold bodyPre12 bodyPost12 bodyAt12
  simp only [before12_0, before12_1, before12_2, before12_3]
  rw [show (dat12 V c).Φ t.succ = (dat12 V c).Φ t.castSucc from rfl,
    show (dat12 V c).owesAt () t.succ = (dat12 V c).owesAt () t.castSucc from rfl,
    after12_0, after12_1, after12_2, after12_3, after12_4]
  iintro ⟨HΦ, Ho, ⟨%d0, H0⟩, ⟨%d1, H1⟩, ⟨%d2, H2⟩, ⟨%d3, H3⟩, ⟨%d4, H4⟩⟩
  iapply (sound_kernel12 c Set.univ _ _ _ _ _ _ _ _ _ _ _ (iblk12 V c 0 t) (iblk12 V c 1 t) (iblk12 V c 2 t) (iblk12 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation12 (c : Dev nD) : BodyObligation (dat12 (F := F) V c) (defs₀ (F := F)) Variants.none () Set.univ := fun t => by
  rw [bigSep_W12, bigSep_W12]
  exact sound_body12 V c t

/-! ## The invariant at the region's ends -/

/-- The class's invariant is the proof data's before the first point -/
theorem hin12 (c : Dev nD) : Pipeline.ΦA spec12 c ⊢ (dat12 V c).Φ 0 :=
  Idealize.SL.BI.Entails.refl _

/-- and after the last. -/
theorem hout12 (c : Dev nD) : (dat12 V c).Φ (Fin.last cfg12.N) ⊢ Pipeline.ΦA spec12 c :=
  Idealize.SL.BI.Entails.refl _

end Cert.Kernel.Gen
-- ==== Proof.KernelH.Reg13.lean ====
import proofs.«157173_j56882546868342_2_alg».proof.Proof.KernelH.Launch
import proofs.«157173_j56882546868342_2_alg».proof.Proof.Gen.Kernel.Skeleton
import proofs.«157173_j56882546868342_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384
noncomputable section
namespace Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

/-! # Region 13 of @main: `cc13__cls_kernel` (pipeline 13), at the entry contents `V`

One control case and no carried buffer: at every point the body reads its six input windows' blocks and
stores the whole output block, a closed function of them. The invariant is the class's own at every point. -/

/-! ## The windows' blocks -/

/-- Window `w`'s block at point `t`, read off its array as the region finds it (`V`). -/
def iblk13 (c : Dev nD) (w : Fin cfg13.W) (t : Fin cfg13.N) : ((cfg13.win w).xblock (cfg13.grid.coords t)).Idx → Elt F (cfg13.win w).elt :=
  ((cfg13.win w).blk t).view.read (Elt F) (V c (Pipeline.arrRef spec13 w))

/-- Input window 0's current staging buffer holds its block at every point, fetched there or not: an input whose
    body leaves the block in place; unfetched, the block index has not moved. -/
theorem before13_0_of {c : Dev nD} (dat : Dat τ (Elt F) Unit ℕ (UR sig nD τ) ℕ cfg13 c) (hA : dat.A 0 = V c (Pipeline.arrRef spec13 0))
    (hafter : ∀ t, dat.after 0 t = iblk13 V c 0 t) (t : Fin cfg13.N) (d) : dat.before 0 t d = iblk13 V c 0 t :=
  (dat.before_in_eq_fetched 0 rfl (fun _ => rfl) (fun _ _ _ => rfl) (fun t => by rw [hafter]; unfold Dat.blockOf iblk13; rw [hA]; try rfl) t d).trans
    (by unfold Dat.fetched Dat.blockOf iblk13; rw [hA]; try rfl)

/-- Input window 1's current staging buffer holds its block at every point, fetched there or not: an input whose
    body leaves the block in place; unfetched, the block index has not moved. -/
theorem before13_1_of {c : Dev nD} (dat : Dat τ (Elt F) Unit ℕ (UR sig nD τ) ℕ cfg13 c) (hA : dat.A 1 = V c (Pipeline.arrRef spec13 1))
    (hafter : ∀ t, dat.after 1 t = iblk13 V c 1 t) (t : Fin cfg13.N) (d) : dat.before 1 t d = iblk13 V c 1 t :=
  (dat.before_in_eq_fetched 1 rfl (fun _ => rfl) (fun _ _ _ => rfl) (fun t => by rw [hafter]; unfold Dat.blockOf iblk13; rw [hA]; try rfl) t d).trans
    (by unfold Dat.fetched Dat.blockOf iblk13; rw [hA]; try rfl)

/-- Input window 2's current staging buffer holds its block at every point, fetched there or not: an input whose
    body leaves the block in place; unfetched, the block index has not moved. -/
theorem before13_2_of {c : Dev nD} (dat : Dat τ (Elt F) Unit ℕ (UR sig nD τ) ℕ cfg13 c) (hA : dat.A 2 = V c (Pipeline.arrRef spec13 2))
    (hafter : ∀ t, dat.after 2 t = iblk13 V c 2 t) (t : Fin cfg13.N) (d) : dat.before 2 t d = iblk13 V c 2 t :=
  (dat.before_in_eq_fetched 2 rfl (fun _ => rfl) (fun _ _ _ => rfl) (fun t => by rw [hafter]; unfold Dat.blockOf iblk13; rw [hA]; try rfl) t d).trans
    (by unfold Dat.fetched Dat.blockOf iblk13; rw [hA]; try rfl)

/-- Input window 3's current staging buffer holds its block at every point, fetched there or not: an input whose
    body leaves the block in place; unfetched, the block index has not moved. -/
theorem before13_3_of {c : Dev nD} (dat : Dat τ (Elt F) Unit ℕ (UR sig nD τ) ℕ cfg13 c) (hA : dat.A 3 = V c (Pipeline.arrRef spec13 3))
    (hafter : ∀ t, dat.after 3 t = iblk13 V c 3 t) (t : Fin cfg13.N) (d) : dat.before 3 t d = iblk13 V c 3 t :=
  (dat.before_in_eq_fetched 3 rfl (fun _ => rfl) (fun _ _ _ => rfl) (fun t => by rw [hafter]; unfold Dat.blockOf iblk13; rw [hA]; try rfl) t d).trans
    (by unfold Dat.fetched Dat.blockOf iblk13; rw [hA]; try rfl)

/-- Input window 4's current staging buffer holds its block at every point, fetched there or not: an input whose
    body leaves the block in place; unfetched, the block index has not moved. -/
theorem before13_4_of {c : Dev nD} (dat : Dat τ (Elt F) Unit ℕ (UR sig nD τ) ℕ cfg13 c) (hA : dat.A 4 = V c (Pipeline.arrRef spec13 4))
    (hafter : ∀ t, dat.after 4 t = iblk13 V c 4 t) (t : Fin cfg13.N) (d) : dat.before 4 t d = iblk13 V c 4 t :=
  (dat.before_in_eq_fetched 4 rfl (fun _ => rfl) (fun _ _ _ => rfl) (fun t => by rw [hafter]; unfold Dat.blockOf iblk13; rw [hA]; try rfl) t d).trans
    (by unfold Dat.fetched Dat.blockOf iblk13; rw [hA]; try rfl)

/-- Input window 5's current staging buffer holds its block at every point, fetched there or not: an input whose
    body leaves the block in place; unfetched, the block index has not moved. -/
theorem before13_5_of {c : Dev nD} (dat : Dat τ (Elt F) Unit ℕ (UR sig nD τ) ℕ cfg13 c) (hA : dat.A 5 = V c (Pipeline.arrRef spec13 5))
    (hafter : ∀ t, dat.after 5 t = iblk13 V c 5 t) (t : Fin cfg13.N) (d) : dat.before 5 t d = iblk13 V c 5 t :=
  (dat.before_in_eq_fetched 5 rfl (fun _ => rfl) (fun _ _ _ => rfl) (fun t => by rw [hafter]; unfold Dat.blockOf iblk13; rw [hA]; try rfl) t d).trans
    (by unfold Dat.fetched Dat.blockOf iblk13; rw [hA]; try rfl)

/-! ## The body's accesses -/

/-- The three columns of the mixing-weights block, -/
abbrev ra13_0 : Rect S1024x3 := Rect.unit (s := S1024x3) ![0, 0] S1024x1.size inb_S1024x3_S1024x1_0_0
abbrev ra13_1 : Rect S1024x3 := Rect.unit (s := S1024x3) ![0, 1] S1024x1.size inb_S1024x3_S1024x1_0_1
abbrev ra13_2 : Rect S1024x3 := Rect.unit (s := S1024x3) ![0, 2] S1024x1.size inb_S1024x3_S1024x1_0_2
/-- a whole row block of a feature matrix, the whole weight matrix, the whole bias row, the whole output block. -/
abbrev rb13 : Rect S1024x512 := Rect.unit (s := S1024x512) ![0, 0] S1024x512.size inb_S1024x512_S1024x512_0_0
abbrev rc13 : Rect S512x16 := Rect.unit (s := S512x16) ![0, 0] S512x16.size inb_S512x16_S512x16_0_0
abbrev rd13 : Rect S1x16 := Rect.unit (s := S1x16) ![0, 0] S1x16.size inb_S1x16_S1x16_0_0
abbrev ro13 : Rect S1024x16 := Rect.unit (s := S1024x16) ![0, 0] S1024x16.size inb_S1024x16_S1024x16_0_0

/-! ## What the body leaves in the output window's buffer -/

/-- The value the body stores, from the input windows' blocks: the shifted logits less the logarithm of the row
    sum of their exponentials. -/
def pay13_6 (x0 : Vec F S1024x512 .bf16) (x1 : Vec F S1024x512 .bf16) (x2 : Vec F S1024x512 .bf16) (x3 : Vec F S1024x3 .f32) (x4 : Vec F S512x16 .bf16) (x5 : Vec F S1x16 .f32) : FVec F S1024x16 .f32 :=
  k13_pay1 (k13_pay2 (View.ld x3 ra13_0) (View.ld x3 ra13_1) (View.ld x3 ra13_2) (View.ld x0 rb13) (View.ld x1 rb13) (View.ld x2 rb13) (View.ld x4 rc13) (View.ld x5 rd13)) (k13_pay3 (View.ld x3 ra13_0) (View.ld x3 ra13_1) (View.ld x3 ra13_2) (View.ld x0 rb13) (View.ld x1 rb13) (View.ld x2 rb13) (View.ld x4 rc13) (View.ld x5 rd13))

/-- Window 6's staging buffer after the body: its one store as a piece. -/
def out13_6 (x0 : Vec F S1024x512 .bf16) (x1 : Vec F S1024x512 .bf16) (x2 : Vec F S1024x512 .bf16) (x3 : Vec F S1024x3 .f32) (x4 : Vec F S512x16 .bf16) (x5 : Vec F S1x16 .f32) : Vec F S1024x16 .f32 :=
  View.canon [⟨ro13, pay13_6 x0 x1 x2 x3 x4 x5⟩]

/-- The store tiles the buffer, so it covers it. -/
theorem cover13_6 (p0 : Vec F S1024x16 .f32) (y : S1024x16.Idx) :
    ∃ pc ∈ ([⟨ro13, p0⟩] : List (View.Piece (Elt F) S1024x16 .f32)), y ∈ pc.1.set :=
  View.cover_of_tiled [⟨ro13, p0⟩] S1024x16.size (by rfl) y

/-! ## The body's triple -/

set_option maxHeartbeats 4000000 in
/-- The kernel body on whole staging memrefs, the inputs' at read contents `xW` and the output's at anything, runs to
    the continuation holding the inputs' as they were and the output's at `out13_6` of the inputs'. -/
theorem sound_kernel13 (c : Dev nD) (E : Set ℕ) (i : grid13.Coords) (arg1 : Memref sig .tc .vmem S1024x512 .bf16) (harg1 : arg1.IsWhole) (arg2 : Memref sig .tc .vmem S1024x512 .bf16) (harg2 : arg2.IsWhole) (arg3 : Memref sig .tc .vmem S1024x512 .bf16) (harg3 : arg3.IsWhole) (arg4 : Memref sig .tc .vmem S1024x3 .f32) (harg4 : arg4.IsWhole) (arg5 : Memref sig .tc .vmem S512x16 .bf16) (harg5 : arg5.IsWhole) (arg6 : Memref sig .tc .vmem S1x16 .f32) (harg6 : arg6.IsWhole) (arg7 : Memref sig .tc .vmem S1024x16 .f32) (harg7 : arg7.IsWhole)
    (x0 : Vec F S1024x512 .bf16) (x1 : Vec F S1024x512 .bf16) (x2 : Vec F S1024x512 .bf16) (x3 : Vec F S1024x3 .f32) (x4 : Vec F S512x16 .bf16) (x5 : Vec F S1x16 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out13_6 x0 x1 x2 x3 x4 x5)) -∗ K ⟨⟩))
      ⊢ wp frame (wpE (defs₀ (F := F)) Variants.none c none) E (cc13__cls_kernel i arg1 harg1 arg2 harg2 arg3 harg3 arg4 harg4 arg5 harg5 arg6 harg6 arg7 harg7) K := by
  simp only [cc13__cls_kernel_eq_skeleton]; unfold cc13__cls_kernel_skel
  simp only [k13_part1_eq_skeleton]; unfold k13_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover13_6 _)

/-! ## The pipeline's proof data -/

/-- The proof data of pipeline 13 on core `c`: the arrays as the region finds them (`V`); after the body at
    point `t` each input's buffer at its block and the output's at `out13_6` of the input blocks; the invariant the
    class's own, untouched; nothing owed; full shares. -/
def dat13 (c : Dev nD) : Dat τ (Elt F) Unit ℕ (UR sig nD τ) ℕ cfg13 c where
  A w := V c (Pipeline.arrRef spec13 w)
  after w t := match w with
    | ⟨0, _⟩ => iblk13 V c 0 t
    | ⟨1, _⟩ => iblk13 V c 1 t
    | ⟨2, _⟩ => iblk13 V c 2 t
    | ⟨3, _⟩ => iblk13 V c 3 t
    | ⟨4, _⟩ => iblk13 V c 4 t
    | ⟨5, _⟩ => iblk13 V c 5 t
    | ⟨6, _⟩ => out13_6 (iblk13 V c 0 t) (iblk13 V c 1 t) (iblk13 V c 2 t) (iblk13 V c 3 t) (iblk13 V c 4 t) (iblk13 V c 5 t)
  Φ _ := Pipeline.ΦA spec13 c
  q _ := fullShare
  owed _ := 0

/-- The proof data's arrays are the region-entry contents. -/
theorem A_eq13 (c : Dev nD) (w : Fin cfg13.W) : (dat13 V c).A w = V c (Pipeline.arrRef spec13 w) := by
  dsimp only [dat13]

/-- What the body leaves, window by window. -/
theorem after13_0 (c : Dev nD) (t : Fin cfg13.N) : (dat13 V c).after 0 t = iblk13 V c 0 t := by dsimp only [dat13]
theorem after13_1 (c : Dev nD) (t : Fin cfg13.N) : (dat13 V c).after 1 t = iblk13 V c 1 t := by dsimp only [dat13]
theorem after13_2 (c : Dev nD) (t : Fin cfg13.N) : (dat13 V c).after 2 t = iblk13 V c 2 t := by dsimp only [dat13]
theorem after13_3 (c : Dev nD) (t : Fin cfg13.N) : (dat13 V c).after 3 t = iblk13 V c 3 t := by dsimp only [dat13]
theorem after13_4 (c : Dev nD) (t : Fin cfg13.N) : (dat13 V c).after 4 t = iblk13 V c 4 t := by dsimp only [dat13]
theorem after13_5 (c : Dev nD) (t : Fin cfg13.N) : (dat13 V c).after 5 t = iblk13 V c 5 t := by dsimp only [dat13]
theorem after13_6 (c : Dev nD) (t : Fin cfg13.N) : (dat13 V c).after 6 t = out13_6 (iblk13 V c 0 t) (iblk13 V c 1 t) (iblk13 V c 2 t) (iblk13 V c 3 t) (iblk13 V c 4 t) (iblk13 V c 5 t) := by dsimp only [dat13]

/-- Each input's current staging buffer holds its block at every point, fetched there or not. -/
theorem before13_0 (c : Dev nD) (t : Fin cfg13.N) (d) : (dat13 V c).before 0 t d = iblk13 V c 0 t :=
  before13_0_of V (dat13 V c) (A_eq13 V c 0) (after13_0 V c) t d
theorem before13_1 (c : Dev nD) (t : Fin cfg13.N) (d) : (dat13 V c).before 1 t d = iblk13 V c 1 t :=
  before13_1_of V (dat13 V c) (A_eq13 V c 1) (after13_1 V c) t d
theorem before13_2 (c : Dev nD) (t : Fin cfg13.N) (d) : (dat13 V c).before 2 t d = iblk13 V c 2 t :=
  before13_2_of V (dat13 V c) (A_eq13 V c 2) (after13_2 V c) t d
theorem before13_3 (c : Dev nD) (t : Fin cfg13.N) (d) : (dat13 V c).before 3 t d = iblk13 V c 3 t :=
  before13_3_of V (dat13 V c) (A_eq13 V c 3) (after13_3 V c) t d
theorem before13_4 (c : Dev nD) (t : Fin cfg13.N) (d) : (dat13 V c).before 4 t d = iblk13 V c 4 t :=
  before13_4_of V (dat13 V c) (A_eq13 V c 4) (after13_4 V c) t d
theorem before13_5 (c : Dev nD) (t : Fin cfg13.N) (d) : (dat13 V c).before 5 t d = iblk13 V c 5 t :=
  before13_5_of V (dat13 V c) (A_eq13 V c 5) (after13_5 V c) t d

/-! ## The body obligation, at a generic point -/

/-- What the body is called with at point `t`, the windows one by one, -/
def bodyPre13 (c : Dev nD) (t : Fin cfg13.N) : sProp 𝕄 :=
  iprop((dat13 V c).Φ t.castSucc ∗ (dat13 V c).owesAt () t.castSucc
    ∗ (∃ d, owns (c : Thread nD τ) (st13_0 t) fullShare ((dat13 V c).before 0 t d))
    ∗ (∃ d, owns (c : Thread nD τ) (st13_1 t) fullShare ((dat13 V c).before 1 t d))
    ∗ (∃ d, owns (c : Thread nD τ) (st13_2 t) fullShare ((dat13 V c).before 2 t d))
    ∗ (∃ d, owns (c : Thread nD τ) (st13_3 t) fullShare ((dat13 V c).before 3 t d))
    ∗ (∃ d, owns (c : Thread nD τ) (st13_4 t) fullShare ((dat13 V c).before 4 t d))
    ∗ (∃ d, owns (c : Thread nD τ) (st13_5 t) fullShare ((dat13 V c).before 5 t d))
    ∗ (∃ d, owns (c : Thread nD τ) (st13_6 t) fullShare ((dat13 V c).before 6 t d)))

/-- and what it returns. -/
def bodyPost13 (c : Dev nD) (t : Fin cfg13.N) : sProp 𝕄 :=
  iprop((dat13 V c).Φ t.succ ∗ (dat13 V c).owesAt () t.succ
    ∗ owns (c : Thread nD τ) (st13_0 t) fullShare ((dat13 V c).after 0 t)
    ∗ owns (c : Thread nD τ) (st13_1 t) fullShare ((dat13 V c).after 1 t)
    ∗ owns (c : Thread nD τ) (st13_2 t) fullShare ((dat13 V c).after 2 t)
    ∗ owns (c : Thread nD τ) (st13_3 t) fullShare ((dat13 V c).after 3 t)
    ∗ owns (c : Thread nD τ) (st13_4 t) fullShare ((dat13 V c).after 4 t)
    ∗ owns (c : Thread nD τ) (st13_5 t) fullShare ((dat13 V c).after 5 t)
    ∗ owns (c : Thread nD τ) (st13_6 t) fullShare ((dat13 V c).after 6 t))

/-- The body at any point: the inputs' memrefs hold their blocks, so the body's triple applies; the invariant and
    the core's debts pass through unread. -/
theorem sound_body13 (c : Dev nD) (t : Fin cfg13.N) :
    bodyPre13 V c t ⊢ wp frame (wpE (defs₀ (F := F)) Variants.none c none) Set.univ (bodyAt13 t) (fun _ => bodyPost13 V c t) := by
  unfold bodyPre13 bodyPost13 bodyAt13
  simp only [before13_0, before13_1, before13_2, before13_3, before13_4, before13_5]
  rw [show (dat13 V c).Φ t.succ = (dat13 V c).Φ t.castSucc from rfl,
    show (dat13 V c).owesAt () t.succ = (dat13 V c).owesAt () t.castSucc from rfl,
    after13_0, after13_1, after13_2, after13_3, after13_4, after13_5, after13_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel13 c Set.univ (grid13.coords t) _ _ _ _ _ _ _ _ _ _ _ _ _ _ (iblk13 V c 0 t) (iblk13 V c 1 t) (iblk13 V c 2 t) (iblk13 V c 3 t) (iblk13 V c 4 t) (iblk13 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation13 (c : Dev nD) : BodyObligation (dat13 (F := F) V c) (defs₀ (F := F)) Variants.none () Set.univ := fun t => by
  rw [bigSep_W13, bigSep_W13]
  exact sound_body13 V c t

/-- Entering the region, the class's invariant is the proof data's at the first point; -/
theorem hin13 (c : Dev nD) : Pipeline.ΦA spec13 c ⊢ (dat13 V c).Φ 0 := by
  rw [show (dat13 V c).Φ 0 = Pipeline.ΦA spec13 c from rfl]
  try exact Idealize.SL.BI.Entails.refl _

/-- and after the last point it is the class's again. -/
theorem hout13 (c : Dev nD) : (dat13 V c).Φ (Fin.last cfg13.N) ⊢ Pipeline.ΦA spec13 c := by
  rw [show (dat13 V c).Φ (Fin.last cfg13.N) = Pipeline.ΦA spec13 c from rfl]
  try exact Idealize.SL.BI.Entails.refl _

end Cert.Kernel.Gen

end
-- ==== Proof.KernelH.Outs.lean ====
import proofs.«157173_j56882546868342_2_alg».proof.Proof.KernelH.Regions
import proofs.«157173_j56882546868342_2_alg».proof.Proof.KernelH.Reg0
import proofs.«157173_j56882546868342_2_alg».proof.Proof.KernelH.Reg1
import proofs.«157173_j56882546868342_2_alg».proof.Proof.KernelH.Reg2
import proofs.«157173_j56882546868342_2_alg».proof.Proof.KernelH.Reg3
import proofs.«157173_j56882546868342_2_alg».proof.Proof.KernelH.Reg4
import proofs.«157173_j56882546868342_2_alg».proof.Proof.KernelH.Reg5
import proofs.«157173_j56882546868342_2_alg».proof.Proof.KernelH.Reg6
import proofs.«157173_j56882546868342_2_alg».proof.Proof.KernelH.Reg7
import proofs.«157173_j56882546868342_2_alg».proof.Proof.KernelH.Reg8
import proofs.«157173_j56882546868342_2_alg».proof.Proof.KernelH.Reg9
import proofs.«157173_j56882546868342_2_alg».proof.Proof.KernelH.Reg10
import proofs.«157173_j56882546868342_2_alg».proof.Proof.KernelH.Reg11
import proofs.«157173_j56882546868342_2_alg».proof.Proof.KernelH.Reg12
import proofs.«157173_j56882546868342_2_alg».proof.Proof.KernelH.Reg13
set_option maxRecDepth 16384
noncomputable section
namespace Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
variable (m : (ℓ : Loc nD τ sig) → Buf (Elt F) ℓ)

/-! # What the fourteen regions leave in their output buffers

Between two items of the program a core holds its unscoped buffers at one valuation. At launch it is the memory's;
a host stretch applies its operations to it; a region changes one buffer only, its output, and leaves there what its
pipeline has written back by the last grid point, a function of the contents the region was entered at. The
valuations are therefore defined one from the other in program order, and what the regions leave, the unknowns the
conditional frame is stated over, is read off them. Then the conditional frame's own valuations, taken at these
results, are the ones defined here, and each region's result is its pipeline's last array. -/

/-- Writing into a function, at a point, the value the written function has there anyway gives the written function. -/
theorem update_read_self {α : Type} [DecidableEq α] {β : α → Type} (f : (a : α) → β a) (a : α) (v : β a) :
    Function.update f a (Function.update f a v a) = Function.update f a v := by
  rw [Function.update_self]

/-! ## The valuations in program order -/

/-- After region 0 (the product main_v0 · main_v19): `main_v31` rewritten, all else as after the first host stretch. -/
def U2 (c : Dev nD) : Valuation τ sig (Elt F) :=
  Function.update (V1 m c) main_v31
    ((dat0 (fun c b => V1 m c b) c).arrAt 2 cfg0.N : Buf (Elt F) ((c : Thread nD τ).loc main_v31))
/-- After region 1 (main_v1 · main_v0): `main_v32` rewritten. -/
def U3 (c : Dev nD) : Valuation τ sig (Elt F) :=
  Function.update (U2 m c) main_v32
    ((dat1 (fun c b => U2 m c b) c).arrAt 2 cfg1.N : Buf (Elt F) ((c : Thread nD τ).loc main_v32))
/-- After region 2 (product, sum and positive part): `main_v33` rewritten. -/
def U4 (c : Dev nD) : Valuation τ sig (Elt F) :=
  Function.update (U3 m c) main_v33
    ((dat2 (fun c b => U3 m c b) c).arrAt 3 cfg2.N : Buf (Elt F) ((c : Thread nD τ).loc main_v33))
/-- After region 3 (main_v33 · main_v26): `main_v34` rewritten. -/
def U5 (c : Dev nD) : Valuation τ sig (Elt F) :=
  Function.update (U4 m c) main_v34
    ((dat3 (fun c b => U4 m c b) c).arrAt 2 cfg3.N : Buf (Elt F) ((c : Thread nD τ).loc main_v34))
/-- After region 4 (main_v1 · main_v33): `main_v35` rewritten. -/
def U6 (c : Dev nD) : Valuation τ sig (Elt F) :=
  Function.update (U5 m c) main_v35
    ((dat4 (fun c b => U5 m c b) c).arrAt 2 cfg4.N : Buf (Elt F) ((c : Thread nD τ).loc main_v35))
/-- After region 5 (product, sum and positive part): `main_v36` rewritten. -/
def U7 (c : Dev nD) : Valuation τ sig (Elt F) :=
  Function.update (U6 m c) main_v36
    ((dat5 (fun c b => U6 m c b) c).arrAt 3 cfg5.N : Buf (Elt F) ((c : Thread nD τ).loc main_v36))
/-- After region 6 (main_v4 · main_v5): `main_v37` rewritten. -/
def U8 (c : Dev nD) : Valuation τ sig (Elt F) :=
  Function.update (U7 m c) main_v37
    ((dat6 (fun c b => U7 m c b) c).arrAt 2 cfg6.N : Buf (Elt F) ((c : Thread nD τ).loc main_v37))
/-- After the host stretch that makes region 7's bias row. -/
def U9 (c : Dev nD) : Valuation τ sig (Elt F) := StableHlo.after hostOps7 (U8 m c)
/-- After region 7 (product, bias row, positive part): `main_v39` rewritten. -/
def U10 (c : Dev nD) : Valuation τ sig (Elt F) :=
  Function.update (U9 m c) main_v39
    ((dat7 (fun c b => U9 m c b) c).arrAt 3 cfg7.N : Buf (Elt F) ((c : Thread nD τ).loc main_v39))
/-- After the host stretch that makes region 8's bias row. -/
def U11 (c : Dev nD) : Valuation τ sig (Elt F) := StableHlo.after hostOps8 (U10 m c)
/-- After region 8 (product and bias row): `main_v41` rewritten. -/
def U12 (c : Dev nD) : Valuation τ sig (Elt F) :=
  Function.update (U11 m c) main_v41
    ((dat8 (fun c b => U11 m c b) c).arrAt 3 cfg8.N : Buf (Elt F) ((c : Thread nD τ).loc main_v41))
/-- After region 9 (main_v3 · main_v41): `main_v42` rewritten. -/
def U13 (c : Dev nD) : Valuation τ sig (Elt F) :=
  Function.update (U12 m c) main_v42
    ((dat9 (fun c b => U12 m c b) c).arrAt 2 cfg9.N : Buf (Elt F) ((c : Thread nD τ).loc main_v42))
/-- After the host stretch that makes the attention regions' row operands. -/
def U14 (c : Dev nD) : Valuation τ sig (Elt F) := StableHlo.after hostOps10 (U13 m c)
/-- After region 10 (the attention score of main_v36's rows): `main_v46` rewritten. -/
def U15 (c : Dev nD) : Valuation τ sig (Elt F) :=
  Function.update (U14 m c) main_v46
    ((dat10 (fun c b => U14 m c b) c).arrAt 4 cfg10.N : Buf (Elt F) ((c : Thread nD τ).loc main_v46))
/-- After region 11 (the attention score of main_v39's rows): `main_v47` rewritten. -/
def U16 (c : Dev nD) : Valuation τ sig (Elt F) :=
  Function.update (U15 m c) main_v47
    ((dat11 (fun c b => U15 m c b) c).arrAt 4 cfg11.N : Buf (Elt F) ((c : Thread nD τ).loc main_v47))
/-- After region 12 (the attention score of main_v42's rows): `main_v48` rewritten. -/
def U17 (c : Dev nD) : Valuation τ sig (Elt F) :=
  Function.update (U16 m c) main_v48
    ((dat12 (fun c b => U16 m c b) c).arrAt 4 cfg12.N : Buf (Elt F) ((c : Thread nD τ).loc main_v48))
/-- After the host stretch that makes the mixing weights and the classifier's bias row. -/
def U18 (c : Dev nD) : Valuation τ sig (Elt F) := StableHlo.after hostOps13 (U17 m c)
/-- After region 13 (the classifier with its row-wise log-softmax): `main_v62`, the program's result, rewritten. -/
def U19 (c : Dev nD) : Valuation τ sig (Elt F) :=
  Function.update (U18 m c) main_v62
    ((dat13 (fun c b => U18 m c b) c).arrAt 6 cfg13.N : Buf (Elt F) ((c : Thread nD τ).loc main_v62))

/-! ## The regions' results -/

/-- What the regions leave: the valuation after item `J - 1` read at the reference. The conditional frame reads it at
    fourteen points only, a region's stage number with that region's output. -/
def outs : Outs (F := F) := fun J r c =>
  match J with
  | 2 => U2 m c r
  | 3 => U3 m c r
  | 4 => U4 m c r
  | 5 => U5 m c r
  | 6 => U6 m c r
  | 7 => U7 m c r
  | 8 => U8 m c r
  | 10 => U10 m c r
  | 12 => U12 m c r
  | 13 => U13 m c r
  | 15 => U15 m c r
  | 16 => U16 m c r
  | 17 => U17 m c r
  | 19 => U19 m c r
  | _ => V0 m c r

/-! ## The conditional frame's valuations at these results

In program order. A region's step: the valuation before it is the one above by the step before, and the value
written at the output is the one the valuation above has there. A host stretch's step: the same operations applied
to equal valuations. -/

theorem V2_eq (c : Dev nD) : V2 m (outs m) c = U2 m c := by
  show Function.update (V1 m c) main_v31 (U2 m c main_v31) = U2 m c
  exact update_read_self _ _ _
theorem V3_eq (c : Dev nD) : V3 m (outs m) c = U3 m c := by
  show Function.update (V2 m (outs m) c) main_v32 (U3 m c main_v32) = U3 m c
  rw [V2_eq]; exact update_read_self _ _ _
theorem V4_eq (c : Dev nD) : V4 m (outs m) c = U4 m c := by
  show Function.update (V3 m (outs m) c) main_v33 (U4 m c main_v33) = U4 m c
  rw [V3_eq]; exact update_read_self _ _ _
theorem V5_eq (c : Dev nD) : V5 m (outs m) c = U5 m c := by
  show Function.update (V4 m (outs m) c) main_v34 (U5 m c main_v34) = U5 m c
  rw [V4_eq]; exact update_read_self _ _ _
theorem V6_eq (c : Dev nD) : V6 m (outs m) c = U6 m c := by
  show Function.update (V5 m (outs m) c) main_v35 (U6 m c main_v35) = U6 m c
  rw [V5_eq]; exact update_read_self _ _ _
theorem V7_eq (c : Dev nD) : V7 m (outs m) c = U7 m c := by
  show Function.update (V6 m (outs m) c) main_v36 (U7 m c main_v36) = U7 m c
  rw [V6_eq]; exact update_read_self _ _ _
theorem V8_eq (c : Dev nD) : V8 m (outs m) c = U8 m c := by
  show Function.update (V7 m (outs m) c) main_v37 (U8 m c main_v37) = U8 m c
  rw [V7_eq]; exact update_read_self _ _ _
theorem V9_eq (c : Dev nD) : V9 m (outs m) c = U9 m c := by
  show StableHlo.after hostOps7 (V8 m (outs m) c) = U9 m c
  rw [V8_eq]; rfl
theorem V10_eq (c : Dev nD) : V10 m (outs m) c = U10 m c := by
  show Function.update (V9 m (outs m) c) main_v39 (U10 m c main_v39) = U10 m c
  rw [V9_eq]; exact update_read_self _ _ _
theorem V11_eq (c : Dev nD) : V11 m (outs m) c = U11 m c := by
  show StableHlo.after hostOps8 (V10 m (outs m) c) = U11 m c
  rw [V10_eq]; rfl
theorem V12_eq (c : Dev nD) : V12 m (outs m) c = U12 m c := by
  show Function.update (V11 m (outs m) c) main_v41 (U12 m c main_v41) = U12 m c
  rw [V11_eq]; exact update_read_self _ _ _
theorem V13_eq (c : Dev nD) : V13 m (outs m) c = U13 m c := by
  show Function.update (V12 m (outs m) c) main_v42 (U13 m c main_v42) = U13 m c
  rw [V12_eq]; exact update_read_self _ _ _
theorem V14_eq (c : Dev nD) : V14 m (outs m) c = U14 m c := by
  show StableHlo.after hostOps10 (V13 m (outs m) c) = U14 m c
  rw [V13_eq]; rfl
theorem V15_eq (c : Dev nD) : V15 m (outs m) c = U15 m c := by
  show Function.update (V14 m (outs m) c) main_v46 (U15 m c main_v46) = U15 m c
  rw [V14_eq]; exact update_read_self _ _ _
theorem V16_eq (c : Dev nD) : V16 m (outs m) c = U16 m c := by
  show Function.update (V15 m (outs m) c) main_v47 (U16 m c main_v47) = U16 m c
  rw [V15_eq]; exact update_read_self _ _ _
theorem V17_eq (c : Dev nD) : V17 m (outs m) c = U17 m c := by
  show Function.update (V16 m (outs m) c) main_v48 (U17 m c main_v48) = U17 m c
  rw [V16_eq]; exact update_read_self _ _ _
theorem V18_eq (c : Dev nD) : V18 m (outs m) c = U18 m c := by
  show StableHlo.after hostOps13 (V17 m (outs m) c) = U18 m c
  rw [V17_eq]; rfl
theorem V19_eq (c : Dev nD) : V19 m (outs m) c = U19 m c := by
  show Function.update (V18 m (outs m) c) main_v62 (U19 m c main_v62) = U19 m c
  rw [V18_eq]; exact update_read_self _ _ _

/-- The same, for the valuations as the regions' proof data take them: read at the TensorCore's references, on every core. -/
theorem rd_eq {A B : Dev nD → Valuation τ sig (Elt F)} (h : ∀ c, A c = B c) :
    (fun (c : Dev nD) (b : Ref sig .tc) => (A c b : Buf (Elt F) ((c : Thread nD τ).loc b)))
      = fun (c : Dev nD) (b : Ref sig .tc) => (B c b : Buf (Elt F) ((c : Thread nD τ).loc b)) :=
  funext fun c => funext fun b => congrFun (h c) b

/-! ## Each region's result is its pipeline's last array, from the contents the region was entered at -/

theorem outs_2 (c : Dev nD) : outs m 2 main_v31 c = (dat0 (fun c b => V1 m c b) c).arrAt 2 cfg0.N := by
  show U2 m c main_v31 = _
  unfold U2; rw [Function.update_self]
theorem outs_3 (c : Dev nD) : outs m 3 main_v32 c = (dat1 (fun c b => V2 m (outs m) c b) c).arrAt 2 cfg1.N := by
  rw [rd_eq (V2_eq m)]; show U3 m c main_v32 = _
  unfold U3; rw [Function.update_self]
theorem outs_4 (c : Dev nD) : outs m 4 main_v33 c = (dat2 (fun c b => V3 m (outs m) c b) c).arrAt 3 cfg2.N := by
  rw [rd_eq (V3_eq m)]; show U4 m c main_v33 = _
  unfold U4; rw [Function.update_self]
theorem outs_5 (c : Dev nD) : outs m 5 main_v34 c = (dat3 (fun c b => V4 m (outs m) c b) c).arrAt 2 cfg3.N := by
  rw [rd_eq (V4_eq m)]; show U5 m c main_v34 = _
  unfold U5; rw [Function.update_self]
theorem outs_6 (c : Dev nD) : outs m 6 main_v35 c = (dat4 (fun c b => V5 m (outs m) c b) c).arrAt 2 cfg4.N := by
  rw [rd_eq (V5_eq m)]; show U6 m c main_v35 = _
  unfold U6; rw [Function.update_self]
theorem outs_7 (c : Dev nD) : outs m 7 main_v36 c = (dat5 (fun c b => V6 m (outs m) c b) c).arrAt 3 cfg5.N := by
  rw [rd_eq (V6_eq m)]; show U7 m c main_v36 = _
  unfold U7; rw [Function.update_self]
theorem outs_8 (c : Dev nD) : outs m 8 main_v37 c = (dat6 (fun c b => V7 m (outs m) c b) c).arrAt 2 cfg6.N := by
  rw [rd_eq (V7_eq m)]; show U8 m c main_v37 = _
  unfold U8; rw [Function.update_self]
theorem outs_10 (c : Dev nD) : outs m 10 main_v39 c = (dat7 (fun c b => V9 m (outs m) c b) c).arrAt 3 cfg7.N := by
  rw [rd_eq (V9_eq m)]; show U10 m c main_v39 = _
  unfold U10; rw [Function.update_self]
theorem outs_12 (c : Dev nD) : outs m 12 main_v41 c = (dat8 (fun c b => V11 m (outs m) c b) c).arrAt 3 cfg8.N := by
  rw [rd_eq (V11_eq m)]; show U12 m c main_v41 = _
  unfold U12; rw [Function.update_self]
theorem outs_13 (c : Dev nD) : outs m 13 main_v42 c = (dat9 (fun c b => V12 m (outs m) c b) c).arrAt 2 cfg9.N := by
  rw [rd_eq (V12_eq m)]; show U13 m c main_v42 = _
  unfold U13; rw [Function.update_self]
theorem outs_15 (c : Dev nD) : outs m 15 main_v46 c = (dat10 (fun c b => V14 m (outs m) c b) c).arrAt 4 cfg10.N := by
  rw [rd_eq (V14_eq m)]; show U15 m c main_v46 = _
  unfold U15; rw [Function.update_self]
theorem outs_16 (c : Dev nD) : outs m 16 main_v47 c = (dat11 (fun c b => V15 m (outs m) c b) c).arrAt 4 cfg11.N := by
  rw [rd_eq (V15_eq m)]; show U16 m c main_v47 = _
  unfold U16; rw [Function.update_self]
theorem outs_17 (c : Dev nD) : outs m 17 main_v48 c = (dat12 (fun c b => V16 m (outs m) c b) c).arrAt 4 cfg12.N := by
  rw [rd_eq (V16_eq m)]; show U17 m c main_v48 = _
  unfold U17; rw [Function.update_self]
theorem outs_19 (c : Dev nD) : outs m 19 main_v62 c = (dat13 (fun c b => V18 m (outs m) c b) c).arrAt 6 cfg13.N := by
  rw [rd_eq (V18_eq m)]; show U19 m c main_v62 = _
  unfold U19; rw [Function.update_self]

end Cert.Kernel.Gen

end
-- ==== Proof.KernelH.RunBase.lean ====
import proofs.«157173_j56882546868342_2_alg».proof.Proof.KernelH.Outs
set_option maxRecDepth 16384
noncomputable section
namespace Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (m : (ℓ : Loc nD τ sig) → Buf (Elt F) ℓ)

/-! # The run's shared data

The proof data of the fourteen pipelines, each at the contents its region is entered at; the certificate's choices
for the launch theorem (no variants, no levels, nothing owed between cores); and what rides beside the unscoped
buffers through every item: the core's generator register at some state and its dues, at nothing. -/

/-- Every pipeline's proof data, at its region's entry contents: a literal match on the pipeline's number, so that at a
    numeral it reduces to that region's data. -/
def pdats : (p : Fin 14) → (c : Dev nD) → Dat τ (Elt F) Unit ℕ (UR sig nD τ) ℕ (cfgs p) c
  | ⟨0, _⟩ => fun c => dat0 (fun c b => V1 m c b) c
  | ⟨1, _⟩ => fun c => dat1 (fun c b => V2 m (outs m) c b) c
  | ⟨2, _⟩ => fun c => dat2 (fun c b => V3 m (outs m) c b) c
  | ⟨3, _⟩ => fun c => dat3 (fun c b => V4 m (outs m) c b) c
  | ⟨4, _⟩ => fun c => dat4 (fun c b => V5 m (outs m) c b) c
  | ⟨5, _⟩ => fun c => dat5 (fun c b => V6 m (outs m) c b) c
  | ⟨6, _⟩ => fun c => dat6 (fun c b => V7 m (outs m) c b) c
  | ⟨7, _⟩ => fun c => dat7 (fun c b => V9 m (outs m) c b) c
  | ⟨8, _⟩ => fun c => dat8 (fun c b => V11 m (outs m) c b) c
  | ⟨9, _⟩ => fun c => dat9 (fun c b => V12 m (outs m) c b) c
  | ⟨10, _⟩ => fun c => dat10 (fun c b => V14 m (outs m) c b) c
  | ⟨11, _⟩ => fun c => dat11 (fun c b => V15 m (outs m) c b) c
  | ⟨12, _⟩ => fun c => dat12 (fun c b => V16 m (outs m) c b) c
  | ⟨13, _⟩ => fun c => dat13 (fun c b => V18 m (outs m) c b) c

/-- No variant of any function is chosen. -/
abbrev 𝒱h : Variants := Variants.none
/-- No core waits on another: no level is assigned, -/
abbrev Lh : GSem nD τ sig → Finset Unit := fun _ => ∅
/-- and the level of nothing is zero. -/
abbrev lvh : GSem nD τ sig → Unit → ℕ := fun _ _ => 0
/-- What rides beside the buffers: the generator register at some state (a pipeline's invariant takes it in and gives
    it back) and the core's dues, at nothing. -/
abbrev Rh (c : Dev nD) : sProp 𝕄 := iprop((∃ r, prngReg c r) ∗ ∃ W, owes (c : Thread nD τ) (0 : CellTallies nD τ sig Unit) W)
/-- The same between any two items. -/
abbrev Eh : Fin 15 → Dev nD → sProp 𝕄 := fun _ c => Rh c
/-- A valuation read at the TensorCore's references, as a region's proof data and the buffer lemmas take it. -/
abbrev atTc (c : Dev nD) (W : Valuation τ sig (Elt F)) : (b : Ref sig .tc) → Buf (Elt F) ((c : Thread nD τ).loc b) := fun b => W b

end Cert.Kernel.Gen

end
-- ==== Proof.KernelH.Rec0.lean ====
import proofs.«157173_j56882546868342_2_alg».proof.Proof.KernelH.RunBase
set_option maxRecDepth 16384
noncomputable section
namespace Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (m : (ℓ : Loc nD τ sig) → Buf (Elt F) ℓ)

/-! # Region 0 as a segment of the run

Entered with every unscoped buffer at the valuation `V1`, left at `V2`: `main_v31` rewritten and every other buffer
as found. At the exit each window's array must be what the exit valuation holds there: the output's (window 2) by
the definition of what the region leaves; an input's because a pipeline never writes an input's array and the exit
valuation differs from the entry one at the output only. -/

/-- At the exit every window's array is the exit valuation's at that window's reference. -/
theorem hF0 (c : Dev nD) (w : Fin cfg0.W) :
    (dat0 (fun c b => V1 m c b) c).arrAt w cfg0.N = atTc c (V2 m (outs m) c) (Pipeline.arrRef spec0 w) := by
  by_cases h : w = 2
  · subst h
    refine (outs_2 m c).symm.trans ?_
    show outs m 2 main_v31 c = Function.update (V1 m c) main_v31 (outs m 2 main_v31 c) main_v31
    rw [Function.update_self]
  · have hin : (cfg0.win w).isOut = false := (by decide : ∀ w : Fin cfg0.W, w ≠ 2 → (cfg0.win w).isOut = false) w h
    have hne : Pipeline.arrRef spec0 w ≠ main_v31 := (by decide : ∀ w : Fin cfg0.W, w ≠ 2 → Pipeline.arrRef spec0 w ≠ main_v31) w h
    refine ((dat0 (fun c b => V1 m c b) c).arrAt_in w hin cfg0.N).trans ((A_eq0 (fun c b => V1 m c b) c w).trans ?_)
    exact (V2_of m (outs m) c (Pipeline.arrRef spec0 w) (fun hm => hne (List.mem_singleton.mp hm))).symm

/-- Every buffer that is no window's array is as the region found it. -/
theorem hrest0 (c : Dev nD) : ∀ b : Ref sig .tc, b ∉ Finset.univ.image (Pipeline.arrRef spec0) →
    atTc c (V2 m (outs m) c) b = atTc c (V1 m c) b :=
  fun b hb => V2_of m (outs m) c b fun hm => hb (Finset.mem_image.mpr ⟨2, Finset.mem_univ _, by
    rw [List.mem_singleton.mp hm]⟩)

-- the library's lemmas are stated over the pinned configuration, which unifies with the printed one only when
-- unification may unfold plain definitions in a metavariable's type
set_option backward.isDefEq.respectTransparency.types false in
/-- REGION 0 over the thread state. Entry: its windows' arrays are split out of the unscoped buffers and the rest is
    set aside; the generator register goes into the pipeline's invariant and comes back; nothing is owed; the kernel
    has no semaphore of its own. Exit: the arrays, now at what the pipeline left, are put back beside the rest, which
    gives every unscoped buffer at the exit valuation. -/
def reg0 : Pipeline.RegionSeg (pcfgs (F := F)) adm (pdats m) () defs₀ 𝒱h Lh lvh 0 where
  win := launch0.win.to₀
  block_pos := launch0.block_pos
  stage_whole := launch0.stage_whole
  K := PEmpty
  osem k := k.elim
  ho := Pipeline.OwnSemFacts.none _
  hbody c := (body_obligation0 (fun c b => V1 m c b) c).loose
  hwaits := Pipeline.hwaits_of_owed_zero _ _ _ _ Lh lvh 0 fun _ _ => rfl
  pre c := iprop(StableHlo.held (c : Thread nD τ) (Pipeline.ucRefs τ sig) (V1 m c) ∗ Eh 0 c)
  post c := iprop(StableHlo.held (c : Thread nD τ) (Pipeline.ucRefs τ sig) (V2 m (outs m) c) ∗ Eh 1 c)
  X c := iprop(∃ r, prngReg c r)
  Y c := iprop(∃ r, prngReg c r)
  Z c := Pipeline.unscopedRest (Ix := Unit) (Name := ℕ) (U := UR sig nD τ) (Lvl := ℕ) spec0 c (atTc c (V1 m c))
  hentry c := by
    rw [Pipeline.ownSems0_none]
    have hsplit := Pipeline.arrays_of_unscopedBufs (p := 0) (pcfgs (F := F)) adm (pdats m) launch0.win launch0.arr_whole c
      ((pdats m 0 c).share_full fun _ => rfl) (atTc c (V1 m c)) fun w => A_eq0 (fun c b => V1 m c b) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = (dat0 (fun c b => V1 m c b) c).Φ 0 from rfl]
    have h := hin0 (F := F) (fun c b => V1 m c b) c
    unfold Pipeline.ΦA at h
    iintro ⟨Hp, -, Hr⟩
    iapply h
    isplitl [Hr]; · iexact Hr
    iexact Hp
  hout c := by
    rw [Pipeline.ownSems0_none, show (pdats m 0 c).Φ (Fin.last _) = (dat0 (fun c b => V1 m c b) c).Φ (Fin.last cfg0.N) from rfl]
    have h := hout0 (F := F) (fun c b => V1 m c b) c
    unfold Pipeline.ΦA at h
    iintro HΦ
    ihave H := h $$ HΦ
    icases H with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (atTc c (V1 m c)) (atTc c (V2 m (outs m) c)) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Gen

end
-- ==== Proof.KernelH.Rec1.lean ====
import proofs.«157173_j56882546868342_2_alg».proof.Proof.KernelH.RunBase
set_option maxRecDepth 16384
noncomputable section
namespace Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (m : (ℓ : Loc nD τ sig) → Buf (Elt F) ℓ)

/-! # Region 1 as a segment of the run

Entered with every unscoped buffer at the valuation `V2`, left at `V3`: `main_v32` rewritten and every other buffer
as found. At the exit each window's array must be what the exit valuation holds there: the output's (window 2) by
the definition of what the region leaves; an input's because a pipeline never writes an input's array and the exit
valuation differs from the entry one at the output only. -/

/-- At the exit every window's array is the exit valuation's at that window's reference. -/
theorem hF1 (c : Dev nD) (w : Fin cfg1.W) :
    (dat1 (fun c b => V2 m (outs m) c b) c).arrAt w cfg1.N = atTc c (V3 m (outs m) c) (Pipeline.arrRef spec1 w) := by
  by_cases h : w = 2
  · subst h
    refine (outs_3 m c).symm.trans ?_
    show outs m 3 main_v32 c = Function.update (V2 m (outs m) c) main_v32 (outs m 3 main_v32 c) main_v32
    rw [Function.update_self]
  · have hin : (cfg1.win w).isOut = false := (by decide : ∀ w : Fin cfg1.W, w ≠ 2 → (cfg1.win w).isOut = false) w h
    have hne : Pipeline.arrRef spec1 w ≠ main_v32 := (by decide : ∀ w : Fin cfg1.W, w ≠ 2 → Pipeline.arrRef spec1 w ≠ main_v32) w h
    refine ((dat1 (fun c b => V2 m (outs m) c b) c).arrAt_in w hin cfg1.N).trans ((A_eq1 (fun c b => V2 m (outs m) c b) c w).trans ?_)
    exact (V3_of m (outs m) c (Pipeline.arrRef spec1 w) (fun hm => hne (List.mem_singleton.mp hm))).symm

/-- Every buffer that is no window's array is as the region found it. -/
theorem hrest1 (c : Dev nD) : ∀ b : Ref sig .tc, b ∉ Finset.univ.image (Pipeline.arrRef spec1) →
    atTc c (V3 m (outs m) c) b = atTc c (V2 m (outs m) c) b :=
  fun b hb => V3_of m (outs m) c b fun hm => hb (Finset.mem_image.mpr ⟨2, Finset.mem_univ _, by
    rw [List.mem_singleton.mp hm]⟩)

-- the library's lemmas are stated over the pinned configuration, which unifies with the printed one only when
-- unification may unfold plain definitions in a metavariable's type
set_option backward.isDefEq.respectTransparency.types false in
/-- REGION 1 over the thread state. Entry: its windows' arrays are split out of the unscoped buffers and the rest is
    set aside; the generator register goes into the pipeline's invariant and comes back; nothing is owed; the kernel
    has no semaphore of its own. Exit: the arrays, now at what the pipeline left, are put back beside the rest, which
    gives every unscoped buffer at the exit valuation. -/
def reg1 : Pipeline.RegionSeg (pcfgs (F := F)) adm (pdats m) () defs₀ 𝒱h Lh lvh 1 where
  win := launch1.win.to₀
  block_pos := launch1.block_pos
  stage_whole := launch1.stage_whole
  K := PEmpty
  osem k := k.elim
  ho := Pipeline.OwnSemFacts.none _
  hbody c := (body_obligation1 (fun c b => V2 m (outs m) c b) c).loose
  hwaits := Pipeline.hwaits_of_owed_zero _ _ _ _ Lh lvh 1 fun _ _ => rfl
  pre c := iprop(StableHlo.held (c : Thread nD τ) (Pipeline.ucRefs τ sig) (V2 m (outs m) c) ∗ Eh 1 c)
  post c := iprop(StableHlo.held (c : Thread nD τ) (Pipeline.ucRefs τ sig) (V3 m (outs m) c) ∗ Eh 2 c)
  X c := iprop(∃ r, prngReg c r)
  Y c := iprop(∃ r, prngReg c r)
  Z c := Pipeline.unscopedRest (Ix := Unit) (Name := ℕ) (U := UR sig nD τ) (Lvl := ℕ) spec1 c (atTc c (V2 m (outs m) c))
  hentry c := by
    rw [Pipeline.ownSems0_none]
    have hsplit := Pipeline.arrays_of_unscopedBufs (p := 1) (pcfgs (F := F)) adm (pdats m) launch1.win launch1.arr_whole c
      ((pdats m 1 c).share_full fun _ => rfl) (atTc c (V2 m (outs m) c)) fun w => A_eq1 (fun c b => V2 m (outs m) c b) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = (dat1 (fun c b => V2 m (outs m) c b) c).Φ 0 from rfl]
    have h := hin1 (F := F) (fun c b => V2 m (outs m) c b) c
    unfold Pipeline.ΦA at h
    iintro ⟨Hp, -, Hr⟩
    iapply h
    isplitl [Hr]; · iexact Hr
    iexact Hp
  hout c := by
    rw [Pipeline.ownSems0_none, show (pdats m 1 c).Φ (Fin.last _) = (dat1 (fun c b => V2 m (outs m) c b) c).Φ (Fin.last cfg1.N) from rfl]
    have h := hout1 (F := F) (fun c b => V2 m (outs m) c b) c
    unfold Pipeline.ΦA at h
    iintro HΦ
    ihave H := h $$ HΦ
    icases H with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (atTc c (V2 m (outs m) c)) (atTc c (V3 m (outs m) c)) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Gen

end
-- ==== Proof.KernelH.Rec2.lean ====
import proofs.«157173_j56882546868342_2_alg».proof.Proof.KernelH.RunBase
set_option maxRecDepth 16384
noncomputable section
namespace Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (m : (ℓ : Loc nD τ sig) → Buf (Elt F) ℓ)

/-! # Region 2 as a segment of the run

Entered with every unscoped buffer at the valuation `V3`, left at `V4`: `main_v33` rewritten and every other buffer
as found. At the exit each window's array must be what the exit valuation holds there: the output's (window 3) by
the definition of what the region leaves; an input's because a pipeline never writes an input's array and the exit
valuation differs from the entry one at the output only. -/

/-- At the exit every window's array is the exit valuation's at that window's reference. -/
theorem hF2 (c : Dev nD) (w : Fin cfg2.W) :
    (dat2 (fun c b => V3 m (outs m) c b) c).arrAt w cfg2.N = atTc c (V4 m (outs m) c) (Pipeline.arrRef spec2 w) := by
  by_cases h : w = 3
  · subst h
    refine (outs_4 m c).symm.trans ?_
    show outs m 4 main_v33 c = Function.update (V3 m (outs m) c) main_v33 (outs m 4 main_v33 c) main_v33
    rw [Function.update_self]
  · have hin : (cfg2.win w).isOut = false := (by decide : ∀ w : Fin cfg2.W, w ≠ 3 → (cfg2.win w).isOut = false) w h
    have hne : Pipeline.arrRef spec2 w ≠ main_v33 := (by decide : ∀ w : Fin cfg2.W, w ≠ 3 → Pipeline.arrRef spec2 w ≠ main_v33) w h
    refine ((dat2 (fun c b => V3 m (outs m) c b) c).arrAt_in w hin cfg2.N).trans ((A_eq2 (fun c b => V3 m (outs m) c b) c w).trans ?_)
    exact (V4_of m (outs m) c (Pipeline.arrRef spec2 w) (fun hm => hne (List.mem_singleton.mp hm))).symm

/-- Every buffer that is no window's array is as the region found it. -/
theorem hrest2 (c : Dev nD) : ∀ b : Ref sig .tc, b ∉ Finset.univ.image (Pipeline.arrRef spec2) →
    atTc c (V4 m (outs m) c) b = atTc c (V3 m (outs m) c) b :=
  fun b hb => V4_of m (outs m) c b fun hm => hb (Finset.mem_image.mpr ⟨3, Finset.mem_univ _, by
    rw [List.mem_singleton.mp hm]⟩)

-- the library's lemmas are stated over the pinned configuration, which unifies with the printed one only when
-- unification may unfold plain definitions in a metavariable's type
set_option backward.isDefEq.respectTransparency.types false in
/-- REGION 2 over the thread state. Entry: its windows' arrays are split out of the unscoped buffers and the rest is
    set aside; the generator register goes into the pipeline's invariant and comes back; nothing is owed; the kernel
    has no semaphore of its own. Exit: the arrays, now at what the pipeline left, are put back beside the rest, which
    gives every unscoped buffer at the exit valuation. -/
def reg2 : Pipeline.RegionSeg (pcfgs (F := F)) adm (pdats m) () defs₀ 𝒱h Lh lvh 2 where
  win := launch2.win.to₀
  block_pos := launch2.block_pos
  stage_whole := launch2.stage_whole
  K := PEmpty
  osem k := k.elim
  ho := Pipeline.OwnSemFacts.none _
  hbody c := (body_obligation2 (fun c b => V3 m (outs m) c b) c).loose
  hwaits := Pipeline.hwaits_of_owed_zero _ _ _ _ Lh lvh 2 fun _ _ => rfl
  pre c := iprop(StableHlo.held (c : Thread nD τ) (Pipeline.ucRefs τ sig) (V3 m (outs m) c) ∗ Eh 2 c)
  post c := iprop(StableHlo.held (c : Thread nD τ) (Pipeline.ucRefs τ sig) (V4 m (outs m) c) ∗ Eh 3 c)
  X c := iprop(∃ r, prngReg c r)
  Y c := iprop(∃ r, prngReg c r)
  Z c := Pipeline.unscopedRest (Ix := Unit) (Name := ℕ) (U := UR sig nD τ) (Lvl := ℕ) spec2 c (atTc c (V3 m (outs m) c))
  hentry c := by
    rw [Pipeline.ownSems0_none]
    have hsplit := Pipeline.arrays_of_unscopedBufs (p := 2) (pcfgs (F := F)) adm (pdats m) launch2.win launch2.arr_whole c
      ((pdats m 2 c).share_full fun _ => rfl) (atTc c (V3 m (outs m) c)) fun w => A_eq2 (fun c b => V3 m (outs m) c b) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = (dat2 (fun c b => V3 m (outs m) c b) c).Φ 0 from rfl]
    have h := hin2 (F := F) (fun c b => V3 m (outs m) c b) c
    unfold Pipeline.ΦA at h
    iintro ⟨Hp, -, Hr⟩
    iapply h
    isplitl [Hr]; · iexact Hr
    iexact Hp
  hout c := by
    rw [Pipeline.ownSems0_none, show (pdats m 2 c).Φ (Fin.last _) = (dat2 (fun c b => V3 m (outs m) c b) c).Φ (Fin.last cfg2.N) from rfl]
    have h := hout2 (F := F) (fun c b => V3 m (outs m) c b) c
    unfold Pipeline.ΦA at h
    iintro HΦ
    ihave H := h $$ HΦ
    icases H with ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (atTc c (V3 m (outs m) c)) (atTc c (V4 m (outs m) c)) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Gen

end
-- ==== Proof.KernelH.Rec3.lean ====
import proofs.«157173_j56882546868342_2_alg».proof.Proof.KernelH.RunBase
set_option maxRecDepth 16384
noncomputable section
namespace Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (m : (ℓ : Loc nD τ sig) → Buf (Elt F) ℓ)

/-! # Region 3 as a segment of the run

Entered with every unscoped buffer at the valuation `V4`, left at `V5`: `main_v34` rewritten and every other buffer
as found. At the exit each window's array must be what the exit valuation holds there: the output's (window 2) by
the definition of what the region leaves; an input's because a pipeline never writes an input's array and the exit
valuation differs from the entry one at the output only. -/

/-- At the exit every window's array is the exit valuation's at that window's reference. -/
theorem hF3 (c : Dev nD) (w : Fin cfg3.W) :
    (dat3 (fun c b => V4 m (outs m) c b) c).arrAt w cfg3.N = atTc c (V5 m (outs m) c) (Pipeline.arrRef spec3 w) := by
  by_cases h : w = 2
  · subst h
    refine (outs_5 m c).symm.trans ?_
    show outs m 5 main_v34 c = Function.update (V4 m (outs m) c) main_v34 (outs m 5 main_v34 c) main_v34
    rw [Function.update_self]
  · have hin : (cfg3.win w).isOut = false := (by decide : ∀ w : Fin cfg3.W, w ≠ 2 → (cfg3.win w).isOut = false) w h
    have hne : Pipeline.arrRef spec3 w ≠ main_v34 := (by decide : ∀ w : Fin cfg3.W, w ≠ 2 → Pipeline.arrRef spec3 w ≠ main_v34) w h
    refine ((dat3 (fun c b => V4 m (outs m) c b) c).arrAt_in w hin cfg3.N).trans ((A_eq3 (fun c b => V4 m (outs m) c b) c w).trans ?_)
    exact (V5_of m (outs m) c (Pipeline.arrRef spec3 w) (fun hm => hne (List.mem_singleton.mp hm))).symm

/-- Every buffer that is no window's array is as the region found it. -/
theorem hrest3 (c : Dev nD) : ∀ b : Ref sig .tc, b ∉ Finset.univ.image (Pipeline.arrRef spec3) →
    atTc c (V5 m (outs m) c) b = atTc c (V4 m (outs m) c) b :=
  fun b hb => V5_of m (outs m) c b fun hm => hb (Finset.mem_image.mpr ⟨2, Finset.mem_univ _, by
    rw [List.mem_singleton.mp hm]⟩)

-- the library's lemmas are stated over the pinned configuration, which unifies with the printed one only when
-- unification may unfold plain definitions in a metavariable's type
set_option backward.isDefEq.respectTransparency.types false in
/-- REGION 3 over the thread state. Entry: its windows' arrays are split out of the unscoped buffers and the rest is
    set aside; the generator register goes into the pipeline's invariant and comes back; nothing is owed; the kernel
    has no semaphore of its own. Exit: the arrays, now at what the pipeline left, are put back beside the rest, which
    gives every unscoped buffer at the exit valuation. -/
def reg3 : Pipeline.RegionSeg (pcfgs (F := F)) adm (pdats m) () defs₀ 𝒱h Lh lvh 3 where
  win := launch3.win.to₀
  block_pos := launch3.block_pos
  stage_whole := launch3.stage_whole
  K := PEmpty
  osem k := k.elim
  ho := Pipeline.OwnSemFacts.none _
  hbody c := (body_obligation3 (fun c b => V4 m (outs m) c b) c).loose
  hwaits := Pipeline.hwaits_of_owed_zero _ _ _ _ Lh lvh 3 fun _ _ => rfl
  pre c := iprop(StableHlo.held (c : Thread nD τ) (Pipeline.ucRefs τ sig) (V4 m (outs m) c) ∗ Eh 3 c)
  post c := iprop(StableHlo.held (c : Thread nD τ) (Pipeline.ucRefs τ sig) (V5 m (outs m) c) ∗ Eh 4 c)
  X c := iprop(∃ r, prngReg c r)
  Y c := iprop(∃ r, prngReg c r)
  Z c := Pipeline.unscopedRest (Ix := Unit) (Name := ℕ) (U := UR sig nD τ) (Lvl := ℕ) spec3 c (atTc c (V4 m (outs m) c))
  hentry c := by
    rw [Pipeline.ownSems0_none]
    have hsplit := Pipeline.arrays_of_unscopedBufs (p := 3) (pcfgs (F := F)) adm (pdats m) launch3.win launch3.arr_whole c
      ((pdats m 3 c).share_full fun _ => rfl) (atTc c (V4 m (outs m) c)) fun w => A_eq3 (fun c b => V4 m (outs m) c b) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = (dat3 (fun c b => V4 m (outs m) c b) c).Φ 0 from rfl]
    have h := hin3 (F := F) (fun c b => V4 m (outs m) c b) c
    unfold Pipeline.ΦA at h
    iintro ⟨Hp, -, Hr⟩
    iapply h
    isplitl [Hr]; · iexact Hr
    iexact Hp
  hout c := by
    rw [Pipeline.ownSems0_none, show (pdats m 3 c).Φ (Fin.last _) = (dat3 (fun c b => V4 m (outs m) c b) c).Φ (Fin.last cfg3.N) from rfl]
    have h := hout3 (F := F) (fun c b => V4 m (outs m) c b) c
    unfold Pipeline.ΦA at h
    iintro HΦ
    ihave H := h $$ HΦ
    icases H with ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (atTc c (V4 m (outs m) c)) (atTc c (V5 m (outs m) c)) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Gen

end
-- ==== Proof.KernelH.Rec4.lean ====
import proofs.«157173_j56882546868342_2_alg».proof.Proof.KernelH.RunBase
set_option maxRecDepth 16384
noncomputable section
namespace Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (m : (ℓ : Loc nD τ sig) → Buf (Elt F) ℓ)

/-! # Region 4 as a segment of the run

Entered with every unscoped buffer at the valuation `V5`, left at `V6`: `main_v35` rewritten and every other buffer
as found. At the exit each window's array must be what the exit valuation holds there: the output's (window 2) by
the definition of what the region leaves; an input's because a pipeline never writes an input's array and the exit
valuation differs from the entry one at the output only. -/

/-- At the exit every window's array is the exit valuation's at that window's reference. -/
theorem hF4 (c : Dev nD) (w : Fin cfg4.W) :
    (dat4 (fun c b => V5 m (outs m) c b) c).arrAt w cfg4.N = atTc c (V6 m (outs m) c) (Pipeline.arrRef spec4 w) := by
  by_cases h : w = 2
  · subst h
    refine (outs_6 m c).symm.trans ?_
    show outs m 6 main_v35 c = Function.update (V5 m (outs m) c) main_v35 (outs m 6 main_v35 c) main_v35
    rw [Function.update_self]
  · have hin : (cfg4.win w).isOut = false := (by decide : ∀ w : Fin cfg4.W, w ≠ 2 → (cfg4.win w).isOut = false) w h
    have hne : Pipeline.arrRef spec4 w ≠ main_v35 := (by decide : ∀ w : Fin cfg4.W, w ≠ 2 → Pipeline.arrRef spec4 w ≠ main_v35) w h
    refine ((dat4 (fun c b => V5 m (outs m) c b) c).arrAt_in w hin cfg4.N).trans ((A_eq4 (fun c b => V5 m (outs m) c b) c w).trans ?_)
    exact (V6_of m (outs m) c (Pipeline.arrRef spec4 w) (fun hm => hne (List.mem_singleton.mp hm))).symm

/-- Every buffer that is no window's array is as the region found it. -/
theorem hrest4 (c : Dev nD) : ∀ b : Ref sig .tc, b ∉ Finset.univ.image (Pipeline.arrRef spec4) →
    atTc c (V6 m (outs m) c) b = atTc c (V5 m (outs m) c) b :=
  fun b hb => V6_of m (outs m) c b fun hm => hb (Finset.mem_image.mpr ⟨2, Finset.mem_univ _, by
    rw [List.mem_singleton.mp hm]⟩)

-- the library's lemmas are stated over the pinned configuration, which unifies with the printed one only when
-- unification may unfold plain definitions in a metavariable's type
set_option backward.isDefEq.respectTransparency.types false in
/-- REGION 4 over the thread state. Entry: its windows' arrays are split out of the unscoped buffers and the rest is
    set aside; the generator register goes into the pipeline's invariant and comes back; nothing is owed; the kernel
    has no semaphore of its own. Exit: the arrays, now at what the pipeline left, are put back beside the rest, which
    gives every unscoped buffer at the exit valuation. -/
def reg4 : Pipeline.RegionSeg (pcfgs (F := F)) adm (pdats m) () defs₀ 𝒱h Lh lvh 4 where
  win := launch4.win.to₀
  block_pos := launch4.block_pos
  stage_whole := launch4.stage_whole
  K := PEmpty
  osem k := k.elim
  ho := Pipeline.OwnSemFacts.none _
  hbody c := (body_obligation4 (fun c b => V5 m (outs m) c b) c).loose
  hwaits := Pipeline.hwaits_of_owed_zero _ _ _ _ Lh lvh 4 fun _ _ => rfl
  pre c := iprop(StableHlo.held (c : Thread nD τ) (Pipeline.ucRefs τ sig) (V5 m (outs m) c) ∗ Eh 4 c)
  post c := iprop(StableHlo.held (c : Thread nD τ) (Pipeline.ucRefs τ sig) (V6 m (outs m) c) ∗ Eh 5 c)
  X c := iprop(∃ r, prngReg c r)
  Y c := iprop(∃ r, prngReg c r)
  Z c := Pipeline.unscopedRest (Ix := Unit) (Name := ℕ) (U := UR sig nD τ) (Lvl := ℕ) spec4 c (atTc c (V5 m (outs m) c))
  hentry c := by
    rw [Pipeline.ownSems0_none]
    have hsplit := Pipeline.arrays_of_unscopedBufs (p := 4) (pcfgs (F := F)) adm (pdats m) launch4.win launch4.arr_whole c
      ((pdats m 4 c).share_full fun _ => rfl) (atTc c (V5 m (outs m) c)) fun w => A_eq4 (fun c b => V5 m (outs m) c b) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = (dat4 (fun c b => V5 m (outs m) c b) c).Φ 0 from rfl]
    have h := hin4 (F := F) (fun c b => V5 m (outs m) c b) c
    unfold Pipeline.ΦA at h
    iintro ⟨Hp, -, Hr⟩
    iapply h
    isplitl [Hr]; · iexact Hr
    iexact Hp
  hout c := by
    rw [Pipeline.ownSems0_none, show (pdats m 4 c).Φ (Fin.last _) = (dat4 (fun c b => V5 m (outs m) c b) c).Φ (Fin.last cfg4.N) from rfl]
    have h := hout4 (F := F) (fun c b => V5 m (outs m) c b) c
    unfold Pipeline.ΦA at h
    iintro HΦ
    ihave H := h $$ HΦ
    icases H with ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (atTc c (V5 m (outs m) c)) (atTc c (V6 m (outs m) c)) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Gen

end
-- ==== Proof.KernelH.Rec5.lean ====
import proofs.«157173_j56882546868342_2_alg».proof.Proof.KernelH.RunBase
set_option maxRecDepth 16384
noncomputable section
namespace Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (m : (ℓ : Loc nD τ sig) → Buf (Elt F) ℓ)

/-! # Region 5 as a segment of the run

Entered with every unscoped buffer at the valuation `V6`, left at `V7`: `main_v36` rewritten and every other buffer
as found. At the exit each window's array must be what the exit valuation holds there: the output's (window 3) by
the definition of what the region leaves; an input's because a pipeline never writes an input's array and the exit
valuation differs from the entry one at the output only. -/

/-- At the exit every window's array is the exit valuation's at that window's reference. -/
theorem hF5 (c : Dev nD) (w : Fin cfg5.W) :
    (dat5 (fun c b => V6 m (outs m) c b) c).arrAt w cfg5.N = atTc c (V7 m (outs m) c) (Pipeline.arrRef spec5 w) := by
  by_cases h : w = 3
  · subst h
    refine (outs_7 m c).symm.trans ?_
    show outs m 7 main_v36 c = Function.update (V6 m (outs m) c) main_v36 (outs m 7 main_v36 c) main_v36
    rw [Function.update_self]
  · have hin : (cfg5.win w).isOut = false := (by decide : ∀ w : Fin cfg5.W, w ≠ 3 → (cfg5.win w).isOut = false) w h
    have hne : Pipeline.arrRef spec5 w ≠ main_v36 := (by decide : ∀ w : Fin cfg5.W, w ≠ 3 → Pipeline.arrRef spec5 w ≠ main_v36) w h
    refine ((dat5 (fun c b => V6 m (outs m) c b) c).arrAt_in w hin cfg5.N).trans ((A_eq5 (fun c b => V6 m (outs m) c b) c w).trans ?_)
    exact (V7_of m (outs m) c (Pipeline.arrRef spec5 w) (fun hm => hne (List.mem_singleton.mp hm))).symm

/-- Every buffer that is no window's array is as the region found it. -/
theorem hrest5 (c : Dev nD) : ∀ b : Ref sig .tc, b ∉ Finset.univ.image (Pipeline.arrRef spec5) →
    atTc c (V7 m (outs m) c) b = atTc c (V6 m (outs m) c) b :=
  fun b hb => V7_of m (outs m) c b fun hm => hb (Finset.mem_image.mpr ⟨3, Finset.mem_univ _, by
    rw [List.mem_singleton.mp hm]⟩)

-- the library's lemmas are stated over the pinned configuration, which unifies with the printed one only when
-- unification may unfold plain definitions in a metavariable's type
set_option backward.isDefEq.respectTransparency.types false in
/-- REGION 5 over the thread state. Entry: its windows' arrays are split out of the unscoped buffers and the rest is
    set aside; the generator register goes into the pipeline's invariant and comes back; nothing is owed; the kernel
    has no semaphore of its own. Exit: the arrays, now at what the pipeline left, are put back beside the rest, which
    gives every unscoped buffer at the exit valuation. -/
def reg5 : Pipeline.RegionSeg (pcfgs (F := F)) adm (pdats m) () defs₀ 𝒱h Lh lvh 5 where
  win := launch5.win.to₀
  block_pos := launch5.block_pos
  stage_whole := launch5.stage_whole
  K := PEmpty
  osem k := k.elim
  ho := Pipeline.OwnSemFacts.none _
  hbody c := (body_obligation5 (fun c b => V6 m (outs m) c b) c).loose
  hwaits := Pipeline.hwaits_of_owed_zero _ _ _ _ Lh lvh 5 fun _ _ => rfl
  pre c := iprop(StableHlo.held (c : Thread nD τ) (Pipeline.ucRefs τ sig) (V6 m (outs m) c) ∗ Eh 5 c)
  post c := iprop(StableHlo.held (c : Thread nD τ) (Pipeline.ucRefs τ sig) (V7 m (outs m) c) ∗ Eh 6 c)
  X c := iprop(∃ r, prngReg c r)
  Y c := iprop(∃ r, prngReg c r)
  Z c := Pipeline.unscopedRest (Ix := Unit) (Name := ℕ) (U := UR sig nD τ) (Lvl := ℕ) spec5 c (atTc c (V6 m (outs m) c))
  hentry c := by
    rw [Pipeline.ownSems0_none]
    have hsplit := Pipeline.arrays_of_unscopedBufs (p := 5) (pcfgs (F := F)) adm (pdats m) launch5.win launch5.arr_whole c
      ((pdats m 5 c).share_full fun _ => rfl) (atTc c (V6 m (outs m) c)) fun w => A_eq5 (fun c b => V6 m (outs m) c b) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 5 c).Φ 0 = (dat5 (fun c b => V6 m (outs m) c b) c).Φ 0 from rfl]
    have h := hin5 (F := F) (fun c b => V6 m (outs m) c b) c
    unfold Pipeline.ΦA at h
    iintro ⟨Hp, -, Hr⟩
    iapply h
    isplitl [Hr]; · iexact Hr
    iexact Hp
  hout c := by
    rw [Pipeline.ownSems0_none, show (pdats m 5 c).Φ (Fin.last _) = (dat5 (fun c b => V6 m (outs m) c b) c).Φ (Fin.last cfg5.N) from rfl]
    have h := hout5 (F := F) (fun c b => V6 m (outs m) c b) c
    unfold Pipeline.ΦA at h
    iintro HΦ
    ihave H := h $$ HΦ
    icases H with ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m) ((pdats m 5 c).share_full fun _ => rfl)
      (atTc c (V6 m (outs m) c)) (atTc c (V7 m (outs m) c)) ((pdats m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Gen

end
-- ==== Proof.KernelH.Rec6.lean ====
import proofs.«157173_j56882546868342_2_alg».proof.Proof.KernelH.RunBase
set_option maxRecDepth 16384
noncomputable section
namespace Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (m : (ℓ : Loc nD τ sig) → Buf (Elt F) ℓ)

/-! # Region 6 as a segment of the run

Entered with every unscoped buffer at the valuation `V7`, left at `V8`: `main_v37` rewritten and every other buffer
as found. At the exit each window's array must be what the exit valuation holds there: the output's (window 2) by
the definition of what the region leaves; an input's because a pipeline never writes an input's array and the exit
valuation differs from the entry one at the output only. -/

/-- At the exit every window's array is the exit valuation's at that window's reference. -/
theorem hF6 (c : Dev nD) (w : Fin cfg6.W) :
    (dat6 (fun c b => V7 m (outs m) c b) c).arrAt w cfg6.N = atTc c (V8 m (outs m) c) (Pipeline.arrRef spec6 w) := by
  by_cases h : w = 2
  · subst h
    refine (outs_8 m c).symm.trans ?_
    show outs m 8 main_v37 c = Function.update (V7 m (outs m) c) main_v37 (outs m 8 main_v37 c) main_v37
    rw [Function.update_self]
  · have hin : (cfg6.win w).isOut = false := (by decide : ∀ w : Fin cfg6.W, w ≠ 2 → (cfg6.win w).isOut = false) w h
    have hne : Pipeline.arrRef spec6 w ≠ main_v37 := (by decide : ∀ w : Fin cfg6.W, w ≠ 2 → Pipeline.arrRef spec6 w ≠ main_v37) w h
    refine ((dat6 (fun c b => V7 m (outs m) c b) c).arrAt_in w hin cfg6.N).trans ((A_eq6 (fun c b => V7 m (outs m) c b) c w).trans ?_)
    exact (V8_of m (outs m) c (Pipeline.arrRef spec6 w) (fun hm => hne (List.mem_singleton.mp hm))).symm

/-- Every buffer that is no window's array is as the region found it. -/
theorem hrest6 (c : Dev nD) : ∀ b : Ref sig .tc, b ∉ Finset.univ.image (Pipeline.arrRef spec6) →
    atTc c (V8 m (outs m) c) b = atTc c (V7 m (outs m) c) b :=
  fun b hb => V8_of m (outs m) c b fun hm => hb (Finset.mem_image.mpr ⟨2, Finset.mem_univ _, by
    rw [List.mem_singleton.mp hm]⟩)

-- the library's lemmas are stated over the pinned configuration, which unifies with the printed one only when
-- unification may unfold plain definitions in a metavariable's type
set_option backward.isDefEq.respectTransparency.types false in
/-- REGION 6 over the thread state. Entry: its windows' arrays are split out of the unscoped buffers and the rest is
    set aside; the generator register goes into the pipeline's invariant and comes back; nothing is owed; the kernel
    has no semaphore of its own. Exit: the arrays, now at what the pipeline left, are put back beside the rest, which
    gives every unscoped buffer at the exit valuation. -/
def reg6 : Pipeline.RegionSeg (pcfgs (F := F)) adm (pdats m) () defs₀ 𝒱h Lh lvh 6 where
  win := launch6.win.to₀
  block_pos := launch6.block_pos
  stage_whole := launch6.stage_whole
  K := PEmpty
  osem k := k.elim
  ho := Pipeline.OwnSemFacts.none _
  hbody c := (body_obligation6 (fun c b => V7 m (outs m) c b) c).loose
  hwaits := Pipeline.hwaits_of_owed_zero _ _ _ _ Lh lvh 6 fun _ _ => rfl
  pre c := iprop(StableHlo.held (c : Thread nD τ) (Pipeline.ucRefs τ sig) (V7 m (outs m) c) ∗ Eh 6 c)
  post c := iprop(StableHlo.held (c : Thread nD τ) (Pipeline.ucRefs τ sig) (V8 m (outs m) c) ∗ Eh 7 c)
  X c := iprop(∃ r, prngReg c r)
  Y c := iprop(∃ r, prngReg c r)
  Z c := Pipeline.unscopedRest (Ix := Unit) (Name := ℕ) (U := UR sig nD τ) (Lvl := ℕ) spec6 c (atTc c (V7 m (outs m) c))
  hentry c := by
    rw [Pipeline.ownSems0_none]
    have hsplit := Pipeline.arrays_of_unscopedBufs (p := 6) (pcfgs (F := F)) adm (pdats m) launch6.win launch6.arr_whole c
      ((pdats m 6 c).share_full fun _ => rfl) (atTc c (V7 m (outs m) c)) fun w => A_eq6 (fun c b => V7 m (outs m) c b) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 6 c).Φ 0 = (dat6 (fun c b => V7 m (outs m) c b) c).Φ 0 from rfl]
    have h := hin6 (F := F) (fun c b => V7 m (outs m) c b) c
    unfold Pipeline.ΦA at h
    iintro ⟨Hp, -, Hr⟩
    iapply h
    isplitl [Hr]; · iexact Hr
    iexact Hp
  hout c := by
    rw [Pipeline.ownSems0_none, show (pdats m 6 c).Φ (Fin.last _) = (dat6 (fun c b => V7 m (outs m) c b) c).Φ (Fin.last cfg6.N) from rfl]
    have h := hout6 (F := F) (fun c b => V7 m (outs m) c b) c
    unfold Pipeline.ΦA at h
    iintro HΦ
    ihave H := h $$ HΦ
    icases H with ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m) ((pdats m 6 c).share_full fun _ => rfl)
      (atTc c (V7 m (outs m) c)) (atTc c (V8 m (outs m) c)) ((pdats m 6 c).arrAt · cfg6.N) (hF6 m c) (hrest6 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Gen

end
-- ==== Proof.KernelH.Rec7.lean ====
import proofs.«157173_j56882546868342_2_alg».proof.Proof.KernelH.RunBase
set_option maxRecDepth 16384
noncomputable section
namespace Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (m : (ℓ : Loc nD τ sig) → Buf (Elt F) ℓ)

/-! # Region 7 as a segment of the run

Entered with every unscoped buffer at the valuation `V9`, left at `V10`: `main_v39` rewritten and every other buffer
as found. At the exit each window's array must be what the exit valuation holds there: the output's (window 3) by
the definition of what the region leaves; an input's because a pipeline never writes an input's array and the exit
valuation differs from the entry one at the output only. -/

/-- At the exit every window's array is the exit valuation's at that window's reference. -/
theorem hF7 (c : Dev nD) (w : Fin cfg7.W) :
    (dat7 (fun c b => V9 m (outs m) c b) c).arrAt w cfg7.N = atTc c (V10 m (outs m) c) (Pipeline.arrRef spec7 w) := by
  by_cases h : w = 3
  · subst h
    refine (outs_10 m c).symm.trans ?_
    show outs m 10 main_v39 c = Function.update (V9 m (outs m) c) main_v39 (outs m 10 main_v39 c) main_v39
    rw [Function.update_self]
  · have hin : (cfg7.win w).isOut = false := (by decide : ∀ w : Fin cfg7.W, w ≠ 3 → (cfg7.win w).isOut = false) w h
    have hne : Pipeline.arrRef spec7 w ≠ main_v39 := (by decide : ∀ w : Fin cfg7.W, w ≠ 3 → Pipeline.arrRef spec7 w ≠ main_v39) w h
    refine ((dat7 (fun c b => V9 m (outs m) c b) c).arrAt_in w hin cfg7.N).trans ((A_eq7 (fun c b => V9 m (outs m) c b) c w).trans ?_)
    exact (V10_of m (outs m) c (Pipeline.arrRef spec7 w) (fun hm => hne (List.mem_singleton.mp hm))).symm

/-- Every buffer that is no window's array is as the region found it. -/
theorem hrest7 (c : Dev nD) : ∀ b : Ref sig .tc, b ∉ Finset.univ.image (Pipeline.arrRef spec7) →
    atTc c (V10 m (outs m) c) b = atTc c (V9 m (outs m) c) b :=
  fun b hb => V10_of m (outs m) c b fun hm => hb (Finset.mem_image.mpr ⟨3, Finset.mem_univ _, by
    rw [List.mem_singleton.mp hm]⟩)

-- the library's lemmas are stated over the pinned configuration, which unifies with the printed one only when
-- unification may unfold plain definitions in a metavariable's type
set_option backward.isDefEq.respectTransparency.types false in
/-- REGION 7 over the thread state. Entry: its windows' arrays are split out of the unscoped buffers and the rest is
    set aside; the generator register goes into the pipeline's invariant and comes back; nothing is owed; the kernel
    has no semaphore of its own. Exit: the arrays, now at what the pipeline left, are put back beside the rest, which
    gives every unscoped buffer at the exit valuation. -/
def reg7 : Pipeline.RegionSeg (pcfgs (F := F)) adm (pdats m) () defs₀ 𝒱h Lh lvh 7 where
  win := launch7.win.to₀
  block_pos := launch7.block_pos
  stage_whole := launch7.stage_whole
  K := PEmpty
  osem k := k.elim
  ho := Pipeline.OwnSemFacts.none _
  hbody c := (body_obligation7 (fun c b => V9 m (outs m) c b) c).loose
  hwaits := Pipeline.hwaits_of_owed_zero _ _ _ _ Lh lvh 7 fun _ _ => rfl
  pre c := iprop(StableHlo.held (c : Thread nD τ) (Pipeline.ucRefs τ sig) (V9 m (outs m) c) ∗ Eh 7 c)
  post c := iprop(StableHlo.held (c : Thread nD τ) (Pipeline.ucRefs τ sig) (V10 m (outs m) c) ∗ Eh 8 c)
  X c := iprop(∃ r, prngReg c r)
  Y c := iprop(∃ r, prngReg c r)
  Z c := Pipeline.unscopedRest (Ix := Unit) (Name := ℕ) (U := UR sig nD τ) (Lvl := ℕ) spec7 c (atTc c (V9 m (outs m) c))
  hentry c := by
    rw [Pipeline.ownSems0_none]
    have hsplit := Pipeline.arrays_of_unscopedBufs (p := 7) (pcfgs (F := F)) adm (pdats m) launch7.win launch7.arr_whole c
      ((pdats m 7 c).share_full fun _ => rfl) (atTc c (V9 m (outs m) c)) fun w => A_eq7 (fun c b => V9 m (outs m) c b) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 7 c).Φ 0 = (dat7 (fun c b => V9 m (outs m) c b) c).Φ 0 from rfl]
    have h := hin7 (F := F) (fun c b => V9 m (outs m) c b) c
    unfold Pipeline.ΦA at h
    iintro ⟨Hp, -, Hr⟩
    iapply h
    isplitl [Hr]; · iexact Hr
    iexact Hp
  hout c := by
    rw [Pipeline.ownSems0_none, show (pdats m 7 c).Φ (Fin.last _) = (dat7 (fun c b => V9 m (outs m) c b) c).Φ (Fin.last cfg7.N) from rfl]
    have h := hout7 (F := F) (fun c b => V9 m (outs m) c b) c
    unfold Pipeline.ΦA at h
    iintro HΦ
    ihave H := h $$ HΦ
    icases H with ⟨Hr, Hp⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c (pdats m) ((pdats m 7 c).share_full fun _ => rfl)
      (atTc c (V9 m (outs m) c)) (atTc c (V10 m (outs m) c)) ((pdats m 7 c).arrAt · cfg7.N) (hF7 m c) (hrest7 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Gen

end
-- ==== Proof.KernelH.Rec8.lean ====
import proofs.«157173_j56882546868342_2_alg».proof.Proof.KernelH.RunBase
set_option maxRecDepth 16384
noncomputable section
namespace Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (m : (ℓ : Loc nD τ sig) → Buf (Elt F) ℓ)

/-! # Region 8 as a segment of the run

Entered with every unscoped buffer at the valuation `V11`, left at `V12`: `main_v41` rewritten and every other buffer
as found. At the exit each window's array must be what the exit valuation holds there: the output's (window 3) by
the definition of what the region leaves; an input's because a pipeline never writes an input's array and the exit
valuation differs from the entry one at the output only. -/

/-- At the exit every window's array is the exit valuation's at that window's reference. -/
theorem hF8 (c : Dev nD) (w : Fin cfg8.W) :
    (dat8 (fun c b => V11 m (outs m) c b) c).arrAt w cfg8.N = atTc c (V12 m (outs m) c) (Pipeline.arrRef spec8 w) := by
  by_cases h : w = 3
  · subst h
    refine (outs_12 m c).symm.trans ?_
    show outs m 12 main_v41 c = Function.update (V11 m (outs m) c) main_v41 (outs m 12 main_v41 c) main_v41
    rw [Function.update_self]
  · have hin : (cfg8.win w).isOut = false := (by decide : ∀ w : Fin cfg8.W, w ≠ 3 → (cfg8.win w).isOut = false) w h
    have hne : Pipeline.arrRef spec8 w ≠ main_v41 := (by decide : ∀ w : Fin cfg8.W, w ≠ 3 → Pipeline.arrRef spec8 w ≠ main_v41) w h
    refine ((dat8 (fun c b => V11 m (outs m) c b) c).arrAt_in w hin cfg8.N).trans ((A_eq8 (fun c b => V11 m (outs m) c b) c w).trans ?_)
    exact (V12_of m (outs m) c (Pipeline.arrRef spec8 w) (fun hm => hne (List.mem_singleton.mp hm))).symm

/-- Every buffer that is no window's array is as the region found it. -/
theorem hrest8 (c : Dev nD) : ∀ b : Ref sig .tc, b ∉ Finset.univ.image (Pipeline.arrRef spec8) →
    atTc c (V12 m (outs m) c) b = atTc c (V11 m (outs m) c) b :=
  fun b hb => V12_of m (outs m) c b fun hm => hb (Finset.mem_image.mpr ⟨3, Finset.mem_univ _, by
    rw [List.mem_singleton.mp hm]⟩)

-- the library's lemmas are stated over the pinned configuration, which unifies with the printed one only when
-- unification may unfold plain definitions in a metavariable's type
set_option backward.isDefEq.respectTransparency.types false in
/-- REGION 8 over the thread state. Entry: its windows' arrays are split out of the unscoped buffers and the rest is
    set aside; the generator register goes into the pipeline's invariant and comes back; nothing is owed; the kernel
    has no semaphore of its own. Exit: the arrays, now at what the pipeline left, are put back beside the rest, which
    gives every unscoped buffer at the exit valuation. -/
def reg8 : Pipeline.RegionSeg (pcfgs (F := F)) adm (pdats m) () defs₀ 𝒱h Lh lvh 8 where
  win := launch8.win.to₀
  block_pos := launch8.block_pos
  stage_whole := launch8.stage_whole
  K := PEmpty
  osem k := k.elim
  ho := Pipeline.OwnSemFacts.none _
  hbody c := (body_obligation8 (fun c b => V11 m (outs m) c b) c).loose
  hwaits := Pipeline.hwaits_of_owed_zero _ _ _ _ Lh lvh 8 fun _ _ => rfl
  pre c := iprop(StableHlo.held (c : Thread nD τ) (Pipeline.ucRefs τ sig) (V11 m (outs m) c) ∗ Eh 8 c)
  post c := iprop(StableHlo.held (c : Thread nD τ) (Pipeline.ucRefs τ sig) (V12 m (outs m) c) ∗ Eh 9 c)
  X c := iprop(∃ r, prngReg c r)
  Y c := iprop(∃ r, prngReg c r)
  Z c := Pipeline.unscopedRest (Ix := Unit) (Name := ℕ) (U := UR sig nD τ) (Lvl := ℕ) spec8 c (atTc c (V11 m (outs m) c))
  hentry c := by
    rw [Pipeline.ownSems0_none]
    have hsplit := Pipeline.arrays_of_unscopedBufs (p := 8) (pcfgs (F := F)) adm (pdats m) launch8.win launch8.arr_whole c
      ((pdats m 8 c).share_full fun _ => rfl) (atTc c (V11 m (outs m) c)) fun w => A_eq8 (fun c b => V11 m (outs m) c b) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 8 c).Φ 0 = (dat8 (fun c b => V11 m (outs m) c b) c).Φ 0 from rfl]
    have h := hin8 (F := F) (fun c b => V11 m (outs m) c b) c
    unfold Pipeline.ΦA at h
    iintro ⟨Hp, -, Hr⟩
    iapply h
    isplitl [Hr]; · iexact Hr
    iexact Hp
  hout c := by
    rw [Pipeline.ownSems0_none, show (pdats m 8 c).Φ (Fin.last _) = (dat8 (fun c b => V11 m (outs m) c b) c).Φ (Fin.last cfg8.N) from rfl]
    have h := hout8 (F := F) (fun c b => V11 m (outs m) c b) c
    unfold Pipeline.ΦA at h
    iintro HΦ
    ihave H := h $$ HΦ
    icases H with ⟨Hr, Hp⟩
    isplitl [Hp]; · iexact Hp
    isplitr; · iempintro
    iexact Hr
  hexit c := by
    have hjoin := Pipeline.unscopedBufs_of_arrays (p := 8) (pcfgs (F := F)) adm (Ix := Unit) (Name := ℕ) (U := UR sig nD τ) (Lvl := ℕ)
      launch8.win launch8.arr_whole c (pdats m) ((pdats m 8 c).share_full fun _ => rfl)
      (atTc c (V11 m (outs m) c)) (atTc c (V12 m (outs m) c)) ((pdats m 8 c).arrAt · cfg8.N) (hF8 m c) (hrest8 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Gen

end
-- ==== Proof.KernelH.Rec9.lean ====
import proofs.«157173_j56882546868342_2_alg».proof.Proof.KernelH.RunBase
set_option maxRecDepth 16384
noncomputable section
namespace Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (m : (ℓ : Loc nD τ sig) → Buf (Elt F) ℓ)

/-! # Region 9 as a segment of the run

Entered with every unscoped buffer at the valuation `V12`, left at `V13`: `main_v42` rewritten and every other buffer
as found. At the exit each window's array must be what the exit valuation holds there: the output's (window 2) by
the definition of what the region leaves; an input's because a pipeline never writes an input's array and the exit
valuation differs from the entry one at the output only. -/

/-- At the exit every window's array is the exit valuation's at that window's reference. -/
theorem hF9 (c : Dev nD) (w : Fin cfg9.W) :
    (dat9 (fun c b => V12 m (outs m) c b) c).arrAt w cfg9.N = atTc c (V13 m (outs m) c) (Pipeline.arrRef spec9 w) := by
  by_cases h : w = 2
  · subst h
    refine (outs_13 m c).symm.trans ?_
    show outs m 13 main_v42 c = Function.update (V12 m (outs m) c) main_v42 (outs m 13 main_v42 c) main_v42
    rw [Function.update_self]
  · have hin : (cfg9.win w).isOut = false := (by decide : ∀ w : Fin cfg9.W, w ≠ 2 → (cfg9.win w).isOut = false) w h
    have hne : Pipeline.arrRef spec9 w ≠ main_v42 := (by decide : ∀ w : Fin cfg9.W, w ≠ 2 → Pipeline.arrRef spec9 w ≠ main_v42) w h
    refine ((dat9 (fun c b => V12 m (outs m) c b) c).arrAt_in w hin cfg9.N).trans ((A_eq9 (fun c b => V12 m (outs m) c b) c w).trans ?_)
    exact (V13_of m (outs m) c (Pipeline.arrRef spec9 w) (fun hm => hne (List.mem_singleton.mp hm))).symm

/-- Every buffer that is no window's array is as the region found it. -/
theorem hrest9 (c : Dev nD) : ∀ b : Ref sig .tc, b ∉ Finset.univ.image (Pipeline.arrRef spec9) →
    atTc c (V13 m (outs m) c) b = atTc c (V12 m (outs m) c) b :=
  fun b hb => V13_of m (outs m) c b fun hm => hb (Finset.mem_image.mpr ⟨2, Finset.mem_univ _, by
    rw [List.mem_singleton.mp hm]⟩)

-- the library's lemmas are stated over the pinned configuration, which unifies with the printed one only when
-- unification may unfold plain definitions in a metavariable's type
set_option backward.isDefEq.respectTransparency.types false in
/-- REGION 9 over the thread state. Entry: its windows' arrays are split out of the unscoped buffers and the rest is
    set aside; the generator register goes into the pipeline's invariant and comes back; nothing is owed; the kernel
    has no semaphore of its own. Exit: the arrays, now at what the pipeline left, are put back beside the rest, which
    gives every unscoped buffer at the exit valuation. -/
def reg9 : Pipeline.RegionSeg (pcfgs (F := F)) adm (pdats m) () defs₀ 𝒱h Lh lvh 9 where
  win := launch9.win.to₀
  block_pos := launch9.block_pos
  stage_whole := launch9.stage_whole
  K := PEmpty
  osem k := k.elim
  ho := Pipeline.OwnSemFacts.none _
  hbody c := (body_obligation9 (fun c b => V12 m (outs m) c b) c).loose
  hwaits := Pipeline.hwaits_of_owed_zero _ _ _ _ Lh lvh 9 fun _ _ => rfl
  pre c := iprop(StableHlo.held (c : Thread nD τ) (Pipeline.ucRefs τ sig) (V12 m (outs m) c) ∗ Eh 9 c)
  post c := iprop(StableHlo.held (c : Thread nD τ) (Pipeline.ucRefs τ sig) (V13 m (outs m) c) ∗ Eh 10 c)
  X c := iprop(∃ r, prngReg c r)
  Y c := iprop(∃ r, prngReg c r)
  Z c := Pipeline.unscopedRest (Ix := Unit) (Name := ℕ) (U := UR sig nD τ) (Lvl := ℕ) spec9 c (atTc c (V12 m (outs m) c))
  hentry c := by
    rw [Pipeline.ownSems0_none]
    have hsplit := Pipeline.arrays_of_unscopedBufs (p := 9) (pcfgs (F := F)) adm (pdats m) launch9.win launch9.arr_whole c
      ((pdats m 9 c).share_full fun _ => rfl) (atTc c (V12 m (outs m) c)) fun w => A_eq9 (fun c b => V12 m (outs m) c b) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 9 c).Φ 0 = (dat9 (fun c b => V12 m (outs m) c b) c).Φ 0 from rfl]
    have h := hin9 (F := F) (fun c b => V12 m (outs m) c b) c
    unfold Pipeline.ΦA at h
    iintro ⟨Hp, -, Hr⟩
    iapply h
    isplitl [Hr]; · iexact Hr
    iexact Hp
  hout c := by
    rw [Pipeline.ownSems0_none, show (pdats m 9 c).Φ (Fin.last _) = (dat9 (fun c b => V12 m (outs m) c b) c).Φ (Fin.last cfg9.N) from rfl]
    have h := hout9 (F := F) (fun c b => V12 m (outs m) c b) c
    unfold Pipeline.ΦA at h
    iintro HΦ
    ihave H := h $$ HΦ
    icases H with ⟨Hr, Hp⟩
    isplitl [Hp]; · iexact Hp
    isplitr; · iempintro
    iexact Hr
  hexit c := by
    have hjoin := Pipeline.unscopedBufs_of_arrays (p := 9) (pcfgs (F := F)) adm (Ix := Unit) (Name := ℕ) (U := UR sig nD τ) (Lvl := ℕ)
      launch9.win launch9.arr_whole c (pdats m) ((pdats m 9 c).share_full fun _ => rfl)
      (atTc c (V12 m (outs m) c)) (atTc c (V13 m (outs m) c)) ((pdats m 9 c).arrAt · cfg9.N) (hF9 m c) (hrest9 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Gen

end
-- ==== Proof.KernelH.Rec10.lean ====
import proofs.«157173_j56882546868342_2_alg».proof.Proof.KernelH.RunBase
set_option maxRecDepth 16384
noncomputable section
namespace Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (m : (ℓ : Loc nD τ sig) → Buf (Elt F) ℓ)

/-! # Region 10 as a segment of the run

Entered with every unscoped buffer at the valuation `V14`, left at `V15`: `main_v46` rewritten and every other buffer
as found. At the exit each window's array must be what the exit valuation holds there: the output's (window 4) by
the definition of what the region leaves; an input's because a pipeline never writes an input's array and the exit
valuation differs from the entry one at the output only. -/

/-- At the exit every window's array is the exit valuation's at that window's reference. -/
theorem hF10 (c : Dev nD) (w : Fin cfg10.W) :
    (dat10 (fun c b => V14 m (outs m) c b) c).arrAt w cfg10.N = atTc c (V15 m (outs m) c) (Pipeline.arrRef spec10 w) := by
  by_cases h : w = 4
  · subst h
    refine (outs_15 m c).symm.trans ?_
    show outs m 15 main_v46 c = Function.update (V14 m (outs m) c) main_v46 (outs m 15 main_v46 c) main_v46
    rw [Function.update_self]
  · have hin : (cfg10.win w).isOut = false := (by decide : ∀ w : Fin cfg10.W, w ≠ 4 → (cfg10.win w).isOut = false) w h
    have hne : Pipeline.arrRef spec10 w ≠ main_v46 := (by decide : ∀ w : Fin cfg10.W, w ≠ 4 → Pipeline.arrRef spec10 w ≠ main_v46) w h
    refine ((dat10 (fun c b => V14 m (outs m) c b) c).arrAt_in w hin cfg10.N).trans ((A_eq10 (fun c b => V14 m (outs m) c b) c w).trans ?_)
    exact (V15_of m (outs m) c (Pipeline.arrRef spec10 w) (fun hm => hne (List.mem_singleton.mp hm))).symm

/-- Every buffer that is no window's array is as the region found it. -/
theorem hrest10 (c : Dev nD) : ∀ b : Ref sig .tc, b ∉ Finset.univ.image (Pipeline.arrRef spec10) →
    atTc c (V15 m (outs m) c) b = atTc c (V14 m (outs m) c) b :=
  fun b hb => V15_of m (outs m) c b fun hm => hb (Finset.mem_image.mpr ⟨4, Finset.mem_univ _, by
    rw [List.mem_singleton.mp hm]⟩)

-- the library's lemmas are stated over the pinned configuration, which unifies with the printed one only when
-- unification may unfold plain definitions in a metavariable's type
set_option backward.isDefEq.respectTransparency.types false in
/-- REGION 10 over the thread state. Entry: its windows' arrays are split out of the unscoped buffers and the rest is
    set aside; the generator register goes into the pipeline's invariant and comes back; nothing is owed; the kernel
    has no semaphore of its own. Exit: the arrays, now at what the pipeline left, are put back beside the rest, which
    gives every unscoped buffer at the exit valuation. -/
def reg10 : Pipeline.RegionSeg (pcfgs (F := F)) adm (pdats m) () defs₀ 𝒱h Lh lvh 10 where
  win := launch10.win.to₀
  block_pos := launch10.block_pos
  stage_whole := launch10.stage_whole
  K := PEmpty
  osem k := k.elim
  ho := Pipeline.OwnSemFacts.none _
  hbody c := (body_obligation10 (fun c b => V14 m (outs m) c b) c).loose
  hwaits := Pipeline.hwaits_of_owed_zero _ _ _ _ Lh lvh 10 fun _ _ => rfl
  pre c := iprop(StableHlo.held (c : Thread nD τ) (Pipeline.ucRefs τ sig) (V14 m (outs m) c) ∗ Eh 10 c)
  post c := iprop(StableHlo.held (c : Thread nD τ) (Pipeline.ucRefs τ sig) (V15 m (outs m) c) ∗ Eh 11 c)
  X c := iprop(∃ r, prngReg c r)
  Y c := iprop(∃ r, prngReg c r)
  Z c := Pipeline.unscopedRest (Ix := Unit) (Name := ℕ) (U := UR sig nD τ) (Lvl := ℕ) spec10 c (atTc c (V14 m (outs m) c))
  hentry c := by
    rw [Pipeline.ownSems0_none]
    have hsplit := Pipeline.arrays_of_unscopedBufs (p := 10) (pcfgs (F := F)) adm (pdats m) launch10.win launch10.arr_whole c
      ((pdats m 10 c).share_full fun _ => rfl) (atTc c (V14 m (outs m) c)) fun w => A_eq10 (fun c b => V14 m (outs m) c b) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 10 c).Φ 0 = (dat10 (fun c b => V14 m (outs m) c b) c).Φ 0 from rfl]
    have h := hin10 (F := F) (fun c b => V14 m (outs m) c b) c
    unfold Pipeline.ΦA at h
    iintro ⟨Hp, -, Hr⟩
    iapply h
    isplitl [Hr]; · iexact Hr
    iexact Hp
  hout c := by
    rw [Pipeline.ownSems0_none, show (pdats m 10 c).Φ (Fin.last _) = (dat10 (fun c b => V14 m (outs m) c b) c).Φ (Fin.last cfg10.N) from rfl]
    have h := hout10 (F := F) (fun c b => V14 m (outs m) c b) c
    unfold Pipeline.ΦA at h
    iintro HΦ
    ihave H := h $$ HΦ
    icases H with ⟨Hr, Hp⟩
    isplitl [Hp]; · iexact Hp
    isplitr; · iempintro
    iexact Hr
  hexit c := by
    have hjoin := Pipeline.unscopedBufs_of_arrays (p := 10) (pcfgs (F := F)) adm (Ix := Unit) (Name := ℕ) (U := UR sig nD τ) (Lvl := ℕ)
      launch10.win launch10.arr_whole c (pdats m) ((pdats m 10 c).share_full fun _ => rfl)
      (atTc c (V14 m (outs m) c)) (atTc c (V15 m (outs m) c)) ((pdats m 10 c).arrAt · cfg10.N) (hF10 m c) (hrest10 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Gen

end
-- ==== Proof.KernelH.Rec11.lean ====
import proofs.«157173_j56882546868342_2_alg».proof.Proof.KernelH.RunBase
set_option maxRecDepth 16384
noncomputable section
namespace Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (m : (ℓ : Loc nD τ sig) → Buf (Elt F) ℓ)

/-! # Region 11 as a segment of the run

Entered with every unscoped buffer at the valuation `V15`, left at `V16`: `main_v47` rewritten and every other buffer
as found. At the exit each window's array must be what the exit valuation holds there: the output's (window 4) by
the definition of what the region leaves; an input's because a pipeline never writes an input's array and the exit
valuation differs from the entry one at the output only. -/

/-- At the exit every window's array is the exit valuation's at that window's reference. -/
theorem hF11 (c : Dev nD) (w : Fin cfg11.W) :
    (dat11 (fun c b => V15 m (outs m) c b) c).arrAt w cfg11.N = atTc c (V16 m (outs m) c) (Pipeline.arrRef spec11 w) := by
  by_cases h : w = 4
  · subst h
    refine (outs_16 m c).symm.trans ?_
    show outs m 16 main_v47 c = Function.update (V15 m (outs m) c) main_v47 (outs m 16 main_v47 c) main_v47
    rw [Function.update_self]
  · have hin : (cfg11.win w).isOut = false := (by decide : ∀ w : Fin cfg11.W, w ≠ 4 → (cfg11.win w).isOut = false) w h
    have hne : Pipeline.arrRef spec11 w ≠ main_v47 := (by decide : ∀ w : Fin cfg11.W, w ≠ 4 → Pipeline.arrRef spec11 w ≠ main_v47) w h
    refine ((dat11 (fun c b => V15 m (outs m) c b) c).arrAt_in w hin cfg11.N).trans ((A_eq11 (fun c b => V15 m (outs m) c b) c w).trans ?_)
    exact (V16_of m (outs m) c (Pipeline.arrRef spec11 w) (fun hm => hne (List.mem_singleton.mp hm))).symm

/-- Every buffer that is no window's array is as the region found it. -/
theorem hrest11 (c : Dev nD) : ∀ b : Ref sig .tc, b ∉ Finset.univ.image (Pipeline.arrRef spec11) →
    atTc c (V16 m (outs m) c) b = atTc c (V15 m (outs m) c) b :=
  fun b hb => V16_of m (outs m) c b fun hm => hb (Finset.mem_image.mpr ⟨4, Finset.mem_univ _, by
    rw [List.mem_singleton.mp hm]⟩)

-- the library's lemmas are stated over the pinned configuration, which unifies with the printed one only when
-- unification may unfold plain definitions in a metavariable's type
set_option backward.isDefEq.respectTransparency.types false in
/-- REGION 11 over the thread state. Entry: its windows' arrays are split out of the unscoped buffers and the rest is
    set aside; the generator register goes into the pipeline's invariant and comes back; nothing is owed; the kernel
    has no semaphore of its own. Exit: the arrays, now at what the pipeline left, are put back beside the rest, which
    gives every unscoped buffer at the exit valuation. -/
def reg11 : Pipeline.RegionSeg (pcfgs (F := F)) adm (pdats m) () defs₀ 𝒱h Lh lvh 11 where
  win := launch11.win.to₀
  block_pos := launch11.block_pos
  stage_whole := launch11.stage_whole
  K := PEmpty
  osem k := k.elim
  ho := Pipeline.OwnSemFacts.none _
  hbody c := (body_obligation11 (fun c b => V15 m (outs m) c b) c).loose
  hwaits := Pipeline.hwaits_of_owed_zero _ _ _ _ Lh lvh 11 fun _ _ => rfl
  pre c := iprop(StableHlo.held (c : Thread nD τ) (Pipeline.ucRefs τ sig) (V15 m (outs m) c) ∗ Eh 11 c)
  post c := iprop(StableHlo.held (c : Thread nD τ) (Pipeline.ucRefs τ sig) (V16 m (outs m) c) ∗ Eh 12 c)
  X c := iprop(∃ r, prngReg c r)
  Y c := iprop(∃ r, prngReg c r)
  Z c := Pipeline.unscopedRest (Ix := Unit) (Name := ℕ) (U := UR sig nD τ) (Lvl := ℕ) spec11 c (atTc c (V15 m (outs m) c))
  hentry c := by
    rw [Pipeline.ownSems0_none]
    have hsplit := Pipeline.arrays_of_unscopedBufs (p := 11) (pcfgs (F := F)) adm (pdats m) launch11.win launch11.arr_whole c
      ((pdats m 11 c).share_full fun _ => rfl) (atTc c (V15 m (outs m) c)) fun w => A_eq11 (fun c b => V15 m (outs m) c b) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 11 c).Φ 0 = (dat11 (fun c b => V15 m (outs m) c b) c).Φ 0 from rfl]
    have h := hin11 (F := F) (fun c b => V15 m (outs m) c b) c
    unfold Pipeline.ΦA at h
    iintro ⟨Hp, -, Hr⟩
    iapply h
    isplitl [Hr]; · iexact Hr
    iexact Hp
  hout c := by
    rw [Pipeline.ownSems0_none, show (pdats m 11 c).Φ (Fin.last _) = (dat11 (fun c b => V15 m (outs m) c b) c).Φ (Fin.last cfg11.N) from rfl]
    have h := hout11 (F := F) (fun c b => V15 m (outs m) c b) c
    unfold Pipeline.ΦA at h
    iintro HΦ
    ihave H := h $$ HΦ
    icases H with ⟨Hr, Hp⟩
    isplitl [Hp]; · iexact Hp
    isplitr; · iempintro
    iexact Hr
  hexit c := by
    have hjoin := Pipeline.unscopedBufs_of_arrays (p := 11) (pcfgs (F := F)) adm (Ix := Unit) (Name := ℕ) (U := UR sig nD τ) (Lvl := ℕ)
      launch11.win launch11.arr_whole c (pdats m) ((pdats m 11 c).share_full fun _ => rfl)
      (atTc c (V15 m (outs m) c)) (atTc c (V16 m (outs m) c)) ((pdats m 11 c).arrAt · cfg11.N) (hF11 m c) (hrest11 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Gen

end
-- ==== Proof.KernelH.Rec12.lean ====
import proofs.«157173_j56882546868342_2_alg».proof.Proof.KernelH.RunBase
set_option maxRecDepth 16384
noncomputable section
namespace Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (m : (ℓ : Loc nD τ sig) → Buf (Elt F) ℓ)

/-! # Region 12 as a segment of the run

Entered with every unscoped buffer at the valuation `V16`, left at `V17`: `main_v48` rewritten and every other buffer
as found. At the exit each window's array must be what the exit valuation holds there: the output's (window 4) by
the definition of what the region leaves; an input's because a pipeline never writes an input's array and the exit
valuation differs from the entry one at the output only. -/

/-- At the exit every window's array is the exit valuation's at that window's reference. -/
theorem hF12 (c : Dev nD) (w : Fin cfg12.W) :
    (dat12 (fun c b => V16 m (outs m) c b) c).arrAt w cfg12.N = atTc c (V17 m (outs m) c) (Pipeline.arrRef spec12 w) := by
  by_cases h : w = 4
  · subst h
    refine (outs_17 m c).symm.trans ?_
    show outs m 17 main_v48 c = Function.update (V16 m (outs m) c) main_v48 (outs m 17 main_v48 c) main_v48
    rw [Function.update_self]
  · have hin : (cfg12.win w).isOut = false := (by decide : ∀ w : Fin cfg12.W, w ≠ 4 → (cfg12.win w).isOut = false) w h
    have hne : Pipeline.arrRef spec12 w ≠ main_v48 := (by decide : ∀ w : Fin cfg12.W, w ≠ 4 → Pipeline.arrRef spec12 w ≠ main_v48) w h
    refine ((dat12 (fun c b => V16 m (outs m) c b) c).arrAt_in w hin cfg12.N).trans ((A_eq12 (fun c b => V16 m (outs m) c b) c w).trans ?_)
    exact (V17_of m (outs m) c (Pipeline.arrRef spec12 w) (fun hm => hne (List.mem_singleton.mp hm))).symm

/-- Every buffer that is no window's array is as the region found it. -/
theorem hrest12 (c : Dev nD) : ∀ b : Ref sig .tc, b ∉ Finset.univ.image (Pipeline.arrRef spec12) →
    atTc c (V17 m (outs m) c) b = atTc c (V16 m (outs m) c) b :=
  fun b hb => V17_of m (outs m) c b fun hm => hb (Finset.mem_image.mpr ⟨4, Finset.mem_univ _, by
    rw [List.mem_singleton.mp hm]⟩)

-- the library's lemmas are stated over the pinned configuration, which unifies with the printed one only when
-- unification may unfold plain definitions in a metavariable's type
set_option backward.isDefEq.respectTransparency.types false in
/-- REGION 12 over the thread state. Entry: its windows' arrays are split out of the unscoped buffers and the rest is
    set aside; the generator register goes into the pipeline's invariant and comes back; nothing is owed; the kernel
    has no semaphore of its own. Exit: the arrays, now at what the pipeline left, are put back beside the rest, which
    gives every unscoped buffer at the exit valuation. -/
def reg12 : Pipeline.RegionSeg (pcfgs (F := F)) adm (pdats m) () defs₀ 𝒱h Lh lvh 12 where
  win := launch12.win.to₀
  block_pos := launch12.block_pos
  stage_whole := launch12.stage_whole
  K := PEmpty
  osem k := k.elim
  ho := Pipeline.OwnSemFacts.none _
  hbody c := (body_obligation12 (fun c b => V16 m (outs m) c b) c).loose
  hwaits := Pipeline.hwaits_of_owed_zero _ _ _ _ Lh lvh 12 fun _ _ => rfl
  pre c := iprop(StableHlo.held (c : Thread nD τ) (Pipeline.ucRefs τ sig) (V16 m (outs m) c) ∗ Eh 12 c)
  post c := iprop(StableHlo.held (c : Thread nD τ) (Pipeline.ucRefs τ sig) (V17 m (outs m) c) ∗ Eh 13 c)
  X c := iprop(∃ r, prngReg c r)
  Y c := iprop(∃ r, prngReg c r)
  Z c := Pipeline.unscopedRest (Ix := Unit) (Name := ℕ) (U := UR sig nD τ) (Lvl := ℕ) spec12 c (atTc c (V16 m (outs m) c))
  hentry c := by
    rw [Pipeline.ownSems0_none]
    have hsplit := Pipeline.arrays_of_unscopedBufs (p := 12) (pcfgs (F := F)) adm (pdats m) launch12.win launch12.arr_whole c
      ((pdats m 12 c).share_full fun _ => rfl) (atTc c (V16 m (outs m) c)) fun w => A_eq12 (fun c b => V16 m (outs m) c b) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 12 c).Φ 0 = (dat12 (fun c b => V16 m (outs m) c b) c).Φ 0 from rfl]
    have h := hin12 (F := F) (fun c b => V16 m (outs m) c b) c
    unfold Pipeline.ΦA at h
    iintro ⟨Hp, -, Hr⟩
    iapply h
    isplitl [Hr]; · iexact Hr
    iexact Hp
  hout c := by
    rw [Pipeline.ownSems0_none, show (pdats m 12 c).Φ (Fin.last _) = (dat12 (fun c b => V16 m (outs m) c b) c).Φ (Fin.last cfg12.N) from rfl]
    have h := hout12 (F := F) (fun c b => V16 m (outs m) c b) c
    unfold Pipeline.ΦA at h
    iintro HΦ
    ihave H := h $$ HΦ
    icases H with ⟨Hr, Hp⟩
    isplitl [Hp]; · iexact Hp
    isplitr; · iempintro
    iexact Hr
  hexit c := by
    have hjoin := Pipeline.unscopedBufs_of_arrays (p := 12) (pcfgs (F := F)) adm (Ix := Unit) (Name := ℕ) (U := UR sig nD τ) (Lvl := ℕ)
      launch12.win launch12.arr_whole c (pdats m) ((pdats m 12 c).share_full fun _ => rfl)
      (atTc c (V16 m (outs m) c)) (atTc c (V17 m (outs m) c)) ((pdats m 12 c).arrAt · cfg12.N) (hF12 m c) (hrest12 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Gen

end
-- ==== Proof.KernelH.Rec13.lean ====
import proofs.«157173_j56882546868342_2_alg».proof.Proof.KernelH.RunBase
set_option maxRecDepth 16384
noncomputable section
namespace Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (m : (ℓ : Loc nD τ sig) → Buf (Elt F) ℓ)

/-! # Region 13 as a segment of the run

Entered with every unscoped buffer at the valuation `V18`, left at `V19`: `main_v62` rewritten and every other buffer
as found. At the exit each window's array must be what the exit valuation holds there: the output's (window 6) by
the definition of what the region leaves; an input's because a pipeline never writes an input's array and the exit
valuation differs from the entry one at the output only. -/

/-- At the exit every window's array is the exit valuation's at that window's reference. -/
theorem hF13 (c : Dev nD) (w : Fin cfg13.W) :
    (dat13 (fun c b => V18 m (outs m) c b) c).arrAt w cfg13.N = atTc c (V19 m (outs m) c) (Pipeline.arrRef spec13 w) := by
  by_cases h : w = 6
  · subst h
    refine (outs_19 m c).symm.trans ?_
    show outs m 19 main_v62 c = Function.update (V18 m (outs m) c) main_v62 (outs m 19 main_v62 c) main_v62
    rw [Function.update_self]
  · have hin : (cfg13.win w).isOut = false := (by decide : ∀ w : Fin cfg13.W, w ≠ 6 → (cfg13.win w).isOut = false) w h
    have hne : Pipeline.arrRef spec13 w ≠ main_v62 := (by decide : ∀ w : Fin cfg13.W, w ≠ 6 → Pipeline.arrRef spec13 w ≠ main_v62) w h
    refine ((dat13 (fun c b => V18 m (outs m) c b) c).arrAt_in w hin cfg13.N).trans ((A_eq13 (fun c b => V18 m (outs m) c b) c w).trans ?_)
    exact (V19_of m (outs m) c (Pipeline.arrRef spec13 w) (fun hm => hne (List.mem_singleton.mp hm))).symm

/-- Every buffer that is no window's array is as the region found it. -/
theorem hrest13 (c : Dev nD) : ∀ b : Ref sig .tc, b ∉ Finset.univ.image (Pipeline.arrRef spec13) →
    atTc c (V19 m (outs m) c) b = atTc c (V18 m (outs m) c) b :=
  fun b hb => V19_of m (outs m) c b fun hm => hb (Finset.mem_image.mpr ⟨6, Finset.mem_univ _, by
    rw [List.mem_singleton.mp hm]⟩)

-- the library's lemmas are stated over the pinned configuration, which unifies with the printed one only when
-- unification may unfold plain definitions in a metavariable's type
set_option backward.isDefEq.respectTransparency.types false in
/-- REGION 13 over the thread state. Entry: its windows' arrays are split out of the unscoped buffers and the rest is
    set aside; the generator register goes into the pipeline's invariant and comes back; nothing is owed; the kernel
    has no semaphore of its own. Exit: the arrays, now at what the pipeline left, are put back beside the rest, which
    gives every unscoped buffer at the exit valuation. -/
def reg13 : Pipeline.RegionSeg (pcfgs (F := F)) adm (pdats m) () defs₀ 𝒱h Lh lvh 13 where
  win := launch13.win.to₀
  block_pos := launch13.block_pos
  stage_whole := launch13.stage_whole
  K := PEmpty
  osem k := k.elim
  ho := Pipeline.OwnSemFacts.none _
  hbody c := (body_obligation13 (fun c b => V18 m (outs m) c b) c).loose
  hwaits := Pipeline.hwaits_of_owed_zero _ _ _ _ Lh lvh 13 fun _ _ => rfl
  pre c := iprop(StableHlo.held (c : Thread nD τ) (Pipeline.ucRefs τ sig) (V18 m (outs m) c) ∗ Eh 13 c)
  post c := iprop(StableHlo.held (c : Thread nD τ) (Pipeline.ucRefs τ sig) (V19 m (outs m) c) ∗ Eh 14 c)
  X c := iprop(∃ r, prngReg c r)
  Y c := iprop(∃ r, prngReg c r)
  Z c := Pipeline.unscopedRest (Ix := Unit) (Name := ℕ) (U := UR sig nD τ) (Lvl := ℕ) spec13 c (atTc c (V18 m (outs m) c))
  hentry c := by
    rw [Pipeline.ownSems0_none]
    have hsplit := Pipeline.arrays_of_unscopedBufs (p := 13) (pcfgs (F := F)) adm (pdats m) launch13.win launch13.arr_whole c
      ((pdats m 13 c).share_full fun _ => rfl) (atTc c (V18 m (outs m) c)) fun w => A_eq13 (fun c b => V18 m (outs m) c b) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 13 c).Φ 0 = (dat13 (fun c b => V18 m (outs m) c b) c).Φ 0 from rfl]
    have h := hin13 (F := F) (fun c b => V18 m (outs m) c b) c
    unfold Pipeline.ΦA at h
    iintro ⟨Hp, -, Hr⟩
    iapply h
    isplitl [Hr]; · iexact Hr
    iexact Hp
  hout c := by
    rw [Pipeline.ownSems0_none, show (pdats m 13 c).Φ (Fin.last _) = (dat13 (fun c b => V18 m (outs m) c b) c).Φ (Fin.last cfg13.N) from rfl]
    have h := hout13 (F := F) (fun c b => V18 m (outs m) c b) c
    unfold Pipeline.ΦA at h
    iintro HΦ
    ihave H := h $$ HΦ
    icases H with ⟨Hr, Hp⟩
    isplitl [Hp]; · iexact Hp
    isplitr; · iempintro
    iexact Hr
  hexit c := by
    have hjoin := Pipeline.unscopedBufs_of_arrays (p := 13) (pcfgs (F := F)) adm (Ix := Unit) (Name := ℕ) (U := UR sig nD τ) (Lvl := ℕ)
      launch13.win launch13.arr_whole c (pdats m) ((pdats m 13 c).share_full fun _ => rfl)
      (atTc c (V18 m (outs m) c)) (atTc c (V19 m (outs m) c)) ((pdats m 13 c).arrAt · cfg13.N) (hF13 m c) (hrest13 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Gen

end
-- ==== Proof.KernelH.Run.lean ====
import proofs.«157173_j56882546868342_2_alg».proof.Proof.KernelH.RunCond
import proofs.«157173_j56882546868342_2_alg».proof.Proof.KernelH.Rec0
import proofs.«157173_j56882546868342_2_alg».proof.Proof.KernelH.Rec1
import proofs.«157173_j56882546868342_2_alg».proof.Proof.KernelH.Rec2
import proofs.«157173_j56882546868342_2_alg».proof.Proof.KernelH.Rec3
import proofs.«157173_j56882546868342_2_alg».proof.Proof.KernelH.Rec4
import proofs.«157173_j56882546868342_2_alg».proof.Proof.KernelH.Rec5
import proofs.«157173_j56882546868342_2_alg».proof.Proof.KernelH.Rec6
import proofs.«157173_j56882546868342_2_alg».proof.Proof.KernelH.Rec7
import proofs.«157173_j56882546868342_2_alg».proof.Proof.KernelH.Rec8
import proofs.«157173_j56882546868342_2_alg».proof.Proof.KernelH.Rec9
import proofs.«157173_j56882546868342_2_alg».proof.Proof.KernelH.Rec10
import proofs.«157173_j56882546868342_2_alg».proof.Proof.KernelH.Rec11
import proofs.«157173_j56882546868342_2_alg».proof.Proof.KernelH.Rec12
import proofs.«157173_j56882546868342_2_alg».proof.Proof.KernelH.Rec13
set_option maxRecDepth 16384
noncomputable section
namespace Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (m : (ℓ : Loc nD τ sig) → Buf (Elt F) ℓ)

/-! # The run

The launch theorem for a program of several regions wants one segment record per region, chained through thread
states, and the launch's own first state. The records are the fourteen regions'; between two items a core holds
every unscoped buffer at the conditional frame's valuation, taken at what the regions leave, beside its generator
register and its dues, at nothing; each record is entered from exactly the state the item before leaves, so the
chaining is reflexivity. What is left is the launch: the ghost element is the pipelines' own, no further resource
is asked for, and every core starts with its register at the launch state and nothing owed. Two conclusions are
drawn from the one run: every argument array ends as launched, and the result buffer ends at what the last region
leaves. -/

/-- The launch's ghost element is the pipelines' own; no core is given anything else. -/
theorem launch_elem :
    (ownU (initOf (Pipeline.cells cfgs cellOf_inj) (Pipeline.launchToks cfgs cellOf_inj)) : sProp 𝕄)
      ⊢ |={Set.univ}=> iprop(BI.own (emb₁ (initOf (Pipeline.cells cfgs cellOf_inj) (Pipeline.launchToks cfgs cellOf_inj)))
          ∗ bigSep Finset.univ fun _ : Dev nD => (iprop(emp) : sProp 𝕄)) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

/-- On one core, what the launch hands over beside the buffers holds the register at some state and nothing owed. -/
theorem launch_rest_core (ρ : Dev nD → PrngReg) (c : Dev nD) :
    (iprop(unscopedSems0 c ∗ owes (c : Thread nD τ) (0 : CellTallies nD τ sig Unit) ∅
        ∗ Pipeline.launchCred (0 : Dev nD → CellTallies nD τ sig Unit) c ∗ prngReg c (ρ c) ∗ emp) : sProp 𝕄) ⊢ Rh c := by
  iintro ⟨-, HO, -, Hp, -⟩
  isplitl [Hp]; · iexists _; iexact Hp
  iexists ∅; iexact HO

/-- So the launch makes the riding state on every core at once. -/
theorem launch_rest (ρ : Dev nD → PrngReg) :
    iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (fun _ : Dev nD => (iprop(emp) : sProp 𝕄)) c)) ∗ levAts Lh lvh)
      ⊢ (|={Set.univ}=> bigSep Finset.univ (Eh (F := F) 0) : sProp 𝕄) := by
  have hmono : (bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (fun _ : Dev nD => (iprop(emp) : sProp 𝕄)) c))
      ⊢ (bigSep Finset.univ (Eh (F := F) 0) : sProp 𝕄) := bigSep_mono fun c _ => launch_rest_core ρ c
  iintro ⟨H, -⟩
  imodintro
  iapply hmono; iexact H

/-- At the end the riding state still owes nothing. -/
theorem end_rest (c : Dev nD) : Eh (F := F) 14 c ⊢ (iprop(∃ W, owes (c : Thread nD τ) (0 : CellTallies nD τ sig Unit) W) : sProp 𝕄) := by
  iintro ⟨-, HO⟩; iexact HO

/-- THE FRAME: from any memory with zero counters every weakly fair execution of @main terminates, and every final
    memory holds each argument array as launched. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  frame_cond m (EP := emb₁) (ι := ()) (𝒱₀ := 𝒱h) (L := Lh) (lv := lvh) (hL := fun _ _ => rfl) (ρ := ρ) (outs := outs m)
    (pdats := pdats m) (O₀ := 0) (G := fun _ => iprop(emp))
    (u₀ := initOf (Pipeline.cells cfgs cellOf_inj) (Pipeline.launchToks cfgs cellOf_inj)) (hu₀ := launch_elem)
    (E := Eh) (hE0 := launch_rest ρ) (hE14 := end_rest)
    (R0 := reg0 m) (hpre0 := fun _ => .rfl) (hpost0 := fun _ => .rfl) (R1 := reg1 m) (hpre1 := fun _ => .rfl) (hpost1 := fun _ => .rfl)
    (R2 := reg2 m) (hpre2 := fun _ => .rfl) (hpost2 := fun _ => .rfl) (R3 := reg3 m) (hpre3 := fun _ => .rfl) (hpost3 := fun _ => .rfl)
    (R4 := reg4 m) (hpre4 := fun _ => .rfl) (hpost4 := fun _ => .rfl) (R5 := reg5 m) (hpre5 := fun _ => .rfl) (hpost5 := fun _ => .rfl)
    (R6 := reg6 m) (hpre6 := fun _ => .rfl) (hpost6 := fun _ => .rfl) (R7 := reg7 m) (hpre7 := fun _ => .rfl) (hpost7 := fun _ => .rfl)
    (R8 := reg8 m) (hpre8 := fun _ => .rfl) (hpost8 := fun _ => .rfl) (R9 := reg9 m) (hpre9 := fun _ => .rfl) (hpost9 := fun _ => .rfl)
    (R10 := reg10 m) (hpre10 := fun _ => .rfl) (hpost10 := fun _ => .rfl) (R11 := reg11 m) (hpre11 := fun _ => .rfl) (hpost11 := fun _ => .rfl)
    (R12 := reg12 m) (hpre12 := fun _ => .rfl) (hpost12 := fun _ => .rfl) (R13 := reg13 m) (hpre13 := fun _ => .rfl) (hpost13 := fun _ => .rfl)

/-- THE RUN WITH ITS RESULT: the same executions end with the result buffer `main_v62` at what the last region leaves
    (`outs m 19 main_v62`, on every core), and the arguments as launched. -/
theorem run_value (ρ : Dev nD → PrngReg) :
    θ_run defs (onTc (τ := τ) (main (F := F))) ⟨m, fun _ => 0, ρ⟩ (fun r => ∀ c : Dev nD,
      r.2.mem ((c.tc : Thread nD τ).loc main_v62) = outs m 19 main_v62 c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  run_value_cond m (EP := emb₁) (ι := ()) (𝒱₀ := 𝒱h) (L := Lh) (lv := lvh) (hL := fun _ _ => rfl) (ρ := ρ) (outs := outs m)
    (pdats := pdats m) (O₀ := 0) (G := fun _ => iprop(emp))
    (u₀ := initOf (Pipeline.cells cfgs cellOf_inj) (Pipeline.launchToks cfgs cellOf_inj)) (hu₀ := launch_elem)
    (E := Eh) (hE0 := launch_rest ρ) (hE14 := end_rest)
    (R0 := reg0 m) (hpre0 := fun _ => .rfl) (hpost0 := fun _ => .rfl) (R1 := reg1 m) (hpre1 := fun _ => .rfl) (hpost1 := fun _ => .rfl)
    (R2 := reg2 m) (hpre2 := fun _ => .rfl) (hpost2 := fun _ => .rfl) (R3 := reg3 m) (hpre3 := fun _ => .rfl) (hpost3 := fun _ => .rfl)
    (R4 := reg4 m) (hpre4 := fun _ => .rfl) (hpost4 := fun _ => .rfl) (R5 := reg5 m) (hpre5 := fun _ => .rfl) (hpost5 := fun _ => .rfl)
    (R6 := reg6 m) (hpre6 := fun _ => .rfl) (hpost6 := fun _ => .rfl) (R7 := reg7 m) (hpre7 := fun _ => .rfl) (hpost7 := fun _ => .rfl)
    (R8 := reg8 m) (hpre8 := fun _ => .rfl) (hpost8 := fun _ => .rfl) (R9 := reg9 m) (hpre9 := fun _ => .rfl) (hpost9 := fun _ => .rfl)
    (R10 := reg10 m) (hpre10 := fun _ => .rfl) (hpost10 := fun _ => .rfl) (R11 := reg11 m) (hpre11 := fun _ => .rfl) (hpost11 := fun _ => .rfl)
    (R12 := reg12 m) (hpre12 := fun _ => .rfl) (hpost12 := fun _ => .rfl) (R13 := reg13 m) (hpre13 := fun _ => .rfl) (hpost13 := fun _ => .rfl)

end Cert.Kernel.Gen

end
-- ==== Proof.KernelIdealH.RunCond.lean ====
import proofs.«157173_j56882546868342_2_alg».proof.Proof.KernelIdealH.Regions
set_option maxRecDepth 16384
noncomputable section
namespace Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
variable {F : FTy → Type} [FloatOps F]
variable (m : (ℓ : Loc nD τ sig) → Buf (Elt F) ℓ)

/-! # The run's result, given the regions' records

The conditional frame says that every argument array ends as launched. The same run says more: at the end each core
holds every unscoped buffer at the last valuation, and there the program's result buffer `main_v62` holds what the
last region leaves, since that valuation is the one before it rewritten at `main_v62` with exactly that. So from the
same fourteen records, chained through the same thread states, every final memory has `main_v62` at
`outs 19 main_v62` on every core, and the arguments as launched. -/

/-- The last valuation holds at the result buffer what the last region leaves there. -/
theorem V19_main_v62 (outs : Outs (F := F)) (c : Dev nD) : V19 m outs c main_v62 = outs 19 main_v62 c := by
  show Function.update (V18 m outs c) main_v62 (outs 19 main_v62 c) main_v62 = outs 19 main_v62 c
  rw [Function.update_self]

-- the launch theorem's implicit arguments are found by unifying its conclusion with this one, which takes unfolding
-- plain definitions in a metavariable's type
set_option backward.isDefEq.respectTransparency.types false in
/-- THE RUN WITH ITS RESULT. For any rest states `E` the launch makes on every core at once and that end owing nothing,
    any contents `outs` and proof data: given per region a segment record entered from the thread state before it and
    left at the one after it, every weakly fair execution of @main from memory `m` with zero counters terminates, and
    every final memory holds `main_v62` at `outs 19 main_v62` and each argument as launched. -/
theorem run_value_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 14) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 15 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE14 : ∀ c : Dev nD, E 14 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V1 m c) ∗ E 0 c) ⊢ R0.pre c)
    (hpost0 : ∀ c : Dev nD, R0.post c ⊢ iprop(StableHlo.held (c : Thread nD τ) (Pipeline.ucRefs τ sig) (V2 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V2 m outs c) ∗ E 1 c) ⊢ R1.pre c)
    (hpost1 : ∀ c : Dev nD, R1.post c ⊢ iprop(StableHlo.held (c : Thread nD τ) (Pipeline.ucRefs τ sig) (V3 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V3 m outs c) ∗ E 2 c) ⊢ R2.pre c)
    (hpost2 : ∀ c : Dev nD, R2.post c ⊢ iprop(StableHlo.held (c : Thread nD τ) (Pipeline.ucRefs τ sig) (V4 m outs c) ∗ E 3 c))
    (R3 : RegionSeg (pcfgs (F := F)) adm pdats ι defs₀ 𝒱₀ L lv 3)
    (hpre3 : ∀ c : Dev nD, iprop(StableHlo.held (c : Thread nD τ) (Pipeline.ucRefs τ sig) (V4 m outs c) ∗ E 3 c) ⊢ R3.pre c)
    (hpost3 : ∀ c : Dev nD, R3.post c ⊢ iprop(StableHlo.held (c : Thread nD τ) (Pipeline.ucRefs τ sig) (V5 m outs c) ∗ E 4 c))
    (R4 : RegionSeg (pcfgs (F := F)) adm pdats ι defs₀ 𝒱₀ L lv 4)
    (hpre4 : ∀ c : Dev nD, iprop(StableHlo.held (c : Thread nD τ) (Pipeline.ucRefs τ sig) (V5 m outs c) ∗ E 4 c) ⊢ R4.pre c)
    (hpost4 : ∀ c : Dev nD, R4.post c ⊢ iprop(StableHlo.held (c : Thread nD τ) (Pipeline.ucRefs τ sig) (V6 m outs c) ∗ E 5 c))
    (R5 : RegionSeg (pcfgs (F := F)) adm pdats ι defs₀ 𝒱₀ L lv 5)
    (hpre5 : ∀ c : Dev nD, iprop(StableHlo.held (c : Thread nD τ) (Pipeline.ucRefs τ sig) (V6 m outs c) ∗ E 5 c) ⊢ R5.pre c)
    (hpost5 : ∀ c : Dev nD, R5.post c ⊢ iprop(StableHlo.held (c : Thread nD τ) (Pipeline.ucRefs τ sig) (V7 m outs c) ∗ E 6 c))
    (R6 : RegionSeg (pcfgs (F := F)) adm pdats ι defs₀ 𝒱₀ L lv 6)
    (hpre6 : ∀ c : Dev nD, iprop(StableHlo.held (c : Thread nD τ) (Pipeline.ucRefs τ sig) (V7 m outs c) ∗ E 6 c) ⊢ R6.pre c)
    (hpost6 : ∀ c : Dev nD, R6.post c ⊢ iprop(StableHlo.held (c : Thread nD τ) (Pipeline.ucRefs τ sig) (V8 m outs c) ∗ E 7 c))
    (R7 : RegionSeg (pcfgs (F := F)) adm pdats ι defs₀ 𝒱₀ L lv 7)
    (hpre7 : ∀ c : Dev nD, iprop(StableHlo.held (c : Thread nD τ) (Pipeline.ucRefs τ sig) (V9 m outs c) ∗ E 7 c) ⊢ R7.pre c)
    (hpost7 : ∀ c : Dev nD, R7.post c ⊢ iprop(StableHlo.held (c : Thread nD τ) (Pipeline.ucRefs τ sig) (V10 m outs c) ∗ E 8 c))
    (R8 : RegionSeg (pcfgs (F := F)) adm pdats ι defs₀ 𝒱₀ L lv 8)
    (hpre8 : ∀ c : Dev nD, iprop(StableHlo.held (c : Thread nD τ) (Pipeline.ucRefs τ sig) (V11 m outs c) ∗ E 8 c) ⊢ R8.pre c)
    (hpost8 : ∀ c : Dev nD, R8.post c ⊢ iprop(StableHlo.held (c : Thread nD τ) (Pipeline.ucRefs τ sig) (V12 m outs c) ∗ E 9 c))
    (R9 : RegionSeg (pcfgs (F := F)) adm pdats ι defs₀ 𝒱₀ L lv 9)
    (hpre9 : ∀ c : Dev nD, iprop(StableHlo.held (c : Thread nD τ) (Pipeline.ucRefs τ sig) (V12 m outs c) ∗ E 9 c) ⊢ R9.pre c)
    (hpost9 : ∀ c : Dev nD, R9.post c ⊢ iprop(StableHlo.held (c : Thread nD τ) (Pipeline.ucRefs τ sig) (V13 m outs c) ∗ E 10 c))
    (R10 : RegionSeg (pcfgs (F := F)) adm pdats ι defs₀ 𝒱₀ L lv 10)
    (hpre10 : ∀ c : Dev nD, iprop(StableHlo.held (c : Thread nD τ) (Pipeline.ucRefs τ sig) (V14 m outs c) ∗ E 10 c) ⊢ R10.pre c)
    (hpost10 : ∀ c : Dev nD, R10.post c ⊢ iprop(StableHlo.held (c : Thread nD τ) (Pipeline.ucRefs τ sig) (V15 m outs c) ∗ E 11 c))
    (R11 : RegionSeg (pcfgs (F := F)) adm pdats ι defs₀ 𝒱₀ L lv 11)
    (hpre11 : ∀ c : Dev nD, iprop(StableHlo.held (c : Thread nD τ) (Pipeline.ucRefs τ sig) (V15 m outs c) ∗ E 11 c) ⊢ R11.pre c)
    (hpost11 : ∀ c : Dev nD, R11.post c ⊢ iprop(StableHlo.held (c : Thread nD τ) (Pipeline.ucRefs τ sig) (V16 m outs c) ∗ E 12 c))
    (R12 : RegionSeg (pcfgs (F := F)) adm pdats ι defs₀ 𝒱₀ L lv 12)
    (hpre12 : ∀ c : Dev nD, iprop(StableHlo.held (c : Thread nD τ) (Pipeline.ucRefs τ sig) (V16 m outs c) ∗ E 12 c) ⊢ R12.pre c)
    (hpost12 : ∀ c : Dev nD, R12.post c ⊢ iprop(StableHlo.held (c : Thread nD τ) (Pipeline.ucRefs τ sig) (V17 m outs c) ∗ E 13 c))
    (R13 : RegionSeg (pcfgs (F := F)) adm pdats ι defs₀ 𝒱₀ L lv 13)
    (hpre13 : ∀ c : Dev nD, iprop(StableHlo.held (c : Thread nD τ) (Pipeline.ucRefs τ sig) (V18 m outs c) ∗ E 13 c) ⊢ R13.pre c)
    (hpost13 : ∀ c : Dev nD, R13.post c ⊢ iprop(StableHlo.held (c : Thread nD τ) (Pipeline.ucRefs τ sig) (V19 m outs c) ∗ E 14 c)) :
    θ_run defs (onTc (τ := τ) (main (F := F))) ⟨m, fun _ => 0, ρ⟩ (fun r => ∀ c : Dev nD,
      r.2.mem ((c.tc : Thread nD τ).loc main_v62) = outs 19 main_v62 c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) := by
  refine Pipeline.θ_run_regions_kit_dev (pcfgs (F := F)) adm pdats ι cellOf_inj EP defs₀ 𝒱₀ L lv m ρ main
    (segs m outs 𝒱₀ L lv E ι pdats R0 R1 R2 R3 R4 R5 R6 R7 R8 R9 R10 R11 R12 R13)
    (fun c Q => by
      rewrite [main_chain c, Seg.run_eq_chain,
        show (segs m outs 𝒱₀ L lv E ι pdats R0 R1 R2 R3 R4 R5 R6 R7 R8 R9 R10 R11 R12 R13 c).map Seg.prog = [
          StableHlo.seq hostOps0,
          Prog.lift (.customCall (Pipeline.entry 0) ()), Prog.lift (.customCall (Pipeline.entry 1) ()),
          Prog.lift (.customCall (Pipeline.entry 2) ()), Prog.lift (.customCall (Pipeline.entry 3) ()),
          Prog.lift (.customCall (Pipeline.entry 4) ()), Prog.lift (.customCall (Pipeline.entry 5) ()),
          Prog.lift (.customCall (Pipeline.entry 6) ()),
          StableHlo.seq hostOps7,
          Prog.lift (.customCall (Pipeline.entry 7) ()),
          StableHlo.seq hostOps8,
          Prog.lift (.customCall (Pipeline.entry 8) ()), Prog.lift (.customCall (Pipeline.entry 9) ()),
          StableHlo.seq hostOps10,
          Prog.lift (.customCall (Pipeline.entry 10) ()), Prog.lift (.customCall (Pipeline.entry 11) ()),
          Prog.lift (.customCall (Pipeline.entry 12) ()),
          StableHlo.seq hostOps13,
          Prog.lift (.customCall (Pipeline.entry 13) ()) ] from rfl]
      exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V19 m outs c))
    (hch := fun c => ⟨.rfl, hpre0 c, (hpost0 c).trans (hpre1 c), (hpost1 c).trans (hpre2 c), (hpost2 c).trans (hpre3 c),
      (hpost3 c).trans (hpre4 c), (hpost4 c).trans (hpre5 c), (hpost5 c).trans (hpre6 c), hpost6 c, hpre7 c, hpost7 c, hpre8 c,
      (hpost8 c).trans (hpre9 c), hpost9 c, hpre10 c, (hpost10 c).trans (hpre11 c), (hpost11 c).trans (hpre12 c), hpost12 c,
      hpre13 c, (hpost13 c).trans (sep_mono .rfl (hE14 c))⟩)
    (hinit := ?_)
    (QY := fun c s => s.mem ((c.tc : Thread nD τ).loc main_v62) = outs 19 main_v62 c
      ∧ s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4)
      ∧ s.mem ((c.tc : Thread nD τ).loc main_arg5) = m ((c.tc : Thread nD τ).loc main_arg5)
      ∧ s.mem ((c.tc : Thread nD τ).loc main_arg6) = m ((c.tc : Thread nD τ).loc main_arg6)
      ∧ s.mem ((c.tc : Thread nD τ).loc main_arg7) = m ((c.tc : Thread nD τ).loc main_arg7)
      ∧ s.mem ((c.tc : Thread nD τ).loc main_arg8) = m ((c.tc : Thread nD τ).loc main_arg8)
      ∧ s.mem ((c.tc : Thread nD τ).loc main_arg9) = m ((c.tc : Thread nD τ).loc main_arg9)
      ∧ s.mem ((c.tc : Thread nD τ).loc main_arg10) = m ((c.tc : Thread nD τ).loc main_arg10)
      ∧ s.mem ((c.tc : Thread nD τ).loc main_arg11) = m ((c.tc : Thread nD τ).loc main_arg11)
      ∧ s.mem ((c.tc : Thread nD τ).loc main_arg12) = m ((c.tc : Thread nD τ).loc main_arg12)
      ∧ s.mem ((c.tc : Thread nD τ).loc main_arg13) = m ((c.tc : Thread nD τ).loc main_arg13)
      ∧ s.mem ((c.tc : Thread nD τ).loc main_arg14) = m ((c.tc : Thread nD τ).loc main_arg14)
      ∧ s.mem ((c.tc : Thread nD τ).loc main_arg15) = m ((c.tc : Thread nD τ).loc main_arg15)
      ∧ s.mem ((c.tc : Thread nD τ).loc main_arg16) = m ((c.tc : Thread nD τ).loc main_arg16)
      ∧ s.mem ((c.tc : Thread nD τ).loc main_arg17) = m ((c.tc : Thread nD τ).loc main_arg17)
      ∧ s.mem ((c.tc : Thread nD τ).loc main_arg18) = m ((c.tc : Thread nD τ).loc main_arg18)
      ∧ s.mem ((c.tc : Thread nD τ).loc main_arg19) = m ((c.tc : Thread nD τ).loc main_arg19)
      ∧ s.mem ((c.tc : Thread nD τ).loc main_arg20) = m ((c.tc : Thread nD τ).loc main_arg20))
    (hfin := fun c s' => ?_) (hQ := fun _ h => h)
  · -- the launch: the unscoped buffers are held at the launch valuation; the rest makes `E 0` on every core at once
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  · -- the end: the last thread state, held beside the final state's interpretation, says what that state's memory
    -- holds at every unscoped buffer; the result and the arguments are then read off the last valuation
    unfold StableHlo.held
    iintro ⟨Hh, HSI⟩
    ihave Hr := (pointsTo_read_all (Pipeline.ucRefs τ sig) (fun b => ((c : Thread nD τ).1, b)) (V19 m outs c) s') $$ [Hh HSI]
    · isplitl [Hh] <;> iassumption
    icases Hr with ⟨%h, HSI⟩
    imodintro
    isplitr
    · ipureintro
      have at_ := fun (r : Ref sig .tc) (hr : ¬ (Proc.devRef .tc r : DevRef τ sig).isScoped) =>
        h (Proc.devRef .tc r) (Finset.mem_filter.mpr ⟨StableHlo.devRef_mem_tcRefs r, hr⟩)
      exact ⟨(at_ main_v62 (by decide)).trans (V19_main_v62 m outs c),
        (at_ main_arg0 (by decide)).trans (V19_main_arg0 m outs c), (at_ main_arg1 (by decide)).trans (V19_main_arg1 m outs c),
        (at_ main_arg2 (by decide)).trans (V19_main_arg2 m outs c), (at_ main_arg3 (by decide)).trans (V19_main_arg3 m outs c),
        (at_ main_arg4 (by decide)).trans (V19_main_arg4 m outs c), (at_ main_arg5 (by decide)).trans (V19_main_arg5 m outs c),
        (at_ main_arg6 (by decide)).trans (V19_main_arg6 m outs c), (at_ main_arg7 (by decide)).trans (V19_main_arg7 m outs c),
        (at_ main_arg8 (by decide)).trans (V19_main_arg8 m outs c), (at_ main_arg9 (by decide)).trans (V19_main_arg9 m outs c),
        (at_ main_arg10 (by decide)).trans (V19_main_arg10 m outs c), (at_ main_arg11 (by decide)).trans (V19_main_arg11 m outs c),
        (at_ main_arg12 (by decide)).trans (V19_main_arg12 m outs c), (at_ main_arg13 (by decide)).trans (V19_main_arg13 m outs c),
        (at_ main_arg14 (by decide)).trans (V19_main_arg14 m outs c), (at_ main_arg15 (by decide)).trans (V19_main_arg15 m outs c),
        (at_ main_arg16 (by decide)).trans (V19_main_arg16 m outs c), (at_ main_arg17 (by decide)).trans (V19_main_arg17 m outs c),
        (at_ main_arg18 (by decide)).trans (V19_main_arg18 m outs c), (at_ main_arg19 (by decide)).trans (V19_main_arg19 m outs c),
        (at_ main_arg20 (by decide)).trans (V19_main_arg20 m outs c)⟩
    · iexact HSI

end Cert.KernelIdeal.Gen

end
-- ==== Proof.KernelIdealH.Reg0.lean ====
import proofs.«157173_j56882546868342_2_alg».proof.Proof.KernelIdealH.Launch
import proofs.«157173_j56882546868342_2_alg».proof.Proof.Gen.KernelIdeal.Skeleton
import proofs.«157173_j56882546868342_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384
noncomputable section
namespace Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

/-! # Region 0: the blocked matrix product main_v31 = main_v0 · main_v19, grid (4, 1, 2)

The grid point (i, j, k) reads the block (i, k) of the left operand and the block (k, j) of the right one and adds
their product into an accumulator the kernel keeps between points: zeroed where k = 0, written out (rounded to the
output's element type) where k = 1. Everything here is generic in the float model. -/

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, for any proof data whose array is the
    region-entry contents and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's two conditions, decided over the grid -/

/-- The first condition (k = 0), from the grid coordinates. -/
abbrev cond0_0 (i : grid0.Coords) : Prop := (Scalar.cmpi .ne (Scalar.extui (Scalar.cmpi .eq (BitVec.ofNat 32 (i 2).val) 0#32)) 0#32) = 1#1
/-- It holds at the even points. -/
theorem hcond0_0 : ∀ t : Fin cfg0.N, cond0_0 (grid0.coords t) ↔ t.val % 2 = 0 :=
  (by decide +kernel : ∀ t : Fin grid0.N, cond0_0 (grid0.coords t) ↔ t.val % 2 = 0)

/-- The second condition (k = 1, the last block of the contraction). -/
abbrev cond0_1 (i : grid0.Coords) : Prop := k0_cond2 i = 1#1
/-- It holds at the odd points. -/
theorem hcond0_1 : ∀ t : Fin cfg0.N, cond0_1 (grid0.coords t) ↔ t.val % 2 = 1 :=
  (by decide +kernel : ∀ t : Fin grid0.N, cond0_1 (grid0.coords t) ↔ t.val % 2 = 1)

/-- An even point is in case A: first block, not the last. -/
theorem hA0 (t : Fin cfg0.N) (h0 : t.val % 2 = 0) : cond0_0 (grid0.coords t) ∧ ¬cond0_1 (grid0.coords t) :=
  ⟨(hcond0_0 t).mpr h0, fun h => by have := (hcond0_1 t).mp h; omega⟩
/-- An odd point is in case C: last block, not the first. (With two blocks no point is in the middle case.) -/
theorem hC0 (t : Fin cfg0.N) (h0 : ¬t.val % 2 = 0) : ¬cond0_0 (grid0.coords t) ∧ cond0_1 (grid0.coords t) :=
  ⟨fun h => h0 ((hcond0_0 t).mp h), (hcond0_1 t).mpr (by omega)⟩

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
/-- In case A the output is idle: nothing is stored into it, -/
theorem idleAt0_2_A : ∀ t : Fin cfg0.N, cond0_0 (grid0.coords t) → ¬cond0_1 (grid0.coords t) → cfg0.idle 2 (grid0.coords t) = true := by decide +kernel
/-- and its block is not written back there. -/
theorem noFlush0_2_A : ∀ t : Fin cfg0.N, cond0_0 (grid0.coords t) → ¬cond0_1 (grid0.coords t) → (cfg0.win 2).flush t = false := by decide +kernel
/-- In case C the output is live. -/
theorem liveAt0_2_C : ∀ t : Fin cfg0.N, ¬cond0_0 (grid0.coords t) → cond0_1 (grid0.coords t) → cfg0.idle 2 (grid0.coords t) = false := by decide +kernel

/-! ## The memrefs the body is called with -/

/-- One staging buffer of the output window, through which its contents are stated. -/
abbrev VO0_2 : View sig .tc .vmem S1024x512 .bf16 := (Memref.whole cc0_stg2_0 : Memref sig .tc .vmem S1024x512 .bf16).view
abbrev ms0_0 (t : Fin cfg0.N) : Memref sig .tc .vmem S1024x512 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x512 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x512 .bf16 := win0_2.stage (cfg0.slots t 2)
abbrev hs0_2 (t : Fin cfg0.N) : (ms0_2 t).IsWhole := hstage0_2 ((cfg0.slots t 2).cast nbuf0_2)
/-- The accumulator: a whole scoped buffer of the kernel's own. -/
abbrev scM0_0 : Memref sig .tc .vmem S1024x512 .f32 := Memref.whole cc0_scratch0
abbrev VS0_0 : View sig .tc .vmem S1024x512 .f32 := scM0_0.view
/-- Every other scoped buffer of the core that is no staging buffer of this region: carried unopened. -/
abbrev rest0 (c : Dev nD) : sProp 𝕄 :=
  Pipeline.scopedRestBut (Ix := Unit) (Name := ℕ) (U := UR sig nD τ) (Lvl := ℕ) (Val := Elt F) spec0 c [cc0_scratch0]

/-- The class's invariant with the accumulator as a memref owned at some contents. -/
theorem PhiA0_eq (c : Dev nD) :
    (Pipeline.ΦA spec0 c : sProp 𝕄)
      = iprop(iprop((∃ d, owns (c : Thread nD τ) scM0_0 fullShare d) ∗ rest0 c) ∗ (∃ r, prngReg c r)) := by
  unfold Pipeline.ΦA; rw [scopedRest0_split]; simp only [scM0_0, owns_whole]; try rfl

/-! ## The body's run, case by case -/

set_option maxHeartbeats 1000000 in
/-- CASE A (k = 0): the accumulator, found at anything, is zeroed and then holds the first block product; the output's
    buffer is handed back untouched. The pieces written are what the run finds. -/
noncomputable def kernelRun0_A (c : Dev nD) (i : grid0.Coords) (arg3 : Memref sig .tc .vmem S1024x512 .bf16) (harg3 : arg3.IsWhole) (arg4 : Memref sig .tc .vmem S512x512 .bf16) (harg4 : arg4.IsWhole) (arg5 : Memref sig .tc .vmem S1024x512 .bf16) (harg5 : arg5.IsWhole) (arg6 : Memref sig .tc .vmem S1024x512 .f32) (harg6 : arg6.IsWhole) (hc0 : cond0_0 i) (hc1 : ¬cond0_1 i)
    (x0 : Vec F S1024x512 .bf16) (x1 : Vec F S512x512 .bf16) :
    Σ' (L2 : List (View.Piece (Elt F) S1024x512 .bf16)), { LS0 : List (View.Piece (Elt F) S1024x512 .f32) //
      ∀ (xi2 : Vec F S1024x512 .bf16) (E : Set ℕ) (K : PUnit → sProp 𝕄),
        iprop(owns (c : Thread nD τ) arg3 fullShare x0 ∗ owns (c : Thread nD τ) arg4 fullShare x1 ∗ owns (c : Thread nD τ) arg5 fullShare xi2 ∗ (∃ d, owns (c : Thread nD τ) arg6 fullShare d)
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc0__mm_kernel_nobias i arg3 harg3 arg4 harg4 arg5 harg5 arg6 harg6) K } := by
  refine ⟨[], ?_, fun xi2 E K => ?run⟩
  case run =>
    simp only [cc0__mm_kernel_nobias_eq_skeleton]; unfold cc0__mm_kernel_nobias_skel
    unfold owns
    iintro ⟨⟨%f0, %hf0, H0⟩, ⟨%f1, %hf1, H1⟩, ⟨%f2, %hf2, H2⟩, ⟨%ds0, %fs0, -, HS0⟩, Hk⟩
    obtain rfl := harg3.eq_unread hf0; obtain rfl := harg4.eq_unread hf1; obtain rfl := harg5.eq_unread hf2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

set_option maxHeartbeats 1000000 in
/-- CASE C (k = 1): the accumulator, found at what the point before left, gets the last block product added, and the
    output's buffer, found at anything, is stored whole with the accumulator rounded. -/
noncomputable def kernelRun0_C (c : Dev nD) (i : grid0.Coords) (arg3 : Memref sig .tc .vmem S1024x512 .bf16) (harg3 : arg3.IsWhole) (arg4 : Memref sig .tc .vmem S512x512 .bf16) (harg4 : arg4.IsWhole) (arg5 : Memref sig .tc .vmem S1024x512 .bf16) (harg5 : arg5.IsWhole) (arg6 : Memref sig .tc .vmem S1024x512 .f32) (harg6 : arg6.IsWhole) (hc0 : ¬cond0_0 i) (hc1 : cond0_1 i)
    (x0 : Vec F S1024x512 .bf16) (x1 : Vec F S512x512 .bf16) (xs0 : Vec F S1024x512 .f32) :
    Σ' (L2 : List (View.Piece (Elt F) S1024x512 .bf16)), { LS0 : List (View.Piece (Elt F) S1024x512 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xs0
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f LS0)) -∗ K ⟨⟩))
          ⊢ wp frame (wpE (defs₀ (F := F)) Variants.none c none) E (cc0__mm_kernel_nobias i arg3 harg3 arg4 harg4 arg5 harg5 arg6 harg6) K } := by
  refine ⟨?_, ?_, fun E K => ?run⟩
  case run =>
    simp only [cc0__mm_kernel_nobias_eq_skeleton]; unfold cc0__mm_kernel_nobias_skel
    unfold owns
    iintro ⟨⟨%f0, %hf0, H0⟩, ⟨%f1, %hf1, H1⟩, ⟨%d2, %f2, -, H2⟩, ⟨%fs0, %hfs0, HS0⟩, Hk⟩
    obtain rfl := harg3.eq_unread hf0; obtain rfl := harg4.eq_unread hf1; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexists _; iexact HS0

/-! ## What each case leaves: the pieces the runs found, and that they cover -/

/-- Case A stores nothing into the output: a placeholder nothing consults (the window is idle there). -/
def out0_A_2 (c : Dev nD) (i : grid0.Coords) (arg3 : Memref sig .tc .vmem S1024x512 .bf16) (harg3 : arg3.IsWhole) (arg4 : Memref sig .tc .vmem S512x512 .bf16) (harg4 : arg4.IsWhole) (arg5 : Memref sig .tc .vmem S1024x512 .bf16) (harg5 : arg5.IsWhole) (arg6 : Memref sig .tc .vmem S1024x512 .f32) (harg6 : arg6.IsWhole) (hc0 : cond0_0 i) (hc1 : ¬cond0_1 i)
    (x0 : Vec F S1024x512 .bf16) (x1 : Vec F S512x512 .bf16) : Vec F S1024x512 .bf16 :=
  VO0_2.read (Elt F) (VO0_2.writes (Elt F) VO0_2.junk (kernelRun0_A c i arg3 harg3 arg4 harg4 arg5 harg5 arg6 harg6 hc0 hc1 x0 x1).1)

/-- Case A's pieces for the accumulator cover it (two whole stores). -/
theorem scover0_A_0 (c : Dev nD) (i : grid0.Coords) (arg3 : Memref sig .tc .vmem S1024x512 .bf16) (harg3 : arg3.IsWhole) (arg4 : Memref sig .tc .vmem S512x512 .bf16) (harg4 : arg4.IsWhole) (arg5 : Memref sig .tc .vmem S1024x512 .bf16) (harg5 : arg5.IsWhole) (arg6 : Memref sig .tc .vmem S1024x512 .f32) (harg6 : arg6.IsWhole) (hc0 : cond0_0 i) (hc1 : ¬cond0_1 i)
    (x0 : Vec F S1024x512 .bf16) (x1 : Vec F S512x512 .bf16) (y : S1024x512.Idx) :
    ∃ pc ∈ (kernelRun0_A c i arg3 harg3 arg4 harg4 arg5 harg5 arg6 harg6 hc0 hc1 x0 x1).2.1, y ∈ pc.1.set :=
  View.cover_of_tiledL (kernelRun0_A c i arg3 harg3 arg4 harg4 arg5 harg5 arg6 harg6 hc0 hc1 x0 x1).2.1 S1024x512.size (by sl_kernel_rfl) y

/-- What case A leaves in the accumulator. -/
def sout0_A_0 (c : Dev nD) (i : grid0.Coords) (arg3 : Memref sig .tc .vmem S1024x512 .bf16) (harg3 : arg3.IsWhole) (arg4 : Memref sig .tc .vmem S512x512 .bf16) (harg4 : arg4.IsWhole) (arg5 : Memref sig .tc .vmem S1024x512 .bf16) (harg5 : arg5.IsWhole) (arg6 : Memref sig .tc .vmem S1024x512 .f32) (harg6 : arg6.IsWhole) (hc0 : cond0_0 i) (hc1 : ¬cond0_1 i)
    (x0 : Vec F S1024x512 .bf16) (x1 : Vec F S512x512 .bf16) : Vec F S1024x512 .f32 :=
  VS0_0.read (Elt F) (VS0_0.writes (Elt F) VS0_0.junk (kernelRun0_A c i arg3 harg3 arg4 harg4 arg5 harg5 arg6 harg6 hc0 hc1 x0 x1).2.1)

/-- Case C's piece for the output covers its block (one whole store). -/
theorem cover0_C_2 (c : Dev nD) (i : grid0.Coords) (arg3 : Memref sig .tc .vmem S1024x512 .bf16) (harg3 : arg3.IsWhole) (arg4 : Memref sig .tc .vmem S512x512 .bf16) (harg4 : arg4.IsWhole) (arg5 : Memref sig .tc .vmem S1024x512 .bf16) (harg5 : arg5.IsWhole) (arg6 : Memref sig .tc .vmem S1024x512 .f32) (harg6 : arg6.IsWhole) (hc0 : ¬cond0_0 i) (hc1 : cond0_1 i)
    (x0 : Vec F S1024x512 .bf16) (x1 : Vec F S512x512 .bf16) (xs0 : Vec F S1024x512 .f32) (y : S1024x512.Idx) :
    ∃ pc ∈ (kernelRun0_C c i arg3 harg3 arg4 harg4 arg5 harg5 arg6 harg6 hc0 hc1 x0 x1 xs0).1, y ∈ pc.1.set :=
  View.cover_of_tiledL (kernelRun0_C c i arg3 harg3 arg4 harg4 arg5 harg5 arg6 harg6 hc0 hc1 x0 x1 xs0).1 S1024x512.size (by sl_kernel_rfl) y

/-- What case C leaves in the output's staging buffer. -/
def out0_C_2 (c : Dev nD) (i : grid0.Coords) (arg3 : Memref sig .tc .vmem S1024x512 .bf16) (harg3 : arg3.IsWhole) (arg4 : Memref sig .tc .vmem S512x512 .bf16) (harg4 : arg4.IsWhole) (arg5 : Memref sig .tc .vmem S1024x512 .bf16) (harg5 : arg5.IsWhole) (arg6 : Memref sig .tc .vmem S1024x512 .f32) (harg6 : arg6.IsWhole) (hc0 : ¬cond0_0 i) (hc1 : cond0_1 i)
    (x0 : Vec F S1024x512 .bf16) (x1 : Vec F S512x512 .bf16) (xs0 : Vec F S1024x512 .f32) : Vec F S1024x512 .bf16 :=
  VO0_2.read (Elt F) (VO0_2.writes (Elt F) VO0_2.junk (kernelRun0_C c i arg3 harg3 arg4 harg4 arg5 harg5 arg6 harg6 hc0 hc1 x0 x1 xs0).1)

/-- Case C's piece for the accumulator covers it (one whole store). -/
theorem scover0_C_0 (c : Dev nD) (i : grid0.Coords) (arg3 : Memref sig .tc .vmem S1024x512 .bf16) (harg3 : arg3.IsWhole) (arg4 : Memref sig .tc .vmem S512x512 .bf16) (harg4 : arg4.IsWhole) (arg5 : Memref sig .tc .vmem S1024x512 .bf16) (harg5 : arg5.IsWhole) (arg6 : Memref sig .tc .vmem S1024x512 .f32) (harg6 : arg6.IsWhole) (hc0 : ¬cond0_0 i) (hc1 : cond0_1 i)
    (x0 : Vec F S1024x512 .bf16) (x1 : Vec F S512x512 .bf16) (xs0 : Vec F S1024x512 .f32) (y : S1024x512.Idx) :
    ∃ pc ∈ (kernelRun0_C c i arg3 harg3 arg4 harg4 arg5 harg5 arg6 harg6 hc0 hc1 x0 x1 xs0).2.1, y ∈ pc.1.set :=
  View.cover_of_tiledL (kernelRun0_C c i arg3 harg3 arg4 harg4 arg5 harg5 arg6 harg6 hc0 hc1 x0 x1 xs0).2.1 S1024x512.size (by sl_kernel_rfl) y

/-- What case C leaves in the accumulator. -/
def sout0_C_0 (c : Dev nD) (i : grid0.Coords) (arg3 : Memref sig .tc .vmem S1024x512 .bf16) (harg3 : arg3.IsWhole) (arg4 : Memref sig .tc .vmem S512x512 .bf16) (harg4 : arg4.IsWhole) (arg5 : Memref sig .tc .vmem S1024x512 .bf16) (harg5 : arg5.IsWhole) (arg6 : Memref sig .tc .vmem S1024x512 .f32) (harg6 : arg6.IsWhole) (hc0 : ¬cond0_0 i) (hc1 : cond0_1 i)
    (x0 : Vec F S1024x512 .bf16) (x1 : Vec F S512x512 .bf16) (xs0 : Vec F S1024x512 .f32) : Vec F S1024x512 .f32 :=
  VS0_0.read (Elt F) (VS0_0.writes (Elt F) VS0_0.junk (kernelRun0_C c i arg3 harg3 arg4 harg4 arg5 harg5 arg6 harg6 hc0 hc1 x0 x1 xs0).2.1)

/-! ## What the output's buffer and the accumulator hold after each point -/

/-- THE ACCUMULATION: after the body at position n, the output's staging buffer and the accumulator. An even point
    restarts the accumulator from the point's own blocks; an odd point continues from what the point before left. -/
def outsAt0 (c : Dev nD) : (n : ℕ) → n < cfg0.N → Vec F S1024x512 .bf16 × Vec F S1024x512 .f32
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) (hA0 ⟨0, hn⟩ (Nat.zero_mod _)).1 (hA0 ⟨0, hn⟩ (Nat.zero_mod _)).2 (iblk0 V c 0 ⟨0, hn⟩) (iblk0 V c 1 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) (hA0 ⟨0, hn⟩ (Nat.zero_mod _)).1 (hA0 ⟨0, hn⟩ (Nat.zero_mod _)).2 (iblk0 V c 0 ⟨0, hn⟩) (iblk0 V c 1 ⟨0, hn⟩))
  | n + 1, hn =>
    if h0 : (n + 1) % 2 = 0 then
      (out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (hA0 ⟨n + 1, hn⟩ h0).1 (hA0 ⟨n + 1, hn⟩ h0).2 (iblk0 V c 0 ⟨n + 1, hn⟩) (iblk0 V c 1 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (hA0 ⟨n + 1, hn⟩ h0).1 (hA0 ⟨n + 1, hn⟩ h0).2 (iblk0 V c 0 ⟨n + 1, hn⟩) (iblk0 V c 1 ⟨n + 1, hn⟩))
    else
      (out0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (hC0 ⟨n + 1, hn⟩ h0).1 (hC0 ⟨n + 1, hn⟩ h0).2 (iblk0 V c 0 ⟨n + 1, hn⟩) (iblk0 V c 1 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (hC0 ⟨n + 1, hn⟩ h0).1 (hC0 ⟨n + 1, hn⟩ h0).2 (iblk0 V c 0 ⟨n + 1, hn⟩) (iblk0 V c 1 ⟨n + 1, hn⟩) (outsAt0 c n (Nat.lt_of_succ_lt hn)).2)

/-- outsAt0 at an even point: case A's contents. -/
theorem outsAt0_A (c : Dev nD) (t : Fin cfg0.N) (h0 : t.val % 2 = 0) :
    outsAt0 V c t.val t.isLt = (out0_A_2 c (grid0.coords t) (ms0_0 t) (hs0_0 t) (ms0_1 t) (hs0_1 t) (ms0_2 t) (hs0_2 t) scM0_0 (Memref.isWhole_whole _) (hA0 t h0).1 (hA0 t h0).2 (iblk0 V c 0 t) (iblk0 V c 1 t), sout0_A_0 c (grid0.coords t) (ms0_0 t) (hs0_0 t) (ms0_1 t) (hs0_1 t) (ms0_2 t) (hs0_2 t) scM0_0 (Memref.isWhole_whole _) (hA0 t h0).1 (hA0 t h0).2 (iblk0 V c 0 t) (iblk0 V c 1 t)) := by
  obtain ⟨n, hn⟩ := t
  cases n with
  | zero => exact rfl
  | succ n => exact (dif_pos h0).trans rfl

/-- outsAt0 at an odd point: case C's contents, over what the point before left in the accumulator. -/
theorem outsAt0_C (c : Dev nD) (t : Fin cfg0.N) (h0 : ¬t.val % 2 = 0) :
    outsAt0 V c t.val t.isLt = (out0_C_2 c (grid0.coords t) (ms0_0 t) (hs0_0 t) (ms0_1 t) (hs0_1 t) (ms0_2 t) (hs0_2 t) scM0_0 (Memref.isWhole_whole _) (hC0 t h0).1 (hC0 t h0).2 (iblk0 V c 0 t) (iblk0 V c 1 t) (outsAt0 V c (t.val - 1) (Nat.lt_of_le_of_lt (Nat.sub_le _ _) t.isLt)).2, sout0_C_0 c (grid0.coords t) (ms0_0 t) (hs0_0 t) (ms0_1 t) (hs0_1 t) (ms0_2 t) (hs0_2 t) scM0_0 (Memref.isWhole_whole _) (hC0 t h0).1 (hC0 t h0).2 (iblk0 V c 0 t) (iblk0 V c 1 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-- The region invariant before position n: before the first point the class's; afterwards the accumulator at what the
    point before left in it, the other scoped buffers unopened, the generator register at some state. -/
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ rest0 c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop(iprop(owns (c : Thread nD τ) scM0_0 fullShare ((outsAt0 V c n hn).2) ∗ rest0 c) ∗ (∃ r, prngReg c r)) := rfl

theorem PhiS0_pos (c : Dev nD) (n : ℕ) (h : n ≤ cfg0.N) (hz : n ≠ 0) :
    PhiS0 V c n h = iprop(iprop(owns (c : Thread nD τ) scM0_0 fullShare ((outsAt0 V c (n - 1) (by omega)).2) ∗ rest0 c) ∗ (∃ r, prngReg c r)) := by
  cases n with
  | zero => exact absurd rfl hz
  | succ n => rfl

/-! ## The pipeline's proof data -/

/-- The proof data of region 0 on core c: the arrays as the region finds them; after the body at point t each input's
    buffer at its block and the output's at outsAt0's first component; the invariant PhiS0; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point: the inputs' buffers hold their blocks; the parity of the point says which case it is in; the
    invariant hands the run the accumulator (at anything at the first point, else at what the point before left) and
    takes it back at this point's contents; the rest of the scoped buffers, the register and the debt pass through. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  have hN : t.val < 8 := lt_of_lt_of_eq t.isLt (show cfg0.N = 8 from N_0)
  by_cases h0 : t.val % 2 = 0
  · rw [Dat.leavesExact_idle (dat0 V c) 2 t (idleAt0_2_A t (hA0 t h0).1 (hA0 t h0).2) (noFlush0_2_A t (hA0 t h0).1 (hA0 t h0).2)]
    rw [outsAt0_A V c t h0]
    unfold sout0_A_0; (try dsimp only)
    by_cases hz : t.val = 0
    · rw [PhiS0_castSucc V c t, PhiS0_zero V c _ _ hz, PhiA0_eq]
      iintro ⟨⟨⟨HS0, Hr⟩, Hg⟩, Ho, ⟨%d0, H0⟩, ⟨%d1, H1⟩, ⟨%d2, H2⟩⟩
      iapply ((kernelRun0_A c (grid0.coords t) _ _ _ _ _ _ _ _ (hA0 t h0).1 (hA0 t h0).2 (iblk0 V c 0 t) (iblk0 V c 1 t)).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover0_A_0 c _ _ _ _ _ _ _ _ _ _ _ _ _)
          iexact Hr
        iexact Hg
      isplitl [Ho]; · iexact Ho
      isplitl [H0]; · iexact H0
      isplitl [H1]; · iexact H1
      iexists _; iexact H2
    · rw [PhiS0_castSucc V c t, PhiS0_pos V c _ _ hz]
      iintro ⟨⟨⟨HS0, Hr⟩, Hg⟩, Ho, ⟨%d0, H0⟩, ⟨%d1, H1⟩, ⟨%d2, H2⟩⟩
      iapply ((kernelRun0_A c (grid0.coords t) _ _ _ _ _ _ _ _ (hA0 t h0).1 (hA0 t h0).2 (iblk0 V c 0 t) (iblk0 V c 1 t)).2.2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover0_A_0 c _ _ _ _ _ _ _ _ _ _ _ _ _)
          iexact Hr
        iexact Hg
      isplitl [Ho]; · iexact Ho
      isplitl [H0]; · iexact H0
      isplitl [H1]; · iexact H1
      iexists _; iexact H2
  · rw [show (dat0 V c).leavesExact 2 t = owns (c : Thread nD τ) (ms0_2 t) fullShare ((dat0 V c).after 2 t) from by
      unfold Dat.leavesExact; rw [liveAt0_2_C t (hC0 t h0).1 (hC0 t h0).2], after0_2]
    rw [outsAt0_C V c t h0]
    unfold out0_C_2 sout0_C_0; (try dsimp only)
    have hz : t.val ≠ 0 := fun hz => h0 (by rw [hz])
    rw [PhiS0_castSucc V c t, PhiS0_pos V c _ _ hz]
    iintro ⟨⟨⟨HS0, Hr⟩, Hg⟩, Ho, ⟨%d0, H0⟩, ⟨%d1, H1⟩, ⟨%d2, H2⟩⟩
    iapply ((kernelRun0_C c (grid0.coords t) _ _ _ _ _ _ _ _ (hC0 t h0).1 (hC0 t h0).2 (iblk0 V c 0 t) (iblk0 V c 1 t) _).2.2 Set.univ _)
    isplitl [H0]; · iexact H0
    isplitl [H1]; · iexact H1
    isplitl [H2]; · iexists _; iexact H2
    isplitl [HS0]; · iexact HS0
    iintro ⟨H0, H1, ⟨%e2, H2⟩, ⟨%es0, HS0⟩⟩
    isplitl [HS0 Hr Hg]
    · isplitl [HS0 Hr]
      · isplitl [HS0]
        · unfold owns; iexists _; isplitr
          swap; · iexact HS0
          ipureintro; exact View.read_writes_of_cover _ _ _ _ _ (scover0_C_0 c _ _ _ _ _ _ _ _ _ _ _ _ _ _)
        iexact Hr
      iexact Hg
    isplitl [Ho]; · iexact Ho
    isplitl [H0]; · iexact H0
    isplitl [H1]; · iexact H1
    unfold owns; iexists _; isplitr
    swap; · iexact H2
    ipureintro; exact View.read_writes_of_cover _ _ _ _ _ (cover0_C_2 c _ _ _ _ _ _ _ _ _ _ _ _ _ _)

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point but the first the invariant gives the class's back: the accumulator's contents are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS0, Hr⟩, Hg⟩
  isplitl [HS0 Hr]
  · isplitl [HS0]
    · iexists _; iexact HS0
    iexact Hr
  iexact Hg

/-- The same after the last point. -/
theorem hout0 (c : Dev nD) : (dat0 V c).Φ (Fin.last cfg0.N) ⊢ Pipeline.ΦA spec0 c :=
  Phi_out0 V c _ (by rw [Fin.val_last]; have : cfg0.N = 8 := N_0; omega)

end Cert.KernelIdeal.Gen

end
-- ==== Proof.KernelIdealH.Reg1.lean ====
import proofs.«157173_j56882546868342_2_alg».proof.Proof.KernelIdealH.Launch
import proofs.«157173_j56882546868342_2_alg».proof.Proof.Gen.KernelIdeal.Skeleton
import proofs.«157173_j56882546868342_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384
noncomputable section
namespace Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

-- The three block shapes of this matrix product: the left operand's block, the right operand's block, and the
-- block of the result (the accumulator has the result block's shape).
local notation "BlkA" => S1024x512
local notation "BlkB" => S512x1024
local notation "BlkO" => S1024x1024

/-! # The matrix product with a carried accumulator, region 1, at the entry contents `V` -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The left operand's current staging buffer holds its block at every point, fetched there or not, for any proof
    data whose array is `V`'s and whose body leaves the block in place: the window is uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The same for the right operand's window. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's two branch conditions, decided over the grid -/

/-- The first condition: the reduction coordinate is 0 (the accumulator is zeroed). -/
abbrev cond1_0 (i : grid1.Coords) : Prop := (Scalar.cmpi .ne (Scalar.extui (Scalar.cmpi .eq (BitVec.ofNat 32 (i 2).val) 0#32)) 0#32) = 1#1
/-- It holds at the points ≡ 0 (mod 8). -/
theorem hcond1_0 : ∀ t : Fin cfg1.N, cond1_0 (grid1.coords t) ↔ t.val % 8 = 0 :=
  (by decide +kernel : ∀ t : Fin grid1.N, cond1_0 (grid1.coords t) ↔ t.val % 8 = 0)

/-- The second condition: the reduction coordinate is the last, 7 (the result block is written). -/
abbrev cond1_1 (i : grid1.Coords) : Prop := k1_cond2 i = 1#1
/-- It holds at the points ≡ 7 (mod 8). -/
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

/-- The operands' windows are never idle. -/
theorem liveAt1_0 : ∀ t : Fin cfg1.N, cfg1.idle 0 (grid1.coords t) = false := by decide +kernel
theorem liveAt1_1 : ∀ t : Fin cfg1.N, cfg1.idle 1 (grid1.coords t) = false := by decide +kernel
/-- At the first reduction step the result window is idle and is not written back. -/
theorem idleAt1_2_A : ∀ t : Fin cfg1.N, cond1_0 (grid1.coords t) → ¬cond1_1 (grid1.coords t) → cfg1.idle 2 (grid1.coords t) = true := by decide +kernel
theorem noFlush1_2_A : ∀ t : Fin cfg1.N, cond1_0 (grid1.coords t) → ¬cond1_1 (grid1.coords t) → (cfg1.win 2).flush t = false := by decide +kernel
/-- At a middle reduction step likewise. -/
theorem idleAt1_2_B : ∀ t : Fin cfg1.N, ¬cond1_0 (grid1.coords t) → ¬cond1_1 (grid1.coords t) → cfg1.idle 2 (grid1.coords t) = true := by decide +kernel
theorem noFlush1_2_B : ∀ t : Fin cfg1.N, ¬cond1_0 (grid1.coords t) → ¬cond1_1 (grid1.coords t) → (cfg1.win 2).flush t = false := by decide +kernel
/-- At the last reduction step the result window is live: the body stores into it. -/
theorem liveAt1_2_C : ∀ t : Fin cfg1.N, ¬cond1_0 (grid1.coords t) → cond1_1 (grid1.coords t) → cfg1.idle 2 (grid1.coords t) = false := by decide +kernel

/-! ## The memrefs the body is called with -/

/-- One staging buffer of the result window, through which its contents are stated. -/
abbrev VO1_2 : View sig .tc .vmem BlkO .bf16 := (Memref.whole cc1_stg2_0 : Memref sig .tc .vmem BlkO .bf16).view
/-- Each window's current staging memref at point `t`, and its wholeness. -/
abbrev ms1_0 (t : Fin cfg1.N) : Memref sig .tc .vmem BlkA .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem BlkB .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem BlkO .bf16 := win1_2.stage (cfg1.slots t 2)
abbrev hs1_2 (t : Fin cfg1.N) : (ms1_2 t).IsWhole := hstage1_2 ((cfg1.slots t 2).cast nbuf1_2)
/-- The accumulator: a whole scoped buffer of the kernel's own, passed beside the windows. -/
abbrev scM1_0 : Memref sig .tc .vmem BlkO .f32 := Memref.whole cc1_scratch0
/-- The accumulator as a view: what it holds is stated through it. -/
abbrev VS1_0 : View sig .tc .vmem BlkO .f32 := scM1_0.view

/-- Every scoped buffer of the program but this region's accumulator, unopened. -/
abbrev rest1 (c : Dev nD) : sProp 𝕄 :=
  Pipeline.scopedRestBut (Ix := Unit) (Name := ℕ) (U := UR sig nD τ) (Lvl := ℕ) (Val := Elt F) spec1 c [cc1_scratch0]

/-- The region's entry invariant with the accumulator as a memref owned at some contents, the other scoped buffers
    unopened, and the generator register at some state. -/
theorem PhiA1_eq (c : Dev nD) :
    (Pipeline.ΦA spec1 c : sProp 𝕄)
      = iprop(iprop(iprop((∃ d, owns (c : Thread nD τ) scM1_0 fullShare d)) ∗ rest1 (F := F) c) ∗ (∃ r, prngReg c r)) := by
  unfold Pipeline.ΦA; rw [scopedRest1_split]; simp only [scM1_0, owns_whole]; try rfl

/-! ## The body's run, case by case -/

set_option maxHeartbeats 1000000 in
/-- FIRST reduction step (the first condition holds, the second does not). On whole memrefs — the operands' at
    their contents, the result's at contents handed back untouched, the accumulator at anything — the body runs to the
    continuation holding the operands' as they were and the accumulator with its stores written: the pieces are the
    witness the run finds. -/
noncomputable def kernelRun1_A (c : Dev nD) (i : grid1.Coords) (arg3 : Memref sig .tc .vmem BlkA .bf16) (harg3 : arg3.IsWhole) (arg1 : Memref sig .tc .vmem BlkB .bf16) (harg1 : arg1.IsWhole) (arg5 : Memref sig .tc .vmem BlkO .bf16) (harg5 : arg5.IsWhole) (arg6 : Memref sig .tc .vmem BlkO .f32) (harg6 : arg6.IsWhole) (hc0 : cond1_0 i) (hc1 : ¬cond1_1 i)
    (x0 : Vec F BlkA .bf16) (x1 : Vec F BlkB .bf16) :
    Σ' (L2 : List (View.Piece (Elt F) BlkO .bf16)), { LS0 : List (View.Piece (Elt F) BlkO .f32) //
      ∀ (xi2 : Vec F BlkO .bf16) (E : Set ℕ) (K : PUnit → sProp 𝕄),
        iprop(owns (c : Thread nD τ) arg3 fullShare x0 ∗ owns (c : Thread nD τ) arg1 fullShare x1 ∗ owns (c : Thread nD τ) arg5 fullShare xi2 ∗ (∃ d, owns (c : Thread nD τ) arg6 fullShare d)
            ∗ (iprop(owns (c : Thread nD τ) arg3 fullShare x0 ∗ owns (c : Thread nD τ) arg1 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc1__mm_kernel_nobias i arg3 harg3 arg1 harg1 arg5 harg5 arg6 harg6) K } := by
  refine ⟨[], ?_, fun xi2 E K => ?run⟩
  case run =>
    simp only [cc1__mm_kernel_nobias_eq_skeleton]; unfold cc1__mm_kernel_nobias_skel
    unfold owns
    iintro ⟨⟨%f0, %hf0, H0⟩, ⟨%f1, %hf1, H1⟩, ⟨%f2, %hf2, H2⟩, ⟨%ds0, %fs0, -, HS0⟩, Hk⟩
    obtain rfl := harg3.eq_unread hf0; obtain rfl := harg1.eq_unread hf1; obtain rfl := harg5.eq_unread hf2
    sl_exec (disch := first | exact hc0 | exact hc1)
    sl_step
    iapply Hk
    isplitl [H0]
    · iexists _; isplitr; · ipureintro; exact harg3.read_unread _
      iexact H0
    isplitl [H1]
    · iexists _; isplitr; · ipureintro; exact harg1.read_unread _
      iexact H1
    isplitl [H2]
    · iexists _; isplitr; · ipureintro; exact harg5.read_unread _
      iexact H2
    iexists _; iexact HS0

set_option maxHeartbeats 1000000 in
/-- MIDDLE reduction step (neither condition holds): as the first, with the accumulator at what the point before left. -/
noncomputable def kernelRun1_B (c : Dev nD) (i : grid1.Coords) (arg3 : Memref sig .tc .vmem BlkA .bf16) (harg3 : arg3.IsWhole) (arg1 : Memref sig .tc .vmem BlkB .bf16) (harg1 : arg1.IsWhole) (arg5 : Memref sig .tc .vmem BlkO .bf16) (harg5 : arg5.IsWhole) (arg6 : Memref sig .tc .vmem BlkO .f32) (harg6 : arg6.IsWhole) (hc0 : ¬cond1_0 i) (hc1 : ¬cond1_1 i)
    (x0 : Vec F BlkA .bf16) (x1 : Vec F BlkB .bf16) (xs0 : Vec F BlkO .f32) :
    Σ' (L2 : List (View.Piece (Elt F) BlkO .bf16)), { LS0 : List (View.Piece (Elt F) BlkO .f32) //
      ∀ (xi2 : Vec F BlkO .bf16) (E : Set ℕ) (K : PUnit → sProp 𝕄),
        iprop(owns (c : Thread nD τ) arg3 fullShare x0 ∗ owns (c : Thread nD τ) arg1 fullShare x1 ∗ owns (c : Thread nD τ) arg5 fullShare xi2 ∗ owns (c : Thread nD τ) arg6 fullShare xs0
            ∗ (iprop(owns (c : Thread nD τ) arg3 fullShare x0 ∗ owns (c : Thread nD τ) arg1 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc1__mm_kernel_nobias i arg3 harg3 arg1 harg1 arg5 harg5 arg6 harg6) K } := by
  refine ⟨[], ?_, fun xi2 E K => ?run⟩
  case run =>
    simp only [cc1__mm_kernel_nobias_eq_skeleton]; unfold cc1__mm_kernel_nobias_skel
    unfold owns
    iintro ⟨⟨%f0, %hf0, H0⟩, ⟨%f1, %hf1, H1⟩, ⟨%f2, %hf2, H2⟩, ⟨%fs0, %hfs0, HS0⟩, Hk⟩
    obtain rfl := harg3.eq_unread hf0; obtain rfl := harg1.eq_unread hf1; obtain rfl := harg5.eq_unread hf2; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg1.read_unread _
      iexact H1
    isplitl [H2]
    · iexists _; isplitr; · ipureintro; exact harg5.read_unread _
      iexact H2
    iexists _; iexact HS0

set_option maxHeartbeats 1000000 in
/-- LAST reduction step (the second condition holds, the first does not): the result's memref at anything, left with
    the body's store written. -/
noncomputable def kernelRun1_C (c : Dev nD) (i : grid1.Coords) (arg3 : Memref sig .tc .vmem BlkA .bf16) (harg3 : arg3.IsWhole) (arg1 : Memref sig .tc .vmem BlkB .bf16) (harg1 : arg1.IsWhole) (arg5 : Memref sig .tc .vmem BlkO .bf16) (harg5 : arg5.IsWhole) (arg6 : Memref sig .tc .vmem BlkO .f32) (harg6 : arg6.IsWhole) (hc0 : ¬cond1_0 i) (hc1 : cond1_1 i)
    (x0 : Vec F BlkA .bf16) (x1 : Vec F BlkB .bf16) (xs0 : Vec F BlkO .f32) :
    Σ' (L2 : List (View.Piece (Elt F) BlkO .bf16)), { LS0 : List (View.Piece (Elt F) BlkO .f32) //
      ∀ (E : Set ℕ) (K : PUnit → sProp 𝕄),
        iprop(owns (c : Thread nD τ) arg3 fullShare x0 ∗ owns (c : Thread nD τ) arg1 fullShare x1 ∗ (∃ d, owns (c : Thread nD τ) arg5 fullShare d) ∗ owns (c : Thread nD τ) arg6 fullShare xs0
            ∗ (iprop(owns (c : Thread nD τ) arg3 fullShare x0 ∗ owns (c : Thread nD τ) arg1 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f LS0)) -∗ K ⟨⟩))
          ⊢ wp frame (wpE (defs₀ (F := F)) Variants.none c none) E (cc1__mm_kernel_nobias i arg3 harg3 arg1 harg1 arg5 harg5 arg6 harg6) K } := by
  refine ⟨?_, ?_, fun E K => ?run⟩
  case run =>
    simp only [cc1__mm_kernel_nobias_eq_skeleton]; unfold cc1__mm_kernel_nobias_skel
    unfold owns
    iintro ⟨⟨%f0, %hf0, H0⟩, ⟨%f1, %hf1, H1⟩, ⟨%d2, %f2, -, H2⟩, ⟨%fs0, %hfs0, HS0⟩, Hk⟩
    obtain rfl := harg3.eq_unread hf0; obtain rfl := harg1.eq_unread hf1; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg1.read_unread _
      iexact H1
    isplitl [H2]; · iexists _; iexact H2
    iexists _; iexact HS0

/-! ## What each case leaves: the found pieces and their covers -/

/-- The first step stores nothing into the result's buffer: a placeholder nothing consults (the window is idle there). -/
def out1_A_2 (c : Dev nD) (i : grid1.Coords) (arg3 : Memref sig .tc .vmem BlkA .bf16) (harg3 : arg3.IsWhole) (arg1 : Memref sig .tc .vmem BlkB .bf16) (harg1 : arg1.IsWhole) (arg5 : Memref sig .tc .vmem BlkO .bf16) (harg5 : arg5.IsWhole) (arg6 : Memref sig .tc .vmem BlkO .f32) (harg6 : arg6.IsWhole) (hc0 : cond1_0 i) (hc1 : ¬cond1_1 i)
    (x0 : Vec F BlkA .bf16) (x1 : Vec F BlkB .bf16) : Vec F BlkO .bf16 :=
  VO1_2.read (Elt F) (VO1_2.writes (Elt F) VO1_2.junk (kernelRun1_A c i arg3 harg3 arg1 harg1 arg5 harg5 arg6 harg6 hc0 hc1 x0 x1).1)

/-- The first step's stores into the accumulator cover it. -/
theorem scover1_A_0 (c : Dev nD) (i : grid1.Coords) (arg3 : Memref sig .tc .vmem BlkA .bf16) (harg3 : arg3.IsWhole) (arg1 : Memref sig .tc .vmem BlkB .bf16) (harg1 : arg1.IsWhole) (arg5 : Memref sig .tc .vmem BlkO .bf16) (harg5 : arg5.IsWhole) (arg6 : Memref sig .tc .vmem BlkO .f32) (harg6 : arg6.IsWhole) (hc0 : cond1_0 i) (hc1 : ¬cond1_1 i)
    (x0 : Vec F BlkA .bf16) (x1 : Vec F BlkB .bf16) (y : (BlkO).Idx) :
    ∃ pc ∈ (kernelRun1_A c i arg3 harg3 arg1 harg1 arg5 harg5 arg6 harg6 hc0 hc1 x0 x1).2.1, y ∈ pc.1.set :=
  View.cover_of_tiledL (kernelRun1_A c i arg3 harg3 arg1 harg1 arg5 harg5 arg6 harg6 hc0 hc1 x0 x1).2.1 (BlkO).size (by sl_kernel_rfl) y

/-- What the first step leaves in the accumulator: its pieces read back. -/
def sout1_A_0 (c : Dev nD) (i : grid1.Coords) (arg3 : Memref sig .tc .vmem BlkA .bf16) (harg3 : arg3.IsWhole) (arg1 : Memref sig .tc .vmem BlkB .bf16) (harg1 : arg1.IsWhole) (arg5 : Memref sig .tc .vmem BlkO .bf16) (harg5 : arg5.IsWhole) (arg6 : Memref sig .tc .vmem BlkO .f32) (harg6 : arg6.IsWhole) (hc0 : cond1_0 i) (hc1 : ¬cond1_1 i)
    (x0 : Vec F BlkA .bf16) (x1 : Vec F BlkB .bf16) : Vec F BlkO .f32 :=
  VS1_0.read (Elt F) (VS1_0.writes (Elt F) VS1_0.junk (kernelRun1_A c i arg3 harg3 arg1 harg1 arg5 harg5 arg6 harg6 hc0 hc1 x0 x1).2.1)

/-- A middle step stores nothing into the result's buffer either. -/
def out1_B_2 (c : Dev nD) (i : grid1.Coords) (arg3 : Memref sig .tc .vmem BlkA .bf16) (harg3 : arg3.IsWhole) (arg1 : Memref sig .tc .vmem BlkB .bf16) (harg1 : arg1.IsWhole) (arg5 : Memref sig .tc .vmem BlkO .bf16) (harg5 : arg5.IsWhole) (arg6 : Memref sig .tc .vmem BlkO .f32) (harg6 : arg6.IsWhole) (hc0 : ¬cond1_0 i) (hc1 : ¬cond1_1 i)
    (x0 : Vec F BlkA .bf16) (x1 : Vec F BlkB .bf16) (xs0 : Vec F BlkO .f32) : Vec F BlkO .bf16 :=
  VO1_2.read (Elt F) (VO1_2.writes (Elt F) VO1_2.junk (kernelRun1_B c i arg3 harg3 arg1 harg1 arg5 harg5 arg6 harg6 hc0 hc1 x0 x1 xs0).1)

/-- A middle step's store into the accumulator covers it. -/
theorem scover1_B_0 (c : Dev nD) (i : grid1.Coords) (arg3 : Memref sig .tc .vmem BlkA .bf16) (harg3 : arg3.IsWhole) (arg1 : Memref sig .tc .vmem BlkB .bf16) (harg1 : arg1.IsWhole) (arg5 : Memref sig .tc .vmem BlkO .bf16) (harg5 : arg5.IsWhole) (arg6 : Memref sig .tc .vmem BlkO .f32) (harg6 : arg6.IsWhole) (hc0 : ¬cond1_0 i) (hc1 : ¬cond1_1 i)
    (x0 : Vec F BlkA .bf16) (x1 : Vec F BlkB .bf16) (xs0 : Vec F BlkO .f32) (y : (BlkO).Idx) :
    ∃ pc ∈ (kernelRun1_B c i arg3 harg3 arg1 harg1 arg5 harg5 arg6 harg6 hc0 hc1 x0 x1 xs0).2.1, y ∈ pc.1.set :=
  View.cover_of_tiledL (kernelRun1_B c i arg3 harg3 arg1 harg1 arg5 harg5 arg6 harg6 hc0 hc1 x0 x1 xs0).2.1 (BlkO).size (by sl_kernel_rfl) y

/-- What a middle step leaves in the accumulator. -/
def sout1_B_0 (c : Dev nD) (i : grid1.Coords) (arg3 : Memref sig .tc .vmem BlkA .bf16) (harg3 : arg3.IsWhole) (arg1 : Memref sig .tc .vmem BlkB .bf16) (harg1 : arg1.IsWhole) (arg5 : Memref sig .tc .vmem BlkO .bf16) (harg5 : arg5.IsWhole) (arg6 : Memref sig .tc .vmem BlkO .f32) (harg6 : arg6.IsWhole) (hc0 : ¬cond1_0 i) (hc1 : ¬cond1_1 i)
    (x0 : Vec F BlkA .bf16) (x1 : Vec F BlkB .bf16) (xs0 : Vec F BlkO .f32) : Vec F BlkO .f32 :=
  VS1_0.read (Elt F) (VS1_0.writes (Elt F) VS1_0.junk (kernelRun1_B c i arg3 harg3 arg1 harg1 arg5 harg5 arg6 harg6 hc0 hc1 x0 x1 xs0).2.1)

/-- The last step's store into the result's buffer covers it. -/
theorem cover1_C_2 (c : Dev nD) (i : grid1.Coords) (arg3 : Memref sig .tc .vmem BlkA .bf16) (harg3 : arg3.IsWhole) (arg1 : Memref sig .tc .vmem BlkB .bf16) (harg1 : arg1.IsWhole) (arg5 : Memref sig .tc .vmem BlkO .bf16) (harg5 : arg5.IsWhole) (arg6 : Memref sig .tc .vmem BlkO .f32) (harg6 : arg6.IsWhole) (hc0 : ¬cond1_0 i) (hc1 : cond1_1 i)
    (x0 : Vec F BlkA .bf16) (x1 : Vec F BlkB .bf16) (xs0 : Vec F BlkO .f32) (y : (BlkO).Idx) :
    ∃ pc ∈ (kernelRun1_C c i arg3 harg3 arg1 harg1 arg5 harg5 arg6 harg6 hc0 hc1 x0 x1 xs0).1, y ∈ pc.1.set :=
  View.cover_of_tiledL (kernelRun1_C c i arg3 harg3 arg1 harg1 arg5 harg5 arg6 harg6 hc0 hc1 x0 x1 xs0).1 (BlkO).size (by sl_kernel_rfl) y

/-- What the last step leaves in the result's buffer. -/
def out1_C_2 (c : Dev nD) (i : grid1.Coords) (arg3 : Memref sig .tc .vmem BlkA .bf16) (harg3 : arg3.IsWhole) (arg1 : Memref sig .tc .vmem BlkB .bf16) (harg1 : arg1.IsWhole) (arg5 : Memref sig .tc .vmem BlkO .bf16) (harg5 : arg5.IsWhole) (arg6 : Memref sig .tc .vmem BlkO .f32) (harg6 : arg6.IsWhole) (hc0 : ¬cond1_0 i) (hc1 : cond1_1 i)
    (x0 : Vec F BlkA .bf16) (x1 : Vec F BlkB .bf16) (xs0 : Vec F BlkO .f32) : Vec F BlkO .bf16 :=
  VO1_2.read (Elt F) (VO1_2.writes (Elt F) VO1_2.junk (kernelRun1_C c i arg3 harg3 arg1 harg1 arg5 harg5 arg6 harg6 hc0 hc1 x0 x1 xs0).1)

/-- The last step's store into the accumulator covers it. -/
theorem scover1_C_0 (c : Dev nD) (i : grid1.Coords) (arg3 : Memref sig .tc .vmem BlkA .bf16) (harg3 : arg3.IsWhole) (arg1 : Memref sig .tc .vmem BlkB .bf16) (harg1 : arg1.IsWhole) (arg5 : Memref sig .tc .vmem BlkO .bf16) (harg5 : arg5.IsWhole) (arg6 : Memref sig .tc .vmem BlkO .f32) (harg6 : arg6.IsWhole) (hc0 : ¬cond1_0 i) (hc1 : cond1_1 i)
    (x0 : Vec F BlkA .bf16) (x1 : Vec F BlkB .bf16) (xs0 : Vec F BlkO .f32) (y : (BlkO).Idx) :
    ∃ pc ∈ (kernelRun1_C c i arg3 harg3 arg1 harg1 arg5 harg5 arg6 harg6 hc0 hc1 x0 x1 xs0).2.1, y ∈ pc.1.set :=
  View.cover_of_tiledL (kernelRun1_C c i arg3 harg3 arg1 harg1 arg5 harg5 arg6 harg6 hc0 hc1 x0 x1 xs0).2.1 (BlkO).size (by sl_kernel_rfl) y

/-- What the last step leaves in the accumulator. -/
def sout1_C_0 (c : Dev nD) (i : grid1.Coords) (arg3 : Memref sig .tc .vmem BlkA .bf16) (harg3 : arg3.IsWhole) (arg1 : Memref sig .tc .vmem BlkB .bf16) (harg1 : arg1.IsWhole) (arg5 : Memref sig .tc .vmem BlkO .bf16) (harg5 : arg5.IsWhole) (arg6 : Memref sig .tc .vmem BlkO .f32) (harg6 : arg6.IsWhole) (hc0 : ¬cond1_0 i) (hc1 : cond1_1 i)
    (x0 : Vec F BlkA .bf16) (x1 : Vec F BlkB .bf16) (xs0 : Vec F BlkO .f32) : Vec F BlkO .f32 :=
  VS1_0.read (Elt F) (VS1_0.writes (Elt F) VS1_0.junk (kernelRun1_C c i arg3 harg3 arg1 harg1 arg5 harg5 arg6 harg6 hc0 hc1 x0 x1 xs0).2.1)

/-! ## What the result's buffer and the accumulator hold after each point -/

/-- THE ACCUMULATION. What the result's staging buffer and the accumulator hold after the body at position `n`:
    the case the closed forms select at `n`, run at the point's memrefs and operand blocks, the accumulator entering
    at what position `n - 1` left. Both conditions at once is met by no point. -/
def outsAt1 (c : Dev nD) : (n : ℕ) → n < cfg1.N → Vec F BlkO .bf16 × Vec F BlkO .f32
  | 0, hn => (out1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩))
  | n + 1, hn =>
    if h0 : (n + 1) % 8 = 0 then
      if h1 : (n + 1) % 8 = 7 then
        False.elim (by omega)
      else
        (out1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩))
    else
      if h1 : (n + 1) % 8 = 7 then
        (out1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2)
      else
        (out1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2)

/-- `outsAt1` at a first reduction step. -/
theorem outsAt1_A (c : Dev nD) (t : Fin cfg1.N) (h0 : t.val % 8 = 0) (h1 : ¬t.val % 8 = 7) :
    outsAt1 V c t.val t.isLt = (out1_A_2 c (grid1.coords t) (ms1_0 t) (hs1_0 t) (ms1_1 t) (hs1_1 t) (ms1_2 t) (hs1_2 t) scM1_0 (Memref.isWhole_whole _) ((hcond1_0 t).mpr h0) (fun h => h1 ((hcond1_1 t).mp h)) (iblk1 V c 0 t) (iblk1 V c 1 t), sout1_A_0 c (grid1.coords t) (ms1_0 t) (hs1_0 t) (ms1_1 t) (hs1_1 t) (ms1_2 t) (hs1_2 t) scM1_0 (Memref.isWhole_whole _) ((hcond1_0 t).mpr h0) (fun h => h1 ((hcond1_1 t).mp h)) (iblk1 V c 0 t) (iblk1 V c 1 t)) := by
  obtain ⟨n, hn⟩ := t
  cases n with
  | zero => exact rfl
  | succ n => exact (dif_pos h0).trans ((dif_neg h1).trans rfl)

/-- `outsAt1` at a middle reduction step: over what the point before left. -/
theorem outsAt1_B (c : Dev nD) (t : Fin cfg1.N) (h0 : ¬t.val % 8 = 0) (h1 : ¬t.val % 8 = 7) :
    outsAt1 V c t.val t.isLt = (out1_B_2 c (grid1.coords t) (ms1_0 t) (hs1_0 t) (ms1_1 t) (hs1_1 t) (ms1_2 t) (hs1_2 t) scM1_0 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) scM1_0 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt1` at a last reduction step: over what the point before left. -/
theorem outsAt1_C (c : Dev nD) (t : Fin cfg1.N) (h0 : ¬t.val % 8 = 0) (h1 : t.val % 8 = 7) :
    outsAt1 V c t.val t.isLt = (out1_C_2 c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) scM1_0 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region invariant, carrying the accumulator -/

/-- Before the first point the entry invariant; after point `n` the accumulator at what that point left, the other
    scoped buffers unopened, the generator register at some state. -/
def PhiS1 (c : Dev nD) : (n : ℕ) → n ≤ cfg1.N → sProp 𝕄
  | 0, _ => Pipeline.ΦA spec1 c
  | n + 1, hn => iprop(iprop(iprop(owns (c : Thread nD τ) scM1_0 fullShare ((outsAt1 V c n hn).2)) ∗ rest1 (F := F) c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(iprop(owns (c : Thread nD τ) scM1_0 fullShare ((outsAt1 V c n hn).2)) ∗ rest1 (F := F) c) ∗ (∃ r, prngReg c r)) := rfl

theorem PhiS1_pos (c : Dev nD) (n : ℕ) (h : n ≤ cfg1.N) (hz : n ≠ 0) :
    PhiS1 V c n h = iprop(iprop(iprop(owns (c : Thread nD τ) scM1_0 fullShare ((outsAt1 V c (n - 1) (by omega)).2)) ∗ rest1 (F := F) c) ∗ (∃ r, prngReg c r)) := by
  cases n with
  | zero => exact absurd rfl hz
  | succ n => rfl

/-! ## The pipeline's proof data -/

/-- The proof data of this region on core `c`: the arrays as the region finds them; after the body at point `t`
    each operand's buffer at its block and the result's at `outsAt1`; the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point: the operands' memrefs hold their blocks; the closed forms say which case the point is in;
    the invariant hands the body the accumulator at what the point before left (at anything at the first point) and
    takes it back at this point's contents; the other scoped buffers, the generator register and the core's debts
    pass through. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  have hN : t.val < 32 := lt_of_lt_of_eq t.isLt (show cfg1.N = 32 from N_1)
  by_cases h0 : t.val % 8 = 0
  · by_cases h1 : t.val % 8 = 7
    · exfalso; omega
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [Dat.leavesExact_idle (dat1 V c) 2 t (idleAt1_2_A t ((hcond1_0 t).mpr h0) (fun h => h1 ((hcond1_1 t).mp h))) (noFlush1_2_A t ((hcond1_0 t).mpr h0) (fun h => h1 ((hcond1_1 t).mp h)))]
      rw [outsAt1_A V c t h0 h1]
      unfold sout1_A_0; (try dsimp only)
      by_cases hz : t.val = 0
      · rw [PhiS1_castSucc V c t, PhiS1_zero V c _ _ hz, PhiA1_eq]
        iintro ⟨⟨⟨HS0, Hr⟩, Hg⟩, Ho, ⟨%d0, H0⟩, ⟨%d1, H1⟩, ⟨%d2, H2⟩⟩
        iapply ((kernelRun1_A c (grid1.coords t) _ _ _ _ _ _ _ _ ((hcond1_0 t).mpr h0) (fun h => h1 ((hcond1_1 t).mp h)) (iblk1 V c 0 t) (iblk1 V c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover1_A_0 c _ _ _ _ _ _ _ _ _ _ _ _ _)
            iexact Hr
          iexact Hg
        isplitl [Ho]; · iexact Ho
        isplitl [H0]; · iexact H0
        isplitl [H1]; · iexact H1
        iexists _; iexact H2
      · rw [PhiS1_castSucc V c t, PhiS1_pos V c _ _ hz]
        iintro ⟨⟨⟨HS0, Hr⟩, Hg⟩, Ho, ⟨%d0, H0⟩, ⟨%d1, H1⟩, ⟨%d2, H2⟩⟩
        iapply ((kernelRun1_A c (grid1.coords t) _ _ _ _ _ _ _ _ ((hcond1_0 t).mpr h0) (fun h => h1 ((hcond1_1 t).mp h)) (iblk1 V c 0 t) (iblk1 V c 1 t)).2.2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover1_A_0 c _ _ _ _ _ _ _ _ _ _ _ _ _)
            iexact Hr
          iexact Hg
        isplitl [Ho]; · iexact Ho
        isplitl [H0]; · iexact H0
        isplitl [H1]; · iexact H1
        iexists _; iexact H2
  · by_cases h1 : t.val % 8 = 7
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2_C t (fun h => h0 ((hcond1_0 t).mp h)) ((hcond1_1 t).mpr h1)], after1_2]
      rw [outsAt1_C V c t h0 h1]
      unfold out1_C_2 sout1_C_0; (try dsimp only)
      by_cases hz : t.val = 0
      · exfalso; omega
      · rw [PhiS1_castSucc V c t, PhiS1_pos V c _ _ hz]
        iintro ⟨⟨⟨HS0, Hr⟩, Hg⟩, Ho, ⟨%d0, H0⟩, ⟨%d1, H1⟩, ⟨%d2, H2⟩⟩
        iapply ((kernelRun1_C c (grid1.coords t) _ _ _ _ _ _ _ _ (fun h => h0 ((hcond1_0 t).mp h)) ((hcond1_1 t).mpr h1) (iblk1 V c 0 t) (iblk1 V c 1 t) _).2.2 Set.univ _)
        isplitl [H0]; · iexact H0
        isplitl [H1]; · iexact H1
        isplitl [H2]; · iexists _; iexact H2
        isplitl [HS0]; · iexact HS0
        iintro ⟨H0, H1, ⟨%e2, H2⟩, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover1_C_0 c _ _ _ _ _ _ _ _ _ _ _ _ _ _)
            iexact Hr
          iexact Hg
        isplitl [Ho]; · iexact Ho
        isplitl [H0]; · iexact H0
        isplitl [H1]; · iexact H1
        unfold owns; iexists _; isplitr
        swap; · iexact H2
        ipureintro; exact View.read_writes_of_cover _ _ _ _ _ (cover1_C_2 c _ _ _ _ _ _ _ _ _ _ _ _ _ _)
    ·
      rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [Dat.leavesExact_idle (dat1 V c) 2 t (idleAt1_2_B t (fun h => h0 ((hcond1_0 t).mp h)) (fun h => h1 ((hcond1_1 t).mp h))) (noFlush1_2_B t (fun h => h0 ((hcond1_0 t).mp h)) (fun h => h1 ((hcond1_1 t).mp h)))]
      rw [outsAt1_B V c t h0 h1]
      unfold sout1_B_0; (try dsimp only)
      by_cases hz : t.val = 0
      · exfalso; omega
      · rw [PhiS1_castSucc V c t, PhiS1_pos V c _ _ hz]
        iintro ⟨⟨⟨HS0, Hr⟩, Hg⟩, Ho, ⟨%d0, H0⟩, ⟨%d1, H1⟩, ⟨%d2, H2⟩⟩
        iapply ((kernelRun1_B c (grid1.coords t) _ _ _ _ _ _ _ _ (fun h => h0 ((hcond1_0 t).mp h)) (fun h => h1 ((hcond1_1 t).mp h)) (iblk1 V c 0 t) (iblk1 V c 1 t) _).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover1_B_0 c _ _ _ _ _ _ _ _ _ _ _ _ _ _)
            iexact Hr
          iexact Hg
        isplitl [Ho]; · iexact Ho
        isplitl [H0]; · iexact H0
        isplitl [H1]; · iexact H1
        iexists _; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the entry invariant back: the accumulator's contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HS0, Hr⟩, Hg⟩
  isplitl [HS0 Hr]
  · isplitl [HS0]
    · iexists _; iexact HS0
    iexact Hr
  iexact Hg

/-- The same after the last point. -/
theorem hout1 (c : Dev nD) : (dat1 V c).Φ (Fin.last cfg1.N) ⊢ Pipeline.ΦA spec1 c :=
  Phi_out1 V c _ (by rw [Fin.val_last]; have : cfg1.N = 32 := N_1; omega)

end Cert.KernelIdeal.Gen
end
-- ==== Proof.KernelIdealH.Reg2.lean ====
import proofs.«157173_j56882546868342_2_alg».proof.Proof.KernelIdealH.Launch
import proofs.«157173_j56882546868342_2_alg».proof.Proof.Gen.KernelIdeal.Skeleton
import proofs.«157173_j56882546868342_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384
noncomputable section
namespace Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

/-! # REGION 2 of @main: `cc2__mm_add_relu_kernel` (pipeline 2), at the entry contents `V`

Grid (4,1,2), 8 points, the k axis fastest: the point t has k = t mod 2. Window 0 is the a block, window 1 the b block,
window 2 the added operand (fetched only when its block index moves), window 3 the output; a scratch accumulator is
carried along k: zeroed at k = 0, increased by the block product at every point, and at k = 1 the output block is written
as max (accumulator + added operand, 0). -/

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, for any proof data whose array is `V`'s and
    whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- The same for input window 1. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- The same for input window 2, fetched or not: where it is not fetched its block index has not moved. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-! ## The body's branch conditions -/

/-- The condition of the body's first conditional (k = 0), from the grid coordinates. -/
abbrev cond2_0 (i : grid2.Coords) : Prop := (Scalar.cmpi .ne (Scalar.extui (Scalar.cmpi .eq (BitVec.ofNat 32 (i 2).val) 0#32)) 0#32) = 1#1
/-- It holds at the even points. -/
theorem hcond2_0 : ∀ t : Fin cfg2.N, cond2_0 (grid2.coords t) ↔ t.val % 2 = 0 :=
  (by decide +kernel : ∀ t : Fin grid2.N, cond2_0 (grid2.coords t) ↔ t.val % 2 = 0)
/-- The condition of the body's second conditional (k = 1, the last block). -/
abbrev cond2_1 (i : grid2.Coords) : Prop := k2_cond2 i = 1#1
/-- It holds at the odd points. -/
theorem hcond2_1 : ∀ t : Fin cfg2.N, cond2_1 (grid2.coords t) ↔ t.val % 2 = 1 :=
  (by decide +kernel : ∀ t : Fin grid2.N, cond2_1 (grid2.coords t) ↔ t.val % 2 = 1)

/-! ## Where the windows are idle -/

theorem liveAt2_0 : ∀ t : Fin cfg2.N, cfg2.idle 0 (grid2.coords t) = false := by decide +kernel
theorem liveAt2_1 : ∀ t : Fin cfg2.N, cfg2.idle 1 (grid2.coords t) = false := by decide +kernel
theorem liveAt2_2 : ∀ t : Fin cfg2.N, cfg2.idle 2 (grid2.coords t) = false := by decide +kernel
/-- At the points with k = 0 the output is idle: nothing is stored into it, -/
theorem idleAt2_3_A : ∀ t : Fin cfg2.N, cond2_0 (grid2.coords t) → ¬cond2_1 (grid2.coords t) → cfg2.idle 3 (grid2.coords t) = true := by decide +kernel
/-- and its block is not written back there. -/
theorem noFlush2_3_A : ∀ t : Fin cfg2.N, cond2_0 (grid2.coords t) → ¬cond2_1 (grid2.coords t) → (cfg2.win 3).flush t = false := by decide +kernel
/-- At the points with k = 1 the output is live. -/
theorem liveAt2_3_C : ∀ t : Fin cfg2.N, ¬cond2_0 (grid2.coords t) → cond2_1 (grid2.coords t) → cfg2.idle 3 (grid2.coords t) = false := by decide +kernel

/-! ## The staging and scratch memrefs -/

/-- One staging buffer of the output window, through which its contents are stated. -/
abbrev VO2_3 : View sig .tc .vmem S1024x512 .bf16 := (Memref.whole cc2_stg3_0 : Memref sig .tc .vmem S1024x512 .bf16).view
abbrev ms2_0 (t : Fin cfg2.N) : Memref sig .tc .vmem S1024x512 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S512x512 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1024x512 .bf16 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1024x512 .bf16 := win2_3.stage (cfg2.slots t 3)
abbrev hs2_3 (t : Fin cfg2.N) : (ms2_3 t).IsWhole := hstage2_3 ((cfg2.slots t 3).cast nbuf2_3)
/-- The accumulator: a whole scoped buffer of the kernel's own. -/
abbrev scM2_0 : Memref sig .tc .vmem S1024x512 .f32 := Memref.whole cc2_scratch0
abbrev VS2_0 : View sig .tc .vmem S1024x512 .f32 := scM2_0.view

/-- Every other scoped buffer of the core (the other calls' staging buffers and scratch), unopened. -/
abbrev rest2 (c : Dev nD) : sProp 𝕄 :=
  Pipeline.scopedRestBut (Ix := Unit) (Name := ℕ) (U := UR sig nD τ) (Lvl := ℕ) (Val := Elt F) spec2 c [cc2_scratch0]

/-- The class's invariant with the accumulator as a memref owned at some contents. -/
theorem PhiA2_eq (c : Dev nD) :
    (Pipeline.ΦA spec2 c : sProp 𝕄)
      = iprop(iprop(iprop((∃ d, owns (c : Thread nD τ) scM2_0 fullShare d)) ∗ rest2 (F := F) c) ∗ (∃ r, prngReg c r)) := by
  unfold Pipeline.ΦA; rw [scopedRest2_split]; simp only [scM2_0, owns_whole]; try rfl

/-! ## The body's run, case by case -/

-- (the run's proof term is large)
set_option maxHeartbeats 4000000 in
/-- THE FIRST k BLOCK (the first conditional taken, the second not). The pieces the body's stores leave in the output's
    staging memref (none: the output is idle here and handed back untouched) and in the accumulator, with the triple: on
    whole staging memrefs, the three inputs' at their contents, the output's at contents `xi3`, the accumulator at anything,
    the body runs to the continuation holding the inputs and the output as they were and the accumulator with its pieces
    written. -/
noncomputable def kernelRun2_A (c : Dev nD) (i : grid2.Coords) (arg3 : Memref sig .tc .vmem S1024x512 .bf16) (harg3 : arg3.IsWhole) (arg4 : Memref sig .tc .vmem S512x512 .bf16) (harg4 : arg4.IsWhole) (arg5 : Memref sig .tc .vmem S1024x512 .bf16) (harg5 : arg5.IsWhole) (arg6 : Memref sig .tc .vmem S1024x512 .bf16) (harg6 : arg6.IsWhole) (arg7 : Memref sig .tc .vmem S1024x512 .f32) (harg7 : arg7.IsWhole) (hc0 : cond2_0 i) (hc1 : ¬cond2_1 i)
    (x0 : Vec F S1024x512 .bf16) (x1 : Vec F S512x512 .bf16) (x2 : Vec F S1024x512 .bf16) :
    Σ' (L3 : List (View.Piece (Elt F) S1024x512 .bf16)), { LS0 : List (View.Piece (Elt F) S1024x512 .f32) //
      ∀ (xi3 : Vec F S1024x512 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc2__mm_add_relu_kernel i arg3 harg3 arg4 harg4 arg5 harg5 arg6 harg6 arg7 harg7) K } := by
  refine ⟨[], ?_, fun xi3 E K => ?run⟩
  case run =>
    simp only [cc2__mm_add_relu_kernel_eq_skeleton]; unfold cc2__mm_add_relu_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

-- (the run's proof term is large)
set_option maxHeartbeats 4000000 in
/-- THE LAST k BLOCK (the first conditional not taken, the second taken). The pieces the body's stores leave in the output's
    staging memref and in the accumulator, with the triple: on whole staging memrefs, the three inputs' at their contents,
    the output's at anything, the accumulator at the contents `xs0` the point before left, the body runs to the continuation
    holding the inputs as they were, the output and the accumulator with their pieces written. -/
noncomputable def kernelRun2_C (c : Dev nD) (i : grid2.Coords) (arg3 : Memref sig .tc .vmem S1024x512 .bf16) (harg3 : arg3.IsWhole) (arg4 : Memref sig .tc .vmem S512x512 .bf16) (harg4 : arg4.IsWhole) (arg5 : Memref sig .tc .vmem S1024x512 .bf16) (harg5 : arg5.IsWhole) (arg6 : Memref sig .tc .vmem S1024x512 .bf16) (harg6 : arg6.IsWhole) (arg7 : Memref sig .tc .vmem S1024x512 .f32) (harg7 : arg7.IsWhole) (hc0 : ¬cond2_0 i) (hc1 : cond2_1 i)
    (x0 : Vec F S1024x512 .bf16) (x1 : Vec F S512x512 .bf16) (x2 : Vec F S1024x512 .bf16) (xs0 : Vec F S1024x512 .f32) :
    Σ' (L3 : List (View.Piece (Elt F) S1024x512 .bf16)), { LS0 : List (View.Piece (Elt F) S1024x512 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0)) -∗ K ⟨⟩))
          ⊢ wp frame (wpE (defs₀ (F := F)) Variants.none c none) E (cc2__mm_add_relu_kernel i arg3 harg3 arg4 harg4 arg5 harg5 arg6 harg6 arg7 harg7) K } := by
  refine ⟨?_, ?_, fun E K => ?run⟩
  case run =>
    simp only [cc2__mm_add_relu_kernel_eq_skeleton]; unfold cc2__mm_add_relu_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg3.eq_unread hf0; obtain rfl := harg4.eq_unread hf1; obtain rfl := harg5.eq_unread hf2; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS0

/-! ## What each case leaves -/

/-- At k = 0 nothing is stored into the output: no pieces — a placeholder nothing consults (the window is neither written
    back there nor read at the next point). -/
def out2_A_3 (c : Dev nD) (i : grid2.Coords) (arg3 : Memref sig .tc .vmem S1024x512 .bf16) (harg3 : arg3.IsWhole) (arg4 : Memref sig .tc .vmem S512x512 .bf16) (harg4 : arg4.IsWhole) (arg5 : Memref sig .tc .vmem S1024x512 .bf16) (harg5 : arg5.IsWhole) (arg6 : Memref sig .tc .vmem S1024x512 .bf16) (harg6 : arg6.IsWhole) (arg7 : Memref sig .tc .vmem S1024x512 .f32) (harg7 : arg7.IsWhole) (hc0 : cond2_0 i) (hc1 : ¬cond2_1 i)
    (x0 : Vec F S1024x512 .bf16) (x1 : Vec F S512x512 .bf16) (x2 : Vec F S1024x512 .bf16) : Vec F S1024x512 .bf16 :=
  VO2_3.read (Elt F) (VO2_3.writes (Elt F) VO2_3.junk (kernelRun2_A c i arg3 harg3 arg4 harg4 arg5 harg5 arg6 harg6 arg7 harg7 hc0 hc1 x0 x1 x2).1)

/-- At k = 0 the pieces stored into the accumulator cover it. -/
theorem scover2_A_0 (c : Dev nD) (i : grid2.Coords) (arg3 : Memref sig .tc .vmem S1024x512 .bf16) (harg3 : arg3.IsWhole) (arg4 : Memref sig .tc .vmem S512x512 .bf16) (harg4 : arg4.IsWhole) (arg5 : Memref sig .tc .vmem S1024x512 .bf16) (harg5 : arg5.IsWhole) (arg6 : Memref sig .tc .vmem S1024x512 .bf16) (harg6 : arg6.IsWhole) (arg7 : Memref sig .tc .vmem S1024x512 .f32) (harg7 : arg7.IsWhole) (hc0 : cond2_0 i) (hc1 : ¬cond2_1 i)
    (x0 : Vec F S1024x512 .bf16) (x1 : Vec F S512x512 .bf16) (x2 : Vec F S1024x512 .bf16) (y : S1024x512.Idx) :
    ∃ pc ∈ (kernelRun2_A c i arg3 harg3 arg4 harg4 arg5 harg5 arg6 harg6 arg7 harg7 hc0 hc1 x0 x1 x2).2.1, y ∈ pc.1.set :=
  View.cover_of_tiledL (kernelRun2_A c i arg3 harg3 arg4 harg4 arg5 harg5 arg6 harg6 arg7 harg7 hc0 hc1 x0 x1 x2).2.1 S1024x512.size (by sl_kernel_rfl) y

/-- What the point with k = 0 leaves in the accumulator: its pieces read back. -/
def sout2_A_0 (c : Dev nD) (i : grid2.Coords) (arg3 : Memref sig .tc .vmem S1024x512 .bf16) (harg3 : arg3.IsWhole) (arg4 : Memref sig .tc .vmem S512x512 .bf16) (harg4 : arg4.IsWhole) (arg5 : Memref sig .tc .vmem S1024x512 .bf16) (harg5 : arg5.IsWhole) (arg6 : Memref sig .tc .vmem S1024x512 .bf16) (harg6 : arg6.IsWhole) (arg7 : Memref sig .tc .vmem S1024x512 .f32) (harg7 : arg7.IsWhole) (hc0 : cond2_0 i) (hc1 : ¬cond2_1 i)
    (x0 : Vec F S1024x512 .bf16) (x1 : Vec F S512x512 .bf16) (x2 : Vec F S1024x512 .bf16) : Vec F S1024x512 .f32 :=
  VS2_0.read (Elt F) (VS2_0.writes (Elt F) VS2_0.junk (kernelRun2_A c i arg3 harg3 arg4 harg4 arg5 harg5 arg6 harg6 arg7 harg7 hc0 hc1 x0 x1 x2).2.1)

/-- At k = 1 the one store into the output covers its block. -/
theorem cover2_C_3 (c : Dev nD) (i : grid2.Coords) (arg3 : Memref sig .tc .vmem S1024x512 .bf16) (harg3 : arg3.IsWhole) (arg4 : Memref sig .tc .vmem S512x512 .bf16) (harg4 : arg4.IsWhole) (arg5 : Memref sig .tc .vmem S1024x512 .bf16) (harg5 : arg5.IsWhole) (arg6 : Memref sig .tc .vmem S1024x512 .bf16) (harg6 : arg6.IsWhole) (arg7 : Memref sig .tc .vmem S1024x512 .f32) (harg7 : arg7.IsWhole) (hc0 : ¬cond2_0 i) (hc1 : cond2_1 i)
    (x0 : Vec F S1024x512 .bf16) (x1 : Vec F S512x512 .bf16) (x2 : Vec F S1024x512 .bf16) (xs0 : Vec F S1024x512 .f32) (y : S1024x512.Idx) :
    ∃ pc ∈ (kernelRun2_C c i arg3 harg3 arg4 harg4 arg5 harg5 arg6 harg6 arg7 harg7 hc0 hc1 x0 x1 x2 xs0).1, y ∈ pc.1.set :=
  View.cover_of_tiledL (kernelRun2_C c i arg3 harg3 arg4 harg4 arg5 harg5 arg6 harg6 arg7 harg7 hc0 hc1 x0 x1 x2 xs0).1 S1024x512.size (by sl_kernel_rfl) y

/-- What the point with k = 1 leaves in the output's staging buffer: its pieces read back. -/
def out2_C_3 (c : Dev nD) (i : grid2.Coords) (arg3 : Memref sig .tc .vmem S1024x512 .bf16) (harg3 : arg3.IsWhole) (arg4 : Memref sig .tc .vmem S512x512 .bf16) (harg4 : arg4.IsWhole) (arg5 : Memref sig .tc .vmem S1024x512 .bf16) (harg5 : arg5.IsWhole) (arg6 : Memref sig .tc .vmem S1024x512 .bf16) (harg6 : arg6.IsWhole) (arg7 : Memref sig .tc .vmem S1024x512 .f32) (harg7 : arg7.IsWhole) (hc0 : ¬cond2_0 i) (hc1 : cond2_1 i)
    (x0 : Vec F S1024x512 .bf16) (x1 : Vec F S512x512 .bf16) (x2 : Vec F S1024x512 .bf16) (xs0 : Vec F S1024x512 .f32) : Vec F S1024x512 .bf16 :=
  VO2_3.read (Elt F) (VO2_3.writes (Elt F) VO2_3.junk (kernelRun2_C c i arg3 harg3 arg4 harg4 arg5 harg5 arg6 harg6 arg7 harg7 hc0 hc1 x0 x1 x2 xs0).1)

/-- At k = 1 the pieces stored into the accumulator cover it. -/
theorem scover2_C_0 (c : Dev nD) (i : grid2.Coords) (arg3 : Memref sig .tc .vmem S1024x512 .bf16) (harg3 : arg3.IsWhole) (arg4 : Memref sig .tc .vmem S512x512 .bf16) (harg4 : arg4.IsWhole) (arg5 : Memref sig .tc .vmem S1024x512 .bf16) (harg5 : arg5.IsWhole) (arg6 : Memref sig .tc .vmem S1024x512 .bf16) (harg6 : arg6.IsWhole) (arg7 : Memref sig .tc .vmem S1024x512 .f32) (harg7 : arg7.IsWhole) (hc0 : ¬cond2_0 i) (hc1 : cond2_1 i)
    (x0 : Vec F S1024x512 .bf16) (x1 : Vec F S512x512 .bf16) (x2 : Vec F S1024x512 .bf16) (xs0 : Vec F S1024x512 .f32) (y : S1024x512.Idx) :
    ∃ pc ∈ (kernelRun2_C c i arg3 harg3 arg4 harg4 arg5 harg5 arg6 harg6 arg7 harg7 hc0 hc1 x0 x1 x2 xs0).2.1, y ∈ pc.1.set :=
  View.cover_of_tiledL (kernelRun2_C c i arg3 harg3 arg4 harg4 arg5 harg5 arg6 harg6 arg7 harg7 hc0 hc1 x0 x1 x2 xs0).2.1 S1024x512.size (by sl_kernel_rfl) y

/-- What the point with k = 1 leaves in the accumulator: its pieces read back. -/
def sout2_C_0 (c : Dev nD) (i : grid2.Coords) (arg3 : Memref sig .tc .vmem S1024x512 .bf16) (harg3 : arg3.IsWhole) (arg4 : Memref sig .tc .vmem S512x512 .bf16) (harg4 : arg4.IsWhole) (arg5 : Memref sig .tc .vmem S1024x512 .bf16) (harg5 : arg5.IsWhole) (arg6 : Memref sig .tc .vmem S1024x512 .bf16) (harg6 : arg6.IsWhole) (arg7 : Memref sig .tc .vmem S1024x512 .f32) (harg7 : arg7.IsWhole) (hc0 : ¬cond2_0 i) (hc1 : cond2_1 i)
    (x0 : Vec F S1024x512 .bf16) (x1 : Vec F S512x512 .bf16) (x2 : Vec F S1024x512 .bf16) (xs0 : Vec F S1024x512 .f32) : Vec F S1024x512 .f32 :=
  VS2_0.read (Elt F) (VS2_0.writes (Elt F) VS2_0.junk (kernelRun2_C c i arg3 harg3 arg4 harg4 arg5 harg5 arg6 harg6 arg7 harg7 hc0 hc1 x0 x1 x2 xs0).2.1)

/-! ## What the output and the accumulator hold after each point -/

/-- THE ACCUMULATION. What the output's staging buffer and the accumulator hold after the body at position `n`: the case
    the closed forms select at `n`, run at the point's memrefs and input blocks; at k = 1 over what the accumulator held after
    the point before. -/
def outsAt2 (c : Dev nD) : (n : ℕ) → n < cfg2.N → Vec F S1024x512 .bf16 × Vec F S1024x512 .f32
  | 0, hn => (out2_A_3 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩), sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩) (iblk2 V c 2 ⟨0, hn⟩))
  | n + 1, hn =>
    if h0 : (n + 1) % 2 = 0 then
      if h1 : (n + 1) % 2 = 1 then
        False.elim (by omega)
      else
        (out2_A_3 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩), sout2_A_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩) (iblk2 V c 2 ⟨n + 1, hn⟩))
    else
      if h1 : (n + 1) % 2 = 1 then
        (out2_C_3 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (outsAt2 c n (Nat.lt_of_succ_lt hn)).2, sout2_C_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (iblk2 V c 2 ⟨n + 1, hn⟩) (outsAt2 c n (Nat.lt_of_succ_lt hn)).2)
      else
        False.elim (by omega)

/-- `outsAt2` at a point with k = 0. -/
theorem outsAt2_A (c : Dev nD) (t : Fin cfg2.N) (h0 : t.val % 2 = 0) (h1 : ¬t.val % 2 = 1) :
    outsAt2 V c t.val t.isLt = (out2_A_3 c (grid2.coords t) (ms2_0 t) (hs2_0 t) (ms2_1 t) (hs2_1 t) (ms2_2 t) (hs2_2 t) (ms2_3 t) (hs2_3 t) scM2_0 (Memref.isWhole_whole _) ((hcond2_0 t).mpr h0) (fun h => h1 ((hcond2_1 t).mp h)) (iblk2 V c 0 t) (iblk2 V c 1 t) (iblk2 V c 2 t), sout2_A_0 c (grid2.coords t) (ms2_0 t) (hs2_0 t) (ms2_1 t) (hs2_1 t) (ms2_2 t) (hs2_2 t) (ms2_3 t) (hs2_3 t) scM2_0 (Memref.isWhole_whole _) ((hcond2_0 t).mpr h0) (fun h => h1 ((hcond2_1 t).mp h)) (iblk2 V c 0 t) (iblk2 V c 1 t) (iblk2 V c 2 t)) := by
  obtain ⟨n, hn⟩ := t
  cases n with
  | zero => exact rfl
  | succ n => exact (dif_pos h0).trans ((dif_neg h1).trans rfl)

/-- `outsAt2` at a point with k = 1: over what the point before left in the accumulator. -/
theorem outsAt2_C (c : Dev nD) (t : Fin cfg2.N) (h0 : ¬t.val % 2 = 0) (h1 : t.val % 2 = 1) :
    outsAt2 V c t.val t.isLt = (out2_C_3 c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) ((hcond2_1 t).mpr h1) (iblk2 V c 0 t) (iblk2 V c 1 t) (iblk2 V c 2 t) (outsAt2 V c (t.val - 1) (Nat.lt_of_le_of_lt (Nat.sub_le _ _) t.isLt)).2, sout2_C_0 c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) ((hcond2_1 t).mpr h1) (iblk2 V c 0 t) (iblk2 V c 1 t) (iblk2 V c 2 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the class's; afterwards the accumulator at what the
    point before left in it, the other scoped buffers unopened, the generator register at some state. -/
def PhiS2 (c : Dev nD) : (n : ℕ) → n ≤ cfg2.N → sProp 𝕄
  | 0, _ => Pipeline.ΦA spec2 c
  | n + 1, hn => iprop(iprop(owns (c : Thread nD τ) scM2_0 fullShare ((outsAt2 V c n hn).2) ∗ rest2 (F := F) c) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop(owns (c : Thread nD τ) scM2_0 fullShare ((outsAt2 V c n hn).2) ∗ rest2 (F := F) c) ∗ (∃ r, prngReg c r)) := rfl

theorem PhiS2_pos (c : Dev nD) (n : ℕ) (h : n ≤ cfg2.N) (hz : n ≠ 0) :
    PhiS2 V c n h = iprop(iprop(owns (c : Thread nD τ) scM2_0 fullShare ((outsAt2 V c (n - 1) (by omega)).2) ∗ rest2 (F := F) c) ∗ (∃ r, prngReg c r)) := by
  cases n with
  | zero => exact absurd rfl hz
  | succ n => rfl

/-! ## The pipeline's proof data -/

/-- The proof data of pipeline 2 on core `c`: the arrays as the region finds them; after the body at point `t` each input's
    buffer at its block and the output's at `outsAt2`; the invariant `PhiS2`; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => (outsAt2 V c t.val t.isLt).1
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = (outsAt2 V c t.val t.isLt).1 := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t)

set_option maxHeartbeats 4800000 in
/-- The body at any point: the inputs' memrefs hold their blocks; the closed forms say which case the point is in; the
    invariant hands the body the accumulator at what the point before left (at anything at the first point) and takes it
    back at this point's contents; the other scoped buffers, the generator register and what the core owes pass through. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl]
  rw [show (dat2 V c).Φ t.succ = PhiS2 V c (t.val + 1) t.isLt from rfl, PhiS2_succ]
  have hN : t.val < 8 := lt_of_lt_of_eq t.isLt (show cfg2.N = 8 from N_2)
  by_cases h0 : t.val % 2 = 0
  · by_cases h1 : t.val % 2 = 1
    · exfalso; omega
    · rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [Dat.leavesExact_idle (dat2 V c) 3 t (idleAt2_3_A t ((hcond2_0 t).mpr h0) (fun h => h1 ((hcond2_1 t).mp h))) (noFlush2_3_A t ((hcond2_0 t).mpr h0) (fun h => h1 ((hcond2_1 t).mp h)))]
      rw [outsAt2_A V c t h0 h1]
      unfold sout2_A_0; (try dsimp only)
      by_cases hz : t.val = 0
      · rw [PhiS2_castSucc V c t, PhiS2_zero V c _ _ hz, PhiA2_eq]
        iintro ⟨⟨⟨HS0, HR⟩, Hg⟩, Ho, ⟨%d0, H0⟩, ⟨%d1, H1⟩, ⟨%d2, H2⟩, ⟨%d3, H3⟩⟩
        iapply ((kernelRun2_A c (grid2.coords t) _ _ _ _ _ _ _ _ _ _ ((hcond2_0 t).mpr h0) (fun h => h1 ((hcond2_1 t).mp h)) (iblk2 V c 0 t) (iblk2 V c 1 t) (iblk2 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover2_A_0 c _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3
      · rw [PhiS2_castSucc V c t, PhiS2_pos V c _ _ hz]
        iintro ⟨⟨⟨HS0, HR⟩, Hg⟩, Ho, ⟨%d0, H0⟩, ⟨%d1, H1⟩, ⟨%d2, H2⟩, ⟨%d3, H3⟩⟩
        iapply ((kernelRun2_A c (grid2.coords t) _ _ _ _ _ _ _ _ _ _ ((hcond2_0 t).mpr h0) (fun h => h1 ((hcond2_1 t).mp h)) (iblk2 V c 0 t) (iblk2 V c 1 t) (iblk2 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover2_A_0 c _ _ _ _ _ _ _ _ _ _ _ _ _ _ _ _)
            iexact HR
          iexact Hg
        isplitl [Ho]; · iexact Ho
        isplitl [H0]; · iexact H0
        isplitl [H1]; · iexact H1
        isplitl [H2]; · iexact H2
        iexists _; iexact H3
  · by_cases h1 : t.val % 2 = 1
    · rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2 t], after2_2]
      rw [show (dat2 V c).leavesExact 3 t = owns (c : Thread nD τ) (ms2_3 t) fullShare ((dat2 V c).after 3 t) from by
        unfold Dat.leavesExact; rw [liveAt2_3_C t (fun h => h0 ((hcond2_0 t).mp h)) ((hcond2_1 t).mpr h1)], after2_3]
      rw [outsAt2_C V c t h0 h1]
      unfold out2_C_3 sout2_C_0; (try dsimp only)
      by_cases hz : t.val = 0
      · exfalso; omega
      · rw [PhiS2_castSucc V c t, PhiS2_pos V c _ _ hz]
        iintro ⟨⟨⟨HS0, HR⟩, Hg⟩, Ho, ⟨%d0, H0⟩, ⟨%d1, H1⟩, ⟨%d2, H2⟩, ⟨%d3, H3⟩⟩
        iapply ((kernelRun2_C c (grid2.coords t) _ _ _ _ _ _ _ _ _ _ (fun h => h0 ((hcond2_0 t).mp h)) ((hcond2_1 t).mpr h1) (iblk2 V c 0 t) (iblk2 V c 1 t) (iblk2 V c 2 t) _).2.2 Set.univ _)
        isplitl [H0]; · iexact H0
        isplitl [H1]; · iexact H1
        isplitl [H2]; · iexact H2
        isplitl [H3]; · iexists _; iexact H3
        isplitl [HS0]; · iexact HS0
        iintro ⟨H0, H1, H2, ⟨%e3, H3⟩, ⟨%es0, HS0⟩⟩
        isplitl [HS0 HR Hg]
        · isplitl [HS0 HR]
          · isplitl [HS0]
            · unfold owns; iexists _; isplitr
              swap; · iexact HS0
              ipureintro; exact View.read_writes_of_cover _ _ _ _ _ (scover2_C_0 c _ _ _ _ _ _ _ _ _ _ _ _ _ _ _ _ _)
            iexact HR
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover2_C_3 c _ _ _ _ _ _ _ _ _ _ _ _ _ _ _ _ _)
    · exfalso; omega

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After any point but the first the invariant gives the class's back: the accumulator's named contents are forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨⟨HS0, HR⟩, Hg⟩
  isplitl [HS0 HR]
  · isplitl [HS0]
    · iexists _; iexact HS0
    iexact HR
  iexact Hg

/-- The same after the last point. -/
theorem hout2 (c : Dev nD) : (dat2 V c).Φ (Fin.last cfg2.N) ⊢ Pipeline.ΦA spec2 c :=
  Phi_out2 V c _ (by rw [Fin.val_last]; have : cfg2.N = 8 := N_2; omega)

end Cert.KernelIdeal.Gen
end
-- ==== Proof.KernelIdealH.Reg3.lean ====
import proofs.«157173_j56882546868342_2_alg».proof.Proof.KernelIdealH.Launch
import proofs.«157173_j56882546868342_2_alg».proof.Proof.Gen.KernelIdeal.Skeleton
import proofs.«157173_j56882546868342_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 3: the product of `main_v33` and `main_v26` into `main_v34`, one block of the contraction axis per point -/

/-! ## The windows' blocks -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, for any proof data whose array is the
    entry contents and whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1 is fetched at the first point only: its block index does not move, so the buffer keeps the block. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-! ## The body's branch conditions: the contraction axis has one block, so both hold at every point -/

/-- The first conditional: the point is the first along the contraction axis. -/
abbrev cond3_0 (i : grid3.Coords) : Prop := (Scalar.cmpi .ne (Scalar.extui (Scalar.cmpi .eq (BitVec.ofNat 32 (i 2).val) 0#32)) 0#32) = 1#1
theorem hcond3_0 : ∀ t : Fin cfg3.N, cond3_0 (grid3.coords t) :=
  (by decide +kernel : ∀ t : Fin grid3.N, cond3_0 (grid3.coords t))

/-- The second conditional: the point is the last along the contraction axis. -/
abbrev cond3_1 (i : grid3.Coords) : Prop := k3_cond2 i = 1#1
theorem hcond3_1 : ∀ t : Fin cfg3.N, cond3_1 (grid3.coords t) :=
  (by decide +kernel : ∀ t : Fin grid3.N, cond3_1 (grid3.coords t))

/-! ## No window is idle at any point -/

theorem liveAt3_0 : ∀ t : Fin cfg3.N, cfg3.idle 0 (grid3.coords t) = false := by decide +kernel
theorem liveAt3_1 : ∀ t : Fin cfg3.N, cfg3.idle 1 (grid3.coords t) = false := by decide +kernel
theorem liveAt3_2 : ∀ t : Fin cfg3.N, cfg3.idle 2 (grid3.coords t) = false := by decide +kernel

/-! ## The staging and scratch memrefs -/

/-- One staging buffer of the output window, through which its contents are stated. -/
abbrev VO3_2 : View sig .tc .vmem S1024x512 .bf16 := (Memref.whole cc3_stg2_0 : Memref sig .tc .vmem S1024x512 .bf16).view
abbrev ms3_0 (t : Fin cfg3.N) : Memref sig .tc .vmem S1024x512 .bf16 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S512x512 .bf16 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S1024x512 .bf16 := win3_2.stage (cfg3.slots t 2)
abbrev hs3_2 (t : Fin cfg3.N) : (ms3_2 t).IsWhole := hstage3_2 ((cfg3.slots t 2).cast nbuf3_2)
/-- The accumulator: a whole scoped buffer of the kernel's own. -/
abbrev scM3_0 : Memref sig .tc .vmem S1024x512 .f32 := Memref.whole cc3_scratch0
abbrev VS3_0 : View sig .tc .vmem S1024x512 .f32 := scM3_0.view

/-- The region's invariant with the accumulator as a memref owned at some contents, the other scoped buffers unopened. -/
theorem PhiA3_eq (c : Dev nD) :
    (Pipeline.ΦA spec3 c : sProp 𝕄)
      = iprop(iprop(iprop((∃ d, owns (c : Thread nD τ) scM3_0 fullShare d))
          ∗ Pipeline.scopedRestBut (Ix := Unit) (Name := ℕ) (U := UR sig nD τ) (Lvl := ℕ) (Val := Elt F) spec3 c [cc3_scratch0]) ∗ (∃ r, prngReg c r)) := by
  unfold Pipeline.ΦA; rw [scopedRest3_split]; simp only [scM3_0, owns_whole]; try rfl

/-! ## The body's run -/

set_option maxHeartbeats 1000000 in
/-- What the body's store leaves in the output's staging memref, as pieces, with the proof that on whole memrefs —
    the inputs' at their contents, the output's and the accumulator's at anything — the body runs to the
    continuation holding the inputs' as they were, the output's with its pieces written, the accumulator at some
    contents: it is zeroed, the block product is added, and the sum is rounded into the output. -/
noncomputable def kernelRun3_A (c : Dev nD) (i : grid3.Coords) (arg3 : Memref sig .tc .vmem S1024x512 .bf16) (harg3 : arg3.IsWhole) (arg4 : Memref sig .tc .vmem S512x512 .bf16) (harg4 : arg4.IsWhole) (arg5 : Memref sig .tc .vmem S1024x512 .bf16) (harg5 : arg5.IsWhole) (arg6 : Memref sig .tc .vmem S1024x512 .f32) (harg6 : arg6.IsWhole) (hc0 : cond3_0 i) (hc1 : cond3_1 i)
    (x0 : Vec F S1024x512 .bf16) (x1 : Vec F S512x512 .bf16) :
    { L2 : List (View.Piece (Elt F) S1024x512 .bf16) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ (∃ d, owns (c : Thread nD τ) arg6 fullShare d)
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (∃ d, owns (c : Thread nD τ) arg6 fullShare d)) -∗ K ⟨⟩))
          ⊢ wp frame (wpE (defs₀ (F := F)) Variants.none c none) E (cc3__mm_kernel_nobias i arg3 harg3 arg4 harg4 arg5 harg5 arg6 harg6) K } := by
  refine ⟨?_, fun E K => ?run⟩
  case run =>
    simp only [cc3__mm_kernel_nobias_eq_skeleton]; unfold cc3__mm_kernel_nobias_skel
    unfold owns
    iintro ⟨⟨%f0, %hf0, H0⟩, ⟨%f1, %hf1, H1⟩, ⟨%d2, %f2, -, H2⟩, ⟨%ds0, %fs0, -, HS0⟩, Hk⟩
    obtain rfl := harg3.eq_unread hf0; obtain rfl := harg4.eq_unread hf1
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexists _; iexists _; isplitr
    swap; · iexact HS0
    ipureintro; rfl

/-! ## What the body leaves in the output's buffer -/

/-- The output's pieces tile its block (one store of the whole block), so they cover it. -/
theorem cover3_A_2 (c : Dev nD) (i : grid3.Coords) (arg3 : Memref sig .tc .vmem S1024x512 .bf16) (harg3 : arg3.IsWhole) (arg4 : Memref sig .tc .vmem S512x512 .bf16) (harg4 : arg4.IsWhole) (arg5 : Memref sig .tc .vmem S1024x512 .bf16) (harg5 : arg5.IsWhole) (arg6 : Memref sig .tc .vmem S1024x512 .f32) (harg6 : arg6.IsWhole) (hc0 : cond3_0 i) (hc1 : cond3_1 i)
    (x0 : Vec F S1024x512 .bf16) (x1 : Vec F S512x512 .bf16) (y : S1024x512.Idx) :
    ∃ pc ∈ (kernelRun3_A c i arg3 harg3 arg4 harg4 arg5 harg5 arg6 harg6 hc0 hc1 x0 x1).1, y ∈ pc.1.set :=
  View.cover_of_tiledL (kernelRun3_A c i arg3 harg3 arg4 harg4 arg5 harg5 arg6 harg6 hc0 hc1 x0 x1).1 S1024x512.size (by sl_kernel_rfl) y

/-- What the body leaves in the output's staging buffer: its pieces read back over junk. -/
def out3_A_2 (c : Dev nD) (i : grid3.Coords) (arg3 : Memref sig .tc .vmem S1024x512 .bf16) (harg3 : arg3.IsWhole) (arg4 : Memref sig .tc .vmem S512x512 .bf16) (harg4 : arg4.IsWhole) (arg5 : Memref sig .tc .vmem S1024x512 .bf16) (harg5 : arg5.IsWhole) (arg6 : Memref sig .tc .vmem S1024x512 .f32) (harg6 : arg6.IsWhole) (hc0 : cond3_0 i) (hc1 : cond3_1 i)
    (x0 : Vec F S1024x512 .bf16) (x1 : Vec F S512x512 .bf16) : Vec F S1024x512 .bf16 :=
  VO3_2.read (Elt F) (VO3_2.writes (Elt F) VO3_2.junk (kernelRun3_A c i arg3 harg3 arg4 harg4 arg5 harg5 arg6 harg6 hc0 hc1 x0 x1).1)

/-- What the output's staging buffer holds after the body at position `n`: the one case, run at the point's memrefs
    and input blocks (the accumulator is zeroed at every point, so nothing of the point before enters). -/
def outsAt3 (c : Dev nD) (n : ℕ) (hn : n < cfg3.N) : Vec F S1024x512 .bf16 :=
  out3_A_2 c (grid3.coords ⟨n, hn⟩) (ms3_0 ⟨n, hn⟩) (hs3_0 ⟨n, hn⟩) (ms3_1 ⟨n, hn⟩) (hs3_1 ⟨n, hn⟩) (ms3_2 ⟨n, hn⟩) (hs3_2 ⟨n, hn⟩) scM3_0 (Memref.isWhole_whole _) (hcond3_0 ⟨n, hn⟩) (hcond3_1 ⟨n, hn⟩) (iblk3 V c 0 ⟨n, hn⟩) (iblk3 V c 1 ⟨n, hn⟩)

/-- `outsAt3` at a point: the case's contents. -/
theorem outsAt3_A (c : Dev nD) (t : Fin cfg3.N) :
    outsAt3 V c t.val t.isLt = out3_A_2 c (grid3.coords t) (ms3_0 t) (hs3_0 t) (ms3_1 t) (hs3_1 t) (ms3_2 t) (hs3_2 t) scM3_0 (Memref.isWhole_whole _) (hcond3_0 t) (hcond3_1 t) (iblk3 V c 0 t) (iblk3 V c 1 t) := rfl

/-! ## The pipeline's proof data -/

/-- The proof data of the pipeline on core `c`: the arrays as the region finds them; after the body at point `t` each
    input's buffer at its block and the output's at `outsAt3`; the invariant the scoped rest and the generator
    register (the accumulator at anything: every point zeroes it first); nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => outsAt3 V c t.val t.isLt
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = outsAt3 V c t.val t.isLt := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-! ## The body obligation, at a generic point -/

def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d)))

def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t)

set_option maxHeartbeats 4800000 in
/-- The body at any point: the inputs' memrefs hold their blocks, both conditions hold, so the run applies; the
    invariant hands the body the accumulator at anything and takes it back at anything; the core owes nothing. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).owesAt () t.succ = (dat3 V c).owesAt () t.castSucc from rfl]
  rw [show (dat3 V c).Φ t.succ = Pipeline.ΦA spec3 c from rfl, show (dat3 V c).Φ t.castSucc = Pipeline.ΦA spec3 c from rfl, PhiA3_eq]
  rw [show (dat3 V c).leavesExact 0 t = owns (c : Thread nD τ) (ms3_0 t) fullShare ((dat3 V c).after 0 t) from by
    unfold Dat.leavesExact; rw [liveAt3_0 t], after3_0]
  rw [show (dat3 V c).leavesExact 1 t = owns (c : Thread nD τ) (ms3_1 t) fullShare ((dat3 V c).after 1 t) from by
    unfold Dat.leavesExact; rw [liveAt3_1 t], after3_1]
  rw [show (dat3 V c).leavesExact 2 t = owns (c : Thread nD τ) (ms3_2 t) fullShare ((dat3 V c).after 2 t) from by
    unfold Dat.leavesExact; rw [liveAt3_2 t], after3_2]
  rw [outsAt3_A V c t]
  unfold out3_A_2; (try dsimp only)
  iintro ⟨⟨⟨HS0, Hr⟩, Hg⟩, Ho, ⟨%d0, H0⟩, ⟨%d1, H1⟩, ⟨%d2, H2⟩⟩
  iapply ((kernelRun3_A c (grid3.coords t) _ _ _ _ _ _ _ _ (hcond3_0 t) (hcond3_1 t) (iblk3 V c 0 t) (iblk3 V c 1 t)).2 Set.univ _)
  isplitl [H0]; · iexact H0
  isplitl [H1]; · iexact H1
  isplitl [H2]; · iexists _; iexact H2
  isplitl [HS0]; · iexact HS0
  iintro ⟨H0, H1, ⟨%e2, H2⟩, HS0⟩
  isplitl [HS0 Hr Hg]
  · isplitl [HS0 Hr]
    · isplitl [HS0]; · iexact HS0
      iexact Hr
    iexact Hg
  isplitl [Ho]; · iexact Ho
  isplitl [H0]; · iexact H0
  isplitl [H1]; · iexact H1
  unfold owns; iexists _; isplitr
  swap; · iexact H2
  ipureintro; exact View.read_writes_of_cover _ _ _ _ _ (cover3_A_2 c _ _ _ _ _ _ _ _ _ _ _ _ _)

/-- The library's body obligation, at every point. -/
theorem body_obligation3 (c : Dev nD) : BodyObligation (dat3 (F := F) V c) (defs₀ (F := F)) Variants.none () Set.univ := fun t => by
  rw [bigSep_W3, bigSep_W3]
  exact sound_body3 V c t

/-- What the launch hands the region is the invariant before the first point. -/
theorem hin3 (c : Dev nD) : Pipeline.ΦA spec3 c ⊢ (dat3 V c).Φ 0 := Idealize.SL.BI.Entails.refl _

/-- After the last point the invariant is what the launch takes back. -/
theorem hout3 (c : Dev nD) : (dat3 V c).Φ (Fin.last cfg3.N) ⊢ Pipeline.ΦA spec3 c := Idealize.SL.BI.Entails.refl _

end Cert.KernelIdeal.Gen

end
-- ==== Proof.KernelIdealH.Reg4.lean ====
import proofs.«157173_j56882546868342_2_alg».proof.Proof.KernelIdealH.Launch
import proofs.«157173_j56882546868342_2_alg».proof.Proof.Gen.KernelIdeal.Skeleton
import proofs.«157173_j56882546868342_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384
noncomputable section
namespace Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

-- The three block shapes of this matrix product: the left operand's block, the right operand's block, and the
-- block of the result (the accumulator has the result block's shape).
local notation "BlkA" => S1024x512
local notation "BlkB" => S512x512
local notation "BlkO" => S1024x512

/-! # The matrix product with a carried accumulator, region 4, at the entry contents `V` -/

/-! ## The windows' blocks -/

/-- Window `w`'s block at point `t`, read off its array as the region finds it (`V`). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The left operand's current staging buffer holds its block at every point, fetched there or not, for any proof
    data whose array is `V`'s and whose body leaves the block in place: the window is uncut and never idle. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- The same for the right operand's window. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-! ## The body's two branch conditions, decided over the grid -/

/-- The first condition: the reduction coordinate is 0 (the accumulator is zeroed). -/
abbrev cond4_0 (i : grid4.Coords) : Prop := (Scalar.cmpi .ne (Scalar.extui (Scalar.cmpi .eq (BitVec.ofNat 32 (i 2).val) 0#32)) 0#32) = 1#1
/-- It holds at the points ≡ 0 (mod 8). -/
theorem hcond4_0 : ∀ t : Fin cfg4.N, cond4_0 (grid4.coords t) ↔ t.val % 8 = 0 :=
  (by decide +kernel : ∀ t : Fin grid4.N, cond4_0 (grid4.coords t) ↔ t.val % 8 = 0)

/-- The second condition: the reduction coordinate is the last, 7 (the result block is written). -/
abbrev cond4_1 (i : grid4.Coords) : Prop := k4_cond2 i = 1#1
/-- It holds at the points ≡ 7 (mod 8). -/
theorem hcond4_1 : ∀ t : Fin cfg4.N, cond4_1 (grid4.coords t) ↔ t.val % 8 = 7 :=
  (by decide +kernel : ∀ t : Fin grid4.N, cond4_1 (grid4.coords t) ↔ t.val % 8 = 7)

/-! ## Where the windows are idle -/

/-- The operands' windows are never idle. -/
theorem liveAt4_0 : ∀ t : Fin cfg4.N, cfg4.idle 0 (grid4.coords t) = false := by decide +kernel
theorem liveAt4_1 : ∀ t : Fin cfg4.N, cfg4.idle 1 (grid4.coords t) = false := by decide +kernel
/-- At the first reduction step the result window is idle and is not written back. -/
theorem idleAt4_2_A : ∀ t : Fin cfg4.N, cond4_0 (grid4.coords t) → ¬cond4_1 (grid4.coords t) → cfg4.idle 2 (grid4.coords t) = true := by decide +kernel
theorem noFlush4_2_A : ∀ t : Fin cfg4.N, cond4_0 (grid4.coords t) → ¬cond4_1 (grid4.coords t) → (cfg4.win 2).flush t = false := by decide +kernel
/-- At a middle reduction step likewise. -/
theorem idleAt4_2_B : ∀ t : Fin cfg4.N, ¬cond4_0 (grid4.coords t) → ¬cond4_1 (grid4.coords t) → cfg4.idle 2 (grid4.coords t) = true := by decide +kernel
theorem noFlush4_2_B : ∀ t : Fin cfg4.N, ¬cond4_0 (grid4.coords t) → ¬cond4_1 (grid4.coords t) → (cfg4.win 2).flush t = false := by decide +kernel
/-- At the last reduction step the result window is live: the body stores into it. -/
theorem liveAt4_2_C : ∀ t : Fin cfg4.N, ¬cond4_0 (grid4.coords t) → cond4_1 (grid4.coords t) → cfg4.idle 2 (grid4.coords t) = false := by decide +kernel

/-! ## The memrefs the body is called with -/

/-- One staging buffer of the result window, through which its contents are stated. -/
abbrev VO4_2 : View sig .tc .vmem BlkO .bf16 := (Memref.whole cc4_stg2_0 : Memref sig .tc .vmem BlkO .bf16).view
/-- Each window's current staging memref at point `t`, and its wholeness. -/
abbrev ms4_0 (t : Fin cfg4.N) : Memref sig .tc .vmem BlkA .bf16 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem BlkB .bf16 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem BlkO .bf16 := win4_2.stage (cfg4.slots t 2)
abbrev hs4_2 (t : Fin cfg4.N) : (ms4_2 t).IsWhole := hstage4_2 ((cfg4.slots t 2).cast nbuf4_2)
/-- The accumulator: a whole scoped buffer of the kernel's own, passed beside the windows. -/
abbrev scM4_0 : Memref sig .tc .vmem BlkO .f32 := Memref.whole cc4_scratch0
/-- The accumulator as a view: what it holds is stated through it. -/
abbrev VS4_0 : View sig .tc .vmem BlkO .f32 := scM4_0.view

/-- Every scoped buffer of the program but this region's accumulator, unopened. -/
abbrev rest4 (c : Dev nD) : sProp 𝕄 :=
  Pipeline.scopedRestBut (Ix := Unit) (Name := ℕ) (U := UR sig nD τ) (Lvl := ℕ) (Val := Elt F) spec4 c [cc4_scratch0]

/-- The region's entry invariant with the accumulator as a memref owned at some contents, the other scoped buffers
    unopened, and the generator register at some state. -/
theorem PhiA4_eq (c : Dev nD) :
    (Pipeline.ΦA spec4 c : sProp 𝕄)
      = iprop(iprop(iprop((∃ d, owns (c : Thread nD τ) scM4_0 fullShare d)) ∗ rest4 (F := F) c) ∗ (∃ r, prngReg c r)) := by
  unfold Pipeline.ΦA; rw [scopedRest4_split]; simp only [scM4_0, owns_whole]; try rfl

/-! ## The body's run, case by case -/

set_option maxHeartbeats 1000000 in
/-- FIRST reduction step (the first condition holds, the second does not). On whole memrefs — the operands' at
    their contents, the result's at contents handed back untouched, the accumulator at anything — the body runs to the
    continuation holding the operands' as they were and the accumulator with its stores written: the pieces are the
    witness the run finds. -/
noncomputable def kernelRun4_A (c : Dev nD) (i : grid4.Coords) (arg3 : Memref sig .tc .vmem BlkA .bf16) (harg3 : arg3.IsWhole) (arg4 : Memref sig .tc .vmem BlkB .bf16) (harg4 : arg4.IsWhole) (arg5 : Memref sig .tc .vmem BlkO .bf16) (harg5 : arg5.IsWhole) (arg6 : Memref sig .tc .vmem BlkO .f32) (harg6 : arg6.IsWhole) (hc0 : cond4_0 i) (hc1 : ¬cond4_1 i)
    (x0 : Vec F BlkA .bf16) (x1 : Vec F BlkB .bf16) :
    Σ' (L2 : List (View.Piece (Elt F) BlkO .bf16)), { LS0 : List (View.Piece (Elt F) BlkO .f32) //
      ∀ (xi2 : Vec F BlkO .bf16) (E : Set ℕ) (K : PUnit → sProp 𝕄),
        iprop(owns (c : Thread nD τ) arg3 fullShare x0 ∗ owns (c : Thread nD τ) arg4 fullShare x1 ∗ owns (c : Thread nD τ) arg5 fullShare xi2 ∗ (∃ d, owns (c : Thread nD τ) arg6 fullShare d)
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc4__mm_kernel_nobias i arg3 harg3 arg4 harg4 arg5 harg5 arg6 harg6) K } := by
  refine ⟨[], ?_, fun xi2 E K => ?run⟩
  case run =>
    simp only [cc4__mm_kernel_nobias_eq_skeleton]; unfold cc4__mm_kernel_nobias_skel
    unfold owns
    iintro ⟨⟨%f0, %hf0, H0⟩, ⟨%f1, %hf1, H1⟩, ⟨%f2, %hf2, H2⟩, ⟨%ds0, %fs0, -, HS0⟩, Hk⟩
    obtain rfl := harg3.eq_unread hf0; obtain rfl := harg4.eq_unread hf1; obtain rfl := harg5.eq_unread hf2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

set_option maxHeartbeats 1000000 in
/-- MIDDLE reduction step (neither condition holds): as the first, with the accumulator at what the point before left. -/
noncomputable def kernelRun4_B (c : Dev nD) (i : grid4.Coords) (arg3 : Memref sig .tc .vmem BlkA .bf16) (harg3 : arg3.IsWhole) (arg4 : Memref sig .tc .vmem BlkB .bf16) (harg4 : arg4.IsWhole) (arg5 : Memref sig .tc .vmem BlkO .bf16) (harg5 : arg5.IsWhole) (arg6 : Memref sig .tc .vmem BlkO .f32) (harg6 : arg6.IsWhole) (hc0 : ¬cond4_0 i) (hc1 : ¬cond4_1 i)
    (x0 : Vec F BlkA .bf16) (x1 : Vec F BlkB .bf16) (xs0 : Vec F BlkO .f32) :
    Σ' (L2 : List (View.Piece (Elt F) BlkO .bf16)), { LS0 : List (View.Piece (Elt F) BlkO .f32) //
      ∀ (xi2 : Vec F BlkO .bf16) (E : Set ℕ) (K : PUnit → sProp 𝕄),
        iprop(owns (c : Thread nD τ) arg3 fullShare x0 ∗ owns (c : Thread nD τ) arg4 fullShare x1 ∗ owns (c : Thread nD τ) arg5 fullShare xi2 ∗ owns (c : Thread nD τ) arg6 fullShare xs0
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc4__mm_kernel_nobias i arg3 harg3 arg4 harg4 arg5 harg5 arg6 harg6) K } := by
  refine ⟨[], ?_, fun xi2 E K => ?run⟩
  case run =>
    simp only [cc4__mm_kernel_nobias_eq_skeleton]; unfold cc4__mm_kernel_nobias_skel
    unfold owns
    iintro ⟨⟨%f0, %hf0, H0⟩, ⟨%f1, %hf1, H1⟩, ⟨%f2, %hf2, H2⟩, ⟨%fs0, %hfs0, HS0⟩, Hk⟩
    obtain rfl := harg3.eq_unread hf0; obtain rfl := harg4.eq_unread hf1; obtain rfl := harg5.eq_unread hf2; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

set_option maxHeartbeats 1000000 in
/-- LAST reduction step (the second condition holds, the first does not): the result's memref at anything, left with
    the body's store written. -/
noncomputable def kernelRun4_C (c : Dev nD) (i : grid4.Coords) (arg3 : Memref sig .tc .vmem BlkA .bf16) (harg3 : arg3.IsWhole) (arg4 : Memref sig .tc .vmem BlkB .bf16) (harg4 : arg4.IsWhole) (arg5 : Memref sig .tc .vmem BlkO .bf16) (harg5 : arg5.IsWhole) (arg6 : Memref sig .tc .vmem BlkO .f32) (harg6 : arg6.IsWhole) (hc0 : ¬cond4_0 i) (hc1 : cond4_1 i)
    (x0 : Vec F BlkA .bf16) (x1 : Vec F BlkB .bf16) (xs0 : Vec F BlkO .f32) :
    Σ' (L2 : List (View.Piece (Elt F) BlkO .bf16)), { LS0 : List (View.Piece (Elt F) BlkO .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xs0
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f LS0)) -∗ K ⟨⟩))
          ⊢ wp frame (wpE (defs₀ (F := F)) Variants.none c none) E (cc4__mm_kernel_nobias i arg3 harg3 arg4 harg4 arg5 harg5 arg6 harg6) K } := by
  refine ⟨?_, ?_, fun E K => ?run⟩
  case run =>
    simp only [cc4__mm_kernel_nobias_eq_skeleton]; unfold cc4__mm_kernel_nobias_skel
    unfold owns
    iintro ⟨⟨%f0, %hf0, H0⟩, ⟨%f1, %hf1, H1⟩, ⟨%d2, %f2, -, H2⟩, ⟨%fs0, %hfs0, HS0⟩, Hk⟩
    obtain rfl := harg3.eq_unread hf0; obtain rfl := harg4.eq_unread hf1; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexists _; iexact HS0

/-! ## What each case leaves: the found pieces and their covers -/

/-- The first step stores nothing into the result's buffer: a placeholder nothing consults (the window is idle there). -/
def out4_A_2 (c : Dev nD) (i : grid4.Coords) (arg3 : Memref sig .tc .vmem BlkA .bf16) (harg3 : arg3.IsWhole) (arg4 : Memref sig .tc .vmem BlkB .bf16) (harg4 : arg4.IsWhole) (arg5 : Memref sig .tc .vmem BlkO .bf16) (harg5 : arg5.IsWhole) (arg6 : Memref sig .tc .vmem BlkO .f32) (harg6 : arg6.IsWhole) (hc0 : cond4_0 i) (hc1 : ¬cond4_1 i)
    (x0 : Vec F BlkA .bf16) (x1 : Vec F BlkB .bf16) : Vec F BlkO .bf16 :=
  VO4_2.read (Elt F) (VO4_2.writes (Elt F) VO4_2.junk (kernelRun4_A c i arg3 harg3 arg4 harg4 arg5 harg5 arg6 harg6 hc0 hc1 x0 x1).1)

/-- The first step's stores into the accumulator cover it. -/
theorem scover4_A_0 (c : Dev nD) (i : grid4.Coords) (arg3 : Memref sig .tc .vmem BlkA .bf16) (harg3 : arg3.IsWhole) (arg4 : Memref sig .tc .vmem BlkB .bf16) (harg4 : arg4.IsWhole) (arg5 : Memref sig .tc .vmem BlkO .bf16) (harg5 : arg5.IsWhole) (arg6 : Memref sig .tc .vmem BlkO .f32) (harg6 : arg6.IsWhole) (hc0 : cond4_0 i) (hc1 : ¬cond4_1 i)
    (x0 : Vec F BlkA .bf16) (x1 : Vec F BlkB .bf16) (y : (BlkO).Idx) :
    ∃ pc ∈ (kernelRun4_A c i arg3 harg3 arg4 harg4 arg5 harg5 arg6 harg6 hc0 hc1 x0 x1).2.1, y ∈ pc.1.set :=
  View.cover_of_tiledL (kernelRun4_A c i arg3 harg3 arg4 harg4 arg5 harg5 arg6 harg6 hc0 hc1 x0 x1).2.1 (BlkO).size (by sl_kernel_rfl) y

/-- What the first step leaves in the accumulator: its pieces read back. -/
def sout4_A_0 (c : Dev nD) (i : grid4.Coords) (arg3 : Memref sig .tc .vmem BlkA .bf16) (harg3 : arg3.IsWhole) (arg4 : Memref sig .tc .vmem BlkB .bf16) (harg4 : arg4.IsWhole) (arg5 : Memref sig .tc .vmem BlkO .bf16) (harg5 : arg5.IsWhole) (arg6 : Memref sig .tc .vmem BlkO .f32) (harg6 : arg6.IsWhole) (hc0 : cond4_0 i) (hc1 : ¬cond4_1 i)
    (x0 : Vec F BlkA .bf16) (x1 : Vec F BlkB .bf16) : Vec F BlkO .f32 :=
  VS4_0.read (Elt F) (VS4_0.writes (Elt F) VS4_0.junk (kernelRun4_A c i arg3 harg3 arg4 harg4 arg5 harg5 arg6 harg6 hc0 hc1 x0 x1).2.1)

/-- A middle step stores nothing into the result's buffer either. -/
def out4_B_2 (c : Dev nD) (i : grid4.Coords) (arg3 : Memref sig .tc .vmem BlkA .bf16) (harg3 : arg3.IsWhole) (arg4 : Memref sig .tc .vmem BlkB .bf16) (harg4 : arg4.IsWhole) (arg5 : Memref sig .tc .vmem BlkO .bf16) (harg5 : arg5.IsWhole) (arg6 : Memref sig .tc .vmem BlkO .f32) (harg6 : arg6.IsWhole) (hc0 : ¬cond4_0 i) (hc1 : ¬cond4_1 i)
    (x0 : Vec F BlkA .bf16) (x1 : Vec F BlkB .bf16) (xs0 : Vec F BlkO .f32) : Vec F BlkO .bf16 :=
  VO4_2.read (Elt F) (VO4_2.writes (Elt F) VO4_2.junk (kernelRun4_B c i arg3 harg3 arg4 harg4 arg5 harg5 arg6 harg6 hc0 hc1 x0 x1 xs0).1)

/-- A middle step's store into the accumulator covers it. -/
theorem scover4_B_0 (c : Dev nD) (i : grid4.Coords) (arg3 : Memref sig .tc .vmem BlkA .bf16) (harg3 : arg3.IsWhole) (arg4 : Memref sig .tc .vmem BlkB .bf16) (harg4 : arg4.IsWhole) (arg5 : Memref sig .tc .vmem BlkO .bf16) (harg5 : arg5.IsWhole) (arg6 : Memref sig .tc .vmem BlkO .f32) (harg6 : arg6.IsWhole) (hc0 : ¬cond4_0 i) (hc1 : ¬cond4_1 i)
    (x0 : Vec F BlkA .bf16) (x1 : Vec F BlkB .bf16) (xs0 : Vec F BlkO .f32) (y : (BlkO).Idx) :
    ∃ pc ∈ (kernelRun4_B c i arg3 harg3 arg4 harg4 arg5 harg5 arg6 harg6 hc0 hc1 x0 x1 xs0).2.1, y ∈ pc.1.set :=
  View.cover_of_tiledL (kernelRun4_B c i arg3 harg3 arg4 harg4 arg5 harg5 arg6 harg6 hc0 hc1 x0 x1 xs0).2.1 (BlkO).size (by sl_kernel_rfl) y

/-- What a middle step leaves in the accumulator. -/
def sout4_B_0 (c : Dev nD) (i : grid4.Coords) (arg3 : Memref sig .tc .vmem BlkA .bf16) (harg3 : arg3.IsWhole) (arg4 : Memref sig .tc .vmem BlkB .bf16) (harg4 : arg4.IsWhole) (arg5 : Memref sig .tc .vmem BlkO .bf16) (harg5 : arg5.IsWhole) (arg6 : Memref sig .tc .vmem BlkO .f32) (harg6 : arg6.IsWhole) (hc0 : ¬cond4_0 i) (hc1 : ¬cond4_1 i)
    (x0 : Vec F BlkA .bf16) (x1 : Vec F BlkB .bf16) (xs0 : Vec F BlkO .f32) : Vec F BlkO .f32 :=
  VS4_0.read (Elt F) (VS4_0.writes (Elt F) VS4_0.junk (kernelRun4_B c i arg3 harg3 arg4 harg4 arg5 harg5 arg6 harg6 hc0 hc1 x0 x1 xs0).2.1)

/-- The last step's store into the result's buffer covers it. -/
theorem cover4_C_2 (c : Dev nD) (i : grid4.Coords) (arg3 : Memref sig .tc .vmem BlkA .bf16) (harg3 : arg3.IsWhole) (arg4 : Memref sig .tc .vmem BlkB .bf16) (harg4 : arg4.IsWhole) (arg5 : Memref sig .tc .vmem BlkO .bf16) (harg5 : arg5.IsWhole) (arg6 : Memref sig .tc .vmem BlkO .f32) (harg6 : arg6.IsWhole) (hc0 : ¬cond4_0 i) (hc1 : cond4_1 i)
    (x0 : Vec F BlkA .bf16) (x1 : Vec F BlkB .bf16) (xs0 : Vec F BlkO .f32) (y : (BlkO).Idx) :
    ∃ pc ∈ (kernelRun4_C c i arg3 harg3 arg4 harg4 arg5 harg5 arg6 harg6 hc0 hc1 x0 x1 xs0).1, y ∈ pc.1.set :=
  View.cover_of_tiledL (kernelRun4_C c i arg3 harg3 arg4 harg4 arg5 harg5 arg6 harg6 hc0 hc1 x0 x1 xs0).1 (BlkO).size (by sl_kernel_rfl) y

/-- What the last step leaves in the result's buffer. -/
def out4_C_2 (c : Dev nD) (i : grid4.Coords) (arg3 : Memref sig .tc .vmem BlkA .bf16) (harg3 : arg3.IsWhole) (arg4 : Memref sig .tc .vmem BlkB .bf16) (harg4 : arg4.IsWhole) (arg5 : Memref sig .tc .vmem BlkO .bf16) (harg5 : arg5.IsWhole) (arg6 : Memref sig .tc .vmem BlkO .f32) (harg6 : arg6.IsWhole) (hc0 : ¬cond4_0 i) (hc1 : cond4_1 i)
    (x0 : Vec F BlkA .bf16) (x1 : Vec F BlkB .bf16) (xs0 : Vec F BlkO .f32) : Vec F BlkO .bf16 :=
  VO4_2.read (Elt F) (VO4_2.writes (Elt F) VO4_2.junk (kernelRun4_C c i arg3 harg3 arg4 harg4 arg5 harg5 arg6 harg6 hc0 hc1 x0 x1 xs0).1)

/-- The last step's store into the accumulator covers it. -/
theorem scover4_C_0 (c : Dev nD) (i : grid4.Coords) (arg3 : Memref sig .tc .vmem BlkA .bf16) (harg3 : arg3.IsWhole) (arg4 : Memref sig .tc .vmem BlkB .bf16) (harg4 : arg4.IsWhole) (arg5 : Memref sig .tc .vmem BlkO .bf16) (harg5 : arg5.IsWhole) (arg6 : Memref sig .tc .vmem BlkO .f32) (harg6 : arg6.IsWhole) (hc0 : ¬cond4_0 i) (hc1 : cond4_1 i)
    (x0 : Vec F BlkA .bf16) (x1 : Vec F BlkB .bf16) (xs0 : Vec F BlkO .f32) (y : (BlkO).Idx) :
    ∃ pc ∈ (kernelRun4_C c i arg3 harg3 arg4 harg4 arg5 harg5 arg6 harg6 hc0 hc1 x0 x1 xs0).2.1, y ∈ pc.1.set :=
  View.cover_of_tiledL (kernelRun4_C c i arg3 harg3 arg4 harg4 arg5 harg5 arg6 harg6 hc0 hc1 x0 x1 xs0).2.1 (BlkO).size (by sl_kernel_rfl) y

/-- What the last step leaves in the accumulator. -/
def sout4_C_0 (c : Dev nD) (i : grid4.Coords) (arg3 : Memref sig .tc .vmem BlkA .bf16) (harg3 : arg3.IsWhole) (arg4 : Memref sig .tc .vmem BlkB .bf16) (harg4 : arg4.IsWhole) (arg5 : Memref sig .tc .vmem BlkO .bf16) (harg5 : arg5.IsWhole) (arg6 : Memref sig .tc .vmem BlkO .f32) (harg6 : arg6.IsWhole) (hc0 : ¬cond4_0 i) (hc1 : cond4_1 i)
    (x0 : Vec F BlkA .bf16) (x1 : Vec F BlkB .bf16) (xs0 : Vec F BlkO .f32) : Vec F BlkO .f32 :=
  VS4_0.read (Elt F) (VS4_0.writes (Elt F) VS4_0.junk (kernelRun4_C c i arg3 harg3 arg4 harg4 arg5 harg5 arg6 harg6 hc0 hc1 x0 x1 xs0).2.1)

/-! ## What the result's buffer and the accumulator hold after each point -/

/-- THE ACCUMULATION. What the result's staging buffer and the accumulator hold after the body at position `n`:
    the case the closed forms select at `n`, run at the point's memrefs and operand blocks, the accumulator entering
    at what position `n - 1` left. Both conditions at once is met by no point. -/
def outsAt4 (c : Dev nD) : (n : ℕ) → n < cfg4.N → Vec F BlkO .bf16 × Vec F BlkO .f32
  | 0, hn => (out4_A_2 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) scM4_0 (Memref.isWhole_whole _) ((hcond4_0 ⟨0, hn⟩).mpr (Nat.zero_mod _)) (fun h => (fun h => by (try dsimp only at h); omega) ((hcond4_1 ⟨0, hn⟩).mp h)) (iblk4 V c 0 ⟨0, hn⟩) (iblk4 V c 1 ⟨0, hn⟩), sout4_A_0 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) scM4_0 (Memref.isWhole_whole _) ((hcond4_0 ⟨0, hn⟩).mpr (Nat.zero_mod _)) (fun h => (fun h => by (try dsimp only at h); omega) ((hcond4_1 ⟨0, hn⟩).mp h)) (iblk4 V c 0 ⟨0, hn⟩) (iblk4 V c 1 ⟨0, hn⟩))
  | n + 1, hn =>
    if h0 : (n + 1) % 8 = 0 then
      if h1 : (n + 1) % 8 = 7 then
        False.elim (by omega)
      else
        (out4_A_2 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) scM4_0 (Memref.isWhole_whole _) ((hcond4_0 ⟨n + 1, hn⟩).mpr h0) (fun h => h1 ((hcond4_1 ⟨n + 1, hn⟩).mp h)) (iblk4 V c 0 ⟨n + 1, hn⟩) (iblk4 V c 1 ⟨n + 1, hn⟩), sout4_A_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) scM4_0 (Memref.isWhole_whole _) ((hcond4_0 ⟨n + 1, hn⟩).mpr h0) (fun h => h1 ((hcond4_1 ⟨n + 1, hn⟩).mp h)) (iblk4 V c 0 ⟨n + 1, hn⟩) (iblk4 V c 1 ⟨n + 1, hn⟩))
    else
      if h1 : (n + 1) % 8 = 7 then
        (out4_C_2 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) scM4_0 (Memref.isWhole_whole _) (fun h => h0 ((hcond4_0 ⟨n + 1, hn⟩).mp h)) ((hcond4_1 ⟨n + 1, hn⟩).mpr h1) (iblk4 V c 0 ⟨n + 1, hn⟩) (iblk4 V c 1 ⟨n + 1, hn⟩) (outsAt4 c n (Nat.lt_of_succ_lt hn)).2, sout4_C_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) scM4_0 (Memref.isWhole_whole _) (fun h => h0 ((hcond4_0 ⟨n + 1, hn⟩).mp h)) ((hcond4_1 ⟨n + 1, hn⟩).mpr h1) (iblk4 V c 0 ⟨n + 1, hn⟩) (iblk4 V c 1 ⟨n + 1, hn⟩) (outsAt4 c n (Nat.lt_of_succ_lt hn)).2)
      else
        (out4_B_2 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) scM4_0 (Memref.isWhole_whole _) (fun h => h0 ((hcond4_0 ⟨n + 1, hn⟩).mp h)) (fun h => h1 ((hcond4_1 ⟨n + 1, hn⟩).mp h)) (iblk4 V c 0 ⟨n + 1, hn⟩) (iblk4 V c 1 ⟨n + 1, hn⟩) (outsAt4 c n (Nat.lt_of_succ_lt hn)).2, sout4_B_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) scM4_0 (Memref.isWhole_whole _) (fun h => h0 ((hcond4_0 ⟨n + 1, hn⟩).mp h)) (fun h => h1 ((hcond4_1 ⟨n + 1, hn⟩).mp h)) (iblk4 V c 0 ⟨n + 1, hn⟩) (iblk4 V c 1 ⟨n + 1, hn⟩) (outsAt4 c n (Nat.lt_of_succ_lt hn)).2)

/-- `outsAt4` at a first reduction step. -/
theorem outsAt4_A (c : Dev nD) (t : Fin cfg4.N) (h0 : t.val % 8 = 0) (h1 : ¬t.val % 8 = 7) :
    outsAt4 V c t.val t.isLt = (out4_A_2 c (grid4.coords t) (ms4_0 t) (hs4_0 t) (ms4_1 t) (hs4_1 t) (ms4_2 t) (hs4_2 t) scM4_0 (Memref.isWhole_whole _) ((hcond4_0 t).mpr h0) (fun h => h1 ((hcond4_1 t).mp h)) (iblk4 V c 0 t) (iblk4 V c 1 t), sout4_A_0 c (grid4.coords t) (ms4_0 t) (hs4_0 t) (ms4_1 t) (hs4_1 t) (ms4_2 t) (hs4_2 t) scM4_0 (Memref.isWhole_whole _) ((hcond4_0 t).mpr h0) (fun h => h1 ((hcond4_1 t).mp h)) (iblk4 V c 0 t) (iblk4 V c 1 t)) := by
  obtain ⟨n, hn⟩ := t
  cases n with
  | zero => exact rfl
  | succ n => exact (dif_pos h0).trans ((dif_neg h1).trans rfl)

/-- `outsAt4` at a middle reduction step: over what the point before left. -/
theorem outsAt4_B (c : Dev nD) (t : Fin cfg4.N) (h0 : ¬t.val % 8 = 0) (h1 : ¬t.val % 8 = 7) :
    outsAt4 V c t.val t.isLt = (out4_B_2 c (grid4.coords t) (ms4_0 t) (hs4_0 t) (ms4_1 t) (hs4_1 t) (ms4_2 t) (hs4_2 t) scM4_0 (Memref.isWhole_whole _) (fun h => h0 ((hcond4_0 t).mp h)) (fun h => h1 ((hcond4_1 t).mp h)) (iblk4 V c 0 t) (iblk4 V c 1 t) (outsAt4 V c (t.val - 1) (Nat.lt_of_le_of_lt (Nat.sub_le _ _) t.isLt)).2, sout4_B_0 c (grid4.coords t) (ms4_0 t) (hs4_0 t) (ms4_1 t) (hs4_1 t) (ms4_2 t) (hs4_2 t) scM4_0 (Memref.isWhole_whole _) (fun h => h0 ((hcond4_0 t).mp h)) (fun h => h1 ((hcond4_1 t).mp h)) (iblk4 V c 0 t) (iblk4 V c 1 t) (outsAt4 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt4` at a last reduction step: over what the point before left. -/
theorem outsAt4_C (c : Dev nD) (t : Fin cfg4.N) (h0 : ¬t.val % 8 = 0) (h1 : t.val % 8 = 7) :
    outsAt4 V c t.val t.isLt = (out4_C_2 c (grid4.coords t) (ms4_0 t) (hs4_0 t) (ms4_1 t) (hs4_1 t) (ms4_2 t) (hs4_2 t) scM4_0 (Memref.isWhole_whole _) (fun h => h0 ((hcond4_0 t).mp h)) ((hcond4_1 t).mpr h1) (iblk4 V c 0 t) (iblk4 V c 1 t) (outsAt4 V c (t.val - 1) (Nat.lt_of_le_of_lt (Nat.sub_le _ _) t.isLt)).2, sout4_C_0 c (grid4.coords t) (ms4_0 t) (hs4_0 t) (ms4_1 t) (hs4_1 t) (ms4_2 t) (hs4_2 t) scM4_0 (Memref.isWhole_whole _) (fun h => h0 ((hcond4_0 t).mp h)) ((hcond4_1 t).mpr h1) (iblk4 V c 0 t) (iblk4 V c 1 t) (outsAt4 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region invariant, carrying the accumulator -/

/-- Before the first point the entry invariant; after point `n` the accumulator at what that point left, the other
    scoped buffers unopened, the generator register at some state. -/
def PhiS4 (c : Dev nD) : (n : ℕ) → n ≤ cfg4.N → sProp 𝕄
  | 0, _ => Pipeline.ΦA spec4 c
  | n + 1, hn => iprop(iprop(iprop(owns (c : Thread nD τ) scM4_0 fullShare ((outsAt4 V c n hn).2)) ∗ rest4 (F := F) c) ∗ (∃ r, prngReg c r))

theorem PhiS4_zero (c : Dev nD) (n : ℕ) (h : n ≤ cfg4.N) (hz : n = 0) : PhiS4 V c n h = Pipeline.ΦA spec4 c := by
  subst hz; rfl

theorem PhiS4_succ (c : Dev nD) (n : ℕ) (hn : n < cfg4.N) :
    PhiS4 V c (n + 1) hn = iprop(iprop(iprop(owns (c : Thread nD τ) scM4_0 fullShare ((outsAt4 V c n hn).2)) ∗ rest4 (F := F) c) ∗ (∃ r, prngReg c r)) := rfl

theorem PhiS4_pos (c : Dev nD) (n : ℕ) (h : n ≤ cfg4.N) (hz : n ≠ 0) :
    PhiS4 V c n h = iprop(iprop(iprop(owns (c : Thread nD τ) scM4_0 fullShare ((outsAt4 V c (n - 1) (by omega)).2)) ∗ rest4 (F := F) c) ∗ (∃ r, prngReg c r)) := by
  cases n with
  | zero => exact absurd rfl hz
  | succ n => rfl

/-! ## The pipeline's proof data -/

/-- The proof data of this region on core `c`: the arrays as the region finds them; after the body at point `t`
    each operand's buffer at its block and the result's at `outsAt4`; the invariant `PhiS4`; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => (outsAt4 V c t.val t.isLt).1
  Φ t := PhiS4 V c t.val (Nat.le_of_lt_succ t.isLt)
  q _ := fullShare
  owed _ := 0

theorem A_eq4 (c : Dev nD) (w : Fin cfg4.W) : (dat4 V c).A w = V c (Pipeline.arrRef spec4 w) := by
  dsimp only [dat4]

theorem PhiS4_castSucc (c : Dev nD) (t : Fin cfg4.N) :
    (dat4 V c).Φ t.castSucc = PhiS4 V c t.val (Nat.le_of_lt t.isLt) := by
  dsimp only [dat4]; simp only [Fin.coe_castSucc]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = (outsAt4 V c t.val t.isLt).1 := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d

/-! ## The body obligation, at a generic point -/

def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d)))

def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t)

set_option maxHeartbeats 4800000 in
/-- The body at any point: the operands' memrefs hold their blocks; the closed forms say which case the point is in;
    the invariant hands the body the accumulator at what the point before left (at anything at the first point) and
    takes it back at this point's contents; the other scoped buffers, the generator register and the core's debts
    pass through. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).owesAt () t.succ = (dat4 V c).owesAt () t.castSucc from rfl]
  rw [show (dat4 V c).Φ t.succ = PhiS4 V c (t.val + 1) t.isLt from rfl, PhiS4_succ]
  have hN : t.val < 32 := lt_of_lt_of_eq t.isLt (show cfg4.N = 32 from N_4)
  by_cases h0 : t.val % 8 = 0
  · by_cases h1 : t.val % 8 = 7
    · exfalso; omega
    ·
      rw [show (dat4 V c).leavesExact 0 t = owns (c : Thread nD τ) (ms4_0 t) fullShare ((dat4 V c).after 0 t) from by
        unfold Dat.leavesExact; rw [liveAt4_0 t], after4_0]
      rw [show (dat4 V c).leavesExact 1 t = owns (c : Thread nD τ) (ms4_1 t) fullShare ((dat4 V c).after 1 t) from by
        unfold Dat.leavesExact; rw [liveAt4_1 t], after4_1]
      rw [Dat.leavesExact_idle (dat4 V c) 2 t (idleAt4_2_A t ((hcond4_0 t).mpr h0) (fun h => h1 ((hcond4_1 t).mp h))) (noFlush4_2_A t ((hcond4_0 t).mpr h0) (fun h => h1 ((hcond4_1 t).mp h)))]
      rw [outsAt4_A V c t h0 h1]
      unfold sout4_A_0; (try dsimp only)
      by_cases hz : t.val = 0
      · rw [PhiS4_castSucc V c t, PhiS4_zero V c _ _ hz, PhiA4_eq]
        iintro ⟨⟨⟨HS0, Hr⟩, Hg⟩, Ho, ⟨%d0, H0⟩, ⟨%d1, H1⟩, ⟨%d2, H2⟩⟩
        iapply ((kernelRun4_A c (grid4.coords t) _ _ _ _ _ _ _ _ ((hcond4_0 t).mpr h0) (fun h => h1 ((hcond4_1 t).mp h)) (iblk4 V c 0 t) (iblk4 V c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover4_A_0 c _ _ _ _ _ _ _ _ _ _ _ _ _)
            iexact Hr
          iexact Hg
        isplitl [Ho]; · iexact Ho
        isplitl [H0]; · iexact H0
        isplitl [H1]; · iexact H1
        iexists _; iexact H2
      · rw [PhiS4_castSucc V c t, PhiS4_pos V c _ _ hz]
        iintro ⟨⟨⟨HS0, Hr⟩, Hg⟩, Ho, ⟨%d0, H0⟩, ⟨%d1, H1⟩, ⟨%d2, H2⟩⟩
        iapply ((kernelRun4_A c (grid4.coords t) _ _ _ _ _ _ _ _ ((hcond4_0 t).mpr h0) (fun h => h1 ((hcond4_1 t).mp h)) (iblk4 V c 0 t) (iblk4 V c 1 t)).2.2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover4_A_0 c _ _ _ _ _ _ _ _ _ _ _ _ _)
            iexact Hr
          iexact Hg
        isplitl [Ho]; · iexact Ho
        isplitl [H0]; · iexact H0
        isplitl [H1]; · iexact H1
        iexists _; iexact H2
  · by_cases h1 : t.val % 8 = 7
    ·
      rw [show (dat4 V c).leavesExact 0 t = owns (c : Thread nD τ) (ms4_0 t) fullShare ((dat4 V c).after 0 t) from by
        unfold Dat.leavesExact; rw [liveAt4_0 t], after4_0]
      rw [show (dat4 V c).leavesExact 1 t = owns (c : Thread nD τ) (ms4_1 t) fullShare ((dat4 V c).after 1 t) from by
        unfold Dat.leavesExact; rw [liveAt4_1 t], after4_1]
      rw [show (dat4 V c).leavesExact 2 t = owns (c : Thread nD τ) (ms4_2 t) fullShare ((dat4 V c).after 2 t) from by
        unfold Dat.leavesExact; rw [liveAt4_2_C t (fun h => h0 ((hcond4_0 t).mp h)) ((hcond4_1 t).mpr h1)], after4_2]
      rw [outsAt4_C V c t h0 h1]
      unfold out4_C_2 sout4_C_0; (try dsimp only)
      by_cases hz : t.val = 0
      · exfalso; omega
      · rw [PhiS4_castSucc V c t, PhiS4_pos V c _ _ hz]
        iintro ⟨⟨⟨HS0, Hr⟩, Hg⟩, Ho, ⟨%d0, H0⟩, ⟨%d1, H1⟩, ⟨%d2, H2⟩⟩
        iapply ((kernelRun4_C c (grid4.coords t) _ _ _ _ _ _ _ _ (fun h => h0 ((hcond4_0 t).mp h)) ((hcond4_1 t).mpr h1) (iblk4 V c 0 t) (iblk4 V c 1 t) _).2.2 Set.univ _)
        isplitl [H0]; · iexact H0
        isplitl [H1]; · iexact H1
        isplitl [H2]; · iexists _; iexact H2
        isplitl [HS0]; · iexact HS0
        iintro ⟨H0, H1, ⟨%e2, H2⟩, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover4_C_0 c _ _ _ _ _ _ _ _ _ _ _ _ _ _)
            iexact Hr
          iexact Hg
        isplitl [Ho]; · iexact Ho
        isplitl [H0]; · iexact H0
        isplitl [H1]; · iexact H1
        unfold owns; iexists _; isplitr
        swap; · iexact H2
        ipureintro; exact View.read_writes_of_cover _ _ _ _ _ (cover4_C_2 c _ _ _ _ _ _ _ _ _ _ _ _ _ _)
    ·
      rw [show (dat4 V c).leavesExact 0 t = owns (c : Thread nD τ) (ms4_0 t) fullShare ((dat4 V c).after 0 t) from by
        unfold Dat.leavesExact; rw [liveAt4_0 t], after4_0]
      rw [show (dat4 V c).leavesExact 1 t = owns (c : Thread nD τ) (ms4_1 t) fullShare ((dat4 V c).after 1 t) from by
        unfold Dat.leavesExact; rw [liveAt4_1 t], after4_1]
      rw [Dat.leavesExact_idle (dat4 V c) 2 t (idleAt4_2_B t (fun h => h0 ((hcond4_0 t).mp h)) (fun h => h1 ((hcond4_1 t).mp h))) (noFlush4_2_B t (fun h => h0 ((hcond4_0 t).mp h)) (fun h => h1 ((hcond4_1 t).mp h)))]
      rw [outsAt4_B V c t h0 h1]
      unfold sout4_B_0; (try dsimp only)
      by_cases hz : t.val = 0
      · exfalso; omega
      · rw [PhiS4_castSucc V c t, PhiS4_pos V c _ _ hz]
        iintro ⟨⟨⟨HS0, Hr⟩, Hg⟩, Ho, ⟨%d0, H0⟩, ⟨%d1, H1⟩, ⟨%d2, H2⟩⟩
        iapply ((kernelRun4_B c (grid4.coords t) _ _ _ _ _ _ _ _ (fun h => h0 ((hcond4_0 t).mp h)) (fun h => h1 ((hcond4_1 t).mp h)) (iblk4 V c 0 t) (iblk4 V c 1 t) _).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover4_B_0 c _ _ _ _ _ _ _ _ _ _ _ _ _ _)
            iexact Hr
          iexact Hg
        isplitl [Ho]; · iexact Ho
        isplitl [H0]; · iexact H0
        isplitl [H1]; · iexact H1
        iexists _; iexact H2

/-- The library's body obligation, at every point. -/
theorem body_obligation4 (c : Dev nD) : BodyObligation (dat4 (F := F) V c) (defs₀ (F := F)) Variants.none () Set.univ := fun t => by
  rw [bigSep_W4, bigSep_W4]
  exact sound_body4 V c t

/-- What the launch hands the region is the invariant before the first point. -/
theorem hin4 (c : Dev nD) : Pipeline.ΦA spec4 c ⊢ (dat4 V c).Φ 0 := by
  rw [show (dat4 V c).Φ 0 = PhiS4 V c 0 (Nat.zero_le _) from rfl, PhiS4_zero V c 0 _ rfl]
  try exact Idealize.SL.BI.Entails.refl _

/-- After any point but the first the invariant gives the entry invariant back: the accumulator's contents are forgotten. -/
theorem Phi_out4 (c : Dev nD) (t : Fin (cfg4.N + 1)) (ht : t.val ≠ 0) : (dat4 V c).Φ t ⊢ Pipeline.ΦA spec4 c := by
  rw [show (dat4 V c).Φ t = PhiS4 V c t.val (Nat.le_of_lt_succ t.isLt) from rfl, PhiS4_pos V c _ _ ht, PhiA4_eq]
  iintro ⟨⟨HS0, Hr⟩, Hg⟩
  isplitl [HS0 Hr]
  · isplitl [HS0]
    · iexists _; iexact HS0
    iexact Hr
  iexact Hg

/-- The same after the last point. -/
theorem hout4 (c : Dev nD) : (dat4 V c).Φ (Fin.last cfg4.N) ⊢ Pipeline.ΦA spec4 c :=
  Phi_out4 V c _ (by rw [Fin.val_last]; have : cfg4.N = 32 := N_4; omega)

end Cert.KernelIdeal.Gen
end
-- ==== Proof.KernelIdealH.Reg5.lean ====
import proofs.«157173_j56882546868342_2_alg».proof.Proof.KernelIdealH.Launch
import proofs.«157173_j56882546868342_2_alg».proof.Proof.Gen.KernelIdeal.Skeleton
import proofs.«157173_j56882546868342_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 5: the product of `main_v35` and `main_v30`, plus `main_v34`, rectified, into `main_v36`; one block of the contraction axis per point -/

/-! ## The windows' blocks -/

/-- Window `w`'s block at point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's current staging buffer holds its block at every point, for any proof data whose array is the
    entry contents and whose body leaves the block in place. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1 is fetched at the first point only: its block index does not move, so the buffer keeps the block. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- Input window 2 (the added operand) likewise. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-! ## The body's branch conditions: the contraction axis has one block, so both hold at every point -/

/-- The first conditional: the point is the first along the contraction axis. -/
abbrev cond5_0 (i : grid5.Coords) : Prop := (Scalar.cmpi .ne (Scalar.extui (Scalar.cmpi .eq (BitVec.ofNat 32 (i 2).val) 0#32)) 0#32) = 1#1
theorem hcond5_0 : ∀ t : Fin cfg5.N, cond5_0 (grid5.coords t) :=
  (by decide +kernel : ∀ t : Fin grid5.N, cond5_0 (grid5.coords t))

/-- The second conditional: the point is the last along the contraction axis. -/
abbrev cond5_1 (i : grid5.Coords) : Prop := k5_cond2 i = 1#1
theorem hcond5_1 : ∀ t : Fin cfg5.N, cond5_1 (grid5.coords t) :=
  (by decide +kernel : ∀ t : Fin grid5.N, cond5_1 (grid5.coords t))

/-! ## No window is idle at any point -/

theorem liveAt5_0 : ∀ t : Fin cfg5.N, cfg5.idle 0 (grid5.coords t) = false := by decide +kernel
theorem liveAt5_1 : ∀ t : Fin cfg5.N, cfg5.idle 1 (grid5.coords t) = false := by decide +kernel
theorem liveAt5_2 : ∀ t : Fin cfg5.N, cfg5.idle 2 (grid5.coords t) = false := by decide +kernel
theorem liveAt5_3 : ∀ t : Fin cfg5.N, cfg5.idle 3 (grid5.coords t) = false := by decide +kernel

/-! ## The staging and scratch memrefs -/

/-- One staging buffer of the output window, through which its contents are stated. -/
abbrev VO5_3 : View sig .tc .vmem S1024x512 .bf16 := (Memref.whole cc5_stg3_0 : Memref sig .tc .vmem S1024x512 .bf16).view
abbrev ms5_0 (t : Fin cfg5.N) : Memref sig .tc .vmem S1024x512 .bf16 := win5_0.stage (cfg5.slots t 0)
abbrev hs5_0 (t : Fin cfg5.N) : (ms5_0 t).IsWhole := hstage5_0 ((cfg5.slots t 0).cast nbuf5_0)
abbrev ms5_1 (t : Fin cfg5.N) : Memref sig .tc .vmem S512x512 .bf16 := win5_1.stage (cfg5.slots t 1)
abbrev hs5_1 (t : Fin cfg5.N) : (ms5_1 t).IsWhole := hstage5_1 ((cfg5.slots t 1).cast nbuf5_1)
abbrev ms5_2 (t : Fin cfg5.N) : Memref sig .tc .vmem S1024x512 .bf16 := win5_2.stage (cfg5.slots t 2)
abbrev hs5_2 (t : Fin cfg5.N) : (ms5_2 t).IsWhole := hstage5_2 ((cfg5.slots t 2).cast nbuf5_2)
abbrev ms5_3 (t : Fin cfg5.N) : Memref sig .tc .vmem S1024x512 .bf16 := win5_3.stage (cfg5.slots t 3)
abbrev hs5_3 (t : Fin cfg5.N) : (ms5_3 t).IsWhole := hstage5_3 ((cfg5.slots t 3).cast nbuf5_3)
/-- The accumulator: a whole scoped buffer of the kernel's own. -/
abbrev scM5_0 : Memref sig .tc .vmem S1024x512 .f32 := Memref.whole cc5_scratch0
abbrev VS5_0 : View sig .tc .vmem S1024x512 .f32 := scM5_0.view

/-- The region's invariant with the accumulator as a memref owned at some contents, the other scoped buffers unopened. -/
theorem PhiA5_eq (c : Dev nD) :
    (Pipeline.ΦA spec5 c : sProp 𝕄)
      = iprop(iprop(iprop((∃ d, owns (c : Thread nD τ) scM5_0 fullShare d))
          ∗ Pipeline.scopedRestBut (Ix := Unit) (Name := ℕ) (U := UR sig nD τ) (Lvl := ℕ) (Val := Elt F) spec5 c [cc5_scratch0]) ∗ (∃ r, prngReg c r)) := by
  unfold Pipeline.ΦA; rw [scopedRest5_split]; simp only [scM5_0, owns_whole]; try rfl

/-! ## The body's run -/

set_option maxHeartbeats 1000000 in
/-- What the body's store leaves in the output's staging memref, as pieces, with the proof that on whole memrefs —
    the inputs' at their contents, the output's and the accumulator's at anything — the body runs to the
    continuation holding the inputs' as they were, the output's with its pieces written, the accumulator at some
    contents: it is zeroed, the block product is added, and the sum plus the added operand, rectified, is rounded
    into the output. -/
noncomputable def kernelRun5_A (c : Dev nD) (i : grid5.Coords) (arg3 : Memref sig .tc .vmem S1024x512 .bf16) (harg3 : arg3.IsWhole) (arg4 : Memref sig .tc .vmem S512x512 .bf16) (harg4 : arg4.IsWhole) (arg5 : Memref sig .tc .vmem S1024x512 .bf16) (harg5 : arg5.IsWhole) (arg6 : Memref sig .tc .vmem S1024x512 .bf16) (harg6 : arg6.IsWhole) (arg7 : Memref sig .tc .vmem S1024x512 .f32) (harg7 : arg7.IsWhole) (hc0 : cond5_0 i) (hc1 : cond5_1 i)
    (x0 : Vec F S1024x512 .bf16) (x1 : Vec F S512x512 .bf16) (x2 : Vec F S1024x512 .bf16) :
    { L3 : List (View.Piece (Elt F) S1024x512 .bf16) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ d, owns (c : Thread nD τ) arg7 fullShare d)) -∗ K ⟨⟩))
          ⊢ wp frame (wpE (defs₀ (F := F)) Variants.none c none) E (cc5__mm_add_relu_kernel i arg3 harg3 arg4 harg4 arg5 harg5 arg6 harg6 arg7 harg7) K } := by
  refine ⟨?_, fun E K => ?run⟩
  case run =>
    simp only [cc5__mm_add_relu_kernel_eq_skeleton]; unfold cc5__mm_add_relu_kernel_skel
    unfold owns
    iintro ⟨⟨%f0, %hf0, H0⟩, ⟨%f1, %hf1, H1⟩, ⟨%f2, %hf2, H2⟩, ⟨%d3, %f3, -, H3⟩, ⟨%ds0, %fs0, -, HS0⟩, Hk⟩
    obtain rfl := harg3.eq_unread hf0; obtain rfl := harg4.eq_unread hf1; obtain rfl := harg5.eq_unread hf2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexists _; isplitr
    swap; · iexact HS0
    ipureintro; rfl

/-! ## What the body leaves in the output's buffer -/

/-- The output's pieces tile its block (one store of the whole block), so they cover it. -/
theorem cover5_A_3 (c : Dev nD) (i : grid5.Coords) (arg3 : Memref sig .tc .vmem S1024x512 .bf16) (harg3 : arg3.IsWhole) (arg4 : Memref sig .tc .vmem S512x512 .bf16) (harg4 : arg4.IsWhole) (arg5 : Memref sig .tc .vmem S1024x512 .bf16) (harg5 : arg5.IsWhole) (arg6 : Memref sig .tc .vmem S1024x512 .bf16) (harg6 : arg6.IsWhole) (arg7 : Memref sig .tc .vmem S1024x512 .f32) (harg7 : arg7.IsWhole) (hc0 : cond5_0 i) (hc1 : cond5_1 i)
    (x0 : Vec F S1024x512 .bf16) (x1 : Vec F S512x512 .bf16) (x2 : Vec F S1024x512 .bf16) (y : S1024x512.Idx) :
    ∃ pc ∈ (kernelRun5_A c i arg3 harg3 arg4 harg4 arg5 harg5 arg6 harg6 arg7 harg7 hc0 hc1 x0 x1 x2).1, y ∈ pc.1.set :=
  View.cover_of_tiledL (kernelRun5_A c i arg3 harg3 arg4 harg4 arg5 harg5 arg6 harg6 arg7 harg7 hc0 hc1 x0 x1 x2).1 S1024x512.size (by sl_kernel_rfl) y

/-- What the body leaves in the output's staging buffer: its pieces read back over junk. -/
def out5_A_3 (c : Dev nD) (i : grid5.Coords) (arg3 : Memref sig .tc .vmem S1024x512 .bf16) (harg3 : arg3.IsWhole) (arg4 : Memref sig .tc .vmem S512x512 .bf16) (harg4 : arg4.IsWhole) (arg5 : Memref sig .tc .vmem S1024x512 .bf16) (harg5 : arg5.IsWhole) (arg6 : Memref sig .tc .vmem S1024x512 .bf16) (harg6 : arg6.IsWhole) (arg7 : Memref sig .tc .vmem S1024x512 .f32) (harg7 : arg7.IsWhole) (hc0 : cond5_0 i) (hc1 : cond5_1 i)
    (x0 : Vec F S1024x512 .bf16) (x1 : Vec F S512x512 .bf16) (x2 : Vec F S1024x512 .bf16) : Vec F S1024x512 .bf16 :=
  VO5_3.read (Elt F) (VO5_3.writes (Elt F) VO5_3.junk (kernelRun5_A c i arg3 harg3 arg4 harg4 arg5 harg5 arg6 harg6 arg7 harg7 hc0 hc1 x0 x1 x2).1)

/-- What the output's staging buffer holds after the body at position `n`: the one case, run at the point's memrefs
    and input blocks (the accumulator is zeroed at every point, so nothing of the point before enters). -/
def outsAt5 (c : Dev nD) (n : ℕ) (hn : n < cfg5.N) : Vec F S1024x512 .bf16 :=
  out5_A_3 c (grid5.coords ⟨n, hn⟩) (ms5_0 ⟨n, hn⟩) (hs5_0 ⟨n, hn⟩) (ms5_1 ⟨n, hn⟩) (hs5_1 ⟨n, hn⟩) (ms5_2 ⟨n, hn⟩) (hs5_2 ⟨n, hn⟩) (ms5_3 ⟨n, hn⟩) (hs5_3 ⟨n, hn⟩) scM5_0 (Memref.isWhole_whole _) (hcond5_0 ⟨n, hn⟩) (hcond5_1 ⟨n, hn⟩) (iblk5 V c 0 ⟨n, hn⟩) (iblk5 V c 1 ⟨n, hn⟩) (iblk5 V c 2 ⟨n, hn⟩)

/-- `outsAt5` at a point: the case's contents. -/
theorem outsAt5_A (c : Dev nD) (t : Fin cfg5.N) :
    outsAt5 V c t.val t.isLt = out5_A_3 c (grid5.coords t) (ms5_0 t) (hs5_0 t) (ms5_1 t) (hs5_1 t) (ms5_2 t) (hs5_2 t) (ms5_3 t) (hs5_3 t) scM5_0 (Memref.isWhole_whole _) (hcond5_0 t) (hcond5_1 t) (iblk5 V c 0 t) (iblk5 V c 1 t) (iblk5 V c 2 t) := rfl

/-! ## The pipeline's proof data -/

/-- The proof data of the pipeline on core `c`: the arrays as the region finds them; after the body at point `t` each
    input's buffer at its block and the output's at `outsAt5`; the invariant the scoped rest and the generator
    register (the accumulator at anything: every point zeroes it first); nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => outsAt5 V c t.val t.isLt
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = outsAt5 V c t.val t.isLt := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d

/-! ## The body obligation, at a generic point -/

def bodyPre5 (c : Dev nD) (t : Fin cfg5.N) : sProp 𝕄 :=
  iprop((dat5 V c).Φ t.castSucc ∗ (dat5 V c).owesAt () t.castSucc
    ∗ (∃ d, owns (c : Thread nD τ) (ms5_0 t) fullShare ((dat5 V c).before 0 t d))
    ∗ (∃ d, owns (c : Thread nD τ) (ms5_1 t) fullShare ((dat5 V c).before 1 t d))
    ∗ (∃ d, owns (c : Thread nD τ) (ms5_2 t) fullShare ((dat5 V c).before 2 t d))
    ∗ (∃ d, owns (c : Thread nD τ) (ms5_3 t) fullShare ((dat5 V c).before 3 t d)))

def bodyPost5 (c : Dev nD) (t : Fin cfg5.N) : sProp 𝕄 :=
  iprop((dat5 V c).Φ t.succ ∗ (dat5 V c).owesAt () t.succ
    ∗ (dat5 V c).leavesExact 0 t
    ∗ (dat5 V c).leavesExact 1 t
    ∗ (dat5 V c).leavesExact 2 t
    ∗ (dat5 V c).leavesExact 3 t)

set_option maxHeartbeats 4800000 in
/-- The body at any point: the inputs' memrefs hold their blocks, both conditions hold, so the run applies; the
    invariant hands the body the accumulator at anything and takes it back at anything; the core owes nothing. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2]
  rw [show (dat5 V c).owesAt () t.succ = (dat5 V c).owesAt () t.castSucc from rfl]
  rw [show (dat5 V c).Φ t.succ = Pipeline.ΦA spec5 c from rfl, show (dat5 V c).Φ t.castSucc = Pipeline.ΦA spec5 c from rfl, PhiA5_eq]
  rw [show (dat5 V c).leavesExact 0 t = owns (c : Thread nD τ) (ms5_0 t) fullShare ((dat5 V c).after 0 t) from by
    unfold Dat.leavesExact; rw [liveAt5_0 t], after5_0]
  rw [show (dat5 V c).leavesExact 1 t = owns (c : Thread nD τ) (ms5_1 t) fullShare ((dat5 V c).after 1 t) from by
    unfold Dat.leavesExact; rw [liveAt5_1 t], after5_1]
  rw [show (dat5 V c).leavesExact 2 t = owns (c : Thread nD τ) (ms5_2 t) fullShare ((dat5 V c).after 2 t) from by
    unfold Dat.leavesExact; rw [liveAt5_2 t], after5_2]
  rw [show (dat5 V c).leavesExact 3 t = owns (c : Thread nD τ) (ms5_3 t) fullShare ((dat5 V c).after 3 t) from by
    unfold Dat.leavesExact; rw [liveAt5_3 t], after5_3]
  rw [outsAt5_A V c t]
  unfold out5_A_3; (try dsimp only)
  iintro ⟨⟨⟨HS0, Hr⟩, Hg⟩, Ho, ⟨%d0, H0⟩, ⟨%d1, H1⟩, ⟨%d2, H2⟩, ⟨%d3, H3⟩⟩
  iapply ((kernelRun5_A c (grid5.coords t) _ _ _ _ _ _ _ _ _ _ (hcond5_0 t) (hcond5_1 t) (iblk5 V c 0 t) (iblk5 V c 1 t) (iblk5 V c 2 t)).2 Set.univ _)
  isplitl [H0]; · iexact H0
  isplitl [H1]; · iexact H1
  isplitl [H2]; · iexact H2
  isplitl [H3]; · iexists _; iexact H3
  isplitl [HS0]; · iexact HS0
  iintro ⟨H0, H1, H2, ⟨%e3, H3⟩, HS0⟩
  isplitl [HS0 Hr Hg]
  · isplitl [HS0 Hr]
    · isplitl [HS0]; · iexact HS0
      iexact Hr
    iexact Hg
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (cover5_A_3 c _ _ _ _ _ _ _ _ _ _ _ _ _ _ _ _)

/-- The library's body obligation, at every point. -/
theorem body_obligation5 (c : Dev nD) : BodyObligation (dat5 (F := F) V c) (defs₀ (F := F)) Variants.none () Set.univ := fun t => by
  rw [bigSep_W5, bigSep_W5]
  exact sound_body5 V c t

/-- What the launch hands the region is the invariant before the first point. -/
theorem hin5 (c : Dev nD) : Pipeline.ΦA spec5 c ⊢ (dat5 V c).Φ 0 := Idealize.SL.BI.Entails.refl _

/-- After the last point the invariant is what the launch takes back. -/
theorem hout5 (c : Dev nD) : (dat5 V c).Φ (Fin.last cfg5.N) ⊢ Pipeline.ΦA spec5 c := Idealize.SL.BI.Entails.refl _

end Cert.KernelIdeal.Gen

end
-- ==== Proof.KernelIdealH.Reg6.lean ====
import proofs.«157173_j56882546868342_2_alg».proof.Proof.KernelIdealH.Launch
import proofs.«157173_j56882546868342_2_alg».proof.Proof.Gen.KernelIdeal.Skeleton
import proofs.«157173_j56882546868342_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384
noncomputable section
namespace Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

/-! # Region 6: the blocked matrix product main_v37 = main_v4 · main_v5, grid (4, 1, 2)

The grid point (i, j, k) reads the block (i, k) of the left operand and the block (k, j) of the right one and adds
their product into an accumulator the kernel keeps between points: zeroed where k = 0, written out (rounded to the
output's element type) where k = 1. Everything here is generic in the float model. -/

/-! ## The windows' blocks -/

/-- Window w's block at point t, read off its array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- An input window's current staging buffer holds its block at every point, for any proof data whose array is the
    region-entry contents and whose body leaves the block in place. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-! ## The body's two conditions, decided over the grid -/

/-- The first condition (k = 0), from the grid coordinates. -/
abbrev cond6_0 (i : grid6.Coords) : Prop := (Scalar.cmpi .ne (Scalar.extui (Scalar.cmpi .eq (BitVec.ofNat 32 (i 2).val) 0#32)) 0#32) = 1#1
/-- It holds at the even points. -/
theorem hcond6_0 : ∀ t : Fin cfg6.N, cond6_0 (grid6.coords t) ↔ t.val % 2 = 0 :=
  (by decide +kernel : ∀ t : Fin grid6.N, cond6_0 (grid6.coords t) ↔ t.val % 2 = 0)

/-- The second condition (k = 1, the last block of the contraction). -/
abbrev cond6_1 (i : grid6.Coords) : Prop := k6_cond2 i = 1#1
/-- It holds at the odd points. -/
theorem hcond6_1 : ∀ t : Fin cfg6.N, cond6_1 (grid6.coords t) ↔ t.val % 2 = 1 :=
  (by decide +kernel : ∀ t : Fin grid6.N, cond6_1 (grid6.coords t) ↔ t.val % 2 = 1)

/-- An even point is in case A: first block, not the last. -/
theorem hA6 (t : Fin cfg6.N) (h0 : t.val % 2 = 0) : cond6_0 (grid6.coords t) ∧ ¬cond6_1 (grid6.coords t) :=
  ⟨(hcond6_0 t).mpr h0, fun h => by have := (hcond6_1 t).mp h; omega⟩
/-- An odd point is in case C: last block, not the first. (With two blocks no point is in the middle case.) -/
theorem hC6 (t : Fin cfg6.N) (h0 : ¬t.val % 2 = 0) : ¬cond6_0 (grid6.coords t) ∧ cond6_1 (grid6.coords t) :=
  ⟨fun h => h0 ((hcond6_0 t).mp h), (hcond6_1 t).mpr (by omega)⟩

/-! ## Where the windows are idle -/

theorem liveAt6_0 : ∀ t : Fin cfg6.N, cfg6.idle 0 (grid6.coords t) = false := by decide +kernel
theorem liveAt6_1 : ∀ t : Fin cfg6.N, cfg6.idle 1 (grid6.coords t) = false := by decide +kernel
/-- In case A the output is idle: nothing is stored into it, -/
theorem idleAt6_2_A : ∀ t : Fin cfg6.N, cond6_0 (grid6.coords t) → ¬cond6_1 (grid6.coords t) → cfg6.idle 2 (grid6.coords t) = true := by decide +kernel
/-- and its block is not written back there. -/
theorem noFlush6_2_A : ∀ t : Fin cfg6.N, cond6_0 (grid6.coords t) → ¬cond6_1 (grid6.coords t) → (cfg6.win 2).flush t = false := by decide +kernel
/-- In case C the output is live. -/
theorem liveAt6_2_C : ∀ t : Fin cfg6.N, ¬cond6_0 (grid6.coords t) → cond6_1 (grid6.coords t) → cfg6.idle 2 (grid6.coords t) = false := by decide +kernel

/-! ## The memrefs the body is called with -/

/-- One staging buffer of the output window, through which its contents are stated. -/
abbrev VO6_2 : View sig .tc .vmem S1024x512 .bf16 := (Memref.whole cc6_stg2_0 : Memref sig .tc .vmem S1024x512 .bf16).view
abbrev ms6_0 (t : Fin cfg6.N) : Memref sig .tc .vmem S1024x512 .bf16 := win6_0.stage (cfg6.slots t 0)
abbrev hs6_0 (t : Fin cfg6.N) : (ms6_0 t).IsWhole := hstage6_0 ((cfg6.slots t 0).cast nbuf6_0)
abbrev ms6_1 (t : Fin cfg6.N) : Memref sig .tc .vmem S512x512 .bf16 := win6_1.stage (cfg6.slots t 1)
abbrev hs6_1 (t : Fin cfg6.N) : (ms6_1 t).IsWhole := hstage6_1 ((cfg6.slots t 1).cast nbuf6_1)
abbrev ms6_2 (t : Fin cfg6.N) : Memref sig .tc .vmem S1024x512 .bf16 := win6_2.stage (cfg6.slots t 2)
abbrev hs6_2 (t : Fin cfg6.N) : (ms6_2 t).IsWhole := hstage6_2 ((cfg6.slots t 2).cast nbuf6_2)
/-- The accumulator: a whole scoped buffer of the kernel's own. -/
abbrev scM6_0 : Memref sig .tc .vmem S1024x512 .f32 := Memref.whole cc6_scratch0
abbrev VS6_0 : View sig .tc .vmem S1024x512 .f32 := scM6_0.view
/-- Every other scoped buffer of the core that is no staging buffer of this region: carried unopened. -/
abbrev rest6 (c : Dev nD) : sProp 𝕄 :=
  Pipeline.scopedRestBut (Ix := Unit) (Name := ℕ) (U := UR sig nD τ) (Lvl := ℕ) (Val := Elt F) spec6 c [cc6_scratch0]

/-- The class's invariant with the accumulator as a memref owned at some contents. -/
theorem PhiA6_eq (c : Dev nD) :
    (Pipeline.ΦA spec6 c : sProp 𝕄)
      = iprop(iprop((∃ d, owns (c : Thread nD τ) scM6_0 fullShare d) ∗ rest6 c) ∗ (∃ r, prngReg c r)) := by
  unfold Pipeline.ΦA; rw [scopedRest6_split]; simp only [scM6_0, owns_whole]; try rfl

/-! ## The body's run, case by case -/

set_option maxHeartbeats 1000000 in
/-- CASE A (k = 0): the accumulator, found at anything, is zeroed and then holds the first block product; the output's
    buffer is handed back untouched. The pieces written are what the run finds. -/
noncomputable def kernelRun6_A (c : Dev nD) (i : grid6.Coords) (arg3 : Memref sig .tc .vmem S1024x512 .bf16) (harg3 : arg3.IsWhole) (arg4 : Memref sig .tc .vmem S512x512 .bf16) (harg4 : arg4.IsWhole) (arg5 : Memref sig .tc .vmem S1024x512 .bf16) (harg5 : arg5.IsWhole) (arg6 : Memref sig .tc .vmem S1024x512 .f32) (harg6 : arg6.IsWhole) (hc0 : cond6_0 i) (hc1 : ¬cond6_1 i)
    (x0 : Vec F S1024x512 .bf16) (x1 : Vec F S512x512 .bf16) :
    Σ' (L2 : List (View.Piece (Elt F) S1024x512 .bf16)), { LS0 : List (View.Piece (Elt F) S1024x512 .f32) //
      ∀ (xi2 : Vec F S1024x512 .bf16) (E : Set ℕ) (K : PUnit → sProp 𝕄),
        iprop(owns (c : Thread nD τ) arg3 fullShare x0 ∗ owns (c : Thread nD τ) arg4 fullShare x1 ∗ owns (c : Thread nD τ) arg5 fullShare xi2 ∗ (∃ d, owns (c : Thread nD τ) arg6 fullShare d)
            ∗ (iprop(owns (c : Thread nD τ) arg3 fullShare x0 ∗ owns (c : Thread nD τ) arg4 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc6__mm_kernel_nobias i arg3 harg3 arg4 harg4 arg5 harg5 arg6 harg6) K } := by
  refine ⟨[], ?_, fun xi2 E K => ?run⟩
  case run =>
    simp only [cc6__mm_kernel_nobias_eq_skeleton]; unfold cc6__mm_kernel_nobias_skel
    unfold owns
    iintro ⟨⟨%f0, %hf0, H0⟩, ⟨%f1, %hf1, H1⟩, ⟨%f2, %hf2, H2⟩, ⟨%ds0, %fs0, -, HS0⟩, Hk⟩
    obtain rfl := harg3.eq_unread hf0; obtain rfl := harg4.eq_unread hf1; obtain rfl := harg5.eq_unread hf2
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS0

set_option maxHeartbeats 1000000 in
/-- CASE C (k = 1): the accumulator, found at what the point before left, gets the last block product added, and the
    output's buffer, found at anything, is stored whole with the accumulator rounded. -/
noncomputable def kernelRun6_C (c : Dev nD) (i : grid6.Coords) (arg3 : Memref sig .tc .vmem S1024x512 .bf16) (harg3 : arg3.IsWhole) (arg4 : Memref sig .tc .vmem S512x512 .bf16) (harg4 : arg4.IsWhole) (arg5 : Memref sig .tc .vmem S1024x512 .bf16) (harg5 : arg5.IsWhole) (arg6 : Memref sig .tc .vmem S1024x512 .f32) (harg6 : arg6.IsWhole) (hc0 : ¬cond6_0 i) (hc1 : cond6_1 i)
    (x0 : Vec F S1024x512 .bf16) (x1 : Vec F S512x512 .bf16) (xs0 : Vec F S1024x512 .f32) :
    Σ' (L2 : List (View.Piece (Elt F) S1024x512 .bf16)), { LS0 : List (View.Piece (Elt F) S1024x512 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xs0
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f LS0)) -∗ K ⟨⟩))
          ⊢ wp frame (wpE (defs₀ (F := F)) Variants.none c none) E (cc6__mm_kernel_nobias i arg3 harg3 arg4 harg4 arg5 harg5 arg6 harg6) K } := by
  refine ⟨?_, ?_, fun E K => ?run⟩
  case run =>
    simp only [cc6__mm_kernel_nobias_eq_skeleton]; unfold cc6__mm_kernel_nobias_skel
    unfold owns
    iintro ⟨⟨%f0, %hf0, H0⟩, ⟨%f1, %hf1, H1⟩, ⟨%d2, %f2, -, H2⟩, ⟨%fs0, %hfs0, HS0⟩, Hk⟩
    obtain rfl := harg3.eq_unread hf0; obtain rfl := harg4.eq_unread hf1; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexists _; iexact HS0

/-! ## What each case leaves: the pieces the runs found, and that they cover -/

/-- Case A stores nothing into the output: a placeholder nothing consults (the window is idle there). -/
def out6_A_2 (c : Dev nD) (i : grid6.Coords) (arg3 : Memref sig .tc .vmem S1024x512 .bf16) (harg3 : arg3.IsWhole) (arg4 : Memref sig .tc .vmem S512x512 .bf16) (harg4 : arg4.IsWhole) (arg5 : Memref sig .tc .vmem S1024x512 .bf16) (harg5 : arg5.IsWhole) (arg6 : Memref sig .tc .vmem S1024x512 .f32) (harg6 : arg6.IsWhole) (hc0 : cond6_0 i) (hc1 : ¬cond6_1 i)
    (x0 : Vec F S1024x512 .bf16) (x1 : Vec F S512x512 .bf16) : Vec F S1024x512 .bf16 :=
  VO6_2.read (Elt F) (VO6_2.writes (Elt F) VO6_2.junk (kernelRun6_A c i arg3 harg3 arg4 harg4 arg5 harg5 arg6 harg6 hc0 hc1 x0 x1).1)

/-- Case A's pieces for the accumulator cover it (two whole stores). -/
theorem scover6_A_0 (c : Dev nD) (i : grid6.Coords) (arg3 : Memref sig .tc .vmem S1024x512 .bf16) (harg3 : arg3.IsWhole) (arg4 : Memref sig .tc .vmem S512x512 .bf16) (harg4 : arg4.IsWhole) (arg5 : Memref sig .tc .vmem S1024x512 .bf16) (harg5 : arg5.IsWhole) (arg6 : Memref sig .tc .vmem S1024x512 .f32) (harg6 : arg6.IsWhole) (hc0 : cond6_0 i) (hc1 : ¬cond6_1 i)
    (x0 : Vec F S1024x512 .bf16) (x1 : Vec F S512x512 .bf16) (y : S1024x512.Idx) :
    ∃ pc ∈ (kernelRun6_A c i arg3 harg3 arg4 harg4 arg5 harg5 arg6 harg6 hc0 hc1 x0 x1).2.1, y ∈ pc.1.set :=
  View.cover_of_tiledL (kernelRun6_A c i arg3 harg3 arg4 harg4 arg5 harg5 arg6 harg6 hc0 hc1 x0 x1).2.1 S1024x512.size (by sl_kernel_rfl) y

/-- What case A leaves in the accumulator. -/
def sout6_A_0 (c : Dev nD) (i : grid6.Coords) (arg3 : Memref sig .tc .vmem S1024x512 .bf16) (harg3 : arg3.IsWhole) (arg4 : Memref sig .tc .vmem S512x512 .bf16) (harg4 : arg4.IsWhole) (arg5 : Memref sig .tc .vmem S1024x512 .bf16) (harg5 : arg5.IsWhole) (arg6 : Memref sig .tc .vmem S1024x512 .f32) (harg6 : arg6.IsWhole) (hc0 : cond6_0 i) (hc1 : ¬cond6_1 i)
    (x0 : Vec F S1024x512 .bf16) (x1 : Vec F S512x512 .bf16) : Vec F S1024x512 .f32 :=
  VS6_0.read (Elt F) (VS6_0.writes (Elt F) VS6_0.junk (kernelRun6_A c i arg3 harg3 arg4 harg4 arg5 harg5 arg6 harg6 hc0 hc1 x0 x1).2.1)

/-- Case C's piece for the output covers its block (one whole store). -/
theorem cover6_C_2 (c : Dev nD) (i : grid6.Coords) (arg3 : Memref sig .tc .vmem S1024x512 .bf16) (harg3 : arg3.IsWhole) (arg4 : Memref sig .tc .vmem S512x512 .bf16) (harg4 : arg4.IsWhole) (arg5 : Memref sig .tc .vmem S1024x512 .bf16) (harg5 : arg5.IsWhole) (arg6 : Memref sig .tc .vmem S1024x512 .f32) (harg6 : arg6.IsWhole) (hc0 : ¬cond6_0 i) (hc1 : cond6_1 i)
    (x0 : Vec F S1024x512 .bf16) (x1 : Vec F S512x512 .bf16) (xs0 : Vec F S1024x512 .f32) (y : S1024x512.Idx) :
    ∃ pc ∈ (kernelRun6_C c i arg3 harg3 arg4 harg4 arg5 harg5 arg6 harg6 hc0 hc1 x0 x1 xs0).1, y ∈ pc.1.set :=
  View.cover_of_tiledL (kernelRun6_C c i arg3 harg3 arg4 harg4 arg5 harg5 arg6 harg6 hc0 hc1 x0 x1 xs0).1 S1024x512.size (by sl_kernel_rfl) y

/-- What case C leaves in the output's staging buffer. -/
def out6_C_2 (c : Dev nD) (i : grid6.Coords) (arg3 : Memref sig .tc .vmem S1024x512 .bf16) (harg3 : arg3.IsWhole) (arg4 : Memref sig .tc .vmem S512x512 .bf16) (harg4 : arg4.IsWhole) (arg5 : Memref sig .tc .vmem S1024x512 .bf16) (harg5 : arg5.IsWhole) (arg6 : Memref sig .tc .vmem S1024x512 .f32) (harg6 : arg6.IsWhole) (hc0 : ¬cond6_0 i) (hc1 : cond6_1 i)
    (x0 : Vec F S1024x512 .bf16) (x1 : Vec F S512x512 .bf16) (xs0 : Vec F S1024x512 .f32) : Vec F S1024x512 .bf16 :=
  VO6_2.read (Elt F) (VO6_2.writes (Elt F) VO6_2.junk (kernelRun6_C c i arg3 harg3 arg4 harg4 arg5 harg5 arg6 harg6 hc0 hc1 x0 x1 xs0).1)

/-- Case C's piece for the accumulator covers it (one whole store). -/
theorem scover6_C_0 (c : Dev nD) (i : grid6.Coords) (arg3 : Memref sig .tc .vmem S1024x512 .bf16) (harg3 : arg3.IsWhole) (arg4 : Memref sig .tc .vmem S512x512 .bf16) (harg4 : arg4.IsWhole) (arg5 : Memref sig .tc .vmem S1024x512 .bf16) (harg5 : arg5.IsWhole) (arg6 : Memref sig .tc .vmem S1024x512 .f32) (harg6 : arg6.IsWhole) (hc0 : ¬cond6_0 i) (hc1 : cond6_1 i)
    (x0 : Vec F S1024x512 .bf16) (x1 : Vec F S512x512 .bf16) (xs0 : Vec F S1024x512 .f32) (y : S1024x512.Idx) :
    ∃ pc ∈ (kernelRun6_C c i arg3 harg3 arg4 harg4 arg5 harg5 arg6 harg6 hc0 hc1 x0 x1 xs0).2.1, y ∈ pc.1.set :=
  View.cover_of_tiledL (kernelRun6_C c i arg3 harg3 arg4 harg4 arg5 harg5 arg6 harg6 hc0 hc1 x0 x1 xs0).2.1 S1024x512.size (by sl_kernel_rfl) y

/-- What case C leaves in the accumulator. -/
def sout6_C_0 (c : Dev nD) (i : grid6.Coords) (arg3 : Memref sig .tc .vmem S1024x512 .bf16) (harg3 : arg3.IsWhole) (arg4 : Memref sig .tc .vmem S512x512 .bf16) (harg4 : arg4.IsWhole) (arg5 : Memref sig .tc .vmem S1024x512 .bf16) (harg5 : arg5.IsWhole) (arg6 : Memref sig .tc .vmem S1024x512 .f32) (harg6 : arg6.IsWhole) (hc0 : ¬cond6_0 i) (hc1 : cond6_1 i)
    (x0 : Vec F S1024x512 .bf16) (x1 : Vec F S512x512 .bf16) (xs0 : Vec F S1024x512 .f32) : Vec F S1024x512 .f32 :=
  VS6_0.read (Elt F) (VS6_0.writes (Elt F) VS6_0.junk (kernelRun6_C c i arg3 harg3 arg4 harg4 arg5 harg5 arg6 harg6 hc0 hc1 x0 x1 xs0).2.1)

/-! ## What the output's buffer and the accumulator hold after each point -/

/-- THE ACCUMULATION: after the body at position n, the output's staging buffer and the accumulator. An even point
    restarts the accumulator from the point's own blocks; an odd point continues from what the point before left. -/
def outsAt6 (c : Dev nD) : (n : ℕ) → n < cfg6.N → Vec F S1024x512 .bf16 × Vec F S1024x512 .f32
  | 0, hn => (out6_A_2 c (grid6.coords ⟨0, hn⟩) (ms6_0 ⟨0, hn⟩) (hs6_0 ⟨0, hn⟩) (ms6_1 ⟨0, hn⟩) (hs6_1 ⟨0, hn⟩) (ms6_2 ⟨0, hn⟩) (hs6_2 ⟨0, hn⟩) scM6_0 (Memref.isWhole_whole _) (hA6 ⟨0, hn⟩ (Nat.zero_mod _)).1 (hA6 ⟨0, hn⟩ (Nat.zero_mod _)).2 (iblk6 V c 0 ⟨0, hn⟩) (iblk6 V c 1 ⟨0, hn⟩), sout6_A_0 c (grid6.coords ⟨0, hn⟩) (ms6_0 ⟨0, hn⟩) (hs6_0 ⟨0, hn⟩) (ms6_1 ⟨0, hn⟩) (hs6_1 ⟨0, hn⟩) (ms6_2 ⟨0, hn⟩) (hs6_2 ⟨0, hn⟩) scM6_0 (Memref.isWhole_whole _) (hA6 ⟨0, hn⟩ (Nat.zero_mod _)).1 (hA6 ⟨0, hn⟩ (Nat.zero_mod _)).2 (iblk6 V c 0 ⟨0, hn⟩) (iblk6 V c 1 ⟨0, hn⟩))
  | n + 1, hn =>
    if h0 : (n + 1) % 2 = 0 then
      (out6_A_2 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) scM6_0 (Memref.isWhole_whole _) (hA6 ⟨n + 1, hn⟩ h0).1 (hA6 ⟨n + 1, hn⟩ h0).2 (iblk6 V c 0 ⟨n + 1, hn⟩) (iblk6 V c 1 ⟨n + 1, hn⟩), sout6_A_0 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) scM6_0 (Memref.isWhole_whole _) (hA6 ⟨n + 1, hn⟩ h0).1 (hA6 ⟨n + 1, hn⟩ h0).2 (iblk6 V c 0 ⟨n + 1, hn⟩) (iblk6 V c 1 ⟨n + 1, hn⟩))
    else
      (out6_C_2 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) scM6_0 (Memref.isWhole_whole _) (hC6 ⟨n + 1, hn⟩ h0).1 (hC6 ⟨n + 1, hn⟩ h0).2 (iblk6 V c 0 ⟨n + 1, hn⟩) (iblk6 V c 1 ⟨n + 1, hn⟩) (outsAt6 c n (Nat.lt_of_succ_lt hn)).2, sout6_C_0 c (grid6.coords ⟨n + 1, hn⟩) (ms6_0 ⟨n + 1, hn⟩) (hs6_0 ⟨n + 1, hn⟩) (ms6_1 ⟨n + 1, hn⟩) (hs6_1 ⟨n + 1, hn⟩) (ms6_2 ⟨n + 1, hn⟩) (hs6_2 ⟨n + 1, hn⟩) scM6_0 (Memref.isWhole_whole _) (hC6 ⟨n + 1, hn⟩ h0).1 (hC6 ⟨n + 1, hn⟩ h0).2 (iblk6 V c 0 ⟨n + 1, hn⟩) (iblk6 V c 1 ⟨n + 1, hn⟩) (outsAt6 c n (Nat.lt_of_succ_lt hn)).2)

/-- outsAt6 at an even point: case A's contents. -/
theorem outsAt6_A (c : Dev nD) (t : Fin cfg6.N) (h0 : t.val % 2 = 0) :
    outsAt6 V c t.val t.isLt = (out6_A_2 c (grid6.coords t) (ms6_0 t) (hs6_0 t) (ms6_1 t) (hs6_1 t) (ms6_2 t) (hs6_2 t) scM6_0 (Memref.isWhole_whole _) (hA6 t h0).1 (hA6 t h0).2 (iblk6 V c 0 t) (iblk6 V c 1 t), sout6_A_0 c (grid6.coords t) (ms6_0 t) (hs6_0 t) (ms6_1 t) (hs6_1 t) (ms6_2 t) (hs6_2 t) scM6_0 (Memref.isWhole_whole _) (hA6 t h0).1 (hA6 t h0).2 (iblk6 V c 0 t) (iblk6 V c 1 t)) := by
  obtain ⟨n, hn⟩ := t
  cases n with
  | zero => exact rfl
  | succ n => exact (dif_pos h0).trans rfl

/-- outsAt6 at an odd point: case C's contents, over what the point before left in the accumulator. -/
theorem outsAt6_C (c : Dev nD) (t : Fin cfg6.N) (h0 : ¬t.val % 2 = 0) :
    outsAt6 V c t.val t.isLt = (out6_C_2 c (grid6.coords t) (ms6_0 t) (hs6_0 t) (ms6_1 t) (hs6_1 t) (ms6_2 t) (hs6_2 t) scM6_0 (Memref.isWhole_whole _) (hC6 t h0).1 (hC6 t h0).2 (iblk6 V c 0 t) (iblk6 V c 1 t) (outsAt6 V c (t.val - 1) (Nat.lt_of_le_of_lt (Nat.sub_le _ _) t.isLt)).2, sout6_C_0 c (grid6.coords t) (ms6_0 t) (hs6_0 t) (ms6_1 t) (hs6_1 t) (ms6_2 t) (hs6_2 t) scM6_0 (Memref.isWhole_whole _) (hC6 t h0).1 (hC6 t h0).2 (iblk6 V c 0 t) (iblk6 V c 1 t) (outsAt6 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-- The region invariant before position n: before the first point the class's; afterwards the accumulator at what the
    point before left in it, the other scoped buffers unopened, the generator register at some state. -/
def PhiS6 (c : Dev nD) : (n : ℕ) → n ≤ cfg6.N → sProp 𝕄
  | 0, _ => Pipeline.ΦA spec6 c
  | n + 1, hn => iprop(iprop(owns (c : Thread nD τ) scM6_0 fullShare ((outsAt6 V c n hn).2) ∗ rest6 c) ∗ (∃ r, prngReg c r))

theorem PhiS6_zero (c : Dev nD) (n : ℕ) (h : n ≤ cfg6.N) (hz : n = 0) : PhiS6 V c n h = Pipeline.ΦA spec6 c := by
  subst hz; rfl

theorem PhiS6_succ (c : Dev nD) (n : ℕ) (hn : n < cfg6.N) :
    PhiS6 V c (n + 1) hn = iprop(iprop(owns (c : Thread nD τ) scM6_0 fullShare ((outsAt6 V c n hn).2) ∗ rest6 c) ∗ (∃ r, prngReg c r)) := rfl

theorem PhiS6_pos (c : Dev nD) (n : ℕ) (h : n ≤ cfg6.N) (hz : n ≠ 0) :
    PhiS6 V c n h = iprop(iprop(owns (c : Thread nD τ) scM6_0 fullShare ((outsAt6 V c (n - 1) (by omega)).2) ∗ rest6 c) ∗ (∃ r, prngReg c r)) := by
  cases n with
  | zero => exact absurd rfl hz
  | succ n => rfl

/-! ## The pipeline's proof data -/

/-- The proof data of region 6 on core c: the arrays as the region finds them; after the body at point t each input's
    buffer at its block and the output's at outsAt6's first component; the invariant PhiS6; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => (outsAt6 V c t.val t.isLt).1
  Φ t := PhiS6 V c t.val (Nat.le_of_lt_succ t.isLt)
  q _ := fullShare
  owed _ := 0

theorem A_eq6 (c : Dev nD) (w : Fin cfg6.W) : (dat6 V c).A w = V c (Pipeline.arrRef spec6 w) := by
  dsimp only [dat6]

theorem PhiS6_castSucc (c : Dev nD) (t : Fin cfg6.N) :
    (dat6 V c).Φ t.castSucc = PhiS6 V c t.val (Nat.le_of_lt t.isLt) := by
  dsimp only [dat6]; simp only [Fin.coe_castSucc]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = (outsAt6 V c t.val t.isLt).1 := by dsimp only [dat6]

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d

/-! ## The body obligation, at a generic point -/

def bodyPre6 (c : Dev nD) (t : Fin cfg6.N) : sProp 𝕄 :=
  iprop((dat6 V c).Φ t.castSucc ∗ (dat6 V c).owesAt () t.castSucc
    ∗ (∃ d, owns (c : Thread nD τ) (ms6_0 t) fullShare ((dat6 V c).before 0 t d))
    ∗ (∃ d, owns (c : Thread nD τ) (ms6_1 t) fullShare ((dat6 V c).before 1 t d))
    ∗ (∃ d, owns (c : Thread nD τ) (ms6_2 t) fullShare ((dat6 V c).before 2 t d)))

def bodyPost6 (c : Dev nD) (t : Fin cfg6.N) : sProp 𝕄 :=
  iprop((dat6 V c).Φ t.succ ∗ (dat6 V c).owesAt () t.succ
    ∗ (dat6 V c).leavesExact 0 t
    ∗ (dat6 V c).leavesExact 1 t
    ∗ (dat6 V c).leavesExact 2 t)

set_option maxHeartbeats 4800000 in
/-- The body at any point: the inputs' buffers hold their blocks; the parity of the point says which case it is in; the
    invariant hands the run the accumulator (at anything at the first point, else at what the point before left) and
    takes it back at this point's contents; the rest of the scoped buffers, the register and the debt pass through. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1]
  rw [show (dat6 V c).owesAt () t.succ = (dat6 V c).owesAt () t.castSucc from rfl]
  rw [show (dat6 V c).Φ t.succ = PhiS6 V c (t.val + 1) t.isLt from rfl, PhiS6_succ]
  rw [show (dat6 V c).leavesExact 0 t = owns (c : Thread nD τ) (ms6_0 t) fullShare ((dat6 V c).after 0 t) from by
    unfold Dat.leavesExact; rw [liveAt6_0 t], after6_0]
  rw [show (dat6 V c).leavesExact 1 t = owns (c : Thread nD τ) (ms6_1 t) fullShare ((dat6 V c).after 1 t) from by
    unfold Dat.leavesExact; rw [liveAt6_1 t], after6_1]
  have hN : t.val < 8 := lt_of_lt_of_eq t.isLt (show cfg6.N = 8 from N_6)
  by_cases h0 : t.val % 2 = 0
  · rw [Dat.leavesExact_idle (dat6 V c) 2 t (idleAt6_2_A t (hA6 t h0).1 (hA6 t h0).2) (noFlush6_2_A t (hA6 t h0).1 (hA6 t h0).2)]
    rw [outsAt6_A V c t h0]
    unfold sout6_A_0; (try dsimp only)
    by_cases hz : t.val = 0
    · rw [PhiS6_castSucc V c t, PhiS6_zero V c _ _ hz, PhiA6_eq]
      iintro ⟨⟨⟨HS0, Hr⟩, Hg⟩, Ho, ⟨%d0, H0⟩, ⟨%d1, H1⟩, ⟨%d2, H2⟩⟩
      iapply ((kernelRun6_A c (grid6.coords t) _ _ _ _ _ _ _ _ (hA6 t h0).1 (hA6 t h0).2 (iblk6 V c 0 t) (iblk6 V c 1 t)).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover6_A_0 c _ _ _ _ _ _ _ _ _ _ _ _ _)
          iexact Hr
        iexact Hg
      isplitl [Ho]; · iexact Ho
      isplitl [H0]; · iexact H0
      isplitl [H1]; · iexact H1
      iexists _; iexact H2
    · rw [PhiS6_castSucc V c t, PhiS6_pos V c _ _ hz]
      iintro ⟨⟨⟨HS0, Hr⟩, Hg⟩, Ho, ⟨%d0, H0⟩, ⟨%d1, H1⟩, ⟨%d2, H2⟩⟩
      iapply ((kernelRun6_A c (grid6.coords t) _ _ _ _ _ _ _ _ (hA6 t h0).1 (hA6 t h0).2 (iblk6 V c 0 t) (iblk6 V c 1 t)).2.2 _ Set.univ _)
      isplitl [H0]; · iexact H0
      isplitl [H1]; · iexact H1
      isplitl [H2]; · iexact H2
      isplitl [HS0]; · iexists _; iexact HS0
      iintro ⟨H0, H1, H2, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover6_A_0 c _ _ _ _ _ _ _ _ _ _ _ _ _)
          iexact Hr
        iexact Hg
      isplitl [Ho]; · iexact Ho
      isplitl [H0]; · iexact H0
      isplitl [H1]; · iexact H1
      iexists _; iexact H2
  · rw [show (dat6 V c).leavesExact 2 t = owns (c : Thread nD τ) (ms6_2 t) fullShare ((dat6 V c).after 2 t) from by
      unfold Dat.leavesExact; rw [liveAt6_2_C t (hC6 t h0).1 (hC6 t h0).2], after6_2]
    rw [outsAt6_C V c t h0]
    unfold out6_C_2 sout6_C_0; (try dsimp only)
    have hz : t.val ≠ 0 := fun hz => h0 (by rw [hz])
    rw [PhiS6_castSucc V c t, PhiS6_pos V c _ _ hz]
    iintro ⟨⟨⟨HS0, Hr⟩, Hg⟩, Ho, ⟨%d0, H0⟩, ⟨%d1, H1⟩, ⟨%d2, H2⟩⟩
    iapply ((kernelRun6_C c (grid6.coords t) _ _ _ _ _ _ _ _ (hC6 t h0).1 (hC6 t h0).2 (iblk6 V c 0 t) (iblk6 V c 1 t) _).2.2 Set.univ _)
    isplitl [H0]; · iexact H0
    isplitl [H1]; · iexact H1
    isplitl [H2]; · iexists _; iexact H2
    isplitl [HS0]; · iexact HS0
    iintro ⟨H0, H1, ⟨%e2, H2⟩, ⟨%es0, HS0⟩⟩
    isplitl [HS0 Hr Hg]
    · isplitl [HS0 Hr]
      · isplitl [HS0]
        · unfold owns; iexists _; isplitr
          swap; · iexact HS0
          ipureintro; exact View.read_writes_of_cover _ _ _ _ _ (scover6_C_0 c _ _ _ _ _ _ _ _ _ _ _ _ _ _)
        iexact Hr
      iexact Hg
    isplitl [Ho]; · iexact Ho
    isplitl [H0]; · iexact H0
    isplitl [H1]; · iexact H1
    unfold owns; iexists _; isplitr
    swap; · iexact H2
    ipureintro; exact View.read_writes_of_cover _ _ _ _ _ (cover6_C_2 c _ _ _ _ _ _ _ _ _ _ _ _ _ _)

/-- The library's body obligation, at every point. -/
theorem body_obligation6 (c : Dev nD) : BodyObligation (dat6 (F := F) V c) (defs₀ (F := F)) Variants.none () Set.univ := fun t => by
  rw [bigSep_W6, bigSep_W6]
  exact sound_body6 V c t

/-- What the launch hands the region is the invariant before the first point. -/
theorem hin6 (c : Dev nD) : Pipeline.ΦA spec6 c ⊢ (dat6 V c).Φ 0 := by
  rw [show (dat6 V c).Φ 0 = PhiS6 V c 0 (Nat.zero_le _) from rfl, PhiS6_zero V c 0 _ rfl]
  try exact Idealize.SL.BI.Entails.refl _

/-- After any point but the first the invariant gives the class's back: the accumulator's contents are forgotten. -/
theorem Phi_out6 (c : Dev nD) (t : Fin (cfg6.N + 1)) (ht : t.val ≠ 0) : (dat6 V c).Φ t ⊢ Pipeline.ΦA spec6 c := by
  rw [show (dat6 V c).Φ t = PhiS6 V c t.val (Nat.le_of_lt_succ t.isLt) from rfl, PhiS6_pos V c _ _ ht, PhiA6_eq]
  iintro ⟨⟨HS0, Hr⟩, Hg⟩
  isplitl [HS0 Hr]
  · isplitl [HS0]
    · iexists _; iexact HS0
    iexact Hr
  iexact Hg

/-- The same after the last point. -/
theorem hout6 (c : Dev nD) : (dat6 V c).Φ (Fin.last cfg6.N) ⊢ Pipeline.ΦA spec6 c :=
  Phi_out6 V c _ (by rw [Fin.val_last]; have : cfg6.N = 8 := N_6; omega)

end Cert.KernelIdeal.Gen

end
-- ==== Proof.KernelIdealH.Reg7.lean ====
import proofs.«157173_j56882546868342_2_alg».proof.Proof.KernelIdealH.Launch
import proofs.«157173_j56882546868342_2_alg».proof.Proof.Gen.KernelIdeal.Skeleton
import proofs.«157173_j56882546868342_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384
noncomputable section
namespace Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

/-! # Region 7: a blocked matrix product with a bias row and a rectifier

The grid is (4, 1, 8): point t has row-block t / 8 and reduction step t % 8. A scratch accumulator is zeroed at
step 0, receives one block product per step, and at step 7 the bias row is added, the result is clamped below at
zero and stored into the output block. -/

/-! ## The windows' blocks -/

/-- Window w's block at point t, read off its array as the region finds it. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- An input window's current staging buffer holds its block at every point, fetched there or not: when it is not
    fetched the block index has not moved, so the block of the point before is this point's. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)
/-- The bias row is fetched at the first point only; its block index never moves, so the same holds of it. -/
theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)

/-! ## The body's two conditions, in closed form over the grid -/

/-- The first condition: the reduction step is 0. -/
abbrev cond7_0 (i : grid7.Coords) : Prop := (Scalar.cmpi .ne (Scalar.extui (Scalar.cmpi .eq (BitVec.ofNat 32 (i 2).val) 0#32)) 0#32) = 1#1
theorem hcond7_0 : ∀ t : Fin cfg7.N, cond7_0 (grid7.coords t) ↔ t.val % 8 = 0 :=
  (by decide +kernel : ∀ t : Fin grid7.N, cond7_0 (grid7.coords t) ↔ t.val % 8 = 0)
/-- The second condition: the reduction step is the last, 7. -/
abbrev cond7_1 (i : grid7.Coords) : Prop := k7_cond2 i = 1#1
theorem hcond7_1 : ∀ t : Fin cfg7.N, cond7_1 (grid7.coords t) ↔ t.val % 8 = 7 :=
  (by decide +kernel : ∀ t : Fin grid7.N, cond7_1 (grid7.coords t) ↔ t.val % 8 = 7)

/-! ## Where the windows are idle -/

theorem liveAt7_0 : ∀ t : Fin cfg7.N, cfg7.idle 0 (grid7.coords t) = false := by decide +kernel
theorem liveAt7_1 : ∀ t : Fin cfg7.N, cfg7.idle 1 (grid7.coords t) = false := by decide +kernel
theorem liveAt7_2 : ∀ t : Fin cfg7.N, cfg7.idle 2 (grid7.coords t) = false := by decide +kernel
/-- At the first and the middle steps nothing is stored into the output block and it is not written back. -/
theorem idleAt7_3_A : ∀ t : Fin cfg7.N, cond7_0 (grid7.coords t) → ¬cond7_1 (grid7.coords t) → cfg7.idle 3 (grid7.coords t) = true := by decide +kernel
theorem noFlush7_3_A : ∀ t : Fin cfg7.N, cond7_0 (grid7.coords t) → ¬cond7_1 (grid7.coords t) → (cfg7.win 3).flush t = false := by decide +kernel
theorem idleAt7_3_B : ∀ t : Fin cfg7.N, ¬cond7_0 (grid7.coords t) → ¬cond7_1 (grid7.coords t) → cfg7.idle 3 (grid7.coords t) = true := by decide +kernel
theorem noFlush7_3_B : ∀ t : Fin cfg7.N, ¬cond7_0 (grid7.coords t) → ¬cond7_1 (grid7.coords t) → (cfg7.win 3).flush t = false := by decide +kernel
/-- At the last step the output block is stored. -/
theorem liveAt7_3_C : ∀ t : Fin cfg7.N, ¬cond7_0 (grid7.coords t) → cond7_1 (grid7.coords t) → cfg7.idle 3 (grid7.coords t) = false := by decide +kernel

/-! ## The staging and scratch memrefs -/

/-- One staging buffer of the output window, through which its contents are stated. -/
abbrev VO7_3 : View sig .tc .vmem S1024x512 .bf16 := (Memref.whole cc7_stg3_0 : Memref sig .tc .vmem S1024x512 .bf16).view
/-- Each window's current staging memref at point t, and its wholeness. -/
abbrev ms7_0 (t : Fin cfg7.N) : Memref sig .tc .vmem S1024x512 .bf16 := win7_0.stage (cfg7.slots t 0)
abbrev hs7_0 (t : Fin cfg7.N) : (ms7_0 t).IsWhole := hstage7_0 ((cfg7.slots t 0).cast nbuf7_0)
abbrev ms7_1 (t : Fin cfg7.N) : Memref sig .tc .vmem S512x512 .bf16 := win7_1.stage (cfg7.slots t 1)
abbrev hs7_1 (t : Fin cfg7.N) : (ms7_1 t).IsWhole := hstage7_1 ((cfg7.slots t 1).cast nbuf7_1)
abbrev ms7_2 (t : Fin cfg7.N) : Memref sig .tc .vmem S1x512 .f32 := win7_2.stage (cfg7.slots t 2)
abbrev hs7_2 (t : Fin cfg7.N) : (ms7_2 t).IsWhole := hstage7_2 ((cfg7.slots t 2).cast nbuf7_2)
abbrev ms7_3 (t : Fin cfg7.N) : Memref sig .tc .vmem S1024x512 .bf16 := win7_3.stage (cfg7.slots t 3)
abbrev hs7_3 (t : Fin cfg7.N) : (ms7_3 t).IsWhole := hstage7_3 ((cfg7.slots t 3).cast nbuf7_3)
/-- The accumulator: a whole scoped buffer of the kernel's own, passed beside the windows. -/
abbrev scM7_0 : Memref sig .tc .vmem S1024x512 .f32 := Memref.whole cc7_scratch0
abbrev VS7_0 : View sig .tc .vmem S1024x512 .f32 := scM7_0.view

/-- The region invariant with the accumulator named as a memref owned at some contents; every other scoped buffer
    stays unopened. -/
theorem PhiA7_eq (c : Dev nD) :
    (Pipeline.ΦA spec7 c : sProp 𝕄)
      = iprop(iprop(iprop((∃ d, owns (c : Thread nD τ) scM7_0 fullShare d)) ∗ Pipeline.scopedRestBut spec7 c [cc7_scratch0]) ∗ (∃ r, prngReg c r)) := by
  unfold Pipeline.ΦA; rw [scopedRest7_split]; simp only [scM7_0, owns_whole]; try rfl

/-! ## The body's run, case by case

The kernel body on whole staging memrefs: the inputs' at their contents, the accumulator at what the step before left
(at anything in the first case, which overwrites it before reading), the output's at anything where it is stored and
handed back untouched where it is not. The pieces each buffer ends with are the witness the run finds. -/

set_option maxHeartbeats 1000000 in
/-- Case A, the first step: the accumulator is zeroed and receives the first block product; the output is not touched. -/
noncomputable def kernelRun7_A (c : Dev nD) (i : grid7.Coords) (arg3 : Memref sig .tc .vmem S1024x512 .bf16) (harg3 : arg3.IsWhole) (arg4 : Memref sig .tc .vmem S512x512 .bf16) (harg4 : arg4.IsWhole) (arg5 : Memref sig .tc .vmem S1x512 .f32) (harg5 : arg5.IsWhole) (arg6 : Memref sig .tc .vmem S1024x512 .bf16) (harg6 : arg6.IsWhole) (arg7 : Memref sig .tc .vmem S1024x512 .f32) (harg7 : arg7.IsWhole) (hc0 : cond7_0 i) (hc1 : ¬cond7_1 i)
    (x0 : Vec F S1024x512 .bf16) (x1 : Vec F S512x512 .bf16) (x2 : Vec F S1x512 .f32) :
    Σ' (L3 : List (View.Piece (Elt F) S1024x512 .bf16)), { LS0 : List (View.Piece (Elt F) S1024x512 .f32) //
      ∀ (xi3 : Vec F S1024x512 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc7__mm_kernel_bias i arg3 harg3 arg4 harg4 arg5 harg5 arg6 harg6 arg7 harg7) K } := by
  refine ⟨[], ?_, fun xi3 E K => ?run⟩
  case run =>
    simp only [cc7__mm_kernel_bias_eq_skeleton]; unfold cc7__mm_kernel_bias_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

set_option maxHeartbeats 1000000 in
/-- Case B, a middle step: the accumulator receives one more block product; the output is not touched. -/
noncomputable def kernelRun7_B (c : Dev nD) (i : grid7.Coords) (arg3 : Memref sig .tc .vmem S1024x512 .bf16) (harg3 : arg3.IsWhole) (arg4 : Memref sig .tc .vmem S512x512 .bf16) (harg4 : arg4.IsWhole) (arg5 : Memref sig .tc .vmem S1x512 .f32) (harg5 : arg5.IsWhole) (arg6 : Memref sig .tc .vmem S1024x512 .bf16) (harg6 : arg6.IsWhole) (arg7 : Memref sig .tc .vmem S1024x512 .f32) (harg7 : arg7.IsWhole) (hc0 : ¬cond7_0 i) (hc1 : ¬cond7_1 i)
    (x0 : Vec F S1024x512 .bf16) (x1 : Vec F S512x512 .bf16) (x2 : Vec F S1x512 .f32) (xs0 : Vec F S1024x512 .f32) :
    Σ' (L3 : List (View.Piece (Elt F) S1024x512 .bf16)), { LS0 : List (View.Piece (Elt F) S1024x512 .f32) //
      ∀ (xi3 : Vec F S1024x512 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ owns (c : Thread nD τ) arg7 fullShare xs0
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc7__mm_kernel_bias i arg3 harg3 arg4 harg4 arg5 harg5 arg6 harg6 arg7 harg7) K } := by
  refine ⟨[], ?_, fun xi3 E K => ?run⟩
  case run =>
    simp only [cc7__mm_kernel_bias_eq_skeleton]; unfold cc7__mm_kernel_bias_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg3.eq_unread hf0; obtain rfl := harg4.eq_unread hf1; obtain rfl := harg5.eq_unread hf2; obtain rfl := harg6.eq_unread hf3; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

set_option maxHeartbeats 1000000 in
/-- Case C, the last step: the accumulator receives the last block product, and the output block is stored from it. -/
noncomputable def kernelRun7_C (c : Dev nD) (i : grid7.Coords) (arg3 : Memref sig .tc .vmem S1024x512 .bf16) (harg3 : arg3.IsWhole) (arg4 : Memref sig .tc .vmem S512x512 .bf16) (harg4 : arg4.IsWhole) (arg5 : Memref sig .tc .vmem S1x512 .f32) (harg5 : arg5.IsWhole) (arg6 : Memref sig .tc .vmem S1024x512 .bf16) (harg6 : arg6.IsWhole) (arg7 : Memref sig .tc .vmem S1024x512 .f32) (harg7 : arg7.IsWhole) (hc0 : ¬cond7_0 i) (hc1 : cond7_1 i)
    (x0 : Vec F S1024x512 .bf16) (x1 : Vec F S512x512 .bf16) (x2 : Vec F S1x512 .f32) (xs0 : Vec F S1024x512 .f32) :
    Σ' (L3 : List (View.Piece (Elt F) S1024x512 .bf16)), { LS0 : List (View.Piece (Elt F) S1024x512 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0)) -∗ K ⟨⟩))
          ⊢ wp frame (wpE (defs₀ (F := F)) Variants.none c none) E (cc7__mm_kernel_bias i arg3 harg3 arg4 harg4 arg5 harg5 arg6 harg6 arg7 harg7) K } := by
  refine ⟨?_, ?_, fun E K => ?run⟩
  case run =>
    simp only [cc7__mm_kernel_bias_eq_skeleton]; unfold cc7__mm_kernel_bias_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg3.eq_unread hf0; obtain rfl := harg4.eq_unread hf1; obtain rfl := harg5.eq_unread hf2; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS0

/-! ## What each case leaves: pieces read back, and their covers -/

section Pieces7
variable (c : Dev nD) (i : grid7.Coords) (arg3 : Memref sig .tc .vmem S1024x512 .bf16) (harg3 : arg3.IsWhole) (arg4 : Memref sig .tc .vmem S512x512 .bf16) (harg4 : arg4.IsWhole) (arg5 : Memref sig .tc .vmem S1x512 .f32) (harg5 : arg5.IsWhole) (arg6 : Memref sig .tc .vmem S1024x512 .bf16) (harg6 : arg6.IsWhole) (arg7 : Memref sig .tc .vmem S1024x512 .f32) (harg7 : arg7.IsWhole)

/-- Case A stores nothing into the output: a placeholder nothing consults (the window is idle there). -/
def out7_A_3 (hc0 : cond7_0 i) (hc1 : ¬cond7_1 i) (x0 : Vec F S1024x512 .bf16) (x1 : Vec F S512x512 .bf16) (x2 : Vec F S1x512 .f32) : Vec F S1024x512 .bf16 :=
  VO7_3.read (Elt F) (VO7_3.writes (Elt F) VO7_3.junk (kernelRun7_A c i arg3 harg3 arg4 harg4 arg5 harg5 arg6 harg6 arg7 harg7 hc0 hc1 x0 x1 x2).1)
/-- Case A's pieces for the accumulator cover it (two whole-buffer stores). -/
theorem scover7_A_0 (hc0 : cond7_0 i) (hc1 : ¬cond7_1 i) (x0 : Vec F S1024x512 .bf16) (x1 : Vec F S512x512 .bf16) (x2 : Vec F S1x512 .f32) (y : S1024x512.Idx) :
    ∃ pc ∈ (kernelRun7_A c i arg3 harg3 arg4 harg4 arg5 harg5 arg6 harg6 arg7 harg7 hc0 hc1 x0 x1 x2).2.1, y ∈ pc.1.set :=
  View.cover_of_tiledL (kernelRun7_A c i arg3 harg3 arg4 harg4 arg5 harg5 arg6 harg6 arg7 harg7 hc0 hc1 x0 x1 x2).2.1 S1024x512.size (by sl_kernel_rfl) y
/-- What case A leaves in the accumulator. -/
def sout7_A_0 (hc0 : cond7_0 i) (hc1 : ¬cond7_1 i) (x0 : Vec F S1024x512 .bf16) (x1 : Vec F S512x512 .bf16) (x2 : Vec F S1x512 .f32) : Vec F S1024x512 .f32 :=
  VS7_0.read (Elt F) (VS7_0.writes (Elt F) VS7_0.junk (kernelRun7_A c i arg3 harg3 arg4 harg4 arg5 harg5 arg6 harg6 arg7 harg7 hc0 hc1 x0 x1 x2).2.1)

/-- Case B stores nothing into the output: a placeholder nothing consults. -/
def out7_B_3 (hc0 : ¬cond7_0 i) (hc1 : ¬cond7_1 i) (x0 : Vec F S1024x512 .bf16) (x1 : Vec F S512x512 .bf16) (x2 : Vec F S1x512 .f32) (xs0 : Vec F S1024x512 .f32) : Vec F S1024x512 .bf16 :=
  VO7_3.read (Elt F) (VO7_3.writes (Elt F) VO7_3.junk (kernelRun7_B c i arg3 harg3 arg4 harg4 arg5 harg5 arg6 harg6 arg7 harg7 hc0 hc1 x0 x1 x2 xs0).1)
/-- Case B's piece for the accumulator covers it (one whole-buffer store). -/
theorem scover7_B_0 (hc0 : ¬cond7_0 i) (hc1 : ¬cond7_1 i) (x0 : Vec F S1024x512 .bf16) (x1 : Vec F S512x512 .bf16) (x2 : Vec F S1x512 .f32) (xs0 : Vec F S1024x512 .f32) (y : S1024x512.Idx) :
    ∃ pc ∈ (kernelRun7_B c i arg3 harg3 arg4 harg4 arg5 harg5 arg6 harg6 arg7 harg7 hc0 hc1 x0 x1 x2 xs0).2.1, y ∈ pc.1.set :=
  View.cover_of_tiledL (kernelRun7_B c i arg3 harg3 arg4 harg4 arg5 harg5 arg6 harg6 arg7 harg7 hc0 hc1 x0 x1 x2 xs0).2.1 S1024x512.size (by sl_kernel_rfl) y
/-- What case B leaves in the accumulator. -/
def sout7_B_0 (hc0 : ¬cond7_0 i) (hc1 : ¬cond7_1 i) (x0 : Vec F S1024x512 .bf16) (x1 : Vec F S512x512 .bf16) (x2 : Vec F S1x512 .f32) (xs0 : Vec F S1024x512 .f32) : Vec F S1024x512 .f32 :=
  VS7_0.read (Elt F) (VS7_0.writes (Elt F) VS7_0.junk (kernelRun7_B c i arg3 harg3 arg4 harg4 arg5 harg5 arg6 harg6 arg7 harg7 hc0 hc1 x0 x1 x2 xs0).2.1)

/-- Case C's piece for the output covers its block (one whole-buffer store). -/
theorem cover7_C_3 (hc0 : ¬cond7_0 i) (hc1 : cond7_1 i) (x0 : Vec F S1024x512 .bf16) (x1 : Vec F S512x512 .bf16) (x2 : Vec F S1x512 .f32) (xs0 : Vec F S1024x512 .f32) (y : S1024x512.Idx) :
    ∃ pc ∈ (kernelRun7_C c i arg3 harg3 arg4 harg4 arg5 harg5 arg6 harg6 arg7 harg7 hc0 hc1 x0 x1 x2 xs0).1, y ∈ pc.1.set :=
  View.cover_of_tiledL (kernelRun7_C c i arg3 harg3 arg4 harg4 arg5 harg5 arg6 harg6 arg7 harg7 hc0 hc1 x0 x1 x2 xs0).1 S1024x512.size (by sl_kernel_rfl) y
/-- What case C leaves in the output's staging buffer. -/
def out7_C_3 (hc0 : ¬cond7_0 i) (hc1 : cond7_1 i) (x0 : Vec F S1024x512 .bf16) (x1 : Vec F S512x512 .bf16) (x2 : Vec F S1x512 .f32) (xs0 : Vec F S1024x512 .f32) : Vec F S1024x512 .bf16 :=
  VO7_3.read (Elt F) (VO7_3.writes (Elt F) VO7_3.junk (kernelRun7_C c i arg3 harg3 arg4 harg4 arg5 harg5 arg6 harg6 arg7 harg7 hc0 hc1 x0 x1 x2 xs0).1)
/-- Case C's piece for the accumulator covers it. -/
theorem scover7_C_0 (hc0 : ¬cond7_0 i) (hc1 : cond7_1 i) (x0 : Vec F S1024x512 .bf16) (x1 : Vec F S512x512 .bf16) (x2 : Vec F S1x512 .f32) (xs0 : Vec F S1024x512 .f32) (y : S1024x512.Idx) :
    ∃ pc ∈ (kernelRun7_C c i arg3 harg3 arg4 harg4 arg5 harg5 arg6 harg6 arg7 harg7 hc0 hc1 x0 x1 x2 xs0).2.1, y ∈ pc.1.set :=
  View.cover_of_tiledL (kernelRun7_C c i arg3 harg3 arg4 harg4 arg5 harg5 arg6 harg6 arg7 harg7 hc0 hc1 x0 x1 x2 xs0).2.1 S1024x512.size (by sl_kernel_rfl) y
/-- What case C leaves in the accumulator. -/
def sout7_C_0 (hc0 : ¬cond7_0 i) (hc1 : cond7_1 i) (x0 : Vec F S1024x512 .bf16) (x1 : Vec F S512x512 .bf16) (x2 : Vec F S1x512 .f32) (xs0 : Vec F S1024x512 .f32) : Vec F S1024x512 .f32 :=
  VS7_0.read (Elt F) (VS7_0.writes (Elt F) VS7_0.junk (kernelRun7_C c i arg3 harg3 arg4 harg4 arg5 harg5 arg6 harg6 arg7 harg7 hc0 hc1 x0 x1 x2 xs0).2.1)

end Pieces7

/-! ## What the output's staging buffer and the accumulator hold after each point -/

/-- The accumulation: after the body at position n, the pair (output staging buffer, accumulator). The closed forms
    select the case; a middle or last step runs over what the step before left in the accumulator. -/
def outsAt7 (c : Dev nD) : (n : ℕ) → n < cfg7.N → Vec F S1024x512 .bf16 × Vec F S1024x512 .f32
  | 0, hn => (out7_A_3 c (grid7.coords ⟨0, hn⟩) (ms7_0 ⟨0, hn⟩) (hs7_0 ⟨0, hn⟩) (ms7_1 ⟨0, hn⟩) (hs7_1 ⟨0, hn⟩) (ms7_2 ⟨0, hn⟩) (hs7_2 ⟨0, hn⟩) (ms7_3 ⟨0, hn⟩) (hs7_3 ⟨0, hn⟩) scM7_0 (Memref.isWhole_whole _) ((hcond7_0 ⟨0, hn⟩).mpr (Nat.zero_mod _)) (fun h => (fun h => by (try dsimp only at h); omega) ((hcond7_1 ⟨0, hn⟩).mp h)) (iblk7 V c 0 ⟨0, hn⟩) (iblk7 V c 1 ⟨0, hn⟩) (iblk7 V c 2 ⟨0, hn⟩),
      sout7_A_0 c (grid7.coords ⟨0, hn⟩) (ms7_0 ⟨0, hn⟩) (hs7_0 ⟨0, hn⟩) (ms7_1 ⟨0, hn⟩) (hs7_1 ⟨0, hn⟩) (ms7_2 ⟨0, hn⟩) (hs7_2 ⟨0, hn⟩) (ms7_3 ⟨0, hn⟩) (hs7_3 ⟨0, hn⟩) scM7_0 (Memref.isWhole_whole _) ((hcond7_0 ⟨0, hn⟩).mpr (Nat.zero_mod _)) (fun h => (fun h => by (try dsimp only at h); omega) ((hcond7_1 ⟨0, hn⟩).mp h)) (iblk7 V c 0 ⟨0, hn⟩) (iblk7 V c 1 ⟨0, hn⟩) (iblk7 V c 2 ⟨0, hn⟩))
  | n + 1, hn =>
    if h0 : (n + 1) % 8 = 0 then
      if h1 : (n + 1) % 8 = 7 then
        False.elim (by omega)
      else
        (out7_A_3 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) scM7_0 (Memref.isWhole_whole _) ((hcond7_0 ⟨n + 1, hn⟩).mpr h0) (fun h => h1 ((hcond7_1 ⟨n + 1, hn⟩).mp h)) (iblk7 V c 0 ⟨n + 1, hn⟩) (iblk7 V c 1 ⟨n + 1, hn⟩) (iblk7 V c 2 ⟨n + 1, hn⟩),
          sout7_A_0 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) scM7_0 (Memref.isWhole_whole _) ((hcond7_0 ⟨n + 1, hn⟩).mpr h0) (fun h => h1 ((hcond7_1 ⟨n + 1, hn⟩).mp h)) (iblk7 V c 0 ⟨n + 1, hn⟩) (iblk7 V c 1 ⟨n + 1, hn⟩) (iblk7 V c 2 ⟨n + 1, hn⟩))
    else
      if h1 : (n + 1) % 8 = 7 then
        (out7_C_3 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) scM7_0 (Memref.isWhole_whole _) (fun h => h0 ((hcond7_0 ⟨n + 1, hn⟩).mp h)) ((hcond7_1 ⟨n + 1, hn⟩).mpr h1) (iblk7 V c 0 ⟨n + 1, hn⟩) (iblk7 V c 1 ⟨n + 1, hn⟩) (iblk7 V c 2 ⟨n + 1, hn⟩) (outsAt7 c n (Nat.lt_of_succ_lt hn)).2,
          sout7_C_0 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) scM7_0 (Memref.isWhole_whole _) (fun h => h0 ((hcond7_0 ⟨n + 1, hn⟩).mp h)) ((hcond7_1 ⟨n + 1, hn⟩).mpr h1) (iblk7 V c 0 ⟨n + 1, hn⟩) (iblk7 V c 1 ⟨n + 1, hn⟩) (iblk7 V c 2 ⟨n + 1, hn⟩) (outsAt7 c n (Nat.lt_of_succ_lt hn)).2)
      else
        (out7_B_3 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) scM7_0 (Memref.isWhole_whole _) (fun h => h0 ((hcond7_0 ⟨n + 1, hn⟩).mp h)) (fun h => h1 ((hcond7_1 ⟨n + 1, hn⟩).mp h)) (iblk7 V c 0 ⟨n + 1, hn⟩) (iblk7 V c 1 ⟨n + 1, hn⟩) (iblk7 V c 2 ⟨n + 1, hn⟩) (outsAt7 c n (Nat.lt_of_succ_lt hn)).2,
          sout7_B_0 c (grid7.coords ⟨n + 1, hn⟩) (ms7_0 ⟨n + 1, hn⟩) (hs7_0 ⟨n + 1, hn⟩) (ms7_1 ⟨n + 1, hn⟩) (hs7_1 ⟨n + 1, hn⟩) (ms7_2 ⟨n + 1, hn⟩) (hs7_2 ⟨n + 1, hn⟩) (ms7_3 ⟨n + 1, hn⟩) (hs7_3 ⟨n + 1, hn⟩) scM7_0 (Memref.isWhole_whole _) (fun h => h0 ((hcond7_0 ⟨n + 1, hn⟩).mp h)) (fun h => h1 ((hcond7_1 ⟨n + 1, hn⟩).mp h)) (iblk7 V c 0 ⟨n + 1, hn⟩) (iblk7 V c 1 ⟨n + 1, hn⟩) (iblk7 V c 2 ⟨n + 1, hn⟩) (outsAt7 c n (Nat.lt_of_succ_lt hn)).2)

/-- At a point of case A: that case's contents. -/
theorem outsAt7_A (c : Dev nD) (t : Fin cfg7.N) (h0 : t.val % 8 = 0) (h1 : ¬t.val % 8 = 7) :
    outsAt7 V c t.val t.isLt = (out7_A_3 c (grid7.coords t) (ms7_0 t) (hs7_0 t) (ms7_1 t) (hs7_1 t) (ms7_2 t) (hs7_2 t) (ms7_3 t) (hs7_3 t) scM7_0 (Memref.isWhole_whole _) ((hcond7_0 t).mpr h0) (fun h => h1 ((hcond7_1 t).mp h)) (iblk7 V c 0 t) (iblk7 V c 1 t) (iblk7 V c 2 t),
      sout7_A_0 c (grid7.coords t) (ms7_0 t) (hs7_0 t) (ms7_1 t) (hs7_1 t) (ms7_2 t) (hs7_2 t) (ms7_3 t) (hs7_3 t) scM7_0 (Memref.isWhole_whole _) ((hcond7_0 t).mpr h0) (fun h => h1 ((hcond7_1 t).mp h)) (iblk7 V c 0 t) (iblk7 V c 1 t) (iblk7 V c 2 t)) := by
  obtain ⟨n, hn⟩ := t
  cases n with
  | zero => exact rfl
  | succ n => exact (dif_pos h0).trans ((dif_neg h1).trans rfl)

/-- At a point of case B: that case's contents, over what the point before left in the accumulator. -/
theorem outsAt7_B (c : Dev nD) (t : Fin cfg7.N) (h0 : ¬t.val % 8 = 0) (h1 : ¬t.val % 8 = 7) :
    outsAt7 V c t.val t.isLt = (out7_B_3 c (grid7.coords t) (ms7_0 t) (hs7_0 t) (ms7_1 t) (hs7_1 t) (ms7_2 t) (hs7_2 t) (ms7_3 t) (hs7_3 t) scM7_0 (Memref.isWhole_whole _) (fun h => h0 ((hcond7_0 t).mp h)) (fun h => h1 ((hcond7_1 t).mp h)) (iblk7 V c 0 t) (iblk7 V c 1 t) (iblk7 V c 2 t) (outsAt7 V c (t.val - 1) (Nat.lt_of_le_of_lt (Nat.sub_le _ _) t.isLt)).2,
      sout7_B_0 c (grid7.coords t) (ms7_0 t) (hs7_0 t) (ms7_1 t) (hs7_1 t) (ms7_2 t) (hs7_2 t) (ms7_3 t) (hs7_3 t) scM7_0 (Memref.isWhole_whole _) (fun h => h0 ((hcond7_0 t).mp h)) (fun h => h1 ((hcond7_1 t).mp h)) (iblk7 V c 0 t) (iblk7 V c 1 t) (iblk7 V c 2 t) (outsAt7 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At a point of case C: that case's contents, over what the point before left in the accumulator. -/
theorem outsAt7_C (c : Dev nD) (t : Fin cfg7.N) (h0 : ¬t.val % 8 = 0) (h1 : t.val % 8 = 7) :
    outsAt7 V c t.val t.isLt = (out7_C_3 c (grid7.coords t) (ms7_0 t) (hs7_0 t) (ms7_1 t) (hs7_1 t) (ms7_2 t) (hs7_2 t) (ms7_3 t) (hs7_3 t) scM7_0 (Memref.isWhole_whole _) (fun h => h0 ((hcond7_0 t).mp h)) ((hcond7_1 t).mpr h1) (iblk7 V c 0 t) (iblk7 V c 1 t) (iblk7 V c 2 t) (outsAt7 V c (t.val - 1) (Nat.lt_of_le_of_lt (Nat.sub_le _ _) t.isLt)).2,
      sout7_C_0 c (grid7.coords t) (ms7_0 t) (hs7_0 t) (ms7_1 t) (hs7_1 t) (ms7_2 t) (hs7_2 t) (ms7_3 t) (hs7_3 t) scM7_0 (Memref.isWhole_whole _) (fun h => h0 ((hcond7_0 t).mp h)) ((hcond7_1 t).mpr h1) (iblk7 V c 0 t) (iblk7 V c 1 t) (iblk7 V c 2 t) (outsAt7 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region invariant, with the accumulator's contents named -/

/-- Before the first point the class's invariant (the accumulator at anything); before point n + 1 the accumulator at
    what point n left, every other scoped buffer unopened, the generator register at some state. -/
def PhiS7 (c : Dev nD) : (n : ℕ) → n ≤ cfg7.N → sProp 𝕄
  | 0, _ => Pipeline.ΦA spec7 c
  | n + 1, hn => iprop(iprop(owns (c : Thread nD τ) scM7_0 fullShare ((outsAt7 V c n hn).2) ∗ Pipeline.scopedRestBut spec7 c [cc7_scratch0]) ∗ (∃ r, prngReg c r))

theorem PhiS7_zero (c : Dev nD) (n : ℕ) (h : n ≤ cfg7.N) (hz : n = 0) : PhiS7 V c n h = Pipeline.ΦA spec7 c := by
  subst hz; rfl

theorem PhiS7_succ (c : Dev nD) (n : ℕ) (hn : n < cfg7.N) :
    PhiS7 V c (n + 1) hn = iprop(iprop(owns (c : Thread nD τ) scM7_0 fullShare ((outsAt7 V c n hn).2) ∗ Pipeline.scopedRestBut spec7 c [cc7_scratch0]) ∗ (∃ r, prngReg c r)) := rfl

theorem PhiS7_pos (c : Dev nD) (n : ℕ) (h : n ≤ cfg7.N) (hz : n ≠ 0) :
    PhiS7 V c n h = iprop(iprop(owns (c : Thread nD τ) scM7_0 fullShare ((outsAt7 V c (n - 1) (by omega)).2) ∗ Pipeline.scopedRestBut spec7 c [cc7_scratch0]) ∗ (∃ r, prngReg c r)) := by
  cases n with
  | zero => exact absurd rfl hz
  | succ n => rfl

/-! ## The pipeline's proof data -/

/-- The arrays as the region finds them; after the body at point t each input's buffer at its block and the output's
    at what the accumulation says; the invariant above; nothing owed; full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => (outsAt7 V c t.val t.isLt).1
  Φ t := PhiS7 V c t.val (Nat.le_of_lt_succ t.isLt)
  q _ := fullShare
  owed _ := 0

theorem A_eq7 (c : Dev nD) (w : Fin cfg7.W) : (dat7 V c).A w = V c (Pipeline.arrRef spec7 w) := by
  dsimp only [dat7]

theorem PhiS7_castSucc (c : Dev nD) (t : Fin cfg7.N) :
    (dat7 V c).Φ t.castSucc = PhiS7 V c t.val (Nat.le_of_lt t.isLt) := by
  dsimp only [dat7]; simp only [Fin.coe_castSucc]

theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = (outsAt7 V c t.val t.isLt).1 := by dsimp only [dat7]

theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d

/-! ## The body obligation, at a generic point -/

/-- What the body is called with at point t, the windows one by one, -/
def bodyPre7 (c : Dev nD) (t : Fin cfg7.N) : sProp 𝕄 :=
  iprop((dat7 V c).Φ t.castSucc ∗ (dat7 V c).owesAt () t.castSucc
    ∗ (∃ d, owns (c : Thread nD τ) (ms7_0 t) fullShare ((dat7 V c).before 0 t d))
    ∗ (∃ d, owns (c : Thread nD τ) (ms7_1 t) fullShare ((dat7 V c).before 1 t d))
    ∗ (∃ d, owns (c : Thread nD τ) (ms7_2 t) fullShare ((dat7 V c).before 2 t d))
    ∗ (∃ d, owns (c : Thread nD τ) (ms7_3 t) fullShare ((dat7 V c).before 3 t d)))

/-- and what it returns. -/
def bodyPost7 (c : Dev nD) (t : Fin cfg7.N) : sProp 𝕄 :=
  iprop((dat7 V c).Φ t.succ ∗ (dat7 V c).owesAt () t.succ
    ∗ (dat7 V c).leavesExact 0 t
    ∗ (dat7 V c).leavesExact 1 t
    ∗ (dat7 V c).leavesExact 2 t
    ∗ (dat7 V c).leavesExact 3 t)

set_option maxHeartbeats 4800000 in
/-- The body at any point. The inputs' memrefs hold their blocks; the closed forms say which case the point is in; the
    invariant hands the body the accumulator at what the point before left (at anything at the first point) and takes it
    back at this point's contents, by the case's cover; the output's buffer is handed back untouched where the case stores
    nothing into it and at the case's contents where it does; the core owes nothing throughout. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2]
  rw [show (dat7 V c).owesAt () t.succ = (dat7 V c).owesAt () t.castSucc from rfl]
  rw [show (dat7 V c).Φ t.succ = PhiS7 V c (t.val + 1) t.isLt from rfl, PhiS7_succ]
  have hN : t.val < 32 := lt_of_lt_of_eq t.isLt (show cfg7.N = 32 from N_7)
  rw [show (dat7 V c).leavesExact 0 t = owns (c : Thread nD τ) (ms7_0 t) fullShare ((dat7 V c).after 0 t) from by
    unfold Dat.leavesExact; rw [liveAt7_0 t], after7_0]
  rw [show (dat7 V c).leavesExact 1 t = owns (c : Thread nD τ) (ms7_1 t) fullShare ((dat7 V c).after 1 t) from by
    unfold Dat.leavesExact; rw [liveAt7_1 t], after7_1]
  rw [show (dat7 V c).leavesExact 2 t = owns (c : Thread nD τ) (ms7_2 t) fullShare ((dat7 V c).after 2 t) from by
    unfold Dat.leavesExact; rw [liveAt7_2 t], after7_2]
  by_cases h0 : t.val % 8 = 0
  · by_cases h1 : t.val % 8 = 7
    · exfalso; omega
    · rw [Dat.leavesExact_idle (dat7 V c) 3 t (idleAt7_3_A t ((hcond7_0 t).mpr h0) (fun h => h1 ((hcond7_1 t).mp h))) (noFlush7_3_A t ((hcond7_0 t).mpr h0) (fun h => h1 ((hcond7_1 t).mp h)))]
      rw [outsAt7_A V c t h0 h1]
      unfold sout7_A_0; (try dsimp only)
      by_cases hz : t.val = 0
      · rw [PhiS7_castSucc V c t, PhiS7_zero V c _ _ hz, PhiA7_eq]
        iintro ⟨⟨⟨HS0, Hr⟩, Hg⟩, Ho, ⟨%d0, H0⟩, ⟨%d1, H1⟩, ⟨%d2, H2⟩, ⟨%d3, H3⟩⟩
        iapply ((kernelRun7_A c (grid7.coords t) _ _ _ _ _ _ _ _ _ _ ((hcond7_0 t).mpr h0) (fun h => h1 ((hcond7_1 t).mp h)) (iblk7 V c 0 t) (iblk7 V c 1 t) (iblk7 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover7_A_0 c _ _ _ _ _ _ _ _ _ _ _ _ _ _ _ _)
            iexact Hr
          iexact Hg
        isplitl [Ho]; · iexact Ho
        isplitl [H0]; · iexact H0
        isplitl [H1]; · iexact H1
        isplitl [H2]; · iexact H2
        iexists _; iexact H3
      · rw [PhiS7_castSucc V c t, PhiS7_pos V c _ _ hz]
        iintro ⟨⟨⟨HS0, Hr⟩, Hg⟩, Ho, ⟨%d0, H0⟩, ⟨%d1, H1⟩, ⟨%d2, H2⟩, ⟨%d3, H3⟩⟩
        iapply ((kernelRun7_A c (grid7.coords t) _ _ _ _ _ _ _ _ _ _ ((hcond7_0 t).mpr h0) (fun h => h1 ((hcond7_1 t).mp h)) (iblk7 V c 0 t) (iblk7 V c 1 t) (iblk7 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover7_A_0 c _ _ _ _ _ _ _ _ _ _ _ _ _ _ _ _)
            iexact Hr
          iexact Hg
        isplitl [Ho]; · iexact Ho
        isplitl [H0]; · iexact H0
        isplitl [H1]; · iexact H1
        isplitl [H2]; · iexact H2
        iexists _; iexact H3
  · by_cases h1 : t.val % 8 = 7
    · rw [show (dat7 V c).leavesExact 3 t = owns (c : Thread nD τ) (ms7_3 t) fullShare ((dat7 V c).after 3 t) from by
        unfold Dat.leavesExact; rw [liveAt7_3_C t (fun h => h0 ((hcond7_0 t).mp h)) ((hcond7_1 t).mpr h1)], after7_3]
      rw [outsAt7_C V c t h0 h1]
      unfold out7_C_3 sout7_C_0; (try dsimp only)
      by_cases hz : t.val = 0
      · exfalso; omega
      · rw [PhiS7_castSucc V c t, PhiS7_pos V c _ _ hz]
        iintro ⟨⟨⟨HS0, Hr⟩, Hg⟩, Ho, ⟨%d0, H0⟩, ⟨%d1, H1⟩, ⟨%d2, H2⟩, ⟨%d3, H3⟩⟩
        iapply ((kernelRun7_C c (grid7.coords t) _ _ _ _ _ _ _ _ _ _ (fun h => h0 ((hcond7_0 t).mp h)) ((hcond7_1 t).mpr h1) (iblk7 V c 0 t) (iblk7 V c 1 t) (iblk7 V c 2 t) _).2.2 Set.univ _)
        isplitl [H0]; · iexact H0
        isplitl [H1]; · iexact H1
        isplitl [H2]; · iexact H2
        isplitl [H3]; · iexists _; iexact H3
        isplitl [HS0]; · iexact HS0
        iintro ⟨H0, H1, H2, ⟨%e3, H3⟩, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover7_C_0 c _ _ _ _ _ _ _ _ _ _ _ _ _ _ _ _ _)
            iexact Hr
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover7_C_3 c _ _ _ _ _ _ _ _ _ _ _ _ _ _ _ _ _)
    · rw [Dat.leavesExact_idle (dat7 V c) 3 t (idleAt7_3_B t (fun h => h0 ((hcond7_0 t).mp h)) (fun h => h1 ((hcond7_1 t).mp h))) (noFlush7_3_B t (fun h => h0 ((hcond7_0 t).mp h)) (fun h => h1 ((hcond7_1 t).mp h)))]
      rw [outsAt7_B V c t h0 h1]
      unfold sout7_B_0; (try dsimp only)
      by_cases hz : t.val = 0
      · exfalso; omega
      · rw [PhiS7_castSucc V c t, PhiS7_pos V c _ _ hz]
        iintro ⟨⟨⟨HS0, Hr⟩, Hg⟩, Ho, ⟨%d0, H0⟩, ⟨%d1, H1⟩, ⟨%d2, H2⟩, ⟨%d3, H3⟩⟩
        iapply ((kernelRun7_B c (grid7.coords t) _ _ _ _ _ _ _ _ _ _ (fun h => h0 ((hcond7_0 t).mp h)) (fun h => h1 ((hcond7_1 t).mp h)) (iblk7 V c 0 t) (iblk7 V c 1 t) (iblk7 V c 2 t) _).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover7_B_0 c _ _ _ _ _ _ _ _ _ _ _ _ _ _ _ _ _)
            iexact Hr
          iexact Hg
        isplitl [Ho]; · iexact Ho
        isplitl [H0]; · iexact H0
        isplitl [H1]; · iexact H1
        isplitl [H2]; · iexact H2
        iexists _; iexact H3

/-- The library's body obligation, at every point. -/
theorem body_obligation7 (c : Dev nD) : BodyObligation (dat7 (F := F) V c) (defs₀ (F := F)) Variants.none () Set.univ := fun t => by
  rw [bigSep_W7, bigSep_W7]
  exact sound_body7 V c t

/-- What the launch hands the region is the invariant before the first point. -/
theorem hin7 (c : Dev nD) : Pipeline.ΦA spec7 c ⊢ (dat7 V c).Φ 0 := by
  rw [show (dat7 V c).Φ 0 = PhiS7 V c 0 (Nat.zero_le _) from rfl, PhiS7_zero V c 0 _ rfl]
  try exact Idealize.SL.BI.Entails.refl _

/-- After any point but the first the invariant gives the class's back: the accumulator's contents are forgotten. -/
theorem Phi_out7 (c : Dev nD) (t : Fin (cfg7.N + 1)) (ht : t.val ≠ 0) : (dat7 V c).Φ t ⊢ Pipeline.ΦA spec7 c := by
  rw [show (dat7 V c).Φ t = PhiS7 V c t.val (Nat.le_of_lt_succ t.isLt) from rfl, PhiS7_pos V c _ _ ht, PhiA7_eq]
  iintro ⟨⟨HS0, Hr⟩, Hg⟩
  isplitl [HS0 Hr]
  · isplitl [HS0]
    · iexists _; iexact HS0
    iexact Hr
  iexact Hg

/-- The same after the last point. -/
theorem hout7 (c : Dev nD) : (dat7 V c).Φ (Fin.last cfg7.N) ⊢ Pipeline.ΦA spec7 c :=
  Phi_out7 V c _ (by rw [Fin.val_last]; have : cfg7.N = 32 := N_7; omega)

end Cert.KernelIdeal.Gen
end
-- ==== Proof.KernelIdealH.Reg8.lean ====
import proofs.«157173_j56882546868342_2_alg».proof.Proof.KernelIdealH.Launch
import proofs.«157173_j56882546868342_2_alg».proof.Proof.Gen.KernelIdeal.Skeleton
import proofs.«157173_j56882546868342_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384
noncomputable section
namespace Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

/-! # Region 8: a blocked matrix product with a bias row

The grid is (4, 1, 2): point t has row-block t / 2 and reduction step t % 2. A scratch accumulator is zeroed at
step 0, receives one block product per step, and at step 1, the last, the bias row is added and the result is stored
into the output block. There is no middle step. -/

/-! ## The windows' blocks -/

/-- Window w's block at point t, read off its array as the region finds it. -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- An input window's current staging buffer holds its block at every point, fetched there or not: when it is not
    fetched the block index has not moved, so the block of the point before is this point's. -/
theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)
theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)
/-- The bias row is fetched at the first point only; its block index never moves, so the same holds of it. -/
theorem before8_2_of {c : Dev nD} (dat : Dat τ (Elt F) Unit ℕ (UR sig nD τ) ℕ cfg8 c) (hA : dat.A 2 = V c (Pipeline.arrRef spec8 2))
    (hafter : ∀ t, dat.after 2 t = iblk8 V c 2 t) (t : Fin cfg8.N) (d) : dat.before 2 t d = iblk8 V c 2 t :=
  (dat.before_in_eq_fetched 2 rfl (fun _ => rfl) (fun _ _ _ => rfl) (fun t => by rw [hafter]; unfold Dat.blockOf iblk8; rw [hA]; try rfl) t d).trans
    (by unfold Dat.fetched Dat.blockOf iblk8; rw [hA]; try rfl)

/-! ## The body's two conditions, in closed form over the grid -/

/-- The first condition: the reduction step is 0. -/
abbrev cond8_0 (i : grid8.Coords) : Prop := (Scalar.cmpi .ne (Scalar.extui (Scalar.cmpi .eq (BitVec.ofNat 32 (i 2).val) 0#32)) 0#32) = 1#1
theorem hcond8_0 : ∀ t : Fin cfg8.N, cond8_0 (grid8.coords t) ↔ t.val % 2 = 0 :=
  (by decide +kernel : ∀ t : Fin grid8.N, cond8_0 (grid8.coords t) ↔ t.val % 2 = 0)
/-- The second condition: the reduction step is the last, 1. -/
abbrev cond8_1 (i : grid8.Coords) : Prop := k8_cond2 i = 1#1
theorem hcond8_1 : ∀ t : Fin cfg8.N, cond8_1 (grid8.coords t) ↔ t.val % 2 = 1 :=
  (by decide +kernel : ∀ t : Fin grid8.N, cond8_1 (grid8.coords t) ↔ t.val % 2 = 1)

/-! ## Where the windows are idle -/

theorem liveAt8_0 : ∀ t : Fin cfg8.N, cfg8.idle 0 (grid8.coords t) = false := by decide +kernel
theorem liveAt8_1 : ∀ t : Fin cfg8.N, cfg8.idle 1 (grid8.coords t) = false := by decide +kernel
theorem liveAt8_2 : ∀ t : Fin cfg8.N, cfg8.idle 2 (grid8.coords t) = false := by decide +kernel
/-- At the first step nothing is stored into the output block and it is not written back. -/
theorem idleAt8_3_A : ∀ t : Fin cfg8.N, cond8_0 (grid8.coords t) → ¬cond8_1 (grid8.coords t) → cfg8.idle 3 (grid8.coords t) = true := by decide +kernel
theorem noFlush8_3_A : ∀ t : Fin cfg8.N, cond8_0 (grid8.coords t) → ¬cond8_1 (grid8.coords t) → (cfg8.win 3).flush t = false := by decide +kernel
/-- At the last step the output block is stored. -/
theorem liveAt8_3_C : ∀ t : Fin cfg8.N, ¬cond8_0 (grid8.coords t) → cond8_1 (grid8.coords t) → cfg8.idle 3 (grid8.coords t) = false := by decide +kernel

/-! ## The staging and scratch memrefs -/

/-- One staging buffer of the output window, through which its contents are stated. -/
abbrev VO8_3 : View sig .tc .vmem S1024x512 .bf16 := (Memref.whole cc8_stg3_0 : Memref sig .tc .vmem S1024x512 .bf16).view
/-- Each window's current staging memref at point t, and its wholeness. -/
abbrev ms8_0 (t : Fin cfg8.N) : Memref sig .tc .vmem S1024x512 .bf16 := win8_0.stage (cfg8.slots t 0)
abbrev hs8_0 (t : Fin cfg8.N) : (ms8_0 t).IsWhole := hstage8_0 ((cfg8.slots t 0).cast nbuf8_0)
abbrev ms8_1 (t : Fin cfg8.N) : Memref sig .tc .vmem S512x512 .bf16 := win8_1.stage (cfg8.slots t 1)
abbrev hs8_1 (t : Fin cfg8.N) : (ms8_1 t).IsWhole := hstage8_1 ((cfg8.slots t 1).cast nbuf8_1)
abbrev ms8_2 (t : Fin cfg8.N) : Memref sig .tc .vmem S1x512 .f32 := win8_2.stage (cfg8.slots t 2)
abbrev hs8_2 (t : Fin cfg8.N) : (ms8_2 t).IsWhole := hstage8_2 ((cfg8.slots t 2).cast nbuf8_2)
abbrev ms8_3 (t : Fin cfg8.N) : Memref sig .tc .vmem S1024x512 .bf16 := win8_3.stage (cfg8.slots t 3)
abbrev hs8_3 (t : Fin cfg8.N) : (ms8_3 t).IsWhole := hstage8_3 ((cfg8.slots t 3).cast nbuf8_3)
/-- The accumulator: a whole scoped buffer of the kernel's own, passed beside the windows. -/
abbrev scM8_0 : Memref sig .tc .vmem S1024x512 .f32 := Memref.whole cc8_scratch0
abbrev VS8_0 : View sig .tc .vmem S1024x512 .f32 := scM8_0.view

/-- The region invariant with the accumulator named as a memref owned at some contents; every other scoped buffer
    stays unopened. -/
theorem PhiA8_eq (c : Dev nD) :
    (Pipeline.ΦA spec8 c : sProp 𝕄)
      = iprop(iprop(iprop((∃ d, owns (c : Thread nD τ) scM8_0 fullShare d)) ∗ Pipeline.scopedRestBut spec8 c [cc8_scratch0]) ∗ (∃ r, prngReg c r)) := by
  unfold Pipeline.ΦA; rw [scopedRest8_split]; simp only [scM8_0, owns_whole]; try rfl

/-! ## The body's run, case by case

The kernel body on whole staging memrefs: the inputs' at their contents, the accumulator at what the step before left
(at anything in the first case, which overwrites it before reading), the output's at anything where it is stored and
handed back untouched where it is not. The pieces each buffer ends with are the witness the run finds. -/

set_option maxHeartbeats 1000000 in
/-- Case A, the first step: the accumulator is zeroed and receives the first block product; the output is not touched. -/
noncomputable def kernelRun8_A (c : Dev nD) (i : grid8.Coords) (arg3 : Memref sig .tc .vmem S1024x512 .bf16) (harg3 : arg3.IsWhole) (arg4 : Memref sig .tc .vmem S512x512 .bf16) (harg4 : arg4.IsWhole) (arg5 : Memref sig .tc .vmem S1x512 .f32) (harg5 : arg5.IsWhole) (arg6 : Memref sig .tc .vmem S1024x512 .bf16) (harg6 : arg6.IsWhole) (arg7 : Memref sig .tc .vmem S1024x512 .f32) (harg7 : arg7.IsWhole) (hc0 : cond8_0 i) (hc1 : ¬cond8_1 i)
    (x0 : Vec F S1024x512 .bf16) (x1 : Vec F S512x512 .bf16) (x2 : Vec F S1x512 .f32) :
    Σ' (L3 : List (View.Piece (Elt F) S1024x512 .bf16)), { LS0 : List (View.Piece (Elt F) S1024x512 .f32) //
      ∀ (xi3 : Vec F S1024x512 .bf16) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xi3 ∗ (∃ d, owns (c : Thread nD τ) arg7 fullShare d)
            ∗ (iprop(owns (c : Thread nD τ) arg3 fullShare x0 ∗ owns (c : Thread nD τ) arg4 fullShare x1 ∗ owns (c : Thread nD τ) arg5 fullShare x2 ∗ owns (c : Thread nD τ) arg6 fullShare xi3 ∗ (∃ f, arg7.view.loc (c : Thread nD τ) ↦[arg7.view.set]{fullShare} arg7.view.writes (Elt F) f LS0)) -∗ K ⟨⟩))
          ⊢ wp frame (wpE (defs₀ (F := F)) Variants.none c none) E (cc8__mm_kernel_bias i arg3 harg3 arg4 harg4 arg5 harg5 arg6 harg6 arg7 harg7) K } := by
  refine ⟨[], ?_, fun xi3 E K => ?run⟩
  case run =>
    simp only [cc8__mm_kernel_bias_eq_skeleton]; unfold cc8__mm_kernel_bias_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg3.eq_unread hf0; obtain rfl := harg4.eq_unread hf1; obtain rfl := harg5.eq_unread hf2; obtain rfl := harg6.eq_unread hf3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    iexists _; iexact HS0

set_option maxHeartbeats 1000000 in
/-- Case C, the last step: the accumulator receives the last block product, and the output block is stored from it. -/
noncomputable def kernelRun8_C (c : Dev nD) (i : grid8.Coords) (arg3 : Memref sig .tc .vmem S1024x512 .bf16) (harg3 : arg3.IsWhole) (arg4 : Memref sig .tc .vmem S512x512 .bf16) (harg4 : arg4.IsWhole) (arg5 : Memref sig .tc .vmem S1x512 .f32) (harg5 : arg5.IsWhole) (arg6 : Memref sig .tc .vmem S1024x512 .bf16) (harg6 : arg6.IsWhole) (arg7 : Memref sig .tc .vmem S1024x512 .f32) (harg7 : arg7.IsWhole) (hc0 : ¬cond8_0 i) (hc1 : cond8_1 i)
    (x0 : Vec F S1024x512 .bf16) (x1 : Vec F S512x512 .bf16) (x2 : Vec F S1x512 .f32) (xs0 : Vec F S1024x512 .f32) :
    Σ' (L3 : List (View.Piece (Elt F) S1024x512 .bf16)), { LS0 : List (View.Piece (Elt F) S1024x512 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ owns (c : Thread nD τ) arg7 fullShare xs0
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3) ∗ (∃ f, arg7.view.loc (c : Thread nD τ) ↦[arg7.view.set]{fullShare} arg7.view.writes (Elt F) f LS0)) -∗ K ⟨⟩))
          ⊢ wp frame (wpE (defs₀ (F := F)) Variants.none c none) E (cc8__mm_kernel_bias i arg3 harg3 arg4 harg4 arg5 harg5 arg6 harg6 arg7 harg7) K } := by
  refine ⟨?_, ?_, fun E K => ?run⟩
  case run =>
    simp only [cc8__mm_kernel_bias_eq_skeleton]; unfold cc8__mm_kernel_bias_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg3.eq_unread hf0; obtain rfl := harg4.eq_unread hf1; obtain rfl := harg5.eq_unread hf2; obtain rfl := harg7.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]; · iexists _; iexact H3
    iexists _; iexact HS0

/-! ## What each case leaves: pieces read back, and their covers -/

section Pieces8
variable (c : Dev nD) (i : grid8.Coords) (arg3 : Memref sig .tc .vmem S1024x512 .bf16) (harg3 : arg3.IsWhole) (arg4 : Memref sig .tc .vmem S512x512 .bf16) (harg4 : arg4.IsWhole) (arg5 : Memref sig .tc .vmem S1x512 .f32) (harg5 : arg5.IsWhole) (arg6 : Memref sig .tc .vmem S1024x512 .bf16) (harg6 : arg6.IsWhole) (arg7 : Memref sig .tc .vmem S1024x512 .f32) (harg7 : arg7.IsWhole)

/-- Case A stores nothing into the output: a placeholder nothing consults (the window is idle there). -/
def out8_A_3 (hc0 : cond8_0 i) (hc1 : ¬cond8_1 i) (x0 : Vec F S1024x512 .bf16) (x1 : Vec F S512x512 .bf16) (x2 : Vec F S1x512 .f32) : Vec F S1024x512 .bf16 :=
  VO8_3.read (Elt F) (VO8_3.writes (Elt F) VO8_3.junk (kernelRun8_A c i arg3 harg3 arg4 harg4 arg5 harg5 arg6 harg6 arg7 harg7 hc0 hc1 x0 x1 x2).1)
/-- Case A's pieces for the accumulator cover it (two whole-buffer stores). -/
theorem scover8_A_0 (hc0 : cond8_0 i) (hc1 : ¬cond8_1 i) (x0 : Vec F S1024x512 .bf16) (x1 : Vec F S512x512 .bf16) (x2 : Vec F S1x512 .f32) (y : S1024x512.Idx) :
    ∃ pc ∈ (kernelRun8_A c i arg3 harg3 arg4 harg4 arg5 harg5 arg6 harg6 arg7 harg7 hc0 hc1 x0 x1 x2).2.1, y ∈ pc.1.set :=
  View.cover_of_tiledL (kernelRun8_A c i arg3 harg3 arg4 harg4 arg5 harg5 arg6 harg6 arg7 harg7 hc0 hc1 x0 x1 x2).2.1 S1024x512.size (by sl_kernel_rfl) y
/-- What case A leaves in the accumulator. -/
def sout8_A_0 (hc0 : cond8_0 i) (hc1 : ¬cond8_1 i) (x0 : Vec F S1024x512 .bf16) (x1 : Vec F S512x512 .bf16) (x2 : Vec F S1x512 .f32) : Vec F S1024x512 .f32 :=
  VS8_0.read (Elt F) (VS8_0.writes (Elt F) VS8_0.junk (kernelRun8_A c i arg3 harg3 arg4 harg4 arg5 harg5 arg6 harg6 arg7 harg7 hc0 hc1 x0 x1 x2).2.1)

/-- Case C's piece for the output covers its block (one whole-buffer store). -/
theorem cover8_C_3 (hc0 : ¬cond8_0 i) (hc1 : cond8_1 i) (x0 : Vec F S1024x512 .bf16) (x1 : Vec F S512x512 .bf16) (x2 : Vec F S1x512 .f32) (xs0 : Vec F S1024x512 .f32) (y : S1024x512.Idx) :
    ∃ pc ∈ (kernelRun8_C c i arg3 harg3 arg4 harg4 arg5 harg5 arg6 harg6 arg7 harg7 hc0 hc1 x0 x1 x2 xs0).1, y ∈ pc.1.set :=
  View.cover_of_tiledL (kernelRun8_C c i arg3 harg3 arg4 harg4 arg5 harg5 arg6 harg6 arg7 harg7 hc0 hc1 x0 x1 x2 xs0).1 S1024x512.size (by sl_kernel_rfl) y
/-- What case C leaves in the output's staging buffer. -/
def out8_C_3 (hc0 : ¬cond8_0 i) (hc1 : cond8_1 i) (x0 : Vec F S1024x512 .bf16) (x1 : Vec F S512x512 .bf16) (x2 : Vec F S1x512 .f32) (xs0 : Vec F S1024x512 .f32) : Vec F S1024x512 .bf16 :=
  VO8_3.read (Elt F) (VO8_3.writes (Elt F) VO8_3.junk (kernelRun8_C c i arg3 harg3 arg4 harg4 arg5 harg5 arg6 harg6 arg7 harg7 hc0 hc1 x0 x1 x2 xs0).1)
/-- Case C's piece for the accumulator covers it. -/
theorem scover8_C_0 (hc0 : ¬cond8_0 i) (hc1 : cond8_1 i) (x0 : Vec F S1024x512 .bf16) (x1 : Vec F S512x512 .bf16) (x2 : Vec F S1x512 .f32) (xs0 : Vec F S1024x512 .f32) (y : S1024x512.Idx) :
    ∃ pc ∈ (kernelRun8_C c i arg3 harg3 arg4 harg4 arg5 harg5 arg6 harg6 arg7 harg7 hc0 hc1 x0 x1 x2 xs0).2.1, y ∈ pc.1.set :=
  View.cover_of_tiledL (kernelRun8_C c i arg3 harg3 arg4 harg4 arg5 harg5 arg6 harg6 arg7 harg7 hc0 hc1 x0 x1 x2 xs0).2.1 S1024x512.size (by sl_kernel_rfl) y
/-- What case C leaves in the accumulator. -/
def sout8_C_0 (hc0 : ¬cond8_0 i) (hc1 : cond8_1 i) (x0 : Vec F S1024x512 .bf16) (x1 : Vec F S512x512 .bf16) (x2 : Vec F S1x512 .f32) (xs0 : Vec F S1024x512 .f32) : Vec F S1024x512 .f32 :=
  VS8_0.read (Elt F) (VS8_0.writes (Elt F) VS8_0.junk (kernelRun8_C c i arg3 harg3 arg4 harg4 arg5 harg5 arg6 harg6 arg7 harg7 hc0 hc1 x0 x1 x2 xs0).2.1)

end Pieces8

/-! ## What the output's staging buffer and the accumulator hold after each point -/

/-- The accumulation: after the body at position n, the pair (output staging buffer, accumulator). An even point is a
    first step; an odd point is a last step and runs over what the point before left in the accumulator. -/
def outsAt8 (c : Dev nD) : (n : ℕ) → n < cfg8.N → Vec F S1024x512 .bf16 × Vec F S1024x512 .f32
  | 0, hn => (out8_A_3 c (grid8.coords ⟨0, hn⟩) (ms8_0 ⟨0, hn⟩) (hs8_0 ⟨0, hn⟩) (ms8_1 ⟨0, hn⟩) (hs8_1 ⟨0, hn⟩) (ms8_2 ⟨0, hn⟩) (hs8_2 ⟨0, hn⟩) (ms8_3 ⟨0, hn⟩) (hs8_3 ⟨0, hn⟩) scM8_0 (Memref.isWhole_whole _) ((hcond8_0 ⟨0, hn⟩).mpr (Nat.zero_mod _)) (fun h => (fun h => by (try dsimp only at h); omega) ((hcond8_1 ⟨0, hn⟩).mp h)) (iblk8 V c 0 ⟨0, hn⟩) (iblk8 V c 1 ⟨0, hn⟩) (iblk8 V c 2 ⟨0, hn⟩),
      sout8_A_0 c (grid8.coords ⟨0, hn⟩) (ms8_0 ⟨0, hn⟩) (hs8_0 ⟨0, hn⟩) (ms8_1 ⟨0, hn⟩) (hs8_1 ⟨0, hn⟩) (ms8_2 ⟨0, hn⟩) (hs8_2 ⟨0, hn⟩) (ms8_3 ⟨0, hn⟩) (hs8_3 ⟨0, hn⟩) scM8_0 (Memref.isWhole_whole _) ((hcond8_0 ⟨0, hn⟩).mpr (Nat.zero_mod _)) (fun h => (fun h => by (try dsimp only at h); omega) ((hcond8_1 ⟨0, hn⟩).mp h)) (iblk8 V c 0 ⟨0, hn⟩) (iblk8 V c 1 ⟨0, hn⟩) (iblk8 V c 2 ⟨0, hn⟩))
  | n + 1, hn =>
    if h0 : (n + 1) % 2 = 0 then
      if h1 : (n + 1) % 2 = 1 then
        False.elim (by omega)
      else
        (out8_A_3 c (grid8.coords ⟨n + 1, hn⟩) (ms8_0 ⟨n + 1, hn⟩) (hs8_0 ⟨n + 1, hn⟩) (ms8_1 ⟨n + 1, hn⟩) (hs8_1 ⟨n + 1, hn⟩) (ms8_2 ⟨n + 1, hn⟩) (hs8_2 ⟨n + 1, hn⟩) (ms8_3 ⟨n + 1, hn⟩) (hs8_3 ⟨n + 1, hn⟩) scM8_0 (Memref.isWhole_whole _) ((hcond8_0 ⟨n + 1, hn⟩).mpr h0) (fun h => h1 ((hcond8_1 ⟨n + 1, hn⟩).mp h)) (iblk8 V c 0 ⟨n + 1, hn⟩) (iblk8 V c 1 ⟨n + 1, hn⟩) (iblk8 V c 2 ⟨n + 1, hn⟩),
          sout8_A_0 c (grid8.coords ⟨n + 1, hn⟩) (ms8_0 ⟨n + 1, hn⟩) (hs8_0 ⟨n + 1, hn⟩) (ms8_1 ⟨n + 1, hn⟩) (hs8_1 ⟨n + 1, hn⟩) (ms8_2 ⟨n + 1, hn⟩) (hs8_2 ⟨n + 1, hn⟩) (ms8_3 ⟨n + 1, hn⟩) (hs8_3 ⟨n + 1, hn⟩) scM8_0 (Memref.isWhole_whole _) ((hcond8_0 ⟨n + 1, hn⟩).mpr h0) (fun h => h1 ((hcond8_1 ⟨n + 1, hn⟩).mp h)) (iblk8 V c 0 ⟨n + 1, hn⟩) (iblk8 V c 1 ⟨n + 1, hn⟩) (iblk8 V c 2 ⟨n + 1, hn⟩))
    else
      if h1 : (n + 1) % 2 = 1 then
        (out8_C_3 c (grid8.coords ⟨n + 1, hn⟩) (ms8_0 ⟨n + 1, hn⟩) (hs8_0 ⟨n + 1, hn⟩) (ms8_1 ⟨n + 1, hn⟩) (hs8_1 ⟨n + 1, hn⟩) (ms8_2 ⟨n + 1, hn⟩) (hs8_2 ⟨n + 1, hn⟩) (ms8_3 ⟨n + 1, hn⟩) (hs8_3 ⟨n + 1, hn⟩) scM8_0 (Memref.isWhole_whole _) (fun h => h0 ((hcond8_0 ⟨n + 1, hn⟩).mp h)) ((hcond8_1 ⟨n + 1, hn⟩).mpr h1) (iblk8 V c 0 ⟨n + 1, hn⟩) (iblk8 V c 1 ⟨n + 1, hn⟩) (iblk8 V c 2 ⟨n + 1, hn⟩) (outsAt8 c n (Nat.lt_of_succ_lt hn)).2,
          sout8_C_0 c (grid8.coords ⟨n + 1, hn⟩) (ms8_0 ⟨n + 1, hn⟩) (hs8_0 ⟨n + 1, hn⟩) (ms8_1 ⟨n + 1, hn⟩) (hs8_1 ⟨n + 1, hn⟩) (ms8_2 ⟨n + 1, hn⟩) (hs8_2 ⟨n + 1, hn⟩) (ms8_3 ⟨n + 1, hn⟩) (hs8_3 ⟨n + 1, hn⟩) scM8_0 (Memref.isWhole_whole _) (fun h => h0 ((hcond8_0 ⟨n + 1, hn⟩).mp h)) ((hcond8_1 ⟨n + 1, hn⟩).mpr h1) (iblk8 V c 0 ⟨n + 1, hn⟩) (iblk8 V c 1 ⟨n + 1, hn⟩) (iblk8 V c 2 ⟨n + 1, hn⟩) (outsAt8 c n (Nat.lt_of_succ_lt hn)).2)
      else
        False.elim (by omega)

/-- At a point of case A: that case's contents. -/
theorem outsAt8_A (c : Dev nD) (t : Fin cfg8.N) (h0 : t.val % 2 = 0) (h1 : ¬t.val % 2 = 1) :
    outsAt8 V c t.val t.isLt = (out8_A_3 c (grid8.coords t) (ms8_0 t) (hs8_0 t) (ms8_1 t) (hs8_1 t) (ms8_2 t) (hs8_2 t) (ms8_3 t) (hs8_3 t) scM8_0 (Memref.isWhole_whole _) ((hcond8_0 t).mpr h0) (fun h => h1 ((hcond8_1 t).mp h)) (iblk8 V c 0 t) (iblk8 V c 1 t) (iblk8 V c 2 t),
      sout8_A_0 c (grid8.coords t) (ms8_0 t) (hs8_0 t) (ms8_1 t) (hs8_1 t) (ms8_2 t) (hs8_2 t) (ms8_3 t) (hs8_3 t) scM8_0 (Memref.isWhole_whole _) ((hcond8_0 t).mpr h0) (fun h => h1 ((hcond8_1 t).mp h)) (iblk8 V c 0 t) (iblk8 V c 1 t) (iblk8 V c 2 t)) := by
  obtain ⟨n, hn⟩ := t
  cases n with
  | zero => exact rfl
  | succ n => exact (dif_pos h0).trans ((dif_neg h1).trans rfl)

/-- At a point of case C: that case's contents, over what the point before left in the accumulator. -/
theorem outsAt8_C (c : Dev nD) (t : Fin cfg8.N) (h0 : ¬t.val % 2 = 0) (h1 : t.val % 2 = 1) :
    outsAt8 V c t.val t.isLt = (out8_C_3 c (grid8.coords t) (ms8_0 t) (hs8_0 t) (ms8_1 t) (hs8_1 t) (ms8_2 t) (hs8_2 t) (ms8_3 t) (hs8_3 t) scM8_0 (Memref.isWhole_whole _) (fun h => h0 ((hcond8_0 t).mp h)) ((hcond8_1 t).mpr h1) (iblk8 V c 0 t) (iblk8 V c 1 t) (iblk8 V c 2 t) (outsAt8 V c (t.val - 1) (Nat.lt_of_le_of_lt (Nat.sub_le _ _) t.isLt)).2,
      sout8_C_0 c (grid8.coords t) (ms8_0 t) (hs8_0 t) (ms8_1 t) (hs8_1 t) (ms8_2 t) (hs8_2 t) (ms8_3 t) (hs8_3 t) scM8_0 (Memref.isWhole_whole _) (fun h => h0 ((hcond8_0 t).mp h)) ((hcond8_1 t).mpr h1) (iblk8 V c 0 t) (iblk8 V c 1 t) (iblk8 V c 2 t) (outsAt8 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region invariant, with the accumulator's contents named -/

/-- Before the first point the class's invariant (the accumulator at anything); before point n + 1 the accumulator at
    what point n left, every other scoped buffer unopened, the generator register at some state. -/
def PhiS8 (c : Dev nD) : (n : ℕ) → n ≤ cfg8.N → sProp 𝕄
  | 0, _ => Pipeline.ΦA spec8 c
  | n + 1, hn => iprop(iprop(owns (c : Thread nD τ) scM8_0 fullShare ((outsAt8 V c n hn).2) ∗ Pipeline.scopedRestBut spec8 c [cc8_scratch0]) ∗ (∃ r, prngReg c r))

theorem PhiS8_zero (c : Dev nD) (n : ℕ) (h : n ≤ cfg8.N) (hz : n = 0) : PhiS8 V c n h = Pipeline.ΦA spec8 c := by
  subst hz; rfl

theorem PhiS8_succ (c : Dev nD) (n : ℕ) (hn : n < cfg8.N) :
    PhiS8 V c (n + 1) hn = iprop(iprop(owns (c : Thread nD τ) scM8_0 fullShare ((outsAt8 V c n hn).2) ∗ Pipeline.scopedRestBut spec8 c [cc8_scratch0]) ∗ (∃ r, prngReg c r)) := rfl

theorem PhiS8_pos (c : Dev nD) (n : ℕ) (h : n ≤ cfg8.N) (hz : n ≠ 0) :
    PhiS8 V c n h = iprop(iprop(owns (c : Thread nD τ) scM8_0 fullShare ((outsAt8 V c (n - 1) (by omega)).2) ∗ Pipeline.scopedRestBut spec8 c [cc8_scratch0]) ∗ (∃ r, prngReg c r)) := by
  cases n with
  | zero => exact absurd rfl hz
  | succ n => rfl

/-! ## The pipeline's proof data -/

/-- The arrays as the region finds them; after the body at point t each input's buffer at its block and the output's
    at what the accumulation says; the invariant above; nothing owed; full shares. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => (outsAt8 V c t.val t.isLt).1
  Φ t := PhiS8 V c t.val (Nat.le_of_lt_succ t.isLt)
  q _ := fullShare
  owed _ := 0

theorem A_eq8 (c : Dev nD) (w : Fin cfg8.W) : (dat8 V c).A w = V c (Pipeline.arrRef spec8 w) := by
  dsimp only [dat8]

theorem PhiS8_castSucc (c : Dev nD) (t : Fin cfg8.N) :
    (dat8 V c).Φ t.castSucc = PhiS8 V c t.val (Nat.le_of_lt t.isLt) := by
  dsimp only [dat8]; simp only [Fin.coe_castSucc]

theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t = (outsAt8 V c t.val t.isLt).1 := by dsimp only [dat8]

theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d
theorem before8_2 (c : Dev nD) (t : Fin cfg8.N) (d) : (dat8 V c).before 2 t d = iblk8 V c 2 t :=
  before8_2_of V (dat8 V c) (A_eq8 V c 2) (after8_2 V c) t d

/-! ## The body obligation, at a generic point -/

/-- What the body is called with at point t, the windows one by one, -/
def bodyPre8 (c : Dev nD) (t : Fin cfg8.N) : sProp 𝕄 :=
  iprop((dat8 V c).Φ t.castSucc ∗ (dat8 V c).owesAt () t.castSucc
    ∗ (∃ d, owns (c : Thread nD τ) (ms8_0 t) fullShare ((dat8 V c).before 0 t d))
    ∗ (∃ d, owns (c : Thread nD τ) (ms8_1 t) fullShare ((dat8 V c).before 1 t d))
    ∗ (∃ d, owns (c : Thread nD τ) (ms8_2 t) fullShare ((dat8 V c).before 2 t d))
    ∗ (∃ d, owns (c : Thread nD τ) (ms8_3 t) fullShare ((dat8 V c).before 3 t d)))

/-- and what it returns. -/
def bodyPost8 (c : Dev nD) (t : Fin cfg8.N) : sProp 𝕄 :=
  iprop((dat8 V c).Φ t.succ ∗ (dat8 V c).owesAt () t.succ
    ∗ (dat8 V c).leavesExact 0 t
    ∗ (dat8 V c).leavesExact 1 t
    ∗ (dat8 V c).leavesExact 2 t
    ∗ (dat8 V c).leavesExact 3 t)

set_option maxHeartbeats 4800000 in
/-- The body at any point. The inputs' memrefs hold their blocks; the parity of the point says which case it is in; the
    invariant hands the body the accumulator at what the point before left (at anything at the first point) and takes it
    back at this point's contents, by the case's cover; the output's buffer is handed back untouched at a first step and
    at the case's contents at a last step; the core owes nothing throughout. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2]
  rw [show (dat8 V c).owesAt () t.succ = (dat8 V c).owesAt () t.castSucc from rfl]
  rw [show (dat8 V c).Φ t.succ = PhiS8 V c (t.val + 1) t.isLt from rfl, PhiS8_succ]
  have hN : t.val < 8 := lt_of_lt_of_eq t.isLt (show cfg8.N = 8 from N_8)
  rw [show (dat8 V c).leavesExact 0 t = owns (c : Thread nD τ) (ms8_0 t) fullShare ((dat8 V c).after 0 t) from by
    unfold Dat.leavesExact; rw [liveAt8_0 t], after8_0]
  rw [show (dat8 V c).leavesExact 1 t = owns (c : Thread nD τ) (ms8_1 t) fullShare ((dat8 V c).after 1 t) from by
    unfold Dat.leavesExact; rw [liveAt8_1 t], after8_1]
  rw [show (dat8 V c).leavesExact 2 t = owns (c : Thread nD τ) (ms8_2 t) fullShare ((dat8 V c).after 2 t) from by
    unfold Dat.leavesExact; rw [liveAt8_2 t], after8_2]
  by_cases h0 : t.val % 2 = 0
  · by_cases h1 : t.val % 2 = 1
    · exfalso; omega
    · rw [Dat.leavesExact_idle (dat8 V c) 3 t (idleAt8_3_A t ((hcond8_0 t).mpr h0) (fun h => h1 ((hcond8_1 t).mp h))) (noFlush8_3_A t ((hcond8_0 t).mpr h0) (fun h => h1 ((hcond8_1 t).mp h)))]
      rw [outsAt8_A V c t h0 h1]
      unfold sout8_A_0; (try dsimp only)
      by_cases hz : t.val = 0
      · rw [PhiS8_castSucc V c t, PhiS8_zero V c _ _ hz, PhiA8_eq]
        iintro ⟨⟨⟨HS0, Hr⟩, Hg⟩, Ho, ⟨%d0, H0⟩, ⟨%d1, H1⟩, ⟨%d2, H2⟩, ⟨%d3, H3⟩⟩
        iapply ((kernelRun8_A c (grid8.coords t) _ _ _ _ _ _ _ _ _ _ ((hcond8_0 t).mpr h0) (fun h => h1 ((hcond8_1 t).mp h)) (iblk8 V c 0 t) (iblk8 V c 1 t) (iblk8 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover8_A_0 c _ _ _ _ _ _ _ _ _ _ _ _ _ _ _ _)
            iexact Hr
          iexact Hg
        isplitl [Ho]; · iexact Ho
        isplitl [H0]; · iexact H0
        isplitl [H1]; · iexact H1
        isplitl [H2]; · iexact H2
        iexists _; iexact H3
      · rw [PhiS8_castSucc V c t, PhiS8_pos V c _ _ hz]
        iintro ⟨⟨⟨HS0, Hr⟩, Hg⟩, Ho, ⟨%d0, H0⟩, ⟨%d1, H1⟩, ⟨%d2, H2⟩, ⟨%d3, H3⟩⟩
        iapply ((kernelRun8_A c (grid8.coords t) _ _ _ _ _ _ _ _ _ _ ((hcond8_0 t).mpr h0) (fun h => h1 ((hcond8_1 t).mp h)) (iblk8 V c 0 t) (iblk8 V c 1 t) (iblk8 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover8_A_0 c _ _ _ _ _ _ _ _ _ _ _ _ _ _ _ _)
            iexact Hr
          iexact Hg
        isplitl [Ho]; · iexact Ho
        isplitl [H0]; · iexact H0
        isplitl [H1]; · iexact H1
        isplitl [H2]; · iexact H2
        iexists _; iexact H3
  · by_cases h1 : t.val % 2 = 1
    · rw [show (dat8 V c).leavesExact 3 t = owns (c : Thread nD τ) (ms8_3 t) fullShare ((dat8 V c).after 3 t) from by
        unfold Dat.leavesExact; rw [liveAt8_3_C t (fun h => h0 ((hcond8_0 t).mp h)) ((hcond8_1 t).mpr h1)], after8_3]
      rw [outsAt8_C V c t h0 h1]
      unfold out8_C_3 sout8_C_0; (try dsimp only)
      by_cases hz : t.val = 0
      · exfalso; omega
      · rw [PhiS8_castSucc V c t, PhiS8_pos V c _ _ hz]
        iintro ⟨⟨⟨HS0, Hr⟩, Hg⟩, Ho, ⟨%d0, H0⟩, ⟨%d1, H1⟩, ⟨%d2, H2⟩, ⟨%d3, H3⟩⟩
        iapply ((kernelRun8_C c (grid8.coords t) _ _ _ _ _ _ _ _ _ _ (fun h => h0 ((hcond8_0 t).mp h)) ((hcond8_1 t).mpr h1) (iblk8 V c 0 t) (iblk8 V c 1 t) (iblk8 V c 2 t) _).2.2 Set.univ _)
        isplitl [H0]; · iexact H0
        isplitl [H1]; · iexact H1
        isplitl [H2]; · iexact H2
        isplitl [H3]; · iexists _; iexact H3
        isplitl [HS0]; · iexact HS0
        iintro ⟨H0, H1, H2, ⟨%e3, H3⟩, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover8_C_0 c _ _ _ _ _ _ _ _ _ _ _ _ _ _ _ _ _)
            iexact Hr
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover8_C_3 c _ _ _ _ _ _ _ _ _ _ _ _ _ _ _ _ _)
    · exfalso; omega

/-- The library's body obligation, at every point. -/
theorem body_obligation8 (c : Dev nD) : BodyObligation (dat8 (F := F) V c) (defs₀ (F := F)) Variants.none () Set.univ := fun t => by
  rw [bigSep_W8, bigSep_W8]
  exact sound_body8 V c t

/-- What the launch hands the region is the invariant before the first point. -/
theorem hin8 (c : Dev nD) : Pipeline.ΦA spec8 c ⊢ (dat8 V c).Φ 0 := by
  rw [show (dat8 V c).Φ 0 = PhiS8 V c 0 (Nat.zero_le _) from rfl, PhiS8_zero V c 0 _ rfl]
  try exact Idealize.SL.BI.Entails.refl _

/-- After any point but the first the invariant gives the class's back: the accumulator's contents are forgotten. -/
theorem Phi_out8 (c : Dev nD) (t : Fin (cfg8.N + 1)) (ht : t.val ≠ 0) : (dat8 V c).Φ t ⊢ Pipeline.ΦA spec8 c := by
  rw [show (dat8 V c).Φ t = PhiS8 V c t.val (Nat.le_of_lt_succ t.isLt) from rfl, PhiS8_pos V c _ _ ht, PhiA8_eq]
  iintro ⟨⟨HS0, Hr⟩, Hg⟩
  isplitl [HS0 Hr]
  · isplitl [HS0]
    · iexists _; iexact HS0
    iexact Hr
  iexact Hg

/-- The same after the last point. -/
theorem hout8 (c : Dev nD) : (dat8 V c).Φ (Fin.last cfg8.N) ⊢ Pipeline.ΦA spec8 c :=
  Phi_out8 V c _ (by rw [Fin.val_last]; have : cfg8.N = 8 := N_8; omega)

end Cert.KernelIdeal.Gen
end
-- ==== Proof.KernelIdealH.Reg9.lean ====
import proofs.«157173_j56882546868342_2_alg».proof.Proof.KernelIdealH.Launch
import proofs.«157173_j56882546868342_2_alg».proof.Proof.Gen.KernelIdeal.Skeleton
import proofs.«157173_j56882546868342_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384
noncomputable section
namespace Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

-- The three block shapes of this matrix product: the left operand's block, the right operand's block, and the
-- block of the result (the accumulator has the result block's shape).
local notation "BlkA" => S1024x512
local notation "BlkB" => S512x512
local notation "BlkO" => S1024x512

/-! # The matrix product with a carried accumulator, region 9, at the entry contents `V` -/

/-! ## The windows' blocks -/

/-- Window `w`'s block at point `t`, read off its array as the region finds it (`V`). -/
def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-- The left operand's current staging buffer holds its block at every point, fetched there or not, for any proof
    data whose array is `V`'s and whose body leaves the block in place: the window is uncut and never idle. -/
theorem before9_0_of {c : Dev nD} (dat : Dat τ (Elt F) Unit ℕ (UR sig nD τ) ℕ cfg9 c) (hA : dat.A 0 = V c (Pipeline.arrRef spec9 0))
    (hafter : ∀ t, dat.after 0 t = iblk9 V c 0 t) (t : Fin cfg9.N) (d) : dat.before 0 t d = iblk9 V c 0 t :=
  (dat.before_in_eq_fetched 0 rfl (fun _ => rfl) (fun _ _ _ => rfl) (fun t => by rw [hafter]; unfold Dat.blockOf iblk9; rw [hA]; try rfl) t d).trans
    (by unfold Dat.fetched Dat.blockOf iblk9; rw [hA]; try rfl)

/-- The same for the right operand's window. -/
theorem before9_1_of {c : Dev nD} (dat : Dat τ (Elt F) Unit ℕ (UR sig nD τ) ℕ cfg9 c) (hA : dat.A 1 = V c (Pipeline.arrRef spec9 1))
    (hafter : ∀ t, dat.after 1 t = iblk9 V c 1 t) (t : Fin cfg9.N) (d) : dat.before 1 t d = iblk9 V c 1 t :=
  (dat.before_in_eq_fetched 1 rfl (fun _ => rfl) (fun _ _ _ => rfl) (fun t => by rw [hafter]; unfold Dat.blockOf iblk9; rw [hA]; try rfl) t d).trans
    (by unfold Dat.fetched Dat.blockOf iblk9; rw [hA]; try rfl)

/-! ## The body's two branch conditions, decided over the grid -/

/-- The first condition: the reduction coordinate is 0 (the accumulator is zeroed). -/
abbrev cond9_0 (i : grid9.Coords) : Prop := (Scalar.cmpi .ne (Scalar.extui (Scalar.cmpi .eq (BitVec.ofNat 32 (i 2).val) 0#32)) 0#32) = 1#1
/-- It holds at the points ≡ 0 (mod 8). -/
theorem hcond9_0 : ∀ t : Fin cfg9.N, cond9_0 (grid9.coords t) ↔ t.val % 8 = 0 :=
  (by decide +kernel : ∀ t : Fin grid9.N, cond9_0 (grid9.coords t) ↔ t.val % 8 = 0)

/-- The second condition: the reduction coordinate is the last, 7 (the result block is written). -/
abbrev cond9_1 (i : grid9.Coords) : Prop := k9_cond2 i = 1#1
/-- It holds at the points ≡ 7 (mod 8). -/
theorem hcond9_1 : ∀ t : Fin cfg9.N, cond9_1 (grid9.coords t) ↔ t.val % 8 = 7 :=
  (by decide +kernel : ∀ t : Fin grid9.N, cond9_1 (grid9.coords t) ↔ t.val % 8 = 7)

/-! ## Where the windows are idle -/

/-- The operands' windows are never idle. -/
theorem liveAt9_0 : ∀ t : Fin cfg9.N, cfg9.idle 0 (grid9.coords t) = false := by decide +kernel
theorem liveAt9_1 : ∀ t : Fin cfg9.N, cfg9.idle 1 (grid9.coords t) = false := by decide +kernel
/-- At the first reduction step the result window is idle and is not written back. -/
theorem idleAt9_2_A : ∀ t : Fin cfg9.N, cond9_0 (grid9.coords t) → ¬cond9_1 (grid9.coords t) → cfg9.idle 2 (grid9.coords t) = true := by decide +kernel
theorem noFlush9_2_A : ∀ t : Fin cfg9.N, cond9_0 (grid9.coords t) → ¬cond9_1 (grid9.coords t) → (cfg9.win 2).flush t = false := by decide +kernel
/-- At a middle reduction step likewise. -/
theorem idleAt9_2_B : ∀ t : Fin cfg9.N, ¬cond9_0 (grid9.coords t) → ¬cond9_1 (grid9.coords t) → cfg9.idle 2 (grid9.coords t) = true := by decide +kernel
theorem noFlush9_2_B : ∀ t : Fin cfg9.N, ¬cond9_0 (grid9.coords t) → ¬cond9_1 (grid9.coords t) → (cfg9.win 2).flush t = false := by decide +kernel
/-- At the last reduction step the result window is live: the body stores into it. -/
theorem liveAt9_2_C : ∀ t : Fin cfg9.N, ¬cond9_0 (grid9.coords t) → cond9_1 (grid9.coords t) → cfg9.idle 2 (grid9.coords t) = false := by decide +kernel

/-! ## The memrefs the body is called with -/

/-- One staging buffer of the result window, through which its contents are stated. -/
abbrev VO9_2 : View sig .tc .vmem BlkO .bf16 := (Memref.whole cc9_stg2_0 : Memref sig .tc .vmem BlkO .bf16).view
/-- Each window's current staging memref at point `t`, and its wholeness. -/
abbrev ms9_0 (t : Fin cfg9.N) : Memref sig .tc .vmem BlkA .bf16 := win9_0.stage (cfg9.slots t 0)
abbrev hs9_0 (t : Fin cfg9.N) : (ms9_0 t).IsWhole := hstage9_0 ((cfg9.slots t 0).cast nbuf9_0)
abbrev ms9_1 (t : Fin cfg9.N) : Memref sig .tc .vmem BlkB .bf16 := win9_1.stage (cfg9.slots t 1)
abbrev hs9_1 (t : Fin cfg9.N) : (ms9_1 t).IsWhole := hstage9_1 ((cfg9.slots t 1).cast nbuf9_1)
abbrev ms9_2 (t : Fin cfg9.N) : Memref sig .tc .vmem BlkO .bf16 := win9_2.stage (cfg9.slots t 2)
abbrev hs9_2 (t : Fin cfg9.N) : (ms9_2 t).IsWhole := hstage9_2 ((cfg9.slots t 2).cast nbuf9_2)
/-- The accumulator: a whole scoped buffer of the kernel's own, passed beside the windows. -/
abbrev scM9_0 : Memref sig .tc .vmem BlkO .f32 := Memref.whole cc9_scratch0
/-- The accumulator as a view: what it holds is stated through it. -/
abbrev VS9_0 : View sig .tc .vmem BlkO .f32 := scM9_0.view

/-- Every scoped buffer of the program but this region's accumulator, unopened. -/
abbrev rest9 (c : Dev nD) : sProp 𝕄 :=
  Pipeline.scopedRestBut (Ix := Unit) (Name := ℕ) (U := UR sig nD τ) (Lvl := ℕ) (Val := Elt F) spec9 c [cc9_scratch0]

/-- The region's entry invariant with the accumulator as a memref owned at some contents, the other scoped buffers
    unopened, and the generator register at some state. -/
theorem PhiA9_eq (c : Dev nD) :
    (Pipeline.ΦA spec9 c : sProp 𝕄)
      = iprop(iprop(iprop((∃ d, owns (c : Thread nD τ) scM9_0 fullShare d)) ∗ rest9 (F := F) c) ∗ (∃ r, prngReg c r)) := by
  unfold Pipeline.ΦA; rw [scopedRest9_split]; simp only [scM9_0, owns_whole]; try rfl

/-! ## The body's run, case by case -/

set_option maxHeartbeats 1000000 in
/-- FIRST reduction step (the first condition holds, the second does not). On whole memrefs — the operands' at
    their contents, the result's at contents handed back untouched, the accumulator at anything — the body runs to the
    continuation holding the operands' as they were and the accumulator with its stores written: the pieces are the
    witness the run finds. -/
noncomputable def kernelRun9_A (c : Dev nD) (i : grid9.Coords) (arg3 : Memref sig .tc .vmem BlkA .bf16) (harg3 : arg3.IsWhole) (arg9 : Memref sig .tc .vmem BlkB .bf16) (harg9 : arg9.IsWhole) (arg5 : Memref sig .tc .vmem BlkO .bf16) (harg5 : arg5.IsWhole) (arg6 : Memref sig .tc .vmem BlkO .f32) (harg6 : arg6.IsWhole) (hc0 : cond9_0 i) (hc1 : ¬cond9_1 i)
    (x0 : Vec F BlkA .bf16) (x1 : Vec F BlkB .bf16) :
    Σ' (L2 : List (View.Piece (Elt F) BlkO .bf16)), { LS0 : List (View.Piece (Elt F) BlkO .f32) //
      ∀ (xi2 : Vec F BlkO .bf16) (E : Set ℕ) (K : PUnit → sProp 𝕄),
        iprop(owns (c : Thread nD τ) arg3 fullShare x0 ∗ owns (c : Thread nD τ) arg9 fullShare x1 ∗ owns (c : Thread nD τ) arg5 fullShare xi2 ∗ (∃ d, owns (c : Thread nD τ) arg6 fullShare d)
            ∗ (iprop(owns (c : Thread nD τ) arg3 fullShare x0 ∗ owns (c : Thread nD τ) arg9 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc9__mm_kernel_nobias i arg3 harg3 arg9 harg9 arg5 harg5 arg6 harg6) K } := by
  refine ⟨[], ?_, fun xi2 E K => ?run⟩
  case run =>
    simp only [cc9__mm_kernel_nobias_eq_skeleton]; unfold cc9__mm_kernel_nobias_skel
    unfold owns
    iintro ⟨⟨%f0, %hf0, H0⟩, ⟨%f1, %hf1, H1⟩, ⟨%f2, %hf2, H2⟩, ⟨%ds0, %fs0, -, HS0⟩, Hk⟩
    obtain rfl := harg3.eq_unread hf0; obtain rfl := harg9.eq_unread hf1; obtain rfl := harg5.eq_unread hf2
    sl_exec (disch := first | exact hc0 | exact hc1)
    sl_step
    iapply Hk
    isplitl [H0]
    · iexists _; isplitr; · ipureintro; exact harg3.read_unread _
      iexact H0
    isplitl [H1]
    · iexists _; isplitr; · ipureintro; exact harg9.read_unread _
      iexact H1
    isplitl [H2]
    · iexists _; isplitr; · ipureintro; exact harg5.read_unread _
      iexact H2
    iexists _; iexact HS0

set_option maxHeartbeats 1000000 in
/-- MIDDLE reduction step (neither condition holds): as the first, with the accumulator at what the point before left. -/
noncomputable def kernelRun9_B (c : Dev nD) (i : grid9.Coords) (arg3 : Memref sig .tc .vmem BlkA .bf16) (harg3 : arg3.IsWhole) (arg9 : Memref sig .tc .vmem BlkB .bf16) (harg9 : arg9.IsWhole) (arg5 : Memref sig .tc .vmem BlkO .bf16) (harg5 : arg5.IsWhole) (arg6 : Memref sig .tc .vmem BlkO .f32) (harg6 : arg6.IsWhole) (hc0 : ¬cond9_0 i) (hc1 : ¬cond9_1 i)
    (x0 : Vec F BlkA .bf16) (x1 : Vec F BlkB .bf16) (xs0 : Vec F BlkO .f32) :
    Σ' (L2 : List (View.Piece (Elt F) BlkO .bf16)), { LS0 : List (View.Piece (Elt F) BlkO .f32) //
      ∀ (xi2 : Vec F BlkO .bf16) (E : Set ℕ) (K : PUnit → sProp 𝕄),
        iprop(owns (c : Thread nD τ) arg3 fullShare x0 ∗ owns (c : Thread nD τ) arg9 fullShare x1 ∗ owns (c : Thread nD τ) arg5 fullShare xi2 ∗ owns (c : Thread nD τ) arg6 fullShare xs0
            ∗ (iprop(owns (c : Thread nD τ) arg3 fullShare x0 ∗ owns (c : Thread nD τ) arg9 fullShare x1 ∗ owns (c : Thread nD τ) arg5 fullShare xi2 ∗ (∃ f, arg6.view.loc (c : Thread nD τ) ↦[arg6.view.set]{fullShare} arg6.view.writes (Elt F) f LS0)) -∗ K ⟨⟩))
          ⊢ wp frame (wpE (defs₀ (F := F)) Variants.none c none) E (cc9__mm_kernel_nobias i arg3 harg3 arg9 harg9 arg5 harg5 arg6 harg6) K } := by
  refine ⟨[], ?_, fun xi2 E K => ?run⟩
  case run =>
    simp only [cc9__mm_kernel_nobias_eq_skeleton]; unfold cc9__mm_kernel_nobias_skel
    unfold owns
    iintro ⟨⟨%f0, %hf0, H0⟩, ⟨%f1, %hf1, H1⟩, ⟨%f2, %hf2, H2⟩, ⟨%fs0, %hfs0, HS0⟩, Hk⟩
    obtain rfl := harg3.eq_unread hf0; obtain rfl := harg9.eq_unread hf1; obtain rfl := harg5.eq_unread hf2; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg9.read_unread _
      iexact H1
    isplitl [H2]
    · iexists _; isplitr; · ipureintro; exact harg5.read_unread _
      iexact H2
    iexists _; iexact HS0

set_option maxHeartbeats 1000000 in
/-- LAST reduction step (the second condition holds, the first does not): the result's memref at anything, left with
    the body's store written. -/
noncomputable def kernelRun9_C (c : Dev nD) (i : grid9.Coords) (arg3 : Memref sig .tc .vmem BlkA .bf16) (harg3 : arg3.IsWhole) (arg9 : Memref sig .tc .vmem BlkB .bf16) (harg9 : arg9.IsWhole) (arg5 : Memref sig .tc .vmem BlkO .bf16) (harg5 : arg5.IsWhole) (arg6 : Memref sig .tc .vmem BlkO .f32) (harg6 : arg6.IsWhole) (hc0 : ¬cond9_0 i) (hc1 : cond9_1 i)
    (x0 : Vec F BlkA .bf16) (x1 : Vec F BlkB .bf16) (xs0 : Vec F BlkO .f32) :
    Σ' (L2 : List (View.Piece (Elt F) BlkO .bf16)), { LS0 : List (View.Piece (Elt F) BlkO .f32) //
      ∀ (E : Set ℕ) (K : PUnit → sProp 𝕄),
        iprop(owns (c : Thread nD τ) arg3 fullShare x0 ∗ owns (c : Thread nD τ) arg9 fullShare x1 ∗ (∃ d, owns (c : Thread nD τ) arg5 fullShare d) ∗ owns (c : Thread nD τ) arg6 fullShare xs0
            ∗ (iprop(owns (c : Thread nD τ) arg3 fullShare x0 ∗ owns (c : Thread nD τ) arg9 fullShare x1 ∗ (∃ f, arg5.view.loc (c : Thread nD τ) ↦[arg5.view.set]{fullShare} arg5.view.writes (Elt F) f L2) ∗ (∃ f, arg6.view.loc (c : Thread nD τ) ↦[arg6.view.set]{fullShare} arg6.view.writes (Elt F) f LS0)) -∗ K ⟨⟩))
          ⊢ wp frame (wpE (defs₀ (F := F)) Variants.none c none) E (cc9__mm_kernel_nobias i arg3 harg3 arg9 harg9 arg5 harg5 arg6 harg6) K } := by
  refine ⟨?_, ?_, fun E K => ?run⟩
  case run =>
    simp only [cc9__mm_kernel_nobias_eq_skeleton]; unfold cc9__mm_kernel_nobias_skel
    unfold owns
    iintro ⟨⟨%f0, %hf0, H0⟩, ⟨%f1, %hf1, H1⟩, ⟨%d2, %f2, -, H2⟩, ⟨%fs0, %hfs0, HS0⟩, Hk⟩
    obtain rfl := harg3.eq_unread hf0; obtain rfl := harg9.eq_unread hf1; obtain rfl := harg6.eq_unread hfs0
    sl_exec (disch := first | exact hc0 | exact hc1)
    sl_step
    iapply Hk
    isplitl [H0]
    · iexists _; isplitr; · ipureintro; exact harg3.read_unread _
      iexact H0
    isplitl [H1]
    · iexists _; isplitr; · ipureintro; exact harg9.read_unread _
      iexact H1
    isplitl [H2]; · iexists _; iexact H2
    iexists _; iexact HS0

/-! ## What each case leaves: the found pieces and their covers -/

/-- The first step stores nothing into the result's buffer: a placeholder nothing consults (the window is idle there). -/
def out9_A_2 (c : Dev nD) (i : grid9.Coords) (arg3 : Memref sig .tc .vmem BlkA .bf16) (harg3 : arg3.IsWhole) (arg9 : Memref sig .tc .vmem BlkB .bf16) (harg9 : arg9.IsWhole) (arg5 : Memref sig .tc .vmem BlkO .bf16) (harg5 : arg5.IsWhole) (arg6 : Memref sig .tc .vmem BlkO .f32) (harg6 : arg6.IsWhole) (hc0 : cond9_0 i) (hc1 : ¬cond9_1 i)
    (x0 : Vec F BlkA .bf16) (x1 : Vec F BlkB .bf16) : Vec F BlkO .bf16 :=
  VO9_2.read (Elt F) (VO9_2.writes (Elt F) VO9_2.junk (kernelRun9_A c i arg3 harg3 arg9 harg9 arg5 harg5 arg6 harg6 hc0 hc1 x0 x1).1)

/-- The first step's stores into the accumulator cover it. -/
theorem scover9_A_0 (c : Dev nD) (i : grid9.Coords) (arg3 : Memref sig .tc .vmem BlkA .bf16) (harg3 : arg3.IsWhole) (arg9 : Memref sig .tc .vmem BlkB .bf16) (harg9 : arg9.IsWhole) (arg5 : Memref sig .tc .vmem BlkO .bf16) (harg5 : arg5.IsWhole) (arg6 : Memref sig .tc .vmem BlkO .f32) (harg6 : arg6.IsWhole) (hc0 : cond9_0 i) (hc1 : ¬cond9_1 i)
    (x0 : Vec F BlkA .bf16) (x1 : Vec F BlkB .bf16) (y : (BlkO).Idx) :
    ∃ pc ∈ (kernelRun9_A c i arg3 harg3 arg9 harg9 arg5 harg5 arg6 harg6 hc0 hc1 x0 x1).2.1, y ∈ pc.1.set :=
  View.cover_of_tiledL (kernelRun9_A c i arg3 harg3 arg9 harg9 arg5 harg5 arg6 harg6 hc0 hc1 x0 x1).2.1 (BlkO).size (by sl_kernel_rfl) y

/-- What the first step leaves in the accumulator: its pieces read back. -/
def sout9_A_0 (c : Dev nD) (i : grid9.Coords) (arg3 : Memref sig .tc .vmem BlkA .bf16) (harg3 : arg3.IsWhole) (arg9 : Memref sig .tc .vmem BlkB .bf16) (harg9 : arg9.IsWhole) (arg5 : Memref sig .tc .vmem BlkO .bf16) (harg5 : arg5.IsWhole) (arg6 : Memref sig .tc .vmem BlkO .f32) (harg6 : arg6.IsWhole) (hc0 : cond9_0 i) (hc1 : ¬cond9_1 i)
    (x0 : Vec F BlkA .bf16) (x1 : Vec F BlkB .bf16) : Vec F BlkO .f32 :=
  VS9_0.read (Elt F) (VS9_0.writes (Elt F) VS9_0.junk (kernelRun9_A c i arg3 harg3 arg9 harg9 arg5 harg5 arg6 harg6 hc0 hc1 x0 x1).2.1)

/-- A middle step stores nothing into the result's buffer either. -/
def out9_B_2 (c : Dev nD) (i : grid9.Coords) (arg3 : Memref sig .tc .vmem BlkA .bf16) (harg3 : arg3.IsWhole) (arg9 : Memref sig .tc .vmem BlkB .bf16) (harg9 : arg9.IsWhole) (arg5 : Memref sig .tc .vmem BlkO .bf16) (harg5 : arg5.IsWhole) (arg6 : Memref sig .tc .vmem BlkO .f32) (harg6 : arg6.IsWhole) (hc0 : ¬cond9_0 i) (hc1 : ¬cond9_1 i)
    (x0 : Vec F BlkA .bf16) (x1 : Vec F BlkB .bf16) (xs0 : Vec F BlkO .f32) : Vec F BlkO .bf16 :=
  VO9_2.read (Elt F) (VO9_2.writes (Elt F) VO9_2.junk (kernelRun9_B c i arg3 harg3 arg9 harg9 arg5 harg5 arg6 harg6 hc0 hc1 x0 x1 xs0).1)

/-- A middle step's store into the accumulator covers it. -/
theorem scover9_B_0 (c : Dev nD) (i : grid9.Coords) (arg3 : Memref sig .tc .vmem BlkA .bf16) (harg3 : arg3.IsWhole) (arg9 : Memref sig .tc .vmem BlkB .bf16) (harg9 : arg9.IsWhole) (arg5 : Memref sig .tc .vmem BlkO .bf16) (harg5 : arg5.IsWhole) (arg6 : Memref sig .tc .vmem BlkO .f32) (harg6 : arg6.IsWhole) (hc0 : ¬cond9_0 i) (hc1 : ¬cond9_1 i)
    (x0 : Vec F BlkA .bf16) (x1 : Vec F BlkB .bf16) (xs0 : Vec F BlkO .f32) (y : (BlkO).Idx) :
    ∃ pc ∈ (kernelRun9_B c i arg3 harg3 arg9 harg9 arg5 harg5 arg6 harg6 hc0 hc1 x0 x1 xs0).2.1, y ∈ pc.1.set :=
  View.cover_of_tiledL (kernelRun9_B c i arg3 harg3 arg9 harg9 arg5 harg5 arg6 harg6 hc0 hc1 x0 x1 xs0).2.1 (BlkO).size (by sl_kernel_rfl) y

/-- What a middle step leaves in the accumulator. -/
def sout9_B_0 (c : Dev nD) (i : grid9.Coords) (arg3 : Memref sig .tc .vmem BlkA .bf16) (harg3 : arg3.IsWhole) (arg9 : Memref sig .tc .vmem BlkB .bf16) (harg9 : arg9.IsWhole) (arg5 : Memref sig .tc .vmem BlkO .bf16) (harg5 : arg5.IsWhole) (arg6 : Memref sig .tc .vmem BlkO .f32) (harg6 : arg6.IsWhole) (hc0 : ¬cond9_0 i) (hc1 : ¬cond9_1 i)
    (x0 : Vec F BlkA .bf16) (x1 : Vec F BlkB .bf16) (xs0 : Vec F BlkO .f32) : Vec F BlkO .f32 :=
  VS9_0.read (Elt F) (VS9_0.writes (Elt F) VS9_0.junk (kernelRun9_B c i arg3 harg3 arg9 harg9 arg5 harg5 arg6 harg6 hc0 hc1 x0 x1 xs0).2.1)

/-- The last step's store into the result's buffer covers it. -/
theorem cover9_C_2 (c : Dev nD) (i : grid9.Coords) (arg3 : Memref sig .tc .vmem BlkA .bf16) (harg3 : arg3.IsWhole) (arg9 : Memref sig .tc .vmem BlkB .bf16) (harg9 : arg9.IsWhole) (arg5 : Memref sig .tc .vmem BlkO .bf16) (harg5 : arg5.IsWhole) (arg6 : Memref sig .tc .vmem BlkO .f32) (harg6 : arg6.IsWhole) (hc0 : ¬cond9_0 i) (hc1 : cond9_1 i)
    (x0 : Vec F BlkA .bf16) (x1 : Vec F BlkB .bf16) (xs0 : Vec F BlkO .f32) (y : (BlkO).Idx) :
    ∃ pc ∈ (kernelRun9_C c i arg3 harg3 arg9 harg9 arg5 harg5 arg6 harg6 hc0 hc1 x0 x1 xs0).1, y ∈ pc.1.set :=
  View.cover_of_tiledL (kernelRun9_C c i arg3 harg3 arg9 harg9 arg5 harg5 arg6 harg6 hc0 hc1 x0 x1 xs0).1 (BlkO).size (by sl_kernel_rfl) y

/-- What the last step leaves in the result's buffer. -/
def out9_C_2 (c : Dev nD) (i : grid9.Coords) (arg3 : Memref sig .tc .vmem BlkA .bf16) (harg3 : arg3.IsWhole) (arg9 : Memref sig .tc .vmem BlkB .bf16) (harg9 : arg9.IsWhole) (arg5 : Memref sig .tc .vmem BlkO .bf16) (harg5 : arg5.IsWhole) (arg6 : Memref sig .tc .vmem BlkO .f32) (harg6 : arg6.IsWhole) (hc0 : ¬cond9_0 i) (hc1 : cond9_1 i)
    (x0 : Vec F BlkA .bf16) (x1 : Vec F BlkB .bf16) (xs0 : Vec F BlkO .f32) : Vec F BlkO .bf16 :=
  VO9_2.read (Elt F) (VO9_2.writes (Elt F) VO9_2.junk (kernelRun9_C c i arg3 harg3 arg9 harg9 arg5 harg5 arg6 harg6 hc0 hc1 x0 x1 xs0).1)

/-- The last step's store into the accumulator covers it. -/
theorem scover9_C_0 (c : Dev nD) (i : grid9.Coords) (arg3 : Memref sig .tc .vmem BlkA .bf16) (harg3 : arg3.IsWhole) (arg9 : Memref sig .tc .vmem BlkB .bf16) (harg9 : arg9.IsWhole) (arg5 : Memref sig .tc .vmem BlkO .bf16) (harg5 : arg5.IsWhole) (arg6 : Memref sig .tc .vmem BlkO .f32) (harg6 : arg6.IsWhole) (hc0 : ¬cond9_0 i) (hc1 : cond9_1 i)
    (x0 : Vec F BlkA .bf16) (x1 : Vec F BlkB .bf16) (xs0 : Vec F BlkO .f32) (y : (BlkO).Idx) :
    ∃ pc ∈ (kernelRun9_C c i arg3 harg3 arg9 harg9 arg5 harg5 arg6 harg6 hc0 hc1 x0 x1 xs0).2.1, y ∈ pc.1.set :=
  View.cover_of_tiledL (kernelRun9_C c i arg3 harg3 arg9 harg9 arg5 harg5 arg6 harg6 hc0 hc1 x0 x1 xs0).2.1 (BlkO).size (by sl_kernel_rfl) y

/-- What the last step leaves in the accumulator. -/
def sout9_C_0 (c : Dev nD) (i : grid9.Coords) (arg3 : Memref sig .tc .vmem BlkA .bf16) (harg3 : arg3.IsWhole) (arg9 : Memref sig .tc .vmem BlkB .bf16) (harg9 : arg9.IsWhole) (arg5 : Memref sig .tc .vmem BlkO .bf16) (harg5 : arg5.IsWhole) (arg6 : Memref sig .tc .vmem BlkO .f32) (harg6 : arg6.IsWhole) (hc0 : ¬cond9_0 i) (hc1 : cond9_1 i)
    (x0 : Vec F BlkA .bf16) (x1 : Vec F BlkB .bf16) (xs0 : Vec F BlkO .f32) : Vec F BlkO .f32 :=
  VS9_0.read (Elt F) (VS9_0.writes (Elt F) VS9_0.junk (kernelRun9_C c i arg3 harg3 arg9 harg9 arg5 harg5 arg6 harg6 hc0 hc1 x0 x1 xs0).2.1)

/-! ## What the result's buffer and the accumulator hold after each point -/

/-- THE ACCUMULATION. What the result's staging buffer and the accumulator hold after the body at position `n`:
    the case the closed forms select at `n`, run at the point's memrefs and operand blocks, the accumulator entering
    at what position `n - 1` left. Both conditions at once is met by no point. -/
def outsAt9 (c : Dev nD) : (n : ℕ) → n < cfg9.N → Vec F BlkO .bf16 × Vec F BlkO .f32
  | 0, hn => (out9_A_2 c (grid9.coords ⟨0, hn⟩) (ms9_0 ⟨0, hn⟩) (hs9_0 ⟨0, hn⟩) (ms9_1 ⟨0, hn⟩) (hs9_1 ⟨0, hn⟩) (ms9_2 ⟨0, hn⟩) (hs9_2 ⟨0, hn⟩) scM9_0 (Memref.isWhole_whole _) ((hcond9_0 ⟨0, hn⟩).mpr (Nat.zero_mod _)) (fun h => (fun h => by (try dsimp only at h); omega) ((hcond9_1 ⟨0, hn⟩).mp h)) (iblk9 V c 0 ⟨0, hn⟩) (iblk9 V c 1 ⟨0, hn⟩), sout9_A_0 c (grid9.coords ⟨0, hn⟩) (ms9_0 ⟨0, hn⟩) (hs9_0 ⟨0, hn⟩) (ms9_1 ⟨0, hn⟩) (hs9_1 ⟨0, hn⟩) (ms9_2 ⟨0, hn⟩) (hs9_2 ⟨0, hn⟩) scM9_0 (Memref.isWhole_whole _) ((hcond9_0 ⟨0, hn⟩).mpr (Nat.zero_mod _)) (fun h => (fun h => by (try dsimp only at h); omega) ((hcond9_1 ⟨0, hn⟩).mp h)) (iblk9 V c 0 ⟨0, hn⟩) (iblk9 V c 1 ⟨0, hn⟩))
  | n + 1, hn =>
    if h0 : (n + 1) % 8 = 0 then
      if h1 : (n + 1) % 8 = 7 then
        False.elim (by omega)
      else
        (out9_A_2 c (grid9.coords ⟨n + 1, hn⟩) (ms9_0 ⟨n + 1, hn⟩) (hs9_0 ⟨n + 1, hn⟩) (ms9_1 ⟨n + 1, hn⟩) (hs9_1 ⟨n + 1, hn⟩) (ms9_2 ⟨n + 1, hn⟩) (hs9_2 ⟨n + 1, hn⟩) scM9_0 (Memref.isWhole_whole _) ((hcond9_0 ⟨n + 1, hn⟩).mpr h0) (fun h => h1 ((hcond9_1 ⟨n + 1, hn⟩).mp h)) (iblk9 V c 0 ⟨n + 1, hn⟩) (iblk9 V c 1 ⟨n + 1, hn⟩), sout9_A_0 c (grid9.coords ⟨n + 1, hn⟩) (ms9_0 ⟨n + 1, hn⟩) (hs9_0 ⟨n + 1, hn⟩) (ms9_1 ⟨n + 1, hn⟩) (hs9_1 ⟨n + 1, hn⟩) (ms9_2 ⟨n + 1, hn⟩) (hs9_2 ⟨n + 1, hn⟩) scM9_0 (Memref.isWhole_whole _) ((hcond9_0 ⟨n + 1, hn⟩).mpr h0) (fun h => h1 ((hcond9_1 ⟨n + 1, hn⟩).mp h)) (iblk9 V c 0 ⟨n + 1, hn⟩) (iblk9 V c 1 ⟨n + 1, hn⟩))
    else
      if h1 : (n + 1) % 8 = 7 then
        (out9_C_2 c (grid9.coords ⟨n + 1, hn⟩) (ms9_0 ⟨n + 1, hn⟩) (hs9_0 ⟨n + 1, hn⟩) (ms9_1 ⟨n + 1, hn⟩) (hs9_1 ⟨n + 1, hn⟩) (ms9_2 ⟨n + 1, hn⟩) (hs9_2 ⟨n + 1, hn⟩) scM9_0 (Memref.isWhole_whole _) (fun h => h0 ((hcond9_0 ⟨n + 1, hn⟩).mp h)) ((hcond9_1 ⟨n + 1, hn⟩).mpr h1) (iblk9 V c 0 ⟨n + 1, hn⟩) (iblk9 V c 1 ⟨n + 1, hn⟩) (outsAt9 c n (Nat.lt_of_succ_lt hn)).2, sout9_C_0 c (grid9.coords ⟨n + 1, hn⟩) (ms9_0 ⟨n + 1, hn⟩) (hs9_0 ⟨n + 1, hn⟩) (ms9_1 ⟨n + 1, hn⟩) (hs9_1 ⟨n + 1, hn⟩) (ms9_2 ⟨n + 1, hn⟩) (hs9_2 ⟨n + 1, hn⟩) scM9_0 (Memref.isWhole_whole _) (fun h => h0 ((hcond9_0 ⟨n + 1, hn⟩).mp h)) ((hcond9_1 ⟨n + 1, hn⟩).mpr h1) (iblk9 V c 0 ⟨n + 1, hn⟩) (iblk9 V c 1 ⟨n + 1, hn⟩) (outsAt9 c n (Nat.lt_of_succ_lt hn)).2)
      else
        (out9_B_2 c (grid9.coords ⟨n + 1, hn⟩) (ms9_0 ⟨n + 1, hn⟩) (hs9_0 ⟨n + 1, hn⟩) (ms9_1 ⟨n + 1, hn⟩) (hs9_1 ⟨n + 1, hn⟩) (ms9_2 ⟨n + 1, hn⟩) (hs9_2 ⟨n + 1, hn⟩) scM9_0 (Memref.isWhole_whole _) (fun h => h0 ((hcond9_0 ⟨n + 1, hn⟩).mp h)) (fun h => h1 ((hcond9_1 ⟨n + 1, hn⟩).mp h)) (iblk9 V c 0 ⟨n + 1, hn⟩) (iblk9 V c 1 ⟨n + 1, hn⟩) (outsAt9 c n (Nat.lt_of_succ_lt hn)).2, sout9_B_0 c (grid9.coords ⟨n + 1, hn⟩) (ms9_0 ⟨n + 1, hn⟩) (hs9_0 ⟨n + 1, hn⟩) (ms9_1 ⟨n + 1, hn⟩) (hs9_1 ⟨n + 1, hn⟩) (ms9_2 ⟨n + 1, hn⟩) (hs9_2 ⟨n + 1, hn⟩) scM9_0 (Memref.isWhole_whole _) (fun h => h0 ((hcond9_0 ⟨n + 1, hn⟩).mp h)) (fun h => h1 ((hcond9_1 ⟨n + 1, hn⟩).mp h)) (iblk9 V c 0 ⟨n + 1, hn⟩) (iblk9 V c 1 ⟨n + 1, hn⟩) (outsAt9 c n (Nat.lt_of_succ_lt hn)).2)

/-- `outsAt9` at a first reduction step. -/
theorem outsAt9_A (c : Dev nD) (t : Fin cfg9.N) (h0 : t.val % 8 = 0) (h1 : ¬t.val % 8 = 7) :
    outsAt9 V c t.val t.isLt = (out9_A_2 c (grid9.coords t) (ms9_0 t) (hs9_0 t) (ms9_1 t) (hs9_1 t) (ms9_2 t) (hs9_2 t) scM9_0 (Memref.isWhole_whole _) ((hcond9_0 t).mpr h0) (fun h => h1 ((hcond9_1 t).mp h)) (iblk9 V c 0 t) (iblk9 V c 1 t), sout9_A_0 c (grid9.coords t) (ms9_0 t) (hs9_0 t) (ms9_1 t) (hs9_1 t) (ms9_2 t) (hs9_2 t) scM9_0 (Memref.isWhole_whole _) ((hcond9_0 t).mpr h0) (fun h => h1 ((hcond9_1 t).mp h)) (iblk9 V c 0 t) (iblk9 V c 1 t)) := by
  obtain ⟨n, hn⟩ := t
  cases n with
  | zero => exact rfl
  | succ n => exact (dif_pos h0).trans ((dif_neg h1).trans rfl)

/-- `outsAt9` at a middle reduction step: over what the point before left. -/
theorem outsAt9_B (c : Dev nD) (t : Fin cfg9.N) (h0 : ¬t.val % 8 = 0) (h1 : ¬t.val % 8 = 7) :
    outsAt9 V c t.val t.isLt = (out9_B_2 c (grid9.coords t) (ms9_0 t) (hs9_0 t) (ms9_1 t) (hs9_1 t) (ms9_2 t) (hs9_2 t) scM9_0 (Memref.isWhole_whole _) (fun h => h0 ((hcond9_0 t).mp h)) (fun h => h1 ((hcond9_1 t).mp h)) (iblk9 V c 0 t) (iblk9 V c 1 t) (outsAt9 V c (t.val - 1) (Nat.lt_of_le_of_lt (Nat.sub_le _ _) t.isLt)).2, sout9_B_0 c (grid9.coords t) (ms9_0 t) (hs9_0 t) (ms9_1 t) (hs9_1 t) (ms9_2 t) (hs9_2 t) scM9_0 (Memref.isWhole_whole _) (fun h => h0 ((hcond9_0 t).mp h)) (fun h => h1 ((hcond9_1 t).mp h)) (iblk9 V c 0 t) (iblk9 V c 1 t) (outsAt9 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt9` at a last reduction step: over what the point before left. -/
theorem outsAt9_C (c : Dev nD) (t : Fin cfg9.N) (h0 : ¬t.val % 8 = 0) (h1 : t.val % 8 = 7) :
    outsAt9 V c t.val t.isLt = (out9_C_2 c (grid9.coords t) (ms9_0 t) (hs9_0 t) (ms9_1 t) (hs9_1 t) (ms9_2 t) (hs9_2 t) scM9_0 (Memref.isWhole_whole _) (fun h => h0 ((hcond9_0 t).mp h)) ((hcond9_1 t).mpr h1) (iblk9 V c 0 t) (iblk9 V c 1 t) (outsAt9 V c (t.val - 1) (Nat.lt_of_le_of_lt (Nat.sub_le _ _) t.isLt)).2, sout9_C_0 c (grid9.coords t) (ms9_0 t) (hs9_0 t) (ms9_1 t) (hs9_1 t) (ms9_2 t) (hs9_2 t) scM9_0 (Memref.isWhole_whole _) (fun h => h0 ((hcond9_0 t).mp h)) ((hcond9_1 t).mpr h1) (iblk9 V c 0 t) (iblk9 V c 1 t) (outsAt9 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The region invariant, carrying the accumulator -/

/-- Before the first point the entry invariant; after point `n` the accumulator at what that point left, the other
    scoped buffers unopened, the generator register at some state. -/
def PhiS9 (c : Dev nD) : (n : ℕ) → n ≤ cfg9.N → sProp 𝕄
  | 0, _ => Pipeline.ΦA spec9 c
  | n + 1, hn => iprop(iprop(iprop(owns (c : Thread nD τ) scM9_0 fullShare ((outsAt9 V c n hn).2)) ∗ rest9 (F := F) c) ∗ (∃ r, prngReg c r))

theorem PhiS9_zero (c : Dev nD) (n : ℕ) (h : n ≤ cfg9.N) (hz : n = 0) : PhiS9 V c n h = Pipeline.ΦA spec9 c := by
  subst hz; rfl

theorem PhiS9_succ (c : Dev nD) (n : ℕ) (hn : n < cfg9.N) :
    PhiS9 V c (n + 1) hn = iprop(iprop(iprop(owns (c : Thread nD τ) scM9_0 fullShare ((outsAt9 V c n hn).2)) ∗ rest9 (F := F) c) ∗ (∃ r, prngReg c r)) := rfl

theorem PhiS9_pos (c : Dev nD) (n : ℕ) (h : n ≤ cfg9.N) (hz : n ≠ 0) :
    PhiS9 V c n h = iprop(iprop(iprop(owns (c : Thread nD τ) scM9_0 fullShare ((outsAt9 V c (n - 1) (by omega)).2)) ∗ rest9 (F := F) c) ∗ (∃ r, prngReg c r)) := by
  cases n with
  | zero => exact absurd rfl hz
  | succ n => rfl

/-! ## The pipeline's proof data -/

/-- The proof data of this region on core `c`: the arrays as the region finds them; after the body at point `t`
    each operand's buffer at its block and the result's at `outsAt9`; the invariant `PhiS9`; nothing owed; full shares. -/
def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => (outsAt9 V c t.val t.isLt).1
  Φ t := PhiS9 V c t.val (Nat.le_of_lt_succ t.isLt)
  q _ := fullShare
  owed _ := 0

theorem A_eq9 (c : Dev nD) (w : Fin cfg9.W) : (dat9 V c).A w = V c (Pipeline.arrRef spec9 w) := by
  dsimp only [dat9]

theorem PhiS9_castSucc (c : Dev nD) (t : Fin cfg9.N) :
    (dat9 V c).Φ t.castSucc = PhiS9 V c t.val (Nat.le_of_lt t.isLt) := by
  dsimp only [dat9]; simp only [Fin.coe_castSucc]

theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = (outsAt9 V c t.val t.isLt).1 := by dsimp only [dat9]

theorem before9_0 (c : Dev nD) (t : Fin cfg9.N) (d) : (dat9 V c).before 0 t d = iblk9 V c 0 t :=
  before9_0_of V (dat9 V c) (A_eq9 V c 0) (after9_0 V c) t d
theorem before9_1 (c : Dev nD) (t : Fin cfg9.N) (d) : (dat9 V c).before 1 t d = iblk9 V c 1 t :=
  before9_1_of V (dat9 V c) (A_eq9 V c 1) (after9_1 V c) t d

/-! ## The body obligation, at a generic point -/

def bodyPre9 (c : Dev nD) (t : Fin cfg9.N) : sProp 𝕄 :=
  iprop((dat9 V c).Φ t.castSucc ∗ (dat9 V c).owesAt () t.castSucc
    ∗ (∃ d, owns (c : Thread nD τ) (ms9_0 t) fullShare ((dat9 V c).before 0 t d))
    ∗ (∃ d, owns (c : Thread nD τ) (ms9_1 t) fullShare ((dat9 V c).before 1 t d))
    ∗ (∃ d, owns (c : Thread nD τ) (ms9_2 t) fullShare ((dat9 V c).before 2 t d)))

def bodyPost9 (c : Dev nD) (t : Fin cfg9.N) : sProp 𝕄 :=
  iprop((dat9 V c).Φ t.succ ∗ (dat9 V c).owesAt () t.succ
    ∗ (dat9 V c).leavesExact 0 t
    ∗ (dat9 V c).leavesExact 1 t
    ∗ (dat9 V c).leavesExact 2 t)

set_option maxHeartbeats 4800000 in
/-- The body at any point: the operands' memrefs hold their blocks; the closed forms say which case the point is in;
    the invariant hands the body the accumulator at what the point before left (at anything at the first point) and
    takes it back at this point's contents; the other scoped buffers, the generator register and the core's debts
    pass through. -/
theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0, before9_1]
  rw [show (dat9 V c).owesAt () t.succ = (dat9 V c).owesAt () t.castSucc from rfl]
  rw [show (dat9 V c).Φ t.succ = PhiS9 V c (t.val + 1) t.isLt from rfl, PhiS9_succ]
  have hN : t.val < 32 := lt_of_lt_of_eq t.isLt (show cfg9.N = 32 from N_9)
  by_cases h0 : t.val % 8 = 0
  · by_cases h1 : t.val % 8 = 7
    · exfalso; omega
    ·
      rw [show (dat9 V c).leavesExact 0 t = owns (c : Thread nD τ) (ms9_0 t) fullShare ((dat9 V c).after 0 t) from by
        unfold Dat.leavesExact; rw [liveAt9_0 t], after9_0]
      rw [show (dat9 V c).leavesExact 1 t = owns (c : Thread nD τ) (ms9_1 t) fullShare ((dat9 V c).after 1 t) from by
        unfold Dat.leavesExact; rw [liveAt9_1 t], after9_1]
      rw [Dat.leavesExact_idle (dat9 V c) 2 t (idleAt9_2_A t ((hcond9_0 t).mpr h0) (fun h => h1 ((hcond9_1 t).mp h))) (noFlush9_2_A t ((hcond9_0 t).mpr h0) (fun h => h1 ((hcond9_1 t).mp h)))]
      rw [outsAt9_A V c t h0 h1]
      unfold sout9_A_0; (try dsimp only)
      by_cases hz : t.val = 0
      · rw [PhiS9_castSucc V c t, PhiS9_zero V c _ _ hz, PhiA9_eq]
        iintro ⟨⟨⟨HS0, Hr⟩, Hg⟩, Ho, ⟨%d0, H0⟩, ⟨%d1, H1⟩, ⟨%d2, H2⟩⟩
        iapply ((kernelRun9_A c (grid9.coords t) _ _ _ _ _ _ _ _ ((hcond9_0 t).mpr h0) (fun h => h1 ((hcond9_1 t).mp h)) (iblk9 V c 0 t) (iblk9 V c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover9_A_0 c _ _ _ _ _ _ _ _ _ _ _ _ _)
            iexact Hr
          iexact Hg
        isplitl [Ho]; · iexact Ho
        isplitl [H0]; · iexact H0
        isplitl [H1]; · iexact H1
        iexists _; iexact H2
      · rw [PhiS9_castSucc V c t, PhiS9_pos V c _ _ hz]
        iintro ⟨⟨⟨HS0, Hr⟩, Hg⟩, Ho, ⟨%d0, H0⟩, ⟨%d1, H1⟩, ⟨%d2, H2⟩⟩
        iapply ((kernelRun9_A c (grid9.coords t) _ _ _ _ _ _ _ _ ((hcond9_0 t).mpr h0) (fun h => h1 ((hcond9_1 t).mp h)) (iblk9 V c 0 t) (iblk9 V c 1 t)).2.2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover9_A_0 c _ _ _ _ _ _ _ _ _ _ _ _ _)
            iexact Hr
          iexact Hg
        isplitl [Ho]; · iexact Ho
        isplitl [H0]; · iexact H0
        isplitl [H1]; · iexact H1
        iexists _; iexact H2
  · by_cases h1 : t.val % 8 = 7
    ·
      rw [show (dat9 V c).leavesExact 0 t = owns (c : Thread nD τ) (ms9_0 t) fullShare ((dat9 V c).after 0 t) from by
        unfold Dat.leavesExact; rw [liveAt9_0 t], after9_0]
      rw [show (dat9 V c).leavesExact 1 t = owns (c : Thread nD τ) (ms9_1 t) fullShare ((dat9 V c).after 1 t) from by
        unfold Dat.leavesExact; rw [liveAt9_1 t], after9_1]
      rw [show (dat9 V c).leavesExact 2 t = owns (c : Thread nD τ) (ms9_2 t) fullShare ((dat9 V c).after 2 t) from by
        unfold Dat.leavesExact; rw [liveAt9_2_C t (fun h => h0 ((hcond9_0 t).mp h)) ((hcond9_1 t).mpr h1)], after9_2]
      rw [outsAt9_C V c t h0 h1]
      unfold out9_C_2 sout9_C_0; (try dsimp only)
      by_cases hz : t.val = 0
      · exfalso; omega
      · rw [PhiS9_castSucc V c t, PhiS9_pos V c _ _ hz]
        iintro ⟨⟨⟨HS0, Hr⟩, Hg⟩, Ho, ⟨%d0, H0⟩, ⟨%d1, H1⟩, ⟨%d2, H2⟩⟩
        iapply ((kernelRun9_C c (grid9.coords t) _ _ _ _ _ _ _ _ (fun h => h0 ((hcond9_0 t).mp h)) ((hcond9_1 t).mpr h1) (iblk9 V c 0 t) (iblk9 V c 1 t) _).2.2 Set.univ _)
        isplitl [H0]; · iexact H0
        isplitl [H1]; · iexact H1
        isplitl [H2]; · iexists _; iexact H2
        isplitl [HS0]; · iexact HS0
        iintro ⟨H0, H1, ⟨%e2, H2⟩, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover9_C_0 c _ _ _ _ _ _ _ _ _ _ _ _ _ _)
            iexact Hr
          iexact Hg
        isplitl [Ho]; · iexact Ho
        isplitl [H0]; · iexact H0
        isplitl [H1]; · iexact H1
        unfold owns; iexists _; isplitr
        swap; · iexact H2
        ipureintro; exact View.read_writes_of_cover _ _ _ _ _ (cover9_C_2 c _ _ _ _ _ _ _ _ _ _ _ _ _ _)
    ·
      rw [show (dat9 V c).leavesExact 0 t = owns (c : Thread nD τ) (ms9_0 t) fullShare ((dat9 V c).after 0 t) from by
        unfold Dat.leavesExact; rw [liveAt9_0 t], after9_0]
      rw [show (dat9 V c).leavesExact 1 t = owns (c : Thread nD τ) (ms9_1 t) fullShare ((dat9 V c).after 1 t) from by
        unfold Dat.leavesExact; rw [liveAt9_1 t], after9_1]
      rw [Dat.leavesExact_idle (dat9 V c) 2 t (idleAt9_2_B t (fun h => h0 ((hcond9_0 t).mp h)) (fun h => h1 ((hcond9_1 t).mp h))) (noFlush9_2_B t (fun h => h0 ((hcond9_0 t).mp h)) (fun h => h1 ((hcond9_1 t).mp h)))]
      rw [outsAt9_B V c t h0 h1]
      unfold sout9_B_0; (try dsimp only)
      by_cases hz : t.val = 0
      · exfalso; omega
      · rw [PhiS9_castSucc V c t, PhiS9_pos V c _ _ hz]
        iintro ⟨⟨⟨HS0, Hr⟩, Hg⟩, Ho, ⟨%d0, H0⟩, ⟨%d1, H1⟩, ⟨%d2, H2⟩⟩
        iapply ((kernelRun9_B c (grid9.coords t) _ _ _ _ _ _ _ _ (fun h => h0 ((hcond9_0 t).mp h)) (fun h => h1 ((hcond9_1 t).mp h)) (iblk9 V c 0 t) (iblk9 V c 1 t) _).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover9_B_0 c _ _ _ _ _ _ _ _ _ _ _ _ _ _)
            iexact Hr
          iexact Hg
        isplitl [Ho]; · iexact Ho
        isplitl [H0]; · iexact H0
        isplitl [H1]; · iexact H1
        iexists _; iexact H2

/-- The library's body obligation, at every point. -/
theorem body_obligation9 (c : Dev nD) : BodyObligation (dat9 (F := F) V c) (defs₀ (F := F)) Variants.none () Set.univ := fun t => by
  rw [bigSep_W9, bigSep_W9]
  exact sound_body9 V c t

/-- What the launch hands the region is the invariant before the first point. -/
theorem hin9 (c : Dev nD) : Pipeline.ΦA spec9 c ⊢ (dat9 V c).Φ 0 := by
  rw [show (dat9 V c).Φ 0 = PhiS9 V c 0 (Nat.zero_le _) from rfl, PhiS9_zero V c 0 _ rfl]
  try exact Idealize.SL.BI.Entails.refl _

/-- After any point but the first the invariant gives the entry invariant back: the accumulator's contents are forgotten. -/
theorem Phi_out9 (c : Dev nD) (t : Fin (cfg9.N + 1)) (ht : t.val ≠ 0) : (dat9 V c).Φ t ⊢ Pipeline.ΦA spec9 c := by
  rw [show (dat9 V c).Φ t = PhiS9 V c t.val (Nat.le_of_lt_succ t.isLt) from rfl, PhiS9_pos V c _ _ ht, PhiA9_eq]
  iintro ⟨⟨HS0, Hr⟩, Hg⟩
  isplitl [HS0 Hr]
  · isplitl [HS0]
    · iexists _; iexact HS0
    iexact Hr
  iexact Hg

/-- The same after the last point. -/
theorem hout9 (c : Dev nD) : (dat9 V c).Φ (Fin.last cfg9.N) ⊢ Pipeline.ΦA spec9 c :=
  Phi_out9 V c _ (by rw [Fin.val_last]; have : cfg9.N = 32 := N_9; omega)

end Cert.KernelIdeal.Gen
end
-- ==== Proof.KernelIdealH.Reg10.lean ====
import proofs.«157173_j56882546868342_2_alg».proof.Proof.KernelIdealH.Launch
import proofs.«157173_j56882546868342_2_alg».proof.Proof.Gen.KernelIdeal.Skeleton
import proofs.«157173_j56882546868342_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 10 of @main: `cc10__attn_kernel` on the grid (4), at the entry contents `V`

One control case: at every point the body loads the four input windows whole, and stores one payload over the whole
output window. The invariant is the class's own at every point. -/

/-! ## The windows' blocks -/

/-- Window `w`'s block at point `t`, read off its array as the region finds it (`V`). -/
def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

/-- Input window 0's current staging buffer holds its block at every point, fetched there or not, for any proof
    data whose array is `V`'s and whose body leaves the block in place: where the window is not fetched its block
    index has not moved, so the block held from the point before is this point's. -/
theorem before10_0_of {c : Dev nD} (dat : Dat τ (Elt F) Unit ℕ (UR sig nD τ) ℕ cfg10 c) (hA : dat.A 0 = V c (Pipeline.arrRef spec10 0))
    (hafter : ∀ t, dat.after 0 t = iblk10 V c 0 t) (t : Fin cfg10.N) (d) : dat.before 0 t d = iblk10 V c 0 t :=
  (dat.before_in_eq_fetched 0 rfl (fun _ => rfl) (fun _ _ _ => rfl) (fun t => by rw [hafter]; unfold Dat.blockOf iblk10; rw [hA]; try rfl) t d).trans
    (by unfold Dat.fetched Dat.blockOf iblk10; rw [hA]; try rfl)

/-- Input window 1's current staging buffer holds its block at every point, fetched there or not, for any proof
    data whose array is `V`'s and whose body leaves the block in place: where the window is not fetched its block
    index has not moved, so the block held from the point before is this point's. -/
theorem before10_1_of {c : Dev nD} (dat : Dat τ (Elt F) Unit ℕ (UR sig nD τ) ℕ cfg10 c) (hA : dat.A 1 = V c (Pipeline.arrRef spec10 1))
    (hafter : ∀ t, dat.after 1 t = iblk10 V c 1 t) (t : Fin cfg10.N) (d) : dat.before 1 t d = iblk10 V c 1 t :=
  (dat.before_in_eq_fetched 1 rfl (fun _ => rfl) (fun _ _ _ => rfl) (fun t => by rw [hafter]; unfold Dat.blockOf iblk10; rw [hA]; try rfl) t d).trans
    (by unfold Dat.fetched Dat.blockOf iblk10; rw [hA]; try rfl)

/-- Input window 2's current staging buffer holds its block at every point, fetched there or not, for any proof
    data whose array is `V`'s and whose body leaves the block in place: where the window is not fetched its block
    index has not moved, so the block held from the point before is this point's. -/
theorem before10_2_of {c : Dev nD} (dat : Dat τ (Elt F) Unit ℕ (UR sig nD τ) ℕ cfg10 c) (hA : dat.A 2 = V c (Pipeline.arrRef spec10 2))
    (hafter : ∀ t, dat.after 2 t = iblk10 V c 2 t) (t : Fin cfg10.N) (d) : dat.before 2 t d = iblk10 V c 2 t :=
  (dat.before_in_eq_fetched 2 rfl (fun _ => rfl) (fun _ _ _ => rfl) (fun t => by rw [hafter]; unfold Dat.blockOf iblk10; rw [hA]; try rfl) t d).trans
    (by unfold Dat.fetched Dat.blockOf iblk10; rw [hA]; try rfl)

/-- Input window 3's current staging buffer holds its block at every point, fetched there or not, for any proof
    data whose array is `V`'s and whose body leaves the block in place: where the window is not fetched its block
    index has not moved, so the block held from the point before is this point's. -/
theorem before10_3_of {c : Dev nD} (dat : Dat τ (Elt F) Unit ℕ (UR sig nD τ) ℕ cfg10 c) (hA : dat.A 3 = V c (Pipeline.arrRef spec10 3))
    (hafter : ∀ t, dat.after 3 t = iblk10 V c 3 t) (t : Fin cfg10.N) (d) : dat.before 3 t d = iblk10 V c 3 t :=
  (dat.before_in_eq_fetched 3 rfl (fun _ => rfl) (fun _ _ _ => rfl) (fun t => by rw [hafter]; unfold Dat.blockOf iblk10; rw [hA]; try rfl) t d).trans
    (by unfold Dat.fetched Dat.blockOf iblk10; rw [hA]; try rfl)

/-! ## The body's accesses: each window's buffer, whole -/

abbrev r10_0 : Rect S1024x512 := Rect.unit (s := S1024x512) ![0, 0] S1024x512.size inb_S1024x512_S1024x512_0_0
abbrev r10_1 : Rect S512x512 := Rect.unit (s := S512x512) ![0, 0] S512x512.size inb_S512x512_S512x512_0_0
abbrev r10_2 : Rect S1x512 := Rect.unit (s := S1x512) ![0, 0] S1x512.size inb_S1x512_S1x512_0_0
abbrev r10_4 : Rect S1024x1 := Rect.unit (s := S1024x1) ![0, 0] S1024x1.size inb_S1024x1_S1024x1_0_0

/-! ## What the body leaves in the output window's buffer -/

/-- Window 4's staging buffer after the body, from the input windows' blocks: its one store, of the payload computed
    from the four loads, over the whole buffer. -/
def out10_4 (x0 : Vec F S1024x512 .bf16) (x1 : Vec F S512x512 .bf16) (x2 x3 : Vec F S1x512 .f32) : Vec F S1024x1 .f32 :=
  View.canon [⟨r10_4, k10_pay1 (View.ld x0 r10_0) (View.ld x1 r10_1) (View.ld x2 r10_2) (View.ld x3 r10_2)⟩]

/-- The store is over the whole buffer, so it covers it. -/
theorem cover10_4 (p0 : Vec F S1024x1 .f32) (y : S1024x1.Idx) :
    ∃ pc ∈ ([⟨r10_4, p0⟩] : List (View.Piece (Elt F) S1024x1 .f32)), y ∈ pc.1.set :=
  View.cover_of_tiled [⟨r10_4, p0⟩] S1024x1.size (by rfl) y

/-! ## The body's triple -/

set_option maxHeartbeats 1000000 in
/-- The kernel body on whole staging memrefs, the inputs' at read contents `xW` and the output's at anything, runs to
    the continuation holding the inputs' as they were and the output's at `out10_4` of the inputs'. The load of the
    output's prior contents is of a value no store uses. -/
theorem sound_kernel10 (c : Dev nD) (E : Set ℕ) (i : grid10.Coords)
    (arg1 : Memref sig .tc .vmem S1024x512 .bf16) (harg1 : arg1.IsWhole) (arg2 : Memref sig .tc .vmem S512x512 .bf16) (harg2 : arg2.IsWhole)
    (arg3 : Memref sig .tc .vmem S1x512 .f32) (harg3 : arg3.IsWhole) (arg4 : Memref sig .tc .vmem S1x512 .f32) (harg4 : arg4.IsWhole)
    (arg5 : Memref sig .tc .vmem S1024x1 .f32) (harg5 : arg5.IsWhole)
    (x0 : Vec F S1024x512 .bf16) (x1 : Vec F S512x512 .bf16) (x2 x3 : Vec F S1x512 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out10_4 x0 x1 x2 x3)) -∗ K ⟨⟩))
      ⊢ wp frame (wpE (defs₀ (F := F)) Variants.none c none) E (cc10__attn_kernel i arg1 harg1 arg2 harg2 arg3 harg3 arg4 harg4 arg5 harg5) K := by
  simp only [cc10__attn_kernel_eq_skeleton]; unfold cc10__attn_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover10_4 _)

/-! ## The pipeline's proof data -/

/-- The proof data of pipeline 10 on core `c`: the arrays as the region finds them (`V`); after the body at point
    `t` each input's buffer at its block and the output's at `out10_4` of the input blocks; the invariant the class's
    own at every point; nothing owed; full shares. -/
def dat10 (c : Dev nD) : Dat τ (Elt F) Unit ℕ (UR sig nD τ) ℕ cfg10 c where
  A w := V c (Pipeline.arrRef spec10 w)
  after w t := match w with
    | ⟨0, _⟩ => iblk10 V c 0 t
    | ⟨1, _⟩ => iblk10 V c 1 t
    | ⟨2, _⟩ => iblk10 V c 2 t
    | ⟨3, _⟩ => iblk10 V c 3 t
    | ⟨4, _⟩ => out10_4 (iblk10 V c 0 t) (iblk10 V c 1 t) (iblk10 V c 2 t) (iblk10 V c 3 t)
  Φ _ := Pipeline.ΦA spec10 c
  q _ := fullShare
  owed _ := 0

/-- The proof data's arrays are the region-entry contents. -/
theorem A_eq10 (c : Dev nD) (w : Fin cfg10.W) : (dat10 V c).A w = V c (Pipeline.arrRef spec10 w) := by
  dsimp only [dat10]

/-- What the body leaves, window by window. -/
theorem after10_0 (c : Dev nD) (t : Fin cfg10.N) : (dat10 V c).after 0 t = iblk10 V c 0 t := by dsimp only [dat10]
theorem after10_1 (c : Dev nD) (t : Fin cfg10.N) : (dat10 V c).after 1 t = iblk10 V c 1 t := by dsimp only [dat10]
theorem after10_2 (c : Dev nD) (t : Fin cfg10.N) : (dat10 V c).after 2 t = iblk10 V c 2 t := by dsimp only [dat10]
theorem after10_3 (c : Dev nD) (t : Fin cfg10.N) : (dat10 V c).after 3 t = iblk10 V c 3 t := by dsimp only [dat10]
theorem after10_4 (c : Dev nD) (t : Fin cfg10.N) :
    (dat10 V c).after 4 t = out10_4 (iblk10 V c 0 t) (iblk10 V c 1 t) (iblk10 V c 2 t) (iblk10 V c 3 t) := by dsimp only [dat10]

/-- Each input's current staging buffer holds its block at every point, fetched there or not. -/
theorem before10_0 (c : Dev nD) (t : Fin cfg10.N) (d) : (dat10 V c).before 0 t d = iblk10 V c 0 t :=
  before10_0_of V (dat10 V c) (A_eq10 V c 0) (after10_0 V c) t d
theorem before10_1 (c : Dev nD) (t : Fin cfg10.N) (d) : (dat10 V c).before 1 t d = iblk10 V c 1 t :=
  before10_1_of V (dat10 V c) (A_eq10 V c 1) (after10_1 V c) t d
theorem before10_2 (c : Dev nD) (t : Fin cfg10.N) (d) : (dat10 V c).before 2 t d = iblk10 V c 2 t :=
  before10_2_of V (dat10 V c) (A_eq10 V c 2) (after10_2 V c) t d
theorem before10_3 (c : Dev nD) (t : Fin cfg10.N) (d) : (dat10 V c).before 3 t d = iblk10 V c 3 t :=
  before10_3_of V (dat10 V c) (A_eq10 V c 3) (after10_3 V c) t d

/-! ## The body obligation, at a generic point -/

/-- What the body is called with at point `t`, the windows one by one, -/
def bodyPre10 (c : Dev nD) (t : Fin cfg10.N) : sProp 𝕄 :=
  iprop((dat10 V c).Φ t.castSucc ∗ (dat10 V c).owesAt () t.castSucc
    ∗ (∃ d, owns (c : Thread nD τ) (st10_0 t) fullShare ((dat10 V c).before 0 t d))
    ∗ (∃ d, owns (c : Thread nD τ) (st10_1 t) fullShare ((dat10 V c).before 1 t d))
    ∗ (∃ d, owns (c : Thread nD τ) (st10_2 t) fullShare ((dat10 V c).before 2 t d))
    ∗ (∃ d, owns (c : Thread nD τ) (st10_3 t) fullShare ((dat10 V c).before 3 t d))
    ∗ (∃ d, owns (c : Thread nD τ) (st10_4 t) fullShare ((dat10 V c).before 4 t d)))

/-- and what it returns. -/
def bodyPost10 (c : Dev nD) (t : Fin cfg10.N) : sProp 𝕄 :=
  iprop((dat10 V c).Φ t.succ ∗ (dat10 V c).owesAt () t.succ
    ∗ owns (c : Thread nD τ) (st10_0 t) fullShare ((dat10 V c).after 0 t)
    ∗ owns (c : Thread nD τ) (st10_1 t) fullShare ((dat10 V c).after 1 t)
    ∗ owns (c : Thread nD τ) (st10_2 t) fullShare ((dat10 V c).after 2 t)
    ∗ owns (c : Thread nD τ) (st10_3 t) fullShare ((dat10 V c).after 3 t)
    ∗ owns (c : Thread nD τ) (st10_4 t) fullShare ((dat10 V c).after 4 t))

/-- The body at any point: the inputs' memrefs hold their blocks, so `sound_kernel10` applies; the invariant and the
    core's debts pass through unread. -/
theorem sound_body10 (c : Dev nD) (t : Fin cfg10.N) :
    bodyPre10 V c t ⊢ wp frame (wpE (defs₀ (F := F)) Variants.none c none) Set.univ (bodyAt10 t) (fun _ => bodyPost10 V c t) := by
  unfold bodyPre10 bodyPost10 bodyAt10
  simp only [before10_0, before10_1, before10_2, before10_3]
  rw [show (dat10 V c).Φ t.succ = (dat10 V c).Φ t.castSucc from rfl,
    show (dat10 V c).owesAt () t.succ = (dat10 V c).owesAt () t.castSucc from rfl,
    after10_0, after10_1, after10_2, after10_3, after10_4]
  iintro ⟨HΦ, Ho, ⟨%d0, H0⟩, ⟨%d1, H1⟩, ⟨%d2, H2⟩, ⟨%d3, H3⟩, ⟨%d4, H4⟩⟩
  iapply (sound_kernel10 c Set.univ _ _ _ _ _ _ _ _ _ _ _ (iblk10 V c 0 t) (iblk10 V c 1 t) (iblk10 V c 2 t) (iblk10 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation10 (c : Dev nD) : BodyObligation (dat10 (F := F) V c) (defs₀ (F := F)) Variants.none () Set.univ := fun t => by
  rw [bigSep_W10, bigSep_W10]
  exact sound_body10 V c t

/-! ## The invariant at the region's ends -/

/-- The class's invariant is the proof data's before the first point -/
theorem hin10 (c : Dev nD) : Pipeline.ΦA spec10 c ⊢ (dat10 V c).Φ 0 :=
  Idealize.SL.BI.Entails.refl _

/-- and after the last. -/
theorem hout10 (c : Dev nD) : (dat10 V c).Φ (Fin.last cfg10.N) ⊢ Pipeline.ΦA spec10 c :=
  Idealize.SL.BI.Entails.refl _

end Cert.KernelIdeal.Gen
-- ==== Proof.KernelIdealH.Reg11.lean ====
import proofs.«157173_j56882546868342_2_alg».proof.Proof.KernelIdealH.Launch
import proofs.«157173_j56882546868342_2_alg».proof.Proof.Gen.KernelIdeal.Skeleton
import proofs.«157173_j56882546868342_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 11 of @main: `cc11__attn_kernel` on the grid (4), at the entry contents `V`

One control case: at every point the body loads the four input windows whole, and stores one payload over the whole
output window. The invariant is the class's own at every point. -/

/-! ## The windows' blocks -/

/-- Window `w`'s block at point `t`, read off its array as the region finds it (`V`). -/
def iblk11 (c : Dev nD) (w : Fin cfg11.W) (t : Fin cfg11.N) : ((cfg11.win w).xblock (cfg11.grid.coords t)).Idx → Elt F (cfg11.win w).elt :=
  ((cfg11.win w).blk t).view.read (Elt F) (V c (Pipeline.arrRef spec11 w))

/-- Input window 0's current staging buffer holds its block at every point, fetched there or not, for any proof
    data whose array is `V`'s and whose body leaves the block in place: where the window is not fetched its block
    index has not moved, so the block held from the point before is this point's. -/
theorem before11_0_of {c : Dev nD} (dat : Dat τ (Elt F) Unit ℕ (UR sig nD τ) ℕ cfg11 c) (hA : dat.A 0 = V c (Pipeline.arrRef spec11 0))
    (hafter : ∀ t, dat.after 0 t = iblk11 V c 0 t) (t : Fin cfg11.N) (d) : dat.before 0 t d = iblk11 V c 0 t :=
  (dat.before_in_eq_fetched 0 rfl (fun _ => rfl) (fun _ _ _ => rfl) (fun t => by rw [hafter]; unfold Dat.blockOf iblk11; rw [hA]; try rfl) t d).trans
    (by unfold Dat.fetched Dat.blockOf iblk11; rw [hA]; try rfl)

/-- Input window 1's current staging buffer holds its block at every point, fetched there or not, for any proof
    data whose array is `V`'s and whose body leaves the block in place: where the window is not fetched its block
    index has not moved, so the block held from the point before is this point's. -/
theorem before11_1_of {c : Dev nD} (dat : Dat τ (Elt F) Unit ℕ (UR sig nD τ) ℕ cfg11 c) (hA : dat.A 1 = V c (Pipeline.arrRef spec11 1))
    (hafter : ∀ t, dat.after 1 t = iblk11 V c 1 t) (t : Fin cfg11.N) (d) : dat.before 1 t d = iblk11 V c 1 t :=
  (dat.before_in_eq_fetched 1 rfl (fun _ => rfl) (fun _ _ _ => rfl) (fun t => by rw [hafter]; unfold Dat.blockOf iblk11; rw [hA]; try rfl) t d).trans
    (by unfold Dat.fetched Dat.blockOf iblk11; rw [hA]; try rfl)

/-- Input window 2's current staging buffer holds its block at every point, fetched there or not, for any proof
    data whose array is `V`'s and whose body leaves the block in place: where the window is not fetched its block
    index has not moved, so the block held from the point before is this point's. -/
theorem before11_2_of {c : Dev nD} (dat : Dat τ (Elt F) Unit ℕ (UR sig nD τ) ℕ cfg11 c) (hA : dat.A 2 = V c (Pipeline.arrRef spec11 2))
    (hafter : ∀ t, dat.after 2 t = iblk11 V c 2 t) (t : Fin cfg11.N) (d) : dat.before 2 t d = iblk11 V c 2 t :=
  (dat.before_in_eq_fetched 2 rfl (fun _ => rfl) (fun _ _ _ => rfl) (fun t => by rw [hafter]; unfold Dat.blockOf iblk11; rw [hA]; try rfl) t d).trans
    (by unfold Dat.fetched Dat.blockOf iblk11; rw [hA]; try rfl)

/-- Input window 3's current staging buffer holds its block at every point, fetched there or not, for any proof
    data whose array is `V`'s and whose body leaves the block in place: where the window is not fetched its block
    index has not moved, so the block held from the point before is this point's. -/
theorem before11_3_of {c : Dev nD} (dat : Dat τ (Elt F) Unit ℕ (UR sig nD τ) ℕ cfg11 c) (hA : dat.A 3 = V c (Pipeline.arrRef spec11 3))
    (hafter : ∀ t, dat.after 3 t = iblk11 V c 3 t) (t : Fin cfg11.N) (d) : dat.before 3 t d = iblk11 V c 3 t :=
  (dat.before_in_eq_fetched 3 rfl (fun _ => rfl) (fun _ _ _ => rfl) (fun t => by rw [hafter]; unfold Dat.blockOf iblk11; rw [hA]; try rfl) t d).trans
    (by unfold Dat.fetched Dat.blockOf iblk11; rw [hA]; try rfl)

/-! ## The body's accesses: each window's buffer, whole -/

abbrev r11_0 : Rect S1024x512 := Rect.unit (s := S1024x512) ![0, 0] S1024x512.size inb_S1024x512_S1024x512_0_0
abbrev r11_1 : Rect S512x512 := Rect.unit (s := S512x512) ![0, 0] S512x512.size inb_S512x512_S512x512_0_0
abbrev r11_2 : Rect S1x512 := Rect.unit (s := S1x512) ![0, 0] S1x512.size inb_S1x512_S1x512_0_0
abbrev r11_4 : Rect S1024x1 := Rect.unit (s := S1024x1) ![0, 0] S1024x1.size inb_S1024x1_S1024x1_0_0

/-! ## What the body leaves in the output window's buffer -/

/-- Window 4's staging buffer after the body, from the input windows' blocks: its one store, of the payload computed
    from the four loads, over the whole buffer. -/
def out11_4 (x0 : Vec F S1024x512 .bf16) (x1 : Vec F S512x512 .bf16) (x2 x3 : Vec F S1x512 .f32) : Vec F S1024x1 .f32 :=
  View.canon [⟨r11_4, k11_pay1 (View.ld x0 r11_0) (View.ld x1 r11_1) (View.ld x2 r11_2) (View.ld x3 r11_2)⟩]

/-- The store is over the whole buffer, so it covers it. -/
theorem cover11_4 (p0 : Vec F S1024x1 .f32) (y : S1024x1.Idx) :
    ∃ pc ∈ ([⟨r11_4, p0⟩] : List (View.Piece (Elt F) S1024x1 .f32)), y ∈ pc.1.set :=
  View.cover_of_tiled [⟨r11_4, p0⟩] S1024x1.size (by rfl) y

/-! ## The body's triple -/

set_option maxHeartbeats 1000000 in
/-- The kernel body on whole staging memrefs, the inputs' at read contents `xW` and the output's at anything, runs to
    the continuation holding the inputs' as they were and the output's at `out11_4` of the inputs'. The load of the
    output's prior contents is of a value no store uses. -/
theorem sound_kernel11 (c : Dev nD) (E : Set ℕ) (i : grid11.Coords)
    (arg1 : Memref sig .tc .vmem S1024x512 .bf16) (harg1 : arg1.IsWhole) (arg2 : Memref sig .tc .vmem S512x512 .bf16) (harg2 : arg2.IsWhole)
    (arg3 : Memref sig .tc .vmem S1x512 .f32) (harg3 : arg3.IsWhole) (arg4 : Memref sig .tc .vmem S1x512 .f32) (harg4 : arg4.IsWhole)
    (arg5 : Memref sig .tc .vmem S1024x1 .f32) (harg5 : arg5.IsWhole)
    (x0 : Vec F S1024x512 .bf16) (x1 : Vec F S512x512 .bf16) (x2 x3 : Vec F S1x512 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out11_4 x0 x1 x2 x3)) -∗ K ⟨⟩))
      ⊢ wp frame (wpE (defs₀ (F := F)) Variants.none c none) E (cc11__attn_kernel i arg1 harg1 arg2 harg2 arg3 harg3 arg4 harg4 arg5 harg5) K := by
  simp only [cc11__attn_kernel_eq_skeleton]; unfold cc11__attn_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover11_4 _)

/-! ## The pipeline's proof data -/

/-- The proof data of pipeline 11 on core `c`: the arrays as the region finds them (`V`); after the body at point
    `t` each input's buffer at its block and the output's at `out11_4` of the input blocks; the invariant the class's
    own at every point; nothing owed; full shares. -/
def dat11 (c : Dev nD) : Dat τ (Elt F) Unit ℕ (UR sig nD τ) ℕ cfg11 c where
  A w := V c (Pipeline.arrRef spec11 w)
  after w t := match w with
    | ⟨0, _⟩ => iblk11 V c 0 t
    | ⟨1, _⟩ => iblk11 V c 1 t
    | ⟨2, _⟩ => iblk11 V c 2 t
    | ⟨3, _⟩ => iblk11 V c 3 t
    | ⟨4, _⟩ => out11_4 (iblk11 V c 0 t) (iblk11 V c 1 t) (iblk11 V c 2 t) (iblk11 V c 3 t)
  Φ _ := Pipeline.ΦA spec11 c
  q _ := fullShare
  owed _ := 0

/-- The proof data's arrays are the region-entry contents. -/
theorem A_eq11 (c : Dev nD) (w : Fin cfg11.W) : (dat11 V c).A w = V c (Pipeline.arrRef spec11 w) := by
  dsimp only [dat11]

/-- What the body leaves, window by window. -/
theorem after11_0 (c : Dev nD) (t : Fin cfg11.N) : (dat11 V c).after 0 t = iblk11 V c 0 t := by dsimp only [dat11]
theorem after11_1 (c : Dev nD) (t : Fin cfg11.N) : (dat11 V c).after 1 t = iblk11 V c 1 t := by dsimp only [dat11]
theorem after11_2 (c : Dev nD) (t : Fin cfg11.N) : (dat11 V c).after 2 t = iblk11 V c 2 t := by dsimp only [dat11]
theorem after11_3 (c : Dev nD) (t : Fin cfg11.N) : (dat11 V c).after 3 t = iblk11 V c 3 t := by dsimp only [dat11]
theorem after11_4 (c : Dev nD) (t : Fin cfg11.N) :
    (dat11 V c).after 4 t = out11_4 (iblk11 V c 0 t) (iblk11 V c 1 t) (iblk11 V c 2 t) (iblk11 V c 3 t) := by dsimp only [dat11]

/-- Each input's current staging buffer holds its block at every point, fetched there or not. -/
theorem before11_0 (c : Dev nD) (t : Fin cfg11.N) (d) : (dat11 V c).before 0 t d = iblk11 V c 0 t :=
  before11_0_of V (dat11 V c) (A_eq11 V c 0) (after11_0 V c) t d
theorem before11_1 (c : Dev nD) (t : Fin cfg11.N) (d) : (dat11 V c).before 1 t d = iblk11 V c 1 t :=
  before11_1_of V (dat11 V c) (A_eq11 V c 1) (after11_1 V c) t d
theorem before11_2 (c : Dev nD) (t : Fin cfg11.N) (d) : (dat11 V c).before 2 t d = iblk11 V c 2 t :=
  before11_2_of V (dat11 V c) (A_eq11 V c 2) (after11_2 V c) t d
theorem before11_3 (c : Dev nD) (t : Fin cfg11.N) (d) : (dat11 V c).before 3 t d = iblk11 V c 3 t :=
  before11_3_of V (dat11 V c) (A_eq11 V c 3) (after11_3 V c) t d

/-! ## The body obligation, at a generic point -/

/-- What the body is called with at point `t`, the windows one by one, -/
def bodyPre11 (c : Dev nD) (t : Fin cfg11.N) : sProp 𝕄 :=
  iprop((dat11 V c).Φ t.castSucc ∗ (dat11 V c).owesAt () t.castSucc
    ∗ (∃ d, owns (c : Thread nD τ) (st11_0 t) fullShare ((dat11 V c).before 0 t d))
    ∗ (∃ d, owns (c : Thread nD τ) (st11_1 t) fullShare ((dat11 V c).before 1 t d))
    ∗ (∃ d, owns (c : Thread nD τ) (st11_2 t) fullShare ((dat11 V c).before 2 t d))
    ∗ (∃ d, owns (c : Thread nD τ) (st11_3 t) fullShare ((dat11 V c).before 3 t d))
    ∗ (∃ d, owns (c : Thread nD τ) (st11_4 t) fullShare ((dat11 V c).before 4 t d)))

/-- and what it returns. -/
def bodyPost11 (c : Dev nD) (t : Fin cfg11.N) : sProp 𝕄 :=
  iprop((dat11 V c).Φ t.succ ∗ (dat11 V c).owesAt () t.succ
    ∗ owns (c : Thread nD τ) (st11_0 t) fullShare ((dat11 V c).after 0 t)
    ∗ owns (c : Thread nD τ) (st11_1 t) fullShare ((dat11 V c).after 1 t)
    ∗ owns (c : Thread nD τ) (st11_2 t) fullShare ((dat11 V c).after 2 t)
    ∗ owns (c : Thread nD τ) (st11_3 t) fullShare ((dat11 V c).after 3 t)
    ∗ owns (c : Thread nD τ) (st11_4 t) fullShare ((dat11 V c).after 4 t))

/-- The body at any point: the inputs' memrefs hold their blocks, so `sound_kernel11` applies; the invariant and the
    core's debts pass through unread. -/
theorem sound_body11 (c : Dev nD) (t : Fin cfg11.N) :
    bodyPre11 V c t ⊢ wp frame (wpE (defs₀ (F := F)) Variants.none c none) Set.univ (bodyAt11 t) (fun _ => bodyPost11 V c t) := by
  unfold bodyPre11 bodyPost11 bodyAt11
  simp only [before11_0, before11_1, before11_2, before11_3]
  rw [show (dat11 V c).Φ t.succ = (dat11 V c).Φ t.castSucc from rfl,
    show (dat11 V c).owesAt () t.succ = (dat11 V c).owesAt () t.castSucc from rfl,
    after11_0, after11_1, after11_2, after11_3, after11_4]
  iintro ⟨HΦ, Ho, ⟨%d0, H0⟩, ⟨%d1, H1⟩, ⟨%d2, H2⟩, ⟨%d3, H3⟩, ⟨%d4, H4⟩⟩
  iapply (sound_kernel11 c Set.univ _ _ _ _ _ _ _ _ _ _ _ (iblk11 V c 0 t) (iblk11 V c 1 t) (iblk11 V c 2 t) (iblk11 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation11 (c : Dev nD) : BodyObligation (dat11 (F := F) V c) (defs₀ (F := F)) Variants.none () Set.univ := fun t => by
  rw [bigSep_W11, bigSep_W11]
  exact sound_body11 V c t

/-! ## The invariant at the region's ends -/

/-- The class's invariant is the proof data's before the first point -/
theorem hin11 (c : Dev nD) : Pipeline.ΦA spec11 c ⊢ (dat11 V c).Φ 0 :=
  Idealize.SL.BI.Entails.refl _

/-- and after the last. -/
theorem hout11 (c : Dev nD) : (dat11 V c).Φ (Fin.last cfg11.N) ⊢ Pipeline.ΦA spec11 c :=
  Idealize.SL.BI.Entails.refl _

end Cert.KernelIdeal.Gen
-- ==== Proof.KernelIdealH.Reg12.lean ====
import proofs.«157173_j56882546868342_2_alg».proof.Proof.KernelIdealH.Launch
import proofs.«157173_j56882546868342_2_alg».proof.Proof.Gen.KernelIdeal.Skeleton
import proofs.«157173_j56882546868342_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 12 of @main: `cc12__attn_kernel` on the grid (4), at the entry contents `V`

One control case: at every point the body loads the four input windows whole, and stores one payload over the whole
output window. The invariant is the class's own at every point. -/

/-! ## The windows' blocks -/

/-- Window `w`'s block at point `t`, read off its array as the region finds it (`V`). -/
def iblk12 (c : Dev nD) (w : Fin cfg12.W) (t : Fin cfg12.N) : ((cfg12.win w).xblock (cfg12.grid.coords t)).Idx → Elt F (cfg12.win w).elt :=
  ((cfg12.win w).blk t).view.read (Elt F) (V c (Pipeline.arrRef spec12 w))

/-- Input window 0's current staging buffer holds its block at every point, fetched there or not, for any proof
    data whose array is `V`'s and whose body leaves the block in place: where the window is not fetched its block
    index has not moved, so the block held from the point before is this point's. -/
theorem before12_0_of {c : Dev nD} (dat : Dat τ (Elt F) Unit ℕ (UR sig nD τ) ℕ cfg12 c) (hA : dat.A 0 = V c (Pipeline.arrRef spec12 0))
    (hafter : ∀ t, dat.after 0 t = iblk12 V c 0 t) (t : Fin cfg12.N) (d) : dat.before 0 t d = iblk12 V c 0 t :=
  (dat.before_in_eq_fetched 0 rfl (fun _ => rfl) (fun _ _ _ => rfl) (fun t => by rw [hafter]; unfold Dat.blockOf iblk12; rw [hA]; try rfl) t d).trans
    (by unfold Dat.fetched Dat.blockOf iblk12; rw [hA]; try rfl)

/-- Input window 1's current staging buffer holds its block at every point, fetched there or not, for any proof
    data whose array is `V`'s and whose body leaves the block in place: where the window is not fetched its block
    index has not moved, so the block held from the point before is this point's. -/
theorem before12_1_of {c : Dev nD} (dat : Dat τ (Elt F) Unit ℕ (UR sig nD τ) ℕ cfg12 c) (hA : dat.A 1 = V c (Pipeline.arrRef spec12 1))
    (hafter : ∀ t, dat.after 1 t = iblk12 V c 1 t) (t : Fin cfg12.N) (d) : dat.before 1 t d = iblk12 V c 1 t :=
  (dat.before_in_eq_fetched 1 rfl (fun _ => rfl) (fun _ _ _ => rfl) (fun t => by rw [hafter]; unfold Dat.blockOf iblk12; rw [hA]; try rfl) t d).trans
    (by unfold Dat.fetched Dat.blockOf iblk12; rw [hA]; try rfl)

/-- Input window 2's current staging buffer holds its block at every point, fetched there or not, for any proof
    data whose array is `V`'s and whose body leaves the block in place: where the window is not fetched its block
    index has not moved, so the block held from the point before is this point's. -/
theorem before12_2_of {c : Dev nD} (dat : Dat τ (Elt F) Unit ℕ (UR sig nD τ) ℕ cfg12 c) (hA : dat.A 2 = V c (Pipeline.arrRef spec12 2))
    (hafter : ∀ t, dat.after 2 t = iblk12 V c 2 t) (t : Fin cfg12.N) (d) : dat.before 2 t d = iblk12 V c 2 t :=
  (dat.before_in_eq_fetched 2 rfl (fun _ => rfl) (fun _ _ _ => rfl) (fun t => by rw [hafter]; unfold Dat.blockOf iblk12; rw [hA]; try rfl) t d).trans
    (by unfold Dat.fetched Dat.blockOf iblk12; rw [hA]; try rfl)

/-- Input window 3's current staging buffer holds its block at every point, fetched there or not, for any proof
    data whose array is `V`'s and whose body leaves the block in place: where the window is not fetched its block
    index has not moved, so the block held from the point before is this point's. -/
theorem before12_3_of {c : Dev nD} (dat : Dat τ (Elt F) Unit ℕ (UR sig nD τ) ℕ cfg12 c) (hA : dat.A 3 = V c (Pipeline.arrRef spec12 3))
    (hafter : ∀ t, dat.after 3 t = iblk12 V c 3 t) (t : Fin cfg12.N) (d) : dat.before 3 t d = iblk12 V c 3 t :=
  (dat.before_in_eq_fetched 3 rfl (fun _ => rfl) (fun _ _ _ => rfl) (fun t => by rw [hafter]; unfold Dat.blockOf iblk12; rw [hA]; try rfl) t d).trans
    (by unfold Dat.fetched Dat.blockOf iblk12; rw [hA]; try rfl)

/-! ## The body's accesses: each window's buffer, whole -/

abbrev r12_0 : Rect S1024x512 := Rect.unit (s := S1024x512) ![0, 0] S1024x512.size inb_S1024x512_S1024x512_0_0
abbrev r12_1 : Rect S512x512 := Rect.unit (s := S512x512) ![0, 0] S512x512.size inb_S512x512_S512x512_0_0
abbrev r12_2 : Rect S1x512 := Rect.unit (s := S1x512) ![0, 0] S1x512.size inb_S1x512_S1x512_0_0
abbrev r12_4 : Rect S1024x1 := Rect.unit (s := S1024x1) ![0, 0] S1024x1.size inb_S1024x1_S1024x1_0_0

/-! ## What the body leaves in the output window's buffer -/

/-- Window 4's staging buffer after the body, from the input windows' blocks: its one store, of the payload computed
    from the four loads, over the whole buffer. -/
def out12_4 (x0 : Vec F S1024x512 .bf16) (x1 : Vec F S512x512 .bf16) (x2 x3 : Vec F S1x512 .f32) : Vec F S1024x1 .f32 :=
  View.canon [⟨r12_4, k12_pay1 (View.ld x0 r12_0) (View.ld x1 r12_1) (View.ld x2 r12_2) (View.ld x3 r12_2)⟩]

/-- The store is over the whole buffer, so it covers it. -/
theorem cover12_4 (p0 : Vec F S1024x1 .f32) (y : S1024x1.Idx) :
    ∃ pc ∈ ([⟨r12_4, p0⟩] : List (View.Piece (Elt F) S1024x1 .f32)), y ∈ pc.1.set :=
  View.cover_of_tiled [⟨r12_4, p0⟩] S1024x1.size (by rfl) y

/-! ## The body's triple -/

set_option maxHeartbeats 1000000 in
/-- The kernel body on whole staging memrefs, the inputs' at read contents `xW` and the output's at anything, runs to
    the continuation holding the inputs' as they were and the output's at `out12_4` of the inputs'. The load of the
    output's prior contents is of a value no store uses. -/
theorem sound_kernel12 (c : Dev nD) (E : Set ℕ) (i : grid12.Coords)
    (arg1 : Memref sig .tc .vmem S1024x512 .bf16) (harg1 : arg1.IsWhole) (arg2 : Memref sig .tc .vmem S512x512 .bf16) (harg2 : arg2.IsWhole)
    (arg3 : Memref sig .tc .vmem S1x512 .f32) (harg3 : arg3.IsWhole) (arg4 : Memref sig .tc .vmem S1x512 .f32) (harg4 : arg4.IsWhole)
    (arg5 : Memref sig .tc .vmem S1024x1 .f32) (harg5 : arg5.IsWhole)
    (x0 : Vec F S1024x512 .bf16) (x1 : Vec F S512x512 .bf16) (x2 x3 : Vec F S1x512 .f32) (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ (∃ d, owns (c : Thread nD τ) arg5 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare (out12_4 x0 x1 x2 x3)) -∗ K ⟨⟩))
      ⊢ wp frame (wpE (defs₀ (F := F)) Variants.none c none) E (cc12__attn_kernel i arg1 harg1 arg2 harg2 arg3 harg3 arg4 harg4 arg5 harg5) K := by
  simp only [cc12__attn_kernel_eq_skeleton]; unfold cc12__attn_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover12_4 _)

/-! ## The pipeline's proof data -/

/-- The proof data of pipeline 12 on core `c`: the arrays as the region finds them (`V`); after the body at point
    `t` each input's buffer at its block and the output's at `out12_4` of the input blocks; the invariant the class's
    own at every point; nothing owed; full shares. -/
def dat12 (c : Dev nD) : Dat τ (Elt F) Unit ℕ (UR sig nD τ) ℕ cfg12 c where
  A w := V c (Pipeline.arrRef spec12 w)
  after w t := match w with
    | ⟨0, _⟩ => iblk12 V c 0 t
    | ⟨1, _⟩ => iblk12 V c 1 t
    | ⟨2, _⟩ => iblk12 V c 2 t
    | ⟨3, _⟩ => iblk12 V c 3 t
    | ⟨4, _⟩ => out12_4 (iblk12 V c 0 t) (iblk12 V c 1 t) (iblk12 V c 2 t) (iblk12 V c 3 t)
  Φ _ := Pipeline.ΦA spec12 c
  q _ := fullShare
  owed _ := 0

/-- The proof data's arrays are the region-entry contents. -/
theorem A_eq12 (c : Dev nD) (w : Fin cfg12.W) : (dat12 V c).A w = V c (Pipeline.arrRef spec12 w) := by
  dsimp only [dat12]

/-- What the body leaves, window by window. -/
theorem after12_0 (c : Dev nD) (t : Fin cfg12.N) : (dat12 V c).after 0 t = iblk12 V c 0 t := by dsimp only [dat12]
theorem after12_1 (c : Dev nD) (t : Fin cfg12.N) : (dat12 V c).after 1 t = iblk12 V c 1 t := by dsimp only [dat12]
theorem after12_2 (c : Dev nD) (t : Fin cfg12.N) : (dat12 V c).after 2 t = iblk12 V c 2 t := by dsimp only [dat12]
theorem after12_3 (c : Dev nD) (t : Fin cfg12.N) : (dat12 V c).after 3 t = iblk12 V c 3 t := by dsimp only [dat12]
theorem after12_4 (c : Dev nD) (t : Fin cfg12.N) :
    (dat12 V c).after 4 t = out12_4 (iblk12 V c 0 t) (iblk12 V c 1 t) (iblk12 V c 2 t) (iblk12 V c 3 t) := by dsimp only [dat12]

/-- Each input's current staging buffer holds its block at every point, fetched there or not. -/
theorem before12_0 (c : Dev nD) (t : Fin cfg12.N) (d) : (dat12 V c).before 0 t d = iblk12 V c 0 t :=
  before12_0_of V (dat12 V c) (A_eq12 V c 0) (after12_0 V c) t d
theorem before12_1 (c : Dev nD) (t : Fin cfg12.N) (d) : (dat12 V c).before 1 t d = iblk12 V c 1 t :=
  before12_1_of V (dat12 V c) (A_eq12 V c 1) (after12_1 V c) t d
theorem before12_2 (c : Dev nD) (t : Fin cfg12.N) (d) : (dat12 V c).before 2 t d = iblk12 V c 2 t :=
  before12_2_of V (dat12 V c) (A_eq12 V c 2) (after12_2 V c) t d
theorem before12_3 (c : Dev nD) (t : Fin cfg12.N) (d) : (dat12 V c).before 3 t d = iblk12 V c 3 t :=
  before12_3_of V (dat12 V c) (A_eq12 V c 3) (after12_3 V c) t d

/-! ## The body obligation, at a generic point -/

/-- What the body is called with at point `t`, the windows one by one, -/
def bodyPre12 (c : Dev nD) (t : Fin cfg12.N) : sProp 𝕄 :=
  iprop((dat12 V c).Φ t.castSucc ∗ (dat12 V c).owesAt () t.castSucc
    ∗ (∃ d, owns (c : Thread nD τ) (st12_0 t) fullShare ((dat12 V c).before 0 t d))
    ∗ (∃ d, owns (c : Thread nD τ) (st12_1 t) fullShare ((dat12 V c).before 1 t d))
    ∗ (∃ d, owns (c : Thread nD τ) (st12_2 t) fullShare ((dat12 V c).before 2 t d))
    ∗ (∃ d, owns (c : Thread nD τ) (st12_3 t) fullShare ((dat12 V c).before 3 t d))
    ∗ (∃ d, owns (c : Thread nD τ) (st12_4 t) fullShare ((dat12 V c).before 4 t d)))

/-- and what it returns. -/
def bodyPost12 (c : Dev nD) (t : Fin cfg12.N) : sProp 𝕄 :=
  iprop((dat12 V c).Φ t.succ ∗ (dat12 V c).owesAt () t.succ
    ∗ owns (c : Thread nD τ) (st12_0 t) fullShare ((dat12 V c).after 0 t)
    ∗ owns (c : Thread nD τ) (st12_1 t) fullShare ((dat12 V c).after 1 t)
    ∗ owns (c : Thread nD τ) (st12_2 t) fullShare ((dat12 V c).after 2 t)
    ∗ owns (c : Thread nD τ) (st12_3 t) fullShare ((dat12 V c).after 3 t)
    ∗ owns (c : Thread nD τ) (st12_4 t) fullShare ((dat12 V c).after 4 t))

/-- The body at any point: the inputs' memrefs hold their blocks, so `sound_kernel12` applies; the invariant and the
    core's debts pass through unread. -/
theorem sound_body12 (c : Dev nD) (t : Fin cfg12.N) :
    bodyPre12 V c t ⊢ wp frame (wpE (defs₀ (F := F)) Variants.none c none) Set.univ (bodyAt12 t) (fun _ => bodyPost12 V c t) := by
  unfold bodyPre12 bodyPost12 bodyAt12
  simp only [before12_0, before12_1, before12_2, before12_3]
  rw [show (dat12 V c).Φ t.succ = (dat12 V c).Φ t.castSucc from rfl,
    show (dat12 V c).owesAt () t.succ = (dat12 V c).owesAt () t.castSucc from rfl,
    after12_0, after12_1, after12_2, after12_3, after12_4]
  iintro ⟨HΦ, Ho, ⟨%d0, H0⟩, ⟨%d1, H1⟩, ⟨%d2, H2⟩, ⟨%d3, H3⟩, ⟨%d4, H4⟩⟩
  iapply (sound_kernel12 c Set.univ _ _ _ _ _ _ _ _ _ _ _ (iblk12 V c 0 t) (iblk12 V c 1 t) (iblk12 V c 2 t) (iblk12 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation12 (c : Dev nD) : BodyObligation (dat12 (F := F) V c) (defs₀ (F := F)) Variants.none () Set.univ := fun t => by
  rw [bigSep_W12, bigSep_W12]
  exact sound_body12 V c t

/-! ## The invariant at the region's ends -/

/-- The class's invariant is the proof data's before the first point -/
theorem hin12 (c : Dev nD) : Pipeline.ΦA spec12 c ⊢ (dat12 V c).Φ 0 :=
  Idealize.SL.BI.Entails.refl _

/-- and after the last. -/
theorem hout12 (c : Dev nD) : (dat12 V c).Φ (Fin.last cfg12.N) ⊢ Pipeline.ΦA spec12 c :=
  Idealize.SL.BI.Entails.refl _

end Cert.KernelIdeal.Gen
-- ==== Proof.KernelIdealH.Reg13.lean ====
import proofs.«157173_j56882546868342_2_alg».proof.Proof.KernelIdealH.Launch
import proofs.«157173_j56882546868342_2_alg».proof.Proof.Gen.KernelIdeal.Skeleton
import proofs.«157173_j56882546868342_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
set_option maxRecDepth 16384
noncomputable section
namespace Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (V : (c : Dev nD) → (b : Ref sig .tc) → Buf (Elt F) ((c : Thread nD τ).loc b))

/-! # Region 13 of @main: `cc13__cls_kernel` (pipeline 13), at the entry contents `V`

One control case and no carried buffer: at every point the body reads its six input windows' blocks and
stores the whole output block, a closed function of them. The invariant is the class's own at every point. -/

/-! ## The windows' blocks -/

/-- Window `w`'s block at point `t`, read off its array as the region finds it (`V`). -/
def iblk13 (c : Dev nD) (w : Fin cfg13.W) (t : Fin cfg13.N) : ((cfg13.win w).xblock (cfg13.grid.coords t)).Idx → Elt F (cfg13.win w).elt :=
  ((cfg13.win w).blk t).view.read (Elt F) (V c (Pipeline.arrRef spec13 w))

/-- Input window 0's current staging buffer holds its block at every point, fetched there or not: an input whose
    body leaves the block in place; unfetched, the block index has not moved. -/
theorem before13_0_of {c : Dev nD} (dat : Dat τ (Elt F) Unit ℕ (UR sig nD τ) ℕ cfg13 c) (hA : dat.A 0 = V c (Pipeline.arrRef spec13 0))
    (hafter : ∀ t, dat.after 0 t = iblk13 V c 0 t) (t : Fin cfg13.N) (d) : dat.before 0 t d = iblk13 V c 0 t :=
  (dat.before_in_eq_fetched 0 rfl (fun _ => rfl) (fun _ _ _ => rfl) (fun t => by rw [hafter]; unfold Dat.blockOf iblk13; rw [hA]; try rfl) t d).trans
    (by unfold Dat.fetched Dat.blockOf iblk13; rw [hA]; try rfl)

/-- Input window 1's current staging buffer holds its block at every point, fetched there or not: an input whose
    body leaves the block in place; unfetched, the block index has not moved. -/
theorem before13_1_of {c : Dev nD} (dat : Dat τ (Elt F) Unit ℕ (UR sig nD τ) ℕ cfg13 c) (hA : dat.A 1 = V c (Pipeline.arrRef spec13 1))
    (hafter : ∀ t, dat.after 1 t = iblk13 V c 1 t) (t : Fin cfg13.N) (d) : dat.before 1 t d = iblk13 V c 1 t :=
  (dat.before_in_eq_fetched 1 rfl (fun _ => rfl) (fun _ _ _ => rfl) (fun t => by rw [hafter]; unfold Dat.blockOf iblk13; rw [hA]; try rfl) t d).trans
    (by unfold Dat.fetched Dat.blockOf iblk13; rw [hA]; try rfl)

/-- Input window 2's current staging buffer holds its block at every point, fetched there or not: an input whose
    body leaves the block in place; unfetched, the block index has not moved. -/
theorem before13_2_of {c : Dev nD} (dat : Dat τ (Elt F) Unit ℕ (UR sig nD τ) ℕ cfg13 c) (hA : dat.A 2 = V c (Pipeline.arrRef spec13 2))
    (hafter : ∀ t, dat.after 2 t = iblk13 V c 2 t) (t : Fin cfg13.N) (d) : dat.before 2 t d = iblk13 V c 2 t :=
  (dat.before_in_eq_fetched 2 rfl (fun _ => rfl) (fun _ _ _ => rfl) (fun t => by rw [hafter]; unfold Dat.blockOf iblk13; rw [hA]; try rfl) t d).trans
    (by unfold Dat.fetched Dat.blockOf iblk13; rw [hA]; try rfl)

/-- Input window 3's current staging buffer holds its block at every point, fetched there or not: an input whose
    body leaves the block in place; unfetched, the block index has not moved. -/
theorem before13_3_of {c : Dev nD} (dat : Dat τ (Elt F) Unit ℕ (UR sig nD τ) ℕ cfg13 c) (hA : dat.A 3 = V c (Pipeline.arrRef spec13 3))
    (hafter : ∀ t, dat.after 3 t = iblk13 V c 3 t) (t : Fin cfg13.N) (d) : dat.before 3 t d = iblk13 V c 3 t :=
  (dat.before_in_eq_fetched 3 rfl (fun _ => rfl) (fun _ _ _ => rfl) (fun t => by rw [hafter]; unfold Dat.blockOf iblk13; rw [hA]; try rfl) t d).trans
    (by unfold Dat.fetched Dat.blockOf iblk13; rw [hA]; try rfl)

/-- Input window 4's current staging buffer holds its block at every point, fetched there or not: an input whose
    body leaves the block in place; unfetched, the block index has not moved. -/
theorem before13_4_of {c : Dev nD} (dat : Dat τ (Elt F) Unit ℕ (UR sig nD τ) ℕ cfg13 c) (hA : dat.A 4 = V c (Pipeline.arrRef spec13 4))
    (hafter : ∀ t, dat.after 4 t = iblk13 V c 4 t) (t : Fin cfg13.N) (d) : dat.before 4 t d = iblk13 V c 4 t :=
  (dat.before_in_eq_fetched 4 rfl (fun _ => rfl) (fun _ _ _ => rfl) (fun t => by rw [hafter]; unfold Dat.blockOf iblk13; rw [hA]; try rfl) t d).trans
    (by unfold Dat.fetched Dat.blockOf iblk13; rw [hA]; try rfl)

/-- Input window 5's current staging buffer holds its block at every point, fetched there or not: an input whose
    body leaves the block in place; unfetched, the block index has not moved. -/
theorem before13_5_of {c : Dev nD} (dat : Dat τ (Elt F) Unit ℕ (UR sig nD τ) ℕ cfg13 c) (hA : dat.A 5 = V c (Pipeline.arrRef spec13 5))
    (hafter : ∀ t, dat.after 5 t = iblk13 V c 5 t) (t : Fin cfg13.N) (d) : dat.before 5 t d = iblk13 V c 5 t :=
  (dat.before_in_eq_fetched 5 rfl (fun _ => rfl) (fun _ _ _ => rfl) (fun t => by rw [hafter]; unfold Dat.blockOf iblk13; rw [hA]; try rfl) t d).trans
    (by unfold Dat.fetched Dat.blockOf iblk13; rw [hA]; try rfl)

/-! ## The body's accesses -/

/-- The three columns of the mixing-weights block, -/
abbrev ra13_0 : Rect S1024x3 := Rect.unit (s := S1024x3) ![0, 0] S1024x1.size inb_S1024x3_S1024x1_0_0
abbrev ra13_1 : Rect S1024x3 := Rect.unit (s := S1024x3) ![0, 1] S1024x1.size inb_S1024x3_S1024x1_0_1
abbrev ra13_2 : Rect S1024x3 := Rect.unit (s := S1024x3) ![0, 2] S1024x1.size inb_S1024x3_S1024x1_0_2
/-- a whole row block of a feature matrix, the whole weight matrix, the whole bias row, the whole output block. -/
abbrev rb13 : Rect S1024x512 := Rect.unit (s := S1024x512) ![0, 0] S1024x512.size inb_S1024x512_S1024x512_0_0
abbrev rc13 : Rect S512x16 := Rect.unit (s := S512x16) ![0, 0] S512x16.size inb_S512x16_S512x16_0_0
abbrev rd13 : Rect S1x16 := Rect.unit (s := S1x16) ![0, 0] S1x16.size inb_S1x16_S1x16_0_0
abbrev ro13 : Rect S1024x16 := Rect.unit (s := S1024x16) ![0, 0] S1024x16.size inb_S1024x16_S1024x16_0_0

/-! ## What the body leaves in the output window's buffer -/

/-- The value the body stores, from the input windows' blocks: the shifted logits less the logarithm of the row
    sum of their exponentials. -/
def pay13_6 (x0 : Vec F S1024x512 .bf16) (x1 : Vec F S1024x512 .bf16) (x2 : Vec F S1024x512 .bf16) (x3 : Vec F S1024x3 .f32) (x4 : Vec F S512x16 .bf16) (x5 : Vec F S1x16 .f32) : FVec F S1024x16 .f32 :=
  k13_pay1 (k13_pay2 (View.ld x3 ra13_0) (View.ld x3 ra13_1) (View.ld x3 ra13_2) (View.ld x0 rb13) (View.ld x1 rb13) (View.ld x2 rb13) (View.ld x4 rc13) (View.ld x5 rd13)) (k13_pay3 (View.ld x3 ra13_0) (View.ld x3 ra13_1) (View.ld x3 ra13_2) (View.ld x0 rb13) (View.ld x1 rb13) (View.ld x2 rb13) (View.ld x4 rc13) (View.ld x5 rd13))

/-- Window 6's staging buffer after the body: its one store as a piece. -/
def out13_6 (x0 : Vec F S1024x512 .bf16) (x1 : Vec F S1024x512 .bf16) (x2 : Vec F S1024x512 .bf16) (x3 : Vec F S1024x3 .f32) (x4 : Vec F S512x16 .bf16) (x5 : Vec F S1x16 .f32) : Vec F S1024x16 .f32 :=
  View.canon [⟨ro13, pay13_6 x0 x1 x2 x3 x4 x5⟩]

/-- The store tiles the buffer, so it covers it. -/
theorem cover13_6 (p0 : Vec F S1024x16 .f32) (y : S1024x16.Idx) :
    ∃ pc ∈ ([⟨ro13, p0⟩] : List (View.Piece (Elt F) S1024x16 .f32)), y ∈ pc.1.set :=
  View.cover_of_tiled [⟨ro13, p0⟩] S1024x16.size (by rfl) y

/-! ## The body's triple -/

set_option maxHeartbeats 4000000 in
/-- The kernel body on whole staging memrefs, the inputs' at read contents `xW` and the output's at anything, runs to
    the continuation holding the inputs' as they were and the output's at `out13_6` of the inputs'. -/
theorem sound_kernel13 (c : Dev nD) (E : Set ℕ) (i : grid13.Coords) (arg1 : Memref sig .tc .vmem S1024x512 .bf16) (harg1 : arg1.IsWhole) (arg2 : Memref sig .tc .vmem S1024x512 .bf16) (harg2 : arg2.IsWhole) (arg3 : Memref sig .tc .vmem S1024x512 .bf16) (harg3 : arg3.IsWhole) (arg4 : Memref sig .tc .vmem S1024x3 .f32) (harg4 : arg4.IsWhole) (arg5 : Memref sig .tc .vmem S512x16 .bf16) (harg5 : arg5.IsWhole) (arg6 : Memref sig .tc .vmem S1x16 .f32) (harg6 : arg6.IsWhole) (arg7 : Memref sig .tc .vmem S1024x16 .f32) (harg7 : arg7.IsWhole)
    (x0 : Vec F S1024x512 .bf16) (x1 : Vec F S1024x512 .bf16) (x2 : Vec F S1024x512 .bf16) (x3 : Vec F S1024x3 .f32) (x4 : Vec F S512x16 .bf16) (x5 : Vec F S1x16 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out13_6 x0 x1 x2 x3 x4 x5)) -∗ K ⟨⟩))
      ⊢ wp frame (wpE (defs₀ (F := F)) Variants.none c none) E (cc13__cls_kernel i arg1 harg1 arg2 harg2 arg3 harg3 arg4 harg4 arg5 harg5 arg6 harg6 arg7 harg7) K := by
  simp only [cc13__cls_kernel_eq_skeleton]; unfold cc13__cls_kernel_skel
  simp only [k13_part1_eq_skeleton]; unfold k13_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  exact View.read_writes_eq_canon _ _ _ (cover13_6 _)

/-! ## The pipeline's proof data -/

/-- The proof data of pipeline 13 on core `c`: the arrays as the region finds them (`V`); after the body at
    point `t` each input's buffer at its block and the output's at `out13_6` of the input blocks; the invariant the
    class's own, untouched; nothing owed; full shares. -/
def dat13 (c : Dev nD) : Dat τ (Elt F) Unit ℕ (UR sig nD τ) ℕ cfg13 c where
  A w := V c (Pipeline.arrRef spec13 w)
  after w t := match w with
    | ⟨0, _⟩ => iblk13 V c 0 t
    | ⟨1, _⟩ => iblk13 V c 1 t
    | ⟨2, _⟩ => iblk13 V c 2 t
    | ⟨3, _⟩ => iblk13 V c 3 t
    | ⟨4, _⟩ => iblk13 V c 4 t
    | ⟨5, _⟩ => iblk13 V c 5 t
    | ⟨6, _⟩ => out13_6 (iblk13 V c 0 t) (iblk13 V c 1 t) (iblk13 V c 2 t) (iblk13 V c 3 t) (iblk13 V c 4 t) (iblk13 V c 5 t)
  Φ _ := Pipeline.ΦA spec13 c
  q _ := fullShare
  owed _ := 0

/-- The proof data's arrays are the region-entry contents. -/
theorem A_eq13 (c : Dev nD) (w : Fin cfg13.W) : (dat13 V c).A w = V c (Pipeline.arrRef spec13 w) := by
  dsimp only [dat13]

/-- What the body leaves, window by window. -/
theorem after13_0 (c : Dev nD) (t : Fin cfg13.N) : (dat13 V c).after 0 t = iblk13 V c 0 t := by dsimp only [dat13]
theorem after13_1 (c : Dev nD) (t : Fin cfg13.N) : (dat13 V c).after 1 t = iblk13 V c 1 t := by dsimp only [dat13]
theorem after13_2 (c : Dev nD) (t : Fin cfg13.N) : (dat13 V c).after 2 t = iblk13 V c 2 t := by dsimp only [dat13]
theorem after13_3 (c : Dev nD) (t : Fin cfg13.N) : (dat13 V c).after 3 t = iblk13 V c 3 t := by dsimp only [dat13]
theorem after13_4 (c : Dev nD) (t : Fin cfg13.N) : (dat13 V c).after 4 t = iblk13 V c 4 t := by dsimp only [dat13]
theorem after13_5 (c : Dev nD) (t : Fin cfg13.N) : (dat13 V c).after 5 t = iblk13 V c 5 t := by dsimp only [dat13]
theorem after13_6 (c : Dev nD) (t : Fin cfg13.N) : (dat13 V c).after 6 t = out13_6 (iblk13 V c 0 t) (iblk13 V c 1 t) (iblk13 V c 2 t) (iblk13 V c 3 t) (iblk13 V c 4 t) (iblk13 V c 5 t) := by dsimp only [dat13]

/-- Each input's current staging buffer holds its block at every point, fetched there or not. -/
theorem before13_0 (c : Dev nD) (t : Fin cfg13.N) (d) : (dat13 V c).before 0 t d = iblk13 V c 0 t :=
  before13_0_of V (dat13 V c) (A_eq13 V c 0) (after13_0 V c) t d
theorem before13_1 (c : Dev nD) (t : Fin cfg13.N) (d) : (dat13 V c).before 1 t d = iblk13 V c 1 t :=
  before13_1_of V (dat13 V c) (A_eq13 V c 1) (after13_1 V c) t d
theorem before13_2 (c : Dev nD) (t : Fin cfg13.N) (d) : (dat13 V c).before 2 t d = iblk13 V c 2 t :=
  before13_2_of V (dat13 V c) (A_eq13 V c 2) (after13_2 V c) t d
theorem before13_3 (c : Dev nD) (t : Fin cfg13.N) (d) : (dat13 V c).before 3 t d = iblk13 V c 3 t :=
  before13_3_of V (dat13 V c) (A_eq13 V c 3) (after13_3 V c) t d
theorem before13_4 (c : Dev nD) (t : Fin cfg13.N) (d) : (dat13 V c).before 4 t d = iblk13 V c 4 t :=
  before13_4_of V (dat13 V c) (A_eq13 V c 4) (after13_4 V c) t d
theorem before13_5 (c : Dev nD) (t : Fin cfg13.N) (d) : (dat13 V c).before 5 t d = iblk13 V c 5 t :=
  before13_5_of V (dat13 V c) (A_eq13 V c 5) (after13_5 V c) t d

/-! ## The body obligation, at a generic point -/

/-- What the body is called with at point `t`, the windows one by one, -/
def bodyPre13 (c : Dev nD) (t : Fin cfg13.N) : sProp 𝕄 :=
  iprop((dat13 V c).Φ t.castSucc ∗ (dat13 V c).owesAt () t.castSucc
    ∗ (∃ d, owns (c : Thread nD τ) (st13_0 t) fullShare ((dat13 V c).before 0 t d))
    ∗ (∃ d, owns (c : Thread nD τ) (st13_1 t) fullShare ((dat13 V c).before 1 t d))
    ∗ (∃ d, owns (c : Thread nD τ) (st13_2 t) fullShare ((dat13 V c).before 2 t d))
    ∗ (∃ d, owns (c : Thread nD τ) (st13_3 t) fullShare ((dat13 V c).before 3 t d))
    ∗ (∃ d, owns (c : Thread nD τ) (st13_4 t) fullShare ((dat13 V c).before 4 t d))
    ∗ (∃ d, owns (c : Thread nD τ) (st13_5 t) fullShare ((dat13 V c).before 5 t d))
    ∗ (∃ d, owns (c : Thread nD τ) (st13_6 t) fullShare ((dat13 V c).before 6 t d)))

/-- and what it returns. -/
def bodyPost13 (c : Dev nD) (t : Fin cfg13.N) : sProp 𝕄 :=
  iprop((dat13 V c).Φ t.succ ∗ (dat13 V c).owesAt () t.succ
    ∗ owns (c : Thread nD τ) (st13_0 t) fullShare ((dat13 V c).after 0 t)
    ∗ owns (c : Thread nD τ) (st13_1 t) fullShare ((dat13 V c).after 1 t)
    ∗ owns (c : Thread nD τ) (st13_2 t) fullShare ((dat13 V c).after 2 t)
    ∗ owns (c : Thread nD τ) (st13_3 t) fullShare ((dat13 V c).after 3 t)
    ∗ owns (c : Thread nD τ) (st13_4 t) fullShare ((dat13 V c).after 4 t)
    ∗ owns (c : Thread nD τ) (st13_5 t) fullShare ((dat13 V c).after 5 t)
    ∗ owns (c : Thread nD τ) (st13_6 t) fullShare ((dat13 V c).after 6 t))

/-- The body at any point: the inputs' memrefs hold their blocks, so the body's triple applies; the invariant and
    the core's debts pass through unread. -/
theorem sound_body13 (c : Dev nD) (t : Fin cfg13.N) :
    bodyPre13 V c t ⊢ wp frame (wpE (defs₀ (F := F)) Variants.none c none) Set.univ (bodyAt13 t) (fun _ => bodyPost13 V c t) := by
  unfold bodyPre13 bodyPost13 bodyAt13
  simp only [before13_0, before13_1, before13_2, before13_3, before13_4, before13_5]
  rw [show (dat13 V c).Φ t.succ = (dat13 V c).Φ t.castSucc from rfl,
    show (dat13 V c).owesAt () t.succ = (dat13 V c).owesAt () t.castSucc from rfl,
    after13_0, after13_1, after13_2, after13_3, after13_4, after13_5, after13_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel13 c Set.univ (grid13.coords t) _ _ _ _ _ _ _ _ _ _ _ _ _ _ (iblk13 V c 0 t) (iblk13 V c 1 t) (iblk13 V c 2 t) (iblk13 V c 3 t) (iblk13 V c 4 t) (iblk13 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation13 (c : Dev nD) : BodyObligation (dat13 (F := F) V c) (defs₀ (F := F)) Variants.none () Set.univ := fun t => by
  rw [bigSep_W13, bigSep_W13]
  exact sound_body13 V c t

/-- Entering the region, the class's invariant is the proof data's at the first point; -/
theorem hin13 (c : Dev nD) : Pipeline.ΦA spec13 c ⊢ (dat13 V c).Φ 0 := by
  rw [show (dat13 V c).Φ 0 = Pipeline.ΦA spec13 c from rfl]
  try exact Idealize.SL.BI.Entails.refl _

/-- and after the last point it is the class's again. -/
theorem hout13 (c : Dev nD) : (dat13 V c).Φ (Fin.last cfg13.N) ⊢ Pipeline.ΦA spec13 c := by
  rw [show (dat13 V c).Φ (Fin.last cfg13.N) = Pipeline.ΦA spec13 c from rfl]
  try exact Idealize.SL.BI.Entails.refl _

end Cert.KernelIdeal.Gen

end
-- ==== Proof.KernelIdealH.Outs.lean ====
import proofs.«157173_j56882546868342_2_alg».proof.Proof.KernelIdealH.Regions
import proofs.«157173_j56882546868342_2_alg».proof.Proof.KernelIdealH.Reg0
import proofs.«157173_j56882546868342_2_alg».proof.Proof.KernelIdealH.Reg1
import proofs.«157173_j56882546868342_2_alg».proof.Proof.KernelIdealH.Reg2
import proofs.«157173_j56882546868342_2_alg».proof.Proof.KernelIdealH.Reg3
import proofs.«157173_j56882546868342_2_alg».proof.Proof.KernelIdealH.Reg4
import proofs.«157173_j56882546868342_2_alg».proof.Proof.KernelIdealH.Reg5
import proofs.«157173_j56882546868342_2_alg».proof.Proof.KernelIdealH.Reg6
import proofs.«157173_j56882546868342_2_alg».proof.Proof.KernelIdealH.Reg7
import proofs.«157173_j56882546868342_2_alg».proof.Proof.KernelIdealH.Reg8
import proofs.«157173_j56882546868342_2_alg».proof.Proof.KernelIdealH.Reg9
import proofs.«157173_j56882546868342_2_alg».proof.Proof.KernelIdealH.Reg10
import proofs.«157173_j56882546868342_2_alg».proof.Proof.KernelIdealH.Reg11
import proofs.«157173_j56882546868342_2_alg».proof.Proof.KernelIdealH.Reg12
import proofs.«157173_j56882546868342_2_alg».proof.Proof.KernelIdealH.Reg13
set_option maxRecDepth 16384
noncomputable section
namespace Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
variable (m : (ℓ : Loc nD τ sig) → Buf (Elt F) ℓ)

/-! # What the fourteen regions leave in their output buffers

Between two items of the program a core holds its unscoped buffers at one valuation. At launch it is the memory's;
a host stretch applies its operations to it; a region changes one buffer only, its output, and leaves there what its
pipeline has written back by the last grid point, a function of the contents the region was entered at. The
valuations are therefore defined one from the other in program order, and what the regions leave, the unknowns the
conditional frame is stated over, is read off them. Then the conditional frame's own valuations, taken at these
results, are the ones defined here, and each region's result is its pipeline's last array. -/

/-- Writing into a function, at a point, the value the written function has there anyway gives the written function. -/
theorem update_read_self {α : Type} [DecidableEq α] {β : α → Type} (f : (a : α) → β a) (a : α) (v : β a) :
    Function.update f a (Function.update f a v a) = Function.update f a v := by
  rw [Function.update_self]

/-! ## The valuations in program order -/

/-- After region 0 (the product main_v0 · main_v19): `main_v31` rewritten, all else as after the first host stretch. -/
def U2 (c : Dev nD) : Valuation τ sig (Elt F) :=
  Function.update (V1 m c) main_v31
    ((dat0 (fun c b => V1 m c b) c).arrAt 2 cfg0.N : Buf (Elt F) ((c : Thread nD τ).loc main_v31))
/-- After region 1 (main_v1 · main_v0): `main_v32` rewritten. -/
def U3 (c : Dev nD) : Valuation τ sig (Elt F) :=
  Function.update (U2 m c) main_v32
    ((dat1 (fun c b => U2 m c b) c).arrAt 2 cfg1.N : Buf (Elt F) ((c : Thread nD τ).loc main_v32))
/-- After region 2 (product, sum and positive part): `main_v33` rewritten. -/
def U4 (c : Dev nD) : Valuation τ sig (Elt F) :=
  Function.update (U3 m c) main_v33
    ((dat2 (fun c b => U3 m c b) c).arrAt 3 cfg2.N : Buf (Elt F) ((c : Thread nD τ).loc main_v33))
/-- After region 3 (main_v33 · main_v26): `main_v34` rewritten. -/
def U5 (c : Dev nD) : Valuation τ sig (Elt F) :=
  Function.update (U4 m c) main_v34
    ((dat3 (fun c b => U4 m c b) c).arrAt 2 cfg3.N : Buf (Elt F) ((c : Thread nD τ).loc main_v34))
/-- After region 4 (main_v1 · main_v33): `main_v35` rewritten. -/
def U6 (c : Dev nD) : Valuation τ sig (Elt F) :=
  Function.update (U5 m c) main_v35
    ((dat4 (fun c b => U5 m c b) c).arrAt 2 cfg4.N : Buf (Elt F) ((c : Thread nD τ).loc main_v35))
/-- After region 5 (product, sum and positive part): `main_v36` rewritten. -/
def U7 (c : Dev nD) : Valuation τ sig (Elt F) :=
  Function.update (U6 m c) main_v36
    ((dat5 (fun c b => U6 m c b) c).arrAt 3 cfg5.N : Buf (Elt F) ((c : Thread nD τ).loc main_v36))
/-- After region 6 (main_v4 · main_v5): `main_v37` rewritten. -/
def U8 (c : Dev nD) : Valuation τ sig (Elt F) :=
  Function.update (U7 m c) main_v37
    ((dat6 (fun c b => U7 m c b) c).arrAt 2 cfg6.N : Buf (Elt F) ((c : Thread nD τ).loc main_v37))
/-- After the host stretch that makes region 7's bias row. -/
def U9 (c : Dev nD) : Valuation τ sig (Elt F) := StableHlo.after hostOps7 (U8 m c)
/-- After region 7 (product, bias row, positive part): `main_v39` rewritten. -/
def U10 (c : Dev nD) : Valuation τ sig (Elt F) :=
  Function.update (U9 m c) main_v39
    ((dat7 (fun c b => U9 m c b) c).arrAt 3 cfg7.N : Buf (Elt F) ((c : Thread nD τ).loc main_v39))
/-- After the host stretch that makes region 8's bias row. -/
def U11 (c : Dev nD) : Valuation τ sig (Elt F) := StableHlo.after hostOps8 (U10 m c)
/-- After region 8 (product and bias row): `main_v41` rewritten. -/
def U12 (c : Dev nD) : Valuation τ sig (Elt F) :=
  Function.update (U11 m c) main_v41
    ((dat8 (fun c b => U11 m c b) c).arrAt 3 cfg8.N : Buf (Elt F) ((c : Thread nD τ).loc main_v41))
/-- After region 9 (main_v3 · main_v41): `main_v42` rewritten. -/
def U13 (c : Dev nD) : Valuation τ sig (Elt F) :=
  Function.update (U12 m c) main_v42
    ((dat9 (fun c b => U12 m c b) c).arrAt 2 cfg9.N : Buf (Elt F) ((c : Thread nD τ).loc main_v42))
/-- After the host stretch that makes the attention regions' row operands. -/
def U14 (c : Dev nD) : Valuation τ sig (Elt F) := StableHlo.after hostOps10 (U13 m c)
/-- After region 10 (the attention score of main_v36's rows): `main_v46` rewritten. -/
def U15 (c : Dev nD) : Valuation τ sig (Elt F) :=
  Function.update (U14 m c) main_v46
    ((dat10 (fun c b => U14 m c b) c).arrAt 4 cfg10.N : Buf (Elt F) ((c : Thread nD τ).loc main_v46))
/-- After region 11 (the attention score of main_v39's rows): `main_v47` rewritten. -/
def U16 (c : Dev nD) : Valuation τ sig (Elt F) :=
  Function.update (U15 m c) main_v47
    ((dat11 (fun c b => U15 m c b) c).arrAt 4 cfg11.N : Buf (Elt F) ((c : Thread nD τ).loc main_v47))
/-- After region 12 (the attention score of main_v42's rows): `main_v48` rewritten. -/
def U17 (c : Dev nD) : Valuation τ sig (Elt F) :=
  Function.update (U16 m c) main_v48
    ((dat12 (fun c b => U16 m c b) c).arrAt 4 cfg12.N : Buf (Elt F) ((c : Thread nD τ).loc main_v48))
/-- After the host stretch that makes the mixing weights and the classifier's bias row. -/
def U18 (c : Dev nD) : Valuation τ sig (Elt F) := StableHlo.after hostOps13 (U17 m c)
/-- After region 13 (the classifier with its row-wise log-softmax): `main_v62`, the program's result, rewritten. -/
def U19 (c : Dev nD) : Valuation τ sig (Elt F) :=
  Function.update (U18 m c) main_v62
    ((dat13 (fun c b => U18 m c b) c).arrAt 6 cfg13.N : Buf (Elt F) ((c : Thread nD τ).loc main_v62))

/-! ## The regions' results -/

/-- What the regions leave: the valuation after item `J - 1` read at the reference. The conditional frame reads it at
    fourteen points only, a region's stage number with that region's output. -/
def outs : Outs (F := F) := fun J r c =>
  match J with
  | 2 => U2 m c r
  | 3 => U3 m c r
  | 4 => U4 m c r
  | 5 => U5 m c r
  | 6 => U6 m c r
  | 7 => U7 m c r
  | 8 => U8 m c r
  | 10 => U10 m c r
  | 12 => U12 m c r
  | 13 => U13 m c r
  | 15 => U15 m c r
  | 16 => U16 m c r
  | 17 => U17 m c r
  | 19 => U19 m c r
  | _ => V0 m c r

/-! ## The conditional frame's valuations at these results

In program order. A region's step: the valuation before it is the one above by the step before, and the value
written at the output is the one the valuation above has there. A host stretch's step: the same operations applied
to equal valuations. -/

theorem V2_eq (c : Dev nD) : V2 m (outs m) c = U2 m c := by
  show Function.update (V1 m c) main_v31 (U2 m c main_v31) = U2 m c
  exact update_read_self _ _ _
theorem V3_eq (c : Dev nD) : V3 m (outs m) c = U3 m c := by
  show Function.update (V2 m (outs m) c) main_v32 (U3 m c main_v32) = U3 m c
  rw [V2_eq]; exact update_read_self _ _ _
theorem V4_eq (c : Dev nD) : V4 m (outs m) c = U4 m c := by
  show Function.update (V3 m (outs m) c) main_v33 (U4 m c main_v33) = U4 m c
  rw [V3_eq]; exact update_read_self _ _ _
theorem V5_eq (c : Dev nD) : V5 m (outs m) c = U5 m c := by
  show Function.update (V4 m (outs m) c) main_v34 (U5 m c main_v34) = U5 m c
  rw [V4_eq]; exact update_read_self _ _ _
theorem V6_eq (c : Dev nD) : V6 m (outs m) c = U6 m c := by
  show Function.update (V5 m (outs m) c) main_v35 (U6 m c main_v35) = U6 m c
  rw [V5_eq]; exact update_read_self _ _ _
theorem V7_eq (c : Dev nD) : V7 m (outs m) c = U7 m c := by
  show Function.update (V6 m (outs m) c) main_v36 (U7 m c main_v36) = U7 m c
  rw [V6_eq]; exact update_read_self _ _ _
theorem V8_eq (c : Dev nD) : V8 m (outs m) c = U8 m c := by
  show Function.update (V7 m (outs m) c) main_v37 (U8 m c main_v37) = U8 m c
  rw [V7_eq]; exact update_read_self _ _ _
theorem V9_eq (c : Dev nD) : V9 m (outs m) c = U9 m c := by
  show StableHlo.after hostOps7 (V8 m (outs m) c) = U9 m c
  rw [V8_eq]; rfl
theorem V10_eq (c : Dev nD) : V10 m (outs m) c = U10 m c := by
  show Function.update (V9 m (outs m) c) main_v39 (U10 m c main_v39) = U10 m c
  rw [V9_eq]; exact update_read_self _ _ _
theorem V11_eq (c : Dev nD) : V11 m (outs m) c = U11 m c := by
  show StableHlo.after hostOps8 (V10 m (outs m) c) = U11 m c
  rw [V10_eq]; rfl
theorem V12_eq (c : Dev nD) : V12 m (outs m) c = U12 m c := by
  show Function.update (V11 m (outs m) c) main_v41 (U12 m c main_v41) = U12 m c
  rw [V11_eq]; exact update_read_self _ _ _
theorem V13_eq (c : Dev nD) : V13 m (outs m) c = U13 m c := by
  show Function.update (V12 m (outs m) c) main_v42 (U13 m c main_v42) = U13 m c
  rw [V12_eq]; exact update_read_self _ _ _
theorem V14_eq (c : Dev nD) : V14 m (outs m) c = U14 m c := by
  show StableHlo.after hostOps10 (V13 m (outs m) c) = U14 m c
  rw [V13_eq]; rfl
theorem V15_eq (c : Dev nD) : V15 m (outs m) c = U15 m c := by
  show Function.update (V14 m (outs m) c) main_v46 (U15 m c main_v46) = U15 m c
  rw [V14_eq]; exact update_read_self _ _ _
theorem V16_eq (c : Dev nD) : V16 m (outs m) c = U16 m c := by
  show Function.update (V15 m (outs m) c) main_v47 (U16 m c main_v47) = U16 m c
  rw [V15_eq]; exact update_read_self _ _ _
theorem V17_eq (c : Dev nD) : V17 m (outs m) c = U17 m c := by
  show Function.update (V16 m (outs m) c) main_v48 (U17 m c main_v48) = U17 m c
  rw [V16_eq]; exact update_read_self _ _ _
theorem V18_eq (c : Dev nD) : V18 m (outs m) c = U18 m c := by
  show StableHlo.after hostOps13 (V17 m (outs m) c) = U18 m c
  rw [V17_eq]; rfl
theorem V19_eq (c : Dev nD) : V19 m (outs m) c = U19 m c := by
  show Function.update (V18 m (outs m) c) main_v62 (U19 m c main_v62) = U19 m c
  rw [V18_eq]; exact update_read_self _ _ _

/-- The same, for the valuations as the regions' proof data take them: read at the TensorCore's references, on every core. -/
theorem rd_eq {A B : Dev nD → Valuation τ sig (Elt F)} (h : ∀ c, A c = B c) :
    (fun (c : Dev nD) (b : Ref sig .tc) => (A c b : Buf (Elt F) ((c : Thread nD τ).loc b)))
      = fun (c : Dev nD) (b : Ref sig .tc) => (B c b : Buf (Elt F) ((c : Thread nD τ).loc b)) :=
  funext fun c => funext fun b => congrFun (h c) b

/-! ## Each region's result is its pipeline's last array, from the contents the region was entered at -/

theorem outs_2 (c : Dev nD) : outs m 2 main_v31 c = (dat0 (fun c b => V1 m c b) c).arrAt 2 cfg0.N := by
  show U2 m c main_v31 = _
  unfold U2; rw [Function.update_self]
theorem outs_3 (c : Dev nD) : outs m 3 main_v32 c = (dat1 (fun c b => V2 m (outs m) c b) c).arrAt 2 cfg1.N := by
  rw [rd_eq (V2_eq m)]; show U3 m c main_v32 = _
  unfold U3; rw [Function.update_self]
theorem outs_4 (c : Dev nD) : outs m 4 main_v33 c = (dat2 (fun c b => V3 m (outs m) c b) c).arrAt 3 cfg2.N := by
  rw [rd_eq (V3_eq m)]; show U4 m c main_v33 = _
  unfold U4; rw [Function.update_self]
theorem outs_5 (c : Dev nD) : outs m 5 main_v34 c = (dat3 (fun c b => V4 m (outs m) c b) c).arrAt 2 cfg3.N := by
  rw [rd_eq (V4_eq m)]; show U5 m c main_v34 = _
  unfold U5; rw [Function.update_self]
theorem outs_6 (c : Dev nD) : outs m 6 main_v35 c = (dat4 (fun c b => V5 m (outs m) c b) c).arrAt 2 cfg4.N := by
  rw [rd_eq (V5_eq m)]; show U6 m c main_v35 = _
  unfold U6; rw [Function.update_self]
theorem outs_7 (c : Dev nD) : outs m 7 main_v36 c = (dat5 (fun c b => V6 m (outs m) c b) c).arrAt 3 cfg5.N := by
  rw [rd_eq (V6_eq m)]; show U7 m c main_v36 = _
  unfold U7; rw [Function.update_self]
theorem outs_8 (c : Dev nD) : outs m 8 main_v37 c = (dat6 (fun c b => V7 m (outs m) c b) c).arrAt 2 cfg6.N := by
  rw [rd_eq (V7_eq m)]; show U8 m c main_v37 = _
  unfold U8; rw [Function.update_self]
theorem outs_10 (c : Dev nD) : outs m 10 main_v39 c = (dat7 (fun c b => V9 m (outs m) c b) c).arrAt 3 cfg7.N := by
  rw [rd_eq (V9_eq m)]; show U10 m c main_v39 = _
  unfold U10; rw [Function.update_self]
theorem outs_12 (c : Dev nD) : outs m 12 main_v41 c = (dat8 (fun c b => V11 m (outs m) c b) c).arrAt 3 cfg8.N := by
  rw [rd_eq (V11_eq m)]; show U12 m c main_v41 = _
  unfold U12; rw [Function.update_self]
theorem outs_13 (c : Dev nD) : outs m 13 main_v42 c = (dat9 (fun c b => V12 m (outs m) c b) c).arrAt 2 cfg9.N := by
  rw [rd_eq (V12_eq m)]; show U13 m c main_v42 = _
  unfold U13; rw [Function.update_self]
theorem outs_15 (c : Dev nD) : outs m 15 main_v46 c = (dat10 (fun c b => V14 m (outs m) c b) c).arrAt 4 cfg10.N := by
  rw [rd_eq (V14_eq m)]; show U15 m c main_v46 = _
  unfold U15; rw [Function.update_self]
theorem outs_16 (c : Dev nD) : outs m 16 main_v47 c = (dat11 (fun c b => V15 m (outs m) c b) c).arrAt 4 cfg11.N := by
  rw [rd_eq (V15_eq m)]; show U16 m c main_v47 = _
  unfold U16; rw [Function.update_self]
theorem outs_17 (c : Dev nD) : outs m 17 main_v48 c = (dat12 (fun c b => V16 m (outs m) c b) c).arrAt 4 cfg12.N := by
  rw [rd_eq (V16_eq m)]; show U17 m c main_v48 = _
  unfold U17; rw [Function.update_self]
theorem outs_19 (c : Dev nD) : outs m 19 main_v62 c = (dat13 (fun c b => V18 m (outs m) c b) c).arrAt 6 cfg13.N := by
  rw [rd_eq (V18_eq m)]; show U19 m c main_v62 = _
  unfold U19; rw [Function.update_self]

end Cert.KernelIdeal.Gen

end
-- ==== Proof.KernelIdealH.RunBase.lean ====
import proofs.«157173_j56882546868342_2_alg».proof.Proof.KernelIdealH.Outs
set_option maxRecDepth 16384
noncomputable section
namespace Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (m : (ℓ : Loc nD τ sig) → Buf (Elt F) ℓ)

/-! # The run's shared data

The proof data of the fourteen pipelines, each at the contents its region is entered at; the certificate's choices
for the launch theorem (no variants, no levels, nothing owed between cores); and what rides beside the unscoped
buffers through every item: the core's generator register at some state and its dues, at nothing. -/

/-- Every pipeline's proof data, at its region's entry contents: a literal match on the pipeline's number, so that at a
    numeral it reduces to that region's data. -/
def pdats : (p : Fin 14) → (c : Dev nD) → Dat τ (Elt F) Unit ℕ (UR sig nD τ) ℕ (cfgs p) c
  | ⟨0, _⟩ => fun c => dat0 (fun c b => V1 m c b) c
  | ⟨1, _⟩ => fun c => dat1 (fun c b => V2 m (outs m) c b) c
  | ⟨2, _⟩ => fun c => dat2 (fun c b => V3 m (outs m) c b) c
  | ⟨3, _⟩ => fun c => dat3 (fun c b => V4 m (outs m) c b) c
  | ⟨4, _⟩ => fun c => dat4 (fun c b => V5 m (outs m) c b) c
  | ⟨5, _⟩ => fun c => dat5 (fun c b => V6 m (outs m) c b) c
  | ⟨6, _⟩ => fun c => dat6 (fun c b => V7 m (outs m) c b) c
  | ⟨7, _⟩ => fun c => dat7 (fun c b => V9 m (outs m) c b) c
  | ⟨8, _⟩ => fun c => dat8 (fun c b => V11 m (outs m) c b) c
  | ⟨9, _⟩ => fun c => dat9 (fun c b => V12 m (outs m) c b) c
  | ⟨10, _⟩ => fun c => dat10 (fun c b => V14 m (outs m) c b) c
  | ⟨11, _⟩ => fun c => dat11 (fun c b => V15 m (outs m) c b) c
  | ⟨12, _⟩ => fun c => dat12 (fun c b => V16 m (outs m) c b) c
  | ⟨13, _⟩ => fun c => dat13 (fun c b => V18 m (outs m) c b) c

/-- No variant of any function is chosen. -/
abbrev 𝒱h : Variants := Variants.none
/-- No core waits on another: no level is assigned, -/
abbrev Lh : GSem nD τ sig → Finset Unit := fun _ => ∅
/-- and the level of nothing is zero. -/
abbrev lvh : GSem nD τ sig → Unit → ℕ := fun _ _ => 0
/-- What rides beside the buffers: the generator register at some state (a pipeline's invariant takes it in and gives
    it back) and the core's dues, at nothing. -/
abbrev Rh (c : Dev nD) : sProp 𝕄 := iprop((∃ r, prngReg c r) ∗ ∃ W, owes (c : Thread nD τ) (0 : CellTallies nD τ sig Unit) W)
/-- The same between any two items. -/
abbrev Eh : Fin 15 → Dev nD → sProp 𝕄 := fun _ c => Rh c
/-- A valuation read at the TensorCore's references, as a region's proof data and the buffer lemmas take it. -/
abbrev atTc (c : Dev nD) (W : Valuation τ sig (Elt F)) : (b : Ref sig .tc) → Buf (Elt F) ((c : Thread nD τ).loc b) := fun b => W b

end Cert.KernelIdeal.Gen

end
-- ==== Proof.KernelIdealH.Rec0.lean ====
import proofs.«157173_j56882546868342_2_alg».proof.Proof.KernelIdealH.RunBase
set_option maxRecDepth 16384
noncomputable section
namespace Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (m : (ℓ : Loc nD τ sig) → Buf (Elt F) ℓ)

/-! # Region 0 as a segment of the run

Entered with every unscoped buffer at the valuation `V1`, left at `V2`: `main_v31` rewritten and every other buffer
as found. At the exit each window's array must be what the exit valuation holds there: the output's (window 2) by
the definition of what the region leaves; an input's because a pipeline never writes an input's array and the exit
valuation differs from the entry one at the output only. -/

/-- At the exit every window's array is the exit valuation's at that window's reference. -/
theorem hF0 (c : Dev nD) (w : Fin cfg0.W) :
    (dat0 (fun c b => V1 m c b) c).arrAt w cfg0.N = atTc c (V2 m (outs m) c) (Pipeline.arrRef spec0 w) := by
  by_cases h : w = 2
  · subst h
    refine (outs_2 m c).symm.trans ?_
    show outs m 2 main_v31 c = Function.update (V1 m c) main_v31 (outs m 2 main_v31 c) main_v31
    rw [Function.update_self]
  · have hin : (cfg0.win w).isOut = false := (by decide : ∀ w : Fin cfg0.W, w ≠ 2 → (cfg0.win w).isOut = false) w h
    have hne : Pipeline.arrRef spec0 w ≠ main_v31 := (by decide : ∀ w : Fin cfg0.W, w ≠ 2 → Pipeline.arrRef spec0 w ≠ main_v31) w h
    refine ((dat0 (fun c b => V1 m c b) c).arrAt_in w hin cfg0.N).trans ((A_eq0 (fun c b => V1 m c b) c w).trans ?_)
    exact (V2_of m (outs m) c (Pipeline.arrRef spec0 w) (fun hm => hne (List.mem_singleton.mp hm))).symm

/-- Every buffer that is no window's array is as the region found it. -/
theorem hrest0 (c : Dev nD) : ∀ b : Ref sig .tc, b ∉ Finset.univ.image (Pipeline.arrRef spec0) →
    atTc c (V2 m (outs m) c) b = atTc c (V1 m c) b :=
  fun b hb => V2_of m (outs m) c b fun hm => hb (Finset.mem_image.mpr ⟨2, Finset.mem_univ _, by
    rw [List.mem_singleton.mp hm]⟩)

-- the library's lemmas are stated over the pinned configuration, which unifies with the printed one only when
-- unification may unfold plain definitions in a metavariable's type
set_option backward.isDefEq.respectTransparency.types false in
/-- REGION 0 over the thread state. Entry: its windows' arrays are split out of the unscoped buffers and the rest is
    set aside; the generator register goes into the pipeline's invariant and comes back; nothing is owed; the kernel
    has no semaphore of its own. Exit: the arrays, now at what the pipeline left, are put back beside the rest, which
    gives every unscoped buffer at the exit valuation. -/
def reg0 : Pipeline.RegionSeg (pcfgs (F := F)) adm (pdats m) () defs₀ 𝒱h Lh lvh 0 where
  win := launch0.win.to₀
  block_pos := launch0.block_pos
  stage_whole := launch0.stage_whole
  K := PEmpty
  osem k := k.elim
  ho := Pipeline.OwnSemFacts.none _
  hbody c := (body_obligation0 (fun c b => V1 m c b) c).loose
  hwaits := Pipeline.hwaits_of_owed_zero _ _ _ _ Lh lvh 0 fun _ _ => rfl
  pre c := iprop(StableHlo.held (c : Thread nD τ) (Pipeline.ucRefs τ sig) (V1 m c) ∗ Eh 0 c)
  post c := iprop(StableHlo.held (c : Thread nD τ) (Pipeline.ucRefs τ sig) (V2 m (outs m) c) ∗ Eh 1 c)
  X c := iprop(∃ r, prngReg c r)
  Y c := iprop(∃ r, prngReg c r)
  Z c := Pipeline.unscopedRest (Ix := Unit) (Name := ℕ) (U := UR sig nD τ) (Lvl := ℕ) spec0 c (atTc c (V1 m c))
  hentry c := by
    rw [Pipeline.ownSems0_none]
    have hsplit := Pipeline.arrays_of_unscopedBufs (p := 0) (pcfgs (F := F)) adm (pdats m) launch0.win launch0.arr_whole c
      ((pdats m 0 c).share_full fun _ => rfl) (atTc c (V1 m c)) fun w => A_eq0 (fun c b => V1 m c b) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = (dat0 (fun c b => V1 m c b) c).Φ 0 from rfl]
    have h := hin0 (F := F) (fun c b => V1 m c b) c
    unfold Pipeline.ΦA at h
    iintro ⟨Hp, -, Hr⟩
    iapply h
    isplitl [Hr]; · iexact Hr
    iexact Hp
  hout c := by
    rw [Pipeline.ownSems0_none, show (pdats m 0 c).Φ (Fin.last _) = (dat0 (fun c b => V1 m c b) c).Φ (Fin.last cfg0.N) from rfl]
    have h := hout0 (F := F) (fun c b => V1 m c b) c
    unfold Pipeline.ΦA at h
    iintro HΦ
    ihave H := h $$ HΦ
    icases H with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (atTc c (V1 m c)) (atTc c (V2 m (outs m) c)) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Gen

end
-- ==== Proof.KernelIdealH.Rec1.lean ====
import proofs.«157173_j56882546868342_2_alg».proof.Proof.KernelIdealH.RunBase
set_option maxRecDepth 16384
noncomputable section
namespace Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (m : (ℓ : Loc nD τ sig) → Buf (Elt F) ℓ)

/-! # Region 1 as a segment of the run

Entered with every unscoped buffer at the valuation `V2`, left at `V3`: `main_v32` rewritten and every other buffer
as found. At the exit each window's array must be what the exit valuation holds there: the output's (window 2) by
the definition of what the region leaves; an input's because a pipeline never writes an input's array and the exit
valuation differs from the entry one at the output only. -/

/-- At the exit every window's array is the exit valuation's at that window's reference. -/
theorem hF1 (c : Dev nD) (w : Fin cfg1.W) :
    (dat1 (fun c b => V2 m (outs m) c b) c).arrAt w cfg1.N = atTc c (V3 m (outs m) c) (Pipeline.arrRef spec1 w) := by
  by_cases h : w = 2
  · subst h
    refine (outs_3 m c).symm.trans ?_
    show outs m 3 main_v32 c = Function.update (V2 m (outs m) c) main_v32 (outs m 3 main_v32 c) main_v32
    rw [Function.update_self]
  · have hin : (cfg1.win w).isOut = false := (by decide : ∀ w : Fin cfg1.W, w ≠ 2 → (cfg1.win w).isOut = false) w h
    have hne : Pipeline.arrRef spec1 w ≠ main_v32 := (by decide : ∀ w : Fin cfg1.W, w ≠ 2 → Pipeline.arrRef spec1 w ≠ main_v32) w h
    refine ((dat1 (fun c b => V2 m (outs m) c b) c).arrAt_in w hin cfg1.N).trans ((A_eq1 (fun c b => V2 m (outs m) c b) c w).trans ?_)
    exact (V3_of m (outs m) c (Pipeline.arrRef spec1 w) (fun hm => hne (List.mem_singleton.mp hm))).symm

/-- Every buffer that is no window's array is as the region found it. -/
theorem hrest1 (c : Dev nD) : ∀ b : Ref sig .tc, b ∉ Finset.univ.image (Pipeline.arrRef spec1) →
    atTc c (V3 m (outs m) c) b = atTc c (V2 m (outs m) c) b :=
  fun b hb => V3_of m (outs m) c b fun hm => hb (Finset.mem_image.mpr ⟨2, Finset.mem_univ _, by
    rw [List.mem_singleton.mp hm]⟩)

-- the library's lemmas are stated over the pinned configuration, which unifies with the printed one only when
-- unification may unfold plain definitions in a metavariable's type
set_option backward.isDefEq.respectTransparency.types false in
/-- REGION 1 over the thread state. Entry: its windows' arrays are split out of the unscoped buffers and the rest is
    set aside; the generator register goes into the pipeline's invariant and comes back; nothing is owed; the kernel
    has no semaphore of its own. Exit: the arrays, now at what the pipeline left, are put back beside the rest, which
    gives every unscoped buffer at the exit valuation. -/
def reg1 : Pipeline.RegionSeg (pcfgs (F := F)) adm (pdats m) () defs₀ 𝒱h Lh lvh 1 where
  win := launch1.win.to₀
  block_pos := launch1.block_pos
  stage_whole := launch1.stage_whole
  K := PEmpty
  osem k := k.elim
  ho := Pipeline.OwnSemFacts.none _
  hbody c := (body_obligation1 (fun c b => V2 m (outs m) c b) c).loose
  hwaits := Pipeline.hwaits_of_owed_zero _ _ _ _ Lh lvh 1 fun _ _ => rfl
  pre c := iprop(StableHlo.held (c : Thread nD τ) (Pipeline.ucRefs τ sig) (V2 m (outs m) c) ∗ Eh 1 c)
  post c := iprop(StableHlo.held (c : Thread nD τ) (Pipeline.ucRefs τ sig) (V3 m (outs m) c) ∗ Eh 2 c)
  X c := iprop(∃ r, prngReg c r)
  Y c := iprop(∃ r, prngReg c r)
  Z c := Pipeline.unscopedRest (Ix := Unit) (Name := ℕ) (U := UR sig nD τ) (Lvl := ℕ) spec1 c (atTc c (V2 m (outs m) c))
  hentry c := by
    rw [Pipeline.ownSems0_none]
    have hsplit := Pipeline.arrays_of_unscopedBufs (p := 1) (pcfgs (F := F)) adm (pdats m) launch1.win launch1.arr_whole c
      ((pdats m 1 c).share_full fun _ => rfl) (atTc c (V2 m (outs m) c)) fun w => A_eq1 (fun c b => V2 m (outs m) c b) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = (dat1 (fun c b => V2 m (outs m) c b) c).Φ 0 from rfl]
    have h := hin1 (F := F) (fun c b => V2 m (outs m) c b) c
    unfold Pipeline.ΦA at h
    iintro ⟨Hp, -, Hr⟩
    iapply h
    isplitl [Hr]; · iexact Hr
    iexact Hp
  hout c := by
    rw [Pipeline.ownSems0_none, show (pdats m 1 c).Φ (Fin.last _) = (dat1 (fun c b => V2 m (outs m) c b) c).Φ (Fin.last cfg1.N) from rfl]
    have h := hout1 (F := F) (fun c b => V2 m (outs m) c b) c
    unfold Pipeline.ΦA at h
    iintro HΦ
    ihave H := h $$ HΦ
    icases H with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (atTc c (V2 m (outs m) c)) (atTc c (V3 m (outs m) c)) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Gen

end
-- ==== Proof.KernelIdealH.Rec2.lean ====
import proofs.«157173_j56882546868342_2_alg».proof.Proof.KernelIdealH.RunBase
set_option maxRecDepth 16384
noncomputable section
namespace Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (m : (ℓ : Loc nD τ sig) → Buf (Elt F) ℓ)

/-! # Region 2 as a segment of the run

Entered with every unscoped buffer at the valuation `V3`, left at `V4`: `main_v33` rewritten and every other buffer
as found. At the exit each window's array must be what the exit valuation holds there: the output's (window 3) by
the definition of what the region leaves; an input's because a pipeline never writes an input's array and the exit
valuation differs from the entry one at the output only. -/

/-- At the exit every window's array is the exit valuation's at that window's reference. -/
theorem hF2 (c : Dev nD) (w : Fin cfg2.W) :
    (dat2 (fun c b => V3 m (outs m) c b) c).arrAt w cfg2.N = atTc c (V4 m (outs m) c) (Pipeline.arrRef spec2 w) := by
  by_cases h : w = 3
  · subst h
    refine (outs_4 m c).symm.trans ?_
    show outs m 4 main_v33 c = Function.update (V3 m (outs m) c) main_v33 (outs m 4 main_v33 c) main_v33
    rw [Function.update_self]
  · have hin : (cfg2.win w).isOut = false := (by decide : ∀ w : Fin cfg2.W, w ≠ 3 → (cfg2.win w).isOut = false) w h
    have hne : Pipeline.arrRef spec2 w ≠ main_v33 := (by decide : ∀ w : Fin cfg2.W, w ≠ 3 → Pipeline.arrRef spec2 w ≠ main_v33) w h
    refine ((dat2 (fun c b => V3 m (outs m) c b) c).arrAt_in w hin cfg2.N).trans ((A_eq2 (fun c b => V3 m (outs m) c b) c w).trans ?_)
    exact (V4_of m (outs m) c (Pipeline.arrRef spec2 w) (fun hm => hne (List.mem_singleton.mp hm))).symm

/-- Every buffer that is no window's array is as the region found it. -/
theorem hrest2 (c : Dev nD) : ∀ b : Ref sig .tc, b ∉ Finset.univ.image (Pipeline.arrRef spec2) →
    atTc c (V4 m (outs m) c) b = atTc c (V3 m (outs m) c) b :=
  fun b hb => V4_of m (outs m) c b fun hm => hb (Finset.mem_image.mpr ⟨3, Finset.mem_univ _, by
    rw [List.mem_singleton.mp hm]⟩)

-- the library's lemmas are stated over the pinned configuration, which unifies with the printed one only when
-- unification may unfold plain definitions in a metavariable's type
set_option backward.isDefEq.respectTransparency.types false in
/-- REGION 2 over the thread state. Entry: its windows' arrays are split out of the unscoped buffers and the rest is
    set aside; the generator register goes into the pipeline's invariant and comes back; nothing is owed; the kernel
    has no semaphore of its own. Exit: the arrays, now at what the pipeline left, are put back beside the rest, which
    gives every unscoped buffer at the exit valuation. -/
def reg2 : Pipeline.RegionSeg (pcfgs (F := F)) adm (pdats m) () defs₀ 𝒱h Lh lvh 2 where
  win := launch2.win.to₀
  block_pos := launch2.block_pos
  stage_whole := launch2.stage_whole
  K := PEmpty
  osem k := k.elim
  ho := Pipeline.OwnSemFacts.none _
  hbody c := (body_obligation2 (fun c b => V3 m (outs m) c b) c).loose
  hwaits := Pipeline.hwaits_of_owed_zero _ _ _ _ Lh lvh 2 fun _ _ => rfl
  pre c := iprop(StableHlo.held (c : Thread nD τ) (Pipeline.ucRefs τ sig) (V3 m (outs m) c) ∗ Eh 2 c)
  post c := iprop(StableHlo.held (c : Thread nD τ) (Pipeline.ucRefs τ sig) (V4 m (outs m) c) ∗ Eh 3 c)
  X c := iprop(∃ r, prngReg c r)
  Y c := iprop(∃ r, prngReg c r)
  Z c := Pipeline.unscopedRest (Ix := Unit) (Name := ℕ) (U := UR sig nD τ) (Lvl := ℕ) spec2 c (atTc c (V3 m (outs m) c))
  hentry c := by
    rw [Pipeline.ownSems0_none]
    have hsplit := Pipeline.arrays_of_unscopedBufs (p := 2) (pcfgs (F := F)) adm (pdats m) launch2.win launch2.arr_whole c
      ((pdats m 2 c).share_full fun _ => rfl) (atTc c (V3 m (outs m) c)) fun w => A_eq2 (fun c b => V3 m (outs m) c b) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = (dat2 (fun c b => V3 m (outs m) c b) c).Φ 0 from rfl]
    have h := hin2 (F := F) (fun c b => V3 m (outs m) c b) c
    unfold Pipeline.ΦA at h
    iintro ⟨Hp, -, Hr⟩
    iapply h
    isplitl [Hr]; · iexact Hr
    iexact Hp
  hout c := by
    rw [Pipeline.ownSems0_none, show (pdats m 2 c).Φ (Fin.last _) = (dat2 (fun c b => V3 m (outs m) c b) c).Φ (Fin.last cfg2.N) from rfl]
    have h := hout2 (F := F) (fun c b => V3 m (outs m) c b) c
    unfold Pipeline.ΦA at h
    iintro HΦ
    ihave H := h $$ HΦ
    icases H with ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (atTc c (V3 m (outs m) c)) (atTc c (V4 m (outs m) c)) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Gen

end
-- ==== Proof.KernelIdealH.Rec3.lean ====
import proofs.«157173_j56882546868342_2_alg».proof.Proof.KernelIdealH.RunBase
set_option maxRecDepth 16384
noncomputable section
namespace Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (m : (ℓ : Loc nD τ sig) → Buf (Elt F) ℓ)

/-! # Region 3 as a segment of the run

Entered with every unscoped buffer at the valuation `V4`, left at `V5`: `main_v34` rewritten and every other buffer
as found. At the exit each window's array must be what the exit valuation holds there: the output's (window 2) by
the definition of what the region leaves; an input's because a pipeline never writes an input's array and the exit
valuation differs from the entry one at the output only. -/

/-- At the exit every window's array is the exit valuation's at that window's reference. -/
theorem hF3 (c : Dev nD) (w : Fin cfg3.W) :
    (dat3 (fun c b => V4 m (outs m) c b) c).arrAt w cfg3.N = atTc c (V5 m (outs m) c) (Pipeline.arrRef spec3 w) := by
  by_cases h : w = 2
  · subst h
    refine (outs_5 m c).symm.trans ?_
    show outs m 5 main_v34 c = Function.update (V4 m (outs m) c) main_v34 (outs m 5 main_v34 c) main_v34
    rw [Function.update_self]
  · have hin : (cfg3.win w).isOut = false := (by decide : ∀ w : Fin cfg3.W, w ≠ 2 → (cfg3.win w).isOut = false) w h
    have hne : Pipeline.arrRef spec3 w ≠ main_v34 := (by decide : ∀ w : Fin cfg3.W, w ≠ 2 → Pipeline.arrRef spec3 w ≠ main_v34) w h
    refine ((dat3 (fun c b => V4 m (outs m) c b) c).arrAt_in w hin cfg3.N).trans ((A_eq3 (fun c b => V4 m (outs m) c b) c w).trans ?_)
    exact (V5_of m (outs m) c (Pipeline.arrRef spec3 w) (fun hm => hne (List.mem_singleton.mp hm))).symm

/-- Every buffer that is no window's array is as the region found it. -/
theorem hrest3 (c : Dev nD) : ∀ b : Ref sig .tc, b ∉ Finset.univ.image (Pipeline.arrRef spec3) →
    atTc c (V5 m (outs m) c) b = atTc c (V4 m (outs m) c) b :=
  fun b hb => V5_of m (outs m) c b fun hm => hb (Finset.mem_image.mpr ⟨2, Finset.mem_univ _, by
    rw [List.mem_singleton.mp hm]⟩)

-- the library's lemmas are stated over the pinned configuration, which unifies with the printed one only when
-- unification may unfold plain definitions in a metavariable's type
set_option backward.isDefEq.respectTransparency.types false in
/-- REGION 3 over the thread state. Entry: its windows' arrays are split out of the unscoped buffers and the rest is
    set aside; the generator register goes into the pipeline's invariant and comes back; nothing is owed; the kernel
    has no semaphore of its own. Exit: the arrays, now at what the pipeline left, are put back beside the rest, which
    gives every unscoped buffer at the exit valuation. -/
def reg3 : Pipeline.RegionSeg (pcfgs (F := F)) adm (pdats m) () defs₀ 𝒱h Lh lvh 3 where
  win := launch3.win.to₀
  block_pos := launch3.block_pos
  stage_whole := launch3.stage_whole
  K := PEmpty
  osem k := k.elim
  ho := Pipeline.OwnSemFacts.none _
  hbody c := (body_obligation3 (fun c b => V4 m (outs m) c b) c).loose
  hwaits := Pipeline.hwaits_of_owed_zero _ _ _ _ Lh lvh 3 fun _ _ => rfl
  pre c := iprop(StableHlo.held (c : Thread nD τ) (Pipeline.ucRefs τ sig) (V4 m (outs m) c) ∗ Eh 3 c)
  post c := iprop(StableHlo.held (c : Thread nD τ) (Pipeline.ucRefs τ sig) (V5 m (outs m) c) ∗ Eh 4 c)
  X c := iprop(∃ r, prngReg c r)
  Y c := iprop(∃ r, prngReg c r)
  Z c := Pipeline.unscopedRest (Ix := Unit) (Name := ℕ) (U := UR sig nD τ) (Lvl := ℕ) spec3 c (atTc c (V4 m (outs m) c))
  hentry c := by
    rw [Pipeline.ownSems0_none]
    have hsplit := Pipeline.arrays_of_unscopedBufs (p := 3) (pcfgs (F := F)) adm (pdats m) launch3.win launch3.arr_whole c
      ((pdats m 3 c).share_full fun _ => rfl) (atTc c (V4 m (outs m) c)) fun w => A_eq3 (fun c b => V4 m (outs m) c b) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = (dat3 (fun c b => V4 m (outs m) c b) c).Φ 0 from rfl]
    have h := hin3 (F := F) (fun c b => V4 m (outs m) c b) c
    unfold Pipeline.ΦA at h
    iintro ⟨Hp, -, Hr⟩
    iapply h
    isplitl [Hr]; · iexact Hr
    iexact Hp
  hout c := by
    rw [Pipeline.ownSems0_none, show (pdats m 3 c).Φ (Fin.last _) = (dat3 (fun c b => V4 m (outs m) c b) c).Φ (Fin.last cfg3.N) from rfl]
    have h := hout3 (F := F) (fun c b => V4 m (outs m) c b) c
    unfold Pipeline.ΦA at h
    iintro HΦ
    ihave H := h $$ HΦ
    icases H with ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (atTc c (V4 m (outs m) c)) (atTc c (V5 m (outs m) c)) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Gen

end
-- ==== Proof.KernelIdealH.Rec4.lean ====
import proofs.«157173_j56882546868342_2_alg».proof.Proof.KernelIdealH.RunBase
set_option maxRecDepth 16384
noncomputable section
namespace Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (m : (ℓ : Loc nD τ sig) → Buf (Elt F) ℓ)

/-! # Region 4 as a segment of the run

Entered with every unscoped buffer at the valuation `V5`, left at `V6`: `main_v35` rewritten and every other buffer
as found. At the exit each window's array must be what the exit valuation holds there: the output's (window 2) by
the definition of what the region leaves; an input's because a pipeline never writes an input's array and the exit
valuation differs from the entry one at the output only. -/

/-- At the exit every window's array is the exit valuation's at that window's reference. -/
theorem hF4 (c : Dev nD) (w : Fin cfg4.W) :
    (dat4 (fun c b => V5 m (outs m) c b) c).arrAt w cfg4.N = atTc c (V6 m (outs m) c) (Pipeline.arrRef spec4 w) := by
  by_cases h : w = 2
  · subst h
    refine (outs_6 m c).symm.trans ?_
    show outs m 6 main_v35 c = Function.update (V5 m (outs m) c) main_v35 (outs m 6 main_v35 c) main_v35
    rw [Function.update_self]
  · have hin : (cfg4.win w).isOut = false := (by decide : ∀ w : Fin cfg4.W, w ≠ 2 → (cfg4.win w).isOut = false) w h
    have hne : Pipeline.arrRef spec4 w ≠ main_v35 := (by decide : ∀ w : Fin cfg4.W, w ≠ 2 → Pipeline.arrRef spec4 w ≠ main_v35) w h
    refine ((dat4 (fun c b => V5 m (outs m) c b) c).arrAt_in w hin cfg4.N).trans ((A_eq4 (fun c b => V5 m (outs m) c b) c w).trans ?_)
    exact (V6_of m (outs m) c (Pipeline.arrRef spec4 w) (fun hm => hne (List.mem_singleton.mp hm))).symm

/-- Every buffer that is no window's array is as the region found it. -/
theorem hrest4 (c : Dev nD) : ∀ b : Ref sig .tc, b ∉ Finset.univ.image (Pipeline.arrRef spec4) →
    atTc c (V6 m (outs m) c) b = atTc c (V5 m (outs m) c) b :=
  fun b hb => V6_of m (outs m) c b fun hm => hb (Finset.mem_image.mpr ⟨2, Finset.mem_univ _, by
    rw [List.mem_singleton.mp hm]⟩)

-- the library's lemmas are stated over the pinned configuration, which unifies with the printed one only when
-- unification may unfold plain definitions in a metavariable's type
set_option backward.isDefEq.respectTransparency.types false in
/-- REGION 4 over the thread state. Entry: its windows' arrays are split out of the unscoped buffers and the rest is
    set aside; the generator register goes into the pipeline's invariant and comes back; nothing is owed; the kernel
    has no semaphore of its own. Exit: the arrays, now at what the pipeline left, are put back beside the rest, which
    gives every unscoped buffer at the exit valuation. -/
def reg4 : Pipeline.RegionSeg (pcfgs (F := F)) adm (pdats m) () defs₀ 𝒱h Lh lvh 4 where
  win := launch4.win.to₀
  block_pos := launch4.block_pos
  stage_whole := launch4.stage_whole
  K := PEmpty
  osem k := k.elim
  ho := Pipeline.OwnSemFacts.none _
  hbody c := (body_obligation4 (fun c b => V5 m (outs m) c b) c).loose
  hwaits := Pipeline.hwaits_of_owed_zero _ _ _ _ Lh lvh 4 fun _ _ => rfl
  pre c := iprop(StableHlo.held (c : Thread nD τ) (Pipeline.ucRefs τ sig) (V5 m (outs m) c) ∗ Eh 4 c)
  post c := iprop(StableHlo.held (c : Thread nD τ) (Pipeline.ucRefs τ sig) (V6 m (outs m) c) ∗ Eh 5 c)
  X c := iprop(∃ r, prngReg c r)
  Y c := iprop(∃ r, prngReg c r)
  Z c := Pipeline.unscopedRest (Ix := Unit) (Name := ℕ) (U := UR sig nD τ) (Lvl := ℕ) spec4 c (atTc c (V5 m (outs m) c))
  hentry c := by
    rw [Pipeline.ownSems0_none]
    have hsplit := Pipeline.arrays_of_unscopedBufs (p := 4) (pcfgs (F := F)) adm (pdats m) launch4.win launch4.arr_whole c
      ((pdats m 4 c).share_full fun _ => rfl) (atTc c (V5 m (outs m) c)) fun w => A_eq4 (fun c b => V5 m (outs m) c b) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = (dat4 (fun c b => V5 m (outs m) c b) c).Φ 0 from rfl]
    have h := hin4 (F := F) (fun c b => V5 m (outs m) c b) c
    unfold Pipeline.ΦA at h
    iintro ⟨Hp, -, Hr⟩
    iapply h
    isplitl [Hr]; · iexact Hr
    iexact Hp
  hout c := by
    rw [Pipeline.ownSems0_none, show (pdats m 4 c).Φ (Fin.last _) = (dat4 (fun c b => V5 m (outs m) c b) c).Φ (Fin.last cfg4.N) from rfl]
    have h := hout4 (F := F) (fun c b => V5 m (outs m) c b) c
    unfold Pipeline.ΦA at h
    iintro HΦ
    ihave H := h $$ HΦ
    icases H with ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (atTc c (V5 m (outs m) c)) (atTc c (V6 m (outs m) c)) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Gen

end
-- ==== Proof.KernelIdealH.Rec5.lean ====
import proofs.«157173_j56882546868342_2_alg».proof.Proof.KernelIdealH.RunBase
set_option maxRecDepth 16384
noncomputable section
namespace Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (m : (ℓ : Loc nD τ sig) → Buf (Elt F) ℓ)

/-! # Region 5 as a segment of the run

Entered with every unscoped buffer at the valuation `V6`, left at `V7`: `main_v36` rewritten and every other buffer
as found. At the exit each window's array must be what the exit valuation holds there: the output's (window 3) by
the definition of what the region leaves; an input's because a pipeline never writes an input's array and the exit
valuation differs from the entry one at the output only. -/

/-- At the exit every window's array is the exit valuation's at that window's reference. -/
theorem hF5 (c : Dev nD) (w : Fin cfg5.W) :
    (dat5 (fun c b => V6 m (outs m) c b) c).arrAt w cfg5.N = atTc c (V7 m (outs m) c) (Pipeline.arrRef spec5 w) := by
  by_cases h : w = 3
  · subst h
    refine (outs_7 m c).symm.trans ?_
    show outs m 7 main_v36 c = Function.update (V6 m (outs m) c) main_v36 (outs m 7 main_v36 c) main_v36
    rw [Function.update_self]
  · have hin : (cfg5.win w).isOut = false := (by decide : ∀ w : Fin cfg5.W, w ≠ 3 → (cfg5.win w).isOut = false) w h
    have hne : Pipeline.arrRef spec5 w ≠ main_v36 := (by decide : ∀ w : Fin cfg5.W, w ≠ 3 → Pipeline.arrRef spec5 w ≠ main_v36) w h
    refine ((dat5 (fun c b => V6 m (outs m) c b) c).arrAt_in w hin cfg5.N).trans ((A_eq5 (fun c b => V6 m (outs m) c b) c w).trans ?_)
    exact (V7_of m (outs m) c (Pipeline.arrRef spec5 w) (fun hm => hne (List.mem_singleton.mp hm))).symm

/-- Every buffer that is no window's array is as the region found it. -/
theorem hrest5 (c : Dev nD) : ∀ b : Ref sig .tc, b ∉ Finset.univ.image (Pipeline.arrRef spec5) →
    atTc c (V7 m (outs m) c) b = atTc c (V6 m (outs m) c) b :=
  fun b hb => V7_of m (outs m) c b fun hm => hb (Finset.mem_image.mpr ⟨3, Finset.mem_univ _, by
    rw [List.mem_singleton.mp hm]⟩)

-- the library's lemmas are stated over the pinned configuration, which unifies with the printed one only when
-- unification may unfold plain definitions in a metavariable's type
set_option backward.isDefEq.respectTransparency.types false in
/-- REGION 5 over the thread state. Entry: its windows' arrays are split out of the unscoped buffers and the rest is
    set aside; the generator register goes into the pipeline's invariant and comes back; nothing is owed; the kernel
    has no semaphore of its own. Exit: the arrays, now at what the pipeline left, are put back beside the rest, which
    gives every unscoped buffer at the exit valuation. -/
def reg5 : Pipeline.RegionSeg (pcfgs (F := F)) adm (pdats m) () defs₀ 𝒱h Lh lvh 5 where
  win := launch5.win.to₀
  block_pos := launch5.block_pos
  stage_whole := launch5.stage_whole
  K := PEmpty
  osem k := k.elim
  ho := Pipeline.OwnSemFacts.none _
  hbody c := (body_obligation5 (fun c b => V6 m (outs m) c b) c).loose
  hwaits := Pipeline.hwaits_of_owed_zero _ _ _ _ Lh lvh 5 fun _ _ => rfl
  pre c := iprop(StableHlo.held (c : Thread nD τ) (Pipeline.ucRefs τ sig) (V6 m (outs m) c) ∗ Eh 5 c)
  post c := iprop(StableHlo.held (c : Thread nD τ) (Pipeline.ucRefs τ sig) (V7 m (outs m) c) ∗ Eh 6 c)
  X c := iprop(∃ r, prngReg c r)
  Y c := iprop(∃ r, prngReg c r)
  Z c := Pipeline.unscopedRest (Ix := Unit) (Name := ℕ) (U := UR sig nD τ) (Lvl := ℕ) spec5 c (atTc c (V6 m (outs m) c))
  hentry c := by
    rw [Pipeline.ownSems0_none]
    have hsplit := Pipeline.arrays_of_unscopedBufs (p := 5) (pcfgs (F := F)) adm (pdats m) launch5.win launch5.arr_whole c
      ((pdats m 5 c).share_full fun _ => rfl) (atTc c (V6 m (outs m) c)) fun w => A_eq5 (fun c b => V6 m (outs m) c b) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 5 c).Φ 0 = (dat5 (fun c b => V6 m (outs m) c b) c).Φ 0 from rfl]
    have h := hin5 (F := F) (fun c b => V6 m (outs m) c b) c
    unfold Pipeline.ΦA at h
    iintro ⟨Hp, -, Hr⟩
    iapply h
    isplitl [Hr]; · iexact Hr
    iexact Hp
  hout c := by
    rw [Pipeline.ownSems0_none, show (pdats m 5 c).Φ (Fin.last _) = (dat5 (fun c b => V6 m (outs m) c b) c).Φ (Fin.last cfg5.N) from rfl]
    have h := hout5 (F := F) (fun c b => V6 m (outs m) c b) c
    unfold Pipeline.ΦA at h
    iintro HΦ
    ihave H := h $$ HΦ
    icases H with ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m) ((pdats m 5 c).share_full fun _ => rfl)
      (atTc c (V6 m (outs m) c)) (atTc c (V7 m (outs m) c)) ((pdats m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Gen

end
-- ==== Proof.KernelIdealH.Rec6.lean ====
import proofs.«157173_j56882546868342_2_alg».proof.Proof.KernelIdealH.RunBase
set_option maxRecDepth 16384
noncomputable section
namespace Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (m : (ℓ : Loc nD τ sig) → Buf (Elt F) ℓ)

/-! # Region 6 as a segment of the run

Entered with every unscoped buffer at the valuation `V7`, left at `V8`: `main_v37` rewritten and every other buffer
as found. At the exit each window's array must be what the exit valuation holds there: the output's (window 2) by
the definition of what the region leaves; an input's because a pipeline never writes an input's array and the exit
valuation differs from the entry one at the output only. -/

/-- At the exit every window's array is the exit valuation's at that window's reference. -/
theorem hF6 (c : Dev nD) (w : Fin cfg6.W) :
    (dat6 (fun c b => V7 m (outs m) c b) c).arrAt w cfg6.N = atTc c (V8 m (outs m) c) (Pipeline.arrRef spec6 w) := by
  by_cases h : w = 2
  · subst h
    refine (outs_8 m c).symm.trans ?_
    show outs m 8 main_v37 c = Function.update (V7 m (outs m) c) main_v37 (outs m 8 main_v37 c) main_v37
    rw [Function.update_self]
  · have hin : (cfg6.win w).isOut = false := (by decide : ∀ w : Fin cfg6.W, w ≠ 2 → (cfg6.win w).isOut = false) w h
    have hne : Pipeline.arrRef spec6 w ≠ main_v37 := (by decide : ∀ w : Fin cfg6.W, w ≠ 2 → Pipeline.arrRef spec6 w ≠ main_v37) w h
    refine ((dat6 (fun c b => V7 m (outs m) c b) c).arrAt_in w hin cfg6.N).trans ((A_eq6 (fun c b => V7 m (outs m) c b) c w).trans ?_)
    exact (V8_of m (outs m) c (Pipeline.arrRef spec6 w) (fun hm => hne (List.mem_singleton.mp hm))).symm

/-- Every buffer that is no window's array is as the region found it. -/
theorem hrest6 (c : Dev nD) : ∀ b : Ref sig .tc, b ∉ Finset.univ.image (Pipeline.arrRef spec6) →
    atTc c (V8 m (outs m) c) b = atTc c (V7 m (outs m) c) b :=
  fun b hb => V8_of m (outs m) c b fun hm => hb (Finset.mem_image.mpr ⟨2, Finset.mem_univ _, by
    rw [List.mem_singleton.mp hm]⟩)

-- the library's lemmas are stated over the pinned configuration, which unifies with the printed one only when
-- unification may unfold plain definitions in a metavariable's type
set_option backward.isDefEq.respectTransparency.types false in
/-- REGION 6 over the thread state. Entry: its windows' arrays are split out of the unscoped buffers and the rest is
    set aside; the generator register goes into the pipeline's invariant and comes back; nothing is owed; the kernel
    has no semaphore of its own. Exit: the arrays, now at what the pipeline left, are put back beside the rest, which
    gives every unscoped buffer at the exit valuation. -/
def reg6 : Pipeline.RegionSeg (pcfgs (F := F)) adm (pdats m) () defs₀ 𝒱h Lh lvh 6 where
  win := launch6.win.to₀
  block_pos := launch6.block_pos
  stage_whole := launch6.stage_whole
  K := PEmpty
  osem k := k.elim
  ho := Pipeline.OwnSemFacts.none _
  hbody c := (body_obligation6 (fun c b => V7 m (outs m) c b) c).loose
  hwaits := Pipeline.hwaits_of_owed_zero _ _ _ _ Lh lvh 6 fun _ _ => rfl
  pre c := iprop(StableHlo.held (c : Thread nD τ) (Pipeline.ucRefs τ sig) (V7 m (outs m) c) ∗ Eh 6 c)
  post c := iprop(StableHlo.held (c : Thread nD τ) (Pipeline.ucRefs τ sig) (V8 m (outs m) c) ∗ Eh 7 c)
  X c := iprop(∃ r, prngReg c r)
  Y c := iprop(∃ r, prngReg c r)
  Z c := Pipeline.unscopedRest (Ix := Unit) (Name := ℕ) (U := UR sig nD τ) (Lvl := ℕ) spec6 c (atTc c (V7 m (outs m) c))
  hentry c := by
    rw [Pipeline.ownSems0_none]
    have hsplit := Pipeline.arrays_of_unscopedBufs (p := 6) (pcfgs (F := F)) adm (pdats m) launch6.win launch6.arr_whole c
      ((pdats m 6 c).share_full fun _ => rfl) (atTc c (V7 m (outs m) c)) fun w => A_eq6 (fun c b => V7 m (outs m) c b) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 6 c).Φ 0 = (dat6 (fun c b => V7 m (outs m) c b) c).Φ 0 from rfl]
    have h := hin6 (F := F) (fun c b => V7 m (outs m) c b) c
    unfold Pipeline.ΦA at h
    iintro ⟨Hp, -, Hr⟩
    iapply h
    isplitl [Hr]; · iexact Hr
    iexact Hp
  hout c := by
    rw [Pipeline.ownSems0_none, show (pdats m 6 c).Φ (Fin.last _) = (dat6 (fun c b => V7 m (outs m) c b) c).Φ (Fin.last cfg6.N) from rfl]
    have h := hout6 (F := F) (fun c b => V7 m (outs m) c b) c
    unfold Pipeline.ΦA at h
    iintro HΦ
    ihave H := h $$ HΦ
    icases H with ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m) ((pdats m 6 c).share_full fun _ => rfl)
      (atTc c (V7 m (outs m) c)) (atTc c (V8 m (outs m) c)) ((pdats m 6 c).arrAt · cfg6.N) (hF6 m c) (hrest6 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Gen

end
-- ==== Proof.KernelIdealH.Rec7.lean ====
import proofs.«157173_j56882546868342_2_alg».proof.Proof.KernelIdealH.RunBase
set_option maxRecDepth 16384
noncomputable section
namespace Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (m : (ℓ : Loc nD τ sig) → Buf (Elt F) ℓ)

/-! # Region 7 as a segment of the run

Entered with every unscoped buffer at the valuation `V9`, left at `V10`: `main_v39` rewritten and every other buffer
as found. At the exit each window's array must be what the exit valuation holds there: the output's (window 3) by
the definition of what the region leaves; an input's because a pipeline never writes an input's array and the exit
valuation differs from the entry one at the output only. -/

/-- At the exit every window's array is the exit valuation's at that window's reference. -/
theorem hF7 (c : Dev nD) (w : Fin cfg7.W) :
    (dat7 (fun c b => V9 m (outs m) c b) c).arrAt w cfg7.N = atTc c (V10 m (outs m) c) (Pipeline.arrRef spec7 w) := by
  by_cases h : w = 3
  · subst h
    refine (outs_10 m c).symm.trans ?_
    show outs m 10 main_v39 c = Function.update (V9 m (outs m) c) main_v39 (outs m 10 main_v39 c) main_v39
    rw [Function.update_self]
  · have hin : (cfg7.win w).isOut = false := (by decide : ∀ w : Fin cfg7.W, w ≠ 3 → (cfg7.win w).isOut = false) w h
    have hne : Pipeline.arrRef spec7 w ≠ main_v39 := (by decide : ∀ w : Fin cfg7.W, w ≠ 3 → Pipeline.arrRef spec7 w ≠ main_v39) w h
    refine ((dat7 (fun c b => V9 m (outs m) c b) c).arrAt_in w hin cfg7.N).trans ((A_eq7 (fun c b => V9 m (outs m) c b) c w).trans ?_)
    exact (V10_of m (outs m) c (Pipeline.arrRef spec7 w) (fun hm => hne (List.mem_singleton.mp hm))).symm

/-- Every buffer that is no window's array is as the region found it. -/
theorem hrest7 (c : Dev nD) : ∀ b : Ref sig .tc, b ∉ Finset.univ.image (Pipeline.arrRef spec7) →
    atTc c (V10 m (outs m) c) b = atTc c (V9 m (outs m) c) b :=
  fun b hb => V10_of m (outs m) c b fun hm => hb (Finset.mem_image.mpr ⟨3, Finset.mem_univ _, by
    rw [List.mem_singleton.mp hm]⟩)

-- the library's lemmas are stated over the pinned configuration, which unifies with the printed one only when
-- unification may unfold plain definitions in a metavariable's type
set_option backward.isDefEq.respectTransparency.types false in
/-- REGION 7 over the thread state. Entry: its windows' arrays are split out of the unscoped buffers and the rest is
    set aside; the generator register goes into the pipeline's invariant and comes back; nothing is owed; the kernel
    has no semaphore of its own. Exit: the arrays, now at what the pipeline left, are put back beside the rest, which
    gives every unscoped buffer at the exit valuation. -/
def reg7 : Pipeline.RegionSeg (pcfgs (F := F)) adm (pdats m) () defs₀ 𝒱h Lh lvh 7 where
  win := launch7.win.to₀
  block_pos := launch7.block_pos
  stage_whole := launch7.stage_whole
  K := PEmpty
  osem k := k.elim
  ho := Pipeline.OwnSemFacts.none _
  hbody c := (body_obligation7 (fun c b => V9 m (outs m) c b) c).loose
  hwaits := Pipeline.hwaits_of_owed_zero _ _ _ _ Lh lvh 7 fun _ _ => rfl
  pre c := iprop(StableHlo.held (c : Thread nD τ) (Pipeline.ucRefs τ sig) (V9 m (outs m) c) ∗ Eh 7 c)
  post c := iprop(StableHlo.held (c : Thread nD τ) (Pipeline.ucRefs τ sig) (V10 m (outs m) c) ∗ Eh 8 c)
  X c := iprop(∃ r, prngReg c r)
  Y c := iprop(∃ r, prngReg c r)
  Z c := Pipeline.unscopedRest (Ix := Unit) (Name := ℕ) (U := UR sig nD τ) (Lvl := ℕ) spec7 c (atTc c (V9 m (outs m) c))
  hentry c := by
    rw [Pipeline.ownSems0_none]
    have hsplit := Pipeline.arrays_of_unscopedBufs (p := 7) (pcfgs (F := F)) adm (pdats m) launch7.win launch7.arr_whole c
      ((pdats m 7 c).share_full fun _ => rfl) (atTc c (V9 m (outs m) c)) fun w => A_eq7 (fun c b => V9 m (outs m) c b) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 7 c).Φ 0 = (dat7 (fun c b => V9 m (outs m) c b) c).Φ 0 from rfl]
    have h := hin7 (F := F) (fun c b => V9 m (outs m) c b) c
    unfold Pipeline.ΦA at h
    iintro ⟨Hp, -, Hr⟩
    iapply h
    isplitl [Hr]; · iexact Hr
    iexact Hp
  hout c := by
    rw [Pipeline.ownSems0_none, show (pdats m 7 c).Φ (Fin.last _) = (dat7 (fun c b => V9 m (outs m) c b) c).Φ (Fin.last cfg7.N) from rfl]
    have h := hout7 (F := F) (fun c b => V9 m (outs m) c b) c
    unfold Pipeline.ΦA at h
    iintro HΦ
    ihave H := h $$ HΦ
    icases H with ⟨Hr, Hp⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c (pdats m) ((pdats m 7 c).share_full fun _ => rfl)
      (atTc c (V9 m (outs m) c)) (atTc c (V10 m (outs m) c)) ((pdats m 7 c).arrAt · cfg7.N) (hF7 m c) (hrest7 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Gen

end
-- ==== Proof.KernelIdealH.Rec8.lean ====
import proofs.«157173_j56882546868342_2_alg».proof.Proof.KernelIdealH.RunBase
set_option maxRecDepth 16384
noncomputable section
namespace Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (m : (ℓ : Loc nD τ sig) → Buf (Elt F) ℓ)

/-! # Region 8 as a segment of the run

Entered with every unscoped buffer at the valuation `V11`, left at `V12`: `main_v41` rewritten and every other buffer
as found. At the exit each window's array must be what the exit valuation holds there: the output's (window 3) by
the definition of what the region leaves; an input's because a pipeline never writes an input's array and the exit
valuation differs from the entry one at the output only. -/

/-- At the exit every window's array is the exit valuation's at that window's reference. -/
theorem hF8 (c : Dev nD) (w : Fin cfg8.W) :
    (dat8 (fun c b => V11 m (outs m) c b) c).arrAt w cfg8.N = atTc c (V12 m (outs m) c) (Pipeline.arrRef spec8 w) := by
  by_cases h : w = 3
  · subst h
    refine (outs_12 m c).symm.trans ?_
    show outs m 12 main_v41 c = Function.update (V11 m (outs m) c) main_v41 (outs m 12 main_v41 c) main_v41
    rw [Function.update_self]
  · have hin : (cfg8.win w).isOut = false := (by decide : ∀ w : Fin cfg8.W, w ≠ 3 → (cfg8.win w).isOut = false) w h
    have hne : Pipeline.arrRef spec8 w ≠ main_v41 := (by decide : ∀ w : Fin cfg8.W, w ≠ 3 → Pipeline.arrRef spec8 w ≠ main_v41) w h
    refine ((dat8 (fun c b => V11 m (outs m) c b) c).arrAt_in w hin cfg8.N).trans ((A_eq8 (fun c b => V11 m (outs m) c b) c w).trans ?_)
    exact (V12_of m (outs m) c (Pipeline.arrRef spec8 w) (fun hm => hne (List.mem_singleton.mp hm))).symm

/-- Every buffer that is no window's array is as the region found it. -/
theorem hrest8 (c : Dev nD) : ∀ b : Ref sig .tc, b ∉ Finset.univ.image (Pipeline.arrRef spec8) →
    atTc c (V12 m (outs m) c) b = atTc c (V11 m (outs m) c) b :=
  fun b hb => V12_of m (outs m) c b fun hm => hb (Finset.mem_image.mpr ⟨3, Finset.mem_univ _, by
    rw [List.mem_singleton.mp hm]⟩)

-- the library's lemmas are stated over the pinned configuration, which unifies with the printed one only when
-- unification may unfold plain definitions in a metavariable's type
set_option backward.isDefEq.respectTransparency.types false in
/-- REGION 8 over the thread state. Entry: its windows' arrays are split out of the unscoped buffers and the rest is
    set aside; the generator register goes into the pipeline's invariant and comes back; nothing is owed; the kernel
    has no semaphore of its own. Exit: the arrays, now at what the pipeline left, are put back beside the rest, which
    gives every unscoped buffer at the exit valuation. -/
def reg8 : Pipeline.RegionSeg (pcfgs (F := F)) adm (pdats m) () defs₀ 𝒱h Lh lvh 8 where
  win := launch8.win.to₀
  block_pos := launch8.block_pos
  stage_whole := launch8.stage_whole
  K := PEmpty
  osem k := k.elim
  ho := Pipeline.OwnSemFacts.none _
  hbody c := (body_obligation8 (fun c b => V11 m (outs m) c b) c).loose
  hwaits := Pipeline.hwaits_of_owed_zero _ _ _ _ Lh lvh 8 fun _ _ => rfl
  pre c := iprop(StableHlo.held (c : Thread nD τ) (Pipeline.ucRefs τ sig) (V11 m (outs m) c) ∗ Eh 8 c)
  post c := iprop(StableHlo.held (c : Thread nD τ) (Pipeline.ucRefs τ sig) (V12 m (outs m) c) ∗ Eh 9 c)
  X c := iprop(∃ r, prngReg c r)
  Y c := iprop(∃ r, prngReg c r)
  Z c := Pipeline.unscopedRest (Ix := Unit) (Name := ℕ) (U := UR sig nD τ) (Lvl := ℕ) spec8 c (atTc c (V11 m (outs m) c))
  hentry c := by
    rw [Pipeline.ownSems0_none]
    have hsplit := Pipeline.arrays_of_unscopedBufs (p := 8) (pcfgs (F := F)) adm (pdats m) launch8.win launch8.arr_whole c
      ((pdats m 8 c).share_full fun _ => rfl) (atTc c (V11 m (outs m) c)) fun w => A_eq8 (fun c b => V11 m (outs m) c b) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 8 c).Φ 0 = (dat8 (fun c b => V11 m (outs m) c b) c).Φ 0 from rfl]
    have h := hin8 (F := F) (fun c b => V11 m (outs m) c b) c
    unfold Pipeline.ΦA at h
    iintro ⟨Hp, -, Hr⟩
    iapply h
    isplitl [Hr]; · iexact Hr
    iexact Hp
  hout c := by
    rw [Pipeline.ownSems0_none, show (pdats m 8 c).Φ (Fin.last _) = (dat8 (fun c b => V11 m (outs m) c b) c).Φ (Fin.last cfg8.N) from rfl]
    have h := hout8 (F := F) (fun c b => V11 m (outs m) c b) c
    unfold Pipeline.ΦA at h
    iintro HΦ
    ihave H := h $$ HΦ
    icases H with ⟨Hr, Hp⟩
    isplitl [Hp]; · iexact Hp
    isplitr; · iempintro
    iexact Hr
  hexit c := by
    have hjoin := Pipeline.unscopedBufs_of_arrays (p := 8) (pcfgs (F := F)) adm (Ix := Unit) (Name := ℕ) (U := UR sig nD τ) (Lvl := ℕ)
      launch8.win launch8.arr_whole c (pdats m) ((pdats m 8 c).share_full fun _ => rfl)
      (atTc c (V11 m (outs m) c)) (atTc c (V12 m (outs m) c)) ((pdats m 8 c).arrAt · cfg8.N) (hF8 m c) (hrest8 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Gen

end
-- ==== Proof.KernelIdealH.Rec9.lean ====
import proofs.«157173_j56882546868342_2_alg».proof.Proof.KernelIdealH.RunBase
set_option maxRecDepth 16384
noncomputable section
namespace Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (m : (ℓ : Loc nD τ sig) → Buf (Elt F) ℓ)

/-! # Region 9 as a segment of the run

Entered with every unscoped buffer at the valuation `V12`, left at `V13`: `main_v42` rewritten and every other buffer
as found. At the exit each window's array must be what the exit valuation holds there: the output's (window 2) by
the definition of what the region leaves; an input's because a pipeline never writes an input's array and the exit
valuation differs from the entry one at the output only. -/

/-- At the exit every window's array is the exit valuation's at that window's reference. -/
theorem hF9 (c : Dev nD) (w : Fin cfg9.W) :
    (dat9 (fun c b => V12 m (outs m) c b) c).arrAt w cfg9.N = atTc c (V13 m (outs m) c) (Pipeline.arrRef spec9 w) := by
  by_cases h : w = 2
  · subst h
    refine (outs_13 m c).symm.trans ?_
    show outs m 13 main_v42 c = Function.update (V12 m (outs m) c) main_v42 (outs m 13 main_v42 c) main_v42
    rw [Function.update_self]
  · have hin : (cfg9.win w).isOut = false := (by decide : ∀ w : Fin cfg9.W, w ≠ 2 → (cfg9.win w).isOut = false) w h
    have hne : Pipeline.arrRef spec9 w ≠ main_v42 := (by decide : ∀ w : Fin cfg9.W, w ≠ 2 → Pipeline.arrRef spec9 w ≠ main_v42) w h
    refine ((dat9 (fun c b => V12 m (outs m) c b) c).arrAt_in w hin cfg9.N).trans ((A_eq9 (fun c b => V12 m (outs m) c b) c w).trans ?_)
    exact (V13_of m (outs m) c (Pipeline.arrRef spec9 w) (fun hm => hne (List.mem_singleton.mp hm))).symm

/-- Every buffer that is no window's array is as the region found it. -/
theorem hrest9 (c : Dev nD) : ∀ b : Ref sig .tc, b ∉ Finset.univ.image (Pipeline.arrRef spec9) →
    atTc c (V13 m (outs m) c) b = atTc c (V12 m (outs m) c) b :=
  fun b hb => V13_of m (outs m) c b fun hm => hb (Finset.mem_image.mpr ⟨2, Finset.mem_univ _, by
    rw [List.mem_singleton.mp hm]⟩)

-- the library's lemmas are stated over the pinned configuration, which unifies with the printed one only when
-- unification may unfold plain definitions in a metavariable's type
set_option backward.isDefEq.respectTransparency.types false in
/-- REGION 9 over the thread state. Entry: its windows' arrays are split out of the unscoped buffers and the rest is
    set aside; the generator register goes into the pipeline's invariant and comes back; nothing is owed; the kernel
    has no semaphore of its own. Exit: the arrays, now at what the pipeline left, are put back beside the rest, which
    gives every unscoped buffer at the exit valuation. -/
def reg9 : Pipeline.RegionSeg (pcfgs (F := F)) adm (pdats m) () defs₀ 𝒱h Lh lvh 9 where
  win := launch9.win.to₀
  block_pos := launch9.block_pos
  stage_whole := launch9.stage_whole
  K := PEmpty
  osem k := k.elim
  ho := Pipeline.OwnSemFacts.none _
  hbody c := (body_obligation9 (fun c b => V12 m (outs m) c b) c).loose
  hwaits := Pipeline.hwaits_of_owed_zero _ _ _ _ Lh lvh 9 fun _ _ => rfl
  pre c := iprop(StableHlo.held (c : Thread nD τ) (Pipeline.ucRefs τ sig) (V12 m (outs m) c) ∗ Eh 9 c)
  post c := iprop(StableHlo.held (c : Thread nD τ) (Pipeline.ucRefs τ sig) (V13 m (outs m) c) ∗ Eh 10 c)
  X c := iprop(∃ r, prngReg c r)
  Y c := iprop(∃ r, prngReg c r)
  Z c := Pipeline.unscopedRest (Ix := Unit) (Name := ℕ) (U := UR sig nD τ) (Lvl := ℕ) spec9 c (atTc c (V12 m (outs m) c))
  hentry c := by
    rw [Pipeline.ownSems0_none]
    have hsplit := Pipeline.arrays_of_unscopedBufs (p := 9) (pcfgs (F := F)) adm (pdats m) launch9.win launch9.arr_whole c
      ((pdats m 9 c).share_full fun _ => rfl) (atTc c (V12 m (outs m) c)) fun w => A_eq9 (fun c b => V12 m (outs m) c b) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 9 c).Φ 0 = (dat9 (fun c b => V12 m (outs m) c b) c).Φ 0 from rfl]
    have h := hin9 (F := F) (fun c b => V12 m (outs m) c b) c
    unfold Pipeline.ΦA at h
    iintro ⟨Hp, -, Hr⟩
    iapply h
    isplitl [Hr]; · iexact Hr
    iexact Hp
  hout c := by
    rw [Pipeline.ownSems0_none, show (pdats m 9 c).Φ (Fin.last _) = (dat9 (fun c b => V12 m (outs m) c b) c).Φ (Fin.last cfg9.N) from rfl]
    have h := hout9 (F := F) (fun c b => V12 m (outs m) c b) c
    unfold Pipeline.ΦA at h
    iintro HΦ
    ihave H := h $$ HΦ
    icases H with ⟨Hr, Hp⟩
    isplitl [Hp]; · iexact Hp
    isplitr; · iempintro
    iexact Hr
  hexit c := by
    have hjoin := Pipeline.unscopedBufs_of_arrays (p := 9) (pcfgs (F := F)) adm (Ix := Unit) (Name := ℕ) (U := UR sig nD τ) (Lvl := ℕ)
      launch9.win launch9.arr_whole c (pdats m) ((pdats m 9 c).share_full fun _ => rfl)
      (atTc c (V12 m (outs m) c)) (atTc c (V13 m (outs m) c)) ((pdats m 9 c).arrAt · cfg9.N) (hF9 m c) (hrest9 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Gen

end
-- ==== Proof.KernelIdealH.Rec10.lean ====
import proofs.«157173_j56882546868342_2_alg».proof.Proof.KernelIdealH.RunBase
set_option maxRecDepth 16384
noncomputable section
namespace Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (m : (ℓ : Loc nD τ sig) → Buf (Elt F) ℓ)

/-! # Region 10 as a segment of the run

Entered with every unscoped buffer at the valuation `V14`, left at `V15`: `main_v46` rewritten and every other buffer
as found. At the exit each window's array must be what the exit valuation holds there: the output's (window 4) by
the definition of what the region leaves; an input's because a pipeline never writes an input's array and the exit
valuation differs from the entry one at the output only. -/

/-- At the exit every window's array is the exit valuation's at that window's reference. -/
theorem hF10 (c : Dev nD) (w : Fin cfg10.W) :
    (dat10 (fun c b => V14 m (outs m) c b) c).arrAt w cfg10.N = atTc c (V15 m (outs m) c) (Pipeline.arrRef spec10 w) := by
  by_cases h : w = 4
  · subst h
    refine (outs_15 m c).symm.trans ?_
    show outs m 15 main_v46 c = Function.update (V14 m (outs m) c) main_v46 (outs m 15 main_v46 c) main_v46
    rw [Function.update_self]
  · have hin : (cfg10.win w).isOut = false := (by decide : ∀ w : Fin cfg10.W, w ≠ 4 → (cfg10.win w).isOut = false) w h
    have hne : Pipeline.arrRef spec10 w ≠ main_v46 := (by decide : ∀ w : Fin cfg10.W, w ≠ 4 → Pipeline.arrRef spec10 w ≠ main_v46) w h
    refine ((dat10 (fun c b => V14 m (outs m) c b) c).arrAt_in w hin cfg10.N).trans ((A_eq10 (fun c b => V14 m (outs m) c b) c w).trans ?_)
    exact (V15_of m (outs m) c (Pipeline.arrRef spec10 w) (fun hm => hne (List.mem_singleton.mp hm))).symm

/-- Every buffer that is no window's array is as the region found it. -/
theorem hrest10 (c : Dev nD) : ∀ b : Ref sig .tc, b ∉ Finset.univ.image (Pipeline.arrRef spec10) →
    atTc c (V15 m (outs m) c) b = atTc c (V14 m (outs m) c) b :=
  fun b hb => V15_of m (outs m) c b fun hm => hb (Finset.mem_image.mpr ⟨4, Finset.mem_univ _, by
    rw [List.mem_singleton.mp hm]⟩)

-- the library's lemmas are stated over the pinned configuration, which unifies with the printed one only when
-- unification may unfold plain definitions in a metavariable's type
set_option backward.isDefEq.respectTransparency.types false in
/-- REGION 10 over the thread state. Entry: its windows' arrays are split out of the unscoped buffers and the rest is
    set aside; the generator register goes into the pipeline's invariant and comes back; nothing is owed; the kernel
    has no semaphore of its own. Exit: the arrays, now at what the pipeline left, are put back beside the rest, which
    gives every unscoped buffer at the exit valuation. -/
def reg10 : Pipeline.RegionSeg (pcfgs (F := F)) adm (pdats m) () defs₀ 𝒱h Lh lvh 10 where
  win := launch10.win.to₀
  block_pos := launch10.block_pos
  stage_whole := launch10.stage_whole
  K := PEmpty
  osem k := k.elim
  ho := Pipeline.OwnSemFacts.none _
  hbody c := (body_obligation10 (fun c b => V14 m (outs m) c b) c).loose
  hwaits := Pipeline.hwaits_of_owed_zero _ _ _ _ Lh lvh 10 fun _ _ => rfl
  pre c := iprop(StableHlo.held (c : Thread nD τ) (Pipeline.ucRefs τ sig) (V14 m (outs m) c) ∗ Eh 10 c)
  post c := iprop(StableHlo.held (c : Thread nD τ) (Pipeline.ucRefs τ sig) (V15 m (outs m) c) ∗ Eh 11 c)
  X c := iprop(∃ r, prngReg c r)
  Y c := iprop(∃ r, prngReg c r)
  Z c := Pipeline.unscopedRest (Ix := Unit) (Name := ℕ) (U := UR sig nD τ) (Lvl := ℕ) spec10 c (atTc c (V14 m (outs m) c))
  hentry c := by
    rw [Pipeline.ownSems0_none]
    have hsplit := Pipeline.arrays_of_unscopedBufs (p := 10) (pcfgs (F := F)) adm (pdats m) launch10.win launch10.arr_whole c
      ((pdats m 10 c).share_full fun _ => rfl) (atTc c (V14 m (outs m) c)) fun w => A_eq10 (fun c b => V14 m (outs m) c b) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 10 c).Φ 0 = (dat10 (fun c b => V14 m (outs m) c b) c).Φ 0 from rfl]
    have h := hin10 (F := F) (fun c b => V14 m (outs m) c b) c
    unfold Pipeline.ΦA at h
    iintro ⟨Hp, -, Hr⟩
    iapply h
    isplitl [Hr]; · iexact Hr
    iexact Hp
  hout c := by
    rw [Pipeline.ownSems0_none, show (pdats m 10 c).Φ (Fin.last _) = (dat10 (fun c b => V14 m (outs m) c b) c).Φ (Fin.last cfg10.N) from rfl]
    have h := hout10 (F := F) (fun c b => V14 m (outs m) c b) c
    unfold Pipeline.ΦA at h
    iintro HΦ
    ihave H := h $$ HΦ
    icases H with ⟨Hr, Hp⟩
    isplitl [Hp]; · iexact Hp
    isplitr; · iempintro
    iexact Hr
  hexit c := by
    have hjoin := Pipeline.unscopedBufs_of_arrays (p := 10) (pcfgs (F := F)) adm (Ix := Unit) (Name := ℕ) (U := UR sig nD τ) (Lvl := ℕ)
      launch10.win launch10.arr_whole c (pdats m) ((pdats m 10 c).share_full fun _ => rfl)
      (atTc c (V14 m (outs m) c)) (atTc c (V15 m (outs m) c)) ((pdats m 10 c).arrAt · cfg10.N) (hF10 m c) (hrest10 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Gen

end
-- ==== Proof.KernelIdealH.Rec11.lean ====
import proofs.«157173_j56882546868342_2_alg».proof.Proof.KernelIdealH.RunBase
set_option maxRecDepth 16384
noncomputable section
namespace Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (m : (ℓ : Loc nD τ sig) → Buf (Elt F) ℓ)

/-! # Region 11 as a segment of the run

Entered with every unscoped buffer at the valuation `V15`, left at `V16`: `main_v47` rewritten and every other buffer
as found. At the exit each window's array must be what the exit valuation holds there: the output's (window 4) by
the definition of what the region leaves; an input's because a pipeline never writes an input's array and the exit
valuation differs from the entry one at the output only. -/

/-- At the exit every window's array is the exit valuation's at that window's reference. -/
theorem hF11 (c : Dev nD) (w : Fin cfg11.W) :
    (dat11 (fun c b => V15 m (outs m) c b) c).arrAt w cfg11.N = atTc c (V16 m (outs m) c) (Pipeline.arrRef spec11 w) := by
  by_cases h : w = 4
  · subst h
    refine (outs_16 m c).symm.trans ?_
    show outs m 16 main_v47 c = Function.update (V15 m (outs m) c) main_v47 (outs m 16 main_v47 c) main_v47
    rw [Function.update_self]
  · have hin : (cfg11.win w).isOut = false := (by decide : ∀ w : Fin cfg11.W, w ≠ 4 → (cfg11.win w).isOut = false) w h
    have hne : Pipeline.arrRef spec11 w ≠ main_v47 := (by decide : ∀ w : Fin cfg11.W, w ≠ 4 → Pipeline.arrRef spec11 w ≠ main_v47) w h
    refine ((dat11 (fun c b => V15 m (outs m) c b) c).arrAt_in w hin cfg11.N).trans ((A_eq11 (fun c b => V15 m (outs m) c b) c w).trans ?_)
    exact (V16_of m (outs m) c (Pipeline.arrRef spec11 w) (fun hm => hne (List.mem_singleton.mp hm))).symm

/-- Every buffer that is no window's array is as the region found it. -/
theorem hrest11 (c : Dev nD) : ∀ b : Ref sig .tc, b ∉ Finset.univ.image (Pipeline.arrRef spec11) →
    atTc c (V16 m (outs m) c) b = atTc c (V15 m (outs m) c) b :=
  fun b hb => V16_of m (outs m) c b fun hm => hb (Finset.mem_image.mpr ⟨4, Finset.mem_univ _, by
    rw [List.mem_singleton.mp hm]⟩)

-- the library's lemmas are stated over the pinned configuration, which unifies with the printed one only when
-- unification may unfold plain definitions in a metavariable's type
set_option backward.isDefEq.respectTransparency.types false in
/-- REGION 11 over the thread state. Entry: its windows' arrays are split out of the unscoped buffers and the rest is
    set aside; the generator register goes into the pipeline's invariant and comes back; nothing is owed; the kernel
    has no semaphore of its own. Exit: the arrays, now at what the pipeline left, are put back beside the rest, which
    gives every unscoped buffer at the exit valuation. -/
def reg11 : Pipeline.RegionSeg (pcfgs (F := F)) adm (pdats m) () defs₀ 𝒱h Lh lvh 11 where
  win := launch11.win.to₀
  block_pos := launch11.block_pos
  stage_whole := launch11.stage_whole
  K := PEmpty
  osem k := k.elim
  ho := Pipeline.OwnSemFacts.none _
  hbody c := (body_obligation11 (fun c b => V15 m (outs m) c b) c).loose
  hwaits := Pipeline.hwaits_of_owed_zero _ _ _ _ Lh lvh 11 fun _ _ => rfl
  pre c := iprop(StableHlo.held (c : Thread nD τ) (Pipeline.ucRefs τ sig) (V15 m (outs m) c) ∗ Eh 11 c)
  post c := iprop(StableHlo.held (c : Thread nD τ) (Pipeline.ucRefs τ sig) (V16 m (outs m) c) ∗ Eh 12 c)
  X c := iprop(∃ r, prngReg c r)
  Y c := iprop(∃ r, prngReg c r)
  Z c := Pipeline.unscopedRest (Ix := Unit) (Name := ℕ) (U := UR sig nD τ) (Lvl := ℕ) spec11 c (atTc c (V15 m (outs m) c))
  hentry c := by
    rw [Pipeline.ownSems0_none]
    have hsplit := Pipeline.arrays_of_unscopedBufs (p := 11) (pcfgs (F := F)) adm (pdats m) launch11.win launch11.arr_whole c
      ((pdats m 11 c).share_full fun _ => rfl) (atTc c (V15 m (outs m) c)) fun w => A_eq11 (fun c b => V15 m (outs m) c b) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 11 c).Φ 0 = (dat11 (fun c b => V15 m (outs m) c b) c).Φ 0 from rfl]
    have h := hin11 (F := F) (fun c b => V15 m (outs m) c b) c
    unfold Pipeline.ΦA at h
    iintro ⟨Hp, -, Hr⟩
    iapply h
    isplitl [Hr]; · iexact Hr
    iexact Hp
  hout c := by
    rw [Pipeline.ownSems0_none, show (pdats m 11 c).Φ (Fin.last _) = (dat11 (fun c b => V15 m (outs m) c b) c).Φ (Fin.last cfg11.N) from rfl]
    have h := hout11 (F := F) (fun c b => V15 m (outs m) c b) c
    unfold Pipeline.ΦA at h
    iintro HΦ
    ihave H := h $$ HΦ
    icases H with ⟨Hr, Hp⟩
    isplitl [Hp]; · iexact Hp
    isplitr; · iempintro
    iexact Hr
  hexit c := by
    have hjoin := Pipeline.unscopedBufs_of_arrays (p := 11) (pcfgs (F := F)) adm (Ix := Unit) (Name := ℕ) (U := UR sig nD τ) (Lvl := ℕ)
      launch11.win launch11.arr_whole c (pdats m) ((pdats m 11 c).share_full fun _ => rfl)
      (atTc c (V15 m (outs m) c)) (atTc c (V16 m (outs m) c)) ((pdats m 11 c).arrAt · cfg11.N) (hF11 m c) (hrest11 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Gen

end
-- ==== Proof.KernelIdealH.Rec12.lean ====
import proofs.«157173_j56882546868342_2_alg».proof.Proof.KernelIdealH.RunBase
set_option maxRecDepth 16384
noncomputable section
namespace Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (m : (ℓ : Loc nD τ sig) → Buf (Elt F) ℓ)

/-! # Region 12 as a segment of the run

Entered with every unscoped buffer at the valuation `V16`, left at `V17`: `main_v48` rewritten and every other buffer
as found. At the exit each window's array must be what the exit valuation holds there: the output's (window 4) by
the definition of what the region leaves; an input's because a pipeline never writes an input's array and the exit
valuation differs from the entry one at the output only. -/

/-- At the exit every window's array is the exit valuation's at that window's reference. -/
theorem hF12 (c : Dev nD) (w : Fin cfg12.W) :
    (dat12 (fun c b => V16 m (outs m) c b) c).arrAt w cfg12.N = atTc c (V17 m (outs m) c) (Pipeline.arrRef spec12 w) := by
  by_cases h : w = 4
  · subst h
    refine (outs_17 m c).symm.trans ?_
    show outs m 17 main_v48 c = Function.update (V16 m (outs m) c) main_v48 (outs m 17 main_v48 c) main_v48
    rw [Function.update_self]
  · have hin : (cfg12.win w).isOut = false := (by decide : ∀ w : Fin cfg12.W, w ≠ 4 → (cfg12.win w).isOut = false) w h
    have hne : Pipeline.arrRef spec12 w ≠ main_v48 := (by decide : ∀ w : Fin cfg12.W, w ≠ 4 → Pipeline.arrRef spec12 w ≠ main_v48) w h
    refine ((dat12 (fun c b => V16 m (outs m) c b) c).arrAt_in w hin cfg12.N).trans ((A_eq12 (fun c b => V16 m (outs m) c b) c w).trans ?_)
    exact (V17_of m (outs m) c (Pipeline.arrRef spec12 w) (fun hm => hne (List.mem_singleton.mp hm))).symm

/-- Every buffer that is no window's array is as the region found it. -/
theorem hrest12 (c : Dev nD) : ∀ b : Ref sig .tc, b ∉ Finset.univ.image (Pipeline.arrRef spec12) →
    atTc c (V17 m (outs m) c) b = atTc c (V16 m (outs m) c) b :=
  fun b hb => V17_of m (outs m) c b fun hm => hb (Finset.mem_image.mpr ⟨4, Finset.mem_univ _, by
    rw [List.mem_singleton.mp hm]⟩)

-- the library's lemmas are stated over the pinned configuration, which unifies with the printed one only when
-- unification may unfold plain definitions in a metavariable's type
set_option backward.isDefEq.respectTransparency.types false in
/-- REGION 12 over the thread state. Entry: its windows' arrays are split out of the unscoped buffers and the rest is
    set aside; the generator register goes into the pipeline's invariant and comes back; nothing is owed; the kernel
    has no semaphore of its own. Exit: the arrays, now at what the pipeline left, are put back beside the rest, which
    gives every unscoped buffer at the exit valuation. -/
def reg12 : Pipeline.RegionSeg (pcfgs (F := F)) adm (pdats m) () defs₀ 𝒱h Lh lvh 12 where
  win := launch12.win.to₀
  block_pos := launch12.block_pos
  stage_whole := launch12.stage_whole
  K := PEmpty
  osem k := k.elim
  ho := Pipeline.OwnSemFacts.none _
  hbody c := (body_obligation12 (fun c b => V16 m (outs m) c b) c).loose
  hwaits := Pipeline.hwaits_of_owed_zero _ _ _ _ Lh lvh 12 fun _ _ => rfl
  pre c := iprop(StableHlo.held (c : Thread nD τ) (Pipeline.ucRefs τ sig) (V16 m (outs m) c) ∗ Eh 12 c)
  post c := iprop(StableHlo.held (c : Thread nD τ) (Pipeline.ucRefs τ sig) (V17 m (outs m) c) ∗ Eh 13 c)
  X c := iprop(∃ r, prngReg c r)
  Y c := iprop(∃ r, prngReg c r)
  Z c := Pipeline.unscopedRest (Ix := Unit) (Name := ℕ) (U := UR sig nD τ) (Lvl := ℕ) spec12 c (atTc c (V16 m (outs m) c))
  hentry c := by
    rw [Pipeline.ownSems0_none]
    have hsplit := Pipeline.arrays_of_unscopedBufs (p := 12) (pcfgs (F := F)) adm (pdats m) launch12.win launch12.arr_whole c
      ((pdats m 12 c).share_full fun _ => rfl) (atTc c (V16 m (outs m) c)) fun w => A_eq12 (fun c b => V16 m (outs m) c b) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 12 c).Φ 0 = (dat12 (fun c b => V16 m (outs m) c b) c).Φ 0 from rfl]
    have h := hin12 (F := F) (fun c b => V16 m (outs m) c b) c
    unfold Pipeline.ΦA at h
    iintro ⟨Hp, -, Hr⟩
    iapply h
    isplitl [Hr]; · iexact Hr
    iexact Hp
  hout c := by
    rw [Pipeline.ownSems0_none, show (pdats m 12 c).Φ (Fin.last _) = (dat12 (fun c b => V16 m (outs m) c b) c).Φ (Fin.last cfg12.N) from rfl]
    have h := hout12 (F := F) (fun c b => V16 m (outs m) c b) c
    unfold Pipeline.ΦA at h
    iintro HΦ
    ihave H := h $$ HΦ
    icases H with ⟨Hr, Hp⟩
    isplitl [Hp]; · iexact Hp
    isplitr; · iempintro
    iexact Hr
  hexit c := by
    have hjoin := Pipeline.unscopedBufs_of_arrays (p := 12) (pcfgs (F := F)) adm (Ix := Unit) (Name := ℕ) (U := UR sig nD τ) (Lvl := ℕ)
      launch12.win launch12.arr_whole c (pdats m) ((pdats m 12 c).share_full fun _ => rfl)
      (atTc c (V16 m (outs m) c)) (atTc c (V17 m (outs m) c)) ((pdats m 12 c).arrAt · cfg12.N) (hF12 m c) (hrest12 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Gen

end
-- ==== Proof.KernelIdealH.Rec13.lean ====
import proofs.«157173_j56882546868342_2_alg».proof.Proof.KernelIdealH.RunBase
set_option maxRecDepth 16384
noncomputable section
namespace Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (m : (ℓ : Loc nD τ sig) → Buf (Elt F) ℓ)

/-! # Region 13 as a segment of the run

Entered with every unscoped buffer at the valuation `V18`, left at `V19`: `main_v62` rewritten and every other buffer
as found. At the exit each window's array must be what the exit valuation holds there: the output's (window 6) by
the definition of what the region leaves; an input's because a pipeline never writes an input's array and the exit
valuation differs from the entry one at the output only. -/

/-- At the exit every window's array is the exit valuation's at that window's reference. -/
theorem hF13 (c : Dev nD) (w : Fin cfg13.W) :
    (dat13 (fun c b => V18 m (outs m) c b) c).arrAt w cfg13.N = atTc c (V19 m (outs m) c) (Pipeline.arrRef spec13 w) := by
  by_cases h : w = 6
  · subst h
    refine (outs_19 m c).symm.trans ?_
    show outs m 19 main_v62 c = Function.update (V18 m (outs m) c) main_v62 (outs m 19 main_v62 c) main_v62
    rw [Function.update_self]
  · have hin : (cfg13.win w).isOut = false := (by decide : ∀ w : Fin cfg13.W, w ≠ 6 → (cfg13.win w).isOut = false) w h
    have hne : Pipeline.arrRef spec13 w ≠ main_v62 := (by decide : ∀ w : Fin cfg13.W, w ≠ 6 → Pipeline.arrRef spec13 w ≠ main_v62) w h
    refine ((dat13 (fun c b => V18 m (outs m) c b) c).arrAt_in w hin cfg13.N).trans ((A_eq13 (fun c b => V18 m (outs m) c b) c w).trans ?_)
    exact (V19_of m (outs m) c (Pipeline.arrRef spec13 w) (fun hm => hne (List.mem_singleton.mp hm))).symm

/-- Every buffer that is no window's array is as the region found it. -/
theorem hrest13 (c : Dev nD) : ∀ b : Ref sig .tc, b ∉ Finset.univ.image (Pipeline.arrRef spec13) →
    atTc c (V19 m (outs m) c) b = atTc c (V18 m (outs m) c) b :=
  fun b hb => V19_of m (outs m) c b fun hm => hb (Finset.mem_image.mpr ⟨6, Finset.mem_univ _, by
    rw [List.mem_singleton.mp hm]⟩)

-- the library's lemmas are stated over the pinned configuration, which unifies with the printed one only when
-- unification may unfold plain definitions in a metavariable's type
set_option backward.isDefEq.respectTransparency.types false in
/-- REGION 13 over the thread state. Entry: its windows' arrays are split out of the unscoped buffers and the rest is
    set aside; the generator register goes into the pipeline's invariant and comes back; nothing is owed; the kernel
    has no semaphore of its own. Exit: the arrays, now at what the pipeline left, are put back beside the rest, which
    gives every unscoped buffer at the exit valuation. -/
def reg13 : Pipeline.RegionSeg (pcfgs (F := F)) adm (pdats m) () defs₀ 𝒱h Lh lvh 13 where
  win := launch13.win.to₀
  block_pos := launch13.block_pos
  stage_whole := launch13.stage_whole
  K := PEmpty
  osem k := k.elim
  ho := Pipeline.OwnSemFacts.none _
  hbody c := (body_obligation13 (fun c b => V18 m (outs m) c b) c).loose
  hwaits := Pipeline.hwaits_of_owed_zero _ _ _ _ Lh lvh 13 fun _ _ => rfl
  pre c := iprop(StableHlo.held (c : Thread nD τ) (Pipeline.ucRefs τ sig) (V18 m (outs m) c) ∗ Eh 13 c)
  post c := iprop(StableHlo.held (c : Thread nD τ) (Pipeline.ucRefs τ sig) (V19 m (outs m) c) ∗ Eh 14 c)
  X c := iprop(∃ r, prngReg c r)
  Y c := iprop(∃ r, prngReg c r)
  Z c := Pipeline.unscopedRest (Ix := Unit) (Name := ℕ) (U := UR sig nD τ) (Lvl := ℕ) spec13 c (atTc c (V18 m (outs m) c))
  hentry c := by
    rw [Pipeline.ownSems0_none]
    have hsplit := Pipeline.arrays_of_unscopedBufs (p := 13) (pcfgs (F := F)) adm (pdats m) launch13.win launch13.arr_whole c
      ((pdats m 13 c).share_full fun _ => rfl) (atTc c (V18 m (outs m) c)) fun w => A_eq13 (fun c b => V18 m (outs m) c b) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 13 c).Φ 0 = (dat13 (fun c b => V18 m (outs m) c b) c).Φ 0 from rfl]
    have h := hin13 (F := F) (fun c b => V18 m (outs m) c b) c
    unfold Pipeline.ΦA at h
    iintro ⟨Hp, -, Hr⟩
    iapply h
    isplitl [Hr]; · iexact Hr
    iexact Hp
  hout c := by
    rw [Pipeline.ownSems0_none, show (pdats m 13 c).Φ (Fin.last _) = (dat13 (fun c b => V18 m (outs m) c b) c).Φ (Fin.last cfg13.N) from rfl]
    have h := hout13 (F := F) (fun c b => V18 m (outs m) c b) c
    unfold Pipeline.ΦA at h
    iintro HΦ
    ihave H := h $$ HΦ
    icases H with ⟨Hr, Hp⟩
    isplitl [Hp]; · iexact Hp
    isplitr; · iempintro
    iexact Hr
  hexit c := by
    have hjoin := Pipeline.unscopedBufs_of_arrays (p := 13) (pcfgs (F := F)) adm (Ix := Unit) (Name := ℕ) (U := UR sig nD τ) (Lvl := ℕ)
      launch13.win launch13.arr_whole c (pdats m) ((pdats m 13 c).share_full fun _ => rfl)
      (atTc c (V18 m (outs m) c)) (atTc c (V19 m (outs m) c)) ((pdats m 13 c).arrAt · cfg13.N) (hF13 m c) (hrest13 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Gen

end
-- ==== Proof.KernelIdealH.Run.lean ====
import proofs.«157173_j56882546868342_2_alg».proof.Proof.KernelIdealH.RunCond
import proofs.«157173_j56882546868342_2_alg».proof.Proof.KernelIdealH.Rec0
import proofs.«157173_j56882546868342_2_alg».proof.Proof.KernelIdealH.Rec1
import proofs.«157173_j56882546868342_2_alg».proof.Proof.KernelIdealH.Rec2
import proofs.«157173_j56882546868342_2_alg».proof.Proof.KernelIdealH.Rec3
import proofs.«157173_j56882546868342_2_alg».proof.Proof.KernelIdealH.Rec4
import proofs.«157173_j56882546868342_2_alg».proof.Proof.KernelIdealH.Rec5
import proofs.«157173_j56882546868342_2_alg».proof.Proof.KernelIdealH.Rec6
import proofs.«157173_j56882546868342_2_alg».proof.Proof.KernelIdealH.Rec7
import proofs.«157173_j56882546868342_2_alg».proof.Proof.KernelIdealH.Rec8
import proofs.«157173_j56882546868342_2_alg».proof.Proof.KernelIdealH.Rec9
import proofs.«157173_j56882546868342_2_alg».proof.Proof.KernelIdealH.Rec10
import proofs.«157173_j56882546868342_2_alg».proof.Proof.KernelIdealH.Rec11
import proofs.«157173_j56882546868342_2_alg».proof.Proof.KernelIdealH.Rec12
import proofs.«157173_j56882546868342_2_alg».proof.Proof.KernelIdealH.Rec13
set_option maxRecDepth 16384
noncomputable section
namespace Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (UR sig nD τ) ℕ
variable (m : (ℓ : Loc nD τ sig) → Buf (Elt F) ℓ)

/-! # The run

The launch theorem for a program of several regions wants one segment record per region, chained through thread
states, and the launch's own first state. The records are the fourteen regions'; between two items a core holds
every unscoped buffer at the conditional frame's valuation, taken at what the regions leave, beside its generator
register and its dues, at nothing; each record is entered from exactly the state the item before leaves, so the
chaining is reflexivity. What is left is the launch: the ghost element is the pipelines' own, no further resource
is asked for, and every core starts with its register at the launch state and nothing owed. Two conclusions are
drawn from the one run: every argument array ends as launched, and the result buffer ends at what the last region
leaves. -/

/-- The launch's ghost element is the pipelines' own; no core is given anything else. -/
theorem launch_elem :
    (ownU (initOf (Pipeline.cells cfgs cellOf_inj) (Pipeline.launchToks cfgs cellOf_inj)) : sProp 𝕄)
      ⊢ |={Set.univ}=> iprop(BI.own (emb₁ (initOf (Pipeline.cells cfgs cellOf_inj) (Pipeline.launchToks cfgs cellOf_inj)))
          ∗ bigSep Finset.univ fun _ : Dev nD => (iprop(emp) : sProp 𝕄)) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

/-- On one core, what the launch hands over beside the buffers holds the register at some state and nothing owed. -/
theorem launch_rest_core (ρ : Dev nD → PrngReg) (c : Dev nD) :
    (iprop(unscopedSems0 c ∗ owes (c : Thread nD τ) (0 : CellTallies nD τ sig Unit) ∅
        ∗ Pipeline.launchCred (0 : Dev nD → CellTallies nD τ sig Unit) c ∗ prngReg c (ρ c) ∗ emp) : sProp 𝕄) ⊢ Rh c := by
  iintro ⟨-, HO, -, Hp, -⟩
  isplitl [Hp]; · iexists _; iexact Hp
  iexists ∅; iexact HO

/-- So the launch makes the riding state on every core at once. -/
theorem launch_rest (ρ : Dev nD → PrngReg) :
    iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (fun _ : Dev nD => (iprop(emp) : sProp 𝕄)) c)) ∗ levAts Lh lvh)
      ⊢ (|={Set.univ}=> bigSep Finset.univ (Eh (F := F) 0) : sProp 𝕄) := by
  have hmono : (bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (fun _ : Dev nD => (iprop(emp) : sProp 𝕄)) c))
      ⊢ (bigSep Finset.univ (Eh (F := F) 0) : sProp 𝕄) := bigSep_mono fun c _ => launch_rest_core ρ c
  iintro ⟨H, -⟩
  imodintro
  iapply hmono; iexact H

/-- At the end the riding state still owes nothing. -/
theorem end_rest (c : Dev nD) : Eh (F := F) 14 c ⊢ (iprop(∃ W, owes (c : Thread nD τ) (0 : CellTallies nD τ sig Unit) W) : sProp 𝕄) := by
  iintro ⟨-, HO⟩; iexact HO

/-- THE FRAME: from any memory with zero counters every weakly fair execution of @main terminates, and every final
    memory holds each argument array as launched. -/
theorem frame (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  frame_cond m (EP := emb₁) (ι := ()) (𝒱₀ := 𝒱h) (L := Lh) (lv := lvh) (hL := fun _ _ => rfl) (ρ := ρ) (outs := outs m)
    (pdats := pdats m) (O₀ := 0) (G := fun _ => iprop(emp))
    (u₀ := initOf (Pipeline.cells cfgs cellOf_inj) (Pipeline.launchToks cfgs cellOf_inj)) (hu₀ := launch_elem)
    (E := Eh) (hE0 := launch_rest ρ) (hE14 := end_rest)
    (R0 := reg0 m) (hpre0 := fun _ => .rfl) (hpost0 := fun _ => .rfl) (R1 := reg1 m) (hpre1 := fun _ => .rfl) (hpost1 := fun _ => .rfl)
    (R2 := reg2 m) (hpre2 := fun _ => .rfl) (hpost2 := fun _ => .rfl) (R3 := reg3 m) (hpre3 := fun _ => .rfl) (hpost3 := fun _ => .rfl)
    (R4 := reg4 m) (hpre4 := fun _ => .rfl) (hpost4 := fun _ => .rfl) (R5 := reg5 m) (hpre5 := fun _ => .rfl) (hpost5 := fun _ => .rfl)
    (R6 := reg6 m) (hpre6 := fun _ => .rfl) (hpost6 := fun _ => .rfl) (R7 := reg7 m) (hpre7 := fun _ => .rfl) (hpost7 := fun _ => .rfl)
    (R8 := reg8 m) (hpre8 := fun _ => .rfl) (hpost8 := fun _ => .rfl) (R9 := reg9 m) (hpre9 := fun _ => .rfl) (hpost9 := fun _ => .rfl)
    (R10 := reg10 m) (hpre10 := fun _ => .rfl) (hpost10 := fun _ => .rfl) (R11 := reg11 m) (hpre11 := fun _ => .rfl) (hpost11 := fun _ => .rfl)
    (R12 := reg12 m) (hpre12 := fun _ => .rfl) (hpost12 := fun _ => .rfl) (R13 := reg13 m) (hpre13 := fun _ => .rfl) (hpost13 := fun _ => .rfl)

/-- THE RUN WITH ITS RESULT: the same executions end with the result buffer `main_v62` at what the last region leaves
    (`outs m 19 main_v62`, on every core), and the arguments as launched. -/
theorem run_value (ρ : Dev nD → PrngReg) :
    θ_run defs (onTc (τ := τ) (main (F := F))) ⟨m, fun _ => 0, ρ⟩ (fun r => ∀ c : Dev nD,
      r.2.mem ((c.tc : Thread nD τ).loc main_v62) = outs m 19 main_v62 c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  run_value_cond m (EP := emb₁) (ι := ()) (𝒱₀ := 𝒱h) (L := Lh) (lv := lvh) (hL := fun _ _ => rfl) (ρ := ρ) (outs := outs m)
    (pdats := pdats m) (O₀ := 0) (G := fun _ => iprop(emp))
    (u₀ := initOf (Pipeline.cells cfgs cellOf_inj) (Pipeline.launchToks cfgs cellOf_inj)) (hu₀ := launch_elem)
    (E := Eh) (hE0 := launch_rest ρ) (hE14 := end_rest)
    (R0 := reg0 m) (hpre0 := fun _ => .rfl) (hpost0 := fun _ => .rfl) (R1 := reg1 m) (hpre1 := fun _ => .rfl) (hpost1 := fun _ => .rfl)
    (R2 := reg2 m) (hpre2 := fun _ => .rfl) (hpost2 := fun _ => .rfl) (R3 := reg3 m) (hpre3 := fun _ => .rfl) (hpost3 := fun _ => .rfl)
    (R4 := reg4 m) (hpre4 := fun _ => .rfl) (hpost4 := fun _ => .rfl) (R5 := reg5 m) (hpre5 := fun _ => .rfl) (hpost5 := fun _ => .rfl)
    (R6 := reg6 m) (hpre6 := fun _ => .rfl) (hpost6 := fun _ => .rfl) (R7 := reg7 m) (hpre7 := fun _ => .rfl) (hpost7 := fun _ => .rfl)
    (R8 := reg8 m) (hpre8 := fun _ => .rfl) (hpost8 := fun _ => .rfl) (R9 := reg9 m) (hpre9 := fun _ => .rfl) (hpost9 := fun _ => .rfl)
    (R10 := reg10 m) (hpre10 := fun _ => .rfl) (hpost10 := fun _ => .rfl) (R11 := reg11 m) (hpre11 := fun _ => .rfl) (hpost11 := fun _ => .rfl)
    (R12 := reg12 m) (hpre12 := fun _ => .rfl) (hpost12 := fun _ => .rfl) (R13 := reg13 m) (hpre13 := fun _ => .rfl) (hpost13 := fun _ => .rfl)

end Cert.KernelIdeal.Gen

end
-- ==== Proof.KernelIdealH.LibNary3.lean ====
/- A host operation over a literal family of THREE references (a concatenate of three pieces), read at its own
   result buffer: the operation's function applied to the three operands' contents, each taken at its own
   reference, so that what each operand holds can go on being rewritten by the per-operation result lemmas. The
   library states this for a family of four; three is the same statement one entry shorter. -/
import Idealize.ShloMosaic.Lib.StableHlo.Run

noncomputable section

namespace Cert.KernelIdeal.Lib

open Idealize.ShloMosaic Idealize.ShloMosaic.StableHlo

variable {τ : Topo} {sig : RefSig} {Val : EltTy → Type}
variable {x a b y : Ref sig .tc}

/-- The result of `nary ![x, a, b] y f` at `y`: `f` of the family whose entry `k` is operand `k`'s contents at
    its own reference (`Fin.cons` at the literals 0, 1, 2), in place of `fun k => F ↑(![x, a, b] k)`, under whose
    binder no reference is literal. The two families agree entry by entry. -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

end Cert.KernelIdeal.Lib

end
-- ==== Proof.KernelIdealH.Spec.lean ====
/- What each matrix-product region of the kernel program computes, as one function of whole arrays over the
   extended reals: a matrix product is the finite sum over the contracted coordinate; a bias row is added to every
   row; the rectifier is the maximum with zero. Rows and columns are the two coordinates of a rank-2 index. -/
import Idealize.ShloMosaic.PureOps.Ideal
import Idealize.ShloMosaic.Lib.ValueIdx
import Mathlib.Data.EReal.Basic

noncomputable section

namespace Cert.Spec

open Idealize.ShloMosaic Idealize.ShloMosaic.ValueIdx

/-- A rank-2 array of extended reals with `a` rows and `b` columns. -/
abbrev Arr2 (a b : ℕ) : Type := (⟨2, ![a, b]⟩ : Shape).Idx → EReal

/-- The matrix product: entry (r, j) is the sum over k of A (r, k) · B (k, j). -/
def mm {M K N : ℕ} (A : Arr2 M K) (B : Arr2 K N) : Arr2 M N :=
  fun i => ∑ k : Fin K, A (ix2 (i 0) k) * B (ix2 k (i 1))

theorem mm_apply {M K N : ℕ} (A : Arr2 M K) (B : Arr2 K N) (r : Fin M) (j : Fin N) :
    mm A B (ix2 r j) = ∑ k : Fin K, A (ix2 r k) * B (ix2 k j) := rfl

/-- The product plus another array of the result's shape, rectified: max (A·B + O, 0). -/
def mmAddRelu {M K N : ℕ} (A : Arr2 M K) (B : Arr2 K N) (O : Arr2 M N) : Arr2 M N :=
  fun i => max (mm A B i + O i) 0

/-- The product plus a bias row: (A·B) (r, j) + b (0, j). -/
def mmBias {M K N : ℕ} (A : Arr2 M K) (B : Arr2 K N) (b : Arr2 1 N) : Arr2 M N :=
  fun i => mm A B i + b (ix2 0 (i 1))

/-- The same, rectified. -/
def mmBiasRelu {M K N : ℕ} (A : Arr2 M K) (B : Arr2 K N) (b : Arr2 1 N) : Arr2 M N :=
  fun i => max (mmBias A B b i) 0

end Cert.Spec

end
-- ==== Proof.KernelIdealH.SpecAttn.lean ====
/- What each attention-score region of the kernel program computes, as one function of whole arrays over the
   extended reals: row i of the result is the sum over the 512 lanes j of tanh ((A·W) (i, j) + b (0, j)) · q (0, j),
   the matrix product being the finite sum over the contracted coordinate. The factors stand in the order the body
   multiplies them (the hyperbolic tangent first, the query row second), and the lane sum starts from zero. -/
import Idealize.ShloMosaic.PureOps.Ideal
import Idealize.ShloMosaic.Lib.ValueIdx
import Mathlib.Data.EReal.Basic

noncomputable section

namespace Cert.Spec

open Idealize.ShloMosaic Idealize.ShloMosaic.ValueIdx

/-- The attention score of every row: score i = ∑ j, tanh (∑ k, A (i, k) · W (k, j) + b (0, j)) · q (0, j). -/
def attn (A : (⟨2, ![4096, 512]⟩ : Shape).Idx → EReal) (W : (⟨2, ![512, 512]⟩ : Shape).Idx → EReal)
    (b q : (⟨2, ![1, 512]⟩ : Shape).Idx → EReal) : (⟨2, ![4096, 1]⟩ : Shape).Idx → EReal :=
  fun i => ∑ j : Fin 512, Ideal.tanh ((∑ k : Fin 512, A (ix2 (i 0) k) * W (ix2 k j)) + b (ix2 0 j)) * q (ix2 0 j)

/-- The score read at row `r` (the result's one column). -/
theorem attn_apply (A : (⟨2, ![4096, 512]⟩ : Shape).Idx → EReal) (W : (⟨2, ![512, 512]⟩ : Shape).Idx → EReal)
    (b q : (⟨2, ![1, 512]⟩ : Shape).Idx → EReal) (r : Fin 4096) (z : Fin 1) :
    attn A W b q (ix2 r z) = ∑ j : Fin 512, Ideal.tanh ((∑ k : Fin 512, A (ix2 r k) * W (ix2 k j)) + b (ix2 0 j)) * q (ix2 0 j) := rfl

end Cert.Spec

end
-- ==== Proof.KernelIdealH.SpecCls.lean ====
import Idealize.ShloMosaic.PureOps.Ideal
import Idealize.ShloMosaic.Lib.ValueIdx
import Mathlib.Data.EReal.Basic

/-!
# The classifier head, as one function of its arrays

Row by row: the three feature rows are blended with the row's three mixing weights, the blend is multiplied by
the weight matrix and the bias row is added (the logits), and the row of logits is normalised by the logarithm
of the sum of its exponentials, taken stably: the row's maximum is subtracted first. Every stage is stated at a
row `r` and a column, over the extended reals, in the order the arithmetic is done; the number of rows is a
parameter, so that the same stages read a row block and the whole array.
-/

noncomputable section

namespace Cert.Spec

open Idealize.ShloMosaic Idealize.ShloMosaic.ValueIdx
open scoped BigOperators

variable {R : Nat}

/-- The blend of the three feature matrices at row `r`, column `k`: each weighted by the row's own mixing weight,
    summed from the left. -/
def fused (hp knn ppr : (⟨2, ![R, 512]⟩ : Shape).Idx → EReal) (beta : (⟨2, ![R, 3]⟩ : Shape).Idx → EReal)
    (r : Fin R) (k : Fin 512) : EReal :=
  beta (ix2 r (0 : Fin 3)) * hp (ix2 r k) + beta (ix2 r (1 : Fin 3)) * knn (ix2 r k) + beta (ix2 r (2 : Fin 3)) * ppr (ix2 r k)

/-- The logits at row `r`, class `q`: the blended row times the weight matrix's column, plus the bias. -/
def logits (hp knn ppr : (⟨2, ![R, 512]⟩ : Shape).Idx → EReal) (beta : (⟨2, ![R, 3]⟩ : Shape).Idx → EReal)
    (Wc : (⟨2, ![512, 16]⟩ : Shape).Idx → EReal) (bc : (⟨2, ![1, 16]⟩ : Shape).Idx → EReal)
    (r : Fin R) (q : Fin 16) : EReal :=
  (∑ k : Fin 512, fused hp knn ppr beta r k * Wc (ix2 k q)) + bc (ix2 (0 : Fin 1) q)

/-- The maximum of row `r`'s logits: the fold of `max` over the sixteen classes from minus infinity. -/
def rowMax (hp knn ppr : (⟨2, ![R, 512]⟩ : Shape).Idx → EReal) (beta : (⟨2, ![R, 3]⟩ : Shape).Idx → EReal)
    (Wc : (⟨2, ![512, 16]⟩ : Shape).Idx → EReal) (bc : (⟨2, ![1, 16]⟩ : Shape).Idx → EReal)
    (r : Fin R) : EReal :=
  (Finset.univ : Finset (Fin 16)).fold max (Ideal.ofBits .f32 0xFF800000#32) (fun q => logits hp knn ppr beta Wc bc r q)

/-- The logits less their row's maximum. -/
def shifted (hp knn ppr : (⟨2, ![R, 512]⟩ : Shape).Idx → EReal) (beta : (⟨2, ![R, 3]⟩ : Shape).Idx → EReal)
    (Wc : (⟨2, ![512, 16]⟩ : Shape).Idx → EReal) (bc : (⟨2, ![1, 16]⟩ : Shape).Idx → EReal)
    (r : Fin R) (q : Fin 16) : EReal :=
  logits hp knn ppr beta Wc bc r q - rowMax hp knn ppr beta Wc bc r

/-- The logarithm of the sum over the classes of the exponentials of row `r`'s shifted logits. -/
def lse (hp knn ppr : (⟨2, ![R, 512]⟩ : Shape).Idx → EReal) (beta : (⟨2, ![R, 3]⟩ : Shape).Idx → EReal)
    (Wc : (⟨2, ![512, 16]⟩ : Shape).Idx → EReal) (bc : (⟨2, ![1, 16]⟩ : Shape).Idx → EReal)
    (r : Fin R) : EReal :=
  Ideal.log (∑ q : Fin 16, Ideal.exp (shifted hp knn ppr beta Wc bc r q))

/-- The row-wise log-softmax of the logits, at row `r`, class `q`. -/
def clsAt (hp knn ppr : (⟨2, ![R, 512]⟩ : Shape).Idx → EReal) (beta : (⟨2, ![R, 3]⟩ : Shape).Idx → EReal)
    (Wc : (⟨2, ![512, 16]⟩ : Shape).Idx → EReal) (bc : (⟨2, ![1, 16]⟩ : Shape).Idx → EReal)
    (r : Fin R) (q : Fin 16) : EReal :=
  shifted hp knn ppr beta Wc bc r q - lse hp knn ppr beta Wc bc r

/-- The classifier head over the whole arrays: the log-softmax rows of the blended features' logits. -/
def cls (hp knn ppr : (⟨2, ![4096, 512]⟩ : Shape).Idx → EReal) (beta : (⟨2, ![4096, 3]⟩ : Shape).Idx → EReal)
    (Wc : (⟨2, ![512, 16]⟩ : Shape).Idx → EReal) (bc : (⟨2, ![1, 16]⟩ : Shape).Idx → EReal) :
    (⟨2, ![4096, 16]⟩ : Shape).Idx → EReal :=
  fun i => clsAt hp knn ppr beta Wc bc (i 0) (i 1)

/-- At an index given by its coordinates. -/
theorem cls_apply (hp knn ppr : (⟨2, ![4096, 512]⟩ : Shape).Idx → EReal) (beta : (⟨2, ![4096, 3]⟩ : Shape).Idx → EReal)
    (Wc : (⟨2, ![512, 16]⟩ : Shape).Idx → EReal) (bc : (⟨2, ![1, 16]⟩ : Shape).Idx → EReal) (r : Fin 4096) (q : Fin 16) :
    cls hp knn ppr beta Wc bc (ix2 r q) = shifted hp knn ppr beta Wc bc r q - lse hp knn ppr beta Wc bc r := rfl

/-! ## The stages read one row: two families of arrays that agree on a row give the same values there -/

section Rows

variable {R' : Nat}
variable (hp knn ppr : (⟨2, ![R, 512]⟩ : Shape).Idx → EReal) (beta : (⟨2, ![R, 3]⟩ : Shape).Idx → EReal)
variable (hp' knn' ppr' : (⟨2, ![R', 512]⟩ : Shape).Idx → EReal) (beta' : (⟨2, ![R', 3]⟩ : Shape).Idx → EReal)
variable (Wc : (⟨2, ![512, 16]⟩ : Shape).Idx → EReal) (bc : (⟨2, ![1, 16]⟩ : Shape).Idx → EReal)

theorem fused_congr (r : Fin R) (r' : Fin R')
    (h0 : ∀ k : Fin 512, hp (ix2 r k) = hp' (ix2 r' k)) (h1 : ∀ k : Fin 512, knn (ix2 r k) = knn' (ix2 r' k))
    (h2 : ∀ k : Fin 512, ppr (ix2 r k) = ppr' (ix2 r' k)) (hb : ∀ a : Fin 3, beta (ix2 r a) = beta' (ix2 r' a)) (k : Fin 512) :
    fused hp knn ppr beta r k = fused hp' knn' ppr' beta' r' k := by
  unfold fused
  rw [h0 k, h1 k, h2 k, hb 0, hb 1, hb 2]

theorem logits_congr (r : Fin R) (r' : Fin R')
    (h0 : ∀ k : Fin 512, hp (ix2 r k) = hp' (ix2 r' k)) (h1 : ∀ k : Fin 512, knn (ix2 r k) = knn' (ix2 r' k))
    (h2 : ∀ k : Fin 512, ppr (ix2 r k) = ppr' (ix2 r' k)) (hb : ∀ a : Fin 3, beta (ix2 r a) = beta' (ix2 r' a)) (q : Fin 16) :
    logits hp knn ppr beta Wc bc r q = logits hp' knn' ppr' beta' Wc bc r' q := by
  unfold logits
  exact congrArg (· + bc (ix2 (0 : Fin 1) q))
    (Finset.sum_congr rfl fun k _ => by rw [fused_congr hp knn ppr beta hp' knn' ppr' beta' r r' h0 h1 h2 hb k])

theorem rowMax_congr (r : Fin R) (r' : Fin R')
    (h0 : ∀ k : Fin 512, hp (ix2 r k) = hp' (ix2 r' k)) (h1 : ∀ k : Fin 512, knn (ix2 r k) = knn' (ix2 r' k))
    (h2 : ∀ k : Fin 512, ppr (ix2 r k) = ppr' (ix2 r' k)) (hb : ∀ a : Fin 3, beta (ix2 r a) = beta' (ix2 r' a)) :
    rowMax hp knn ppr beta Wc bc r = rowMax hp' knn' ppr' beta' Wc bc r' := by
  unfold rowMax
  have e : (fun q => logits hp knn ppr beta Wc bc r q) = fun q => logits hp' knn' ppr' beta' Wc bc r' q :=
    funext fun q => logits_congr hp knn ppr beta hp' knn' ppr' beta' Wc bc r r' h0 h1 h2 hb q
  rw [e]

theorem shifted_congr (r : Fin R) (r' : Fin R')
    (h0 : ∀ k : Fin 512, hp (ix2 r k) = hp' (ix2 r' k)) (h1 : ∀ k : Fin 512, knn (ix2 r k) = knn' (ix2 r' k))
    (h2 : ∀ k : Fin 512, ppr (ix2 r k) = ppr' (ix2 r' k)) (hb : ∀ a : Fin 3, beta (ix2 r a) = beta' (ix2 r' a)) (q : Fin 16) :
    shifted hp knn ppr beta Wc bc r q = shifted hp' knn' ppr' beta' Wc bc r' q := by
  unfold shifted
  rw [logits_congr hp knn ppr beta hp' knn' ppr' beta' Wc bc r r' h0 h1 h2 hb q,
    rowMax_congr hp knn ppr beta hp' knn' ppr' beta' Wc bc r r' h0 h1 h2 hb]

theorem lse_congr (r : Fin R) (r' : Fin R')
    (h0 : ∀ k : Fin 512, hp (ix2 r k) = hp' (ix2 r' k)) (h1 : ∀ k : Fin 512, knn (ix2 r k) = knn' (ix2 r' k))
    (h2 : ∀ k : Fin 512, ppr (ix2 r k) = ppr' (ix2 r' k)) (hb : ∀ a : Fin 3, beta (ix2 r a) = beta' (ix2 r' a)) :
    lse hp knn ppr beta Wc bc r = lse hp' knn' ppr' beta' Wc bc r' := by
  unfold lse
  exact congrArg Ideal.log
    (Finset.sum_congr rfl fun q _ => by rw [shifted_congr hp knn ppr beta hp' knn' ppr' beta' Wc bc r r' h0 h1 h2 hb q])

theorem clsAt_congr (r : Fin R) (r' : Fin R')
    (h0 : ∀ k : Fin 512, hp (ix2 r k) = hp' (ix2 r' k)) (h1 : ∀ k : Fin 512, knn (ix2 r k) = knn' (ix2 r' k))
    (h2 : ∀ k : Fin 512, ppr (ix2 r k) = ppr' (ix2 r' k)) (hb : ∀ a : Fin 3, beta (ix2 r a) = beta' (ix2 r' a)) (q : Fin 16) :
    clsAt hp knn ppr beta Wc bc r q = clsAt hp' knn' ppr' beta' Wc bc r' q := by
  unfold clsAt
  rw [shifted_congr hp knn ppr beta hp' knn' ppr' beta' Wc bc r r' h0 h1 h2 hb q,
    lse_congr hp knn ppr beta hp' knn' ppr' beta' Wc bc r r' h0 h1 h2 hb]

end Rows

end Cert.Spec

end
-- ==== Proof.KernelIdealH.SpecNet.lean ====
/- The two networks as functions of the twenty-one argument arrays, over the extended reals.

   Both compute a two-layer gated graph convolution (the original view), a nearest-neighbour view and a
   personalised-pagerank view of the 4096 nodes, score each view by an attention row sum, normalise the three scores of
   every node by a softmax, blend the three views with those weights, and classify: a matrix product, a bias, and a
   logarithmic softmax over the sixteen classes.

   They differ in the ORDER of a few operations, and the stages below are written so that nothing else differs:
   * the gate b = 1 / (1 + e^(-bl)) of a layer multiplies the WEIGHTS before the product on the first side
     (x · (W ∘ b), and the neighbour product plus the self product), and the PRODUCTS on the second
     (b ∘ (x · W), and the self term plus the neighbour term);
   * the attention bias is (bw + batt) added once to the product on the first side, bw and then batt on the second; the
     first multiplies tanh · q, the second q · tanh, and the second's row sum starts from a written zero;
   * the softmax over the three scores is the same chain of whole-array operations on both sides, defined once;
   * the blend, the classifier's product and bias and the logarithmic softmax are one stage on the first side
     (`cls`) and separate whole-array operations on the second. -/
import proofs.«157173_j56882546868342_2_alg».proof.Proof.KernelIdealH.Spec
import proofs.«157173_j56882546868342_2_alg».proof.Proof.KernelIdealH.SpecAttn
import proofs.«157173_j56882546868342_2_alg».proof.Proof.KernelIdealH.SpecCls

noncomputable section

namespace Cert.Spec

open Idealize.ShloMosaic Idealize.ShloMosaic.ValueIdx
open scoped BigOperators

/-- A rank-1 array of extended reals of length `n`. -/
abbrev Arr1 (n : ℕ) : Type := (⟨1, ![n]⟩ : Shape).Idx → EReal
/-- A rank-0 array: one extended real. -/
abbrev Arr0 : Type := (⟨0, ![]⟩ : Shape).Idx → EReal

/-! ## Stages both sides share -/

/-- The gate of a layer: 1 / (1 + e^(-bl)). -/
def gate (bl : Arr0) : EReal := Ideal.div 1 (1 + Ideal.exp (-(bl ix0)))

/-- A rank-1 array as the one row of a rank-2 array. -/
def row {n : ℕ} (v : Arr1 n) : Arr2 1 n := fun i => v (ix1 (i 1))

/-- The nearest-neighbour view: max (knn · (fused · Wg) + bg, 0). -/
def hpKnn (knn : Arr2 4096 4096) (fused : Arr2 4096 1024) (Wg : Arr2 1024 512) (bg : Arr1 512) : Arr2 4096 512 :=
  mmBiasRelu knn (mm fused Wg) (row bg)

/-- The pagerank view: ppr · (feat · Wa + ba). -/
def hpPpr (ppr : Arr2 4096 4096) (feat : Arr2 4096 1024) (Wa : Arr2 1024 512) (ba : Arr1 512) : Arr2 4096 512 :=
  mm ppr (mmBias feat Wa (row ba))

/-! ### The softmax over the three scores of every node: one chain of whole-array operations -/

theorem cat3_ok : Shape.Concatenates [(⟨2, ![4096, 1]⟩ : Shape), ⟨2, ![4096, 1]⟩, ⟨2, ![4096, 1]⟩] ⟨2, ![4096, 3]⟩ 1 := by decide
theorem red3_ok : (⟨2, ![4096, 3]⟩ : Shape).ReducesTo [1] ⟨1, ![4096]⟩ := by decide
theorem red16_ok : (⟨2, ![4096, 16]⟩ : Shape).ReducesTo [1] ⟨1, ![4096]⟩ := by decide
theorem sc_ok : 0 < (⟨0, ![]⟩ : Shape).numel := by decide
theorem bc01_ok : (⟨0, ![]⟩ : Shape).BroadcastsInDim ⟨1, ![4096]⟩ (![] : Fin 0 → Fin 1) := by decide
theorem bc12_ok : (⟨1, ![4096]⟩ : Shape).BroadcastsInDim ⟨2, ![4096, 1]⟩ (![0] : Fin 1 → Fin 2) := by decide
theorem bc23_ok : (⟨2, ![4096, 1]⟩ : Shape).BroadcastsInDim ⟨2, ![4096, 3]⟩ (![0, 1] : Fin 2 → Fin 2) := by decide

/-- Minus infinity, as the rank-0 constant both programs write. -/
def negInf0 : Arr0 := constant (F := Ideal) (⟨0, ![]⟩ : Shape) .f32 0xFF800000#32
/-- Zero, as the rank-0 constant both programs write. -/
def zero0 : Arr0 := constant (F := Ideal) (⟨0, ![]⟩ : Shape) .f32 0x00000000#32

/-- The three score columns side by side. -/
def cat3 (a0 a1 a2 : Arr2 4096 1) : Arr2 4096 3 :=
  concatenate (⟨2, ![4096, 3]⟩ : Shape) 1
    [⟨(⟨2, ![4096, 1]⟩ : Shape), a0⟩, ⟨(⟨2, ![4096, 1]⟩ : Shape), a1⟩, ⟨(⟨2, ![4096, 1]⟩ : Shape), a2⟩] cat3_ok

/-- A column of 4096 values repeated over three columns. -/
def spread3 (v : Arr1 4096) : Arr2 4096 3 :=
  broadcastInDim (⟨2, ![4096, 3]⟩ : Shape) ![0, 1] bc23_ok (broadcastInDim (⟨2, ![4096, 1]⟩ : Shape) ![0] bc12_ok v)

/-- Every row's maximum (the maximum with minus infinity of the reduction from minus infinity). -/
def rowMax3 (x : Arr2 4096 3) : Arr1 4096 :=
  maximumf (F := Ideal) (φ := .f32) (broadcastInDim (⟨1, ![4096]⟩ : Shape) ![] bc01_ok negInf0)
    (Host.reduce (FloatOps.maximumf (F := Ideal) (φ := .f32)) x negInf0 red3_ok sc_ok)

/-- The exponentials of the entries less their row's maximum. -/
def exps3 (x : Arr2 4096 3) : Arr2 4096 3 :=
  Host.exp (F := Ideal) (φ := .f32) (subf (F := Ideal) (φ := .f32) x (spread3 (rowMax3 x)))

/-- The softmax of every row of three. -/
def softmax3 (x : Arr2 4096 3) : Arr2 4096 3 :=
  Host.divf (F := Ideal) (φ := .f32) (exps3 x)
    (spread3 (Host.reduceAdd (F := Ideal) (φ := .f32) (exps3 x) zero0 red3_ok sc_ok))

/-! ## The first side: the weights are gated, the classifier is one stage -/

/-- A weight matrix with every entry multiplied by a scalar on the right. -/
def scaleW {a b : ℕ} (W : Arr2 a b) (s : EReal) : Arr2 a b := fun i => W i * s

/-- The self product of a layer with gated weights: x · (Ws ∘ g). -/
def kSelf {K : ℕ} (x : Arr2 4096 K) (Ws : Arr2 K 512) (g : EReal) : Arr2 4096 512 := mm x (scaleW Ws g)

/-- The neighbour aggregate: adj · x. -/
def kNbr {K : ℕ} (adj : Arr2 4096 4096) (x : Arr2 4096 K) : Arr2 4096 K := mm adj x

/-- A layer: max ((adj · x) · (Wn ∘ (1 - g)) + x · (Ws ∘ g), 0). -/
def kLayer {K : ℕ} (adj : Arr2 4096 4096) (x : Arr2 4096 K) (Ws Wn : Arr2 K 512) (g : EReal) : Arr2 4096 512 :=
  mmAddRelu (kNbr adj x) (scaleW Wn (1 - g)) (kSelf x Ws g)

/-- The first layer's output. -/
def kH0 (feat : Arr2 4096 1024) (adj : Arr2 4096 4096) (Ws0 Wn0 : Arr2 1024 512) (bl0 : Arr0) : Arr2 4096 512 :=
  kLayer adj feat Ws0 Wn0 (gate bl0)

/-- The original view: the second layer's output. -/
def kHp (feat : Arr2 4096 1024) (adj : Arr2 4096 4096) (Ws0 Wn0 : Arr2 1024 512) (bl0 : Arr0)
    (Ws1 Wn1 : Arr2 512 512) (bl1 : Arr0) : Arr2 4096 512 :=
  kLayer adj (kH0 feat adj Ws0 Wn0 bl0) Ws1 Wn1 (gate bl1)

/-- The attention bias row: bw + batt, as one row. -/
def biasRow (bw batt : Arr1 512) : Arr2 1 512 := row (fun j => bw j + batt j)

/-- The attention score column of a view. -/
def kAtt (A : Arr2 4096 512) (Ww : Arr2 512 512) (bw batt q : Arr1 512) : Arr2 4096 1 :=
  attn A Ww (biasRow bw batt) (row q)

/-- The mixing weights of the three views. -/
def kBeta (hp hk hr : Arr2 4096 512) (Ww : Arr2 512 512) (bw batt q : Arr1 512) : Arr2 4096 3 :=
  softmax3 (cat3 (kAtt hp Ww bw batt q) (kAtt hk Ww bw batt q) (kAtt hr Ww bw batt q))

/-- The classifier over three views, given as arrays. -/
def kHead (hp hk hr : Arr2 4096 512) (Ww : Arr2 512 512) (bw batt q : Arr1 512) (Wc : Arr2 512 16) (bc : Arr1 16) :
    Arr2 4096 16 :=
  cls hp hk hr (kBeta hp hk hr Ww bw batt q) Wc (row bc)

/-- What the first program computes. -/
def kernelOut (feat : Arr2 4096 1024) (adj knn ppr : Arr2 4096 4096) (fused : Arr2 4096 1024)
    (Ws0 Wn0 : Arr2 1024 512) (bl0 : Arr0) (Ws1 Wn1 : Arr2 512 512) (bl1 : Arr0)
    (Wg : Arr2 1024 512) (bg : Arr1 512) (Wa : Arr2 1024 512) (ba : Arr1 512)
    (Ww : Arr2 512 512) (bw batt q : Arr1 512) (Wc : Arr2 512 16) (bc : Arr1 16) : Arr2 4096 16 :=
  kHead (kHp feat adj Ws0 Wn0 bl0 Ws1 Wn1 bl1) (hpKnn knn fused Wg bg) (hpPpr ppr feat Wa ba) Ww bw batt q Wc bc

/-! ## The second side: the products are gated, every operation is a whole-array one -/

/-- A layer: max (g ∘ (x · Ws) + (1 - g) ∘ ((adj · x) · Wn), 0). -/
def rLayer {K : ℕ} (adj : Arr2 4096 4096) (x : Arr2 4096 K) (Ws Wn : Arr2 K 512) (g : EReal) : Arr2 4096 512 :=
  fun i => max (g * mm x Ws i + (1 - g) * mm (mm adj x) Wn i) 0

/-- The first layer's output. -/
def rH0 (feat : Arr2 4096 1024) (adj : Arr2 4096 4096) (Ws0 Wn0 : Arr2 1024 512) (bl0 : Arr0) : Arr2 4096 512 :=
  rLayer adj feat Ws0 Wn0 (gate bl0)

/-- The original view: the second layer's output. -/
def rHp (feat : Arr2 4096 1024) (adj : Arr2 4096 4096) (Ws0 Wn0 : Arr2 1024 512) (bl0 : Arr0)
    (Ws1 Wn1 : Arr2 512 512) (bl1 : Arr0) : Arr2 4096 512 :=
  rLayer adj (rH0 feat adj Ws0 Wn0 bl0) Ws1 Wn1 (gate bl1)

/-- The attention score column of a view: 0 + ∑ j, q j · tanh (((h · Ww) (i, j) + bw j) + batt j). -/
def rAtt (h : Arr2 4096 512) (Ww : Arr2 512 512) (bw batt q : Arr1 512) : Arr2 4096 1 :=
  fun i => 0 + ∑ j : Fin 512, q (ix1 j) * Ideal.tanh ((mm h Ww (ix2 (i 0) j) + bw (ix1 j)) + batt (ix1 j))

/-- The mixing weights of the three views. -/
def rBeta (hp hk hr : Arr2 4096 512) (Ww : Arr2 512 512) (bw batt q : Arr1 512) : Arr2 4096 3 :=
  softmax3 (cat3 (rAtt hp Ww bw batt q) (rAtt hk Ww bw batt q) (rAtt hr Ww bw batt q))

/-- The blend of the three views, each row by its own three weights, summed from the left. -/
def rFused (hp hk hr : Arr2 4096 512) (beta : Arr2 4096 3) : Arr2 4096 512 :=
  fun i => (beta (ix2 (i 0) (0 : Fin 3)) * hp i + beta (ix2 (i 0) (1 : Fin 3)) * hk i) + beta (ix2 (i 0) (2 : Fin 3)) * hr i

/-- The logits: the blend times the classifier's weights, plus its bias. -/
def rLogits (f : Arr2 4096 512) (Wc : Arr2 512 16) (bc : Arr1 16) : Arr2 4096 16 := mmBias f Wc (row bc)

/-- Every row's maximum over the sixteen classes (the maximum with minus infinity of the reduction from minus infinity). -/
def rowMax16 (x : Arr2 4096 16) : Arr1 4096 :=
  maximumf (F := Ideal) (φ := .f32) (broadcastInDim (⟨1, ![4096]⟩ : Shape) ![] bc01_ok negInf0)
    (Host.reduce (FloatOps.maximumf (F := Ideal) (φ := .f32)) x negInf0 red16_ok sc_ok)

/-- The logits less their row's maximum. -/
def rShifted (l : Arr2 4096 16) : Arr2 4096 16 := fun i => l i - rowMax16 l (ix1 (i 0))

/-- The logarithm of every row's sum of exponentials, the sum starting from a written zero. -/
def rLse (z : Arr2 4096 16) : Arr2 4096 1 := fun i => Ideal.log (0 + ∑ c : Fin 16, Ideal.exp (z (ix2 (i 0) c)))

/-- The logarithmic softmax of every row. -/
def rLogSoftmax (l : Arr2 4096 16) : Arr2 4096 16 :=
  fun i => rShifted l i - rLse (rShifted l) (ix2 (i 0) (0 : Fin 1))

/-- The classifier over three views, given as arrays. -/
def rHead (hp hk hr : Arr2 4096 512) (Ww : Arr2 512 512) (bw batt q : Arr1 512) (Wc : Arr2 512 16) (bc : Arr1 16) :
    Arr2 4096 16 :=
  rLogSoftmax (rLogits (rFused hp hk hr (rBeta hp hk hr Ww bw batt q)) Wc bc)

/-- What the second program computes. -/
def refOut (feat : Arr2 4096 1024) (adj knn ppr : Arr2 4096 4096) (fused : Arr2 4096 1024)
    (Ws0 Wn0 : Arr2 1024 512) (bl0 : Arr0) (Ws1 Wn1 : Arr2 512 512) (bl1 : Arr0)
    (Wg : Arr2 1024 512) (bg : Arr1 512) (Wa : Arr2 1024 512) (ba : Arr1 512)
    (Ww : Arr2 512 512) (bw batt q : Arr1 512) (Wc : Arr2 512 16) (bc : Arr1 16) : Arr2 4096 16 :=
  rHead (rHp feat adj Ws0 Wn0 bl0 Ws1 Wn1 bl1) (hpKnn knn fused Wg bg) (hpPpr ppr feat Wa ba) Ww bw batt q Wc bc

end Cert.Spec

end
-- ==== Proof.KernelIdealH.HostStages.lean ====
/- What the host stretches of the kernel program leave in the buffers its regions read, at the ideal values, as the
   named stages of the specification.

   * The first stretch changes the format of nine argument arrays (no change of value at the ideal values); its four
     scaled weight matrices are read in the module after this one.
   * Three later stretches recast a vector of 512 entries as a matrix of one row (the biases of two products, and the
     attention bias, which is the sum of two vectors, and the query).
   * The last stretch recasts the classifier's bias as one row; its mixing weights (the softmax of the three score
     columns) are read in the module after this one.

   A buffer is read at the item where a region finds it by first moving the reading back, one item at a time, over the
   items that leave it unchanged, to the item that wrote it. -/
import proofs.«157173_j56882546868342_2_alg».proof.Proof.KernelIdealH.Regions
import proofs.«157173_j56882546868342_2_alg».proof.Proof.KernelIdealH.LibNary3
import proofs.«157173_j56882546868342_2_alg».proof.Proof.KernelIdealH.SpecNet
import Idealize.ShloMosaic.Lib.ValueIdx
import Idealize.ShloMosaic.Lib.Pipeline.Value
import Idealize.ShloMosaic.Lib.ValueLayout
import Idealize.ShloMosaic.PureOps.IdealRules
set_option maxRecDepth 16384
noncomputable section
namespace Cert.KernelIdeal.Gen
open Idealize.ShloMosaic Idealize.ShloMosaic.TcCoe Idealize.ShloMosaic.ValueIdx
open Idealize.ShloMosaic.StableHlo

/-! ## Moving a reading back over the items that leave the buffer unchanged -/

/-- Rewrites a reading `V<J> … r` to `V<J-1> … r` by the lemma saying item J-1 does not write `r` (the side condition,
    that `r` is not among the references the item writes, is decided), as long as one applies: it stops at the item that
    wrote `r`, or closes the goal at the launch contents. -/
macro "walk_back" : tactic =>
  `(tactic| repeat (first
      | rw [V19_of _ _ _ _ (by decide)] | rw [V18_of _ _ _ _ (by decide)] | rw [V17_of _ _ _ _ (by decide)]
      | rw [V16_of _ _ _ _ (by decide)] | rw [V15_of _ _ _ _ (by decide)] | rw [V14_of _ _ _ _ (by decide)]
      | rw [V13_of _ _ _ _ (by decide)] | rw [V12_of _ _ _ _ (by decide)] | rw [V11_of _ _ _ _ (by decide)]
      | rw [V10_of _ _ _ _ (by decide)] | rw [V9_of _ _ _ _ (by decide)] | rw [V8_of _ _ _ _ (by decide)]
      | rw [V7_of _ _ _ _ (by decide)] | rw [V6_of _ _ _ _ (by decide)] | rw [V5_of _ _ _ _ (by decide)]
      | rw [V4_of _ _ _ _ (by decide)] | rw [V3_of _ _ _ _ (by decide)] | rw [V2_of _ _ _ _ (by decide)]
      | rw [V1_of _ _ _ (by decide)]))

/-- The same, and then the item reached: a region's item holds what the region leaves (the update read at its own
    reference); the launch is closed by the rewriting itself. -/
macro "walk_home" : tactic =>
  `(tactic| (walk_back; first | done | rfl | exact Function.update_self ..))

/-- The operations of the last stretch read at their result buffers, the three-piece concatenate among them by its own
    lemma so that its three operands go on being read. -/
macro "results13" : tactic =>
  `(tactic| (simp only [after_cons, after_nil]
             repeat (first
               | rw [nullary_result] | rw [unary_result] | rw [binary_result] | rw [reshape_result]
               | rw [Cert.KernelIdeal.Lib.nary3_result]
               | (rw [nullary_result_ne]; rotate_left; decide)
               | (rw [unary_result_ne]; rotate_left; decide)
               | (rw [binary_result_ne]; rotate_left; decide)
               | (rw [reshape_result_ne]; rotate_left; decide)
               | (rw [nary_result_ne]; rotate_left; decide))))

variable (m : (ℓ : Loc nD τ sig) → Buf (Elt Ideal) ℓ) (outs : Outs (F := Ideal))

/-- The word both programs write for the constant one is the extended real 1. -/
theorem one_word : Ideal.ofBits .f32 0x3F800000#32 = 1 := IdealRules.sign_bit.ideal_onePat .f32

/-! ## The arguments a later stretch reads are still the launch contents when it starts -/

theorem V8_arg12 (c : Dev nD) : V8 m outs c main_arg12 = m ((c : Thread nD τ).loc main_arg12) := by walk_home
theorem V10_arg14 (c : Dev nD) : V10 m outs c main_arg14 = m ((c : Thread nD τ).loc main_arg14) := by walk_home
theorem V13_arg16 (c : Dev nD) : V13 m outs c main_arg16 = m ((c : Thread nD τ).loc main_arg16) := by walk_home
theorem V13_arg17 (c : Dev nD) : V13 m outs c main_arg17 = m ((c : Thread nD τ).loc main_arg17) := by walk_home
theorem V13_arg18 (c : Dev nD) : V13 m outs c main_arg18 = m ((c : Thread nD τ).loc main_arg18) := by walk_home
theorem V17_arg20 (c : Dev nD) : V17 m outs c main_arg20 = m ((c : Thread nD τ).loc main_arg20) := by walk_home
/-- The three score columns are what the three attention regions left. -/
theorem V17_v46 (c : Dev nD) : V17 m outs c main_v46 = outs 15 main_v46 c := by walk_home
theorem V17_v47 (c : Dev nD) : V17 m outs c main_v47 = outs 16 main_v47 c := by walk_home
theorem V17_v48 (c : Dev nD) : V17 m outs c main_v48 = outs 17 main_v48 c := by walk_home

/-! ## The first stretch: nine changes of format -/

theorem V1_v0 (c : Dev nD) : (V1 m c main_v0 : S4096x1024.Idx → EReal) = m ((c : Thread nD τ).loc main_arg0) := by
  dsimp only [V1, hostOps0]; after_results_simp; rfl
theorem V1_v1 (c : Dev nD) : (V1 m c main_v1 : S4096x4096.Idx → EReal) = m ((c : Thread nD τ).loc main_arg1) := by
  dsimp only [V1, hostOps0]; after_results_simp; rfl
theorem V1_v2 (c : Dev nD) : (V1 m c main_v2 : S4096x4096.Idx → EReal) = m ((c : Thread nD τ).loc main_arg2) := by
  dsimp only [V1, hostOps0]; after_results_simp; rfl
theorem V1_v3 (c : Dev nD) : (V1 m c main_v3 : S4096x4096.Idx → EReal) = m ((c : Thread nD τ).loc main_arg3) := by
  dsimp only [V1, hostOps0]; after_results_simp; rfl
theorem V1_v4 (c : Dev nD) : (V1 m c main_v4 : S4096x1024.Idx → EReal) = m ((c : Thread nD τ).loc main_arg4) := by
  dsimp only [V1, hostOps0]; after_results_simp; rfl
theorem V1_v5 (c : Dev nD) : (V1 m c main_v5 : S1024x512.Idx → EReal) = m ((c : Thread nD τ).loc main_arg11) := by
  dsimp only [V1, hostOps0]; after_results_simp; rfl
theorem V1_v6 (c : Dev nD) : (V1 m c main_v6 : S1024x512.Idx → EReal) = m ((c : Thread nD τ).loc main_arg13) := by
  dsimp only [V1, hostOps0]; after_results_simp; rfl
theorem V1_v7 (c : Dev nD) : (V1 m c main_v7 : S512x512.Idx → EReal) = m ((c : Thread nD τ).loc main_arg15) := by
  dsimp only [V1, hostOps0]; after_results_simp; rfl
theorem V1_v8 (c : Dev nD) : (V1 m c main_v8 : S512x16.Idx → EReal) = m ((c : Thread nD τ).loc main_arg19) := by
  dsimp only [V1, hostOps0]; after_results_simp; rfl

/-! ## A vector recast as one row

Entry (u, j) of the row is the vector's entry j, whatever the unit coordinate u. -/

/-- The recast of a vector of `n` entries to one row is the specification's `row`. -/
theorem shapeCast_row {n : ℕ} (v : (⟨1, ![n]⟩ : Shape).Idx → EReal) (h : (⟨1, ![n]⟩ : Shape).ShapeCasts ⟨2, ![1, n]⟩) :
    shapeCast ⟨2, ![1, n]⟩ v h = Cert.Spec.row v := by
  funext i
  obtain ⟨u, j, rfl⟩ : ∃ (u : Fin 1) (j : Fin n), i = ix2 u j := ⟨i 0, i 1, eq_ix2 i⟩
  exact shapeCast_a_1a_apply v h u j

theorem V9_v38 (c : Dev nD) : (V9 m outs c main_v38 : S1x512.Idx → EReal) = Cert.Spec.row (n := 512) (m ((c : Thread nD τ).loc main_arg12)) := by
  dsimp only [V9, hostOps7]; after_results
  rw [V8_arg12]
  exact shapeCast_row (n := 512) _ _

theorem V11_v40 (c : Dev nD) : (V11 m outs c main_v40 : S1x512.Idx → EReal) = Cert.Spec.row (n := 512) (m ((c : Thread nD τ).loc main_arg14)) := by
  dsimp only [V11, hostOps8]; after_results
  rw [V10_arg14]
  exact shapeCast_row (n := 512) _ _

theorem V14_v44 (c : Dev nD) : (V14 m outs c main_v44 : S1x512.Idx → EReal)
    = Cert.Spec.biasRow (m ((c : Thread nD τ).loc main_arg16)) (m ((c : Thread nD τ).loc main_arg17)) := by
  dsimp only [V14, hostOps10]; after_results
  rw [V13_arg16, V13_arg17]
  exact shapeCast_row (n := 512) _ _

theorem V14_v45 (c : Dev nD) : (V14 m outs c main_v45 : S1x512.Idx → EReal) = Cert.Spec.row (n := 512) (m ((c : Thread nD τ).loc main_arg18)) := by
  dsimp only [V14, hostOps10]; after_results
  rw [V13_arg18]
  exact shapeCast_row (n := 512) _ _

/-! ## The last stretch: the classifier's bias row -/

theorem V18_v61 (c : Dev nD) : (V18 m outs c main_v61 : S1x16.Idx → EReal) = Cert.Spec.row (n := 16) (m ((c : Thread nD τ).loc main_arg20)) := by
  dsimp only [V18, hostOps13]; results13
  rw [V17_arg20]
  exact shapeCast_row (n := 16) _ _

end Cert.KernelIdeal.Gen

end
-- ==== Proof.KernelIdealH.HostGates.lean ====
/- The two host stages of the kernel program that compute, at the ideal values: the four scaled weight matrices of
   the first stretch, and the mixing weights of the last.

   * A scaled weight matrix is a weight matrix multiplied entry by entry by the spread of a rank-0 array holding a
     layer's gate 1 / (1 + e^(-bl)), or one minus it. The spread of a rank-0 array reads its one entry at every index,
     and the word written for the constant in the gate is the number one, so entry i is W i · g (or W i · (1 - g)).
     This is stated once over arrays of literal shapes and used for each of the four buffers.
   * The mixing weights are the softmax of every row of the three score columns set side by side. The stretch's
     operations after the concatenate (row maximum, exponentials of the differences, row sums, quotient) are the
     specification's softmax operation for operation, which is seen by comparing the two at a variable array; the
     concatenate's three pieces are the arrays the three attention regions left. -/
import proofs.«157173_j56882546868342_2_alg».proof.Proof.KernelIdealH.HostStages
import proofs.«157173_j56882546868342_2_alg».proof.Proof.KernelIdealH.LibNary3
import proofs.«157173_j56882546868342_2_alg».proof.Proof.KernelIdealH.SpecNet
import Idealize.ShloMosaic.Lib.ValueIdx
import Idealize.ShloMosaic.Lib.Pipeline.Value
import Idealize.ShloMosaic.PureOps.IdealRules
set_option maxRecDepth 16384
noncomputable section
namespace Cert.KernelIdeal.Gen
open Idealize.ShloMosaic Idealize.ShloMosaic.TcCoe Idealize.ShloMosaic.ValueIdx
open Idealize.ShloMosaic.StableHlo

variable (m : (ℓ : Loc nD τ sig) → Buf (Elt Ideal) ℓ) (outs : Outs (F := Ideal))

/-! ## A weight matrix scaled by a layer's gate, or by one minus it

Stated once over arrays of literal shapes: entry i is the weight's entry i times the scalar, because the spread of a
rank-0 array reads its one entry everywhere, and the word the programs write for the constant is the number one. -/

/-- W ∘ g, g = 1 / (1 + e^(-bl)), as the first stretch computes it. -/
theorem scaled_by_gate {a b : ℕ} (W : Cert.Spec.Arr2 a b) (bl : Cert.Spec.Arr0)
    (hb : (⟨0, ![]⟩ : Shape).BroadcastsInDim ⟨2, ![a, b]⟩ (![] : Fin 0 → Fin 2)) (hlt : FTy.bf16.bits < FTy.f32.bits) :
    (truncf (F := Ideal) .bf16 (mulf (F := Ideal) (φ := .f32) W
        (broadcastInDim (⟨2, ![a, b]⟩ : Shape) ![] hb
          (Host.divf (F := Ideal) (φ := .f32) (constant (F := Ideal) (⟨0, ![]⟩ : Shape) .f32 0x3F800000#32)
            (addf (F := Ideal) (φ := .f32) (constant (F := Ideal) (⟨0, ![]⟩ : Shape) .f32 0x3F800000#32)
              (Host.exp (F := Ideal) (φ := .f32) (Host.negf (F := Ideal) (φ := .f32) bl)))))) hlt : Cert.Spec.Arr2 a b)
      = Cert.Spec.scaleW W (Cert.Spec.gate bl) := by
  funext i
  rw [truncf_apply, mulf_apply, broadcastInDim_apply (![] : Fin 0 → Fin 2) hb _ i ix0 (fun a => a.elim0)]
  show W i * Ideal.div (Ideal.ofBits .f32 0x3F800000#32) (Ideal.ofBits .f32 0x3F800000#32 + Ideal.exp (-(bl ix0))) = _
  rw [one_word]; rfl

/-- W ∘ (1 - g), as the first stretch computes it. -/
theorem scaled_by_one_minus_gate {a b : ℕ} (W : Cert.Spec.Arr2 a b) (bl : Cert.Spec.Arr0)
    (hb : (⟨0, ![]⟩ : Shape).BroadcastsInDim ⟨2, ![a, b]⟩ (![] : Fin 0 → Fin 2)) (hlt : FTy.bf16.bits < FTy.f32.bits) :
    (truncf (F := Ideal) .bf16 (mulf (F := Ideal) (φ := .f32) W
        (broadcastInDim (⟨2, ![a, b]⟩ : Shape) ![] hb
          (subf (F := Ideal) (φ := .f32) (constant (F := Ideal) (⟨0, ![]⟩ : Shape) .f32 0x3F800000#32)
            (Host.divf (F := Ideal) (φ := .f32) (constant (F := Ideal) (⟨0, ![]⟩ : Shape) .f32 0x3F800000#32)
              (addf (F := Ideal) (φ := .f32) (constant (F := Ideal) (⟨0, ![]⟩ : Shape) .f32 0x3F800000#32)
                (Host.exp (F := Ideal) (φ := .f32) (Host.negf (F := Ideal) (φ := .f32) bl))))))) hlt : Cert.Spec.Arr2 a b)
      = Cert.Spec.scaleW W (1 - Cert.Spec.gate bl) := by
  funext i
  rw [truncf_apply, mulf_apply, broadcastInDim_apply (![] : Fin 0 → Fin 2) hb _ i ix0 (fun a => a.elim0)]
  show W i * (Ideal.ofBits .f32 0x3F800000#32
      - Ideal.div (Ideal.ofBits .f32 0x3F800000#32) (Ideal.ofBits .f32 0x3F800000#32 + Ideal.exp (-(bl ix0)))) = _
  rw [one_word]; rfl

theorem V1_v19 (c : Dev nD) : (V1 m c main_v19 : S1024x512.Idx → EReal)
    = Cert.Spec.scaleW (a := 1024) (b := 512) (m ((c : Thread nD τ).loc main_arg5)) (Cert.Spec.gate (m ((c : Thread nD τ).loc main_arg7))) := by
  dsimp only [V1, hostOps0]; after_results_simp
  exact scaled_by_gate (a := 1024) (b := 512) _ _ _ _

theorem V1_v23 (c : Dev nD) : (V1 m c main_v23 : S1024x512.Idx → EReal)
    = Cert.Spec.scaleW (a := 1024) (b := 512) (m ((c : Thread nD τ).loc main_arg6)) (1 - Cert.Spec.gate (m ((c : Thread nD τ).loc main_arg7))) := by
  dsimp only [V1, hostOps0]; after_results_simp
  exact scaled_by_one_minus_gate (a := 1024) (b := 512) _ _ _ _

theorem V1_v26 (c : Dev nD) : (V1 m c main_v26 : S512x512.Idx → EReal)
    = Cert.Spec.scaleW (a := 512) (b := 512) (m ((c : Thread nD τ).loc main_arg8)) (Cert.Spec.gate (m ((c : Thread nD τ).loc main_arg10))) := by
  dsimp only [V1, hostOps0]; after_results_simp
  exact scaled_by_gate (a := 512) (b := 512) _ _ _ _

theorem V1_v30 (c : Dev nD) : (V1 m c main_v30 : S512x512.Idx → EReal)
    = Cert.Spec.scaleW (a := 512) (b := 512) (m ((c : Thread nD τ).loc main_arg9)) (1 - Cert.Spec.gate (m ((c : Thread nD τ).loc main_arg10))) := by
  dsimp only [V1, hostOps0]; after_results_simp
  exact scaled_by_one_minus_gate (a := 512) (b := 512) _ _ _ _

/-! ## The mixing weights

The last stretch's chain after the concatenate — every row's maximum, the exponentials of the entries less it, their row
sums, the quotient — is the specification's softmax, operation for operation; compared at a variable array. -/

theorem softmax_chain (x : Cert.Spec.Arr2 4096 3)
    (hr : (⟨2, ![4096, 3]⟩ : Shape).ReducesTo [1] ⟨1, ![4096]⟩) (hs : 0 < (⟨0, ![]⟩ : Shape).numel)
    (h01 : (⟨0, ![]⟩ : Shape).BroadcastsInDim ⟨1, ![4096]⟩ (![] : Fin 0 → Fin 1))
    (h12 : (⟨1, ![4096]⟩ : Shape).BroadcastsInDim ⟨2, ![4096, 1]⟩ (![0] : Fin 1 → Fin 2))
    (h23 : (⟨2, ![4096, 1]⟩ : Shape).BroadcastsInDim ⟨2, ![4096, 3]⟩ (![0, 1] : Fin 2 → Fin 2)) :
    (Host.divf (F := Ideal) (φ := .f32)
        (Host.exp (F := Ideal) (φ := .f32) (subf (F := Ideal) (φ := .f32) x
          (broadcastInDim (⟨2, ![4096, 3]⟩ : Shape) ![0, 1] h23 (broadcastInDim (⟨2, ![4096, 1]⟩ : Shape) ![0] h12
            (maximumf (F := Ideal) (φ := .f32)
              (broadcastInDim (⟨1, ![4096]⟩ : Shape) ![] h01 (constant (F := Ideal) (⟨0, ![]⟩ : Shape) .f32 0xFF800000#32))
              (Host.reduce (FloatOps.maximumf (F := Ideal) (φ := .f32)) x
                (constant (F := Ideal) (⟨0, ![]⟩ : Shape) .f32 0xFF800000#32) hr hs))))))
        (broadcastInDim (⟨2, ![4096, 3]⟩ : Shape) ![0, 1] h23 (broadcastInDim (⟨2, ![4096, 1]⟩ : Shape) ![0] h12
          (Host.reduceAdd (F := Ideal) (φ := .f32)
            (Host.exp (F := Ideal) (φ := .f32) (subf (F := Ideal) (φ := .f32) x
              (broadcastInDim (⟨2, ![4096, 3]⟩ : Shape) ![0, 1] h23 (broadcastInDim (⟨2, ![4096, 1]⟩ : Shape) ![0] h12
                (maximumf (F := Ideal) (φ := .f32)
                  (broadcastInDim (⟨1, ![4096]⟩ : Shape) ![] h01 (constant (F := Ideal) (⟨0, ![]⟩ : Shape) .f32 0xFF800000#32))
                  (Host.reduce (FloatOps.maximumf (F := Ideal) (φ := .f32)) x
                    (constant (F := Ideal) (⟨0, ![]⟩ : Shape) .f32 0xFF800000#32) hr hs))))))
            (constant (F := Ideal) (⟨0, ![]⟩ : Shape) .f32 0x00000000#32) hr hs))) : Cert.Spec.Arr2 4096 3)
      = Cert.Spec.softmax3 x := rfl

/-- The three-reference result lemma in the form a simplifier pass can use (the result reference not used as an index key). -/
theorem nary3_result' {x a b y : Ref sig .tc}
    (f : ((k : Fin 3) → ((![x, a, b] : Fin 3 → Ref sig .tc) k).ty.Contents (Elt Ideal)) → y.ty.Contents (Elt Ideal)) (hxs hy)
    (F : Valuation τ sig (Elt Ideal)) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) :=
  Cert.KernelIdeal.Lib.nary3_result f hxs hy F

/-- The last stretch's operations read at their result buffers in ONE pass, each shared intermediate visited once. -/
macro "results13_once" : tactic =>
  `(tactic| (simp (disch := decide) only [after_cons, after_nil,
      nullary_result', unary_result', binary_result', reshape_result', nary3_result',
      nullary_result_ne', unary_result_ne', binary_result_ne', reshape_result_ne', nary_result_ne']))

theorem V18_v60 (c : Dev nD) : (V18 m outs c main_v60 : S4096x3.Idx → EReal)
    = Cert.Spec.softmax3 (Cert.Spec.cat3 (outs 15 main_v46 c) (outs 16 main_v47 c) (outs 17 main_v48 c)) := by
  dsimp only [V18, hostOps13]; results13_once
  rw [V17_v46, V17_v47, V17_v48]
  refine (softmax_chain _ _ _ _ _ _).trans ?_
  refine congrArg Cert.Spec.softmax3 ?_
  rfl

end Cert.KernelIdeal.Gen

end
-- ==== Proof.KernelIdealH.Readings.lean ====
/- Each input buffer of a region, read at the item where the region starts: the reading is moved back, one item at a
   time, over the items that do not write the buffer, to the item that wrote it — a region (then the buffer holds what
   that region leaves), the first host stretch (then it holds that stretch's result), or a later stretch's own result
   buffers, which the next regions find unchanged. The contents the regions leave are arbitrary here; the readings hold
   for all of them. -/
import proofs.«157173_j56882546868342_2_alg».proof.Proof.KernelIdealH.HostStages
set_option maxRecDepth 16384
noncomputable section
namespace Cert.KernelIdeal.Gen
open Idealize.ShloMosaic Idealize.ShloMosaic.TcCoe

variable (m : (ℓ : Loc nD τ sig) → Buf (Elt Ideal) ℓ)

section Readings
variable (o : Outs (F := Ideal))

-- region 1 (entry: after item 1)
theorem V2_v1 (c : Dev nD) : V2 m o c main_v1 = V1 m c main_v1 := by walk_home
theorem V2_v0 (c : Dev nD) : V2 m o c main_v0 = V1 m c main_v0 := by walk_home
-- region 2 (entry: after item 2)
theorem V3_v32 (c : Dev nD) : V3 m o c main_v32 = o 3 main_v32 c := by walk_home
theorem V3_v23 (c : Dev nD) : V3 m o c main_v23 = V1 m c main_v23 := by walk_home
theorem V3_v31 (c : Dev nD) : V3 m o c main_v31 = o 2 main_v31 c := by walk_home
-- region 3
theorem V4_v33 (c : Dev nD) : V4 m o c main_v33 = o 4 main_v33 c := by walk_home
theorem V4_v26 (c : Dev nD) : V4 m o c main_v26 = V1 m c main_v26 := by walk_home
-- region 4
theorem V5_v1 (c : Dev nD) : V5 m o c main_v1 = V1 m c main_v1 := by walk_home
theorem V5_v33 (c : Dev nD) : V5 m o c main_v33 = o 4 main_v33 c := by walk_home
-- region 5
theorem V6_v35 (c : Dev nD) : V6 m o c main_v35 = o 6 main_v35 c := by walk_home
theorem V6_v30 (c : Dev nD) : V6 m o c main_v30 = V1 m c main_v30 := by walk_home
theorem V6_v34 (c : Dev nD) : V6 m o c main_v34 = o 5 main_v34 c := by walk_home
-- region 6
theorem V7_v4 (c : Dev nD) : V7 m o c main_v4 = V1 m c main_v4 := by walk_home
theorem V7_v5 (c : Dev nD) : V7 m o c main_v5 = V1 m c main_v5 := by walk_home
-- region 7 (entry: after the stretch that writes the bias row main_v38)
theorem V9_v2 (c : Dev nD) : V9 m o c main_v2 = V1 m c main_v2 := by walk_home
theorem V9_v37 (c : Dev nD) : V9 m o c main_v37 = o 8 main_v37 c := by walk_home
-- region 8
theorem V11_v0 (c : Dev nD) : V11 m o c main_v0 = V1 m c main_v0 := by walk_home
theorem V11_v6 (c : Dev nD) : V11 m o c main_v6 = V1 m c main_v6 := by walk_home
-- region 9
theorem V12_v3 (c : Dev nD) : V12 m o c main_v3 = V1 m c main_v3 := by walk_home
theorem V12_v41 (c : Dev nD) : V12 m o c main_v41 = o 12 main_v41 c := by walk_home
-- regions 10, 11, 12 (the attention weights and the two rows are the same buffers for all three)
theorem V14_v36 (c : Dev nD) : V14 m o c main_v36 = o 7 main_v36 c := by walk_home
theorem V14_v7 (c : Dev nD) : V14 m o c main_v7 = V1 m c main_v7 := by walk_home
theorem V15_v39 (c : Dev nD) : V15 m o c main_v39 = o 10 main_v39 c := by walk_home
theorem V15_v7 (c : Dev nD) : V15 m o c main_v7 = V1 m c main_v7 := by walk_home
theorem V15_v44 (c : Dev nD) : V15 m o c main_v44 = V14 m o c main_v44 := by walk_home
theorem V15_v45 (c : Dev nD) : V15 m o c main_v45 = V14 m o c main_v45 := by walk_home
theorem V16_v42 (c : Dev nD) : V16 m o c main_v42 = o 13 main_v42 c := by walk_home
theorem V16_v7 (c : Dev nD) : V16 m o c main_v7 = V1 m c main_v7 := by walk_home
theorem V16_v44 (c : Dev nD) : V16 m o c main_v44 = V14 m o c main_v44 := by walk_home
theorem V16_v45 (c : Dev nD) : V16 m o c main_v45 = V14 m o c main_v45 := by walk_home
-- region 13
theorem V18_v36 (c : Dev nD) : V18 m o c main_v36 = o 7 main_v36 c := by walk_home
theorem V18_v39 (c : Dev nD) : V18 m o c main_v39 = o 10 main_v39 c := by walk_home
theorem V18_v42 (c : Dev nD) : V18 m o c main_v42 = o 13 main_v42 c := by walk_home
theorem V18_v8 (c : Dev nD) : V18 m o c main_v8 = V1 m c main_v8 := by walk_home

end Readings

end Cert.KernelIdeal.Gen

end
-- ==== Proof.KernelIdealH.Reg0Value.lean ====
/- The VALUE of region 0 over the extended reals: its result array main_v31 ends holding the matrix product
   main_v0 · main_v19. The contraction's 1024 indices are split into two blocks of 512; the grid point (i, j, k) adds
   the product of the blocks (i, k) and (k, j) into an accumulator, and the point with k = 1 writes the accumulator
   out. First what each control case of the body leaves, as the body's payloads of the blocks (generic in the float
   model); then those payloads read at an index over the extended reals, where the block product into a zero
   accumulator is a plain sum and rounding is the identity; then the two points of one output block chained; then
   the written blocks, which cover the result array. -/
import proofs.«157173_j56882546868342_2_alg».proof.Proof.KernelIdealH.Reg0
import proofs.«157173_j56882546868342_2_alg».proof.Proof.KernelIdealH.Spec
import Idealize.ShloMosaic.Lib.Pipeline.Value
import Idealize.ShloMosaic.PureOps.Ideal.Laws
import Idealize.ShloMosaic.Lib.ValueIdx
import Idealize.ShloMosaic.Lib.Tactic
set_option maxRecDepth 16384
noncomputable section
namespace Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat)

theorem hz0 : (![0, 0] : Fin 2 → Nat) = fun _ => 0 := funext fun a => by fin_cases a <;> rfl

/-! ## What the runs found, as the payloads of the blocks -/

section Pieces
variable {F : FTy → Type} [FloatOps F]

/-- Case A leaves in the accumulator the update of the zero block by the point's blocks: of its two whole stores the
    later one covers, and its load of the accumulator reads back the reset. -/
theorem soutA0_eq (c : Dev nD) (i : grid0.Coords) (arg3 : Memref sig .tc .vmem S1024x512 .bf16) (harg3 : arg3.IsWhole) (arg4 : Memref sig .tc .vmem S512x512 .bf16) (harg4 : arg4.IsWhole) (arg5 : Memref sig .tc .vmem S1024x512 .bf16) (harg5 : arg5.IsWhole) (arg6 : Memref sig .tc .vmem S1024x512 .f32) (harg6 : arg6.IsWhole) (hc0 : cond0_0 i) (hc1 : ¬cond0_1 i)
    (x0 : Vec F S1024x512 .bf16) (x1 : Vec F S512x512 .bf16) :
    sout0_A_0 c i arg3 harg3 arg4 harg4 arg5 harg5 arg6 harg6 hc0 hc1 x0 x1 = k0_pay2 k0_pay1 x0 x1 := by
  unfold sout0_A_0
  rw [View.read_writes_eq_canon _ _ _ (scover0_A_0 c i arg3 harg3 arg4 harg4 arg5 harg5 arg6 harg6 hc0 hc1 x0 x1)]
  unfold kernelRun0_A
  dsimp only
  sl_unfold_words
  rw [View.canon_cons_unit_zero (S := S1024x512) hz0, View.readCov_unit_zero (S := S1024x512) _ hz0]
  simp only [View.readAt_eq_ld, harg3.read_unread, harg4.read_unread, View.ld_unit_zero (S := S1024x512) hz0, View.ld_unit_zero (S := S512x512) hz0]

/-- Case C leaves in the accumulator the update of what it found by the point's blocks. -/
theorem soutC0_eq (c : Dev nD) (i : grid0.Coords) (arg3 : Memref sig .tc .vmem S1024x512 .bf16) (harg3 : arg3.IsWhole) (arg4 : Memref sig .tc .vmem S512x512 .bf16) (harg4 : arg4.IsWhole) (arg5 : Memref sig .tc .vmem S1024x512 .bf16) (harg5 : arg5.IsWhole) (arg6 : Memref sig .tc .vmem S1024x512 .f32) (harg6 : arg6.IsWhole) (hc0 : ¬cond0_0 i) (hc1 : cond0_1 i)
    (x0 : Vec F S1024x512 .bf16) (x1 : Vec F S512x512 .bf16) (xs0 : Vec F S1024x512 .f32) :
    sout0_C_0 c i arg3 harg3 arg4 harg4 arg5 harg5 arg6 harg6 hc0 hc1 x0 x1 xs0 = k0_pay2 xs0 x0 x1 := by
  unfold sout0_C_0
  rw [View.read_writes_eq_canon _ _ _ (scover0_C_0 c i arg3 harg3 arg4 harg4 arg5 harg5 arg6 harg6 hc0 hc1 x0 x1 xs0)]
  unfold kernelRun0_C
  dsimp only
  try sl_unfold_words
  rw [View.canon_unit_zero (S := S1024x512) hz0]
  simp only [View.readAt_eq_ld, harg3.read_unread, harg4.read_unread, harg6.read_unread, View.ld_unit_zero (S := S1024x512) hz0, View.ld_unit_zero (S := S512x512) hz0]

/-- Case C leaves in the output's buffer that update, rounded: its load of the accumulator reads back the store. -/
theorem outC0_eq (c : Dev nD) (i : grid0.Coords) (arg3 : Memref sig .tc .vmem S1024x512 .bf16) (harg3 : arg3.IsWhole) (arg4 : Memref sig .tc .vmem S512x512 .bf16) (harg4 : arg4.IsWhole) (arg5 : Memref sig .tc .vmem S1024x512 .bf16) (harg5 : arg5.IsWhole) (arg6 : Memref sig .tc .vmem S1024x512 .f32) (harg6 : arg6.IsWhole) (hc0 : ¬cond0_0 i) (hc1 : cond0_1 i)
    (x0 : Vec F S1024x512 .bf16) (x1 : Vec F S512x512 .bf16) (xs0 : Vec F S1024x512 .f32) :
    out0_C_2 c i arg3 harg3 arg4 harg4 arg5 harg5 arg6 harg6 hc0 hc1 x0 x1 xs0 = k0_pay3 (k0_pay2 xs0 x0 x1) := by
  unfold out0_C_2
  rw [View.read_writes_eq_canon _ _ _ (cover0_C_2 c i arg3 harg3 arg4 harg4 arg5 harg5 arg6 harg6 hc0 hc1 x0 x1 xs0)]
  unfold kernelRun0_C
  dsimp only
  try sl_unfold_words
  rw [View.canon_unit_zero (S := S1024x512) hz0, View.readCov_unit_zero (S := S1024x512) _ hz0]
  simp only [View.readAt_eq_ld, harg3.read_unread, harg4.read_unread, harg6.read_unread, View.ld_unit_zero (S := S1024x512) hz0, View.ld_unit_zero (S := S512x512) hz0]

end Pieces

/-! ## The payloads, opened -/

section Payloads
variable {F : FTy → Type} [FloatOps F]

/-- The accumulator's update: what it held plus the block product into a zero accumulator. -/
theorem pay0_2_eq (v3 : Vec F S1024x512 .f32) (v4 : Vec F S1024x512 .bf16) (v6 : Vec F S512x512 .bf16) :
    k0_pay2 v3 v4 v6 = addf v3 (matmul dot_S1024x512_S512x512_S1024x512_1_0_0_1_n_n none v4 v6 (constant S1024x512 .f32 0x00000000#32)) := by
  unfold k0_pay2
  refine (shapeCast_self _ _).trans ?_
  refine congrArg (addf v3) ?_
  exact congrArg₂ (fun a b => matmul dot_S1024x512_S512x512_S1024x512_1_0_0_1_n_n none a b (constant S1024x512 .f32 0x00000000#32)) (shapeCast_self _ _) (shapeCast_self _ _)

/-- The reset: the zero block. -/
theorem pay0_1_eq : (k0_pay1 : FVec F S1024x512 .f32) = broadcast S1024x512 (Scalar.ofBits .f32 0x00000000#32) := by
  unfold k0_pay1
  exact shapeCast_self _ _

end Payloads

/-! ## The payloads at an index, over the extended reals -/

/-- The contraction of the block product runs over the 512 columns of the left block. -/
theorem pay0_2_apply (v3 : Vec Ideal S1024x512 .f32) (v4 : Vec Ideal S1024x512 .bf16) (v6 : Vec Ideal S512x512 .bf16)
    (r : Fin 1024) (j : Fin 512) :
    k0_pay2 (F := Ideal) v3 v4 v6 (ix2 r j) = v3 (ix2 r j) + ∑ k : Fin 512, v4 (ix2 r k) * v6 (ix2 k j) := by
  rw [pay0_2_eq]
  refine (congrArg (v3 (ix2 r j) + ·) (Ideal.matmul_constant_zero_apply dot_S1024x512_S512x512_S1024x512_1_0_0_1_n_n none v4 v6 (ix2 r j))).trans ?_
  rw [← Equiv.sum_comp (contrEquiv1 dot_S1024x512_S512x512_S1024x512_1_0_0_1_n_n 512 rfl rfl).symm]
  refine congrArg (v3 (ix2 r j) + ·) (Finset.sum_congr rfl fun k _ => ?_)
  have c2 := contrEquiv1_symm_val dot_S1024x512_S512x512_S1024x512_1_0_0_1_n_n 512 rfl rfl k
  have l2 : (dot_S1024x512_S512x512_S1024x512_1_0_0_1_n_n).lhsIdx (ix2 r j) ((contrEquiv1 dot_S1024x512_S512x512_S1024x512_1_0_0_1_n_n 512 rfl rfl).symm k) = ix2 r k := by
    funext ax; apply Fin.ext
    match ax with
    | ⟨0, _⟩ => simp [DotDims.lhsIdx, dot_S1024x512_S512x512_S1024x512_1_0_0_1_n_n]; rfl
    | ⟨1, _⟩ => simp [DotDims.lhsIdx, dot_S1024x512_S512x512_S1024x512_1_0_0_1_n_n]; exact c2
  have r2 : (dot_S1024x512_S512x512_S1024x512_1_0_0_1_n_n).rhsIdx (ix2 r j) ((contrEquiv1 dot_S1024x512_S512x512_S1024x512_1_0_0_1_n_n 512 rfl rfl).symm k) = ix2 k j := by
    funext ax; apply Fin.ext
    match ax with
    | ⟨0, _⟩ => simp [DotDims.rhsIdx, dot_S1024x512_S512x512_S1024x512_1_0_0_1_n_n]; exact c2
    | ⟨1, _⟩ => simp [DotDims.rhsIdx, dot_S1024x512_S512x512_S1024x512_1_0_0_1_n_n]; rfl
  rw [l2, r2]

theorem pay0_1_apply (i : S1024x512.Idx) : (k0_pay1 : FVec Ideal S1024x512 .f32) i = 0 := by
  rw [pay0_1_eq]
  show Ideal.ofBits .f32 0x00000000#32 = 0
  exact Ideal.ofBits_zero_f32

/-- Rounding to the output's element type changes nothing over the extended reals. -/
theorem pay0_3_apply (v16 : Vec Ideal S1024x512 .f32) (i : S1024x512.Idx) : k0_pay3 (F := Ideal) v16 i = v16 i := rfl

/-! ## A sum over 1024 indices as two sums over 512 -/

theorem sum_halves0 (f : Fin 1024 → EReal) :
    ∑ k : Fin 1024, f k = (∑ k : Fin 512, f ⟨k.val, by omega⟩) + ∑ k : Fin 512, f ⟨512 + k.val, by omega⟩ :=
  Fin.sum_univ_add (a := 512) (b := 512) f

/-! ## The arrays and the blocks, at their literal types -/

variable (V : (c : Dev nD) → (b : Ref sig .tc) → Buf (Elt Ideal) ((c : Thread nD τ).loc b))

/-- The left operand, 4096 × 1024. -/
abbrev larr0 (c : Dev nD) : Cert.Spec.Arr2 4096 1024 := V c main_v0
/-- The right operand, 1024 × 512. -/
abbrev rarr0 (c : Dev nD) : Cert.Spec.Arr2 1024 512 := V c main_v19
/-- The left operand's block at point t: rows 1024·(t/2) …, columns 512·(t%2) …. -/
abbrev lblk0 (c : Dev nD) (t : Fin cfg0.N) : Vec Ideal S1024x512 .bf16 := iblk0 V c 0 t
/-- The right operand's block at point t: rows 512·(t%2) …, all 512 columns. -/
abbrev rblk0 (c : Dev nD) (t : Fin cfg0.N) : Vec Ideal S512x512 .bf16 := iblk0 V c 1 t

/-- The block indices of the three windows at a point, from the grid coordinates (i, j, k) = (t / 2, 0, t % 2). -/
theorem idx0_0 (t : Fin cfg0.N) : win0_0.index t 0 = t.val / 2 ∧ win0_0.index t 1 = t.val % 2 := by
  rcases fin_N0 t with rfl | rfl | rfl | rfl | rfl | rfl | rfl | rfl <;> decide +kernel
theorem idx0_1 (t : Fin cfg0.N) : win0_1.index t 0 = t.val % 2 ∧ win0_1.index t 1 = 0 := by
  rcases fin_N0 t with rfl | rfl | rfl | rfl | rfl | rfl | rfl | rfl <;> decide +kernel
theorem idx0_2 (t : Fin cfg0.N) : win0_2.index t 0 = t.val / 2 ∧ win0_2.index t 1 = 0 := by
  rcases fin_N0 t with rfl | rfl | rfl | rfl | rfl | rfl | rfl | rfl <;> decide +kernel

/-- An entry of the left block is the left operand's entry at the block's offset. -/
theorem lblk0_apply (c : Dev nD) (t : Fin cfg0.N) (r : Fin 1024) (k : Fin 512) (R : Fin 4096) (K : Fin 1024)
    (hR : R.val = 1024 * (t.val / 2) + r.val) (hK : K.val = 512 * (t.val % 2) + k.val) :
    lblk0 V c t (ix2 r k) = larr0 V c (ix2 R K) := by
  have hi := idx0_0 t
  unfold lblk0 iblk0
  rw [View.read_apply]
  show V c main_v0 _ = V c main_v0 _
  congr 1
  funext a
  apply Fin.ext
  match a with
  | ⟨0, _⟩ => show win0_0.index t 0 * 1024 + 1 * r.val = R.val; rw [hi.1, hR]; omega
  | ⟨1, _⟩ => show win0_0.index t 1 * 512 + 1 * k.val = K.val; rw [hi.2, hK]; omega

/-- An entry of the right block is the right operand's entry at the block's offset. -/
theorem rblk0_apply (c : Dev nD) (t : Fin cfg0.N) (k : Fin 512) (j : Fin 512) (K : Fin 1024)
    (hK : K.val = 512 * (t.val % 2) + k.val) :
    rblk0 V c t (ix2 k j) = rarr0 V c (ix2 K j) := by
  have hi := idx0_1 t
  unfold rblk0 iblk0
  rw [View.read_apply]
  show V c main_v19 _ = V c main_v19 _
  congr 1
  funext a
  apply Fin.ext
  match a with
  | ⟨0, _⟩ => show win0_1.index t 0 * 512 + 1 * k.val = K.val; rw [hi.1, hK]; omega
  | ⟨1, _⟩ => show win0_1.index t 1 * 512 + 1 * j.val = j.val; rw [hi.2]; omega

/-! ## The accumulation over the two points of one output block -/

/-- After an even point the accumulator holds the zero block plus the first block product. -/
theorem acc0_even (c : Dev nD) (n : ℕ) (hn : n < cfg0.N) (h0 : n % 2 = 0) :
    (outsAt0 V c n hn).2 = k0_pay2 k0_pay1 (lblk0 V c ⟨n, hn⟩) (rblk0 V c ⟨n, hn⟩) := by
  rw [show outsAt0 V c n hn = _ from outsAt0_A V c ⟨n, hn⟩ h0]
  dsimp only
  exact soutA0_eq (F := Ideal) c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) scM0_0 (Memref.isWhole_whole _) (hA0 ⟨n, hn⟩ h0).1 (hA0 ⟨n, hn⟩ h0).2 (iblk0 V c 0 ⟨n, hn⟩) (iblk0 V c 1 ⟨n, hn⟩)

/-- After an odd point the output's buffer holds, rounded, that plus the second block product. -/
theorem out0_odd (c : Dev nD) (t : Fin cfg0.N) (h1 : t.val % 2 = 1) :
    (outsAt0 V c t.val t.isLt).1
      = k0_pay3 (k0_pay2 (k0_pay2 k0_pay1 (lblk0 V c ⟨t.val - 1, Nat.lt_of_le_of_lt (Nat.sub_le _ _) t.isLt⟩) (rblk0 V c ⟨t.val - 1, Nat.lt_of_le_of_lt (Nat.sub_le _ _) t.isLt⟩))
          (lblk0 V c t) (rblk0 V c t)) := by
  have h0 : ¬t.val % 2 = 0 := by omega
  rw [outsAt0_C V c t h0]
  dsimp only
  rw [acc0_even V c (t.val - 1) (Nat.lt_of_le_of_lt (Nat.sub_le _ _) t.isLt) (by omega)]
  exact outC0_eq (F := Ideal) c (grid0.coords t) (ms0_0 t) (hs0_0 t) (ms0_1 t) (hs0_1 t) (ms0_2 t) (hs0_2 t) scM0_0 (Memref.isWhole_whole _) (hC0 t h0).1 (hC0 t h0).2 (iblk0 V c 0 t) (iblk0 V c 1 t)
    (k0_pay2 k0_pay1 (lblk0 V c ⟨t.val - 1, Nat.lt_of_le_of_lt (Nat.sub_le _ _) t.isLt⟩) (rblk0 V c ⟨t.val - 1, Nat.lt_of_le_of_lt (Nat.sub_le _ _) t.isLt⟩))

/-- So at an odd point an entry of the output's buffer is the whole contraction: the sum over the first 512 indices
    (the block the point before multiplied) plus the sum over the last 512 (this point's block). -/
theorem out0_odd_apply (c : Dev nD) (t : Fin cfg0.N) (h1 : t.val % 2 = 1) (r : Fin 1024) (j : Fin 512) (R : Fin 4096)
    (hR : R.val = 1024 * (t.val / 2) + r.val) :
    (outsAt0 V c t.val t.isLt).1 (ix2 r j) = Cert.Spec.mm (larr0 V c) (rarr0 V c) (ix2 R j) := by
  have hlt : t.val - 1 < cfg0.N := Nat.lt_of_le_of_lt (Nat.sub_le _ _) t.isLt
  rw [out0_odd V c t h1, pay0_3_apply, pay0_2_apply, pay0_2_apply, pay0_1_apply, zero_add, Cert.Spec.mm_apply, sum_halves0]
  refine congrArg₂ (· + ·) (Finset.sum_congr rfl fun k _ => ?_) (Finset.sum_congr rfl fun k _ => ?_)
  · rw [lblk0_apply V c ⟨t.val - 1, hlt⟩ r k R ⟨k.val, by omega⟩ (by show R.val = 1024 * ((t.val - 1) / 2) + r.val; omega) (by show k.val = 512 * ((t.val - 1) % 2) + k.val; omega),
      rblk0_apply V c ⟨t.val - 1, hlt⟩ k j ⟨k.val, by omega⟩ (by show k.val = 512 * ((t.val - 1) % 2) + k.val; omega)]
  · rw [lblk0_apply V c t r k R ⟨512 + k.val, by omega⟩ hR (by show 512 + k.val = 512 * (t.val % 2) + k.val; omega),
      rblk0_apply V c t k j ⟨512 + k.val, by omega⟩ (by show 512 + k.val = 512 * (t.val % 2) + k.val; omega)]

/-! ## The result array -/

/-- Every write-back (the odd points) writes the matrix product's block. -/
theorem flushed_eq0 (c : Dev nD) (t : Fin cfg0.N) (hf : (cfg0.win 2).flush t = true) :
    (dat0 V c).flushed 2 t = ((cfg0.win 2).blk t).view.read (Elt Ideal) (Cert.Spec.mm (larr0 V c) (rarr0 V c)) := by
  have h1 : t.val % 2 = 1 := (flush0_2 t).mp hf
  have hN : t.val < 8 := lt_of_lt_of_eq t.isLt (show cfg0.N = 8 from N_0)
  have hi := idx0_2 t
  show (cfg0.win 2).cut (grid0.coords t) ((dat0 V c).after 2 t) = _
  rw [after0_2]
  refine funext fun (x : S1024x512.Idx) => ?_
  obtain ⟨r, j, rfl⟩ : ∃ (r : Fin 1024) (j : Fin 512), x = ix2 r j := ⟨x 0, x 1, eq_ix2 x⟩
  rw [View.read_apply]
  refine (out0_odd_apply V c t h1 r j ⟨1024 * (t.val / 2) + r.val, by omega⟩ rfl).trans ?_
  congr 1
  funext a
  apply Fin.ext
  match a with
  | ⟨0, _⟩ => show 1024 * (t.val / 2) + r.val = win0_2.index t 0 * 1024 + 1 * r.val; rw [hi.1]; omega
  | ⟨1, _⟩ => show j.val = win0_2.index t 1 * 512 + 1 * j.val; rw [hi.2]; omega

/-- The four written blocks cover the 4096 rows: row R lies in the block of point 2·(R / 1024) + 1. -/
theorem final0 (c : Dev nD) :
    (dat0 (F := Ideal) V c).arrAt 2 cfg0.N = Cert.Spec.mm (M := 4096) (K := 1024) (N := 512) (V c main_v0) (V c main_v19) :=
  (dat0 V c).arrAt_eq_of_cover 2 (Cert.Spec.mm (larr0 V c) (rarr0 V c)) (flushed_eq0 V c) fun i => by
    have h0 : (i 0 : Nat) < 4096 := (i 0).isLt
    have h1 : (i 1 : Nat) < 512 := (i 1).isLt
    have hlt : 2 * ((i 0 : Nat) / 1024) + 1 < cfg0.N := by
      rw [show cfg0.N = 8 from N_0]; omega
    have hi := idx0_2 ⟨2 * ((i 0 : Nat) / 1024) + 1, hlt⟩
    refine ⟨⟨2 * ((i 0 : Nat) / 1024) + 1, hlt⟩, (flush0_2 _).mpr (by show (2 * ((i 0 : Nat) / 1024) + 1) % 2 = 1; omega), ?_⟩
    show i ∈ ((View.whole main_v31).slice (win0_2.rect ⟨2 * ((i 0 : Nat) / 1024) + 1, hlt⟩)).set
    rw [View.set_slice_whole, Rect.mem_set_unit]
    intro a
    match a with
    | ⟨0, _⟩ =>
      show win0_2.index ⟨2 * ((i 0 : Nat) / 1024) + 1, hlt⟩ 0 * win0_2.size 0 ≤ (i 0 : Nat) ∧ (i 0 : Nat) < win0_2.index ⟨2 * ((i 0 : Nat) / 1024) + 1, hlt⟩ 0 * win0_2.size 0 + win0_2.xsize (grid0.coords ⟨2 * ((i 0 : Nat) / 1024) + 1, hlt⟩) 0
      rw [hi.1]
      show (2 * ((i 0 : Nat) / 1024) + 1) / 2 * 1024 ≤ (i 0 : Nat) ∧ (i 0 : Nat) < (2 * ((i 0 : Nat) / 1024) + 1) / 2 * 1024 + 1024
      omega
    | ⟨1, _⟩ =>
      show win0_2.index ⟨2 * ((i 0 : Nat) / 1024) + 1, hlt⟩ 1 * win0_2.size 1 ≤ (i 1 : Nat) ∧ (i 1 : Nat) < win0_2.index ⟨2 * ((i 0 : Nat) / 1024) + 1, hlt⟩ 1 * win0_2.size 1 + win0_2.xsize (grid0.coords ⟨2 * ((i 0 : Nat) / 1024) + 1, hlt⟩) 1
      rw [hi.2]
      show 0 * 512 ≤ (i 1 : Nat) ∧ (i 1 : Nat) < 0 * 512 + 512
      omega

end Cert.KernelIdeal.Gen

end
-- ==== Proof.KernelIdealH.LibBlockSum.lean ====
/- Sums over a blocked coordinate. A contraction over K = nb * bs coordinates is the sum, over the nb blocks, of the
   contractions over each block's bs coordinates: only associativity and commutativity of the addition are used, so
   the statement holds in any commutative additive monoid, the extended reals included (no finiteness is needed). -/
import Mathlib.Algebra.BigOperators.Fin
import Mathlib.Logic.Equiv.Fin.Basic

open scoped BigOperators

namespace Cert.BlockSum

/-- Coordinate bs * s + k of block s, k-th inside the block, as a coordinate below nb * bs. -/
def blk (nb bs : ℕ) (s : Fin nb) (k : Fin bs) : Fin (nb * bs) :=
  ⟨bs * s.val + k.val, by
    have hs := s.isLt; have hk := k.isLt
    have h1 : bs * (s.val + 1) = bs * s.val + bs := Nat.mul_succ bs s.val
    have h2 : bs * (s.val + 1) ≤ bs * nb := Nat.mul_le_mul_left bs hs
    have h3 : bs * nb = nb * bs := Nat.mul_comm bs nb
    omega⟩

theorem blk_val (nb bs : ℕ) (s : Fin nb) (k : Fin bs) : (blk nb bs s k).val = bs * s.val + k.val := rfl

/-- The sum over all nb * bs coordinates is the sum over the blocks of the sums inside each block. -/
theorem sum_blocks {M : Type*} [AddCommMonoid M] (nb bs : ℕ) (f : Fin (nb * bs) → M) :
    ∑ K : Fin (nb * bs), f K = ∑ s : Fin nb, ∑ k : Fin bs, f (blk nb bs s k) := by
  rw [← Equiv.sum_comp (finProdFinEquiv (m := nb) (n := bs)) f, Fintype.sum_prod_type]
  refine Finset.sum_congr rfl fun s _ => Finset.sum_congr rfl fun k _ => congrArg f (Fin.ext ?_)
  show k.val + bs * s.val = bs * s.val + k.val
  exact Nat.add_comm _ _

/-- A sum over the first n naturals of a function that is given by g on the coordinates below n is the sum of g over
    the n coordinates. -/
theorem sum_range_eq_sum_fin {M : Type*} [AddCommMonoid M] (n : ℕ) (F : ℕ → M) (g : Fin n → M)
    (h : ∀ s : Fin n, F s.val = g s) : ∑ s ∈ Finset.range n, F s = ∑ s : Fin n, g s := by
  rw [← Fin.sum_univ_eq_sum_range]
  exact Finset.sum_congr rfl fun s _ => h s

end Cert.BlockSum
-- ==== Proof.KernelIdealH.Reg1Value.lean ====
import proofs.«157173_j56882546868342_2_alg».proof.Proof.KernelIdealH.Reg1
import proofs.«157173_j56882546868342_2_alg».proof.Proof.KernelIdealH.Spec
import proofs.«157173_j56882546868342_2_alg».proof.Proof.KernelIdealH.LibBlockSum
import Idealize.ShloMosaic.Lib.Pipeline.Value
import Idealize.ShloMosaic.Lib.ValueIdx
import Idealize.ShloMosaic.PureOps.Ideal.Laws
import Idealize.ShloMosaic.Lib.Tactic
set_option maxRecDepth 16384
noncomputable section
namespace Cert.KernelIdeal.Gen
open Idealize.ShloMosaic Idealize.ShloMosaic.TcCoe Idealize.ShloMosaic.Tactic Idealize.ShloMosaic.ValueIdx
open Idealize.SL.Sem
open Idealize.ShloMosaic.Pipeline (Dat)

-- The three block shapes of this matrix product (left operand's block, right operand's block, result block and
-- accumulator), the result's column count, and the block product's dimension numbers.
local notation "BlkA" => S1024x512
local notation "BlkB" => S512x1024
local notation "BlkO" => S1024x1024
local notation "nCols" => 1024
local notation "dotD" => dot_S1024x512_S512x1024_S1024x1024_1_0_0_1_n_n

/-! # What region 1 computes: the matrix product of its two operand arrays -/

theorem hz1 : (![0, 0] : Fin 2 → Nat) = fun _ => 0 := funext fun a => by fin_cases a <;> rfl

section Pieces
variable {F : FTy → Type} [FloatOps F]

/-! ## What each case's stores leave, as terms of the operand blocks and of what the accumulator held -/

/-- The first reduction step zeroes the accumulator and then adds the block product onto it. -/
theorem soutA1_eq (c : Dev nD) (i : grid1.Coords) (arg3 : Memref sig .tc .vmem BlkA .bf16) (harg3 : arg3.IsWhole) (arg1 : Memref sig .tc .vmem BlkB .bf16) (harg1 : arg1.IsWhole) (arg5 : Memref sig .tc .vmem BlkO .bf16) (harg5 : arg5.IsWhole) (arg6 : Memref sig .tc .vmem BlkO .f32) (harg6 : arg6.IsWhole) (hc0 : cond1_0 i) (hc1 : ¬cond1_1 i) (x0 : Vec F BlkA .bf16) (x1 : Vec F BlkB .bf16) :
    sout1_A_0 c i arg3 harg3 arg1 harg1 arg5 harg5 arg6 harg6 hc0 hc1 x0 x1 = k1_pay2 (k1_pay1 (F := F)) x0 x1 := by
  unfold sout1_A_0
  rw [View.read_writes_eq_canon _ _ _ (scover1_A_0 c i arg3 harg3 arg1 harg1 arg5 harg5 arg6 harg6 hc0 hc1 x0 x1)]
  unfold kernelRun1_A
  dsimp only
  try sl_unfold_words
  rw [View.canon_cons_unit_zero (S := BlkO) hz1, View.readCov_unit_zero (S := BlkO) _ hz1]
  simp only [View.readAt_eq_ld, harg3.read_unread, harg1.read_unread, View.ld_unit_zero (S := BlkO) hz1, View.ld_unit_zero (S := BlkA) hz1, View.ld_unit_zero (S := BlkB) hz1]

/-- A middle step adds the block product onto what the accumulator held. -/
theorem soutB1_eq (c : Dev nD) (i : grid1.Coords) (arg3 : Memref sig .tc .vmem BlkA .bf16) (harg3 : arg3.IsWhole) (arg1 : Memref sig .tc .vmem BlkB .bf16) (harg1 : arg1.IsWhole) (arg5 : Memref sig .tc .vmem BlkO .bf16) (harg5 : arg5.IsWhole) (arg6 : Memref sig .tc .vmem BlkO .f32) (harg6 : arg6.IsWhole) (hc0 : ¬cond1_0 i) (hc1 : ¬cond1_1 i) (x0 : Vec F BlkA .bf16) (x1 : Vec F BlkB .bf16) (xs0 : Vec F BlkO .f32) :
    sout1_B_0 c i arg3 harg3 arg1 harg1 arg5 harg5 arg6 harg6 hc0 hc1 x0 x1 xs0 = k1_pay2 xs0 x0 x1 := by
  unfold sout1_B_0
  rw [View.read_writes_eq_canon _ _ _ (scover1_B_0 c i arg3 harg3 arg1 harg1 arg5 harg5 arg6 harg6 hc0 hc1 x0 x1 xs0)]
  unfold kernelRun1_B
  dsimp only
  try sl_unfold_words
  rw [View.canon_unit_zero hz1]
  simp only [View.readAt_eq_ld, harg3.read_unread, harg1.read_unread, harg6.read_unread, View.ld_unit_zero (S := BlkO) hz1, View.ld_unit_zero (S := BlkA) hz1, View.ld_unit_zero (S := BlkB) hz1]

/-- The last step does the same to the accumulator, -/
theorem soutC1_eq (c : Dev nD) (i : grid1.Coords) (arg3 : Memref sig .tc .vmem BlkA .bf16) (harg3 : arg3.IsWhole) (arg1 : Memref sig .tc .vmem BlkB .bf16) (harg1 : arg1.IsWhole) (arg5 : Memref sig .tc .vmem BlkO .bf16) (harg5 : arg5.IsWhole) (arg6 : Memref sig .tc .vmem BlkO .f32) (harg6 : arg6.IsWhole) (hc0 : ¬cond1_0 i) (hc1 : cond1_1 i) (x0 : Vec F BlkA .bf16) (x1 : Vec F BlkB .bf16) (xs0 : Vec F BlkO .f32) :
    sout1_C_0 c i arg3 harg3 arg1 harg1 arg5 harg5 arg6 harg6 hc0 hc1 x0 x1 xs0 = k1_pay2 xs0 x0 x1 := by
  unfold sout1_C_0
  rw [View.read_writes_eq_canon _ _ _ (scover1_C_0 c i arg3 harg3 arg1 harg1 arg5 harg5 arg6 harg6 hc0 hc1 x0 x1 xs0)]
  unfold kernelRun1_C
  dsimp only
  try sl_unfold_words
  rw [View.canon_unit_zero hz1]
  simp only [View.readAt_eq_ld, harg3.read_unread, harg1.read_unread, harg6.read_unread, View.ld_unit_zero (S := BlkO) hz1, View.ld_unit_zero (S := BlkA) hz1, View.ld_unit_zero (S := BlkB) hz1]

/-- and stores the accumulator, rounded to the result's element type, into the result's buffer. -/
theorem outC1_eq (c : Dev nD) (i : grid1.Coords) (arg3 : Memref sig .tc .vmem BlkA .bf16) (harg3 : arg3.IsWhole) (arg1 : Memref sig .tc .vmem BlkB .bf16) (harg1 : arg1.IsWhole) (arg5 : Memref sig .tc .vmem BlkO .bf16) (harg5 : arg5.IsWhole) (arg6 : Memref sig .tc .vmem BlkO .f32) (harg6 : arg6.IsWhole) (hc0 : ¬cond1_0 i) (hc1 : cond1_1 i) (x0 : Vec F BlkA .bf16) (x1 : Vec F BlkB .bf16) (xs0 : Vec F BlkO .f32) :
    out1_C_2 c i arg3 harg3 arg1 harg1 arg5 harg5 arg6 harg6 hc0 hc1 x0 x1 xs0 = k1_pay3 (k1_pay2 xs0 x0 x1) := by
  unfold out1_C_2
  rw [View.read_writes_eq_canon _ _ _ (cover1_C_2 c i arg3 harg3 arg1 harg1 arg5 harg5 arg6 harg6 hc0 hc1 x0 x1 xs0)]
  unfold kernelRun1_C
  dsimp only
  try sl_unfold_words
  rw [View.canon_unit_zero hz1, View.readCov_unit_zero (S := BlkO) _ hz1]
  simp only [View.readAt_eq_ld, harg3.read_unread, harg1.read_unread, harg6.read_unread, View.ld_unit_zero (S := BlkO) hz1, View.ld_unit_zero (S := BlkA) hz1, View.ld_unit_zero (S := BlkB) hz1]

end Pieces

/-! ## The payloads at an entry, over the extended reals -/

theorem dot1_rank : (dotD).contr.rank = 1 := rfl
theorem dot1_size : (dotD).contr.size ⟨0, by rw [dot1_rank]; omega⟩ = 512 := rfl

/-- The contraction index of the block product is its one coordinate, below 512. -/
abbrev ce1 : (dotD).contr.Idx ≃ Fin 512 := contrEquiv1 dotD 512 dot1_rank dot1_size

/-- The left operand's entry the block product reads for result entry (r, q) at contraction index k: (r, k). -/
theorem lhsIdx1 (r : Fin 1024) (q : Fin nCols) (k : (dotD).contr.Idx) : (dotD).lhsIdx (ix2 r q) k = ix2 r (ce1 k) := by
  funext a
  match a with
  | ⟨0, _⟩ => exact Fin.ext (by simp [DotDims.lhsIdx, dot_S1024x512_S512x1024_S1024x1024_1_0_0_1_n_n]; rfl)
  | ⟨1, _⟩ => exact Fin.ext ((dotD).lhsIdx_val_of_single (cl := 1) rfl (ix2 r q) k)

/-- The right operand's: (k, q). -/
theorem rhsIdx1 (r : Fin 1024) (q : Fin nCols) (k : (dotD).contr.Idx) : (dotD).rhsIdx (ix2 r q) k = ix2 (ce1 k) q := by
  funext a
  match a with
  | ⟨0, _⟩ => exact Fin.ext ((dotD).rhsIdx_val_of_single (cr := 0) rfl (ix2 r q) k)
  | ⟨1, _⟩ => exact Fin.ext (by simp [DotDims.rhsIdx, dot_S1024x512_S512x1024_S1024x1024_1_0_0_1_n_n]; rfl)

/-- The accumulator's update read at an entry: what it held plus the block product's entry, a plain sum (into the
    zero accumulator the product is the sum; rounding to the narrower type is the identity over the extended reals). -/
theorem pay2_apply1 (xs : Vec Ideal BlkO .f32) (x0 : Vec Ideal BlkA .bf16) (x1 : Vec Ideal BlkB .bf16) (r : Fin 1024) (q : Fin nCols) :
    k1_pay2 (F := Ideal) xs x0 x1 (ix2 r q) = xs (ix2 r q) + ∑ j : Fin 512, x0 (ix2 r j) * x1 (ix2 j q) := by
  unfold k1_pay2
  simp only [shapeCast_self]
  refine (addf_apply _ _ _).trans ?_
  refine congrArg (xs (ix2 r q) + ·) ?_
  refine (Ideal.matmul_constant_zero_apply (φ₁ := .bf16) (φ₂ := .bf16) dotD none x0 x1 (ix2 r q)).trans ?_
  refine Fintype.sum_equiv ce1 _ _ fun k => ?_
  rw [lhsIdx1, rhsIdx1]

/-- The zeroed accumulator reads 0 everywhere. -/
theorem pay1_apply1 (i : (BlkO).Idx) : k1_pay1 (F := Ideal) i = 0 := by
  unfold k1_pay1
  simp only [shapeCast_self]
  show Ideal.ofBits .f32 0x00000000#32 = 0
  exact Ideal.ofBits_zero_f32

/-- Rounding the accumulator to the result's element type is the identity over the extended reals. -/
theorem pay3_apply1 (x : Vec Ideal BlkO .f32) (i : (BlkO).Idx) : k1_pay3 (F := Ideal) x i = x i := rfl

/-! ## The operand blocks as entries of the operand arrays -/

variable (V : (c : Dev nD) → (b : Ref sig .tc) → Buf (Elt Ideal) ((c : Thread nD τ).loc b))

/-- The two operand arrays and the operand blocks at a point, at their literal types. -/
abbrev arrA1 (c : Dev nD) : Cert.Spec.Arr2 4096 4096 := V c main_v1
abbrev arrB1 (c : Dev nD) : Cert.Spec.Arr2 4096 nCols := V c main_v0
abbrev blkA1 (c : Dev nD) (t : Fin cfg1.N) : Vec Ideal BlkA .bf16 := iblk1 V c 0 t
abbrev blkB1 (c : Dev nD) (t : Fin cfg1.N) : Vec Ideal BlkB .bf16 := iblk1 V c 1 t

/-- The block indices at point t = 8 * (row block) + (reduction step): the left operand's block is (row block, step),
    the right operand's (step, 0), the result's (row block, 0) — decided over the grid. -/
theorem idx1_0 : ∀ t : Fin grid1.N, win1_0.index t 0 = t.val / 8 ∧ win1_0.index t 1 = t.val % 8 := by decide +kernel
theorem idx1_1 : ∀ t : Fin grid1.N, win1_1.index t 0 = t.val % 8 ∧ win1_1.index t 1 = 0 := by decide +kernel
theorem idx1_2 : ∀ t : Fin grid1.N, win1_2.index t 0 = t.val / 8 ∧ win1_2.index t 1 = 0 := by decide +kernel

/-- Entry (r, j) of the left operand's block at point t is entry (1024 * (t / 8) + r, 512 * (t % 8) + j) of its array. -/
theorem blkA1_apply (c : Dev nD) (t : Fin cfg1.N) (r : Fin 1024) (j : Fin 512) (R : Fin 4096) (J : Fin 4096)
    (hR : R.val = 1024 * (t.val / 8) + r.val) (hJ : J.val = 512 * (t.val % 8) + j.val) :
    blkA1 V c t (ix2 r j) = arrA1 V c (ix2 R J) := by
  obtain ⟨h0, h1⟩ := idx1_0 t
  show iblk1 V c 0 t (ix2 r j) = V c main_v1 (ix2 R J)
  unfold iblk1
  rw [View.read_apply]
  show V c main_v1 _ = V c main_v1 _
  congr 1
  funext a
  apply Fin.ext
  match a with
  | ⟨0, _⟩ => show win1_0.index t 0 * 1024 + 1 * r.val = R.val; rw [h0, hR]; omega
  | ⟨1, _⟩ => show win1_0.index t 1 * 512 + 1 * j.val = J.val; rw [h1, hJ]; omega

/-- Entry (j, q) of the right operand's block at point t is entry (512 * (t % 8) + j, q) of its array. -/
theorem blkB1_apply (c : Dev nD) (t : Fin cfg1.N) (j : Fin 512) (q : Fin nCols) (J : Fin 4096)
    (hJ : J.val = 512 * (t.val % 8) + j.val) :
    blkB1 V c t (ix2 j q) = arrB1 V c (ix2 J q) := by
  obtain ⟨h0, h1⟩ := idx1_1 t
  show iblk1 V c 1 t (ix2 j q) = V c main_v0 (ix2 J q)
  unfold iblk1
  rw [View.read_apply]
  show V c main_v0 _ = V c main_v0 _
  congr 1
  funext a
  apply Fin.ext
  match a with
  | ⟨0, _⟩ => show win1_1.index t 0 * 512 + 1 * j.val = J.val; rw [h0, hJ]; omega
  | ⟨1, _⟩ => show win1_1.index t 1 * nCols + 1 * q.val = q.val; rw [h1]; omega

/-! ## The accumulator after each point -/

/-- The part of result entry (1024 * ib + r, q) that reduction block kb contributes: the sum over that block's 512
    contraction coordinates (0 outside the grid, which no point meets). -/
def prodBlk1 (c : Dev nD) (ib : ℕ) (r : Fin 1024) (q : Fin nCols) (kb : ℕ) : EReal :=
  if h : ib < 4 ∧ kb < 8 then
    ∑ j : Fin 512, arrA1 V c (ix2 ⟨1024 * ib + r.val, by have := r.isLt; omega⟩ ⟨512 * kb + j.val, by have := j.isLt; omega⟩)
      * arrB1 V c (ix2 ⟨512 * kb + j.val, by have := j.isLt; omega⟩ q)
  else 0

/-- The block product at point t is the contribution of reduction block t % 8 to row block t / 8. -/
theorem blkprod1 (c : Dev nD) (t : Fin cfg1.N) (r : Fin 1024) (q : Fin nCols) :
    ∑ j : Fin 512, blkA1 V c t (ix2 r j) * blkB1 V c t (ix2 j q) = prodBlk1 V c (t.val / 8) r q (t.val % 8) := by
  have hN : t.val < 32 := lt_of_lt_of_eq t.isLt N_1
  unfold prodBlk1
  rw [dif_pos ⟨by omega, by omega⟩]
  refine Finset.sum_congr rfl fun j _ => ?_
  rw [blkA1_apply V c t r j ⟨1024 * (t.val / 8) + r.val, by have := r.isLt; omega⟩ ⟨512 * (t.val % 8) + j.val, by have := j.isLt; omega⟩ rfl rfl,
    blkB1_apply V c t j q ⟨512 * (t.val % 8) + j.val, by have := j.isLt; omega⟩ rfl]

/-- THE INVARIANT: after the point with reduction step kk = n % 8 the accumulator's entry (r, q) is the sum of the
    contributions of reduction blocks 0 … kk to row block n / 8. By induction on the point: the first step starts
    from zero, a later one adds its block's contribution onto what the point before left. -/
theorem acc1_inv (c : Dev nD) : ∀ (n : ℕ) (hn : n < cfg1.N) (r : Fin 1024) (q : Fin nCols),
    (outsAt1 (F := Ideal) V c n hn).2 (ix2 r q) = ∑ kb ∈ Finset.range (n % 8 + 1), prodBlk1 V c (n / 8) r q kb := by
  intro n
  induction n using Nat.strong_induction_on with
  | _ n ih =>
    intro hn r q
    have hN : n < 32 := lt_of_lt_of_eq hn N_1
    by_cases h0 : n % 8 = 0
    · have h1 : ¬n % 8 = 7 := by omega
      rw [outsAt1_A V c ⟨n, hn⟩ h0 h1]
      dsimp only
      refine (congrFun (soutA1_eq (F := Ideal) c (grid1.coords ⟨n, hn⟩) (ms1_0 ⟨n, hn⟩) (hs1_0 ⟨n, hn⟩) (ms1_1 ⟨n, hn⟩) (hs1_1 ⟨n, hn⟩) (ms1_2 ⟨n, hn⟩) (hs1_2 ⟨n, hn⟩) scM1_0 (Memref.isWhole_whole _) ((hcond1_0 ⟨n, hn⟩).mpr h0) (fun h => h1 ((hcond1_1 ⟨n, hn⟩).mp h)) (blkA1 V c ⟨n, hn⟩) (blkB1 V c ⟨n, hn⟩)) (ix2 r q)).trans ?_
      refine (pay2_apply1 (k1_pay1 (F := Ideal)) (blkA1 V c ⟨n, hn⟩) (blkB1 V c ⟨n, hn⟩) r q).trans ?_
      rw [pay1_apply1, zero_add, blkprod1 V c ⟨n, hn⟩ r q, h0, Finset.sum_range_one]
    · have hlt : n - 1 < n := by omega
      have e1 : (n - 1) / 8 = n / 8 := by omega
      have e2 : (n - 1) % 8 + 1 = n % 8 := by omega
      have ihp := ih (n - 1) hlt (Nat.lt_of_le_of_lt (Nat.sub_le _ _) hn) r q
      rw [e1, e2] at ihp
      by_cases h1 : n % 8 = 7
      · rw [outsAt1_C V c ⟨n, hn⟩ h0 h1]
        dsimp only
        refine (congrFun (soutC1_eq (F := Ideal) c (grid1.coords ⟨n, hn⟩) (ms1_0 ⟨n, hn⟩) (hs1_0 ⟨n, hn⟩) (ms1_1 ⟨n, hn⟩) (hs1_1 ⟨n, hn⟩) (ms1_2 ⟨n, hn⟩) (hs1_2 ⟨n, hn⟩) scM1_0 (Memref.isWhole_whole _) (fun h => h0 ((hcond1_0 ⟨n, hn⟩).mp h)) ((hcond1_1 ⟨n, hn⟩).mpr h1) (blkA1 V c ⟨n, hn⟩) (blkB1 V c ⟨n, hn⟩) (outsAt1 V c (n - 1) (Nat.lt_of_le_of_lt (Nat.sub_le _ _) hn)).2) (ix2 r q)).trans ?_
        refine (pay2_apply1 (outsAt1 V c (n - 1) (Nat.lt_of_le_of_lt (Nat.sub_le _ _) hn)).2 (blkA1 V c ⟨n, hn⟩) (blkB1 V c ⟨n, hn⟩) r q).trans ?_
        rw [ihp, blkprod1 V c ⟨n, hn⟩ r q, Finset.sum_range_succ]
      · rw [outsAt1_B V c ⟨n, hn⟩ h0 h1]
        dsimp only
        refine (congrFun (soutB1_eq (F := Ideal) c (grid1.coords ⟨n, hn⟩) (ms1_0 ⟨n, hn⟩) (hs1_0 ⟨n, hn⟩) (ms1_1 ⟨n, hn⟩) (hs1_1 ⟨n, hn⟩) (ms1_2 ⟨n, hn⟩) (hs1_2 ⟨n, hn⟩) scM1_0 (Memref.isWhole_whole _) (fun h => h0 ((hcond1_0 ⟨n, hn⟩).mp h)) (fun h => h1 ((hcond1_1 ⟨n, hn⟩).mp h)) (blkA1 V c ⟨n, hn⟩) (blkB1 V c ⟨n, hn⟩) (outsAt1 V c (n - 1) (Nat.lt_of_le_of_lt (Nat.sub_le _ _) hn)).2) (ix2 r q)).trans ?_
        refine (pay2_apply1 (outsAt1 V c (n - 1) (Nat.lt_of_le_of_lt (Nat.sub_le _ _) hn)).2 (blkA1 V c ⟨n, hn⟩) (blkB1 V c ⟨n, hn⟩) r q).trans ?_
        rw [ihp, blkprod1 V c ⟨n, hn⟩ r q, Finset.sum_range_succ]

/-- At a last reduction step the result's buffer holds what the accumulator holds. -/
theorem out1_last (c : Dev nD) (n : ℕ) (hn : n < cfg1.N) (h7 : n % 8 = 7) (r : Fin 1024) (q : Fin nCols) :
    (outsAt1 (F := Ideal) V c n hn).1 (ix2 r q) = (outsAt1 (F := Ideal) V c n hn).2 (ix2 r q) := by
  have h0 : ¬n % 8 = 0 := by omega
  rw [outsAt1_C V c ⟨n, hn⟩ h0 h7]
  dsimp only
  refine (congrFun (outC1_eq (F := Ideal) c (grid1.coords ⟨n, hn⟩) (ms1_0 ⟨n, hn⟩) (hs1_0 ⟨n, hn⟩) (ms1_1 ⟨n, hn⟩) (hs1_1 ⟨n, hn⟩) (ms1_2 ⟨n, hn⟩) (hs1_2 ⟨n, hn⟩) scM1_0 (Memref.isWhole_whole _) (fun h => h0 ((hcond1_0 ⟨n, hn⟩).mp h)) ((hcond1_1 ⟨n, hn⟩).mpr h7) (blkA1 V c ⟨n, hn⟩) (blkB1 V c ⟨n, hn⟩) (outsAt1 V c (n - 1) (Nat.lt_of_le_of_lt (Nat.sub_le _ _) hn)).2) (ix2 r q)).trans ?_
  refine Eq.trans ?_ (congrFun (soutC1_eq (F := Ideal) c (grid1.coords ⟨n, hn⟩) (ms1_0 ⟨n, hn⟩) (hs1_0 ⟨n, hn⟩) (ms1_1 ⟨n, hn⟩) (hs1_1 ⟨n, hn⟩) (ms1_2 ⟨n, hn⟩) (hs1_2 ⟨n, hn⟩) scM1_0 (Memref.isWhole_whole _) (fun h => h0 ((hcond1_0 ⟨n, hn⟩).mp h)) ((hcond1_1 ⟨n, hn⟩).mpr h7) (blkA1 V c ⟨n, hn⟩) (blkB1 V c ⟨n, hn⟩) (outsAt1 V c (n - 1) (Nat.lt_of_le_of_lt (Nat.sub_le _ _) hn)).2) (ix2 r q)).symm
  rfl

/-! ## The result array -/

/-- The matrix product's entry (1024 * ib + r, q) is the sum of the eight reduction blocks' contributions: the sum
    over the 4096 contraction coordinates regrouped into 8 blocks of 512. -/
theorem mm_blocks1 (c : Dev nD) (ib : ℕ) (hib : ib < 4) (r : Fin 1024) (q : Fin nCols) (R : Fin 4096) (hR : R.val = 1024 * ib + r.val) :
    Cert.Spec.mm (M := 4096) (K := 4096) (N := nCols) (arrA1 V c) (arrB1 V c) (ix2 R q) = ∑ kb ∈ Finset.range 8, prodBlk1 V c ib r q kb := by
  rw [Cert.Spec.mm_apply]
  refine (Cert.BlockSum.sum_blocks 8 512 (fun k => arrA1 V c (ix2 R k) * arrB1 V c (ix2 k q))).trans ?_
  refine (Cert.BlockSum.sum_range_eq_sum_fin 8 (prodBlk1 V c ib r q) _ (fun s => ?_)).symm
  unfold prodBlk1
  rw [dif_pos ⟨hib, s.isLt⟩]
  refine Finset.sum_congr rfl fun j _ => ?_
  have eR : R = ⟨1024 * ib + r.val, by have := r.isLt; omega⟩ := Fin.ext hR
  rw [eR]
  rfl

/-- Two functions of a rank-2 index agree when they agree at every pair of coordinates. -/
theorem ext1_ix2 {n0 n1 : ℕ} {α : Type} (f g : (⟨2, ![n0, n1]⟩ : Shape).Idx → α)
    (h : ∀ (a : Fin n0) (b : Fin n1), f (ix2 a b) = g (ix2 a b)) : f = g :=
  funext fun x => by rw [eq_ix2 x]; exact h _ _

/-- Entry (r, q) of the result block at point t is entry (1024 * (t / 8) + r, q) of the result array. -/
theorem blkO1_apply (c : Dev nD) (t : Fin cfg1.N) (G : Cert.Spec.Arr2 4096 nCols) (r : Fin 1024) (q : Fin nCols) (R : Fin 4096)
    (hR : R.val = 1024 * (t.val / 8) + r.val) :
    ((cfg1.win 2).blk t).view.read (Elt Ideal) G (ix2 r q) = G (ix2 R q) := by
  obtain ⟨h0, h1⟩ := idx1_2 t
  rw [View.read_apply]
  show G _ = G _
  congr 1
  funext a
  apply Fin.ext
  match a with
  | ⟨0, _⟩ => show win1_2.index t 0 * 1024 + 1 * r.val = R.val; rw [h0, hR]; omega
  | ⟨1, _⟩ => show win1_2.index t 1 * nCols + 1 * q.val = q.val; rw [h1]; omega

/-- At a last reduction step, entry (r, q) of what the result's buffer holds is the matrix product's entry
    (1024 * (t / 8) + r, q): the accumulator's invariant with all eight reduction blocks in. -/
theorem flushed1_entry (c : Dev nD) (t : Fin cfg1.N) (h7 : t.val % 8 = 7) (r : Fin 1024) (q : Fin nCols) :
    (outsAt1 (F := Ideal) V c t.val t.isLt).1 (ix2 r q)
      = Cert.Spec.mm (M := 4096) (K := 4096) (N := nCols) (arrA1 V c) (arrB1 V c)
          (ix2 ⟨1024 * (t.val / 8) + r.val, by have := r.isLt; have hN : t.val < 32 := lt_of_lt_of_eq t.isLt N_1; omega⟩ q) := by
  have hN : t.val < 32 := lt_of_lt_of_eq t.isLt N_1
  refine (out1_last V c t.val t.isLt h7 r q).trans ?_
  refine (acc1_inv V c t.val t.isLt r q).trans ?_
  rw [h7]
  exact (mm_blocks1 V c (t.val / 8) (by omega) r q _ rfl).symm

/-- What a write-back writes: at the points ≡ 7 (mod 8), the point's block of the matrix product. -/
theorem flushed1_eq (c : Dev nD) (t : Fin cfg1.N) (hf : (cfg1.win 2).flush t = true) :
    (dat1 V c).flushed 2 t = ((cfg1.win 2).blk t).view.read (Elt Ideal) (Cert.Spec.mm (M := 4096) (K := 4096) (N := nCols) (arrA1 V c) (arrB1 V c)) := by
  have h7 : t.val % 8 = 7 := (flush1_2 t).mp hf
  show (cfg1.win 2).cut (grid1.coords t) ((dat1 V c).after 2 t) = _
  rw [after1_2]
  refine ext1_ix2 (n0 := 1024) (n1 := nCols) _ _ fun r q => ?_
  exact (flushed1_entry V c t h7 r q).trans (blkO1_apply c t _ r q _ rfl).symm

/-- THE VALUE: the result array ends holding the matrix product of the two operand arrays (the blocks written at
    the points ≡ 7 (mod 8) tile it). -/
theorem final1 (c : Dev nD) : (dat1 (F := Ideal) V c).arrAt 2 cfg1.N = Cert.Spec.mm (M := 4096) (K := 4096) (N := nCols) (V c main_v1) (V c main_v0) :=
  (dat1 V c).arrAt_eq_of_cover 2 (Cert.Spec.mm (M := 4096) (K := 4096) (N := nCols) (arrA1 V c) (arrB1 V c)) (flushed1_eq V c) fun i => by
    have hi0 : (i 0 : Nat) < 4096 := (i 0).isLt
    have hi1 : (i 1 : Nat) < nCols := (i 1).isLt
    have ht : 8 * ((i 0 : Nat) / 1024) + 7 < cfg1.N := by rw [show cfg1.N = 32 from N_1]; omega
    refine ⟨⟨8 * ((i 0 : Nat) / 1024) + 7, ht⟩, (flush1_2 _).mpr (by show (8 * ((i 0 : Nat) / 1024) + 7) % 8 = 7; omega), ?_⟩
    obtain ⟨j0, j1⟩ := idx1_2 ⟨8 * ((i 0 : Nat) / 1024) + 7, ht⟩
    show i ∈ ((View.whole main_v32).slice (win1_2.rect ⟨8 * ((i 0 : Nat) / 1024) + 7, ht⟩)).set
    rw [View.set_slice_whole, Rect.mem_set_unit]
    intro a
    match a with
    | ⟨0, _⟩ =>
      show win1_2.index ⟨8 * ((i 0 : Nat) / 1024) + 7, ht⟩ 0 * 1024 ≤ (i 0 : Nat) ∧ (i 0 : Nat) < win1_2.index ⟨8 * ((i 0 : Nat) / 1024) + 7, ht⟩ 0 * 1024 + 1024
      rw [j0]; show (8 * ((i 0 : Nat) / 1024) + 7) / 8 * 1024 ≤ (i 0 : Nat) ∧ (i 0 : Nat) < (8 * ((i 0 : Nat) / 1024) + 7) / 8 * 1024 + 1024; omega
    | ⟨1, _⟩ =>
      show win1_2.index ⟨8 * ((i 0 : Nat) / 1024) + 7, ht⟩ 1 * nCols ≤ (i 1 : Nat) ∧ (i 1 : Nat) < win1_2.index ⟨8 * ((i 0 : Nat) / 1024) + 7, ht⟩ 1 * nCols + nCols
      rw [j1]; omega

end Cert.KernelIdeal.Gen
end
-- ==== Proof.KernelIdealH.Reg2Value.lean ====
/- REGION 2, the value: what the output array holds after the region, over the extended reals.
   The region computes max (A·B + O, 0) for A [4096 x 1024], B [1024 x 512], O [4096 x 512] by row blocks of 1024 rows, the
   contracted coordinate in two halves of 512: at the first half the accumulator is zeroed and receives the first half's
   product, at the second it receives the second half's, and the output block is the rectified sum of the accumulator and
   O's block. Read here: each stored piece as a payload of the point's blocks; the payloads at an entry (a block product is a
   plain finite sum, the format changes are the identity); each block's entry as an entry of its array; the two halves'
   sums regrouped into the contraction's one sum (associativity and commutativity of + only); the blocks written back
   cover the array. -/
import proofs.«157173_j56882546868342_2_alg».proof.Proof.KernelIdealH.Reg2
import proofs.«157173_j56882546868342_2_alg».proof.Proof.KernelIdealH.Spec
import Idealize.ShloMosaic.Lib.Pipeline.Value
import Idealize.ShloMosaic.Lib.ValueIdx
import Idealize.ShloMosaic.PureOps.Ideal.Laws
set_option maxRecDepth 16384
noncomputable section
namespace Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat Cfg Window)
open scoped BigOperators

section Pieces
variable {F : FTy → Type} [FloatOps F]

/-! ## Each found piece as a payload of the point's blocks (generic in F) -/

theorem hz_r2 : (![0, 0] : Fin 2 → Nat) = fun _ => 0 := funext fun a => by fin_cases a <;> rfl

/-- k = 0: the accumulator is zeroed, then the block product is added onto the zeros. -/
theorem soutA2_eq (c : Dev nD) (i : grid2.Coords) (arg3 : Memref sig .tc .vmem S1024x512 .bf16) (harg3 : arg3.IsWhole) (arg4 : Memref sig .tc .vmem S512x512 .bf16) (harg4 : arg4.IsWhole) (arg5 : Memref sig .tc .vmem S1024x512 .bf16) (harg5 : arg5.IsWhole) (arg6 : Memref sig .tc .vmem S1024x512 .bf16) (harg6 : arg6.IsWhole) (arg7 : Memref sig .tc .vmem S1024x512 .f32) (harg7 : arg7.IsWhole) (hc0 : cond2_0 i) (hc1 : ¬cond2_1 i)
    (x0 : Vec F S1024x512 .bf16) (x1 : Vec F S512x512 .bf16) (x2 : Vec F S1024x512 .bf16) :
    sout2_A_0 c i arg3 harg3 arg4 harg4 arg5 harg5 arg6 harg6 arg7 harg7 hc0 hc1 x0 x1 x2 = k2_pay2 (k2_pay1 (F := F)) x0 x1 := by
  unfold sout2_A_0
  rw [View.read_writes_eq_canon _ _ _ (scover2_A_0 c i arg3 harg3 arg4 harg4 arg5 harg5 arg6 harg6 arg7 harg7 hc0 hc1 x0 x1 x2)]
  unfold kernelRun2_A
  dsimp only
  try sl_unfold_words
  rw [View.canon_cons_unit_zero (S := S1024x512) hz_r2]
  simp only [View.readCov_unit_zero (S := S1024x512) _ hz_r2, View.readAt_eq_ld, harg3.read_unread, harg4.read_unread, View.ld_unit_zero (S := S1024x512) hz_r2, View.ld_unit_zero (S := S512x512) hz_r2]

/-- k = 1: the block product is added onto what the accumulator held. -/
theorem soutC2_eq (c : Dev nD) (i : grid2.Coords) (arg3 : Memref sig .tc .vmem S1024x512 .bf16) (harg3 : arg3.IsWhole) (arg4 : Memref sig .tc .vmem S512x512 .bf16) (harg4 : arg4.IsWhole) (arg5 : Memref sig .tc .vmem S1024x512 .bf16) (harg5 : arg5.IsWhole) (arg6 : Memref sig .tc .vmem S1024x512 .bf16) (harg6 : arg6.IsWhole) (arg7 : Memref sig .tc .vmem S1024x512 .f32) (harg7 : arg7.IsWhole) (hc0 : ¬cond2_0 i) (hc1 : cond2_1 i)
    (x0 : Vec F S1024x512 .bf16) (x1 : Vec F S512x512 .bf16) (x2 : Vec F S1024x512 .bf16) (xs0 : Vec F S1024x512 .f32) :
    sout2_C_0 c i arg3 harg3 arg4 harg4 arg5 harg5 arg6 harg6 arg7 harg7 hc0 hc1 x0 x1 x2 xs0 = k2_pay2 xs0 x0 x1 := by
  unfold sout2_C_0
  rw [View.read_writes_eq_canon _ _ _ (scover2_C_0 c i arg3 harg3 arg4 harg4 arg5 harg5 arg6 harg6 arg7 harg7 hc0 hc1 x0 x1 x2 xs0)]
  unfold kernelRun2_C
  dsimp only
  try sl_unfold_words
  rw [View.canon_unit_zero (S := S1024x512) hz_r2]
  simp only [View.readAt_eq_ld, harg3.read_unread, harg4.read_unread, harg7.read_unread, View.ld_unit_zero (S := S1024x512) hz_r2, View.ld_unit_zero (S := S512x512) hz_r2]

/-- k = 1: the output block is the rectified sum of the new accumulator and the added operand's block. -/
theorem outC2_eq (c : Dev nD) (i : grid2.Coords) (arg3 : Memref sig .tc .vmem S1024x512 .bf16) (harg3 : arg3.IsWhole) (arg4 : Memref sig .tc .vmem S512x512 .bf16) (harg4 : arg4.IsWhole) (arg5 : Memref sig .tc .vmem S1024x512 .bf16) (harg5 : arg5.IsWhole) (arg6 : Memref sig .tc .vmem S1024x512 .bf16) (harg6 : arg6.IsWhole) (arg7 : Memref sig .tc .vmem S1024x512 .f32) (harg7 : arg7.IsWhole) (hc0 : ¬cond2_0 i) (hc1 : cond2_1 i)
    (x0 : Vec F S1024x512 .bf16) (x1 : Vec F S512x512 .bf16) (x2 : Vec F S1024x512 .bf16) (xs0 : Vec F S1024x512 .f32) :
    out2_C_3 c i arg3 harg3 arg4 harg4 arg5 harg5 arg6 harg6 arg7 harg7 hc0 hc1 x0 x1 x2 xs0 = k2_pay3 (k2_pay2 xs0 x0 x1) x2 := by
  unfold out2_C_3
  rw [View.read_writes_eq_canon _ _ _ (cover2_C_3 c i arg3 harg3 arg4 harg4 arg5 harg5 arg6 harg6 arg7 harg7 hc0 hc1 x0 x1 x2 xs0)]
  unfold kernelRun2_C
  dsimp only
  try sl_unfold_words
  rw [View.canon_unit_zero (S := S1024x512) hz_r2]
  simp only [View.readCov_unit_zero (S := S1024x512) _ hz_r2, View.readAt_eq_ld, harg3.read_unread, harg4.read_unread, harg5.read_unread, harg7.read_unread, View.ld_unit_zero (S := S1024x512) hz_r2, View.ld_unit_zero (S := S512x512) hz_r2]

end Pieces

section Blocks
variable {F : FTy → Type} [FloatOps F]
variable (V : (c : Dev nD) → (b : Ref sig .tc) → Buf (Elt F) ((c : Thread nD τ).loc b))

/-! ## The arrays and the blocks, named at their literal types -/

/-- The left factor [4096 x 1024], the right factor [1024 x 512] and the added operand [4096 x 512] as the region finds them. -/
abbrev Aarr2 (c : Dev nD) : Vec F S4096x1024 .bf16 := V c main_v32
abbrev Barr2 (c : Dev nD) : Vec F S1024x512 .bf16 := V c main_v23
abbrev Oarr2 (c : Dev nD) : Vec F S4096x512 .bf16 := V c main_v31
/-- Their blocks at a point: rows 1024 (t / 2) .. of the left factor and of the added operand, columns / rows 512 (t mod 2) .. of the
    contracted coordinate. -/
abbrev ablk2 (c : Dev nD) (t : Fin cfg2.N) : Vec F S1024x512 .bf16 := iblk2 V c 0 t
abbrev bblk2 (c : Dev nD) (t : Fin cfg2.N) : Vec F S512x512 .bf16 := iblk2 V c 1 t
abbrev oblk2 (c : Dev nD) (t : Fin cfg2.N) : Vec F S1024x512 .bf16 := iblk2 V c 2 t

/-- The block indices of the four windows at a point, in closed form. -/
theorem index2_0 (t : Fin cfg2.N) : win2_0.index t 0 = t.val / 2 ∧ win2_0.index t 1 = t.val % 2 := by
  rcases fin_N2 t with rfl | rfl | rfl | rfl | rfl | rfl | rfl | rfl <;> decide +kernel
theorem index2_1 (t : Fin cfg2.N) : win2_1.index t 0 = t.val % 2 ∧ win2_1.index t 1 = 0 := by
  rcases fin_N2 t with rfl | rfl | rfl | rfl | rfl | rfl | rfl | rfl <;> decide +kernel
theorem index2_2 (t : Fin cfg2.N) : win2_2.index t 0 = t.val / 2 ∧ win2_2.index t 1 = 0 := by
  rcases fin_N2 t with rfl | rfl | rfl | rfl | rfl | rfl | rfl | rfl <;> decide +kernel
theorem index2_3 (t : Fin cfg2.N) : win2_3.index t 0 = t.val / 2 ∧ win2_3.index t 1 = 0 := by
  rcases fin_N2 t with rfl | rfl | rfl | rfl | rfl | rfl | rfl | rfl <;> decide +kernel

/-- An entry of the left factor's block is the entry of the left factor at row 1024 (t / 2) + r, column 512 (t mod 2) + k. -/
theorem ablk2_apply (c : Dev nD) (t : Fin cfg2.N) (x : S1024x512.Idx) (k : S4096x1024.Idx)
    (hk0 : (k 0).val = 1024 * (t.val / 2) + (x 0).val) (hk1 : (k 1).val = 512 * (t.val % 2) + (x 1).val) :
    ablk2 V c t x = Aarr2 V c k := by
  obtain ⟨h0, h1⟩ := index2_0 t
  show (iblk2 V c 0 t : Vec F S1024x512 .bf16) x = (V c main_v32 : Vec F S4096x1024 .bf16) k
  unfold iblk2
  rw [View.read_apply]
  show V c main_v32 _ = V c main_v32 _
  congr 1
  funext a
  apply Fin.ext
  match a with
  | ⟨0, _⟩ => show win2_0.index t 0 * 1024 + 1 * (x 0).val = (k 0).val; rw [h0, hk0]; omega
  | ⟨1, _⟩ => show win2_0.index t 1 * 512 + 1 * (x 1).val = (k 1).val; rw [h1, hk1]; omega

/-- An entry of the right factor's block is the entry of the right factor at row 512 (t mod 2) + k, the same column. -/
theorem bblk2_apply (c : Dev nD) (t : Fin cfg2.N) (x : S512x512.Idx) (k : S1024x512.Idx)
    (hk0 : (k 0).val = 512 * (t.val % 2) + (x 0).val) (hk1 : (k 1).val = (x 1).val) :
    bblk2 V c t x = Barr2 V c k := by
  obtain ⟨h0, h1⟩ := index2_1 t
  show (iblk2 V c 1 t : Vec F S512x512 .bf16) x = (V c main_v23 : Vec F S1024x512 .bf16) k
  unfold iblk2
  rw [View.read_apply]
  show V c main_v23 _ = V c main_v23 _
  congr 1
  funext a
  apply Fin.ext
  match a with
  | ⟨0, _⟩ => show win2_1.index t 0 * 512 + 1 * (x 0).val = (k 0).val; rw [h0, hk0]; omega
  | ⟨1, _⟩ => show win2_1.index t 1 * 512 + 1 * (x 1).val = (k 1).val; rw [h1, hk1]; omega

/-- An entry of the added operand's block is its entry at row 1024 (t / 2) + r, the same column. -/
theorem oblk2_apply (c : Dev nD) (t : Fin cfg2.N) (x : S1024x512.Idx) (k : S4096x512.Idx)
    (hk0 : (k 0).val = 1024 * (t.val / 2) + (x 0).val) (hk1 : (k 1).val = (x 1).val) :
    oblk2 V c t x = Oarr2 V c k := by
  obtain ⟨h0, h1⟩ := index2_2 t
  show (iblk2 V c 2 t : Vec F S1024x512 .bf16) x = (V c main_v31 : Vec F S4096x512 .bf16) k
  unfold iblk2
  rw [View.read_apply]
  show V c main_v31 _ = V c main_v31 _
  congr 1
  funext a
  apply Fin.ext
  match a with
  | ⟨0, _⟩ => show win2_2.index t 0 * 1024 + 1 * (x 0).val = (k 0).val; rw [h0, hk0]; omega
  | ⟨1, _⟩ => show win2_2.index t 1 * 512 + 1 * (x 1).val = (k 1).val; rw [h1, hk1]; omega

end Blocks

section Payloads

/-! ## The payloads read at an entry, over the extended reals -/

/-- The block product's dimension numbers: the left block's columns against the right block's rows. -/
abbrev dims_r2 : DotDims S1024x512 S512x512 S1024x512 := dot_S1024x512_S512x512_S1024x512_1_0_0_1_n_n

theorem dims_r2_rank : dims_r2.contr.rank = 1 := rfl
theorem dims_r2_size : dims_r2.contr.size ⟨0, by rw [dims_r2_rank]; omega⟩ = 512 := rfl

/-- At result entry (r, q) and contracted coordinate k the left operand is read at (r, k) -/
theorem lhsIdx_r2 (r : Fin 1024) (q : Fin 512) (k : Fin 512) :
    dims_r2.lhsIdx (ix2 r q) ((contrEquiv1 dims_r2 512 dims_r2_rank dims_r2_size).symm k) = ix2 r k := by
  funext ax
  apply Fin.ext
  match ax with
  | ⟨0, _⟩ => first | rfl | (simp [DotDims.lhsIdx, dims_r2, dot_S1024x512_S512x512_S1024x512_1_0_0_1_n_n] <;> rfl)
  | ⟨1, _⟩ => first | rfl | (simp [DotDims.lhsIdx, dims_r2, dot_S1024x512_S512x512_S1024x512_1_0_0_1_n_n, contrEquiv1] <;> rfl)

/-- and the right operand at (k, q). -/
theorem rhsIdx_r2 (r : Fin 1024) (q : Fin 512) (k : Fin 512) :
    dims_r2.rhsIdx (ix2 r q) ((contrEquiv1 dims_r2 512 dims_r2_rank dims_r2_size).symm k) = ix2 k q := by
  funext ax
  apply Fin.ext
  match ax with
  | ⟨0, _⟩ => first | rfl | (simp [DotDims.rhsIdx, dims_r2, dot_S1024x512_S512x512_S1024x512_1_0_0_1_n_n, contrEquiv1] <;> rfl)
  | ⟨1, _⟩ => first | rfl | (simp [DotDims.rhsIdx, dims_r2, dot_S1024x512_S512x512_S1024x512_1_0_0_1_n_n] <;> rfl)

/-- The zeroing payload reads 0 everywhere. -/
theorem k2_pay1_apply (j : S1024x512.Idx) : k2_pay1 (F := Ideal) j = 0 := by
  unfold k2_pay1
  simp only [shapeCast_self]
  exact Ideal.ofBits_zero_f32

/-- The accumulating payload at an entry: the old accumulator entry plus the block product's entry, a plain sum over the
    512 contracted coordinates (the format changes are the identity on extended reals). -/
theorem k2_pay2_apply (xs : Vec Ideal S1024x512 .f32) (a : Vec Ideal S1024x512 .bf16) (b : Vec Ideal S512x512 .bf16) (r : Fin 1024) (q : Fin 512) :
    k2_pay2 (F := Ideal) xs a b (ix2 r q) = xs (ix2 r q) + ∑ k : Fin 512, a (ix2 r k) * b (ix2 k q) := by
  unfold k2_pay2
  simp only [shapeCast_self]
  refine (addf_apply _ _ _).trans ?_
  refine congrArg (xs (ix2 r q) + ·) ?_
  refine (Ideal.matmul_constant_zero_apply (φ₁ := .bf16) (φ₂ := .bf16) dims_r2 none a b (ix2 r q)).trans ?_
  refine (Equiv.sum_comp (contrEquiv1 dims_r2 512 dims_r2_rank dims_r2_size).symm _).symm.trans ?_
  refine Finset.sum_congr rfl fun k _ => ?_
  rw [lhsIdx_r2, rhsIdx_r2]

/-- The output payload at an entry: max (accumulator + added operand, 0). -/
theorem k2_pay3_apply (acc : Vec Ideal S1024x512 .f32) (o : Vec Ideal S1024x512 .bf16) (j : S1024x512.Idx) :
    k2_pay3 (F := Ideal) acc o j = max (acc j + o j) 0 := by
  unfold k2_pay3
  simp only [shapeCast_self]
  show max (acc j + o j) (Ideal.ofBits .f32 0x00000000#32) = _
  rw [Ideal.ofBits_zero_f32]

end Payloads

section AtIdeal
variable (V : (c : Dev nD) → (b : Ref sig .tc) → Buf (Elt Ideal) ((c : Thread nD τ).loc b))

/-! ## The accumulation, over the extended reals -/

/-- After a point with k = 0 the accumulator holds the first block product: zero plus the sum over the block's 512
    contracted coordinates. -/
theorem acc_first2 (c : Dev nD) (n : ℕ) (hn : n < cfg2.N) (h0 : n % 2 = 0) (r : Fin 1024) (q : Fin 512) :
    (outsAt2 V c n hn).2 (ix2 r q) = ∑ k : Fin 512, ablk2 V c ⟨n, hn⟩ (ix2 r k) * bblk2 V c ⟨n, hn⟩ (ix2 k q) := by
  have h1 : ¬ n % 2 = 1 := by omega
  rw [show outsAt2 V c n hn = _ from outsAt2_A V c ⟨n, hn⟩ h0 h1]
  dsimp only
  refine (congrFun (soutA2_eq (F := Ideal) c (grid2.coords ⟨n, hn⟩) (ms2_0 ⟨n, hn⟩) (hs2_0 ⟨n, hn⟩) (ms2_1 ⟨n, hn⟩) (hs2_1 ⟨n, hn⟩) (ms2_2 ⟨n, hn⟩) (hs2_2 ⟨n, hn⟩) (ms2_3 ⟨n, hn⟩) (hs2_3 ⟨n, hn⟩) scM2_0 (Memref.isWhole_whole _) ((hcond2_0 ⟨n, hn⟩).mpr h0) (fun h => h1 ((hcond2_1 ⟨n, hn⟩).mp h)) (iblk2 V c 0 ⟨n, hn⟩) (iblk2 V c 1 ⟨n, hn⟩) (iblk2 V c 2 ⟨n, hn⟩)) (ix2 r q)).trans ?_
  refine (k2_pay2_apply (k2_pay1 (F := Ideal)) (ablk2 V c ⟨n, hn⟩) (bblk2 V c ⟨n, hn⟩) r q).trans ?_
  rw [k2_pay1_apply, zero_add]

/-- After a point with k = 1 the output's staging buffer holds max (first block product + second block product + added
    operand's block, 0). -/
theorem out_last2 (c : Dev nD) (t : Fin cfg2.N) (h1 : t.val % 2 = 1) (r : Fin 1024) (q : Fin 512) :
    (outsAt2 V c t.val t.isLt).1 (ix2 r q)
      = max ((∑ k : Fin 512, ablk2 V c ⟨t.val - 1, (Nat.lt_of_le_of_lt (Nat.sub_le _ _) t.isLt)⟩ (ix2 r k) * bblk2 V c ⟨t.val - 1, (Nat.lt_of_le_of_lt (Nat.sub_le _ _) t.isLt)⟩ (ix2 k q))
          + (∑ k : Fin 512, ablk2 V c t (ix2 r k) * bblk2 V c t (ix2 k q)) + oblk2 V c t (ix2 r q)) 0 := by
  have h0 : ¬ t.val % 2 = 0 := by omega
  rw [outsAt2_C V c t h0 h1]
  dsimp only
  refine (congrFun (outC2_eq (F := Ideal) c (grid2.coords t) (ms2_0 t) (hs2_0 t) (ms2_1 t) (hs2_1 t) (ms2_2 t) (hs2_2 t) (ms2_3 t) (hs2_3 t) scM2_0 (Memref.isWhole_whole _) (fun h => h0 ((hcond2_0 t).mp h)) ((hcond2_1 t).mpr h1) (iblk2 V c 0 t) (iblk2 V c 1 t) (iblk2 V c 2 t) (outsAt2 V c (t.val - 1) (Nat.lt_of_le_of_lt (Nat.sub_le _ _) t.isLt)).2) (ix2 r q)).trans ?_
  refine (k2_pay3_apply (k2_pay2 (outsAt2 V c (t.val - 1) (Nat.lt_of_le_of_lt (Nat.sub_le _ _) t.isLt)).2 (ablk2 V c t) (bblk2 V c t)) (oblk2 V c t) (ix2 r q)).trans ?_
  refine congrArg (max · 0) ?_
  refine congrArg (· + oblk2 V c t (ix2 r q)) ?_
  refine (k2_pay2_apply (outsAt2 V c (t.val - 1) (Nat.lt_of_le_of_lt (Nat.sub_le _ _) t.isLt)).2 (ablk2 V c t) (bblk2 V c t) r q).trans ?_
  refine congrArg (· + ∑ k : Fin 512, ablk2 V c t (ix2 r k) * bblk2 V c t (ix2 k q)) ?_
  exact acc_first2 V c (t.val - 1) (Nat.lt_of_le_of_lt (Nat.sub_le _ _) t.isLt) (by omega) r q

end AtIdeal

section Final
variable (V : (c : Dev nD) → (b : Ref sig .tc) → Buf (Elt Ideal) ((c : Thread nD τ).loc b))

/-! ## The result array -/

/-- The whole result: max (A·B + O, 0) of the three arrays the region finds, as contents of the output array. -/
abbrev result2 (c : Dev nD) : Buf (Elt Ideal) ((c : Thread nD τ).loc main_v33) :=
  Cert.Spec.mmAddRelu (M := 4096) (K := 1024) (N := 512) (V c main_v32) (V c main_v23) (V c main_v31)

/-- A sum over the 1024 contracted coordinates is the sum over the first 512 plus the sum over the last 512: associativity
    and commutativity of + only. -/
theorem sum_two_blocks_r2 (f : Fin 1024 → EReal) :
    ∑ k : Fin 1024, f k = (∑ k : Fin 512, f ⟨k.val, Nat.lt_trans k.isLt (by decide)⟩) + ∑ k : Fin 512, f ⟨512 + k.val, by have := k.isLt; omega⟩ := by
  refine (Fin.sum_univ_add (a := 512) (b := 512) f).trans ?_
  rfl

/-- Entry (r, q) of the output block written at a point with k = 1 is entry (1024 (t / 2) + r, q) of the result: the two
    block products are the two halves of the contraction's sum. -/
theorem entry2 (c : Dev nD) (t : Fin cfg2.N) (h1 : t.val % 2 = 1) (r : Fin 1024) (q : Fin 512) (R : Fin 4096)
    (hR : R.val = 1024 * (t.val / 2) + r.val) :
    (outsAt2 V c t.val t.isLt).1 (ix2 r q) = result2 V c (ix2 R q) := by
  refine (out_last2 V c t h1 r q).trans ?_
  have hO : oblk2 V c t (ix2 r q) = Oarr2 V c (ix2 R q) := oblk2_apply V c t (ix2 r q) (ix2 R q) hR rfl
  have hS : (∑ k : Fin 512, ablk2 V c ⟨t.val - 1, (Nat.lt_of_le_of_lt (Nat.sub_le _ _) t.isLt)⟩ (ix2 r k) * bblk2 V c ⟨t.val - 1, (Nat.lt_of_le_of_lt (Nat.sub_le _ _) t.isLt)⟩ (ix2 k q))
          + (∑ k : Fin 512, ablk2 V c t (ix2 r k) * bblk2 V c t (ix2 k q))
        = Cert.Spec.mm (M := 4096) (K := 1024) (N := 512) (V c main_v32) (V c main_v23) (ix2 R q) := by
    rw [Cert.Spec.mm_apply, sum_two_blocks_r2]
    refine congrArg₂ (· + ·) (Finset.sum_congr rfl fun k _ => ?_) (Finset.sum_congr rfl fun k _ => ?_)
    · rw [ablk2_apply V c ⟨t.val - 1, (Nat.lt_of_le_of_lt (Nat.sub_le _ _) t.isLt)⟩ (ix2 r k) (ix2 R ⟨k.val, Nat.lt_trans k.isLt (by decide)⟩)
            (by show R.val = 1024 * ((t.val - 1) / 2) + r.val; omega) (by show k.val = 512 * ((t.val - 1) % 2) + k.val; omega),
          bblk2_apply V c ⟨t.val - 1, (Nat.lt_of_le_of_lt (Nat.sub_le _ _) t.isLt)⟩ (ix2 k q) (ix2 ⟨k.val, Nat.lt_trans k.isLt (by decide)⟩ q)
            (by show k.val = 512 * ((t.val - 1) % 2) + k.val; omega) rfl]
    · rw [ablk2_apply V c t (ix2 r k) (ix2 R ⟨512 + k.val, by have := k.isLt; omega⟩)
            (by show R.val = 1024 * (t.val / 2) + r.val; omega) (by show 512 + k.val = 512 * (t.val % 2) + k.val; omega),
          bblk2_apply V c t (ix2 k q) (ix2 ⟨512 + k.val, by have := k.isLt; omega⟩ q)
            (by show 512 + k.val = 512 * (t.val % 2) + k.val; omega) rfl]
  rw [hS, hO] <;> rfl

/-- What the write-back at a point with k = 1 writes is that point's block of the result. -/
theorem flushed_eq2 (c : Dev nD) (t : Fin cfg2.N) (hf : (cfg2.win 3).flush t = true) :
    (dat2 V c).flushed 3 t = ((cfg2.win 3).blk t).view.read (Elt Ideal) (result2 V c) := by
  have h1 : t.val % 2 = 1 := (flush2_3 t).mp hf
  have hN : t.val < 8 := lt_of_lt_of_eq t.isLt (show cfg2.N = 8 from N_2)
  obtain ⟨i0, i1⟩ := index2_3 t
  show (cfg2.win 3).cut (grid2.coords t) ((dat2 V c).after 3 t) = _
  rw [after2_3]
  funext x
  rw [View.read_apply]
  have hx0 : (x 0).val < 1024 := (x 0).isLt
  have hx1 : (x 1).val < 512 := (x 1).isLt
  have e : (cfg2.win 3).xinj (grid2.coords t) x = (ix2 ⟨(x 0).val, hx0⟩ ⟨(x 1).val, hx1⟩ : S1024x512.Idx) :=
    funext fun a => by match a with | ⟨0, _⟩ => rfl | ⟨1, _⟩ => rfl
  have eR : ((cfg2.win 3).blk t).view.emb x = (ix2 ⟨1024 * (t.val / 2) + (x 0).val, by omega⟩ ⟨(x 1).val, hx1⟩ : S4096x512.Idx) := by
    funext a
    apply Fin.ext
    match a with
    | ⟨0, _⟩ => show win2_3.index t 0 * 1024 + 1 * (x 0).val = 1024 * (t.val / 2) + (x 0).val; rw [i0]; omega
    | ⟨1, _⟩ => show win2_3.index t 1 * 512 + 1 * (x 1).val = (x 1).val; rw [i1]; omega
  refine Eq.trans (congrArg (outsAt2 V c t.val t.isLt).1 e) ?_
  refine Eq.trans (entry2 V c t h1 ⟨(x 0).val, hx0⟩ ⟨(x 1).val, hx1⟩ ⟨1024 * (t.val / 2) + (x 0).val, by omega⟩ rfl) ?_
  exact (congrArg (result2 V c) eR).symm

/-- The blocks written back (row block i at the point 2 i + 1) cover the output array, so it ends holding the result. -/
theorem final2 (c : Dev nD) :
    (dat2 (F := Ideal) V c).arrAt 3 cfg2.N
      = Cert.Spec.mmAddRelu (M := 4096) (K := 1024) (N := 512) (V c main_v32) (V c main_v23) (V c main_v31) :=
  (dat2 V c).arrAt_eq_of_cover 3 (result2 V c) (flushed_eq2 V c) fun i => by
    have hi0 : (i 0).val < 4096 := (i 0).isLt
    have hi1 : (i 1).val < 512 := (i 1).isLt
    have hT : 2 * ((i 0).val / 1024) + 1 < cfg2.N := by rw [show cfg2.N = 8 from N_2]; omega
    obtain ⟨j0, j1⟩ := index2_3 ⟨2 * ((i 0).val / 1024) + 1, hT⟩
    refine ⟨⟨2 * ((i 0).val / 1024) + 1, hT⟩, (flush2_3 _).mpr (by show (2 * ((i 0).val / 1024) + 1) % 2 = 1; omega), ?_⟩
    show i ∈ ((View.whole main_v33).slice (win2_3.rect ⟨2 * ((i 0).val / 1024) + 1, hT⟩)).set
    rw [View.set_slice_whole, Rect.mem_set_unit]
    intro a
    match a with
    | ⟨0, _⟩ =>
      show win2_3.index ⟨2 * ((i 0).val / 1024) + 1, hT⟩ 0 * 1024 ≤ (i 0 : Nat) ∧ (i 0 : Nat) < win2_3.index ⟨2 * ((i 0).val / 1024) + 1, hT⟩ 0 * 1024 + 1024
      rw [j0]; show (2 * ((i 0).val / 1024) + 1) / 2 * 1024 ≤ (i 0 : Nat) ∧ (i 0 : Nat) < (2 * ((i 0).val / 1024) + 1) / 2 * 1024 + 1024; omega
    | ⟨1, _⟩ =>
      show win2_3.index ⟨2 * ((i 0).val / 1024) + 1, hT⟩ 1 * 512 ≤ (i 1 : Nat) ∧ (i 1 : Nat) < win2_3.index ⟨2 * ((i 0).val / 1024) + 1, hT⟩ 1 * 512 + 512
      rw [j1]; omega

end Final

end Cert.KernelIdeal.Gen
end
-- ==== Proof.KernelIdealH.Reg3Value.lean ====
import proofs.«157173_j56882546868342_2_alg».proof.Proof.KernelIdealH.Reg3
import proofs.«157173_j56882546868342_2_alg».proof.Proof.KernelIdealH.Spec
import Idealize.ShloMosaic.Lib.Pipeline.Value
import Idealize.ShloMosaic.Lib.ValueIdx
import Idealize.ShloMosaic.PureOps.Ideal.Laws
import Idealize.ShloMosaic.Lib.Tactic

set_option maxRecDepth 16384

noncomputable section

namespace Cert.KernelIdeal.Gen

open Idealize.ShloMosaic Idealize.ShloMosaic.TcCoe Idealize.ShloMosaic.Tactic Idealize.ShloMosaic.ValueIdx
open Idealize.SL Idealize.SL.Sem
open Idealize.ShloMosaic.Pipeline (Dat Cfg Window)

/-! # Region 3 at the ideal values: `main_v34` ends at the matrix product of `main_v33` and `main_v26` -/

/-! ## The block product at an index, at the ideal values -/

theorem hz3 : (![0, 0] : Fin 2 → Nat) = fun _ => 0 := funext fun a => by fin_cases a <;> rfl

theorem lhs_blk3_0 (i : S1024x512.Idx) (q : dot_S1024x512_S512x512_S1024x512_1_0_0_1_n_n.contr.Idx) :
    (dot_S1024x512_S512x512_S1024x512_1_0_0_1_n_n.lhsIdx i q 0).val = (i 0).val := by
  unfold DotDims.lhsIdx
  rw [dif_neg (show ¬(0 : Fin S1024x512.rank) ∈ dot_S1024x512_S512x512_S1024x512_1_0_0_1_n_n.lhsBatch by decide), dif_pos (show (0 : Fin S1024x512.rank) ∈ dot_S1024x512_S512x512_S1024x512_1_0_0_1_n_n.lhsNonContracting by decide)]
  rfl
theorem lhs_blk3_1 (i : S1024x512.Idx) (q : dot_S1024x512_S512x512_S1024x512_1_0_0_1_n_n.contr.Idx) :
    (dot_S1024x512_S512x512_S1024x512_1_0_0_1_n_n.lhsIdx i q 1).val = (q ⟨0, by decide⟩).val :=
  dot_S1024x512_S512x512_S1024x512_1_0_0_1_n_n.lhsIdx_val_of_single rfl i q
theorem rhs_blk3_0 (i : S1024x512.Idx) (q : dot_S1024x512_S512x512_S1024x512_1_0_0_1_n_n.contr.Idx) :
    (dot_S1024x512_S512x512_S1024x512_1_0_0_1_n_n.rhsIdx i q 0).val = (q ⟨0, by decide⟩).val :=
  dot_S1024x512_S512x512_S1024x512_1_0_0_1_n_n.rhsIdx_val_of_single rfl i q
theorem rhs_blk3_1 (i : S1024x512.Idx) (q : dot_S1024x512_S512x512_S1024x512_1_0_0_1_n_n.contr.Idx) :
    (dot_S1024x512_S512x512_S1024x512_1_0_0_1_n_n.rhsIdx i q 1).val = (i 1).val := by
  unfold DotDims.rhsIdx
  rw [dif_neg (show ¬(1 : Fin S512x512.rank) ∈ dot_S1024x512_S512x512_S1024x512_1_0_0_1_n_n.rhsBatch by decide), dif_pos (show (1 : Fin S512x512.rank) ∈ dot_S1024x512_S512x512_S1024x512_1_0_0_1_n_n.rhsNonContracting by decide)]
  rfl

/-- A block product into the zero accumulator, at entry (r, j): the sum over the contracted coordinate. -/
theorem blockProduct3_apply (x0 : FVec Ideal S1024x512 .bf16) (x1 : FVec Ideal S512x512 .bf16) (r : Fin 1024) (j : Fin 512) :
    matmul (F := Ideal) dot_S1024x512_S512x512_S1024x512_1_0_0_1_n_n none x0 x1 (constant (F := Ideal) S1024x512 .f32 0x00000000#32) (ix2 r j)
      = ∑ k : Fin 512, x0 (ix2 r k) * x1 (ix2 k j) := by
  show FloatOps.matmul dot_S1024x512_S512x512_S1024x512_1_0_0_1_n_n none x0 x1 (constant (F := Ideal) S1024x512 .f32 0x00000000#32) (ix2 r j) = _
  rw [Ideal.matmul_constant_zero_apply, ← Equiv.sum_comp (contrEquiv1 dot_S1024x512_S512x512_S1024x512_1_0_0_1_n_n 512 rfl rfl).symm]
  refine Finset.sum_congr rfl fun k _ => ?_
  have hk := contrEquiv1_symm_val dot_S1024x512_S512x512_S1024x512_1_0_0_1_n_n 512 rfl rfl k
  have el : dot_S1024x512_S512x512_S1024x512_1_0_0_1_n_n.lhsIdx (ix2 r j) ((contrEquiv1 dot_S1024x512_S512x512_S1024x512_1_0_0_1_n_n 512 rfl rfl).symm k) = ix2 r k := funext fun a => Fin.ext (by
    match a with
    | ⟨0, _⟩ => exact lhs_blk3_0 _ _
    | ⟨1, _⟩ => exact (lhs_blk3_1 _ _).trans hk)
  have er : dot_S1024x512_S512x512_S1024x512_1_0_0_1_n_n.rhsIdx (ix2 r j) ((contrEquiv1 dot_S1024x512_S512x512_S1024x512_1_0_0_1_n_n 512 rfl rfl).symm k) = ix2 k j := funext fun a => Fin.ext (by
    match a with
    | ⟨0, _⟩ => exact (rhs_blk3_0 _ _).trans hk
    | ⟨1, _⟩ => exact rhs_blk3_1 _ _)
  rw [el, er]

/-- The accumulator's first store is the zero splat. -/
theorem pay3_1_apply (y : S1024x512.Idx) : k3_pay1 (F := Ideal) y = 0 := by
  unfold k3_pay1
  simp only [shapeCast_self]
  exact Ideal.ofBits_zero_f32

/-- The accumulator's update at entry (r, j): what it held plus the block product. -/
theorem pay3_2_apply (v3 : FVec Ideal S1024x512 .f32) (x0 : FVec Ideal S1024x512 .bf16) (x1 : FVec Ideal S512x512 .bf16) (r : Fin 1024) (j : Fin 512) :
    k3_pay2 (F := Ideal) v3 x0 x1 (ix2 r j) = v3 (ix2 r j) + ∑ k : Fin 512, x0 (ix2 r k) * x1 (ix2 k j) := by
  unfold k3_pay2
  simp only [shapeCast_self]
  exact congrArg (v3 (ix2 r j) + ·) (blockProduct3_apply x0 x1 r j)

/-- The rounding to the narrower format is the identity at the ideal values. -/
theorem pay3_3_apply (v : FVec Ideal S1024x512 .f32) (y : S1024x512.Idx) :
    k3_pay3 (F := Ideal) v y = v y := rfl

/-- What one point stores into the output, at entry (r, j): the block product. -/
theorem pay3_apply (x0 : FVec Ideal S1024x512 .bf16) (x1 : FVec Ideal S512x512 .bf16) (r : Fin 1024) (j : Fin 512) :
    k3_pay3 (F := Ideal) (k3_pay2 (F := Ideal) (k3_pay1 (F := Ideal)) x0 x1) (ix2 r j) = ∑ k : Fin 512, x0 (ix2 r k) * x1 (ix2 k j) := by
  rw [pay3_3_apply, pay3_2_apply, pay3_1_apply, zero_add]

/-! ## The pieces the run found, and the blocks read off the arrays (any float instance) -/

section Generic
variable {F : FTy → Type} [FloatOps F]
variable (V : (c : Dev nD) → (b : Ref sig .tc) → Buf (Elt F) ((c : Thread nD τ).loc b))

/-- The output's buffer after a point: the zeroed accumulator plus the block product, rounded. -/
theorem out3_A_2_eq (c : Dev nD) (i : grid3.Coords) (arg3 : Memref sig .tc .vmem S1024x512 .bf16) (harg3 : arg3.IsWhole) (arg4 : Memref sig .tc .vmem S512x512 .bf16) (harg4 : arg4.IsWhole) (arg5 : Memref sig .tc .vmem S1024x512 .bf16) (harg5 : arg5.IsWhole) (arg6 : Memref sig .tc .vmem S1024x512 .f32) (harg6 : arg6.IsWhole) (hc0 : cond3_0 i) (hc1 : cond3_1 i)
    (x0 : Vec F S1024x512 .bf16) (x1 : Vec F S512x512 .bf16) :
    out3_A_2 c i arg3 harg3 arg4 harg4 arg5 harg5 arg6 harg6 hc0 hc1 x0 x1 = k3_pay3 (k3_pay2 (k3_pay1 (F := F)) x0 x1) := by
  unfold out3_A_2
  rw [View.read_writes_eq_canon _ _ _ (cover3_A_2 c i arg3 harg3 arg4 harg4 arg5 harg5 arg6 harg6 hc0 hc1 x0 x1)]
  unfold kernelRun3_A
  dsimp only
  try sl_unfold_words
  rw [View.canon_unit_zero hz3]
  simp only [View.readCov_cons_toLoadRect, View.readAt_eq_ld, harg3.read_unread, harg4.read_unread, View.ld_unit_zero (S := S1024x512) hz3, View.ld_unit_zero (S := S512x512) hz3]

/-- The printed index maps, decided over the grid: the left operand's and the output's row block is the point's number,
    every other block index is zero. -/
theorem idx_facts3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- The left operand's block at point `t` is rows 1024 t … 1024 t + 1023 of `main_v33`. -/
theorem xblk3_apply (c : Dev nD) (t : Fin cfg3.N) (r : Fin 1024) (k : Fin 512) (hr : 1024 * t.val + r.val < 4096) :
    (iblk3 V c 0 t : Vec F S1024x512 .bf16) (ix2 r k) = (V c main_v33 : Vec F S4096x512 .bf16) (ix2 ⟨1024 * t.val + r.val, hr⟩ k) := by
  obtain ⟨e0, e1, -⟩ := idx_facts3 t
  unfold iblk3
  rw [View.read_apply]
  show V c main_v33 _ = V c main_v33 _
  congr 1
  funext a
  apply Fin.ext
  match a with
  | ⟨0, _⟩ => show win3_0.index t (0 : Fin 2) * 1024 + 1 * r.val = 1024 * t.val + r.val; rw [e0]; omega
  | ⟨1, _⟩ => show win3_0.index t (1 : Fin 2) * 512 + 1 * k.val = k.val; rw [e1]; omega

/-- The right operand's block at every point is the whole of `main_v26`. -/
theorem wblk3_apply (c : Dev nD) (t : Fin cfg3.N) (k : Fin 512) (j : Fin 512) :
    (iblk3 V c 1 t : Vec F S512x512 .bf16) (ix2 k j) = (V c main_v26 : Vec F S512x512 .bf16) (ix2 k j) := by
  obtain ⟨-, -, e0, e1, -⟩ := idx_facts3 t
  unfold iblk3
  rw [View.read_apply]
  show V c main_v26 _ = V c main_v26 _
  congr 1
  funext a
  apply Fin.ext
  match a with
  | ⟨0, _⟩ => show win3_1.index t (0 : Fin 2) * 512 + 1 * k.val = k.val; rw [e0]; omega
  | ⟨1, _⟩ => show win3_1.index t (1 : Fin 2) * 512 + 1 * j.val = j.val; rw [e1]; omega

/-- Entry (r, j) of the output's block at point `t` is entry (1024 t + r, j) of `main_v34`. -/
theorem oemb3 (t : Fin cfg3.N) (r : Fin 1024) (j : Fin 512) (hr : 1024 * t.val + r.val < 4096) :
    ((cfg3.win 2).blk t).view.emb (ix2 r j) = (ix2 ⟨1024 * t.val + r.val, hr⟩ j : S4096x512.Idx) := by
  obtain ⟨-, -, -, -, e0, e1⟩ := idx_facts3 t
  funext a
  apply Fin.ext
  match a with
  | ⟨0, _⟩ => show win3_2.index t (0 : Fin 2) * 1024 + 1 * r.val = 1024 * t.val + r.val; rw [e0]; omega
  | ⟨1, _⟩ => show win3_2.index t (1 : Fin 2) * 512 + 1 * j.val = j.val; rw [e1]; omega

/-- An index of `main_v34` is in point `t`'s block iff each coordinate is in the block's range on its axis. -/
theorem mem_blk3 (t : Fin cfg3.N) (i : S4096x512.Idx) :
    i ∈ ((cfg3.win 2).blk t).view.set ↔ ∀ a : Fin 2, win3_2.index t a * S1024x512.size a ≤ (i a).val ∧ (i a).val < win3_2.index t a * S1024x512.size a + S1024x512.size a := by
  show i ∈ ((View.whole main_v34).slice (win3_2.rect t)).set ↔ _
  rw [View.set_slice_whole, Rect.mem_set_unit]
  exact Iff.rfl

/-- Every index of `main_v34` is in the block of the point that its row selects. -/
theorem cover3 (i : S4096x512.Idx) : ∃ t : Fin cfg3.N, (cfg3.win 2).flush t = true ∧ i ∈ ((cfg3.win 2).blk t).view.set := by
  have hi0 : (i 0).val < 4096 := (i 0).isLt
  have hi1 : (i 1).val < 512 := (i 1).isLt
  have hN : cfg3.N = 4 := N_3
  refine ⟨⟨(i 0).val / 1024, by rw [hN]; omega⟩, flush3_2 _, ?_⟩
  rw [mem_blk3]
  obtain ⟨-, -, -, -, e0, e1⟩ := idx_facts3 ⟨(i 0).val / 1024, by rw [hN]; omega⟩
  intro a
  match a with
  | ⟨0, _⟩ => show win3_2.index _ (0 : Fin 2) * 1024 ≤ (i 0).val ∧ (i 0).val < win3_2.index _ (0 : Fin 2) * 1024 + 1024; rw [e0]; dsimp only; omega
  | ⟨1, _⟩ => show win3_2.index _ (1 : Fin 2) * 512 ≤ (i 1).val ∧ (i 1).val < win3_2.index _ (1 : Fin 2) * 512 + 512; rw [e1]; omega

end Generic

/-! ## The array after the region, at the ideal values -/

section AtIdeal
variable (V : (c : Dev nD) → (b : Ref sig .tc) → Buf (Elt Ideal) ((c : Thread nD τ).loc b))

/-- What point `t` writes back is block `t` of the matrix product of the two arrays as the region finds them. -/
theorem flushed3_eq (c : Dev nD) (t : Fin cfg3.N) :
    (dat3 (F := Ideal) V c).flushed 2 t = ((cfg3.win 2).blk t).view.read (Elt Ideal) (Cert.Spec.mm (M := 4096) (K := 512) (N := 512) (V c main_v33) (V c main_v26)) := by
  show (cfg3.win 2).cut (grid3.coords t) ((dat3 (F := Ideal) V c).after 2 t) = _
  rw [after3_2, outsAt3_A, out3_A_2_eq]
  have hN : t.val < 4 := lt_of_lt_of_eq t.isLt (show cfg3.N = 4 from N_3)
  funext y
  obtain ⟨r, j, rfl⟩ : ∃ (r : Fin 1024) (j : Fin 512), y = ix2 r j := ⟨y 0, y 1, eq_ix2 y⟩
  have hr : 1024 * t.val + r.val < 4096 := by have := r.isLt; omega
  show k3_pay3 (F := Ideal) (k3_pay2 (F := Ideal) (k3_pay1 (F := Ideal)) (iblk3 V c 0 t) (iblk3 V c 1 t)) (ix2 r j)
    = Cert.Spec.mm (M := 4096) (K := 512) (N := 512) (V c main_v33) (V c main_v26) (((cfg3.win 2).blk t).view.emb (ix2 r j))
  rw [oemb3 t r j hr, Cert.Spec.mm_apply]
  refine (pay3_apply (iblk3 V c 0 t) (iblk3 V c 1 t) r j).trans ?_
  refine Finset.sum_congr rfl fun k _ => ?_
  rw [xblk3_apply V c t r k hr, wblk3_apply V c t k j]

/-- THE VALUE of region 3: `main_v34` ends at the matrix product of `main_v33` and `main_v26`. -/
theorem final3 (c : Dev nD) :
    (dat3 (F := Ideal) V c).arrAt 2 cfg3.N = Cert.Spec.mm (M := 4096) (K := 512) (N := 512) (V c main_v33) (V c main_v26) :=
  (dat3 (F := Ideal) V c).arrAt_eq_of_cover 2 (Cert.Spec.mm (M := 4096) (K := 512) (N := 512) (V c main_v33) (V c main_v26))
    (fun t _ => flushed3_eq V c t) cover3

end AtIdeal

end Cert.KernelIdeal.Gen

end
-- ==== Proof.KernelIdealH.Reg4Value.lean ====
import proofs.«157173_j56882546868342_2_alg».proof.Proof.KernelIdealH.Reg4
import proofs.«157173_j56882546868342_2_alg».proof.Proof.KernelIdealH.Spec
import proofs.«157173_j56882546868342_2_alg».proof.Proof.KernelIdealH.LibBlockSum
import Idealize.ShloMosaic.Lib.Pipeline.Value
import Idealize.ShloMosaic.Lib.ValueIdx
import Idealize.ShloMosaic.PureOps.Ideal.Laws
import Idealize.ShloMosaic.Lib.Tactic
set_option maxRecDepth 16384
noncomputable section
namespace Cert.KernelIdeal.Gen
open Idealize.ShloMosaic Idealize.ShloMosaic.TcCoe Idealize.ShloMosaic.Tactic Idealize.ShloMosaic.ValueIdx
open Idealize.SL.Sem
open Idealize.ShloMosaic.Pipeline (Dat)

-- The three block shapes of this matrix product (left operand's block, right operand's block, result block and
-- accumulator), the result's column count, and the block product's dimension numbers.
local notation "BlkA" => S1024x512
local notation "BlkB" => S512x512
local notation "BlkO" => S1024x512
local notation "nCols" => 512
local notation "dotD" => dot_S1024x512_S512x512_S1024x512_1_0_0_1_n_n

/-! # What region 4 computes: the matrix product of its two operand arrays -/

theorem hz4 : (![0, 0] : Fin 2 → Nat) = fun _ => 0 := funext fun a => by fin_cases a <;> rfl

section Pieces
variable {F : FTy → Type} [FloatOps F]

/-! ## What each case's stores leave, as terms of the operand blocks and of what the accumulator held -/

/-- The first reduction step zeroes the accumulator and then adds the block product onto it. -/
theorem soutA4_eq (c : Dev nD) (i : grid4.Coords) (arg3 : Memref sig .tc .vmem BlkA .bf16) (harg3 : arg3.IsWhole) (arg4 : Memref sig .tc .vmem BlkB .bf16) (harg4 : arg4.IsWhole) (arg5 : Memref sig .tc .vmem BlkO .bf16) (harg5 : arg5.IsWhole) (arg6 : Memref sig .tc .vmem BlkO .f32) (harg6 : arg6.IsWhole) (hc0 : cond4_0 i) (hc1 : ¬cond4_1 i) (x0 : Vec F BlkA .bf16) (x1 : Vec F BlkB .bf16) :
    sout4_A_0 c i arg3 harg3 arg4 harg4 arg5 harg5 arg6 harg6 hc0 hc1 x0 x1 = k4_pay2 (k4_pay1 (F := F)) x0 x1 := by
  unfold sout4_A_0
  rw [View.read_writes_eq_canon _ _ _ (scover4_A_0 c i arg3 harg3 arg4 harg4 arg5 harg5 arg6 harg6 hc0 hc1 x0 x1)]
  unfold kernelRun4_A
  dsimp only
  try sl_unfold_words
  rw [View.canon_cons_unit_zero (S := BlkO) hz4, View.readCov_unit_zero (S := BlkO) _ hz4]
  simp only [View.readAt_eq_ld, harg3.read_unread, harg4.read_unread, View.ld_unit_zero (S := BlkO) hz4, View.ld_unit_zero (S := BlkA) hz4, View.ld_unit_zero (S := BlkB) hz4]

/-- A middle step adds the block product onto what the accumulator held. -/
theorem soutB4_eq (c : Dev nD) (i : grid4.Coords) (arg3 : Memref sig .tc .vmem BlkA .bf16) (harg3 : arg3.IsWhole) (arg4 : Memref sig .tc .vmem BlkB .bf16) (harg4 : arg4.IsWhole) (arg5 : Memref sig .tc .vmem BlkO .bf16) (harg5 : arg5.IsWhole) (arg6 : Memref sig .tc .vmem BlkO .f32) (harg6 : arg6.IsWhole) (hc0 : ¬cond4_0 i) (hc1 : ¬cond4_1 i) (x0 : Vec F BlkA .bf16) (x1 : Vec F BlkB .bf16) (xs0 : Vec F BlkO .f32) :
    sout4_B_0 c i arg3 harg3 arg4 harg4 arg5 harg5 arg6 harg6 hc0 hc1 x0 x1 xs0 = k4_pay2 xs0 x0 x1 := by
  unfold sout4_B_0
  rw [View.read_writes_eq_canon _ _ _ (scover4_B_0 c i arg3 harg3 arg4 harg4 arg5 harg5 arg6 harg6 hc0 hc1 x0 x1 xs0)]
  unfold kernelRun4_B
  dsimp only
  try sl_unfold_words
  rw [View.canon_unit_zero hz4]
  simp only [View.readAt_eq_ld, harg3.read_unread, harg4.read_unread, harg6.read_unread, View.ld_unit_zero (S := BlkO) hz4, View.ld_unit_zero (S := BlkA) hz4, View.ld_unit_zero (S := BlkB) hz4]

/-- The last step does the same to the accumulator, -/
theorem soutC4_eq (c : Dev nD) (i : grid4.Coords) (arg3 : Memref sig .tc .vmem BlkA .bf16) (harg3 : arg3.IsWhole) (arg4 : Memref sig .tc .vmem BlkB .bf16) (harg4 : arg4.IsWhole) (arg5 : Memref sig .tc .vmem BlkO .bf16) (harg5 : arg5.IsWhole) (arg6 : Memref sig .tc .vmem BlkO .f32) (harg6 : arg6.IsWhole) (hc0 : ¬cond4_0 i) (hc1 : cond4_1 i) (x0 : Vec F BlkA .bf16) (x1 : Vec F BlkB .bf16) (xs0 : Vec F BlkO .f32) :
    sout4_C_0 c i arg3 harg3 arg4 harg4 arg5 harg5 arg6 harg6 hc0 hc1 x0 x1 xs0 = k4_pay2 xs0 x0 x1 := by
  unfold sout4_C_0
  rw [View.read_writes_eq_canon _ _ _ (scover4_C_0 c i arg3 harg3 arg4 harg4 arg5 harg5 arg6 harg6 hc0 hc1 x0 x1 xs0)]
  unfold kernelRun4_C
  dsimp only
  try sl_unfold_words
  rw [View.canon_unit_zero hz4]
  simp only [View.readAt_eq_ld, harg3.read_unread, harg4.read_unread, harg6.read_unread, View.ld_unit_zero (S := BlkO) hz4, View.ld_unit_zero (S := BlkA) hz4, View.ld_unit_zero (S := BlkB) hz4]

/-- and stores the accumulator, rounded to the result's element type, into the result's buffer. -/
theorem outC4_eq (c : Dev nD) (i : grid4.Coords) (arg3 : Memref sig .tc .vmem BlkA .bf16) (harg3 : arg3.IsWhole) (arg4 : Memref sig .tc .vmem BlkB .bf16) (harg4 : arg4.IsWhole) (arg5 : Memref sig .tc .vmem BlkO .bf16) (harg5 : arg5.IsWhole) (arg6 : Memref sig .tc .vmem BlkO .f32) (harg6 : arg6.IsWhole) (hc0 : ¬cond4_0 i) (hc1 : cond4_1 i) (x0 : Vec F BlkA .bf16) (x1 : Vec F BlkB .bf16) (xs0 : Vec F BlkO .f32) :
    out4_C_2 c i arg3 harg3 arg4 harg4 arg5 harg5 arg6 harg6 hc0 hc1 x0 x1 xs0 = k4_pay3 (k4_pay2 xs0 x0 x1) := by
  unfold out4_C_2
  rw [View.read_writes_eq_canon _ _ _ (cover4_C_2 c i arg3 harg3 arg4 harg4 arg5 harg5 arg6 harg6 hc0 hc1 x0 x1 xs0)]
  unfold kernelRun4_C
  dsimp only
  try sl_unfold_words
  rw [View.canon_unit_zero hz4, View.readCov_unit_zero (S := BlkO) _ hz4]
  simp only [View.readAt_eq_ld, harg3.read_unread, harg4.read_unread, harg6.read_unread, View.ld_unit_zero (S := BlkO) hz4, View.ld_unit_zero (S := BlkA) hz4, View.ld_unit_zero (S := BlkB) hz4]

end Pieces

/-! ## The payloads at an entry, over the extended reals -/

theorem dot4_rank : (dotD).contr.rank = 1 := rfl
theorem dot4_size : (dotD).contr.size ⟨0, by rw [dot4_rank]; omega⟩ = 512 := rfl

/-- The contraction index of the block product is its one coordinate, below 512. -/
abbrev ce4 : (dotD).contr.Idx ≃ Fin 512 := contrEquiv1 dotD 512 dot4_rank dot4_size

/-- The left operand's entry the block product reads for result entry (r, q) at contraction index k: (r, k). -/
theorem lhsIdx4 (r : Fin 1024) (q : Fin nCols) (k : (dotD).contr.Idx) : (dotD).lhsIdx (ix2 r q) k = ix2 r (ce4 k) := by
  funext a
  match a with
  | ⟨0, _⟩ => exact Fin.ext (by simp [DotDims.lhsIdx, dot_S1024x512_S512x512_S1024x512_1_0_0_1_n_n]; rfl)
  | ⟨1, _⟩ => exact Fin.ext ((dotD).lhsIdx_val_of_single (cl := 1) rfl (ix2 r q) k)

/-- The right operand's: (k, q). -/
theorem rhsIdx4 (r : Fin 1024) (q : Fin nCols) (k : (dotD).contr.Idx) : (dotD).rhsIdx (ix2 r q) k = ix2 (ce4 k) q := by
  funext a
  match a with
  | ⟨0, _⟩ => exact Fin.ext ((dotD).rhsIdx_val_of_single (cr := 0) rfl (ix2 r q) k)
  | ⟨1, _⟩ => exact Fin.ext (by simp [DotDims.rhsIdx, dot_S1024x512_S512x512_S1024x512_1_0_0_1_n_n]; rfl)

/-- The accumulator's update read at an entry: what it held plus the block product's entry, a plain sum (into the
    zero accumulator the product is the sum; rounding to the narrower type is the identity over the extended reals). -/
theorem pay2_apply4 (xs : Vec Ideal BlkO .f32) (x0 : Vec Ideal BlkA .bf16) (x1 : Vec Ideal BlkB .bf16) (r : Fin 1024) (q : Fin nCols) :
    k4_pay2 (F := Ideal) xs x0 x1 (ix2 r q) = xs (ix2 r q) + ∑ j : Fin 512, x0 (ix2 r j) * x1 (ix2 j q) := by
  unfold k4_pay2
  simp only [shapeCast_self]
  refine (addf_apply _ _ _).trans ?_
  refine congrArg (xs (ix2 r q) + ·) ?_
  refine (Ideal.matmul_constant_zero_apply (φ₁ := .bf16) (φ₂ := .bf16) dotD none x0 x1 (ix2 r q)).trans ?_
  refine Fintype.sum_equiv ce4 _ _ fun k => ?_
  rw [lhsIdx4, rhsIdx4]

/-- The zeroed accumulator reads 0 everywhere. -/
theorem pay1_apply4 (i : (BlkO).Idx) : k4_pay1 (F := Ideal) i = 0 := by
  unfold k4_pay1
  simp only [shapeCast_self]
  show Ideal.ofBits .f32 0x00000000#32 = 0
  exact Ideal.ofBits_zero_f32

/-- Rounding the accumulator to the result's element type is the identity over the extended reals. -/
theorem pay3_apply4 (x : Vec Ideal BlkO .f32) (i : (BlkO).Idx) : k4_pay3 (F := Ideal) x i = x i := rfl

/-! ## The operand blocks as entries of the operand arrays -/

variable (V : (c : Dev nD) → (b : Ref sig .tc) → Buf (Elt Ideal) ((c : Thread nD τ).loc b))

/-- The two operand arrays and the operand blocks at a point, at their literal types. -/
abbrev arrA4 (c : Dev nD) : Cert.Spec.Arr2 4096 4096 := V c main_v1
abbrev arrB4 (c : Dev nD) : Cert.Spec.Arr2 4096 nCols := V c main_v33
abbrev blkA4 (c : Dev nD) (t : Fin cfg4.N) : Vec Ideal BlkA .bf16 := iblk4 V c 0 t
abbrev blkB4 (c : Dev nD) (t : Fin cfg4.N) : Vec Ideal BlkB .bf16 := iblk4 V c 1 t

/-- The block indices at point t = 8 * (row block) + (reduction step): the left operand's block is (row block, step),
    the right operand's (step, 0), the result's (row block, 0) — decided over the grid. -/
theorem idx4_0 : ∀ t : Fin grid4.N, win4_0.index t 0 = t.val / 8 ∧ win4_0.index t 1 = t.val % 8 := by decide +kernel
theorem idx4_1 : ∀ t : Fin grid4.N, win4_1.index t 0 = t.val % 8 ∧ win4_1.index t 1 = 0 := by decide +kernel
theorem idx4_2 : ∀ t : Fin grid4.N, win4_2.index t 0 = t.val / 8 ∧ win4_2.index t 1 = 0 := by decide +kernel

/-- Entry (r, j) of the left operand's block at point t is entry (1024 * (t / 8) + r, 512 * (t % 8) + j) of its array. -/
theorem blkA4_apply (c : Dev nD) (t : Fin cfg4.N) (r : Fin 1024) (j : Fin 512) (R : Fin 4096) (J : Fin 4096)
    (hR : R.val = 1024 * (t.val / 8) + r.val) (hJ : J.val = 512 * (t.val % 8) + j.val) :
    blkA4 V c t (ix2 r j) = arrA4 V c (ix2 R J) := by
  obtain ⟨h0, h1⟩ := idx4_0 t
  show iblk4 V c 0 t (ix2 r j) = V c main_v1 (ix2 R J)
  unfold iblk4
  rw [View.read_apply]
  show V c main_v1 _ = V c main_v1 _
  congr 1
  funext a
  apply Fin.ext
  match a with
  | ⟨0, _⟩ => show win4_0.index t 0 * 1024 + 1 * r.val = R.val; rw [h0, hR]; omega
  | ⟨1, _⟩ => show win4_0.index t 1 * 512 + 1 * j.val = J.val; rw [h1, hJ]; omega

/-- Entry (j, q) of the right operand's block at point t is entry (512 * (t % 8) + j, q) of its array. -/
theorem blkB4_apply (c : Dev nD) (t : Fin cfg4.N) (j : Fin 512) (q : Fin nCols) (J : Fin 4096)
    (hJ : J.val = 512 * (t.val % 8) + j.val) :
    blkB4 V c t (ix2 j q) = arrB4 V c (ix2 J q) := by
  obtain ⟨h0, h1⟩ := idx4_1 t
  show iblk4 V c 1 t (ix2 j q) = V c main_v33 (ix2 J q)
  unfold iblk4
  rw [View.read_apply]
  show V c main_v33 _ = V c main_v33 _
  congr 1
  funext a
  apply Fin.ext
  match a with
  | ⟨0, _⟩ => show win4_1.index t 0 * 512 + 1 * j.val = J.val; rw [h0, hJ]; omega
  | ⟨1, _⟩ => show win4_1.index t 1 * nCols + 1 * q.val = q.val; rw [h1]; omega

/-! ## The accumulator after each point -/

/-- The part of result entry (1024 * ib + r, q) that reduction block kb contributes: the sum over that block's 512
    contraction coordinates (0 outside the grid, which no point meets). -/
def prodBlk4 (c : Dev nD) (ib : ℕ) (r : Fin 1024) (q : Fin nCols) (kb : ℕ) : EReal :=
  if h : ib < 4 ∧ kb < 8 then
    ∑ j : Fin 512, arrA4 V c (ix2 ⟨1024 * ib + r.val, by have := r.isLt; omega⟩ ⟨512 * kb + j.val, by have := j.isLt; omega⟩)
      * arrB4 V c (ix2 ⟨512 * kb + j.val, by have := j.isLt; omega⟩ q)
  else 0

/-- The block product at point t is the contribution of reduction block t % 8 to row block t / 8. -/
theorem blkprod4 (c : Dev nD) (t : Fin cfg4.N) (r : Fin 1024) (q : Fin nCols) :
    ∑ j : Fin 512, blkA4 V c t (ix2 r j) * blkB4 V c t (ix2 j q) = prodBlk4 V c (t.val / 8) r q (t.val % 8) := by
  have hN : t.val < 32 := lt_of_lt_of_eq t.isLt N_4
  unfold prodBlk4
  rw [dif_pos ⟨by omega, by omega⟩]
  refine Finset.sum_congr rfl fun j _ => ?_
  rw [blkA4_apply V c t r j ⟨1024 * (t.val / 8) + r.val, by have := r.isLt; omega⟩ ⟨512 * (t.val % 8) + j.val, by have := j.isLt; omega⟩ rfl rfl,
    blkB4_apply V c t j q ⟨512 * (t.val % 8) + j.val, by have := j.isLt; omega⟩ rfl]

/-- THE INVARIANT: after the point with reduction step kk = n % 8 the accumulator's entry (r, q) is the sum of the
    contributions of reduction blocks 0 … kk to row block n / 8. By induction on the point: the first step starts
    from zero, a later one adds its block's contribution onto what the point before left. -/
theorem acc4_inv (c : Dev nD) : ∀ (n : ℕ) (hn : n < cfg4.N) (r : Fin 1024) (q : Fin nCols),
    (outsAt4 (F := Ideal) V c n hn).2 (ix2 r q) = ∑ kb ∈ Finset.range (n % 8 + 1), prodBlk4 V c (n / 8) r q kb := by
  intro n
  induction n using Nat.strong_induction_on with
  | _ n ih =>
    intro hn r q
    have hN : n < 32 := lt_of_lt_of_eq hn N_4
    by_cases h0 : n % 8 = 0
    · have h1 : ¬n % 8 = 7 := by omega
      rw [outsAt4_A V c ⟨n, hn⟩ h0 h1]
      dsimp only
      refine (congrFun (soutA4_eq (F := Ideal) c (grid4.coords ⟨n, hn⟩) (ms4_0 ⟨n, hn⟩) (hs4_0 ⟨n, hn⟩) (ms4_1 ⟨n, hn⟩) (hs4_1 ⟨n, hn⟩) (ms4_2 ⟨n, hn⟩) (hs4_2 ⟨n, hn⟩) scM4_0 (Memref.isWhole_whole _) ((hcond4_0 ⟨n, hn⟩).mpr h0) (fun h => h1 ((hcond4_1 ⟨n, hn⟩).mp h)) (blkA4 V c ⟨n, hn⟩) (blkB4 V c ⟨n, hn⟩)) (ix2 r q)).trans ?_
      refine (pay2_apply4 (k4_pay1 (F := Ideal)) (blkA4 V c ⟨n, hn⟩) (blkB4 V c ⟨n, hn⟩) r q).trans ?_
      rw [pay1_apply4, zero_add, blkprod4 V c ⟨n, hn⟩ r q, h0, Finset.sum_range_one]
    · have hlt : n - 1 < n := by omega
      have e1 : (n - 1) / 8 = n / 8 := by omega
      have e2 : (n - 1) % 8 + 1 = n % 8 := by omega
      have ihp := ih (n - 1) hlt (Nat.lt_of_le_of_lt (Nat.sub_le _ _) hn) r q
      rw [e1, e2] at ihp
      by_cases h1 : n % 8 = 7
      · rw [outsAt4_C V c ⟨n, hn⟩ h0 h1]
        dsimp only
        refine (congrFun (soutC4_eq (F := Ideal) c (grid4.coords ⟨n, hn⟩) (ms4_0 ⟨n, hn⟩) (hs4_0 ⟨n, hn⟩) (ms4_1 ⟨n, hn⟩) (hs4_1 ⟨n, hn⟩) (ms4_2 ⟨n, hn⟩) (hs4_2 ⟨n, hn⟩) scM4_0 (Memref.isWhole_whole _) (fun h => h0 ((hcond4_0 ⟨n, hn⟩).mp h)) ((hcond4_1 ⟨n, hn⟩).mpr h1) (blkA4 V c ⟨n, hn⟩) (blkB4 V c ⟨n, hn⟩) (outsAt4 V c (n - 1) (Nat.lt_of_le_of_lt (Nat.sub_le _ _) hn)).2) (ix2 r q)).trans ?_
        refine (pay2_apply4 (outsAt4 V c (n - 1) (Nat.lt_of_le_of_lt (Nat.sub_le _ _) hn)).2 (blkA4 V c ⟨n, hn⟩) (blkB4 V c ⟨n, hn⟩) r q).trans ?_
        rw [ihp, blkprod4 V c ⟨n, hn⟩ r q, Finset.sum_range_succ]
      · rw [outsAt4_B V c ⟨n, hn⟩ h0 h1]
        dsimp only
        refine (congrFun (soutB4_eq (F := Ideal) c (grid4.coords ⟨n, hn⟩) (ms4_0 ⟨n, hn⟩) (hs4_0 ⟨n, hn⟩) (ms4_1 ⟨n, hn⟩) (hs4_1 ⟨n, hn⟩) (ms4_2 ⟨n, hn⟩) (hs4_2 ⟨n, hn⟩) scM4_0 (Memref.isWhole_whole _) (fun h => h0 ((hcond4_0 ⟨n, hn⟩).mp h)) (fun h => h1 ((hcond4_1 ⟨n, hn⟩).mp h)) (blkA4 V c ⟨n, hn⟩) (blkB4 V c ⟨n, hn⟩) (outsAt4 V c (n - 1) (Nat.lt_of_le_of_lt (Nat.sub_le _ _) hn)).2) (ix2 r q)).trans ?_
        refine (pay2_apply4 (outsAt4 V c (n - 1) (Nat.lt_of_le_of_lt (Nat.sub_le _ _) hn)).2 (blkA4 V c ⟨n, hn⟩) (blkB4 V c ⟨n, hn⟩) r q).trans ?_
        rw [ihp, blkprod4 V c ⟨n, hn⟩ r q, Finset.sum_range_succ]

/-- At a last reduction step the result's buffer holds what the accumulator holds. -/
theorem out4_last (c : Dev nD) (n : ℕ) (hn : n < cfg4.N) (h7 : n % 8 = 7) (r : Fin 1024) (q : Fin nCols) :
    (outsAt4 (F := Ideal) V c n hn).1 (ix2 r q) = (outsAt4 (F := Ideal) V c n hn).2 (ix2 r q) := by
  have h0 : ¬n % 8 = 0 := by omega
  rw [outsAt4_C V c ⟨n, hn⟩ h0 h7]
  dsimp only
  refine (congrFun (outC4_eq (F := Ideal) c (grid4.coords ⟨n, hn⟩) (ms4_0 ⟨n, hn⟩) (hs4_0 ⟨n, hn⟩) (ms4_1 ⟨n, hn⟩) (hs4_1 ⟨n, hn⟩) (ms4_2 ⟨n, hn⟩) (hs4_2 ⟨n, hn⟩) scM4_0 (Memref.isWhole_whole _) (fun h => h0 ((hcond4_0 ⟨n, hn⟩).mp h)) ((hcond4_1 ⟨n, hn⟩).mpr h7) (blkA4 V c ⟨n, hn⟩) (blkB4 V c ⟨n, hn⟩) (outsAt4 V c (n - 1) (Nat.lt_of_le_of_lt (Nat.sub_le _ _) hn)).2) (ix2 r q)).trans ?_
  refine Eq.trans ?_ (congrFun (soutC4_eq (F := Ideal) c (grid4.coords ⟨n, hn⟩) (ms4_0 ⟨n, hn⟩) (hs4_0 ⟨n, hn⟩) (ms4_1 ⟨n, hn⟩) (hs4_1 ⟨n, hn⟩) (ms4_2 ⟨n, hn⟩) (hs4_2 ⟨n, hn⟩) scM4_0 (Memref.isWhole_whole _) (fun h => h0 ((hcond4_0 ⟨n, hn⟩).mp h)) ((hcond4_1 ⟨n, hn⟩).mpr h7) (blkA4 V c ⟨n, hn⟩) (blkB4 V c ⟨n, hn⟩) (outsAt4 V c (n - 1) (Nat.lt_of_le_of_lt (Nat.sub_le _ _) hn)).2) (ix2 r q)).symm
  rfl

/-! ## The result array -/

/-- The matrix product's entry (1024 * ib + r, q) is the sum of the eight reduction blocks' contributions: the sum
    over the 4096 contraction coordinates regrouped into 8 blocks of 512. -/
theorem mm_blocks4 (c : Dev nD) (ib : ℕ) (hib : ib < 4) (r : Fin 1024) (q : Fin nCols) (R : Fin 4096) (hR : R.val = 1024 * ib + r.val) :
    Cert.Spec.mm (M := 4096) (K := 4096) (N := nCols) (arrA4 V c) (arrB4 V c) (ix2 R q) = ∑ kb ∈ Finset.range 8, prodBlk4 V c ib r q kb := by
  rw [Cert.Spec.mm_apply]
  refine (Cert.BlockSum.sum_blocks 8 512 (fun k => arrA4 V c (ix2 R k) * arrB4 V c (ix2 k q))).trans ?_
  refine (Cert.BlockSum.sum_range_eq_sum_fin 8 (prodBlk4 V c ib r q) _ (fun s => ?_)).symm
  unfold prodBlk4
  rw [dif_pos ⟨hib, s.isLt⟩]
  refine Finset.sum_congr rfl fun j _ => ?_
  have eR : R = ⟨1024 * ib + r.val, by have := r.isLt; omega⟩ := Fin.ext hR
  rw [eR]
  rfl

/-- Two functions of a rank-2 index agree when they agree at every pair of coordinates. -/
theorem ext4_ix2 {n0 n1 : ℕ} {α : Type} (f g : (⟨2, ![n0, n1]⟩ : Shape).Idx → α)
    (h : ∀ (a : Fin n0) (b : Fin n1), f (ix2 a b) = g (ix2 a b)) : f = g :=
  funext fun x => by rw [eq_ix2 x]; exact h _ _

/-- Entry (r, q) of the result block at point t is entry (1024 * (t / 8) + r, q) of the result array. -/
theorem blkO4_apply (c : Dev nD) (t : Fin cfg4.N) (G : Cert.Spec.Arr2 4096 nCols) (r : Fin 1024) (q : Fin nCols) (R : Fin 4096)
    (hR : R.val = 1024 * (t.val / 8) + r.val) :
    ((cfg4.win 2).blk t).view.read (Elt Ideal) G (ix2 r q) = G (ix2 R q) := by
  obtain ⟨h0, h1⟩ := idx4_2 t
  rw [View.read_apply]
  show G _ = G _
  congr 1
  funext a
  apply Fin.ext
  match a with
  | ⟨0, _⟩ => show win4_2.index t 0 * 1024 + 1 * r.val = R.val; rw [h0, hR]; omega
  | ⟨1, _⟩ => show win4_2.index t 1 * nCols + 1 * q.val = q.val; rw [h1]; omega

/-- At a last reduction step, entry (r, q) of what the result's buffer holds is the matrix product's entry
    (1024 * (t / 8) + r, q): the accumulator's invariant with all eight reduction blocks in. -/
theorem flushed4_entry (c : Dev nD) (t : Fin cfg4.N) (h7 : t.val % 8 = 7) (r : Fin 1024) (q : Fin nCols) :
    (outsAt4 (F := Ideal) V c t.val t.isLt).1 (ix2 r q)
      = Cert.Spec.mm (M := 4096) (K := 4096) (N := nCols) (arrA4 V c) (arrB4 V c)
          (ix2 ⟨1024 * (t.val / 8) + r.val, by have := r.isLt; have hN : t.val < 32 := lt_of_lt_of_eq t.isLt N_4; omega⟩ q) := by
  have hN : t.val < 32 := lt_of_lt_of_eq t.isLt N_4
  refine (out4_last V c t.val t.isLt h7 r q).trans ?_
  refine (acc4_inv V c t.val t.isLt r q).trans ?_
  rw [h7]
  exact (mm_blocks4 V c (t.val / 8) (by omega) r q _ rfl).symm

/-- What a write-back writes: at the points ≡ 7 (mod 8), the point's block of the matrix product. -/
theorem flushed4_eq (c : Dev nD) (t : Fin cfg4.N) (hf : (cfg4.win 2).flush t = true) :
    (dat4 V c).flushed 2 t = ((cfg4.win 2).blk t).view.read (Elt Ideal) (Cert.Spec.mm (M := 4096) (K := 4096) (N := nCols) (arrA4 V c) (arrB4 V c)) := by
  have h7 : t.val % 8 = 7 := (flush4_2 t).mp hf
  show (cfg4.win 2).cut (grid4.coords t) ((dat4 V c).after 2 t) = _
  rw [after4_2]
  refine ext4_ix2 (n0 := 1024) (n1 := nCols) _ _ fun r q => ?_
  exact (flushed4_entry V c t h7 r q).trans (blkO4_apply c t _ r q _ rfl).symm

/-- THE VALUE: the result array ends holding the matrix product of the two operand arrays (the blocks written at
    the points ≡ 7 (mod 8) tile it). -/
theorem final4 (c : Dev nD) : (dat4 (F := Ideal) V c).arrAt 2 cfg4.N = Cert.Spec.mm (M := 4096) (K := 4096) (N := nCols) (V c main_v1) (V c main_v33) :=
  (dat4 V c).arrAt_eq_of_cover 2 (Cert.Spec.mm (M := 4096) (K := 4096) (N := nCols) (arrA4 V c) (arrB4 V c)) (flushed4_eq V c) fun i => by
    have hi0 : (i 0 : Nat) < 4096 := (i 0).isLt
    have hi1 : (i 1 : Nat) < nCols := (i 1).isLt
    have ht : 8 * ((i 0 : Nat) / 1024) + 7 < cfg4.N := by rw [show cfg4.N = 32 from N_4]; omega
    refine ⟨⟨8 * ((i 0 : Nat) / 1024) + 7, ht⟩, (flush4_2 _).mpr (by show (8 * ((i 0 : Nat) / 1024) + 7) % 8 = 7; omega), ?_⟩
    obtain ⟨j0, j1⟩ := idx4_2 ⟨8 * ((i 0 : Nat) / 1024) + 7, ht⟩
    show i ∈ ((View.whole main_v35).slice (win4_2.rect ⟨8 * ((i 0 : Nat) / 1024) + 7, ht⟩)).set
    rw [View.set_slice_whole, Rect.mem_set_unit]
    intro a
    match a with
    | ⟨0, _⟩ =>
      show win4_2.index ⟨8 * ((i 0 : Nat) / 1024) + 7, ht⟩ 0 * 1024 ≤ (i 0 : Nat) ∧ (i 0 : Nat) < win4_2.index ⟨8 * ((i 0 : Nat) / 1024) + 7, ht⟩ 0 * 1024 + 1024
      rw [j0]; show (8 * ((i 0 : Nat) / 1024) + 7) / 8 * 1024 ≤ (i 0 : Nat) ∧ (i 0 : Nat) < (8 * ((i 0 : Nat) / 1024) + 7) / 8 * 1024 + 1024; omega
    | ⟨1, _⟩ =>
      show win4_2.index ⟨8 * ((i 0 : Nat) / 1024) + 7, ht⟩ 1 * nCols ≤ (i 1 : Nat) ∧ (i 1 : Nat) < win4_2.index ⟨8 * ((i 0 : Nat) / 1024) + 7, ht⟩ 1 * nCols + nCols
      rw [j1]; omega

end Cert.KernelIdeal.Gen
end
-- ==== Proof.KernelIdealH.Reg5Value.lean ====
import proofs.«157173_j56882546868342_2_alg».proof.Proof.KernelIdealH.Reg5
import proofs.«157173_j56882546868342_2_alg».proof.Proof.KernelIdealH.Spec
import Idealize.ShloMosaic.Lib.Pipeline.Value
import Idealize.ShloMosaic.Lib.ValueIdx
import Idealize.ShloMosaic.PureOps.Ideal.Laws
import Idealize.ShloMosaic.Lib.Tactic

set_option maxRecDepth 16384

noncomputable section

namespace Cert.KernelIdeal.Gen

open Idealize.ShloMosaic Idealize.ShloMosaic.TcCoe Idealize.ShloMosaic.Tactic Idealize.ShloMosaic.ValueIdx
open Idealize.SL Idealize.SL.Sem
open Idealize.ShloMosaic.Pipeline (Dat Cfg Window)

/-! # Region 5 at the ideal values: `main_v36` ends at the matrix product of `main_v35` and `main_v30`, plus `main_v34`, rectified -/

/-! ## The block product at an index, at the ideal values -/

theorem hz5 : (![0, 0] : Fin 2 → Nat) = fun _ => 0 := funext fun a => by fin_cases a <;> rfl

theorem lhs_blk5_0 (i : S1024x512.Idx) (q : dot_S1024x512_S512x512_S1024x512_1_0_0_1_n_n.contr.Idx) :
    (dot_S1024x512_S512x512_S1024x512_1_0_0_1_n_n.lhsIdx i q 0).val = (i 0).val := by
  unfold DotDims.lhsIdx
  rw [dif_neg (show ¬(0 : Fin S1024x512.rank) ∈ dot_S1024x512_S512x512_S1024x512_1_0_0_1_n_n.lhsBatch by decide), dif_pos (show (0 : Fin S1024x512.rank) ∈ dot_S1024x512_S512x512_S1024x512_1_0_0_1_n_n.lhsNonContracting by decide)]
  rfl
theorem lhs_blk5_1 (i : S1024x512.Idx) (q : dot_S1024x512_S512x512_S1024x512_1_0_0_1_n_n.contr.Idx) :
    (dot_S1024x512_S512x512_S1024x512_1_0_0_1_n_n.lhsIdx i q 1).val = (q ⟨0, by decide⟩).val :=
  dot_S1024x512_S512x512_S1024x512_1_0_0_1_n_n.lhsIdx_val_of_single rfl i q
theorem rhs_blk5_0 (i : S1024x512.Idx) (q : dot_S1024x512_S512x512_S1024x512_1_0_0_1_n_n.contr.Idx) :
    (dot_S1024x512_S512x512_S1024x512_1_0_0_1_n_n.rhsIdx i q 0).val = (q ⟨0, by decide⟩).val :=
  dot_S1024x512_S512x512_S1024x512_1_0_0_1_n_n.rhsIdx_val_of_single rfl i q
theorem rhs_blk5_1 (i : S1024x512.Idx) (q : dot_S1024x512_S512x512_S1024x512_1_0_0_1_n_n.contr.Idx) :
    (dot_S1024x512_S512x512_S1024x512_1_0_0_1_n_n.rhsIdx i q 1).val = (i 1).val := by
  unfold DotDims.rhsIdx
  rw [dif_neg (show ¬(1 : Fin S512x512.rank) ∈ dot_S1024x512_S512x512_S1024x512_1_0_0_1_n_n.rhsBatch by decide), dif_pos (show (1 : Fin S512x512.rank) ∈ dot_S1024x512_S512x512_S1024x512_1_0_0_1_n_n.rhsNonContracting by decide)]
  rfl

/-- A block product into the zero accumulator, at entry (r, j): the sum over the contracted coordinate. -/
theorem blockProduct5_apply (x0 : FVec Ideal S1024x512 .bf16) (x1 : FVec Ideal S512x512 .bf16) (r : Fin 1024) (j : Fin 512) :
    matmul (F := Ideal) dot_S1024x512_S512x512_S1024x512_1_0_0_1_n_n none x0 x1 (constant (F := Ideal) S1024x512 .f32 0x00000000#32) (ix2 r j)
      = ∑ k : Fin 512, x0 (ix2 r k) * x1 (ix2 k j) := by
  show FloatOps.matmul dot_S1024x512_S512x512_S1024x512_1_0_0_1_n_n none x0 x1 (constant (F := Ideal) S1024x512 .f32 0x00000000#32) (ix2 r j) = _
  rw [Ideal.matmul_constant_zero_apply, ← Equiv.sum_comp (contrEquiv1 dot_S1024x512_S512x512_S1024x512_1_0_0_1_n_n 512 rfl rfl).symm]
  refine Finset.sum_congr rfl fun k _ => ?_
  have hk := contrEquiv1_symm_val dot_S1024x512_S512x512_S1024x512_1_0_0_1_n_n 512 rfl rfl k
  have el : dot_S1024x512_S512x512_S1024x512_1_0_0_1_n_n.lhsIdx (ix2 r j) ((contrEquiv1 dot_S1024x512_S512x512_S1024x512_1_0_0_1_n_n 512 rfl rfl).symm k) = ix2 r k := funext fun a => Fin.ext (by
    match a with
    | ⟨0, _⟩ => exact lhs_blk5_0 _ _
    | ⟨1, _⟩ => exact (lhs_blk5_1 _ _).trans hk)
  have er : dot_S1024x512_S512x512_S1024x512_1_0_0_1_n_n.rhsIdx (ix2 r j) ((contrEquiv1 dot_S1024x512_S512x512_S1024x512_1_0_0_1_n_n 512 rfl rfl).symm k) = ix2 k j := funext fun a => Fin.ext (by
    match a with
    | ⟨0, _⟩ => exact (rhs_blk5_0 _ _).trans hk
    | ⟨1, _⟩ => exact rhs_blk5_1 _ _)
  rw [el, er]

/-- The accumulator's first store is the zero splat. -/
theorem pay5_1_apply (y : S1024x512.Idx) : k5_pay1 (F := Ideal) y = 0 := by
  unfold k5_pay1
  simp only [shapeCast_self]
  exact Ideal.ofBits_zero_f32

/-- The accumulator's update at entry (r, j): what it held plus the block product. -/
theorem pay5_2_apply (v3 : FVec Ideal S1024x512 .f32) (x0 : FVec Ideal S1024x512 .bf16) (x1 : FVec Ideal S512x512 .bf16) (r : Fin 1024) (j : Fin 512) :
    k5_pay2 (F := Ideal) v3 x0 x1 (ix2 r j) = v3 (ix2 r j) + ∑ k : Fin 512, x0 (ix2 r k) * x1 (ix2 k j) := by
  unfold k5_pay2
  simp only [shapeCast_self]
  exact congrArg (v3 (ix2 r j) + ·) (blockProduct5_apply x0 x1 r j)

/-- The output's store: the accumulator plus the added operand, rectified; the format changes are the identity at the
    ideal values. -/
theorem pay5_3_apply (v16 : FVec Ideal S1024x512 .f32) (v17 : FVec Ideal S1024x512 .bf16) (y : S1024x512.Idx) :
    k5_pay3 (F := Ideal) v16 v17 y = max (v16 y + v17 y) 0 := by
  unfold k5_pay3
  simp only [shapeCast_self]
  show max (v16 y + v17 y) (Ideal.ofBits .f32 0x00000000#32) = _
  rw [Ideal.ofBits_zero_f32]

/-- What one point stores into the output, at entry (r, j): the block product plus the added operand, rectified. -/
theorem pay5_apply (x0 : FVec Ideal S1024x512 .bf16) (x1 : FVec Ideal S512x512 .bf16) (x2 : FVec Ideal S1024x512 .bf16) (r : Fin 1024) (j : Fin 512) :
    k5_pay3 (F := Ideal) (k5_pay2 (F := Ideal) (k5_pay1 (F := Ideal)) x0 x1) x2 (ix2 r j)
      = max ((∑ k : Fin 512, x0 (ix2 r k) * x1 (ix2 k j)) + x2 (ix2 r j)) 0 := by
  rw [pay5_3_apply, pay5_2_apply, pay5_1_apply, zero_add]

/-! ## The pieces the run found, and the blocks read off the arrays (any float instance) -/

section Generic
variable {F : FTy → Type} [FloatOps F]
variable (V : (c : Dev nD) → (b : Ref sig .tc) → Buf (Elt F) ((c : Thread nD τ).loc b))

/-- The output's buffer after a point: the zeroed accumulator plus the block product, plus the added operand, rectified, rounded. -/
theorem out5_A_3_eq (c : Dev nD) (i : grid5.Coords) (arg3 : Memref sig .tc .vmem S1024x512 .bf16) (harg3 : arg3.IsWhole) (arg4 : Memref sig .tc .vmem S512x512 .bf16) (harg4 : arg4.IsWhole) (arg5 : Memref sig .tc .vmem S1024x512 .bf16) (harg5 : arg5.IsWhole) (arg6 : Memref sig .tc .vmem S1024x512 .bf16) (harg6 : arg6.IsWhole) (arg7 : Memref sig .tc .vmem S1024x512 .f32) (harg7 : arg7.IsWhole) (hc0 : cond5_0 i) (hc1 : cond5_1 i)
    (x0 : Vec F S1024x512 .bf16) (x1 : Vec F S512x512 .bf16) (x2 : Vec F S1024x512 .bf16) :
    out5_A_3 c i arg3 harg3 arg4 harg4 arg5 harg5 arg6 harg6 arg7 harg7 hc0 hc1 x0 x1 x2 = k5_pay3 (k5_pay2 (k5_pay1 (F := F)) x0 x1) x2 := by
  unfold out5_A_3
  rw [View.read_writes_eq_canon _ _ _ (cover5_A_3 c i arg3 harg3 arg4 harg4 arg5 harg5 arg6 harg6 arg7 harg7 hc0 hc1 x0 x1 x2)]
  unfold kernelRun5_A
  dsimp only
  try sl_unfold_words
  rw [View.canon_unit_zero hz5]
  simp only [View.readCov_cons_toLoadRect, View.readAt_eq_ld, harg3.read_unread, harg4.read_unread, harg5.read_unread, View.ld_unit_zero (S := S1024x512) hz5, View.ld_unit_zero (S := S512x512) hz5]

/-- The printed index maps, decided over the grid: the left operand's, the added operand's and the output's row block is
    the point's number, every other block index is zero. -/
theorem idx_facts5 : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0
    ∧ win5_3.index t (0 : Fin 2) = t.val ∧ win5_3.index t (1 : Fin 2) = 0 :=
  (by decide +kernel : ∀ t : Fin grid5.N, _)

/-- The left operand's block at point `t` is rows 1024 t … 1024 t + 1023 of `main_v35`. -/
theorem xblk5_apply (c : Dev nD) (t : Fin cfg5.N) (r : Fin 1024) (k : Fin 512) (hr : 1024 * t.val + r.val < 4096) :
    (iblk5 V c 0 t : Vec F S1024x512 .bf16) (ix2 r k) = (V c main_v35 : Vec F S4096x512 .bf16) (ix2 ⟨1024 * t.val + r.val, hr⟩ k) := by
  obtain ⟨e0, e1, -⟩ := idx_facts5 t
  unfold iblk5
  rw [View.read_apply]
  show V c main_v35 _ = V c main_v35 _
  congr 1
  funext a
  apply Fin.ext
  match a with
  | ⟨0, _⟩ => show win5_0.index t (0 : Fin 2) * 1024 + 1 * r.val = 1024 * t.val + r.val; rw [e0]; omega
  | ⟨1, _⟩ => show win5_0.index t (1 : Fin 2) * 512 + 1 * k.val = k.val; rw [e1]; omega

/-- The right operand's block at every point is the whole of `main_v30`. -/
theorem wblk5_apply (c : Dev nD) (t : Fin cfg5.N) (k : Fin 512) (j : Fin 512) :
    (iblk5 V c 1 t : Vec F S512x512 .bf16) (ix2 k j) = (V c main_v30 : Vec F S512x512 .bf16) (ix2 k j) := by
  obtain ⟨-, -, e0, e1, -⟩ := idx_facts5 t
  unfold iblk5
  rw [View.read_apply]
  show V c main_v30 _ = V c main_v30 _
  congr 1
  funext a
  apply Fin.ext
  match a with
  | ⟨0, _⟩ => show win5_1.index t (0 : Fin 2) * 512 + 1 * k.val = k.val; rw [e0]; omega
  | ⟨1, _⟩ => show win5_1.index t (1 : Fin 2) * 512 + 1 * j.val = j.val; rw [e1]; omega

/-- The added operand's block at point `t` is rows 1024 t … 1024 t + 1023 of `main_v34`. -/
theorem ablk5_apply (c : Dev nD) (t : Fin cfg5.N) (r : Fin 1024) (j : Fin 512) (hr : 1024 * t.val + r.val < 4096) :
    (iblk5 V c 2 t : Vec F S1024x512 .bf16) (ix2 r j) = (V c main_v34 : Vec F S4096x512 .bf16) (ix2 ⟨1024 * t.val + r.val, hr⟩ j) := by
  obtain ⟨-, -, -, -, e0, e1, -⟩ := idx_facts5 t
  unfold iblk5
  rw [View.read_apply]
  show V c main_v34 _ = V c main_v34 _
  congr 1
  funext a
  apply Fin.ext
  match a with
  | ⟨0, _⟩ => show win5_2.index t (0 : Fin 2) * 1024 + 1 * r.val = 1024 * t.val + r.val; rw [e0]; omega
  | ⟨1, _⟩ => show win5_2.index t (1 : Fin 2) * 512 + 1 * j.val = j.val; rw [e1]; omega

/-- Entry (r, j) of the output's block at point `t` is entry (1024 t + r, j) of `main_v36`. -/
theorem oemb5 (t : Fin cfg5.N) (r : Fin 1024) (j : Fin 512) (hr : 1024 * t.val + r.val < 4096) :
    ((cfg5.win 3).blk t).view.emb (ix2 r j) = (ix2 ⟨1024 * t.val + r.val, hr⟩ j : S4096x512.Idx) := by
  obtain ⟨-, -, -, -, -, -, e0, e1⟩ := idx_facts5 t
  funext a
  apply Fin.ext
  match a with
  | ⟨0, _⟩ => show win5_3.index t (0 : Fin 2) * 1024 + 1 * r.val = 1024 * t.val + r.val; rw [e0]; omega
  | ⟨1, _⟩ => show win5_3.index t (1 : Fin 2) * 512 + 1 * j.val = j.val; rw [e1]; omega

/-- An index of `main_v36` is in point `t`'s block iff each coordinate is in the block's range on its axis. -/
theorem mem_blk5 (t : Fin cfg5.N) (i : S4096x512.Idx) :
    i ∈ ((cfg5.win 3).blk t).view.set ↔ ∀ a : Fin 2, win5_3.index t a * S1024x512.size a ≤ (i a).val ∧ (i a).val < win5_3.index t a * S1024x512.size a + S1024x512.size a := by
  show i ∈ ((View.whole main_v36).slice (win5_3.rect t)).set ↔ _
  rw [View.set_slice_whole, Rect.mem_set_unit]
  exact Iff.rfl

/-- Every index of `main_v36` is in the block of the point that its row selects. -/
theorem cover5 (i : S4096x512.Idx) : ∃ t : Fin cfg5.N, (cfg5.win 3).flush t = true ∧ i ∈ ((cfg5.win 3).blk t).view.set := by
  have hi0 : (i 0).val < 4096 := (i 0).isLt
  have hi1 : (i 1).val < 512 := (i 1).isLt
  have hN : cfg5.N = 4 := N_5
  refine ⟨⟨(i 0).val / 1024, by rw [hN]; omega⟩, flush5_3 _, ?_⟩
  rw [mem_blk5]
  obtain ⟨-, -, -, -, -, -, e0, e1⟩ := idx_facts5 ⟨(i 0).val / 1024, by rw [hN]; omega⟩
  intro a
  match a with
  | ⟨0, _⟩ => show win5_3.index _ (0 : Fin 2) * 1024 ≤ (i 0).val ∧ (i 0).val < win5_3.index _ (0 : Fin 2) * 1024 + 1024; rw [e0]; dsimp only; omega
  | ⟨1, _⟩ => show win5_3.index _ (1 : Fin 2) * 512 ≤ (i 1).val ∧ (i 1).val < win5_3.index _ (1 : Fin 2) * 512 + 512; rw [e1]; omega

end Generic

/-! ## The array after the region, at the ideal values -/

section AtIdeal
variable (V : (c : Dev nD) → (b : Ref sig .tc) → Buf (Elt Ideal) ((c : Thread nD τ).loc b))

/-- What point `t` writes back is block `t` of the rectified sum of the matrix product and the added array, as the
    region finds them. -/
theorem flushed5_eq (c : Dev nD) (t : Fin cfg5.N) :
    (dat5 (F := Ideal) V c).flushed 3 t = ((cfg5.win 3).blk t).view.read (Elt Ideal) (Cert.Spec.mmAddRelu (M := 4096) (K := 512) (N := 512) (V c main_v35) (V c main_v30) (V c main_v34)) := by
  show (cfg5.win 3).cut (grid5.coords t) ((dat5 (F := Ideal) V c).after 3 t) = _
  rw [after5_3, outsAt5_A, out5_A_3_eq]
  have hN : t.val < 4 := lt_of_lt_of_eq t.isLt (show cfg5.N = 4 from N_5)
  funext y
  obtain ⟨r, j, rfl⟩ : ∃ (r : Fin 1024) (j : Fin 512), y = ix2 r j := ⟨y 0, y 1, eq_ix2 y⟩
  have hr : 1024 * t.val + r.val < 4096 := by have := r.isLt; omega
  show k5_pay3 (F := Ideal) (k5_pay2 (F := Ideal) (k5_pay1 (F := Ideal)) (iblk5 V c 0 t) (iblk5 V c 1 t)) (iblk5 V c 2 t) (ix2 r j)
    = Cert.Spec.mmAddRelu (M := 4096) (K := 512) (N := 512) (V c main_v35) (V c main_v30) (V c main_v34) (((cfg5.win 3).blk t).view.emb (ix2 r j))
  rw [oemb5 t r j hr]
  refine (pay5_apply (iblk5 V c 0 t) (iblk5 V c 1 t) (iblk5 V c 2 t) r j).trans ?_
  rw [ablk5_apply V c t r j hr]
  show _ = max (Cert.Spec.mm (M := 4096) (K := 512) (N := 512) (V c main_v35) (V c main_v30) (ix2 ⟨1024 * t.val + r.val, hr⟩ j)
    + (V c main_v34 : Vec Ideal S4096x512 .bf16) (ix2 ⟨1024 * t.val + r.val, hr⟩ j)) 0
  rw [Cert.Spec.mm_apply]
  refine congrArg (fun s : EReal => max (s + (V c main_v34 : Vec Ideal S4096x512 .bf16) (ix2 ⟨1024 * t.val + r.val, hr⟩ j)) 0) (Finset.sum_congr rfl fun k _ => ?_)
  rw [xblk5_apply V c t r k hr, wblk5_apply V c t k j]

/-- THE VALUE of region 5: `main_v36` ends at the rectified sum of the matrix product of `main_v35` and `main_v30`
    and `main_v34`. -/
theorem final5 (c : Dev nD) :
    (dat5 (F := Ideal) V c).arrAt 3 cfg5.N = Cert.Spec.mmAddRelu (M := 4096) (K := 512) (N := 512) (V c main_v35) (V c main_v30) (V c main_v34) :=
  (dat5 (F := Ideal) V c).arrAt_eq_of_cover 3 (Cert.Spec.mmAddRelu (M := 4096) (K := 512) (N := 512) (V c main_v35) (V c main_v30) (V c main_v34))
    (fun t _ => flushed5_eq V c t) cover5

end AtIdeal

end Cert.KernelIdeal.Gen

end
-- ==== Proof.KernelIdealH.Reg6Value.lean ====
/- The VALUE of region 6 over the extended reals: its result array main_v37 ends holding the matrix product
   main_v4 · main_v5. The contraction's 1024 indices are split into two blocks of 512; the grid point (i, j, k) adds
   the product of the blocks (i, k) and (k, j) into an accumulator, and the point with k = 1 writes the accumulator
   out. First what each control case of the body leaves, as the body's payloads of the blocks (generic in the float
   model); then those payloads read at an index over the extended reals, where the block product into a zero
   accumulator is a plain sum and rounding is the identity; then the two points of one output block chained; then
   the written blocks, which cover the result array. -/
import proofs.«157173_j56882546868342_2_alg».proof.Proof.KernelIdealH.Reg6
import proofs.«157173_j56882546868342_2_alg».proof.Proof.KernelIdealH.Spec
import Idealize.ShloMosaic.Lib.Pipeline.Value
import Idealize.ShloMosaic.PureOps.Ideal.Laws
import Idealize.ShloMosaic.Lib.ValueIdx
import Idealize.ShloMosaic.Lib.Tactic
set_option maxRecDepth 16384
noncomputable section
namespace Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat)

theorem hz6 : (![0, 0] : Fin 2 → Nat) = fun _ => 0 := funext fun a => by fin_cases a <;> rfl

/-! ## What the runs found, as the payloads of the blocks -/

section Pieces
variable {F : FTy → Type} [FloatOps F]

/-- Case A leaves in the accumulator the update of the zero block by the point's blocks: of its two whole stores the
    later one covers, and its load of the accumulator reads back the reset. -/
theorem soutA6_eq (c : Dev nD) (i : grid6.Coords) (arg3 : Memref sig .tc .vmem S1024x512 .bf16) (harg3 : arg3.IsWhole) (arg4 : Memref sig .tc .vmem S512x512 .bf16) (harg4 : arg4.IsWhole) (arg5 : Memref sig .tc .vmem S1024x512 .bf16) (harg5 : arg5.IsWhole) (arg6 : Memref sig .tc .vmem S1024x512 .f32) (harg6 : arg6.IsWhole) (hc0 : cond6_0 i) (hc1 : ¬cond6_1 i)
    (x0 : Vec F S1024x512 .bf16) (x1 : Vec F S512x512 .bf16) :
    sout6_A_0 c i arg3 harg3 arg4 harg4 arg5 harg5 arg6 harg6 hc0 hc1 x0 x1 = k6_pay2 k6_pay1 x0 x1 := by
  unfold sout6_A_0
  rw [View.read_writes_eq_canon _ _ _ (scover6_A_0 c i arg3 harg3 arg4 harg4 arg5 harg5 arg6 harg6 hc0 hc1 x0 x1)]
  unfold kernelRun6_A
  dsimp only
  sl_unfold_words
  rw [View.canon_cons_unit_zero (S := S1024x512) hz6, View.readCov_unit_zero (S := S1024x512) _ hz6]
  simp only [View.readAt_eq_ld, harg3.read_unread, harg4.read_unread, View.ld_unit_zero (S := S1024x512) hz6, View.ld_unit_zero (S := S512x512) hz6]

/-- Case C leaves in the accumulator the update of what it found by the point's blocks. -/
theorem soutC6_eq (c : Dev nD) (i : grid6.Coords) (arg3 : Memref sig .tc .vmem S1024x512 .bf16) (harg3 : arg3.IsWhole) (arg4 : Memref sig .tc .vmem S512x512 .bf16) (harg4 : arg4.IsWhole) (arg5 : Memref sig .tc .vmem S1024x512 .bf16) (harg5 : arg5.IsWhole) (arg6 : Memref sig .tc .vmem S1024x512 .f32) (harg6 : arg6.IsWhole) (hc0 : ¬cond6_0 i) (hc1 : cond6_1 i)
    (x0 : Vec F S1024x512 .bf16) (x1 : Vec F S512x512 .bf16) (xs0 : Vec F S1024x512 .f32) :
    sout6_C_0 c i arg3 harg3 arg4 harg4 arg5 harg5 arg6 harg6 hc0 hc1 x0 x1 xs0 = k6_pay2 xs0 x0 x1 := by
  unfold sout6_C_0
  rw [View.read_writes_eq_canon _ _ _ (scover6_C_0 c i arg3 harg3 arg4 harg4 arg5 harg5 arg6 harg6 hc0 hc1 x0 x1 xs0)]
  unfold kernelRun6_C
  dsimp only
  try sl_unfold_words
  rw [View.canon_unit_zero (S := S1024x512) hz6]
  simp only [View.readAt_eq_ld, harg3.read_unread, harg4.read_unread, harg6.read_unread, View.ld_unit_zero (S := S1024x512) hz6, View.ld_unit_zero (S := S512x512) hz6]

/-- Case C leaves in the output's buffer that update, rounded: its load of the accumulator reads back the store. -/
theorem outC6_eq (c : Dev nD) (i : grid6.Coords) (arg3 : Memref sig .tc .vmem S1024x512 .bf16) (harg3 : arg3.IsWhole) (arg4 : Memref sig .tc .vmem S512x512 .bf16) (harg4 : arg4.IsWhole) (arg5 : Memref sig .tc .vmem S1024x512 .bf16) (harg5 : arg5.IsWhole) (arg6 : Memref sig .tc .vmem S1024x512 .f32) (harg6 : arg6.IsWhole) (hc0 : ¬cond6_0 i) (hc1 : cond6_1 i)
    (x0 : Vec F S1024x512 .bf16) (x1 : Vec F S512x512 .bf16) (xs0 : Vec F S1024x512 .f32) :
    out6_C_2 c i arg3 harg3 arg4 harg4 arg5 harg5 arg6 harg6 hc0 hc1 x0 x1 xs0 = k6_pay3 (k6_pay2 xs0 x0 x1) := by
  unfold out6_C_2
  rw [View.read_writes_eq_canon _ _ _ (cover6_C_2 c i arg3 harg3 arg4 harg4 arg5 harg5 arg6 harg6 hc0 hc1 x0 x1 xs0)]
  unfold kernelRun6_C
  dsimp only
  try sl_unfold_words
  rw [View.canon_unit_zero (S := S1024x512) hz6, View.readCov_unit_zero (S := S1024x512) _ hz6]
  simp only [View.readAt_eq_ld, harg3.read_unread, harg4.read_unread, harg6.read_unread, View.ld_unit_zero (S := S1024x512) hz6, View.ld_unit_zero (S := S512x512) hz6]

end Pieces

/-! ## The payloads, opened -/

section Payloads
variable {F : FTy → Type} [FloatOps F]

/-- The accumulator's update: what it held plus the block product into a zero accumulator. -/
theorem pay6_2_eq (v3 : Vec F S1024x512 .f32) (v4 : Vec F S1024x512 .bf16) (v6 : Vec F S512x512 .bf16) :
    k6_pay2 v3 v4 v6 = addf v3 (matmul dot_S1024x512_S512x512_S1024x512_1_0_0_1_n_n none v4 v6 (constant S1024x512 .f32 0x00000000#32)) := by
  unfold k6_pay2
  refine (shapeCast_self _ _).trans ?_
  refine congrArg (addf v3) ?_
  exact congrArg₂ (fun a b => matmul dot_S1024x512_S512x512_S1024x512_1_0_0_1_n_n none a b (constant S1024x512 .f32 0x00000000#32)) (shapeCast_self _ _) (shapeCast_self _ _)

/-- The reset: the zero block. -/
theorem pay6_1_eq : (k6_pay1 : FVec F S1024x512 .f32) = broadcast S1024x512 (Scalar.ofBits .f32 0x00000000#32) := by
  unfold k6_pay1
  exact shapeCast_self _ _

end Payloads

/-! ## The payloads at an index, over the extended reals -/

/-- The contraction of the block product runs over the 512 columns of the left block. -/
theorem pay6_2_apply (v3 : Vec Ideal S1024x512 .f32) (v4 : Vec Ideal S1024x512 .bf16) (v6 : Vec Ideal S512x512 .bf16)
    (r : Fin 1024) (j : Fin 512) :
    k6_pay2 (F := Ideal) v3 v4 v6 (ix2 r j) = v3 (ix2 r j) + ∑ k : Fin 512, v4 (ix2 r k) * v6 (ix2 k j) := by
  rw [pay6_2_eq]
  refine (congrArg (v3 (ix2 r j) + ·) (Ideal.matmul_constant_zero_apply dot_S1024x512_S512x512_S1024x512_1_0_0_1_n_n none v4 v6 (ix2 r j))).trans ?_
  rw [← Equiv.sum_comp (contrEquiv1 dot_S1024x512_S512x512_S1024x512_1_0_0_1_n_n 512 rfl rfl).symm]
  refine congrArg (v3 (ix2 r j) + ·) (Finset.sum_congr rfl fun k _ => ?_)
  have c2 := contrEquiv1_symm_val dot_S1024x512_S512x512_S1024x512_1_0_0_1_n_n 512 rfl rfl k
  have l2 : (dot_S1024x512_S512x512_S1024x512_1_0_0_1_n_n).lhsIdx (ix2 r j) ((contrEquiv1 dot_S1024x512_S512x512_S1024x512_1_0_0_1_n_n 512 rfl rfl).symm k) = ix2 r k := by
    funext ax; apply Fin.ext
    match ax with
    | ⟨0, _⟩ => simp [DotDims.lhsIdx, dot_S1024x512_S512x512_S1024x512_1_0_0_1_n_n]; rfl
    | ⟨1, _⟩ => simp [DotDims.lhsIdx, dot_S1024x512_S512x512_S1024x512_1_0_0_1_n_n]; exact c2
  have r2 : (dot_S1024x512_S512x512_S1024x512_1_0_0_1_n_n).rhsIdx (ix2 r j) ((contrEquiv1 dot_S1024x512_S512x512_S1024x512_1_0_0_1_n_n 512 rfl rfl).symm k) = ix2 k j := by
    funext ax; apply Fin.ext
    match ax with
    | ⟨0, _⟩ => simp [DotDims.rhsIdx, dot_S1024x512_S512x512_S1024x512_1_0_0_1_n_n]; exact c2
    | ⟨1, _⟩ => simp [DotDims.rhsIdx, dot_S1024x512_S512x512_S1024x512_1_0_0_1_n_n]; rfl
  rw [l2, r2]

theorem pay6_1_apply (i : S1024x512.Idx) : (k6_pay1 : FVec Ideal S1024x512 .f32) i = 0 := by
  rw [pay6_1_eq]
  show Ideal.ofBits .f32 0x00000000#32 = 0
  exact Ideal.ofBits_zero_f32

/-- Rounding to the output's element type changes nothing over the extended reals. -/
theorem pay6_3_apply (v16 : Vec Ideal S1024x512 .f32) (i : S1024x512.Idx) : k6_pay3 (F := Ideal) v16 i = v16 i := rfl

/-! ## A sum over 1024 indices as two sums over 512 -/

theorem sum_halves6 (f : Fin 1024 → EReal) :
    ∑ k : Fin 1024, f k = (∑ k : Fin 512, f ⟨k.val, by omega⟩) + ∑ k : Fin 512, f ⟨512 + k.val, by omega⟩ :=
  Fin.sum_univ_add (a := 512) (b := 512) f

/-! ## The arrays and the blocks, at their literal types -/

variable (V : (c : Dev nD) → (b : Ref sig .tc) → Buf (Elt Ideal) ((c : Thread nD τ).loc b))

/-- The left operand, 4096 × 1024. -/
abbrev larr6 (c : Dev nD) : Cert.Spec.Arr2 4096 1024 := V c main_v4
/-- The right operand, 1024 × 512. -/
abbrev rarr6 (c : Dev nD) : Cert.Spec.Arr2 1024 512 := V c main_v5
/-- The left operand's block at point t: rows 1024·(t/2) …, columns 512·(t%2) …. -/
abbrev lblk6 (c : Dev nD) (t : Fin cfg6.N) : Vec Ideal S1024x512 .bf16 := iblk6 V c 0 t
/-- The right operand's block at point t: rows 512·(t%2) …, all 512 columns. -/
abbrev rblk6 (c : Dev nD) (t : Fin cfg6.N) : Vec Ideal S512x512 .bf16 := iblk6 V c 1 t

/-- The block indices of the three windows at a point, from the grid coordinates (i, j, k) = (t / 2, 0, t % 2). -/
theorem idx6_0 (t : Fin cfg6.N) : win6_0.index t 0 = t.val / 2 ∧ win6_0.index t 1 = t.val % 2 := by
  rcases fin_N6 t with rfl | rfl | rfl | rfl | rfl | rfl | rfl | rfl <;> decide +kernel
theorem idx6_1 (t : Fin cfg6.N) : win6_1.index t 0 = t.val % 2 ∧ win6_1.index t 1 = 0 := by
  rcases fin_N6 t with rfl | rfl | rfl | rfl | rfl | rfl | rfl | rfl <;> decide +kernel
theorem idx6_2 (t : Fin cfg6.N) : win6_2.index t 0 = t.val / 2 ∧ win6_2.index t 1 = 0 := by
  rcases fin_N6 t with rfl | rfl | rfl | rfl | rfl | rfl | rfl | rfl <;> decide +kernel

/-- An entry of the left block is the left operand's entry at the block's offset. -/
theorem lblk6_apply (c : Dev nD) (t : Fin cfg6.N) (r : Fin 1024) (k : Fin 512) (R : Fin 4096) (K : Fin 1024)
    (hR : R.val = 1024 * (t.val / 2) + r.val) (hK : K.val = 512 * (t.val % 2) + k.val) :
    lblk6 V c t (ix2 r k) = larr6 V c (ix2 R K) := by
  have hi := idx6_0 t
  unfold lblk6 iblk6
  rw [View.read_apply]
  show V c main_v4 _ = V c main_v4 _
  congr 1
  funext a
  apply Fin.ext
  match a with
  | ⟨0, _⟩ => show win6_0.index t 0 * 1024 + 1 * r.val = R.val; rw [hi.1, hR]; omega
  | ⟨1, _⟩ => show win6_0.index t 1 * 512 + 1 * k.val = K.val; rw [hi.2, hK]; omega

/-- An entry of the right block is the right operand's entry at the block's offset. -/
theorem rblk6_apply (c : Dev nD) (t : Fin cfg6.N) (k : Fin 512) (j : Fin 512) (K : Fin 1024)
    (hK : K.val = 512 * (t.val % 2) + k.val) :
    rblk6 V c t (ix2 k j) = rarr6 V c (ix2 K j) := by
  have hi := idx6_1 t
  unfold rblk6 iblk6
  rw [View.read_apply]
  show V c main_v5 _ = V c main_v5 _
  congr 1
  funext a
  apply Fin.ext
  match a with
  | ⟨0, _⟩ => show win6_1.index t 0 * 512 + 1 * k.val = K.val; rw [hi.1, hK]; omega
  | ⟨1, _⟩ => show win6_1.index t 1 * 512 + 1 * j.val = j.val; rw [hi.2]; omega

/-! ## The accumulation over the two points of one output block -/

/-- After an even point the accumulator holds the zero block plus the first block product. -/
theorem acc6_even (c : Dev nD) (n : ℕ) (hn : n < cfg6.N) (h0 : n % 2 = 0) :
    (outsAt6 V c n hn).2 = k6_pay2 k6_pay1 (lblk6 V c ⟨n, hn⟩) (rblk6 V c ⟨n, hn⟩) := by
  rw [show outsAt6 V c n hn = _ from outsAt6_A V c ⟨n, hn⟩ h0]
  dsimp only
  exact soutA6_eq (F := Ideal) c (grid6.coords ⟨n, hn⟩) (ms6_0 ⟨n, hn⟩) (hs6_0 ⟨n, hn⟩) (ms6_1 ⟨n, hn⟩) (hs6_1 ⟨n, hn⟩) (ms6_2 ⟨n, hn⟩) (hs6_2 ⟨n, hn⟩) scM6_0 (Memref.isWhole_whole _) (hA6 ⟨n, hn⟩ h0).1 (hA6 ⟨n, hn⟩ h0).2 (iblk6 V c 0 ⟨n, hn⟩) (iblk6 V c 1 ⟨n, hn⟩)

/-- After an odd point the output's buffer holds, rounded, that plus the second block product. -/
theorem out6_odd (c : Dev nD) (t : Fin cfg6.N) (h1 : t.val % 2 = 1) :
    (outsAt6 V c t.val t.isLt).1
      = k6_pay3 (k6_pay2 (k6_pay2 k6_pay1 (lblk6 V c ⟨t.val - 1, Nat.lt_of_le_of_lt (Nat.sub_le _ _) t.isLt⟩) (rblk6 V c ⟨t.val - 1, Nat.lt_of_le_of_lt (Nat.sub_le _ _) t.isLt⟩))
          (lblk6 V c t) (rblk6 V c t)) := by
  have h0 : ¬t.val % 2 = 0 := by omega
  rw [outsAt6_C V c t h0]
  dsimp only
  rw [acc6_even V c (t.val - 1) (Nat.lt_of_le_of_lt (Nat.sub_le _ _) t.isLt) (by omega)]
  exact outC6_eq (F := Ideal) c (grid6.coords t) (ms6_0 t) (hs6_0 t) (ms6_1 t) (hs6_1 t) (ms6_2 t) (hs6_2 t) scM6_0 (Memref.isWhole_whole _) (hC6 t h0).1 (hC6 t h0).2 (iblk6 V c 0 t) (iblk6 V c 1 t)
    (k6_pay2 k6_pay1 (lblk6 V c ⟨t.val - 1, Nat.lt_of_le_of_lt (Nat.sub_le _ _) t.isLt⟩) (rblk6 V c ⟨t.val - 1, Nat.lt_of_le_of_lt (Nat.sub_le _ _) t.isLt⟩))

/-- So at an odd point an entry of the output's buffer is the whole contraction: the sum over the first 512 indices
    (the block the point before multiplied) plus the sum over the last 512 (this point's block). -/
theorem out6_odd_apply (c : Dev nD) (t : Fin cfg6.N) (h1 : t.val % 2 = 1) (r : Fin 1024) (j : Fin 512) (R : Fin 4096)
    (hR : R.val = 1024 * (t.val / 2) + r.val) :
    (outsAt6 V c t.val t.isLt).1 (ix2 r j) = Cert.Spec.mm (larr6 V c) (rarr6 V c) (ix2 R j) := by
  have hlt : t.val - 1 < cfg6.N := Nat.lt_of_le_of_lt (Nat.sub_le _ _) t.isLt
  rw [out6_odd V c t h1, pay6_3_apply, pay6_2_apply, pay6_2_apply, pay6_1_apply, zero_add, Cert.Spec.mm_apply, sum_halves6]
  refine congrArg₂ (· + ·) (Finset.sum_congr rfl fun k _ => ?_) (Finset.sum_congr rfl fun k _ => ?_)
  · rw [lblk6_apply V c ⟨t.val - 1, hlt⟩ r k R ⟨k.val, by omega⟩ (by show R.val = 1024 * ((t.val - 1) / 2) + r.val; omega) (by show k.val = 512 * ((t.val - 1) % 2) + k.val; omega),
      rblk6_apply V c ⟨t.val - 1, hlt⟩ k j ⟨k.val, by omega⟩ (by show k.val = 512 * ((t.val - 1) % 2) + k.val; omega)]
  · rw [lblk6_apply V c t r k R ⟨512 + k.val, by omega⟩ hR (by show 512 + k.val = 512 * (t.val % 2) + k.val; omega),
      rblk6_apply V c t k j ⟨512 + k.val, by omega⟩ (by show 512 + k.val = 512 * (t.val % 2) + k.val; omega)]

/-! ## The result array -/

/-- Every write-back (the odd points) writes the matrix product's block. -/
theorem flushed_eq6 (c : Dev nD) (t : Fin cfg6.N) (hf : (cfg6.win 2).flush t = true) :
    (dat6 V c).flushed 2 t = ((cfg6.win 2).blk t).view.read (Elt Ideal) (Cert.Spec.mm (larr6 V c) (rarr6 V c)) := by
  have h1 : t.val % 2 = 1 := (flush6_2 t).mp hf
  have hN : t.val < 8 := lt_of_lt_of_eq t.isLt (show cfg6.N = 8 from N_6)
  have hi := idx6_2 t
  show (cfg6.win 2).cut (grid6.coords t) ((dat6 V c).after 2 t) = _
  rw [after6_2]
  refine funext fun (x : S1024x512.Idx) => ?_
  obtain ⟨r, j, rfl⟩ : ∃ (r : Fin 1024) (j : Fin 512), x = ix2 r j := ⟨x 0, x 1, eq_ix2 x⟩
  rw [View.read_apply]
  refine (out6_odd_apply V c t h1 r j ⟨1024 * (t.val / 2) + r.val, by omega⟩ rfl).trans ?_
  congr 1
  funext a
  apply Fin.ext
  match a with
  | ⟨0, _⟩ => show 1024 * (t.val / 2) + r.val = win6_2.index t 0 * 1024 + 1 * r.val; rw [hi.1]; omega
  | ⟨1, _⟩ => show j.val = win6_2.index t 1 * 512 + 1 * j.val; rw [hi.2]; omega

/-- The four written blocks cover the 4096 rows: row R lies in the block of point 2·(R / 1024) + 1. -/
theorem final6 (c : Dev nD) :
    (dat6 (F := Ideal) V c).arrAt 2 cfg6.N = Cert.Spec.mm (M := 4096) (K := 1024) (N := 512) (V c main_v4) (V c main_v5) :=
  (dat6 V c).arrAt_eq_of_cover 2 (Cert.Spec.mm (larr6 V c) (rarr6 V c)) (flushed_eq6 V c) fun i => by
    have h0 : (i 0 : Nat) < 4096 := (i 0).isLt
    have h1 : (i 1 : Nat) < 512 := (i 1).isLt
    have hlt : 2 * ((i 0 : Nat) / 1024) + 1 < cfg6.N := by
      rw [show cfg6.N = 8 from N_6]; omega
    have hi := idx6_2 ⟨2 * ((i 0 : Nat) / 1024) + 1, hlt⟩
    refine ⟨⟨2 * ((i 0 : Nat) / 1024) + 1, hlt⟩, (flush6_2 _).mpr (by show (2 * ((i 0 : Nat) / 1024) + 1) % 2 = 1; omega), ?_⟩
    show i ∈ ((View.whole main_v37).slice (win6_2.rect ⟨2 * ((i 0 : Nat) / 1024) + 1, hlt⟩)).set
    rw [View.set_slice_whole, Rect.mem_set_unit]
    intro a
    match a with
    | ⟨0, _⟩ =>
      show win6_2.index ⟨2 * ((i 0 : Nat) / 1024) + 1, hlt⟩ 0 * win6_2.size 0 ≤ (i 0 : Nat) ∧ (i 0 : Nat) < win6_2.index ⟨2 * ((i 0 : Nat) / 1024) + 1, hlt⟩ 0 * win6_2.size 0 + win6_2.xsize (grid6.coords ⟨2 * ((i 0 : Nat) / 1024) + 1, hlt⟩) 0
      rw [hi.1]
      show (2 * ((i 0 : Nat) / 1024) + 1) / 2 * 1024 ≤ (i 0 : Nat) ∧ (i 0 : Nat) < (2 * ((i 0 : Nat) / 1024) + 1) / 2 * 1024 + 1024
      omega
    | ⟨1, _⟩ =>
      show win6_2.index ⟨2 * ((i 0 : Nat) / 1024) + 1, hlt⟩ 1 * win6_2.size 1 ≤ (i 1 : Nat) ∧ (i 1 : Nat) < win6_2.index ⟨2 * ((i 0 : Nat) / 1024) + 1, hlt⟩ 1 * win6_2.size 1 + win6_2.xsize (grid6.coords ⟨2 * ((i 0 : Nat) / 1024) + 1, hlt⟩) 1
      rw [hi.2]
      show 0 * 512 ≤ (i 1 : Nat) ∧ (i 1 : Nat) < 0 * 512 + 512
      omega

end Cert.KernelIdeal.Gen

end
-- ==== Proof.KernelIdealH.Reg7Value.lean ====
/- The VALUE of region 7 over the extended reals: its result array main_v39 ends holding the matrix product
   main_v2 · main_v37 with the bias row main_v38 added to every row, clamped below at zero. The contraction's 4096
   indices are eight blocks of 512; grid point (i, 0, k) adds the product of block (i, k) of the left operand and
   block (k, 0) of the right one into an accumulator that the step k = 0 zeroes first, and the step k = 7 adds the
   bias row, takes the maximum with zero and writes the block out. First what each control case of the body leaves,
   as the body's payloads of the point's blocks (generic in the float model); then the payloads read at an entry over
   the extended reals, where a block product into a zero accumulator is a plain sum and rounding is the identity;
   then the accumulator after a point as the sum of the block products of the run of eight points it belongs to;
   then each written block as a block of the one whole-array function, and the written blocks cover the result. -/
import proofs.«157173_j56882546868342_2_alg».proof.Proof.KernelIdealH.Reg7
import proofs.«157173_j56882546868342_2_alg».proof.Proof.KernelIdealH.Reg0Value
import proofs.«157173_j56882546868342_2_alg».proof.Proof.KernelIdealH.Spec
import proofs.«157173_j56882546868342_2_alg».proof.Proof.KernelIdealH.LibBlockSum
import Idealize.ShloMosaic.Lib.Pipeline.Value
import Idealize.ShloMosaic.PureOps.Ideal.Laws
import Idealize.ShloMosaic.Lib.ValueIdx
import Idealize.ShloMosaic.Lib.Tactic
set_option maxRecDepth 16384
noncomputable section
namespace Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat)

theorem hz7 : (![0, 0] : Fin 2 → Nat) = fun _ => 0 := funext fun a => by fin_cases a <;> rfl

/-! ## What the runs found, as the payloads of the point's blocks -/

section Pieces7V
variable {F : FTy → Type} [FloatOps F]

/-- A first step leaves in the accumulator the update of the zero block: of its two whole-buffer stores the later one
    covers, and the load between them reads the zero block back. -/
theorem soutA7_eq (c : Dev nD) (i : grid7.Coords) (arg3 : Memref sig .tc .vmem S1024x512 .bf16) (harg3 : arg3.IsWhole) (arg4 : Memref sig .tc .vmem S512x512 .bf16) (harg4 : arg4.IsWhole) (arg5 : Memref sig .tc .vmem S1x512 .f32) (harg5 : arg5.IsWhole) (arg6 : Memref sig .tc .vmem S1024x512 .bf16) (harg6 : arg6.IsWhole) (arg7 : Memref sig .tc .vmem S1024x512 .f32) (harg7 : arg7.IsWhole) (hc0 : cond7_0 i) (hc1 : ¬cond7_1 i) (x0 : Vec F S1024x512 .bf16) (x1 : Vec F S512x512 .bf16) (x2 : Vec F S1x512 .f32) :
    sout7_A_0 c i arg3 harg3 arg4 harg4 arg5 harg5 arg6 harg6 arg7 harg7 hc0 hc1 x0 x1 x2 = k7_pay2 (k7_pay1 (F := F)) x0 x1 := by
  unfold sout7_A_0
  rw [View.read_writes_eq_canon _ _ _ (scover7_A_0 c i arg3 harg3 arg4 harg4 arg5 harg5 arg6 harg6 arg7 harg7 hc0 hc1 x0 x1 x2)]
  unfold kernelRun7_A
  dsimp only
  try sl_unfold_words
  rw [View.canon_cons_unit_zero (S := S1024x512) hz7, View.readCov_unit_zero (S := S1024x512) _ hz7]
  simp only [View.readAt_eq_ld, harg3.read_unread, harg4.read_unread, View.ld_unit_zero (S := S1024x512) hz7, View.ld_unit_zero (S := S512x512) hz7]

/-- A middle step leaves in the accumulator the update of what it found. -/
theorem soutB7_eq (c : Dev nD) (i : grid7.Coords) (arg3 : Memref sig .tc .vmem S1024x512 .bf16) (harg3 : arg3.IsWhole) (arg4 : Memref sig .tc .vmem S512x512 .bf16) (harg4 : arg4.IsWhole) (arg5 : Memref sig .tc .vmem S1x512 .f32) (harg5 : arg5.IsWhole) (arg6 : Memref sig .tc .vmem S1024x512 .bf16) (harg6 : arg6.IsWhole) (arg7 : Memref sig .tc .vmem S1024x512 .f32) (harg7 : arg7.IsWhole) (hc0 : ¬cond7_0 i) (hc1 : ¬cond7_1 i) (x0 : Vec F S1024x512 .bf16) (x1 : Vec F S512x512 .bf16) (x2 : Vec F S1x512 .f32) (xs0 : Vec F S1024x512 .f32) :
    sout7_B_0 c i arg3 harg3 arg4 harg4 arg5 harg5 arg6 harg6 arg7 harg7 hc0 hc1 x0 x1 x2 xs0 = k7_pay2 xs0 x0 x1 := by
  unfold sout7_B_0
  rw [View.read_writes_eq_canon _ _ _ (scover7_B_0 c i arg3 harg3 arg4 harg4 arg5 harg5 arg6 harg6 arg7 harg7 hc0 hc1 x0 x1 x2 xs0)]
  unfold kernelRun7_B
  dsimp only
  try sl_unfold_words
  rw [View.canon_unit_zero (S := S1024x512) hz7]
  simp only [View.readAt_eq_ld, harg3.read_unread, harg4.read_unread, harg7.read_unread, View.ld_unit_zero (S := S1024x512) hz7, View.ld_unit_zero (S := S512x512) hz7]

/-- A last step leaves in the accumulator the update of what it found. -/
theorem soutC7_eq (c : Dev nD) (i : grid7.Coords) (arg3 : Memref sig .tc .vmem S1024x512 .bf16) (harg3 : arg3.IsWhole) (arg4 : Memref sig .tc .vmem S512x512 .bf16) (harg4 : arg4.IsWhole) (arg5 : Memref sig .tc .vmem S1x512 .f32) (harg5 : arg5.IsWhole) (arg6 : Memref sig .tc .vmem S1024x512 .bf16) (harg6 : arg6.IsWhole) (arg7 : Memref sig .tc .vmem S1024x512 .f32) (harg7 : arg7.IsWhole) (hc0 : ¬cond7_0 i) (hc1 : cond7_1 i) (x0 : Vec F S1024x512 .bf16) (x1 : Vec F S512x512 .bf16) (x2 : Vec F S1x512 .f32) (xs0 : Vec F S1024x512 .f32) :
    sout7_C_0 c i arg3 harg3 arg4 harg4 arg5 harg5 arg6 harg6 arg7 harg7 hc0 hc1 x0 x1 x2 xs0 = k7_pay2 xs0 x0 x1 := by
  unfold sout7_C_0
  rw [View.read_writes_eq_canon _ _ _ (scover7_C_0 c i arg3 harg3 arg4 harg4 arg5 harg5 arg6 harg6 arg7 harg7 hc0 hc1 x0 x1 x2 xs0)]
  unfold kernelRun7_C
  dsimp only
  try sl_unfold_words
  rw [View.canon_unit_zero (S := S1024x512) hz7]
  simp only [View.readAt_eq_ld, harg3.read_unread, harg4.read_unread, harg7.read_unread, View.ld_unit_zero (S := S1024x512) hz7, View.ld_unit_zero (S := S512x512) hz7]

/-- A last step leaves in the output's buffer the bias row added to that update, clamped below at zero: its load of the
    accumulator reads the update back. -/
theorem outC7_eq (c : Dev nD) (i : grid7.Coords) (arg3 : Memref sig .tc .vmem S1024x512 .bf16) (harg3 : arg3.IsWhole) (arg4 : Memref sig .tc .vmem S512x512 .bf16) (harg4 : arg4.IsWhole) (arg5 : Memref sig .tc .vmem S1x512 .f32) (harg5 : arg5.IsWhole) (arg6 : Memref sig .tc .vmem S1024x512 .bf16) (harg6 : arg6.IsWhole) (arg7 : Memref sig .tc .vmem S1024x512 .f32) (harg7 : arg7.IsWhole) (hc0 : ¬cond7_0 i) (hc1 : cond7_1 i) (x0 : Vec F S1024x512 .bf16) (x1 : Vec F S512x512 .bf16) (x2 : Vec F S1x512 .f32) (xs0 : Vec F S1024x512 .f32) :
    out7_C_3 c i arg3 harg3 arg4 harg4 arg5 harg5 arg6 harg6 arg7 harg7 hc0 hc1 x0 x1 x2 xs0 = k7_pay3 (k7_pay2 xs0 x0 x1) x2 := by
  unfold out7_C_3
  rw [View.read_writes_eq_canon _ _ _ (cover7_C_3 c i arg3 harg3 arg4 harg4 arg5 harg5 arg6 harg6 arg7 harg7 hc0 hc1 x0 x1 x2 xs0)]
  unfold kernelRun7_C
  dsimp only
  try sl_unfold_words
  rw [View.canon_unit_zero (S := S1024x512) hz7, View.readCov_unit_zero (S := S1024x512) _ hz7]
  simp only [View.readAt_eq_ld, harg3.read_unread, harg4.read_unread, harg5.read_unread, harg7.read_unread, View.ld_unit_zero (S := S1024x512) hz7, View.ld_unit_zero (S := S512x512) hz7, View.ld_unit_zero (S := S1x512) hz7]

end Pieces7V

/-! ## The payloads at an entry, over the extended reals -/

/-- The zero block. This region's reset payload is region 0's, term for term. -/
theorem pay7_1_apply (i : S1024x512.Idx) : (k7_pay1 : FVec Ideal S1024x512 .f32) i = 0 :=
  pay0_1_apply i

/-- The accumulator's update at entry (r, j): what it held plus the sum over the block's 512 contracted indices. This
    region's update payload is region 0's, term for term. -/
theorem pay7_2_apply (v3 : Vec Ideal S1024x512 .f32) (v4 : Vec Ideal S1024x512 .bf16) (v6 : Vec Ideal S512x512 .bf16)
    (r : Fin 1024) (j : Fin 512) :
    k7_pay2 (F := Ideal) v3 v4 v6 (ix2 r j) = v3 (ix2 r j) + ∑ k : Fin 512, v4 (ix2 r k) * v6 (ix2 k j) :=
  pay0_2_apply v3 v4 v6 r j

/-- The output payload at entry (r, j): the maximum with zero of the accumulator's entry plus the bias row's entry j;
    rounding to the output's element type is the identity over the extended reals. -/
theorem pay7_3_apply (v16 : Vec Ideal S1024x512 .f32) (v17 : Vec Ideal S1x512 .f32) (r : Fin 1024) (j : Fin 512) :
    k7_pay3 (F := Ideal) v16 v17 (ix2 r j) = max (v16 (ix2 r j) + v17 (ix2 0 j)) 0 := by
  unfold k7_pay3
  show max (v16 (ix2 r j) + broadcastTo S1024x512 (shapeCast S1x512 v17 shapeCasts_S1x512_S1x512) broadcasts_S1x512_S1024x512 (ix2 r j)) (Ideal.ofBits .f32 0x00000000#32) = _
  rw [Ideal.ofBits_zero_f32]
  refine congrArg (fun z => max (v16 (ix2 r j) + z) 0) ?_
  refine (broadcastTo_apply _ _ (ix2 r j) (ix2 (0 : Fin 1) j) (fun a => ?_)).trans ?_
  · match a with
    | ⟨0, _⟩ => rfl
    | ⟨1, _⟩ => rfl
  · exact congrFun (shapeCast_self v17 _) (ix2 0 j)

/-! ## The arrays and the blocks, at their literal types -/

variable (V : (c : Dev nD) → (b : Ref sig .tc) → Buf (Elt Ideal) ((c : Thread nD τ).loc b))

/-- The left operand, 4096 × 4096. -/
abbrev larr7 (c : Dev nD) : Cert.Spec.Arr2 4096 4096 := V c main_v2
/-- The right operand, 4096 × 512. -/
abbrev rarr7 (c : Dev nD) : Cert.Spec.Arr2 4096 512 := V c main_v37
/-- The bias row, 1 × 512. -/
abbrev barr7 (c : Dev nD) : Cert.Spec.Arr2 1 512 := V c main_v38
/-- The left operand's block at point t: rows 1024·(t/8) …, columns 512·(t%8) …. -/
abbrev lblk7 (c : Dev nD) (t : Fin cfg7.N) : Vec Ideal S1024x512 .bf16 := iblk7 V c 0 t
/-- The right operand's block at point t: rows 512·(t%8) …, all 512 columns. -/
abbrev rblk7 (c : Dev nD) (t : Fin cfg7.N) : Vec Ideal S512x512 .bf16 := iblk7 V c 1 t
/-- The bias row's block at point t: the whole row. -/
abbrev bblk7 (c : Dev nD) (t : Fin cfg7.N) : Vec Ideal S1x512 .f32 := iblk7 V c 2 t

/-- The windows' block indices at a point, from the grid coordinates (t / 8, 0, t % 8): decided over the grid. -/
theorem idx7_0 : ∀ t : Fin cfg7.N, win7_0.index t 0 = t.val / 8 ∧ win7_0.index t 1 = t.val % 8 :=
  (by decide +kernel : ∀ t : Fin grid7.N, win7_0.index t 0 = t.val / 8 ∧ win7_0.index t 1 = t.val % 8)
theorem idx7_1 : ∀ t : Fin cfg7.N, win7_1.index t 0 = t.val % 8 ∧ win7_1.index t 1 = 0 :=
  (by decide +kernel : ∀ t : Fin grid7.N, win7_1.index t 0 = t.val % 8 ∧ win7_1.index t 1 = 0)
theorem idx7_2 : ∀ t : Fin cfg7.N, win7_2.index t 0 = 0 ∧ win7_2.index t 1 = 0 :=
  (by decide +kernel : ∀ t : Fin grid7.N, win7_2.index t 0 = 0 ∧ win7_2.index t 1 = 0)
theorem idx7_3 : ∀ t : Fin cfg7.N, win7_3.index t 0 = t.val / 8 ∧ win7_3.index t 1 = 0 :=
  (by decide +kernel : ∀ t : Fin grid7.N, win7_3.index t 0 = t.val / 8 ∧ win7_3.index t 1 = 0)

/-- An entry of the left block is the left operand's entry at the block's offsets. -/
theorem lblk7_apply (c : Dev nD) (t : Fin cfg7.N) (r : Fin 1024) (k : Fin 512) (R : Fin 4096) (K : Fin 4096)
    (hR : R.val = 1024 * (t.val / 8) + r.val) (hK : K.val = 512 * (t.val % 8) + k.val) :
    lblk7 V c t (ix2 r k) = larr7 V c (ix2 R K) := by
  have hi := idx7_0 t
  unfold lblk7 iblk7
  rw [View.read_apply]
  show V c main_v2 _ = V c main_v2 _
  congr 1
  funext a
  apply Fin.ext
  match a with
  | ⟨0, _⟩ => show win7_0.index t 0 * 1024 + 1 * r.val = R.val; rw [hi.1, hR]; omega
  | ⟨1, _⟩ => show win7_0.index t 1 * 512 + 1 * k.val = K.val; rw [hi.2, hK]; omega

/-- An entry of the right block is the right operand's entry at the block's row offset. -/
theorem rblk7_apply (c : Dev nD) (t : Fin cfg7.N) (k : Fin 512) (j : Fin 512) (K : Fin 4096)
    (hK : K.val = 512 * (t.val % 8) + k.val) :
    rblk7 V c t (ix2 k j) = rarr7 V c (ix2 K j) := by
  have hi := idx7_1 t
  unfold rblk7 iblk7
  rw [View.read_apply]
  show V c main_v37 _ = V c main_v37 _
  congr 1
  funext a
  apply Fin.ext
  match a with
  | ⟨0, _⟩ => show win7_1.index t 0 * 512 + 1 * k.val = K.val; rw [hi.1, hK]; omega
  | ⟨1, _⟩ => show win7_1.index t 1 * 512 + 1 * j.val = j.val; rw [hi.2]; omega

/-- The bias block is the bias row at every point. -/
theorem bblk7_apply (c : Dev nD) (t : Fin cfg7.N) (j : Fin 512) :
    bblk7 V c t (ix2 0 j) = barr7 V c (ix2 0 j) := by
  have hi := idx7_2 t
  unfold bblk7 iblk7
  rw [View.read_apply]
  show V c main_v38 _ = V c main_v38 _
  congr 1
  funext a
  apply Fin.ext
  match a with
  | ⟨0, _⟩ => show win7_2.index t 0 * 1 + 1 * 0 = 0; rw [hi.1]
  | ⟨1, _⟩ => show win7_2.index t 1 * 512 + 1 * j.val = j.val; rw [hi.2]; omega

/-! ## The accumulator after a point: the sum of the block products of the run of points it belongs to -/

/-- The accumulator after point n. -/
abbrev accAfter7 (c : Dev nD) (n : ℕ) (h : n < cfg7.N) : Vec Ideal S1024x512 .f32 := (outsAt7 V c n h).2
/-- What a first step leaves: the zero block updated by the point's blocks. -/
abbrev accReset7 (c : Dev nD) (n : ℕ) (h : n < cfg7.N) : Vec Ideal S1024x512 .f32 :=
  k7_pay2 (F := Ideal) (k7_pay1 (F := Ideal)) (lblk7 V c ⟨n, h⟩) (rblk7 V c ⟨n, h⟩)
/-- What a later step leaves: what it found updated by the point's blocks. -/
abbrev accStep7 (c : Dev nD) (n : ℕ) (h : n < cfg7.N) (acc : Vec Ideal S1024x512 .f32) : Vec Ideal S1024x512 .f32 :=
  k7_pay2 (F := Ideal) acc (lblk7 V c ⟨n, h⟩) (rblk7 V c ⟨n, h⟩)

/-- Point n's block product at an entry: the sum over the block's 512 contracted indices (zero past the grid, where it is
    never read). -/
def M7 (c : Dev nD) (n : ℕ) (i : S1024x512.Idx) : EReal :=
  if h : n < cfg7.N then ∑ k : Fin 512, lblk7 V c ⟨n, h⟩ (ix2 (i 0 : Fin 1024) k) * rblk7 V c ⟨n, h⟩ (ix2 k (i 1 : Fin 512)) else 0

theorem M7_apply (c : Dev nD) (n : ℕ) (h : n < cfg7.N) (r : Fin 1024) (j : Fin 512) :
    M7 V c n (ix2 r j) = ∑ k : Fin 512, lblk7 V c ⟨n, h⟩ (ix2 r k) * rblk7 V c ⟨n, h⟩ (ix2 k j) := by
  unfold M7
  rw [dif_pos h]

/-- A point whose step is 0 is a first step. -/
theorem acc7_reset (c : Dev nD) (n : ℕ) (h : n < cfg7.N) (h0 : n % 8 = 0) : accAfter7 V c n h = accReset7 V c n h := by
  have h1 : ¬n % 8 = 7 := by omega
  show (outsAt7 V c n h).2 = _
  rw [show outsAt7 V c n h = _ from outsAt7_A V c ⟨n, h⟩ h0 h1]
  dsimp only
  exact soutA7_eq (F := Ideal) c (grid7.coords ⟨n, h⟩) (ms7_0 ⟨n, h⟩) (hs7_0 ⟨n, h⟩) (ms7_1 ⟨n, h⟩) (hs7_1 ⟨n, h⟩) (ms7_2 ⟨n, h⟩) (hs7_2 ⟨n, h⟩) (ms7_3 ⟨n, h⟩) (hs7_3 ⟨n, h⟩) scM7_0 (Memref.isWhole_whole _) ((hcond7_0 ⟨n, h⟩).mpr h0) (fun hh => h1 ((hcond7_1 ⟨n, h⟩).mp hh)) (iblk7 V c 0 ⟨n, h⟩) (iblk7 V c 1 ⟨n, h⟩) (iblk7 V c 2 ⟨n, h⟩)

/-- Any other point is a middle or a last step; either updates what the point before left. -/
theorem acc7_step (c : Dev nD) (n : ℕ) (h : n + 1 < cfg7.N) (h0 : ¬(n + 1) % 8 = 0) :
    accAfter7 V c (n + 1) h = accStep7 V c (n + 1) h (accAfter7 V c n (Nat.lt_of_succ_lt h)) := by
  show (outsAt7 V c (n + 1) h).2 = _
  by_cases h1 : (n + 1) % 8 = 7
  · rw [show outsAt7 V c (n + 1) h = _ from outsAt7_C V c ⟨n + 1, h⟩ h0 h1]
    dsimp only
    exact soutC7_eq (F := Ideal) c (grid7.coords ⟨n + 1, h⟩) (ms7_0 ⟨n + 1, h⟩) (hs7_0 ⟨n + 1, h⟩) (ms7_1 ⟨n + 1, h⟩) (hs7_1 ⟨n + 1, h⟩) (ms7_2 ⟨n + 1, h⟩) (hs7_2 ⟨n + 1, h⟩) (ms7_3 ⟨n + 1, h⟩) (hs7_3 ⟨n + 1, h⟩) scM7_0 (Memref.isWhole_whole _) (fun hh => h0 ((hcond7_0 ⟨n + 1, h⟩).mp hh)) ((hcond7_1 ⟨n + 1, h⟩).mpr h1) (iblk7 V c 0 ⟨n + 1, h⟩) (iblk7 V c 1 ⟨n + 1, h⟩) (iblk7 V c 2 ⟨n + 1, h⟩) (outsAt7 V c n (Nat.lt_of_succ_lt h)).2
  · rw [show outsAt7 V c (n + 1) h = _ from outsAt7_B V c ⟨n + 1, h⟩ h0 h1]
    dsimp only
    exact soutB7_eq (F := Ideal) c (grid7.coords ⟨n + 1, h⟩) (ms7_0 ⟨n + 1, h⟩) (hs7_0 ⟨n + 1, h⟩) (ms7_1 ⟨n + 1, h⟩) (hs7_1 ⟨n + 1, h⟩) (ms7_2 ⟨n + 1, h⟩) (hs7_2 ⟨n + 1, h⟩) (ms7_3 ⟨n + 1, h⟩) (hs7_3 ⟨n + 1, h⟩) scM7_0 (Memref.isWhole_whole _) (fun hh => h0 ((hcond7_0 ⟨n + 1, h⟩).mp hh)) (fun hh => h1 ((hcond7_1 ⟨n + 1, h⟩).mp hh)) (iblk7 V c 0 ⟨n + 1, h⟩) (iblk7 V c 1 ⟨n + 1, h⟩) (iblk7 V c 2 ⟨n + 1, h⟩) (outsAt7 V c n (Nat.lt_of_succ_lt h)).2

/-- A first step's accumulator at an entry: zero plus the point's block product. -/
theorem reset7_apply (c : Dev nD) (n : ℕ) (h : n < cfg7.N) (i : S1024x512.Idx) :
    accReset7 V c n h i = 0 + M7 V c n i := by
  obtain ⟨r, j, rfl⟩ : ∃ (r : Fin 1024) (j : Fin 512), i = ix2 r j := ⟨i 0, i 1, eq_ix2 i⟩
  rw [M7_apply V c n h r j]
  show k7_pay2 (F := Ideal) (k7_pay1 (F := Ideal)) (lblk7 V c ⟨n, h⟩) (rblk7 V c ⟨n, h⟩) (ix2 r j) = _
  rw [pay7_2_apply, pay7_1_apply]

/-- A later step's accumulator at an entry: what it found plus the point's block product. -/
theorem step7_apply (c : Dev nD) (n : ℕ) (h : n < cfg7.N) (acc : Vec Ideal S1024x512 .f32) (i : S1024x512.Idx) :
    accStep7 V c n h acc i = acc i + M7 V c n i := by
  obtain ⟨r, j, rfl⟩ : ∃ (r : Fin 1024) (j : Fin 512), i = ix2 r j := ⟨i 0, i 1, eq_ix2 i⟩
  rw [M7_apply V c n h r j]
  show k7_pay2 (F := Ideal) acc (lblk7 V c ⟨n, h⟩) (rblk7 V c ⟨n, h⟩) (ix2 r j) = _
  rw [pay7_2_apply]

/-- After a point whose step is 7 the accumulator's entry is the sum of the block products of its run's eight points. -/
theorem acc7_fold (c : Dev nD) (t : Fin cfg7.N) (h1 : t.val % 8 = 7) (i : S1024x512.Idx) :
    accAfter7 V c t.val t.isLt i = 0 + ∑ s ∈ Finset.range 8, M7 V c (8 * (t.val / 8) + s) i := by
  have hN : cfg7.N = 32 := N_7
  have h' : 8 * (t.val / 8) + t.val % 8 < cfg7.N := by have := t.isLt; omega
  refine (congrFun (Pipeline.eq_accAt_of_mod (fun n h => accAfter7 V c n h) 8 (fun n h => accReset7 V c n h)
      (fun n h acc => accStep7 V c n h acc) (fun n h h0 => acc7_reset V c n h h0) (fun n h h0 => acc7_step V c n h h0)
      (by decide) t.val t.isLt h') i).trans ?_
  refine (Pipeline.accAt_add_apply (fun n h => accReset7 V c n h) (fun n h acc => accStep7 V c n h acc) (fun _ => (0 : EReal))
      (M7 V c) (8 * (t.val / 8)) 7 (fun h i => reset7_apply V c _ h i) (fun n h acc i _ _ => step7_apply V c n h acc i)
      (t.val % 8) (by omega) h' i).trans ?_
  rw [h1]

/-- At a point whose step is 7 the output's buffer holds the bias row added to the accumulator that point leaves, clamped
    below at zero. -/
theorem out7_last (c : Dev nD) (t : Fin cfg7.N) (h1 : t.val % 8 = 7) :
    (outsAt7 V c t.val t.isLt).1 = k7_pay3 (accAfter7 V c t.val t.isLt) (bblk7 V c t) := by
  have h0 : ¬t.val % 8 = 0 := by omega
  show _ = k7_pay3 (outsAt7 V c t.val t.isLt).2 (bblk7 V c t)
  rw [outsAt7_C V c t h0 h1]
  dsimp only
  exact (outC7_eq (F := Ideal) c (grid7.coords t) (ms7_0 t) (hs7_0 t) (ms7_1 t) (hs7_1 t) (ms7_2 t) (hs7_2 t) (ms7_3 t) (hs7_3 t) scM7_0 (Memref.isWhole_whole _) (fun hh => h0 ((hcond7_0 t).mp hh)) ((hcond7_1 t).mpr h1) (iblk7 V c 0 t) (iblk7 V c 1 t) (iblk7 V c 2 t) (outsAt7 V c (t.val - 1) (Nat.lt_of_le_of_lt (Nat.sub_le _ _) t.isLt)).2).trans
    (congrArg (fun a => k7_pay3 a (bblk7 V c t))
      (soutC7_eq (F := Ideal) c (grid7.coords t) (ms7_0 t) (hs7_0 t) (ms7_1 t) (hs7_1 t) (ms7_2 t) (hs7_2 t) (ms7_3 t) (hs7_3 t) scM7_0 (Memref.isWhole_whole _) (fun hh => h0 ((hcond7_0 t).mp hh)) ((hcond7_1 t).mpr h1) (iblk7 V c 0 t) (iblk7 V c 1 t) (iblk7 V c 2 t) (outsAt7 V c (t.val - 1) (Nat.lt_of_le_of_lt (Nat.sub_le _ _) t.isLt)).2).symm)

/-! ## An entry of a written block: the whole contraction plus the bias, clamped below at zero -/

/-- At a point whose step is 7 entry (r, j) of the output's buffer is entry (R, j) of the rectified biased product, R the
    block's row offset plus r: the eight block products are the eight blocks of the contraction over 4096 indices. -/
theorem out7_last_apply (c : Dev nD) (t : Fin cfg7.N) (h1 : t.val % 8 = 7) (r : Fin 1024) (j : Fin 512) (R : Fin 4096)
    (hR : R.val = 1024 * (t.val / 8) + r.val) :
    (outsAt7 V c t.val t.isLt).1 (ix2 r j) = Cert.Spec.mmBiasRelu (larr7 V c) (rarr7 V c) (barr7 V c) (ix2 R j) := by
  have hN : cfg7.N = 32 := N_7
  have htN := t.isLt
  rw [out7_last V c t h1, pay7_3_apply, acc7_fold V c t h1 (ix2 r j), zero_add]
  show _ = max (Cert.Spec.mm (larr7 V c) (rarr7 V c) (ix2 R j) + barr7 V c (ix2 0 j)) 0
  rw [Cert.Spec.mm_apply]
  refine congrArg (fun z => max z 0) (congrArg₂ (· + ·) ?_ (bblk7_apply V c t j))
  refine (Cert.BlockSum.sum_range_eq_sum_fin 8 (fun s => M7 V c (8 * (t.val / 8) + s) (ix2 r j))
    (fun s : Fin 8 => ∑ k : Fin 512, larr7 V c (ix2 R (Cert.BlockSum.blk 8 512 s k)) * rarr7 V c (ix2 (Cert.BlockSum.blk 8 512 s k) j)) (fun s => ?_)).trans
    (Cert.BlockSum.sum_blocks 8 512 (fun K : Fin (8 * 512) => larr7 V c (ix2 R K) * rarr7 V c (ix2 K j))).symm
  have hs := s.isLt
  have hlt : 8 * (t.val / 8) + s.val < cfg7.N := by omega
  rw [M7_apply V c _ hlt r j]
  refine Finset.sum_congr rfl fun k _ => ?_
  rw [lblk7_apply V c ⟨8 * (t.val / 8) + s.val, hlt⟩ r k R (Cert.BlockSum.blk 8 512 s k)
      (by show R.val = 1024 * ((8 * (t.val / 8) + s.val) / 8) + r.val; omega)
      (by show 512 * s.val + k.val = 512 * ((8 * (t.val / 8) + s.val) % 8) + k.val; omega),
    rblk7_apply V c ⟨8 * (t.val / 8) + s.val, hlt⟩ k j (Cert.BlockSum.blk 8 512 s k)
      (by show 512 * s.val + k.val = 512 * ((8 * (t.val / 8) + s.val) % 8) + k.val; omega)]

/-! ## The result array -/

/-- Every write-back (the points whose step is 7) writes a block of the one whole-array function. -/
theorem flushed_eq7 (c : Dev nD) (t : Fin cfg7.N) (hf : (cfg7.win 3).flush t = true) :
    (dat7 V c).flushed 3 t = ((cfg7.win 3).blk t).view.read (Elt Ideal) (Cert.Spec.mmBiasRelu (larr7 V c) (rarr7 V c) (barr7 V c)) := by
  have h1 : t.val % 8 = 7 := (flush7_3 t).mp hf
  have hN : t.val < 32 := lt_of_lt_of_eq t.isLt (show cfg7.N = 32 from N_7)
  have hi := idx7_3 t
  show (cfg7.win 3).cut (grid7.coords t) ((dat7 V c).after 3 t) = _
  rw [after7_3]
  refine funext fun (x : S1024x512.Idx) => ?_
  obtain ⟨r, j, rfl⟩ : ∃ (r : Fin 1024) (j : Fin 512), x = ix2 r j := ⟨x 0, x 1, eq_ix2 x⟩
  rw [View.read_apply]
  refine (out7_last_apply V c t h1 r j ⟨1024 * (t.val / 8) + r.val, by omega⟩ rfl).trans ?_
  congr 1
  funext a
  apply Fin.ext
  match a with
  | ⟨0, _⟩ => show 1024 * (t.val / 8) + r.val = win7_3.index t 0 * 1024 + 1 * r.val; rw [hi.1]; omega
  | ⟨1, _⟩ => show j.val = win7_3.index t 1 * 512 + 1 * j.val; rw [hi.2]; omega

/-- The four written blocks cover the 4096 rows: row R lies in the block of point 8·(R / 1024) + 7. So the result array
    ends holding the product plus the bias row, clamped below at zero. -/
theorem final7 (c : Dev nD) :
    (dat7 (F := Ideal) V c).arrAt 3 cfg7.N = Cert.Spec.mmBiasRelu (M := 4096) (K := 4096) (N := 512) (V c main_v2) (V c main_v37) (V c main_v38) :=
  (dat7 V c).arrAt_eq_of_cover 3 (Cert.Spec.mmBiasRelu (larr7 V c) (rarr7 V c) (barr7 V c)) (flushed_eq7 V c) fun i => by
    have h0 : (i 0 : Nat) < 4096 := (i 0).isLt
    have h1 : (i 1 : Nat) < 512 := (i 1).isLt
    have hlt : 8 * ((i 0 : Nat) / 1024) + 7 < cfg7.N := by
      rw [show cfg7.N = 32 from N_7]; omega
    have hi := idx7_3 ⟨8 * ((i 0 : Nat) / 1024) + 7, hlt⟩
    refine ⟨⟨8 * ((i 0 : Nat) / 1024) + 7, hlt⟩, (flush7_3 _).mpr (by show (8 * ((i 0 : Nat) / 1024) + 7) % 8 = 7; omega), ?_⟩
    show i ∈ ((View.whole main_v39).slice (win7_3.rect ⟨8 * ((i 0 : Nat) / 1024) + 7, hlt⟩)).set
    rw [View.set_slice_whole, Rect.mem_set_unit]
    intro a
    match a with
    | ⟨0, _⟩ =>
      show win7_3.index ⟨8 * ((i 0 : Nat) / 1024) + 7, hlt⟩ 0 * win7_3.size 0 ≤ (i 0 : Nat) ∧ (i 0 : Nat) < win7_3.index ⟨8 * ((i 0 : Nat) / 1024) + 7, hlt⟩ 0 * win7_3.size 0 + win7_3.xsize (grid7.coords ⟨8 * ((i 0 : Nat) / 1024) + 7, hlt⟩) 0
      rw [hi.1]
      show (8 * ((i 0 : Nat) / 1024) + 7) / 8 * 1024 ≤ (i 0 : Nat) ∧ (i 0 : Nat) < (8 * ((i 0 : Nat) / 1024) + 7) / 8 * 1024 + 1024
      omega
    | ⟨1, _⟩ =>
      show win7_3.index ⟨8 * ((i 0 : Nat) / 1024) + 7, hlt⟩ 1 * win7_3.size 1 ≤ (i 1 : Nat) ∧ (i 1 : Nat) < win7_3.index ⟨8 * ((i 0 : Nat) / 1024) + 7, hlt⟩ 1 * win7_3.size 1 + win7_3.xsize (grid7.coords ⟨8 * ((i 0 : Nat) / 1024) + 7, hlt⟩) 1
      rw [hi.2]
      show 0 * 512 ≤ (i 1 : Nat) ∧ (i 1 : Nat) < 0 * 512 + 512
      omega

end Cert.KernelIdeal.Gen

end
-- ==== Proof.KernelIdealH.Reg8Value.lean ====
/- The VALUE of region 8 over the extended reals: its result array main_v41 ends holding the matrix product
   main_v0 · main_v6 with the bias row main_v40 added to every row. The contraction's 1024 indices are two blocks of
   512; grid point (i, 0, k) adds the product of block (i, k) of the left operand and block (k, 0) of the right one
   into an accumulator that the step k = 0 zeroes first, and the step k = 1 adds the bias row and writes the block
   out. First what each control case of the body leaves, as the body's payloads of the point's blocks (generic in
   the float model); then the payloads read at an entry over the extended reals, where a block product into a zero
   accumulator is a plain sum and rounding is the identity; then the accumulator after a point as the sum of the
   block products of the run of points it belongs to; then each written block as a block of the one whole-array
   function, and the written blocks cover the result. -/
import proofs.«157173_j56882546868342_2_alg».proof.Proof.KernelIdealH.Reg8
import proofs.«157173_j56882546868342_2_alg».proof.Proof.KernelIdealH.Reg0Value
import proofs.«157173_j56882546868342_2_alg».proof.Proof.KernelIdealH.Spec
import proofs.«157173_j56882546868342_2_alg».proof.Proof.KernelIdealH.LibBlockSum
import Idealize.ShloMosaic.Lib.Pipeline.Value
import Idealize.ShloMosaic.PureOps.Ideal.Laws
import Idealize.ShloMosaic.Lib.ValueIdx
import Idealize.ShloMosaic.Lib.Tactic
set_option maxRecDepth 16384
noncomputable section
namespace Cert.KernelIdeal.Gen
open Idealize.ShloMosaic Idealize.ShloMosaic.TcCoe Idealize.ShloMosaic.Tactic Idealize.ShloMosaic.ValueIdx
open Idealize.SL Idealize.SL.Sem
open Idealize.ShloMosaic.Pipeline (Dat)

theorem hz8 : (![0, 0] : Fin 2 → Nat) = fun _ => 0 := funext fun a => by fin_cases a <;> rfl

/-! ## What the runs found, as the payloads of the point's blocks -/

section Pieces8V
variable {F : FTy → Type} [FloatOps F]

/-- A first step leaves in the accumulator the update of the zero block: of its two whole-buffer stores the later one
    covers, and the load between them reads the zero block back. -/
theorem soutA8_eq (c : Dev nD) (i : grid8.Coords) (arg3 : Memref sig .tc .vmem S1024x512 .bf16) (harg3 : arg3.IsWhole) (arg4 : Memref sig .tc .vmem S512x512 .bf16) (harg4 : arg4.IsWhole) (arg5 : Memref sig .tc .vmem S1x512 .f32) (harg5 : arg5.IsWhole) (arg6 : Memref sig .tc .vmem S1024x512 .bf16) (harg6 : arg6.IsWhole) (arg7 : Memref sig .tc .vmem S1024x512 .f32) (harg7 : arg7.IsWhole) (hc0 : cond8_0 i) (hc1 : ¬cond8_1 i) (x0 : Vec F S1024x512 .bf16) (x1 : Vec F S512x512 .bf16) (x2 : Vec F S1x512 .f32) :
    sout8_A_0 c i arg3 harg3 arg4 harg4 arg5 harg5 arg6 harg6 arg7 harg7 hc0 hc1 x0 x1 x2 = k8_pay2 (k8_pay1 (F := F)) x0 x1 := by
  unfold sout8_A_0
  rw [View.read_writes_eq_canon _ _ _ (scover8_A_0 c i arg3 harg3 arg4 harg4 arg5 harg5 arg6 harg6 arg7 harg7 hc0 hc1 x0 x1 x2)]
  unfold kernelRun8_A
  dsimp only
  try sl_unfold_words
  rw [View.canon_cons_unit_zero (S := S1024x512) hz8, View.readCov_unit_zero (S := S1024x512) _ hz8]
  simp only [View.readAt_eq_ld, harg3.read_unread, harg4.read_unread, View.ld_unit_zero (S := S1024x512) hz8, View.ld_unit_zero (S := S512x512) hz8]

/-- A last step leaves in the accumulator the update of what it found. -/
theorem soutC8_eq (c : Dev nD) (i : grid8.Coords) (arg3 : Memref sig .tc .vmem S1024x512 .bf16) (harg3 : arg3.IsWhole) (arg4 : Memref sig .tc .vmem S512x512 .bf16) (harg4 : arg4.IsWhole) (arg5 : Memref sig .tc .vmem S1x512 .f32) (harg5 : arg5.IsWhole) (arg6 : Memref sig .tc .vmem S1024x512 .bf16) (harg6 : arg6.IsWhole) (arg7 : Memref sig .tc .vmem S1024x512 .f32) (harg7 : arg7.IsWhole) (hc0 : ¬cond8_0 i) (hc1 : cond8_1 i) (x0 : Vec F S1024x512 .bf16) (x1 : Vec F S512x512 .bf16) (x2 : Vec F S1x512 .f32) (xs0 : Vec F S1024x512 .f32) :
    sout8_C_0 c i arg3 harg3 arg4 harg4 arg5 harg5 arg6 harg6 arg7 harg7 hc0 hc1 x0 x1 x2 xs0 = k8_pay2 xs0 x0 x1 := by
  unfold sout8_C_0
  rw [View.read_writes_eq_canon _ _ _ (scover8_C_0 c i arg3 harg3 arg4 harg4 arg5 harg5 arg6 harg6 arg7 harg7 hc0 hc1 x0 x1 x2 xs0)]
  unfold kernelRun8_C
  dsimp only
  try sl_unfold_words
  rw [View.canon_unit_zero (S := S1024x512) hz8]
  simp only [View.readAt_eq_ld, harg3.read_unread, harg4.read_unread, harg7.read_unread, View.ld_unit_zero (S := S1024x512) hz8, View.ld_unit_zero (S := S512x512) hz8]

/-- A last step leaves in the output's buffer the bias row added to that update: its load of the accumulator reads the
    update back. -/
theorem outC8_eq (c : Dev nD) (i : grid8.Coords) (arg3 : Memref sig .tc .vmem S1024x512 .bf16) (harg3 : arg3.IsWhole) (arg4 : Memref sig .tc .vmem S512x512 .bf16) (harg4 : arg4.IsWhole) (arg5 : Memref sig .tc .vmem S1x512 .f32) (harg5 : arg5.IsWhole) (arg6 : Memref sig .tc .vmem S1024x512 .bf16) (harg6 : arg6.IsWhole) (arg7 : Memref sig .tc .vmem S1024x512 .f32) (harg7 : arg7.IsWhole) (hc0 : ¬cond8_0 i) (hc1 : cond8_1 i) (x0 : Vec F S1024x512 .bf16) (x1 : Vec F S512x512 .bf16) (x2 : Vec F S1x512 .f32) (xs0 : Vec F S1024x512 .f32) :
    out8_C_3 c i arg3 harg3 arg4 harg4 arg5 harg5 arg6 harg6 arg7 harg7 hc0 hc1 x0 x1 x2 xs0 = k8_pay3 (k8_pay2 xs0 x0 x1) x2 := by
  unfold out8_C_3
  rw [View.read_writes_eq_canon _ _ _ (cover8_C_3 c i arg3 harg3 arg4 harg4 arg5 harg5 arg6 harg6 arg7 harg7 hc0 hc1 x0 x1 x2 xs0)]
  unfold kernelRun8_C
  dsimp only
  try sl_unfold_words
  rw [View.canon_unit_zero (S := S1024x512) hz8, View.readCov_unit_zero (S := S1024x512) _ hz8]
  simp only [View.readAt_eq_ld, harg3.read_unread, harg4.read_unread, harg5.read_unread, harg7.read_unread, View.ld_unit_zero (S := S1024x512) hz8, View.ld_unit_zero (S := S512x512) hz8, View.ld_unit_zero (S := S1x512) hz8]

end Pieces8V

/-! ## The payloads at an entry, over the extended reals -/

/-- The zero block. This region's reset payload is region 0's, term for term. -/
theorem pay8_1_apply (i : S1024x512.Idx) : (k8_pay1 : FVec Ideal S1024x512 .f32) i = 0 :=
  pay0_1_apply i

/-- The accumulator's update at entry (r, j): what it held plus the sum over the block's 512 contracted indices. This
    region's update payload is region 0's, term for term. -/
theorem pay8_2_apply (v3 : Vec Ideal S1024x512 .f32) (v4 : Vec Ideal S1024x512 .bf16) (v6 : Vec Ideal S512x512 .bf16)
    (r : Fin 1024) (j : Fin 512) :
    k8_pay2 (F := Ideal) v3 v4 v6 (ix2 r j) = v3 (ix2 r j) + ∑ k : Fin 512, v4 (ix2 r k) * v6 (ix2 k j) :=
  pay0_2_apply v3 v4 v6 r j

/-- The output payload at entry (r, j): the accumulator's entry plus the bias row's entry j; rounding to the output's
    element type is the identity over the extended reals. -/
theorem pay8_3_apply (v16 : Vec Ideal S1024x512 .f32) (v17 : Vec Ideal S1x512 .f32) (r : Fin 1024) (j : Fin 512) :
    k8_pay3 (F := Ideal) v16 v17 (ix2 r j) = v16 (ix2 r j) + v17 (ix2 0 j) := by
  unfold k8_pay3
  show v16 (ix2 r j) + broadcastTo S1024x512 (shapeCast S1x512 v17 shapeCasts_S1x512_S1x512) broadcasts_S1x512_S1024x512 (ix2 r j) = _
  refine congrArg (v16 (ix2 r j) + ·) ?_
  refine (broadcastTo_apply _ _ (ix2 r j) (ix2 (0 : Fin 1) j) (fun a => ?_)).trans ?_
  · match a with
    | ⟨0, _⟩ => rfl
    | ⟨1, _⟩ => rfl
  · exact congrFun (shapeCast_self v17 _) (ix2 0 j)

/-! ## The arrays and the blocks, at their literal types -/

variable (V : (c : Dev nD) → (b : Ref sig .tc) → Buf (Elt Ideal) ((c : Thread nD τ).loc b))

/-- The left operand, 4096 × 1024. -/
abbrev larr8 (c : Dev nD) : Cert.Spec.Arr2 4096 1024 := V c main_v0
/-- The right operand, 1024 × 512. -/
abbrev rarr8 (c : Dev nD) : Cert.Spec.Arr2 1024 512 := V c main_v6
/-- The bias row, 1 × 512. -/
abbrev barr8 (c : Dev nD) : Cert.Spec.Arr2 1 512 := V c main_v40
/-- The left operand's block at point t: rows 1024·(t/2) …, columns 512·(t%2) …. -/
abbrev lblk8 (c : Dev nD) (t : Fin cfg8.N) : Vec Ideal S1024x512 .bf16 := iblk8 V c 0 t
/-- The right operand's block at point t: rows 512·(t%2) …, all 512 columns. -/
abbrev rblk8 (c : Dev nD) (t : Fin cfg8.N) : Vec Ideal S512x512 .bf16 := iblk8 V c 1 t
/-- The bias row's block at point t: the whole row. -/
abbrev bblk8 (c : Dev nD) (t : Fin cfg8.N) : Vec Ideal S1x512 .f32 := iblk8 V c 2 t

/-- The windows' block indices at a point, from the grid coordinates (t / 2, 0, t % 2): decided over the grid. -/
theorem idx8_0 : ∀ t : Fin cfg8.N, win8_0.index t 0 = t.val / 2 ∧ win8_0.index t 1 = t.val % 2 :=
  (by decide +kernel : ∀ t : Fin grid8.N, win8_0.index t 0 = t.val / 2 ∧ win8_0.index t 1 = t.val % 2)
theorem idx8_1 : ∀ t : Fin cfg8.N, win8_1.index t 0 = t.val % 2 ∧ win8_1.index t 1 = 0 :=
  (by decide +kernel : ∀ t : Fin grid8.N, win8_1.index t 0 = t.val % 2 ∧ win8_1.index t 1 = 0)
theorem idx8_2 : ∀ t : Fin cfg8.N, win8_2.index t 0 = 0 ∧ win8_2.index t 1 = 0 :=
  (by decide +kernel : ∀ t : Fin grid8.N, win8_2.index t 0 = 0 ∧ win8_2.index t 1 = 0)
theorem idx8_3 : ∀ t : Fin cfg8.N, win8_3.index t 0 = t.val / 2 ∧ win8_3.index t 1 = 0 :=
  (by decide +kernel : ∀ t : Fin grid8.N, win8_3.index t 0 = t.val / 2 ∧ win8_3.index t 1 = 0)

/-- An entry of the left block is the left operand's entry at the block's offsets. -/
theorem lblk8_apply (c : Dev nD) (t : Fin cfg8.N) (r : Fin 1024) (k : Fin 512) (R : Fin 4096) (K : Fin 1024)
    (hR : R.val = 1024 * (t.val / 2) + r.val) (hK : K.val = 512 * (t.val % 2) + k.val) :
    lblk8 V c t (ix2 r k) = larr8 V c (ix2 R K) := by
  have hi := idx8_0 t
  unfold lblk8 iblk8
  rw [View.read_apply]
  show V c main_v0 _ = V c main_v0 _
  congr 1
  funext a
  apply Fin.ext
  match a with
  | ⟨0, _⟩ => show win8_0.index t 0 * 1024 + 1 * r.val = R.val; rw [hi.1, hR]; omega
  | ⟨1, _⟩ => show win8_0.index t 1 * 512 + 1 * k.val = K.val; rw [hi.2, hK]; omega

/-- An entry of the right block is the right operand's entry at the block's row offset. -/
theorem rblk8_apply (c : Dev nD) (t : Fin cfg8.N) (k : Fin 512) (j : Fin 512) (K : Fin 1024)
    (hK : K.val = 512 * (t.val % 2) + k.val) :
    rblk8 V c t (ix2 k j) = rarr8 V c (ix2 K j) := by
  have hi := idx8_1 t
  unfold rblk8 iblk8
  rw [View.read_apply]
  show V c main_v6 _ = V c main_v6 _
  congr 1
  funext a
  apply Fin.ext
  match a with
  | ⟨0, _⟩ => show win8_1.index t 0 * 512 + 1 * k.val = K.val; rw [hi.1, hK]; omega
  | ⟨1, _⟩ => show win8_1.index t 1 * 512 + 1 * j.val = j.val; rw [hi.2]; omega

/-- The bias block is the bias row at every point. -/
theorem bblk8_apply (c : Dev nD) (t : Fin cfg8.N) (j : Fin 512) :
    bblk8 V c t (ix2 0 j) = barr8 V c (ix2 0 j) := by
  have hi := idx8_2 t
  unfold bblk8 iblk8
  rw [View.read_apply]
  show V c main_v40 _ = V c main_v40 _
  congr 1
  funext a
  apply Fin.ext
  match a with
  | ⟨0, _⟩ => show win8_2.index t 0 * 1 + 1 * 0 = 0; rw [hi.1]
  | ⟨1, _⟩ => show win8_2.index t 1 * 512 + 1 * j.val = j.val; rw [hi.2]; omega

/-! ## The accumulator after a point: the sum of the block products of the run of points it belongs to -/

/-- The accumulator after point n. -/
abbrev accAfter8 (c : Dev nD) (n : ℕ) (h : n < cfg8.N) : Vec Ideal S1024x512 .f32 := (outsAt8 V c n h).2
/-- What a first step leaves: the zero block updated by the point's blocks. -/
abbrev accReset8 (c : Dev nD) (n : ℕ) (h : n < cfg8.N) : Vec Ideal S1024x512 .f32 :=
  k8_pay2 (F := Ideal) (k8_pay1 (F := Ideal)) (lblk8 V c ⟨n, h⟩) (rblk8 V c ⟨n, h⟩)
/-- What a later step leaves: what it found updated by the point's blocks. -/
abbrev accStep8 (c : Dev nD) (n : ℕ) (h : n < cfg8.N) (acc : Vec Ideal S1024x512 .f32) : Vec Ideal S1024x512 .f32 :=
  k8_pay2 (F := Ideal) acc (lblk8 V c ⟨n, h⟩) (rblk8 V c ⟨n, h⟩)

/-- Point n's block product at an entry: the sum over the block's 512 contracted indices (zero past the grid, where it is
    never read). -/
def M8 (c : Dev nD) (n : ℕ) (i : S1024x512.Idx) : EReal :=
  if h : n < cfg8.N then ∑ k : Fin 512, lblk8 V c ⟨n, h⟩ (ix2 (i 0 : Fin 1024) k) * rblk8 V c ⟨n, h⟩ (ix2 k (i 1 : Fin 512)) else 0

theorem M8_apply (c : Dev nD) (n : ℕ) (h : n < cfg8.N) (r : Fin 1024) (j : Fin 512) :
    M8 V c n (ix2 r j) = ∑ k : Fin 512, lblk8 V c ⟨n, h⟩ (ix2 r k) * rblk8 V c ⟨n, h⟩ (ix2 k j) := by
  unfold M8
  rw [dif_pos h]

/-- An even point is a first step. -/
theorem acc8_reset (c : Dev nD) (n : ℕ) (h : n < cfg8.N) (h0 : n % 2 = 0) : accAfter8 V c n h = accReset8 V c n h := by
  have h1 : ¬n % 2 = 1 := by omega
  show (outsAt8 V c n h).2 = _
  rw [show outsAt8 V c n h = _ from outsAt8_A V c ⟨n, h⟩ h0 h1]
  dsimp only
  exact soutA8_eq (F := Ideal) c (grid8.coords ⟨n, h⟩) (ms8_0 ⟨n, h⟩) (hs8_0 ⟨n, h⟩) (ms8_1 ⟨n, h⟩) (hs8_1 ⟨n, h⟩) (ms8_2 ⟨n, h⟩) (hs8_2 ⟨n, h⟩) (ms8_3 ⟨n, h⟩) (hs8_3 ⟨n, h⟩) scM8_0 (Memref.isWhole_whole _) ((hcond8_0 ⟨n, h⟩).mpr h0) (fun hh => h1 ((hcond8_1 ⟨n, h⟩).mp hh)) (iblk8 V c 0 ⟨n, h⟩) (iblk8 V c 1 ⟨n, h⟩) (iblk8 V c 2 ⟨n, h⟩)

/-- An odd point is a last step, over what the point before left. -/
theorem acc8_step (c : Dev nD) (n : ℕ) (h : n + 1 < cfg8.N) (h0 : ¬(n + 1) % 2 = 0) :
    accAfter8 V c (n + 1) h = accStep8 V c (n + 1) h (accAfter8 V c n (Nat.lt_of_succ_lt h)) := by
  have h1 : (n + 1) % 2 = 1 := by omega
  show (outsAt8 V c (n + 1) h).2 = _
  rw [show outsAt8 V c (n + 1) h = _ from outsAt8_C V c ⟨n + 1, h⟩ h0 h1]
  dsimp only
  exact soutC8_eq (F := Ideal) c (grid8.coords ⟨n + 1, h⟩) (ms8_0 ⟨n + 1, h⟩) (hs8_0 ⟨n + 1, h⟩) (ms8_1 ⟨n + 1, h⟩) (hs8_1 ⟨n + 1, h⟩) (ms8_2 ⟨n + 1, h⟩) (hs8_2 ⟨n + 1, h⟩) (ms8_3 ⟨n + 1, h⟩) (hs8_3 ⟨n + 1, h⟩) scM8_0 (Memref.isWhole_whole _) (fun hh => h0 ((hcond8_0 ⟨n + 1, h⟩).mp hh)) ((hcond8_1 ⟨n + 1, h⟩).mpr h1) (iblk8 V c 0 ⟨n + 1, h⟩) (iblk8 V c 1 ⟨n + 1, h⟩) (iblk8 V c 2 ⟨n + 1, h⟩) (outsAt8 V c n (Nat.lt_of_succ_lt h)).2

/-- A first step's accumulator at an entry: zero plus the point's block product. -/
theorem reset8_apply (c : Dev nD) (n : ℕ) (h : n < cfg8.N) (i : S1024x512.Idx) :
    accReset8 V c n h i = 0 + M8 V c n i := by
  obtain ⟨r, j, rfl⟩ : ∃ (r : Fin 1024) (j : Fin 512), i = ix2 r j := ⟨i 0, i 1, eq_ix2 i⟩
  rw [M8_apply V c n h r j]
  show k8_pay2 (F := Ideal) (k8_pay1 (F := Ideal)) (lblk8 V c ⟨n, h⟩) (rblk8 V c ⟨n, h⟩) (ix2 r j) = _
  rw [pay8_2_apply, pay8_1_apply]

/-- A later step's accumulator at an entry: what it found plus the point's block product. -/
theorem step8_apply (c : Dev nD) (n : ℕ) (h : n < cfg8.N) (acc : Vec Ideal S1024x512 .f32) (i : S1024x512.Idx) :
    accStep8 V c n h acc i = acc i + M8 V c n i := by
  obtain ⟨r, j, rfl⟩ : ∃ (r : Fin 1024) (j : Fin 512), i = ix2 r j := ⟨i 0, i 1, eq_ix2 i⟩
  rw [M8_apply V c n h r j]
  show k8_pay2 (F := Ideal) acc (lblk8 V c ⟨n, h⟩) (rblk8 V c ⟨n, h⟩) (ix2 r j) = _
  rw [pay8_2_apply]

/-- After an odd point the accumulator's entry is the sum of the block products of its two points. -/
theorem acc8_fold (c : Dev nD) (t : Fin cfg8.N) (h1 : t.val % 2 = 1) (i : S1024x512.Idx) :
    accAfter8 V c t.val t.isLt i = 0 + ∑ s ∈ Finset.range 2, M8 V c (2 * (t.val / 2) + s) i := by
  have hN : cfg8.N = 8 := N_8
  have h' : 2 * (t.val / 2) + t.val % 2 < cfg8.N := by have := t.isLt; omega
  refine (congrFun (Pipeline.eq_accAt_of_mod (fun n h => accAfter8 V c n h) 2 (fun n h => accReset8 V c n h)
      (fun n h acc => accStep8 V c n h acc) (fun n h h0 => acc8_reset V c n h h0) (fun n h h0 => acc8_step V c n h h0)
      (by decide) t.val t.isLt h') i).trans ?_
  refine (Pipeline.accAt_add_apply (fun n h => accReset8 V c n h) (fun n h acc => accStep8 V c n h acc) (fun _ => (0 : EReal))
      (M8 V c) (2 * (t.val / 2)) 1 (fun h i => reset8_apply V c _ h i) (fun n h acc i _ _ => step8_apply V c n h acc i)
      (t.val % 2) (by omega) h' i).trans ?_
  rw [h1]

/-- At an odd point the output's buffer holds the bias row added to the accumulator that point leaves. -/
theorem out8_last (c : Dev nD) (t : Fin cfg8.N) (h1 : t.val % 2 = 1) :
    (outsAt8 V c t.val t.isLt).1 = k8_pay3 (accAfter8 V c t.val t.isLt) (bblk8 V c t) := by
  have h0 : ¬t.val % 2 = 0 := by omega
  show _ = k8_pay3 (outsAt8 V c t.val t.isLt).2 (bblk8 V c t)
  rw [outsAt8_C V c t h0 h1]
  dsimp only
  exact (outC8_eq (F := Ideal) c (grid8.coords t) (ms8_0 t) (hs8_0 t) (ms8_1 t) (hs8_1 t) (ms8_2 t) (hs8_2 t) (ms8_3 t) (hs8_3 t) scM8_0 (Memref.isWhole_whole _) (fun hh => h0 ((hcond8_0 t).mp hh)) ((hcond8_1 t).mpr h1) (iblk8 V c 0 t) (iblk8 V c 1 t) (iblk8 V c 2 t) (outsAt8 V c (t.val - 1) (Nat.lt_of_le_of_lt (Nat.sub_le _ _) t.isLt)).2).trans
    (congrArg (fun a => k8_pay3 a (bblk8 V c t))
      (soutC8_eq (F := Ideal) c (grid8.coords t) (ms8_0 t) (hs8_0 t) (ms8_1 t) (hs8_1 t) (ms8_2 t) (hs8_2 t) (ms8_3 t) (hs8_3 t) scM8_0 (Memref.isWhole_whole _) (fun hh => h0 ((hcond8_0 t).mp hh)) ((hcond8_1 t).mpr h1) (iblk8 V c 0 t) (iblk8 V c 1 t) (iblk8 V c 2 t) (outsAt8 V c (t.val - 1) (Nat.lt_of_le_of_lt (Nat.sub_le _ _) t.isLt)).2).symm)

/-! ## An entry of a written block: the whole contraction plus the bias -/

/-- At an odd point entry (r, j) of the output's buffer is entry (R, j) of the product plus the bias row's entry j, R the
    block's row offset plus r: the two block products are the two halves of the contraction over 1024 indices. -/
theorem out8_last_apply (c : Dev nD) (t : Fin cfg8.N) (h1 : t.val % 2 = 1) (r : Fin 1024) (j : Fin 512) (R : Fin 4096)
    (hR : R.val = 1024 * (t.val / 2) + r.val) :
    (outsAt8 V c t.val t.isLt).1 (ix2 r j) = Cert.Spec.mmBias (larr8 V c) (rarr8 V c) (barr8 V c) (ix2 R j) := by
  have hN : cfg8.N = 8 := N_8
  have htN := t.isLt
  rw [out8_last V c t h1, pay8_3_apply, acc8_fold V c t h1 (ix2 r j), zero_add]
  show _ = Cert.Spec.mm (larr8 V c) (rarr8 V c) (ix2 R j) + barr8 V c (ix2 0 j)
  rw [Cert.Spec.mm_apply]
  refine congrArg₂ (· + ·) ?_ (bblk8_apply V c t j)
  refine (Cert.BlockSum.sum_range_eq_sum_fin 2 (fun s => M8 V c (2 * (t.val / 2) + s) (ix2 r j))
    (fun s : Fin 2 => ∑ k : Fin 512, larr8 V c (ix2 R (Cert.BlockSum.blk 2 512 s k)) * rarr8 V c (ix2 (Cert.BlockSum.blk 2 512 s k) j)) (fun s => ?_)).trans
    (Cert.BlockSum.sum_blocks 2 512 (fun K : Fin (2 * 512) => larr8 V c (ix2 R K) * rarr8 V c (ix2 K j))).symm
  have hs := s.isLt
  have hlt : 2 * (t.val / 2) + s.val < cfg8.N := by omega
  rw [M8_apply V c _ hlt r j]
  refine Finset.sum_congr rfl fun k _ => ?_
  rw [lblk8_apply V c ⟨2 * (t.val / 2) + s.val, hlt⟩ r k R (Cert.BlockSum.blk 2 512 s k)
      (by show R.val = 1024 * ((2 * (t.val / 2) + s.val) / 2) + r.val; omega)
      (by show 512 * s.val + k.val = 512 * ((2 * (t.val / 2) + s.val) % 2) + k.val; omega),
    rblk8_apply V c ⟨2 * (t.val / 2) + s.val, hlt⟩ k j (Cert.BlockSum.blk 2 512 s k)
      (by show 512 * s.val + k.val = 512 * ((2 * (t.val / 2) + s.val) % 2) + k.val; omega)]

/-! ## The result array -/

/-- Every write-back (the odd points) writes a block of the one whole-array function. -/
theorem flushed_eq8 (c : Dev nD) (t : Fin cfg8.N) (hf : (cfg8.win 3).flush t = true) :
    (dat8 V c).flushed 3 t = ((cfg8.win 3).blk t).view.read (Elt Ideal) (Cert.Spec.mmBias (larr8 V c) (rarr8 V c) (barr8 V c)) := by
  have h1 : t.val % 2 = 1 := (flush8_3 t).mp hf
  have hN : t.val < 8 := lt_of_lt_of_eq t.isLt (show cfg8.N = 8 from N_8)
  have hi := idx8_3 t
  show (cfg8.win 3).cut (grid8.coords t) ((dat8 V c).after 3 t) = _
  rw [after8_3]
  refine funext fun (x : S1024x512.Idx) => ?_
  obtain ⟨r, j, rfl⟩ : ∃ (r : Fin 1024) (j : Fin 512), x = ix2 r j := ⟨x 0, x 1, eq_ix2 x⟩
  rw [View.read_apply]
  refine (out8_last_apply V c t h1 r j ⟨1024 * (t.val / 2) + r.val, by omega⟩ rfl).trans ?_
  congr 1
  funext a
  apply Fin.ext
  match a with
  | ⟨0, _⟩ => show 1024 * (t.val / 2) + r.val = win8_3.index t 0 * 1024 + 1 * r.val; rw [hi.1]; omega
  | ⟨1, _⟩ => show j.val = win8_3.index t 1 * 512 + 1 * j.val; rw [hi.2]; omega

/-- The four written blocks cover the 4096 rows: row R lies in the block of point 2·(R / 1024) + 1. So the result array
    ends holding the product plus the bias row. -/
theorem final8 (c : Dev nD) :
    (dat8 (F := Ideal) V c).arrAt 3 cfg8.N = Cert.Spec.mmBias (M := 4096) (K := 1024) (N := 512) (V c main_v0) (V c main_v6) (V c main_v40) :=
  (dat8 V c).arrAt_eq_of_cover 3 (Cert.Spec.mmBias (larr8 V c) (rarr8 V c) (barr8 V c)) (flushed_eq8 V c) fun i => by
    have h0 : (i 0 : Nat) < 4096 := (i 0).isLt
    have h1 : (i 1 : Nat) < 512 := (i 1).isLt
    have hlt : 2 * ((i 0 : Nat) / 1024) + 1 < cfg8.N := by
      rw [show cfg8.N = 8 from N_8]; omega
    have hi := idx8_3 ⟨2 * ((i 0 : Nat) / 1024) + 1, hlt⟩
    refine ⟨⟨2 * ((i 0 : Nat) / 1024) + 1, hlt⟩, (flush8_3 _).mpr (by show (2 * ((i 0 : Nat) / 1024) + 1) % 2 = 1; omega), ?_⟩
    show i ∈ ((View.whole main_v41).slice (win8_3.rect ⟨2 * ((i 0 : Nat) / 1024) + 1, hlt⟩)).set
    rw [View.set_slice_whole, Rect.mem_set_unit]
    intro a
    match a with
    | ⟨0, _⟩ =>
      show win8_3.index ⟨2 * ((i 0 : Nat) / 1024) + 1, hlt⟩ 0 * win8_3.size 0 ≤ (i 0 : Nat) ∧ (i 0 : Nat) < win8_3.index ⟨2 * ((i 0 : Nat) / 1024) + 1, hlt⟩ 0 * win8_3.size 0 + win8_3.xsize (grid8.coords ⟨2 * ((i 0 : Nat) / 1024) + 1, hlt⟩) 0
      rw [hi.1]
      show (2 * ((i 0 : Nat) / 1024) + 1) / 2 * 1024 ≤ (i 0 : Nat) ∧ (i 0 : Nat) < (2 * ((i 0 : Nat) / 1024) + 1) / 2 * 1024 + 1024
      omega
    | ⟨1, _⟩ =>
      show win8_3.index ⟨2 * ((i 0 : Nat) / 1024) + 1, hlt⟩ 1 * win8_3.size 1 ≤ (i 1 : Nat) ∧ (i 1 : Nat) < win8_3.index ⟨2 * ((i 0 : Nat) / 1024) + 1, hlt⟩ 1 * win8_3.size 1 + win8_3.xsize (grid8.coords ⟨2 * ((i 0 : Nat) / 1024) + 1, hlt⟩) 1
      rw [hi.2]
      show 0 * 512 ≤ (i 1 : Nat) ∧ (i 1 : Nat) < 0 * 512 + 512
      omega

end Cert.KernelIdeal.Gen

end
-- ==== Proof.KernelIdealH.Reg9Value.lean ====
import proofs.«157173_j56882546868342_2_alg».proof.Proof.KernelIdealH.Reg9
import proofs.«157173_j56882546868342_2_alg».proof.Proof.KernelIdealH.Spec
import proofs.«157173_j56882546868342_2_alg».proof.Proof.KernelIdealH.LibBlockSum
import Idealize.ShloMosaic.Lib.Pipeline.Value
import Idealize.ShloMosaic.Lib.ValueIdx
import Idealize.ShloMosaic.PureOps.Ideal.Laws
import Idealize.ShloMosaic.Lib.Tactic
set_option maxRecDepth 16384
noncomputable section
namespace Cert.KernelIdeal.Gen
open Idealize.ShloMosaic Idealize.ShloMosaic.TcCoe Idealize.ShloMosaic.Tactic Idealize.ShloMosaic.ValueIdx
open Idealize.SL.Sem
open Idealize.ShloMosaic.Pipeline (Dat)

-- The three block shapes of this matrix product (left operand's block, right operand's block, result block and
-- accumulator), the result's column count, and the block product's dimension numbers.
local notation "BlkA" => S1024x512
local notation "BlkB" => S512x512
local notation "BlkO" => S1024x512
local notation "nCols" => 512
local notation "dotD" => dot_S1024x512_S512x512_S1024x512_1_0_0_1_n_n

/-! # What region 9 computes: the matrix product of its two operand arrays -/

theorem hz9 : (![0, 0] : Fin 2 → Nat) = fun _ => 0 := funext fun a => by fin_cases a <;> rfl

section Pieces
variable {F : FTy → Type} [FloatOps F]

/-! ## What each case's stores leave, as terms of the operand blocks and of what the accumulator held -/

/-- The first reduction step zeroes the accumulator and then adds the block product onto it. -/
theorem soutA9_eq (c : Dev nD) (i : grid9.Coords) (arg3 : Memref sig .tc .vmem BlkA .bf16) (harg3 : arg3.IsWhole) (arg9 : Memref sig .tc .vmem BlkB .bf16) (harg9 : arg9.IsWhole) (arg5 : Memref sig .tc .vmem BlkO .bf16) (harg5 : arg5.IsWhole) (arg6 : Memref sig .tc .vmem BlkO .f32) (harg6 : arg6.IsWhole) (hc0 : cond9_0 i) (hc1 : ¬cond9_1 i) (x0 : Vec F BlkA .bf16) (x1 : Vec F BlkB .bf16) :
    sout9_A_0 c i arg3 harg3 arg9 harg9 arg5 harg5 arg6 harg6 hc0 hc1 x0 x1 = k9_pay2 (k9_pay1 (F := F)) x0 x1 := by
  unfold sout9_A_0
  rw [View.read_writes_eq_canon _ _ _ (scover9_A_0 c i arg3 harg3 arg9 harg9 arg5 harg5 arg6 harg6 hc0 hc1 x0 x1)]
  unfold kernelRun9_A
  dsimp only
  try sl_unfold_words
  rw [View.canon_cons_unit_zero (S := BlkO) hz9, View.readCov_unit_zero (S := BlkO) _ hz9]
  simp only [View.readAt_eq_ld, harg3.read_unread, harg9.read_unread, View.ld_unit_zero (S := BlkO) hz9, View.ld_unit_zero (S := BlkA) hz9, View.ld_unit_zero (S := BlkB) hz9]

/-- A middle step adds the block product onto what the accumulator held. -/
theorem soutB9_eq (c : Dev nD) (i : grid9.Coords) (arg3 : Memref sig .tc .vmem BlkA .bf16) (harg3 : arg3.IsWhole) (arg9 : Memref sig .tc .vmem BlkB .bf16) (harg9 : arg9.IsWhole) (arg5 : Memref sig .tc .vmem BlkO .bf16) (harg5 : arg5.IsWhole) (arg6 : Memref sig .tc .vmem BlkO .f32) (harg6 : arg6.IsWhole) (hc0 : ¬cond9_0 i) (hc1 : ¬cond9_1 i) (x0 : Vec F BlkA .bf16) (x1 : Vec F BlkB .bf16) (xs0 : Vec F BlkO .f32) :
    sout9_B_0 c i arg3 harg3 arg9 harg9 arg5 harg5 arg6 harg6 hc0 hc1 x0 x1 xs0 = k9_pay2 xs0 x0 x1 := by
  unfold sout9_B_0
  rw [View.read_writes_eq_canon _ _ _ (scover9_B_0 c i arg3 harg3 arg9 harg9 arg5 harg5 arg6 harg6 hc0 hc1 x0 x1 xs0)]
  unfold kernelRun9_B
  dsimp only
  try sl_unfold_words
  rw [View.canon_unit_zero hz9]
  simp only [View.readAt_eq_ld, harg3.read_unread, harg9.read_unread, harg6.read_unread, View.ld_unit_zero (S := BlkO) hz9, View.ld_unit_zero (S := BlkA) hz9, View.ld_unit_zero (S := BlkB) hz9]

/-- The last step does the same to the accumulator, -/
theorem soutC9_eq (c : Dev nD) (i : grid9.Coords) (arg3 : Memref sig .tc .vmem BlkA .bf16) (harg3 : arg3.IsWhole) (arg9 : Memref sig .tc .vmem BlkB .bf16) (harg9 : arg9.IsWhole) (arg5 : Memref sig .tc .vmem BlkO .bf16) (harg5 : arg5.IsWhole) (arg6 : Memref sig .tc .vmem BlkO .f32) (harg6 : arg6.IsWhole) (hc0 : ¬cond9_0 i) (hc1 : cond9_1 i) (x0 : Vec F BlkA .bf16) (x1 : Vec F BlkB .bf16) (xs0 : Vec F BlkO .f32) :
    sout9_C_0 c i arg3 harg3 arg9 harg9 arg5 harg5 arg6 harg6 hc0 hc1 x0 x1 xs0 = k9_pay2 xs0 x0 x1 := by
  unfold sout9_C_0
  rw [View.read_writes_eq_canon _ _ _ (scover9_C_0 c i arg3 harg3 arg9 harg9 arg5 harg5 arg6 harg6 hc0 hc1 x0 x1 xs0)]
  unfold kernelRun9_C
  dsimp only
  try sl_unfold_words
  rw [View.canon_unit_zero hz9]
  simp only [View.readAt_eq_ld, harg3.read_unread, harg9.read_unread, harg6.read_unread, View.ld_unit_zero (S := BlkO) hz9, View.ld_unit_zero (S := BlkA) hz9, View.ld_unit_zero (S := BlkB) hz9]

/-- and stores the accumulator, rounded to the result's element type, into the result's buffer. -/
theorem outC9_eq (c : Dev nD) (i : grid9.Coords) (arg3 : Memref sig .tc .vmem BlkA .bf16) (harg3 : arg3.IsWhole) (arg9 : Memref sig .tc .vmem BlkB .bf16) (harg9 : arg9.IsWhole) (arg5 : Memref sig .tc .vmem BlkO .bf16) (harg5 : arg5.IsWhole) (arg6 : Memref sig .tc .vmem BlkO .f32) (harg6 : arg6.IsWhole) (hc0 : ¬cond9_0 i) (hc1 : cond9_1 i) (x0 : Vec F BlkA .bf16) (x1 : Vec F BlkB .bf16) (xs0 : Vec F BlkO .f32) :
    out9_C_2 c i arg3 harg3 arg9 harg9 arg5 harg5 arg6 harg6 hc0 hc1 x0 x1 xs0 = k9_pay3 (k9_pay2 xs0 x0 x1) := by
  unfold out9_C_2
  rw [View.read_writes_eq_canon _ _ _ (cover9_C_2 c i arg3 harg3 arg9 harg9 arg5 harg5 arg6 harg6 hc0 hc1 x0 x1 xs0)]
  unfold kernelRun9_C
  dsimp only
  try sl_unfold_words
  rw [View.canon_unit_zero hz9, View.readCov_unit_zero (S := BlkO) _ hz9]
  simp only [View.readAt_eq_ld, harg3.read_unread, harg9.read_unread, harg6.read_unread, View.ld_unit_zero (S := BlkO) hz9, View.ld_unit_zero (S := BlkA) hz9, View.ld_unit_zero (S := BlkB) hz9]

end Pieces

/-! ## The payloads at an entry, over the extended reals -/

theorem dot9_rank : (dotD).contr.rank = 1 := rfl
theorem dot9_size : (dotD).contr.size ⟨0, by rw [dot9_rank]; omega⟩ = 512 := rfl

/-- The contraction index of the block product is its one coordinate, below 512. -/
abbrev ce9 : (dotD).contr.Idx ≃ Fin 512 := contrEquiv1 dotD 512 dot9_rank dot9_size

/-- The left operand's entry the block product reads for result entry (r, q) at contraction index k: (r, k). -/
theorem lhsIdx9 (r : Fin 1024) (q : Fin nCols) (k : (dotD).contr.Idx) : (dotD).lhsIdx (ix2 r q) k = ix2 r (ce9 k) := by
  funext a
  match a with
  | ⟨0, _⟩ => exact Fin.ext (by simp [DotDims.lhsIdx, dot_S1024x512_S512x512_S1024x512_1_0_0_1_n_n]; rfl)
  | ⟨1, _⟩ => exact Fin.ext ((dotD).lhsIdx_val_of_single (cl := 1) rfl (ix2 r q) k)

/-- The right operand's: (k, q). -/
theorem rhsIdx9 (r : Fin 1024) (q : Fin nCols) (k : (dotD).contr.Idx) : (dotD).rhsIdx (ix2 r q) k = ix2 (ce9 k) q := by
  funext a
  match a with
  | ⟨0, _⟩ => exact Fin.ext ((dotD).rhsIdx_val_of_single (cr := 0) rfl (ix2 r q) k)
  | ⟨1, _⟩ => exact Fin.ext (by simp [DotDims.rhsIdx, dot_S1024x512_S512x512_S1024x512_1_0_0_1_n_n]; rfl)

/-- The accumulator's update read at an entry: what it held plus the block product's entry, a plain sum (into the
    zero accumulator the product is the sum; rounding to the narrower type is the identity over the extended reals). -/
theorem pay2_apply9 (xs : Vec Ideal BlkO .f32) (x0 : Vec Ideal BlkA .bf16) (x1 : Vec Ideal BlkB .bf16) (r : Fin 1024) (q : Fin nCols) :
    k9_pay2 (F := Ideal) xs x0 x1 (ix2 r q) = xs (ix2 r q) + ∑ j : Fin 512, x0 (ix2 r j) * x1 (ix2 j q) := by
  unfold k9_pay2
  simp only [shapeCast_self]
  refine (addf_apply _ _ _).trans ?_
  refine congrArg (xs (ix2 r q) + ·) ?_
  refine (Ideal.matmul_constant_zero_apply (φ₁ := .bf16) (φ₂ := .bf16) dotD none x0 x1 (ix2 r q)).trans ?_
  refine Fintype.sum_equiv ce9 _ _ fun k => ?_
  rw [lhsIdx9, rhsIdx9]

/-- The zeroed accumulator reads 0 everywhere. -/
theorem pay1_apply9 (i : (BlkO).Idx) : k9_pay1 (F := Ideal) i = 0 := by
  unfold k9_pay1
  simp only [shapeCast_self]
  show Ideal.ofBits .f32 0x00000000#32 = 0
  exact Ideal.ofBits_zero_f32

/-- Rounding the accumulator to the result's element type is the identity over the extended reals. -/
theorem pay3_apply9 (x : Vec Ideal BlkO .f32) (i : (BlkO).Idx) : k9_pay3 (F := Ideal) x i = x i := rfl

/-! ## The operand blocks as entries of the operand arrays -/

variable (V : (c : Dev nD) → (b : Ref sig .tc) → Buf (Elt Ideal) ((c : Thread nD τ).loc b))

/-- The two operand arrays and the operand blocks at a point, at their literal types. -/
abbrev arrA9 (c : Dev nD) : Cert.Spec.Arr2 4096 4096 := V c main_v3
abbrev arrB9 (c : Dev nD) : Cert.Spec.Arr2 4096 nCols := V c main_v41
abbrev blkA9 (c : Dev nD) (t : Fin cfg9.N) : Vec Ideal BlkA .bf16 := iblk9 V c 0 t
abbrev blkB9 (c : Dev nD) (t : Fin cfg9.N) : Vec Ideal BlkB .bf16 := iblk9 V c 1 t

/-- The block indices at point t = 8 * (row block) + (reduction step): the left operand's block is (row block, step),
    the right operand's (step, 0), the result's (row block, 0) — decided over the grid. -/
theorem idx9_0 : ∀ t : Fin grid9.N, win9_0.index t 0 = t.val / 8 ∧ win9_0.index t 1 = t.val % 8 := by decide +kernel
theorem idx9_1 : ∀ t : Fin grid9.N, win9_1.index t 0 = t.val % 8 ∧ win9_1.index t 1 = 0 := by decide +kernel
theorem idx9_2 : ∀ t : Fin grid9.N, win9_2.index t 0 = t.val / 8 ∧ win9_2.index t 1 = 0 := by decide +kernel

/-- Entry (r, j) of the left operand's block at point t is entry (1024 * (t / 8) + r, 512 * (t % 8) + j) of its array. -/
theorem blkA9_apply (c : Dev nD) (t : Fin cfg9.N) (r : Fin 1024) (j : Fin 512) (R : Fin 4096) (J : Fin 4096)
    (hR : R.val = 1024 * (t.val / 8) + r.val) (hJ : J.val = 512 * (t.val % 8) + j.val) :
    blkA9 V c t (ix2 r j) = arrA9 V c (ix2 R J) := by
  obtain ⟨h0, h1⟩ := idx9_0 t
  show iblk9 V c 0 t (ix2 r j) = V c main_v3 (ix2 R J)
  unfold iblk9
  rw [View.read_apply]
  show V c main_v3 _ = V c main_v3 _
  congr 1
  funext a
  apply Fin.ext
  match a with
  | ⟨0, _⟩ => show win9_0.index t 0 * 1024 + 1 * r.val = R.val; rw [h0, hR]; omega
  | ⟨1, _⟩ => show win9_0.index t 1 * 512 + 1 * j.val = J.val; rw [h1, hJ]; omega

/-- Entry (j, q) of the right operand's block at point t is entry (512 * (t % 8) + j, q) of its array. -/
theorem blkB9_apply (c : Dev nD) (t : Fin cfg9.N) (j : Fin 512) (q : Fin nCols) (J : Fin 4096)
    (hJ : J.val = 512 * (t.val % 8) + j.val) :
    blkB9 V c t (ix2 j q) = arrB9 V c (ix2 J q) := by
  obtain ⟨h0, h1⟩ := idx9_1 t
  show iblk9 V c 1 t (ix2 j q) = V c main_v41 (ix2 J q)
  unfold iblk9
  rw [View.read_apply]
  show V c main_v41 _ = V c main_v41 _
  congr 1
  funext a
  apply Fin.ext
  match a with
  | ⟨0, _⟩ => show win9_1.index t 0 * 512 + 1 * j.val = J.val; rw [h0, hJ]; omega
  | ⟨1, _⟩ => show win9_1.index t 1 * nCols + 1 * q.val = q.val; rw [h1]; omega

/-! ## The accumulator after each point -/

/-- The part of result entry (1024 * ib + r, q) that reduction block kb contributes: the sum over that block's 512
    contraction coordinates (0 outside the grid, which no point meets). -/
def prodBlk9 (c : Dev nD) (ib : ℕ) (r : Fin 1024) (q : Fin nCols) (kb : ℕ) : EReal :=
  if h : ib < 4 ∧ kb < 8 then
    ∑ j : Fin 512, arrA9 V c (ix2 ⟨1024 * ib + r.val, by have := r.isLt; omega⟩ ⟨512 * kb + j.val, by have := j.isLt; omega⟩)
      * arrB9 V c (ix2 ⟨512 * kb + j.val, by have := j.isLt; omega⟩ q)
  else 0

/-- The block product at point t is the contribution of reduction block t % 8 to row block t / 8. -/
theorem blkprod9 (c : Dev nD) (t : Fin cfg9.N) (r : Fin 1024) (q : Fin nCols) :
    ∑ j : Fin 512, blkA9 V c t (ix2 r j) * blkB9 V c t (ix2 j q) = prodBlk9 V c (t.val / 8) r q (t.val % 8) := by
  have hN : t.val < 32 := lt_of_lt_of_eq t.isLt N_9
  unfold prodBlk9
  rw [dif_pos ⟨by omega, by omega⟩]
  refine Finset.sum_congr rfl fun j _ => ?_
  rw [blkA9_apply V c t r j ⟨1024 * (t.val / 8) + r.val, by have := r.isLt; omega⟩ ⟨512 * (t.val % 8) + j.val, by have := j.isLt; omega⟩ rfl rfl,
    blkB9_apply V c t j q ⟨512 * (t.val % 8) + j.val, by have := j.isLt; omega⟩ rfl]

/-- THE INVARIANT: after the point with reduction step kk = n % 8 the accumulator's entry (r, q) is the sum of the
    contributions of reduction blocks 0 … kk to row block n / 8. By induction on the point: the first step starts
    from zero, a later one adds its block's contribution onto what the point before left. -/
theorem acc9_inv (c : Dev nD) : ∀ (n : ℕ) (hn : n < cfg9.N) (r : Fin 1024) (q : Fin nCols),
    (outsAt9 (F := Ideal) V c n hn).2 (ix2 r q) = ∑ kb ∈ Finset.range (n % 8 + 1), prodBlk9 V c (n / 8) r q kb := by
  intro n
  induction n using Nat.strong_induction_on with
  | _ n ih =>
    intro hn r q
    have hN : n < 32 := lt_of_lt_of_eq hn N_9
    by_cases h0 : n % 8 = 0
    · have h1 : ¬n % 8 = 7 := by omega
      rw [outsAt9_A V c ⟨n, hn⟩ h0 h1]
      dsimp only
      refine (congrFun (soutA9_eq (F := Ideal) c (grid9.coords ⟨n, hn⟩) (ms9_0 ⟨n, hn⟩) (hs9_0 ⟨n, hn⟩) (ms9_1 ⟨n, hn⟩) (hs9_1 ⟨n, hn⟩) (ms9_2 ⟨n, hn⟩) (hs9_2 ⟨n, hn⟩) scM9_0 (Memref.isWhole_whole _) ((hcond9_0 ⟨n, hn⟩).mpr h0) (fun h => h1 ((hcond9_1 ⟨n, hn⟩).mp h)) (blkA9 V c ⟨n, hn⟩) (blkB9 V c ⟨n, hn⟩)) (ix2 r q)).trans ?_
      refine (pay2_apply9 (k9_pay1 (F := Ideal)) (blkA9 V c ⟨n, hn⟩) (blkB9 V c ⟨n, hn⟩) r q).trans ?_
      rw [pay1_apply9, zero_add, blkprod9 V c ⟨n, hn⟩ r q, h0, Finset.sum_range_one]
    · have hlt : n - 1 < n := by omega
      have e1 : (n - 1) / 8 = n / 8 := by omega
      have e2 : (n - 1) % 8 + 1 = n % 8 := by omega
      have ihp := ih (n - 1) hlt (Nat.lt_of_le_of_lt (Nat.sub_le _ _) hn) r q
      rw [e1, e2] at ihp
      by_cases h1 : n % 8 = 7
      · rw [outsAt9_C V c ⟨n, hn⟩ h0 h1]
        dsimp only
        refine (congrFun (soutC9_eq (F := Ideal) c (grid9.coords ⟨n, hn⟩) (ms9_0 ⟨n, hn⟩) (hs9_0 ⟨n, hn⟩) (ms9_1 ⟨n, hn⟩) (hs9_1 ⟨n, hn⟩) (ms9_2 ⟨n, hn⟩) (hs9_2 ⟨n, hn⟩) scM9_0 (Memref.isWhole_whole _) (fun h => h0 ((hcond9_0 ⟨n, hn⟩).mp h)) ((hcond9_1 ⟨n, hn⟩).mpr h1) (blkA9 V c ⟨n, hn⟩) (blkB9 V c ⟨n, hn⟩) (outsAt9 V c (n - 1) (Nat.lt_of_le_of_lt (Nat.sub_le _ _) hn)).2) (ix2 r q)).trans ?_
        refine (pay2_apply9 (outsAt9 V c (n - 1) (Nat.lt_of_le_of_lt (Nat.sub_le _ _) hn)).2 (blkA9 V c ⟨n, hn⟩) (blkB9 V c ⟨n, hn⟩) r q).trans ?_
        rw [ihp, blkprod9 V c ⟨n, hn⟩ r q, Finset.sum_range_succ]
      · rw [outsAt9_B V c ⟨n, hn⟩ h0 h1]
        dsimp only
        refine (congrFun (soutB9_eq (F := Ideal) c (grid9.coords ⟨n, hn⟩) (ms9_0 ⟨n, hn⟩) (hs9_0 ⟨n, hn⟩) (ms9_1 ⟨n, hn⟩) (hs9_1 ⟨n, hn⟩) (ms9_2 ⟨n, hn⟩) (hs9_2 ⟨n, hn⟩) scM9_0 (Memref.isWhole_whole _) (fun h => h0 ((hcond9_0 ⟨n, hn⟩).mp h)) (fun h => h1 ((hcond9_1 ⟨n, hn⟩).mp h)) (blkA9 V c ⟨n, hn⟩) (blkB9 V c ⟨n, hn⟩) (outsAt9 V c (n - 1) (Nat.lt_of_le_of_lt (Nat.sub_le _ _) hn)).2) (ix2 r q)).trans ?_
        refine (pay2_apply9 (outsAt9 V c (n - 1) (Nat.lt_of_le_of_lt (Nat.sub_le _ _) hn)).2 (blkA9 V c ⟨n, hn⟩) (blkB9 V c ⟨n, hn⟩) r q).trans ?_
        rw [ihp, blkprod9 V c ⟨n, hn⟩ r q, Finset.sum_range_succ]

/-- At a last reduction step the result's buffer holds what the accumulator holds. -/
theorem out9_last (c : Dev nD) (n : ℕ) (hn : n < cfg9.N) (h7 : n % 8 = 7) (r : Fin 1024) (q : Fin nCols) :
    (outsAt9 (F := Ideal) V c n hn).1 (ix2 r q) = (outsAt9 (F := Ideal) V c n hn).2 (ix2 r q) := by
  have h0 : ¬n % 8 = 0 := by omega
  rw [outsAt9_C V c ⟨n, hn⟩ h0 h7]
  dsimp only
  refine (congrFun (outC9_eq (F := Ideal) c (grid9.coords ⟨n, hn⟩) (ms9_0 ⟨n, hn⟩) (hs9_0 ⟨n, hn⟩) (ms9_1 ⟨n, hn⟩) (hs9_1 ⟨n, hn⟩) (ms9_2 ⟨n, hn⟩) (hs9_2 ⟨n, hn⟩) scM9_0 (Memref.isWhole_whole _) (fun h => h0 ((hcond9_0 ⟨n, hn⟩).mp h)) ((hcond9_1 ⟨n, hn⟩).mpr h7) (blkA9 V c ⟨n, hn⟩) (blkB9 V c ⟨n, hn⟩) (outsAt9 V c (n - 1) (Nat.lt_of_le_of_lt (Nat.sub_le _ _) hn)).2) (ix2 r q)).trans ?_
  refine Eq.trans ?_ (congrFun (soutC9_eq (F := Ideal) c (grid9.coords ⟨n, hn⟩) (ms9_0 ⟨n, hn⟩) (hs9_0 ⟨n, hn⟩) (ms9_1 ⟨n, hn⟩) (hs9_1 ⟨n, hn⟩) (ms9_2 ⟨n, hn⟩) (hs9_2 ⟨n, hn⟩) scM9_0 (Memref.isWhole_whole _) (fun h => h0 ((hcond9_0 ⟨n, hn⟩).mp h)) ((hcond9_1 ⟨n, hn⟩).mpr h7) (blkA9 V c ⟨n, hn⟩) (blkB9 V c ⟨n, hn⟩) (outsAt9 V c (n - 1) (Nat.lt_of_le_of_lt (Nat.sub_le _ _) hn)).2) (ix2 r q)).symm
  rfl

/-! ## The result array -/

/-- The matrix product's entry (1024 * ib + r, q) is the sum of the eight reduction blocks' contributions: the sum
    over the 4096 contraction coordinates regrouped into 8 blocks of 512. -/
theorem mm_blocks9 (c : Dev nD) (ib : ℕ) (hib : ib < 4) (r : Fin 1024) (q : Fin nCols) (R : Fin 4096) (hR : R.val = 1024 * ib + r.val) :
    Cert.Spec.mm (M := 4096) (K := 4096) (N := nCols) (arrA9 V c) (arrB9 V c) (ix2 R q) = ∑ kb ∈ Finset.range 8, prodBlk9 V c ib r q kb := by
  rw [Cert.Spec.mm_apply]
  refine (Cert.BlockSum.sum_blocks 8 512 (fun k => arrA9 V c (ix2 R k) * arrB9 V c (ix2 k q))).trans ?_
  refine (Cert.BlockSum.sum_range_eq_sum_fin 8 (prodBlk9 V c ib r q) _ (fun s => ?_)).symm
  unfold prodBlk9
  rw [dif_pos ⟨hib, s.isLt⟩]
  refine Finset.sum_congr rfl fun j _ => ?_
  have eR : R = ⟨1024 * ib + r.val, by have := r.isLt; omega⟩ := Fin.ext hR
  rw [eR]
  rfl

/-- Two functions of a rank-2 index agree when they agree at every pair of coordinates. -/
theorem ext9_ix2 {n0 n1 : ℕ} {α : Type} (f g : (⟨2, ![n0, n1]⟩ : Shape).Idx → α)
    (h : ∀ (a : Fin n0) (b : Fin n1), f (ix2 a b) = g (ix2 a b)) : f = g :=
  funext fun x => by rw [eq_ix2 x]; exact h _ _

/-- Entry (r, q) of the result block at point t is entry (1024 * (t / 8) + r, q) of the result array. -/
theorem blkO9_apply (c : Dev nD) (t : Fin cfg9.N) (G : Cert.Spec.Arr2 4096 nCols) (r : Fin 1024) (q : Fin nCols) (R : Fin 4096)
    (hR : R.val = 1024 * (t.val / 8) + r.val) :
    ((cfg9.win 2).blk t).view.read (Elt Ideal) G (ix2 r q) = G (ix2 R q) := by
  obtain ⟨h0, h1⟩ := idx9_2 t
  rw [View.read_apply]
  show G _ = G _
  congr 1
  funext a
  apply Fin.ext
  match a with
  | ⟨0, _⟩ => show win9_2.index t 0 * 1024 + 1 * r.val = R.val; rw [h0, hR]; omega
  | ⟨1, _⟩ => show win9_2.index t 1 * nCols + 1 * q.val = q.val; rw [h1]; omega

/-- At a last reduction step, entry (r, q) of what the result's buffer holds is the matrix product's entry
    (1024 * (t / 8) + r, q): the accumulator's invariant with all eight reduction blocks in. -/
theorem flushed9_entry (c : Dev nD) (t : Fin cfg9.N) (h7 : t.val % 8 = 7) (r : Fin 1024) (q : Fin nCols) :
    (outsAt9 (F := Ideal) V c t.val t.isLt).1 (ix2 r q)
      = Cert.Spec.mm (M := 4096) (K := 4096) (N := nCols) (arrA9 V c) (arrB9 V c)
          (ix2 ⟨1024 * (t.val / 8) + r.val, by have := r.isLt; have hN : t.val < 32 := lt_of_lt_of_eq t.isLt N_9; omega⟩ q) := by
  have hN : t.val < 32 := lt_of_lt_of_eq t.isLt N_9
  refine (out9_last V c t.val t.isLt h7 r q).trans ?_
  refine (acc9_inv V c t.val t.isLt r q).trans ?_
  rw [h7]
  exact (mm_blocks9 V c (t.val / 8) (by omega) r q _ rfl).symm

/-- What a write-back writes: at the points ≡ 7 (mod 8), the point's block of the matrix product. -/
theorem flushed9_eq (c : Dev nD) (t : Fin cfg9.N) (hf : (cfg9.win 2).flush t = true) :
    (dat9 V c).flushed 2 t = ((cfg9.win 2).blk t).view.read (Elt Ideal) (Cert.Spec.mm (M := 4096) (K := 4096) (N := nCols) (arrA9 V c) (arrB9 V c)) := by
  have h7 : t.val % 8 = 7 := (flush9_2 t).mp hf
  show (cfg9.win 2).cut (grid9.coords t) ((dat9 V c).after 2 t) = _
  rw [after9_2]
  refine ext9_ix2 (n0 := 1024) (n1 := nCols) _ _ fun r q => ?_
  exact (flushed9_entry V c t h7 r q).trans (blkO9_apply c t _ r q _ rfl).symm

/-- THE VALUE: the result array ends holding the matrix product of the two operand arrays (the blocks written at
    the points ≡ 7 (mod 8) tile it). -/
theorem final9 (c : Dev nD) : (dat9 (F := Ideal) V c).arrAt 2 cfg9.N = Cert.Spec.mm (M := 4096) (K := 4096) (N := nCols) (V c main_v3) (V c main_v41) :=
  (dat9 V c).arrAt_eq_of_cover 2 (Cert.Spec.mm (M := 4096) (K := 4096) (N := nCols) (arrA9 V c) (arrB9 V c)) (flushed9_eq V c) fun i => by
    have hi0 : (i 0 : Nat) < 4096 := (i 0).isLt
    have hi1 : (i 1 : Nat) < nCols := (i 1).isLt
    have ht : 8 * ((i 0 : Nat) / 1024) + 7 < cfg9.N := by rw [show cfg9.N = 32 from N_9]; omega
    refine ⟨⟨8 * ((i 0 : Nat) / 1024) + 7, ht⟩, (flush9_2 _).mpr (by show (8 * ((i 0 : Nat) / 1024) + 7) % 8 = 7; omega), ?_⟩
    obtain ⟨j0, j1⟩ := idx9_2 ⟨8 * ((i 0 : Nat) / 1024) + 7, ht⟩
    show i ∈ ((View.whole main_v42).slice (win9_2.rect ⟨8 * ((i 0 : Nat) / 1024) + 7, ht⟩)).set
    rw [View.set_slice_whole, Rect.mem_set_unit]
    intro a
    match a with
    | ⟨0, _⟩ =>
      show win9_2.index ⟨8 * ((i 0 : Nat) / 1024) + 7, ht⟩ 0 * 1024 ≤ (i 0 : Nat) ∧ (i 0 : Nat) < win9_2.index ⟨8 * ((i 0 : Nat) / 1024) + 7, ht⟩ 0 * 1024 + 1024
      rw [j0]; show (8 * ((i 0 : Nat) / 1024) + 7) / 8 * 1024 ≤ (i 0 : Nat) ∧ (i 0 : Nat) < (8 * ((i 0 : Nat) / 1024) + 7) / 8 * 1024 + 1024; omega
    | ⟨1, _⟩ =>
      show win9_2.index ⟨8 * ((i 0 : Nat) / 1024) + 7, ht⟩ 1 * nCols ≤ (i 1 : Nat) ∧ (i 1 : Nat) < win9_2.index ⟨8 * ((i 0 : Nat) / 1024) + 7, ht⟩ 1 * nCols + nCols
      rw [j1]; omega

end Cert.KernelIdeal.Gen
end
-- ==== Proof.KernelIdealH.Reg10Value.lean ====
import proofs.«157173_j56882546868342_2_alg».proof.Proof.KernelIdealH.Reg10
import proofs.«157173_j56882546868342_2_alg».proof.Proof.KernelIdealH.SpecAttn
import Idealize.ShloMosaic.Lib.Pipeline.Value
import Idealize.ShloMosaic.Lib.ValueIdx
import Idealize.ShloMosaic.PureOps.Ideal.Laws
import Idealize.ShloMosaic.Lib.Tactic

set_option maxRecDepth 16384

noncomputable section

namespace Cert.KernelIdeal.Gen

open Idealize.ShloMosaic Idealize.ShloMosaic.TcCoe Idealize.ShloMosaic.Tactic Idealize.ShloMosaic.ValueIdx
open Idealize.SL.Sem
open Idealize.ShloMosaic.Pipeline (Dat)

/-! # Region 10 at the extended reals: the output array ends at the attention score of the region's arrays

The body's one store is the score of the 1024 rows it loaded; the four points' blocks are the four row blocks of the
array, so the array ends at the score of all 4096 rows. -/

/-! ## The block product's operand indices, axis by axis -/

theorem attn10_lhs_row (j : S1024x512.Idx) (k : dot_S1024x512_S512x512_S1024x512_1_0_0_1_n_n.contr.Idx) :
    (dot_S1024x512_S512x512_S1024x512_1_0_0_1_n_n.lhsIdx j k 0).val = (j 0).val := by
  simp [DotDims.lhsIdx, dot_S1024x512_S512x512_S1024x512_1_0_0_1_n_n]
  rfl

theorem attn10_lhs_col (j : S1024x512.Idx) (k : dot_S1024x512_S512x512_S1024x512_1_0_0_1_n_n.contr.Idx) :
    (dot_S1024x512_S512x512_S1024x512_1_0_0_1_n_n.lhsIdx j k 1).val = (k ⟨0, by decide⟩).val :=
  dot_S1024x512_S512x512_S1024x512_1_0_0_1_n_n.lhsIdx_val_of_single rfl j k

theorem attn10_rhs_row (j : S1024x512.Idx) (k : dot_S1024x512_S512x512_S1024x512_1_0_0_1_n_n.contr.Idx) :
    (dot_S1024x512_S512x512_S1024x512_1_0_0_1_n_n.rhsIdx j k 0).val = (k ⟨0, by decide⟩).val :=
  dot_S1024x512_S512x512_S1024x512_1_0_0_1_n_n.rhsIdx_val_of_single rfl j k

theorem attn10_rhs_col (j : S1024x512.Idx) (k : dot_S1024x512_S512x512_S1024x512_1_0_0_1_n_n.contr.Idx) :
    (dot_S1024x512_S512x512_S1024x512_1_0_0_1_n_n.rhsIdx j k 1).val = (j 1).val := by
  simp [DotDims.rhsIdx, dot_S1024x512_S512x512_S1024x512_1_0_0_1_n_n]
  rfl

/-- The block product into the zero accumulator, at row `r` and lane `j`: the sum over the contracted coordinate. -/
theorem attn10_mm_apply (a : FVec Ideal S1024x512 .bf16) (w : FVec Ideal S512x512 .bf16) (r : Fin 1024) (j : Fin 512) :
    matmul dot_S1024x512_S512x512_S1024x512_1_0_0_1_n_n none a w (constant (F := Ideal) S1024x512 .f32 0x00000000#32) (ix2 r j)
      = ∑ k : Fin 512, a (ix2 r k) * w (ix2 k j) := by
  simp only [matmul]
  refine (Ideal.matmul_constant_zero_apply dot_S1024x512_S512x512_S1024x512_1_0_0_1_n_n none a w (ix2 r j)).trans ?_
  rw [← Equiv.sum_comp (contrEquiv1 dot_S1024x512_S512x512_S1024x512_1_0_0_1_n_n 512 rfl rfl).symm]
  refine Finset.sum_congr rfl fun k _ => ?_
  have hk := contrEquiv1_symm_val dot_S1024x512_S512x512_S1024x512_1_0_0_1_n_n 512 rfl rfl k
  congr 1
  · refine congrArg a (funext fun d => Fin.ext ?_)
    match d with
    | ⟨0, _⟩ => exact attn10_lhs_row _ _
    | ⟨1, _⟩ => exact (attn10_lhs_col _ _).trans hk
  · refine congrArg w (funext fun d => Fin.ext ?_)
    match d with
    | ⟨0, _⟩ => exact (attn10_rhs_row _ _).trans hk
    | ⟨1, _⟩ => exact attn10_rhs_col _ _

/-- A [1,512] row broadcast over the 1024 rows, at row `r` and lane `j`, is the row's lane `j`. -/
theorem attn10_bcast_apply (x : FVec Ideal S1x512 .f32) (r : Fin 1024) (j : Fin 512) :
    broadcastTo S1024x512 (shapeCast S1x512 x shapeCasts_S1x512_S1x512) broadcasts_S1x512_S1024x512 (ix2 r j) = x (ix2 0 j) := by
  rw [shapeCast_self]
  refine broadcastTo_apply x _ (ix2 r j) (ix2 0 j) fun d => ?_
  match d with
  | ⟨0, _⟩ => rfl
  | ⟨1, _⟩ => rfl

/-- The body's arithmetic read at row `r` of the [1024,1] result. -/
theorem pay10_apply (x0 : Vec Ideal S1024x512 .bf16) (x1 : Vec Ideal S512x512 .bf16) (x2 x3 : Vec Ideal S1x512 .f32) (r : Fin 1024) (z : Fin 1) :
    k10_pay1 (F := Ideal) x0 x1 x2 x3 (ix2 r z)
      = ∑ j : Fin 512, Ideal.tanh ((∑ k : Fin 512, x0 (ix2 r k) * x1 (ix2 k j)) + x2 (ix2 0 j)) * x3 (ix2 0 j) := by
  unfold k10_pay1
  dsimp only
  refine (shapeCast_apply _ shapeCasts_S1024_S1024x1 (ix2 r z) (ix1 r) (by
    rw [Shape.rowMajor_val_one, Shape.rowMajor_val_two]; have := z.isLt; simp)).trans ?_
  refine (Ideal.multiReduction_add_single _ _ reduces_S1024x512_S1024 (.inl rfl) rfl (ix1 r)).trans ?_
  refine Finset.sum_congr rfl fun (j : Fin 512) _ => ?_
  have hl : reduces_S1024x512_S1024.lift (ix1 r) j = ix2 r j := by
    funext d; apply Fin.ext
    match d with
    | ⟨0, _⟩ => rfl
    | ⟨1, _⟩ => rfl
  rw [hl]
  show FloatOps.tanh (_ + _) * _ = _
  rw [Ideal.tanh_def, shapeCast_self, shapeCast_self, attn10_mm_apply, attn10_bcast_apply, attn10_bcast_apply]

/-! ## The blocks the body loads, as entries of the region's arrays -/

variable (V : (c : Dev nD) → (b : Ref sig .tc) → Buf (Elt Ideal) ((c : Thread nD τ).loc b))

theorem zeroOff10 : (![0, 0] : Fin 2 → Nat) = fun _ => 0 := funext fun a => by fin_cases a <;> rfl

/-- The printed index maps over the four points: the windows of row blocks (the input rows, the output column) are at
    block (t, 0); the weight matrix and the two rows are whole, at block (0, 0). -/
theorem blockIdx10 : ∀ t : Fin cfg10.N,
    win10_0.index t (0 : Fin 2) = t.val ∧ win10_0.index t (1 : Fin 2) = 0
    ∧ win10_1.index t (0 : Fin 2) = 0 ∧ win10_1.index t (1 : Fin 2) = 0
    ∧ win10_2.index t (0 : Fin 2) = 0 ∧ win10_2.index t (1 : Fin 2) = 0
    ∧ win10_3.index t (0 : Fin 2) = 0 ∧ win10_3.index t (1 : Fin 2) = 0
    ∧ win10_4.index t (0 : Fin 2) = t.val ∧ win10_4.index t (1 : Fin 2) = 0 :=
  (by decide +kernel : ∀ t : Fin grid10.N, _)

/-- Row `r`, column `k` of the input rows' block at point `t` is row `1024 t + r` of the array. -/
theorem rows10_apply (c : Dev nD) (t : Fin cfg10.N) (r : Fin 1024) (k : Fin 512) (i : S4096x512.Idx)
    (hi0 : (i 0).val = t.val * 1024 + r.val) (hi1 : (i 1).val = k.val) :
    (iblk10 (F := Ideal) V c 0 t : Vec Ideal S1024x512 .bf16) (ix2 r k) = (V c main_v36 : S4096x512.Idx → EReal) i := by
  obtain ⟨e0, e1, -⟩ := blockIdx10 t
  unfold iblk10
  rw [View.read_apply]
  show V c main_v36 _ = V c main_v36 _
  congr 1
  funext a
  apply Fin.ext
  match a with
  | ⟨0, _⟩ => show win10_0.index t 0 * 1024 + 1 * r.val = (i 0).val; rw [e0, hi0]; omega
  | ⟨1, _⟩ => show win10_0.index t 1 * 512 + 1 * k.val = (i 1).val; rw [e1, hi1]; omega

/-- The weight matrix's block at any point is the whole matrix. -/
theorem weights10_apply (c : Dev nD) (t : Fin cfg10.N) (k j : Fin 512) :
    (iblk10 (F := Ideal) V c 1 t : Vec Ideal S512x512 .bf16) (ix2 k j) = (V c main_v7 : S512x512.Idx → EReal) (ix2 k j) := by
  obtain ⟨-, -, e0, e1, -⟩ := blockIdx10 t
  unfold iblk10
  rw [View.read_apply]
  show V c main_v7 _ = V c main_v7 _
  congr 1
  funext a
  apply Fin.ext
  match a with
  | ⟨0, _⟩ => show win10_1.index t 0 * 512 + 1 * k.val = k.val; rw [e0]; omega
  | ⟨1, _⟩ => show win10_1.index t 1 * 512 + 1 * j.val = j.val; rw [e1]; omega

/-- The bias row's block at any point is the whole row. -/
theorem bias10_apply (c : Dev nD) (t : Fin cfg10.N) (j : Fin 512) :
    (iblk10 (F := Ideal) V c 2 t : Vec Ideal S1x512 .f32) (ix2 0 j) = (V c main_v44 : S1x512.Idx → EReal) (ix2 0 j) := by
  obtain ⟨-, -, -, -, e0, e1, -⟩ := blockIdx10 t
  unfold iblk10
  rw [View.read_apply]
  show V c main_v44 _ = V c main_v44 _
  congr 1
  funext a
  apply Fin.ext
  match a with
  | ⟨0, _⟩ => show win10_2.index t 0 * 1 + 1 * 0 = 0; rw [e0]
  | ⟨1, _⟩ => show win10_2.index t 1 * 512 + 1 * j.val = j.val; rw [e1]; omega

/-- The query row's block at any point is the whole row. -/
theorem query10_apply (c : Dev nD) (t : Fin cfg10.N) (j : Fin 512) :
    (iblk10 (F := Ideal) V c 3 t : Vec Ideal S1x512 .f32) (ix2 0 j) = (V c main_v45 : S1x512.Idx → EReal) (ix2 0 j) := by
  obtain ⟨-, -, -, -, -, -, e0, e1, -⟩ := blockIdx10 t
  unfold iblk10
  rw [View.read_apply]
  show V c main_v45 _ = V c main_v45 _
  congr 1
  funext a
  apply Fin.ext
  match a with
  | ⟨0, _⟩ => show win10_3.index t 0 * 1 + 1 * 0 = 0; rw [e0]
  | ⟨1, _⟩ => show win10_3.index t 1 * 512 + 1 * j.val = j.val; rw [e1]; omega

/-! ## What a point writes back, the cover, and the array after the region -/

/-- What point `t` writes back is block `t` of the score of the region's arrays: the payload at row `r` is the score's
    sum over the lanes, each loaded block read where the output's row block says. -/
theorem flushed10_eq (c : Dev nD) (t : Fin cfg10.N) :
    (dat10 (F := Ideal) V c).flushed 4 t
      = ((cfg10.win 4).blk t).view.read (Elt Ideal) (Cert.Spec.attn (V c main_v36) (V c main_v7) (V c main_v44) (V c main_v45)) := by
  show (cfg10.win 4).cut (grid10.coords t) ((dat10 (F := Ideal) V c).after 4 t) = _
  rw [after10_4]
  unfold out10_4
  rw [View.canon_unit_zero zeroOff10]
  simp only [View.ld_unit_zero (S := S1024x512) zeroOff10, View.ld_unit_zero (S := S512x512) zeroOff10, View.ld_unit_zero (S := S1x512) zeroOff10]
  obtain ⟨-, -, -, -, -, -, -, -, e0, e1⟩ := blockIdx10 t
  funext y
  obtain ⟨r, z, rfl⟩ : ∃ (r : Fin 1024) (z : Fin 1), y = ix2 r z := ⟨y 0, y 1, eq_ix2 y⟩
  refine (pay10_apply (iblk10 (F := Ideal) V c 0 t) (iblk10 (F := Ideal) V c 1 t) (iblk10 (F := Ideal) V c 2 t) (iblk10 (F := Ideal) V c 3 t) r z).trans ?_
  rw [View.read_apply]
  show _ = Cert.Spec.attn (V c main_v36) (V c main_v7) (V c main_v44) (V c main_v45) (((cfg10.win 4).blk t).view.emb (ix2 r z))
  unfold Cert.Spec.attn
  refine Finset.sum_congr rfl fun j _ => ?_
  rw [bias10_apply V c t j, query10_apply V c t j]
  refine congrArg (fun s => Ideal.tanh (s + (V c main_v44 : S1x512.Idx → EReal) (ix2 0 j)) * (V c main_v45 : S1x512.Idx → EReal) (ix2 0 j)) ?_
  refine Finset.sum_congr rfl fun k _ => ?_
  rw [weights10_apply V c t k j]
  refine congrArg (· * (V c main_v7 : S512x512.Idx → EReal) (ix2 k j)) ?_
  refine rows10_apply V c t r k _ ?_ rfl
  show win10_4.index t 0 * 1024 + 1 * r.val = t.val * 1024 + r.val
  rw [e0]; omega

/-- An index of the output array is in point `t`'s block iff each coordinate is in the block's range on its axis. -/
theorem mem_blk10 (t : Fin cfg10.N) (i : S4096x1.Idx) :
    i ∈ ((cfg10.win 4).blk t).view.set ↔ ∀ a : Fin 2, win10_4.index t a * S1024x1.size a ≤ (i a).val ∧ (i a).val < win10_4.index t a * S1024x1.size a + S1024x1.size a := by
  show i ∈ ((View.whole main_v46).slice (win10_4.rect t)).set ↔ _
  rw [View.set_slice_whole, Rect.mem_set_unit]
  exact Iff.rfl

/-- Row `i` of the output is written back by the point of its row block, `i / 1024`. -/
theorem cover10 (i : S4096x1.Idx) : ∃ t : Fin cfg10.N, (cfg10.win 4).flush t = true ∧ i ∈ ((cfg10.win 4).blk t).view.set := by
  have h0 : (i 0).val < 4096 := (i 0).isLt
  have h1 : (i 1).val < 1 := (i 1).isLt
  have hN : cfg10.N = 4 := N_10
  refine ⟨⟨(i 0).val / 1024, by omega⟩, flush10_4 _, ?_⟩
  rw [mem_blk10]
  obtain ⟨-, -, -, -, -, -, -, -, e0, e1⟩ := blockIdx10 ⟨(i 0).val / 1024, by omega⟩
  intro a
  match a with
  | ⟨0, _⟩ =>
    show win10_4.index ⟨(i 0).val / 1024, _⟩ 0 * 1024 ≤ (i 0).val ∧ (i 0).val < win10_4.index ⟨(i 0).val / 1024, _⟩ 0 * 1024 + 1024
    rw [e0]
    show (i 0).val / 1024 * 1024 ≤ (i 0).val ∧ (i 0).val < (i 0).val / 1024 * 1024 + 1024
    omega
  | ⟨1, _⟩ =>
    show win10_4.index ⟨(i 0).val / 1024, _⟩ 1 * 1 ≤ (i 1).val ∧ (i 1).val < win10_4.index ⟨(i 0).val / 1024, _⟩ 1 * 1 + 1
    rw [e1]
    omega

/-- THE ARRAY after the region: the attention score of the region's arrays as it finds them. -/
theorem final10 (c : Dev nD) :
    (dat10 (F := Ideal) V c).arrAt 4 cfg10.N = Cert.Spec.attn (V c main_v36) (V c main_v7) (V c main_v44) (V c main_v45) :=
  (dat10 (F := Ideal) V c).arrAt_eq_of_cover 4 _ (fun t _ => flushed10_eq V c t) (cover10)

end Cert.KernelIdeal.Gen

end
-- ==== Proof.KernelIdealH.Reg11Value.lean ====
import proofs.«157173_j56882546868342_2_alg».proof.Proof.KernelIdealH.Reg11
import proofs.«157173_j56882546868342_2_alg».proof.Proof.KernelIdealH.SpecAttn
import Idealize.ShloMosaic.Lib.Pipeline.Value
import Idealize.ShloMosaic.Lib.ValueIdx
import Idealize.ShloMosaic.PureOps.Ideal.Laws
import Idealize.ShloMosaic.Lib.Tactic

set_option maxRecDepth 16384

noncomputable section

namespace Cert.KernelIdeal.Gen

open Idealize.ShloMosaic Idealize.ShloMosaic.TcCoe Idealize.ShloMosaic.Tactic Idealize.ShloMosaic.ValueIdx
open Idealize.SL.Sem
open Idealize.ShloMosaic.Pipeline (Dat)

/-! # Region 11 at the extended reals: the output array ends at the attention score of the region's arrays

The body's one store is the score of the 1024 rows it loaded; the four points' blocks are the four row blocks of the
array, so the array ends at the score of all 4096 rows. -/

/-! ## The block product's operand indices, axis by axis -/

theorem attn11_lhs_row (j : S1024x512.Idx) (k : dot_S1024x512_S512x512_S1024x512_1_0_0_1_n_n.contr.Idx) :
    (dot_S1024x512_S512x512_S1024x512_1_0_0_1_n_n.lhsIdx j k 0).val = (j 0).val := by
  simp [DotDims.lhsIdx, dot_S1024x512_S512x512_S1024x512_1_0_0_1_n_n]
  rfl

theorem attn11_lhs_col (j : S1024x512.Idx) (k : dot_S1024x512_S512x512_S1024x512_1_0_0_1_n_n.contr.Idx) :
    (dot_S1024x512_S512x512_S1024x512_1_0_0_1_n_n.lhsIdx j k 1).val = (k ⟨0, by decide⟩).val :=
  dot_S1024x512_S512x512_S1024x512_1_0_0_1_n_n.lhsIdx_val_of_single rfl j k

theorem attn11_rhs_row (j : S1024x512.Idx) (k : dot_S1024x512_S512x512_S1024x512_1_0_0_1_n_n.contr.Idx) :
    (dot_S1024x512_S512x512_S1024x512_1_0_0_1_n_n.rhsIdx j k 0).val = (k ⟨0, by decide⟩).val :=
  dot_S1024x512_S512x512_S1024x512_1_0_0_1_n_n.rhsIdx_val_of_single rfl j k

theorem attn11_rhs_col (j : S1024x512.Idx) (k : dot_S1024x512_S512x512_S1024x512_1_0_0_1_n_n.contr.Idx) :
    (dot_S1024x512_S512x512_S1024x512_1_0_0_1_n_n.rhsIdx j k 1).val = (j 1).val := by
  simp [DotDims.rhsIdx, dot_S1024x512_S512x512_S1024x512_1_0_0_1_n_n]
  rfl

/-- The block product into the zero accumulator, at row `r` and lane `j`: the sum over the contracted coordinate. -/
theorem attn11_mm_apply (a : FVec Ideal S1024x512 .bf16) (w : FVec Ideal S512x512 .bf16) (r : Fin 1024) (j : Fin 512) :
    matmul dot_S1024x512_S512x512_S1024x512_1_0_0_1_n_n none a w (constant (F := Ideal) S1024x512 .f32 0x00000000#32) (ix2 r j)
      = ∑ k : Fin 512, a (ix2 r k) * w (ix2 k j) := by
  simp only [matmul]
  refine (Ideal.matmul_constant_zero_apply dot_S1024x512_S512x512_S1024x512_1_0_0_1_n_n none a w (ix2 r j)).trans ?_
  rw [← Equiv.sum_comp (contrEquiv1 dot_S1024x512_S512x512_S1024x512_1_0_0_1_n_n 512 rfl rfl).symm]
  refine Finset.sum_congr rfl fun k _ => ?_
  have hk := contrEquiv1_symm_val dot_S1024x512_S512x512_S1024x512_1_0_0_1_n_n 512 rfl rfl k
  congr 1
  · refine congrArg a (funext fun d => Fin.ext ?_)
    match d with
    | ⟨0, _⟩ => exact attn11_lhs_row _ _
    | ⟨1, _⟩ => exact (attn11_lhs_col _ _).trans hk
  · refine congrArg w (funext fun d => Fin.ext ?_)
    match d with
    | ⟨0, _⟩ => exact (attn11_rhs_row _ _).trans hk
    | ⟨1, _⟩ => exact attn11_rhs_col _ _

/-- A [1,512] row broadcast over the 1024 rows, at row `r` and lane `j`, is the row's lane `j`. -/
theorem attn11_bcast_apply (x : FVec Ideal S1x512 .f32) (r : Fin 1024) (j : Fin 512) :
    broadcastTo S1024x512 (shapeCast S1x512 x shapeCasts_S1x512_S1x512) broadcasts_S1x512_S1024x512 (ix2 r j) = x (ix2 0 j) := by
  rw [shapeCast_self]
  refine broadcastTo_apply x _ (ix2 r j) (ix2 0 j) fun d => ?_
  match d with
  | ⟨0, _⟩ => rfl
  | ⟨1, _⟩ => rfl

/-- The body's arithmetic read at row `r` of the [1024,1] result. -/
theorem pay11_apply (x0 : Vec Ideal S1024x512 .bf16) (x1 : Vec Ideal S512x512 .bf16) (x2 x3 : Vec Ideal S1x512 .f32) (r : Fin 1024) (z : Fin 1) :
    k11_pay1 (F := Ideal) x0 x1 x2 x3 (ix2 r z)
      = ∑ j : Fin 512, Ideal.tanh ((∑ k : Fin 512, x0 (ix2 r k) * x1 (ix2 k j)) + x2 (ix2 0 j)) * x3 (ix2 0 j) := by
  unfold k11_pay1
  dsimp only
  refine (shapeCast_apply _ shapeCasts_S1024_S1024x1 (ix2 r z) (ix1 r) (by
    rw [Shape.rowMajor_val_one, Shape.rowMajor_val_two]; have := z.isLt; simp)).trans ?_
  refine (Ideal.multiReduction_add_single _ _ reduces_S1024x512_S1024 (.inl rfl) rfl (ix1 r)).trans ?_
  refine Finset.sum_congr rfl fun (j : Fin 512) _ => ?_
  have hl : reduces_S1024x512_S1024.lift (ix1 r) j = ix2 r j := by
    funext d; apply Fin.ext
    match d with
    | ⟨0, _⟩ => rfl
    | ⟨1, _⟩ => rfl
  rw [hl]
  show FloatOps.tanh (_ + _) * _ = _
  rw [Ideal.tanh_def, shapeCast_self, shapeCast_self, attn11_mm_apply, attn11_bcast_apply, attn11_bcast_apply]

/-! ## The blocks the body loads, as entries of the region's arrays -/

variable (V : (c : Dev nD) → (b : Ref sig .tc) → Buf (Elt Ideal) ((c : Thread nD τ).loc b))

theorem zeroOff11 : (![0, 0] : Fin 2 → Nat) = fun _ => 0 := funext fun a => by fin_cases a <;> rfl

/-- The printed index maps over the four points: the windows of row blocks (the input rows, the output column) are at
    block (t, 0); the weight matrix and the two rows are whole, at block (0, 0). -/
theorem blockIdx11 : ∀ t : Fin cfg11.N,
    win11_0.index t (0 : Fin 2) = t.val ∧ win11_0.index t (1 : Fin 2) = 0
    ∧ win11_1.index t (0 : Fin 2) = 0 ∧ win11_1.index t (1 : Fin 2) = 0
    ∧ win11_2.index t (0 : Fin 2) = 0 ∧ win11_2.index t (1 : Fin 2) = 0
    ∧ win11_3.index t (0 : Fin 2) = 0 ∧ win11_3.index t (1 : Fin 2) = 0
    ∧ win11_4.index t (0 : Fin 2) = t.val ∧ win11_4.index t (1 : Fin 2) = 0 :=
  (by decide +kernel : ∀ t : Fin grid11.N, _)

/-- Row `r`, column `k` of the input rows' block at point `t` is row `1024 t + r` of the array. -/
theorem rows11_apply (c : Dev nD) (t : Fin cfg11.N) (r : Fin 1024) (k : Fin 512) (i : S4096x512.Idx)
    (hi0 : (i 0).val = t.val * 1024 + r.val) (hi1 : (i 1).val = k.val) :
    (iblk11 (F := Ideal) V c 0 t : Vec Ideal S1024x512 .bf16) (ix2 r k) = (V c main_v39 : S4096x512.Idx → EReal) i := by
  obtain ⟨e0, e1, -⟩ := blockIdx11 t
  unfold iblk11
  rw [View.read_apply]
  show V c main_v39 _ = V c main_v39 _
  congr 1
  funext a
  apply Fin.ext
  match a with
  | ⟨0, _⟩ => show win11_0.index t 0 * 1024 + 1 * r.val = (i 0).val; rw [e0, hi0]; omega
  | ⟨1, _⟩ => show win11_0.index t 1 * 512 + 1 * k.val = (i 1).val; rw [e1, hi1]; omega

/-- The weight matrix's block at any point is the whole matrix. -/
theorem weights11_apply (c : Dev nD) (t : Fin cfg11.N) (k j : Fin 512) :
    (iblk11 (F := Ideal) V c 1 t : Vec Ideal S512x512 .bf16) (ix2 k j) = (V c main_v7 : S512x512.Idx → EReal) (ix2 k j) := by
  obtain ⟨-, -, e0, e1, -⟩ := blockIdx11 t
  unfold iblk11
  rw [View.read_apply]
  show V c main_v7 _ = V c main_v7 _
  congr 1
  funext a
  apply Fin.ext
  match a with
  | ⟨0, _⟩ => show win11_1.index t 0 * 512 + 1 * k.val = k.val; rw [e0]; omega
  | ⟨1, _⟩ => show win11_1.index t 1 * 512 + 1 * j.val = j.val; rw [e1]; omega

/-- The bias row's block at any point is the whole row. -/
theorem bias11_apply (c : Dev nD) (t : Fin cfg11.N) (j : Fin 512) :
    (iblk11 (F := Ideal) V c 2 t : Vec Ideal S1x512 .f32) (ix2 0 j) = (V c main_v44 : S1x512.Idx → EReal) (ix2 0 j) := by
  obtain ⟨-, -, -, -, e0, e1, -⟩ := blockIdx11 t
  unfold iblk11
  rw [View.read_apply]
  show V c main_v44 _ = V c main_v44 _
  congr 1
  funext a
  apply Fin.ext
  match a with
  | ⟨0, _⟩ => show win11_2.index t 0 * 1 + 1 * 0 = 0; rw [e0]
  | ⟨1, _⟩ => show win11_2.index t 1 * 512 + 1 * j.val = j.val; rw [e1]; omega

/-- The query row's block at any point is the whole row. -/
theorem query11_apply (c : Dev nD) (t : Fin cfg11.N) (j : Fin 512) :
    (iblk11 (F := Ideal) V c 3 t : Vec Ideal S1x512 .f32) (ix2 0 j) = (V c main_v45 : S1x512.Idx → EReal) (ix2 0 j) := by
  obtain ⟨-, -, -, -, -, -, e0, e1, -⟩ := blockIdx11 t
  unfold iblk11
  rw [View.read_apply]
  show V c main_v45 _ = V c main_v45 _
  congr 1
  funext a
  apply Fin.ext
  match a with
  | ⟨0, _⟩ => show win11_3.index t 0 * 1 + 1 * 0 = 0; rw [e0]
  | ⟨1, _⟩ => show win11_3.index t 1 * 512 + 1 * j.val = j.val; rw [e1]; omega

/-! ## What a point writes back, the cover, and the array after the region -/

/-- What point `t` writes back is block `t` of the score of the region's arrays: the payload at row `r` is the score's
    sum over the lanes, each loaded block read where the output's row block says. -/
theorem flushed11_eq (c : Dev nD) (t : Fin cfg11.N) :
    (dat11 (F := Ideal) V c).flushed 4 t
      = ((cfg11.win 4).blk t).view.read (Elt Ideal) (Cert.Spec.attn (V c main_v39) (V c main_v7) (V c main_v44) (V c main_v45)) := by
  show (cfg11.win 4).cut (grid11.coords t) ((dat11 (F := Ideal) V c).after 4 t) = _
  rw [after11_4]
  unfold out11_4
  rw [View.canon_unit_zero zeroOff11]
  simp only [View.ld_unit_zero (S := S1024x512) zeroOff11, View.ld_unit_zero (S := S512x512) zeroOff11, View.ld_unit_zero (S := S1x512) zeroOff11]
  obtain ⟨-, -, -, -, -, -, -, -, e0, e1⟩ := blockIdx11 t
  funext y
  obtain ⟨r, z, rfl⟩ : ∃ (r : Fin 1024) (z : Fin 1), y = ix2 r z := ⟨y 0, y 1, eq_ix2 y⟩
  refine (pay11_apply (iblk11 (F := Ideal) V c 0 t) (iblk11 (F := Ideal) V c 1 t) (iblk11 (F := Ideal) V c 2 t) (iblk11 (F := Ideal) V c 3 t) r z).trans ?_
  rw [View.read_apply]
  show _ = Cert.Spec.attn (V c main_v39) (V c main_v7) (V c main_v44) (V c main_v45) (((cfg11.win 4).blk t).view.emb (ix2 r z))
  unfold Cert.Spec.attn
  refine Finset.sum_congr rfl fun j _ => ?_
  rw [bias11_apply V c t j, query11_apply V c t j]
  refine congrArg (fun s => Ideal.tanh (s + (V c main_v44 : S1x512.Idx → EReal) (ix2 0 j)) * (V c main_v45 : S1x512.Idx → EReal) (ix2 0 j)) ?_
  refine Finset.sum_congr rfl fun k _ => ?_
  rw [weights11_apply V c t k j]
  refine congrArg (· * (V c main_v7 : S512x512.Idx → EReal) (ix2 k j)) ?_
  refine rows11_apply V c t r k _ ?_ rfl
  show win11_4.index t 0 * 1024 + 1 * r.val = t.val * 1024 + r.val
  rw [e0]; omega

/-- An index of the output array is in point `t`'s block iff each coordinate is in the block's range on its axis. -/
theorem mem_blk11 (t : Fin cfg11.N) (i : S4096x1.Idx) :
    i ∈ ((cfg11.win 4).blk t).view.set ↔ ∀ a : Fin 2, win11_4.index t a * S1024x1.size a ≤ (i a).val ∧ (i a).val < win11_4.index t a * S1024x1.size a + S1024x1.size a := by
  show i ∈ ((View.whole main_v47).slice (win11_4.rect t)).set ↔ _
  rw [View.set_slice_whole, Rect.mem_set_unit]
  exact Iff.rfl

/-- Row `i` of the output is written back by the point of its row block, `i / 1024`. -/
theorem cover11 (i : S4096x1.Idx) : ∃ t : Fin cfg11.N, (cfg11.win 4).flush t = true ∧ i ∈ ((cfg11.win 4).blk t).view.set := by
  have h0 : (i 0).val < 4096 := (i 0).isLt
  have h1 : (i 1).val < 1 := (i 1).isLt
  have hN : cfg11.N = 4 := N_11
  refine ⟨⟨(i 0).val / 1024, by omega⟩, flush11_4 _, ?_⟩
  rw [mem_blk11]
  obtain ⟨-, -, -, -, -, -, -, -, e0, e1⟩ := blockIdx11 ⟨(i 0).val / 1024, by omega⟩
  intro a
  match a with
  | ⟨0, _⟩ =>
    show win11_4.index ⟨(i 0).val / 1024, _⟩ 0 * 1024 ≤ (i 0).val ∧ (i 0).val < win11_4.index ⟨(i 0).val / 1024, _⟩ 0 * 1024 + 1024
    rw [e0]
    show (i 0).val / 1024 * 1024 ≤ (i 0).val ∧ (i 0).val < (i 0).val / 1024 * 1024 + 1024
    omega
  | ⟨1, _⟩ =>
    show win11_4.index ⟨(i 0).val / 1024, _⟩ 1 * 1 ≤ (i 1).val ∧ (i 1).val < win11_4.index ⟨(i 0).val / 1024, _⟩ 1 * 1 + 1
    rw [e1]
    omega

/-- THE ARRAY after the region: the attention score of the region's arrays as it finds them. -/
theorem final11 (c : Dev nD) :
    (dat11 (F := Ideal) V c).arrAt 4 cfg11.N = Cert.Spec.attn (V c main_v39) (V c main_v7) (V c main_v44) (V c main_v45) :=
  (dat11 (F := Ideal) V c).arrAt_eq_of_cover 4 _ (fun t _ => flushed11_eq V c t) (cover11)

end Cert.KernelIdeal.Gen

end
-- ==== Proof.KernelIdealH.Reg12Value.lean ====
import proofs.«157173_j56882546868342_2_alg».proof.Proof.KernelIdealH.Reg12
import proofs.«157173_j56882546868342_2_alg».proof.Proof.KernelIdealH.SpecAttn
import Idealize.ShloMosaic.Lib.Pipeline.Value
import Idealize.ShloMosaic.Lib.ValueIdx
import Idealize.ShloMosaic.PureOps.Ideal.Laws
import Idealize.ShloMosaic.Lib.Tactic

set_option maxRecDepth 16384

noncomputable section

namespace Cert.KernelIdeal.Gen

open Idealize.ShloMosaic Idealize.ShloMosaic.TcCoe Idealize.ShloMosaic.Tactic Idealize.ShloMosaic.ValueIdx
open Idealize.SL.Sem
open Idealize.ShloMosaic.Pipeline (Dat)

/-! # Region 12 at the extended reals: the output array ends at the attention score of the region's arrays

The body's one store is the score of the 1024 rows it loaded; the four points' blocks are the four row blocks of the
array, so the array ends at the score of all 4096 rows. -/

/-! ## The block product's operand indices, axis by axis -/

theorem attn12_lhs_row (j : S1024x512.Idx) (k : dot_S1024x512_S512x512_S1024x512_1_0_0_1_n_n.contr.Idx) :
    (dot_S1024x512_S512x512_S1024x512_1_0_0_1_n_n.lhsIdx j k 0).val = (j 0).val := by
  simp [DotDims.lhsIdx, dot_S1024x512_S512x512_S1024x512_1_0_0_1_n_n]
  rfl

theorem attn12_lhs_col (j : S1024x512.Idx) (k : dot_S1024x512_S512x512_S1024x512_1_0_0_1_n_n.contr.Idx) :
    (dot_S1024x512_S512x512_S1024x512_1_0_0_1_n_n.lhsIdx j k 1).val = (k ⟨0, by decide⟩).val :=
  dot_S1024x512_S512x512_S1024x512_1_0_0_1_n_n.lhsIdx_val_of_single rfl j k

theorem attn12_rhs_row (j : S1024x512.Idx) (k : dot_S1024x512_S512x512_S1024x512_1_0_0_1_n_n.contr.Idx) :
    (dot_S1024x512_S512x512_S1024x512_1_0_0_1_n_n.rhsIdx j k 0).val = (k ⟨0, by decide⟩).val :=
  dot_S1024x512_S512x512_S1024x512_1_0_0_1_n_n.rhsIdx_val_of_single rfl j k

theorem attn12_rhs_col (j : S1024x512.Idx) (k : dot_S1024x512_S512x512_S1024x512_1_0_0_1_n_n.contr.Idx) :
    (dot_S1024x512_S512x512_S1024x512_1_0_0_1_n_n.rhsIdx j k 1).val = (j 1).val := by
  simp [DotDims.rhsIdx, dot_S1024x512_S512x512_S1024x512_1_0_0_1_n_n]
  rfl

/-- The block product into the zero accumulator, at row `r` and lane `j`: the sum over the contracted coordinate. -/
theorem attn12_mm_apply (a : FVec Ideal S1024x512 .bf16) (w : FVec Ideal S512x512 .bf16) (r : Fin 1024) (j : Fin 512) :
    matmul dot_S1024x512_S512x512_S1024x512_1_0_0_1_n_n none a w (constant (F := Ideal) S1024x512 .f32 0x00000000#32) (ix2 r j)
      = ∑ k : Fin 512, a (ix2 r k) * w (ix2 k j) := by
  simp only [matmul]
  refine (Ideal.matmul_constant_zero_apply dot_S1024x512_S512x512_S1024x512_1_0_0_1_n_n none a w (ix2 r j)).trans ?_
  rw [← Equiv.sum_comp (contrEquiv1 dot_S1024x512_S512x512_S1024x512_1_0_0_1_n_n 512 rfl rfl).symm]
  refine Finset.sum_congr rfl fun k _ => ?_
  have hk := contrEquiv1_symm_val dot_S1024x512_S512x512_S1024x512_1_0_0_1_n_n 512 rfl rfl k
  congr 1
  · refine congrArg a (funext fun d => Fin.ext ?_)
    match d with
    | ⟨0, _⟩ => exact attn12_lhs_row _ _
    | ⟨1, _⟩ => exact (attn12_lhs_col _ _).trans hk
  · refine congrArg w (funext fun d => Fin.ext ?_)
    match d with
    | ⟨0, _⟩ => exact (attn12_rhs_row _ _).trans hk
    | ⟨1, _⟩ => exact attn12_rhs_col _ _

/-- A [1,512] row broadcast over the 1024 rows, at row `r` and lane `j`, is the row's lane `j`. -/
theorem attn12_bcast_apply (x : FVec Ideal S1x512 .f32) (r : Fin 1024) (j : Fin 512) :
    broadcastTo S1024x512 (shapeCast S1x512 x shapeCasts_S1x512_S1x512) broadcasts_S1x512_S1024x512 (ix2 r j) = x (ix2 0 j) := by
  rw [shapeCast_self]
  refine broadcastTo_apply x _ (ix2 r j) (ix2 0 j) fun d => ?_
  match d with
  | ⟨0, _⟩ => rfl
  | ⟨1, _⟩ => rfl

/-- The body's arithmetic read at row `r` of the [1024,1] result. -/
theorem pay12_apply (x0 : Vec Ideal S1024x512 .bf16) (x1 : Vec Ideal S512x512 .bf16) (x2 x3 : Vec Ideal S1x512 .f32) (r : Fin 1024) (z : Fin 1) :
    k12_pay1 (F := Ideal) x0 x1 x2 x3 (ix2 r z)
      = ∑ j : Fin 512, Ideal.tanh ((∑ k : Fin 512, x0 (ix2 r k) * x1 (ix2 k j)) + x2 (ix2 0 j)) * x3 (ix2 0 j) := by
  unfold k12_pay1
  dsimp only
  refine (shapeCast_apply _ shapeCasts_S1024_S1024x1 (ix2 r z) (ix1 r) (by
    rw [Shape.rowMajor_val_one, Shape.rowMajor_val_two]; have := z.isLt; simp)).trans ?_
  refine (Ideal.multiReduction_add_single _ _ reduces_S1024x512_S1024 (.inl rfl) rfl (ix1 r)).trans ?_
  refine Finset.sum_congr rfl fun (j : Fin 512) _ => ?_
  have hl : reduces_S1024x512_S1024.lift (ix1 r) j = ix2 r j := by
    funext d; apply Fin.ext
    match d with
    | ⟨0, _⟩ => rfl
    | ⟨1, _⟩ => rfl
  rw [hl]
  show FloatOps.tanh (_ + _) * _ = _
  rw [Ideal.tanh_def, shapeCast_self, shapeCast_self, attn12_mm_apply, attn12_bcast_apply, attn12_bcast_apply]

/-! ## The blocks the body loads, as entries of the region's arrays -/

variable (V : (c : Dev nD) → (b : Ref sig .tc) → Buf (Elt Ideal) ((c : Thread nD τ).loc b))

theorem zeroOff12 : (![0, 0] : Fin 2 → Nat) = fun _ => 0 := funext fun a => by fin_cases a <;> rfl

/-- The printed index maps over the four points: the windows of row blocks (the input rows, the output column) are at
    block (t, 0); the weight matrix and the two rows are whole, at block (0, 0). -/
theorem blockIdx12 : ∀ t : Fin cfg12.N,
    win12_0.index t (0 : Fin 2) = t.val ∧ win12_0.index t (1 : Fin 2) = 0
    ∧ win12_1.index t (0 : Fin 2) = 0 ∧ win12_1.index t (1 : Fin 2) = 0
    ∧ win12_2.index t (0 : Fin 2) = 0 ∧ win12_2.index t (1 : Fin 2) = 0
    ∧ win12_3.index t (0 : Fin 2) = 0 ∧ win12_3.index t (1 : Fin 2) = 0
    ∧ win12_4.index t (0 : Fin 2) = t.val ∧ win12_4.index t (1 : Fin 2) = 0 :=
  (by decide +kernel : ∀ t : Fin grid12.N, _)

/-- Row `r`, column `k` of the input rows' block at point `t` is row `1024 t + r` of the array. -/
theorem rows12_apply (c : Dev nD) (t : Fin cfg12.N) (r : Fin 1024) (k : Fin 512) (i : S4096x512.Idx)
    (hi0 : (i 0).val = t.val * 1024 + r.val) (hi1 : (i 1).val = k.val) :
    (iblk12 (F := Ideal) V c 0 t : Vec Ideal S1024x512 .bf16) (ix2 r k) = (V c main_v42 : S4096x512.Idx → EReal) i := by
  obtain ⟨e0, e1, -⟩ := blockIdx12 t
  unfold iblk12
  rw [View.read_apply]
  show V c main_v42 _ = V c main_v42 _
  congr 1
  funext a
  apply Fin.ext
  match a with
  | ⟨0, _⟩ => show win12_0.index t 0 * 1024 + 1 * r.val = (i 0).val; rw [e0, hi0]; omega
  | ⟨1, _⟩ => show win12_0.index t 1 * 512 + 1 * k.val = (i 1).val; rw [e1, hi1]; omega

/-- The weight matrix's block at any point is the whole matrix. -/
theorem weights12_apply (c : Dev nD) (t : Fin cfg12.N) (k j : Fin 512) :
    (iblk12 (F := Ideal) V c 1 t : Vec Ideal S512x512 .bf16) (ix2 k j) = (V c main_v7 : S512x512.Idx → EReal) (ix2 k j) := by
  obtain ⟨-, -, e0, e1, -⟩ := blockIdx12 t
  unfold iblk12
  rw [View.read_apply]
  show V c main_v7 _ = V c main_v7 _
  congr 1
  funext a
  apply Fin.ext
  match a with
  | ⟨0, _⟩ => show win12_1.index t 0 * 512 + 1 * k.val = k.val; rw [e0]; omega
  | ⟨1, _⟩ => show win12_1.index t 1 * 512 + 1 * j.val = j.val; rw [e1]; omega

/-- The bias row's block at any point is the whole row. -/
theorem bias12_apply (c : Dev nD) (t : Fin cfg12.N) (j : Fin 512) :
    (iblk12 (F := Ideal) V c 2 t : Vec Ideal S1x512 .f32) (ix2 0 j) = (V c main_v44 : S1x512.Idx → EReal) (ix2 0 j) := by
  obtain ⟨-, -, -, -, e0, e1, -⟩ := blockIdx12 t
  unfold iblk12
  rw [View.read_apply]
  show V c main_v44 _ = V c main_v44 _
  congr 1
  funext a
  apply Fin.ext
  match a with
  | ⟨0, _⟩ => show win12_2.index t 0 * 1 + 1 * 0 = 0; rw [e0]
  | ⟨1, _⟩ => show win12_2.index t 1 * 512 + 1 * j.val = j.val; rw [e1]; omega

/-- The query row's block at any point is the whole row. -/
theorem query12_apply (c : Dev nD) (t : Fin cfg12.N) (j : Fin 512) :
    (iblk12 (F := Ideal) V c 3 t : Vec Ideal S1x512 .f32) (ix2 0 j) = (V c main_v45 : S1x512.Idx → EReal) (ix2 0 j) := by
  obtain ⟨-, -, -, -, -, -, e0, e1, -⟩ := blockIdx12 t
  unfold iblk12
  rw [View.read_apply]
  show V c main_v45 _ = V c main_v45 _
  congr 1
  funext a
  apply Fin.ext
  match a with
  | ⟨0, _⟩ => show win12_3.index t 0 * 1 + 1 * 0 = 0; rw [e0]
  | ⟨1, _⟩ => show win12_3.index t 1 * 512 + 1 * j.val = j.val; rw [e1]; omega

/-! ## What a point writes back, the cover, and the array after the region -/

/-- What point `t` writes back is block `t` of the score of the region's arrays: the payload at row `r` is the score's
    sum over the lanes, each loaded block read where the output's row block says. -/
theorem flushed12_eq (c : Dev nD) (t : Fin cfg12.N) :
    (dat12 (F := Ideal) V c).flushed 4 t
      = ((cfg12.win 4).blk t).view.read (Elt Ideal) (Cert.Spec.attn (V c main_v42) (V c main_v7) (V c main_v44) (V c main_v45)) := by
  show (cfg12.win 4).cut (grid12.coords t) ((dat12 (F := Ideal) V c).after 4 t) = _
  rw [after12_4]
  unfold out12_4
  rw [View.canon_unit_zero zeroOff12]
  simp only [View.ld_unit_zero (S := S1024x512) zeroOff12, View.ld_unit_zero (S := S512x512) zeroOff12, View.ld_unit_zero (S := S1x512) zeroOff12]
  obtain ⟨-, -, -, -, -, -, -, -, e0, e1⟩ := blockIdx12 t
  funext y
  obtain ⟨r, z, rfl⟩ : ∃ (r : Fin 1024) (z : Fin 1), y = ix2 r z := ⟨y 0, y 1, eq_ix2 y⟩
  refine (pay12_apply (iblk12 (F := Ideal) V c 0 t) (iblk12 (F := Ideal) V c 1 t) (iblk12 (F := Ideal) V c 2 t) (iblk12 (F := Ideal) V c 3 t) r z).trans ?_
  rw [View.read_apply]
  show _ = Cert.Spec.attn (V c main_v42) (V c main_v7) (V c main_v44) (V c main_v45) (((cfg12.win 4).blk t).view.emb (ix2 r z))
  unfold Cert.Spec.attn
  refine Finset.sum_congr rfl fun j _ => ?_
  rw [bias12_apply V c t j, query12_apply V c t j]
  refine congrArg (fun s => Ideal.tanh (s + (V c main_v44 : S1x512.Idx → EReal) (ix2 0 j)) * (V c main_v45 : S1x512.Idx → EReal) (ix2 0 j)) ?_
  refine Finset.sum_congr rfl fun k _ => ?_
  rw [weights12_apply V c t k j]
  refine congrArg (· * (V c main_v7 : S512x512.Idx → EReal) (ix2 k j)) ?_
  refine rows12_apply V c t r k _ ?_ rfl
  show win12_4.index t 0 * 1024 + 1 * r.val = t.val * 1024 + r.val
  rw [e0]; omega

/-- An index of the output array is in point `t`'s block iff each coordinate is in the block's range on its axis. -/
theorem mem_blk12 (t : Fin cfg12.N) (i : S4096x1.Idx) :
    i ∈ ((cfg12.win 4).blk t).view.set ↔ ∀ a : Fin 2, win12_4.index t a * S1024x1.size a ≤ (i a).val ∧ (i a).val < win12_4.index t a * S1024x1.size a + S1024x1.size a := by
  show i ∈ ((View.whole main_v48).slice (win12_4.rect t)).set ↔ _
  rw [View.set_slice_whole, Rect.mem_set_unit]
  exact Iff.rfl

/-- Row `i` of the output is written back by the point of its row block, `i / 1024`. -/
theorem cover12 (i : S4096x1.Idx) : ∃ t : Fin cfg12.N, (cfg12.win 4).flush t = true ∧ i ∈ ((cfg12.win 4).blk t).view.set := by
  have h0 : (i 0).val < 4096 := (i 0).isLt
  have h1 : (i 1).val < 1 := (i 1).isLt
  have hN : cfg12.N = 4 := N_12
  refine ⟨⟨(i 0).val / 1024, by omega⟩, flush12_4 _, ?_⟩
  rw [mem_blk12]
  obtain ⟨-, -, -, -, -, -, -, -, e0, e1⟩ := blockIdx12 ⟨(i 0).val / 1024, by omega⟩
  intro a
  match a with
  | ⟨0, _⟩ =>
    show win12_4.index ⟨(i 0).val / 1024, _⟩ 0 * 1024 ≤ (i 0).val ∧ (i 0).val < win12_4.index ⟨(i 0).val / 1024, _⟩ 0 * 1024 + 1024
    rw [e0]
    show (i 0).val / 1024 * 1024 ≤ (i 0).val ∧ (i 0).val < (i 0).val / 1024 * 1024 + 1024
    omega
  | ⟨1, _⟩ =>
    show win12_4.index ⟨(i 0).val / 1024, _⟩ 1 * 1 ≤ (i 1).val ∧ (i 1).val < win12_4.index ⟨(i 0).val / 1024, _⟩ 1 * 1 + 1
    rw [e1]
    omega

/-- THE ARRAY after the region: the attention score of the region's arrays as it finds them. -/
theorem final12 (c : Dev nD) :
    (dat12 (F := Ideal) V c).arrAt 4 cfg12.N = Cert.Spec.attn (V c main_v42) (V c main_v7) (V c main_v44) (V c main_v45) :=
  (dat12 (F := Ideal) V c).arrAt_eq_of_cover 4 _ (fun t _ => flushed12_eq V c t) (cover12)

end Cert.KernelIdeal.Gen

end
-- ==== Proof.KernelIdealH.Reg13Pay.lean ====
import proofs.«157173_j56882546868342_2_alg».proof.Proof.Gen.KernelIdeal.Skeleton
import Idealize.ShloMosaic.Lib.Pipeline.Value
import Idealize.ShloMosaic.Lib.ValueIdx
import Idealize.ShloMosaic.PureOps.Ideal.Laws

/-!
# The classifier body's arithmetic, read at an index

The body's three pure values are composed of a few vector stages: the blend of the three feature blocks by the
three columns of mixing weights, the logits (the blend times the weight matrix, plus the bias row), the row
maximum broadcast back over the lanes, and the logarithm of the lane sum of exponentials broadcast back. Each stage
is named here as the body writes it, the body's values are those stages by unfolding, and each stage is read at a row
and a lane over the extended reals.
-/

set_option maxRecDepth 16384

noncomputable section

namespace Cert.KernelIdeal.Gen

open Idealize.ShloMosaic Idealize.ShloMosaic.ValueIdx Idealize.SL.Sem
open scoped BigOperators

/-! ## The stages, as the body writes them (at any float instance) -/

section Stages

variable {F : FTy → Type} [FloatOps F]

/-- A column of per-row weights spread over the 512 feature lanes, times a feature block widened to f32. -/
def wcol13 (b : Vec F S1024x1 .f32) (x : Vec F S1024x512 .bf16) : FVec F S1024x512 .f32 :=
  mulf (broadcastTo S1024x512 (shapeCast S1024x1 b shapeCasts_S1024x1_S1024x1) broadcasts_S1024x1_S1024x512)
    (extf .f32 (shapeCast S1024x512 x shapeCasts_S1024x512_S1024x512) bitsLt_bf16_f32)

/-- The blend of the three feature blocks, summed from the left. -/
def blend13 (v0 v2 v4 : Vec F S1024x1 .f32) (v6 v11 v17 : Vec F S1024x512 .bf16) : FVec F S1024x512 .f32 :=
  addf (addf (wcol13 v0 v6) (wcol13 v2 v11)) (wcol13 v4 v17)

/-- The logits: the blend, narrowed to bf16, times the weight matrix into a zero accumulator, plus the bias row
    spread over the rows. -/
def logit13 (v0 v2 v4 : Vec F S1024x1 .f32) (v6 v11 v17 : Vec F S1024x512 .bf16) (v24 : Vec F S512x16 .bf16)
    (v27 : Vec F S1x16 .f32) : FVec F S1024x16 .f32 :=
  addf (matmul dot_S1024x512_S512x16_S1024x16_1_0_0_1_n_n none (truncf .bf16 (blend13 v0 v2 v4 v6 v11 v17) bitsLt_bf16_f32)
      (shapeCast S512x16 v24 shapeCasts_S512x16_S512x16) (constant S1024x16 .f32 0x00000000#32))
    (broadcastTo S1024x16 (shapeCast S1x16 v27 shapeCasts_S1x16_S1x16) broadcasts_S1x16_S1024x16)

/-- A per-row value, as a column, spread over the sixteen lanes. -/
def lanes13 (x : FVec F S1024 .f32) : FVec F S1024x16 .f32 :=
  broadcastTo S1024x16 (shapeCast S1024x1 x shapeCasts_S1024_S1024x1) broadcasts_S1024x1_S1024x16

/-- The logits less their row's maximum. -/
def shift13 (L : FVec F S1024x16 .f32) : FVec F S1024x16 .f32 :=
  subf L (lanes13 (multiReduction .maximumf [1] S1024 L 0xFF800000#32 reduces_S1024x16_S1024 (.inl rfl) rfl))

/-- The logarithm of the lane sum of the exponentials, spread back over the lanes (the logarithm is taken of the
    column, before the spreading). -/
def lsum13 (S : FVec F S1024x16 .f32) : FVec F S1024x16 .f32 :=
  broadcastTo S1024x16
    (log (shapeCast S1024x1 (multiReduction .add [1] S1024 (exp S) 0x00000000#32 reduces_S1024x16_S1024 (.inl rfl) rfl)
      shapeCasts_S1024_S1024x1))
    broadcasts_S1024x1_S1024x16

/-- The body's second value is the shifted logits, -/
theorem k13_pay2_eq (v0 v2 v4 : Vec F S1024x1 .f32) (v6 v11 v17 : Vec F S1024x512 .bf16) (v24 : Vec F S512x16 .bf16)
    (v27 : Vec F S1x16 .f32) :
    k13_pay2 v0 v2 v4 v6 v11 v17 v24 v27 = shift13 (logit13 v0 v2 v4 v6 v11 v17 v24 v27) := rfl

/-- its third the spread logarithm of their exponentials' lane sum, -/
theorem k13_pay3_eq (v0 v2 v4 : Vec F S1024x1 .f32) (v6 v11 v17 : Vec F S1024x512 .bf16) (v24 : Vec F S512x16 .bf16)
    (v27 : Vec F S1x16 .f32) :
    k13_pay3 v0 v2 v4 v6 v11 v17 v24 v27 = lsum13 (shift13 (logit13 v0 v2 v4 v6 v11 v17 v24 v27)) := rfl

/-- and the stored value their difference. -/
theorem k13_pay1_eq (a b : FVec F S1024x16 .f32) : k13_pay1 a b = subf a b := rfl

end Stages

/-! ## The stages at a row and a lane, over the extended reals -/

/-- A column spread over 512 lanes reads the column's entry of the row. -/
theorem bcast_col512 (b : Vec Ideal S1024x1 .f32) (r : Fin 1024) (k : Fin 512) :
    broadcastTo S1024x512 (shapeCast S1024x1 b shapeCasts_S1024x1_S1024x1) broadcasts_S1024x1_S1024x512 (ix2 r k)
      = b (ix2 r (0 : Fin 1)) := by
  rw [shapeCast_self]
  exact broadcastTo_apply b broadcasts_S1024x1_S1024x512 (ix2 r k) (ix2 r (0 : Fin 1)) (fun a => by
    match a with
    | ⟨0, _⟩ => rfl
    | ⟨1, _⟩ => rfl)

/-- A column spread over 16 lanes likewise. -/
theorem bcast_col16 (b : FVec Ideal S1024x1 .f32) (r : Fin 1024) (q : Fin 16) :
    broadcastTo S1024x16 b broadcasts_S1024x1_S1024x16 (ix2 r q) = b (ix2 r (0 : Fin 1)) :=
  broadcastTo_apply b broadcasts_S1024x1_S1024x16 (ix2 r q) (ix2 r (0 : Fin 1)) (fun a => by
    match a with
    | ⟨0, _⟩ => rfl
    | ⟨1, _⟩ => rfl)

/-- The bias row spread over the rows reads the row's lane. -/
theorem bcast_row16 (b : Vec Ideal S1x16 .f32) (r : Fin 1024) (q : Fin 16) :
    broadcastTo S1024x16 (shapeCast S1x16 b shapeCasts_S1x16_S1x16) broadcasts_S1x16_S1024x16 (ix2 r q)
      = b (ix2 (0 : Fin 1) q) := by
  rw [shapeCast_self]
  exact broadcastTo_apply b broadcasts_S1x16_S1024x16 (ix2 r q) (ix2 (0 : Fin 1) q) (fun a => by
    match a with
    | ⟨0, _⟩ => rfl
    | ⟨1, _⟩ => rfl)

/-- A vector of 1024 entries recast as a column reads the entry of the row. -/
theorem col_of_vec (x : FVec Ideal S1024 .f32) (r : Fin 1024) :
    shapeCast S1024x1 x shapeCasts_S1024_S1024x1 (ix2 r (0 : Fin 1)) = x (ix1 r) :=
  shapeCast_apply x shapeCasts_S1024_S1024x1 (ix2 r (0 : Fin 1)) (ix1 r) (by
    rw [Shape.rowMajor_val_one, Shape.rowMajor_val_two]
    show r.val = r.val * 1 + 0
    omega)

theorem wcol13_apply (b : Vec Ideal S1024x1 .f32) (x : Vec Ideal S1024x512 .bf16) (r : Fin 1024) (k : Fin 512) :
    wcol13 (F := Ideal) b x (ix2 r k) = b (ix2 r (0 : Fin 1)) * x (ix2 r k) := by
  unfold wcol13
  rw [mulf_apply, bcast_col512, extf_apply, shapeCast_self]

theorem blend13_apply (v0 v2 v4 : Vec Ideal S1024x1 .f32) (v6 v11 v17 : Vec Ideal S1024x512 .bf16) (r : Fin 1024) (k : Fin 512) :
    blend13 (F := Ideal) v0 v2 v4 v6 v11 v17 (ix2 r k)
      = v0 (ix2 r (0 : Fin 1)) * v6 (ix2 r k) + v2 (ix2 r (0 : Fin 1)) * v11 (ix2 r k) + v4 (ix2 r (0 : Fin 1)) * v17 (ix2 r k) := by
  unfold blend13
  rw [addf_apply, addf_apply, wcol13_apply, wcol13_apply, wcol13_apply]

/-! ### The matrix product -/

theorem lhs13_0 (i : S1024x16.Idx) (q : dot_S1024x512_S512x16_S1024x16_1_0_0_1_n_n.contr.Idx) :
    (dot_S1024x512_S512x16_S1024x16_1_0_0_1_n_n.lhsIdx i q 0).val = (i 0).val := by
  unfold DotDims.lhsIdx
  rw [dif_neg (show ¬(0 : Fin S1024x512.rank) ∈ dot_S1024x512_S512x16_S1024x16_1_0_0_1_n_n.lhsBatch by decide), dif_pos (show (0 : Fin S1024x512.rank) ∈ dot_S1024x512_S512x16_S1024x16_1_0_0_1_n_n.lhsNonContracting by decide)]
  rfl
theorem lhs13_1 (i : S1024x16.Idx) (q : dot_S1024x512_S512x16_S1024x16_1_0_0_1_n_n.contr.Idx) :
    (dot_S1024x512_S512x16_S1024x16_1_0_0_1_n_n.lhsIdx i q 1).val = (q ⟨0, by decide⟩).val :=
  dot_S1024x512_S512x16_S1024x16_1_0_0_1_n_n.lhsIdx_val_of_single rfl i q
theorem rhs13_0 (i : S1024x16.Idx) (q : dot_S1024x512_S512x16_S1024x16_1_0_0_1_n_n.contr.Idx) :
    (dot_S1024x512_S512x16_S1024x16_1_0_0_1_n_n.rhsIdx i q 0).val = (q ⟨0, by decide⟩).val :=
  dot_S1024x512_S512x16_S1024x16_1_0_0_1_n_n.rhsIdx_val_of_single rfl i q
theorem rhs13_1 (i : S1024x16.Idx) (q : dot_S1024x512_S512x16_S1024x16_1_0_0_1_n_n.contr.Idx) :
    (dot_S1024x512_S512x16_S1024x16_1_0_0_1_n_n.rhsIdx i q 1).val = (i 1).val := by
  unfold DotDims.rhsIdx
  rw [dif_neg (show ¬(1 : Fin S512x16.rank) ∈ dot_S1024x512_S512x16_S1024x16_1_0_0_1_n_n.rhsBatch by decide), dif_pos (show (1 : Fin S512x16.rank) ∈ dot_S1024x512_S512x16_S1024x16_1_0_0_1_n_n.rhsNonContracting by decide)]
  rfl

/-- The product into the zero accumulator, at a row and a lane: the sum over the 512 contracted coordinates. -/
theorem mm13_apply (a : FVec Ideal S1024x512 .bf16) (b : FVec Ideal S512x16 .bf16) (r : Fin 1024) (q : Fin 16) :
    matmul dot_S1024x512_S512x16_S1024x16_1_0_0_1_n_n none a b (constant (F := Ideal) S1024x16 .f32 0x00000000#32) (ix2 r q)
      = ∑ k : Fin 512, a (ix2 r k) * b (ix2 k q) := by
  simp only [matmul]
  rw [Ideal.matmul_constant_zero_apply, ← Equiv.sum_comp (contrEquiv1 dot_S1024x512_S512x16_S1024x16_1_0_0_1_n_n 512 rfl rfl).symm]
  refine Finset.sum_congr rfl fun k _ => ?_
  have hk := contrEquiv1_symm_val dot_S1024x512_S512x16_S1024x16_1_0_0_1_n_n 512 rfl rfl k
  have el : dot_S1024x512_S512x16_S1024x16_1_0_0_1_n_n.lhsIdx (ix2 r q) ((contrEquiv1 dot_S1024x512_S512x16_S1024x16_1_0_0_1_n_n 512 rfl rfl).symm k) = ix2 r k := funext fun a => Fin.ext (by
    match a with
    | ⟨0, _⟩ => exact lhs13_0 _ _
    | ⟨1, _⟩ => exact (lhs13_1 _ _).trans hk)
  have er : dot_S1024x512_S512x16_S1024x16_1_0_0_1_n_n.rhsIdx (ix2 r q) ((contrEquiv1 dot_S1024x512_S512x16_S1024x16_1_0_0_1_n_n 512 rfl rfl).symm k) = ix2 k q := funext fun a => Fin.ext (by
    match a with
    | ⟨0, _⟩ => exact (rhs13_0 _ _).trans hk
    | ⟨1, _⟩ => exact rhs13_1 _ _)
  rw [el, er]

/-- The logits at a row and a lane. -/
theorem logit13_apply (v0 v2 v4 : Vec Ideal S1024x1 .f32) (v6 v11 v17 : Vec Ideal S1024x512 .bf16) (v24 : Vec Ideal S512x16 .bf16)
    (v27 : Vec Ideal S1x16 .f32) (r : Fin 1024) (q : Fin 16) :
    logit13 (F := Ideal) v0 v2 v4 v6 v11 v17 v24 v27 (ix2 r q)
      = (∑ k : Fin 512, (v0 (ix2 r (0 : Fin 1)) * v6 (ix2 r k) + v2 (ix2 r (0 : Fin 1)) * v11 (ix2 r k) + v4 (ix2 r (0 : Fin 1)) * v17 (ix2 r k)) * v24 (ix2 k q))
        + v27 (ix2 (0 : Fin 1) q) := by
  unfold logit13
  rw [addf_apply, mm13_apply, bcast_row16]
  refine congrArg (· + v27 (ix2 (0 : Fin 1) q)) (Finset.sum_congr rfl fun k _ => ?_)
  rw [truncf_apply, blend13_apply, shapeCast_self]

/-! ### The row reductions -/

/-- A per-row value spread over the lanes reads the row's value. -/
theorem lanes13_apply (x : FVec Ideal S1024 .f32) (r : Fin 1024) (q : Fin 16) : lanes13 (F := Ideal) x (ix2 r q) = x (ix1 r) := by
  unfold lanes13
  rw [bcast_col16, col_of_vec]

/-- The index a reduction over the lanes reads: the row with the lane inserted. -/
theorem lift13 (r : Fin 1024) (q : Fin 16) : reduces_S1024x16_S1024.lift (ix1 r) q = ix2 r q :=
  funext fun a => Fin.ext (by
    match a with
    | ⟨0, _⟩ => rfl
    | ⟨1, _⟩ => rfl)

/-- The shifted logits at a row and a lane: the entry less the fold of `max` over the row from minus infinity. -/
theorem shift13_apply (L : FVec Ideal S1024x16 .f32) (r : Fin 1024) (q : Fin 16) :
    shift13 (F := Ideal) L (ix2 r q)
      = L (ix2 r q) - (Finset.univ : Finset (Fin 16)).fold max (Ideal.ofBits .f32 0xFF800000#32) (fun q' => L (ix2 r q')) := by
  unfold shift13
  rw [subf_apply, lanes13_apply]
  refine congrArg (L (ix2 r q) - ·) ?_
  refine (Ideal.multiReduction_maximumf_single (s := S1024x16) (t := S1024) (a := (1 : Fin 2)) L 0xFF800000#32 reduces_S1024x16_S1024 (.inl rfl) rfl (ix1 r)).trans ?_
  refine congrArg (fun f => (Finset.univ : Finset (Fin 16)).fold max (Ideal.ofBits .f32 0xFF800000#32) f) ?_
  funext q'
  exact congrArg L (lift13 r q')

/-- The spread logarithm of the lane sum of exponentials, at a row and a lane. -/
theorem lsum13_apply (S : FVec Ideal S1024x16 .f32) (r : Fin 1024) (q : Fin 16) :
    lsum13 (F := Ideal) S (ix2 r q) = Ideal.log (∑ q' : Fin 16, Ideal.exp (S (ix2 r q'))) := by
  unfold lsum13
  rw [bcast_col16]
  show Ideal.log (shapeCast S1024x1 (multiReduction .add [1] S1024 (exp S) 0x00000000#32 reduces_S1024x16_S1024 (.inl rfl) rfl) shapeCasts_S1024_S1024x1 (ix2 r (0 : Fin 1))) = _
  rw [col_of_vec]
  refine congrArg Ideal.log ?_
  refine (Ideal.multiReduction_add_single (s := S1024x16) (t := S1024) (a := (1 : Fin 2)) (exp S) 0x00000000#32 reduces_S1024x16_S1024 (.inl rfl) rfl (ix1 r)).trans ?_
  refine Finset.sum_congr rfl fun q' _ => ?_
  exact congrArg (fun i => Ideal.exp (S i)) (lift13 r q')

end Cert.KernelIdeal.Gen

end
-- ==== Proof.KernelIdealH.Reg13Value.lean ====
import proofs.«157173_j56882546868342_2_alg».proof.Proof.KernelIdealH.Reg13
import proofs.«157173_j56882546868342_2_alg».proof.Proof.KernelIdealH.Reg13Pay
import proofs.«157173_j56882546868342_2_alg».proof.Proof.KernelIdealH.SpecCls
import Idealize.ShloMosaic.Lib.Pipeline.Value
import Idealize.ShloMosaic.Lib.ValueIdx

/-!
# Region 13's result: the classifier head of the arrays the region finds

Each grid point stores the log-softmax rows of its row block's logits; the four row blocks tile the result, so the
result array after the region is the classifier head of the whole arrays, index by index.
-/

set_option maxRecDepth 16384

noncomputable section

namespace Cert.KernelIdeal.Gen

open Idealize.ShloMosaic Idealize.ShloMosaic.TcCoe Idealize.ShloMosaic.ValueIdx Idealize.SL.Sem
open Idealize.ShloMosaic.Pipeline (Dat)
open scoped BigOperators

variable (V : (c : Dev nD) → (b : Ref sig .tc) → Buf (Elt Ideal) ((c : Thread nD τ).loc b))

theorem hz13 : (![0, 0] : Fin 2 → Nat) = fun _ => 0 := funext fun a => by fin_cases a <;> rfl

/-! ## The stored value at a row and a lane, from the blocks -/

/-- A load of one column of the mixing-weights block reads that column. -/
theorem ld_col13_0 (x3 : Vec Ideal S1024x3 .f32) (r : Fin 1024) :
    (View.ld x3 ra13_0 : Vec Ideal S1024x1 .f32) (ix2 r (0 : Fin 1)) = x3 (ix2 r (0 : Fin 3)) :=
  congrArg x3 (funext fun d => Fin.ext (by
    match d with
    | ⟨0, _⟩ => show 0 + 1 * r.val = r.val; omega
    | ⟨1, _⟩ => rfl))
theorem ld_col13_1 (x3 : Vec Ideal S1024x3 .f32) (r : Fin 1024) :
    (View.ld x3 ra13_1 : Vec Ideal S1024x1 .f32) (ix2 r (0 : Fin 1)) = x3 (ix2 r (1 : Fin 3)) :=
  congrArg x3 (funext fun d => Fin.ext (by
    match d with
    | ⟨0, _⟩ => show 0 + 1 * r.val = r.val; omega
    | ⟨1, _⟩ => rfl))
theorem ld_col13_2 (x3 : Vec Ideal S1024x3 .f32) (r : Fin 1024) :
    (View.ld x3 ra13_2 : Vec Ideal S1024x1 .f32) (ix2 r (0 : Fin 1)) = x3 (ix2 r (2 : Fin 3)) :=
  congrArg x3 (funext fun d => Fin.ext (by
    match d with
    | ⟨0, _⟩ => show 0 + 1 * r.val = r.val; omega
    | ⟨1, _⟩ => rfl))

/-- The value the body stores, at a row and a lane, is the classifier head of the blocks there. -/
theorem pay13_6_apply (x0 x1 x2 : Vec Ideal S1024x512 .bf16) (x3 : Vec Ideal S1024x3 .f32) (x4 : Vec Ideal S512x16 .bf16)
    (x5 : Vec Ideal S1x16 .f32) (r : Fin 1024) (q : Fin 16) :
    pay13_6 (F := Ideal) x0 x1 x2 x3 x4 x5 (ix2 r q) = Cert.Spec.clsAt (R := 1024) x0 x1 x2 x3 x4 x5 r q := by
  unfold pay13_6
  simp only [View.ld_unit_zero (S := S1024x512) hz13, View.ld_unit_zero (S := S512x16) hz13, View.ld_unit_zero (S := S1x16) hz13]
  rw [k13_pay1_eq, k13_pay2_eq, k13_pay3_eq, subf_apply, lsum13_apply, shift13_apply]
  simp only [shift13_apply, logit13_apply]
  rw [ld_col13_0 x3 r, ld_col13_1 x3 r, ld_col13_2 x3 r]
  rfl

/-! ## The blocks and the arrays, at their literal types -/

abbrev hpA (c : Dev nD) : Vec Ideal S4096x512 .bf16 := V c main_v36
abbrev knnA (c : Dev nD) : Vec Ideal S4096x512 .bf16 := V c main_v39
abbrev pprA (c : Dev nD) : Vec Ideal S4096x512 .bf16 := V c main_v42
abbrev betaA (c : Dev nD) : Vec Ideal S4096x3 .f32 := V c main_v60
abbrev wcA (c : Dev nD) : Vec Ideal S512x16 .bf16 := V c main_v8
abbrev bcA (c : Dev nD) : Vec Ideal S1x16 .f32 := V c main_v61

abbrev blk13_0 (c : Dev nD) (t : Fin cfg13.N) : Vec Ideal S1024x512 .bf16 := iblk13 V c 0 t
abbrev blk13_1 (c : Dev nD) (t : Fin cfg13.N) : Vec Ideal S1024x512 .bf16 := iblk13 V c 1 t
abbrev blk13_2 (c : Dev nD) (t : Fin cfg13.N) : Vec Ideal S1024x512 .bf16 := iblk13 V c 2 t
abbrev blk13_3 (c : Dev nD) (t : Fin cfg13.N) : Vec Ideal S1024x3 .f32 := iblk13 V c 3 t
abbrev blk13_4 (c : Dev nD) (t : Fin cfg13.N) : Vec Ideal S512x16 .bf16 := iblk13 V c 4 t
abbrev blk13_5 (c : Dev nD) (t : Fin cfg13.N) : Vec Ideal S1x16 .f32 := iblk13 V c 5 t

/-- The printed index maps, decided over the grid: the row-block windows are at block row `t`, the whole-array windows
    at block zero. -/
theorem idx_facts13 : ∀ t : Fin cfg13.N,
    win13_0.index t (0 : Fin 2) = t.val ∧ win13_0.index t (1 : Fin 2) = 0
    ∧ win13_1.index t (0 : Fin 2) = t.val ∧ win13_1.index t (1 : Fin 2) = 0
    ∧ win13_2.index t (0 : Fin 2) = t.val ∧ win13_2.index t (1 : Fin 2) = 0
    ∧ win13_3.index t (0 : Fin 2) = t.val ∧ win13_3.index t (1 : Fin 2) = 0
    ∧ win13_4.index t (0 : Fin 2) = 0 ∧ win13_4.index t (1 : Fin 2) = 0
    ∧ win13_5.index t (0 : Fin 2) = 0 ∧ win13_5.index t (1 : Fin 2) = 0
    ∧ win13_6.index t (0 : Fin 2) = t.val ∧ win13_6.index t (1 : Fin 2) = 0 :=
  (by decide +kernel : ∀ t : Fin grid13.N, _)

/-- The array row a block row sits at. -/
def row13 (t : Fin cfg13.N) (r : Fin 1024) : Fin 4096 :=
  ⟨t.val * 1024 + r.val, by have := t.isLt; have : cfg13.N = 4 := N_13; have := r.isLt; omega⟩

/-- The blocks read the arrays at that row (the whole-array windows: at the same index). -/
theorem blk13_0_apply (c : Dev nD) (t : Fin cfg13.N) (r : Fin 1024) (k : Fin 512) :
    blk13_0 V c t (ix2 r k) = hpA V c (ix2 (row13 t r) k) := by
  obtain ⟨e00, e01, -⟩ := idx_facts13 t
  show V c main_v36 (((cfg13.win 0).blk t).view.emb (ix2 r k)) = V c main_v36 (ix2 (row13 t r) k)
  refine congrArg (V c main_v36) (funext fun a => Fin.ext ?_)
  match a with
  | ⟨0, _⟩ => show win13_0.index t (0 : Fin 2) * 1024 + 1 * r.val = t.val * 1024 + r.val; omega
  | ⟨1, _⟩ => show win13_0.index t (1 : Fin 2) * 512 + 1 * k.val = k.val; omega

theorem blk13_1_apply (c : Dev nD) (t : Fin cfg13.N) (r : Fin 1024) (k : Fin 512) :
    blk13_1 V c t (ix2 r k) = knnA V c (ix2 (row13 t r) k) := by
  obtain ⟨-, -, e10, e11, -⟩ := idx_facts13 t
  show V c main_v39 (((cfg13.win 1).blk t).view.emb (ix2 r k)) = V c main_v39 (ix2 (row13 t r) k)
  refine congrArg (V c main_v39) (funext fun a => Fin.ext ?_)
  match a with
  | ⟨0, _⟩ => show win13_1.index t (0 : Fin 2) * 1024 + 1 * r.val = t.val * 1024 + r.val; omega
  | ⟨1, _⟩ => show win13_1.index t (1 : Fin 2) * 512 + 1 * k.val = k.val; omega

theorem blk13_2_apply (c : Dev nD) (t : Fin cfg13.N) (r : Fin 1024) (k : Fin 512) :
    blk13_2 V c t (ix2 r k) = pprA V c (ix2 (row13 t r) k) := by
  obtain ⟨-, -, -, -, e20, e21, -⟩ := idx_facts13 t
  show V c main_v42 (((cfg13.win 2).blk t).view.emb (ix2 r k)) = V c main_v42 (ix2 (row13 t r) k)
  refine congrArg (V c main_v42) (funext fun a => Fin.ext ?_)
  match a with
  | ⟨0, _⟩ => show win13_2.index t (0 : Fin 2) * 1024 + 1 * r.val = t.val * 1024 + r.val; omega
  | ⟨1, _⟩ => show win13_2.index t (1 : Fin 2) * 512 + 1 * k.val = k.val; omega

theorem blk13_3_apply (c : Dev nD) (t : Fin cfg13.N) (r : Fin 1024) (a' : Fin 3) :
    blk13_3 V c t (ix2 r a') = betaA V c (ix2 (row13 t r) a') := by
  obtain ⟨-, -, -, -, -, -, e30, e31, -⟩ := idx_facts13 t
  show V c main_v60 (((cfg13.win 3).blk t).view.emb (ix2 r a')) = V c main_v60 (ix2 (row13 t r) a')
  refine congrArg (V c main_v60) (funext fun a => Fin.ext ?_)
  match a with
  | ⟨0, _⟩ => show win13_3.index t (0 : Fin 2) * 1024 + 1 * r.val = t.val * 1024 + r.val; omega
  | ⟨1, _⟩ => show win13_3.index t (1 : Fin 2) * 3 + 1 * a'.val = a'.val; omega

theorem blk13_4_eq (c : Dev nD) (t : Fin cfg13.N) : blk13_4 V c t = wcA V c := by
  obtain ⟨-, -, -, -, -, -, -, -, e40, e41, -⟩ := idx_facts13 t
  funext j
  show V c main_v8 (((cfg13.win 4).blk t).view.emb j) = V c main_v8 j
  refine congrArg (V c main_v8) (funext fun a => Fin.ext ?_)
  match a with
  | ⟨0, _⟩ => show win13_4.index t (0 : Fin 2) * 512 + 1 * (j 0).val = (j 0).val; omega
  | ⟨1, _⟩ => show win13_4.index t (1 : Fin 2) * 16 + 1 * (j 1).val = (j 1).val; omega

theorem blk13_5_eq (c : Dev nD) (t : Fin cfg13.N) : blk13_5 V c t = bcA V c := by
  obtain ⟨-, -, -, -, -, -, -, -, -, -, e50, e51, -⟩ := idx_facts13 t
  funext j
  show V c main_v61 (((cfg13.win 5).blk t).view.emb j) = V c main_v61 j
  refine congrArg (V c main_v61) (funext fun a => Fin.ext ?_)
  match a with
  | ⟨0, _⟩ => show win13_5.index t (0 : Fin 2) * 1 + 1 * (j 0).val = (j 0).val; omega
  | ⟨1, _⟩ => show win13_5.index t (1 : Fin 2) * 16 + 1 * (j 1).val = (j 1).val; omega

/-! ## What a point writes back, and the whole array -/

/-- The classifier head of the arrays the region finds. -/
abbrev G13 (c : Dev nD) : Vec Ideal S4096x16 .f32 :=
  Cert.Spec.cls (hpA V c) (knnA V c) (pprA V c) (betaA V c) (wcA V c) (bcA V c)

/-- WHAT POINT `t` WRITES BACK is block `t` of the classifier head of the arrays. -/
theorem flushed13_eq (c : Dev nD) (t : Fin cfg13.N) :
    (dat13 V c).flushed 6 t = ((cfg13.win 6).blk t).view.read (Elt Ideal) (G13 V c) := by
  show (cfg13.win 6).cut (grid13.coords t) ((dat13 V c).after 6 t) = _
  rw [after13_6]
  unfold out13_6
  rw [View.canon_unit_zero hz13]
  obtain ⟨-, -, -, -, -, -, -, -, -, -, -, -, e60, e61⟩ := idx_facts13 t
  funext j
  obtain ⟨r, q, rfl⟩ : ∃ (r : Fin 1024) (q : Fin 16), j = ix2 r q := ⟨j 0, j 1, eq_ix2 j⟩
  have e6 : ((cfg13.win 6).blk t).view.emb (ix2 r q) = ix2 (row13 t r) q := funext fun a => Fin.ext (by
    match a with
    | ⟨0, _⟩ => show win13_6.index t (0 : Fin 2) * 1024 + 1 * r.val = t.val * 1024 + r.val; omega
    | ⟨1, _⟩ => show win13_6.index t (1 : Fin 2) * 16 + 1 * q.val = q.val; omega)
  show pay13_6 (F := Ideal) (blk13_0 V c t) (blk13_1 V c t) (blk13_2 V c t) (blk13_3 V c t) (blk13_4 V c t) (blk13_5 V c t) (ix2 r q)
    = G13 V c (((cfg13.win 6).blk t).view.emb (ix2 r q))
  rw [e6]
  refine (pay13_6_apply (blk13_0 V c t) (blk13_1 V c t) (blk13_2 V c t) (blk13_3 V c t) (blk13_4 V c t) (blk13_5 V c t) r q).trans ?_
  rw [blk13_4_eq V c t, blk13_5_eq V c t]
  exact Cert.Spec.clsAt_congr (blk13_0 V c t) (blk13_1 V c t) (blk13_2 V c t) (blk13_3 V c t)
    (hpA V c) (knnA V c) (pprA V c) (betaA V c) (wcA V c) (bcA V c) r (row13 t r)
    (fun k => blk13_0_apply V c t r k) (fun k => blk13_1_apply V c t r k) (fun k => blk13_2_apply V c t r k)
    (fun a' => blk13_3_apply V c t r a') q

/-- An index of the array is in point `t`'s block iff each coordinate is in the block's range on its axis. -/
theorem mem_blk13 (t : Fin cfg13.N) (i : S4096x16.Idx) :
    i ∈ ((cfg13.win 6).blk t).view.set ↔ ∀ a : Fin 2, win13_6.index t a * S1024x16.size a ≤ (i a).val ∧ (i a).val < win13_6.index t a * S1024x16.size a + S1024x16.size a := by
  show i ∈ ((View.whole main_v62).slice (win13_6.rect t)).set ↔ _
  rw [View.set_slice_whole, Rect.mem_set_unit]
  exact Iff.rfl

/-- The four row blocks tile the array: row `ρ` is in the block of point `ρ / 1024`. -/
theorem cover13 (i : S4096x16.Idx) :
    ∃ t : Fin cfg13.N, (cfg13.win 6).flush t = true ∧ i ∈ ((cfg13.win 6).blk t).view.set := by
  have hi0 : (i 0).val < 4096 := (i 0).isLt
  have hi1 : (i 1).val < 16 := (i 1).isLt
  have hN : cfg13.N = 4 := N_13
  obtain ⟨t, ht⟩ : ∃ t : Fin cfg13.N, t.val = (i 0).val / 1024 := ⟨⟨(i 0).val / 1024, by omega⟩, rfl⟩
  obtain ⟨-, -, -, -, -, -, -, -, -, -, -, -, e60, e61⟩ := idx_facts13 t
  refine ⟨t, flush13_6 t, ?_⟩
  rw [mem_blk13]
  intro a
  match a with
  | ⟨0, _⟩ => show win13_6.index t (0 : Fin 2) * 1024 ≤ (i 0).val ∧ (i 0).val < win13_6.index t (0 : Fin 2) * 1024 + 1024; omega
  | ⟨1, _⟩ => show win13_6.index t (1 : Fin 2) * 16 ≤ (i 1).val ∧ (i 1).val < win13_6.index t (1 : Fin 2) * 16 + 16; omega

/-- THE RESULT ARRAY after the region: the classifier head of the arrays the region finds. -/
theorem final13 (c : Dev nD) :
    (dat13 (F := Ideal) V c).arrAt 6 cfg13.N
      = Cert.Spec.cls (V c main_v36) (V c main_v39) (V c main_v42) (V c main_v60) (V c main_v8) (V c main_v61) :=
  (dat13 V c).arrAt_eq_of_cover 6 (G13 V c) (fun t _ => flushed13_eq V c t) cover13

end Cert.KernelIdeal.Gen

end
-- ==== Proof.KernelIdealH.KernelValue.lean ====
/- The kernel program's result as one function of its twenty-one argument arrays, at the ideal values.

   The program is fourteen regions with host stretches between them. Each region's output array is the
   specification's stage for that region applied to the arrays the region finds in its input buffers; each input
   buffer holds either an argument (through a change of format, which changes no value here), a host stage (a scaled
   weight matrix, a bias row, the mixing weights), or an earlier region's output, and is read at the region's entry by
   moving the reading back to the item that wrote it. Chaining these from the first region to the last gives the
   specification's composed function: two gated layers (the original view), the nearest-neighbour view, the pagerank
   view, the three attention score columns, their softmax, and the classifier over the blend. -/
import proofs.«157173_j56882546868342_2_alg».proof.Proof.KernelIdealH.Outs
import proofs.«157173_j56882546868342_2_alg».proof.Proof.KernelIdealH.HostStages
import proofs.«157173_j56882546868342_2_alg».proof.Proof.KernelIdealH.HostGates
import proofs.«157173_j56882546868342_2_alg».proof.Proof.KernelIdealH.Readings
import proofs.«157173_j56882546868342_2_alg».proof.Proof.KernelIdealH.Reg0Value
import proofs.«157173_j56882546868342_2_alg».proof.Proof.KernelIdealH.Reg1Value
import proofs.«157173_j56882546868342_2_alg».proof.Proof.KernelIdealH.Reg2Value
import proofs.«157173_j56882546868342_2_alg».proof.Proof.KernelIdealH.Reg3Value
import proofs.«157173_j56882546868342_2_alg».proof.Proof.KernelIdealH.Reg4Value
import proofs.«157173_j56882546868342_2_alg».proof.Proof.KernelIdealH.Reg5Value
import proofs.«157173_j56882546868342_2_alg».proof.Proof.KernelIdealH.Reg6Value
import proofs.«157173_j56882546868342_2_alg».proof.Proof.KernelIdealH.Reg7Value
import proofs.«157173_j56882546868342_2_alg».proof.Proof.KernelIdealH.Reg8Value
import proofs.«157173_j56882546868342_2_alg».proof.Proof.KernelIdealH.Reg9Value
import proofs.«157173_j56882546868342_2_alg».proof.Proof.KernelIdealH.Reg10Value
import proofs.«157173_j56882546868342_2_alg».proof.Proof.KernelIdealH.Reg11Value
import proofs.«157173_j56882546868342_2_alg».proof.Proof.KernelIdealH.Reg12Value
import proofs.«157173_j56882546868342_2_alg».proof.Proof.KernelIdealH.Reg13Value
import proofs.«157173_j56882546868342_2_alg».proof.Proof.KernelIdealH.SpecNet
set_option maxRecDepth 16384
noncomputable section
namespace Cert.KernelIdeal.Gen
open Idealize.ShloMosaic Idealize.ShloMosaic.TcCoe Idealize.ShloMosaic.ValueIdx

variable (m : (ℓ : Loc nD τ sig) → Buf (Elt Ideal) ℓ)

/-! ## The regions' outputs, first to last -/

/-- Region 0: the first layer's self product, feat · (Ws0 ∘ g0). -/
theorem val_v31 (c : Dev nD) : (outs (F := Ideal) m) 2 main_v31 c = Cert.Spec.kSelf (m ((c : Thread nD τ).loc main_arg0)) (m ((c : Thread nD τ).loc main_arg5)) (Cert.Spec.gate (m ((c : Thread nD τ).loc main_arg7))) := by
  rw [outs_2, final0]
  show Cert.Spec.mm (V1 m c main_v0) (V1 m c main_v19) = _
  rw [V1_v0, V1_v19]; rfl

/-- Region 1: the first layer's neighbour aggregate, adj · feat. -/
theorem val_v32 (c : Dev nD) : (outs (F := Ideal) m) 3 main_v32 c = Cert.Spec.kNbr (m ((c : Thread nD τ).loc main_arg1)) (m ((c : Thread nD τ).loc main_arg0)) := by
  rw [outs_3, final1]
  show Cert.Spec.mm (V2 m (outs (F := Ideal) m) c main_v1) (V2 m (outs (F := Ideal) m) c main_v0) = _
  rw [V2_v1, V2_v0, V1_v1, V1_v0]; rfl

/-- Region 2: the first layer's output. -/
theorem val_v33 (c : Dev nD) : (outs (F := Ideal) m) 4 main_v33 c = (Cert.Spec.kH0 (m ((c : Thread nD τ).loc main_arg0)) (m ((c : Thread nD τ).loc main_arg1)) (m ((c : Thread nD τ).loc main_arg5)) (m ((c : Thread nD τ).loc main_arg6)) (m ((c : Thread nD τ).loc main_arg7))) := by
  rw [outs_4, final2]
  show Cert.Spec.mmAddRelu (V3 m (outs (F := Ideal) m) c main_v32) (V3 m (outs (F := Ideal) m) c main_v23) (V3 m (outs (F := Ideal) m) c main_v31) = _
  rw [V3_v32, V3_v23, V3_v31, V1_v23, val_v32, val_v31]; rfl

/-- Region 3: the second layer's self product. -/
theorem val_v34 (c : Dev nD) : (outs (F := Ideal) m) 5 main_v34 c = Cert.Spec.kSelf (Cert.Spec.kH0 (m ((c : Thread nD τ).loc main_arg0)) (m ((c : Thread nD τ).loc main_arg1)) (m ((c : Thread nD τ).loc main_arg5)) (m ((c : Thread nD τ).loc main_arg6)) (m ((c : Thread nD τ).loc main_arg7))) (m ((c : Thread nD τ).loc main_arg8)) (Cert.Spec.gate (m ((c : Thread nD τ).loc main_arg10))) := by
  rw [outs_5, final3]
  show Cert.Spec.mm (V4 m (outs (F := Ideal) m) c main_v33) (V4 m (outs (F := Ideal) m) c main_v26) = _
  rw [V4_v33, V4_v26, V1_v26, val_v33]; rfl

/-- Region 4: the second layer's neighbour aggregate. -/
theorem val_v35 (c : Dev nD) : (outs (F := Ideal) m) 6 main_v35 c = Cert.Spec.kNbr (m ((c : Thread nD τ).loc main_arg1)) (Cert.Spec.kH0 (m ((c : Thread nD τ).loc main_arg0)) (m ((c : Thread nD τ).loc main_arg1)) (m ((c : Thread nD τ).loc main_arg5)) (m ((c : Thread nD τ).loc main_arg6)) (m ((c : Thread nD τ).loc main_arg7))) := by
  rw [outs_6, final4]
  show Cert.Spec.mm (V5 m (outs (F := Ideal) m) c main_v1) (V5 m (outs (F := Ideal) m) c main_v33) = _
  rw [V5_v1, V5_v33, V1_v1, val_v33]; rfl

/-- Region 5: the original view, the second layer's output. -/
theorem val_v36 (c : Dev nD) : (outs (F := Ideal) m) 7 main_v36 c = (Cert.Spec.kHp (m ((c : Thread nD τ).loc main_arg0)) (m ((c : Thread nD τ).loc main_arg1)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) := by
  rw [outs_7, final5]
  show Cert.Spec.mmAddRelu (V6 m (outs (F := Ideal) m) c main_v35) (V6 m (outs (F := Ideal) m) c main_v30) (V6 m (outs (F := Ideal) m) c main_v34) = _
  rw [V6_v35, V6_v30, V6_v34, V1_v30, val_v35, val_v34]; rfl

/-- Region 6: fused · Wg. -/
theorem val_v37 (c : Dev nD) : (outs (F := Ideal) m) 8 main_v37 c = Cert.Spec.mm (m ((c : Thread nD τ).loc main_arg4)) (m ((c : Thread nD τ).loc main_arg11)) := by
  rw [outs_8, final6]
  show Cert.Spec.mm (V7 m (outs (F := Ideal) m) c main_v4) (V7 m (outs (F := Ideal) m) c main_v5) = _
  rw [V7_v4, V7_v5, V1_v4, V1_v5]

/-- Region 7: the nearest-neighbour view. -/
theorem val_v39 (c : Dev nD) : (outs (F := Ideal) m) 10 main_v39 c = (Cert.Spec.hpKnn (m ((c : Thread nD τ).loc main_arg2)) (m ((c : Thread nD τ).loc main_arg4)) (m ((c : Thread nD τ).loc main_arg11)) (m ((c : Thread nD τ).loc main_arg12))) := by
  rw [outs_10, final7]
  show Cert.Spec.mmBiasRelu (V9 m (outs (F := Ideal) m) c main_v2) (V9 m (outs (F := Ideal) m) c main_v37) (V9 m (outs (F := Ideal) m) c main_v38) = _
  rw [V9_v2, V9_v37, V9_v38, V1_v2, val_v37]; rfl

/-- Region 8: feat · Wa + ba. -/
theorem val_v41 (c : Dev nD) : (outs (F := Ideal) m) 12 main_v41 c = Cert.Spec.mmBias (m ((c : Thread nD τ).loc main_arg0)) (m ((c : Thread nD τ).loc main_arg13)) (Cert.Spec.row (m ((c : Thread nD τ).loc main_arg14))) := by
  rw [outs_12, final8]
  show Cert.Spec.mmBias (V11 m (outs (F := Ideal) m) c main_v0) (V11 m (outs (F := Ideal) m) c main_v6) (V11 m (outs (F := Ideal) m) c main_v40) = _
  rw [V11_v0, V11_v6, V11_v40, V1_v0, V1_v6]

/-- Region 9: the pagerank view. -/
theorem val_v42 (c : Dev nD) : (outs (F := Ideal) m) 13 main_v42 c = (Cert.Spec.hpPpr (m ((c : Thread nD τ).loc main_arg3)) (m ((c : Thread nD τ).loc main_arg0)) (m ((c : Thread nD τ).loc main_arg13)) (m ((c : Thread nD τ).loc main_arg14))) := by
  rw [outs_13, final9]
  show Cert.Spec.mm (V12 m (outs (F := Ideal) m) c main_v3) (V12 m (outs (F := Ideal) m) c main_v41) = _
  rw [V12_v3, V12_v41, V1_v3, val_v41]; rfl

/-- Region 10: the original view's score column. -/
theorem val_v46 (c : Dev nD) : (outs (F := Ideal) m) 15 main_v46 c = Cert.Spec.kAtt (Cert.Spec.kHp (m ((c : Thread nD τ).loc main_arg0)) (m ((c : Thread nD τ).loc main_arg1)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) (m ((c : Thread nD τ).loc main_arg15)) (m ((c : Thread nD τ).loc main_arg16)) (m ((c : Thread nD τ).loc main_arg17)) (m ((c : Thread nD τ).loc main_arg18)) := by
  rw [outs_15, final10]
  show Cert.Spec.attn (V14 m (outs (F := Ideal) m) c main_v36) (V14 m (outs (F := Ideal) m) c main_v7) (V14 m (outs (F := Ideal) m) c main_v44) (V14 m (outs (F := Ideal) m) c main_v45) = _
  rw [V14_v36, V14_v7, V14_v44, V14_v45, V1_v7, val_v36]; rfl

/-- Region 11: the nearest-neighbour view's score column. -/
theorem val_v47 (c : Dev nD) : (outs (F := Ideal) m) 16 main_v47 c = Cert.Spec.kAtt (Cert.Spec.hpKnn (m ((c : Thread nD τ).loc main_arg2)) (m ((c : Thread nD τ).loc main_arg4)) (m ((c : Thread nD τ).loc main_arg11)) (m ((c : Thread nD τ).loc main_arg12))) (m ((c : Thread nD τ).loc main_arg15)) (m ((c : Thread nD τ).loc main_arg16)) (m ((c : Thread nD τ).loc main_arg17)) (m ((c : Thread nD τ).loc main_arg18)) := by
  rw [outs_16, final11]
  show Cert.Spec.attn (V15 m (outs (F := Ideal) m) c main_v39) (V15 m (outs (F := Ideal) m) c main_v7) (V15 m (outs (F := Ideal) m) c main_v44) (V15 m (outs (F := Ideal) m) c main_v45) = _
  rw [V15_v39, V15_v7, V15_v44, V15_v45, V14_v44, V14_v45, V1_v7, val_v39]; rfl

/-- Region 12: the pagerank view's score column. -/
theorem val_v48 (c : Dev nD) : (outs (F := Ideal) m) 17 main_v48 c = Cert.Spec.kAtt (Cert.Spec.hpPpr (m ((c : Thread nD τ).loc main_arg3)) (m ((c : Thread nD τ).loc main_arg0)) (m ((c : Thread nD τ).loc main_arg13)) (m ((c : Thread nD τ).loc main_arg14))) (m ((c : Thread nD τ).loc main_arg15)) (m ((c : Thread nD τ).loc main_arg16)) (m ((c : Thread nD τ).loc main_arg17)) (m ((c : Thread nD τ).loc main_arg18)) := by
  rw [outs_17, final12]
  show Cert.Spec.attn (V16 m (outs (F := Ideal) m) c main_v42) (V16 m (outs (F := Ideal) m) c main_v7) (V16 m (outs (F := Ideal) m) c main_v44) (V16 m (outs (F := Ideal) m) c main_v45) = _
  rw [V16_v42, V16_v7, V16_v44, V16_v45, V14_v44, V14_v45, V1_v7, val_v42]; rfl

/-! ## What region 13 finds in its six input buffers -/

/-- The original view. -/
theorem val_hp (c : Dev nD) : V18 m (outs (F := Ideal) m) c main_v36 = (Cert.Spec.kHp (m ((c : Thread nD τ).loc main_arg0)) (m ((c : Thread nD τ).loc main_arg1)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) :=
  (V18_v36 m (outs (F := Ideal) m) c).trans (val_v36 m c)

/-- The nearest-neighbour view. -/
theorem val_hk (c : Dev nD) : V18 m (outs (F := Ideal) m) c main_v39 = (Cert.Spec.hpKnn (m ((c : Thread nD τ).loc main_arg2)) (m ((c : Thread nD τ).loc main_arg4)) (m ((c : Thread nD τ).loc main_arg11)) (m ((c : Thread nD τ).loc main_arg12))) :=
  (V18_v39 m (outs (F := Ideal) m) c).trans (val_v39 m c)

/-- The pagerank view. -/
theorem val_hr (c : Dev nD) : V18 m (outs (F := Ideal) m) c main_v42 = (Cert.Spec.hpPpr (m ((c : Thread nD τ).loc main_arg3)) (m ((c : Thread nD τ).loc main_arg0)) (m ((c : Thread nD τ).loc main_arg13)) (m ((c : Thread nD τ).loc main_arg14))) :=
  (V18_v42 m (outs (F := Ideal) m) c).trans (val_v42 m c)

/-- The mixing weights: the softmax of the three views' score columns side by side. -/
theorem val_beta (c : Dev nD) : (V18 m (outs (F := Ideal) m) c main_v60 : S4096x3.Idx → EReal)
    = Cert.Spec.kBeta (Cert.Spec.kHp (m ((c : Thread nD τ).loc main_arg0)) (m ((c : Thread nD τ).loc main_arg1)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) (Cert.Spec.hpKnn (m ((c : Thread nD τ).loc main_arg2)) (m ((c : Thread nD τ).loc main_arg4)) (m ((c : Thread nD τ).loc main_arg11)) (m ((c : Thread nD τ).loc main_arg12))) (Cert.Spec.hpPpr (m ((c : Thread nD τ).loc main_arg3)) (m ((c : Thread nD τ).loc main_arg0)) (m ((c : Thread nD τ).loc main_arg13)) (m ((c : Thread nD τ).loc main_arg14))) (m ((c : Thread nD τ).loc main_arg15)) (m ((c : Thread nD τ).loc main_arg16)) (m ((c : Thread nD τ).loc main_arg17)) (m ((c : Thread nD τ).loc main_arg18)) := by
  rw [V18_v60, val_v46, val_v47, val_v48]; rfl

/-- The classifier's weights. -/
theorem val_wc (c : Dev nD) : (V18 m (outs (F := Ideal) m) c main_v8 : S512x16.Idx → EReal) = (m ((c : Thread nD τ).loc main_arg19)) :=
  (V18_v8 m (outs (F := Ideal) m) c).trans (V1_v8 m c)

/-- Region 13, and with it the program: the classifier over the three views blended by the softmax of their scores. -/
theorem kernel_value (c : Dev nD) :
    (outs (F := Ideal) m) 19 main_v62 c
      = Cert.Spec.kernelOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))
          (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) := by
  rw [outs_19, final13]
  show Cert.Spec.cls (V18 m (outs (F := Ideal) m) c main_v36) (V18 m (outs (F := Ideal) m) c main_v39) (V18 m (outs (F := Ideal) m) c main_v42)
      (V18 m (outs (F := Ideal) m) c main_v60) (V18 m (outs (F := Ideal) m) c main_v8) (V18 m (outs (F := Ideal) m) c main_v61) = _
  rw [val_hp, val_hk, val_hr, val_beta, val_wc, V18_v61]
  rfl

end Cert.KernelIdeal.Gen

end
-- ==== Proof.KernelIdealH.Bridge.lean ====
/- The two networks compute the same sixteen scores of every node.

   Stage by stage the two sides apply the same operations to the same arrays, except in three places.
   (1) A layer's gate b = 1 / (1 + e^(-bl)): one side multiplies the weights by it before the matrix product, the other
       multiplies the product. x · (W ∘ b) = b ∘ (x · W) is distributivity of a factor over a finite sum, which fails in
       the extended reals when the sum meets both infinities; it holds when x, W and b are real, which is what the
       hypotheses give: the features, the adjacency, the layers' weights and gate parameters have real entries, the gate of
       a real parameter is real (1 + e^(-bl) is a positive real), and the first layer's output, a maximum with zero of a
       finite sum of products of reals, is real again, so the second layer is the same case.
   (2) The attention score: (x + bw) + batt against x + (bw + batt), q · t against t · q, and a zero in front of the row
       sum: associativity, commutativity and a neutral element, laws of all extended reals.
   (3) The classifier: the whole-array row maximum is the fold of the maximum over the sixteen classes from minus
       infinity; its maximum with minus infinity is itself; the sum of exponentials starts from zero. No law about the
       entries is used. -/
import proofs.«157173_j56882546868342_2_alg».proof.Proof.KernelIdealH.SpecNet
import Mathlib.Data.EReal.Basic
import Mathlib.Data.EReal.Operations
import Idealize.ShloMosaic.PureOps.Reduce
import Idealize.ShloMosaic.PureOps.Ideal.Laws

noncomputable section

namespace Cert.Spec

open Idealize.ShloMosaic Idealize.ShloMosaic.ValueIdx
open scoped BigOperators

/-- Every entry of the array is a real number. -/
def IsReal {ι : Type} (x : ι → EReal) : Prop := ∀ i, ∃ r : ℝ, x i = (r : EReal)

/-! ## Real numbers inside the extended reals: sums, products, maxima -/

/-- A finite sum of real numbers, read in the extended reals, is the real sum. -/
theorem coe_sum {ι : Type} (s : Finset ι) (f : ι → ℝ) : ∑ i ∈ s, (f i : EReal) = ((∑ i ∈ s, f i : ℝ) : EReal) := by
  classical
  refine Finset.induction_on s (by simp) ?_
  intro a s ha ih
  rw [Finset.sum_insert ha, Finset.sum_insert ha, ih, EReal.coe_add]

/-- The maximum of two real numbers, read in the extended reals, is the real maximum. -/
theorem coe_max' (a b : ℝ) : max (a : EReal) (b : EReal) = ((max a b : ℝ) : EReal) :=
  (EReal.coe_strictMono.monotone.map_max).symm

/-- A matrix product of real arrays is a real array. -/
theorem mm_real {M K N : ℕ} (A : Arr2 M K) (B : Arr2 K N) (hA : IsReal A) (hB : IsReal B) : IsReal (mm A B) := by
  choose a ha using hA
  choose b hb using hB
  intro i
  refine ⟨∑ k : Fin K, a (ix2 (i 0) k) * b (ix2 k (i 1)), ?_⟩
  show ∑ k : Fin K, A (ix2 (i 0) k) * B (ix2 k (i 1)) = _
  rw [← coe_sum]
  exact Finset.sum_congr rfl fun k _ => by rw [ha, hb, EReal.coe_mul]

/-- THE LAW THAT NEEDS REAL ENTRIES: a real scalar on the weights comes out of the product,
    x · (W ∘ s) = s ∘ (x · W). (Over the extended reals a factor does not cross a sum that meets both infinities.) -/
theorem mm_scaleW {M K N : ℕ} (A : Arr2 M K) (W : Arr2 K N) (s : ℝ) (hA : IsReal A) (hW : IsReal W)
    (i : (⟨2, ![M, N]⟩ : Shape).Idx) : mm A (scaleW W (s : EReal)) i = (s : EReal) * mm A W i := by
  choose a ha using hA
  choose w hw using hW
  show ∑ k : Fin K, A (ix2 (i 0) k) * (W (ix2 k (i 1)) * (s : EReal)) = (s : EReal) * ∑ k : Fin K, A (ix2 (i 0) k) * W (ix2 k (i 1))
  have e1 : ∀ k : Fin K, A (ix2 (i 0) k) * (W (ix2 k (i 1)) * (s : EReal))
      = ((a (ix2 (i 0) k) * (w (ix2 k (i 1)) * s) : ℝ) : EReal) := fun k => by
    rw [ha, hw, EReal.coe_mul, EReal.coe_mul]
  have e2 : ∀ k : Fin K, A (ix2 (i 0) k) * W (ix2 k (i 1)) = ((a (ix2 (i 0) k) * w (ix2 k (i 1)) : ℝ) : EReal) := fun k => by
    rw [ha, hw, EReal.coe_mul]
  rw [Finset.sum_congr rfl (fun k _ => e1 k), Finset.sum_congr rfl (fun k _ => e2 k), coe_sum, coe_sum, ← EReal.coe_mul]
  congr 1
  rw [Finset.mul_sum]
  exact Finset.sum_congr rfl fun k _ => by ring

/-- The gate of a real parameter is a real number: 1 + e^(-bl) is a positive real. -/
theorem gate_real (bl : Arr0) (h : IsReal bl) : ∃ g : ℝ, gate bl = (g : EReal) := by
  obtain ⟨b, hb⟩ := h ix0
  refine ⟨(1 + Real.exp (-b))⁻¹, ?_⟩
  unfold gate
  rw [hb]
  exact Ideal.logistic_coe b

/-! ## One layer: the two orders agree on real arrays, and the output is real again -/

theorem layer_eq {K : ℕ} (adj : Arr2 4096 4096) (x : Arr2 4096 K) (Ws Wn : Arr2 K 512) (g : ℝ)
    (hadj : IsReal adj) (hx : IsReal x) (hWs : IsReal Ws) (hWn : IsReal Wn) :
    kLayer adj x Ws Wn (g : EReal) = rLayer adj x Ws Wn (g : EReal) := by
  funext i
  show max (mm (mm adj x) (scaleW Wn (1 - (g : EReal))) i + mm x (scaleW Ws (g : EReal)) i) 0
      = max ((g : EReal) * mm x Ws i + (1 - (g : EReal)) * mm (mm adj x) Wn i) 0
  have h1 : (1 - (g : EReal)) = ((1 - g : ℝ) : EReal) := by rw [EReal.coe_sub, EReal.coe_one]
  rw [h1, mm_scaleW _ _ _ (mm_real _ _ hadj hx) hWn, mm_scaleW _ _ _ hx hWs, add_comm]

theorem rLayer_real {K : ℕ} (adj : Arr2 4096 4096) (x : Arr2 4096 K) (Ws Wn : Arr2 K 512) (g : ℝ)
    (hadj : IsReal adj) (hx : IsReal x) (hWs : IsReal Ws) (hWn : IsReal Wn) :
    IsReal (rLayer adj x Ws Wn (g : EReal)) := by
  intro i
  obtain ⟨p, hp⟩ := mm_real x Ws hx hWs i
  obtain ⟨n, hn⟩ := mm_real (mm adj x) Wn (mm_real adj x hadj hx) hWn i
  refine ⟨max (g * p + (1 - g) * n) 0, ?_⟩
  show max ((g : EReal) * mm x Ws i + (1 - (g : EReal)) * mm (mm adj x) Wn i) 0 = _
  have h1 : (1 - (g : EReal)) = ((1 - g : ℝ) : EReal) := by rw [EReal.coe_sub, EReal.coe_one]
  rw [hp, hn, h1, ← EReal.coe_mul, ← EReal.coe_mul, ← EReal.coe_add, ← EReal.coe_zero, coe_max']

/-- The original view: the two sides agree when the features, the adjacency, the four weight matrices and the two gate
    parameters are real. -/
theorem hp_eq (feat : Arr2 4096 1024) (adj : Arr2 4096 4096) (Ws0 Wn0 : Arr2 1024 512) (bl0 : Arr0)
    (Ws1 Wn1 : Arr2 512 512) (bl1 : Arr0) (hfeat : IsReal feat) (hadj : IsReal adj) (hWs0 : IsReal Ws0)
    (hWn0 : IsReal Wn0) (hbl0 : IsReal bl0) (hWs1 : IsReal Ws1) (hWn1 : IsReal Wn1) (hbl1 : IsReal bl1) :
    kHp feat adj Ws0 Wn0 bl0 Ws1 Wn1 bl1 = rHp feat adj Ws0 Wn0 bl0 Ws1 Wn1 bl1 := by
  obtain ⟨g0, hg0⟩ := gate_real bl0 hbl0
  obtain ⟨g1, hg1⟩ := gate_real bl1 hbl1
  unfold kHp rHp kH0 rH0
  rw [hg0, hg1, layer_eq adj feat Ws0 Wn0 g0 hadj hfeat hWs0 hWn0]
  exact layer_eq adj _ Ws1 Wn1 g1 hadj (rLayer_real adj feat Ws0 Wn0 g0 hadj hfeat hWs0 hWn0) hWs1 hWn1

/-! ## The attention scores: associativity of the two bias additions, commutativity of the product, a zero in front -/

theorem att_eq (A : Arr2 4096 512) (Ww : Arr2 512 512) (bw batt q : Arr1 512) :
    kAtt A Ww bw batt q = rAtt A Ww bw batt q := by
  funext i
  show ∑ j : Fin 512, Ideal.tanh ((∑ k : Fin 512, A (ix2 (i 0) k) * Ww (ix2 k j)) + (bw (ix1 j) + batt (ix1 j))) * q (ix1 j)
      = 0 + ∑ j : Fin 512, q (ix1 j) * Ideal.tanh (((∑ k : Fin 512, A (ix2 (i 0) k) * Ww (ix2 k j)) + bw (ix1 j)) + batt (ix1 j))
  rw [zero_add]
  exact Finset.sum_congr rfl fun j _ => by rw [mul_comm, add_assoc]

theorem beta_eq (hp hk hr : Arr2 4096 512) (Ww : Arr2 512 512) (bw batt q : Arr1 512) :
    kBeta hp hk hr Ww bw batt q = rBeta hp hk hr Ww bw batt q := by
  unfold kBeta rBeta
  rw [att_eq, att_eq, att_eq]

end Cert.Spec

namespace Cert.Spec

open Idealize.ShloMosaic Idealize.ShloMosaic.ValueIdx
open scoped BigOperators

/-! ## The classifier: the separate whole-array operations are the one stage, on the same arrays

The same operations in the same order, so nothing about the entries is needed: the row maximum of the whole-array
reduction is the fold of `max` over the sixteen classes from minus infinity, the maximum of that with minus infinity is
itself, and the sum of exponentials starts from a written zero. -/

/-- A fold of the maximum is at least the value it starts from. -/
theorem init_le_fold_max {ι : Type} (s : Finset ι) (b : EReal) (f : ι → EReal) : b ≤ s.fold max b f := by
  classical
  refine Finset.induction_on s (by simp) ?_
  intro a s ha ih
  rw [Finset.fold_insert ha]
  exact le_trans ih (le_max_right _ _)

theorem red16_ok' : (⟨2, ![4096, 16]⟩ : Shape).Reduces [1] ⟨1, ![4096]⟩ := by decide

/-- Row `r` with class `k` put back on the reduced axis is the index (r, k). -/
theorem lift16 (r : Fin 4096) (k : Fin ((⟨2, ![4096, 16]⟩ : Shape).size 1)) :
    red16_ok'.lift (ix1 r) k = ix2 r (k : Fin 16) := by
  funext c
  apply Fin.ext
  match c with
  | ⟨0, _⟩ => rfl
  | ⟨1, _⟩ => rfl

theorem rowMax16_apply (l : Arr2 4096 16) (r : Fin 4096) :
    rowMax16 l (ix1 r)
      = (Finset.univ : Finset (Fin 16)).fold max (Ideal.ofBits .f32 0xFF800000#32) (fun q => l (ix2 r q)) := by
  have h : Host.reduce (FloatOps.maximumf (F := Ideal) (φ := .f32)) l negInf0 red16_ok sc_ok (ix1 r)
      = (Finset.univ : Finset (Fin 16)).fold max (Ideal.ofBits .f32 0xFF800000#32) (fun q => l (ix2 r q)) := by
    rw [Host.reduce_eq_fold_single (FloatOps.maximumf (F := Ideal) (φ := .f32)) l negInf0 red16_ok red16_ok' sc_ok (ix1 r)]
    show (Finset.univ : Finset (Fin 16)).fold max (Ideal.ofBits .f32 0xFF800000#32)
        (fun k => l (red16_ok'.lift (ix1 r) k)) = _
    exact Finset.fold_congr fun k _ => congrArg l (lift16 r k)
  show max (Ideal.ofBits .f32 0xFF800000#32)
      (Host.reduce (FloatOps.maximumf (F := Ideal) (φ := .f32)) l negInf0 red16_ok sc_ok (ix1 r)) = _
  rw [h]
  exact max_eq_right (init_le_fold_max _ _ _)

theorem head_tail_eq (hp hk hr : Arr2 4096 512) (β : Arr2 4096 3) (Wc : Arr2 512 16) (bc : Arr1 16) :
    rLogSoftmax (rLogits (rFused hp hk hr β) Wc bc) = cls hp hk hr β Wc (row bc) := by
  have hl : ∀ (r : Fin 4096) (q : Fin 16),
      rLogits (rFused hp hk hr β) Wc bc (ix2 r q) = logits hp hk hr β Wc (row bc) r q := fun _ _ => rfl
  have hm : ∀ r : Fin 4096,
      rowMax16 (rLogits (rFused hp hk hr β) Wc bc) (ix1 r) = rowMax hp hk hr β Wc (row bc) r := fun r => by
    rw [rowMax16_apply]
    unfold rowMax
    exact Finset.fold_congr fun q _ => hl r q
  have hs : ∀ (r : Fin 4096) (q : Fin 16),
      rShifted (rLogits (rFused hp hk hr β) Wc bc) (ix2 r q) = shifted hp hk hr β Wc (row bc) r q := fun r q => by
    show rLogits (rFused hp hk hr β) Wc bc (ix2 r q) - rowMax16 (rLogits (rFused hp hk hr β) Wc bc) (ix1 r) = _
    rw [hl, hm]
    rfl
  funext i
  obtain ⟨r, q, rfl⟩ : ∃ (r : Fin 4096) (q : Fin 16), i = ix2 r q := ⟨i 0, i 1, eq_ix2 i⟩
  rw [cls_apply]
  show rShifted (rLogits (rFused hp hk hr β) Wc bc) (ix2 r q)
      - Ideal.log (0 + ∑ c : Fin 16, Ideal.exp (rShifted (rLogits (rFused hp hk hr β) Wc bc) (ix2 r c))) = _
  rw [hs, zero_add]
  unfold lse
  exact congrArg _ (congrArg Ideal.log (Finset.sum_congr rfl fun c _ => by rw [hs]))

/-- The classifier over the same three views: the two sides agree. -/
theorem head_eq (hp hk hr : Arr2 4096 512) (Ww : Arr2 512 512) (bw batt q : Arr1 512) (Wc : Arr2 512 16) (bc : Arr1 16) :
    kHead hp hk hr Ww bw batt q Wc bc = rHead hp hk hr Ww bw batt q Wc bc := by
  unfold kHead rHead
  rw [beta_eq, head_tail_eq]

/-- THE TWO NETWORKS AGREE when the features, the adjacency, the two layers' weight matrices and gate parameters have
    real entries (the gate then is a real number and comes out of the products; nothing else is asked). -/
theorem out_eq (feat : Arr2 4096 1024) (adj knn ppr : Arr2 4096 4096) (fused : Arr2 4096 1024)
    (Ws0 Wn0 : Arr2 1024 512) (bl0 : Arr0) (Ws1 Wn1 : Arr2 512 512) (bl1 : Arr0)
    (Wg : Arr2 1024 512) (bg : Arr1 512) (Wa : Arr2 1024 512) (ba : Arr1 512)
    (Ww : Arr2 512 512) (bw batt q : Arr1 512) (Wc : Arr2 512 16) (bc : Arr1 16)
    (hfeat : ∀ i, ∃ r : ℝ, feat i = (r : EReal)) (hadj : ∀ i, ∃ r : ℝ, adj i = (r : EReal))
    (hWs0 : ∀ i, ∃ r : ℝ, Ws0 i = (r : EReal)) (hWn0 : ∀ i, ∃ r : ℝ, Wn0 i = (r : EReal))
    (hbl0 : ∀ i, ∃ r : ℝ, bl0 i = (r : EReal)) (hWs1 : ∀ i, ∃ r : ℝ, Ws1 i = (r : EReal))
    (hWn1 : ∀ i, ∃ r : ℝ, Wn1 i = (r : EReal)) (hbl1 : ∀ i, ∃ r : ℝ, bl1 i = (r : EReal)) :
    kernelOut feat adj knn ppr fused Ws0 Wn0 bl0 Ws1 Wn1 bl1 Wg bg Wa ba Ww bw batt q Wc bc
      = refOut feat adj knn ppr fused Ws0 Wn0 bl0 Ws1 Wn1 bl1 Wg bg Wa ba Ww bw batt q Wc bc := by
  unfold kernelOut refOut
  rw [hp_eq feat adj Ws0 Wn0 bl0 Ws1 Wn1 bl1 hfeat hadj hWs0 hWn0 hbl0 hWs1 hWn1 hbl1, head_eq]

end Cert.Spec

end
-- ==== Proof.RefImports.lean ====
/- The reference program's run and its read-at-an-index lemmas, gathered under one name so that the modules
   on the reference side import a single file. -/
import proofs.«157173_j56882546868342_2_alg».proof.Proof.ReferenceIdealH.Run
import proofs.«157173_j56882546868342_2_alg».proof.Proof.ReferenceIdealH.Read
-- ==== Proof.RefStages.lean ====
/- The reference program's stages, each read as a plain formula over variables of the literal array types.

   First the array operations the reference is made of, read at an index: a plain matrix product of the host is the sum
   over the contracted coordinate; a vector broadcast to the rows of a matrix reads its entry at the column; a
   scalar broadcast reads the scalar; a column of values broadcast along the rows reads the row's value; a
   one-column slice of a three-column array reads that column; a float sum along the second axis is the initial
   value plus the sum over the columns. Then the stages: the gate of a layer, a gated layer, the nearest-neighbour
   and pagerank views, the attention score column of a view, the blend of the three views, the logits, and the
   logarithmic softmax of every row, each equal to the stage of the same name in the specification's second network. -/
import proofs.«157173_j56882546868342_2_alg».proof.Proof.KernelIdealH.SpecNet
import Idealize.ShloMosaic.PureOps.Ideal
import Idealize.ShloMosaic.PureOps.Ideal.Laws
import Idealize.ShloMosaic.Lib.ValueIdx
import Idealize.ShloMosaic.Lib.IdealHost
import Idealize.ShloMosaic.Lib.Pipeline.Value

noncomputable section

namespace Cert.ReferenceIdeal.RefValue

open Idealize.ShloMosaic Idealize.ShloMosaic.ValueIdx

/-! ## The plain matrix product -/

section Dot
variable {M K N : Nat}

theorem plain_lhs_0 (i : (⟨2, ![M, N]⟩ : Shape).Idx) (q : (DotDims.plain M K N).contr.Idx) :
    ((DotDims.plain M K N).lhsIdx i q 0).val = (i 0).val := rfl
theorem plain_lhs_1 (i : (⟨2, ![M, N]⟩ : Shape).Idx) (q : (DotDims.plain M K N).contr.Idx) :
    ((DotDims.plain M K N).lhsIdx i q 1).val = (q ⟨0, Nat.one_pos⟩).val := rfl
theorem plain_rhs_0 (i : (⟨2, ![M, N]⟩ : Shape).Idx) (q : (DotDims.plain M K N).contr.Idx) :
    ((DotDims.plain M K N).rhsIdx i q 0).val = (q ⟨0, Nat.one_pos⟩).val := rfl
theorem plain_rhs_1 (i : (⟨2, ![M, N]⟩ : Shape).Idx) (q : (DotDims.plain M K N).contr.Idx) :
    ((DotDims.plain M K N).rhsIdx i q 1).val = (i 1).val := rfl

/-- The host's product of an M×K by a K×N array, at (r, c): the sum over k of l (r, k) · r (k, c). -/
theorem dot_plain_apply (l : FVec Ideal ⟨2, ![M, K]⟩ .f32) (r : FVec Ideal ⟨2, ![K, N]⟩ .f32) (i : (⟨2, ![M, N]⟩ : Shape).Idx) :
    Host.dotGeneral (DotDims.plain M K N) none l r i = ∑ k : Fin K, l (ix2 (i 0) k) * r (ix2 k (i 1)) := by
  simp only [Host.dotGeneral]
  rw [Ideal.dotGeneral_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx i ((contrEquiv1 (DotDims.plain M K N) K rfl rfl).symm k) = ix2 (i 0) k :=
    funext fun a => Fin.ext (by
      match a with
      | ⟨0, _⟩ => exact plain_lhs_0 _ _
      | ⟨1, _⟩ => exact (plain_lhs_1 _ _).trans hk)
  have er : (DotDims.plain M K N).rhsIdx i ((contrEquiv1 (DotDims.plain M K N) K rfl rfl).symm k) = ix2 k (i 1) :=
    funext fun a => Fin.ext (by
      match a with
      | ⟨0, _⟩ => exact (plain_rhs_0 _ _).trans hk
      | ⟨1, _⟩ => exact plain_rhs_1 _ _)
  rw [el, er]
  rfl

/-- Any dimension record that is the plain one gives the matrix product of the specification. -/
theorem dot_mm (D : DotDims ⟨2, ![M, K]⟩ ⟨2, ![K, N]⟩ ⟨2, ![M, N]⟩) (hD : D = DotDims.plain M K N)
    (l : FVec Ideal ⟨2, ![M, K]⟩ .f32) (r : FVec Ideal ⟨2, ![K, N]⟩ .f32) :
    Host.dotGeneral D none l r = Cert.Spec.mm l r := by
  subst hD
  funext i
  rw [dot_plain_apply]
  rfl

end Dot

/-! ## Broadcasts, a one-column slice, the row sum -/

section Layout
variable {α : Type}

/-- A scalar broadcast to any shape reads the scalar. -/
theorem bcast_scalar {a b : Nat} (h : (⟨0, ![]⟩ : Shape).BroadcastsInDim ⟨2, ![a, b]⟩ (![] : Fin 0 → Fin 2))
    (v : (⟨0, ![]⟩ : Shape).Idx → α) (i : (⟨2, ![a, b]⟩ : Shape).Idx) :
    broadcastInDim (⟨2, ![a, b]⟩ : Shape) ![] h v i = v ix0 :=
  broadcastInDim_apply _ h v i ix0 (fun a => a.elim0)

/-- A vector of n entries made the one row of a 1×n array. -/
theorem bcast_vec_row {n : Nat} (hn : n ≠ 1)
    (h1 : (⟨1, ![n]⟩ : Shape).BroadcastsInDim ⟨2, ![1, n]⟩ (![1] : Fin 1 → Fin 2))
    (v : (⟨1, ![n]⟩ : Shape).Idx → α) (j : (⟨2, ![1, n]⟩ : Shape).Idx) :
    broadcastInDim (⟨2, ![1, n]⟩ : Shape) ![1] h1 v j = v (ix1 (j 1)) :=
  broadcastInDim_apply _ h1 v j (ix1 (j 1)) (fun a => match a with
    | ⟨0, _⟩ => by show (j 1).val = if n = 1 then 0 else (j 1).val; rw [if_neg hn])

/-- The one row of a 1×n array repeated over R rows. -/
theorem bcast_row_rows {R n : Nat} (hn : n ≠ 1)
    (h2 : (⟨2, ![1, n]⟩ : Shape).BroadcastsInDim ⟨2, ![R, n]⟩ (![0, 1] : Fin 2 → Fin 2))
    (w : (⟨2, ![1, n]⟩ : Shape).Idx → α) (i : (⟨2, ![R, n]⟩ : Shape).Idx) :
    broadcastInDim (⟨2, ![R, n]⟩ : Shape) ![0, 1] h2 w i = w (ix2 0 (i 1)) :=
  broadcastInDim_apply _ h2 w i (ix2 0 (i 1)) (fun a => match a with
    | ⟨0, _⟩ => by show 0 = if (1 : Nat) = 1 then 0 else (i 0).val; rw [if_pos rfl]
    | ⟨1, _⟩ => by show (i 1).val = if n = 1 then 0 else (i 1).val; rw [if_neg hn])

/-- A vector broadcast to every row of an R×n array, through the 1×n array, reads its entry at the column. -/
theorem bcast_vec_rows {R n : Nat} (hn : n ≠ 1)
    (h1 : (⟨1, ![n]⟩ : Shape).BroadcastsInDim ⟨2, ![1, n]⟩ (![1] : Fin 1 → Fin 2))
    (h2 : (⟨2, ![1, n]⟩ : Shape).BroadcastsInDim ⟨2, ![R, n]⟩ (![0, 1] : Fin 2 → Fin 2))
    (v : (⟨1, ![n]⟩ : Shape).Idx → α) (i : (⟨2, ![R, n]⟩ : Shape).Idx) :
    broadcastInDim (⟨2, ![R, n]⟩ : Shape) ![0, 1] h2 (broadcastInDim (⟨2, ![1, n]⟩ : Shape) ![1] h1 v) i = v (ix1 (i 1)) := by
  rw [bcast_row_rows hn h2, bcast_vec_row hn h1]
  rfl

/-- A vector of m entries made the one column of an m×1 array. -/
theorem bcast_vec_col {m : Nat} (hm : m ≠ 1)
    (h : (⟨1, ![m]⟩ : Shape).BroadcastsInDim ⟨2, ![m, 1]⟩ (![0] : Fin 1 → Fin 2))
    (v : (⟨1, ![m]⟩ : Shape).Idx → α) (i : (⟨2, ![m, 1]⟩ : Shape).Idx) :
    broadcastInDim (⟨2, ![m, 1]⟩ : Shape) ![0] h v i = v (ix1 (i 0)) :=
  broadcastInDim_apply _ h v i (ix1 (i 0)) (fun a => match a with
    | ⟨0, _⟩ => by show (i 0).val = if m = 1 then 0 else (i 0).val; rw [if_neg hm])

/-- The one column of an m×1 array repeated over n columns. -/
theorem bcast_col_cols {m n : Nat} (hm : m ≠ 1)
    (h : (⟨2, ![m, 1]⟩ : Shape).BroadcastsInDim ⟨2, ![m, n]⟩ (![0, 1] : Fin 2 → Fin 2))
    (w : (⟨2, ![m, 1]⟩ : Shape).Idx → α) (i : (⟨2, ![m, n]⟩ : Shape).Idx) :
    broadcastInDim (⟨2, ![m, n]⟩ : Shape) ![0, 1] h w i = w (ix2 (i 0) 0) :=
  broadcastInDim_apply _ h w i (ix2 (i 0) 0) (fun a => match a with
    | ⟨0, _⟩ => by show (i 0).val = if m = 1 then 0 else (i 0).val; rw [if_neg hm]
    | ⟨1, _⟩ => by show 0 = if (1 : Nat) = 1 then 0 else (i 1).val; rw [if_pos rfl])

/-- Column c of an m×3 array, as an m×1 array. -/
theorem slice_col {m : Nat} (c : Nat) (hc : c < 3)
    (h : (⟨2, ![m, 3]⟩ : Shape).Slices ![0, c] ⟨2, ![m, 1]⟩)
    (y : (⟨2, ![m, 3]⟩ : Shape).Idx → α) (i : (⟨2, ![m, 1]⟩ : Shape).Idx) :
    extractStridedSlice (⟨2, ![m, 1]⟩ : Shape) ![0, c] y h i = y (ix2 (i 0) (⟨c, hc⟩ : Fin 3)) :=
  extractStridedSlice_apply _ y h i (ix2 (i 0) (⟨c, hc⟩ : Fin 3)) (fun a => match a with
    | ⟨0, _⟩ => by show (i 0).val = 0 + (i 0).val; omega
    | ⟨1, _⟩ => by
        have h1 : (i 1).val < 1 := (i 1).isLt
        show c = c + (i 1).val; omega)

end Layout

/-- The host's float sum of an m×n array along its second axis, at row j: the initial value plus the sum over the
    columns. -/
theorem reduceAdd_row {m n : Nat} (y : FVec Ideal ⟨2, ![m, n]⟩ .f32) (init : (⟨0, ![]⟩ : Shape).Idx → Ideal .f32)
    (h' : (⟨2, ![m, n]⟩ : Shape).ReducesTo [1] (⟨1, ![m]⟩ : Shape)) (h : (⟨2, ![m, n]⟩ : Shape).Reduces [1] (⟨1, ![m]⟩ : Shape))
    (hu : 0 < (⟨0, ![]⟩ : Shape).numel) (j : (⟨1, ![m]⟩ : Shape).Idx) :
    Host.reduceAdd y init h' hu j = init (Shape.Idx.first hu) + ∑ k : Fin n, y (ix2 (j 0) k) := by
  simp only [Host.reduceAdd, Ideal.hostReduceAdd_def]
  rw [Ideal.hostReduceAdd_single h' h]
  refine congrArg (_ + ·) (Finset.sum_congr rfl fun k _ => ?_)
  exact congrArg y (funext fun a => Fin.ext (by match a with | ⟨0, _⟩ => rfl | ⟨1, _⟩ => rfl))

/-! ## The stages of the reference, over variables of the literal array types -/

theorem one_w : Ideal.ofBits .f32 0x3F800000#32 = 1 := Ideal.ofBits_one_f32

theorem tanh_apply {s : Shape} (x : FVec Ideal s .f32) (i : s.Idx) : Host.tanh x i = Ideal.tanh (x i) := rfl
theorem exp_apply {s : Shape} (x : FVec Ideal s .f32) (i : s.Idx) : Host.exp x i = Ideal.exp (x i) := rfl
theorem log_apply {s : Shape} (x : FVec Ideal s .f32) (i : s.Idx) : Host.log x i = Ideal.log (x i) := rfl

/-- The gate of a layer as the reference computes it from the scalar parameter: 1 / (1 + e^(-bl)). -/
theorem gate_read (bl : FVec Ideal ⟨0, ![]⟩ .f32) (j : (⟨0, ![]⟩ : Shape).Idx) :
    Host.divf (constant (F := Ideal) (⟨0, ![]⟩ : Shape) .f32 0x3F800000#32)
      (addf (constant (F := Ideal) (⟨0, ![]⟩ : Shape) .f32 0x3F800000#32) (Host.exp (Host.negf bl))) j = Cert.Spec.gate bl := by
  have hj : j = ix0 := eq_ix0 j
  subst hj
  show Ideal.div (Ideal.ofBits .f32 0x3F800000#32) (Ideal.ofBits .f32 0x3F800000#32 + Ideal.exp (-(bl ix0))) = _
  rw [one_w]
  rfl

/-- A gated layer of the reference, for any gate scalar g: max (g ∘ (x · Ws) + (1 - g) ∘ ((adj · x) · Wn), 0). -/
theorem layer_read {K : Nat}
    (Dxw : DotDims ⟨2, ![4096, K]⟩ ⟨2, ![K, 512]⟩ ⟨2, ![4096, 512]⟩) (hDxw : Dxw = DotDims.plain 4096 K 512)
    (Dax : DotDims ⟨2, ![4096, 4096]⟩ ⟨2, ![4096, K]⟩ ⟨2, ![4096, K]⟩) (hDax : Dax = DotDims.plain 4096 4096 K)
    (hb : (⟨0, ![]⟩ : Shape).BroadcastsInDim ⟨2, ![4096, 512]⟩ (![] : Fin 0 → Fin 2))
    (x : FVec Ideal ⟨2, ![4096, K]⟩ .f32) (adj : FVec Ideal ⟨2, ![4096, 4096]⟩ .f32)
    (Ws Wn : FVec Ideal ⟨2, ![K, 512]⟩ .f32) (g : FVec Ideal ⟨0, ![]⟩ .f32) :
    maximumf
      (addf
        (mulf (broadcastInDim (⟨2, ![4096, 512]⟩ : Shape) ![] hb g) (Host.dotGeneral Dxw none x Ws))
        (mulf (broadcastInDim (⟨2, ![4096, 512]⟩ : Shape) ![] hb
            (subf (constant (F := Ideal) (⟨0, ![]⟩ : Shape) .f32 0x3F800000#32) g))
          (Host.dotGeneral Dxw none (Host.dotGeneral Dax none adj x) Wn)))
      (broadcastInDim (⟨2, ![4096, 512]⟩ : Shape) ![] hb (constant (F := Ideal) (⟨0, ![]⟩ : Shape) .f32 0x00000000#32))
    = Cert.Spec.rLayer adj x Ws Wn (g ix0) := by
  funext i
  have b1 : broadcastInDim (⟨2, ![4096, 512]⟩ : Shape) ![] hb g i = g ix0 := bcast_scalar hb g i
  have b2 : broadcastInDim (⟨2, ![4096, 512]⟩ : Shape) ![] hb
      (subf (constant (F := Ideal) (⟨0, ![]⟩ : Shape) .f32 0x3F800000#32) g) i
      = Ideal.ofBits .f32 0x3F800000#32 - g ix0 := bcast_scalar hb _ i
  have b3 : broadcastInDim (⟨2, ![4096, 512]⟩ : Shape) ![] hb (constant (F := Ideal) (⟨0, ![]⟩ : Shape) .f32 0x00000000#32) i
      = Ideal.ofBits .f32 0x00000000#32 := bcast_scalar hb _ i
  simp only [maximumf_apply, addf_apply, mulf_apply, b1, b2, b3, dot_mm Dxw hDxw, dot_mm Dax hDax, one_w,
    Ideal.ofBits_zero_f32]
  rfl

/-- The nearest-neighbour view: max (knn · (fused · Wg) + bg, 0). -/
theorem knn_read
    (D1 : DotDims ⟨2, ![4096, 1024]⟩ ⟨2, ![1024, 512]⟩ ⟨2, ![4096, 512]⟩) (hD1 : D1 = DotDims.plain 4096 1024 512)
    (D4 : DotDims ⟨2, ![4096, 4096]⟩ ⟨2, ![4096, 512]⟩ ⟨2, ![4096, 512]⟩) (hD4 : D4 = DotDims.plain 4096 4096 512)
    (hb : (⟨0, ![]⟩ : Shape).BroadcastsInDim ⟨2, ![4096, 512]⟩ (![] : Fin 0 → Fin 2))
    (h1 : (⟨1, ![512]⟩ : Shape).BroadcastsInDim ⟨2, ![1, 512]⟩ (![1] : Fin 1 → Fin 2))
    (h2 : (⟨2, ![1, 512]⟩ : Shape).BroadcastsInDim ⟨2, ![4096, 512]⟩ (![0, 1] : Fin 2 → Fin 2))
    (knn : FVec Ideal ⟨2, ![4096, 4096]⟩ .f32) (fused : FVec Ideal ⟨2, ![4096, 1024]⟩ .f32)
    (Wg : FVec Ideal ⟨2, ![1024, 512]⟩ .f32) (bg : FVec Ideal ⟨1, ![512]⟩ .f32) :
    maximumf
      (addf (Host.dotGeneral D4 none knn (Host.dotGeneral D1 none fused Wg))
        (broadcastInDim (⟨2, ![4096, 512]⟩ : Shape) ![0, 1] h2 (broadcastInDim (⟨2, ![1, 512]⟩ : Shape) ![1] h1 bg)))
      (broadcastInDim (⟨2, ![4096, 512]⟩ : Shape) ![] hb (constant (F := Ideal) (⟨0, ![]⟩ : Shape) .f32 0x00000000#32))
    = Cert.Spec.hpKnn knn fused Wg bg := by
  funext i
  have b3 : broadcastInDim (⟨2, ![4096, 512]⟩ : Shape) ![] hb (constant (F := Ideal) (⟨0, ![]⟩ : Shape) .f32 0x00000000#32) i
      = Ideal.ofBits .f32 0x00000000#32 := bcast_scalar hb _ i
  simp only [maximumf_apply, addf_apply, b3, bcast_vec_rows (n := 512) (by decide) h1 h2,
    dot_mm D1 hD1, dot_mm D4 hD4, Ideal.ofBits_zero_f32]
  rfl

/-- The pagerank view: ppr · (feat · Wa + ba). -/
theorem ppr_read
    (D1 : DotDims ⟨2, ![4096, 1024]⟩ ⟨2, ![1024, 512]⟩ ⟨2, ![4096, 512]⟩) (hD1 : D1 = DotDims.plain 4096 1024 512)
    (D4 : DotDims ⟨2, ![4096, 4096]⟩ ⟨2, ![4096, 512]⟩ ⟨2, ![4096, 512]⟩) (hD4 : D4 = DotDims.plain 4096 4096 512)
    (h1 : (⟨1, ![512]⟩ : Shape).BroadcastsInDim ⟨2, ![1, 512]⟩ (![1] : Fin 1 → Fin 2))
    (h2 : (⟨2, ![1, 512]⟩ : Shape).BroadcastsInDim ⟨2, ![4096, 512]⟩ (![0, 1] : Fin 2 → Fin 2))
    (ppr : FVec Ideal ⟨2, ![4096, 4096]⟩ .f32) (feat : FVec Ideal ⟨2, ![4096, 1024]⟩ .f32)
    (Wa : FVec Ideal ⟨2, ![1024, 512]⟩ .f32) (ba : FVec Ideal ⟨1, ![512]⟩ .f32) :
    Host.dotGeneral D4 none ppr
      (addf (Host.dotGeneral D1 none feat Wa)
        (broadcastInDim (⟨2, ![4096, 512]⟩ : Shape) ![0, 1] h2 (broadcastInDim (⟨2, ![1, 512]⟩ : Shape) ![1] h1 ba)))
    = Cert.Spec.hpPpr ppr feat Wa ba := by
  have e : addf (Host.dotGeneral D1 none feat Wa)
        (broadcastInDim (⟨2, ![4096, 512]⟩ : Shape) ![0, 1] h2 (broadcastInDim (⟨2, ![1, 512]⟩ : Shape) ![1] h1 ba))
      = Cert.Spec.mmBias feat Wa (Cert.Spec.row ba) := by
    funext i
    simp only [addf_apply, bcast_vec_rows (n := 512) (by decide) h1 h2, dot_mm D1 hD1]
    rfl
  rw [e, dot_mm D4 hD4]
  rfl

/-- The attention score column of a view h: 0 + ∑ j, q j · tanh (((h · Ww) (r, j) + bw j) + batt j). -/
theorem att_read
    (D3 : DotDims ⟨2, ![4096, 512]⟩ ⟨2, ![512, 512]⟩ ⟨2, ![4096, 512]⟩) (hD3 : D3 = DotDims.plain 4096 512 512)
    (h1 : (⟨1, ![512]⟩ : Shape).BroadcastsInDim ⟨2, ![1, 512]⟩ (![1] : Fin 1 → Fin 2))
    (h2 : (⟨2, ![1, 512]⟩ : Shape).BroadcastsInDim ⟨2, ![4096, 512]⟩ (![0, 1] : Fin 2 → Fin 2))
    (hr : (⟨2, ![4096, 512]⟩ : Shape).ReducesTo [1] (⟨1, ![4096]⟩ : Shape)) (hu : 0 < (⟨0, ![]⟩ : Shape).numel)
    (hc : (⟨1, ![4096]⟩ : Shape).BroadcastsInDim ⟨2, ![4096, 1]⟩ (![0] : Fin 1 → Fin 2))
    (h : FVec Ideal ⟨2, ![4096, 512]⟩ .f32) (Ww : FVec Ideal ⟨2, ![512, 512]⟩ .f32) (bw batt q : FVec Ideal ⟨1, ![512]⟩ .f32) :
    broadcastInDim (⟨2, ![4096, 1]⟩ : Shape) ![0] hc
      (Host.reduceAdd
        (mulf (broadcastInDim (⟨2, ![4096, 512]⟩ : Shape) ![0, 1] h2 (broadcastInDim (⟨2, ![1, 512]⟩ : Shape) ![1] h1 q))
          (Host.tanh
            (addf
              (addf (Host.dotGeneral D3 none h Ww)
                (broadcastInDim (⟨2, ![4096, 512]⟩ : Shape) ![0, 1] h2 (broadcastInDim (⟨2, ![1, 512]⟩ : Shape) ![1] h1 bw)))
              (broadcastInDim (⟨2, ![4096, 512]⟩ : Shape) ![0, 1] h2 (broadcastInDim (⟨2, ![1, 512]⟩ : Shape) ![1] h1 batt)))))
        (constant (F := Ideal) (⟨0, ![]⟩ : Shape) .f32 0x00000000#32) hr hu)
    = Cert.Spec.rAtt h Ww bw batt q := by
  funext i
  rw [bcast_vec_col (m := 4096) (by decide) hc, reduceAdd_row _ _ hr (by decide) hu]
  simp only [mulf_apply, addf_apply, tanh_apply, constant_apply, bcast_vec_rows (n := 512) (by decide) h1 h2,
    dot_mm D3 hD3, Ideal.ofBits_zero_f32]
  rfl

/-- The blend of the three views, each row by its own three weights, summed from the left. -/
theorem fused_read
    (hbc : (⟨2, ![4096, 1]⟩ : Shape).BroadcastsInDim ⟨2, ![4096, 512]⟩ (![0, 1] : Fin 2 → Fin 2))
    (hs0 : (⟨2, ![4096, 3]⟩ : Shape).Slices ![0, 0] ⟨2, ![4096, 1]⟩)
    (hs1 : (⟨2, ![4096, 3]⟩ : Shape).Slices ![0, 1] ⟨2, ![4096, 1]⟩)
    (hs2 : (⟨2, ![4096, 3]⟩ : Shape).Slices ![0, 2] ⟨2, ![4096, 1]⟩)
    (hp hk hr : FVec Ideal ⟨2, ![4096, 512]⟩ .f32) (b : FVec Ideal ⟨2, ![4096, 3]⟩ .f32) :
    addf
      (addf
        (mulf (broadcastInDim (⟨2, ![4096, 512]⟩ : Shape) ![0, 1] hbc (extractStridedSlice (⟨2, ![4096, 1]⟩ : Shape) ![0, 0] b hs0)) hp)
        (mulf (broadcastInDim (⟨2, ![4096, 512]⟩ : Shape) ![0, 1] hbc (extractStridedSlice (⟨2, ![4096, 1]⟩ : Shape) ![0, 1] b hs1)) hk))
      (mulf (broadcastInDim (⟨2, ![4096, 512]⟩ : Shape) ![0, 1] hbc (extractStridedSlice (⟨2, ![4096, 1]⟩ : Shape) ![0, 2] b hs2)) hr)
    = Cert.Spec.rFused hp hk hr b := by
  funext i
  simp only [addf_apply, mulf_apply, bcast_col_cols (m := 4096) (n := 512) (by decide) hbc,
    slice_col 0 (by decide) hs0, slice_col 1 (by decide) hs1, slice_col 2 (by decide) hs2]
  rfl

/-- The logits: the blend times the classifier's weights, plus its bias row. -/
theorem logits_read
    (D5 : DotDims ⟨2, ![4096, 512]⟩ ⟨2, ![512, 16]⟩ ⟨2, ![4096, 16]⟩) (hD5 : D5 = DotDims.plain 4096 512 16)
    (h1 : (⟨1, ![16]⟩ : Shape).BroadcastsInDim ⟨2, ![1, 16]⟩ (![1] : Fin 1 → Fin 2))
    (h2 : (⟨2, ![1, 16]⟩ : Shape).BroadcastsInDim ⟨2, ![4096, 16]⟩ (![0, 1] : Fin 2 → Fin 2))
    (f : FVec Ideal ⟨2, ![4096, 512]⟩ .f32) (Wc : FVec Ideal ⟨2, ![512, 16]⟩ .f32) (bc : FVec Ideal ⟨1, ![16]⟩ .f32) :
    addf (Host.dotGeneral D5 none f Wc)
      (broadcastInDim (⟨2, ![4096, 16]⟩ : Shape) ![0, 1] h2 (broadcastInDim (⟨2, ![1, 16]⟩ : Shape) ![1] h1 bc))
    = Cert.Spec.rLogits f Wc bc := by
  funext i
  simp only [addf_apply, bcast_vec_rows (n := 16) (by decide) h1 h2, dot_mm D5 hD5]
  rfl

/-- The logits less their row's maximum, the maximum taken as the reference takes it. -/
theorem shift_read
    (hb0 : (⟨0, ![]⟩ : Shape).BroadcastsInDim ⟨1, ![4096]⟩ (![] : Fin 0 → Fin 1))
    (hr : (⟨2, ![4096, 16]⟩ : Shape).ReducesTo [1] (⟨1, ![4096]⟩ : Shape)) (hu : 0 < (⟨0, ![]⟩ : Shape).numel)
    (hc : (⟨1, ![4096]⟩ : Shape).BroadcastsInDim ⟨2, ![4096, 1]⟩ (![0] : Fin 1 → Fin 2))
    (hcc : (⟨2, ![4096, 1]⟩ : Shape).BroadcastsInDim ⟨2, ![4096, 16]⟩ (![0, 1] : Fin 2 → Fin 2))
    (l : FVec Ideal ⟨2, ![4096, 16]⟩ .f32) :
    subf l
      (broadcastInDim (⟨2, ![4096, 16]⟩ : Shape) ![0, 1] hcc
        (broadcastInDim (⟨2, ![4096, 1]⟩ : Shape) ![0] hc
          (maximumf
            (broadcastInDim (⟨1, ![4096]⟩ : Shape) ![] hb0 (constant (F := Ideal) (⟨0, ![]⟩ : Shape) .f32 0xFF800000#32))
            (Host.reduce (FloatOps.maximumf (F := Ideal) (φ := .f32)) l
              (constant (F := Ideal) (⟨0, ![]⟩ : Shape) .f32 0xFF800000#32) hr hu))))
    = Cert.Spec.rShifted l := by
  funext i
  simp only [subf_apply, bcast_col_cols (m := 4096) (n := 16) (by decide) hcc, bcast_vec_col (m := 4096) (by decide) hc]
  rfl

/-- The logarithmic softmax of every row, as the reference's outlined function computes it. -/
theorem lsm_read
    (hb0 : (⟨0, ![]⟩ : Shape).BroadcastsInDim ⟨1, ![4096]⟩ (![] : Fin 0 → Fin 1))
    (hr : (⟨2, ![4096, 16]⟩ : Shape).ReducesTo [1] (⟨1, ![4096]⟩ : Shape)) (hu : 0 < (⟨0, ![]⟩ : Shape).numel)
    (hc : (⟨1, ![4096]⟩ : Shape).BroadcastsInDim ⟨2, ![4096, 1]⟩ (![0] : Fin 1 → Fin 2))
    (hcc : (⟨2, ![4096, 1]⟩ : Shape).BroadcastsInDim ⟨2, ![4096, 16]⟩ (![0, 1] : Fin 2 → Fin 2))
    (l : FVec Ideal ⟨2, ![4096, 16]⟩ .f32) :
    subf
      (subf l
        (broadcastInDim (⟨2, ![4096, 16]⟩ : Shape) ![0, 1] hcc
          (broadcastInDim (⟨2, ![4096, 1]⟩ : Shape) ![0] hc
            (maximumf
              (broadcastInDim (⟨1, ![4096]⟩ : Shape) ![] hb0 (constant (F := Ideal) (⟨0, ![]⟩ : Shape) .f32 0xFF800000#32))
              (Host.reduce (FloatOps.maximumf (F := Ideal) (φ := .f32)) l
                (constant (F := Ideal) (⟨0, ![]⟩ : Shape) .f32 0xFF800000#32) hr hu)))))
      (broadcastInDim (⟨2, ![4096, 16]⟩ : Shape) ![0, 1] hcc
        (Host.log
          (broadcastInDim (⟨2, ![4096, 1]⟩ : Shape) ![0] hc
            (Host.reduceAdd
              (Host.exp
                (subf l
                  (broadcastInDim (⟨2, ![4096, 16]⟩ : Shape) ![0, 1] hcc
                    (broadcastInDim (⟨2, ![4096, 1]⟩ : Shape) ![0] hc
                      (maximumf
                        (broadcastInDim (⟨1, ![4096]⟩ : Shape) ![] hb0 (constant (F := Ideal) (⟨0, ![]⟩ : Shape) .f32 0xFF800000#32))
                        (Host.reduce (FloatOps.maximumf (F := Ideal) (φ := .f32)) l
                          (constant (F := Ideal) (⟨0, ![]⟩ : Shape) .f32 0xFF800000#32) hr hu))))))
              (constant (F := Ideal) (⟨0, ![]⟩ : Shape) .f32 0x00000000#32) hr hu))))
    = Cert.Spec.rLogSoftmax l := by
  rw [shift_read hb0 hr hu hc hcc l]
  funext i
  simp only [subf_apply, log_apply, exp_apply, constant_apply, bcast_col_cols (m := 4096) (n := 16) (by decide) hcc,
    bcast_vec_col (m := 4096) (by decide) hc, reduceAdd_row (m := 4096) (n := 16) _ _ hr (by decide) hu, Ideal.ofBits_zero_f32]
  rfl

end Cert.ReferenceIdeal.RefValue

end
-- ==== Proof.RefValue.lean ====
/- The reference program's result is the second network of the specification.

   The run of the reference ends with its result buffer at the composed term of the twenty-one argument arrays. Read stage
   by stage, that term is: the two gated layers (each the maximum with zero of the gate times the self product plus
   one minus the gate times the neighbour product), the nearest-neighbour and pagerank views, the three attention
   score columns (a written zero plus the sum over the 512 lanes of the query entry times the hyperbolic tangent of
   the product plus the two bias rows), the softmax of the three scores of every node, the blend of the three views,
   the classifier's product and bias, and the logarithmic softmax of every row. Each stage is one of the lemmas over
   variables proved beforehand, applied to the stages before it; the softmax over three is the same chain of array
   operations on both sides, so that stage holds by unfolding. -/
import proofs.«157173_j56882546868342_2_alg».proof.Proof.RefImports
import proofs.«157173_j56882546868342_2_alg».proof.Proof.RefStages

set_option maxRecDepth 16384

noncomputable section

namespace Cert.ReferenceIdeal.RefValue

open Cert.ReferenceIdeal Cert.ReferenceIdeal.Gen Cert.ReferenceIdeal.Read
open Idealize.ShloMosaic Idealize.ShloMosaic.TcCoe Idealize.ShloMosaic.ValueIdx Idealize.SL.Sem Idealize.ShloMosaic.StableHlo

section Args

variable (x0 : (⟨S4096x1024, .f32⟩ : BufTy).Contents (Elt Ideal)) (x1 x2 x3 : (⟨S4096x4096, .f32⟩ : BufTy).Contents (Elt Ideal))
  (x4 : (⟨S4096x1024, .f32⟩ : BufTy).Contents (Elt Ideal)) (x5 x6 : (⟨S1024x512, .f32⟩ : BufTy).Contents (Elt Ideal))
  (x7 : (⟨S_, .f32⟩ : BufTy).Contents (Elt Ideal)) (x8 x9 : (⟨S512x512, .f32⟩ : BufTy).Contents (Elt Ideal))
  (x10 : (⟨S_, .f32⟩ : BufTy).Contents (Elt Ideal)) (x11 : (⟨S1024x512, .f32⟩ : BufTy).Contents (Elt Ideal))
  (x12 : (⟨S512, .f32⟩ : BufTy).Contents (Elt Ideal)) (x13 : (⟨S1024x512, .f32⟩ : BufTy).Contents (Elt Ideal))
  (x14 : (⟨S512, .f32⟩ : BufTy).Contents (Elt Ideal)) (x15 : (⟨S512x512, .f32⟩ : BufTy).Contents (Elt Ideal))
  (x16 x17 x18 : (⟨S512, .f32⟩ : BufTy).Contents (Elt Ideal)) (x19 : (⟨S512x16, .f32⟩ : BufTy).Contents (Elt Ideal))
  (x20 : (⟨S16, .f32⟩ : BufTy).Contents (Elt Ideal))

/-- The first layer. -/
theorem h0_eq : val_main_v13 (F := Ideal) x0 x1 x5 x6 x7 = Cert.Spec.rH0 x0 x1 x5 x6 x7 :=
  (layer_read (K := 1024) dot_S4096x1024_S1024x512_S4096x512_1_0_0_1_n_n rfl dot_S4096x4096_S4096x1024_S4096x1024_1_0_0_1_n_n rfl bcast_S_S4096x512 x0 x1 x5 x6 (val_main_v3 (F := Ideal) x7)).trans
    (congrArg (Cert.Spec.rLayer x1 x0 x5 x6) (gate_read x7 ix0))

/-- The second layer: the original view. -/
theorem hp_eq : val_main_v27 (F := Ideal) x0 x1 x5 x6 x7 x8 x9 x10 = Cert.Spec.rHp x0 x1 x5 x6 x7 x8 x9 x10 :=
  (layer_read (K := 512) dot_S4096x512_S512x512_S4096x512_1_0_0_1_n_n rfl dot_S4096x4096_S4096x512_S4096x512_1_0_0_1_n_n rfl bcast_S_S4096x512 (val_main_v13 (F := Ideal) x0 x1 x5 x6 x7) x1 x8 x9
      (val_main_v17 (F := Ideal) x10)).trans
    (by rw [h0_eq]; exact congrArg (Cert.Spec.rLayer x1 (Cert.Spec.rH0 x0 x1 x5 x6 x7) x8 x9) (gate_read x10 ix0))

/-- The nearest-neighbour view. -/
theorem knn_eq : val_main_v33 (F := Ideal) x2 x4 x11 x12 = Cert.Spec.hpKnn x2 x4 x11 x12 :=
  knn_read dot_S4096x1024_S1024x512_S4096x512_1_0_0_1_n_n rfl dot_S4096x4096_S4096x512_S4096x512_1_0_0_1_n_n rfl bcast_S_S4096x512 bcast_S512_S1x512_1 bcast_S1x512_S4096x512_0_1 x2 x4 x11 x12

/-- The pagerank view. -/
theorem ppr_eq : val_main_v38 (F := Ideal) x0 x3 x13 x14 = Cert.Spec.hpPpr x3 x0 x13 x14 :=
  ppr_read dot_S4096x1024_S1024x512_S4096x512_1_0_0_1_n_n rfl dot_S4096x4096_S4096x512_S4096x512_1_0_0_1_n_n rfl bcast_S512_S1x512_1 bcast_S1x512_S4096x512_0_1 x3 x0 x13 x14

/-- The three attention score columns, each over its own view. -/
theorem att0_eq : val_main_v75 (F := Ideal) x0 x1 x5 x6 x7 x8 x9 x10 x15 x16 x17 x18
    = Cert.Spec.rAtt (val_main_v27 (F := Ideal) x0 x1 x5 x6 x7 x8 x9 x10) x15 x16 x17 x18 :=
  att_read dot_S4096x512_S512x512_S4096x512_1_0_0_1_n_n rfl bcast_S512_S1x512_1 bcast_S1x512_S4096x512_0_1 reducesTo_S4096x512_S4096_d1 h_S_ bcast_S4096_S4096x1_0
    (val_main_v27 (F := Ideal) x0 x1 x5 x6 x7 x8 x9 x10) x15 x16 x17 x18
theorem att1_eq : val_main_v76 (F := Ideal) x2 x4 x11 x12 x15 x16 x17 x18
    = Cert.Spec.rAtt (val_main_v33 (F := Ideal) x2 x4 x11 x12) x15 x16 x17 x18 :=
  att_read dot_S4096x512_S512x512_S4096x512_1_0_0_1_n_n rfl bcast_S512_S1x512_1 bcast_S1x512_S4096x512_0_1 reducesTo_S4096x512_S4096_d1 h_S_ bcast_S4096_S4096x1_0
    (val_main_v33 (F := Ideal) x2 x4 x11 x12) x15 x16 x17 x18
theorem att2_eq : val_main_v77 (F := Ideal) x0 x3 x13 x14 x15 x16 x17 x18
    = Cert.Spec.rAtt (val_main_v38 (F := Ideal) x0 x3 x13 x14) x15 x16 x17 x18 :=
  att_read dot_S4096x512_S512x512_S4096x512_1_0_0_1_n_n rfl bcast_S512_S1x512_1 bcast_S1x512_S4096x512_0_1 reducesTo_S4096x512_S4096_d1 h_S_ bcast_S4096_S4096x1_0
    (val_main_v38 (F := Ideal) x0 x3 x13 x14) x15 x16 x17 x18

/-- The mixing weights: the softmax of the three score columns side by side, the same array operations on both sides. -/
theorem beta_eq : val_main_v89 (F := Ideal) x0 x1 x2 x3 x4 x5 x6 x7 x8 x9 x10 x11 x12 x13 x14 x15 x16 x17 x18
    = Cert.Spec.softmax3 (Cert.Spec.cat3 (val_main_v75 (F := Ideal) x0 x1 x5 x6 x7 x8 x9 x10 x15 x16 x17 x18) (val_main_v76 (F := Ideal) x2 x4 x11 x12 x15 x16 x17 x18)
        (val_main_v77 (F := Ideal) x0 x3 x13 x14 x15 x16 x17 x18)) := rfl

/-- The blend of the three views. -/
theorem fused_eq : val_main_v100 (F := Ideal) x0 x1 x2 x3 x4 x5 x6 x7 x8 x9 x10 x11 x12 x13 x14 x15 x16 x17 x18
    = Cert.Spec.rFused (val_main_v27 (F := Ideal) x0 x1 x5 x6 x7 x8 x9 x10) (val_main_v33 (F := Ideal) x2 x4 x11 x12) (val_main_v38 (F := Ideal) x0 x3 x13 x14)
        (val_main_v89 (F := Ideal) x0 x1 x2 x3 x4 x5 x6 x7 x8 x9 x10 x11 x12 x13 x14 x15 x16 x17 x18) :=
  fused_read bcast_S4096x1_S4096x512_0_1 slices_S4096x3_S4096x1_0_0 slices_S4096x3_S4096x1_0_1 slices_S4096x3_S4096x1_0_2
    (val_main_v27 (F := Ideal) x0 x1 x5 x6 x7 x8 x9 x10) (val_main_v33 (F := Ideal) x2 x4 x11 x12) (val_main_v38 (F := Ideal) x0 x3 x13 x14)
    (val_main_v89 (F := Ideal) x0 x1 x2 x3 x4 x5 x6 x7 x8 x9 x10 x11 x12 x13 x14 x15 x16 x17 x18)

/-- The logits. -/
theorem logits_eq : val_main_v104 (F := Ideal) x0 x1 x2 x3 x4 x5 x6 x7 x8 x9 x10 x11 x12 x13 x14 x15 x16 x17 x18 x19 x20
    = Cert.Spec.rLogits (val_main_v100 (F := Ideal) x0 x1 x2 x3 x4 x5 x6 x7 x8 x9 x10 x11 x12 x13 x14 x15 x16 x17 x18) x19 x20 :=
  logits_read dot_S4096x512_S512x16_S4096x16_1_0_0_1_n_n rfl bcast_S16_S1x16_1 bcast_S1x16_S4096x16_0_1 (val_main_v100 (F := Ideal) x0 x1 x2 x3 x4 x5 x6 x7 x8 x9 x10 x11 x12 x13 x14 x15 x16 x17 x18) x19 x20

/-- The logarithmic softmax of the logits. -/
theorem lsm_eq : val_main_v105 (F := Ideal) x0 x1 x2 x3 x4 x5 x6 x7 x8 x9 x10 x11 x12 x13 x14 x15 x16 x17 x18 x19 x20
    = Cert.Spec.rLogSoftmax (val_main_v104 (F := Ideal) x0 x1 x2 x3 x4 x5 x6 x7 x8 x9 x10 x11 x12 x13 x14 x15 x16 x17 x18 x19 x20) :=
  lsm_read bcast_S_S4096 reducesTo_S4096x16_S4096_d1 h_S_ bcast_S4096_S4096x1_0 bcast_S4096x1_S4096x16_0_1
    (val_main_v104 (F := Ideal) x0 x1 x2 x3 x4 x5 x6 x7 x8 x9 x10 x11 x12 x13 x14 x15 x16 x17 x18 x19 x20)

/-- The reference's last stage, as a function of the twenty-one arrays, is the second network. -/
theorem ref_value_args : val_main_v105 (F := Ideal) x0 x1 x2 x3 x4 x5 x6 x7 x8 x9 x10 x11 x12 x13 x14 x15 x16 x17 x18 x19 x20
    = Cert.Spec.refOut x0 x1 x2 x3 x4 x5 x6 x7 x8 x9 x10 x11 x12 x13 x14 x15 x16 x17 x18 x19 x20 := by
  rw [lsm_eq, logits_eq, fused_eq, beta_eq, att0_eq, att1_eq, att2_eq, hp_eq, knn_eq, ppr_eq]
  rfl

end Args

/-- The result the reference's run leaves, on every core and from any memory: the second network of the argument
    arrays as the memory holds them. -/
theorem ref_value (m : (ℓ : Loc nD τ sig) → Buf (Elt Ideal) ℓ) (c : Dev nD) :
    Cert.ReferenceIdeal.Value.res_main_v105 (F := Ideal) m c
      = Cert.Spec.refOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) := by
  rw [Read.val_main_v105_eq]
  exact ref_value_args _ _ _ _ _ _ _ _ _ _ _ _ _ _ _ _ _ _ _ _ _

end Cert.ReferenceIdeal.RefValue

end
-- ==== Proof.Finite.lean ====
import proofs.«157173_j56882546868342_2_alg».proof.Defs
import proofs.«157173_j56882546868342_2_alg».proof.Proof.Gen.Pre_finite_inputs
import Idealize.ShloMosaic.Lib.ReduceAll
import Idealize.ShloMosaic.PureOps.Ideal

/-!
  Finiteness from the precondition. The precondition is one scalar word: the conjunction, over the
  argument arrays, of "every entry x has |x| < +∞". When that word is one, every entry of every array
  tested is an extended real that is neither +∞ nor -∞, that is, a real number. Here that is read off
  for the arrays the two gated layers take.
-/

noncomputable section

namespace Cert.Finite

open Idealize.ShloMosaic Cert.Pre_finite_inputs

/-- The scalar shape has one index. -/
instance : Subsingleton S_.Idx := ⟨fun a b => funext fun d => d.elim0⟩

/-- The scalar shape's index. -/
def j0 : S_.Idx := fun a => a.elim0

/-- Every entry of the array is a real number. -/
def AllReal {s : Shape} (x : FVec Ideal s .f32) : Prop := ∀ i, ∃ r : ℝ, x i = (r : EReal)

/-- An extended real whose absolute value max x (-x) is below +∞ is a real number. -/
theorem real_of_abs_lt_top (x : EReal) (h : max x (-x) < ⊤) : ∃ r : ℝ, x = (r : EReal) := by
  induction x using EReal.rec with
  | bot => simp at h
  | coe r => exact ⟨r, rfl⟩
  | top => simp at h

/-- The pattern 0x7F800000 denotes +∞. -/
theorem inf_eq_top : FloatOps.ofBits (F := Ideal) .f32 0x7F800000#32 = (⊤ : EReal) := by
  simp [Ideal.ofBits, Ideal.ieee]

/-- An entry that passes the comparison |x| < y, where y is +∞, is a real number. -/
theorem elt_real {s : Shape} (x y : FVec Ideal s .f32) (i : s.Idx) (hy : y i = (⊤ : EReal))
    (e : cmpf .olt (Host.absf x) y i = 1#1) : ∃ r : ℝ, x i = (r : EReal) := by
  apply real_of_abs_lt_top
  have e' : Ideal.cmp .olt (max (x i) (-(x i))) (y i) = 1#1 := e
  rw [hy] at e'
  by_contra hn
  simp [Ideal.cmp, hn] at e'

/-- An array all of whose entries pass the test (the conjunction over all entries, reduced into the
    scalar shape, is one) has real entries. -/
theorem real_of_all {s u : Shape} {axes : List (Fin s.rank)} (hr : s.ReducesTo axes S_) (hu : 0 < u.numel)
    (x y : FVec Ideal s .f32) (hy : ∀ i, y i = (⊤ : EReal)) (init : u.Idx → BitVec 1) (j : S_.Idx)
    (e : Host.reduce IntOp.andi (cmpf .olt (Host.absf x) y) init hr hu j = 1#1) : AllReal x :=
  fun i => elt_real x y i (hy i) (Host.reduce_andi_all _ init hr hu j e i)

/-- The test against +∞ broadcast over the array's shape. -/
theorem real_bcast {s u : Shape} {axes : List (Fin s.rank)} (hb : S_.BroadcastsInDim s (![] : Fin 0 → Fin s.rank))
    (hr : s.ReducesTo axes S_) (hu : 0 < u.numel) (x : FVec Ideal s .f32) (init : u.Idx → BitVec 1) (j : S_.Idx)
    (e : Host.reduce IntOp.andi (cmpf .olt (Host.absf x) (broadcastInDim s ![] hb (constant S_ .f32 0x7F800000#32)))
      init hr hu j = 1#1) : AllReal x :=
  real_of_all hr hu x _ (fun _ => inf_eq_top) init j e

/-- The test of a scalar against +∞ itself. -/
theorem real_scalar {u : Shape} {axes : List (Fin S_.rank)} (hr : S_.ReducesTo axes S_) (hu : 0 < u.numel)
    (x : FVec Ideal S_ .f32) (init : u.Idx → BitVec 1) (j : S_.Idx)
    (e : Host.reduce IntOp.andi (cmpf .olt (Host.absf x) (constant S_ .f32 0x7F800000#32)) init hr hu j = 1#1) :
    AllReal x :=
  real_of_all hr hu x _ (fun _ => inf_eq_top) init j e

/-- A conjunction of two scalar words that is one: both are one. -/
theorem and_one {s : Shape} (p q : IVec s 1) (j : s.Idx) (h : andi p q j = 1#1) : p j = 1#1 ∧ q j = 1#1 :=
  IntOp.andi_eq_one.1 h

section Parts

variable [hPre : Cert.Pre_finite_inputs.Facts]

/-- The last part's word is one: so is the word it was handed. -/
theorem part5_head (a18 : FVec Ideal S512 .f32) (a19 : FVec Ideal S512x16 .f32) (a20 : FVec Ideal S16 .f32) (v81 : IVec S_ 1) (v84 : IVec S512 1) (j : S_.Idx)
    (h : fn_part5 (F := Ideal) a18 a19 a20 v81 v84 j = 1#1) : v81 j = 1#1 := by
  dsimp only [fn_part5] at h
  exact (and_one _ _ j (and_one _ _ j (and_one _ _ j (and_one _ _ j h).1).1).1).1

/-- The fourth part's word is one: so is the word it was handed. -/
theorem part4_head (a15 : FVec Ideal S512x512 .f32) (a16 : FVec Ideal S512 .f32) (a17 : FVec Ideal S512 .f32) (a18 : FVec Ideal S512 .f32) (a19 : FVec Ideal S512x16 .f32) (a20 : FVec Ideal S16 .f32) (v66 : IVec S_ 1) (v67 : FVec Ideal S512 .f32) (j : S_.Idx)
    (h : fn_part4 (F := Ideal) a15 a16 a17 a18 a19 a20 v66 v67 j = 1#1) : v66 j = 1#1 := by
  dsimp only [fn_part4] at h
  have h5 := part5_head _ _ _ _ _ j h
  exact (and_one _ _ j (and_one _ _ j (and_one _ _ j h5).1).1).1

/-- The third part's word is one: so are the word it was handed and the test it finishes. -/
theorem part3_head (a11 : FVec Ideal S1024x512 .f32) (a12 : FVec Ideal S512 .f32) (a13 : FVec Ideal S1024x512 .f32) (a14 : FVec Ideal S512 .f32) (a15 : FVec Ideal S512x512 .f32) (a16 : FVec Ideal S512 .f32) (a17 : FVec Ideal S512 .f32) (a18 : FVec Ideal S512 .f32) (a19 : FVec Ideal S512x16 .f32) (a20 : FVec Ideal S16 .f32) (v47 v49 c19 : IVec S_ 1) (j : S_.Idx)
    (h : fn_part3 (F := Ideal) a11 a12 a13 a14 a15 a16 a17 a18 a19 a20 v47 v49 c19 j = 1#1) :
    v47 j = 1#1 ∧ Host.reduce IntOp.andi v49 c19 Facts.reducesTo_S_S_d Facts.h_S_ j = 1#1 := by
  dsimp only [fn_part3] at h
  have h4 := part4_head _ _ _ _ _ _ _ _ j h
  exact and_one _ _ j (and_one _ _ j (and_one _ _ j (and_one _ _ j h4).1).1).1

/-- The second part's word is one: so is the word it was handed, and the four arrays it tests are real. -/
theorem part2_real (a7 : FVec Ideal S_ .f32) (a8 : FVec Ideal S512x512 .f32) (a9 : FVec Ideal S512x512 .f32) (a10 : FVec Ideal S_ .f32) (a11 : FVec Ideal S1024x512 .f32) (a12 : FVec Ideal S512 .f32) (a13 : FVec Ideal S1024x512 .f32) (a14 : FVec Ideal S512 .f32) (a15 : FVec Ideal S512x512 .f32) (a16 : FVec Ideal S512 .f32) (a17 : FVec Ideal S512 .f32) (a18 : FVec Ideal S512 .f32) (a19 : FVec Ideal S512x16 .f32) (a20 : FVec Ideal S16 .f32) (v33 : IVec S_ 1) (j : S_.Idx)
    (h : fn_part2 (F := Ideal) a7 a8 a9 a10 a11 a12 a13 a14 a15 a16 a17 a18 a19 a20 v33 j = 1#1) :
    v33 j = 1#1 ∧ AllReal a7 ∧ AllReal a8 ∧ AllReal a9 ∧ AllReal a10 := by
  dsimp only [fn_part2] at h
  obtain ⟨h47, h50⟩ := part3_head _ _ _ _ _ _ _ _ _ _ _ _ _ j h
  obtain ⟨h42, h46⟩ := and_one _ _ j h47
  obtain ⟨h37, h41⟩ := and_one _ _ j h42
  obtain ⟨h33, h36⟩ := and_one _ _ j h37
  exact ⟨h33, real_scalar _ _ a7 _ j h36, real_bcast _ _ _ a8 _ j h41, real_bcast _ _ _ a9 _ j h46,
    real_scalar _ _ a10 _ j h50⟩

/-- The first part's word is one: so is the word it was handed, and six arrays are real. -/
theorem part1_real (a4 : FVec Ideal S4096x1024 .f32) (a5 : FVec Ideal S1024x512 .f32) (a6 : FVec Ideal S1024x512 .f32) (a7 : FVec Ideal S_ .f32) (a8 : FVec Ideal S512x512 .f32) (a9 : FVec Ideal S512x512 .f32) (a10 : FVec Ideal S_ .f32) (a11 : FVec Ideal S1024x512 .f32) (a12 : FVec Ideal S512 .f32) (a13 : FVec Ideal S1024x512 .f32) (a14 : FVec Ideal S512 .f32) (a15 : FVec Ideal S512x512 .f32) (a16 : FVec Ideal S512 .f32) (a17 : FVec Ideal S512 .f32) (a18 : FVec Ideal S512 .f32) (a19 : FVec Ideal S512x16 .f32) (a20 : FVec Ideal S16 .f32) (v13 : IVec S_ 1) (v16 : IVec S4096x4096 1) (j : S_.Idx)
    (h : fn_part1 (F := Ideal) a4 a5 a6 a7 a8 a9 a10 a11 a12 a13 a14 a15 a16 a17 a18 a19 a20 v13 v16 j = 1#1) :
    v13 j = 1#1 ∧ AllReal a5 ∧ AllReal a6 ∧ AllReal a7 ∧ AllReal a8 ∧ AllReal a9 ∧ AllReal a10 := by
  dsimp only [fn_part1] at h
  obtain ⟨h33, r7, r8, r9, r10⟩ := part2_real _ _ _ _ _ _ _ _ _ _ _ _ _ _ _ j h
  obtain ⟨h28, h32⟩ := and_one _ _ j h33
  obtain ⟨h23, h27⟩ := and_one _ _ j h28
  obtain ⟨h18, h22⟩ := and_one _ _ j h23
  obtain ⟨h13, h17⟩ := and_one _ _ j h18
  exact ⟨h13, real_bcast _ _ _ a5 _ j h27, real_bcast _ _ _ a6 _ j h32, r7, r8, r9, r10⟩

/-- The whole word is one: the eight arrays the two gated layers take are real. -/
theorem fn_real (a0 : FVec Ideal S4096x1024 .f32) (a1 : FVec Ideal S4096x4096 .f32) (a2 : FVec Ideal S4096x4096 .f32) (a3 : FVec Ideal S4096x4096 .f32) (a4 : FVec Ideal S4096x1024 .f32) (a5 : FVec Ideal S1024x512 .f32) (a6 : FVec Ideal S1024x512 .f32) (a7 : FVec Ideal S_ .f32) (a8 : FVec Ideal S512x512 .f32) (a9 : FVec Ideal S512x512 .f32) (a10 : FVec Ideal S_ .f32) (a11 : FVec Ideal S1024x512 .f32) (a12 : FVec Ideal S512 .f32) (a13 : FVec Ideal S1024x512 .f32) (a14 : FVec Ideal S512 .f32) (a15 : FVec Ideal S512x512 .f32) (a16 : FVec Ideal S512 .f32) (a17 : FVec Ideal S512 .f32) (a18 : FVec Ideal S512 .f32) (a19 : FVec Ideal S512x16 .f32) (a20 : FVec Ideal S16 .f32) (j : S_.Idx)
    (h : fn (F := Ideal) a0 a1 a2 a3 a4 a5 a6 a7 a8 a9 a10 a11 a12 a13 a14 a15 a16 a17 a18 a19 a20 j = 1#1) :
    AllReal a0 ∧ AllReal a1 ∧ AllReal a5 ∧ AllReal a6 ∧ AllReal a7 ∧ AllReal a8 ∧ AllReal a9 ∧ AllReal a10 := by
  dsimp only [fn] at h
  obtain ⟨h13, r5, r6, r7, r8, r9, r10⟩ := part1_real _ _ _ _ _ _ _ _ _ _ _ _ _ _ _ _ _ _ _ j h
  obtain ⟨h8, h12⟩ := and_one _ _ j h13
  obtain ⟨h3, h7⟩ := and_one _ _ j h8
  exact ⟨real_bcast _ _ _ a0 _ j h3, real_bcast _ _ _ a1 _ j h7, r5, r6, r7, r8, r9, r10⟩

end Parts

/-- Under the precondition, on every device, the inputs of the two gated layers are arrays of real numbers. -/
theorem real_of_pre [hPre : Cert.Pre_finite_inputs.Facts] (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, ∃ r : ℝ, (m ((c.tc : Thread _ _).loc Cert.KernelIdeal.main_arg0) : Cert.KernelIdeal.S4096x1024.Idx → EReal) i = (r : EReal))
    ∧ (∀ i, ∃ r : ℝ, (m ((c.tc : Thread _ _).loc Cert.KernelIdeal.main_arg1) : Cert.KernelIdeal.S4096x4096.Idx → EReal) i = (r : EReal))
    ∧ (∀ i, ∃ r : ℝ, (m ((c.tc : Thread _ _).loc Cert.KernelIdeal.main_arg5) : Cert.KernelIdeal.S1024x512.Idx → EReal) i = (r : EReal))
    ∧ (∀ i, ∃ r : ℝ, (m ((c.tc : Thread _ _).loc Cert.KernelIdeal.main_arg6) : Cert.KernelIdeal.S1024x512.Idx → EReal) i = (r : EReal))
    ∧ (∀ i, ∃ r : ℝ, (m ((c.tc : Thread _ _).loc Cert.KernelIdeal.main_arg7) : Cert.KernelIdeal.S_.Idx → EReal) i = (r : EReal))
    ∧ (∀ i, ∃ r : ℝ, (m ((c.tc : Thread _ _).loc Cert.KernelIdeal.main_arg8) : Cert.KernelIdeal.S512x512.Idx → EReal) i = (r : EReal))
    ∧ (∀ i, ∃ r : ℝ, (m ((c.tc : Thread _ _).loc Cert.KernelIdeal.main_arg9) : Cert.KernelIdeal.S512x512.Idx → EReal) i = (r : EReal))
    ∧ (∀ i, ∃ r : ℝ, (m ((c.tc : Thread _ _).loc Cert.KernelIdeal.main_arg10) : Cert.KernelIdeal.S_.Idx → EReal) i = (r : EReal)) :=
  fn_real _ _ _ _ _ _ _ _ _ _ _ _ _ _ _ _ _ _ _ _ _ j0 (congrFun (h c) j0)

end Cert.Finite

end
-- ==== Proof.lean ====
/- Both programs compute the same network. The kernel program is fourteen tiled kernels among host operations: ten
   matrix products accumulated block by block along the contracted axis (two with an added operand and a rectifier, two with a
   bias row), three attention-score rows, and one classifier with a row log-softmax. Each kernel's result array is one
   whole-array function of its operand arrays; chained through the program they give one function of the twenty-one argument
   arrays. The reference computes its own composition of plain matrix products. The two compositions agree on the extended
   reals: they differ in where the gate 1/(1+e^{-bl}) multiplies (the weights before the product, or the product after it),
   which needs the entries to be real numbers — the precondition says they are —, and otherwise only in the order and
   grouping of sums and products. Every run terminates without a fault and leaves the arguments as they were. -/
import proofs.«157173_j56882546868342_2_alg».proof.Defs
import proofs.«157173_j56882546868342_2_alg».proof.Proof.Gen.Kernel
import proofs.«157173_j56882546868342_2_alg».proof.Proof.Gen.KernelIdeal
import proofs.«157173_j56882546868342_2_alg».proof.Proof.Gen.ReferenceIdeal
import proofs.«157173_j56882546868342_2_alg».proof.Proof.Gen.Pre_finite_inputs
import proofs.«157173_j56882546868342_2_alg».proof.Proof.KernelH.Run
import proofs.«157173_j56882546868342_2_alg».proof.Proof.KernelIdealH.Run
import proofs.«157173_j56882546868342_2_alg».proof.Proof.KernelIdealH.KernelValue
import proofs.«157173_j56882546868342_2_alg».proof.Proof.KernelIdealH.Bridge
import proofs.«157173_j56882546868342_2_alg».proof.Proof.RefValue
import proofs.«157173_j56882546868342_2_alg».proof.Proof.Finite
import Idealize.ShloMosaic.Adequacy
import Idealize.ShloMosaic.Init

noncomputable section

namespace Cert.Proof

open Idealize.ShloMosaic Idealize.SL.Sem Cert.Spec

/-- The word-level program runs to the end and leaves its arguments unchanged. -/
theorem frame_k : Cert.frame_Kernel (hKernel := Cert.Kernel.Gen.facts) (hPre_finite_inputs := Cert.Pre_finite_inputs.Gen.facts) :=
  fun m ρ _ => Cert.Kernel.Gen.frame m ρ

/-- So does the idealized program. -/
theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference's run, with its result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- The reference's composition at one family of arrays is the kernel program's at an equal family, when the gated
    layers' inputs are real numbers. -/
theorem refOut_eq_kernelOut_of_eq
    (x0 : Arr2 4096 1024) (x1 : Arr2 4096 4096) (x2 : Arr2 4096 4096) (x3 : Arr2 4096 4096) (x4 : Arr2 4096 1024) (x5 : Arr2 1024 512) (x6 : Arr2 1024 512) (x7 : Arr0) (x8 : Arr2 512 512) (x9 : Arr2 512 512) (x10 : Arr0) (x11 : Arr2 1024 512) (x12 : Arr1 512) (x13 : Arr2 1024 512) (x14 : Arr1 512) (x15 : Arr2 512 512) (x16 : Arr1 512) (x17 : Arr1 512) (x18 : Arr1 512) (x19 : Arr2 512 16) (x20 : Arr1 16)
    (y0 : Arr2 4096 1024) (y1 : Arr2 4096 4096) (y2 : Arr2 4096 4096) (y3 : Arr2 4096 4096) (y4 : Arr2 4096 1024) (y5 : Arr2 1024 512) (y6 : Arr2 1024 512) (y7 : Arr0) (y8 : Arr2 512 512) (y9 : Arr2 512 512) (y10 : Arr0) (y11 : Arr2 1024 512) (y12 : Arr1 512) (y13 : Arr2 1024 512) (y14 : Arr1 512) (y15 : Arr2 512 512) (y16 : Arr1 512) (y17 : Arr1 512) (y18 : Arr1 512) (y19 : Arr2 512 16) (y20 : Arr1 16)
    (e0 : y0 = x0) (e1 : y1 = x1) (e2 : y2 = x2) (e3 : y3 = x3) (e4 : y4 = x4) (e5 : y5 = x5) (e6 : y6 = x6) (e7 : y7 = x7) (e8 : y8 = x8) (e9 : y9 = x9) (e10 : y10 = x10) (e11 : y11 = x11) (e12 : y12 = x12) (e13 : y13 = x13) (e14 : y14 = x14) (e15 : y15 = x15) (e16 : y16 = x16) (e17 : y17 = x17) (e18 : y18 = x18) (e19 : y19 = x19) (e20 : y20 = x20)
    (h0 : ∀ i, ∃ r : ℝ, x0 i = (r : EReal)) (h1 : ∀ i, ∃ r : ℝ, x1 i = (r : EReal)) (h5 : ∀ i, ∃ r : ℝ, x5 i = (r : EReal)) (h6 : ∀ i, ∃ r : ℝ, x6 i = (r : EReal)) (h7 : ∀ i, ∃ r : ℝ, x7 i = (r : EReal)) (h8 : ∀ i, ∃ r : ℝ, x8 i = (r : EReal)) (h9 : ∀ i, ∃ r : ℝ, x9 i = (r : EReal)) (h10 : ∀ i, ∃ r : ℝ, x10 i = (r : EReal)) :
    Cert.Spec.refOut y0 y1 y2 y3 y4 y5 y6 y7 y8 y9 y10 y11 y12 y13 y14 y15 y16 y17 y18 y19 y20 = Cert.Spec.kernelOut x0 x1 x2 x3 x4 x5 x6 x7 x8 x9 x10 x11 x12 x13 x14 x15 x16 x17 x18 x19 x20 := by
  subst e0 e1 e2 e3 e4 e5 e6 e7 e8 e9 e10 e11 e12 e13 e14 e15 e16 e17 e18 e19 e20
  exact (Cert.Spec.out_eq _ _ _ _ _ _ _ _ _ _ _ _ _ _ _ _ _ _ _ _ _ h0 h1 h5 h6 h7 h8 h9 h10).symm

set_option maxHeartbeats 1600000 in
/-- The two networks' results agree on the extended reals, whenever the precondition holds: the kernel program leaves its
    composition of the twenty-one arrays, the reference its own, and the two compositions are one function where the
    gated layers' inputs are real numbers. -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' hpre hagree
  refine ⟨fun c => Cert.Spec.kernelOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)), ?_, ?_⟩
  · exact (θ_run (Cert.KernelIdeal.defs (F := Ideal)) _ _).mono
      (fun r h c => ⟨(h c).1.trans (Cert.KernelIdeal.Gen.kernel_value m c), (h c).2⟩)
      (Cert.KernelIdeal.Gen.run_value (F := Ideal) m ρ)
  · refine (θ_run (Cert.ReferenceIdeal.defs (F := Ideal)) _ _).mono
      (fun r h c => ⟨(h c).1.trans ((Cert.ReferenceIdeal.RefValue.ref_value m' c).trans ?_), (h c).2⟩)
      (Cert.ReferenceIdeal.Value.run (F := Ideal) m' ρ')
    obtain ⟨a0, a1, a2, a3, a4, a5, a6, a7, a8, a9, a10, a11, a12, a13, a14, a15, a16, a17, a18, a19, a20⟩ := hagree c
    obtain ⟨f0, f1, f5, f6, f7, f8, f9, f10⟩ := Cert.Finite.real_of_pre m hpre c
    exact refOut_eq_kernelOut_of_eq _ _ _ _ _ _ _ _ _ _ _ _ _ _ _ _ _ _ _ _ _ _ _ _ _ _ _ _ _ _ _ _ _ _ _ _ _ _ _ _ _ _
      a0 a1 a2 a3 a4 a5 a6 a7 a8 a9 a10 a11 a12 a13 a14 a15 a16 a17 a18 a19 a20 f0 f1 f5 f6 f7 f8 f9 f10

/-- Everything the certificate claims. -/
theorem claim : Cert.Claim := ⟨Cert.Kernel.Gen.facts, Cert.KernelIdeal.Gen.facts, Cert.ReferenceIdeal.Gen.facts, Cert.Pre_finite_inputs.Gen.facts, frame_k, frame_ki, frame_ri, trivial, algebraic⟩
end Cert.Proof

end
